-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v166)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v166) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v266) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1280000 : Shape := ⟨2, ![2, 1280000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg22 : FVec F S64x1 .f32) (main_arg23 : FVec F S1 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64x1 .f32 := Host.absf main_arg22
  let main_cst_34 : FVec F S_ .f32 := constant S_ .f32 0x7F800000#32
  let main_v90 : FVec F S64x1 .f32 := broadcastInDim S64x1 ![] bcast_S_S64x1 main_cst_34
  let main_v91 : IVec S64x1 1 := cmpf .olt main_v89 main_v90
  let main_c_35 : IVec S_ 1 := constantI S_ 1 1#1
  let main_v92 : IVec S_ 1 := (fun x v => Host.reduce IntOp.andi x v reducesTo_S64x1_S_d0_1 h_S_) main_v91 main_c_35
  let main_v93 : IVec S_ 1 := andi main_v88 main_v92
  let main_v94 : FVec F S1 .f32 := Host.absf main_arg23
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  main_v98

def fn_part4 {F : FTy → Type} [FloatOps F] (main_arg18 : FVec F S128x64 .f32) (main_arg19 : FVec F S64 .f32) (main_arg20 : FVec F S64x64 .f32) (main_arg21 : FVec F S64 .f32) (main_arg22 : FVec F S64x1 .f32) (main_arg23 : FVec F S1 .f32) (main_v63 : IVec S_ 1) (main_v67 : IVec S_ 1) : IVec S_ 1 :=
  let main_v68 : IVec S_ 1 := andi main_v63 main_v67
  let main_v69 : FVec F S128x64 .f32 := Host.absf main_arg18
  let main_cst_26 : FVec F S_ .f32 := constant S_ .f32 0x7F800000#32
  let main_v70 : FVec F S128x64 .f32 := broadcastInDim S128x64 ![] bcast_S_S128x64 main_cst_26
  let main_v71 : IVec S128x64 1 := cmpf .olt main_v69 main_v70
  let main_c_27 : IVec S_ 1 := constantI S_ 1 1#1
  let main_v72 : IVec S_ 1 := (fun x v => Host.reduce IntOp.andi x v reducesTo_S128x64_S_d0_1 h_S_) main_v71 main_c_27
  let main_v73 : IVec S_ 1 := andi main_v68 main_v72
  let main_v74 : FVec F S64 .f32 := Host.absf main_arg19
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x64 .f32 := Host.absf main_arg20
  let main_cst_30 : FVec F S_ .f32 := constant S_ .f32 0x7F800000#32
  let main_v80 : FVec F S64x64 .f32 := broadcastInDim S64x64 ![] bcast_S_S64x64 main_cst_30
  let main_v81 : IVec S64x64 1 := cmpf .olt main_v79 main_v80
  let main_c_31 : IVec S_ 1 := constantI S_ 1 1#1
  let main_v82 : IVec S_ 1 := (fun x v => Host.reduce IntOp.andi x v reducesTo_S64x64_S_d0_1 h_S_) main_v81 main_c_31
  let main_v83 : IVec S_ 1 := andi main_v78 main_v82
  let main_v84 : FVec F S64 .f32 := Host.absf main_arg21
  let main_cst_32 : FVec F S_ .f32 := constant S_ .f32 0x7F800000#32
  fn_part5 (F := F) main_arg22 main_arg23 main_v83 main_v84 main_cst_32

def fn_part3 {F : FTy → Type} [FloatOps F] (main_arg15 : FVec F S128 .f32) (main_arg16 : FVec F S128 .f32) (main_arg17 : FVec F S128 .f32) (main_arg18 : FVec F S128x64 .f32) (main_arg19 : FVec F S64 .f32) (main_arg20 : FVec F S64x64 .f32) (main_arg21 : FVec F S64 .f32) (main_arg22 : FVec F S64x1 .f32) (main_arg23 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg15
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg16
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg17
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg18 main_arg19 main_arg20 main_arg21 main_arg22 main_arg23 main_v63 main_v67

def fn_part2 {F : FTy → Type} [FloatOps F] (main_arg11 : FVec F S128 .f32) (main_arg12 : FVec F S128 .f32) (main_arg13 : FVec F S128 .f32) (main_arg14 : FVec F S128x128 .f32) (main_arg15 : FVec F S128 .f32) (main_arg16 : FVec F S128 .f32) (main_arg17 : FVec F S128 .f32) (main_arg18 : FVec F S128x64 .f32) (main_arg19 : FVec F S64 .f32) (main_arg20 : FVec F S64x64 .f32) (main_arg21 : FVec F S64 .f32) (main_arg22 : FVec F S64x1 .f32) (main_arg23 : FVec F S1 .f32) (main_v33 : IVec S_ 1) : IVec S_ 1 :=
  let main_v34 : FVec F S128 .f32 := Host.absf main_arg11
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg12
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg13
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg14
  let main_cst_18 : FVec F S_ .f32 := constant S_ .f32 0x7F800000#32
  let main_v50 : FVec F S128x128 .f32 := broadcastInDim S128x128 ![] bcast_S_S128x128 main_cst_18
  fn_part3 (F := F) main_arg15 main_arg16 main_arg17 main_arg18 main_arg19 main_arg20 main_arg21 main_arg22 main_arg23 main_v48 main_v49 main_v50

def fn_part1 {F : FTy → Type} [FloatOps F] (main_arg8 : FVec F S128 .f32) (main_arg9 : FVec F S128 .f32) (main_arg10 : FVec F S128x128 .f32) (main_arg11 : FVec F S128 .f32) (main_arg12 : FVec F S128 .f32) (main_arg13 : FVec F S128 .f32) (main_arg14 : FVec F S128x128 .f32) (main_arg15 : FVec F S128 .f32) (main_arg16 : FVec F S128 .f32) (main_arg17 : FVec F S128 .f32) (main_arg18 : FVec F S128x64 .f32) (main_arg19 : FVec F S64 .f32) (main_arg20 : FVec F S64x64 .f32) (main_arg21 : FVec F S64 .f32) (main_arg22 : FVec F S64x1 .f32) (main_arg23 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg8
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg9
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg10
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg11 main_arg12 main_arg13 main_arg14 main_arg15 main_arg16 main_arg17 main_arg18 main_arg19 main_arg20 main_arg21 main_arg22 main_arg23 main_v33

def fn {F : FTy → Type} [FloatOps F] (main_arg0 : FVec F S100000x64 .f32) (main_arg1 : IVec S2x1280000 32) (main_arg2 : IVec S100000 32) (main_arg3 : FVec F S100000x64 .f32) (main_arg4 : IVec S2x1280000 32) (main_arg5 : IVec S100000 32) (main_arg6 : FVec F S64x128 .f32) (main_arg7 : FVec F S128 .f32) (main_arg8 : FVec F S128 .f32) (main_arg9 : FVec F S128 .f32) (main_arg10 : FVec F S128x128 .f32) (main_arg11 : FVec F S128 .f32) (main_arg12 : FVec F S128 .f32) (main_arg13 : FVec F S128 .f32) (main_arg14 : FVec F S128x128 .f32) (main_arg15 : FVec F S128 .f32) (main_arg16 : FVec F S128 .f32) (main_arg17 : FVec F S128 .f32) (main_arg18 : FVec F S128x64 .f32) (main_arg19 : FVec F S64 .f32) (main_arg20 : FVec F S64x64 .f32) (main_arg21 : FVec F S64 .f32) (main_arg22 : FVec F S64x1 .f32) (main_arg23 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg3
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64x128 .f32 := Host.absf main_arg6
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg7
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S100000x64 : Shape := ⟨2, ![100000, 64]⟩
abbrev S2x1280000 : Shape := ⟨2, ![2, 1280000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1280000 : Shape := ⟨2, ![1, 1280000]⟩
abbrev S1280000 : Shape := ⟨1, ![1280000]⟩
abbrev S100000x1 : Shape := ⟨2, ![100000, 1]⟩
abbrev S1x128 : Shape := ⟨2, ![1, 128]⟩
abbrev S_ : Shape := ⟨0, ![]⟩
abbrev S1280000x1 : Shape := ⟨2, ![1280000, 1]⟩
abbrev S1280000x64 : Shape := ⟨2, ![1280000, 64]⟩
abbrev S100000x128 : Shape := ⟨2, ![100000, 128]⟩
abbrev S10000x64 : Shape := ⟨2, ![10000, 64]⟩
abbrev S10000x128 : Shape := ⟨2, ![10000, 128]⟩
abbrev S1280000x128 : Shape := ⟨2, ![1280000, 128]⟩
abbrev S1x64 : Shape := ⟨2, ![1, 64]⟩
abbrev S256x64 : Shape := ⟨2, ![256, 64]⟩
abbrev S10000x1 : Shape := ⟨2, ![10000, 1]⟩
abbrev S256x128 : Shape := ⟨2, ![256, 128]⟩
abbrev S256x1 : Shape := ⟨2, ![256, 1]⟩
abbrev S10000x256 : Shape := ⟨2, ![10000, 256]⟩
abbrev S1x1 : Shape := ⟨2, ![1, 1]⟩

abbrev nBuf : Space → Nat
  | .hbm => 239
  | .vmem => 121
  | .smem => 0
  | _ => 0

abbrev hbmTy0_0 (i : Nat) : BufTy := match i % 128 with
  | 0 => ⟨S100000x64, .f32⟩
  | 1 => ⟨S2x1280000, .i32⟩
  | 2 => ⟨S100000, .i32⟩
  | 3 => ⟨S100000x64, .f32⟩
  | 4 => ⟨S2x1280000, .i32⟩
  | 5 => ⟨S100000, .i32⟩
  | 6 => ⟨S64x128, .f32⟩
  | 7 => ⟨S128, .f32⟩
  | 8 => ⟨S128, .f32⟩
  | 9 => ⟨S128, .f32⟩
  | 10 => ⟨S128x128, .f32⟩
  | 11 => ⟨S128, .f32⟩
  | 12 => ⟨S128, .f32⟩
  | 13 => ⟨S128, .f32⟩
  | 14 => ⟨S128x128, .f32⟩
  | 15 => ⟨S128, .f32⟩
  | 16 => ⟨S128, .f32⟩
  | 17 => ⟨S128, .f32⟩
  | 18 => ⟨S128x64, .f32⟩
  | 19 => ⟨S64, .f32⟩
  | 20 => ⟨S64x64, .f32⟩
  | 21 => ⟨S64, .f32⟩
  | 22 => ⟨S64x1, .f32⟩
  | 23 => ⟨S1, .f32⟩
  | 24 => ⟨S1x1280000, .i32⟩
  | 25 => ⟨S1280000, .i32⟩
  | 26 => ⟨S1x1280000, .i32⟩
  | 27 => ⟨S1280000, .i32⟩
  | 28 => ⟨S100000x1, .i32⟩
  | 29 => ⟨S1x128, .f32⟩
  | 30 => ⟨S1x128, .f32⟩
  | 31 => ⟨S1x128, .f32⟩
  | 32 => ⟨S_, .i32⟩
  | 33 => ⟨S1280000, .i32⟩
  | 34 => ⟨S1280000, .i1⟩
  | 35 => ⟨S_, .i32⟩
  | 36 => ⟨S1280000, .i32⟩
  | 37 => ⟨S1280000, .i32⟩
  | 38 => ⟨S1280000, .i32⟩
  | 39 => ⟨S1280000x1, .i32⟩
  | 40 => ⟨S1280000x64, .f32⟩
  | 41 => ⟨S_, .f32⟩
  | 42 => ⟨S100000x64, .f32⟩
  | 43 => ⟨S1280000x1, .i32⟩
  | 44 => ⟨S100000x64, .f32⟩
  | 45 => ⟨S100000x64, .f32⟩
  | 46 => ⟨S100000x128, .f32⟩
  | 47 => ⟨S1x128, .f32⟩
  | 48 => ⟨S1x128, .f32⟩
  | 49 => ⟨S_, .f32⟩
  | 50 => ⟨S1x128, .f32⟩
  | 51 => ⟨S1x128, .f32⟩
  | 52 => ⟨S_, .f32⟩
  | 53 => ⟨S1x128, .f32⟩
  | 54 => ⟨S1x128, .f32⟩
  | 55 => ⟨S1x128, .f32⟩
  | 56 => ⟨S1x128, .f32⟩
  | 57 => ⟨S_, .f32⟩
  | 58 => ⟨S1x128, .f32⟩
  | 59 => ⟨S1x128, .f32⟩
  | 60 => ⟨S1x128, .f32⟩
  | 61 => ⟨S100000x128, .f32⟩
  | 62 => ⟨S1x128, .f32⟩
  | 63 => ⟨S1x128, .f32⟩
  | 64 => ⟨S1x128, .f32⟩
  | 65 => ⟨S_, .i32⟩
  | 66 => ⟨S1280000, .i32⟩
  | 67 => ⟨S1280000, .i1⟩
  | 68 => ⟨S_, .i32⟩
  | 69 => ⟨S1280000, .i32⟩
  | 70 => ⟨S1280000, .i32⟩
  | 71 => ⟨S1280000, .i32⟩
  | 72 => ⟨S1280000x1, .i32⟩
  | 73 => ⟨S1280000x128, .f32⟩
  | 74 => ⟨S_, .f32⟩
  | 75 => ⟨S100000x128, .f32⟩
  | 76 => ⟨S1280000x1, .i32⟩
  | 77 => ⟨S100000x128, .f32⟩
  | 78 => ⟨S100000x128, .f32⟩
  | 79 => ⟨S100000x128, .f32⟩
  | 80 => ⟨S1x128, .f32⟩
  | 81 => ⟨S1x128, .f32⟩
  | 82 => ⟨S_, .f32⟩
  | 83 => ⟨S1x128, .f32⟩
  | 84 => ⟨S1x128, .f32⟩
  | 85 => ⟨S_, .f32⟩
  | 86 => ⟨S1x128, .f32⟩
  | 87 => ⟨S1x128, .f32⟩
  | 88 => ⟨S1x128, .f32⟩
  | 89 => ⟨S1x128, .f32⟩
  | 90 => ⟨S_, .f32⟩
  | 91 => ⟨S1x128, .f32⟩
  | 92 => ⟨S1x128, .f32⟩
  | 93 => ⟨S1x128, .f32⟩
  | 94 => ⟨S100000x128, .f32⟩
  | 95 => ⟨S1x128, .f32⟩
  | 96 => ⟨S1x128, .f32⟩
  | 97 => ⟨S1x128, .f32⟩
  | 98 => ⟨S_, .i32⟩
  | 99 => ⟨S1280000, .i32⟩
  | 100 => ⟨S1280000, .i1⟩
  | 101 => ⟨S_, .i32⟩
  | 102 => ⟨S1280000, .i32⟩
  | 103 => ⟨S1280000, .i32⟩
  | 104 => ⟨S1280000, .i32⟩
  | 105 => ⟨S1280000x1, .i32⟩
  | 106 => ⟨S1280000x128, .f32⟩
  | 107 => ⟨S_, .f32⟩
  | 108 => ⟨S100000x128, .f32⟩
  | 109 => ⟨S1280000x1, .i32⟩
  | 110 => ⟨S100000x128, .f32⟩
  | 111 => ⟨S100000x128, .f32⟩
  | 112 => ⟨S100000x128, .f32⟩
  | 113 => ⟨S1x128, .f32⟩
  | 114 => ⟨S1x128, .f32⟩
  | 115 => ⟨S_, .f32⟩
  | 116 => ⟨S1x128, .f32⟩
  | 117 => ⟨S1x128, .f32⟩
  | 118 => ⟨S_, .f32⟩
  | 119 => ⟨S1x128, .f32⟩
  | 120 => ⟨S1x128, .f32⟩
  | 121 => ⟨S1x128, .f32⟩
  | 122 => ⟨S1x128, .f32⟩
  | 123 => ⟨S_, .f32⟩
  | 124 => ⟨S1x128, .f32⟩
  | 125 => ⟨S1x128, .f32⟩
  | 126 => ⟨S1x128, .f32⟩
  | 127 => ⟨S100000x128, .f32⟩
  | _ => ⟨S100000x64, .f32⟩

abbrev hbmTy0_1 (i : Nat) : BufTy := match i % 128 with
  | 0 => ⟨S1x64, .f32⟩
  | 1 => ⟨S256x64, .f32⟩
  | 2 => ⟨S1x1280000, .i32⟩
  | 3 => ⟨S1280000, .i32⟩
  | 4 => ⟨S1x1280000, .i32⟩
  | 5 => ⟨S1280000, .i32⟩
  | 6 => ⟨S100000x1, .i32⟩
  | 7 => ⟨S1x128, .f32⟩
  | 8 => ⟨S1x128, .f32⟩
  | 9 => ⟨S1x128, .f32⟩
  | 10 => ⟨S_, .i32⟩
  | 11 => ⟨S1280000, .i32⟩
  | 12 => ⟨S1280000, .i1⟩
  | 13 => ⟨S_, .i32⟩
  | 14 => ⟨S1280000, .i32⟩
  | 15 => ⟨S1280000, .i32⟩
  | 16 => ⟨S1280000, .i32⟩
  | 17 => ⟨S1280000x1, .i32⟩
  | 18 => ⟨S1280000x64, .f32⟩
  | 19 => ⟨S_, .f32⟩
  | 20 => ⟨S100000x64, .f32⟩
  | 21 => ⟨S1280000x1, .i32⟩
  | 22 => ⟨S100000x64, .f32⟩
  | 23 => ⟨S100000x64, .f32⟩
  | 24 => ⟨S100000x128, .f32⟩
  | 25 => ⟨S1x128, .f32⟩
  | 26 => ⟨S1x128, .f32⟩
  | 27 => ⟨S_, .f32⟩
  | 28 => ⟨S1x128, .f32⟩
  | 29 => ⟨S1x128, .f32⟩
  | 30 => ⟨S_, .f32⟩
  | 31 => ⟨S1x128, .f32⟩
  | 32 => ⟨S1x128, .f32⟩
  | 33 => ⟨S1x128, .f32⟩
  | 34 => ⟨S1x128, .f32⟩
  | 35 => ⟨S_, .f32⟩
  | 36 => ⟨S1x128, .f32⟩
  | 37 => ⟨S1x128, .f32⟩
  | 38 => ⟨S1x128, .f32⟩
  | 39 => ⟨S100000x128, .f32⟩
  | 40 => ⟨S1x128, .f32⟩
  | 41 => ⟨S1x128, .f32⟩
  | 42 => ⟨S1x128, .f32⟩
  | 43 => ⟨S_, .i32⟩
  | 44 => ⟨S1280000, .i32⟩
  | 45 => ⟨S1280000, .i1⟩
  | 46 => ⟨S_, .i32⟩
  | 47 => ⟨S1280000, .i32⟩
  | 48 => ⟨S1280000, .i32⟩
  | 49 => ⟨S1280000, .i32⟩
  | 50 => ⟨S1280000x1, .i32⟩
  | 51 => ⟨S1280000x128, .f32⟩
  | 52 => ⟨S_, .f32⟩
  | 53 => ⟨S100000x128, .f32⟩
  | 54 => ⟨S1280000x1, .i32⟩
  | 55 => ⟨S100000x128, .f32⟩
  | 56 => ⟨S100000x128, .f32⟩
  | 57 => ⟨S100000x128, .f32⟩
  | 58 => ⟨S1x128, .f32⟩
  | 59 => ⟨S1x128, .f32⟩
  | 60 => ⟨S_, .f32⟩
  | 61 => ⟨S1x128, .f32⟩
  | 62 => ⟨S1x128, .f32⟩
  | 63 => ⟨S_, .f32⟩
  | 64 => ⟨S1x128, .f32⟩
  | 65 => ⟨S1x128, .f32⟩
  | 66 => ⟨S1x128, .f32⟩
  | 67 => ⟨S1x128, .f32⟩
  | 68 => ⟨S_, .f32⟩
  | 69 => ⟨S1x128, .f32⟩
  | 70 => ⟨S1x128, .f32⟩
  | 71 => ⟨S1x128, .f32⟩
  | 72 => ⟨S100000x128, .f32⟩
  | 73 => ⟨S1x128, .f32⟩
  | 74 => ⟨S1x128, .f32⟩
  | 75 => ⟨S1x128, .f32⟩
  | 76 => ⟨S_, .i32⟩
  | 77 => ⟨S1280000, .i32⟩
  | 78 => ⟨S1280000, .i1⟩
  | 79 => ⟨S_, .i32⟩
  | 80 => ⟨S1280000, .i32⟩
  | 81 => ⟨S1280000, .i32⟩
  | 82 => ⟨S1280000, .i32⟩
  | 83 => ⟨S1280000x1, .i32⟩
  | 84 => ⟨S1280000x128, .f32⟩
  | 85 => ⟨S_, .f32⟩
  | 86 => ⟨S100000x128, .f32⟩
  | 87 => ⟨S1280000x1, .i32⟩
  | 88 => ⟨S100000x128, .f32⟩
  | 89 => ⟨S100000x128, .f32⟩
  | 90 => ⟨S100000x128, .f32⟩
  | 91 => ⟨S1x128, .f32⟩
  | 92 => ⟨S1x128, .f32⟩
  | 93 => ⟨S_, .f32⟩
  | 94 => ⟨S1x128, .f32⟩
  | 95 => ⟨S1x128, .f32⟩
  | 96 => ⟨S_, .f32⟩
  | 97 => ⟨S1x128, .f32⟩
  | 98 => ⟨S1x128, .f32⟩
  | 99 => ⟨S1x128, .f32⟩
  | 100 => ⟨S1x128, .f32⟩
  | 101 => ⟨S_, .f32⟩
  | 102 => ⟨S1x128, .f32⟩
  | 103 => ⟨S1x128, .f32⟩
  | 104 => ⟨S1x128, .f32⟩
  | 105 => ⟨S100000x128, .f32⟩
  | 106 => ⟨S1x64, .f32⟩
  | 107 => ⟨S256x64, .f32⟩
  | 108 => ⟨S1x64, .f32⟩
  | 109 => ⟨S1x1, .f32⟩
  | 110 => ⟨S256x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S1x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S128x128, .f32⟩
  | .local _ .vmem, ⟨19, _⟩ => ⟨S1x128, .f32⟩
  | .local _ .vmem, ⟨20, _⟩ => ⟨S10000x128, .f32⟩
  | .local _ .vmem, ⟨21, _⟩ => ⟨S10000x128, .f32⟩
  | .local _ .vmem, ⟨22, _⟩ => ⟨S1x128, .f32⟩
  | .local _ .vmem, ⟨23, _⟩ => ⟨S1x128, .f32⟩
  | .local _ .vmem, ⟨24, _⟩ => ⟨S10000x128, .f32⟩
  | .local _ .vmem, ⟨25, _⟩ => ⟨S10000x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S10000x128, .f32⟩
  | .local _ .vmem, ⟨31, _⟩ => ⟨S10000x128, .f32⟩
  | .local _ .vmem, ⟨32, _⟩ => ⟨S10000x128, .f32⟩
  | .local _ .vmem, ⟨33, _⟩ => ⟨S10000x128, .f32⟩
  | .local _ .vmem, ⟨34, _⟩ => ⟨S128x128, .f32⟩
  | .local _ .vmem, ⟨35, _⟩ => ⟨S1x128, .f32⟩
  | .local _ .vmem, ⟨36, _⟩ => ⟨S10000x128, .f32⟩
  | .local _ .vmem, ⟨37, _⟩ => ⟨S10000x128, .f32⟩
  | .local _ .vmem, ⟨38, _⟩ => ⟨S1x128, .f32⟩
  | .local _ .vmem, ⟨39, _⟩ => ⟨S1x128, .f32⟩
  | .local _ .vmem, ⟨40, _⟩ => ⟨S10000x128, .f32⟩
  | .local _ .vmem, ⟨41, _⟩ => ⟨S10000x128, .f32⟩
  | .local _ .vmem, ⟨42, _⟩ => ⟨S1x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S10000x128, .f32⟩
  | .local _ .vmem, ⟨47, _⟩ => ⟨S10000x128, .f32⟩
  | .local _ .vmem, ⟨48, _⟩ => ⟨S10000x128, .f32⟩
  | .local _ .vmem, ⟨49, _⟩ => ⟨S10000x128, .f32⟩
  | .local _ .vmem, ⟨50, _⟩ => ⟨S10000x1, .i32⟩
  | .local _ .vmem, ⟨51, _⟩ => ⟨S10000x1, .i32⟩
  | .local _ .vmem, ⟨52, _⟩ => ⟨S128x64, .f32⟩
  | .local _ .vmem, ⟨53, _⟩ => ⟨S1x64, .f32⟩
  | .local _ .vmem, ⟨54, _⟩ => ⟨S256x64, .f32⟩
  | .local _ .vmem, ⟨55, _⟩ => ⟨S256x128, .f32⟩
  | .local _ .vmem, ⟨56, _⟩ => ⟨S256x1, .f32⟩
  | .local _ .vmem, ⟨57, _⟩ => ⟨S10000x64, .f32⟩
  | .local _ .vmem, ⟨58, _⟩ => ⟨S10000x64, .f32⟩
  | .local _ .vmem, ⟨59, _⟩ => ⟨S64x128, .f32⟩
  | .local _ .vmem, ⟨60, _⟩ => ⟨S1x128, .f32⟩
  | .local _ .vmem, ⟨61, _⟩ => ⟨S10000x128, .f32⟩
  | .local _ .vmem, ⟨62, _⟩ => ⟨S10000x128, .f32⟩
  | .local _ .vmem, ⟨63, _⟩ => ⟨S1x128, .f32⟩
  | .local _ .vmem, ⟨64, _⟩ => ⟨S1x128, .f32⟩
  | .local _ .vmem, ⟨65, _⟩ => ⟨S10000x128, .f32⟩
  | .local _ .vmem, ⟨66, _⟩ => ⟨S10000x128, .f32⟩
  | .local _ .vmem, ⟨67, _⟩ => ⟨S1x128, .f32⟩
  | .local _ .vmem, ⟨68, _⟩ => ⟨S1x128, .f32⟩
  | .local _ .vmem, ⟨69, _⟩ => ⟨S1x128, .f32⟩
  | .local _ .vmem, ⟨70, _⟩ => ⟨S1x128, .f32⟩
  | .local _ .vmem, ⟨71, _⟩ => ⟨S10000x128, .f32⟩
  | .local _ .vmem, ⟨72, _⟩ => ⟨S10000x128, .f32⟩
  | .local _ .vmem, ⟨73, _⟩ => ⟨S10000x128, .f32⟩
  | .local _ .vmem, ⟨74, _⟩ => ⟨S10000x128, .f32⟩
  | .local _ .vmem, ⟨75, _⟩ => ⟨S128x128, .f32⟩
  | .local _ .vmem, ⟨76, _⟩ => ⟨S1x128, .f32⟩
  | .local _ .vmem, ⟨77, _⟩ => ⟨S10000x128, .f32⟩
  | .local _ .vmem, ⟨78, _⟩ => ⟨S10000x128, .f32⟩
  | .local _ .vmem, ⟨79, _⟩ => ⟨S1x128, .f32⟩
  | .local _ .vmem, ⟨80, _⟩ => ⟨S1x128, .f32⟩
  | .local _ .vmem, ⟨81, _⟩ => ⟨S10000x128, .f32⟩
  | .local _ .vmem, ⟨82, _⟩ => ⟨S10000x128, .f32⟩
  | .local _ .vmem, ⟨83, _⟩ => ⟨S1x128, .f32⟩
  | .local _ .vmem, ⟨84, _⟩ => ⟨S1x128, .f32⟩
  | .local _ .vmem, ⟨85, _⟩ => ⟨S1x128, .f32⟩
  | .local _ .vmem, ⟨86, _⟩ => ⟨S1x128, .f32⟩
  | .local _ .vmem, ⟨87, _⟩ => ⟨S10000x128, .f32⟩
  | .local _ .vmem, ⟨88, _⟩ => ⟨S10000x128, .f32⟩
  | .local _ .vmem, ⟨89, _⟩ => ⟨S10000x128, .f32⟩
  | .local _ .vmem, ⟨90, _⟩ => ⟨S10000x128, .f32⟩
  | .local _ .vmem, ⟨91, _⟩ => ⟨S128x128, .f32⟩
  | .local _ .vmem, ⟨92, _⟩ => ⟨S1x128, .f32⟩
  | .local _ .vmem, ⟨93, _⟩ => ⟨S10000x128, .f32⟩
  | .local _ .vmem, ⟨94, _⟩ => ⟨S10000x128, .f32⟩
  | .local _ .vmem, ⟨95, _⟩ => ⟨S1x128, .f32⟩
  | .local _ .vmem, ⟨96, _⟩ => ⟨S1x128, .f32⟩
  | .local _ .vmem, ⟨97, _⟩ => ⟨S10000x128, .f32⟩
  | .local _ .vmem, ⟨98, _⟩ => ⟨S10000x128, .f32⟩
  | .local _ .vmem, ⟨99, _⟩ => ⟨S1x128, .f32⟩
  | .local _ .vmem, ⟨100, _⟩ => ⟨S1x128, .f32⟩
  | .local _ .vmem, ⟨101, _⟩ => ⟨S1x128, .f32⟩
  | .local _ .vmem, ⟨102, _⟩ => ⟨S1x128, .f32⟩
  | .local _ .vmem, ⟨103, _⟩ => ⟨S10000x128, .f32⟩
  | .local _ .vmem, ⟨104, _⟩ => ⟨S10000x128, .f32⟩
  | .local _ .vmem, ⟨105, _⟩ => ⟨S10000x128, .f32⟩
  | .local _ .vmem, ⟨106, _⟩ => ⟨S10000x128, .f32⟩
  | .local _ .vmem, ⟨107, _⟩ => ⟨S10000x1, .i32⟩
  | .local _ .vmem, ⟨108, _⟩ => ⟨S10000x1, .i32⟩
  | .local _ .vmem, ⟨109, _⟩ => ⟨S128x64, .f32⟩
  | .local _ .vmem, ⟨110, _⟩ => ⟨S1x64, .f32⟩
  | .local _ .vmem, ⟨111, _⟩ => ⟨S256x64, .f32⟩
  | .local _ .vmem, ⟨112, _⟩ => ⟨S256x128, .f32⟩
  | .local _ .vmem, ⟨113, _⟩ => ⟨S256x1, .f32⟩
  | .local _ .vmem, ⟨114, _⟩ => ⟨S256x64, .f32⟩
  | .local _ .vmem, ⟨115, _⟩ => ⟨S256x64, .f32⟩
  | .local _ .vmem, ⟨116, _⟩ => ⟨S64x64, .f32⟩
  | .local _ .vmem, ⟨117, _⟩ => ⟨S1x64, .f32⟩
  | .local _ .vmem, ⟨118, _⟩ => ⟨S64x1, .f32⟩
  | .local _ .vmem, ⟨119, _⟩ => ⟨S1x1, .f32⟩
  | .local _ .vmem, ⟨120, _⟩ => ⟨S256x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | .vmem, ⟨120, _⟩ => true
  | _, _ => false

abbrev semScoped : Fin 0 → Bool
  | ⟨_, h⟩ => absurd h (Nat.not_lt_zero _)

abbrev dmaSemScoped : Fin 117 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | _ => false

abbrev sig : RefSig :=
  ofTc nBuf bufTy 0 117 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_c : Ref sig .tc := ⟨.hbm, 32, rfl⟩
abbrev main_v8 : Ref sig .tc := ⟨.hbm, 33, rfl⟩
abbrev main_v9 : Ref sig .tc := ⟨.hbm, 34, rfl⟩
abbrev main_c_0 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_cst : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19_0 : Ref sig .tc := ⟨.hbm, 46, rfl⟩
abbrev main_v19_1 : Ref sig .tc := ⟨.hbm, 47, rfl⟩
abbrev main_v19_2 : Ref sig .tc := ⟨.hbm, 48, rfl⟩
abbrev main_cst_1 : Ref sig .tc := ⟨.hbm, 49, rfl⟩
abbrev main_v20 : Ref sig .tc := ⟨.hbm, 50, rfl⟩
abbrev main_v21 : Ref sig .tc := ⟨.hbm, 51, rfl⟩
abbrev main_cst_2 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_cst_3 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_c_4 : Ref sig .tc := ⟨.hbm, 65, rfl⟩
abbrev main_v33 : Ref sig .tc := ⟨.hbm, 66, rfl⟩
abbrev main_v34 : Ref sig .tc := ⟨.hbm, 67, rfl⟩
abbrev main_c_5 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_cst_6 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44_0 : Ref sig .tc := ⟨.hbm, 79, rfl⟩
abbrev main_v44_1 : Ref sig .tc := ⟨.hbm, 80, rfl⟩
abbrev main_v44_2 : Ref sig .tc := ⟨.hbm, 81, rfl⟩
abbrev main_cst_7 : Ref sig .tc := ⟨.hbm, 82, rfl⟩
abbrev main_v45 : Ref sig .tc := ⟨.hbm, 83, rfl⟩
abbrev main_v46 : Ref sig .tc := ⟨.hbm, 84, rfl⟩
abbrev main_cst_8 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_cst_9 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_c_10 : Ref sig .tc := ⟨.hbm, 98, rfl⟩
abbrev main_v58 : Ref sig .tc := ⟨.hbm, 99, rfl⟩
abbrev main_v59 : Ref sig .tc := ⟨.hbm, 100, rfl⟩
abbrev main_c_11 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_cst_12 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69_0 : Ref sig .tc := ⟨.hbm, 112, rfl⟩
abbrev main_v69_1 : Ref sig .tc := ⟨.hbm, 113, rfl⟩
abbrev main_v69_2 : Ref sig .tc := ⟨.hbm, 114, rfl⟩
abbrev main_cst_13 : Ref sig .tc := ⟨.hbm, 115, rfl⟩
abbrev main_v70 : Ref sig .tc := ⟨.hbm, 116, rfl⟩
abbrev main_v71 : Ref sig .tc := ⟨.hbm, 117, rfl⟩
abbrev main_cst_14 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_cst_15 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_c_16 : Ref sig .tc := ⟨.hbm, 138, rfl⟩
abbrev main_v90 : Ref sig .tc := ⟨.hbm, 139, rfl⟩
abbrev main_v91 : Ref sig .tc := ⟨.hbm, 140, rfl⟩
abbrev main_c_17 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_cst_18 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101_0 : Ref sig .tc := ⟨.hbm, 152, rfl⟩
abbrev main_v101_1 : Ref sig .tc := ⟨.hbm, 153, rfl⟩
abbrev main_v101_2 : Ref sig .tc := ⟨.hbm, 154, rfl⟩
abbrev main_cst_19 : Ref sig .tc := ⟨.hbm, 155, rfl⟩
abbrev main_v102 : Ref sig .tc := ⟨.hbm, 156, rfl⟩
abbrev main_v103 : Ref sig .tc := ⟨.hbm, 157, rfl⟩
abbrev main_cst_20 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_cst_21 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_c_22 : Ref sig .tc := ⟨.hbm, 171, rfl⟩
abbrev main_v115 : Ref sig .tc := ⟨.hbm, 172, rfl⟩
abbrev main_v116 : Ref sig .tc := ⟨.hbm, 173, rfl⟩
abbrev main_c_23 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_cst_24 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126_0 : Ref sig .tc := ⟨.hbm, 185, rfl⟩
abbrev main_v126_1 : Ref sig .tc := ⟨.hbm, 186, rfl⟩
abbrev main_v126_2 : Ref sig .tc := ⟨.hbm, 187, rfl⟩
abbrev main_cst_25 : Ref sig .tc := ⟨.hbm, 188, rfl⟩
abbrev main_v127 : Ref sig .tc := ⟨.hbm, 189, rfl⟩
abbrev main_v128 : Ref sig .tc := ⟨.hbm, 190, rfl⟩
abbrev main_cst_26 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_cst_27 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_c_28 : Ref sig .tc := ⟨.hbm, 204, rfl⟩
abbrev main_v140 : Ref sig .tc := ⟨.hbm, 205, rfl⟩
abbrev main_v141 : Ref sig .tc := ⟨.hbm, 206, rfl⟩
abbrev main_c_29 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_cst_30 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_v151_0 : Ref sig .tc := ⟨.hbm, 218, rfl⟩
abbrev main_v151_1 : Ref sig .tc := ⟨.hbm, 219, rfl⟩
abbrev main_v151_2 : Ref sig .tc := ⟨.hbm, 220, rfl⟩
abbrev main_cst_31 : Ref sig .tc := ⟨.hbm, 221, rfl⟩
abbrev main_v152 : Ref sig .tc := ⟨.hbm, 222, rfl⟩
abbrev main_v153 : Ref sig .tc := ⟨.hbm, 223, rfl⟩
abbrev main_cst_32 : Ref sig .tc := ⟨.hbm, 224, rfl⟩
abbrev main_v154 : Ref sig .tc := ⟨.hbm, 225, rfl⟩
abbrev main_v155 : Ref sig .tc := ⟨.hbm, 226, rfl⟩
abbrev main_v156 : Ref sig .tc := ⟨.hbm, 227, rfl⟩
abbrev main_v157 : Ref sig .tc := ⟨.hbm, 228, rfl⟩
abbrev main_cst_33 : Ref sig .tc := ⟨.hbm, 229, rfl⟩
abbrev main_v158 : Ref sig .tc := ⟨.hbm, 230, rfl⟩
abbrev main_v159 : Ref sig .tc := ⟨.hbm, 231, rfl⟩
abbrev main_v160 : Ref sig .tc := ⟨.hbm, 232, rfl⟩
abbrev main_v161 : Ref sig .tc := ⟨.hbm, 233, rfl⟩
abbrev main_v162 : Ref sig .tc := ⟨.hbm, 234, rfl⟩
abbrev main_v163 : Ref sig .tc := ⟨.hbm, 235, rfl⟩
abbrev main_v164 : Ref sig .tc := ⟨.hbm, 236, rfl⟩
abbrev main_v165 : Ref sig .tc := ⟨.hbm, 237, rfl⟩
abbrev main_v166 : Ref sig .tc := ⟨.hbm, 238, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg5_0 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg3_1 : Ref sig .tc := ⟨.vmem, 37, rfl⟩
abbrev cc4_stg4_0 : Ref sig .tc := ⟨.vmem, 38, rfl⟩
abbrev cc4_stg5_0 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg5_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc6_stg2_0 : Ref sig .tc := ⟨.vmem, 52, rfl⟩
abbrev cc6_stg3_0 : Ref sig .tc := ⟨.vmem, 53, rfl⟩
abbrev cc6_stg4_0 : Ref sig .tc := ⟨.vmem, 54, rfl⟩
abbrev cc6_scratch0 : Ref sig .tc := ⟨.vmem, 55, rfl⟩
abbrev cc6_scratch1 : Ref sig .tc := ⟨.vmem, 56, rfl⟩
abbrev cc7_stg0_0 : Ref sig .tc := ⟨.vmem, 57, rfl⟩
abbrev cc7_stg0_1 : Ref sig .tc := ⟨.vmem, 58, rfl⟩
abbrev cc7_stg1_0 : Ref sig .tc := ⟨.vmem, 59, rfl⟩
abbrev cc7_stg2_0 : Ref sig .tc := ⟨.vmem, 60, rfl⟩
abbrev cc7_stg3_0 : Ref sig .tc := ⟨.vmem, 61, rfl⟩
abbrev cc7_stg3_1 : Ref sig .tc := ⟨.vmem, 62, rfl⟩
abbrev cc7_stg4_0 : Ref sig .tc := ⟨.vmem, 63, rfl⟩
abbrev cc7_stg5_0 : Ref sig .tc := ⟨.vmem, 64, rfl⟩
abbrev cc8_stg0_0 : Ref sig .tc := ⟨.vmem, 65, rfl⟩
abbrev cc8_stg0_1 : Ref sig .tc := ⟨.vmem, 66, rfl⟩
abbrev cc8_stg1_0 : Ref sig .tc := ⟨.vmem, 67, rfl⟩
abbrev cc8_stg2_0 : Ref sig .tc := ⟨.vmem, 68, rfl⟩
abbrev cc8_stg3_0 : Ref sig .tc := ⟨.vmem, 69, rfl⟩
abbrev cc8_stg4_0 : Ref sig .tc := ⟨.vmem, 70, rfl⟩
abbrev cc8_stg5_0 : Ref sig .tc := ⟨.vmem, 71, rfl⟩
abbrev cc8_stg5_1 : Ref sig .tc := ⟨.vmem, 72, rfl⟩
abbrev cc9_stg0_0 : Ref sig .tc := ⟨.vmem, 73, rfl⟩
abbrev cc9_stg0_1 : Ref sig .tc := ⟨.vmem, 74, rfl⟩
abbrev cc9_stg1_0 : Ref sig .tc := ⟨.vmem, 75, rfl⟩
abbrev cc9_stg2_0 : Ref sig .tc := ⟨.vmem, 76, rfl⟩
abbrev cc9_stg3_0 : Ref sig .tc := ⟨.vmem, 77, rfl⟩
abbrev cc9_stg3_1 : Ref sig .tc := ⟨.vmem, 78, rfl⟩
abbrev cc9_stg4_0 : Ref sig .tc := ⟨.vmem, 79, rfl⟩
abbrev cc9_stg5_0 : Ref sig .tc := ⟨.vmem, 80, rfl⟩
abbrev cc10_stg0_0 : Ref sig .tc := ⟨.vmem, 81, rfl⟩
abbrev cc10_stg0_1 : Ref sig .tc := ⟨.vmem, 82, rfl⟩
abbrev cc10_stg1_0 : Ref sig .tc := ⟨.vmem, 83, rfl⟩
abbrev cc10_stg2_0 : Ref sig .tc := ⟨.vmem, 84, rfl⟩
abbrev cc10_stg3_0 : Ref sig .tc := ⟨.vmem, 85, rfl⟩
abbrev cc10_stg4_0 : Ref sig .tc := ⟨.vmem, 86, rfl⟩
abbrev cc10_stg5_0 : Ref sig .tc := ⟨.vmem, 87, rfl⟩
abbrev cc10_stg5_1 : Ref sig .tc := ⟨.vmem, 88, rfl⟩
abbrev cc11_stg0_0 : Ref sig .tc := ⟨.vmem, 89, rfl⟩
abbrev cc11_stg0_1 : Ref sig .tc := ⟨.vmem, 90, rfl⟩
abbrev cc11_stg1_0 : Ref sig .tc := ⟨.vmem, 91, rfl⟩
abbrev cc11_stg2_0 : Ref sig .tc := ⟨.vmem, 92, rfl⟩
abbrev cc11_stg3_0 : Ref sig .tc := ⟨.vmem, 93, rfl⟩
abbrev cc11_stg3_1 : Ref sig .tc := ⟨.vmem, 94, rfl⟩
abbrev cc11_stg4_0 : Ref sig .tc := ⟨.vmem, 95, rfl⟩
abbrev cc11_stg5_0 : Ref sig .tc := ⟨.vmem, 96, rfl⟩
abbrev cc12_stg0_0 : Ref sig .tc := ⟨.vmem, 97, rfl⟩
abbrev cc12_stg0_1 : Ref sig .tc := ⟨.vmem, 98, rfl⟩
abbrev cc12_stg1_0 : Ref sig .tc := ⟨.vmem, 99, rfl⟩
abbrev cc12_stg2_0 : Ref sig .tc := ⟨.vmem, 100, rfl⟩
abbrev cc12_stg3_0 : Ref sig .tc := ⟨.vmem, 101, rfl⟩
abbrev cc12_stg4_0 : Ref sig .tc := ⟨.vmem, 102, rfl⟩
abbrev cc12_stg5_0 : Ref sig .tc := ⟨.vmem, 103, rfl⟩
abbrev cc12_stg5_1 : Ref sig .tc := ⟨.vmem, 104, rfl⟩
abbrev cc13_stg0_0 : Ref sig .tc := ⟨.vmem, 105, rfl⟩
abbrev cc13_stg0_1 : Ref sig .tc := ⟨.vmem, 106, rfl⟩
abbrev cc13_stg1_0 : Ref sig .tc := ⟨.vmem, 107, rfl⟩
abbrev cc13_stg1_1 : Ref sig .tc := ⟨.vmem, 108, rfl⟩
abbrev cc13_stg2_0 : Ref sig .tc := ⟨.vmem, 109, rfl⟩
abbrev cc13_stg3_0 : Ref sig .tc := ⟨.vmem, 110, rfl⟩
abbrev cc13_stg4_0 : Ref sig .tc := ⟨.vmem, 111, rfl⟩
abbrev cc13_scratch0 : Ref sig .tc := ⟨.vmem, 112, rfl⟩
abbrev cc13_scratch1 : Ref sig .tc := ⟨.vmem, 113, rfl⟩
abbrev cc14_stg0_0 : Ref sig .tc := ⟨.vmem, 114, rfl⟩
abbrev cc14_stg1_0 : Ref sig .tc := ⟨.vmem, 115, rfl⟩
abbrev cc14_stg2_0 : Ref sig .tc := ⟨.vmem, 116, rfl⟩
abbrev cc14_stg3_0 : Ref sig .tc := ⟨.vmem, 117, rfl⟩
abbrev cc14_stg4_0 : Ref sig .tc := ⟨.vmem, 118, rfl⟩
abbrev cc14_stg5_0 : Ref sig .tc := ⟨.vmem, 119, rfl⟩
abbrev cc14_stg6_0 : Ref sig .tc := ⟨.vmem, 120, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem5_0 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem3_1 : DmaSem sig := 37
abbrev cc4_sem4_0 : DmaSem sig := 38
abbrev cc4_sem5_0 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem3_0 : DmaSem sig := 53
abbrev cc6_sem4_0 : DmaSem sig := 54
abbrev cc7_sem0_0 : DmaSem sig := 55
abbrev cc7_sem0_1 : DmaSem sig := 56
abbrev cc7_sem1_0 : DmaSem sig := 57
abbrev cc7_sem2_0 : DmaSem sig := 58
abbrev cc7_sem3_0 : DmaSem sig := 59
abbrev cc7_sem3_1 : DmaSem sig := 60
abbrev cc7_sem4_0 : DmaSem sig := 61
abbrev cc7_sem5_0 : DmaSem sig := 62
abbrev cc8_sem0_0 : DmaSem sig := 63
abbrev cc8_sem0_1 : DmaSem sig := 64
abbrev cc8_sem1_0 : DmaSem sig := 65
abbrev cc8_sem2_0 : DmaSem sig := 66
abbrev cc8_sem3_0 : DmaSem sig := 67
abbrev cc8_sem4_0 : DmaSem sig := 68
abbrev cc8_sem5_0 : DmaSem sig := 69
abbrev cc8_sem5_1 : DmaSem sig := 70
abbrev cc9_sem0_0 : DmaSem sig := 71
abbrev cc9_sem0_1 : DmaSem sig := 72
abbrev cc9_sem1_0 : DmaSem sig := 73
abbrev cc9_sem2_0 : DmaSem sig := 74
abbrev cc9_sem3_0 : DmaSem sig := 75
abbrev cc9_sem3_1 : DmaSem sig := 76
abbrev cc9_sem4_0 : DmaSem sig := 77
abbrev cc9_sem5_0 : DmaSem sig := 78
abbrev cc10_sem0_0 : DmaSem sig := 79
abbrev cc10_sem0_1 : DmaSem sig := 80
abbrev cc10_sem1_0 : DmaSem sig := 81
abbrev cc10_sem2_0 : DmaSem sig := 82
abbrev cc10_sem3_0 : DmaSem sig := 83
abbrev cc10_sem4_0 : DmaSem sig := 84
abbrev cc10_sem5_0 : DmaSem sig := 85
abbrev cc10_sem5_1 : DmaSem sig := 86
abbrev cc11_sem0_0 : DmaSem sig := 87
abbrev cc11_sem0_1 : DmaSem sig := 88
abbrev cc11_sem1_0 : DmaSem sig := 89
abbrev cc11_sem2_0 : DmaSem sig := 90
abbrev cc11_sem3_0 : DmaSem sig := 91
abbrev cc11_sem3_1 : DmaSem sig := 92
abbrev cc11_sem4_0 : DmaSem sig := 93
abbrev cc11_sem5_0 : DmaSem sig := 94
abbrev cc12_sem0_0 : DmaSem sig := 95
abbrev cc12_sem0_1 : DmaSem sig := 96
abbrev cc12_sem1_0 : DmaSem sig := 97
abbrev cc12_sem2_0 : DmaSem sig := 98
abbrev cc12_sem3_0 : DmaSem sig := 99
abbrev cc12_sem4_0 : DmaSem sig := 100
abbrev cc12_sem5_0 : DmaSem sig := 101
abbrev cc12_sem5_1 : DmaSem sig := 102
abbrev cc13_sem0_0 : DmaSem sig := 103
abbrev cc13_sem0_1 : DmaSem sig := 104
abbrev cc13_sem1_0 : DmaSem sig := 105
abbrev cc13_sem1_1 : DmaSem sig := 106
abbrev cc13_sem2_0 : DmaSem sig := 107
abbrev cc13_sem3_0 : DmaSem sig := 108
abbrev cc13_sem4_0 : DmaSem sig := 109
abbrev cc14_sem0_0 : DmaSem sig := 110
abbrev cc14_sem1_0 : DmaSem sig := 111
abbrev cc14_sem2_0 : DmaSem sig := 112
abbrev cc14_sem3_0 : DmaSem sig := 113
abbrev cc14_sem4_0 : DmaSem sig := 114
abbrev cc14_sem5_0 : DmaSem sig := 115
abbrev cc14_sem6_0 : DmaSem sig := 116

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def k6_cond2 (i : grid6.Coords) : BitVec 1 :=
  let arg0 : BitVec 32 := BitVec.ofNat 32 (i 0).val
  let c9_i32 : BitVec 32 := 9#32
  let v25 : BitVec 1 := Scalar.cmpi .eq arg0 c9_i32
  let v26 : BitVec 32 := Scalar.extui v25
  let c0_i32_14 : BitVec 32 := 0#32
  let v27 : BitVec 1 := Scalar.cmpi .ne v26 c0_i32_14
  v27

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S256x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S10000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S10000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S10000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S10000x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S10000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S10000x128 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 2 → Memref sig .tc .vmem S10000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S128x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S10000x128 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S1x128 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S10000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S1x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x128 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x128 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 2 → Memref sig .tc .vmem S10000x128 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

abbrev grid13 : Pipeline.Grid := ⟨1, ![10], ![false]⟩

def k13_cond2 (i : grid13.Coords) : BitVec 1 :=
  let arg0 : BitVec 32 := BitVec.ofNat 32 (i 0).val
  let c9_i32 : BitVec 32 := 9#32
  let v25 : BitVec 1 := Scalar.cmpi .eq arg0 c9_i32
  let v26 : BitVec 32 := Scalar.extui v25
  let c0_i32_14 : BitVec 32 := 0#32
  let v27 : BitVec 1 := Scalar.cmpi .ne v26 c0_i32_14
  v27

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage13_0 : Fin 2 → Memref sig .tc .vmem S10000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S10000x1 .i32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S128x64 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x64 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S256x64 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev grid14 : Pipeline.Grid := ⟨1, ![1], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_6 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage14_0 : Fin 1 → Memref sig .tc .vmem S256x64 .f32 := fun | 0 => Memref.whole cc14_stg0_0 | ⟨_ + 1, h⟩ => absurd h (Nat.not_lt.2 (Nat.le_add_left _ _))
abbrev sem14_0 : Fin 1 → DmaSem sig := fun | 0 => cc14_sem0_0 | ⟨_ + 1, h⟩ => absurd h (Nat.not_lt.2 (Nat.le_add_left _ _))
abbrev reads14_0 : Fin grid14.rank → Bool := ![false]

abbrev stage14_1 : Fin 1 → Memref sig .tc .vmem S256x64 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S64x64 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x64 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S64x1 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 1 → Memref sig .tc .vmem S1x1 .f32 := fun | 0 => Memref.whole cc14_stg5_0 | ⟨_ + 1, h⟩ => absurd h (Nat.not_lt.2 (Nat.le_add_left _ _))
abbrev sem14_5 : Fin 1 → DmaSem sig := fun | 0 => cc14_sem5_0 | ⟨_ + 1, h⟩ => absurd h (Nat.not_lt.2 (Nat.le_add_left _ _))
abbrev reads14_5 : Fin grid14.rank → Bool := ![false]

abbrev stage14_6 : Fin 1 → Memref sig .tc .vmem S256x1 .f32 := fun | 0 => Memref.whole cc14_stg6_0 | ⟨_ + 1, h⟩ => absurd h (Nat.not_lt.2 (Nat.le_add_left _ _))
abbrev sem14_6 : Fin 1 → DmaSem sig := fun | 0 => cc14_sem6_0 | ⟨_ + 1, h⟩ => absurd h (Nat.not_lt.2 (Nat.le_add_left _ _))
abbrev reads14_6 : Fin grid14.rank → Bool := ![false]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  shapeCasts_S100000_S100000x1 : S100000.ShapeCasts S100000x1
  shapeCasts_S128_S1x128 : S128.ShapeCasts S1x128
  bcast_S_S1280000 : S_.BroadcastsInDim S1280000 (![] : Fin 0 → Fin S1280000.rank)
  bcast_S1280000_S1280000x1_0 : S1280000.BroadcastsInDim S1280000x1 (![0] : Fin 1 → Fin S1280000x1.rank)
  bcast_S_S100000x64 : S_.BroadcastsInDim S100000x64 (![] : Fin 0 → Fin S100000x64.rank)
  inb_S1x128_S1x128_0_0 : ∀ a, (![0, 0] : Fin 2 → Nat) a + S1x128.size a ≤ S1x128.size a
  h_S1x128 : 0 < S1x128.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x128_S64x128_0_0 : ∀ a, (![0, 0] : Fin 2 → Nat) a + S64x128.size a ≤ S64x128.size a
  h_S64x128 : 0 < S64x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  reduces_S10000x128_S128 : S10000x128.Reduces [0] S128
  bcast_S_S1x128 : S_.BroadcastsInDim S1x128 (![] : Fin 0 → Fin S1x128.rank)
  shapeCasts_S10000x128_S10000x128 : S10000x128.ShapeCasts S10000x128
  bcast_S_S100000x128 : S_.BroadcastsInDim S100000x128 (![] : Fin 0 → Fin S100000x128.rank)
  inb_S128x128_S128x128_0_0 : ∀ a, (![0, 0] : Fin 2 → Nat) a + S128x128.size a ≤ S128x128.size a
  h_S128x128 : 0 < S128x128.numel
  shapeCasts_S64_S1x64 : S64.ShapeCasts S1x64
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  iota_S10000x256_d1_w32 : S10000x256.Iotas .tc 32 [1]
  broadcasts_S10000x1_S10000x256 : S10000x1.Broadcasts S10000x256
  natLt_1_32 : 1 < 32
  broadcasts_S256x1_S256x128 : S256x1.Broadcasts S256x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  inb_S256x64_S256x64_0_0 : ∀ a, (![0, 0] : Fin 2 → Nat) a + S256x64.size a ≤ S256x64.size a
  h_S256x64 : 0 < S256x64.numel
  shapeCasts_S1_S1x1 : S1.ShapeCasts S1x1
  shapeCasts_S256x64_S256x64 : S256x64.ShapeCasts S256x64
  inb_S64x64_S64x64_0_0 : ∀ a, (![0, 0] : Fin 2 → Nat) a + S64x64.size a ≤ S64x64.size a
  h_S64x64 : 0 < S64x64.numel
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  gather_S100000x64_S1280000x1_S1280000x64_1_0_n_n_0_1_164_wf : GatherDims.WF S100000x64 S1280000x1 S1280000x64 [1] [0] [] [0] [] 1 ![1, 64]
  scatter_S100000x64_S1280000x1_S1280000x64_1_0_0_1_wf : ScatterDims.WF S100000x64 S1280000x1 S1280000x64 [1] [0] [0] 1
  dot_S10000x64_S64x128_S10000x128_1_0_0_1_n_n_wf : DotDims.WF S10000x64 S64x128 S10000x128 [1] [0] [0] [1] [] []
  gather_S100000x128_S1280000x1_S1280000x128_1_0_n_n_0_1_1128_wf : GatherDims.WF S100000x128 S1280000x1 S1280000x128 [1] [0] [] [0] [] 1 ![1, 128]
  scatter_S100000x128_S1280000x1_S1280000x128_1_0_0_1_wf : ScatterDims.WF S100000x128 S1280000x1 S1280000x128 [1] [0] [0] 1
  dot_S10000x128_S128x128_S10000x128_1_0_0_1_n_n_wf : DotDims.WF S10000x128 S128x128 S10000x128 [1] [0] [0] [1] [] []
  dot_S10000x256_S10000x128_S256x128_0_0_1_1_n_n_wf : DotDims.WF S10000x256 S10000x128 S256x128 [0] [0] [1] [1] [] []
  dot_S10000x256_S10000x1_S256x1_0_0_1_1_n_n_wf : DotDims.WF S10000x256 S10000x1 S256x1 [0] [0] [1] [1] [] []
  dot_S256x128_S128x64_S256x64_1_0_0_1_n_n_wf : DotDims.WF S256x128 S128x64 S256x64 [1] [0] [0] [1] [] []
  dot_S256x64_S64x64_S256x64_1_0_0_1_n_n_wf : DotDims.WF S256x64 S64x64 S256x64 [1] [0] [0] [1] [] []
  dot_S256x64_S64x1_S256x1_1_0_0_1_n_n_wf : DotDims.WF S256x64 S64x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S100000x128.size a
  hwx1_5 : ∀ i : grid1.Coords, EltTy.bits .f32 = 32 ∨ (Rect.block (s := S100000x128) S10000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S100000x128.size a
  hwx2_3 : ∀ i : grid2.Coords, EltTy.bits .f32 = 32 ∨ (Rect.block (s := S100000x128) S10000x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x128.size a ≤ S100000x128.size a
  hwx3_5 : ∀ i : grid3.Coords, EltTy.bits .f32 = 32 ∨ (Rect.block (s := S100000x128) S10000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x128.size a ≤ S100000x128.size a
  hwx4_3 : ∀ i : grid4.Coords, EltTy.bits .f32 = 32 ∨ (Rect.block (s := S100000x128) S10000x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x128.size a ≤ S100000x128.size a
  hwx5_5 : ∀ i : grid5.Coords, EltTy.bits .f32 = 32 ∨ (Rect.block (s := S100000x128) S10000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S100000x128.size a
  hwx6_0 : ∀ i : grid6.Coords, EltTy.bits .f32 = 32 ∨ (Rect.block (s := S100000x128) S10000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x1.size a ≤ S100000x1.size a
  hwx6_1 : ∀ i : grid6.Coords, EltTy.bits .i32 = 32 ∨ (Rect.block (s := S100000x1) S10000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x64.size a ≤ S128x64.size a
  hwx6_2 : ∀ i : grid6.Coords, EltTy.bits .f32 = 32 ∨ (Rect.block (s := S128x64) S128x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S256x64.size a ≤ S256x64.size a
  hwx6_4 : ∀ i : grid6.Coords, EltTy.bits .f32 = 32 ∨ (Rect.block (s := S256x64) S256x64.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x128.size a ≤ S64x128.size a
  hwx7_1 : ∀ i : grid7.Coords, EltTy.bits .f32 = 32 ∨ (Rect.block (s := S64x128) S64x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S10000x128.size a ≤ S100000x128.size a
  hwx7_3 : ∀ i : grid7.Coords, EltTy.bits .f32 = 32 ∨ (Rect.block (s := S100000x128) S10000x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x128.size a ≤ S100000x128.size a
  hwx8_0 : ∀ i : grid8.Coords, EltTy.bits .f32 = 32 ∨ (Rect.block (s := S100000x128) S10000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S10000x128.size a ≤ S100000x128.size a
  hwx8_5 : ∀ i : grid8.Coords, EltTy.bits .f32 = 32 ∨ (Rect.block (s := S100000x128) S10000x128.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x128.size a ≤ S100000x128.size a
  hwx9_0 : ∀ i : grid9.Coords, EltTy.bits .f32 = 32 ∨ (Rect.block (s := S100000x128) S10000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x128.size a ≤ S128x128.size a
  hwx9_1 : ∀ i : grid9.Coords, EltTy.bits .f32 = 32 ∨ (Rect.block (s := S128x128) S128x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S10000x128.size a ≤ S100000x128.size a
  hwx9_3 : ∀ i : grid9.Coords, EltTy.bits .f32 = 32 ∨ (Rect.block (s := S100000x128) S10000x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1x128.size a ≤ S1x128.size a
  hwx9_5 : ∀ i : grid9.Coords, EltTy.bits .f32 = 32 ∨ (Rect.block (s := S1x128) S1x128.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x128.size a ≤ S100000x128.size a
  hwx10_0 : ∀ i : grid10.Coords, EltTy.bits .f32 = 32 ∨ (Rect.block (s := S100000x128) S10000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x128.size a ≤ S1x128.size a
  hwx10_1 : ∀ i : grid10.Coords, EltTy.bits .f32 = 32 ∨ (Rect.block (s := S1x128) S1x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x128.size a ≤ S1x128.size a
  hwx10_3 : ∀ i : grid10.Coords, EltTy.bits .f32 = 32 ∨ (Rect.block (s := S1x128) S1x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S10000x128.size a ≤ S100000x128.size a
  hwx10_5 : ∀ i : grid10.Coords, EltTy.bits .f32 = 32 ∨ (Rect.block (s := S100000x128) S10000x128.size (cc10_transform_5 i) (hinb10_5 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S10000x128.size a ≤ S100000x128.size a
  hwx11_0 : ∀ i : grid11.Coords, EltTy.bits .f32 = 32 ∨ (Rect.block (s := S100000x128) S10000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S128x128.size a ≤ S128x128.size a
  hwx11_1 : ∀ i : grid11.Coords, EltTy.bits .f32 = 32 ∨ (Rect.block (s := S128x128) S128x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S10000x128.size a ≤ S100000x128.size a
  hwx11_3 : ∀ i : grid11.Coords, EltTy.bits .f32 = 32 ∨ (Rect.block (s := S100000x128) S10000x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x128.size a ≤ S1x128.size a
  hwx11_4 : ∀ i : grid11.Coords, EltTy.bits .f32 = 32 ∨ (Rect.block (s := S1x128) S1x128.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S1x128.size a ≤ S1x128.size a
  hwx11_5 : ∀ i : grid11.Coords, EltTy.bits .f32 = 32 ∨ (Rect.block (s := S1x128) S1x128.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S10000x128.size a ≤ S100000x128.size a
  hwx12_0 : ∀ i : grid12.Coords, EltTy.bits .f32 = 32 ∨ (Rect.block (s := S100000x128) S10000x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S1x128.size a ≤ S1x128.size a
  hwx12_1 : ∀ i : grid12.Coords, EltTy.bits .f32 = 32 ∨ (Rect.block (s := S1x128) S1x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x128.size a ≤ S1x128.size a
  hwx12_2 : ∀ i : grid12.Coords, EltTy.bits .f32 = 32 ∨ (Rect.block (s := S1x128) S1x128.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x128.size a ≤ S1x128.size a
  hwx12_3 : ∀ i : grid12.Coords, EltTy.bits .f32 = 32 ∨ (Rect.block (s := S1x128) S1x128.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x128.size a ≤ S1x128.size a
  hwx12_4 : ∀ i : grid12.Coords, EltTy.bits .f32 = 32 ∨ (Rect.block (s := S1x128) S1x128.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S10000x128.size a ≤ S100000x128.size a
  hwx12_5 : ∀ i : grid12.Coords, EltTy.bits .f32 = 32 ∨ (Rect.block (s := S100000x128) S10000x128.size (cc12_transform_5 i) (hinb12_5 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S10000x128.size a ≤ S100000x128.size a
  hwx13_0 : ∀ i : grid13.Coords, EltTy.bits .f32 = 32 ∨ (Rect.block (s := S100000x128) S10000x128.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S10000x1.size a ≤ S100000x1.size a
  hwx13_1 : ∀ i : grid13.Coords, EltTy.bits .i32 = 32 ∨ (Rect.block (s := S100000x1) S10000x1.size (cc13_transform_1 i) (hinb13_1 i)).WholeWords (EltTy.packing .i32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S128x64.size a ≤ S128x64.size a
  hwx13_2 : ∀ i : grid13.Coords, EltTy.bits .f32 = 32 ∨ (Rect.block (s := S128x64) S128x64.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x64.size a ≤ S1x64.size a
  hwx13_3 : ∀ i : grid13.Coords, EltTy.bits .f32 = 32 ∨ (Rect.block (s := S1x64) S1x64.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S256x64.size a ≤ S256x64.size a
  hwx13_4 : ∀ i : grid13.Coords, EltTy.bits .f32 = 32 ∨ (Rect.block (s := S256x64) S256x64.size (cc13_transform_4 i) (hinb13_4 i)).WholeWords (EltTy.packing .f32)
  hrank14 : 0 < grid14.rank
  hstage14_0 : ∀ j, (stage14_0 j).IsWhole
  nbuf14_0 : grid14.bufCount reads14_0 true = 1
  hreads14_0 : ∀ i i' : grid14.Coords, (∀ a, reads14_0 a = true → i a = i' a) → cc14_transform_0 i = cc14_transform_0 i'
  hinb14_0 : ∀ (i : grid14.Coords) a, (cc14_transform_0 i a + 1) * S256x64.size a ≤ S256x64.size a
  hwx14_0 : ∀ i : grid14.Coords, EltTy.bits .f32 = 32 ∨ (Rect.block (s := S256x64) S256x64.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S256x64.size a ≤ S256x64.size a
  hwx14_1 : ∀ i : grid14.Coords, EltTy.bits .f32 = 32 ∨ (Rect.block (s := S256x64) S256x64.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S64x64.size a ≤ S64x64.size a
  hwx14_2 : ∀ i : grid14.Coords, EltTy.bits .f32 = 32 ∨ (Rect.block (s := S64x64) S64x64.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x64.size a ≤ S1x64.size a
  hwx14_3 : ∀ i : grid14.Coords, EltTy.bits .f32 = 32 ∨ (Rect.block (s := S1x64) S1x64.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S64x1.size a ≤ S64x1.size a
  hwx14_4 : ∀ i : grid14.Coords, EltTy.bits .f32 = 32 ∨ (Rect.block (s := S64x1) S64x1.size (cc14_transform_4 i) (hinb14_4 i)).WholeWords (EltTy.packing .f32)
  hstage14_5 : ∀ j, (stage14_5 j).IsWhole
  nbuf14_5 : grid14.bufCount reads14_5 true = 1
  hreads14_5 : ∀ i i' : grid14.Coords, (∀ a, reads14_5 a = true → i a = i' a) → cc14_transform_5 i = cc14_transform_5 i'
  hinb14_5 : ∀ (i : grid14.Coords) a, (cc14_transform_5 i a + 1) * S1x1.size a ≤ S1x1.size a
  hwx14_5 : ∀ i : grid14.Coords, EltTy.bits .f32 = 32 ∨ (Rect.block (s := S1x1) S1x1.size (cc14_transform_5 i) (hinb14_5 i)).WholeWords (EltTy.packing .f32)
  hstage14_6 : ∀ j, (stage14_6 j).IsWhole
  nbuf14_6 : grid14.bufCount reads14_6 true = 1
  hreads14_6 : ∀ i i' : grid14.Coords, (∀ a, reads14_6 a = true → i a = i' a) → cc14_transform_6 i = cc14_transform_6 i'
  hinb14_6 : ∀ (i : grid14.Coords) a, (cc14_transform_6 i a + 1) * S256x1.size a ≤ S256x1.size a
  hwx14_6 : ∀ i : grid14.Coords, EltTy.bits .f32 = 32 ∨ (Rect.block (s := S256x1) S256x1.size (cc14_transform_6 i) (hinb14_6 i)).WholeWords (EltTy.packing .f32)

variable [Facts₀]

def gather_S100000x64_S1280000x1_S1280000x64_1_0_n_n_0_1_164 : GatherDims S100000x64 S1280000x1 S1280000x64 where
  offsetDims := [1]
  collapsedSliceDims := [0]
  operandBatchingDims := []
  startIndicesBatchingDims := []
  startIndexMap := [0]
  indexVectorDim := 1
  sliceSizes := ![1, 64]
  wf := gather_S100000x64_S1280000x1_S1280000x64_1_0_n_n_0_1_164_wf
def scatter_S100000x64_S1280000x1_S1280000x64_1_0_0_1 : ScatterDims S100000x64 S1280000x1 S1280000x64 where
  updateWindowDims := [1]
  insertedWindowDims := [0]
  scatterDimsToOperandDims := [0]
  indexVectorDim := 1
  wf := scatter_S100000x64_S1280000x1_S1280000x64_1_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S100000x128_S1280000x1_S1280000x128_1_0_n_n_0_1_1128 : GatherDims S100000x128 S1280000x1 S1280000x128 where
  offsetDims := [1]
  collapsedSliceDims := [0]
  operandBatchingDims := []
  startIndicesBatchingDims := []
  startIndexMap := [0]
  indexVectorDim := 1
  sliceSizes := ![1, 128]
  wf := gather_S100000x128_S1280000x1_S1280000x128_1_0_n_n_0_1_1128_wf
def scatter_S100000x128_S1280000x1_S1280000x128_1_0_0_1 : ScatterDims S100000x128 S1280000x1 S1280000x128 where
  updateWindowDims := [1]
  insertedWindowDims := [0]
  scatterDimsToOperandDims := [0]
  indexVectorDim := 1
  wf := scatter_S100000x128_S1280000x1_S1280000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x256_S10000x128_S256x128_0_0_1_1_n_n : DotDims S10000x256 S10000x128 S256x128 where
  lhsContracting := [0]
  rhsContracting := [0]
  lhsNonContracting := [1]
  rhsNonContracting := [1]
  lhsBatch := []
  rhsBatch := []
  wf := dot_S10000x256_S10000x128_S256x128_0_0_1_1_n_n_wf
def dot_S10000x256_S10000x1_S256x1_0_0_1_1_n_n : DotDims S10000x256 S10000x1 S256x1 where
  lhsContracting := [0]
  rhsContracting := [0]
  lhsNonContracting := [1]
  rhsNonContracting := [1]
  lhsBatch := []
  rhsBatch := []
  wf := dot_S10000x256_S10000x1_S256x1_0_0_1_1_n_n_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf
def dot_S256x64_S64x1_S256x1_1_0_0_1_n_n : DotDims S256x64 S64x1 S256x1 where
  lhsContracting := [1]
  rhsContracting := [0]
  lhsNonContracting := [0]
  rhsNonContracting := [1]
  lhsBatch := []
  rhsBatch := []
  wf := dot_S256x64_S64x1_S256x1_1_0_0_1_n_n_wf

abbrev win0_0 : Pipeline.Window sig grid0 :=
  Pipeline.Window.ofSpec (Memref.whole main_v18) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19_0) S10000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19_1) S1x128.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19_2) S1x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v19_0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v43) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44_0) S10000x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v44_1) S1x128.size cc2_transform_4 reads2_4 true true 1 stage2_4 sem2_4
    hrank2 hreads2_4 hinb2_4 nbuf2_4 (Memref.isWhole_whole _) hwx2_4 hstage2_4

abbrev win2_5 : Pipeline.Window sig grid2 :=
  Pipeline.Window.ofSpec (Memref.whole main_v44_2) S1x128.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v44_0) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v46) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v53) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v31) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v32) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v54) S10000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v68) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg14) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v55) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v69_0) S10000x128.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v69_1) S1x128.size cc4_transform_4 reads4_4 true true 1 stage4_4 sem4_4
    hrank4 hreads4_4 hinb4_4 nbuf4_4 (Memref.isWhole_whole _) hwx4_4 hstage4_4

abbrev win4_5 : Pipeline.Window sig grid4 :=
  Pipeline.Window.ofSpec (Memref.whole main_v69_2) S1x128.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v69_0) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v71) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v78) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v56) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v57) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v79) S10000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v79) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v4) S10000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg18) S128x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v80) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v81) S256x64.size cc6_transform_4 reads6_4 true true 1 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev idle6 : Fin 5 → grid6.Coords → Bool := fun | 0 => fun _ => false | 1 => fun _ => false | 2 => fun _ => false | 3 => fun _ => false | 4 => fun i => !(k6_cond2 i == 1#1) | ⟨_ + 5, h⟩ => absurd h (Nat.not_lt.2 (Nat.le_add_left _ _))

abbrev win7_0 : Pipeline.Window sig grid7 :=
  Pipeline.Window.ofSpec (Memref.whole main_v100) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg6) S64x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v87) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v101_0) S10000x128.size cc7_transform_3 reads7_3 true false 2 stage7_3 sem7_3
    hrank7 hreads7_3 hinb7_3 nbuf7_3 (Memref.isWhole_whole _) hwx7_3 hstage7_3

abbrev win7_4 : Pipeline.Window sig grid7 :=
  Pipeline.Window.ofSpec (Memref.whole main_v101_1) S1x128.size cc7_transform_4 reads7_4 true true 1 stage7_4 sem7_4
    hrank7 hreads7_4 hinb7_4 nbuf7_4 (Memref.isWhole_whole _) hwx7_4 hstage7_4

abbrev win7_5 : Pipeline.Window sig grid7 :=
  Pipeline.Window.ofSpec (Memref.whole main_v101_2) S1x128.size cc7_transform_5 reads7_5 true true 1 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v101_0) S10000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v103) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v110) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v88) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v89) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v111) S10000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v125) S10000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg10) S128x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v112) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v126_0) S10000x128.size cc9_transform_3 reads9_3 true false 2 stage9_3 sem9_3
    hrank9 hreads9_3 hinb9_3 nbuf9_3 (Memref.isWhole_whole _) hwx9_3 hstage9_3

abbrev win9_4 : Pipeline.Window sig grid9 :=
  Pipeline.Window.ofSpec (Memref.whole main_v126_1) S1x128.size cc9_transform_4 reads9_4 true true 1 stage9_4 sem9_4
    hrank9 hreads9_4 hinb9_4 nbuf9_4 (Memref.isWhole_whole _) hwx9_4 hstage9_4

abbrev win9_5 : Pipeline.Window sig grid9 :=
  Pipeline.Window.ofSpec (Memref.whole main_v126_2) S1x128.size cc9_transform_5 reads9_5 true true 1 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v126_0) S10000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v128) S1x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v135) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v113) S1x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v114) S1x128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v136) S10000x128.size cc10_transform_5 reads10_5 true false 2 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

abbrev win11_0 : Pipeline.Window sig grid11 :=
  Pipeline.Window.ofSpec (Memref.whole main_v150) S10000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_arg14) S128x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v137) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v151_0) S10000x128.size cc11_transform_3 reads11_3 true false 2 stage11_3 sem11_3
    hrank11 hreads11_3 hinb11_3 nbuf11_3 (Memref.isWhole_whole _) hwx11_3 hstage11_3

abbrev win11_4 : Pipeline.Window sig grid11 :=
  Pipeline.Window.ofSpec (Memref.whole main_v151_1) S1x128.size cc11_transform_4 reads11_4 true true 1 stage11_4 sem11_4
    hrank11 hreads11_4 hinb11_4 nbuf11_4 (Memref.isWhole_whole _) hwx11_4 hstage11_4

abbrev win11_5 : Pipeline.Window sig grid11 :=
  Pipeline.Window.ofSpec (Memref.whole main_v151_2) S1x128.size cc11_transform_5 reads11_5 true true 1 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v151_0) S10000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v153) S1x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v160) S1x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v138) S1x128.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v139) S1x128.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v161) S10000x128.size cc12_transform_5 reads12_5 true false 2 stage12_5 sem12_5
    hrank12 hreads12_5 hinb12_5 nbuf12_5 (Memref.isWhole_whole _) hwx12_5 hstage12_5

abbrev win12 : Fin 6 → Pipeline.Window sig grid12 := fun | 0 => win12_0 | 1 => win12_1 | 2 => win12_2 | 3 => win12_3 | 4 => win12_4 | 5 => win12_5 | ⟨_ + 6, h⟩ => absurd h (Nat.not_lt.2 (Nat.le_add_left _ _))
abbrev spec12 : Fin 6 → Pipeline.WinSpec sig grid12.rank := fun w => (win12 w).toWinSpec

abbrev win13_0 : Pipeline.Window sig grid13 :=
  Pipeline.Window.ofSpec (Memref.whole main_v161) S10000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v86) S10000x1.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_arg18) S128x64.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v162) S1x64.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v163) S256x64.size cc13_transform_4 reads13_4 true true 1 stage13_4 sem13_4
    hrank13 hreads13_4 hinb13_4 nbuf13_4 (Memref.isWhole_whole _) hwx13_4 hstage13_4

abbrev win13 : Fin 5 → Pipeline.Window sig grid13 := fun | 0 => win13_0 | 1 => win13_1 | 2 => win13_2 | 3 => win13_3 | 4 => win13_4 | ⟨_ + 5, h⟩ => absurd h (Nat.not_lt.2 (Nat.le_add_left _ _))
abbrev spec13 : Fin 5 → Pipeline.WinSpec sig grid13.rank := fun w => (win13 w).toWinSpec

abbrev idle13 : Fin 5 → grid13.Coords → Bool := fun | 0 => fun _ => false | 1 => fun _ => false | 2 => fun _ => false | 3 => fun _ => false | 4 => fun i => !(k13_cond2 i == 1#1) | ⟨_ + 5, h⟩ => absurd h (Nat.not_lt.2 (Nat.le_add_left _ _))

abbrev win14_0 : Pipeline.Window sig grid14 :=
  Pipeline.Window.ofSpec (Memref.whole main_v81) S256x64.size cc14_transform_0 reads14_0 false true 1 stage14_0 sem14_0
    hrank14 hreads14_0 hinb14_0 nbuf14_0 (Memref.isWhole_whole _) hwx14_0 hstage14_0

abbrev win14_1 : Pipeline.Window sig grid14 :=
  Pipeline.Window.ofSpec (Memref.whole main_v163) S256x64.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_arg20) S64x64.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v164) S1x64.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_arg22) S64x1.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v165) S1x1.size cc14_transform_5 reads14_5 false true 1 stage14_5 sem14_5
    hrank14 hreads14_5 hinb14_5 nbuf14_5 (Memref.isWhole_whole _) hwx14_5 hstage14_5

abbrev win14_6 : Pipeline.Window sig grid14 :=
  Pipeline.Window.ofSpec (Memref.whole main_v166) S256x1.size cc14_transform_6 reads14_6 true true 1 stage14_6 sem14_6
    hrank14 hreads14_6 hinb14_6 nbuf14_6 (Memref.isWhole_whole _) hwx14_6 hstage14_6

abbrev win14 : Fin 7 → Pipeline.Window sig grid14 := fun | 0 => win14_0 | 1 => win14_1 | 2 => win14_2 | 3 => win14_3 | 4 => win14_4 | 5 => win14_5 | 6 => win14_6 | ⟨_ + 7, h⟩ => absurd h (Nat.not_lt.2 (Nat.le_add_left _ _))
abbrev spec14 : Fin 7 → Pipeline.WinSpec sig grid14.rank := fun w => (win14 w).toWinSpec

class Facts : Prop extends Facts₀ where

variable [Facts]
-- ==== ReferenceIdeal.lean ====
abbrev S100000x64 : Shape := ⟨2, ![100000, 64]⟩
abbrev S2x1280000 : Shape := ⟨2, ![2, 1280000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1280000 : Shape := ⟨2, ![1, 1280000]⟩
abbrev S1280000 : Shape := ⟨1, ![1280000]⟩
abbrev S_ : Shape := ⟨0, ![]⟩
abbrev S1280000x1 : Shape := ⟨2, ![1280000, 1]⟩
abbrev S1280000x64 : Shape := ⟨2, ![1280000, 64]⟩
abbrev S100000x128 : Shape := ⟨2, ![100000, 128]⟩
abbrev S1x128 : Shape := ⟨2, ![1, 128]⟩
abbrev S1280000x128 : Shape := ⟨2, ![1280000, 128]⟩
abbrev S256x128 : Shape := ⟨2, ![256, 128]⟩
abbrev S100000x1 : Shape := ⟨2, ![100000, 1]⟩
abbrev S256 : Shape := ⟨1, ![256]⟩
abbrev S256x1 : Shape := ⟨2, ![256, 1]⟩
abbrev S256x64 : Shape := ⟨2, ![256, 64]⟩
abbrev S1x64 : Shape := ⟨2, ![1, 64]⟩
abbrev S1x1 : Shape := ⟨2, ![1, 1]⟩

abbrev nBuf : Space → Nat
  | .hbm => 483
  | .vmem => 0
  | .smem => 0
  | _ => 0

abbrev hbmTy0_0 (i : Nat) : BufTy := match i % 128 with
  | 0 => ⟨S100000x64, .f32⟩
  | 1 => ⟨S2x1280000, .i32⟩
  | 2 => ⟨S100000, .i32⟩
  | 3 => ⟨S100000x64, .f32⟩
  | 4 => ⟨S2x1280000, .i32⟩
  | 5 => ⟨S100000, .i32⟩
  | 6 => ⟨S64x128, .f32⟩
  | 7 => ⟨S128, .f32⟩
  | 8 => ⟨S128, .f32⟩
  | 9 => ⟨S128, .f32⟩
  | 10 => ⟨S128x128, .f32⟩
  | 11 => ⟨S128, .f32⟩
  | 12 => ⟨S128, .f32⟩
  | 13 => ⟨S128, .f32⟩
  | 14 => ⟨S128x128, .f32⟩
  | 15 => ⟨S128, .f32⟩
  | 16 => ⟨S128, .f32⟩
  | 17 => ⟨S128, .f32⟩
  | 18 => ⟨S128x64, .f32⟩
  | 19 => ⟨S64, .f32⟩
  | 20 => ⟨S64x64, .f32⟩
  | 21 => ⟨S64, .f32⟩
  | 22 => ⟨S64x1, .f32⟩
  | 23 => ⟨S1, .f32⟩
  | 24 => ⟨S1x1280000, .i32⟩
  | 25 => ⟨S1280000, .i32⟩
  | 26 => ⟨S1x1280000, .i32⟩
  | 27 => ⟨S1280000, .i32⟩
  | 28 => ⟨S_, .i32⟩
  | 29 => ⟨S1280000, .i32⟩
  | 30 => ⟨S1280000, .i1⟩
  | 31 => ⟨S_, .i32⟩
  | 32 => ⟨S1280000, .i32⟩
  | 33 => ⟨S1280000, .i32⟩
  | 34 => ⟨S1280000, .i32⟩
  | 35 => ⟨S1280000x1, .i32⟩
  | 36 => ⟨S1280000x64, .f32⟩
  | 37 => ⟨S_, .f32⟩
  | 38 => ⟨S100000x64, .f32⟩
  | 39 => ⟨S1280000x1, .i32⟩
  | 40 => ⟨S100000x64, .f32⟩
  | 41 => ⟨S100000x64, .f32⟩
  | 42 => ⟨S100000x128, .f32⟩
  | 43 => ⟨S1x128, .f32⟩
  | 44 => ⟨S100000x128, .f32⟩
  | 45 => ⟨S100000x128, .f32⟩
  | 46 => ⟨S_, .f32⟩
  | 47 => ⟨S128, .f32⟩
  | 48 => ⟨S_, .f32⟩
  | 49 => ⟨S128, .f32⟩
  | 50 => ⟨S128, .f32⟩
  | 51 => ⟨S_, .i32⟩
  | 52 => ⟨S_, .f32⟩
  | 53 => ⟨S128, .f32⟩
  | 54 => ⟨S1x128, .f32⟩
  | 55 => ⟨S_, .f32⟩
  | 56 => ⟨S1x128, .f32⟩
  | 57 => ⟨S1x128, .f32⟩
  | 58 => ⟨S100000x128, .f32⟩
  | 59 => ⟨S100000x128, .f32⟩
  | 60 => ⟨S100000x128, .f32⟩
  | 61 => ⟨S_, .f32⟩
  | 62 => ⟨S_, .f32⟩
  | 63 => ⟨S_, .f32⟩
  | 64 => ⟨S_, .f32⟩
  | 65 => ⟨S128, .f32⟩
  | 66 => ⟨S128, .f32⟩
  | 67 => ⟨S128, .f32⟩
  | 68 => ⟨S_, .f32⟩
  | 69 => ⟨S_, .i1⟩
  | 70 => ⟨S_, .f32⟩
  | 71 => ⟨S_, .f32⟩
  | 72 => ⟨S128, .f32⟩
  | 73 => ⟨S128, .f32⟩
  | 74 => ⟨S1x128, .f32⟩
  | 75 => ⟨S100000x128, .f32⟩
  | 76 => ⟨S100000x128, .f32⟩
  | 77 => ⟨S_, .f32⟩
  | 78 => ⟨S128, .f32⟩
  | 79 => ⟨S128, .f32⟩
  | 80 => ⟨S128, .f32⟩
  | 81 => ⟨S1x128, .f32⟩
  | 82 => ⟨S100000x128, .f32⟩
  | 83 => ⟨S100000x128, .f32⟩
  | 84 => ⟨S1x128, .f32⟩
  | 85 => ⟨S100000x128, .f32⟩
  | 86 => ⟨S100000x128, .f32⟩
  | 87 => ⟨S1x128, .f32⟩
  | 88 => ⟨S100000x128, .f32⟩
  | 89 => ⟨S100000x128, .f32⟩
  | 90 => ⟨S_, .f32⟩
  | 91 => ⟨S100000x128, .f32⟩
  | 92 => ⟨S100000x128, .f32⟩
  | 93 => ⟨S_, .i32⟩
  | 94 => ⟨S1280000, .i32⟩
  | 95 => ⟨S1280000, .i1⟩
  | 96 => ⟨S_, .i32⟩
  | 97 => ⟨S1280000, .i32⟩
  | 98 => ⟨S1280000, .i32⟩
  | 99 => ⟨S1280000, .i32⟩
  | 100 => ⟨S1280000x1, .i32⟩
  | 101 => ⟨S1280000x128, .f32⟩
  | 102 => ⟨S_, .f32⟩
  | 103 => ⟨S100000x128, .f32⟩
  | 104 => ⟨S1280000x1, .i32⟩
  | 105 => ⟨S100000x128, .f32⟩
  | 106 => ⟨S100000x128, .f32⟩
  | 107 => ⟨S100000x128, .f32⟩
  | 108 => ⟨S1x128, .f32⟩
  | 109 => ⟨S100000x128, .f32⟩
  | 110 => ⟨S100000x128, .f32⟩
  | 111 => ⟨S_, .f32⟩
  | 112 => ⟨S128, .f32⟩
  | 113 => ⟨S_, .f32⟩
  | 114 => ⟨S128, .f32⟩
  | 115 => ⟨S128, .f32⟩
  | 116 => ⟨S_, .i32⟩
  | 117 => ⟨S_, .f32⟩
  | 118 => ⟨S128, .f32⟩
  | 119 => ⟨S1x128, .f32⟩
  | 120 => ⟨S_, .f32⟩
  | 121 => ⟨S1x128, .f32⟩
  | 122 => ⟨S1x128, .f32⟩
  | 123 => ⟨S100000x128, .f32⟩
  | 124 => ⟨S100000x128, .f32⟩
  | 125 => ⟨S100000x128, .f32⟩
  | 126 => ⟨S_, .f32⟩
  | 127 => ⟨S_, .f32⟩
  | _ => ⟨S100000x64, .f32⟩

abbrev hbmTy0_1 (i : Nat) : BufTy := match i % 128 with
  | 0 => ⟨S_, .f32⟩
  | 1 => ⟨S_, .f32⟩
  | 2 => ⟨S128, .f32⟩
  | 3 => ⟨S128, .f32⟩
  | 4 => ⟨S128, .f32⟩
  | 5 => ⟨S_, .f32⟩
  | 6 => ⟨S_, .i1⟩
  | 7 => ⟨S_, .f32⟩
  | 8 => ⟨S_, .f32⟩
  | 9 => ⟨S128, .f32⟩
  | 10 => ⟨S128, .f32⟩
  | 11 => ⟨S1x128, .f32⟩
  | 12 => ⟨S100000x128, .f32⟩
  | 13 => ⟨S100000x128, .f32⟩
  | 14 => ⟨S_, .f32⟩
  | 15 => ⟨S128, .f32⟩
  | 16 => ⟨S128, .f32⟩
  | 17 => ⟨S128, .f32⟩
  | 18 => ⟨S1x128, .f32⟩
  | 19 => ⟨S100000x128, .f32⟩
  | 20 => ⟨S100000x128, .f32⟩
  | 21 => ⟨S1x128, .f32⟩
  | 22 => ⟨S100000x128, .f32⟩
  | 23 => ⟨S100000x128, .f32⟩
  | 24 => ⟨S1x128, .f32⟩
  | 25 => ⟨S100000x128, .f32⟩
  | 26 => ⟨S100000x128, .f32⟩
  | 27 => ⟨S_, .f32⟩
  | 28 => ⟨S100000x128, .f32⟩
  | 29 => ⟨S100000x128, .f32⟩
  | 30 => ⟨S_, .i32⟩
  | 31 => ⟨S1280000, .i32⟩
  | 32 => ⟨S1280000, .i1⟩
  | 33 => ⟨S_, .i32⟩
  | 34 => ⟨S1280000, .i32⟩
  | 35 => ⟨S1280000, .i32⟩
  | 36 => ⟨S1280000, .i32⟩
  | 37 => ⟨S1280000x1, .i32⟩
  | 38 => ⟨S1280000x128, .f32⟩
  | 39 => ⟨S_, .f32⟩
  | 40 => ⟨S100000x128, .f32⟩
  | 41 => ⟨S1280000x1, .i32⟩
  | 42 => ⟨S100000x128, .f32⟩
  | 43 => ⟨S100000x128, .f32⟩
  | 44 => ⟨S100000x128, .f32⟩
  | 45 => ⟨S1x128, .f32⟩
  | 46 => ⟨S100000x128, .f32⟩
  | 47 => ⟨S100000x128, .f32⟩
  | 48 => ⟨S_, .f32⟩
  | 49 => ⟨S128, .f32⟩
  | 50 => ⟨S_, .f32⟩
  | 51 => ⟨S128, .f32⟩
  | 52 => ⟨S128, .f32⟩
  | 53 => ⟨S_, .i32⟩
  | 54 => ⟨S_, .f32⟩
  | 55 => ⟨S128, .f32⟩
  | 56 => ⟨S1x128, .f32⟩
  | 57 => ⟨S_, .f32⟩
  | 58 => ⟨S1x128, .f32⟩
  | 59 => ⟨S1x128, .f32⟩
  | 60 => ⟨S100000x128, .f32⟩
  | 61 => ⟨S100000x128, .f32⟩
  | 62 => ⟨S100000x128, .f32⟩
  | 63 => ⟨S_, .f32⟩
  | 64 => ⟨S_, .f32⟩
  | 65 => ⟨S_, .f32⟩
  | 66 => ⟨S_, .f32⟩
  | 67 => ⟨S128, .f32⟩
  | 68 => ⟨S128, .f32⟩
  | 69 => ⟨S128, .f32⟩
  | 70 => ⟨S_, .f32⟩
  | 71 => ⟨S_, .i1⟩
  | 72 => ⟨S_, .f32⟩
  | 73 => ⟨S_, .f32⟩
  | 74 => ⟨S128, .f32⟩
  | 75 => ⟨S128, .f32⟩
  | 76 => ⟨S1x128, .f32⟩
  | 77 => ⟨S100000x128, .f32⟩
  | 78 => ⟨S100000x128, .f32⟩
  | 79 => ⟨S_, .f32⟩
  | 80 => ⟨S128, .f32⟩
  | 81 => ⟨S128, .f32⟩
  | 82 => ⟨S128, .f32⟩
  | 83 => ⟨S1x128, .f32⟩
  | 84 => ⟨S100000x128, .f32⟩
  | 85 => ⟨S100000x128, .f32⟩
  | 86 => ⟨S1x128, .f32⟩
  | 87 => ⟨S100000x128, .f32⟩
  | 88 => ⟨S100000x128, .f32⟩
  | 89 => ⟨S1x128, .f32⟩
  | 90 => ⟨S100000x128, .f32⟩
  | 91 => ⟨S100000x128, .f32⟩
  | 92 => ⟨S_, .f32⟩
  | 93 => ⟨S100000x128, .f32⟩
  | 94 => ⟨S100000x128, .f32⟩
  | 95 => ⟨S_, .f32⟩
  | 96 => ⟨S256x128, .f32⟩
  | 97 => ⟨S100000x1, .i32⟩
  | 98 => ⟨S256x128, .f32⟩
  | 99 => ⟨S_, .f32⟩
  | 100 => ⟨S100000, .f32⟩
  | 101 => ⟨S_, .f32⟩
  | 102 => ⟨S256, .f32⟩
  | 103 => ⟨S100000x1, .i32⟩
  | 104 => ⟨S256, .f32⟩
  | 105 => ⟨S_, .f32⟩
  | 106 => ⟨S256, .f32⟩
  | 107 => ⟨S256, .f32⟩
  | 108 => ⟨S256x1, .f32⟩
  | 109 => ⟨S256x128, .f32⟩
  | 110 => ⟨S256x128, .f32⟩
  | 111 => ⟨S256x64, .f32⟩
  | 112 => ⟨S1x64, .f32⟩
  | 113 => ⟨S256x64, .f32⟩
  | 114 => ⟨S256x64, .f32⟩
  | 115 => ⟨S1x1280000, .i32⟩
  | 116 => ⟨S1280000, .i32⟩
  | 117 => ⟨S1x1280000, .i32⟩
  | 118 => ⟨S1280000, .i32⟩
  | 119 => ⟨S_, .i32⟩
  | 120 => ⟨S1280000, .i32⟩
  | 121 => ⟨S1280000, .i1⟩
  | 122 => ⟨S_, .i32⟩
  | 123 => ⟨S1280000, .i32⟩
  | 124 => ⟨S1280000, .i32⟩
  | 125 => ⟨S1280000, .i32⟩
  | 126 => ⟨S1280000x1, .i32⟩
  | 127 => ⟨S1280000x64, .f32⟩
  | _ => ⟨S100000x64, .f32⟩

abbrev hbmTy0_2 (i : Nat) : BufTy := match i % 128 with
  | 0 => ⟨S_, .f32⟩
  | 1 => ⟨S100000x64, .f32⟩
  | 2 => ⟨S1280000x1, .i32⟩
  | 3 => ⟨S100000x64, .f32⟩
  | 4 => ⟨S100000x64, .f32⟩
  | 5 => ⟨S100000x128, .f32⟩
  | 6 => ⟨S1x128, .f32⟩
  | 7 => ⟨S100000x128, .f32⟩
  | 8 => ⟨S100000x128, .f32⟩
  | 9 => ⟨S_, .f32⟩
  | 10 => ⟨S128, .f32⟩
  | 11 => ⟨S_, .f32⟩
  | 12 => ⟨S128, .f32⟩
  | 13 => ⟨S128, .f32⟩
  | 14 => ⟨S_, .i32⟩
  | 15 => ⟨S_, .f32⟩
  | 16 => ⟨S128, .f32⟩
  | 17 => ⟨S1x128, .f32⟩
  | 18 => ⟨S_, .f32⟩
  | 19 => ⟨S1x128, .f32⟩
  | 20 => ⟨S1x128, .f32⟩
  | 21 => ⟨S100000x128, .f32⟩
  | 22 => ⟨S100000x128, .f32⟩
  | 23 => ⟨S100000x128, .f32⟩
  | 24 => ⟨S_, .f32⟩
  | 25 => ⟨S_, .f32⟩
  | 26 => ⟨S_, .f32⟩
  | 27 => ⟨S_, .f32⟩
  | 28 => ⟨S128, .f32⟩
  | 29 => ⟨S128, .f32⟩
  | 30 => ⟨S128, .f32⟩
  | 31 => ⟨S_, .f32⟩
  | 32 => ⟨S_, .i1⟩
  | 33 => ⟨S_, .f32⟩
  | 34 => ⟨S_, .f32⟩
  | 35 => ⟨S128, .f32⟩
  | 36 => ⟨S128, .f32⟩
  | 37 => ⟨S1x128, .f32⟩
  | 38 => ⟨S100000x128, .f32⟩
  | 39 => ⟨S100000x128, .f32⟩
  | 40 => ⟨S_, .f32⟩
  | 41 => ⟨S128, .f32⟩
  | 42 => ⟨S128, .f32⟩
  | 43 => ⟨S128, .f32⟩
  | 44 => ⟨S1x128, .f32⟩
  | 45 => ⟨S100000x128, .f32⟩
  | 46 => ⟨S100000x128, .f32⟩
  | 47 => ⟨S1x128, .f32⟩
  | 48 => ⟨S100000x128, .f32⟩
  | 49 => ⟨S100000x128, .f32⟩
  | 50 => ⟨S1x128, .f32⟩
  | 51 => ⟨S100000x128, .f32⟩
  | 52 => ⟨S100000x128, .f32⟩
  | 53 => ⟨S_, .f32⟩
  | 54 => ⟨S100000x128, .f32⟩
  | 55 => ⟨S100000x128, .f32⟩
  | 56 => ⟨S_, .i32⟩
  | 57 => ⟨S1280000, .i32⟩
  | 58 => ⟨S1280000, .i1⟩
  | 59 => ⟨S_, .i32⟩
  | 60 => ⟨S1280000, .i32⟩
  | 61 => ⟨S1280000, .i32⟩
  | 62 => ⟨S1280000, .i32⟩
  | 63 => ⟨S1280000x1, .i32⟩
  | 64 => ⟨S1280000x128, .f32⟩
  | 65 => ⟨S_, .f32⟩
  | 66 => ⟨S100000x128, .f32⟩
  | 67 => ⟨S1280000x1, .i32⟩
  | 68 => ⟨S100000x128, .f32⟩
  | 69 => ⟨S100000x128, .f32⟩
  | 70 => ⟨S100000x128, .f32⟩
  | 71 => ⟨S1x128, .f32⟩
  | 72 => ⟨S100000x128, .f32⟩
  | 73 => ⟨S100000x128, .f32⟩
  | 74 => ⟨S_, .f32⟩
  | 75 => ⟨S128, .f32⟩
  | 76 => ⟨S_, .f32⟩
  | 77 => ⟨S128, .f32⟩
  | 78 => ⟨S128, .f32⟩
  | 79 => ⟨S_, .i32⟩
  | 80 => ⟨S_, .f32⟩
  | 81 => ⟨S128, .f32⟩
  | 82 => ⟨S1x128, .f32⟩
  | 83 => ⟨S_, .f32⟩
  | 84 => ⟨S1x128, .f32⟩
  | 85 => ⟨S1x128, .f32⟩
  | 86 => ⟨S100000x128, .f32⟩
  | 87 => ⟨S100000x128, .f32⟩
  | 88 => ⟨S100000x128, .f32⟩
  | 89 => ⟨S_, .f32⟩
  | 90 => ⟨S_, .f32⟩
  | 91 => ⟨S_, .f32⟩
  | 92 => ⟨S_, .f32⟩
  | 93 => ⟨S128, .f32⟩
  | 94 => ⟨S128, .f32⟩
  | 95 => ⟨S128, .f32⟩
  | 96 => ⟨S_, .f32⟩
  | 97 => ⟨S_, .i1⟩
  | 98 => ⟨S_, .f32⟩
  | 99 => ⟨S_, .f32⟩
  | 100 => ⟨S128, .f32⟩
  | 101 => ⟨S128, .f32⟩
  | 102 => ⟨S1x128, .f32⟩
  | 103 => ⟨S100000x128, .f32⟩
  | 104 => ⟨S100000x128, .f32⟩
  | 105 => ⟨S_, .f32⟩
  | 106 => ⟨S128, .f32⟩
  | 107 => ⟨S128, .f32⟩
  | 108 => ⟨S128, .f32⟩
  | 109 => ⟨S1x128, .f32⟩
  | 110 => ⟨S100000x128, .f32⟩
  | 111 => ⟨S100000x128, .f32⟩
  | 112 => ⟨S1x128, .f32⟩
  | 113 => ⟨S100000x128, .f32⟩
  | 114 => ⟨S100000x128, .f32⟩
  | 115 => ⟨S1x128, .f32⟩
  | 116 => ⟨S100000x128, .f32⟩
  | 117 => ⟨S100000x128, .f32⟩
  | 118 => ⟨S_, .f32⟩
  | 119 => ⟨S100000x128, .f32⟩
  | 120 => ⟨S100000x128, .f32⟩
  | 121 => ⟨S_, .i32⟩
  | 122 => ⟨S1280000, .i32⟩
  | 123 => ⟨S1280000, .i1⟩
  | 124 => ⟨S_, .i32⟩
  | 125 => ⟨S1280000, .i32⟩
  | 126 => ⟨S1280000, .i32⟩
  | 127 => ⟨S1280000, .i32⟩
  | _ => ⟨S100000x64, .f32⟩

abbrev hbmTy0_3 (i : Nat) : BufTy := match i % 128 with
  | 0 => ⟨S1280000x1, .i32⟩
  | 1 => ⟨S1280000x128, .f32⟩
  | 2 => ⟨S_, .f32⟩
  | 3 => ⟨S100000x128, .f32⟩
  | 4 => ⟨S1280000x1, .i32⟩
  | 5 => ⟨S100000x128, .f32⟩
  | 6 => ⟨S100000x128, .f32⟩
  | 7 => ⟨S100000x128, .f32⟩
  | 8 => ⟨S1x128, .f32⟩
  | 9 => ⟨S100000x128, .f32⟩
  | 10 => ⟨S100000x128, .f32⟩
  | 11 => ⟨S_, .f32⟩
  | 12 => ⟨S128, .f32⟩
  | 13 => ⟨S_, .f32⟩
  | 14 => ⟨S128, .f32⟩
  | 15 => ⟨S128, .f32⟩
  | 16 => ⟨S_, .i32⟩
  | 17 => ⟨S_, .f32⟩
  | 18 => ⟨S128, .f32⟩
  | 19 => ⟨S1x128, .f32⟩
  | 20 => ⟨S_, .f32⟩
  | 21 => ⟨S1x128, .f32⟩
  | 22 => ⟨S1x128, .f32⟩
  | 23 => ⟨S100000x128, .f32⟩
  | 24 => ⟨S100000x128, .f32⟩
  | 25 => ⟨S100000x128, .f32⟩
  | 26 => ⟨S_, .f32⟩
  | 27 => ⟨S_, .f32⟩
  | 28 => ⟨S_, .f32⟩
  | 29 => ⟨S_, .f32⟩
  | 30 => ⟨S128, .f32⟩
  | 31 => ⟨S128, .f32⟩
  | 32 => ⟨S128, .f32⟩
  | 33 => ⟨S_, .f32⟩
  | 34 => ⟨S_, .i1⟩
  | 35 => ⟨S_, .f32⟩
  | 36 => ⟨S_, .f32⟩
  | 37 => ⟨S128, .f32⟩
  | 38 => ⟨S128, .f32⟩
  | 39 => ⟨S1x128, .f32⟩
  | 40 => ⟨S100000x128, .f32⟩
  | 41 => ⟨S100000x128, .f32⟩
  | 42 => ⟨S_, .f32⟩
  | 43 => ⟨S128, .f32⟩
  | 44 => ⟨S128, .f32⟩
  | 45 => ⟨S128, .f32⟩
  | 46 => ⟨S1x128, .f32⟩
  | 47 => ⟨S100000x128, .f32⟩
  | 48 => ⟨S100000x128, .f32⟩
  | 49 => ⟨S1x128, .f32⟩
  | 50 => ⟨S100000x128, .f32⟩
  | 51 => ⟨S100000x128, .f32⟩
  | 52 => ⟨S1x128, .f32⟩
  | 53 => ⟨S100000x128, .f32⟩
  | 54 => ⟨S100000x128, .f32⟩
  | 55 => ⟨S_, .f32⟩
  | 56 => ⟨S100000x128, .f32⟩
  | 57 => ⟨S100000x128, .f32⟩
  | 58 => ⟨S_, .f32⟩
  | 59 => ⟨S256x128, .f32⟩
  | 60 => ⟨S100000x1, .i32⟩
  | 61 => ⟨S256x128, .f32⟩
  | 62 => ⟨S_, .f32⟩
  | 63 => ⟨S100000, .f32⟩
  | 64 => ⟨S_, .f32⟩
  | 65 => ⟨S256, .f32⟩
  | 66 => ⟨S100000x1, .i32⟩
  | 67 => ⟨S256, .f32⟩
  | 68 => ⟨S_, .f32⟩
  | 69 => ⟨S256, .f32⟩
  | 70 => ⟨S256, .f32⟩
  | 71 => ⟨S256x1, .f32⟩
  | 72 => ⟨S256x128, .f32⟩
  | 73 => ⟨S256x128, .f32⟩
  | 74 => ⟨S256x64, .f32⟩
  | 75 => ⟨S1x64, .f32⟩
  | 76 => ⟨S256x64, .f32⟩
  | 77 => ⟨S256x64, .f32⟩
  | 78 => ⟨S256x64, .f32⟩
  | 79 => ⟨S256x64, .f32⟩
  | 80 => ⟨S256x64, .f32⟩
  | 81 => ⟨S1x64, .f32⟩
  | 82 => ⟨S256x64, .f32⟩
  | 83 => ⟨S256x64, .f32⟩
  | 84 => ⟨S_, .f32⟩
  | 85 => ⟨S256x64, .f32⟩
  | 86 => ⟨S256x64, .f32⟩
  | 87 => ⟨S256x1, .f32⟩
  | 88 => ⟨S1x1, .f32⟩
  | 89 => ⟨S256x1, .f32⟩
  | 90 => ⟨S256x1, .f32⟩
  | 91 => ⟨S256x1, .f32⟩
  | 92 => ⟨S256x1, .f32⟩
  | 93 => ⟨S_, .f32⟩
  | 94 => ⟨S256x1, .f32⟩
  | 95 => ⟨S256x1, .f32⟩
  | 96 => ⟨S_, .f32⟩
  | 97 => ⟨S256x1, .f32⟩
  | 98 => ⟨S256x1, .f32⟩
  | _ => ⟨S100000x64, .f32⟩

abbrev hbmTy (i : Nat) : BufTy := match i / 128 with
  | 0 => hbmTy0_0 i
  | 1 => hbmTy0_1 i
  | 2 => hbmTy0_2 i
  | 3 => hbmTy0_3 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_c : Ref sig .tc := ⟨.hbm, 28, rfl⟩
abbrev main_v4 : Ref sig .tc := ⟨.hbm, 29, rfl⟩
abbrev main_v5 : Ref sig .tc := ⟨.hbm, 30, rfl⟩
abbrev main_c_0 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_cst : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst_1 : Ref sig .tc := ⟨.hbm, 46, rfl⟩
abbrev main_v19 : Ref sig .tc := ⟨.hbm, 47, rfl⟩
abbrev main_cst_2 : Ref sig .tc := ⟨.hbm, 48, rfl⟩
abbrev main_v20 : Ref sig .tc := ⟨.hbm, 49, rfl⟩
abbrev main_v21 : Ref sig .tc := ⟨.hbm, 50, rfl⟩
abbrev main_c_3 : Ref sig .tc := ⟨.hbm, 51, rfl⟩
abbrev main_call0_cst : Ref sig .tc := ⟨.hbm, 52, rfl⟩
abbrev main_call0_v0 : Ref sig .tc := ⟨.hbm, 53, rfl⟩
abbrev main_call0_v1 : Ref sig .tc := ⟨.hbm, 54, rfl⟩
abbrev main_call0_cst_0 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_v5 : Ref sig .tc := ⟨.hbm, 59, rfl⟩
abbrev main_call0_v6 : Ref sig .tc := ⟨.hbm, 60, rfl⟩
abbrev main_call0_v7 : Ref sig .tc := ⟨.hbm, 61, rfl⟩
abbrev main_call0_cst_1 : Ref sig .tc := ⟨.hbm, 62, rfl⟩
abbrev main_call0_v8 : Ref sig .tc := ⟨.hbm, 63, rfl⟩
abbrev main_call0_cst_2 : Ref sig .tc := ⟨.hbm, 64, rfl⟩
abbrev main_call0_v9 : Ref sig .tc := ⟨.hbm, 65, rfl⟩
abbrev main_call0_v10 : Ref sig .tc := ⟨.hbm, 66, rfl⟩
abbrev main_call0_v11 : Ref sig .tc := ⟨.hbm, 67, rfl⟩
abbrev main_call0_cst_3 : Ref sig .tc := ⟨.hbm, 68, rfl⟩
abbrev main_call0_v12 : Ref sig .tc := ⟨.hbm, 69, rfl⟩
abbrev main_call0_cst_4 : Ref sig .tc := ⟨.hbm, 70, rfl⟩
abbrev main_call0_call0_v0 : Ref sig .tc := ⟨.hbm, 71, rfl⟩
abbrev main_call0_call0_v1 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_cst_4 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_call1_cst : Ref sig .tc := ⟨.hbm, 90, rfl⟩
abbrev main_call1_v0 : Ref sig .tc := ⟨.hbm, 91, rfl⟩
abbrev main_v38 : Ref sig .tc := ⟨.hbm, 92, rfl⟩
abbrev main_c_5 : Ref sig .tc := ⟨.hbm, 93, rfl⟩
abbrev main_v39 : Ref sig .tc := ⟨.hbm, 94, rfl⟩
abbrev main_v40 : Ref sig .tc := ⟨.hbm, 95, rfl⟩
abbrev main_c_6 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_cst_7 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_cst_8 : Ref sig .tc := ⟨.hbm, 111, rfl⟩
abbrev main_v54 : Ref sig .tc := ⟨.hbm, 112, rfl⟩
abbrev main_cst_9 : Ref sig .tc := ⟨.hbm, 113, rfl⟩
abbrev main_v55 : Ref sig .tc := ⟨.hbm, 114, rfl⟩
abbrev main_v56 : Ref sig .tc := ⟨.hbm, 115, rfl⟩
abbrev main_c_10 : Ref sig .tc := ⟨.hbm, 116, rfl⟩
abbrev main_call2_cst : Ref sig .tc := ⟨.hbm, 117, rfl⟩
abbrev main_call2_v0 : Ref sig .tc := ⟨.hbm, 118, rfl⟩
abbrev main_call2_v1 : Ref sig .tc := ⟨.hbm, 119, rfl⟩
abbrev main_call2_cst_0 : Ref sig .tc := ⟨.hbm, 120, rfl⟩
abbrev main_call2_v2 : Ref sig .tc := ⟨.hbm, 121, rfl⟩
abbrev main_call2_v3 : Ref sig .tc := ⟨.hbm, 122, rfl⟩
abbrev main_call2_v4 : Ref sig .tc := ⟨.hbm, 123, rfl⟩
abbrev main_call2_v5 : Ref sig .tc := ⟨.hbm, 124, rfl⟩
abbrev main_call2_v6 : Ref sig .tc := ⟨.hbm, 125, rfl⟩
abbrev main_call2_v7 : Ref sig .tc := ⟨.hbm, 126, rfl⟩
abbrev main_call2_cst_1 : Ref sig .tc := ⟨.hbm, 127, rfl⟩
abbrev main_call2_v8 : Ref sig .tc := ⟨.hbm, 128, rfl⟩
abbrev main_call2_cst_2 : Ref sig .tc := ⟨.hbm, 129, rfl⟩
abbrev main_call2_v9 : Ref sig .tc := ⟨.hbm, 130, rfl⟩
abbrev main_call2_v10 : Ref sig .tc := ⟨.hbm, 131, rfl⟩
abbrev main_call2_v11 : Ref sig .tc := ⟨.hbm, 132, rfl⟩
abbrev main_call2_cst_3 : Ref sig .tc := ⟨.hbm, 133, rfl⟩
abbrev main_call2_v12 : Ref sig .tc := ⟨.hbm, 134, rfl⟩
abbrev main_call2_cst_4 : Ref sig .tc := ⟨.hbm, 135, rfl⟩
abbrev main_call2_call0_v0 : Ref sig .tc := ⟨.hbm, 136, rfl⟩
abbrev main_call2_call0_v1 : Ref sig .tc := ⟨.hbm, 137, rfl⟩
abbrev main_v57 : Ref sig .tc := ⟨.hbm, 138, rfl⟩
abbrev main_v58 : Ref sig .tc := ⟨.hbm, 139, rfl⟩
abbrev main_v59 : Ref sig .tc := ⟨.hbm, 140, rfl⟩
abbrev main_v60 : Ref sig .tc := ⟨.hbm, 141, rfl⟩
abbrev main_cst_11 : Ref sig .tc := ⟨.hbm, 142, rfl⟩
abbrev main_v61 : Ref sig .tc := ⟨.hbm, 143, rfl⟩
abbrev main_v62 : Ref sig .tc := ⟨.hbm, 144, rfl⟩
abbrev main_v63 : Ref sig .tc := ⟨.hbm, 145, rfl⟩
abbrev main_v64 : Ref sig .tc := ⟨.hbm, 146, rfl⟩
abbrev main_v65 : Ref sig .tc := ⟨.hbm, 147, rfl⟩
abbrev main_v66 : Ref sig .tc := ⟨.hbm, 148, rfl⟩
abbrev main_v67 : Ref sig .tc := ⟨.hbm, 149, rfl⟩
abbrev main_v68 : Ref sig .tc := ⟨.hbm, 150, rfl⟩
abbrev main_v69 : Ref sig .tc := ⟨.hbm, 151, rfl⟩
abbrev main_v70 : Ref sig .tc := ⟨.hbm, 152, rfl⟩
abbrev main_v71 : Ref sig .tc := ⟨.hbm, 153, rfl⟩
abbrev main_v72 : Ref sig .tc := ⟨.hbm, 154, rfl⟩
abbrev main_call3_cst : Ref sig .tc := ⟨.hbm, 155, rfl⟩
abbrev main_call3_v0 : Ref sig .tc := ⟨.hbm, 156, rfl⟩
abbrev main_v73 : Ref sig .tc := ⟨.hbm, 157, rfl⟩
abbrev main_c_12 : Ref sig .tc := ⟨.hbm, 158, rfl⟩
abbrev main_v74 : Ref sig .tc := ⟨.hbm, 159, rfl⟩
abbrev main_v75 : Ref sig .tc := ⟨.hbm, 160, rfl⟩
abbrev main_c_13 : Ref sig .tc := ⟨.hbm, 161, rfl⟩
abbrev main_v76 : Ref sig .tc := ⟨.hbm, 162, rfl⟩
abbrev main_v77 : Ref sig .tc := ⟨.hbm, 163, rfl⟩
abbrev main_v78 : Ref sig .tc := ⟨.hbm, 164, rfl⟩
abbrev main_v79 : Ref sig .tc := ⟨.hbm, 165, rfl⟩
abbrev main_v80 : Ref sig .tc := ⟨.hbm, 166, rfl⟩
abbrev main_cst_14 : Ref sig .tc := ⟨.hbm, 167, rfl⟩
abbrev main_v81 : Ref sig .tc := ⟨.hbm, 168, rfl⟩
abbrev main_v82 : Ref sig .tc := ⟨.hbm, 169, rfl⟩
abbrev main_v83 : Ref sig .tc := ⟨.hbm, 170, rfl⟩
abbrev main_v84 : Ref sig .tc := ⟨.hbm, 171, rfl⟩
abbrev main_v85 : Ref sig .tc := ⟨.hbm, 172, rfl⟩
abbrev main_v86 : Ref sig .tc := ⟨.hbm, 173, rfl⟩
abbrev main_v87 : Ref sig .tc := ⟨.hbm, 174, rfl⟩
abbrev main_v88 : Ref sig .tc := ⟨.hbm, 175, rfl⟩
abbrev main_cst_15 : Ref sig .tc := ⟨.hbm, 176, rfl⟩
abbrev main_v89 : Ref sig .tc := ⟨.hbm, 177, rfl⟩
abbrev main_cst_16 : Ref sig .tc := ⟨.hbm, 178, rfl⟩
abbrev main_v90 : Ref sig .tc := ⟨.hbm, 179, rfl⟩
abbrev main_v91 : Ref sig .tc := ⟨.hbm, 180, rfl⟩
abbrev main_c_17 : Ref sig .tc := ⟨.hbm, 181, rfl⟩
abbrev main_call4_cst : Ref sig .tc := ⟨.hbm, 182, rfl⟩
abbrev main_call4_v0 : Ref sig .tc := ⟨.hbm, 183, rfl⟩
abbrev main_call4_v1 : Ref sig .tc := ⟨.hbm, 184, rfl⟩
abbrev main_call4_cst_0 : Ref sig .tc := ⟨.hbm, 185, rfl⟩
abbrev main_call4_v2 : Ref sig .tc := ⟨.hbm, 186, rfl⟩
abbrev main_call4_v3 : Ref sig .tc := ⟨.hbm, 187, rfl⟩
abbrev main_call4_v4 : Ref sig .tc := ⟨.hbm, 188, rfl⟩
abbrev main_call4_v5 : Ref sig .tc := ⟨.hbm, 189, rfl⟩
abbrev main_call4_v6 : Ref sig .tc := ⟨.hbm, 190, rfl⟩
abbrev main_call4_v7 : Ref sig .tc := ⟨.hbm, 191, rfl⟩
abbrev main_call4_cst_1 : Ref sig .tc := ⟨.hbm, 192, rfl⟩
abbrev main_call4_v8 : Ref sig .tc := ⟨.hbm, 193, rfl⟩
abbrev main_call4_cst_2 : Ref sig .tc := ⟨.hbm, 194, rfl⟩
abbrev main_call4_v9 : Ref sig .tc := ⟨.hbm, 195, rfl⟩
abbrev main_call4_v10 : Ref sig .tc := ⟨.hbm, 196, rfl⟩
abbrev main_call4_v11 : Ref sig .tc := ⟨.hbm, 197, rfl⟩
abbrev main_call4_cst_3 : Ref sig .tc := ⟨.hbm, 198, rfl⟩
abbrev main_call4_v12 : Ref sig .tc := ⟨.hbm, 199, rfl⟩
abbrev main_call4_cst_4 : Ref sig .tc := ⟨.hbm, 200, rfl⟩
abbrev main_call4_call0_v0 : Ref sig .tc := ⟨.hbm, 201, rfl⟩
abbrev main_call4_call0_v1 : Ref sig .tc := ⟨.hbm, 202, rfl⟩
abbrev main_v92 : Ref sig .tc := ⟨.hbm, 203, rfl⟩
abbrev main_v93 : Ref sig .tc := ⟨.hbm, 204, rfl⟩
abbrev main_v94 : Ref sig .tc := ⟨.hbm, 205, rfl⟩
abbrev main_v95 : Ref sig .tc := ⟨.hbm, 206, rfl⟩
abbrev main_cst_18 : Ref sig .tc := ⟨.hbm, 207, rfl⟩
abbrev main_v96 : Ref sig .tc := ⟨.hbm, 208, rfl⟩
abbrev main_v97 : Ref sig .tc := ⟨.hbm, 209, rfl⟩
abbrev main_v98 : Ref sig .tc := ⟨.hbm, 210, rfl⟩
abbrev main_v99 : Ref sig .tc := ⟨.hbm, 211, rfl⟩
abbrev main_v100 : Ref sig .tc := ⟨.hbm, 212, rfl⟩
abbrev main_v101 : Ref sig .tc := ⟨.hbm, 213, rfl⟩
abbrev main_v102 : Ref sig .tc := ⟨.hbm, 214, rfl⟩
abbrev main_v103 : Ref sig .tc := ⟨.hbm, 215, rfl⟩
abbrev main_v104 : Ref sig .tc := ⟨.hbm, 216, rfl⟩
abbrev main_v105 : Ref sig .tc := ⟨.hbm, 217, rfl⟩
abbrev main_v106 : Ref sig .tc := ⟨.hbm, 218, rfl⟩
abbrev main_v107 : Ref sig .tc := ⟨.hbm, 219, rfl⟩
abbrev main_call5_cst : Ref sig .tc := ⟨.hbm, 220, rfl⟩
abbrev main_call5_v0 : Ref sig .tc := ⟨.hbm, 221, rfl⟩
abbrev main_v108 : Ref sig .tc := ⟨.hbm, 222, rfl⟩
abbrev main_cst_19 : Ref sig .tc := ⟨.hbm, 223, rfl⟩
abbrev main_v109 : Ref sig .tc := ⟨.hbm, 224, rfl⟩
abbrev main_v110 : Ref sig .tc := ⟨.hbm, 225, rfl⟩
abbrev main_v111 : Ref sig .tc := ⟨.hbm, 226, rfl⟩
abbrev main_cst_20 : Ref sig .tc := ⟨.hbm, 227, rfl⟩
abbrev main_v112 : Ref sig .tc := ⟨.hbm, 228, rfl⟩
abbrev main_cst_21 : Ref sig .tc := ⟨.hbm, 229, rfl⟩
abbrev main_v113 : Ref sig .tc := ⟨.hbm, 230, rfl⟩
abbrev main_v114 : Ref sig .tc := ⟨.hbm, 231, rfl⟩
abbrev main_v115 : Ref sig .tc := ⟨.hbm, 232, rfl⟩
abbrev main_cst_22 : Ref sig .tc := ⟨.hbm, 233, rfl⟩
abbrev main_v116 : Ref sig .tc := ⟨.hbm, 234, rfl⟩
abbrev main_v117 : Ref sig .tc := ⟨.hbm, 235, rfl⟩
abbrev main_v118 : Ref sig .tc := ⟨.hbm, 236, rfl⟩
abbrev main_v119 : Ref sig .tc := ⟨.hbm, 237, rfl⟩
abbrev main_v120 : Ref sig .tc := ⟨.hbm, 238, rfl⟩
abbrev main_v121 : Ref sig .tc := ⟨.hbm, 239, rfl⟩
abbrev main_v122 : Ref sig .tc := ⟨.hbm, 240, rfl⟩
abbrev main_v123 : Ref sig .tc := ⟨.hbm, 241, rfl⟩
abbrev main_v124 : Ref sig .tc := ⟨.hbm, 242, rfl⟩
abbrev main_v125 : Ref sig .tc := ⟨.hbm, 243, rfl⟩
abbrev main_v126 : Ref sig .tc := ⟨.hbm, 244, rfl⟩
abbrev main_v127 : Ref sig .tc := ⟨.hbm, 245, rfl⟩
abbrev main_v128 : Ref sig .tc := ⟨.hbm, 246, rfl⟩
abbrev main_c_23 : Ref sig .tc := ⟨.hbm, 247, rfl⟩
abbrev main_v129 : Ref sig .tc := ⟨.hbm, 248, rfl⟩
abbrev main_v130 : Ref sig .tc := ⟨.hbm, 249, rfl⟩
abbrev main_c_24 : Ref sig .tc := ⟨.hbm, 250, rfl⟩
abbrev main_v131 : Ref sig .tc := ⟨.hbm, 251, rfl⟩
abbrev main_v132 : Ref sig .tc := ⟨.hbm, 252, rfl⟩
abbrev main_v133 : Ref sig .tc := ⟨.hbm, 253, rfl⟩
abbrev main_v134 : Ref sig .tc := ⟨.hbm, 254, rfl⟩
abbrev main_v135 : Ref sig .tc := ⟨.hbm, 255, rfl⟩
abbrev main_cst_25 : Ref sig .tc := ⟨.hbm, 256, rfl⟩
abbrev main_v136 : Ref sig .tc := ⟨.hbm, 257, rfl⟩
abbrev main_v137 : Ref sig .tc := ⟨.hbm, 258, rfl⟩
abbrev main_v138 : Ref sig .tc := ⟨.hbm, 259, rfl⟩
abbrev main_v139 : Ref sig .tc := ⟨.hbm, 260, rfl⟩
abbrev main_v140 : Ref sig .tc := ⟨.hbm, 261, rfl⟩
abbrev main_v141 : Ref sig .tc := ⟨.hbm, 262, rfl⟩
abbrev main_v142 : Ref sig .tc := ⟨.hbm, 263, rfl⟩
abbrev main_v143 : Ref sig .tc := ⟨.hbm, 264, rfl⟩
abbrev main_cst_26 : Ref sig .tc := ⟨.hbm, 265, rfl⟩
abbrev main_v144 : Ref sig .tc := ⟨.hbm, 266, rfl⟩
abbrev main_cst_27 : Ref sig .tc := ⟨.hbm, 267, rfl⟩
abbrev main_v145 : Ref sig .tc := ⟨.hbm, 268, rfl⟩
abbrev main_v146 : Ref sig .tc := ⟨.hbm, 269, rfl⟩
abbrev main_c_28 : Ref sig .tc := ⟨.hbm, 270, rfl⟩
abbrev main_call6_cst : Ref sig .tc := ⟨.hbm, 271, rfl⟩
abbrev main_call6_v0 : Ref sig .tc := ⟨.hbm, 272, rfl⟩
abbrev main_call6_v1 : Ref sig .tc := ⟨.hbm, 273, rfl⟩
abbrev main_call6_cst_0 : Ref sig .tc := ⟨.hbm, 274, rfl⟩
abbrev main_call6_v2 : Ref sig .tc := ⟨.hbm, 275, rfl⟩
abbrev main_call6_v3 : Ref sig .tc := ⟨.hbm, 276, rfl⟩
abbrev main_call6_v4 : Ref sig .tc := ⟨.hbm, 277, rfl⟩
abbrev main_call6_v5 : Ref sig .tc := ⟨.hbm, 278, rfl⟩
abbrev main_call6_v6 : Ref sig .tc := ⟨.hbm, 279, rfl⟩
abbrev main_call6_v7 : Ref sig .tc := ⟨.hbm, 280, rfl⟩
abbrev main_call6_cst_1 : Ref sig .tc := ⟨.hbm, 281, rfl⟩
abbrev main_call6_v8 : Ref sig .tc := ⟨.hbm, 282, rfl⟩
abbrev main_call6_cst_2 : Ref sig .tc := ⟨.hbm, 283, rfl⟩
abbrev main_call6_v9 : Ref sig .tc := ⟨.hbm, 284, rfl⟩
abbrev main_call6_v10 : Ref sig .tc := ⟨.hbm, 285, rfl⟩
abbrev main_call6_v11 : Ref sig .tc := ⟨.hbm, 286, rfl⟩
abbrev main_call6_cst_3 : Ref sig .tc := ⟨.hbm, 287, rfl⟩
abbrev main_call6_v12 : Ref sig .tc := ⟨.hbm, 288, rfl⟩
abbrev main_call6_cst_4 : Ref sig .tc := ⟨.hbm, 289, rfl⟩
abbrev main_call6_call0_v0 : Ref sig .tc := ⟨.hbm, 290, rfl⟩
abbrev main_call6_call0_v1 : Ref sig .tc := ⟨.hbm, 291, rfl⟩
abbrev main_v147 : Ref sig .tc := ⟨.hbm, 292, rfl⟩
abbrev main_v148 : Ref sig .tc := ⟨.hbm, 293, rfl⟩
abbrev main_v149 : Ref sig .tc := ⟨.hbm, 294, rfl⟩
abbrev main_v150 : Ref sig .tc := ⟨.hbm, 295, rfl⟩
abbrev main_cst_29 : Ref sig .tc := ⟨.hbm, 296, rfl⟩
abbrev main_v151 : Ref sig .tc := ⟨.hbm, 297, rfl⟩
abbrev main_v152 : Ref sig .tc := ⟨.hbm, 298, rfl⟩
abbrev main_v153 : Ref sig .tc := ⟨.hbm, 299, rfl⟩
abbrev main_v154 : Ref sig .tc := ⟨.hbm, 300, rfl⟩
abbrev main_v155 : Ref sig .tc := ⟨.hbm, 301, rfl⟩
abbrev main_v156 : Ref sig .tc := ⟨.hbm, 302, rfl⟩
abbrev main_v157 : Ref sig .tc := ⟨.hbm, 303, rfl⟩
abbrev main_v158 : Ref sig .tc := ⟨.hbm, 304, rfl⟩
abbrev main_v159 : Ref sig .tc := ⟨.hbm, 305, rfl⟩
abbrev main_v160 : Ref sig .tc := ⟨.hbm, 306, rfl⟩
abbrev main_v161 : Ref sig .tc := ⟨.hbm, 307, rfl⟩
abbrev main_v162 : Ref sig .tc := ⟨.hbm, 308, rfl⟩
abbrev main_call7_cst : Ref sig .tc := ⟨.hbm, 309, rfl⟩
abbrev main_call7_v0 : Ref sig .tc := ⟨.hbm, 310, rfl⟩
abbrev main_v163 : Ref sig .tc := ⟨.hbm, 311, rfl⟩
abbrev main_c_30 : Ref sig .tc := ⟨.hbm, 312, rfl⟩
abbrev main_v164 : Ref sig .tc := ⟨.hbm, 313, rfl⟩
abbrev main_v165 : Ref sig .tc := ⟨.hbm, 314, rfl⟩
abbrev main_c_31 : Ref sig .tc := ⟨.hbm, 315, rfl⟩
abbrev main_v166 : Ref sig .tc := ⟨.hbm, 316, rfl⟩
abbrev main_v167 : Ref sig .tc := ⟨.hbm, 317, rfl⟩
abbrev main_v168 : Ref sig .tc := ⟨.hbm, 318, rfl⟩
abbrev main_v169 : Ref sig .tc := ⟨.hbm, 319, rfl⟩
abbrev main_v170 : Ref sig .tc := ⟨.hbm, 320, rfl⟩
abbrev main_cst_32 : Ref sig .tc := ⟨.hbm, 321, rfl⟩
abbrev main_v171 : Ref sig .tc := ⟨.hbm, 322, rfl⟩
abbrev main_v172 : Ref sig .tc := ⟨.hbm, 323, rfl⟩
abbrev main_v173 : Ref sig .tc := ⟨.hbm, 324, rfl⟩
abbrev main_v174 : Ref sig .tc := ⟨.hbm, 325, rfl⟩
abbrev main_v175 : Ref sig .tc := ⟨.hbm, 326, rfl⟩
abbrev main_v176 : Ref sig .tc := ⟨.hbm, 327, rfl⟩
abbrev main_v177 : Ref sig .tc := ⟨.hbm, 328, rfl⟩
abbrev main_v178 : Ref sig .tc := ⟨.hbm, 329, rfl⟩
abbrev main_cst_33 : Ref sig .tc := ⟨.hbm, 330, rfl⟩
abbrev main_v179 : Ref sig .tc := ⟨.hbm, 331, rfl⟩
abbrev main_cst_34 : Ref sig .tc := ⟨.hbm, 332, rfl⟩
abbrev main_v180 : Ref sig .tc := ⟨.hbm, 333, rfl⟩
abbrev main_v181 : Ref sig .tc := ⟨.hbm, 334, rfl⟩
abbrev main_c_35 : Ref sig .tc := ⟨.hbm, 335, rfl⟩
abbrev main_call8_cst : Ref sig .tc := ⟨.hbm, 336, rfl⟩
abbrev main_call8_v0 : Ref sig .tc := ⟨.hbm, 337, rfl⟩
abbrev main_call8_v1 : Ref sig .tc := ⟨.hbm, 338, rfl⟩
abbrev main_call8_cst_0 : Ref sig .tc := ⟨.hbm, 339, rfl⟩
abbrev main_call8_v2 : Ref sig .tc := ⟨.hbm, 340, rfl⟩
abbrev main_call8_v3 : Ref sig .tc := ⟨.hbm, 341, rfl⟩
abbrev main_call8_v4 : Ref sig .tc := ⟨.hbm, 342, rfl⟩
abbrev main_call8_v5 : Ref sig .tc := ⟨.hbm, 343, rfl⟩
abbrev main_call8_v6 : Ref sig .tc := ⟨.hbm, 344, rfl⟩
abbrev main_call8_v7 : Ref sig .tc := ⟨.hbm, 345, rfl⟩
abbrev main_call8_cst_1 : Ref sig .tc := ⟨.hbm, 346, rfl⟩
abbrev main_call8_v8 : Ref sig .tc := ⟨.hbm, 347, rfl⟩
abbrev main_call8_cst_2 : Ref sig .tc := ⟨.hbm, 348, rfl⟩
abbrev main_call8_v9 : Ref sig .tc := ⟨.hbm, 349, rfl⟩
abbrev main_call8_v10 : Ref sig .tc := ⟨.hbm, 350, rfl⟩
abbrev main_call8_v11 : Ref sig .tc := ⟨.hbm, 351, rfl⟩
abbrev main_call8_cst_3 : Ref sig .tc := ⟨.hbm, 352, rfl⟩
abbrev main_call8_v12 : Ref sig .tc := ⟨.hbm, 353, rfl⟩
abbrev main_call8_cst_4 : Ref sig .tc := ⟨.hbm, 354, rfl⟩
abbrev main_call8_call0_v0 : Ref sig .tc := ⟨.hbm, 355, rfl⟩
abbrev main_call8_call0_v1 : Ref sig .tc := ⟨.hbm, 356, rfl⟩
abbrev main_v182 : Ref sig .tc := ⟨.hbm, 357, rfl⟩
abbrev main_v183 : Ref sig .tc := ⟨.hbm, 358, rfl⟩
abbrev main_v184 : Ref sig .tc := ⟨.hbm, 359, rfl⟩
abbrev main_v185 : Ref sig .tc := ⟨.hbm, 360, rfl⟩
abbrev main_cst_36 : Ref sig .tc := ⟨.hbm, 361, rfl⟩
abbrev main_v186 : Ref sig .tc := ⟨.hbm, 362, rfl⟩
abbrev main_v187 : Ref sig .tc := ⟨.hbm, 363, rfl⟩
abbrev main_v188 : Ref sig .tc := ⟨.hbm, 364, rfl⟩
abbrev main_v189 : Ref sig .tc := ⟨.hbm, 365, rfl⟩
abbrev main_v190 : Ref sig .tc := ⟨.hbm, 366, rfl⟩
abbrev main_v191 : Ref sig .tc := ⟨.hbm, 367, rfl⟩
abbrev main_v192 : Ref sig .tc := ⟨.hbm, 368, rfl⟩
abbrev main_v193 : Ref sig .tc := ⟨.hbm, 369, rfl⟩
abbrev main_v194 : Ref sig .tc := ⟨.hbm, 370, rfl⟩
abbrev main_v195 : Ref sig .tc := ⟨.hbm, 371, rfl⟩
abbrev main_v196 : Ref sig .tc := ⟨.hbm, 372, rfl⟩
abbrev main_v197 : Ref sig .tc := ⟨.hbm, 373, rfl⟩
abbrev main_call9_cst : Ref sig .tc := ⟨.hbm, 374, rfl⟩
abbrev main_call9_v0 : Ref sig .tc := ⟨.hbm, 375, rfl⟩
abbrev main_v198 : Ref sig .tc := ⟨.hbm, 376, rfl⟩
abbrev main_c_37 : Ref sig .tc := ⟨.hbm, 377, rfl⟩
abbrev main_v199 : Ref sig .tc := ⟨.hbm, 378, rfl⟩
abbrev main_v200 : Ref sig .tc := ⟨.hbm, 379, rfl⟩
abbrev main_c_38 : Ref sig .tc := ⟨.hbm, 380, rfl⟩
abbrev main_v201 : Ref sig .tc := ⟨.hbm, 381, rfl⟩
abbrev main_v202 : Ref sig .tc := ⟨.hbm, 382, rfl⟩
abbrev main_v203 : Ref sig .tc := ⟨.hbm, 383, rfl⟩
abbrev main_v204 : Ref sig .tc := ⟨.hbm, 384, rfl⟩
abbrev main_v205 : Ref sig .tc := ⟨.hbm, 385, rfl⟩
abbrev main_cst_39 : Ref sig .tc := ⟨.hbm, 386, rfl⟩
abbrev main_v206 : Ref sig .tc := ⟨.hbm, 387, rfl⟩
abbrev main_v207 : Ref sig .tc := ⟨.hbm, 388, rfl⟩
abbrev main_v208 : Ref sig .tc := ⟨.hbm, 389, rfl⟩
abbrev main_v209 : Ref sig .tc := ⟨.hbm, 390, rfl⟩
abbrev main_v210 : Ref sig .tc := ⟨.hbm, 391, rfl⟩
abbrev main_v211 : Ref sig .tc := ⟨.hbm, 392, rfl⟩
abbrev main_v212 : Ref sig .tc := ⟨.hbm, 393, rfl⟩
abbrev main_v213 : Ref sig .tc := ⟨.hbm, 394, rfl⟩
abbrev main_cst_40 : Ref sig .tc := ⟨.hbm, 395, rfl⟩
abbrev main_v214 : Ref sig .tc := ⟨.hbm, 396, rfl⟩
abbrev main_cst_41 : Ref sig .tc := ⟨.hbm, 397, rfl⟩
abbrev main_v215 : Ref sig .tc := ⟨.hbm, 398, rfl⟩
abbrev main_v216 : Ref sig .tc := ⟨.hbm, 399, rfl⟩
abbrev main_c_42 : Ref sig .tc := ⟨.hbm, 400, rfl⟩
abbrev main_call10_cst : Ref sig .tc := ⟨.hbm, 401, rfl⟩
abbrev main_call10_v0 : Ref sig .tc := ⟨.hbm, 402, rfl⟩
abbrev main_call10_v1 : Ref sig .tc := ⟨.hbm, 403, rfl⟩
abbrev main_call10_cst_0 : Ref sig .tc := ⟨.hbm, 404, rfl⟩
abbrev main_call10_v2 : Ref sig .tc := ⟨.hbm, 405, rfl⟩
abbrev main_call10_v3 : Ref sig .tc := ⟨.hbm, 406, rfl⟩
abbrev main_call10_v4 : Ref sig .tc := ⟨.hbm, 407, rfl⟩
abbrev main_call10_v5 : Ref sig .tc := ⟨.hbm, 408, rfl⟩
abbrev main_call10_v6 : Ref sig .tc := ⟨.hbm, 409, rfl⟩
abbrev main_call10_v7 : Ref sig .tc := ⟨.hbm, 410, rfl⟩
abbrev main_call10_cst_1 : Ref sig .tc := ⟨.hbm, 411, rfl⟩
abbrev main_call10_v8 : Ref sig .tc := ⟨.hbm, 412, rfl⟩
abbrev main_call10_cst_2 : Ref sig .tc := ⟨.hbm, 413, rfl⟩
abbrev main_call10_v9 : Ref sig .tc := ⟨.hbm, 414, rfl⟩
abbrev main_call10_v10 : Ref sig .tc := ⟨.hbm, 415, rfl⟩
abbrev main_call10_v11 : Ref sig .tc := ⟨.hbm, 416, rfl⟩
abbrev main_call10_cst_3 : Ref sig .tc := ⟨.hbm, 417, rfl⟩
abbrev main_call10_v12 : Ref sig .tc := ⟨.hbm, 418, rfl⟩
abbrev main_call10_cst_4 : Ref sig .tc := ⟨.hbm, 419, rfl⟩
abbrev main_call10_call0_v0 : Ref sig .tc := ⟨.hbm, 420, rfl⟩
abbrev main_call10_call0_v1 : Ref sig .tc := ⟨.hbm, 421, rfl⟩
abbrev main_v217 : Ref sig .tc := ⟨.hbm, 422, rfl⟩
abbrev main_v218 : Ref sig .tc := ⟨.hbm, 423, rfl⟩
abbrev main_v219 : Ref sig .tc := ⟨.hbm, 424, rfl⟩
abbrev main_v220 : Ref sig .tc := ⟨.hbm, 425, rfl⟩
abbrev main_cst_43 : Ref sig .tc := ⟨.hbm, 426, rfl⟩
abbrev main_v221 : Ref sig .tc := ⟨.hbm, 427, rfl⟩
abbrev main_v222 : Ref sig .tc := ⟨.hbm, 428, rfl⟩
abbrev main_v223 : Ref sig .tc := ⟨.hbm, 429, rfl⟩
abbrev main_v224 : Ref sig .tc := ⟨.hbm, 430, rfl⟩
abbrev main_v225 : Ref sig .tc := ⟨.hbm, 431, rfl⟩
abbrev main_v226 : Ref sig .tc := ⟨.hbm, 432, rfl⟩
abbrev main_v227 : Ref sig .tc := ⟨.hbm, 433, rfl⟩
abbrev main_v228 : Ref sig .tc := ⟨.hbm, 434, rfl⟩
abbrev main_v229 : Ref sig .tc := ⟨.hbm, 435, rfl⟩
abbrev main_v230 : Ref sig .tc := ⟨.hbm, 436, rfl⟩
abbrev main_v231 : Ref sig .tc := ⟨.hbm, 437, rfl⟩
abbrev main_v232 : Ref sig .tc := ⟨.hbm, 438, rfl⟩
abbrev main_call11_cst : Ref sig .tc := ⟨.hbm, 439, rfl⟩
abbrev main_call11_v0 : Ref sig .tc := ⟨.hbm, 440, rfl⟩
abbrev main_v233 : Ref sig .tc := ⟨.hbm, 441, rfl⟩
abbrev main_cst_44 : Ref sig .tc := ⟨.hbm, 442, rfl⟩
abbrev main_v234 : Ref sig .tc := ⟨.hbm, 443, rfl⟩
abbrev main_v235 : Ref sig .tc := ⟨.hbm, 444, rfl⟩
abbrev main_v236 : Ref sig .tc := ⟨.hbm, 445, rfl⟩
abbrev main_cst_45 : Ref sig .tc := ⟨.hbm, 446, rfl⟩
abbrev main_v237 : Ref sig .tc := ⟨.hbm, 447, rfl⟩
abbrev main_cst_46 : Ref sig .tc := ⟨.hbm, 448, rfl⟩
abbrev main_v238 : Ref sig .tc := ⟨.hbm, 449, rfl⟩
abbrev main_v239 : Ref sig .tc := ⟨.hbm, 450, rfl⟩
abbrev main_v240 : Ref sig .tc := ⟨.hbm, 451, rfl⟩
abbrev main_cst_47 : Ref sig .tc := ⟨.hbm, 452, rfl⟩
abbrev main_v241 : Ref sig .tc := ⟨.hbm, 453, rfl⟩
abbrev main_v242 : Ref sig .tc := ⟨.hbm, 454, rfl⟩
abbrev main_v243 : Ref sig .tc := ⟨.hbm, 455, rfl⟩
abbrev main_v244 : Ref sig .tc := ⟨.hbm, 456, rfl⟩
abbrev main_v245 : Ref sig .tc := ⟨.hbm, 457, rfl⟩
abbrev main_v246 : Ref sig .tc := ⟨.hbm, 458, rfl⟩
abbrev main_v247 : Ref sig .tc := ⟨.hbm, 459, rfl⟩
abbrev main_v248 : Ref sig .tc := ⟨.hbm, 460, rfl⟩
abbrev main_v249 : Ref sig .tc := ⟨.hbm, 461, rfl⟩
abbrev main_v250 : Ref sig .tc := ⟨.hbm, 462, rfl⟩
abbrev main_v251 : Ref sig .tc := ⟨.hbm, 463, rfl⟩
abbrev main_v252 : Ref sig .tc := ⟨.hbm, 464, rfl⟩
abbrev main_v253 : Ref sig .tc := ⟨.hbm, 465, rfl⟩
abbrev main_v254 : Ref sig .tc := ⟨.hbm, 466, rfl⟩
abbrev main_v255 : Ref sig .tc := ⟨.hbm, 467, rfl⟩
abbrev main_call12_cst : Ref sig .tc := ⟨.hbm, 468, rfl⟩
abbrev main_call12_v0 : Ref sig .tc := ⟨.hbm, 469, rfl⟩
abbrev main_v256 : Ref sig .tc := ⟨.hbm, 470, rfl⟩
abbrev main_v257 : Ref sig .tc := ⟨.hbm, 471, rfl⟩
abbrev main_v258 : Ref sig .tc := ⟨.hbm, 472, rfl⟩
abbrev main_v259 : Ref sig .tc := ⟨.hbm, 473, rfl⟩
abbrev main_v260 : Ref sig .tc := ⟨.hbm, 474, rfl⟩
abbrev main_v261 : Ref sig .tc := ⟨.hbm, 475, rfl⟩
abbrev main_v262 : Ref sig .tc := ⟨.hbm, 476, rfl⟩
abbrev main_cst_48 : Ref sig .tc := ⟨.hbm, 477, rfl⟩
abbrev main_v263 : Ref sig .tc := ⟨.hbm, 478, rfl⟩
abbrev main_v264 : Ref sig .tc := ⟨.hbm, 479, rfl⟩
abbrev main_cst_49 : Ref sig .tc := ⟨.hbm, 480, rfl⟩
abbrev main_v265 : Ref sig .tc := ⟨.hbm, 481, rfl⟩
abbrev main_v266 : Ref sig .tc := ⟨.hbm, 482, rfl⟩

abbrev nD : Nat := 1
abbrev τ : Topo := Topo.v7x

variable {F : FTy → Type} [FloatOps F]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  bcast_S_S1280000 : S_.BroadcastsInDim S1280000 (![] : Fin 0 → Fin S1280000.rank)
  bcast_S1280000_S1280000x1_0 : S1280000.BroadcastsInDim S1280000x1 (![0] : Fin 1 → Fin S1280000x1.rank)
  bcast_S_S100000x64 : S_.BroadcastsInDim S100000x64 (![] : Fin 0 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S100000x128 : S_.BroadcastsInDim S100000x128 (![] : Fin 0 → Fin S100000x128.rank)
  bcast_S_S256x128 : S_.BroadcastsInDim S256x128 (![] : Fin 0 → Fin S256x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S64_S1x64_1 : S64.BroadcastsInDim S1x64 (![1] : Fin 1 → Fin S1x64.rank)
  bcast_S1x64_S256x64_0_1 : S1x64.BroadcastsInDim S256x64 (![0, 1] : Fin 2 → Fin S256x64.rank)
  bcast_S_S256x64 : S_.BroadcastsInDim S256x64 (![] : Fin 0 → Fin S256x64.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  bcast_S_S256x1 : S_.BroadcastsInDim S256x1 (![] : Fin 0 → Fin S256x1.rank)
  gather_S100000x64_S1280000x1_S1280000x64_1_0_n_n_0_1_164_wf : GatherDims.WF S100000x64 S1280000x1 S1280000x64 [1] [0] [] [0] [] 1 ![1, 64]
  scatter_S100000x64_S1280000x1_S1280000x64_1_0_0_1_wf : ScatterDims.WF S100000x64 S1280000x1 S1280000x64 [1] [0] [0] 1
  dot_S100000x64_S64x128_S100000x128_1_0_0_1_n_n_wf : DotDims.WF S100000x64 S64x128 S100000x128 [1] [0] [0] [1] [] []
  gather_S100000x128_S1280000x1_S1280000x128_1_0_n_n_0_1_1128_wf : GatherDims.WF S100000x128 S1280000x1 S1280000x128 [1] [0] [] [0] [] 1 ![1, 128]
  scatter_S100000x128_S1280000x1_S1280000x128_1_0_0_1_wf : ScatterDims.WF S100000x128 S1280000x1 S1280000x128 [1] [0] [0] 1
  dot_S100000x128_S128x128_S100000x128_1_0_0_1_n_n_wf : DotDims.WF S100000x128 S128x128 S100000x128 [1] [0] [0] [1] [] []
  scatter_S256x128_S100000x1_S100000x128_1_0_0_1_wf : ScatterDims.WF S256x128 S100000x1 S100000x128 [1] [0] [0] 1
  scatter_S256_S100000x1_S100000_n_0_0_1_wf : ScatterDims.WF S256 S100000x1 S100000 [] [0] [0] 1
  dot_S256x128_S128x64_S256x64_1_0_0_1_n_n_wf : DotDims.WF S256x128 S128x64 S256x64 [1] [0] [0] [1] [] []
  dot_S256x64_S64x64_S256x64_1_0_0_1_n_n_wf : DotDims.WF S256x64 S64x64 S256x64 [1] [0] [0] [1] [] []
  dot_S256x64_S64x1_S256x1_1_0_0_1_n_n_wf : DotDims.WF S256x64 S64x1 S256x1 [1] [0] [0] [1] [] []

variable [Facts₀]

def gather_S100000x64_S1280000x1_S1280000x64_1_0_n_n_0_1_164 : GatherDims S100000x64 S1280000x1 S1280000x64 where
  offsetDims := [1]
  collapsedSliceDims := [0]
  operandBatchingDims := []
  startIndicesBatchingDims := []
  startIndexMap := [0]
  indexVectorDim := 1
  sliceSizes := ![1, 64]
  wf := gather_S100000x64_S1280000x1_S1280000x64_1_0_n_n_0_1_164_wf
def scatter_S100000x64_S1280000x1_S1280000x64_1_0_0_1 : ScatterDims S100000x64 S1280000x1 S1280000x64 where
  updateWindowDims := [1]
  insertedWindowDims := [0]
  scatterDimsToOperandDims := [0]
  indexVectorDim := 1
  wf := scatter_S100000x64_S1280000x1_S1280000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1280000x1_S1280000x128_1_0_n_n_0_1_1128 : GatherDims S100000x128 S1280000x1 S1280000x128 where
  offsetDims := [1]
  collapsedSliceDims := [0]
  operandBatchingDims := []
  startIndicesBatchingDims := []
  startIndexMap := [0]
  indexVectorDim := 1
  sliceSizes := ![1, 128]
  wf := gather_S100000x128_S1280000x1_S1280000x128_1_0_n_n_0_1_1128_wf
def scatter_S100000x128_S1280000x1_S1280000x128_1_0_0_1 : ScatterDims S100000x128 S1280000x1 S1280000x128 where
  updateWindowDims := [1]
  insertedWindowDims := [0]
  scatterDimsToOperandDims := [0]
  indexVectorDim := 1
  wf := scatter_S100000x128_S1280000x1_S1280000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf
def dot_S256x64_S64x1_S256x1_1_0_0_1_n_n : DotDims S256x64 S64x1 S256x1 where
  lhsContracting := [1]
  rhsContracting := [0]
  lhsNonContracting := [0]
  rhsNonContracting := [1]
  lhsBatch := []
  rhsBatch := []
  wf := dot_S256x64_S64x1_S256x1_1_0_0_1_n_n_wf

class Facts : Prop extends Facts₀ where

variable [Facts]
-- ==== Proof.K.RunCond.lean ====
import proofs.«413302_j72232759984513_1_alg».proof.Proof.Gen.Kernel.Regions
import Idealize.ShloMosaic.Lib.Pipeline.Frame
import Idealize.ShloMosaic.Lib.Pipeline.Regions

-- deciding the distinctness of the entered pipelines and unfolding the segment list recurse past the default depth
set_option maxRecDepth 1952

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

variable (m : (ℓ : Loc nD τ sig) → Buf (Elt F) ℓ)

/-! ## The run of the program, given the regions' records: every unscoped buffer at the end -/

-- the launch theorem's implicit arguments are found by unifying its conclusion with this one, which takes unfolding
-- plain definitions in a metavariable's type
set_option backward.isDefEq.respectTransparency.types false in
/-- The conditional run. Under the hypotheses of the conditional frame (one segment record per region, entered from
    the valuation before it and left at the one after it, beside a rest `E`), every weakly fair execution of the
    program from memory `m` with zero counters terminates, and in every final memory each unscoped buffer `b` of
    core `c` holds `V30 m outs c b`: the last valuation of the chain, read whole (not only at the arguments). -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 15) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 16 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE15 : ∀ c : Dev nD, E 15 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V13 m outs c) ∗ E 6 c) ⊢ R6.pre c)
    (hpost6 : ∀ c : Dev nD, R6.post c ⊢ iprop(StableHlo.held (c : Thread nD τ) (Pipeline.ucRefs τ sig) (V14 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V15 m outs c) ∗ E 7 c) ⊢ R7.pre c)
    (hpost7 : ∀ c : Dev nD, R7.post c ⊢ iprop(StableHlo.held (c : Thread nD τ) (Pipeline.ucRefs τ sig) (V16 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V17 m outs c) ∗ E 8 c) ⊢ R8.pre c)
    (hpost8 : ∀ c : Dev nD, R8.post c ⊢ iprop(StableHlo.held (c : Thread nD τ) (Pipeline.ucRefs τ sig) (V18 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V19 m outs c) ∗ E 9 c) ⊢ R9.pre c)
    (hpost9 : ∀ c : Dev nD, R9.post c ⊢ iprop(StableHlo.held (c : Thread nD τ) (Pipeline.ucRefs τ sig) (V20 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V21 m outs c) ∗ E 10 c) ⊢ R10.pre c)
    (hpost10 : ∀ c : Dev nD, R10.post c ⊢ iprop(StableHlo.held (c : Thread nD τ) (Pipeline.ucRefs τ sig) (V22 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V23 m outs c) ∗ E 11 c) ⊢ R11.pre c)
    (hpost11 : ∀ c : Dev nD, R11.post c ⊢ iprop(StableHlo.held (c : Thread nD τ) (Pipeline.ucRefs τ sig) (V24 m outs c) ∗ E 12 c))
    (R12 : RegionSeg (pcfgs (F := F)) adm pdats ι defs₀ 𝒱₀ L lv 12)
    (hpre12 : ∀ c : Dev nD, iprop(StableHlo.held (c : Thread nD τ) (Pipeline.ucRefs τ sig) (V25 m outs c) ∗ E 12 c) ⊢ R12.pre c)
    (hpost12 : ∀ c : Dev nD, R12.post c ⊢ iprop(StableHlo.held (c : Thread nD τ) (Pipeline.ucRefs τ sig) (V26 m outs c) ∗ E 13 c))
    (R13 : RegionSeg (pcfgs (F := F)) adm pdats ι defs₀ 𝒱₀ L lv 13)
    (hpre13 : ∀ c : Dev nD, iprop(StableHlo.held (c : Thread nD τ) (Pipeline.ucRefs τ sig) (V27 m outs c) ∗ E 13 c) ⊢ R13.pre c)
    (hpost13 : ∀ c : Dev nD, R13.post c ⊢ iprop(StableHlo.held (c : Thread nD τ) (Pipeline.ucRefs τ sig) (V28 m outs c) ∗ E 14 c))
    (R14 : RegionSeg (pcfgs (F := F)) adm pdats ι defs₀ 𝒱₀ L lv 14)
    (hpre14 : ∀ c : Dev nD, iprop(StableHlo.held (c : Thread nD τ) (Pipeline.ucRefs τ sig) (V29 m outs c) ∗ E 14 c) ⊢ R14.pre c)
    (hpost14 : ∀ c : Dev nD, R14.post c ⊢ iprop(StableHlo.held (c : Thread nD τ) (Pipeline.ucRefs τ sig) (V30 m outs c) ∗ E 15 c)) :
    θ_run defs (onTc (τ := τ) (main (F := F))) ⟨m, fun _ => 0, ρ⟩ (fun r => ∀ c : Dev nD, ∀ b ∈ Pipeline.ucRefs τ sig,
      r.2.mem (((c : Thread nD τ)).1, b) = Gen.V30 m outs c b) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10 R11 R12 R13 R14)
    (fun c Q => by
      rewrite [main_chain c, Seg.run_eq_chain,
        show (segs m outs 𝒱₀ L lv E ι pdats R0 R1 R2 R3 R4 R5 R6 R7 R8 R9 R10 R11 R12 R13 R14 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          Prog.lift (.customCall (Pipeline.entry 13) ()),
          StableHlo.seq hostOps14,
          Prog.lift (.customCall (Pipeline.entry 14) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V30 m outs c))
    (hch := fun c => ⟨.rfl, hpre0 c, hpost0 c, hpre1 c, hpost1 c, hpre2 c, hpost2 c, hpre3 c, hpost3 c, hpre4 c, hpost4 c, hpre5 c, hpost5 c, hpre6 c, hpost6 c, hpre7 c, hpost7 c, hpre8 c, hpost8 c, hpre9 c, hpost9 c, hpre10 c, hpost10 c, hpre11 c, hpost11 c, hpre12 c, hpost12 c, hpre13 c, hpost13 c, hpre14 c, (hpost14 c).trans (sep_mono .rfl (hE15 c))⟩)
    (hinit := ?_) (QY := fun c s => ∀ b ∈ Pipeline.ucRefs τ sig, s.mem (((c : Thread nD τ)).1, b) = Gen.V30 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the last thread state holds every unscoped buffer at the last valuation; read them all against the state
    unfold StableHlo.held
    iintro ⟨Hh, HSI⟩
    imodintro
    iapply (pointsTo_read_all (Pipeline.ucRefs τ sig) (fun b => ((c : Thread nD τ).1, b)) (V30 m outs c) s')
    isplitl [Hh] <;> iassumption

end Cert.Kernel.Hand

end
-- ==== Proof.K.RegLS0.RunA.lean ====
import proofs.«413302_j72232759984513_1_alg».proof.Proof.Gen.Kernel.Launch
import proofs.«413302_j72232759984513_1_alg».proof.Proof.Gen.Kernel.Skeleton
import proofs.«413302_j72232759984513_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 0: the body's run at the first grid point

The body's one conditional tests whether the grid coordinate is zero; there it resets the two running sums before adding
to them. -/

/-- The condition of the body's conditional, from the grid coordinates. -/
abbrev cond0_0 (i : grid0.Coords) : Prop := (Scalar.cmpi .ne (Scalar.extui (Scalar.cmpi .eq (BitVec.ofNat 32 (i 0).val) 0#32)) 0#32) = 1#1
/-- It holds at the first point only: decided over the grid. -/
theorem hcond0_0 : ∀ t : Fin cfg0.N, cond0_0 (grid0.coords t) ↔ t.val % 10 = 0 :=
  (by decide +kernel : ∀ t : Fin grid0.N, cond0_0 (grid0.coords t) ↔ t.val % 10 = 0)

/-- One staging buffer of each output window, through which its contents are stated (the choice does not matter). -/
abbrev VO0_3 : View sig .tc .vmem S10000x128 .f32 := (Memref.whole cc0_stg3_0 : Memref sig .tc .vmem S10000x128 .f32).view
abbrev VO0_4 : View sig .tc .vmem S1x128 .f32 := (Memref.whole cc0_stg4_0 : Memref sig .tc .vmem S1x128 .f32).view
abbrev VO0_5 : View sig .tc .vmem S1x128 .f32 := (Memref.whole cc0_stg5_0 : Memref sig .tc .vmem S1x128 .f32).view

set_option maxHeartbeats 4000000 in
/-- The body where the condition holds. On whole staging memrefs, the three inputs' at contents `x0 x1 x2` and the three
    outputs' at anything, it runs to the continuation holding the inputs' as they were and each output's buffer with
    the pieces its stores wrote (last first): the pieces are the witness the run finds. -/
noncomputable def kernelRun0_A (c : Dev nD) (i : grid0.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond0_0 i)
    (x0 : Vec F S10000x64 .f32) (x1 : Vec F S64x128 .f32) (x2 : Vec F S1x128 .f32) :
    Σ' (L3 : List (View.Piece (Elt F) S10000x128 .f32)), Σ' (L4 : List (View.Piece (Elt F) S1x128 .f32)), { L5 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc0__linear_stats_kernel i arg1 harg1 arg2 harg2 arg3 harg3 arg4 harg4 arg5 harg5 arg6 harg6) K } := by
  refine ⟨?_, ?_, ?_, fun E K => ?run⟩
  case run =>
    simp only [cc0__linear_stats_kernel_eq_skeleton]; unfold cc0__linear_stats_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

end Cert.Kernel.Hand

end
-- ==== Proof.K.RegLS0.RunB.lean ====
import proofs.«413302_j72232759984513_1_alg».proof.Proof.K.RegLS0.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 0: the body's run at a later grid point

The condition fails: the two running sums are read as the point before left them and added to. -/

set_option maxHeartbeats 4000000 in
/-- The body where the condition fails. On whole staging memrefs, the three inputs' at contents `x0 x1 x2`, the two
    running sums' at `xo4 xo5` and the first output's at anything, it runs to the continuation holding the inputs' as they
    were and each output's buffer with the pieces its stores wrote (last first): the pieces are the witness the run finds. -/
noncomputable def kernelRun0_B (c : Dev nD) (i : grid0.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i)
    (x0 : Vec F S10000x64 .f32) (x1 : Vec F S64x128 .f32) (x2 : Vec F S1x128 .f32) (xo4 : Vec F S1x128 .f32) (xo5 : Vec F S1x128 .f32) :
    Σ' (L3 : List (View.Piece (Elt F) S10000x128 .f32)), Σ' (L4 : List (View.Piece (Elt F) S1x128 .f32)), { L5 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xo4 ∗ owns (c : Thread nD τ) arg6 fullShare xo5
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc0__linear_stats_kernel i arg1 harg1 arg2 harg2 arg3 harg3 arg4 harg4 arg5 harg5 arg6 harg6) K } := by
  refine ⟨?_, ?_, ?_, fun E K => ?run⟩
  case run =>
    simp only [cc0__linear_stats_kernel_eq_skeleton]; unfold cc0__linear_stats_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
    obtain rfl := harg1.eq_unread hf0; obtain rfl := harg2.eq_unread hf1; obtain rfl := harg3.eq_unread hf2
    obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

end Cert.Kernel.Hand

end
-- ==== Proof.K.RegLS0.lean ====
import proofs.«413302_j72232759984513_1_alg».proof.Proof.K.RegLS0.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 0: the proof data and the body obligation, at the contents the region is entered with

The kernel stores `x·W + b` for its tile of rows in output window 3 and keeps two running sums, output windows 4 and 5:
reset at the first grid point, added to at every point, written back after the last. Everything is stated at a
parameter `V`, the TensorCore's buffer contents when the region is entered. -/

section Region

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not (unfetched, the block
    index has not moved), for any proof data whose array is the entry contents and whose body leaves the block in place. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Each window's current staging memref at point `t`, and its wholeness. -/
abbrev ms0_0 (t : Fin cfg0.N) : Memref sig .tc .vmem S10000x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S10000x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)

/-! ## What each case of the body leaves in the outputs' buffers -/

/-- The pieces the body where the condition holds writes to output 3 tile its block, so they cover it. -/
theorem cover0_A_3 (c : Dev nD) (i : grid0.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond0_0 i)
    (x0 : Vec F S10000x64 .f32) (x1 : Vec F S64x128 .f32) (x2 : Vec F S1x128 .f32) (y : S10000x128.Idx) :
    ∃ pc ∈ (kernelRun0_A c i arg1 harg1 arg2 harg2 arg3 harg3 arg4 harg4 arg5 harg5 arg6 harg6 hc0 x0 x1 x2).1, y ∈ pc.1.set :=
  View.cover_of_tiledL (kernelRun0_A c i arg1 harg1 arg2 harg2 arg3 harg3 arg4 harg4 arg5 harg5 arg6 harg6 hc0 x0 x1 x2).1 S10000x128.size (by sl_kernel_rfl) y

/-- What that run leaves in output 3's staging buffer: its pieces read back over arbitrary contents. -/
def out0_A_3 (c : Dev nD) (i : grid0.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond0_0 i)
    (x0 : Vec F S10000x64 .f32) (x1 : Vec F S64x128 .f32) (x2 : Vec F S1x128 .f32) : Vec F S10000x128 .f32 :=
  VO0_3.read (Elt F) (VO0_3.writes (Elt F) VO0_3.junk (kernelRun0_A c i arg1 harg1 arg2 harg2 arg3 harg3 arg4 harg4 arg5 harg5 arg6 harg6 hc0 x0 x1 x2).1)

/-- The pieces the body where the condition holds writes to output 4 tile its block, so they cover it. -/
theorem cover0_A_4 (c : Dev nD) (i : grid0.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond0_0 i)
    (x0 : Vec F S10000x64 .f32) (x1 : Vec F S64x128 .f32) (x2 : Vec F S1x128 .f32) (y : S1x128.Idx) :
    ∃ pc ∈ (kernelRun0_A c i arg1 harg1 arg2 harg2 arg3 harg3 arg4 harg4 arg5 harg5 arg6 harg6 hc0 x0 x1 x2).2.1, y ∈ pc.1.set :=
  View.cover_of_tiledL (kernelRun0_A c i arg1 harg1 arg2 harg2 arg3 harg3 arg4 harg4 arg5 harg5 arg6 harg6 hc0 x0 x1 x2).2.1 S1x128.size (by sl_kernel_rfl) y

/-- What that run leaves in output 4's staging buffer: its pieces read back over arbitrary contents. -/
def out0_A_4 (c : Dev nD) (i : grid0.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond0_0 i)
    (x0 : Vec F S10000x64 .f32) (x1 : Vec F S64x128 .f32) (x2 : Vec F S1x128 .f32) : Vec F S1x128 .f32 :=
  VO0_4.read (Elt F) (VO0_4.writes (Elt F) VO0_4.junk (kernelRun0_A c i arg1 harg1 arg2 harg2 arg3 harg3 arg4 harg4 arg5 harg5 arg6 harg6 hc0 x0 x1 x2).2.1)

/-- The pieces the body where the condition holds writes to output 5 tile its block, so they cover it. -/
theorem cover0_A_5 (c : Dev nD) (i : grid0.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond0_0 i)
    (x0 : Vec F S10000x64 .f32) (x1 : Vec F S64x128 .f32) (x2 : Vec F S1x128 .f32) (y : S1x128.Idx) :
    ∃ pc ∈ (kernelRun0_A c i arg1 harg1 arg2 harg2 arg3 harg3 arg4 harg4 arg5 harg5 arg6 harg6 hc0 x0 x1 x2).2.2.1, y ∈ pc.1.set :=
  View.cover_of_tiledL (kernelRun0_A c i arg1 harg1 arg2 harg2 arg3 harg3 arg4 harg4 arg5 harg5 arg6 harg6 hc0 x0 x1 x2).2.2.1 S1x128.size (by sl_kernel_rfl) y

/-- What that run leaves in output 5's staging buffer: its pieces read back over arbitrary contents. -/
def out0_A_5 (c : Dev nD) (i : grid0.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond0_0 i)
    (x0 : Vec F S10000x64 .f32) (x1 : Vec F S64x128 .f32) (x2 : Vec F S1x128 .f32) : Vec F S1x128 .f32 :=
  VO0_5.read (Elt F) (VO0_5.writes (Elt F) VO0_5.junk (kernelRun0_A c i arg1 harg1 arg2 harg2 arg3 harg3 arg4 harg4 arg5 harg5 arg6 harg6 hc0 x0 x1 x2).2.2.1)

/-- The pieces the body where the condition fails writes to output 3 tile its block, so they cover it. -/
theorem cover0_B_3 (c : Dev nD) (i : grid0.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i)
    (x0 : Vec F S10000x64 .f32) (x1 : Vec F S64x128 .f32) (x2 : Vec F S1x128 .f32) (xo4 : Vec F S1x128 .f32) (xo5 : Vec F S1x128 .f32) (y : S10000x128.Idx) :
    ∃ pc ∈ (kernelRun0_B c i arg1 harg1 arg2 harg2 arg3 harg3 arg4 harg4 arg5 harg5 arg6 harg6 hc0 x0 x1 x2 xo4 xo5).1, y ∈ pc.1.set :=
  View.cover_of_tiledL (kernelRun0_B c i arg1 harg1 arg2 harg2 arg3 harg3 arg4 harg4 arg5 harg5 arg6 harg6 hc0 x0 x1 x2 xo4 xo5).1 S10000x128.size (by sl_kernel_rfl) y

/-- What that run leaves in output 3's staging buffer: its pieces read back over arbitrary contents. -/
def out0_B_3 (c : Dev nD) (i : grid0.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i)
    (x0 : Vec F S10000x64 .f32) (x1 : Vec F S64x128 .f32) (x2 : Vec F S1x128 .f32) (xo4 : Vec F S1x128 .f32) (xo5 : Vec F S1x128 .f32) : Vec F S10000x128 .f32 :=
  VO0_3.read (Elt F) (VO0_3.writes (Elt F) VO0_3.junk (kernelRun0_B c i arg1 harg1 arg2 harg2 arg3 harg3 arg4 harg4 arg5 harg5 arg6 harg6 hc0 x0 x1 x2 xo4 xo5).1)

/-- The pieces the body where the condition fails writes to output 4 tile its block, so they cover it. -/
theorem cover0_B_4 (c : Dev nD) (i : grid0.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i)
    (x0 : Vec F S10000x64 .f32) (x1 : Vec F S64x128 .f32) (x2 : Vec F S1x128 .f32) (xo4 : Vec F S1x128 .f32) (xo5 : Vec F S1x128 .f32) (y : S1x128.Idx) :
    ∃ pc ∈ (kernelRun0_B c i arg1 harg1 arg2 harg2 arg3 harg3 arg4 harg4 arg5 harg5 arg6 harg6 hc0 x0 x1 x2 xo4 xo5).2.1, y ∈ pc.1.set :=
  View.cover_of_tiledL (kernelRun0_B c i arg1 harg1 arg2 harg2 arg3 harg3 arg4 harg4 arg5 harg5 arg6 harg6 hc0 x0 x1 x2 xo4 xo5).2.1 S1x128.size (by sl_kernel_rfl) y

/-- What that run leaves in output 4's staging buffer: its pieces read back over arbitrary contents. -/
def out0_B_4 (c : Dev nD) (i : grid0.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i)
    (x0 : Vec F S10000x64 .f32) (x1 : Vec F S64x128 .f32) (x2 : Vec F S1x128 .f32) (xo4 : Vec F S1x128 .f32) (xo5 : Vec F S1x128 .f32) : Vec F S1x128 .f32 :=
  VO0_4.read (Elt F) (VO0_4.writes (Elt F) VO0_4.junk (kernelRun0_B c i arg1 harg1 arg2 harg2 arg3 harg3 arg4 harg4 arg5 harg5 arg6 harg6 hc0 x0 x1 x2 xo4 xo5).2.1)

/-- The pieces the body where the condition fails writes to output 5 tile its block, so they cover it. -/
theorem cover0_B_5 (c : Dev nD) (i : grid0.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i)
    (x0 : Vec F S10000x64 .f32) (x1 : Vec F S64x128 .f32) (x2 : Vec F S1x128 .f32) (xo4 : Vec F S1x128 .f32) (xo5 : Vec F S1x128 .f32) (y : S1x128.Idx) :
    ∃ pc ∈ (kernelRun0_B c i arg1 harg1 arg2 harg2 arg3 harg3 arg4 harg4 arg5 harg5 arg6 harg6 hc0 x0 x1 x2 xo4 xo5).2.2.1, y ∈ pc.1.set :=
  View.cover_of_tiledL (kernelRun0_B c i arg1 harg1 arg2 harg2 arg3 harg3 arg4 harg4 arg5 harg5 arg6 harg6 hc0 x0 x1 x2 xo4 xo5).2.2.1 S1x128.size (by sl_kernel_rfl) y

/-- What that run leaves in output 5's staging buffer: its pieces read back over arbitrary contents. -/
def out0_B_5 (c : Dev nD) (i : grid0.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i)
    (x0 : Vec F S10000x64 .f32) (x1 : Vec F S64x128 .f32) (x2 : Vec F S1x128 .f32) (xo4 : Vec F S1x128 .f32) (xo5 : Vec F S1x128 .f32) : Vec F S1x128 .f32 :=
  VO0_5.read (Elt F) (VO0_5.writes (Elt F) VO0_5.junk (kernelRun0_B c i arg1 harg1 arg2 harg2 arg3 harg3 arg4 harg4 arg5 harg5 arg6 harg6 hc0 x0 x1 x2 xo4 xo5).2.2.1)

/-! ## What the outputs hold after each point -/

/-- What the three outputs' staging buffers hold after the body at position `n`, by recursion on the point: at the first
    point the resetting case, run at the point's input blocks; at a later point the adding case, the running sums read
    as the point before left them (their buffers are not written back between). -/
def outsAt0 (c : Dev nD) : (n : ℕ) → n < cfg0.N → Vec F S10000x128 .f32 × Vec F S1x128 .f32 × Vec F S1x128 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk0 V c 0 ⟨0, hn⟩) (iblk0 V c 1 ⟨0, hn⟩) (iblk0 V c 2 ⟨0, hn⟩),
       out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk0 V c 0 ⟨0, hn⟩) (iblk0 V c 1 ⟨0, hn⟩) (iblk0 V c 2 ⟨0, hn⟩),
       out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk0 V c 0 ⟨0, hn⟩) (iblk0 V c 1 ⟨0, hn⟩) (iblk0 V c 2 ⟨0, hn⟩))
  | n + 1, hn =>
    if h0 : (n + 1) % 10 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk0 V c 0 ⟨n + 1, hn⟩) (iblk0 V c 1 ⟨n + 1, hn⟩) (iblk0 V c 2 ⟨n + 1, hn⟩),
       out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk0 V c 0 ⟨n + 1, hn⟩) (iblk0 V c 1 ⟨n + 1, hn⟩) (iblk0 V c 2 ⟨n + 1, hn⟩),
       out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk0 V c 0 ⟨n + 1, hn⟩) (iblk0 V c 1 ⟨n + 1, hn⟩) (iblk0 V c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2,
       out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2,
       out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2)

/-- `outsAt0` at a point where the condition holds. -/
theorem outsAt0_A (c : Dev nD) (t : Fin cfg0.N) (h0 : t.val % 10 = 0) :
    outsAt0 V c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t),
       out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t),
       out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t)) := by
  obtain ⟨n, hn⟩ := t
  cases n with
  | zero => exact rfl
  | succ n => exact (dif_pos h0).trans rfl

/-- `outsAt0` at a point where it fails: over what the point before left. -/
theorem outsAt0_B (c : Dev nD) (t : Fin cfg0.N) (h0 : ¬t.val % 10 = 0) :
    outsAt0 V c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2,
       out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2,
       out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t` each
    input's buffer at its block and the outputs' at `outsAt0`; the invariant the scoped rest and the generator register,
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
    | ⟨5, _⟩ => (outsAt0 V c t.val t.isLt).2.2
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]
/-- Its shares are full. -/
theorem q_eq0 (c : Dev nD) (w : Fin cfg0.W) : (dat0 V c).q w = fullShare := by
  dsimp only [dat0]
/-- It owes nothing. -/
theorem owed_eq0 (c : Dev nD) (n : Fin (cfg0.N + 1)) : (dat0 V c).owed n = 0 := by
  dsimp only [dat0]

/-- The generator register and the scoped rest make the invariant at the first boundary, -/
theorem Phi_in0 (c : Dev nD) : (iprop((∃ r, prngReg c r) ∗ Pipeline.scopedRest (Ix := Unit) (Name := ℕ) (U := UR sig nD τ) (Lvl := ℕ) spec0 c) : sProp 𝕄) ⊢ (dat0 V c).Φ 0 := by
  rw [show (dat0 V c).Φ 0 = Pipeline.ΦA spec0 c from rfl]; unfold Pipeline.ΦA
  iintro ⟨Hp, Hr⟩
  isplitl [Hr]; · iexact Hr
  iexact Hp
/-- and the invariant at the last gives them back. -/
theorem Phi_out0 (c : Dev nD) : (dat0 V c).Φ (Fin.last cfg0.N) ⊢ (iprop((∃ r, prngReg c r) ∗ Pipeline.scopedRest (Ix := Unit) (Name := ℕ) (U := UR sig nD τ) (Lvl := ℕ) spec0 c) : sProp 𝕄) := by
  rw [show (dat0 V c).Φ (Fin.last _) = Pipeline.ΦA spec0 c from rfl]; unfold Pipeline.ΦA
  iintro ⟨Hr, Hp⟩
  isplitl [Hp]; · iexact Hp
  iexact Hr

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
theorem after0_5 (c : Dev nD) (t : Fin cfg0.N) : (dat0 V c).after 5 t = (outsAt0 V c t.val t.isLt).2.2 := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
/-- At a later point a running sum's staging buffer holds what the body left at the point before: the buffer was not
    written back between, and the window is live and uncut. -/
theorem before0_4_B (c : Dev nD) (t : Fin cfg0.N) (h0 : ¬t.val % 10 = 0) (d) :
    (dat0 V c).before 4 t d = (outsAt0 V c (t.val - 1) (Nat.lt_of_le_of_lt (Nat.sub_le _ _) t.isLt)).2.1 := by
  have hN : t.val < 10 := lt_of_lt_of_eq t.isLt (show cfg0.N = 10 from N_0)
  rw [Dat.before_out_kept _ 4 rfl t (by omega) (Bool.eq_false_iff.mpr fun h => by have := (flush0_4 _).mp h; dsimp only at this; omega)
    (fun _ => rfl) (fun _ _ => rfl)]
  dsimp only [dat0]
theorem before0_5_B (c : Dev nD) (t : Fin cfg0.N) (h0 : ¬t.val % 10 = 0) (d) :
    (dat0 V c).before 5 t d = (outsAt0 V c (t.val - 1) (Nat.lt_of_le_of_lt (Nat.sub_le _ _) t.isLt)).2.2 := by
  have hN : t.val < 10 := lt_of_lt_of_eq t.isLt (show cfg0.N = 10 from N_0)
  rw [Dat.before_out_kept _ 5 rfl t (by omega) (Bool.eq_false_iff.mpr fun h => by have := (flush0_5 _).mp h; dsimp only at this; omega)
    (fun _ => rfl) (fun _ _ => rfl)]
  dsimp only [dat0]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 1600000 in
/-- The body at any point: the inputs' memrefs hold their blocks; the closed form of the condition says which case the
    point is in; at a later point the running sums hold what the point before left; so that case's run applies; the
    invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  have hN : t.val < 10 := lt_of_lt_of_eq t.isLt (show cfg0.N = 10 from N_0)
  by_cases h0 : t.val % 10 = 0
  · rw [outsAt0_A V c t h0]
    try dsimp only
    unfold out0_A_3 out0_A_4 out0_A_5
    iintro ⟨HΦ, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ ((hcond0_0 t).mpr h0) (iblk0 V c 0 t) (iblk0 V c 1 t) (iblk0 V c 2 t)).2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _ _ _)
    isplitl [H4]
    · unfold owns; iexists _; isplitr
      swap; · iexact H4
      ipureintro; exact View.read_writes_of_cover _ _ _ _ _ (cover0_A_4 c _ _ _ _ _ _ _ _ _ _ _ _ _ _ _ _ _)
    unfold owns; iexists _; isplitr
    swap; · iexact H5
    ipureintro; exact View.read_writes_of_cover _ _ _ _ _ (cover0_A_5 c _ _ _ _ _ _ _ _ _ _ _ _ _ _ _ _ _)
  · rw [outsAt0_B V c t h0]
    simp only [before0_4_B V c t h0, before0_5_B V c t h0]
    try dsimp only
    unfold out0_B_3 out0_B_4 out0_B_5
    iintro ⟨HΦ, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ (fun h => h0 ((hcond0_0 t).mp h)) (iblk0 V c 0 t) (iblk0 V c 1 t) (iblk0 V c 2 t) _ _).2.2.2 Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 c _ _ _ _ _ _ _ _ _ _ _ _ _ _ _ _ _ _ _)
    isplitl [H4]
    · unfold owns; iexists _; isplitr
      swap; · iexact H4
      ipureintro; exact View.read_writes_of_cover _ _ _ _ _ (cover0_B_4 c _ _ _ _ _ _ _ _ _ _ _ _ _ _ _ _ _ _ _)
    unfold owns; iexists _; isplitr
    swap; · iexact H5
    ipureintro; exact View.read_writes_of_cover _ _ _ _ _ (cover0_B_5 c _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.Kernel.Hand

end
-- ==== Proof.K.RegBN1.lean ====
import proofs.«413302_j72232759984513_1_alg».proof.Proof.Gen.Kernel.Launch
import proofs.«413302_j72232759984513_1_alg».proof.Proof.Gen.Kernel.Skeleton
import proofs.«413302_j72232759984513_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Kernel region 1: the batch-norm-and-ReLU body, its frame half

The body reads a tile of 10000 rows of `h` and four rows `mu`, `inv`, `g`, `be` of 128 lanes each, and stores
`max ((h - mu) * inv * g + be) 0` over the whole output tile. Its six windows are staged whole, so each input's
buffer holds its block of the entry contents at every point and the output's holds the payload of those blocks. -/

-- membership in a rectangle with an axis of 10000 coordinates: the structural check recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is the entry contents and whose body leaves the block in place: where it is not fetched its
    index has not moved since the point that fetched it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is the entry contents and whose body leaves the block in place: where it is not fetched its
    index has not moved since the point that fetched it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is the entry contents and whose body leaves the block in place: where it is not fetched its
    index has not moved since the point that fetched it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is the entry contents and whose body leaves the block in place: where it is not fetched its
    index has not moved since the point that fetched it. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is the entry contents and whose body leaves the block in place: where it is not fetched its
    index has not moved since the point that fetched it. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S10000x128 := Rect.unit (s := S10000x128) ![0, 0] S10000x128.size inb_S10000x128_S10000x128_0_0
abbrev r1_1 : Rect S1x128 := Rect.unit (s := S1x128) ![0, 0] S1x128.size inb_S1x128_S1x128_0_0

/-! ## What the body leaves in the output window's buffer -/

/-- Window 5's staging buffer after the body, from the input windows' blocks: its one store, of the payload of
    the five loaded values, over the whole tile. -/
def out1_5 (x0 : Vec F S10000x128 .f32) (x1 : Vec F S1x128 .f32) (x2 : Vec F S1x128 .f32) (x3 : Vec F S1x128 .f32) (x4 : Vec F S1x128 .f32) : Vec F S10000x128 .f32 :=
  View.canon [⟨r1_0, k1_pay1 (View.ld x0 r1_0) (View.ld x1 r1_1) (View.ld x2 r1_1) (View.ld x3 r1_1) (View.ld x4 r1_1)⟩]

/-- The one store is of the whole tile, so it covers the buffer. -/
theorem cover1_5 (p0 : Vec F S10000x128 .f32) (y : S10000x128.Idx) :
    ∃ pc ∈ ([⟨r1_0, p0⟩] : List (View.Piece (Elt F) S10000x128 .f32)), y ∈ pc.1.set :=
  View.cover_of_tiled [⟨r1_0, p0⟩] S10000x128.size (by rfl) y

/-! ## The body's triple -/

set_option maxHeartbeats 1000000 in
/-- The kernel body on whole staging memrefs, the inputs' at contents `xW` and the output's at anything, runs to
    the continuation holding the inputs' as they were and the output's at `out1_5` of the inputs'. -/
theorem sound_kernel1 (c : Dev nD) (E : Set ℕ) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S10000x128 .f32) (harg6 : arg6.IsWhole)
    (x0 : Vec F S10000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__bn_relu_kernel i arg1 harg1 arg2 harg2 arg3 harg3 arg4 harg4 arg5 harg5 arg6 harg6) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays at the entry contents; after the body at point `t` each
    input's buffer at its block and the output's at `out1_5` of the input blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- Every window is held at the full share. -/
theorem q_eq1 (c : Dev nD) (w : Fin cfg1.W) : (dat1 V c).q w = fullShare := by
  dsimp only [dat1]

/-- Nothing is owed at any point. -/
theorem owed_eq1 (c : Dev nD) (n : Fin (cfg1.N + 1)) : (dat1 V c).owed n = 0 := by
  dsimp only [dat1]

/-- The invariant at every point is the scoped rest with the generator register. -/
theorem Phi_eq1 (c : Dev nD) (n : Fin (cfg1.N + 1)) : (dat1 V c).Φ n = Pipeline.ΦA spec1 c := by
  dsimp only [dat1]

/-- The invariant holds at the first point of what the region is entered with, -/
theorem Phi_in1 (c : Dev nD) :
    (iprop((∃ r, prngReg c r) ∗ Pipeline.scopedRest (Ix := Unit) (Name := ℕ) (U := UR sig nD τ) (Lvl := ℕ) spec1 c) : sProp 𝕄) ⊢ (dat1 V c).Φ 0 := by
  rw [Phi_eq1]; unfold Pipeline.ΦA
  iintro ⟨Hr, Hp⟩
  isplitl [Hp]; · iexact Hp
  iexact Hr

/-- and gives it back at the last. -/
theorem Phi_out1 (c : Dev nD) :
    (dat1 V c).Φ (Fin.last cfg1.N) ⊢ (iprop((∃ r, prngReg c r) ∗ Pipeline.scopedRest (Ix := Unit) (Name := ℕ) (U := UR sig nD τ) (Lvl := ℕ) spec1 c) : sProp 𝕄) := by
  rw [Phi_eq1]; unfold Pipeline.ΦA
  iintro ⟨Hp, Hr⟩
  isplitl [Hr]; · iexact Hr
  iexact Hp

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.RegLS2.RunA.lean ====
import proofs.«413302_j72232759984513_1_alg».proof.Proof.Gen.Kernel.Launch
import proofs.«413302_j72232759984513_1_alg».proof.Proof.Gen.Kernel.Skeleton
import proofs.«413302_j72232759984513_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 2: the body's run at the first grid point

The body's one conditional tests whether the grid coordinate is zero; there it resets the two running sums before adding
to them. -/

/-- The condition of the body's conditional, from the grid coordinates. -/
abbrev cond2_0 (i : grid2.Coords) : Prop := (Scalar.cmpi .ne (Scalar.extui (Scalar.cmpi .eq (BitVec.ofNat 32 (i 0).val) 0#32)) 0#32) = 1#1
/-- It holds at the first point only: decided over the grid. -/
theorem hcond2_0 : ∀ t : Fin cfg2.N, cond2_0 (grid2.coords t) ↔ t.val % 10 = 0 :=
  (by decide +kernel : ∀ t : Fin grid2.N, cond2_0 (grid2.coords t) ↔ t.val % 10 = 0)

/-- One staging buffer of each output window, through which its contents are stated (the choice does not matter). -/
abbrev VO2_3 : View sig .tc .vmem S10000x128 .f32 := (Memref.whole cc2_stg3_0 : Memref sig .tc .vmem S10000x128 .f32).view
abbrev VO2_4 : View sig .tc .vmem S1x128 .f32 := (Memref.whole cc2_stg4_0 : Memref sig .tc .vmem S1x128 .f32).view
abbrev VO2_5 : View sig .tc .vmem S1x128 .f32 := (Memref.whole cc2_stg5_0 : Memref sig .tc .vmem S1x128 .f32).view

set_option maxHeartbeats 4000000 in
/-- The body where the condition holds. On whole staging memrefs, the three inputs' at contents `x0 x1 x2` and the three
    outputs' at anything, it runs to the continuation holding the inputs' as they were and each output's buffer with
    the pieces its stores wrote (last first): the pieces are the witness the run finds. -/
noncomputable def kernelRun2_A (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond2_0 i)
    (x0 : Vec F S10000x128 .f32) (x1 : Vec F S128x128 .f32) (x2 : Vec F S1x128 .f32) :
    Σ' (L3 : List (View.Piece (Elt F) S10000x128 .f32)), Σ' (L4 : List (View.Piece (Elt F) S1x128 .f32)), { L5 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc2__linear_stats_kernel i arg1 harg1 arg2 harg2 arg3 harg3 arg4 harg4 arg5 harg5 arg6 harg6) K } := by
  refine ⟨?_, ?_, ?_, fun E K => ?run⟩
  case run =>
    simp only [cc2__linear_stats_kernel_eq_skeleton]; unfold cc2__linear_stats_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

end Cert.Kernel.Hand

end
-- ==== Proof.K.RegLS2.RunB.lean ====
import proofs.«413302_j72232759984513_1_alg».proof.Proof.K.RegLS2.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 2: the body's run at a later grid point

The condition fails: the two running sums are read as the point before left them and added to. -/

set_option maxHeartbeats 4000000 in
/-- The body where the condition fails. On whole staging memrefs, the three inputs' at contents `x0 x1 x2`, the two
    running sums' at `xo4 xo5` and the first output's at anything, it runs to the continuation holding the inputs' as they
    were and each output's buffer with the pieces its stores wrote (last first): the pieces are the witness the run finds. -/
noncomputable def kernelRun2_B (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond2_0 i)
    (x0 : Vec F S10000x128 .f32) (x1 : Vec F S128x128 .f32) (x2 : Vec F S1x128 .f32) (xo4 : Vec F S1x128 .f32) (xo5 : Vec F S1x128 .f32) :
    Σ' (L3 : List (View.Piece (Elt F) S10000x128 .f32)), Σ' (L4 : List (View.Piece (Elt F) S1x128 .f32)), { L5 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xo4 ∗ owns (c : Thread nD τ) arg6 fullShare xo5
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc2__linear_stats_kernel i arg1 harg1 arg2 harg2 arg3 harg3 arg4 harg4 arg5 harg5 arg6 harg6) K } := by
  refine ⟨?_, ?_, ?_, fun E K => ?run⟩
  case run =>
    simp only [cc2__linear_stats_kernel_eq_skeleton]; unfold cc2__linear_stats_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
    obtain rfl := harg1.eq_unread hf0; obtain rfl := harg2.eq_unread hf1; obtain rfl := harg3.eq_unread hf2
    obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

end Cert.Kernel.Hand

end
-- ==== Proof.K.RegLS2.lean ====
import proofs.«413302_j72232759984513_1_alg».proof.Proof.K.RegLS2.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 2: the proof data and the body obligation, at the contents the region is entered with

The kernel stores `x·W + b` for its tile of rows in output window 3 and keeps two running sums, output windows 4 and 5:
reset at the first grid point, added to at every point, written back after the last. Everything is stated at a
parameter `V`, the TensorCore's buffer contents when the region is entered. -/

section Region

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's current staging buffer holds its block at every point, fetched there or not (unfetched, the block
    index has not moved), for any proof data whose array is the entry contents and whose body leaves the block in place. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Each window's current staging memref at point `t`, and its wholeness. -/
abbrev ms2_0 (t : Fin cfg2.N) : Memref sig .tc .vmem S10000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S128x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S10000x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128 .f32 := win2_5.stage (cfg2.slots t 5)
abbrev hs2_5 (t : Fin cfg2.N) : (ms2_5 t).IsWhole := hstage2_5 ((cfg2.slots t 5).cast nbuf2_5)

/-! ## What each case of the body leaves in the outputs' buffers -/

/-- The pieces the body where the condition holds writes to output 3 tile its block, so they cover it. -/
theorem cover2_A_3 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond2_0 i)
    (x0 : Vec F S10000x128 .f32) (x1 : Vec F S128x128 .f32) (x2 : Vec F S1x128 .f32) (y : S10000x128.Idx) :
    ∃ pc ∈ (kernelRun2_A c i arg1 harg1 arg2 harg2 arg3 harg3 arg4 harg4 arg5 harg5 arg6 harg6 hc0 x0 x1 x2).1, y ∈ pc.1.set :=
  View.cover_of_tiledL (kernelRun2_A c i arg1 harg1 arg2 harg2 arg3 harg3 arg4 harg4 arg5 harg5 arg6 harg6 hc0 x0 x1 x2).1 S10000x128.size (by sl_kernel_rfl) y

/-- What that run leaves in output 3's staging buffer: its pieces read back over arbitrary contents. -/
def out2_A_3 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond2_0 i)
    (x0 : Vec F S10000x128 .f32) (x1 : Vec F S128x128 .f32) (x2 : Vec F S1x128 .f32) : Vec F S10000x128 .f32 :=
  VO2_3.read (Elt F) (VO2_3.writes (Elt F) VO2_3.junk (kernelRun2_A c i arg1 harg1 arg2 harg2 arg3 harg3 arg4 harg4 arg5 harg5 arg6 harg6 hc0 x0 x1 x2).1)

/-- The pieces the body where the condition holds writes to output 4 tile its block, so they cover it. -/
theorem cover2_A_4 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond2_0 i)
    (x0 : Vec F S10000x128 .f32) (x1 : Vec F S128x128 .f32) (x2 : Vec F S1x128 .f32) (y : S1x128.Idx) :
    ∃ pc ∈ (kernelRun2_A c i arg1 harg1 arg2 harg2 arg3 harg3 arg4 harg4 arg5 harg5 arg6 harg6 hc0 x0 x1 x2).2.1, y ∈ pc.1.set :=
  View.cover_of_tiledL (kernelRun2_A c i arg1 harg1 arg2 harg2 arg3 harg3 arg4 harg4 arg5 harg5 arg6 harg6 hc0 x0 x1 x2).2.1 S1x128.size (by sl_kernel_rfl) y

/-- What that run leaves in output 4's staging buffer: its pieces read back over arbitrary contents. -/
def out2_A_4 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond2_0 i)
    (x0 : Vec F S10000x128 .f32) (x1 : Vec F S128x128 .f32) (x2 : Vec F S1x128 .f32) : Vec F S1x128 .f32 :=
  VO2_4.read (Elt F) (VO2_4.writes (Elt F) VO2_4.junk (kernelRun2_A c i arg1 harg1 arg2 harg2 arg3 harg3 arg4 harg4 arg5 harg5 arg6 harg6 hc0 x0 x1 x2).2.1)

/-- The pieces the body where the condition holds writes to output 5 tile its block, so they cover it. -/
theorem cover2_A_5 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond2_0 i)
    (x0 : Vec F S10000x128 .f32) (x1 : Vec F S128x128 .f32) (x2 : Vec F S1x128 .f32) (y : S1x128.Idx) :
    ∃ pc ∈ (kernelRun2_A c i arg1 harg1 arg2 harg2 arg3 harg3 arg4 harg4 arg5 harg5 arg6 harg6 hc0 x0 x1 x2).2.2.1, y ∈ pc.1.set :=
  View.cover_of_tiledL (kernelRun2_A c i arg1 harg1 arg2 harg2 arg3 harg3 arg4 harg4 arg5 harg5 arg6 harg6 hc0 x0 x1 x2).2.2.1 S1x128.size (by sl_kernel_rfl) y

/-- What that run leaves in output 5's staging buffer: its pieces read back over arbitrary contents. -/
def out2_A_5 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond2_0 i)
    (x0 : Vec F S10000x128 .f32) (x1 : Vec F S128x128 .f32) (x2 : Vec F S1x128 .f32) : Vec F S1x128 .f32 :=
  VO2_5.read (Elt F) (VO2_5.writes (Elt F) VO2_5.junk (kernelRun2_A c i arg1 harg1 arg2 harg2 arg3 harg3 arg4 harg4 arg5 harg5 arg6 harg6 hc0 x0 x1 x2).2.2.1)

/-- The pieces the body where the condition fails writes to output 3 tile its block, so they cover it. -/
theorem cover2_B_3 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond2_0 i)
    (x0 : Vec F S10000x128 .f32) (x1 : Vec F S128x128 .f32) (x2 : Vec F S1x128 .f32) (xo4 : Vec F S1x128 .f32) (xo5 : Vec F S1x128 .f32) (y : S10000x128.Idx) :
    ∃ pc ∈ (kernelRun2_B c i arg1 harg1 arg2 harg2 arg3 harg3 arg4 harg4 arg5 harg5 arg6 harg6 hc0 x0 x1 x2 xo4 xo5).1, y ∈ pc.1.set :=
  View.cover_of_tiledL (kernelRun2_B c i arg1 harg1 arg2 harg2 arg3 harg3 arg4 harg4 arg5 harg5 arg6 harg6 hc0 x0 x1 x2 xo4 xo5).1 S10000x128.size (by sl_kernel_rfl) y

/-- What that run leaves in output 3's staging buffer: its pieces read back over arbitrary contents. -/
def out2_B_3 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond2_0 i)
    (x0 : Vec F S10000x128 .f32) (x1 : Vec F S128x128 .f32) (x2 : Vec F S1x128 .f32) (xo4 : Vec F S1x128 .f32) (xo5 : Vec F S1x128 .f32) : Vec F S10000x128 .f32 :=
  VO2_3.read (Elt F) (VO2_3.writes (Elt F) VO2_3.junk (kernelRun2_B c i arg1 harg1 arg2 harg2 arg3 harg3 arg4 harg4 arg5 harg5 arg6 harg6 hc0 x0 x1 x2 xo4 xo5).1)

/-- The pieces the body where the condition fails writes to output 4 tile its block, so they cover it. -/
theorem cover2_B_4 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond2_0 i)
    (x0 : Vec F S10000x128 .f32) (x1 : Vec F S128x128 .f32) (x2 : Vec F S1x128 .f32) (xo4 : Vec F S1x128 .f32) (xo5 : Vec F S1x128 .f32) (y : S1x128.Idx) :
    ∃ pc ∈ (kernelRun2_B c i arg1 harg1 arg2 harg2 arg3 harg3 arg4 harg4 arg5 harg5 arg6 harg6 hc0 x0 x1 x2 xo4 xo5).2.1, y ∈ pc.1.set :=
  View.cover_of_tiledL (kernelRun2_B c i arg1 harg1 arg2 harg2 arg3 harg3 arg4 harg4 arg5 harg5 arg6 harg6 hc0 x0 x1 x2 xo4 xo5).2.1 S1x128.size (by sl_kernel_rfl) y

/-- What that run leaves in output 4's staging buffer: its pieces read back over arbitrary contents. -/
def out2_B_4 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond2_0 i)
    (x0 : Vec F S10000x128 .f32) (x1 : Vec F S128x128 .f32) (x2 : Vec F S1x128 .f32) (xo4 : Vec F S1x128 .f32) (xo5 : Vec F S1x128 .f32) : Vec F S1x128 .f32 :=
  VO2_4.read (Elt F) (VO2_4.writes (Elt F) VO2_4.junk (kernelRun2_B c i arg1 harg1 arg2 harg2 arg3 harg3 arg4 harg4 arg5 harg5 arg6 harg6 hc0 x0 x1 x2 xo4 xo5).2.1)

/-- The pieces the body where the condition fails writes to output 5 tile its block, so they cover it. -/
theorem cover2_B_5 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond2_0 i)
    (x0 : Vec F S10000x128 .f32) (x1 : Vec F S128x128 .f32) (x2 : Vec F S1x128 .f32) (xo4 : Vec F S1x128 .f32) (xo5 : Vec F S1x128 .f32) (y : S1x128.Idx) :
    ∃ pc ∈ (kernelRun2_B c i arg1 harg1 arg2 harg2 arg3 harg3 arg4 harg4 arg5 harg5 arg6 harg6 hc0 x0 x1 x2 xo4 xo5).2.2.1, y ∈ pc.1.set :=
  View.cover_of_tiledL (kernelRun2_B c i arg1 harg1 arg2 harg2 arg3 harg3 arg4 harg4 arg5 harg5 arg6 harg6 hc0 x0 x1 x2 xo4 xo5).2.2.1 S1x128.size (by sl_kernel_rfl) y

/-- What that run leaves in output 5's staging buffer: its pieces read back over arbitrary contents. -/
def out2_B_5 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond2_0 i)
    (x0 : Vec F S10000x128 .f32) (x1 : Vec F S128x128 .f32) (x2 : Vec F S1x128 .f32) (xo4 : Vec F S1x128 .f32) (xo5 : Vec F S1x128 .f32) : Vec F S1x128 .f32 :=
  VO2_5.read (Elt F) (VO2_5.writes (Elt F) VO2_5.junk (kernelRun2_B c i arg1 harg1 arg2 harg2 arg3 harg3 arg4 harg4 arg5 harg5 arg6 harg6 hc0 x0 x1 x2 xo4 xo5).2.2.1)

/-! ## What the outputs hold after each point -/

/-- What the three outputs' staging buffers hold after the body at position `n`, by recursion on the point: at the first
    point the resetting case, run at the point's input blocks; at a later point the adding case, the running sums read
    as the point before left them (their buffers are not written back between). -/
def outsAt2 (c : Dev nD) : (n : ℕ) → n < cfg2.N → Vec F S10000x128 .f32 × Vec F S1x128 .f32 × Vec F S1x128 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) ((hcond2_0 ⟨0, hn⟩).mpr (Nat.zero_mod _)) (iblk2 V c 0 ⟨0, hn⟩) (iblk2 V c 1 ⟨0, hn⟩) (iblk2 V c 2 ⟨0, hn⟩),
       out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) ((hcond2_0 ⟨0, hn⟩).mpr (Nat.zero_mod _)) (iblk2 V c 0 ⟨0, hn⟩) (iblk2 V c 1 ⟨0, hn⟩) (iblk2 V c 2 ⟨0, hn⟩),
       out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) ((hcond2_0 ⟨0, hn⟩).mpr (Nat.zero_mod _)) (iblk2 V c 0 ⟨0, hn⟩) (iblk2 V c 1 ⟨0, hn⟩) (iblk2 V c 2 ⟨0, hn⟩))
  | n + 1, hn =>
    if h0 : (n + 1) % 10 = 0 then
      (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) ((hcond2_0 ⟨n + 1, hn⟩).mpr h0) (iblk2 V c 0 ⟨n + 1, hn⟩) (iblk2 V c 1 ⟨n + 1, hn⟩) (iblk2 V c 2 ⟨n + 1, hn⟩),
       out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) ((hcond2_0 ⟨n + 1, hn⟩).mpr h0) (iblk2 V c 0 ⟨n + 1, hn⟩) (iblk2 V c 1 ⟨n + 1, hn⟩) (iblk2 V c 2 ⟨n + 1, hn⟩),
       out2_A_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) ((hcond2_0 ⟨n + 1, hn⟩).mpr h0) (iblk2 V c 0 ⟨n + 1, hn⟩) (iblk2 V c 1 ⟨n + 1, hn⟩) (iblk2 V c 2 ⟨n + 1, hn⟩))
    else
      (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.1 (outsAt2 c n (Nat.lt_of_succ_lt hn)).2.2,
       out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.1 (outsAt2 c n (Nat.lt_of_succ_lt hn)).2.2,
       out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.1 (outsAt2 c n (Nat.lt_of_succ_lt hn)).2.2)

/-- `outsAt2` at a point where the condition holds. -/
theorem outsAt2_A (c : Dev nD) (t : Fin cfg2.N) (h0 : t.val % 10 = 0) :
    outsAt2 V c t.val t.isLt = (out2_A_3 c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t),
       out2_A_4 c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t),
       out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t)) := by
  obtain ⟨n, hn⟩ := t
  cases n with
  | zero => exact rfl
  | succ n => exact (dif_pos h0).trans rfl

/-- `outsAt2` at a point where it fails: over what the point before left. -/
theorem outsAt2_B (c : Dev nD) (t : Fin cfg2.N) (h0 : ¬t.val % 10 = 0) :
    outsAt2 V c t.val t.isLt = (out2_B_3 c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t) (outsAt2 V c (t.val - 1) (Nat.lt_of_le_of_lt (Nat.sub_le _ _) t.isLt)).2.1 (outsAt2 V c (t.val - 1) (Nat.lt_of_le_of_lt (Nat.sub_le _ _) t.isLt)).2.2,
       out2_B_4 c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t) (outsAt2 V c (t.val - 1) (Nat.lt_of_le_of_lt (Nat.sub_le _ _) t.isLt)).2.1 (outsAt2 V c (t.val - 1) (Nat.lt_of_le_of_lt (Nat.sub_le _ _) t.isLt)).2.2,
       out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t` each
    input's buffer at its block and the outputs' at `outsAt2`; the invariant the scoped rest and the generator register,
    untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
    | ⟨4, _⟩ => (outsAt2 V c t.val t.isLt).2.1
    | ⟨5, _⟩ => (outsAt2 V c t.val t.isLt).2.2
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]
/-- Its shares are full. -/
theorem q_eq2 (c : Dev nD) (w : Fin cfg2.W) : (dat2 V c).q w = fullShare := by
  dsimp only [dat2]
/-- It owes nothing. -/
theorem owed_eq2 (c : Dev nD) (n : Fin (cfg2.N + 1)) : (dat2 V c).owed n = 0 := by
  dsimp only [dat2]

/-- The generator register and the scoped rest make the invariant at the first boundary, -/
theorem Phi_in2 (c : Dev nD) : (iprop((∃ r, prngReg c r) ∗ Pipeline.scopedRest (Ix := Unit) (Name := ℕ) (U := UR sig nD τ) (Lvl := ℕ) spec2 c) : sProp 𝕄) ⊢ (dat2 V c).Φ 0 := by
  rw [show (dat2 V c).Φ 0 = Pipeline.ΦA spec2 c from rfl]; unfold Pipeline.ΦA
  iintro ⟨Hp, Hr⟩
  isplitl [Hr]; · iexact Hr
  iexact Hp
/-- and the invariant at the last gives them back. -/
theorem Phi_out2 (c : Dev nD) : (dat2 V c).Φ (Fin.last cfg2.N) ⊢ (iprop((∃ r, prngReg c r) ∗ Pipeline.scopedRest (Ix := Unit) (Name := ℕ) (U := UR sig nD τ) (Lvl := ℕ) spec2 c) : sProp 𝕄) := by
  rw [show (dat2 V c).Φ (Fin.last _) = Pipeline.ΦA spec2 c from rfl]; unfold Pipeline.ΦA
  iintro ⟨Hr, Hp⟩
  isplitl [Hp]; · iexact Hp
  iexact Hr

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem after2_4 (c : Dev nD) (t : Fin cfg2.N) : (dat2 V c).after 4 t = (outsAt2 V c t.val t.isLt).2.1 := by dsimp only [dat2]
theorem after2_5 (c : Dev nD) (t : Fin cfg2.N) : (dat2 V c).after 5 t = (outsAt2 V c t.val t.isLt).2.2 := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
/-- At a later point a running sum's staging buffer holds what the body left at the point before: the buffer was not
    written back between, and the window is live and uncut. -/
theorem before2_4_B (c : Dev nD) (t : Fin cfg2.N) (h0 : ¬t.val % 10 = 0) (d) :
    (dat2 V c).before 4 t d = (outsAt2 V c (t.val - 1) (Nat.lt_of_le_of_lt (Nat.sub_le _ _) t.isLt)).2.1 := by
  have hN : t.val < 10 := lt_of_lt_of_eq t.isLt (show cfg2.N = 10 from N_2)
  rw [Dat.before_out_kept _ 4 rfl t (by omega) (Bool.eq_false_iff.mpr fun h => by have := (flush2_4 _).mp h; dsimp only at this; omega)
    (fun _ => rfl) (fun _ _ => rfl)]
  dsimp only [dat2]
theorem before2_5_B (c : Dev nD) (t : Fin cfg2.N) (h0 : ¬t.val % 10 = 0) (d) :
    (dat2 V c).before 5 t d = (outsAt2 V c (t.val - 1) (Nat.lt_of_le_of_lt (Nat.sub_le _ _) t.isLt)).2.2 := by
  have hN : t.val < 10 := lt_of_lt_of_eq t.isLt (show cfg2.N = 10 from N_2)
  rw [Dat.before_out_kept _ 5 rfl t (by omega) (Bool.eq_false_iff.mpr fun h => by have := (flush2_5 _).mp h; dsimp only at this; omega)
    (fun _ => rfl) (fun _ _ => rfl)]
  dsimp only [dat2]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

set_option maxHeartbeats 1600000 in
/-- The body at any point: the inputs' memrefs hold their blocks; the closed form of the condition says which case the
    point is in; at a later point the running sums hold what the point before left; so that case's run applies; the
    invariant passes through unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4, after2_5]
  have hN : t.val < 10 := lt_of_lt_of_eq t.isLt (show cfg2.N = 10 from N_2)
  by_cases h0 : t.val % 10 = 0
  · rw [outsAt2_A V c t h0]
    try dsimp only
    unfold out2_A_3 out2_A_4 out2_A_5
    iintro ⟨HΦ, Ho, ⟨%d0, H0⟩, ⟨%d1, H1⟩, ⟨%d2, H2⟩, ⟨%d3, H3⟩, ⟨%d4, H4⟩, ⟨%d5, H5⟩⟩
    iapply ((kernelRun2_A c (grid2.coords t) _ _ _ _ _ _ _ _ _ _ _ _ ((hcond2_0 t).mpr h0) (iblk2 V c 0 t) (iblk2 V c 1 t) (iblk2 V c 2 t)).2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover2_A_3 c _ _ _ _ _ _ _ _ _ _ _ _ _ _ _ _ _)
    isplitl [H4]
    · unfold owns; iexists _; isplitr
      swap; · iexact H4
      ipureintro; exact View.read_writes_of_cover _ _ _ _ _ (cover2_A_4 c _ _ _ _ _ _ _ _ _ _ _ _ _ _ _ _ _)
    unfold owns; iexists _; isplitr
    swap; · iexact H5
    ipureintro; exact View.read_writes_of_cover _ _ _ _ _ (cover2_A_5 c _ _ _ _ _ _ _ _ _ _ _ _ _ _ _ _ _)
  · rw [outsAt2_B V c t h0]
    simp only [before2_4_B V c t h0, before2_5_B V c t h0]
    try dsimp only
    unfold out2_B_3 out2_B_4 out2_B_5
    iintro ⟨HΦ, Ho, ⟨%d0, H0⟩, ⟨%d1, H1⟩, ⟨%d2, H2⟩, ⟨%d3, H3⟩, ⟨%d4, H4⟩, ⟨%d5, H5⟩⟩
    iapply ((kernelRun2_B c (grid2.coords t) _ _ _ _ _ _ _ _ _ _ _ _ (fun h => h0 ((hcond2_0 t).mp h)) (iblk2 V c 0 t) (iblk2 V c 1 t) (iblk2 V c 2 t) _ _).2.2.2 Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover2_B_3 c _ _ _ _ _ _ _ _ _ _ _ _ _ _ _ _ _ _ _)
    isplitl [H4]
    · unfold owns; iexists _; isplitr
      swap; · iexact H4
      ipureintro; exact View.read_writes_of_cover _ _ _ _ _ (cover2_B_4 c _ _ _ _ _ _ _ _ _ _ _ _ _ _ _ _ _ _ _)
    unfold owns; iexists _; isplitr
    swap; · iexact H5
    ipureintro; exact View.read_writes_of_cover _ _ _ _ _ (cover2_B_5 c _ _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region

end Cert.Kernel.Hand

end
-- ==== Proof.K.RegBN3.lean ====
import proofs.«413302_j72232759984513_1_alg».proof.Proof.Gen.Kernel.Launch
import proofs.«413302_j72232759984513_1_alg».proof.Proof.Gen.Kernel.Skeleton
import proofs.«413302_j72232759984513_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Kernel region 3: the batch-norm-and-ReLU body, its frame half

The body reads a tile of 10000 rows of `h` and four rows `mu`, `inv`, `g`, `be` of 128 lanes each, and stores
`max ((h - mu) * inv * g + be) 0` over the whole output tile. Its six windows are staged whole, so each input's
buffer holds its block of the entry contents at every point and the output's holds the payload of those blocks. -/

-- membership in a rectangle with an axis of 10000 coordinates: the structural check recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array at the entry contents. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is the entry contents and whose body leaves the block in place: where it is not fetched its
    index has not moved since the point that fetched it. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is the entry contents and whose body leaves the block in place: where it is not fetched its
    index has not moved since the point that fetched it. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is the entry contents and whose body leaves the block in place: where it is not fetched its
    index has not moved since the point that fetched it. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is the entry contents and whose body leaves the block in place: where it is not fetched its
    index has not moved since the point that fetched it. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof
    data whose array is the entry contents and whose body leaves the block in place: where it is not fetched its
    index has not moved since the point that fetched it. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S10000x128 := Rect.unit (s := S10000x128) ![0, 0] S10000x128.size inb_S10000x128_S10000x128_0_0
abbrev r3_1 : Rect S1x128 := Rect.unit (s := S1x128) ![0, 0] S1x128.size inb_S1x128_S1x128_0_0

/-! ## What the body leaves in the output window's buffer -/

/-- Window 5's staging buffer after the body, from the input windows' blocks: its one store, of the payload of
    the five loaded values, over the whole tile. -/
def out3_5 (x0 : Vec F S10000x128 .f32) (x1 : Vec F S1x128 .f32) (x2 : Vec F S1x128 .f32) (x3 : Vec F S1x128 .f32) (x4 : Vec F S1x128 .f32) : Vec F S10000x128 .f32 :=
  View.canon [⟨r3_0, k3_pay1 (View.ld x0 r3_0) (View.ld x1 r3_1) (View.ld x2 r3_1) (View.ld x3 r3_1) (View.ld x4 r3_1)⟩]

/-- The one store is of the whole tile, so it covers the buffer. -/
theorem cover3_5 (p0 : Vec F S10000x128 .f32) (y : S10000x128.Idx) :
    ∃ pc ∈ ([⟨r3_0, p0⟩] : List (View.Piece (Elt F) S10000x128 .f32)), y ∈ pc.1.set :=
  View.cover_of_tiled [⟨r3_0, p0⟩] S10000x128.size (by rfl) y

/-! ## The body's triple -/

set_option maxHeartbeats 1000000 in
/-- The kernel body on whole staging memrefs, the inputs' at contents `xW` and the output's at anything, runs to
    the continuation holding the inputs' as they were and the output's at `out3_5` of the inputs'. -/
theorem sound_kernel3 (c : Dev nD) (E : Set ℕ) (i : grid3.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S10000x128 .f32) (harg6 : arg6.IsWhole)
    (x0 : Vec F S10000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__bn_relu_kernel i arg1 harg1 arg2 harg2 arg3 harg3 arg4 harg4 arg5 harg5 arg6 harg6) K := by
  simp only [cc3__bn_relu_kernel_eq_skeleton]; unfold cc3__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core `c`: the arrays at the entry contents; after the body at point `t` each
    input's buffer at its block and the output's at `out3_5` of the input blocks; the invariant the scoped rest and
    the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the entry contents. -/
theorem A_eq3 (c : Dev nD) (w : Fin cfg3.W) : (dat3 V c).A w = V c (Pipeline.arrRef spec3 w) := by
  dsimp only [dat3]

/-- Every window is held at the full share. -/
theorem q_eq3 (c : Dev nD) (w : Fin cfg3.W) : (dat3 V c).q w = fullShare := by
  dsimp only [dat3]

/-- Nothing is owed at any point. -/
theorem owed_eq3 (c : Dev nD) (n : Fin (cfg3.N + 1)) : (dat3 V c).owed n = 0 := by
  dsimp only [dat3]

/-- The invariant at every point is the scoped rest with the generator register. -/
theorem Phi_eq3 (c : Dev nD) (n : Fin (cfg3.N + 1)) : (dat3 V c).Φ n = Pipeline.ΦA spec3 c := by
  dsimp only [dat3]

/-- The invariant holds at the first point of what the region is entered with, -/
theorem Phi_in3 (c : Dev nD) :
    (iprop((∃ r, prngReg c r) ∗ Pipeline.scopedRest (Ix := Unit) (Name := ℕ) (U := UR sig nD τ) (Lvl := ℕ) spec3 c) : sProp 𝕄) ⊢ (dat3 V c).Φ 0 := by
  rw [Phi_eq3]; unfold Pipeline.ΦA
  iintro ⟨Hr, Hp⟩
  isplitl [Hp]; · iexact Hp
  iexact Hr

/-- and gives it back at the last. -/
theorem Phi_out3 (c : Dev nD) :
    (dat3 V c).Φ (Fin.last cfg3.N) ⊢ (iprop((∃ r, prngReg c r) ∗ Pipeline.scopedRest (Ix := Unit) (Name := ℕ) (U := UR sig nD τ) (Lvl := ℕ) spec3 c) : sProp 𝕄) := by
  rw [Phi_eq3]; unfold Pipeline.ΦA
  iintro ⟨Hp, Hr⟩
  isplitl [Hr]; · iexact Hr
  iexact Hp

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so the body's triple applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.RegLS4.RunA.lean ====
import proofs.«413302_j72232759984513_1_alg».proof.Proof.Gen.Kernel.Launch
import proofs.«413302_j72232759984513_1_alg».proof.Proof.Gen.Kernel.Skeleton
import proofs.«413302_j72232759984513_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 4: the body's run at the first grid point

The body's one conditional tests whether the grid coordinate is zero; there it resets the two running sums before adding
to them. -/

/-- The condition of the body's conditional, from the grid coordinates. -/
abbrev cond4_0 (i : grid4.Coords) : Prop := (Scalar.cmpi .ne (Scalar.extui (Scalar.cmpi .eq (BitVec.ofNat 32 (i 0).val) 0#32)) 0#32) = 1#1
/-- It holds at the first point only: decided over the grid. -/
theorem hcond4_0 : ∀ t : Fin cfg4.N, cond4_0 (grid4.coords t) ↔ t.val % 10 = 0 :=
  (by decide +kernel : ∀ t : Fin grid4.N, cond4_0 (grid4.coords t) ↔ t.val % 10 = 0)

/-- One staging buffer of each output window, through which its contents are stated (the choice does not matter). -/
abbrev VO4_3 : View sig .tc .vmem S10000x128 .f32 := (Memref.whole cc4_stg3_0 : Memref sig .tc .vmem S10000x128 .f32).view
abbrev VO4_4 : View sig .tc .vmem S1x128 .f32 := (Memref.whole cc4_stg4_0 : Memref sig .tc .vmem S1x128 .f32).view
abbrev VO4_5 : View sig .tc .vmem S1x128 .f32 := (Memref.whole cc4_stg5_0 : Memref sig .tc .vmem S1x128 .f32).view

set_option maxHeartbeats 4000000 in
/-- The body where the condition holds. On whole staging memrefs, the three inputs' at contents `x0 x1 x2` and the three
    outputs' at anything, it runs to the continuation holding the inputs' as they were and each output's buffer with
    the pieces its stores wrote (last first): the pieces are the witness the run finds. -/
noncomputable def kernelRun4_A (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond4_0 i)
    (x0 : Vec F S10000x128 .f32) (x1 : Vec F S128x128 .f32) (x2 : Vec F S1x128 .f32) :
    Σ' (L3 : List (View.Piece (Elt F) S10000x128 .f32)), Σ' (L4 : List (View.Piece (Elt F) S1x128 .f32)), { L5 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc4__linear_stats_kernel i arg1 harg1 arg2 harg2 arg3 harg3 arg4 harg4 arg5 harg5 arg6 harg6) K } := by
  refine ⟨?_, ?_, ?_, fun E K => ?run⟩
  case run =>
    simp only [cc4__linear_stats_kernel_eq_skeleton]; unfold cc4__linear_stats_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

end Cert.Kernel.Hand

end
-- ==== Proof.K.RegLS4.RunB.lean ====
import proofs.«413302_j72232759984513_1_alg».proof.Proof.K.RegLS4.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 4: the body's run at a later grid point

The condition fails: the two running sums are read as the point before left them and added to. -/

set_option maxHeartbeats 4000000 in
/-- The body where the condition fails. On whole staging memrefs, the three inputs' at contents `x0 x1 x2`, the two
    running sums' at `xo4 xo5` and the first output's at anything, it runs to the continuation holding the inputs' as they
    were and each output's buffer with the pieces its stores wrote (last first): the pieces are the witness the run finds. -/
noncomputable def kernelRun4_B (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i)
    (x0 : Vec F S10000x128 .f32) (x1 : Vec F S128x128 .f32) (x2 : Vec F S1x128 .f32) (xo4 : Vec F S1x128 .f32) (xo5 : Vec F S1x128 .f32) :
    Σ' (L3 : List (View.Piece (Elt F) S10000x128 .f32)), Σ' (L4 : List (View.Piece (Elt F) S1x128 .f32)), { L5 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xo4 ∗ owns (c : Thread nD τ) arg6 fullShare xo5
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc4__linear_stats_kernel i arg1 harg1 arg2 harg2 arg3 harg3 arg4 harg4 arg5 harg5 arg6 harg6) K } := by
  refine ⟨?_, ?_, ?_, fun E K => ?run⟩
  case run =>
    simp only [cc4__linear_stats_kernel_eq_skeleton]; unfold cc4__linear_stats_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
    obtain rfl := harg1.eq_unread hf0; obtain rfl := harg2.eq_unread hf1; obtain rfl := harg3.eq_unread hf2
    obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

end Cert.Kernel.Hand

end
-- ==== Proof.K.RegLS4.lean ====
import proofs.«413302_j72232759984513_1_alg».proof.Proof.K.RegLS4.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 4: the proof data and the body obligation, at the contents the region is entered with

The kernel stores `x·W + b` for its tile of rows in output window 3 and keeps two running sums, output windows 4 and 5:
reset at the first grid point, added to at every point, written back after the last. Everything is stated at a
parameter `V`, the TensorCore's buffer contents when the region is entered. -/

section Region

variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! An input window's current staging buffer holds its block at every point, fetched there or not (unfetched, the block
    index has not moved), for any proof data whose array is the entry contents and whose body leaves the block in place. -/

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Each window's current staging memref at point `t`, and its wholeness. -/
abbrev ms4_0 (t : Fin cfg4.N) : Memref sig .tc .vmem S10000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S128x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S10000x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x128 .f32 := win4_5.stage (cfg4.slots t 5)
abbrev hs4_5 (t : Fin cfg4.N) : (ms4_5 t).IsWhole := hstage4_5 ((cfg4.slots t 5).cast nbuf4_5)

/-! ## What each case of the body leaves in the outputs' buffers -/

/-- The pieces the body where the condition holds writes to output 3 tile its block, so they cover it. -/
theorem cover4_A_3 (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond4_0 i)
    (x0 : Vec F S10000x128 .f32) (x1 : Vec F S128x128 .f32) (x2 : Vec F S1x128 .f32) (y : S10000x128.Idx) :
    ∃ pc ∈ (kernelRun4_A c i arg1 harg1 arg2 harg2 arg3 harg3 arg4 harg4 arg5 harg5 arg6 harg6 hc0 x0 x1 x2).1, y ∈ pc.1.set :=
  View.cover_of_tiledL (kernelRun4_A c i arg1 harg1 arg2 harg2 arg3 harg3 arg4 harg4 arg5 harg5 arg6 harg6 hc0 x0 x1 x2).1 S10000x128.size (by sl_kernel_rfl) y

/-- What that run leaves in output 3's staging buffer: its pieces read back over arbitrary contents. -/
def out4_A_3 (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond4_0 i)
    (x0 : Vec F S10000x128 .f32) (x1 : Vec F S128x128 .f32) (x2 : Vec F S1x128 .f32) : Vec F S10000x128 .f32 :=
  VO4_3.read (Elt F) (VO4_3.writes (Elt F) VO4_3.junk (kernelRun4_A c i arg1 harg1 arg2 harg2 arg3 harg3 arg4 harg4 arg5 harg5 arg6 harg6 hc0 x0 x1 x2).1)

/-- The pieces the body where the condition holds writes to output 4 tile its block, so they cover it. -/
theorem cover4_A_4 (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond4_0 i)
    (x0 : Vec F S10000x128 .f32) (x1 : Vec F S128x128 .f32) (x2 : Vec F S1x128 .f32) (y : S1x128.Idx) :
    ∃ pc ∈ (kernelRun4_A c i arg1 harg1 arg2 harg2 arg3 harg3 arg4 harg4 arg5 harg5 arg6 harg6 hc0 x0 x1 x2).2.1, y ∈ pc.1.set :=
  View.cover_of_tiledL (kernelRun4_A c i arg1 harg1 arg2 harg2 arg3 harg3 arg4 harg4 arg5 harg5 arg6 harg6 hc0 x0 x1 x2).2.1 S1x128.size (by sl_kernel_rfl) y

/-- What that run leaves in output 4's staging buffer: its pieces read back over arbitrary contents. -/
def out4_A_4 (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond4_0 i)
    (x0 : Vec F S10000x128 .f32) (x1 : Vec F S128x128 .f32) (x2 : Vec F S1x128 .f32) : Vec F S1x128 .f32 :=
  VO4_4.read (Elt F) (VO4_4.writes (Elt F) VO4_4.junk (kernelRun4_A c i arg1 harg1 arg2 harg2 arg3 harg3 arg4 harg4 arg5 harg5 arg6 harg6 hc0 x0 x1 x2).2.1)

/-- The pieces the body where the condition holds writes to output 5 tile its block, so they cover it. -/
theorem cover4_A_5 (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond4_0 i)
    (x0 : Vec F S10000x128 .f32) (x1 : Vec F S128x128 .f32) (x2 : Vec F S1x128 .f32) (y : S1x128.Idx) :
    ∃ pc ∈ (kernelRun4_A c i arg1 harg1 arg2 harg2 arg3 harg3 arg4 harg4 arg5 harg5 arg6 harg6 hc0 x0 x1 x2).2.2.1, y ∈ pc.1.set :=
  View.cover_of_tiledL (kernelRun4_A c i arg1 harg1 arg2 harg2 arg3 harg3 arg4 harg4 arg5 harg5 arg6 harg6 hc0 x0 x1 x2).2.2.1 S1x128.size (by sl_kernel_rfl) y

/-- What that run leaves in output 5's staging buffer: its pieces read back over arbitrary contents. -/
def out4_A_5 (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond4_0 i)
    (x0 : Vec F S10000x128 .f32) (x1 : Vec F S128x128 .f32) (x2 : Vec F S1x128 .f32) : Vec F S1x128 .f32 :=
  VO4_5.read (Elt F) (VO4_5.writes (Elt F) VO4_5.junk (kernelRun4_A c i arg1 harg1 arg2 harg2 arg3 harg3 arg4 harg4 arg5 harg5 arg6 harg6 hc0 x0 x1 x2).2.2.1)

/-- The pieces the body where the condition fails writes to output 3 tile its block, so they cover it. -/
theorem cover4_B_3 (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i)
    (x0 : Vec F S10000x128 .f32) (x1 : Vec F S128x128 .f32) (x2 : Vec F S1x128 .f32) (xo4 : Vec F S1x128 .f32) (xo5 : Vec F S1x128 .f32) (y : S10000x128.Idx) :
    ∃ pc ∈ (kernelRun4_B c i arg1 harg1 arg2 harg2 arg3 harg3 arg4 harg4 arg5 harg5 arg6 harg6 hc0 x0 x1 x2 xo4 xo5).1, y ∈ pc.1.set :=
  View.cover_of_tiledL (kernelRun4_B c i arg1 harg1 arg2 harg2 arg3 harg3 arg4 harg4 arg5 harg5 arg6 harg6 hc0 x0 x1 x2 xo4 xo5).1 S10000x128.size (by sl_kernel_rfl) y

/-- What that run leaves in output 3's staging buffer: its pieces read back over arbitrary contents. -/
def out4_B_3 (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i)
    (x0 : Vec F S10000x128 .f32) (x1 : Vec F S128x128 .f32) (x2 : Vec F S1x128 .f32) (xo4 : Vec F S1x128 .f32) (xo5 : Vec F S1x128 .f32) : Vec F S10000x128 .f32 :=
  VO4_3.read (Elt F) (VO4_3.writes (Elt F) VO4_3.junk (kernelRun4_B c i arg1 harg1 arg2 harg2 arg3 harg3 arg4 harg4 arg5 harg5 arg6 harg6 hc0 x0 x1 x2 xo4 xo5).1)

/-- The pieces the body where the condition fails writes to output 4 tile its block, so they cover it. -/
theorem cover4_B_4 (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i)
    (x0 : Vec F S10000x128 .f32) (x1 : Vec F S128x128 .f32) (x2 : Vec F S1x128 .f32) (xo4 : Vec F S1x128 .f32) (xo5 : Vec F S1x128 .f32) (y : S1x128.Idx) :
    ∃ pc ∈ (kernelRun4_B c i arg1 harg1 arg2 harg2 arg3 harg3 arg4 harg4 arg5 harg5 arg6 harg6 hc0 x0 x1 x2 xo4 xo5).2.1, y ∈ pc.1.set :=
  View.cover_of_tiledL (kernelRun4_B c i arg1 harg1 arg2 harg2 arg3 harg3 arg4 harg4 arg5 harg5 arg6 harg6 hc0 x0 x1 x2 xo4 xo5).2.1 S1x128.size (by sl_kernel_rfl) y

/-- What that run leaves in output 4's staging buffer: its pieces read back over arbitrary contents. -/
def out4_B_4 (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i)
    (x0 : Vec F S10000x128 .f32) (x1 : Vec F S128x128 .f32) (x2 : Vec F S1x128 .f32) (xo4 : Vec F S1x128 .f32) (xo5 : Vec F S1x128 .f32) : Vec F S1x128 .f32 :=
  VO4_4.read (Elt F) (VO4_4.writes (Elt F) VO4_4.junk (kernelRun4_B c i arg1 harg1 arg2 harg2 arg3 harg3 arg4 harg4 arg5 harg5 arg6 harg6 hc0 x0 x1 x2 xo4 xo5).2.1)

/-- The pieces the body where the condition fails writes to output 5 tile its block, so they cover it. -/
theorem cover4_B_5 (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i)
    (x0 : Vec F S10000x128 .f32) (x1 : Vec F S128x128 .f32) (x2 : Vec F S1x128 .f32) (xo4 : Vec F S1x128 .f32) (xo5 : Vec F S1x128 .f32) (y : S1x128.Idx) :
    ∃ pc ∈ (kernelRun4_B c i arg1 harg1 arg2 harg2 arg3 harg3 arg4 harg4 arg5 harg5 arg6 harg6 hc0 x0 x1 x2 xo4 xo5).2.2.1, y ∈ pc.1.set :=
  View.cover_of_tiledL (kernelRun4_B c i arg1 harg1 arg2 harg2 arg3 harg3 arg4 harg4 arg5 harg5 arg6 harg6 hc0 x0 x1 x2 xo4 xo5).2.2.1 S1x128.size (by sl_kernel_rfl) y

/-- What that run leaves in output 5's staging buffer: its pieces read back over arbitrary contents. -/
def out4_B_5 (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i)
    (x0 : Vec F S10000x128 .f32) (x1 : Vec F S128x128 .f32) (x2 : Vec F S1x128 .f32) (xo4 : Vec F S1x128 .f32) (xo5 : Vec F S1x128 .f32) : Vec F S1x128 .f32 :=
  VO4_5.read (Elt F) (VO4_5.writes (Elt F) VO4_5.junk (kernelRun4_B c i arg1 harg1 arg2 harg2 arg3 harg3 arg4 harg4 arg5 harg5 arg6 harg6 hc0 x0 x1 x2 xo4 xo5).2.2.1)

/-! ## What the outputs hold after each point -/

/-- What the three outputs' staging buffers hold after the body at position `n`, by recursion on the point: at the first
    point the resetting case, run at the point's input blocks; at a later point the adding case, the running sums read
    as the point before left them (their buffers are not written back between). -/
def outsAt4 (c : Dev nD) : (n : ℕ) → n < cfg4.N → Vec F S10000x128 .f32 × Vec F S1x128 .f32 × Vec F S1x128 .f32
  | 0, hn => (out4_A_3 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) ((hcond4_0 ⟨0, hn⟩).mpr (Nat.zero_mod _)) (iblk4 V c 0 ⟨0, hn⟩) (iblk4 V c 1 ⟨0, hn⟩) (iblk4 V c 2 ⟨0, hn⟩),
       out4_A_4 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) ((hcond4_0 ⟨0, hn⟩).mpr (Nat.zero_mod _)) (iblk4 V c 0 ⟨0, hn⟩) (iblk4 V c 1 ⟨0, hn⟩) (iblk4 V c 2 ⟨0, hn⟩),
       out4_A_5 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) ((hcond4_0 ⟨0, hn⟩).mpr (Nat.zero_mod _)) (iblk4 V c 0 ⟨0, hn⟩) (iblk4 V c 1 ⟨0, hn⟩) (iblk4 V c 2 ⟨0, hn⟩))
  | n + 1, hn =>
    if h0 : (n + 1) % 10 = 0 then
      (out4_A_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) ((hcond4_0 ⟨n + 1, hn⟩).mpr h0) (iblk4 V c 0 ⟨n + 1, hn⟩) (iblk4 V c 1 ⟨n + 1, hn⟩) (iblk4 V c 2 ⟨n + 1, hn⟩),
       out4_A_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) ((hcond4_0 ⟨n + 1, hn⟩).mpr h0) (iblk4 V c 0 ⟨n + 1, hn⟩) (iblk4 V c 1 ⟨n + 1, hn⟩) (iblk4 V c 2 ⟨n + 1, hn⟩),
       out4_A_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) ((hcond4_0 ⟨n + 1, hn⟩).mpr h0) (iblk4 V c 0 ⟨n + 1, hn⟩) (iblk4 V c 1 ⟨n + 1, hn⟩) (iblk4 V c 2 ⟨n + 1, hn⟩))
    else
      (out4_B_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (fun h => h0 ((hcond4_0 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2.1 (outsAt4 c n (Nat.lt_of_succ_lt hn)).2.2,
       out4_B_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (fun h => h0 ((hcond4_0 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2.1 (outsAt4 c n (Nat.lt_of_succ_lt hn)).2.2,
       out4_B_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (fun h => h0 ((hcond4_0 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2.1 (outsAt4 c n (Nat.lt_of_succ_lt hn)).2.2)

/-- `outsAt4` at a point where the condition holds. -/
theorem outsAt4_A (c : Dev nD) (t : Fin cfg4.N) (h0 : t.val % 10 = 0) :
    outsAt4 V c t.val t.isLt = (out4_A_3 c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (iblk4 V c 0 t) (iblk4 V c 1 t) (iblk4 V c 2 t),
       out4_A_4 c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (iblk4 V c 0 t) (iblk4 V c 1 t) (iblk4 V c 2 t),
       out4_A_5 c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (iblk4 V c 0 t) (iblk4 V c 1 t) (iblk4 V c 2 t)) := by
  obtain ⟨n, hn⟩ := t
  cases n with
  | zero => exact rfl
  | succ n => exact (dif_pos h0).trans rfl

/-- `outsAt4` at a point where it fails: over what the point before left. -/
theorem outsAt4_B (c : Dev nD) (t : Fin cfg4.N) (h0 : ¬t.val % 10 = 0) :
    outsAt4 V c t.val t.isLt = (out4_B_3 c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (iblk4 V c 0 t) (iblk4 V c 1 t) (iblk4 V c 2 t) (outsAt4 V c (t.val - 1) (Nat.lt_of_le_of_lt (Nat.sub_le _ _) t.isLt)).2.1 (outsAt4 V c (t.val - 1) (Nat.lt_of_le_of_lt (Nat.sub_le _ _) t.isLt)).2.2,
       out4_B_4 c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (iblk4 V c 0 t) (iblk4 V c 1 t) (iblk4 V c 2 t) (outsAt4 V c (t.val - 1) (Nat.lt_of_le_of_lt (Nat.sub_le _ _) t.isLt)).2.1 (outsAt4 V c (t.val - 1) (Nat.lt_of_le_of_lt (Nat.sub_le _ _) t.isLt)).2.2,
       out4_B_5 c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (iblk4 V c 0 t) (iblk4 V c 1 t) (iblk4 V c 2 t) (outsAt4 V c (t.val - 1) (Nat.lt_of_le_of_lt (Nat.sub_le _ _) t.isLt)).2.1 (outsAt4 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t` each
    input's buffer at its block and the outputs' at `outsAt4`; the invariant the scoped rest and the generator register,
    untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
    | ⟨4, _⟩ => (outsAt4 V c t.val t.isLt).2.1
    | ⟨5, _⟩ => (outsAt4 V c t.val t.isLt).2.2
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]
/-- Its shares are full. -/
theorem q_eq4 (c : Dev nD) (w : Fin cfg4.W) : (dat4 V c).q w = fullShare := by
  dsimp only [dat4]
/-- It owes nothing. -/
theorem owed_eq4 (c : Dev nD) (n : Fin (cfg4.N + 1)) : (dat4 V c).owed n = 0 := by
  dsimp only [dat4]

/-- The generator register and the scoped rest make the invariant at the first boundary, -/
theorem Phi_in4 (c : Dev nD) : (iprop((∃ r, prngReg c r) ∗ Pipeline.scopedRest (Ix := Unit) (Name := ℕ) (U := UR sig nD τ) (Lvl := ℕ) spec4 c) : sProp 𝕄) ⊢ (dat4 V c).Φ 0 := by
  rw [show (dat4 V c).Φ 0 = Pipeline.ΦA spec4 c from rfl]; unfold Pipeline.ΦA
  iintro ⟨Hp, Hr⟩
  isplitl [Hr]; · iexact Hr
  iexact Hp
/-- and the invariant at the last gives them back. -/
theorem Phi_out4 (c : Dev nD) : (dat4 V c).Φ (Fin.last cfg4.N) ⊢ (iprop((∃ r, prngReg c r) ∗ Pipeline.scopedRest (Ix := Unit) (Name := ℕ) (U := UR sig nD τ) (Lvl := ℕ) spec4 c) : sProp 𝕄) := by
  rw [show (dat4 V c).Φ (Fin.last _) = Pipeline.ΦA spec4 c from rfl]; unfold Pipeline.ΦA
  iintro ⟨Hr, Hp⟩
  isplitl [Hp]; · iexact Hp
  iexact Hr

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]
theorem after4_4 (c : Dev nD) (t : Fin cfg4.N) : (dat4 V c).after 4 t = (outsAt4 V c t.val t.isLt).2.1 := by dsimp only [dat4]
theorem after4_5 (c : Dev nD) (t : Fin cfg4.N) : (dat4 V c).after 5 t = (outsAt4 V c t.val t.isLt).2.2 := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
/-- At a later point a running sum's staging buffer holds what the body left at the point before: the buffer was not
    written back between, and the window is live and uncut. -/
theorem before4_4_B (c : Dev nD) (t : Fin cfg4.N) (h0 : ¬t.val % 10 = 0) (d) :
    (dat4 V c).before 4 t d = (outsAt4 V c (t.val - 1) (Nat.lt_of_le_of_lt (Nat.sub_le _ _) t.isLt)).2.1 := by
  have hN : t.val < 10 := lt_of_lt_of_eq t.isLt (show cfg4.N = 10 from N_4)
  rw [Dat.before_out_kept _ 4 rfl t (by omega) (Bool.eq_false_iff.mpr fun h => by have := (flush4_4 _).mp h; dsimp only at this; omega)
    (fun _ => rfl) (fun _ _ => rfl)]
  dsimp only [dat4]
theorem before4_5_B (c : Dev nD) (t : Fin cfg4.N) (h0 : ¬t.val % 10 = 0) (d) :
    (dat4 V c).before 5 t d = (outsAt4 V c (t.val - 1) (Nat.lt_of_le_of_lt (Nat.sub_le _ _) t.isLt)).2.2 := by
  have hN : t.val < 10 := lt_of_lt_of_eq t.isLt (show cfg4.N = 10 from N_4)
  rw [Dat.before_out_kept _ 5 rfl t (by omega) (Bool.eq_false_iff.mpr fun h => by have := (flush4_5 _).mp h; dsimp only at this; omega)
    (fun _ => rfl) (fun _ _ => rfl)]
  dsimp only [dat4]

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

set_option maxHeartbeats 1600000 in
/-- The body at any point: the inputs' memrefs hold their blocks; the closed form of the condition says which case the
    point is in; at a later point the running sums hold what the point before left; so that case's run applies; the
    invariant passes through unread; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3, after4_4, after4_5]
  have hN : t.val < 10 := lt_of_lt_of_eq t.isLt (show cfg4.N = 10 from N_4)
  by_cases h0 : t.val % 10 = 0
  · rw [outsAt4_A V c t h0]
    try dsimp only
    unfold out4_A_3 out4_A_4 out4_A_5
    iintro ⟨HΦ, Ho, ⟨%d0, H0⟩, ⟨%d1, H1⟩, ⟨%d2, H2⟩, ⟨%d3, H3⟩, ⟨%d4, H4⟩, ⟨%d5, H5⟩⟩
    iapply ((kernelRun4_A c (grid4.coords t) _ _ _ _ _ _ _ _ _ _ _ _ ((hcond4_0 t).mpr h0) (iblk4 V c 0 t) (iblk4 V c 1 t) (iblk4 V c 2 t)).2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover4_A_3 c _ _ _ _ _ _ _ _ _ _ _ _ _ _ _ _ _)
    isplitl [H4]
    · unfold owns; iexists _; isplitr
      swap; · iexact H4
      ipureintro; exact View.read_writes_of_cover _ _ _ _ _ (cover4_A_4 c _ _ _ _ _ _ _ _ _ _ _ _ _ _ _ _ _)
    unfold owns; iexists _; isplitr
    swap; · iexact H5
    ipureintro; exact View.read_writes_of_cover _ _ _ _ _ (cover4_A_5 c _ _ _ _ _ _ _ _ _ _ _ _ _ _ _ _ _)
  · rw [outsAt4_B V c t h0]
    simp only [before4_4_B V c t h0, before4_5_B V c t h0]
    try dsimp only
    unfold out4_B_3 out4_B_4 out4_B_5
    iintro ⟨HΦ, Ho, ⟨%d0, H0⟩, ⟨%d1, H1⟩, ⟨%d2, H2⟩, ⟨%d3, H3⟩, ⟨%d4, H4⟩, ⟨%d5, H5⟩⟩
    iapply ((kernelRun4_B c (grid4.coords t) _ _ _ _ _ _ _ _ _ _ _ _ (fun h => h0 ((hcond4_0 t).mp h)) (iblk4 V c 0 t) (iblk4 V c 1 t) (iblk4 V c 2 t) _ _).2.2.2 Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover4_B_3 c _ _ _ _ _ _ _ _ _ _ _ _ _ _ _ _ _ _ _)
    isplitl [H4]
    · unfold owns; iexists _; isplitr
      swap; · iexact H4
      ipureintro; exact View.read_writes_of_cover _ _ _ _ _ (cover4_B_4 c _ _ _ _ _ _ _ _ _ _ _ _ _ _ _ _ _ _ _)
    unfold owns; iexists _; isplitr
    swap; · iexact H5
    ipureintro; exact View.read_writes_of_cover _ _ _ _ _ (cover4_B_5 c _ _ _ _ _ _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region

end Cert.Kernel.Hand

end
-- ==== Proof.K.RegBN5.lean ====
import proofs.«413302_j72232759984513_1_alg».proof.Proof.Gen.Kernel.Launch
import proofs.«413302_j72232759984513_1_alg».proof.Proof.Gen.Kernel.Skeleton
import proofs.«413302_j72232759984513_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Kernel region 5: the batch-norm-and-ReLU body, its frame half

The body reads a tile of 10000 rows of `h` and four rows `mu`, `inv`, `g`, `be` of 128 lanes each, and stores
`max ((h - mu) * inv * g + be) 0` over the whole output tile. Its six windows are staged whole, so each input's
buffer holds its block of the entry contents at every point and the output's holds the payload of those blocks. -/

-- membership in a rectangle with an axis of 10000 coordinates: the structural check recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array at the entry contents. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is the entry contents and whose body leaves the block in place: where it is not fetched its
    index has not moved since the point that fetched it. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is the entry contents and whose body leaves the block in place: where it is not fetched its
    index has not moved since the point that fetched it. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is the entry contents and whose body leaves the block in place: where it is not fetched its
    index has not moved since the point that fetched it. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof
    data whose array is the entry contents and whose body leaves the block in place: where it is not fetched its
    index has not moved since the point that fetched it. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof
    data whose array is the entry contents and whose body leaves the block in place: where it is not fetched its
    index has not moved since the point that fetched it. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_0 : Rect S10000x128 := Rect.unit (s := S10000x128) ![0, 0] S10000x128.size inb_S10000x128_S10000x128_0_0
abbrev r5_1 : Rect S1x128 := Rect.unit (s := S1x128) ![0, 0] S1x128.size inb_S1x128_S1x128_0_0

/-! ## What the body leaves in the output window's buffer -/

/-- Window 5's staging buffer after the body, from the input windows' blocks: its one store, of the payload of
    the five loaded values, over the whole tile. -/
def out5_5 (x0 : Vec F S10000x128 .f32) (x1 : Vec F S1x128 .f32) (x2 : Vec F S1x128 .f32) (x3 : Vec F S1x128 .f32) (x4 : Vec F S1x128 .f32) : Vec F S10000x128 .f32 :=
  View.canon [⟨r5_0, k5_pay1 (View.ld x0 r5_0) (View.ld x1 r5_1) (View.ld x2 r5_1) (View.ld x3 r5_1) (View.ld x4 r5_1)⟩]

/-- The one store is of the whole tile, so it covers the buffer. -/
theorem cover5_5 (p0 : Vec F S10000x128 .f32) (y : S10000x128.Idx) :
    ∃ pc ∈ ([⟨r5_0, p0⟩] : List (View.Piece (Elt F) S10000x128 .f32)), y ∈ pc.1.set :=
  View.cover_of_tiled [⟨r5_0, p0⟩] S10000x128.size (by rfl) y

/-! ## The body's triple -/

set_option maxHeartbeats 1000000 in
/-- The kernel body on whole staging memrefs, the inputs' at contents `xW` and the output's at anything, runs to
    the continuation holding the inputs' as they were and the output's at `out5_5` of the inputs'. -/
theorem sound_kernel5 (c : Dev nD) (E : Set ℕ) (i : grid5.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S10000x128 .f32) (harg6 : arg6.IsWhole)
    (x0 : Vec F S10000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__bn_relu_kernel i arg1 harg1 arg2 harg2 arg3 harg3 arg4 harg4 arg5 harg5 arg6 harg6) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of pipeline 5 on core `c`: the arrays at the entry contents; after the body at point `t` each
    input's buffer at its block and the output's at `out5_5` of the input blocks; the invariant the scoped rest and
    the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the entry contents. -/
theorem A_eq5 (c : Dev nD) (w : Fin cfg5.W) : (dat5 V c).A w = V c (Pipeline.arrRef spec5 w) := by
  dsimp only [dat5]

/-- Every window is held at the full share. -/
theorem q_eq5 (c : Dev nD) (w : Fin cfg5.W) : (dat5 V c).q w = fullShare := by
  dsimp only [dat5]

/-- Nothing is owed at any point. -/
theorem owed_eq5 (c : Dev nD) (n : Fin (cfg5.N + 1)) : (dat5 V c).owed n = 0 := by
  dsimp only [dat5]

/-- The invariant at every point is the scoped rest with the generator register. -/
theorem Phi_eq5 (c : Dev nD) (n : Fin (cfg5.N + 1)) : (dat5 V c).Φ n = Pipeline.ΦA spec5 c := by
  dsimp only [dat5]

/-- The invariant holds at the first point of what the region is entered with, -/
theorem Phi_in5 (c : Dev nD) :
    (iprop((∃ r, prngReg c r) ∗ Pipeline.scopedRest (Ix := Unit) (Name := ℕ) (U := UR sig nD τ) (Lvl := ℕ) spec5 c) : sProp 𝕄) ⊢ (dat5 V c).Φ 0 := by
  rw [Phi_eq5]; unfold Pipeline.ΦA
  iintro ⟨Hr, Hp⟩
  isplitl [Hp]; · iexact Hp
  iexact Hr

/-- and gives it back at the last. -/
theorem Phi_out5 (c : Dev nD) :
    (dat5 V c).Φ (Fin.last cfg5.N) ⊢ (iprop((∃ r, prngReg c r) ∗ Pipeline.scopedRest (Ix := Unit) (Name := ℕ) (U := UR sig nD τ) (Lvl := ℕ) spec5 c) : sProp 𝕄) := by
  rw [Phi_eq5]; unfold Pipeline.ΦA
  iintro ⟨Hp, Hr⟩
  isplitl [Hr]; · iexact Hr
  iexact Hp

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks, so the body's triple applies; the invariant and
    the core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.RegPool6.lean ====
import proofs.«413302_j72232759984513_1_alg».proof.Proof.Gen.Kernel.Launch
import proofs.«413302_j72232759984513_1_alg».proof.Proof.Gen.Kernel.Skeleton
import proofs.«413302_j72232759984513_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 6: the pooling kernel (mean over 256 segments, then a linear layer), its frame half

The kernel keeps two accumulators — the segment sums [256,128] and the segment counts [256,1] — in scratch buffers of its
own: reset at the first grid point, added to at every point (a one-hot matrix product against the point's block), and at
the last point divided, multiplied by the weights, the bias added, and stored into the one output window. The proof data
carries what the accumulators hold between points (`acc6`, by recursion on the point) in its invariant. Three control
cases: the first point, the middle points, the last point; one triple each. -/

/-! ## The body's branch conditions -/

/-- The condition of the body's first `scf.if` (the reset), from the grid coordinates. -/
abbrev cond6_0 (i : grid6.Coords) : Prop := (Scalar.cmpi .ne (Scalar.extui (Scalar.cmpi .eq (BitVec.ofNat 32 (i 0).val) 0#32)) 0#32) = 1#1
/-- It holds at the first point only — decided over the grid. -/
theorem hcond6_0 : ∀ t : Fin cfg6.N, cond6_0 (grid6.coords t) ↔ t.val = 0 :=
  (by decide +kernel : ∀ t : Fin grid6.N, cond6_0 (grid6.coords t) ↔ t.val = 0)

/-- The condition of the body's second `scf.if` (the epilogue). -/
abbrev cond6_1 (i : grid6.Coords) : Prop := k6_cond2 i = 1#1
/-- It holds at the last point only — decided over the grid. -/
theorem hcond6_1 : ∀ t : Fin cfg6.N, cond6_1 (grid6.coords t) ↔ t.val = 9 :=
  (by decide +kernel : ∀ t : Fin grid6.N, cond6_1 (grid6.coords t) ↔ t.val = 9)

/-! ## The body's triples, one per control case -/

/-- The offsets of every access of the body: zero on both axes. -/
theorem hz6 : (![0, 0] : Fin 2 → Nat) = fun _ => 0 := funext fun a => by fin_cases a <;> rfl

/-- One store through the whole-shape rectangle, the last of the list, covers the buffer. -/
theorem cover6 {S : Shape} {e : EltTy} (hr : S.rank = 2) (off : Fin S.rank → Nat) (h : off = fun _ => 0) (inb : ∀ a, off a + S.size a ≤ S.size a)
    (w : S.Idx → Elt F e) (L : List (View.Piece (Elt F) S e)) (y : S.Idx) :
    ∃ pc ∈ ((⟨Rect.unit off S.size inb, w⟩ : View.Piece (Elt F) S e) :: L), y ∈ pc.1.set :=
  ⟨_, List.mem_cons_self, View.mem_set_unit_zero h inb y⟩

set_option maxHeartbeats 4000000 in
/-- THE MIDDLE POINTS (neither branch taken): on whole memrefs, the two input blocks at `x0`, `x1` and the accumulators at
    `a0`, `a1`, the body runs to the continuation holding the inputs as they were and each accumulator with this point's
    contribution added. The other three windows are not touched. -/
theorem sound_kernel6_B (c : Dev nD) (E : Set ℕ) (i : grid6.Coords)
    (arg1 : Memref sig .tc .vmem S10000x128 .f32) (harg1 : arg1.IsWhole) (arg2 : Memref sig .tc .vmem S10000x1 .i32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S256x64 .f32) (harg5 : arg5.IsWhole) (arg6 : Memref sig .tc .vmem S256x128 .f32) (harg6 : arg6.IsWhole)
    (arg7 : Memref sig .tc .vmem S256x1 .f32) (harg7 : arg7.IsWhole)
    (hc0 : ¬cond6_0 i) (hc1 : ¬cond6_1 i)
    (x0 : Vec F S10000x128 .f32) (x1 : Vec F S10000x1 .i32) (a0 : Vec F S256x128 .f32) (a1 : Vec F S256x1 .f32) (K : PUnit → sProp 𝕄) :
    iprop(owns (c : Thread nD τ) arg1 fullShare x0 ∗ owns (c : Thread nD τ) arg2 fullShare x1
        ∗ owns (c : Thread nD τ) arg6 fullShare a0 ∗ owns (c : Thread nD τ) arg7 fullShare a1
        ∗ (iprop(owns (c : Thread nD τ) arg1 fullShare x0 ∗ owns (c : Thread nD τ) arg2 fullShare x1
            ∗ owns (c : Thread nD τ) arg6 fullShare (k6_pay4 x0 x1 a0) ∗ owns (c : Thread nD τ) arg7 fullShare (k6_pay5 x1 a1)) -∗ K ⟨⟩))
      ⊢ wp frame (wpE (defs₀ (F := F)) Variants.none c none) E (cc6__pool_embed_kernel i arg1 harg1 arg2 harg2 arg3 harg3 arg4 harg4 arg5 harg5 arg6 harg6 arg7 harg7) K := by
  simp only [cc6__pool_embed_kernel_eq_skeleton]; unfold cc6__pool_embed_kernel_skel
  unfold owns
  iintro ⟨⟨%f0, %hf0, H0⟩, ⟨%f1, %hf1, H1⟩, ⟨%g0, %hg0, HS0⟩, ⟨%g1, %hg1, HS1⟩, Hk⟩
  obtain rfl := harg1.eq_unread hf0; obtain rfl := harg2.eq_unread hf1
  obtain rfl := harg6.eq_unread hg0; obtain rfl := harg7.eq_unread hg1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [HS0]
  · iexists _; isplitr
    swap; · iexact HS0
    ipureintro
    rw [View.read_writes_eq_canon _ _ _ (cover6 (S := S256x128) rfl _ hz6 _ _ _), View.canon_unit_zero (S := S256x128) hz6]
    simp only [View.readAt_eq_ld, harg1.read_unread, harg2.read_unread, harg6.read_unread, View.ld_unit_zero (S := S10000x128) hz6, View.ld_unit_zero (S := S10000x1) hz6, View.ld_unit_zero (S := S256x128) hz6]
  iexists _; isplitr
  swap; · iexact HS1
  ipureintro
  rw [View.read_writes_eq_canon _ _ _ (cover6 (S := S256x1) rfl _ hz6 _ _ _), View.canon_unit_zero (S := S256x1) hz6]
  simp only [View.readAt_eq_ld, harg2.read_unread, harg7.read_unread, View.ld_unit_zero (S := S10000x1) hz6, View.ld_unit_zero (S := S256x1) hz6]

set_option maxHeartbeats 4000000 in
theorem sound_kernel6_A (c : Dev nD) (E : Set ℕ) (i : grid6.Coords)
    (arg1 : Memref sig .tc .vmem S10000x128 .f32) (harg1 : arg1.IsWhole) (arg2 : Memref sig .tc .vmem S10000x1 .i32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S256x64 .f32) (harg5 : arg5.IsWhole) (arg6 : Memref sig .tc .vmem S256x128 .f32) (harg6 : arg6.IsWhole)
    (arg7 : Memref sig .tc .vmem S256x1 .f32) (harg7 : arg7.IsWhole)
    (hc0 : cond6_0 i) (hc1 : ¬cond6_1 i)
    (x0 : Vec F S10000x128 .f32) (x1 : Vec F S10000x1 .i32) (K : PUnit → sProp 𝕄) :
    iprop(owns (c : Thread nD τ) arg1 fullShare x0 ∗ owns (c : Thread nD τ) arg2 fullShare x1
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg6 fullShare (k6_pay4 x0 x1 (k6_pay1 (F := F))) ∗ owns (c : Thread nD τ) arg7 fullShare (k6_pay5 x1 (k6_pay2 (F := F)))) -∗ K ⟨⟩))
      ⊢ wp frame (wpE (defs₀ (F := F)) Variants.none c none) E (cc6__pool_embed_kernel i arg1 harg1 arg2 harg2 arg3 harg3 arg4 harg4 arg5 harg5 arg6 harg6 arg7 harg7) K := by
  simp only [cc6__pool_embed_kernel_eq_skeleton]; unfold cc6__pool_embed_kernel_skel
  unfold owns
  iintro ⟨⟨%f0, %hf0, H0⟩, ⟨%f1, %hf1, H1⟩, ⟨%d0, %g0, -, HS0⟩, ⟨%d1, %g1, -, HS1⟩, Hk⟩
  obtain rfl := harg1.eq_unread hf0; obtain rfl := harg2.eq_unread hf1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [HS0]
  · iexists _; isplitr
    swap; · iexact HS0
    ipureintro
    sl_unfold_words
    rw [View.read_writes_eq_canon _ _ _ (cover6 (S := S256x128) rfl _ hz6 _ _ _), View.canon_cons_unit_zero (S := S256x128) hz6, View.readCov_unit_zero (S := S256x128) _ hz6]
    simp only [View.readAt_eq_ld, harg1.read_unread, harg2.read_unread, View.ld_unit_zero (S := S10000x128) hz6, View.ld_unit_zero (S := S10000x1) hz6]
  iexists _; isplitr
  swap; · iexact HS1
  ipureintro
  sl_unfold_words
  rw [View.read_writes_eq_canon _ _ _ (cover6 (S := S256x1) rfl _ hz6 _ _ _), View.canon_cons_unit_zero (S := S256x1) hz6, View.readCov_unit_zero (S := S256x1) _ hz6]
  simp only [View.readAt_eq_ld, harg2.read_unread, View.ld_unit_zero (S := S10000x1) hz6]

set_option maxHeartbeats 4000000 in
theorem sound_kernel6_C (c : Dev nD) (E : Set ℕ) (i : grid6.Coords)
    (arg1 : Memref sig .tc .vmem S10000x128 .f32) (harg1 : arg1.IsWhole) (arg2 : Memref sig .tc .vmem S10000x1 .i32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S256x64 .f32) (harg5 : arg5.IsWhole) (arg6 : Memref sig .tc .vmem S256x128 .f32) (harg6 : arg6.IsWhole)
    (arg7 : Memref sig .tc .vmem S256x1 .f32) (harg7 : arg7.IsWhole)
    (hc0 : ¬cond6_0 i) (hc1 : cond6_1 i)
    (x0 : Vec F S10000x128 .f32) (x1 : Vec F S10000x1 .i32) (x2 : Vec F S128x64 .f32) (x3 : Vec F S1x64 .f32)
    (a0 : Vec F S256x128 .f32) (a1 : Vec F S256x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ owns (c : Thread nD τ) arg6 fullShare a0 ∗ owns (c : Thread nD τ) arg7 fullShare a1
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k6_pay6 (k6_pay4 x0 x1 a0) (k6_pay5 x1 a1) x2 x3)
            ∗ owns (c : Thread nD τ) arg6 fullShare (k6_pay4 x0 x1 a0) ∗ owns (c : Thread nD τ) arg7 fullShare (k6_pay5 x1 a1)) -∗ K ⟨⟩))
      ⊢ wp frame (wpE (defs₀ (F := F)) Variants.none c none) E (cc6__pool_embed_kernel i arg1 harg1 arg2 harg2 arg3 harg3 arg4 harg4 arg5 harg5 arg6 harg6 arg7 harg7) K := by
  simp only [cc6__pool_embed_kernel_eq_skeleton]; unfold cc6__pool_embed_kernel_skel
  unfold owns
  iintro ⟨⟨%f0, %hf0, H0⟩, ⟨%f1, %hf1, H1⟩, ⟨%f2, %hf2, H2⟩, ⟨%f3, %hf3, H3⟩, ⟨%d4, %f4, -, H4⟩, ⟨%g0, %hg0, HS0⟩, ⟨%g1, %hg1, HS1⟩, Hk⟩
  obtain rfl := harg1.eq_unread hf0; obtain rfl := harg2.eq_unread hf1
  obtain rfl := harg3.eq_unread hf2; obtain rfl := harg4.eq_unread hf3
  obtain rfl := harg6.eq_unread hg0; obtain rfl := harg7.eq_unread hg1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    sl_unfold_words
    rw [View.read_writes_eq_canon _ _ _ (cover6 (S := S256x64) rfl _ hz6 _ _ _), View.canon_unit_zero (S := S256x64) hz6,
      View.readCov_unit_zero (S := S256x128) _ hz6, View.readCov_unit_zero (S := S256x1) _ hz6]
    simp only [View.readAt_eq_ld, harg1.read_unread, harg2.read_unread, harg3.read_unread, harg4.read_unread, harg6.read_unread, harg7.read_unread,
      View.ld_unit_zero (S := S10000x128) hz6, View.ld_unit_zero (S := S10000x1) hz6, View.ld_unit_zero (S := S256x128) hz6, View.ld_unit_zero (S := S256x1) hz6,
      View.ld_unit_zero (S := S128x64) hz6, View.ld_unit_zero (S := S1x64) hz6]
  isplitl [HS0]
  · iexists _; isplitr
    swap; · iexact HS0
    ipureintro
    sl_unfold_words
    rw [View.read_writes_eq_canon _ _ _ (cover6 (S := S256x128) rfl _ hz6 _ _ _), View.canon_unit_zero (S := S256x128) hz6]
    simp only [View.readAt_eq_ld, harg1.read_unread, harg2.read_unread, harg6.read_unread, View.ld_unit_zero (S := S10000x128) hz6, View.ld_unit_zero (S := S10000x1) hz6, View.ld_unit_zero (S := S256x128) hz6]
  iexists _; isplitr
  swap; · iexact HS1
  ipureintro
  sl_unfold_words
  rw [View.read_writes_eq_canon _ _ _ (cover6 (S := S256x1) rfl _ hz6 _ _ _), View.canon_unit_zero (S := S256x1) hz6]
  simp only [View.readAt_eq_ld, harg2.read_unread, harg7.read_unread, View.ld_unit_zero (S := S10000x1) hz6, View.ld_unit_zero (S := S256x1) hz6]

/-! ## The proof data -/

section Region6
variable (V : (c : Dev nD) → (b : Ref sig .tc) → Buf (Elt F) ((c : Thread nD τ).loc b))

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The two accumulators as memrefs: whole scoped buffers of the kernel's own, passed beside the windows. -/
abbrev scM6_0 : Memref sig .tc .vmem S256x128 .f32 := Memref.whole cc6_scratch0
abbrev scM6_1 : Memref sig .tc .vmem S256x1 .f32 := Memref.whole cc6_scratch1

/-- THE ACCUMULATION. What the two accumulators (segment sums, segment counts) hold after the body at position `n`:
    at the first point the reset values with that point's contribution added, afterwards what the point before left
    with this point's contribution added. -/
def acc6 (c : Dev nD) : (n : ℕ) → n < cfg6.N → Vec F S256x128 .f32 × Vec F S256x1 .f32
  | 0, hn => (k6_pay4 (iblk6 V c 0 ⟨0, hn⟩) (iblk6 V c 1 ⟨0, hn⟩) (k6_pay1 (F := F)), k6_pay5 (iblk6 V c 1 ⟨0, hn⟩) (k6_pay2 (F := F)))
  | n + 1, hn => (k6_pay4 (iblk6 V c 0 ⟨n + 1, hn⟩) (iblk6 V c 1 ⟨n + 1, hn⟩) (acc6 c n (Nat.lt_of_succ_lt hn)).1, k6_pay5 (iblk6 V c 1 ⟨n + 1, hn⟩) (acc6 c n (Nat.lt_of_succ_lt hn)).2)

/-- What the output window's buffer holds after the body at point `t`: the sums divided by the counts (at least one),
    times the weights, plus the bias, from the accumulators as the point leaves them. Stored at the last point only;
    at the others a placeholder nothing consults (the window is idle there and not written back). -/
def out6_4 (c : Dev nD) (t : Fin cfg6.N) : Vec F S256x64 .f32 :=
  k6_pay6 (acc6 V c t.val t.isLt).1 (acc6 V c t.val t.isLt).2 (iblk6 V c 2 t) (iblk6 V c 3 t)

/-- The region invariant before position `n`: the two accumulators — before the first point at anything, afterwards at
    what the point before left (`acc6`) —, every other scoped buffer unopened, the generator register at some state. -/
def PhiS6 (c : Dev nD) : (n : ℕ) → n ≤ cfg6.N → sProp 𝕄
  | 0, _ => iprop(iprop((∃ d, owns (c : Thread nD τ) scM6_0 fullShare d) ∗ (∃ d, owns (c : Thread nD τ) scM6_1 fullShare d))
      ∗ Pipeline.scopedRestBut (Ix := Unit) (Name := ℕ) (U := UR sig nD τ) (Lvl := ℕ) spec6 c [cc6_scratch0, cc6_scratch1] ∗ (∃ r, prngReg c r))
  | n + 1, hn => iprop(iprop(owns (c : Thread nD τ) scM6_0 fullShare (acc6 V c n hn).1 ∗ owns (c : Thread nD τ) scM6_1 fullShare (acc6 V c n hn).2)
      ∗ Pipeline.scopedRestBut (Ix := Unit) (Name := ℕ) (U := UR sig nD τ) (Lvl := ℕ) spec6 c [cc6_scratch0, cc6_scratch1] ∗ (∃ r, prngReg c r))

/-- The proof data of pipeline 6 on core `c`: the arrays as the region finds them (`V`); after the body at point `t`
    each input's buffer at its block and the output's at `out6_4`; the invariant `PhiS6`; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 V c t
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]
theorem q_eq6 (c : Dev nD) (w : Fin cfg6.W) : (dat6 V c).q w = fullShare := by
  dsimp only [dat6]
theorem owed_eq6 (c : Dev nD) (n : Fin (cfg6.N + 1)) : (dat6 V c).owed n = 0 := by
  dsimp only [dat6]

/-- What the body leaves, window by window (the proof data's `match` reduced by `dsimp`). -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = out6_4 V c t := by dsimp only [dat6]

/-- Each input's current staging buffer holds its block at every point, fetched there or not: unfetched, the block
    index has not moved, the window is uncut and never idle. -/
theorem before6_0 (c : Dev nD) (t : Fin cfg6.N) (d) : (dat6 V c).before 0 t d = iblk6 V c 0 t :=
  ((dat6 V c).before_in_eq_fetched 0 rfl (fun _ => rfl) (fun _ _ _ => rfl) (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl) (fun t => by rw [after6_1]; unfold Dat.blockOf iblk6; rw [A_eq6]; try rfl) t d).trans
    (by unfold Dat.fetched Dat.blockOf iblk6; rw [A_eq6]; try rfl)
theorem before6_2 (c : Dev nD) (t : Fin cfg6.N) (d) : (dat6 V c).before 2 t d = iblk6 V c 2 t :=
  ((dat6 V c).before_in_eq_fetched 2 rfl (fun _ => rfl) (fun _ _ _ => rfl) (fun t => by rw [after6_2]; unfold Dat.blockOf iblk6; rw [A_eq6]; try rfl) t d).trans
    (by unfold Dat.fetched Dat.blockOf iblk6; rw [A_eq6]; try rfl)
theorem before6_3 (c : Dev nD) (t : Fin cfg6.N) (d) : (dat6 V c).before 3 t d = iblk6 V c 3 t :=
  ((dat6 V c).before_in_eq_fetched 3 rfl (fun _ => rfl) (fun _ _ _ => rfl) (fun t => by rw [after6_3]; unfold Dat.blockOf iblk6; rw [A_eq6]; try rfl) t d).trans
    (by unfold Dat.fetched Dat.blockOf iblk6; rw [A_eq6]; try rfl)

/-- The accumulators after the first point: the reset values with its contribution added. -/
theorem acc6_zero (c : Dev nD) (t : Fin cfg6.N) (h0 : t.val = 0) :
    acc6 V c t.val t.isLt = (k6_pay4 (iblk6 V c 0 t) (iblk6 V c 1 t) (k6_pay1 (F := F)), k6_pay5 (iblk6 V c 1 t) (k6_pay2 (F := F))) := by
  obtain ⟨n, hn⟩ := t
  cases n with
  | zero => rfl
  | succ n => exact absurd h0 (Nat.succ_ne_zero n)

/-- The accumulators after a later point: what the point before left with this point's contribution added. -/
theorem acc6_pos (c : Dev nD) (t : Fin cfg6.N) (h0 : t.val ≠ 0) :
    acc6 V c t.val t.isLt = (k6_pay4 (iblk6 V c 0 t) (iblk6 V c 1 t) (acc6 V c (t.val - 1) (Nat.lt_of_le_of_lt (Nat.sub_le _ _) t.isLt)).1,
      k6_pay5 (iblk6 V c 1 t) (acc6 V c (t.val - 1) (Nat.lt_of_le_of_lt (Nat.sub_le _ _) t.isLt)).2) := by
  obtain ⟨n, hn⟩ := t
  cases n with
  | zero => exact absurd rfl h0
  | succ n => rfl

theorem PhiS6_zero (c : Dev nD) (n : ℕ) (h : n ≤ cfg6.N) (hz : n = 0) :
    PhiS6 V c n h = iprop(iprop((∃ d, owns (c : Thread nD τ) scM6_0 fullShare d) ∗ (∃ d, owns (c : Thread nD τ) scM6_1 fullShare d))
      ∗ Pipeline.scopedRestBut (Ix := Unit) (Name := ℕ) (U := UR sig nD τ) (Lvl := ℕ) spec6 c [cc6_scratch0, cc6_scratch1] ∗ (∃ r, prngReg c r)) := by
  subst hz; rfl

/-- After point `n` (before point `n + 1`): the accumulators at that point's contents. -/
theorem PhiS6_succ (c : Dev nD) (n : ℕ) (hn : n < cfg6.N) :
    PhiS6 V c (n + 1) hn = iprop(iprop(owns (c : Thread nD τ) scM6_0 fullShare (acc6 V c n hn).1 ∗ owns (c : Thread nD τ) scM6_1 fullShare (acc6 V c n hn).2)
      ∗ Pipeline.scopedRestBut (Ix := Unit) (Name := ℕ) (U := UR sig nD τ) (Lvl := ℕ) spec6 c [cc6_scratch0, cc6_scratch1] ∗ (∃ r, prngReg c r)) := rfl

/-- Before a point that is not the first: the accumulators at what the point before left. -/
theorem PhiS6_pos (c : Dev nD) (n : ℕ) (h : n ≤ cfg6.N) (hz : n ≠ 0) :
    PhiS6 V c n h = iprop(iprop(owns (c : Thread nD τ) scM6_0 fullShare (acc6 V c (n - 1) (by omega)).1 ∗ owns (c : Thread nD τ) scM6_1 fullShare (acc6 V c (n - 1) (by omega)).2)
      ∗ Pipeline.scopedRestBut (Ix := Unit) (Name := ℕ) (U := UR sig nD τ) (Lvl := ℕ) spec6 c [cc6_scratch0, cc6_scratch1] ∗ (∃ r, prngReg c r)) := by
  cases n with
  | zero => exact absurd rfl hz
  | succ n => rfl

/-- The invariant at a point's start (the proof data at `t.castSucc`), restated at `t.val`. -/
theorem PhiS6_castSucc (c : Dev nD) (t : Fin cfg6.N) :
    (dat6 V c).Φ t.castSucc = PhiS6 V c t.val (Nat.le_of_lt t.isLt) := by
  dsimp only [dat6]; simp only [Fin.coe_castSucc]

/-! ## Where the windows are idle -/

/-- The inputs are never idle. -/
theorem liveAt6_0 : ∀ t : Fin cfg6.N, cfg6.idle 0 (grid6.coords t) = false := fun _ => rfl
theorem liveAt6_1 : ∀ t : Fin cfg6.N, cfg6.idle 1 (grid6.coords t) = false := fun _ => rfl
theorem liveAt6_2 : ∀ t : Fin cfg6.N, cfg6.idle 2 (grid6.coords t) = false := fun _ => rfl
theorem liveAt6_3 : ∀ t : Fin cfg6.N, cfg6.idle 3 (grid6.coords t) = false := fun _ => rfl
/-- Off the last point the output window is idle (the body stores nothing into it) and not written back; -/
theorem idleAt6_4 : ∀ t : Fin cfg6.N, ¬cond6_1 (grid6.coords t) → cfg6.idle 4 (grid6.coords t) = true := by decide +kernel
theorem noFlush6_4 : ∀ t : Fin cfg6.N, ¬cond6_1 (grid6.coords t) → (cfg6.win 4).flush t = false := by decide +kernel
/-- at the last point it is live. -/
theorem liveAt6_4 : ∀ t : Fin cfg6.N, cond6_1 (grid6.coords t) → cfg6.idle 4 (grid6.coords t) = false := by decide +kernel

theorem leavesExact6_0 (c : Dev nD) (t : Fin cfg6.N) : (dat6 V c).leavesExact 0 t = owns (c : Thread nD τ) (st6_0 t) fullShare (iblk6 V c 0 t) := by
  unfold Dat.leavesExact; rw [liveAt6_0 t, after6_0]
theorem leavesExact6_1 (c : Dev nD) (t : Fin cfg6.N) : (dat6 V c).leavesExact 1 t = owns (c : Thread nD τ) (st6_1 t) fullShare (iblk6 V c 1 t) := by
  unfold Dat.leavesExact; rw [liveAt6_1 t, after6_1]
theorem leavesExact6_2 (c : Dev nD) (t : Fin cfg6.N) : (dat6 V c).leavesExact 2 t = owns (c : Thread nD τ) (st6_2 t) fullShare (iblk6 V c 2 t) := by
  unfold Dat.leavesExact; rw [liveAt6_2 t, after6_2]
theorem leavesExact6_3 (c : Dev nD) (t : Fin cfg6.N) : (dat6 V c).leavesExact 3 t = owns (c : Thread nD τ) (st6_3 t) fullShare (iblk6 V c 3 t) := by
  unfold Dat.leavesExact; rw [liveAt6_3 t, after6_3]

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t)

set_option maxHeartbeats 4000000 in
/-- The body at any point. The inputs' memrefs hold their blocks; the point's position says which control case it is in; the
    invariant hands the body the two accumulators — at anything before the first point, at what the point before left
    afterwards — and takes them back at this point's contents; the output window, off the last point, goes back as it was
    found, and at the last point holds the epilogue's store; the other scoped buffers, the generator register and what
    the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).owesAt () t.succ = (dat6 V c).owesAt () t.castSucc from rfl]
  rw [show (dat6 V c).Φ t.succ = PhiS6 V c (t.val + 1) t.isLt from rfl, PhiS6_succ]
  rw [leavesExact6_0, leavesExact6_1, leavesExact6_2, leavesExact6_3]
  have hN : t.val < 10 := lt_of_lt_of_eq t.isLt (show cfg6.N = 10 from N_6)
  by_cases h0 : t.val = 0
  · have hc0 : cond6_0 (grid6.coords t) := (hcond6_0 t).mpr h0
    have hc1 : ¬cond6_1 (grid6.coords t) := fun h => by have := (hcond6_1 t).mp h; omega
    rw [Dat.leavesExact_idle (dat6 V c) 4 t (idleAt6_4 t hc1) (noFlush6_4 t hc1)]
    rw [acc6_zero V c t h0]; (try dsimp only)
    rw [PhiS6_castSucc V c t, PhiS6_zero V c _ _ h0]
    iintro ⟨⟨⟨HS0, HS1⟩, Hrest, Hg⟩, Ho, ⟨%d0, H0⟩, ⟨%d1, H1⟩, ⟨%d2, H2⟩, ⟨%d3, H3⟩, H4⟩
    iapply (sound_kernel6_A c Set.univ (grid6.coords t) _ _ _ _ _ _ _ _ _ _ _ _ _ _ hc0 hc1 (iblk6 V c 0 t) (iblk6 V c 1 t) _)
    isplitl [H0]; · iexact H0
    isplitl [H1]; · iexact H1
    isplitl [HS0]; · iexact HS0
    isplitl [HS1]; · iexact HS1
    iintro ⟨H0, H1, HS0, HS1⟩
    isplitl [HS0 HS1 Hrest Hg]
    · isplitl [HS0 HS1]
      · isplitl [HS0]; · iexact HS0
        iexact HS1
      isplitl [Hrest]; · iexact Hrest
      iexact Hg
    isplitl [Ho]; · iexact Ho
    isplitl [H0]; · iexact H0
    isplitl [H1]; · iexact H1
    isplitl [H2]; · iexact H2
    isplitl [H3]; · iexact H3
    iexact H4
  · have hc0 : ¬cond6_0 (grid6.coords t) := fun h => h0 ((hcond6_0 t).mp h)
    rw [PhiS6_castSucc V c t, PhiS6_pos V c _ _ h0]
    rw [acc6_pos V c t h0]; (try dsimp only)
    by_cases h1 : t.val = 9
    · have hc1 : cond6_1 (grid6.coords t) := (hcond6_1 t).mpr h1
      rw [show (dat6 V c).leavesExact 4 t = owns (c : Thread nD τ) (st6_4 t) fullShare ((dat6 V c).after 4 t) from by
        unfold Dat.leavesExact; rw [liveAt6_4 t hc1], after6_4]
      unfold out6_4
      rw [acc6_pos V c t h0]; (try dsimp only)
      iintro ⟨⟨⟨HS0, HS1⟩, Hrest, Hg⟩, Ho, ⟨%d0, H0⟩, ⟨%d1, H1⟩, ⟨%d2, H2⟩, ⟨%d3, H3⟩, ⟨%d4, H4⟩⟩
      iapply (sound_kernel6_C c Set.univ (grid6.coords t) _ _ _ _ _ _ _ _ _ _ _ _ _ _ hc0 hc1 (iblk6 V c 0 t) (iblk6 V c 1 t) (iblk6 V c 2 t) (iblk6 V c 3 t) _ _ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 Hrest Hg]
      · isplitl [HS0 HS1]
        · isplitl [HS0]; · iexact HS0
          iexact HS1
        isplitl [Hrest]; · iexact Hrest
        iexact Hg
      isplitl [Ho]; · iexact Ho
      isplitl [H0]; · iexact H0
      isplitl [H1]; · iexact H1
      isplitl [H2]; · iexact H2
      isplitl [H3]; · iexact H3
      iexact H4
    · have hc1 : ¬cond6_1 (grid6.coords t) := fun h => h1 ((hcond6_1 t).mp h)
      rw [Dat.leavesExact_idle (dat6 V c) 4 t (idleAt6_4 t hc1) (noFlush6_4 t hc1)]
      iintro ⟨⟨⟨HS0, HS1⟩, Hrest, Hg⟩, Ho, ⟨%d0, H0⟩, ⟨%d1, H1⟩, ⟨%d2, H2⟩, ⟨%d3, H3⟩, H4⟩
      iapply (sound_kernel6_B c Set.univ (grid6.coords t) _ _ _ _ _ _ _ _ _ _ _ _ _ _ hc0 hc1 (iblk6 V c 0 t) (iblk6 V c 1 t) _ _ _)
      isplitl [H0]; · iexact H0
      isplitl [H1]; · iexact H1
      isplitl [HS0]; · iexact HS0
      isplitl [HS1]; · iexact HS1
      iintro ⟨H0, H1, HS0, HS1⟩
      isplitl [HS0 HS1 Hrest Hg]
      · isplitl [HS0 HS1]
        · isplitl [HS0]; · iexact HS0
          iexact HS1
        isplitl [Hrest]; · iexact Hrest
        iexact Hg
      isplitl [Ho]; · iexact Ho
      isplitl [H0]; · iexact H0
      isplitl [H1]; · iexact H1
      isplitl [H2]; · iexact H2
      isplitl [H3]; · iexact H3
      iexact H4

/-- The library's body obligation, at every point. -/
theorem body_obligation6 (c : Dev nD) : BodyObligation (dat6 (F := F) V c) (defs₀ (F := F)) Variants.none () Set.univ := fun t => by
  rw [bigSep_W6, bigSep_W6]
  exact sound_body6 V c t

/-! ## Into and out of the invariant -/

/-- What the launch hands the region — the generator register and the scoped rest — is the invariant before the first
    point: the rest split at the two accumulators, each at whatever it holds. -/
theorem Phi_in6 (c : Dev nD) : (iprop((∃ r, prngReg c r) ∗ Pipeline.scopedRest (Ix := Unit) (Name := ℕ) (U := UR sig nD τ) (Lvl := ℕ) spec6 c) : sProp 𝕄) ⊢ (dat6 V c).Φ 0 := by
  rw [show (dat6 V c).Φ 0 = PhiS6 V c 0 (Nat.zero_le _) from rfl, PhiS6_zero V c 0 _ rfl, scopedRest6_split]
  simp only [scM6_0, scM6_1, owns_whole]
  iintro ⟨Hg, ⟨HS0, HS1⟩, Hrest⟩
  isplitl [HS0 HS1]
  · isplitl [HS0]; · iexact HS0
    iexact HS1
  isplitl [Hrest]; · iexact Hrest
  iexact Hg

/-- After the last point the invariant gives both back: the accumulators' named contents are forgotten and the scoped
    rest closed over them again. -/
theorem Phi_out6 (c : Dev nD) : (dat6 V c).Φ (Fin.last cfg6.N) ⊢ (iprop((∃ r, prngReg c r) ∗ Pipeline.scopedRest (Ix := Unit) (Name := ℕ) (U := UR sig nD τ) (Lvl := ℕ) spec6 c) : sProp 𝕄) := by
  rw [show (dat6 V c).Φ (Fin.last cfg6.N) = PhiS6 V c (Fin.last cfg6.N).val (Nat.le_of_lt_succ (Fin.last cfg6.N).isLt) from rfl,
    PhiS6_pos V c _ _ (by rw [Fin.val_last]; have : cfg6.N = 10 := N_6; omega), scopedRest6_split]
  simp only [scM6_0, scM6_1, owns_whole]
  iintro ⟨⟨HS0, HS1⟩, Hrest, Hg⟩
  isplitl [Hg]; · iexact Hg
  isplitl [HS0 HS1]
  · isplitl [HS0]
    · iexists _; iexact HS0
    iexists _; iexact HS1
  iexact Hrest

end Region6

end Cert.Kernel.Hand

end
-- ==== Proof.K.RegLS7.RunA.lean ====
import proofs.«413302_j72232759984513_1_alg».proof.Proof.Gen.Kernel.Launch
import proofs.«413302_j72232759984513_1_alg».proof.Proof.Gen.Kernel.Skeleton
import proofs.«413302_j72232759984513_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 7: the body's run at the first grid point

The body's one conditional tests whether the grid coordinate is zero; there it resets the two running sums before adding
to them. -/

/-- The condition of the body's conditional, from the grid coordinates. -/
abbrev cond7_0 (i : grid7.Coords) : Prop := (Scalar.cmpi .ne (Scalar.extui (Scalar.cmpi .eq (BitVec.ofNat 32 (i 0).val) 0#32)) 0#32) = 1#1
/-- It holds at the first point only: decided over the grid. -/
theorem hcond7_0 : ∀ t : Fin cfg7.N, cond7_0 (grid7.coords t) ↔ t.val % 10 = 0 :=
  (by decide +kernel : ∀ t : Fin grid7.N, cond7_0 (grid7.coords t) ↔ t.val % 10 = 0)

/-- One staging buffer of each output window, through which its contents are stated (the choice does not matter). -/
abbrev VO7_3 : View sig .tc .vmem S10000x128 .f32 := (Memref.whole cc7_stg3_0 : Memref sig .tc .vmem S10000x128 .f32).view
abbrev VO7_4 : View sig .tc .vmem S1x128 .f32 := (Memref.whole cc7_stg4_0 : Memref sig .tc .vmem S1x128 .f32).view
abbrev VO7_5 : View sig .tc .vmem S1x128 .f32 := (Memref.whole cc7_stg5_0 : Memref sig .tc .vmem S1x128 .f32).view

set_option maxHeartbeats 4000000 in
/-- The body where the condition holds. On whole staging memrefs, the three inputs' at contents `x0 x1 x2` and the three
    outputs' at anything, it runs to the continuation holding the inputs' as they were and each output's buffer with
    the pieces its stores wrote (last first): the pieces are the witness the run finds. -/
noncomputable def kernelRun7_A (c : Dev nD) (i : grid7.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond7_0 i)
    (x0 : Vec F S10000x64 .f32) (x1 : Vec F S64x128 .f32) (x2 : Vec F S1x128 .f32) :
    Σ' (L3 : List (View.Piece (Elt F) S10000x128 .f32)), Σ' (L4 : List (View.Piece (Elt F) S1x128 .f32)), { L5 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc7__linear_stats_kernel i arg1 harg1 arg2 harg2 arg3 harg3 arg4 harg4 arg5 harg5 arg6 harg6) K } := by
  refine ⟨?_, ?_, ?_, fun E K => ?run⟩
  case run =>
    simp only [cc7__linear_stats_kernel_eq_skeleton]; unfold cc7__linear_stats_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

end Cert.Kernel.Hand

end
-- ==== Proof.K.RegLS7.RunB.lean ====
import proofs.«413302_j72232759984513_1_alg».proof.Proof.K.RegLS7.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 7: the body's run at a later grid point

The condition fails: the two running sums are read as the point before left them and added to. -/

set_option maxHeartbeats 4000000 in
/-- The body where the condition fails. On whole staging memrefs, the three inputs' at contents `x0 x1 x2`, the two
    running sums' at `xo4 xo5` and the first output's at anything, it runs to the continuation holding the inputs' as they
    were and each output's buffer with the pieces its stores wrote (last first): the pieces are the witness the run finds. -/
noncomputable def kernelRun7_B (c : Dev nD) (i : grid7.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond7_0 i)
    (x0 : Vec F S10000x64 .f32) (x1 : Vec F S64x128 .f32) (x2 : Vec F S1x128 .f32) (xo4 : Vec F S1x128 .f32) (xo5 : Vec F S1x128 .f32) :
    Σ' (L3 : List (View.Piece (Elt F) S10000x128 .f32)), Σ' (L4 : List (View.Piece (Elt F) S1x128 .f32)), { L5 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xo4 ∗ owns (c : Thread nD τ) arg6 fullShare xo5
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc7__linear_stats_kernel i arg1 harg1 arg2 harg2 arg3 harg3 arg4 harg4 arg5 harg5 arg6 harg6) K } := by
  refine ⟨?_, ?_, ?_, fun E K => ?run⟩
  case run =>
    simp only [cc7__linear_stats_kernel_eq_skeleton]; unfold cc7__linear_stats_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
    obtain rfl := harg1.eq_unread hf0; obtain rfl := harg2.eq_unread hf1; obtain rfl := harg3.eq_unread hf2
    obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

end Cert.Kernel.Hand

end
-- ==== Proof.K.RegLS7.lean ====
import proofs.«413302_j72232759984513_1_alg».proof.Proof.K.RegLS7.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 7: the proof data and the body obligation, at the contents the region is entered with

The kernel stores `x·W + b` for its tile of rows in output window 3 and keeps two running sums, output windows 4 and 5:
reset at the first grid point, added to at every point, written back after the last. Everything is stated at a
parameter `V`, the TensorCore's buffer contents when the region is entered. -/

section Region

variable (V : (c : Dev nD) → (b : Ref sig .tc) → Buf (Elt F) ((c : Thread nD τ).loc b))

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! An input window's current staging buffer holds its block at every point, fetched there or not (unfetched, the block
    index has not moved), for any proof data whose array is the entry contents and whose body leaves the block in place. -/

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Each window's current staging memref at point `t`, and its wholeness. -/
abbrev ms7_0 (t : Fin cfg7.N) : Memref sig .tc .vmem S10000x64 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S64x128 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x128 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S10000x128 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S1x128 .f32 := win7_4.stage (cfg7.slots t 4)
abbrev hs7_4 (t : Fin cfg7.N) : (ms7_4 t).IsWhole := hstage7_4 ((cfg7.slots t 4).cast nbuf7_4)
abbrev ms7_5 (t : Fin cfg7.N) : Memref sig .tc .vmem S1x128 .f32 := win7_5.stage (cfg7.slots t 5)
abbrev hs7_5 (t : Fin cfg7.N) : (ms7_5 t).IsWhole := hstage7_5 ((cfg7.slots t 5).cast nbuf7_5)

/-! ## What each case of the body leaves in the outputs' buffers -/

/-- The pieces the body where the condition holds writes to output 3 tile its block, so they cover it. -/
theorem cover7_A_3 (c : Dev nD) (i : grid7.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond7_0 i)
    (x0 : Vec F S10000x64 .f32) (x1 : Vec F S64x128 .f32) (x2 : Vec F S1x128 .f32) (y : S10000x128.Idx) :
    ∃ pc ∈ (kernelRun7_A c i arg1 harg1 arg2 harg2 arg3 harg3 arg4 harg4 arg5 harg5 arg6 harg6 hc0 x0 x1 x2).1, y ∈ pc.1.set :=
  View.cover_of_tiledL (kernelRun7_A c i arg1 harg1 arg2 harg2 arg3 harg3 arg4 harg4 arg5 harg5 arg6 harg6 hc0 x0 x1 x2).1 S10000x128.size (by sl_kernel_rfl) y

/-- What that run leaves in output 3's staging buffer: its pieces read back over arbitrary contents. -/
def out7_A_3 (c : Dev nD) (i : grid7.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond7_0 i)
    (x0 : Vec F S10000x64 .f32) (x1 : Vec F S64x128 .f32) (x2 : Vec F S1x128 .f32) : Vec F S10000x128 .f32 :=
  VO7_3.read (Elt F) (VO7_3.writes (Elt F) VO7_3.junk (kernelRun7_A c i arg1 harg1 arg2 harg2 arg3 harg3 arg4 harg4 arg5 harg5 arg6 harg6 hc0 x0 x1 x2).1)

/-- The pieces the body where the condition holds writes to output 4 tile its block, so they cover it. -/
theorem cover7_A_4 (c : Dev nD) (i : grid7.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond7_0 i)
    (x0 : Vec F S10000x64 .f32) (x1 : Vec F S64x128 .f32) (x2 : Vec F S1x128 .f32) (y : S1x128.Idx) :
    ∃ pc ∈ (kernelRun7_A c i arg1 harg1 arg2 harg2 arg3 harg3 arg4 harg4 arg5 harg5 arg6 harg6 hc0 x0 x1 x2).2.1, y ∈ pc.1.set :=
  View.cover_of_tiledL (kernelRun7_A c i arg1 harg1 arg2 harg2 arg3 harg3 arg4 harg4 arg5 harg5 arg6 harg6 hc0 x0 x1 x2).2.1 S1x128.size (by sl_kernel_rfl) y

/-- What that run leaves in output 4's staging buffer: its pieces read back over arbitrary contents. -/
def out7_A_4 (c : Dev nD) (i : grid7.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond7_0 i)
    (x0 : Vec F S10000x64 .f32) (x1 : Vec F S64x128 .f32) (x2 : Vec F S1x128 .f32) : Vec F S1x128 .f32 :=
  VO7_4.read (Elt F) (VO7_4.writes (Elt F) VO7_4.junk (kernelRun7_A c i arg1 harg1 arg2 harg2 arg3 harg3 arg4 harg4 arg5 harg5 arg6 harg6 hc0 x0 x1 x2).2.1)

/-- The pieces the body where the condition holds writes to output 5 tile its block, so they cover it. -/
theorem cover7_A_5 (c : Dev nD) (i : grid7.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond7_0 i)
    (x0 : Vec F S10000x64 .f32) (x1 : Vec F S64x128 .f32) (x2 : Vec F S1x128 .f32) (y : S1x128.Idx) :
    ∃ pc ∈ (kernelRun7_A c i arg1 harg1 arg2 harg2 arg3 harg3 arg4 harg4 arg5 harg5 arg6 harg6 hc0 x0 x1 x2).2.2.1, y ∈ pc.1.set :=
  View.cover_of_tiledL (kernelRun7_A c i arg1 harg1 arg2 harg2 arg3 harg3 arg4 harg4 arg5 harg5 arg6 harg6 hc0 x0 x1 x2).2.2.1 S1x128.size (by sl_kernel_rfl) y

/-- What that run leaves in output 5's staging buffer: its pieces read back over arbitrary contents. -/
def out7_A_5 (c : Dev nD) (i : grid7.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond7_0 i)
    (x0 : Vec F S10000x64 .f32) (x1 : Vec F S64x128 .f32) (x2 : Vec F S1x128 .f32) : Vec F S1x128 .f32 :=
  VO7_5.read (Elt F) (VO7_5.writes (Elt F) VO7_5.junk (kernelRun7_A c i arg1 harg1 arg2 harg2 arg3 harg3 arg4 harg4 arg5 harg5 arg6 harg6 hc0 x0 x1 x2).2.2.1)

/-- The pieces the body where the condition fails writes to output 3 tile its block, so they cover it. -/
theorem cover7_B_3 (c : Dev nD) (i : grid7.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond7_0 i)
    (x0 : Vec F S10000x64 .f32) (x1 : Vec F S64x128 .f32) (x2 : Vec F S1x128 .f32) (xo4 : Vec F S1x128 .f32) (xo5 : Vec F S1x128 .f32) (y : S10000x128.Idx) :
    ∃ pc ∈ (kernelRun7_B c i arg1 harg1 arg2 harg2 arg3 harg3 arg4 harg4 arg5 harg5 arg6 harg6 hc0 x0 x1 x2 xo4 xo5).1, y ∈ pc.1.set :=
  View.cover_of_tiledL (kernelRun7_B c i arg1 harg1 arg2 harg2 arg3 harg3 arg4 harg4 arg5 harg5 arg6 harg6 hc0 x0 x1 x2 xo4 xo5).1 S10000x128.size (by sl_kernel_rfl) y

/-- What that run leaves in output 3's staging buffer: its pieces read back over arbitrary contents. -/
def out7_B_3 (c : Dev nD) (i : grid7.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond7_0 i)
    (x0 : Vec F S10000x64 .f32) (x1 : Vec F S64x128 .f32) (x2 : Vec F S1x128 .f32) (xo4 : Vec F S1x128 .f32) (xo5 : Vec F S1x128 .f32) : Vec F S10000x128 .f32 :=
  VO7_3.read (Elt F) (VO7_3.writes (Elt F) VO7_3.junk (kernelRun7_B c i arg1 harg1 arg2 harg2 arg3 harg3 arg4 harg4 arg5 harg5 arg6 harg6 hc0 x0 x1 x2 xo4 xo5).1)

/-- The pieces the body where the condition fails writes to output 4 tile its block, so they cover it. -/
theorem cover7_B_4 (c : Dev nD) (i : grid7.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond7_0 i)
    (x0 : Vec F S10000x64 .f32) (x1 : Vec F S64x128 .f32) (x2 : Vec F S1x128 .f32) (xo4 : Vec F S1x128 .f32) (xo5 : Vec F S1x128 .f32) (y : S1x128.Idx) :
    ∃ pc ∈ (kernelRun7_B c i arg1 harg1 arg2 harg2 arg3 harg3 arg4 harg4 arg5 harg5 arg6 harg6 hc0 x0 x1 x2 xo4 xo5).2.1, y ∈ pc.1.set :=
  View.cover_of_tiledL (kernelRun7_B c i arg1 harg1 arg2 harg2 arg3 harg3 arg4 harg4 arg5 harg5 arg6 harg6 hc0 x0 x1 x2 xo4 xo5).2.1 S1x128.size (by sl_kernel_rfl) y

/-- What that run leaves in output 4's staging buffer: its pieces read back over arbitrary contents. -/
def out7_B_4 (c : Dev nD) (i : grid7.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond7_0 i)
    (x0 : Vec F S10000x64 .f32) (x1 : Vec F S64x128 .f32) (x2 : Vec F S1x128 .f32) (xo4 : Vec F S1x128 .f32) (xo5 : Vec F S1x128 .f32) : Vec F S1x128 .f32 :=
  VO7_4.read (Elt F) (VO7_4.writes (Elt F) VO7_4.junk (kernelRun7_B c i arg1 harg1 arg2 harg2 arg3 harg3 arg4 harg4 arg5 harg5 arg6 harg6 hc0 x0 x1 x2 xo4 xo5).2.1)

/-- The pieces the body where the condition fails writes to output 5 tile its block, so they cover it. -/
theorem cover7_B_5 (c : Dev nD) (i : grid7.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond7_0 i)
    (x0 : Vec F S10000x64 .f32) (x1 : Vec F S64x128 .f32) (x2 : Vec F S1x128 .f32) (xo4 : Vec F S1x128 .f32) (xo5 : Vec F S1x128 .f32) (y : S1x128.Idx) :
    ∃ pc ∈ (kernelRun7_B c i arg1 harg1 arg2 harg2 arg3 harg3 arg4 harg4 arg5 harg5 arg6 harg6 hc0 x0 x1 x2 xo4 xo5).2.2.1, y ∈ pc.1.set :=
  View.cover_of_tiledL (kernelRun7_B c i arg1 harg1 arg2 harg2 arg3 harg3 arg4 harg4 arg5 harg5 arg6 harg6 hc0 x0 x1 x2 xo4 xo5).2.2.1 S1x128.size (by sl_kernel_rfl) y

/-- What that run leaves in output 5's staging buffer: its pieces read back over arbitrary contents. -/
def out7_B_5 (c : Dev nD) (i : grid7.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond7_0 i)
    (x0 : Vec F S10000x64 .f32) (x1 : Vec F S64x128 .f32) (x2 : Vec F S1x128 .f32) (xo4 : Vec F S1x128 .f32) (xo5 : Vec F S1x128 .f32) : Vec F S1x128 .f32 :=
  VO7_5.read (Elt F) (VO7_5.writes (Elt F) VO7_5.junk (kernelRun7_B c i arg1 harg1 arg2 harg2 arg3 harg3 arg4 harg4 arg5 harg5 arg6 harg6 hc0 x0 x1 x2 xo4 xo5).2.2.1)

/-! ## What the outputs hold after each point -/

/-- What the three outputs' staging buffers hold after the body at position `n`, by recursion on the point: at the first
    point the resetting case, run at the point's input blocks; at a later point the adding case, the running sums read
    as the point before left them (their buffers are not written back between). -/
def outsAt7 (c : Dev nD) : (n : ℕ) → n < cfg7.N → Vec F S10000x128 .f32 × Vec F S1x128 .f32 × Vec F S1x128 .f32
  | 0, hn => (out7_A_3 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) ((hcond7_0 ⟨0, hn⟩).mpr (Nat.zero_mod _)) (iblk7 V c 0 ⟨0, hn⟩) (iblk7 V c 1 ⟨0, hn⟩) (iblk7 V c 2 ⟨0, hn⟩),
       out7_A_4 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) ((hcond7_0 ⟨0, hn⟩).mpr (Nat.zero_mod _)) (iblk7 V c 0 ⟨0, hn⟩) (iblk7 V c 1 ⟨0, hn⟩) (iblk7 V c 2 ⟨0, hn⟩),
       out7_A_5 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) ((hcond7_0 ⟨0, hn⟩).mpr (Nat.zero_mod _)) (iblk7 V c 0 ⟨0, hn⟩) (iblk7 V c 1 ⟨0, hn⟩) (iblk7 V c 2 ⟨0, hn⟩))
  | n + 1, hn =>
    if h0 : (n + 1) % 10 = 0 then
      (out7_A_3 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) ((hcond7_0 ⟨n + 1, hn⟩).mpr h0) (iblk7 V c 0 ⟨n + 1, hn⟩) (iblk7 V c 1 ⟨n + 1, hn⟩) (iblk7 V c 2 ⟨n + 1, hn⟩),
       out7_A_4 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) ((hcond7_0 ⟨n + 1, hn⟩).mpr h0) (iblk7 V c 0 ⟨n + 1, hn⟩) (iblk7 V c 1 ⟨n + 1, hn⟩) (iblk7 V c 2 ⟨n + 1, hn⟩),
       out7_A_5 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) ((hcond7_0 ⟨n + 1, hn⟩).mpr h0) (iblk7 V c 0 ⟨n + 1, hn⟩) (iblk7 V c 1 ⟨n + 1, hn⟩) (iblk7 V c 2 ⟨n + 1, hn⟩))
    else
      (out7_B_3 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (fun h => h0 ((hcond7_0 ⟨n + 1, hn⟩).mp h)) (iblk7 V c 0 ⟨n + 1, hn⟩) (iblk7 V c 1 ⟨n + 1, hn⟩) (iblk7 V c 2 ⟨n + 1, hn⟩) (outsAt7 c n (Nat.lt_of_succ_lt hn)).2.1 (outsAt7 c n (Nat.lt_of_succ_lt hn)).2.2,
       out7_B_4 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (fun h => h0 ((hcond7_0 ⟨n + 1, hn⟩).mp h)) (iblk7 V c 0 ⟨n + 1, hn⟩) (iblk7 V c 1 ⟨n + 1, hn⟩) (iblk7 V c 2 ⟨n + 1, hn⟩) (outsAt7 c n (Nat.lt_of_succ_lt hn)).2.1 (outsAt7 c n (Nat.lt_of_succ_lt hn)).2.2,
       out7_B_5 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (fun h => h0 ((hcond7_0 ⟨n + 1, hn⟩).mp h)) (iblk7 V c 0 ⟨n + 1, hn⟩) (iblk7 V c 1 ⟨n + 1, hn⟩) (iblk7 V c 2 ⟨n + 1, hn⟩) (outsAt7 c n (Nat.lt_of_succ_lt hn)).2.1 (outsAt7 c n (Nat.lt_of_succ_lt hn)).2.2)

/-- `outsAt7` at a point where the condition holds. -/
theorem outsAt7_A (c : Dev nD) (t : Fin cfg7.N) (h0 : t.val % 10 = 0) :
    outsAt7 V c t.val t.isLt = (out7_A_3 c (grid7.coords t) (ms7_0 t) (hs7_0 t) (ms7_1 t) (hs7_1 t) (ms7_2 t) (hs7_2 t) (ms7_3 t) (hs7_3 t) (ms7_4 t) (hs7_4 t) (ms7_5 t) (hs7_5 t) ((hcond7_0 t).mpr h0) (iblk7 V c 0 t) (iblk7 V c 1 t) (iblk7 V c 2 t),
       out7_A_4 c (grid7.coords t) (ms7_0 t) (hs7_0 t) (ms7_1 t) (hs7_1 t) (ms7_2 t) (hs7_2 t) (ms7_3 t) (hs7_3 t) (ms7_4 t) (hs7_4 t) (ms7_5 t) (hs7_5 t) ((hcond7_0 t).mpr h0) (iblk7 V c 0 t) (iblk7 V c 1 t) (iblk7 V c 2 t),
       out7_A_5 c (grid7.coords t) (ms7_0 t) (hs7_0 t) (ms7_1 t) (hs7_1 t) (ms7_2 t) (hs7_2 t) (ms7_3 t) (hs7_3 t) (ms7_4 t) (hs7_4 t) (ms7_5 t) (hs7_5 t) ((hcond7_0 t).mpr h0) (iblk7 V c 0 t) (iblk7 V c 1 t) (iblk7 V c 2 t)) := by
  obtain ⟨n, hn⟩ := t
  cases n with
  | zero => exact rfl
  | succ n => exact (dif_pos h0).trans rfl

/-- `outsAt7` at a point where it fails: over what the point before left. -/
theorem outsAt7_B (c : Dev nD) (t : Fin cfg7.N) (h0 : ¬t.val % 10 = 0) :
    outsAt7 V c t.val t.isLt = (out7_B_3 c (grid7.coords t) (ms7_0 t) (hs7_0 t) (ms7_1 t) (hs7_1 t) (ms7_2 t) (hs7_2 t) (ms7_3 t) (hs7_3 t) (ms7_4 t) (hs7_4 t) (ms7_5 t) (hs7_5 t) (fun h => h0 ((hcond7_0 t).mp h)) (iblk7 V c 0 t) (iblk7 V c 1 t) (iblk7 V c 2 t) (outsAt7 V c (t.val - 1) (Nat.lt_of_le_of_lt (Nat.sub_le _ _) t.isLt)).2.1 (outsAt7 V c (t.val - 1) (Nat.lt_of_le_of_lt (Nat.sub_le _ _) t.isLt)).2.2,
       out7_B_4 c (grid7.coords t) (ms7_0 t) (hs7_0 t) (ms7_1 t) (hs7_1 t) (ms7_2 t) (hs7_2 t) (ms7_3 t) (hs7_3 t) (ms7_4 t) (hs7_4 t) (ms7_5 t) (hs7_5 t) (fun h => h0 ((hcond7_0 t).mp h)) (iblk7 V c 0 t) (iblk7 V c 1 t) (iblk7 V c 2 t) (outsAt7 V c (t.val - 1) (Nat.lt_of_le_of_lt (Nat.sub_le _ _) t.isLt)).2.1 (outsAt7 V c (t.val - 1) (Nat.lt_of_le_of_lt (Nat.sub_le _ _) t.isLt)).2.2,
       out7_B_5 c (grid7.coords t) (ms7_0 t) (hs7_0 t) (ms7_1 t) (hs7_1 t) (ms7_2 t) (hs7_2 t) (ms7_3 t) (hs7_3 t) (ms7_4 t) (hs7_4 t) (ms7_5 t) (hs7_5 t) (fun h => h0 ((hcond7_0 t).mp h)) (iblk7 V c 0 t) (iblk7 V c 1 t) (iblk7 V c 2 t) (outsAt7 V c (t.val - 1) (Nat.lt_of_le_of_lt (Nat.sub_le _ _) t.isLt)).2.1 (outsAt7 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t` each
    input's buffer at its block and the outputs' at `outsAt7`; the invariant the scoped rest and the generator register,
    untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => (outsAt7 V c t.val t.isLt).1
    | ⟨4, _⟩ => (outsAt7 V c t.val t.isLt).2.1
    | ⟨5, _⟩ => (outsAt7 V c t.val t.isLt).2.2
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]
/-- Its shares are full. -/
theorem q_eq7 (c : Dev nD) (w : Fin cfg7.W) : (dat7 V c).q w = fullShare := by
  dsimp only [dat7]
/-- It owes nothing. -/
theorem owed_eq7 (c : Dev nD) (n : Fin (cfg7.N + 1)) : (dat7 V c).owed n = 0 := by
  dsimp only [dat7]

/-- The generator register and the scoped rest make the invariant at the first boundary, -/
theorem Phi_in7 (c : Dev nD) : (iprop((∃ r, prngReg c r) ∗ Pipeline.scopedRest (Ix := Unit) (Name := ℕ) (U := UR sig nD τ) (Lvl := ℕ) spec7 c) : sProp 𝕄) ⊢ (dat7 V c).Φ 0 := by
  rw [show (dat7 V c).Φ 0 = Pipeline.ΦA spec7 c from rfl]; unfold Pipeline.ΦA
  iintro ⟨Hp, Hr⟩
  isplitl [Hr]; · iexact Hr
  iexact Hp
/-- and the invariant at the last gives them back. -/
theorem Phi_out7 (c : Dev nD) : (dat7 V c).Φ (Fin.last cfg7.N) ⊢ (iprop((∃ r, prngReg c r) ∗ Pipeline.scopedRest (Ix := Unit) (Name := ℕ) (U := UR sig nD τ) (Lvl := ℕ) spec7 c) : sProp 𝕄) := by
  rw [show (dat7 V c).Φ (Fin.last _) = Pipeline.ΦA spec7 c from rfl]; unfold Pipeline.ΦA
  iintro ⟨Hr, Hp⟩
  isplitl [Hp]; · iexact Hp
  iexact Hr

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = (outsAt7 V c t.val t.isLt).1 := by dsimp only [dat7]
theorem after7_4 (c : Dev nD) (t : Fin cfg7.N) : (dat7 V c).after 4 t = (outsAt7 V c t.val t.isLt).2.1 := by dsimp only [dat7]
theorem after7_5 (c : Dev nD) (t : Fin cfg7.N) : (dat7 V c).after 5 t = (outsAt7 V c t.val t.isLt).2.2 := by dsimp only [dat7]

/-- Each input's current staging buffer holds its block at every point. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
/-- At a later point a running sum's staging buffer holds what the body left at the point before: the buffer was not
    written back between, and the window is live and uncut. -/
theorem before7_4_B (c : Dev nD) (t : Fin cfg7.N) (h0 : ¬t.val % 10 = 0) (d) :
    (dat7 V c).before 4 t d = (outsAt7 V c (t.val - 1) (Nat.lt_of_le_of_lt (Nat.sub_le _ _) t.isLt)).2.1 := by
  have hN : t.val < 10 := lt_of_lt_of_eq t.isLt (show cfg7.N = 10 from N_7)
  rw [Dat.before_out_kept _ 4 rfl t (by omega) (Bool.eq_false_iff.mpr fun h => by have := (flush7_4 _).mp h; dsimp only at this; omega)
    (fun _ => rfl) (fun _ _ => rfl)]
  dsimp only [dat7]
theorem before7_5_B (c : Dev nD) (t : Fin cfg7.N) (h0 : ¬t.val % 10 = 0) (d) :
    (dat7 V c).before 5 t d = (outsAt7 V c (t.val - 1) (Nat.lt_of_le_of_lt (Nat.sub_le _ _) t.isLt)).2.2 := by
  have hN : t.val < 10 := lt_of_lt_of_eq t.isLt (show cfg7.N = 10 from N_7)
  rw [Dat.before_out_kept _ 5 rfl t (by omega) (Bool.eq_false_iff.mpr fun h => by have := (flush7_5 _).mp h; dsimp only at this; omega)
    (fun _ => rfl) (fun _ _ => rfl)]
  dsimp only [dat7]

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

set_option maxHeartbeats 1600000 in
/-- The body at any point: the inputs' memrefs hold their blocks; the closed form of the condition says which case the
    point is in; at a later point the running sums hold what the point before left; so that case's run applies; the
    invariant passes through unread; the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3, after7_4, after7_5]
  have hN : t.val < 10 := lt_of_lt_of_eq t.isLt (show cfg7.N = 10 from N_7)
  by_cases h0 : t.val % 10 = 0
  · rw [outsAt7_A V c t h0]
    try dsimp only
    unfold out7_A_3 out7_A_4 out7_A_5
    iintro ⟨HΦ, Ho, ⟨%d0, H0⟩, ⟨%d1, H1⟩, ⟨%d2, H2⟩, ⟨%d3, H3⟩, ⟨%d4, H4⟩, ⟨%d5, H5⟩⟩
    iapply ((kernelRun7_A c (grid7.coords t) _ _ _ _ _ _ _ _ _ _ _ _ ((hcond7_0 t).mpr h0) (iblk7 V c 0 t) (iblk7 V c 1 t) (iblk7 V c 2 t)).2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover7_A_3 c _ _ _ _ _ _ _ _ _ _ _ _ _ _ _ _ _)
    isplitl [H4]
    · unfold owns; iexists _; isplitr
      swap; · iexact H4
      ipureintro; exact View.read_writes_of_cover _ _ _ _ _ (cover7_A_4 c _ _ _ _ _ _ _ _ _ _ _ _ _ _ _ _ _)
    unfold owns; iexists _; isplitr
    swap; · iexact H5
    ipureintro; exact View.read_writes_of_cover _ _ _ _ _ (cover7_A_5 c _ _ _ _ _ _ _ _ _ _ _ _ _ _ _ _ _)
  · rw [outsAt7_B V c t h0]
    simp only [before7_4_B V c t h0, before7_5_B V c t h0]
    try dsimp only
    unfold out7_B_3 out7_B_4 out7_B_5
    iintro ⟨HΦ, Ho, ⟨%d0, H0⟩, ⟨%d1, H1⟩, ⟨%d2, H2⟩, ⟨%d3, H3⟩, ⟨%d4, H4⟩, ⟨%d5, H5⟩⟩
    iapply ((kernelRun7_B c (grid7.coords t) _ _ _ _ _ _ _ _ _ _ _ _ (fun h => h0 ((hcond7_0 t).mp h)) (iblk7 V c 0 t) (iblk7 V c 1 t) (iblk7 V c 2 t) _ _).2.2.2 Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover7_B_3 c _ _ _ _ _ _ _ _ _ _ _ _ _ _ _ _ _ _ _)
    isplitl [H4]
    · unfold owns; iexists _; isplitr
      swap; · iexact H4
      ipureintro; exact View.read_writes_of_cover _ _ _ _ _ (cover7_B_4 c _ _ _ _ _ _ _ _ _ _ _ _ _ _ _ _ _ _ _)
    unfold owns; iexists _; isplitr
    swap; · iexact H5
    ipureintro; exact View.read_writes_of_cover _ _ _ _ _ (cover7_B_5 c _ _ _ _ _ _ _ _ _ _ _ _ _ _ _ _ _ _ _)

/-- The library's body obligation, at every point. -/
theorem body_obligation7 (c : Dev nD) : BodyObligation (dat7 (F := F) V c) (defs₀ (F := F)) Variants.none () Set.univ := fun t => by
  rw [bigSep_W7, bigSep_W7]
  exact sound_body7 V c t

end Region

end Cert.Kernel.Hand

end
-- ==== Proof.K.RegBN8.lean ====
import proofs.«413302_j72232759984513_1_alg».proof.Proof.Gen.Kernel.Launch
import proofs.«413302_j72232759984513_1_alg».proof.Proof.Gen.Kernel.Skeleton
import proofs.«413302_j72232759984513_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Kernel region 8: the batch-norm-and-ReLU body, its frame half

The body reads a tile of 10000 rows of `h` and four rows `mu`, `inv`, `g`, `be` of 128 lanes each, and stores
`max ((h - mu) * inv * g + be) 0` over the whole output tile. Its six windows are staged whole, so each input's
buffer holds its block of the entry contents at every point and the output's holds the payload of those blocks. -/

-- membership in a rectangle with an axis of 10000 coordinates: the structural check recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array at the entry contents. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for any proof
    data whose array is the entry contents and whose body leaves the block in place: where it is not fetched its
    index has not moved since the point that fetched it. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, fetched there or not, for any proof
    data whose array is the entry contents and whose body leaves the block in place: where it is not fetched its
    index has not moved since the point that fetched it. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, fetched there or not, for any proof
    data whose array is the entry contents and whose body leaves the block in place: where it is not fetched its
    index has not moved since the point that fetched it. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's current staging buffer holds its block at every point, fetched there or not, for any proof
    data whose array is the entry contents and whose body leaves the block in place: where it is not fetched its
    index has not moved since the point that fetched it. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's current staging buffer holds its block at every point, fetched there or not, for any proof
    data whose array is the entry contents and whose body leaves the block in place: where it is not fetched its
    index has not moved since the point that fetched it. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses -/

abbrev r8_0 : Rect S10000x128 := Rect.unit (s := S10000x128) ![0, 0] S10000x128.size inb_S10000x128_S10000x128_0_0
abbrev r8_1 : Rect S1x128 := Rect.unit (s := S1x128) ![0, 0] S1x128.size inb_S1x128_S1x128_0_0

/-! ## What the body leaves in the output window's buffer -/

/-- Window 5's staging buffer after the body, from the input windows' blocks: its one store, of the payload of
    the five loaded values, over the whole tile. -/
def out8_5 (x0 : Vec F S10000x128 .f32) (x1 : Vec F S1x128 .f32) (x2 : Vec F S1x128 .f32) (x3 : Vec F S1x128 .f32) (x4 : Vec F S1x128 .f32) : Vec F S10000x128 .f32 :=
  View.canon [⟨r8_0, k8_pay1 (View.ld x0 r8_0) (View.ld x1 r8_1) (View.ld x2 r8_1) (View.ld x3 r8_1) (View.ld x4 r8_1)⟩]

/-- The one store is of the whole tile, so it covers the buffer. -/
theorem cover8_5 (p0 : Vec F S10000x128 .f32) (y : S10000x128.Idx) :
    ∃ pc ∈ ([⟨r8_0, p0⟩] : List (View.Piece (Elt F) S10000x128 .f32)), y ∈ pc.1.set :=
  View.cover_of_tiled [⟨r8_0, p0⟩] S10000x128.size (by rfl) y

/-! ## The body's triple -/

set_option maxHeartbeats 1000000 in
/-- The kernel body on whole staging memrefs, the inputs' at contents `xW` and the output's at anything, runs to
    the continuation holding the inputs' as they were and the output's at `out8_5` of the inputs'. -/
theorem sound_kernel8 (c : Dev nD) (E : Set ℕ) (i : grid8.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S10000x128 .f32) (harg6 : arg6.IsWhole)
    (x0 : Vec F S10000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out8_5 x0 x1 x2 x3 x4)) -∗ K ⟨⟩))
      ⊢ wp frame (wpE (defs₀ (F := F)) Variants.none c none) E (cc8__bn_relu_kernel i arg1 harg1 arg2 harg2 arg3 harg3 arg4 harg4 arg5 harg5 arg6 harg6) K := by
  simp only [cc8__bn_relu_kernel_eq_skeleton]; unfold cc8__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-! ## The pipeline's proof data -/

/-- The proof data of pipeline 8 on core `c`: the arrays at the entry contents; after the body at point `t` each
    input's buffer at its block and the output's at `out8_5` of the input blocks; the invariant the scoped rest and
    the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

/-- The proof data's arrays are the entry contents. -/
theorem A_eq8 (c : Dev nD) (w : Fin cfg8.W) : (dat8 V c).A w = V c (Pipeline.arrRef spec8 w) := by
  dsimp only [dat8]

/-- Every window is held at the full share. -/
theorem q_eq8 (c : Dev nD) (w : Fin cfg8.W) : (dat8 V c).q w = fullShare := by
  dsimp only [dat8]

/-- Nothing is owed at any point. -/
theorem owed_eq8 (c : Dev nD) (n : Fin (cfg8.N + 1)) : (dat8 V c).owed n = 0 := by
  dsimp only [dat8]

/-- The invariant at every point is the scoped rest with the generator register. -/
theorem Phi_eq8 (c : Dev nD) (n : Fin (cfg8.N + 1)) : (dat8 V c).Φ n = Pipeline.ΦA spec8 c := by
  dsimp only [dat8]

/-- The invariant holds at the first point of what the region is entered with, -/
theorem Phi_in8 (c : Dev nD) :
    (iprop((∃ r, prngReg c r) ∗ Pipeline.scopedRest (Ix := Unit) (Name := ℕ) (U := UR sig nD τ) (Lvl := ℕ) spec8 c) : sProp 𝕄) ⊢ (dat8 V c).Φ 0 := by
  rw [Phi_eq8]; unfold Pipeline.ΦA
  iintro ⟨Hr, Hp⟩
  isplitl [Hp]; · iexact Hp
  iexact Hr

/-- and gives it back at the last. -/
theorem Phi_out8 (c : Dev nD) :
    (dat8 V c).Φ (Fin.last cfg8.N) ⊢ (iprop((∃ r, prngReg c r) ∗ Pipeline.scopedRest (Ix := Unit) (Name := ℕ) (U := UR sig nD τ) (Lvl := ℕ) spec8 c) : sProp 𝕄) := by
  rw [Phi_eq8]; unfold Pipeline.ΦA
  iintro ⟨Hp, Hr⟩
  isplitl [Hr]; · iexact Hr
  iexact Hp

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = out8_5 (iblk8 V c 0 t) (iblk8 V c 1 t) (iblk8 V c 2 t) (iblk8 V c 3 t) (iblk8 V c 4 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at any point: the inputs' memrefs hold their blocks, so the body's triple applies; the invariant and
    the core's debts pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ (grid8.coords t) _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.K.RegLS9.RunA.lean ====
import proofs.«413302_j72232759984513_1_alg».proof.Proof.Gen.Kernel.Launch
import proofs.«413302_j72232759984513_1_alg».proof.Proof.Gen.Kernel.Skeleton
import proofs.«413302_j72232759984513_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 9: the body's run at the first grid point

The body's one conditional tests whether the grid coordinate is zero; there it resets the two running sums before adding
to them. -/

/-- The condition of the body's conditional, from the grid coordinates. -/
abbrev cond9_0 (i : grid9.Coords) : Prop := (Scalar.cmpi .ne (Scalar.extui (Scalar.cmpi .eq (BitVec.ofNat 32 (i 0).val) 0#32)) 0#32) = 1#1
/-- It holds at the first point only: decided over the grid. -/
theorem hcond9_0 : ∀ t : Fin cfg9.N, cond9_0 (grid9.coords t) ↔ t.val % 10 = 0 :=
  (by decide +kernel : ∀ t : Fin grid9.N, cond9_0 (grid9.coords t) ↔ t.val % 10 = 0)

/-- One staging buffer of each output window, through which its contents are stated (the choice does not matter). -/
abbrev VO9_3 : View sig .tc .vmem S10000x128 .f32 := (Memref.whole cc9_stg3_0 : Memref sig .tc .vmem S10000x128 .f32).view
abbrev VO9_4 : View sig .tc .vmem S1x128 .f32 := (Memref.whole cc9_stg4_0 : Memref sig .tc .vmem S1x128 .f32).view
abbrev VO9_5 : View sig .tc .vmem S1x128 .f32 := (Memref.whole cc9_stg5_0 : Memref sig .tc .vmem S1x128 .f32).view

set_option maxHeartbeats 4000000 in
/-- The body where the condition holds. On whole staging memrefs, the three inputs' at contents `x0 x1 x2` and the three
    outputs' at anything, it runs to the continuation holding the inputs' as they were and each output's buffer with
    the pieces its stores wrote (last first): the pieces are the witness the run finds. -/
noncomputable def kernelRun9_A (c : Dev nD) (i : grid9.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond9_0 i)
    (x0 : Vec F S10000x128 .f32) (x1 : Vec F S128x128 .f32) (x2 : Vec F S1x128 .f32) :
    Σ' (L3 : List (View.Piece (Elt F) S10000x128 .f32)), Σ' (L4 : List (View.Piece (Elt F) S1x128 .f32)), { L5 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc9__linear_stats_kernel i arg1 harg1 arg2 harg2 arg3 harg3 arg4 harg4 arg5 harg5 arg6 harg6) K } := by
  refine ⟨?_, ?_, ?_, fun E K => ?run⟩
  case run =>
    simp only [cc9__linear_stats_kernel_eq_skeleton]; unfold cc9__linear_stats_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

end Cert.Kernel.Hand

end
-- ==== Proof.K.RegLS9.RunB.lean ====
import proofs.«413302_j72232759984513_1_alg».proof.Proof.K.RegLS9.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 9: the body's run at a later grid point

The condition fails: the two running sums are read as the point before left them and added to. -/

set_option maxHeartbeats 4000000 in
/-- The body where the condition fails. On whole staging memrefs, the three inputs' at contents `x0 x1 x2`, the two
    running sums' at `xo4 xo5` and the first output's at anything, it runs to the continuation holding the inputs' as they
    were and each output's buffer with the pieces its stores wrote (last first): the pieces are the witness the run finds. -/
noncomputable def kernelRun9_B (c : Dev nD) (i : grid9.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond9_0 i)
    (x0 : Vec F S10000x128 .f32) (x1 : Vec F S128x128 .f32) (x2 : Vec F S1x128 .f32) (xo4 : Vec F S1x128 .f32) (xo5 : Vec F S1x128 .f32) :
    Σ' (L3 : List (View.Piece (Elt F) S10000x128 .f32)), Σ' (L4 : List (View.Piece (Elt F) S1x128 .f32)), { L5 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xo4 ∗ owns (c : Thread nD τ) arg6 fullShare xo5
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc9__linear_stats_kernel i arg1 harg1 arg2 harg2 arg3 harg3 arg4 harg4 arg5 harg5 arg6 harg6) K } := by
  refine ⟨?_, ?_, ?_, fun E K => ?run⟩
  case run =>
    simp only [cc9__linear_stats_kernel_eq_skeleton]; unfold cc9__linear_stats_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
    obtain rfl := harg1.eq_unread hf0; obtain rfl := harg2.eq_unread hf1; obtain rfl := harg3.eq_unread hf2
    obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

end Cert.Kernel.Hand

end
-- ==== Proof.K.RegLS9.lean ====
import proofs.«413302_j72232759984513_1_alg».proof.Proof.K.RegLS9.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 9: the proof data and the body obligation, at the contents the region is entered with

The kernel stores `x·W + b` for its tile of rows in output window 3 and keeps two running sums, output windows 4 and 5:
reset at the first grid point, added to at every point, written back after the last. Everything is stated at a
parameter `V`, the TensorCore's buffer contents when the region is entered. -/

section Region

variable (V : (c : Dev nD) → (b : Ref sig .tc) → Buf (Elt F) ((c : Thread nD τ).loc b))

/-! ## The windows' blocks -/

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-! An input window's current staging buffer holds its block at every point, fetched there or not (unfetched, the block
    index has not moved), for any proof data whose array is the entry contents and whose body leaves the block in place. -/

theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Each window's current staging memref at point `t`, and its wholeness. -/
abbrev ms9_0 (t : Fin cfg9.N) : Memref sig .tc .vmem S10000x128 .f32 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S128x128 .f32 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S1x128 .f32 := win9_2.stage (cfg9.slots t 2)
abbrev hs9_2 (t : Fin cfg9.N) : (ms9_2 t).IsWhole := hstage9_2 ((cfg9.slots t 2).cast nbuf9_2)
abbrev ms9_3 (t : Fin cfg9.N) : Memref sig .tc .vmem S10000x128 .f32 := win9_3.stage (cfg9.slots t 3)
abbrev hs9_3 (t : Fin cfg9.N) : (ms9_3 t).IsWhole := hstage9_3 ((cfg9.slots t 3).cast nbuf9_3)
abbrev ms9_4 (t : Fin cfg9.N) : Memref sig .tc .vmem S1x128 .f32 := win9_4.stage (cfg9.slots t 4)
abbrev hs9_4 (t : Fin cfg9.N) : (ms9_4 t).IsWhole := hstage9_4 ((cfg9.slots t 4).cast nbuf9_4)
abbrev ms9_5 (t : Fin cfg9.N) : Memref sig .tc .vmem S1x128 .f32 := win9_5.stage (cfg9.slots t 5)
abbrev hs9_5 (t : Fin cfg9.N) : (ms9_5 t).IsWhole := hstage9_5 ((cfg9.slots t 5).cast nbuf9_5)

/-! ## What each case of the body leaves in the outputs' buffers -/

/-- The pieces the body where the condition holds writes to output 3 tile its block, so they cover it. -/
theorem cover9_A_3 (c : Dev nD) (i : grid9.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond9_0 i)
    (x0 : Vec F S10000x128 .f32) (x1 : Vec F S128x128 .f32) (x2 : Vec F S1x128 .f32) (y : S10000x128.Idx) :
    ∃ pc ∈ (kernelRun9_A c i arg1 harg1 arg2 harg2 arg3 harg3 arg4 harg4 arg5 harg5 arg6 harg6 hc0 x0 x1 x2).1, y ∈ pc.1.set :=
  View.cover_of_tiledL (kernelRun9_A c i arg1 harg1 arg2 harg2 arg3 harg3 arg4 harg4 arg5 harg5 arg6 harg6 hc0 x0 x1 x2).1 S10000x128.size (by sl_kernel_rfl) y

/-- What that run leaves in output 3's staging buffer: its pieces read back over arbitrary contents. -/
def out9_A_3 (c : Dev nD) (i : grid9.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond9_0 i)
    (x0 : Vec F S10000x128 .f32) (x1 : Vec F S128x128 .f32) (x2 : Vec F S1x128 .f32) : Vec F S10000x128 .f32 :=
  VO9_3.read (Elt F) (VO9_3.writes (Elt F) VO9_3.junk (kernelRun9_A c i arg1 harg1 arg2 harg2 arg3 harg3 arg4 harg4 arg5 harg5 arg6 harg6 hc0 x0 x1 x2).1)

/-- The pieces the body where the condition holds writes to output 4 tile its block, so they cover it. -/
theorem cover9_A_4 (c : Dev nD) (i : grid9.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond9_0 i)
    (x0 : Vec F S10000x128 .f32) (x1 : Vec F S128x128 .f32) (x2 : Vec F S1x128 .f32) (y : S1x128.Idx) :
    ∃ pc ∈ (kernelRun9_A c i arg1 harg1 arg2 harg2 arg3 harg3 arg4 harg4 arg5 harg5 arg6 harg6 hc0 x0 x1 x2).2.1, y ∈ pc.1.set :=
  View.cover_of_tiledL (kernelRun9_A c i arg1 harg1 arg2 harg2 arg3 harg3 arg4 harg4 arg5 harg5 arg6 harg6 hc0 x0 x1 x2).2.1 S1x128.size (by sl_kernel_rfl) y

/-- What that run leaves in output 4's staging buffer: its pieces read back over arbitrary contents. -/
def out9_A_4 (c : Dev nD) (i : grid9.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond9_0 i)
    (x0 : Vec F S10000x128 .f32) (x1 : Vec F S128x128 .f32) (x2 : Vec F S1x128 .f32) : Vec F S1x128 .f32 :=
  VO9_4.read (Elt F) (VO9_4.writes (Elt F) VO9_4.junk (kernelRun9_A c i arg1 harg1 arg2 harg2 arg3 harg3 arg4 harg4 arg5 harg5 arg6 harg6 hc0 x0 x1 x2).2.1)

/-- The pieces the body where the condition holds writes to output 5 tile its block, so they cover it. -/
theorem cover9_A_5 (c : Dev nD) (i : grid9.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond9_0 i)
    (x0 : Vec F S10000x128 .f32) (x1 : Vec F S128x128 .f32) (x2 : Vec F S1x128 .f32) (y : S1x128.Idx) :
    ∃ pc ∈ (kernelRun9_A c i arg1 harg1 arg2 harg2 arg3 harg3 arg4 harg4 arg5 harg5 arg6 harg6 hc0 x0 x1 x2).2.2.1, y ∈ pc.1.set :=
  View.cover_of_tiledL (kernelRun9_A c i arg1 harg1 arg2 harg2 arg3 harg3 arg4 harg4 arg5 harg5 arg6 harg6 hc0 x0 x1 x2).2.2.1 S1x128.size (by sl_kernel_rfl) y

/-- What that run leaves in output 5's staging buffer: its pieces read back over arbitrary contents. -/
def out9_A_5 (c : Dev nD) (i : grid9.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond9_0 i)
    (x0 : Vec F S10000x128 .f32) (x1 : Vec F S128x128 .f32) (x2 : Vec F S1x128 .f32) : Vec F S1x128 .f32 :=
  VO9_5.read (Elt F) (VO9_5.writes (Elt F) VO9_5.junk (kernelRun9_A c i arg1 harg1 arg2 harg2 arg3 harg3 arg4 harg4 arg5 harg5 arg6 harg6 hc0 x0 x1 x2).2.2.1)

/-- The pieces the body where the condition fails writes to output 3 tile its block, so they cover it. -/
theorem cover9_B_3 (c : Dev nD) (i : grid9.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond9_0 i)
    (x0 : Vec F S10000x128 .f32) (x1 : Vec F S128x128 .f32) (x2 : Vec F S1x128 .f32) (xo4 : Vec F S1x128 .f32) (xo5 : Vec F S1x128 .f32) (y : S10000x128.Idx) :
    ∃ pc ∈ (kernelRun9_B c i arg1 harg1 arg2 harg2 arg3 harg3 arg4 harg4 arg5 harg5 arg6 harg6 hc0 x0 x1 x2 xo4 xo5).1, y ∈ pc.1.set :=
  View.cover_of_tiledL (kernelRun9_B c i arg1 harg1 arg2 harg2 arg3 harg3 arg4 harg4 arg5 harg5 arg6 harg6 hc0 x0 x1 x2 xo4 xo5).1 S10000x128.size (by sl_kernel_rfl) y

/-- What that run leaves in output 3's staging buffer: its pieces read back over arbitrary contents. -/
def out9_B_3 (c : Dev nD) (i : grid9.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond9_0 i)
    (x0 : Vec F S10000x128 .f32) (x1 : Vec F S128x128 .f32) (x2 : Vec F S1x128 .f32) (xo4 : Vec F S1x128 .f32) (xo5 : Vec F S1x128 .f32) : Vec F S10000x128 .f32 :=
  VO9_3.read (Elt F) (VO9_3.writes (Elt F) VO9_3.junk (kernelRun9_B c i arg1 harg1 arg2 harg2 arg3 harg3 arg4 harg4 arg5 harg5 arg6 harg6 hc0 x0 x1 x2 xo4 xo5).1)

/-- The pieces the body where the condition fails writes to output 4 tile its block, so they cover it. -/
theorem cover9_B_4 (c : Dev nD) (i : grid9.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond9_0 i)
    (x0 : Vec F S10000x128 .f32) (x1 : Vec F S128x128 .f32) (x2 : Vec F S1x128 .f32) (xo4 : Vec F S1x128 .f32) (xo5 : Vec F S1x128 .f32) (y : S1x128.Idx) :
    ∃ pc ∈ (kernelRun9_B c i arg1 harg1 arg2 harg2 arg3 harg3 arg4 harg4 arg5 harg5 arg6 harg6 hc0 x0 x1 x2 xo4 xo5).2.1, y ∈ pc.1.set :=
  View.cover_of_tiledL (kernelRun9_B c i arg1 harg1 arg2 harg2 arg3 harg3 arg4 harg4 arg5 harg5 arg6 harg6 hc0 x0 x1 x2 xo4 xo5).2.1 S1x128.size (by sl_kernel_rfl) y

/-- What that run leaves in output 4's staging buffer: its pieces read back over arbitrary contents. -/
def out9_B_4 (c : Dev nD) (i : grid9.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond9_0 i)
    (x0 : Vec F S10000x128 .f32) (x1 : Vec F S128x128 .f32) (x2 : Vec F S1x128 .f32) (xo4 : Vec F S1x128 .f32) (xo5 : Vec F S1x128 .f32) : Vec F S1x128 .f32 :=
  VO9_4.read (Elt F) (VO9_4.writes (Elt F) VO9_4.junk (kernelRun9_B c i arg1 harg1 arg2 harg2 arg3 harg3 arg4 harg4 arg5 harg5 arg6 harg6 hc0 x0 x1 x2 xo4 xo5).2.1)

/-- The pieces the body where the condition fails writes to output 5 tile its block, so they cover it. -/
theorem cover9_B_5 (c : Dev nD) (i : grid9.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond9_0 i)
    (x0 : Vec F S10000x128 .f32) (x1 : Vec F S128x128 .f32) (x2 : Vec F S1x128 .f32) (xo4 : Vec F S1x128 .f32) (xo5 : Vec F S1x128 .f32) (y : S1x128.Idx) :
    ∃ pc ∈ (kernelRun9_B c i arg1 harg1 arg2 harg2 arg3 harg3 arg4 harg4 arg5 harg5 arg6 harg6 hc0 x0 x1 x2 xo4 xo5).2.2.1, y ∈ pc.1.set :=
  View.cover_of_tiledL (kernelRun9_B c i arg1 harg1 arg2 harg2 arg3 harg3 arg4 harg4 arg5 harg5 arg6 harg6 hc0 x0 x1 x2 xo4 xo5).2.2.1 S1x128.size (by sl_kernel_rfl) y

/-- What that run leaves in output 5's staging buffer: its pieces read back over arbitrary contents. -/
def out9_B_5 (c : Dev nD) (i : grid9.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond9_0 i)
    (x0 : Vec F S10000x128 .f32) (x1 : Vec F S128x128 .f32) (x2 : Vec F S1x128 .f32) (xo4 : Vec F S1x128 .f32) (xo5 : Vec F S1x128 .f32) : Vec F S1x128 .f32 :=
  VO9_5.read (Elt F) (VO9_5.writes (Elt F) VO9_5.junk (kernelRun9_B c i arg1 harg1 arg2 harg2 arg3 harg3 arg4 harg4 arg5 harg5 arg6 harg6 hc0 x0 x1 x2 xo4 xo5).2.2.1)

/-! ## What the outputs hold after each point -/

/-- What the three outputs' staging buffers hold after the body at position `n`, by recursion on the point: at the first
    point the resetting case, run at the point's input blocks; at a later point the adding case, the running sums read
    as the point before left them (their buffers are not written back between). -/
def outsAt9 (c : Dev nD) : (n : ℕ) → n < cfg9.N → Vec F S10000x128 .f32 × Vec F S1x128 .f32 × Vec F S1x128 .f32
  | 0, hn => (out9_A_3 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) (ms9_4 ⟨0, hn⟩) (hs9_4 ⟨0, hn⟩) (ms9_5 ⟨0, hn⟩) (hs9_5 ⟨0, hn⟩) ((hcond9_0 ⟨0, hn⟩).mpr (Nat.zero_mod _)) (iblk9 V c 0 ⟨0, hn⟩) (iblk9 V c 1 ⟨0, hn⟩) (iblk9 V c 2 ⟨0, hn⟩),
       out9_A_4 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) (ms9_4 ⟨0, hn⟩) (hs9_4 ⟨0, hn⟩) (ms9_5 ⟨0, hn⟩) (hs9_5 ⟨0, hn⟩) ((hcond9_0 ⟨0, hn⟩).mpr (Nat.zero_mod _)) (iblk9 V c 0 ⟨0, hn⟩) (iblk9 V c 1 ⟨0, hn⟩) (iblk9 V c 2 ⟨0, hn⟩),
       out9_A_5 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) (ms9_4 ⟨0, hn⟩) (hs9_4 ⟨0, hn⟩) (ms9_5 ⟨0, hn⟩) (hs9_5 ⟨0, hn⟩) ((hcond9_0 ⟨0, hn⟩).mpr (Nat.zero_mod _)) (iblk9 V c 0 ⟨0, hn⟩) (iblk9 V c 1 ⟨0, hn⟩) (iblk9 V c 2 ⟨0, hn⟩))
  | n + 1, hn =>
    if h0 : (n + 1) % 10 = 0 then
      (out9_A_3 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) ((hcond9_0 ⟨n + 1, hn⟩).mpr h0) (iblk9 V c 0 ⟨n + 1, hn⟩) (iblk9 V c 1 ⟨n + 1, hn⟩) (iblk9 V c 2 ⟨n + 1, hn⟩),
       out9_A_4 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) ((hcond9_0 ⟨n + 1, hn⟩).mpr h0) (iblk9 V c 0 ⟨n + 1, hn⟩) (iblk9 V c 1 ⟨n + 1, hn⟩) (iblk9 V c 2 ⟨n + 1, hn⟩),
       out9_A_5 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) ((hcond9_0 ⟨n + 1, hn⟩).mpr h0) (iblk9 V c 0 ⟨n + 1, hn⟩) (iblk9 V c 1 ⟨n + 1, hn⟩) (iblk9 V c 2 ⟨n + 1, hn⟩))
    else
      (out9_B_3 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) (fun h => h0 ((hcond9_0 ⟨n + 1, hn⟩).mp h)) (iblk9 V c 0 ⟨n + 1, hn⟩) (iblk9 V c 1 ⟨n + 1, hn⟩) (iblk9 V c 2 ⟨n + 1, hn⟩) (outsAt9 c n (Nat.lt_of_succ_lt hn)).2.1 (outsAt9 c n (Nat.lt_of_succ_lt hn)).2.2,
       out9_B_4 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) (fun h => h0 ((hcond9_0 ⟨n + 1, hn⟩).mp h)) (iblk9 V c 0 ⟨n + 1, hn⟩) (iblk9 V c 1 ⟨n + 1, hn⟩) (iblk9 V c 2 ⟨n + 1, hn⟩) (outsAt9 c n (Nat.lt_of_succ_lt hn)).2.1 (outsAt9 c n (Nat.lt_of_succ_lt hn)).2.2,
       out9_B_5 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) (fun h => h0 ((hcond9_0 ⟨n + 1, hn⟩).mp h)) (iblk9 V c 0 ⟨n + 1, hn⟩) (iblk9 V c 1 ⟨n + 1, hn⟩) (iblk9 V c 2 ⟨n + 1, hn⟩) (outsAt9 c n (Nat.lt_of_succ_lt hn)).2.1 (outsAt9 c n (Nat.lt_of_succ_lt hn)).2.2)

/-- `outsAt9` at a point where the condition holds. -/
theorem outsAt9_A (c : Dev nD) (t : Fin cfg9.N) (h0 : t.val % 10 = 0) :
    outsAt9 V c t.val t.isLt = (out9_A_3 c (grid9.coords t) (ms9_0 t) (hs9_0 t) (ms9_1 t) (hs9_1 t) (ms9_2 t) (hs9_2 t) (ms9_3 t) (hs9_3 t) (ms9_4 t) (hs9_4 t) (ms9_5 t) (hs9_5 t) ((hcond9_0 t).mpr h0) (iblk9 V c 0 t) (iblk9 V c 1 t) (iblk9 V c 2 t),
       out9_A_4 c (grid9.coords t) (ms9_0 t) (hs9_0 t) (ms9_1 t) (hs9_1 t) (ms9_2 t) (hs9_2 t) (ms9_3 t) (hs9_3 t) (ms9_4 t) (hs9_4 t) (ms9_5 t) (hs9_5 t) ((hcond9_0 t).mpr h0) (iblk9 V c 0 t) (iblk9 V c 1 t) (iblk9 V c 2 t),
       out9_A_5 c (grid9.coords t) (ms9_0 t) (hs9_0 t) (ms9_1 t) (hs9_1 t) (ms9_2 t) (hs9_2 t) (ms9_3 t) (hs9_3 t) (ms9_4 t) (hs9_4 t) (ms9_5 t) (hs9_5 t) ((hcond9_0 t).mpr h0) (iblk9 V c 0 t) (iblk9 V c 1 t) (iblk9 V c 2 t)) := by
  obtain ⟨n, hn⟩ := t
  cases n with
  | zero => exact rfl
  | succ n => exact (dif_pos h0).trans rfl

/-- `outsAt9` at a point where it fails: over what the point before left. -/
theorem outsAt9_B (c : Dev nD) (t : Fin cfg9.N) (h0 : ¬t.val % 10 = 0) :
    outsAt9 V c t.val t.isLt = (out9_B_3 c (grid9.coords t) (ms9_0 t) (hs9_0 t) (ms9_1 t) (hs9_1 t) (ms9_2 t) (hs9_2 t) (ms9_3 t) (hs9_3 t) (ms9_4 t) (hs9_4 t) (ms9_5 t) (hs9_5 t) (fun h => h0 ((hcond9_0 t).mp h)) (iblk9 V c 0 t) (iblk9 V c 1 t) (iblk9 V c 2 t) (outsAt9 V c (t.val - 1) (Nat.lt_of_le_of_lt (Nat.sub_le _ _) t.isLt)).2.1 (outsAt9 V c (t.val - 1) (Nat.lt_of_le_of_lt (Nat.sub_le _ _) t.isLt)).2.2,
       out9_B_4 c (grid9.coords t) (ms9_0 t) (hs9_0 t) (ms9_1 t) (hs9_1 t) (ms9_2 t) (hs9_2 t) (ms9_3 t) (hs9_3 t) (ms9_4 t) (hs9_4 t) (ms9_5 t) (hs9_5 t) (fun h => h0 ((hcond9_0 t).mp h)) (iblk9 V c 0 t) (iblk9 V c 1 t) (iblk9 V c 2 t) (outsAt9 V c (t.val - 1) (Nat.lt_of_le_of_lt (Nat.sub_le _ _) t.isLt)).2.1 (outsAt9 V c (t.val - 1) (Nat.lt_of_le_of_lt (Nat.sub_le _ _) t.isLt)).2.2,
       out9_B_5 c (grid9.coords t) (ms9_0 t) (hs9_0 t) (ms9_1 t) (hs9_1 t) (ms9_2 t) (hs9_2 t) (ms9_3 t) (hs9_3 t) (ms9_4 t) (hs9_4 t) (ms9_5 t) (hs9_5 t) (fun h => h0 ((hcond9_0 t).mp h)) (iblk9 V c 0 t) (iblk9 V c 1 t) (iblk9 V c 2 t) (outsAt9 V c (t.val - 1) (Nat.lt_of_le_of_lt (Nat.sub_le _ _) t.isLt)).2.1 (outsAt9 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t` each
    input's buffer at its block and the outputs' at `outsAt9`; the invariant the scoped rest and the generator register,
    untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => (outsAt9 V c t.val t.isLt).1
    | ⟨4, _⟩ => (outsAt9 V c t.val t.isLt).2.1
    | ⟨5, _⟩ => (outsAt9 V c t.val t.isLt).2.2
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]
/-- Its shares are full. -/
theorem q_eq9 (c : Dev nD) (w : Fin cfg9.W) : (dat9 V c).q w = fullShare := by
  dsimp only [dat9]
/-- It owes nothing. -/
theorem owed_eq9 (c : Dev nD) (n : Fin (cfg9.N + 1)) : (dat9 V c).owed n = 0 := by
  dsimp only [dat9]

/-- The generator register and the scoped rest make the invariant at the first boundary, -/
theorem Phi_in9 (c : Dev nD) : (iprop((∃ r, prngReg c r) ∗ Pipeline.scopedRest (Ix := Unit) (Name := ℕ) (U := UR sig nD τ) (Lvl := ℕ) spec9 c) : sProp 𝕄) ⊢ (dat9 V c).Φ 0 := by
  rw [show (dat9 V c).Φ 0 = Pipeline.ΦA spec9 c from rfl]; unfold Pipeline.ΦA
  iintro ⟨Hp, Hr⟩
  isplitl [Hr]; · iexact Hr
  iexact Hp
/-- and the invariant at the last gives them back. -/
theorem Phi_out9 (c : Dev nD) : (dat9 V c).Φ (Fin.last cfg9.N) ⊢ (iprop((∃ r, prngReg c r) ∗ Pipeline.scopedRest (Ix := Unit) (Name := ℕ) (U := UR sig nD τ) (Lvl := ℕ) spec9 c) : sProp 𝕄) := by
  rw [show (dat9 V c).Φ (Fin.last _) = Pipeline.ΦA spec9 c from rfl]; unfold Pipeline.ΦA
  iintro ⟨Hr, Hp⟩
  isplitl [Hp]; · iexact Hp
  iexact Hr

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = (outsAt9 V c t.val t.isLt).1 := by dsimp only [dat9]
theorem after9_4 (c : Dev nD) (t : Fin cfg9.N) : (dat9 V c).after 4 t = (outsAt9 V c t.val t.isLt).2.1 := by dsimp only [dat9]
theorem after9_5 (c : Dev nD) (t : Fin cfg9.N) : (dat9 V c).after 5 t = (outsAt9 V c t.val t.isLt).2.2 := by dsimp only [dat9]

/-- Each input's current staging buffer holds its block at every point. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
/-- At a later point a running sum's staging buffer holds what the body left at the point before: the buffer was not
    written back between, and the window is live and uncut. -/
theorem before9_4_B (c : Dev nD) (t : Fin cfg9.N) (h0 : ¬t.val % 10 = 0) (d) :
    (dat9 V c).before 4 t d = (outsAt9 V c (t.val - 1) (Nat.lt_of_le_of_lt (Nat.sub_le _ _) t.isLt)).2.1 := by
  have hN : t.val < 10 := lt_of_lt_of_eq t.isLt (show cfg9.N = 10 from N_9)
  rw [Dat.before_out_kept _ 4 rfl t (by omega) (Bool.eq_false_iff.mpr fun h => by have := (flush9_4 _).mp h; dsimp only at this; omega)
    (fun _ => rfl) (fun _ _ => rfl)]
  dsimp only [dat9]
theorem before9_5_B (c : Dev nD) (t : Fin cfg9.N) (h0 : ¬t.val % 10 = 0) (d) :
    (dat9 V c).before 5 t d = (outsAt9 V c (t.val - 1) (Nat.lt_of_le_of_lt (Nat.sub_le _ _) t.isLt)).2.2 := by
  have hN : t.val < 10 := lt_of_lt_of_eq t.isLt (show cfg9.N = 10 from N_9)
  rw [Dat.before_out_kept _ 5 rfl t (by omega) (Bool.eq_false_iff.mpr fun h => by have := (flush9_5 _).mp h; dsimp only at this; omega)
    (fun _ => rfl) (fun _ _ => rfl)]
  dsimp only [dat9]

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

set_option maxHeartbeats 1600000 in
/-- The body at any point: the inputs' memrefs hold their blocks; the closed form of the condition says which case the
    point is in; at a later point the running sums hold what the point before left; so that case's run applies; the
    invariant passes through unread; the core owes nothing throughout. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3, after9_4, after9_5]
  have hN : t.val < 10 := lt_of_lt_of_eq t.isLt (show cfg9.N = 10 from N_9)
  by_cases h0 : t.val % 10 = 0
  · rw [outsAt9_A V c t h0]
    try dsimp only
    unfold out9_A_3 out9_A_4 out9_A_5
    iintro ⟨HΦ, Ho, ⟨%d0, H0⟩, ⟨%d1, H1⟩, ⟨%d2, H2⟩, ⟨%d3, H3⟩, ⟨%d4, H4⟩, ⟨%d5, H5⟩⟩
    iapply ((kernelRun9_A c (grid9.coords t) _ _ _ _ _ _ _ _ _ _ _ _ ((hcond9_0 t).mpr h0) (iblk9 V c 0 t) (iblk9 V c 1 t) (iblk9 V c 2 t)).2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover9_A_3 c _ _ _ _ _ _ _ _ _ _ _ _ _ _ _ _ _)
    isplitl [H4]
    · unfold owns; iexists _; isplitr
      swap; · iexact H4
      ipureintro; exact View.read_writes_of_cover _ _ _ _ _ (cover9_A_4 c _ _ _ _ _ _ _ _ _ _ _ _ _ _ _ _ _)
    unfold owns; iexists _; isplitr
    swap; · iexact H5
    ipureintro; exact View.read_writes_of_cover _ _ _ _ _ (cover9_A_5 c _ _ _ _ _ _ _ _ _ _ _ _ _ _ _ _ _)
  · rw [outsAt9_B V c t h0]
    simp only [before9_4_B V c t h0, before9_5_B V c t h0]
    try dsimp only
    unfold out9_B_3 out9_B_4 out9_B_5
    iintro ⟨HΦ, Ho, ⟨%d0, H0⟩, ⟨%d1, H1⟩, ⟨%d2, H2⟩, ⟨%d3, H3⟩, ⟨%d4, H4⟩, ⟨%d5, H5⟩⟩
    iapply ((kernelRun9_B c (grid9.coords t) _ _ _ _ _ _ _ _ _ _ _ _ (fun h => h0 ((hcond9_0 t).mp h)) (iblk9 V c 0 t) (iblk9 V c 1 t) (iblk9 V c 2 t) _ _).2.2.2 Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover9_B_3 c _ _ _ _ _ _ _ _ _ _ _ _ _ _ _ _ _ _ _)
    isplitl [H4]
    · unfold owns; iexists _; isplitr
      swap; · iexact H4
      ipureintro; exact View.read_writes_of_cover _ _ _ _ _ (cover9_B_4 c _ _ _ _ _ _ _ _ _ _ _ _ _ _ _ _ _ _ _)
    unfold owns; iexists _; isplitr
    swap; · iexact H5
    ipureintro; exact View.read_writes_of_cover _ _ _ _ _ (cover9_B_5 c _ _ _ _ _ _ _ _ _ _ _ _ _ _ _ _ _ _ _)

/-- The library's body obligation, at every point. -/
theorem body_obligation9 (c : Dev nD) : BodyObligation (dat9 (F := F) V c) (defs₀ (F := F)) Variants.none () Set.univ := fun t => by
  rw [bigSep_W9, bigSep_W9]
  exact sound_body9 V c t

end Region

end Cert.Kernel.Hand

end
-- ==== Proof.K.RegBN10.lean ====
import proofs.«413302_j72232759984513_1_alg».proof.Proof.Gen.Kernel.Launch
import proofs.«413302_j72232759984513_1_alg».proof.Proof.Gen.Kernel.Skeleton
import proofs.«413302_j72232759984513_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Kernel region 10: the batch-norm-and-ReLU body, its frame half

The body reads a tile of 10000 rows of `h` and four rows `mu`, `inv`, `g`, `be` of 128 lanes each, and stores
`max ((h - mu) * inv * g + be) 0` over the whole output tile. Its six windows are staged whole, so each input's
buffer holds its block of the entry contents at every point and the output's holds the payload of those blocks. -/

-- membership in a rectangle with an axis of 10000 coordinates: the structural check recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array at the entry contents. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, fetched there or not, for any proof
    data whose array is the entry contents and whose body leaves the block in place: where it is not fetched its
    index has not moved since the point that fetched it. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's current staging buffer holds its block at every point, fetched there or not, for any proof
    data whose array is the entry contents and whose body leaves the block in place: where it is not fetched its
    index has not moved since the point that fetched it. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2's current staging buffer holds its block at every point, fetched there or not, for any proof
    data whose array is the entry contents and whose body leaves the block in place: where it is not fetched its
    index has not moved since the point that fetched it. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- Input window 3's current staging buffer holds its block at every point, fetched there or not, for any proof
    data whose array is the entry contents and whose body leaves the block in place: where it is not fetched its
    index has not moved since the point that fetched it. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-- Input window 4's current staging buffer holds its block at every point, fetched there or not, for any proof
    data whose array is the entry contents and whose body leaves the block in place: where it is not fetched its
    index has not moved since the point that fetched it. -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses -/

abbrev r10_0 : Rect S10000x128 := Rect.unit (s := S10000x128) ![0, 0] S10000x128.size inb_S10000x128_S10000x128_0_0
abbrev r10_1 : Rect S1x128 := Rect.unit (s := S1x128) ![0, 0] S1x128.size inb_S1x128_S1x128_0_0

/-! ## What the body leaves in the output window's buffer -/

/-- Window 5's staging buffer after the body, from the input windows' blocks: its one store, of the payload of
    the five loaded values, over the whole tile. -/
def out10_5 (x0 : Vec F S10000x128 .f32) (x1 : Vec F S1x128 .f32) (x2 : Vec F S1x128 .f32) (x3 : Vec F S1x128 .f32) (x4 : Vec F S1x128 .f32) : Vec F S10000x128 .f32 :=
  View.canon [⟨r10_0, k10_pay1 (View.ld x0 r10_0) (View.ld x1 r10_1) (View.ld x2 r10_1) (View.ld x3 r10_1) (View.ld x4 r10_1)⟩]

/-- The one store is of the whole tile, so it covers the buffer. -/
theorem cover10_5 (p0 : Vec F S10000x128 .f32) (y : S10000x128.Idx) :
    ∃ pc ∈ ([⟨r10_0, p0⟩] : List (View.Piece (Elt F) S10000x128 .f32)), y ∈ pc.1.set :=
  View.cover_of_tiled [⟨r10_0, p0⟩] S10000x128.size (by rfl) y

/-! ## The body's triple -/

set_option maxHeartbeats 1000000 in
/-- The kernel body on whole staging memrefs, the inputs' at contents `xW` and the output's at anything, runs to
    the continuation holding the inputs' as they were and the output's at `out10_5` of the inputs'. -/
theorem sound_kernel10 (c : Dev nD) (E : Set ℕ) (i : grid10.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S10000x128 .f32) (harg6 : arg6.IsWhole)
    (x0 : Vec F S10000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out10_5 x0 x1 x2 x3 x4)) -∗ K ⟨⟩))
      ⊢ wp frame (wpE (defs₀ (F := F)) Variants.none c none) E (cc10__bn_relu_kernel i arg1 harg1 arg2 harg2 arg3 harg3 arg4 harg4 arg5 harg5 arg6 harg6) K := by
  simp only [cc10__bn_relu_kernel_eq_skeleton]; unfold cc10__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover10_5 _)

/-! ## The pipeline's proof data -/

/-- The proof data of pipeline 10 on core `c`: the arrays at the entry contents; after the body at point `t` each
    input's buffer at its block and the output's at `out10_5` of the input blocks; the invariant the scoped rest and
    the generator register, untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => out10_5 (iblk10 V c 0 t) (iblk10 V c 1 t) (iblk10 V c 2 t) (iblk10 V c 3 t) (iblk10 V c 4 t)
  Φ _ := Pipeline.ΦA spec10 c
  q _ := fullShare
  owed _ := 0

/-- The proof data's arrays are the entry contents. -/
theorem A_eq10 (c : Dev nD) (w : Fin cfg10.W) : (dat10 V c).A w = V c (Pipeline.arrRef spec10 w) := by
  dsimp only [dat10]

/-- Every window is held at the full share. -/
theorem q_eq10 (c : Dev nD) (w : Fin cfg10.W) : (dat10 V c).q w = fullShare := by
  dsimp only [dat10]

/-- Nothing is owed at any point. -/
theorem owed_eq10 (c : Dev nD) (n : Fin (cfg10.N + 1)) : (dat10 V c).owed n = 0 := by
  dsimp only [dat10]

/-- The invariant at every point is the scoped rest with the generator register. -/
theorem Phi_eq10 (c : Dev nD) (n : Fin (cfg10.N + 1)) : (dat10 V c).Φ n = Pipeline.ΦA spec10 c := by
  dsimp only [dat10]

/-- The invariant holds at the first point of what the region is entered with, -/
theorem Phi_in10 (c : Dev nD) :
    (iprop((∃ r, prngReg c r) ∗ Pipeline.scopedRest (Ix := Unit) (Name := ℕ) (U := UR sig nD τ) (Lvl := ℕ) spec10 c) : sProp 𝕄) ⊢ (dat10 V c).Φ 0 := by
  rw [Phi_eq10]; unfold Pipeline.ΦA
  iintro ⟨Hr, Hp⟩
  isplitl [Hp]; · iexact Hp
  iexact Hr

/-- and gives it back at the last. -/
theorem Phi_out10 (c : Dev nD) :
    (dat10 V c).Φ (Fin.last cfg10.N) ⊢ (iprop((∃ r, prngReg c r) ∗ Pipeline.scopedRest (Ix := Unit) (Name := ℕ) (U := UR sig nD τ) (Lvl := ℕ) spec10 c) : sProp 𝕄) := by
  rw [Phi_eq10]; unfold Pipeline.ΦA
  iintro ⟨Hp, Hr⟩
  isplitl [Hr]; · iexact Hr
  iexact Hp

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = out10_5 (iblk10 V c 0 t) (iblk10 V c 1 t) (iblk10 V c 2 t) (iblk10 V c 3 t) (iblk10 V c 4 t) := by dsimp only [dat10]

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t))

/-- The body at any point: the inputs' memrefs hold their blocks, so the body's triple applies; the invariant and
    the core's debts pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4]
  rw [show (dat10 V c).Φ t.succ = (dat10 V c).Φ t.castSucc from rfl,
    show (dat10 V c).owesAt () t.succ = (dat10 V c).owesAt () t.castSucc from rfl,
    after10_0, after10_1, after10_2, after10_3, after10_4, after10_5]
  iintro ⟨HΦ, Ho, ⟨%d0, H0⟩, ⟨%d1, H1⟩, ⟨%d2, H2⟩, ⟨%d3, H3⟩, ⟨%d4, H4⟩, ⟨%d5, H5⟩⟩
  iapply (sound_kernel10 c Set.univ (grid10.coords t) _ _ _ _ _ _ _ _ _ _ _ _ (iblk10 V c 0 t) (iblk10 V c 1 t) (iblk10 V c 2 t) (iblk10 V c 3 t) (iblk10 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation10 (c : Dev nD) : BodyObligation (dat10 (F := F) V c) (defs₀ (F := F)) Variants.none () Set.univ := fun t => by
  rw [bigSep_W10, bigSep_W10]
  exact sound_body10 V c t

end Cert.Kernel.Hand

end
-- ==== Proof.K.RegLS11.RunA.lean ====
import proofs.«413302_j72232759984513_1_alg».proof.Proof.Gen.Kernel.Launch
import proofs.«413302_j72232759984513_1_alg».proof.Proof.Gen.Kernel.Skeleton
import proofs.«413302_j72232759984513_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 11: the body's run at the first grid point

The body's one conditional tests whether the grid coordinate is zero; there it resets the two running sums before adding
to them. -/

/-- The condition of the body's conditional, from the grid coordinates. -/
abbrev cond11_0 (i : grid11.Coords) : Prop := (Scalar.cmpi .ne (Scalar.extui (Scalar.cmpi .eq (BitVec.ofNat 32 (i 0).val) 0#32)) 0#32) = 1#1
/-- It holds at the first point only: decided over the grid. -/
theorem hcond11_0 : ∀ t : Fin cfg11.N, cond11_0 (grid11.coords t) ↔ t.val % 10 = 0 :=
  (by decide +kernel : ∀ t : Fin grid11.N, cond11_0 (grid11.coords t) ↔ t.val % 10 = 0)

/-- One staging buffer of each output window, through which its contents are stated (the choice does not matter). -/
abbrev VO11_3 : View sig .tc .vmem S10000x128 .f32 := (Memref.whole cc11_stg3_0 : Memref sig .tc .vmem S10000x128 .f32).view
abbrev VO11_4 : View sig .tc .vmem S1x128 .f32 := (Memref.whole cc11_stg4_0 : Memref sig .tc .vmem S1x128 .f32).view
abbrev VO11_5 : View sig .tc .vmem S1x128 .f32 := (Memref.whole cc11_stg5_0 : Memref sig .tc .vmem S1x128 .f32).view

set_option maxHeartbeats 4000000 in
/-- The body where the condition holds. On whole staging memrefs, the three inputs' at contents `x0 x1 x2` and the three
    outputs' at anything, it runs to the continuation holding the inputs' as they were and each output's buffer with
    the pieces its stores wrote (last first): the pieces are the witness the run finds. -/
noncomputable def kernelRun11_A (c : Dev nD) (i : grid11.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond11_0 i)
    (x0 : Vec F S10000x128 .f32) (x1 : Vec F S128x128 .f32) (x2 : Vec F S1x128 .f32) :
    Σ' (L3 : List (View.Piece (Elt F) S10000x128 .f32)), Σ' (L4 : List (View.Piece (Elt F) S1x128 .f32)), { L5 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc11__linear_stats_kernel i arg1 harg1 arg2 harg2 arg3 harg3 arg4 harg4 arg5 harg5 arg6 harg6) K } := by
  refine ⟨?_, ?_, ?_, fun E K => ?run⟩
  case run =>
    simp only [cc11__linear_stats_kernel_eq_skeleton]; unfold cc11__linear_stats_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

end Cert.Kernel.Hand

end
-- ==== Proof.K.RegLS11.RunB.lean ====
import proofs.«413302_j72232759984513_1_alg».proof.Proof.K.RegLS11.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 11: the body's run at a later grid point

The condition fails: the two running sums are read as the point before left them and added to. -/

set_option maxHeartbeats 4000000 in
/-- The body where the condition fails. On whole staging memrefs, the three inputs' at contents `x0 x1 x2`, the two
    running sums' at `xo4 xo5` and the first output's at anything, it runs to the continuation holding the inputs' as they
    were and each output's buffer with the pieces its stores wrote (last first): the pieces are the witness the run finds. -/
noncomputable def kernelRun11_B (c : Dev nD) (i : grid11.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond11_0 i)
    (x0 : Vec F S10000x128 .f32) (x1 : Vec F S128x128 .f32) (x2 : Vec F S1x128 .f32) (xo4 : Vec F S1x128 .f32) (xo5 : Vec F S1x128 .f32) :
    Σ' (L3 : List (View.Piece (Elt F) S10000x128 .f32)), Σ' (L4 : List (View.Piece (Elt F) S1x128 .f32)), { L5 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xo4 ∗ owns (c : Thread nD τ) arg6 fullShare xo5
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc11__linear_stats_kernel i arg1 harg1 arg2 harg2 arg3 harg3 arg4 harg4 arg5 harg5 arg6 harg6) K } := by
  refine ⟨?_, ?_, ?_, fun E K => ?run⟩
  case run =>
    simp only [cc11__linear_stats_kernel_eq_skeleton]; unfold cc11__linear_stats_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
    obtain rfl := harg1.eq_unread hf0; obtain rfl := harg2.eq_unread hf1; obtain rfl := harg3.eq_unread hf2
    obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

end Cert.Kernel.Hand

end
-- ==== Proof.K.RegLS11.lean ====
import proofs.«413302_j72232759984513_1_alg».proof.Proof.K.RegLS11.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 11: the proof data and the body obligation, at the contents the region is entered with

The kernel stores `x·W + b` for its tile of rows in output window 3 and keeps two running sums, output windows 4 and 5:
reset at the first grid point, added to at every point, written back after the last. Everything is stated at a
parameter `V`, the TensorCore's buffer contents when the region is entered. -/

section Region

variable (V : (c : Dev nD) → (b : Ref sig .tc) → Buf (Elt F) ((c : Thread nD τ).loc b))

/-! ## The windows' blocks -/

/-- Window `w`'s block at point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-! An input window's current staging buffer holds its block at every point, fetched there or not (unfetched, the block
    index has not moved), for any proof data whose array is the entry contents and whose body leaves the block in place. -/

theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-- Each window's current staging memref at point `t`, and its wholeness. -/
abbrev ms11_0 (t : Fin cfg11.N) : Memref sig .tc .vmem S10000x128 .f32 := win11_0.stage (cfg11.slots t 0)
abbrev hs11_0 (t : Fin cfg11.N) : (ms11_0 t).IsWhole := hstage11_0 ((cfg11.slots t 0).cast nbuf11_0)
abbrev ms11_1 (t : Fin cfg11.N) : Memref sig .tc .vmem S128x128 .f32 := win11_1.stage (cfg11.slots t 1)
abbrev hs11_1 (t : Fin cfg11.N) : (ms11_1 t).IsWhole := hstage11_1 ((cfg11.slots t 1).cast nbuf11_1)
abbrev ms11_2 (t : Fin cfg11.N) : Memref sig .tc .vmem S1x128 .f32 := win11_2.stage (cfg11.slots t 2)
abbrev hs11_2 (t : Fin cfg11.N) : (ms11_2 t).IsWhole := hstage11_2 ((cfg11.slots t 2).cast nbuf11_2)
abbrev ms11_3 (t : Fin cfg11.N) : Memref sig .tc .vmem S10000x128 .f32 := win11_3.stage (cfg11.slots t 3)
abbrev hs11_3 (t : Fin cfg11.N) : (ms11_3 t).IsWhole := hstage11_3 ((cfg11.slots t 3).cast nbuf11_3)
abbrev ms11_4 (t : Fin cfg11.N) : Memref sig .tc .vmem S1x128 .f32 := win11_4.stage (cfg11.slots t 4)
abbrev hs11_4 (t : Fin cfg11.N) : (ms11_4 t).IsWhole := hstage11_4 ((cfg11.slots t 4).cast nbuf11_4)
abbrev ms11_5 (t : Fin cfg11.N) : Memref sig .tc .vmem S1x128 .f32 := win11_5.stage (cfg11.slots t 5)
abbrev hs11_5 (t : Fin cfg11.N) : (ms11_5 t).IsWhole := hstage11_5 ((cfg11.slots t 5).cast nbuf11_5)

/-! ## What each case of the body leaves in the outputs' buffers -/

/-- The pieces the body where the condition holds writes to output 3 tile its block, so they cover it. -/
theorem cover11_A_3 (c : Dev nD) (i : grid11.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond11_0 i)
    (x0 : Vec F S10000x128 .f32) (x1 : Vec F S128x128 .f32) (x2 : Vec F S1x128 .f32) (y : S10000x128.Idx) :
    ∃ pc ∈ (kernelRun11_A c i arg1 harg1 arg2 harg2 arg3 harg3 arg4 harg4 arg5 harg5 arg6 harg6 hc0 x0 x1 x2).1, y ∈ pc.1.set :=
  View.cover_of_tiledL (kernelRun11_A c i arg1 harg1 arg2 harg2 arg3 harg3 arg4 harg4 arg5 harg5 arg6 harg6 hc0 x0 x1 x2).1 S10000x128.size (by sl_kernel_rfl) y

/-- What that run leaves in output 3's staging buffer: its pieces read back over arbitrary contents. -/
def out11_A_3 (c : Dev nD) (i : grid11.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond11_0 i)
    (x0 : Vec F S10000x128 .f32) (x1 : Vec F S128x128 .f32) (x2 : Vec F S1x128 .f32) : Vec F S10000x128 .f32 :=
  VO11_3.read (Elt F) (VO11_3.writes (Elt F) VO11_3.junk (kernelRun11_A c i arg1 harg1 arg2 harg2 arg3 harg3 arg4 harg4 arg5 harg5 arg6 harg6 hc0 x0 x1 x2).1)

/-- The pieces the body where the condition holds writes to output 4 tile its block, so they cover it. -/
theorem cover11_A_4 (c : Dev nD) (i : grid11.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond11_0 i)
    (x0 : Vec F S10000x128 .f32) (x1 : Vec F S128x128 .f32) (x2 : Vec F S1x128 .f32) (y : S1x128.Idx) :
    ∃ pc ∈ (kernelRun11_A c i arg1 harg1 arg2 harg2 arg3 harg3 arg4 harg4 arg5 harg5 arg6 harg6 hc0 x0 x1 x2).2.1, y ∈ pc.1.set :=
  View.cover_of_tiledL (kernelRun11_A c i arg1 harg1 arg2 harg2 arg3 harg3 arg4 harg4 arg5 harg5 arg6 harg6 hc0 x0 x1 x2).2.1 S1x128.size (by sl_kernel_rfl) y

/-- What that run leaves in output 4's staging buffer: its pieces read back over arbitrary contents. -/
def out11_A_4 (c : Dev nD) (i : grid11.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond11_0 i)
    (x0 : Vec F S10000x128 .f32) (x1 : Vec F S128x128 .f32) (x2 : Vec F S1x128 .f32) : Vec F S1x128 .f32 :=
  VO11_4.read (Elt F) (VO11_4.writes (Elt F) VO11_4.junk (kernelRun11_A c i arg1 harg1 arg2 harg2 arg3 harg3 arg4 harg4 arg5 harg5 arg6 harg6 hc0 x0 x1 x2).2.1)

/-- The pieces the body where the condition holds writes to output 5 tile its block, so they cover it. -/
theorem cover11_A_5 (c : Dev nD) (i : grid11.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond11_0 i)
    (x0 : Vec F S10000x128 .f32) (x1 : Vec F S128x128 .f32) (x2 : Vec F S1x128 .f32) (y : S1x128.Idx) :
    ∃ pc ∈ (kernelRun11_A c i arg1 harg1 arg2 harg2 arg3 harg3 arg4 harg4 arg5 harg5 arg6 harg6 hc0 x0 x1 x2).2.2.1, y ∈ pc.1.set :=
  View.cover_of_tiledL (kernelRun11_A c i arg1 harg1 arg2 harg2 arg3 harg3 arg4 harg4 arg5 harg5 arg6 harg6 hc0 x0 x1 x2).2.2.1 S1x128.size (by sl_kernel_rfl) y

/-- What that run leaves in output 5's staging buffer: its pieces read back over arbitrary contents. -/
def out11_A_5 (c : Dev nD) (i : grid11.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond11_0 i)
    (x0 : Vec F S10000x128 .f32) (x1 : Vec F S128x128 .f32) (x2 : Vec F S1x128 .f32) : Vec F S1x128 .f32 :=
  VO11_5.read (Elt F) (VO11_5.writes (Elt F) VO11_5.junk (kernelRun11_A c i arg1 harg1 arg2 harg2 arg3 harg3 arg4 harg4 arg5 harg5 arg6 harg6 hc0 x0 x1 x2).2.2.1)

/-- The pieces the body where the condition fails writes to output 3 tile its block, so they cover it. -/
theorem cover11_B_3 (c : Dev nD) (i : grid11.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond11_0 i)
    (x0 : Vec F S10000x128 .f32) (x1 : Vec F S128x128 .f32) (x2 : Vec F S1x128 .f32) (xo4 : Vec F S1x128 .f32) (xo5 : Vec F S1x128 .f32) (y : S10000x128.Idx) :
    ∃ pc ∈ (kernelRun11_B c i arg1 harg1 arg2 harg2 arg3 harg3 arg4 harg4 arg5 harg5 arg6 harg6 hc0 x0 x1 x2 xo4 xo5).1, y ∈ pc.1.set :=
  View.cover_of_tiledL (kernelRun11_B c i arg1 harg1 arg2 harg2 arg3 harg3 arg4 harg4 arg5 harg5 arg6 harg6 hc0 x0 x1 x2 xo4 xo5).1 S10000x128.size (by sl_kernel_rfl) y

/-- What that run leaves in output 3's staging buffer: its pieces read back over arbitrary contents. -/
def out11_B_3 (c : Dev nD) (i : grid11.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond11_0 i)
    (x0 : Vec F S10000x128 .f32) (x1 : Vec F S128x128 .f32) (x2 : Vec F S1x128 .f32) (xo4 : Vec F S1x128 .f32) (xo5 : Vec F S1x128 .f32) : Vec F S10000x128 .f32 :=
  VO11_3.read (Elt F) (VO11_3.writes (Elt F) VO11_3.junk (kernelRun11_B c i arg1 harg1 arg2 harg2 arg3 harg3 arg4 harg4 arg5 harg5 arg6 harg6 hc0 x0 x1 x2 xo4 xo5).1)

/-- The pieces the body where the condition fails writes to output 4 tile its block, so they cover it. -/
theorem cover11_B_4 (c : Dev nD) (i : grid11.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond11_0 i)
    (x0 : Vec F S10000x128 .f32) (x1 : Vec F S128x128 .f32) (x2 : Vec F S1x128 .f32) (xo4 : Vec F S1x128 .f32) (xo5 : Vec F S1x128 .f32) (y : S1x128.Idx) :
    ∃ pc ∈ (kernelRun11_B c i arg1 harg1 arg2 harg2 arg3 harg3 arg4 harg4 arg5 harg5 arg6 harg6 hc0 x0 x1 x2 xo4 xo5).2.1, y ∈ pc.1.set :=
  View.cover_of_tiledL (kernelRun11_B c i arg1 harg1 arg2 harg2 arg3 harg3 arg4 harg4 arg5 harg5 arg6 harg6 hc0 x0 x1 x2 xo4 xo5).2.1 S1x128.size (by sl_kernel_rfl) y

/-- What that run leaves in output 4's staging buffer: its pieces read back over arbitrary contents. -/
def out11_B_4 (c : Dev nD) (i : grid11.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond11_0 i)
    (x0 : Vec F S10000x128 .f32) (x1 : Vec F S128x128 .f32) (x2 : Vec F S1x128 .f32) (xo4 : Vec F S1x128 .f32) (xo5 : Vec F S1x128 .f32) : Vec F S1x128 .f32 :=
  VO11_4.read (Elt F) (VO11_4.writes (Elt F) VO11_4.junk (kernelRun11_B c i arg1 harg1 arg2 harg2 arg3 harg3 arg4 harg4 arg5 harg5 arg6 harg6 hc0 x0 x1 x2 xo4 xo5).2.1)

/-- The pieces the body where the condition fails writes to output 5 tile its block, so they cover it. -/
theorem cover11_B_5 (c : Dev nD) (i : grid11.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond11_0 i)
    (x0 : Vec F S10000x128 .f32) (x1 : Vec F S128x128 .f32) (x2 : Vec F S1x128 .f32) (xo4 : Vec F S1x128 .f32) (xo5 : Vec F S1x128 .f32) (y : S1x128.Idx) :
    ∃ pc ∈ (kernelRun11_B c i arg1 harg1 arg2 harg2 arg3 harg3 arg4 harg4 arg5 harg5 arg6 harg6 hc0 x0 x1 x2 xo4 xo5).2.2.1, y ∈ pc.1.set :=
  View.cover_of_tiledL (kernelRun11_B c i arg1 harg1 arg2 harg2 arg3 harg3 arg4 harg4 arg5 harg5 arg6 harg6 hc0 x0 x1 x2 xo4 xo5).2.2.1 S1x128.size (by sl_kernel_rfl) y

/-- What that run leaves in output 5's staging buffer: its pieces read back over arbitrary contents. -/
def out11_B_5 (c : Dev nD) (i : grid11.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond11_0 i)
    (x0 : Vec F S10000x128 .f32) (x1 : Vec F S128x128 .f32) (x2 : Vec F S1x128 .f32) (xo4 : Vec F S1x128 .f32) (xo5 : Vec F S1x128 .f32) : Vec F S1x128 .f32 :=
  VO11_5.read (Elt F) (VO11_5.writes (Elt F) VO11_5.junk (kernelRun11_B c i arg1 harg1 arg2 harg2 arg3 harg3 arg4 harg4 arg5 harg5 arg6 harg6 hc0 x0 x1 x2 xo4 xo5).2.2.1)

/-! ## What the outputs hold after each point -/

/-- What the three outputs' staging buffers hold after the body at position `n`, by recursion on the point: at the first
    point the resetting case, run at the point's input blocks; at a later point the adding case, the running sums read
    as the point before left them (their buffers are not written back between). -/
def outsAt11 (c : Dev nD) : (n : ℕ) → n < cfg11.N → Vec F S10000x128 .f32 × Vec F S1x128 .f32 × Vec F S1x128 .f32
  | 0, hn => (out11_A_3 c (grid11.coords ⟨0, hn⟩) (ms11_0 ⟨0, hn⟩) (hs11_0 ⟨0, hn⟩) (ms11_1 ⟨0, hn⟩) (hs11_1 ⟨0, hn⟩) (ms11_2 ⟨0, hn⟩) (hs11_2 ⟨0, hn⟩) (ms11_3 ⟨0, hn⟩) (hs11_3 ⟨0, hn⟩) (ms11_4 ⟨0, hn⟩) (hs11_4 ⟨0, hn⟩) (ms11_5 ⟨0, hn⟩) (hs11_5 ⟨0, hn⟩) ((hcond11_0 ⟨0, hn⟩).mpr (Nat.zero_mod _)) (iblk11 V c 0 ⟨0, hn⟩) (iblk11 V c 1 ⟨0, hn⟩) (iblk11 V c 2 ⟨0, hn⟩),
       out11_A_4 c (grid11.coords ⟨0, hn⟩) (ms11_0 ⟨0, hn⟩) (hs11_0 ⟨0, hn⟩) (ms11_1 ⟨0, hn⟩) (hs11_1 ⟨0, hn⟩) (ms11_2 ⟨0, hn⟩) (hs11_2 ⟨0, hn⟩) (ms11_3 ⟨0, hn⟩) (hs11_3 ⟨0, hn⟩) (ms11_4 ⟨0, hn⟩) (hs11_4 ⟨0, hn⟩) (ms11_5 ⟨0, hn⟩) (hs11_5 ⟨0, hn⟩) ((hcond11_0 ⟨0, hn⟩).mpr (Nat.zero_mod _)) (iblk11 V c 0 ⟨0, hn⟩) (iblk11 V c 1 ⟨0, hn⟩) (iblk11 V c 2 ⟨0, hn⟩),
       out11_A_5 c (grid11.coords ⟨0, hn⟩) (ms11_0 ⟨0, hn⟩) (hs11_0 ⟨0, hn⟩) (ms11_1 ⟨0, hn⟩) (hs11_1 ⟨0, hn⟩) (ms11_2 ⟨0, hn⟩) (hs11_2 ⟨0, hn⟩) (ms11_3 ⟨0, hn⟩) (hs11_3 ⟨0, hn⟩) (ms11_4 ⟨0, hn⟩) (hs11_4 ⟨0, hn⟩) (ms11_5 ⟨0, hn⟩) (hs11_5 ⟨0, hn⟩) ((hcond11_0 ⟨0, hn⟩).mpr (Nat.zero_mod _)) (iblk11 V c 0 ⟨0, hn⟩) (iblk11 V c 1 ⟨0, hn⟩) (iblk11 V c 2 ⟨0, hn⟩))
  | n + 1, hn =>
    if h0 : (n + 1) % 10 = 0 then
      (out11_A_3 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) (ms11_4 ⟨n + 1, hn⟩) (hs11_4 ⟨n + 1, hn⟩) (ms11_5 ⟨n + 1, hn⟩) (hs11_5 ⟨n + 1, hn⟩) ((hcond11_0 ⟨n + 1, hn⟩).mpr h0) (iblk11 V c 0 ⟨n + 1, hn⟩) (iblk11 V c 1 ⟨n + 1, hn⟩) (iblk11 V c 2 ⟨n + 1, hn⟩),
       out11_A_4 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) (ms11_4 ⟨n + 1, hn⟩) (hs11_4 ⟨n + 1, hn⟩) (ms11_5 ⟨n + 1, hn⟩) (hs11_5 ⟨n + 1, hn⟩) ((hcond11_0 ⟨n + 1, hn⟩).mpr h0) (iblk11 V c 0 ⟨n + 1, hn⟩) (iblk11 V c 1 ⟨n + 1, hn⟩) (iblk11 V c 2 ⟨n + 1, hn⟩),
       out11_A_5 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) (ms11_4 ⟨n + 1, hn⟩) (hs11_4 ⟨n + 1, hn⟩) (ms11_5 ⟨n + 1, hn⟩) (hs11_5 ⟨n + 1, hn⟩) ((hcond11_0 ⟨n + 1, hn⟩).mpr h0) (iblk11 V c 0 ⟨n + 1, hn⟩) (iblk11 V c 1 ⟨n + 1, hn⟩) (iblk11 V c 2 ⟨n + 1, hn⟩))
    else
      (out11_B_3 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) (ms11_4 ⟨n + 1, hn⟩) (hs11_4 ⟨n + 1, hn⟩) (ms11_5 ⟨n + 1, hn⟩) (hs11_5 ⟨n + 1, hn⟩) (fun h => h0 ((hcond11_0 ⟨n + 1, hn⟩).mp h)) (iblk11 V c 0 ⟨n + 1, hn⟩) (iblk11 V c 1 ⟨n + 1, hn⟩) (iblk11 V c 2 ⟨n + 1, hn⟩) (outsAt11 c n (Nat.lt_of_succ_lt hn)).2.1 (outsAt11 c n (Nat.lt_of_succ_lt hn)).2.2,
       out11_B_4 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) (ms11_4 ⟨n + 1, hn⟩) (hs11_4 ⟨n + 1, hn⟩) (ms11_5 ⟨n + 1, hn⟩) (hs11_5 ⟨n + 1, hn⟩) (fun h => h0 ((hcond11_0 ⟨n + 1, hn⟩).mp h)) (iblk11 V c 0 ⟨n + 1, hn⟩) (iblk11 V c 1 ⟨n + 1, hn⟩) (iblk11 V c 2 ⟨n + 1, hn⟩) (outsAt11 c n (Nat.lt_of_succ_lt hn)).2.1 (outsAt11 c n (Nat.lt_of_succ_lt hn)).2.2,
       out11_B_5 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) (ms11_4 ⟨n + 1, hn⟩) (hs11_4 ⟨n + 1, hn⟩) (ms11_5 ⟨n + 1, hn⟩) (hs11_5 ⟨n + 1, hn⟩) (fun h => h0 ((hcond11_0 ⟨n + 1, hn⟩).mp h)) (iblk11 V c 0 ⟨n + 1, hn⟩) (iblk11 V c 1 ⟨n + 1, hn⟩) (iblk11 V c 2 ⟨n + 1, hn⟩) (outsAt11 c n (Nat.lt_of_succ_lt hn)).2.1 (outsAt11 c n (Nat.lt_of_succ_lt hn)).2.2)

/-- `outsAt11` at a point where the condition holds. -/
theorem outsAt11_A (c : Dev nD) (t : Fin cfg11.N) (h0 : t.val % 10 = 0) :
    outsAt11 V c t.val t.isLt = (out11_A_3 c (grid11.coords t) (ms11_0 t) (hs11_0 t) (ms11_1 t) (hs11_1 t) (ms11_2 t) (hs11_2 t) (ms11_3 t) (hs11_3 t) (ms11_4 t) (hs11_4 t) (ms11_5 t) (hs11_5 t) ((hcond11_0 t).mpr h0) (iblk11 V c 0 t) (iblk11 V c 1 t) (iblk11 V c 2 t),
       out11_A_4 c (grid11.coords t) (ms11_0 t) (hs11_0 t) (ms11_1 t) (hs11_1 t) (ms11_2 t) (hs11_2 t) (ms11_3 t) (hs11_3 t) (ms11_4 t) (hs11_4 t) (ms11_5 t) (hs11_5 t) ((hcond11_0 t).mpr h0) (iblk11 V c 0 t) (iblk11 V c 1 t) (iblk11 V c 2 t),
       out11_A_5 c (grid11.coords t) (ms11_0 t) (hs11_0 t) (ms11_1 t) (hs11_1 t) (ms11_2 t) (hs11_2 t) (ms11_3 t) (hs11_3 t) (ms11_4 t) (hs11_4 t) (ms11_5 t) (hs11_5 t) ((hcond11_0 t).mpr h0) (iblk11 V c 0 t) (iblk11 V c 1 t) (iblk11 V c 2 t)) := by
  obtain ⟨n, hn⟩ := t
  cases n with
  | zero => exact rfl
  | succ n => exact (dif_pos h0).trans rfl

/-- `outsAt11` at a point where it fails: over what the point before left. -/
theorem outsAt11_B (c : Dev nD) (t : Fin cfg11.N) (h0 : ¬t.val % 10 = 0) :
    outsAt11 V c t.val t.isLt = (out11_B_3 c (grid11.coords t) (ms11_0 t) (hs11_0 t) (ms11_1 t) (hs11_1 t) (ms11_2 t) (hs11_2 t) (ms11_3 t) (hs11_3 t) (ms11_4 t) (hs11_4 t) (ms11_5 t) (hs11_5 t) (fun h => h0 ((hcond11_0 t).mp h)) (iblk11 V c 0 t) (iblk11 V c 1 t) (iblk11 V c 2 t) (outsAt11 V c (t.val - 1) (Nat.lt_of_le_of_lt (Nat.sub_le _ _) t.isLt)).2.1 (outsAt11 V c (t.val - 1) (Nat.lt_of_le_of_lt (Nat.sub_le _ _) t.isLt)).2.2,
       out11_B_4 c (grid11.coords t) (ms11_0 t) (hs11_0 t) (ms11_1 t) (hs11_1 t) (ms11_2 t) (hs11_2 t) (ms11_3 t) (hs11_3 t) (ms11_4 t) (hs11_4 t) (ms11_5 t) (hs11_5 t) (fun h => h0 ((hcond11_0 t).mp h)) (iblk11 V c 0 t) (iblk11 V c 1 t) (iblk11 V c 2 t) (outsAt11 V c (t.val - 1) (Nat.lt_of_le_of_lt (Nat.sub_le _ _) t.isLt)).2.1 (outsAt11 V c (t.val - 1) (Nat.lt_of_le_of_lt (Nat.sub_le _ _) t.isLt)).2.2,
       out11_B_5 c (grid11.coords t) (ms11_0 t) (hs11_0 t) (ms11_1 t) (hs11_1 t) (ms11_2 t) (hs11_2 t) (ms11_3 t) (hs11_3 t) (ms11_4 t) (hs11_4 t) (ms11_5 t) (hs11_5 t) (fun h => h0 ((hcond11_0 t).mp h)) (iblk11 V c 0 t) (iblk11 V c 1 t) (iblk11 V c 2 t) (outsAt11 V c (t.val - 1) (Nat.lt_of_le_of_lt (Nat.sub_le _ _) t.isLt)).2.1 (outsAt11 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t` each
    input's buffer at its block and the outputs' at `outsAt11`; the invariant the scoped rest and the generator register,
    untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => (outsAt11 V c t.val t.isLt).1
    | ⟨4, _⟩ => (outsAt11 V c t.val t.isLt).2.1
    | ⟨5, _⟩ => (outsAt11 V c t.val t.isLt).2.2
  Φ _ := Pipeline.ΦA spec11 c
  q _ := fullShare
  owed _ := 0

/-- The proof data's arrays are the region-entry contents. -/
theorem A_eq11 (c : Dev nD) (w : Fin cfg11.W) : (dat11 V c).A w = V c (Pipeline.arrRef spec11 w) := by
  dsimp only [dat11]
/-- Its shares are full. -/
theorem q_eq11 (c : Dev nD) (w : Fin cfg11.W) : (dat11 V c).q w = fullShare := by
  dsimp only [dat11]
/-- It owes nothing. -/
theorem owed_eq11 (c : Dev nD) (n : Fin (cfg11.N + 1)) : (dat11 V c).owed n = 0 := by
  dsimp only [dat11]

/-- The generator register and the scoped rest make the invariant at the first boundary, -/
theorem Phi_in11 (c : Dev nD) : (iprop((∃ r, prngReg c r) ∗ Pipeline.scopedRest (Ix := Unit) (Name := ℕ) (U := UR sig nD τ) (Lvl := ℕ) spec11 c) : sProp 𝕄) ⊢ (dat11 V c).Φ 0 := by
  rw [show (dat11 V c).Φ 0 = Pipeline.ΦA spec11 c from rfl]; unfold Pipeline.ΦA
  iintro ⟨Hp, Hr⟩
  isplitl [Hr]; · iexact Hr
  iexact Hp
/-- and the invariant at the last gives them back. -/
theorem Phi_out11 (c : Dev nD) : (dat11 V c).Φ (Fin.last cfg11.N) ⊢ (iprop((∃ r, prngReg c r) ∗ Pipeline.scopedRest (Ix := Unit) (Name := ℕ) (U := UR sig nD τ) (Lvl := ℕ) spec11 c) : sProp 𝕄) := by
  rw [show (dat11 V c).Φ (Fin.last _) = Pipeline.ΦA spec11 c from rfl]; unfold Pipeline.ΦA
  iintro ⟨Hr, Hp⟩
  isplitl [Hp]; · iexact Hp
  iexact Hr

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = (outsAt11 V c t.val t.isLt).1 := by dsimp only [dat11]
theorem after11_4 (c : Dev nD) (t : Fin cfg11.N) : (dat11 V c).after 4 t = (outsAt11 V c t.val t.isLt).2.1 := by dsimp only [dat11]
theorem after11_5 (c : Dev nD) (t : Fin cfg11.N) : (dat11 V c).after 5 t = (outsAt11 V c t.val t.isLt).2.2 := by dsimp only [dat11]

/-- Each input's current staging buffer holds its block at every point. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
/-- At a later point a running sum's staging buffer holds what the body left at the point before: the buffer was not
    written back between, and the window is live and uncut. -/
theorem before11_4_B (c : Dev nD) (t : Fin cfg11.N) (h0 : ¬t.val % 10 = 0) (d) :
    (dat11 V c).before 4 t d = (outsAt11 V c (t.val - 1) (Nat.lt_of_le_of_lt (Nat.sub_le _ _) t.isLt)).2.1 := by
  have hN : t.val < 10 := lt_of_lt_of_eq t.isLt (show cfg11.N = 10 from N_11)
  rw [Dat.before_out_kept _ 4 rfl t (by omega) (Bool.eq_false_iff.mpr fun h => by have := (flush11_4 _).mp h; dsimp only at this; omega)
    (fun _ => rfl) (fun _ _ => rfl)]
  dsimp only [dat11]
theorem before11_5_B (c : Dev nD) (t : Fin cfg11.N) (h0 : ¬t.val % 10 = 0) (d) :
    (dat11 V c).before 5 t d = (outsAt11 V c (t.val - 1) (Nat.lt_of_le_of_lt (Nat.sub_le _ _) t.isLt)).2.2 := by
  have hN : t.val < 10 := lt_of_lt_of_eq t.isLt (show cfg11.N = 10 from N_11)
  rw [Dat.before_out_kept _ 5 rfl t (by omega) (Bool.eq_false_iff.mpr fun h => by have := (flush11_5 _).mp h; dsimp only at this; omega)
    (fun _ => rfl) (fun _ _ => rfl)]
  dsimp only [dat11]

/-! ## The body obligation, at a generic point -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t))

set_option maxHeartbeats 1600000 in
/-- The body at any point: the inputs' memrefs hold their blocks; the closed form of the condition says which case the
    point is in; at a later point the running sums hold what the point before left; so that case's run applies; the
    invariant passes through unread; the core owes nothing throughout. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2]
  rw [show (dat11 V c).Φ t.succ = (dat11 V c).Φ t.castSucc from rfl,
    show (dat11 V c).owesAt () t.succ = (dat11 V c).owesAt () t.castSucc from rfl,
    after11_0, after11_1, after11_2, after11_3, after11_4, after11_5]
  have hN : t.val < 10 := lt_of_lt_of_eq t.isLt (show cfg11.N = 10 from N_11)
  by_cases h0 : t.val % 10 = 0
  · rw [outsAt11_A V c t h0]
    try dsimp only
    unfold out11_A_3 out11_A_4 out11_A_5
    iintro ⟨HΦ, Ho, ⟨%d0, H0⟩, ⟨%d1, H1⟩, ⟨%d2, H2⟩, ⟨%d3, H3⟩, ⟨%d4, H4⟩, ⟨%d5, H5⟩⟩
    iapply ((kernelRun11_A c (grid11.coords t) _ _ _ _ _ _ _ _ _ _ _ _ ((hcond11_0 t).mpr h0) (iblk11 V c 0 t) (iblk11 V c 1 t) (iblk11 V c 2 t)).2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover11_A_3 c _ _ _ _ _ _ _ _ _ _ _ _ _ _ _ _ _)
    isplitl [H4]
    · unfold owns; iexists _; isplitr
      swap; · iexact H4
      ipureintro; exact View.read_writes_of_cover _ _ _ _ _ (cover11_A_4 c _ _ _ _ _ _ _ _ _ _ _ _ _ _ _ _ _)
    unfold owns; iexists _; isplitr
    swap; · iexact H5
    ipureintro; exact View.read_writes_of_cover _ _ _ _ _ (cover11_A_5 c _ _ _ _ _ _ _ _ _ _ _ _ _ _ _ _ _)
  · rw [outsAt11_B V c t h0]
    simp only [before11_4_B V c t h0, before11_5_B V c t h0]
    try dsimp only
    unfold out11_B_3 out11_B_4 out11_B_5
    iintro ⟨HΦ, Ho, ⟨%d0, H0⟩, ⟨%d1, H1⟩, ⟨%d2, H2⟩, ⟨%d3, H3⟩, ⟨%d4, H4⟩, ⟨%d5, H5⟩⟩
    iapply ((kernelRun11_B c (grid11.coords t) _ _ _ _ _ _ _ _ _ _ _ _ (fun h => h0 ((hcond11_0 t).mp h)) (iblk11 V c 0 t) (iblk11 V c 1 t) (iblk11 V c 2 t) _ _).2.2.2 Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover11_B_3 c _ _ _ _ _ _ _ _ _ _ _ _ _ _ _ _ _ _ _)
    isplitl [H4]
    · unfold owns; iexists _; isplitr
      swap; · iexact H4
      ipureintro; exact View.read_writes_of_cover _ _ _ _ _ (cover11_B_4 c _ _ _ _ _ _ _ _ _ _ _ _ _ _ _ _ _ _ _)
    unfold owns; iexists _; isplitr
    swap; · iexact H5
    ipureintro; exact View.read_writes_of_cover _ _ _ _ _ (cover11_B_5 c _ _ _ _ _ _ _ _ _ _ _ _ _ _ _ _ _ _ _)

/-- The library's body obligation, at every point. -/
theorem body_obligation11 (c : Dev nD) : BodyObligation (dat11 (F := F) V c) (defs₀ (F := F)) Variants.none () Set.univ := fun t => by
  rw [bigSep_W11, bigSep_W11]
  exact sound_body11 V c t

end Region

end Cert.Kernel.Hand

end
-- ==== Proof.K.RegBN12.lean ====
import proofs.«413302_j72232759984513_1_alg».proof.Proof.Gen.Kernel.Launch
import proofs.«413302_j72232759984513_1_alg».proof.Proof.Gen.Kernel.Skeleton
import proofs.«413302_j72232759984513_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Kernel region 12: the batch-norm-and-ReLU body, its frame half

The body reads a tile of 10000 rows of `h` and four rows `mu`, `inv`, `g`, `be` of 128 lanes each, and stores
`max ((h - mu) * inv * g + be) 0` over the whole output tile. Its six windows are staged whole, so each input's
buffer holds its block of the entry contents at every point and the output's holds the payload of those blocks. -/

-- membership in a rectangle with an axis of 10000 coordinates: the structural check recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array at the entry contents. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0's current staging buffer holds its block at every point, fetched there or not, for any proof
    data whose array is the entry contents and whose body leaves the block in place: where it is not fetched its
    index has not moved since the point that fetched it. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- Input window 1's current staging buffer holds its block at every point, fetched there or not, for any proof
    data whose array is the entry contents and whose body leaves the block in place: where it is not fetched its
    index has not moved since the point that fetched it. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- Input window 2's current staging buffer holds its block at every point, fetched there or not, for any proof
    data whose array is the entry contents and whose body leaves the block in place: where it is not fetched its
    index has not moved since the point that fetched it. -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-- Input window 3's current staging buffer holds its block at every point, fetched there or not, for any proof
    data whose array is the entry contents and whose body leaves the block in place: where it is not fetched its
    index has not moved since the point that fetched it. -/
theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)

/-- Input window 4's current staging buffer holds its block at every point, fetched there or not, for any proof
    data whose array is the entry contents and whose body leaves the block in place: where it is not fetched its
    index has not moved since the point that fetched it. -/
theorem before12_4_of {c : Dev nD} (dat : Dat τ (Elt F) Unit ℕ (UR sig nD τ) ℕ cfg12 c) (hA : dat.A 4 = V c (Pipeline.arrRef spec12 4))
    (hafter : ∀ t, dat.after 4 t = iblk12 V c 4 t) (t : Fin cfg12.N) (d) : dat.before 4 t d = iblk12 V c 4 t :=
  (dat.before_in_eq_fetched 4 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses -/

abbrev r12_0 : Rect S10000x128 := Rect.unit (s := S10000x128) ![0, 0] S10000x128.size inb_S10000x128_S10000x128_0_0
abbrev r12_1 : Rect S1x128 := Rect.unit (s := S1x128) ![0, 0] S1x128.size inb_S1x128_S1x128_0_0

/-! ## What the body leaves in the output window's buffer -/

/-- Window 5's staging buffer after the body, from the input windows' blocks: its one store, of the payload of
    the five loaded values, over the whole tile. -/
def out12_5 (x0 : Vec F S10000x128 .f32) (x1 : Vec F S1x128 .f32) (x2 : Vec F S1x128 .f32) (x3 : Vec F S1x128 .f32) (x4 : Vec F S1x128 .f32) : Vec F S10000x128 .f32 :=
  View.canon [⟨r12_0, k12_pay1 (View.ld x0 r12_0) (View.ld x1 r12_1) (View.ld x2 r12_1) (View.ld x3 r12_1) (View.ld x4 r12_1)⟩]

/-- The one store is of the whole tile, so it covers the buffer. -/
theorem cover12_5 (p0 : Vec F S10000x128 .f32) (y : S10000x128.Idx) :
    ∃ pc ∈ ([⟨r12_0, p0⟩] : List (View.Piece (Elt F) S10000x128 .f32)), y ∈ pc.1.set :=
  View.cover_of_tiled [⟨r12_0, p0⟩] S10000x128.size (by rfl) y

/-! ## The body's triple -/

set_option maxHeartbeats 1000000 in
/-- The kernel body on whole staging memrefs, the inputs' at contents `xW` and the output's at anything, runs to
    the continuation holding the inputs' as they were and the output's at `out12_5` of the inputs'. -/
theorem sound_kernel12 (c : Dev nD) (E : Set ℕ) (i : grid12.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S10000x128 .f32) (harg6 : arg6.IsWhole)
    (x0 : Vec F S10000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out12_5 x0 x1 x2 x3 x4)) -∗ K ⟨⟩))
      ⊢ wp frame (wpE (defs₀ (F := F)) Variants.none c none) E (cc12__bn_relu_kernel i arg1 harg1 arg2 harg2 arg3 harg3 arg4 harg4 arg5 harg5 arg6 harg6) K := by
  simp only [cc12__bn_relu_kernel_eq_skeleton]; unfold cc12__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover12_5 _)

/-! ## The pipeline's proof data -/

/-- The proof data of pipeline 12 on core `c`: the arrays at the entry contents; after the body at point `t` each
    input's buffer at its block and the output's at `out12_5` of the input blocks; the invariant the scoped rest and
    the generator register, untouched; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => out12_5 (iblk12 V c 0 t) (iblk12 V c 1 t) (iblk12 V c 2 t) (iblk12 V c 3 t) (iblk12 V c 4 t)
  Φ _ := Pipeline.ΦA spec12 c
  q _ := fullShare
  owed _ := 0

/-- The proof data's arrays are the entry contents. -/
theorem A_eq12 (c : Dev nD) (w : Fin cfg12.W) : (dat12 V c).A w = V c (Pipeline.arrRef spec12 w) := by
  dsimp only [dat12]

/-- Every window is held at the full share. -/
theorem q_eq12 (c : Dev nD) (w : Fin cfg12.W) : (dat12 V c).q w = fullShare := by
  dsimp only [dat12]

/-- Nothing is owed at any point. -/
theorem owed_eq12 (c : Dev nD) (n : Fin (cfg12.N + 1)) : (dat12 V c).owed n = 0 := by
  dsimp only [dat12]

/-- The invariant at every point is the scoped rest with the generator register. -/
theorem Phi_eq12 (c : Dev nD) (n : Fin (cfg12.N + 1)) : (dat12 V c).Φ n = Pipeline.ΦA spec12 c := by
  dsimp only [dat12]

/-- The invariant holds at the first point of what the region is entered with, -/
theorem Phi_in12 (c : Dev nD) :
    (iprop((∃ r, prngReg c r) ∗ Pipeline.scopedRest (Ix := Unit) (Name := ℕ) (U := UR sig nD τ) (Lvl := ℕ) spec12 c) : sProp 𝕄) ⊢ (dat12 V c).Φ 0 := by
  rw [Phi_eq12]; unfold Pipeline.ΦA
  iintro ⟨Hr, Hp⟩
  isplitl [Hp]; · iexact Hp
  iexact Hr

/-- and gives it back at the last. -/
theorem Phi_out12 (c : Dev nD) :
    (dat12 V c).Φ (Fin.last cfg12.N) ⊢ (iprop((∃ r, prngReg c r) ∗ Pipeline.scopedRest (Ix := Unit) (Name := ℕ) (U := UR sig nD τ) (Lvl := ℕ) spec12 c) : sProp 𝕄) := by
  rw [Phi_eq12]; unfold Pipeline.ΦA
  iintro ⟨Hp, Hr⟩
  isplitl [Hr]; · iexact Hr
  iexact Hp

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) : (dat12 V c).after 5 t = out12_5 (iblk12 V c 0 t) (iblk12 V c 1 t) (iblk12 V c 2 t) (iblk12 V c 3 t) (iblk12 V c 4 t) := by dsimp only [dat12]

/-- Each input's current staging buffer holds its block at every point, fetched there or not. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d
theorem before12_4 (c : Dev nD) (t : Fin cfg12.N) (d) : (dat12 V c).before 4 t d = iblk12 V c 4 t :=
  before12_4_of V (dat12 V c) (A_eq12 V c 4) (after12_4 V c) t d

/-! ## The body obligation, at a generic point -/

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t))

/-- The body at any point: the inputs' memrefs hold their blocks, so the body's triple applies; the invariant and
    the core's debts pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4]
  rw [show (dat12 V c).Φ t.succ = (dat12 V c).Φ t.castSucc from rfl,
    show (dat12 V c).owesAt () t.succ = (dat12 V c).owesAt () t.castSucc from rfl,
    after12_0, after12_1, after12_2, after12_3, after12_4, after12_5]
  iintro ⟨HΦ, Ho, ⟨%d0, H0⟩, ⟨%d1, H1⟩, ⟨%d2, H2⟩, ⟨%d3, H3⟩, ⟨%d4, H4⟩, ⟨%d5, H5⟩⟩
  iapply (sound_kernel12 c Set.univ (grid12.coords t) _ _ _ _ _ _ _ _ _ _ _ _ (iblk12 V c 0 t) (iblk12 V c 1 t) (iblk12 V c 2 t) (iblk12 V c 3 t) (iblk12 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation12 (c : Dev nD) : BodyObligation (dat12 (F := F) V c) (defs₀ (F := F)) Variants.none () Set.univ := fun t => by
  rw [bigSep_W12, bigSep_W12]
  exact sound_body12 V c t

end Cert.Kernel.Hand

end
-- ==== Proof.K.RegPool13.lean ====
import proofs.«413302_j72232759984513_1_alg».proof.Proof.Gen.Kernel.Launch
import proofs.«413302_j72232759984513_1_alg».proof.Proof.Gen.Kernel.Skeleton
import proofs.«413302_j72232759984513_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 13: the pooling kernel (mean over 256 segments, then a linear layer), its frame half

The kernel keeps two accumulators — the segment sums [256,128] and the segment counts [256,1] — in scratch buffers of its
own: reset at the first grid point, added to at every point (a one-hot matrix product against the point's block), and at
the last point divided, multiplied by the weights, the bias added, and stored into the one output window. The proof data
carries what the accumulators hold between points (`acc13`, by recursion on the point) in its invariant. Three control
cases: the first point, the middle points, the last point; one triple each. -/

/-! ## The body's branch conditions -/

/-- The condition of the body's first `scf.if` (the reset), from the grid coordinates. -/
abbrev cond13_0 (i : grid13.Coords) : Prop := (Scalar.cmpi .ne (Scalar.extui (Scalar.cmpi .eq (BitVec.ofNat 32 (i 0).val) 0#32)) 0#32) = 1#1
/-- It holds at the first point only — decided over the grid. -/
theorem hcond13_0 : ∀ t : Fin cfg13.N, cond13_0 (grid13.coords t) ↔ t.val = 0 :=
  (by decide +kernel : ∀ t : Fin grid13.N, cond13_0 (grid13.coords t) ↔ t.val = 0)

/-- The condition of the body's second `scf.if` (the epilogue). -/
abbrev cond13_1 (i : grid13.Coords) : Prop := k13_cond2 i = 1#1
/-- It holds at the last point only — decided over the grid. -/
theorem hcond13_1 : ∀ t : Fin cfg13.N, cond13_1 (grid13.coords t) ↔ t.val = 9 :=
  (by decide +kernel : ∀ t : Fin grid13.N, cond13_1 (grid13.coords t) ↔ t.val = 9)

/-! ## The body's triples, one per control case -/

/-- The offsets of every access of the body: zero on both axes. -/
theorem hz13 : (![0, 0] : Fin 2 → Nat) = fun _ => 0 := funext fun a => by fin_cases a <;> rfl

/-- One store through the whole-shape rectangle, the last of the list, covers the buffer. -/
theorem cover13 {S : Shape} {e : EltTy} (hr : S.rank = 2) (off : Fin S.rank → Nat) (h : off = fun _ => 0) (inb : ∀ a, off a + S.size a ≤ S.size a)
    (w : S.Idx → Elt F e) (L : List (View.Piece (Elt F) S e)) (y : S.Idx) :
    ∃ pc ∈ ((⟨Rect.unit off S.size inb, w⟩ : View.Piece (Elt F) S e) :: L), y ∈ pc.1.set :=
  ⟨_, List.mem_cons_self, View.mem_set_unit_zero h inb y⟩

set_option maxHeartbeats 4000000 in
/-- THE MIDDLE POINTS (neither branch taken): on whole memrefs, the two input blocks at `x0`, `x1` and the accumulators at
    `a0`, `a1`, the body runs to the continuation holding the inputs as they were and each accumulator with this point's
    contribution added. The other three windows are not touched. -/
theorem sound_kernel13_B (c : Dev nD) (E : Set ℕ) (i : grid13.Coords)
    (arg1 : Memref sig .tc .vmem S10000x128 .f32) (harg1 : arg1.IsWhole) (arg2 : Memref sig .tc .vmem S10000x1 .i32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S256x64 .f32) (harg5 : arg5.IsWhole) (arg6 : Memref sig .tc .vmem S256x128 .f32) (harg6 : arg6.IsWhole)
    (arg7 : Memref sig .tc .vmem S256x1 .f32) (harg7 : arg7.IsWhole)
    (hc0 : ¬cond13_0 i) (hc1 : ¬cond13_1 i)
    (x0 : Vec F S10000x128 .f32) (x1 : Vec F S10000x1 .i32) (a0 : Vec F S256x128 .f32) (a1 : Vec F S256x1 .f32) (K : PUnit → sProp 𝕄) :
    iprop(owns (c : Thread nD τ) arg1 fullShare x0 ∗ owns (c : Thread nD τ) arg2 fullShare x1
        ∗ owns (c : Thread nD τ) arg6 fullShare a0 ∗ owns (c : Thread nD τ) arg7 fullShare a1
        ∗ (iprop(owns (c : Thread nD τ) arg1 fullShare x0 ∗ owns (c : Thread nD τ) arg2 fullShare x1
            ∗ owns (c : Thread nD τ) arg6 fullShare (k13_pay4 x0 x1 a0) ∗ owns (c : Thread nD τ) arg7 fullShare (k13_pay5 x1 a1)) -∗ K ⟨⟩))
      ⊢ wp frame (wpE (defs₀ (F := F)) Variants.none c none) E (cc13__pool_embed_kernel i arg1 harg1 arg2 harg2 arg3 harg3 arg4 harg4 arg5 harg5 arg6 harg6 arg7 harg7) K := by
  simp only [cc13__pool_embed_kernel_eq_skeleton]; unfold cc13__pool_embed_kernel_skel
  unfold owns
  iintro ⟨⟨%f0, %hf0, H0⟩, ⟨%f1, %hf1, H1⟩, ⟨%g0, %hg0, HS0⟩, ⟨%g1, %hg1, HS1⟩, Hk⟩
  obtain rfl := harg1.eq_unread hf0; obtain rfl := harg2.eq_unread hf1
  obtain rfl := harg6.eq_unread hg0; obtain rfl := harg7.eq_unread hg1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [HS0]
  · iexists _; isplitr
    swap; · iexact HS0
    ipureintro
    rw [View.read_writes_eq_canon _ _ _ (cover13 (S := S256x128) rfl _ hz13 _ _ _), View.canon_unit_zero (S := S256x128) hz13]
    simp only [View.readAt_eq_ld, harg1.read_unread, harg2.read_unread, harg6.read_unread, View.ld_unit_zero (S := S10000x128) hz13, View.ld_unit_zero (S := S10000x1) hz13, View.ld_unit_zero (S := S256x128) hz13]
  iexists _; isplitr
  swap; · iexact HS1
  ipureintro
  rw [View.read_writes_eq_canon _ _ _ (cover13 (S := S256x1) rfl _ hz13 _ _ _), View.canon_unit_zero (S := S256x1) hz13]
  simp only [View.readAt_eq_ld, harg2.read_unread, harg7.read_unread, View.ld_unit_zero (S := S10000x1) hz13, View.ld_unit_zero (S := S256x1) hz13]

set_option maxHeartbeats 4000000 in
theorem sound_kernel13_A (c : Dev nD) (E : Set ℕ) (i : grid13.Coords)
    (arg1 : Memref sig .tc .vmem S10000x128 .f32) (harg1 : arg1.IsWhole) (arg2 : Memref sig .tc .vmem S10000x1 .i32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S256x64 .f32) (harg5 : arg5.IsWhole) (arg6 : Memref sig .tc .vmem S256x128 .f32) (harg6 : arg6.IsWhole)
    (arg7 : Memref sig .tc .vmem S256x1 .f32) (harg7 : arg7.IsWhole)
    (hc0 : cond13_0 i) (hc1 : ¬cond13_1 i)
    (x0 : Vec F S10000x128 .f32) (x1 : Vec F S10000x1 .i32) (K : PUnit → sProp 𝕄) :
    iprop(owns (c : Thread nD τ) arg1 fullShare x0 ∗ owns (c : Thread nD τ) arg2 fullShare x1
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg6 fullShare (k13_pay4 x0 x1 (k13_pay1 (F := F))) ∗ owns (c : Thread nD τ) arg7 fullShare (k13_pay5 x1 (k13_pay2 (F := F)))) -∗ K ⟨⟩))
      ⊢ wp frame (wpE (defs₀ (F := F)) Variants.none c none) E (cc13__pool_embed_kernel i arg1 harg1 arg2 harg2 arg3 harg3 arg4 harg4 arg5 harg5 arg6 harg6 arg7 harg7) K := by
  simp only [cc13__pool_embed_kernel_eq_skeleton]; unfold cc13__pool_embed_kernel_skel
  unfold owns
  iintro ⟨⟨%f0, %hf0, H0⟩, ⟨%f1, %hf1, H1⟩, ⟨%d0, %g0, -, HS0⟩, ⟨%d1, %g1, -, HS1⟩, Hk⟩
  obtain rfl := harg1.eq_unread hf0; obtain rfl := harg2.eq_unread hf1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [HS0]
  · iexists _; isplitr
    swap; · iexact HS0
    ipureintro
    sl_unfold_words
    rw [View.read_writes_eq_canon _ _ _ (cover13 (S := S256x128) rfl _ hz13 _ _ _), View.canon_cons_unit_zero (S := S256x128) hz13, View.readCov_unit_zero (S := S256x128) _ hz13]
    simp only [View.readAt_eq_ld, harg1.read_unread, harg2.read_unread, View.ld_unit_zero (S := S10000x128) hz13, View.ld_unit_zero (S := S10000x1) hz13]
  iexists _; isplitr
  swap; · iexact HS1
  ipureintro
  sl_unfold_words
  rw [View.read_writes_eq_canon _ _ _ (cover13 (S := S256x1) rfl _ hz13 _ _ _), View.canon_cons_unit_zero (S := S256x1) hz13, View.readCov_unit_zero (S := S256x1) _ hz13]
  simp only [View.readAt_eq_ld, harg2.read_unread, View.ld_unit_zero (S := S10000x1) hz13]

set_option maxHeartbeats 4000000 in
theorem sound_kernel13_C (c : Dev nD) (E : Set ℕ) (i : grid13.Coords)
    (arg1 : Memref sig .tc .vmem S10000x128 .f32) (harg1 : arg1.IsWhole) (arg2 : Memref sig .tc .vmem S10000x1 .i32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S256x64 .f32) (harg5 : arg5.IsWhole) (arg6 : Memref sig .tc .vmem S256x128 .f32) (harg6 : arg6.IsWhole)
    (arg7 : Memref sig .tc .vmem S256x1 .f32) (harg7 : arg7.IsWhole)
    (hc0 : ¬cond13_0 i) (hc1 : cond13_1 i)
    (x0 : Vec F S10000x128 .f32) (x1 : Vec F S10000x1 .i32) (x2 : Vec F S128x64 .f32) (x3 : Vec F S1x64 .f32)
    (a0 : Vec F S256x128 .f32) (a1 : Vec F S256x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ owns (c : Thread nD τ) arg6 fullShare a0 ∗ owns (c : Thread nD τ) arg7 fullShare a1
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k13_pay6 (k13_pay4 x0 x1 a0) (k13_pay5 x1 a1) x2 x3)
            ∗ owns (c : Thread nD τ) arg6 fullShare (k13_pay4 x0 x1 a0) ∗ owns (c : Thread nD τ) arg7 fullShare (k13_pay5 x1 a1)) -∗ K ⟨⟩))
      ⊢ wp frame (wpE (defs₀ (F := F)) Variants.none c none) E (cc13__pool_embed_kernel i arg1 harg1 arg2 harg2 arg3 harg3 arg4 harg4 arg5 harg5 arg6 harg6 arg7 harg7) K := by
  simp only [cc13__pool_embed_kernel_eq_skeleton]; unfold cc13__pool_embed_kernel_skel
  unfold owns
  iintro ⟨⟨%f0, %hf0, H0⟩, ⟨%f1, %hf1, H1⟩, ⟨%f2, %hf2, H2⟩, ⟨%f3, %hf3, H3⟩, ⟨%d4, %f4, -, H4⟩, ⟨%g0, %hg0, HS0⟩, ⟨%g1, %hg1, HS1⟩, Hk⟩
  obtain rfl := harg1.eq_unread hf0; obtain rfl := harg2.eq_unread hf1
  obtain rfl := harg3.eq_unread hf2; obtain rfl := harg4.eq_unread hf3
  obtain rfl := harg6.eq_unread hg0; obtain rfl := harg7.eq_unread hg1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    sl_unfold_words
    rw [View.read_writes_eq_canon _ _ _ (cover13 (S := S256x64) rfl _ hz13 _ _ _), View.canon_unit_zero (S := S256x64) hz13,
      View.readCov_unit_zero (S := S256x128) _ hz13, View.readCov_unit_zero (S := S256x1) _ hz13]
    simp only [View.readAt_eq_ld, harg1.read_unread, harg2.read_unread, harg3.read_unread, harg4.read_unread, harg6.read_unread, harg7.read_unread,
      View.ld_unit_zero (S := S10000x128) hz13, View.ld_unit_zero (S := S10000x1) hz13, View.ld_unit_zero (S := S256x128) hz13, View.ld_unit_zero (S := S256x1) hz13,
      View.ld_unit_zero (S := S128x64) hz13, View.ld_unit_zero (S := S1x64) hz13]
  isplitl [HS0]
  · iexists _; isplitr
    swap; · iexact HS0
    ipureintro
    sl_unfold_words
    rw [View.read_writes_eq_canon _ _ _ (cover13 (S := S256x128) rfl _ hz13 _ _ _), View.canon_unit_zero (S := S256x128) hz13]
    simp only [View.readAt_eq_ld, harg1.read_unread, harg2.read_unread, harg6.read_unread, View.ld_unit_zero (S := S10000x128) hz13, View.ld_unit_zero (S := S10000x1) hz13, View.ld_unit_zero (S := S256x128) hz13]
  iexists _; isplitr
  swap; · iexact HS1
  ipureintro
  sl_unfold_words
  rw [View.read_writes_eq_canon _ _ _ (cover13 (S := S256x1) rfl _ hz13 _ _ _), View.canon_unit_zero (S := S256x1) hz13]
  simp only [View.readAt_eq_ld, harg2.read_unread, harg7.read_unread, View.ld_unit_zero (S := S10000x1) hz13, View.ld_unit_zero (S := S256x1) hz13]

/-! ## The proof data -/

section Region13
variable (V : (c : Dev nD) → (b : Ref sig .tc) → Buf (Elt F) ((c : Thread nD τ).loc b))

/-- Window `w`'s block at point `t`, read off its array as the region finds it (`V`). -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- The two accumulators as memrefs: whole scoped buffers of the kernel's own, passed beside the windows. -/
abbrev scM13_0 : Memref sig .tc .vmem S256x128 .f32 := Memref.whole cc13_scratch0
abbrev scM13_1 : Memref sig .tc .vmem S256x1 .f32 := Memref.whole cc13_scratch1

/-- THE ACCUMULATION. What the two accumulators (segment sums, segment counts) hold after the body at position `n`:
    at the first point the reset values with that point's contribution added, afterwards what the point before left
    with this point's contribution added. -/
def acc13 (c : Dev nD) : (n : ℕ) → n < cfg13.N → Vec F S256x128 .f32 × Vec F S256x1 .f32
  | 0, hn => (k13_pay4 (iblk13 V c 0 ⟨0, hn⟩) (iblk13 V c 1 ⟨0, hn⟩) (k13_pay1 (F := F)), k13_pay5 (iblk13 V c 1 ⟨0, hn⟩) (k13_pay2 (F := F)))
  | n + 1, hn => (k13_pay4 (iblk13 V c 0 ⟨n + 1, hn⟩) (iblk13 V c 1 ⟨n + 1, hn⟩) (acc13 c n (Nat.lt_of_succ_lt hn)).1, k13_pay5 (iblk13 V c 1 ⟨n + 1, hn⟩) (acc13 c n (Nat.lt_of_succ_lt hn)).2)

/-- What the output window's buffer holds after the body at point `t`: the sums divided by the counts (at least one),
    times the weights, plus the bias, from the accumulators as the point leaves them. Stored at the last point only;
    at the others a placeholder nothing consults (the window is idle there and not written back). -/
def out13_4 (c : Dev nD) (t : Fin cfg13.N) : Vec F S256x64 .f32 :=
  k13_pay6 (acc13 V c t.val t.isLt).1 (acc13 V c t.val t.isLt).2 (iblk13 V c 2 t) (iblk13 V c 3 t)

/-- The region invariant before position `n`: the two accumulators — before the first point at anything, afterwards at
    what the point before left (`acc13`) —, every other scoped buffer unopened, the generator register at some state. -/
def PhiS13 (c : Dev nD) : (n : ℕ) → n ≤ cfg13.N → sProp 𝕄
  | 0, _ => iprop(iprop((∃ d, owns (c : Thread nD τ) scM13_0 fullShare d) ∗ (∃ d, owns (c : Thread nD τ) scM13_1 fullShare d))
      ∗ Pipeline.scopedRestBut (Ix := Unit) (Name := ℕ) (U := UR sig nD τ) (Lvl := ℕ) spec13 c [cc13_scratch0, cc13_scratch1] ∗ (∃ r, prngReg c r))
  | n + 1, hn => iprop(iprop(owns (c : Thread nD τ) scM13_0 fullShare (acc13 V c n hn).1 ∗ owns (c : Thread nD τ) scM13_1 fullShare (acc13 V c n hn).2)
      ∗ Pipeline.scopedRestBut (Ix := Unit) (Name := ℕ) (U := UR sig nD τ) (Lvl := ℕ) spec13 c [cc13_scratch0, cc13_scratch1] ∗ (∃ r, prngReg c r))

/-- The proof data of pipeline 13 on core `c`: the arrays as the region finds them (`V`); after the body at point `t`
    each input's buffer at its block and the output's at `out13_4`; the invariant `PhiS13`; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => out13_4 V c t
  Φ t := PhiS13 V c t.val (Nat.le_of_lt_succ t.isLt)
  q _ := fullShare
  owed _ := 0

theorem A_eq13 (c : Dev nD) (w : Fin cfg13.W) : (dat13 V c).A w = V c (Pipeline.arrRef spec13 w) := by
  dsimp only [dat13]
theorem q_eq13 (c : Dev nD) (w : Fin cfg13.W) : (dat13 V c).q w = fullShare := by
  dsimp only [dat13]
theorem owed_eq13 (c : Dev nD) (n : Fin (cfg13.N + 1)) : (dat13 V c).owed n = 0 := by
  dsimp only [dat13]

/-- What the body leaves, window by window (the proof data's `match` reduced by `dsimp`). -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = iblk13 V c 3 t := by dsimp only [dat13]
theorem after13_4 (c : Dev nD) (t : Fin cfg13.N) : (dat13 V c).after 4 t = out13_4 V c t := by dsimp only [dat13]

/-- Each input's current staging buffer holds its block at every point, fetched there or not: unfetched, the block
    index has not moved, the window is uncut and never idle. -/
theorem before13_0 (c : Dev nD) (t : Fin cfg13.N) (d) : (dat13 V c).before 0 t d = iblk13 V c 0 t :=
  ((dat13 V c).before_in_eq_fetched 0 rfl (fun _ => rfl) (fun _ _ _ => rfl) (fun t => by rw [after13_0]; unfold Dat.blockOf iblk13; rw [A_eq13]; try rfl) t d).trans
    (by unfold Dat.fetched Dat.blockOf iblk13; rw [A_eq13]; try rfl)
theorem before13_1 (c : Dev nD) (t : Fin cfg13.N) (d) : (dat13 V c).before 1 t d = iblk13 V c 1 t :=
  ((dat13 V c).before_in_eq_fetched 1 rfl (fun _ => rfl) (fun _ _ _ => rfl) (fun t => by rw [after13_1]; unfold Dat.blockOf iblk13; rw [A_eq13]; try rfl) t d).trans
    (by unfold Dat.fetched Dat.blockOf iblk13; rw [A_eq13]; try rfl)
theorem before13_2 (c : Dev nD) (t : Fin cfg13.N) (d) : (dat13 V c).before 2 t d = iblk13 V c 2 t :=
  ((dat13 V c).before_in_eq_fetched 2 rfl (fun _ => rfl) (fun _ _ _ => rfl) (fun t => by rw [after13_2]; unfold Dat.blockOf iblk13; rw [A_eq13]; try rfl) t d).trans
    (by unfold Dat.fetched Dat.blockOf iblk13; rw [A_eq13]; try rfl)
theorem before13_3 (c : Dev nD) (t : Fin cfg13.N) (d) : (dat13 V c).before 3 t d = iblk13 V c 3 t :=
  ((dat13 V c).before_in_eq_fetched 3 rfl (fun _ => rfl) (fun _ _ _ => rfl) (fun t => by rw [after13_3]; unfold Dat.blockOf iblk13; rw [A_eq13]; try rfl) t d).trans
    (by unfold Dat.fetched Dat.blockOf iblk13; rw [A_eq13]; try rfl)

/-- The accumulators after the first point: the reset values with its contribution added. -/
theorem acc13_zero (c : Dev nD) (t : Fin cfg13.N) (h0 : t.val = 0) :
    acc13 V c t.val t.isLt = (k13_pay4 (iblk13 V c 0 t) (iblk13 V c 1 t) (k13_pay1 (F := F)), k13_pay5 (iblk13 V c 1 t) (k13_pay2 (F := F))) := by
  obtain ⟨n, hn⟩ := t
  cases n with
  | zero => rfl
  | succ n => exact absurd h0 (Nat.succ_ne_zero n)

/-- The accumulators after a later point: what the point before left with this point's contribution added. -/
theorem acc13_pos (c : Dev nD) (t : Fin cfg13.N) (h0 : t.val ≠ 0) :
    acc13 V c t.val t.isLt = (k13_pay4 (iblk13 V c 0 t) (iblk13 V c 1 t) (acc13 V c (t.val - 1) (Nat.lt_of_le_of_lt (Nat.sub_le _ _) t.isLt)).1,
      k13_pay5 (iblk13 V c 1 t) (acc13 V c (t.val - 1) (Nat.lt_of_le_of_lt (Nat.sub_le _ _) t.isLt)).2) := by
  obtain ⟨n, hn⟩ := t
  cases n with
  | zero => exact absurd rfl h0
  | succ n => rfl

theorem PhiS13_zero (c : Dev nD) (n : ℕ) (h : n ≤ cfg13.N) (hz : n = 0) :
    PhiS13 V c n h = iprop(iprop((∃ d, owns (c : Thread nD τ) scM13_0 fullShare d) ∗ (∃ d, owns (c : Thread nD τ) scM13_1 fullShare d))
      ∗ Pipeline.scopedRestBut (Ix := Unit) (Name := ℕ) (U := UR sig nD τ) (Lvl := ℕ) spec13 c [cc13_scratch0, cc13_scratch1] ∗ (∃ r, prngReg c r)) := by
  subst hz; rfl

/-- After point `n` (before point `n + 1`): the accumulators at that point's contents. -/
theorem PhiS13_succ (c : Dev nD) (n : ℕ) (hn : n < cfg13.N) :
    PhiS13 V c (n + 1) hn = iprop(iprop(owns (c : Thread nD τ) scM13_0 fullShare (acc13 V c n hn).1 ∗ owns (c : Thread nD τ) scM13_1 fullShare (acc13 V c n hn).2)
      ∗ Pipeline.scopedRestBut (Ix := Unit) (Name := ℕ) (U := UR sig nD τ) (Lvl := ℕ) spec13 c [cc13_scratch0, cc13_scratch1] ∗ (∃ r, prngReg c r)) := rfl

/-- Before a point that is not the first: the accumulators at what the point before left. -/
theorem PhiS13_pos (c : Dev nD) (n : ℕ) (h : n ≤ cfg13.N) (hz : n ≠ 0) :
    PhiS13 V c n h = iprop(iprop(owns (c : Thread nD τ) scM13_0 fullShare (acc13 V c (n - 1) (by omega)).1 ∗ owns (c : Thread nD τ) scM13_1 fullShare (acc13 V c (n - 1) (by omega)).2)
      ∗ Pipeline.scopedRestBut (Ix := Unit) (Name := ℕ) (U := UR sig nD τ) (Lvl := ℕ) spec13 c [cc13_scratch0, cc13_scratch1] ∗ (∃ r, prngReg c r)) := by
  cases n with
  | zero => exact absurd rfl hz
  | succ n => rfl

/-- The invariant at a point's start (the proof data at `t.castSucc`), restated at `t.val`. -/
theorem PhiS13_castSucc (c : Dev nD) (t : Fin cfg13.N) :
    (dat13 V c).Φ t.castSucc = PhiS13 V c t.val (Nat.le_of_lt t.isLt) := by
  dsimp only [dat13]; simp only [Fin.coe_castSucc]

/-! ## Where the windows are idle -/

/-- The inputs are never idle. -/
theorem liveAt13_0 : ∀ t : Fin cfg13.N, cfg13.idle 0 (grid13.coords t) = false := fun _ => rfl
theorem liveAt13_1 : ∀ t : Fin cfg13.N, cfg13.idle 1 (grid13.coords t) = false := fun _ => rfl
theorem liveAt13_2 : ∀ t : Fin cfg13.N, cfg13.idle 2 (grid13.coords t) = false := fun _ => rfl
theorem liveAt13_3 : ∀ t : Fin cfg13.N, cfg13.idle 3 (grid13.coords t) = false := fun _ => rfl
/-- Off the last point the output window is idle (the body stores nothing into it) and not written back; -/
theorem idleAt13_4 : ∀ t : Fin cfg13.N, ¬cond13_1 (grid13.coords t) → cfg13.idle 4 (grid13.coords t) = true := by decide +kernel
theorem noFlush13_4 : ∀ t : Fin cfg13.N, ¬cond13_1 (grid13.coords t) → (cfg13.win 4).flush t = false := by decide +kernel
/-- at the last point it is live. -/
theorem liveAt13_4 : ∀ t : Fin cfg13.N, cond13_1 (grid13.coords t) → cfg13.idle 4 (grid13.coords t) = false := by decide +kernel

theorem leavesExact13_0 (c : Dev nD) (t : Fin cfg13.N) : (dat13 V c).leavesExact 0 t = owns (c : Thread nD τ) (st13_0 t) fullShare (iblk13 V c 0 t) := by
  unfold Dat.leavesExact; rw [liveAt13_0 t, after13_0]
theorem leavesExact13_1 (c : Dev nD) (t : Fin cfg13.N) : (dat13 V c).leavesExact 1 t = owns (c : Thread nD τ) (st13_1 t) fullShare (iblk13 V c 1 t) := by
  unfold Dat.leavesExact; rw [liveAt13_1 t, after13_1]
theorem leavesExact13_2 (c : Dev nD) (t : Fin cfg13.N) : (dat13 V c).leavesExact 2 t = owns (c : Thread nD τ) (st13_2 t) fullShare (iblk13 V c 2 t) := by
  unfold Dat.leavesExact; rw [liveAt13_2 t, after13_2]
theorem leavesExact13_3 (c : Dev nD) (t : Fin cfg13.N) : (dat13 V c).leavesExact 3 t = owns (c : Thread nD τ) (st13_3 t) fullShare (iblk13 V c 3 t) := by
  unfold Dat.leavesExact; rw [liveAt13_3 t, after13_3]

/-! ## The body obligation, at a generic point -/

/-- What the body is called with at point `t`, the windows one by one, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d))
    ∗ (∃ d, owns (c : Thread nD τ) (st13_4 t) fullShare ((dat13 V c).before 4 t d)))

/-- and what it returns. -/
def bodyPost13 (c : Dev nD) (t : Fin cfg13.N) : sProp 𝕄 :=
  iprop((dat13 V c).Φ t.succ ∗ (dat13 V c).owesAt () t.succ
    ∗ (dat13 V c).leavesExact 0 t
    ∗ (dat13 V c).leavesExact 1 t
    ∗ (dat13 V c).leavesExact 2 t
    ∗ (dat13 V c).leavesExact 3 t
    ∗ (dat13 V c).leavesExact 4 t)

set_option maxHeartbeats 4000000 in
/-- The body at any point. The inputs' memrefs hold their blocks; the point's position says which control case it is in; the
    invariant hands the body the two accumulators — at anything before the first point, at what the point before left
    afterwards — and takes them back at this point's contents; the output window, off the last point, goes back as it was
    found, and at the last point holds the epilogue's store; the other scoped buffers, the generator register and what
    the core owes pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2, before13_3]
  rw [show (dat13 V c).owesAt () t.succ = (dat13 V c).owesAt () t.castSucc from rfl]
  rw [show (dat13 V c).Φ t.succ = PhiS13 V c (t.val + 1) t.isLt from rfl, PhiS13_succ]
  rw [leavesExact13_0, leavesExact13_1, leavesExact13_2, leavesExact13_3]
  have hN : t.val < 10 := lt_of_lt_of_eq t.isLt (show cfg13.N = 10 from N_13)
  by_cases h0 : t.val = 0
  · have hc0 : cond13_0 (grid13.coords t) := (hcond13_0 t).mpr h0
    have hc1 : ¬cond13_1 (grid13.coords t) := fun h => by have := (hcond13_1 t).mp h; omega
    rw [Dat.leavesExact_idle (dat13 V c) 4 t (idleAt13_4 t hc1) (noFlush13_4 t hc1)]
    rw [acc13_zero V c t h0]; (try dsimp only)
    rw [PhiS13_castSucc V c t, PhiS13_zero V c _ _ h0]
    iintro ⟨⟨⟨HS0, HS1⟩, Hrest, Hg⟩, Ho, ⟨%d0, H0⟩, ⟨%d1, H1⟩, ⟨%d2, H2⟩, ⟨%d3, H3⟩, H4⟩
    iapply (sound_kernel13_A c Set.univ (grid13.coords t) _ _ _ _ _ _ _ _ _ _ _ _ _ _ hc0 hc1 (iblk13 V c 0 t) (iblk13 V c 1 t) _)
    isplitl [H0]; · iexact H0
    isplitl [H1]; · iexact H1
    isplitl [HS0]; · iexact HS0
    isplitl [HS1]; · iexact HS1
    iintro ⟨H0, H1, HS0, HS1⟩
    isplitl [HS0 HS1 Hrest Hg]
    · isplitl [HS0 HS1]
      · isplitl [HS0]; · iexact HS0
        iexact HS1
      isplitl [Hrest]; · iexact Hrest
      iexact Hg
    isplitl [Ho]; · iexact Ho
    isplitl [H0]; · iexact H0
    isplitl [H1]; · iexact H1
    isplitl [H2]; · iexact H2
    isplitl [H3]; · iexact H3
    iexact H4
  · have hc0 : ¬cond13_0 (grid13.coords t) := fun h => h0 ((hcond13_0 t).mp h)
    rw [PhiS13_castSucc V c t, PhiS13_pos V c _ _ h0]
    rw [acc13_pos V c t h0]; (try dsimp only)
    by_cases h1 : t.val = 9
    · have hc1 : cond13_1 (grid13.coords t) := (hcond13_1 t).mpr h1
      rw [show (dat13 V c).leavesExact 4 t = owns (c : Thread nD τ) (st13_4 t) fullShare ((dat13 V c).after 4 t) from by
        unfold Dat.leavesExact; rw [liveAt13_4 t hc1], after13_4]
      unfold out13_4
      rw [acc13_pos V c t h0]; (try dsimp only)
      iintro ⟨⟨⟨HS0, HS1⟩, Hrest, Hg⟩, Ho, ⟨%d0, H0⟩, ⟨%d1, H1⟩, ⟨%d2, H2⟩, ⟨%d3, H3⟩, ⟨%d4, H4⟩⟩
      iapply (sound_kernel13_C c Set.univ (grid13.coords t) _ _ _ _ _ _ _ _ _ _ _ _ _ _ hc0 hc1 (iblk13 V c 0 t) (iblk13 V c 1 t) (iblk13 V c 2 t) (iblk13 V c 3 t) _ _ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 Hrest Hg]
      · isplitl [HS0 HS1]
        · isplitl [HS0]; · iexact HS0
          iexact HS1
        isplitl [Hrest]; · iexact Hrest
        iexact Hg
      isplitl [Ho]; · iexact Ho
      isplitl [H0]; · iexact H0
      isplitl [H1]; · iexact H1
      isplitl [H2]; · iexact H2
      isplitl [H3]; · iexact H3
      iexact H4
    · have hc1 : ¬cond13_1 (grid13.coords t) := fun h => h1 ((hcond13_1 t).mp h)
      rw [Dat.leavesExact_idle (dat13 V c) 4 t (idleAt13_4 t hc1) (noFlush13_4 t hc1)]
      iintro ⟨⟨⟨HS0, HS1⟩, Hrest, Hg⟩, Ho, ⟨%d0, H0⟩, ⟨%d1, H1⟩, ⟨%d2, H2⟩, ⟨%d3, H3⟩, H4⟩
      iapply (sound_kernel13_B c Set.univ (grid13.coords t) _ _ _ _ _ _ _ _ _ _ _ _ _ _ hc0 hc1 (iblk13 V c 0 t) (iblk13 V c 1 t) _ _ _)
      isplitl [H0]; · iexact H0
      isplitl [H1]; · iexact H1
      isplitl [HS0]; · iexact HS0
      isplitl [HS1]; · iexact HS1
      iintro ⟨H0, H1, HS0, HS1⟩
      isplitl [HS0 HS1 Hrest Hg]
      · isplitl [HS0 HS1]
        · isplitl [HS0]; · iexact HS0
          iexact HS1
        isplitl [Hrest]; · iexact Hrest
        iexact Hg
      isplitl [Ho]; · iexact Ho
      isplitl [H0]; · iexact H0
      isplitl [H1]; · iexact H1
      isplitl [H2]; · iexact H2
      isplitl [H3]; · iexact H3
      iexact H4

/-- The library's body obligation, at every point. -/
theorem body_obligation13 (c : Dev nD) : BodyObligation (dat13 (F := F) V c) (defs₀ (F := F)) Variants.none () Set.univ := fun t => by
  rw [bigSep_W13, bigSep_W13]
  exact sound_body13 V c t

/-! ## Into and out of the invariant -/

/-- What the launch hands the region — the generator register and the scoped rest — is the invariant before the first
    point: the rest split at the two accumulators, each at whatever it holds. -/
theorem Phi_in13 (c : Dev nD) : (iprop((∃ r, prngReg c r) ∗ Pipeline.scopedRest (Ix := Unit) (Name := ℕ) (U := UR sig nD τ) (Lvl := ℕ) spec13 c) : sProp 𝕄) ⊢ (dat13 V c).Φ 0 := by
  rw [show (dat13 V c).Φ 0 = PhiS13 V c 0 (Nat.zero_le _) from rfl, PhiS13_zero V c 0 _ rfl, scopedRest13_split]
  simp only [scM13_0, scM13_1, owns_whole]
  iintro ⟨Hg, ⟨HS0, HS1⟩, Hrest⟩
  isplitl [HS0 HS1]
  · isplitl [HS0]; · iexact HS0
    iexact HS1
  isplitl [Hrest]; · iexact Hrest
  iexact Hg

/-- After the last point the invariant gives both back: the accumulators' named contents are forgotten and the scoped
    rest closed over them again. -/
theorem Phi_out13 (c : Dev nD) : (dat13 V c).Φ (Fin.last cfg13.N) ⊢ (iprop((∃ r, prngReg c r) ∗ Pipeline.scopedRest (Ix := Unit) (Name := ℕ) (U := UR sig nD τ) (Lvl := ℕ) spec13 c) : sProp 𝕄) := by
  rw [show (dat13 V c).Φ (Fin.last cfg13.N) = PhiS13 V c (Fin.last cfg13.N).val (Nat.le_of_lt_succ (Fin.last cfg13.N).isLt) from rfl,
    PhiS13_pos V c _ _ (by rw [Fin.val_last]; have : cfg13.N = 10 := N_13; omega), scopedRest13_split]
  simp only [scM13_0, scM13_1, owns_whole]
  iintro ⟨⟨HS0, HS1⟩, Hrest, Hg⟩
  isplitl [Hg]; · iexact Hg
  isplitl [HS0 HS1]
  · isplitl [HS0]
    · iexists _; iexact HS0
    iexists _; iexact HS1
  iexact Hrest

end Region13

end Cert.Kernel.Hand

end
-- ==== Proof.K.RegCls14.lean ====
import proofs.«413302_j72232759984513_1_alg».proof.Proof.Gen.Kernel.Launch
import proofs.«413302_j72232759984513_1_alg».proof.Proof.Gen.Kernel.Skeleton
import proofs.«413302_j72232759984513_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region14
-- the TensorCore's buffer contents when the region is entered
variable (V : (c : Dev nD) → (b : Ref sig .tc) → Buf (Elt F) ((c : Thread nD τ).loc b))

/-! # Region 14: the classifier kernel, one grid point, every window the whole of its array -/

/-! ## The windows' blocks -/

/-- Window `w`'s block at point `t`, read off its array as the region finds it (`V`). -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- Input window 0's current staging buffer holds its block at every point, fetched there or not, for any proof
    data whose array is `V`'s and whose body leaves the block in place: the window is uncut and never idle. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

/-- Input window 1's current staging buffer holds its block at every point, fetched there or not, for any proof
    data whose array is `V`'s and whose body leaves the block in place: the window is uncut and never idle. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

/-- Input window 2's current staging buffer holds its block at every point, fetched there or not, for any proof
    data whose array is `V`'s and whose body leaves the block in place: the window is uncut and never idle. -/
theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)

/-- Input window 3's current staging buffer holds its block at every point, fetched there or not, for any proof
    data whose array is `V`'s and whose body leaves the block in place: the window is uncut and never idle. -/
theorem before14_3_of {c : Dev nD} (dat : Dat τ (Elt F) Unit ℕ (UR sig nD τ) ℕ cfg14 c) (hA : dat.A 3 = V c (Pipeline.arrRef spec14 3))
    (hafter : ∀ t, dat.after 3 t = iblk14 V c 3 t) (t : Fin cfg14.N) (d) : dat.before 3 t d = iblk14 V c 3 t :=
  (dat.before_in_eq_fetched 3 rfl (fun _ => rfl) (fun _ _ _ => rfl) (fun t => by rw [hafter]; unfold Dat.blockOf iblk14; rw [hA]; try rfl) t d).trans
    (by unfold Dat.fetched Dat.blockOf iblk14; rw [hA]; try rfl)

/-- Input window 4's current staging buffer holds its block at every point, fetched there or not, for any proof
    data whose array is `V`'s and whose body leaves the block in place: the window is uncut and never idle. -/
theorem before14_4_of {c : Dev nD} (dat : Dat τ (Elt F) Unit ℕ (UR sig nD τ) ℕ cfg14 c) (hA : dat.A 4 = V c (Pipeline.arrRef spec14 4))
    (hafter : ∀ t, dat.after 4 t = iblk14 V c 4 t) (t : Fin cfg14.N) (d) : dat.before 4 t d = iblk14 V c 4 t :=
  (dat.before_in_eq_fetched 4 rfl (fun _ => rfl) (fun _ _ _ => rfl) (fun t => by rw [hafter]; unfold Dat.blockOf iblk14; rw [hA]; try rfl) t d).trans
    (by unfold Dat.fetched Dat.blockOf iblk14; rw [hA]; try rfl)

/-- Input window 5's current staging buffer holds its block at every point, fetched there or not, for any proof
    data whose array is `V`'s and whose body leaves the block in place: the window is uncut and never idle. -/
theorem before14_5_of {c : Dev nD} (dat : Dat τ (Elt F) Unit ℕ (UR sig nD τ) ℕ cfg14 c) (hA : dat.A 5 = V c (Pipeline.arrRef spec14 5))
    (hafter : ∀ t, dat.after 5 t = iblk14 V c 5 t) (t : Fin cfg14.N) (d) : dat.before 5 t d = iblk14 V c 5 t :=
  (dat.before_in_eq_fetched 5 rfl (fun _ => rfl) (fun _ _ _ => rfl) (fun t => by rw [hafter]; unfold Dat.blockOf iblk14; rw [hA]; try rfl) t d).trans
    (by unfold Dat.fetched Dat.blockOf iblk14; rw [hA]; try rfl)

/-! ## The body's accesses: each load and the one store is of a whole buffer -/

abbrev r14_a : Rect S256x64 := Rect.unit (s := S256x64) ![0, 0] S256x64.size inb_S256x64_S256x64_0_0
abbrev r14_b : Rect S64x64 := Rect.unit (s := S64x64) ![0, 0] S64x64.size inb_S64x64_S64x64_0_0
abbrev r14_c : Rect S1x64 := Rect.unit (s := S1x64) ![0, 0] S1x64.size inb_S1x64_S1x64_0_0
abbrev r14_d : Rect S64x1 := Rect.unit (s := S64x1) ![0, 0] S64x1.size inb_S64x1_S64x1_0_0
abbrev r14_e : Rect S1x1 := Rect.unit (s := S1x1) ![0, 0] S1x1.size inb_S1x1_S1x1_0_0
abbrev r14_o : Rect S256x1 := Rect.unit (s := S256x1) ![0, 0] S256x1.size inb_S256x1_S256x1_0_0

/-! ## What the body leaves in the output window's buffer -/

/-- Window 6's staging buffer after the body, from the input windows' blocks: its one store as a piece
    (`View.canon`; the payload is the skeleton's). -/
def out14_6 (x0 : Vec F S256x64 .f32) (x1 : Vec F S256x64 .f32) (x2 : Vec F S64x64 .f32) (x3 : Vec F S1x64 .f32) (x4 : Vec F S64x1 .f32) (x5 : Vec F S1x1 .f32) : Vec F S256x1 .f32 :=
  View.canon [⟨r14_o, k14_pay1 (View.ld x0 r14_a) (View.ld x1 r14_a) (View.ld x2 r14_b) (View.ld x3 r14_c) (View.ld x4 r14_d) (View.ld x5 r14_e)⟩]

/-- The one store tiles the buffer (checked by evaluation), so it covers it. -/
theorem cover14_6 (p0 : Vec F S256x1 .f32) (y : S256x1.Idx) :
    ∃ pc ∈ ([⟨r14_o, p0⟩] : List (View.Piece (Elt F) S256x1 .f32)), y ∈ pc.1.set :=
  View.cover_of_tiled [⟨r14_o, p0⟩] S256x1.size (by rfl) y

/-! ## The body's triple -/

set_option maxHeartbeats 1000000 in
/-- The kernel body on whole staging memrefs, the inputs' at read contents `xW` and the output's at anything, runs to
    the continuation holding the inputs' as they were and the output's at `out14_6` of the inputs': the printed function
    is its skeleton, which is run operation by operation. -/
theorem sound_kernel14 (c : Dev nD) (E : Set ℕ) (i : grid14.Coords) (arg1 : Memref sig .tc .vmem S256x64 .f32) (harg1 : arg1.IsWhole) (arg2 : Memref sig .tc .vmem S256x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x1 .f32) (harg5 : arg5.IsWhole) (arg6 : Memref sig .tc .vmem S1x1 .f32) (harg6 : arg6.IsWhole) (arg7 : Memref sig .tc .vmem S256x1 .f32) (harg7 : arg7.IsWhole)
    (x0 : Vec F S256x64 .f32) (x1 : Vec F S256x64 .f32) (x2 : Vec F S64x64 .f32) (x3 : Vec F S1x64 .f32) (x4 : Vec F S64x1 .f32) (x5 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out14_6 x0 x1 x2 x3 x4 x5)) -∗ K ⟨⟩))
      ⊢ wp frame (wpE (defs₀ (F := F)) Variants.none c none) E (cc14__classifier_kernel i arg1 harg1 arg2 harg2 arg3 harg3 arg4 harg4 arg5 harg5 arg6 harg6 arg7 harg7) K := by
  simp only [cc14__classifier_kernel_eq_skeleton]; unfold cc14__classifier_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover14_6 _)

/-! ## The pipeline's proof data -/

/-- The proof data of pipeline 14 on core `c`: the arrays as the region finds them (`V`); after the body at
    point `t` each input's buffer at its block and the output's at `out14_6` of the input blocks; the invariant the
    class's (the scoped rest and the generator register, untouched); nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => iblk14 V c 3 t
    | ⟨4, _⟩ => iblk14 V c 4 t
    | ⟨5, _⟩ => iblk14 V c 5 t
    | ⟨6, _⟩ => out14_6 (iblk14 V c 0 t) (iblk14 V c 1 t) (iblk14 V c 2 t) (iblk14 V c 3 t) (iblk14 V c 4 t) (iblk14 V c 5 t)
  Φ _ := Pipeline.ΦA spec14 c
  q _ := fullShare
  owed _ := 0

/-- The proof data's arrays are the region-entry contents (the definition projected, by `dsimp`). -/
theorem A_eq14 (c : Dev nD) (w : Fin cfg14.W) : (dat14 V c).A w = V c (Pipeline.arrRef spec14 w) := by
  dsimp only [dat14]

/-- Every share is the full one. -/
theorem q_eq14 (c : Dev nD) (w : Fin cfg14.W) : (dat14 V c).q w = fullShare := by
  dsimp only [dat14]

/-- Nothing is owed at any boundary. -/
theorem owed_eq14 (c : Dev nD) (n : Fin (cfg14.N + 1)) : (dat14 V c).owed n = 0 := by
  dsimp only [dat14]

/-- The invariant is the class's at every boundary. -/
theorem Phi_eq14 (c : Dev nD) (n : Fin (cfg14.N + 1)) : (dat14 V c).Φ n = Pipeline.ΦA spec14 c := by
  dsimp only [dat14]

/-- Into the invariant at the region's entry: the generator register and the scoped rest, reordered. -/
theorem Phi_in14 (c : Dev nD) : (iprop((∃ r, prngReg c r) ∗ Pipeline.scopedRest (Ix := Unit) (Name := ℕ) (U := UR sig nD τ) (Lvl := ℕ) spec14 c) : sProp 𝕄) ⊢ (dat14 V c).Φ 0 := by
  rw [Phi_eq14]; unfold Pipeline.ΦA
  iintro ⟨Hp, Hr⟩
  isplitl [Hr]; · iexact Hr
  iexact Hp

/-- Out of the invariant at the region's exit: the same two, reordered back. -/
theorem Phi_out14 (c : Dev nD) : (dat14 V c).Φ (Fin.last cfg14.N) ⊢ (iprop((∃ r, prngReg c r) ∗ Pipeline.scopedRest (Ix := Unit) (Name := ℕ) (U := UR sig nD τ) (Lvl := ℕ) spec14 c) : sProp 𝕄) := by
  rw [Phi_eq14]; unfold Pipeline.ΦA
  iintro ⟨Hr, Hp⟩
  isplitl [Hp]; · iexact Hp
  iexact Hr

/-- What the body leaves, window by window (the proof data's `match` reduced by `dsimp`). -/
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = iblk14 V c 3 t := by dsimp only [dat14]
theorem after14_4 (c : Dev nD) (t : Fin cfg14.N) : (dat14 V c).after 4 t = iblk14 V c 4 t := by dsimp only [dat14]
theorem after14_5 (c : Dev nD) (t : Fin cfg14.N) : (dat14 V c).after 5 t = iblk14 V c 5 t := by dsimp only [dat14]
theorem after14_6 (c : Dev nD) (t : Fin cfg14.N) : (dat14 V c).after 6 t = out14_6 (iblk14 V c 0 t) (iblk14 V c 1 t) (iblk14 V c 2 t) (iblk14 V c 3 t) (iblk14 V c 4 t) (iblk14 V c 5 t) := by dsimp only [dat14]

/-- Each input's current staging buffer holds its block at every point, fetched there or not. -/
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d
theorem before14_3 (c : Dev nD) (t : Fin cfg14.N) (d) : (dat14 V c).before 3 t d = iblk14 V c 3 t :=
  before14_3_of V (dat14 V c) (A_eq14 V c 3) (after14_3 V c) t d
theorem before14_4 (c : Dev nD) (t : Fin cfg14.N) (d) : (dat14 V c).before 4 t d = iblk14 V c 4 t :=
  before14_4_of V (dat14 V c) (A_eq14 V c 4) (after14_4 V c) t d
theorem before14_5 (c : Dev nD) (t : Fin cfg14.N) (d) : (dat14 V c).before 5 t d = iblk14 V c 5 t :=
  before14_5_of V (dat14 V c) (A_eq14 V c 5) (after14_5 V c) t d

/-! ## The body obligation, at a generic point -/

/-- What the body is called with at point `t` (the windows one by one), -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d))
    ∗ (∃ d, owns (c : Thread nD τ) (st14_4 t) fullShare ((dat14 V c).before 4 t d))
    ∗ (∃ d, owns (c : Thread nD τ) (st14_5 t) fullShare ((dat14 V c).before 5 t d))
    ∗ (∃ d, owns (c : Thread nD τ) (st14_6 t) fullShare ((dat14 V c).before 6 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t)
    ∗ owns (c : Thread nD τ) (st14_4 t) fullShare ((dat14 V c).after 4 t)
    ∗ owns (c : Thread nD τ) (st14_5 t) fullShare ((dat14 V c).after 5 t)
    ∗ owns (c : Thread nD τ) (st14_6 t) fullShare ((dat14 V c).after 6 t))

/-- The body at any point: the inputs' memrefs hold their blocks, so the kernel's triple applies; the invariant and
    the core's debts pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2, before14_3, before14_4, before14_5]
  rw [show (dat14 V c).Φ t.succ = (dat14 V c).Φ t.castSucc from rfl,
    show (dat14 V c).owesAt () t.succ = (dat14 V c).owesAt () t.castSucc from rfl,
    after14_0, after14_1, after14_2, after14_3, after14_4, after14_5, after14_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel14 c Set.univ _ _ _ _ _ _ _ _ _ _ _ _ _ _ _ (iblk14 V c 0 t) (iblk14 V c 1 t) (iblk14 V c 2 t) (iblk14 V c 3 t) (iblk14 V c 4 t) (iblk14 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation14 (c : Dev nD) : BodyObligation (dat14 (F := F) V c) (defs₀ (F := F)) Variants.none () Set.univ := fun t => by
  rw [bigSep_W14, bigSep_W14]
  exact sound_body14 V c t

end Region14

end Cert.Kernel.Hand

end
-- ==== Proof.K.ChainDefs.lean ====
import proofs.«413302_j72232759984513_1_alg».proof.Proof.Gen.Kernel.Launch
import proofs.«413302_j72232759984513_1_alg».proof.Proof.Gen.Kernel.Skeleton
import proofs.«413302_j72232759984513_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«413302_j72232759984513_1_alg».proof.Proof.Gen.Kernel.Regions
import proofs.«413302_j72232759984513_1_alg».proof.Proof.K.RegLS0
import proofs.«413302_j72232759984513_1_alg».proof.Proof.K.RegBN1
import proofs.«413302_j72232759984513_1_alg».proof.Proof.K.RegLS2
import proofs.«413302_j72232759984513_1_alg».proof.Proof.K.RegBN3
import proofs.«413302_j72232759984513_1_alg».proof.Proof.K.RegLS4
import proofs.«413302_j72232759984513_1_alg».proof.Proof.K.RegBN5
import proofs.«413302_j72232759984513_1_alg».proof.Proof.K.RegPool6
import proofs.«413302_j72232759984513_1_alg».proof.Proof.K.RegLS7
import proofs.«413302_j72232759984513_1_alg».proof.Proof.K.RegBN8
import proofs.«413302_j72232759984513_1_alg».proof.Proof.K.RegLS9
import proofs.«413302_j72232759984513_1_alg».proof.Proof.K.RegBN10
import proofs.«413302_j72232759984513_1_alg».proof.Proof.K.RegLS11
import proofs.«413302_j72232759984513_1_alg».proof.Proof.K.RegBN12
import proofs.«413302_j72232759984513_1_alg».proof.Proof.K.RegPool13
import proofs.«413302_j72232759984513_1_alg».proof.Proof.K.RegCls14

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The unscoped buffers' contents between the items of @main

Item 2J is a host stretch, item 2K+1 is kernel region K. `W J c` is what core `c`'s unscoped buffers hold after item J-1:
the launch memory, then `StableHlo.after` each host stretch, then, after a region, the entry contents with each output
window's array replaced by what the pipeline leaves in it (`Dat.arrAt … N`: the write-backs folded over the entry array). -/

/-! ## What a region leaves in an output window's array, as a name

`oK_w X c` is the array of region K's output window `w` after the region's last point, for the region entered at the
contents `X`: a name that no later statement has to look into (only `oK_w_eq` says what it is). -/

theorem lt0_0 : 0 < cfg0.W := by decide
theorem lt0_1 : 1 < cfg0.W := by decide
theorem lt0_2 : 2 < cfg0.W := by decide
theorem lt0_3 : 3 < cfg0.W := by decide
theorem lt0_4 : 4 < cfg0.W := by decide
theorem lt0_5 : 5 < cfg0.W := by decide
theorem ne0_0_3 : Pipeline.arrRef spec0 ⟨0, lt0_0⟩ ≠ main_v19_0 := by decide
theorem ne0_0_4 : Pipeline.arrRef spec0 ⟨0, lt0_0⟩ ≠ main_v19_1 := by decide
theorem ne0_0_5 : Pipeline.arrRef spec0 ⟨0, lt0_0⟩ ≠ main_v19_2 := by decide
theorem ne0_1_3 : Pipeline.arrRef spec0 ⟨1, lt0_1⟩ ≠ main_v19_0 := by decide
theorem ne0_1_4 : Pipeline.arrRef spec0 ⟨1, lt0_1⟩ ≠ main_v19_1 := by decide
theorem ne0_1_5 : Pipeline.arrRef spec0 ⟨1, lt0_1⟩ ≠ main_v19_2 := by decide
theorem ne0_2_3 : Pipeline.arrRef spec0 ⟨2, lt0_2⟩ ≠ main_v19_0 := by decide
theorem ne0_2_4 : Pipeline.arrRef spec0 ⟨2, lt0_2⟩ ≠ main_v19_1 := by decide
theorem ne0_2_5 : Pipeline.arrRef spec0 ⟨2, lt0_2⟩ ≠ main_v19_2 := by decide
theorem lt1_0 : 0 < cfg1.W := by decide
theorem lt1_1 : 1 < cfg1.W := by decide
theorem lt1_2 : 2 < cfg1.W := by decide
theorem lt1_3 : 3 < cfg1.W := by decide
theorem lt1_4 : 4 < cfg1.W := by decide
theorem lt1_5 : 5 < cfg1.W := by decide
theorem ne1_0_5 : Pipeline.arrRef spec1 ⟨0, lt1_0⟩ ≠ main_v29 := by decide
theorem ne1_1_5 : Pipeline.arrRef spec1 ⟨1, lt1_1⟩ ≠ main_v29 := by decide
theorem ne1_2_5 : Pipeline.arrRef spec1 ⟨2, lt1_2⟩ ≠ main_v29 := by decide
theorem ne1_3_5 : Pipeline.arrRef spec1 ⟨3, lt1_3⟩ ≠ main_v29 := by decide
theorem ne1_4_5 : Pipeline.arrRef spec1 ⟨4, lt1_4⟩ ≠ main_v29 := by decide
theorem lt2_0 : 0 < cfg2.W := by decide
theorem lt2_1 : 1 < cfg2.W := by decide
theorem lt2_2 : 2 < cfg2.W := by decide
theorem lt2_3 : 3 < cfg2.W := by decide
theorem lt2_4 : 4 < cfg2.W := by decide
theorem lt2_5 : 5 < cfg2.W := by decide
theorem ne2_0_3 : Pipeline.arrRef spec2 ⟨0, lt2_0⟩ ≠ main_v44_0 := by decide
theorem ne2_0_4 : Pipeline.arrRef spec2 ⟨0, lt2_0⟩ ≠ main_v44_1 := by decide
theorem ne2_0_5 : Pipeline.arrRef spec2 ⟨0, lt2_0⟩ ≠ main_v44_2 := by decide
theorem ne2_1_3 : Pipeline.arrRef spec2 ⟨1, lt2_1⟩ ≠ main_v44_0 := by decide
theorem ne2_1_4 : Pipeline.arrRef spec2 ⟨1, lt2_1⟩ ≠ main_v44_1 := by decide
theorem ne2_1_5 : Pipeline.arrRef spec2 ⟨1, lt2_1⟩ ≠ main_v44_2 := by decide
theorem ne2_2_3 : Pipeline.arrRef spec2 ⟨2, lt2_2⟩ ≠ main_v44_0 := by decide
theorem ne2_2_4 : Pipeline.arrRef spec2 ⟨2, lt2_2⟩ ≠ main_v44_1 := by decide
theorem ne2_2_5 : Pipeline.arrRef spec2 ⟨2, lt2_2⟩ ≠ main_v44_2 := by decide
theorem lt3_0 : 0 < cfg3.W := by decide
theorem lt3_1 : 1 < cfg3.W := by decide
theorem lt3_2 : 2 < cfg3.W := by decide
theorem lt3_3 : 3 < cfg3.W := by decide
theorem lt3_4 : 4 < cfg3.W := by decide
theorem lt3_5 : 5 < cfg3.W := by decide
theorem ne3_0_5 : Pipeline.arrRef spec3 ⟨0, lt3_0⟩ ≠ main_v54 := by decide
theorem ne3_1_5 : Pipeline.arrRef spec3 ⟨1, lt3_1⟩ ≠ main_v54 := by decide
theorem ne3_2_5 : Pipeline.arrRef spec3 ⟨2, lt3_2⟩ ≠ main_v54 := by decide
theorem ne3_3_5 : Pipeline.arrRef spec3 ⟨3, lt3_3⟩ ≠ main_v54 := by decide
theorem ne3_4_5 : Pipeline.arrRef spec3 ⟨4, lt3_4⟩ ≠ main_v54 := by decide
theorem lt4_0 : 0 < cfg4.W := by decide
theorem lt4_1 : 1 < cfg4.W := by decide
theorem lt4_2 : 2 < cfg4.W := by decide
theorem lt4_3 : 3 < cfg4.W := by decide
theorem lt4_4 : 4 < cfg4.W := by decide
theorem lt4_5 : 5 < cfg4.W := by decide
theorem ne4_0_3 : Pipeline.arrRef spec4 ⟨0, lt4_0⟩ ≠ main_v69_0 := by decide
theorem ne4_0_4 : Pipeline.arrRef spec4 ⟨0, lt4_0⟩ ≠ main_v69_1 := by decide
theorem ne4_0_5 : Pipeline.arrRef spec4 ⟨0, lt4_0⟩ ≠ main_v69_2 := by decide
theorem ne4_1_3 : Pipeline.arrRef spec4 ⟨1, lt4_1⟩ ≠ main_v69_0 := by decide
theorem ne4_1_4 : Pipeline.arrRef spec4 ⟨1, lt4_1⟩ ≠ main_v69_1 := by decide
theorem ne4_1_5 : Pipeline.arrRef spec4 ⟨1, lt4_1⟩ ≠ main_v69_2 := by decide
theorem ne4_2_3 : Pipeline.arrRef spec4 ⟨2, lt4_2⟩ ≠ main_v69_0 := by decide
theorem ne4_2_4 : Pipeline.arrRef spec4 ⟨2, lt4_2⟩ ≠ main_v69_1 := by decide
theorem ne4_2_5 : Pipeline.arrRef spec4 ⟨2, lt4_2⟩ ≠ main_v69_2 := by decide
theorem lt5_0 : 0 < cfg5.W := by decide
theorem lt5_1 : 1 < cfg5.W := by decide
theorem lt5_2 : 2 < cfg5.W := by decide
theorem lt5_3 : 3 < cfg5.W := by decide
theorem lt5_4 : 4 < cfg5.W := by decide
theorem lt5_5 : 5 < cfg5.W := by decide
theorem ne5_0_5 : Pipeline.arrRef spec5 ⟨0, lt5_0⟩ ≠ main_v79 := by decide
theorem ne5_1_5 : Pipeline.arrRef spec5 ⟨1, lt5_1⟩ ≠ main_v79 := by decide
theorem ne5_2_5 : Pipeline.arrRef spec5 ⟨2, lt5_2⟩ ≠ main_v79 := by decide
theorem ne5_3_5 : Pipeline.arrRef spec5 ⟨3, lt5_3⟩ ≠ main_v79 := by decide
theorem ne5_4_5 : Pipeline.arrRef spec5 ⟨4, lt5_4⟩ ≠ main_v79 := by decide
theorem lt6_0 : 0 < cfg6.W := by decide
theorem lt6_1 : 1 < cfg6.W := by decide
theorem lt6_2 : 2 < cfg6.W := by decide
theorem lt6_3 : 3 < cfg6.W := by decide
theorem lt6_4 : 4 < cfg6.W := by decide
theorem ne6_0_4 : Pipeline.arrRef spec6 ⟨0, lt6_0⟩ ≠ main_v81 := by decide
theorem ne6_1_4 : Pipeline.arrRef spec6 ⟨1, lt6_1⟩ ≠ main_v81 := by decide
theorem ne6_2_4 : Pipeline.arrRef spec6 ⟨2, lt6_2⟩ ≠ main_v81 := by decide
theorem ne6_3_4 : Pipeline.arrRef spec6 ⟨3, lt6_3⟩ ≠ main_v81 := by decide
theorem lt7_0 : 0 < cfg7.W := by decide
theorem lt7_1 : 1 < cfg7.W := by decide
theorem lt7_2 : 2 < cfg7.W := by decide
theorem lt7_3 : 3 < cfg7.W := by decide
theorem lt7_4 : 4 < cfg7.W := by decide
theorem lt7_5 : 5 < cfg7.W := by decide
theorem ne7_0_3 : Pipeline.arrRef spec7 ⟨0, lt7_0⟩ ≠ main_v101_0 := by decide
theorem ne7_0_4 : Pipeline.arrRef spec7 ⟨0, lt7_0⟩ ≠ main_v101_1 := by decide
theorem ne7_0_5 : Pipeline.arrRef spec7 ⟨0, lt7_0⟩ ≠ main_v101_2 := by decide
theorem ne7_1_3 : Pipeline.arrRef spec7 ⟨1, lt7_1⟩ ≠ main_v101_0 := by decide
theorem ne7_1_4 : Pipeline.arrRef spec7 ⟨1, lt7_1⟩ ≠ main_v101_1 := by decide
theorem ne7_1_5 : Pipeline.arrRef spec7 ⟨1, lt7_1⟩ ≠ main_v101_2 := by decide
theorem ne7_2_3 : Pipeline.arrRef spec7 ⟨2, lt7_2⟩ ≠ main_v101_0 := by decide
theorem ne7_2_4 : Pipeline.arrRef spec7 ⟨2, lt7_2⟩ ≠ main_v101_1 := by decide
theorem ne7_2_5 : Pipeline.arrRef spec7 ⟨2, lt7_2⟩ ≠ main_v101_2 := by decide
theorem lt8_0 : 0 < cfg8.W := by decide
theorem lt8_1 : 1 < cfg8.W := by decide
theorem lt8_2 : 2 < cfg8.W := by decide
theorem lt8_3 : 3 < cfg8.W := by decide
theorem lt8_4 : 4 < cfg8.W := by decide
theorem lt8_5 : 5 < cfg8.W := by decide
theorem ne8_0_5 : Pipeline.arrRef spec8 ⟨0, lt8_0⟩ ≠ main_v111 := by decide
theorem ne8_1_5 : Pipeline.arrRef spec8 ⟨1, lt8_1⟩ ≠ main_v111 := by decide
theorem ne8_2_5 : Pipeline.arrRef spec8 ⟨2, lt8_2⟩ ≠ main_v111 := by decide
theorem ne8_3_5 : Pipeline.arrRef spec8 ⟨3, lt8_3⟩ ≠ main_v111 := by decide
theorem ne8_4_5 : Pipeline.arrRef spec8 ⟨4, lt8_4⟩ ≠ main_v111 := by decide
theorem lt9_0 : 0 < cfg9.W := by decide
theorem lt9_1 : 1 < cfg9.W := by decide
theorem lt9_2 : 2 < cfg9.W := by decide
theorem lt9_3 : 3 < cfg9.W := by decide
theorem lt9_4 : 4 < cfg9.W := by decide
theorem lt9_5 : 5 < cfg9.W := by decide
theorem ne9_0_3 : Pipeline.arrRef spec9 ⟨0, lt9_0⟩ ≠ main_v126_0 := by decide
theorem ne9_0_4 : Pipeline.arrRef spec9 ⟨0, lt9_0⟩ ≠ main_v126_1 := by decide
theorem ne9_0_5 : Pipeline.arrRef spec9 ⟨0, lt9_0⟩ ≠ main_v126_2 := by decide
theorem ne9_1_3 : Pipeline.arrRef spec9 ⟨1, lt9_1⟩ ≠ main_v126_0 := by decide
theorem ne9_1_4 : Pipeline.arrRef spec9 ⟨1, lt9_1⟩ ≠ main_v126_1 := by decide
theorem ne9_1_5 : Pipeline.arrRef spec9 ⟨1, lt9_1⟩ ≠ main_v126_2 := by decide
theorem ne9_2_3 : Pipeline.arrRef spec9 ⟨2, lt9_2⟩ ≠ main_v126_0 := by decide
theorem ne9_2_4 : Pipeline.arrRef spec9 ⟨2, lt9_2⟩ ≠ main_v126_1 := by decide
theorem ne9_2_5 : Pipeline.arrRef spec9 ⟨2, lt9_2⟩ ≠ main_v126_2 := by decide
theorem lt10_0 : 0 < cfg10.W := by decide
theorem lt10_1 : 1 < cfg10.W := by decide
theorem lt10_2 : 2 < cfg10.W := by decide
theorem lt10_3 : 3 < cfg10.W := by decide
theorem lt10_4 : 4 < cfg10.W := by decide
theorem lt10_5 : 5 < cfg10.W := by decide
theorem ne10_0_5 : Pipeline.arrRef spec10 ⟨0, lt10_0⟩ ≠ main_v136 := by decide
theorem ne10_1_5 : Pipeline.arrRef spec10 ⟨1, lt10_1⟩ ≠ main_v136 := by decide
theorem ne10_2_5 : Pipeline.arrRef spec10 ⟨2, lt10_2⟩ ≠ main_v136 := by decide
theorem ne10_3_5 : Pipeline.arrRef spec10 ⟨3, lt10_3⟩ ≠ main_v136 := by decide
theorem ne10_4_5 : Pipeline.arrRef spec10 ⟨4, lt10_4⟩ ≠ main_v136 := by decide
theorem lt11_0 : 0 < cfg11.W := by decide
theorem lt11_1 : 1 < cfg11.W := by decide
theorem lt11_2 : 2 < cfg11.W := by decide
theorem lt11_3 : 3 < cfg11.W := by decide
theorem lt11_4 : 4 < cfg11.W := by decide
theorem lt11_5 : 5 < cfg11.W := by decide
theorem ne11_0_3 : Pipeline.arrRef spec11 ⟨0, lt11_0⟩ ≠ main_v151_0 := by decide
theorem ne11_0_4 : Pipeline.arrRef spec11 ⟨0, lt11_0⟩ ≠ main_v151_1 := by decide
theorem ne11_0_5 : Pipeline.arrRef spec11 ⟨0, lt11_0⟩ ≠ main_v151_2 := by decide
theorem ne11_1_3 : Pipeline.arrRef spec11 ⟨1, lt11_1⟩ ≠ main_v151_0 := by decide
theorem ne11_1_4 : Pipeline.arrRef spec11 ⟨1, lt11_1⟩ ≠ main_v151_1 := by decide
theorem ne11_1_5 : Pipeline.arrRef spec11 ⟨1, lt11_1⟩ ≠ main_v151_2 := by decide
theorem ne11_2_3 : Pipeline.arrRef spec11 ⟨2, lt11_2⟩ ≠ main_v151_0 := by decide
theorem ne11_2_4 : Pipeline.arrRef spec11 ⟨2, lt11_2⟩ ≠ main_v151_1 := by decide
theorem ne11_2_5 : Pipeline.arrRef spec11 ⟨2, lt11_2⟩ ≠ main_v151_2 := by decide
theorem lt12_0 : 0 < cfg12.W := by decide
theorem lt12_1 : 1 < cfg12.W := by decide
theorem lt12_2 : 2 < cfg12.W := by decide
theorem lt12_3 : 3 < cfg12.W := by decide
theorem lt12_4 : 4 < cfg12.W := by decide
theorem lt12_5 : 5 < cfg12.W := by decide
theorem ne12_0_5 : Pipeline.arrRef spec12 ⟨0, lt12_0⟩ ≠ main_v161 := by decide
theorem ne12_1_5 : Pipeline.arrRef spec12 ⟨1, lt12_1⟩ ≠ main_v161 := by decide
theorem ne12_2_5 : Pipeline.arrRef spec12 ⟨2, lt12_2⟩ ≠ main_v161 := by decide
theorem ne12_3_5 : Pipeline.arrRef spec12 ⟨3, lt12_3⟩ ≠ main_v161 := by decide
theorem ne12_4_5 : Pipeline.arrRef spec12 ⟨4, lt12_4⟩ ≠ main_v161 := by decide
theorem lt13_0 : 0 < cfg13.W := by decide
theorem lt13_1 : 1 < cfg13.W := by decide
theorem lt13_2 : 2 < cfg13.W := by decide
theorem lt13_3 : 3 < cfg13.W := by decide
theorem lt13_4 : 4 < cfg13.W := by decide
theorem ne13_0_4 : Pipeline.arrRef spec13 ⟨0, lt13_0⟩ ≠ main_v163 := by decide
theorem ne13_1_4 : Pipeline.arrRef spec13 ⟨1, lt13_1⟩ ≠ main_v163 := by decide
theorem ne13_2_4 : Pipeline.arrRef spec13 ⟨2, lt13_2⟩ ≠ main_v163 := by decide
theorem ne13_3_4 : Pipeline.arrRef spec13 ⟨3, lt13_3⟩ ≠ main_v163 := by decide
theorem lt14_0 : 0 < cfg14.W := by decide
theorem lt14_1 : 1 < cfg14.W := by decide
theorem lt14_2 : 2 < cfg14.W := by decide
theorem lt14_3 : 3 < cfg14.W := by decide
theorem lt14_4 : 4 < cfg14.W := by decide
theorem lt14_5 : 5 < cfg14.W := by decide
theorem lt14_6 : 6 < cfg14.W := by decide
theorem ne14_0_6 : Pipeline.arrRef spec14 ⟨0, lt14_0⟩ ≠ main_v166 := by decide
theorem ne14_1_6 : Pipeline.arrRef spec14 ⟨1, lt14_1⟩ ≠ main_v166 := by decide
theorem ne14_2_6 : Pipeline.arrRef spec14 ⟨2, lt14_2⟩ ≠ main_v166 := by decide
theorem ne14_3_6 : Pipeline.arrRef spec14 ⟨3, lt14_3⟩ ≠ main_v166 := by decide
theorem ne14_4_6 : Pipeline.arrRef spec14 ⟨4, lt14_4⟩ ≠ main_v166 := by decide
theorem ne14_5_6 : Pipeline.arrRef spec14 ⟨5, lt14_5⟩ ≠ main_v166 := by decide

def o0_3 (X : (c : Dev nD) → (b : Ref sig .tc) → Buf (Elt F) ((c : Thread nD τ).loc b)) (c : Dev nD) : Buf (Elt F) ((c : Thread nD τ).loc main_v19_0) := (dat0 X c).arrAt ⟨3, lt0_3⟩ cfg0.N
theorem o0_3_eq (X : (c : Dev nD) → (b : Ref sig .tc) → Buf (Elt F) ((c : Thread nD τ).loc b)) (c : Dev nD) (h : 3 < cfg0.W) : o0_3 X c = (dat0 X c).arrAt ⟨3, h⟩ cfg0.N := rfl
attribute [irreducible] o0_3
def o0_4 (X : (c : Dev nD) → (b : Ref sig .tc) → Buf (Elt F) ((c : Thread nD τ).loc b)) (c : Dev nD) : Buf (Elt F) ((c : Thread nD τ).loc main_v19_1) := (dat0 X c).arrAt ⟨4, lt0_4⟩ cfg0.N
theorem o0_4_eq (X : (c : Dev nD) → (b : Ref sig .tc) → Buf (Elt F) ((c : Thread nD τ).loc b)) (c : Dev nD) (h : 4 < cfg0.W) : o0_4 X c = (dat0 X c).arrAt ⟨4, h⟩ cfg0.N := rfl
attribute [irreducible] o0_4
def o0_5 (X : (c : Dev nD) → (b : Ref sig .tc) → Buf (Elt F) ((c : Thread nD τ).loc b)) (c : Dev nD) : Buf (Elt F) ((c : Thread nD τ).loc main_v19_2) := (dat0 X c).arrAt ⟨5, lt0_5⟩ cfg0.N
theorem o0_5_eq (X : (c : Dev nD) → (b : Ref sig .tc) → Buf (Elt F) ((c : Thread nD τ).loc b)) (c : Dev nD) (h : 5 < cfg0.W) : o0_5 X c = (dat0 X c).arrAt ⟨5, h⟩ cfg0.N := rfl
attribute [irreducible] o0_5
def o1_5 (X : (c : Dev nD) → (b : Ref sig .tc) → Buf (Elt F) ((c : Thread nD τ).loc b)) (c : Dev nD) : Buf (Elt F) ((c : Thread nD τ).loc main_v29) := (dat1 X c).arrAt ⟨5, lt1_5⟩ cfg1.N
theorem o1_5_eq (X : (c : Dev nD) → (b : Ref sig .tc) → Buf (Elt F) ((c : Thread nD τ).loc b)) (c : Dev nD) (h : 5 < cfg1.W) : o1_5 X c = (dat1 X c).arrAt ⟨5, h⟩ cfg1.N := rfl
attribute [irreducible] o1_5
def o2_3 (X : (c : Dev nD) → (b : Ref sig .tc) → Buf (Elt F) ((c : Thread nD τ).loc b)) (c : Dev nD) : Buf (Elt F) ((c : Thread nD τ).loc main_v44_0) := (dat2 X c).arrAt ⟨3, lt2_3⟩ cfg2.N
theorem o2_3_eq (X : (c : Dev nD) → (b : Ref sig .tc) → Buf (Elt F) ((c : Thread nD τ).loc b)) (c : Dev nD) (h : 3 < cfg2.W) : o2_3 X c = (dat2 X c).arrAt ⟨3, h⟩ cfg2.N := rfl
attribute [irreducible] o2_3
def o2_4 (X : (c : Dev nD) → (b : Ref sig .tc) → Buf (Elt F) ((c : Thread nD τ).loc b)) (c : Dev nD) : Buf (Elt F) ((c : Thread nD τ).loc main_v44_1) := (dat2 X c).arrAt ⟨4, lt2_4⟩ cfg2.N
theorem o2_4_eq (X : (c : Dev nD) → (b : Ref sig .tc) → Buf (Elt F) ((c : Thread nD τ).loc b)) (c : Dev nD) (h : 4 < cfg2.W) : o2_4 X c = (dat2 X c).arrAt ⟨4, h⟩ cfg2.N := rfl
attribute [irreducible] o2_4
def o2_5 (X : (c : Dev nD) → (b : Ref sig .tc) → Buf (Elt F) ((c : Thread nD τ).loc b)) (c : Dev nD) : Buf (Elt F) ((c : Thread nD τ).loc main_v44_2) := (dat2 X c).arrAt ⟨5, lt2_5⟩ cfg2.N
theorem o2_5_eq (X : (c : Dev nD) → (b : Ref sig .tc) → Buf (Elt F) ((c : Thread nD τ).loc b)) (c : Dev nD) (h : 5 < cfg2.W) : o2_5 X c = (dat2 X c).arrAt ⟨5, h⟩ cfg2.N := rfl
attribute [irreducible] o2_5
def o3_5 (X : (c : Dev nD) → (b : Ref sig .tc) → Buf (Elt F) ((c : Thread nD τ).loc b)) (c : Dev nD) : Buf (Elt F) ((c : Thread nD τ).loc main_v54) := (dat3 X c).arrAt ⟨5, lt3_5⟩ cfg3.N
theorem o3_5_eq (X : (c : Dev nD) → (b : Ref sig .tc) → Buf (Elt F) ((c : Thread nD τ).loc b)) (c : Dev nD) (h : 5 < cfg3.W) : o3_5 X c = (dat3 X c).arrAt ⟨5, h⟩ cfg3.N := rfl
attribute [irreducible] o3_5
def o4_3 (X : (c : Dev nD) → (b : Ref sig .tc) → Buf (Elt F) ((c : Thread nD τ).loc b)) (c : Dev nD) : Buf (Elt F) ((c : Thread nD τ).loc main_v69_0) := (dat4 X c).arrAt ⟨3, lt4_3⟩ cfg4.N
theorem o4_3_eq (X : (c : Dev nD) → (b : Ref sig .tc) → Buf (Elt F) ((c : Thread nD τ).loc b)) (c : Dev nD) (h : 3 < cfg4.W) : o4_3 X c = (dat4 X c).arrAt ⟨3, h⟩ cfg4.N := rfl
attribute [irreducible] o4_3
def o4_4 (X : (c : Dev nD) → (b : Ref sig .tc) → Buf (Elt F) ((c : Thread nD τ).loc b)) (c : Dev nD) : Buf (Elt F) ((c : Thread nD τ).loc main_v69_1) := (dat4 X c).arrAt ⟨4, lt4_4⟩ cfg4.N
theorem o4_4_eq (X : (c : Dev nD) → (b : Ref sig .tc) → Buf (Elt F) ((c : Thread nD τ).loc b)) (c : Dev nD) (h : 4 < cfg4.W) : o4_4 X c = (dat4 X c).arrAt ⟨4, h⟩ cfg4.N := rfl
attribute [irreducible] o4_4
def o4_5 (X : (c : Dev nD) → (b : Ref sig .tc) → Buf (Elt F) ((c : Thread nD τ).loc b)) (c : Dev nD) : Buf (Elt F) ((c : Thread nD τ).loc main_v69_2) := (dat4 X c).arrAt ⟨5, lt4_5⟩ cfg4.N
theorem o4_5_eq (X : (c : Dev nD) → (b : Ref sig .tc) → Buf (Elt F) ((c : Thread nD τ).loc b)) (c : Dev nD) (h : 5 < cfg4.W) : o4_5 X c = (dat4 X c).arrAt ⟨5, h⟩ cfg4.N := rfl
attribute [irreducible] o4_5
def o5_5 (X : (c : Dev nD) → (b : Ref sig .tc) → Buf (Elt F) ((c : Thread nD τ).loc b)) (c : Dev nD) : Buf (Elt F) ((c : Thread nD τ).loc main_v79) := (dat5 X c).arrAt ⟨5, lt5_5⟩ cfg5.N
theorem o5_5_eq (X : (c : Dev nD) → (b : Ref sig .tc) → Buf (Elt F) ((c : Thread nD τ).loc b)) (c : Dev nD) (h : 5 < cfg5.W) : o5_5 X c = (dat5 X c).arrAt ⟨5, h⟩ cfg5.N := rfl
attribute [irreducible] o5_5
def o6_4 (X : (c : Dev nD) → (b : Ref sig .tc) → Buf (Elt F) ((c : Thread nD τ).loc b)) (c : Dev nD) : Buf (Elt F) ((c : Thread nD τ).loc main_v81) := (dat6 X c).arrAt ⟨4, lt6_4⟩ cfg6.N
theorem o6_4_eq (X : (c : Dev nD) → (b : Ref sig .tc) → Buf (Elt F) ((c : Thread nD τ).loc b)) (c : Dev nD) (h : 4 < cfg6.W) : o6_4 X c = (dat6 X c).arrAt ⟨4, h⟩ cfg6.N := rfl
attribute [irreducible] o6_4
def o7_3 (X : (c : Dev nD) → (b : Ref sig .tc) → Buf (Elt F) ((c : Thread nD τ).loc b)) (c : Dev nD) : Buf (Elt F) ((c : Thread nD τ).loc main_v101_0) := (dat7 X c).arrAt ⟨3, lt7_3⟩ cfg7.N
theorem o7_3_eq (X : (c : Dev nD) → (b : Ref sig .tc) → Buf (Elt F) ((c : Thread nD τ).loc b)) (c : Dev nD) (h : 3 < cfg7.W) : o7_3 X c = (dat7 X c).arrAt ⟨3, h⟩ cfg7.N := rfl
attribute [irreducible] o7_3
def o7_4 (X : (c : Dev nD) → (b : Ref sig .tc) → Buf (Elt F) ((c : Thread nD τ).loc b)) (c : Dev nD) : Buf (Elt F) ((c : Thread nD τ).loc main_v101_1) := (dat7 X c).arrAt ⟨4, lt7_4⟩ cfg7.N
theorem o7_4_eq (X : (c : Dev nD) → (b : Ref sig .tc) → Buf (Elt F) ((c : Thread nD τ).loc b)) (c : Dev nD) (h : 4 < cfg7.W) : o7_4 X c = (dat7 X c).arrAt ⟨4, h⟩ cfg7.N := rfl
attribute [irreducible] o7_4
def o7_5 (X : (c : Dev nD) → (b : Ref sig .tc) → Buf (Elt F) ((c : Thread nD τ).loc b)) (c : Dev nD) : Buf (Elt F) ((c : Thread nD τ).loc main_v101_2) := (dat7 X c).arrAt ⟨5, lt7_5⟩ cfg7.N
theorem o7_5_eq (X : (c : Dev nD) → (b : Ref sig .tc) → Buf (Elt F) ((c : Thread nD τ).loc b)) (c : Dev nD) (h : 5 < cfg7.W) : o7_5 X c = (dat7 X c).arrAt ⟨5, h⟩ cfg7.N := rfl
attribute [irreducible] o7_5
def o8_5 (X : (c : Dev nD) → (b : Ref sig .tc) → Buf (Elt F) ((c : Thread nD τ).loc b)) (c : Dev nD) : Buf (Elt F) ((c : Thread nD τ).loc main_v111) := (dat8 X c).arrAt ⟨5, lt8_5⟩ cfg8.N
theorem o8_5_eq (X : (c : Dev nD) → (b : Ref sig .tc) → Buf (Elt F) ((c : Thread nD τ).loc b)) (c : Dev nD) (h : 5 < cfg8.W) : o8_5 X c = (dat8 X c).arrAt ⟨5, h⟩ cfg8.N := rfl
attribute [irreducible] o8_5
def o9_3 (X : (c : Dev nD) → (b : Ref sig .tc) → Buf (Elt F) ((c : Thread nD τ).loc b)) (c : Dev nD) : Buf (Elt F) ((c : Thread nD τ).loc main_v126_0) := (dat9 X c).arrAt ⟨3, lt9_3⟩ cfg9.N
theorem o9_3_eq (X : (c : Dev nD) → (b : Ref sig .tc) → Buf (Elt F) ((c : Thread nD τ).loc b)) (c : Dev nD) (h : 3 < cfg9.W) : o9_3 X c = (dat9 X c).arrAt ⟨3, h⟩ cfg9.N := rfl
attribute [irreducible] o9_3
def o9_4 (X : (c : Dev nD) → (b : Ref sig .tc) → Buf (Elt F) ((c : Thread nD τ).loc b)) (c : Dev nD) : Buf (Elt F) ((c : Thread nD τ).loc main_v126_1) := (dat9 X c).arrAt ⟨4, lt9_4⟩ cfg9.N
theorem o9_4_eq (X : (c : Dev nD) → (b : Ref sig .tc) → Buf (Elt F) ((c : Thread nD τ).loc b)) (c : Dev nD) (h : 4 < cfg9.W) : o9_4 X c = (dat9 X c).arrAt ⟨4, h⟩ cfg9.N := rfl
attribute [irreducible] o9_4
def o9_5 (X : (c : Dev nD) → (b : Ref sig .tc) → Buf (Elt F) ((c : Thread nD τ).loc b)) (c : Dev nD) : Buf (Elt F) ((c : Thread nD τ).loc main_v126_2) := (dat9 X c).arrAt ⟨5, lt9_5⟩ cfg9.N
theorem o9_5_eq (X : (c : Dev nD) → (b : Ref sig .tc) → Buf (Elt F) ((c : Thread nD τ).loc b)) (c : Dev nD) (h : 5 < cfg9.W) : o9_5 X c = (dat9 X c).arrAt ⟨5, h⟩ cfg9.N := rfl
attribute [irreducible] o9_5
def o10_5 (X : (c : Dev nD) → (b : Ref sig .tc) → Buf (Elt F) ((c : Thread nD τ).loc b)) (c : Dev nD) : Buf (Elt F) ((c : Thread nD τ).loc main_v136) := (dat10 X c).arrAt ⟨5, lt10_5⟩ cfg10.N
theorem o10_5_eq (X : (c : Dev nD) → (b : Ref sig .tc) → Buf (Elt F) ((c : Thread nD τ).loc b)) (c : Dev nD) (h : 5 < cfg10.W) : o10_5 X c = (dat10 X c).arrAt ⟨5, h⟩ cfg10.N := rfl
attribute [irreducible] o10_5
def o11_3 (X : (c : Dev nD) → (b : Ref sig .tc) → Buf (Elt F) ((c : Thread nD τ).loc b)) (c : Dev nD) : Buf (Elt F) ((c : Thread nD τ).loc main_v151_0) := (dat11 X c).arrAt ⟨3, lt11_3⟩ cfg11.N
theorem o11_3_eq (X : (c : Dev nD) → (b : Ref sig .tc) → Buf (Elt F) ((c : Thread nD τ).loc b)) (c : Dev nD) (h : 3 < cfg11.W) : o11_3 X c = (dat11 X c).arrAt ⟨3, h⟩ cfg11.N := rfl
attribute [irreducible] o11_3
def o11_4 (X : (c : Dev nD) → (b : Ref sig .tc) → Buf (Elt F) ((c : Thread nD τ).loc b)) (c : Dev nD) : Buf (Elt F) ((c : Thread nD τ).loc main_v151_1) := (dat11 X c).arrAt ⟨4, lt11_4⟩ cfg11.N
theorem o11_4_eq (X : (c : Dev nD) → (b : Ref sig .tc) → Buf (Elt F) ((c : Thread nD τ).loc b)) (c : Dev nD) (h : 4 < cfg11.W) : o11_4 X c = (dat11 X c).arrAt ⟨4, h⟩ cfg11.N := rfl
attribute [irreducible] o11_4
def o11_5 (X : (c : Dev nD) → (b : Ref sig .tc) → Buf (Elt F) ((c : Thread nD τ).loc b)) (c : Dev nD) : Buf (Elt F) ((c : Thread nD τ).loc main_v151_2) := (dat11 X c).arrAt ⟨5, lt11_5⟩ cfg11.N
theorem o11_5_eq (X : (c : Dev nD) → (b : Ref sig .tc) → Buf (Elt F) ((c : Thread nD τ).loc b)) (c : Dev nD) (h : 5 < cfg11.W) : o11_5 X c = (dat11 X c).arrAt ⟨5, h⟩ cfg11.N := rfl
attribute [irreducible] o11_5
def o12_5 (X : (c : Dev nD) → (b : Ref sig .tc) → Buf (Elt F) ((c : Thread nD τ).loc b)) (c : Dev nD) : Buf (Elt F) ((c : Thread nD τ).loc main_v161) := (dat12 X c).arrAt ⟨5, lt12_5⟩ cfg12.N
theorem o12_5_eq (X : (c : Dev nD) → (b : Ref sig .tc) → Buf (Elt F) ((c : Thread nD τ).loc b)) (c : Dev nD) (h : 5 < cfg12.W) : o12_5 X c = (dat12 X c).arrAt ⟨5, h⟩ cfg12.N := rfl
attribute [irreducible] o12_5
def o13_4 (X : (c : Dev nD) → (b : Ref sig .tc) → Buf (Elt F) ((c : Thread nD τ).loc b)) (c : Dev nD) : Buf (Elt F) ((c : Thread nD τ).loc main_v163) := (dat13 X c).arrAt ⟨4, lt13_4⟩ cfg13.N
theorem o13_4_eq (X : (c : Dev nD) → (b : Ref sig .tc) → Buf (Elt F) ((c : Thread nD τ).loc b)) (c : Dev nD) (h : 4 < cfg13.W) : o13_4 X c = (dat13 X c).arrAt ⟨4, h⟩ cfg13.N := rfl
attribute [irreducible] o13_4
def o14_6 (X : (c : Dev nD) → (b : Ref sig .tc) → Buf (Elt F) ((c : Thread nD τ).loc b)) (c : Dev nD) : Buf (Elt F) ((c : Thread nD τ).loc main_v166) := (dat14 X c).arrAt ⟨6, lt14_6⟩ cfg14.N
theorem o14_6_eq (X : (c : Dev nD) → (b : Ref sig .tc) → Buf (Elt F) ((c : Thread nD τ).loc b)) (c : Dev nD) (h : 6 < cfg14.W) : o14_6 X c = (dat14 X c).arrAt ⟨6, h⟩ cfg14.N := rfl
attribute [irreducible] o14_6

variable (m : (ℓ : Loc nD τ sig) → Buf (Elt F) ℓ)

/-- Core `c`'s unscoped buffers at launch. -/
abbrev W0 (c : Dev nD) : Valuation τ sig (Elt F) := Gen.V0 m c
/-- The same read at the TensorCore's references. -/
def R0 : (c : Dev nD) → (b : Ref sig .tc) → Buf (Elt F) ((c : Thread nD τ).loc b) := fun c b => W0 m c b
theorem R0_apply (c : Dev nD) (b : Ref sig .tc) : R0 m c b = W0 m c b := rfl
theorem R0_eq (c : Dev nD) : R0 m c = fun (b : Ref sig .tc) => W0 m c b := rfl
/-- After the host stretch `hostOps0`: region 0's entry contents. -/
def W1 (c : Dev nD) : Valuation τ sig (Elt F) := StableHlo.after hostOps0 (W0 m c)
theorem W1_def (c : Dev nD) : W1 m c = StableHlo.after hostOps0 (W0 m c) := rfl
/-- The same read at the TensorCore's references (what region 0's proof data take). -/
def R1 : (c : Dev nD) → (b : Ref sig .tc) → Buf (Elt F) ((c : Thread nD τ).loc b) := fun c b => W1 m c b
theorem R1_apply (c : Dev nD) (b : Ref sig .tc) : R1 m c b = W1 m c b := rfl
theorem R1_eq (c : Dev nD) : R1 m c = fun (b : Ref sig .tc) => W1 m c b := rfl
/-- At region 0's exit: each output window's array at what the pipeline leaves in it, every other buffer as entered. -/
def W2 (c : Dev nD) : Valuation τ sig (Elt F) :=
  Function.update (Function.update (Function.update (W1 m c) main_v19_0 (o0_3 (R1 m) c)) main_v19_1 (o0_4 (R1 m) c)) main_v19_2 (o0_5 (R1 m) c)
/-- The same read at the TensorCore's references (region 0's exit contents). -/
def R2 : (c : Dev nD) → (b : Ref sig .tc) → Buf (Elt F) ((c : Thread nD τ).loc b) := fun c b => W2 m c b
theorem R2_apply (c : Dev nD) (b : Ref sig .tc) : R2 m c b = W2 m c b := rfl
theorem R2_eq (c : Dev nD) : R2 m c = fun (b : Ref sig .tc) => W2 m c b := rfl
/-- After the host stretch `hostOps1`: region 1's entry contents. -/
def W3 (c : Dev nD) : Valuation τ sig (Elt F) := StableHlo.after hostOps1 (W2 m c)
theorem W3_def (c : Dev nD) : W3 m c = StableHlo.after hostOps1 (W2 m c) := rfl
/-- The same read at the TensorCore's references (what region 1's proof data take). -/
def R3 : (c : Dev nD) → (b : Ref sig .tc) → Buf (Elt F) ((c : Thread nD τ).loc b) := fun c b => W3 m c b
theorem R3_apply (c : Dev nD) (b : Ref sig .tc) : R3 m c b = W3 m c b := rfl
theorem R3_eq (c : Dev nD) : R3 m c = fun (b : Ref sig .tc) => W3 m c b := rfl
/-- At region 1's exit: each output window's array at what the pipeline leaves in it, every other buffer as entered. -/
def W4 (c : Dev nD) : Valuation τ sig (Elt F) :=
  Function.update (W3 m c) main_v29 (o1_5 (R3 m) c)
/-- The same read at the TensorCore's references (region 1's exit contents). -/
def R4 : (c : Dev nD) → (b : Ref sig .tc) → Buf (Elt F) ((c : Thread nD τ).loc b) := fun c b => W4 m c b
theorem R4_apply (c : Dev nD) (b : Ref sig .tc) : R4 m c b = W4 m c b := rfl
theorem R4_eq (c : Dev nD) : R4 m c = fun (b : Ref sig .tc) => W4 m c b := rfl
/-- After the host stretch `hostOps2`: region 2's entry contents. -/
def W5 (c : Dev nD) : Valuation τ sig (Elt F) := StableHlo.after hostOps2 (W4 m c)
theorem W5_def (c : Dev nD) : W5 m c = StableHlo.after hostOps2 (W4 m c) := rfl
/-- The same read at the TensorCore's references (what region 2's proof data take). -/
def R5 : (c : Dev nD) → (b : Ref sig .tc) → Buf (Elt F) ((c : Thread nD τ).loc b) := fun c b => W5 m c b
theorem R5_apply (c : Dev nD) (b : Ref sig .tc) : R5 m c b = W5 m c b := rfl
theorem R5_eq (c : Dev nD) : R5 m c = fun (b : Ref sig .tc) => W5 m c b := rfl
/-- At region 2's exit: each output window's array at what the pipeline leaves in it, every other buffer as entered. -/
def W6 (c : Dev nD) : Valuation τ sig (Elt F) :=
  Function.update (Function.update (Function.update (W5 m c) main_v44_0 (o2_3 (R5 m) c)) main_v44_1 (o2_4 (R5 m) c)) main_v44_2 (o2_5 (R5 m) c)
/-- The same read at the TensorCore's references (region 2's exit contents). -/
def R6 : (c : Dev nD) → (b : Ref sig .tc) → Buf (Elt F) ((c : Thread nD τ).loc b) := fun c b => W6 m c b
theorem R6_apply (c : Dev nD) (b : Ref sig .tc) : R6 m c b = W6 m c b := rfl
theorem R6_eq (c : Dev nD) : R6 m c = fun (b : Ref sig .tc) => W6 m c b := rfl
/-- After the host stretch `hostOps3`: region 3's entry contents. -/
def W7 (c : Dev nD) : Valuation τ sig (Elt F) := StableHlo.after hostOps3 (W6 m c)
theorem W7_def (c : Dev nD) : W7 m c = StableHlo.after hostOps3 (W6 m c) := rfl
/-- The same read at the TensorCore's references (what region 3's proof data take). -/
def R7 : (c : Dev nD) → (b : Ref sig .tc) → Buf (Elt F) ((c : Thread nD τ).loc b) := fun c b => W7 m c b
theorem R7_apply (c : Dev nD) (b : Ref sig .tc) : R7 m c b = W7 m c b := rfl
theorem R7_eq (c : Dev nD) : R7 m c = fun (b : Ref sig .tc) => W7 m c b := rfl
/-- At region 3's exit: each output window's array at what the pipeline leaves in it, every other buffer as entered. -/
def W8 (c : Dev nD) : Valuation τ sig (Elt F) :=
  Function.update (W7 m c) main_v54 (o3_5 (R7 m) c)
/-- The same read at the TensorCore's references (region 3's exit contents). -/
def R8 : (c : Dev nD) → (b : Ref sig .tc) → Buf (Elt F) ((c : Thread nD τ).loc b) := fun c b => W8 m c b
theorem R8_apply (c : Dev nD) (b : Ref sig .tc) : R8 m c b = W8 m c b := rfl
theorem R8_eq (c : Dev nD) : R8 m c = fun (b : Ref sig .tc) => W8 m c b := rfl
/-- After the host stretch `hostOps4`: region 4's entry contents. -/
def W9 (c : Dev nD) : Valuation τ sig (Elt F) := StableHlo.after hostOps4 (W8 m c)
theorem W9_def (c : Dev nD) : W9 m c = StableHlo.after hostOps4 (W8 m c) := rfl
/-- The same read at the TensorCore's references (what region 4's proof data take). -/
def R9 : (c : Dev nD) → (b : Ref sig .tc) → Buf (Elt F) ((c : Thread nD τ).loc b) := fun c b => W9 m c b
theorem R9_apply (c : Dev nD) (b : Ref sig .tc) : R9 m c b = W9 m c b := rfl
theorem R9_eq (c : Dev nD) : R9 m c = fun (b : Ref sig .tc) => W9 m c b := rfl
/-- At region 4's exit: each output window's array at what the pipeline leaves in it, every other buffer as entered. -/
def W10 (c : Dev nD) : Valuation τ sig (Elt F) :=
  Function.update (Function.update (Function.update (W9 m c) main_v69_0 (o4_3 (R9 m) c)) main_v69_1 (o4_4 (R9 m) c)) main_v69_2 (o4_5 (R9 m) c)
/-- The same read at the TensorCore's references (region 4's exit contents). -/
def R10 : (c : Dev nD) → (b : Ref sig .tc) → Buf (Elt F) ((c : Thread nD τ).loc b) := fun c b => W10 m c b
theorem R10_apply (c : Dev nD) (b : Ref sig .tc) : R10 m c b = W10 m c b := rfl
theorem R10_eq (c : Dev nD) : R10 m c = fun (b : Ref sig .tc) => W10 m c b := rfl
/-- After the host stretch `hostOps5`: region 5's entry contents. -/
def W11 (c : Dev nD) : Valuation τ sig (Elt F) := StableHlo.after hostOps5 (W10 m c)
theorem W11_def (c : Dev nD) : W11 m c = StableHlo.after hostOps5 (W10 m c) := rfl
/-- The same read at the TensorCore's references (what region 5's proof data take). -/
def R11 : (c : Dev nD) → (b : Ref sig .tc) → Buf (Elt F) ((c : Thread nD τ).loc b) := fun c b => W11 m c b
theorem R11_apply (c : Dev nD) (b : Ref sig .tc) : R11 m c b = W11 m c b := rfl
theorem R11_eq (c : Dev nD) : R11 m c = fun (b : Ref sig .tc) => W11 m c b := rfl
/-- At region 5's exit: each output window's array at what the pipeline leaves in it, every other buffer as entered. -/
def W12 (c : Dev nD) : Valuation τ sig (Elt F) :=
  Function.update (W11 m c) main_v79 (o5_5 (R11 m) c)
/-- The same read at the TensorCore's references (region 5's exit contents). -/
def R12 : (c : Dev nD) → (b : Ref sig .tc) → Buf (Elt F) ((c : Thread nD τ).loc b) := fun c b => W12 m c b
theorem R12_apply (c : Dev nD) (b : Ref sig .tc) : R12 m c b = W12 m c b := rfl
theorem R12_eq (c : Dev nD) : R12 m c = fun (b : Ref sig .tc) => W12 m c b := rfl
/-- After the host stretch `hostOps6`: region 6's entry contents. -/
def W13 (c : Dev nD) : Valuation τ sig (Elt F) := StableHlo.after hostOps6 (W12 m c)
theorem W13_def (c : Dev nD) : W13 m c = StableHlo.after hostOps6 (W12 m c) := rfl
/-- The same read at the TensorCore's references (what region 6's proof data take). -/
def R13 : (c : Dev nD) → (b : Ref sig .tc) → Buf (Elt F) ((c : Thread nD τ).loc b) := fun c b => W13 m c b
theorem R13_apply (c : Dev nD) (b : Ref sig .tc) : R13 m c b = W13 m c b := rfl
theorem R13_eq (c : Dev nD) : R13 m c = fun (b : Ref sig .tc) => W13 m c b := rfl
/-- At region 6's exit: each output window's array at what the pipeline leaves in it, every other buffer as entered. -/
def W14 (c : Dev nD) : Valuation τ sig (Elt F) :=
  Function.update (W13 m c) main_v81 (o6_4 (R13 m) c)
/-- The same read at the TensorCore's references (region 6's exit contents). -/
def R14 : (c : Dev nD) → (b : Ref sig .tc) → Buf (Elt F) ((c : Thread nD τ).loc b) := fun c b => W14 m c b
theorem R14_apply (c : Dev nD) (b : Ref sig .tc) : R14 m c b = W14 m c b := rfl
theorem R14_eq (c : Dev nD) : R14 m c = fun (b : Ref sig .tc) => W14 m c b := rfl
/-- After the host stretch `hostOps7`: region 7's entry contents. -/
def W15 (c : Dev nD) : Valuation τ sig (Elt F) := StableHlo.after hostOps7 (W14 m c)
theorem W15_def (c : Dev nD) : W15 m c = StableHlo.after hostOps7 (W14 m c) := rfl
/-- The same read at the TensorCore's references (what region 7's proof data take). -/
def R15 : (c : Dev nD) → (b : Ref sig .tc) → Buf (Elt F) ((c : Thread nD τ).loc b) := fun c b => W15 m c b
theorem R15_apply (c : Dev nD) (b : Ref sig .tc) : R15 m c b = W15 m c b := rfl
theorem R15_eq (c : Dev nD) : R15 m c = fun (b : Ref sig .tc) => W15 m c b := rfl
/-- At region 7's exit: each output window's array at what the pipeline leaves in it, every other buffer as entered. -/
def W16 (c : Dev nD) : Valuation τ sig (Elt F) :=
  Function.update (Function.update (Function.update (W15 m c) main_v101_0 (o7_3 (R15 m) c)) main_v101_1 (o7_4 (R15 m) c)) main_v101_2 (o7_5 (R15 m) c)
/-- The same read at the TensorCore's references (region 7's exit contents). -/
def R16 : (c : Dev nD) → (b : Ref sig .tc) → Buf (Elt F) ((c : Thread nD τ).loc b) := fun c b => W16 m c b
theorem R16_apply (c : Dev nD) (b : Ref sig .tc) : R16 m c b = W16 m c b := rfl
theorem R16_eq (c : Dev nD) : R16 m c = fun (b : Ref sig .tc) => W16 m c b := rfl
/-- After the host stretch `hostOps8`: region 8's entry contents. -/
def W17 (c : Dev nD) : Valuation τ sig (Elt F) := StableHlo.after hostOps8 (W16 m c)
theorem W17_def (c : Dev nD) : W17 m c = StableHlo.after hostOps8 (W16 m c) := rfl
/-- The same read at the TensorCore's references (what region 8's proof data take). -/
def R17 : (c : Dev nD) → (b : Ref sig .tc) → Buf (Elt F) ((c : Thread nD τ).loc b) := fun c b => W17 m c b
theorem R17_apply (c : Dev nD) (b : Ref sig .tc) : R17 m c b = W17 m c b := rfl
theorem R17_eq (c : Dev nD) : R17 m c = fun (b : Ref sig .tc) => W17 m c b := rfl
/-- At region 8's exit: each output window's array at what the pipeline leaves in it, every other buffer as entered. -/
def W18 (c : Dev nD) : Valuation τ sig (Elt F) :=
  Function.update (W17 m c) main_v111 (o8_5 (R17 m) c)
/-- The same read at the TensorCore's references (region 8's exit contents). -/
def R18 : (c : Dev nD) → (b : Ref sig .tc) → Buf (Elt F) ((c : Thread nD τ).loc b) := fun c b => W18 m c b
theorem R18_apply (c : Dev nD) (b : Ref sig .tc) : R18 m c b = W18 m c b := rfl
theorem R18_eq (c : Dev nD) : R18 m c = fun (b : Ref sig .tc) => W18 m c b := rfl
/-- After the host stretch `hostOps9`: region 9's entry contents. -/
def W19 (c : Dev nD) : Valuation τ sig (Elt F) := StableHlo.after hostOps9 (W18 m c)
theorem W19_def (c : Dev nD) : W19 m c = StableHlo.after hostOps9 (W18 m c) := rfl
/-- The same read at the TensorCore's references (what region 9's proof data take). -/
def R19 : (c : Dev nD) → (b : Ref sig .tc) → Buf (Elt F) ((c : Thread nD τ).loc b) := fun c b => W19 m c b
theorem R19_apply (c : Dev nD) (b : Ref sig .tc) : R19 m c b = W19 m c b := rfl
theorem R19_eq (c : Dev nD) : R19 m c = fun (b : Ref sig .tc) => W19 m c b := rfl
/-- At region 9's exit: each output window's array at what the pipeline leaves in it, every other buffer as entered. -/
def W20 (c : Dev nD) : Valuation τ sig (Elt F) :=
  Function.update (Function.update (Function.update (W19 m c) main_v126_0 (o9_3 (R19 m) c)) main_v126_1 (o9_4 (R19 m) c)) main_v126_2 (o9_5 (R19 m) c)
/-- The same read at the TensorCore's references (region 9's exit contents). -/
def R20 : (c : Dev nD) → (b : Ref sig .tc) → Buf (Elt F) ((c : Thread nD τ).loc b) := fun c b => W20 m c b
theorem R20_apply (c : Dev nD) (b : Ref sig .tc) : R20 m c b = W20 m c b := rfl
theorem R20_eq (c : Dev nD) : R20 m c = fun (b : Ref sig .tc) => W20 m c b := rfl
/-- After the host stretch `hostOps10`: region 10's entry contents. -/
def W21 (c : Dev nD) : Valuation τ sig (Elt F) := StableHlo.after hostOps10 (W20 m c)
theorem W21_def (c : Dev nD) : W21 m c = StableHlo.after hostOps10 (W20 m c) := rfl
/-- The same read at the TensorCore's references (what region 10's proof data take). -/
def R21 : (c : Dev nD) → (b : Ref sig .tc) → Buf (Elt F) ((c : Thread nD τ).loc b) := fun c b => W21 m c b
theorem R21_apply (c : Dev nD) (b : Ref sig .tc) : R21 m c b = W21 m c b := rfl
theorem R21_eq (c : Dev nD) : R21 m c = fun (b : Ref sig .tc) => W21 m c b := rfl
/-- At region 10's exit: each output window's array at what the pipeline leaves in it, every other buffer as entered. -/
def W22 (c : Dev nD) : Valuation τ sig (Elt F) :=
  Function.update (W21 m c) main_v136 (o10_5 (R21 m) c)
/-- The same read at the TensorCore's references (region 10's exit contents). -/
def R22 : (c : Dev nD) → (b : Ref sig .tc) → Buf (Elt F) ((c : Thread nD τ).loc b) := fun c b => W22 m c b
theorem R22_apply (c : Dev nD) (b : Ref sig .tc) : R22 m c b = W22 m c b := rfl
theorem R22_eq (c : Dev nD) : R22 m c = fun (b : Ref sig .tc) => W22 m c b := rfl
/-- After the host stretch `hostOps11`: region 11's entry contents. -/
def W23 (c : Dev nD) : Valuation τ sig (Elt F) := StableHlo.after hostOps11 (W22 m c)
theorem W23_def (c : Dev nD) : W23 m c = StableHlo.after hostOps11 (W22 m c) := rfl
/-- The same read at the TensorCore's references (what region 11's proof data take). -/
def R23 : (c : Dev nD) → (b : Ref sig .tc) → Buf (Elt F) ((c : Thread nD τ).loc b) := fun c b => W23 m c b
theorem R23_apply (c : Dev nD) (b : Ref sig .tc) : R23 m c b = W23 m c b := rfl
theorem R23_eq (c : Dev nD) : R23 m c = fun (b : Ref sig .tc) => W23 m c b := rfl
/-- At region 11's exit: each output window's array at what the pipeline leaves in it, every other buffer as entered. -/
def W24 (c : Dev nD) : Valuation τ sig (Elt F) :=
  Function.update (Function.update (Function.update (W23 m c) main_v151_0 (o11_3 (R23 m) c)) main_v151_1 (o11_4 (R23 m) c)) main_v151_2 (o11_5 (R23 m) c)
/-- The same read at the TensorCore's references (region 11's exit contents). -/
def R24 : (c : Dev nD) → (b : Ref sig .tc) → Buf (Elt F) ((c : Thread nD τ).loc b) := fun c b => W24 m c b
theorem R24_apply (c : Dev nD) (b : Ref sig .tc) : R24 m c b = W24 m c b := rfl
theorem R24_eq (c : Dev nD) : R24 m c = fun (b : Ref sig .tc) => W24 m c b := rfl
/-- After the host stretch `hostOps12`: region 12's entry contents. -/
def W25 (c : Dev nD) : Valuation τ sig (Elt F) := StableHlo.after hostOps12 (W24 m c)
theorem W25_def (c : Dev nD) : W25 m c = StableHlo.after hostOps12 (W24 m c) := rfl
/-- The same read at the TensorCore's references (what region 12's proof data take). -/
def R25 : (c : Dev nD) → (b : Ref sig .tc) → Buf (Elt F) ((c : Thread nD τ).loc b) := fun c b => W25 m c b
theorem R25_apply (c : Dev nD) (b : Ref sig .tc) : R25 m c b = W25 m c b := rfl
theorem R25_eq (c : Dev nD) : R25 m c = fun (b : Ref sig .tc) => W25 m c b := rfl
/-- At region 12's exit: each output window's array at what the pipeline leaves in it, every other buffer as entered. -/
def W26 (c : Dev nD) : Valuation τ sig (Elt F) :=
  Function.update (W25 m c) main_v161 (o12_5 (R25 m) c)
/-- The same read at the TensorCore's references (region 12's exit contents). -/
def R26 : (c : Dev nD) → (b : Ref sig .tc) → Buf (Elt F) ((c : Thread nD τ).loc b) := fun c b => W26 m c b
theorem R26_apply (c : Dev nD) (b : Ref sig .tc) : R26 m c b = W26 m c b := rfl
theorem R26_eq (c : Dev nD) : R26 m c = fun (b : Ref sig .tc) => W26 m c b := rfl
/-- After the host stretch `hostOps13`: region 13's entry contents. -/
def W27 (c : Dev nD) : Valuation τ sig (Elt F) := StableHlo.after hostOps13 (W26 m c)
theorem W27_def (c : Dev nD) : W27 m c = StableHlo.after hostOps13 (W26 m c) := rfl
/-- The same read at the TensorCore's references (what region 13's proof data take). -/
def R27 : (c : Dev nD) → (b : Ref sig .tc) → Buf (Elt F) ((c : Thread nD τ).loc b) := fun c b => W27 m c b
theorem R27_apply (c : Dev nD) (b : Ref sig .tc) : R27 m c b = W27 m c b := rfl
theorem R27_eq (c : Dev nD) : R27 m c = fun (b : Ref sig .tc) => W27 m c b := rfl
/-- At region 13's exit: each output window's array at what the pipeline leaves in it, every other buffer as entered. -/
def W28 (c : Dev nD) : Valuation τ sig (Elt F) :=
  Function.update (W27 m c) main_v163 (o13_4 (R27 m) c)
/-- The same read at the TensorCore's references (region 13's exit contents). -/
def R28 : (c : Dev nD) → (b : Ref sig .tc) → Buf (Elt F) ((c : Thread nD τ).loc b) := fun c b => W28 m c b
theorem R28_apply (c : Dev nD) (b : Ref sig .tc) : R28 m c b = W28 m c b := rfl
theorem R28_eq (c : Dev nD) : R28 m c = fun (b : Ref sig .tc) => W28 m c b := rfl
/-- After the host stretch `hostOps14`: region 14's entry contents. -/
def W29 (c : Dev nD) : Valuation τ sig (Elt F) := StableHlo.after hostOps14 (W28 m c)
theorem W29_def (c : Dev nD) : W29 m c = StableHlo.after hostOps14 (W28 m c) := rfl
/-- The same read at the TensorCore's references (what region 14's proof data take). -/
def R29 : (c : Dev nD) → (b : Ref sig .tc) → Buf (Elt F) ((c : Thread nD τ).loc b) := fun c b => W29 m c b
theorem R29_apply (c : Dev nD) (b : Ref sig .tc) : R29 m c b = W29 m c b := rfl
theorem R29_eq (c : Dev nD) : R29 m c = fun (b : Ref sig .tc) => W29 m c b := rfl
/-- At region 14's exit: each output window's array at what the pipeline leaves in it, every other buffer as entered. -/
def W30 (c : Dev nD) : Valuation τ sig (Elt F) :=
  Function.update (W29 m c) main_v166 (o14_6 (R29 m) c)
/-- The same read at the TensorCore's references (region 14's exit contents). -/
def R30 : (c : Dev nD) → (b : Ref sig .tc) → Buf (Elt F) ((c : Thread nD τ).loc b) := fun c b => W30 m c b
theorem R30_apply (c : Dev nD) (b : Ref sig .tc) : R30 m c b = W30 m c b := rfl
theorem R30_eq (c : Dev nD) : R30 m c = fun (b : Ref sig .tc) => W30 m c b := rfl

/-- What the regions leave, as the generated valuations `Gen.V J` read it: after item J-1 (J even, a region's exit) the
    contents `W J`; read nowhere else. -/
def outs : Gen.Outs (F := F) := fun J r c => match J with
  | 2 => W2 m c r
  | 4 => W4 m c r
  | 6 => W6 m c r
  | 8 => W8 m c r
  | 10 => W10 m c r
  | 12 => W12 m c r
  | 14 => W14 m c r
  | 16 => W16 m c r
  | 18 => W18 m c r
  | 20 => W20 m c r
  | 22 => W22 m c r
  | 24 => W24 m c r
  | 26 => W26 m c r
  | 28 => W28 m c r
  | 30 => W30 m c r
  | _ => W0 m c r

/-! ## A region's exit contents at its output buffers and away from them (`Function.update` at the point, off the point) -/

theorem W2_o3 (c : Dev nD) : W2 m c main_v19_0 = o0_3 (R1 m) c := by
  unfold W2; rw [Function.update_of_ne (StableHlo.devRef_ne_of_ne (by decide)), Function.update_of_ne (StableHlo.devRef_ne_of_ne (by decide)), Function.update_self]
theorem W2_o4 (c : Dev nD) : W2 m c main_v19_1 = o0_4 (R1 m) c := by
  unfold W2; rw [Function.update_of_ne (StableHlo.devRef_ne_of_ne (by decide)), Function.update_self]
theorem W2_o5 (c : Dev nD) : W2 m c main_v19_2 = o0_5 (R1 m) c := by
  unfold W2; rw [Function.update_self]
theorem W2_of_ne (c : Dev nD) (b : Ref sig .tc) (h3 : b ≠ main_v19_0) (h4 : b ≠ main_v19_1) (h5 : b ≠ main_v19_2) : W2 m c b = W1 m c b := by
  unfold W2; rw [Function.update_of_ne (StableHlo.devRef_ne_of_ne h5), Function.update_of_ne (StableHlo.devRef_ne_of_ne h4), Function.update_of_ne (StableHlo.devRef_ne_of_ne h3)]
theorem W4_o5 (c : Dev nD) : W4 m c main_v29 = o1_5 (R3 m) c := by
  unfold W4; rw [Function.update_self]
theorem W4_of_ne (c : Dev nD) (b : Ref sig .tc) (h5 : b ≠ main_v29) : W4 m c b = W3 m c b := by
  unfold W4; rw [Function.update_of_ne (StableHlo.devRef_ne_of_ne h5)]
theorem W6_o3 (c : Dev nD) : W6 m c main_v44_0 = o2_3 (R5 m) c := by
  unfold W6; rw [Function.update_of_ne (StableHlo.devRef_ne_of_ne (by decide)), Function.update_of_ne (StableHlo.devRef_ne_of_ne (by decide)), Function.update_self]
theorem W6_o4 (c : Dev nD) : W6 m c main_v44_1 = o2_4 (R5 m) c := by
  unfold W6; rw [Function.update_of_ne (StableHlo.devRef_ne_of_ne (by decide)), Function.update_self]
theorem W6_o5 (c : Dev nD) : W6 m c main_v44_2 = o2_5 (R5 m) c := by
  unfold W6; rw [Function.update_self]
theorem W6_of_ne (c : Dev nD) (b : Ref sig .tc) (h3 : b ≠ main_v44_0) (h4 : b ≠ main_v44_1) (h5 : b ≠ main_v44_2) : W6 m c b = W5 m c b := by
  unfold W6; rw [Function.update_of_ne (StableHlo.devRef_ne_of_ne h5), Function.update_of_ne (StableHlo.devRef_ne_of_ne h4), Function.update_of_ne (StableHlo.devRef_ne_of_ne h3)]
theorem W8_o5 (c : Dev nD) : W8 m c main_v54 = o3_5 (R7 m) c := by
  unfold W8; rw [Function.update_self]
theorem W8_of_ne (c : Dev nD) (b : Ref sig .tc) (h5 : b ≠ main_v54) : W8 m c b = W7 m c b := by
  unfold W8; rw [Function.update_of_ne (StableHlo.devRef_ne_of_ne h5)]
theorem W10_o3 (c : Dev nD) : W10 m c main_v69_0 = o4_3 (R9 m) c := by
  unfold W10; rw [Function.update_of_ne (StableHlo.devRef_ne_of_ne (by decide)), Function.update_of_ne (StableHlo.devRef_ne_of_ne (by decide)), Function.update_self]
theorem W10_o4 (c : Dev nD) : W10 m c main_v69_1 = o4_4 (R9 m) c := by
  unfold W10; rw [Function.update_of_ne (StableHlo.devRef_ne_of_ne (by decide)), Function.update_self]
theorem W10_o5 (c : Dev nD) : W10 m c main_v69_2 = o4_5 (R9 m) c := by
  unfold W10; rw [Function.update_self]
theorem W10_of_ne (c : Dev nD) (b : Ref sig .tc) (h3 : b ≠ main_v69_0) (h4 : b ≠ main_v69_1) (h5 : b ≠ main_v69_2) : W10 m c b = W9 m c b := by
  unfold W10; rw [Function.update_of_ne (StableHlo.devRef_ne_of_ne h5), Function.update_of_ne (StableHlo.devRef_ne_of_ne h4), Function.update_of_ne (StableHlo.devRef_ne_of_ne h3)]
theorem W12_o5 (c : Dev nD) : W12 m c main_v79 = o5_5 (R11 m) c := by
  unfold W12; rw [Function.update_self]
theorem W12_of_ne (c : Dev nD) (b : Ref sig .tc) (h5 : b ≠ main_v79) : W12 m c b = W11 m c b := by
  unfold W12; rw [Function.update_of_ne (StableHlo.devRef_ne_of_ne h5)]
theorem W14_o4 (c : Dev nD) : W14 m c main_v81 = o6_4 (R13 m) c := by
  unfold W14; rw [Function.update_self]
theorem W14_of_ne (c : Dev nD) (b : Ref sig .tc) (h4 : b ≠ main_v81) : W14 m c b = W13 m c b := by
  unfold W14; rw [Function.update_of_ne (StableHlo.devRef_ne_of_ne h4)]
theorem W16_o3 (c : Dev nD) : W16 m c main_v101_0 = o7_3 (R15 m) c := by
  unfold W16; rw [Function.update_of_ne (StableHlo.devRef_ne_of_ne (by decide)), Function.update_of_ne (StableHlo.devRef_ne_of_ne (by decide)), Function.update_self]
theorem W16_o4 (c : Dev nD) : W16 m c main_v101_1 = o7_4 (R15 m) c := by
  unfold W16; rw [Function.update_of_ne (StableHlo.devRef_ne_of_ne (by decide)), Function.update_self]
theorem W16_o5 (c : Dev nD) : W16 m c main_v101_2 = o7_5 (R15 m) c := by
  unfold W16; rw [Function.update_self]
theorem W16_of_ne (c : Dev nD) (b : Ref sig .tc) (h3 : b ≠ main_v101_0) (h4 : b ≠ main_v101_1) (h5 : b ≠ main_v101_2) : W16 m c b = W15 m c b := by
  unfold W16; rw [Function.update_of_ne (StableHlo.devRef_ne_of_ne h5), Function.update_of_ne (StableHlo.devRef_ne_of_ne h4), Function.update_of_ne (StableHlo.devRef_ne_of_ne h3)]
theorem W18_o5 (c : Dev nD) : W18 m c main_v111 = o8_5 (R17 m) c := by
  unfold W18; rw [Function.update_self]
theorem W18_of_ne (c : Dev nD) (b : Ref sig .tc) (h5 : b ≠ main_v111) : W18 m c b = W17 m c b := by
  unfold W18; rw [Function.update_of_ne (StableHlo.devRef_ne_of_ne h5)]
theorem W20_o3 (c : Dev nD) : W20 m c main_v126_0 = o9_3 (R19 m) c := by
  unfold W20; rw [Function.update_of_ne (StableHlo.devRef_ne_of_ne (by decide)), Function.update_of_ne (StableHlo.devRef_ne_of_ne (by decide)), Function.update_self]
theorem W20_o4 (c : Dev nD) : W20 m c main_v126_1 = o9_4 (R19 m) c := by
  unfold W20; rw [Function.update_of_ne (StableHlo.devRef_ne_of_ne (by decide)), Function.update_self]
theorem W20_o5 (c : Dev nD) : W20 m c main_v126_2 = o9_5 (R19 m) c := by
  unfold W20; rw [Function.update_self]
theorem W20_of_ne (c : Dev nD) (b : Ref sig .tc) (h3 : b ≠ main_v126_0) (h4 : b ≠ main_v126_1) (h5 : b ≠ main_v126_2) : W20 m c b = W19 m c b := by
  unfold W20; rw [Function.update_of_ne (StableHlo.devRef_ne_of_ne h5), Function.update_of_ne (StableHlo.devRef_ne_of_ne h4), Function.update_of_ne (StableHlo.devRef_ne_of_ne h3)]
theorem W22_o5 (c : Dev nD) : W22 m c main_v136 = o10_5 (R21 m) c := by
  unfold W22; rw [Function.update_self]
theorem W22_of_ne (c : Dev nD) (b : Ref sig .tc) (h5 : b ≠ main_v136) : W22 m c b = W21 m c b := by
  unfold W22; rw [Function.update_of_ne (StableHlo.devRef_ne_of_ne h5)]
theorem W24_o3 (c : Dev nD) : W24 m c main_v151_0 = o11_3 (R23 m) c := by
  unfold W24; rw [Function.update_of_ne (StableHlo.devRef_ne_of_ne (by decide)), Function.update_of_ne (StableHlo.devRef_ne_of_ne (by decide)), Function.update_self]
theorem W24_o4 (c : Dev nD) : W24 m c main_v151_1 = o11_4 (R23 m) c := by
  unfold W24; rw [Function.update_of_ne (StableHlo.devRef_ne_of_ne (by decide)), Function.update_self]
theorem W24_o5 (c : Dev nD) : W24 m c main_v151_2 = o11_5 (R23 m) c := by
  unfold W24; rw [Function.update_self]
theorem W24_of_ne (c : Dev nD) (b : Ref sig .tc) (h3 : b ≠ main_v151_0) (h4 : b ≠ main_v151_1) (h5 : b ≠ main_v151_2) : W24 m c b = W23 m c b := by
  unfold W24; rw [Function.update_of_ne (StableHlo.devRef_ne_of_ne h5), Function.update_of_ne (StableHlo.devRef_ne_of_ne h4), Function.update_of_ne (StableHlo.devRef_ne_of_ne h3)]
theorem W26_o5 (c : Dev nD) : W26 m c main_v161 = o12_5 (R25 m) c := by
  unfold W26; rw [Function.update_self]
theorem W26_of_ne (c : Dev nD) (b : Ref sig .tc) (h5 : b ≠ main_v161) : W26 m c b = W25 m c b := by
  unfold W26; rw [Function.update_of_ne (StableHlo.devRef_ne_of_ne h5)]
theorem W28_o4 (c : Dev nD) : W28 m c main_v163 = o13_4 (R27 m) c := by
  unfold W28; rw [Function.update_self]
theorem W28_of_ne (c : Dev nD) (b : Ref sig .tc) (h4 : b ≠ main_v163) : W28 m c b = W27 m c b := by
  unfold W28; rw [Function.update_of_ne (StableHlo.devRef_ne_of_ne h4)]
theorem W30_o6 (c : Dev nD) : W30 m c main_v166 = o14_6 (R29 m) c := by
  unfold W30; rw [Function.update_self]
theorem W30_of_ne (c : Dev nD) (b : Ref sig .tc) (h6 : b ≠ main_v166) : W30 m c b = W29 m c b := by
  unfold W30; rw [Function.update_of_ne (StableHlo.devRef_ne_of_ne h6)]

/-! ## The generated valuations at these unknowns are the chain -/

theorem V_eq1 (c : Dev nD) : Gen.V1 m c = W1 m c := (W1_def m c).symm
theorem outs_2 (r : Ref sig .tc) (c : Dev nD) : outs m 2 r c = W2 m c r := rfl
theorem V_eq2 (c : Dev nD) : Gen.V2 m (outs m) c = W2 m c := by
  unfold W2
  show Function.update (Function.update (Function.update (Gen.V1 m c) main_v19_0 (outs m 2 main_v19_0 c)) main_v19_1 (outs m 2 main_v19_1 c)) main_v19_2 (outs m 2 main_v19_2 c) = _
  rw [V_eq1, outs_2 m main_v19_0 c, W2_o3 m c, outs_2 m main_v19_1 c, W2_o4 m c, outs_2 m main_v19_2 c, W2_o5 m c]
theorem V_eq3 (c : Dev nD) : Gen.V3 m (outs m) c = W3 m c := (congrArg (StableHlo.after hostOps1) (V_eq2 m c)).trans (W3_def m c).symm
theorem outs_4 (r : Ref sig .tc) (c : Dev nD) : outs m 4 r c = W4 m c r := rfl
theorem V_eq4 (c : Dev nD) : Gen.V4 m (outs m) c = W4 m c := by
  unfold W4
  show Function.update (Gen.V3 m (outs m) c) main_v29 (outs m 4 main_v29 c) = _
  rw [V_eq3, outs_4 m main_v29 c, W4_o5 m c]
theorem V_eq5 (c : Dev nD) : Gen.V5 m (outs m) c = W5 m c := (congrArg (StableHlo.after hostOps2) (V_eq4 m c)).trans (W5_def m c).symm
theorem outs_6 (r : Ref sig .tc) (c : Dev nD) : outs m 6 r c = W6 m c r := rfl
theorem V_eq6 (c : Dev nD) : Gen.V6 m (outs m) c = W6 m c := by
  unfold W6
  show Function.update (Function.update (Function.update (Gen.V5 m (outs m) c) main_v44_0 (outs m 6 main_v44_0 c)) main_v44_1 (outs m 6 main_v44_1 c)) main_v44_2 (outs m 6 main_v44_2 c) = _
  rw [V_eq5, outs_6 m main_v44_0 c, W6_o3 m c, outs_6 m main_v44_1 c, W6_o4 m c, outs_6 m main_v44_2 c, W6_o5 m c]
theorem V_eq7 (c : Dev nD) : Gen.V7 m (outs m) c = W7 m c := (congrArg (StableHlo.after hostOps3) (V_eq6 m c)).trans (W7_def m c).symm
theorem outs_8 (r : Ref sig .tc) (c : Dev nD) : outs m 8 r c = W8 m c r := rfl
theorem V_eq8 (c : Dev nD) : Gen.V8 m (outs m) c = W8 m c := by
  unfold W8
  show Function.update (Gen.V7 m (outs m) c) main_v54 (outs m 8 main_v54 c) = _
  rw [V_eq7, outs_8 m main_v54 c, W8_o5 m c]
theorem V_eq9 (c : Dev nD) : Gen.V9 m (outs m) c = W9 m c := (congrArg (StableHlo.after hostOps4) (V_eq8 m c)).trans (W9_def m c).symm
theorem outs_10 (r : Ref sig .tc) (c : Dev nD) : outs m 10 r c = W10 m c r := rfl
theorem V_eq10 (c : Dev nD) : Gen.V10 m (outs m) c = W10 m c := by
  unfold W10
  show Function.update (Function.update (Function.update (Gen.V9 m (outs m) c) main_v69_0 (outs m 10 main_v69_0 c)) main_v69_1 (outs m 10 main_v69_1 c)) main_v69_2 (outs m 10 main_v69_2 c) = _
  rw [V_eq9, outs_10 m main_v69_0 c, W10_o3 m c, outs_10 m main_v69_1 c, W10_o4 m c, outs_10 m main_v69_2 c, W10_o5 m c]
theorem V_eq11 (c : Dev nD) : Gen.V11 m (outs m) c = W11 m c := (congrArg (StableHlo.after hostOps5) (V_eq10 m c)).trans (W11_def m c).symm
theorem outs_12 (r : Ref sig .tc) (c : Dev nD) : outs m 12 r c = W12 m c r := rfl
theorem V_eq12 (c : Dev nD) : Gen.V12 m (outs m) c = W12 m c := by
  unfold W12
  show Function.update (Gen.V11 m (outs m) c) main_v79 (outs m 12 main_v79 c) = _
  rw [V_eq11, outs_12 m main_v79 c, W12_o5 m c]
theorem V_eq13 (c : Dev nD) : Gen.V13 m (outs m) c = W13 m c := (congrArg (StableHlo.after hostOps6) (V_eq12 m c)).trans (W13_def m c).symm
theorem outs_14 (r : Ref sig .tc) (c : Dev nD) : outs m 14 r c = W14 m c r := rfl
theorem V_eq14 (c : Dev nD) : Gen.V14 m (outs m) c = W14 m c := by
  unfold W14
  show Function.update (Gen.V13 m (outs m) c) main_v81 (outs m 14 main_v81 c) = _
  rw [V_eq13, outs_14 m main_v81 c, W14_o4 m c]
theorem V_eq15 (c : Dev nD) : Gen.V15 m (outs m) c = W15 m c := (congrArg (StableHlo.after hostOps7) (V_eq14 m c)).trans (W15_def m c).symm
theorem outs_16 (r : Ref sig .tc) (c : Dev nD) : outs m 16 r c = W16 m c r := rfl
theorem V_eq16 (c : Dev nD) : Gen.V16 m (outs m) c = W16 m c := by
  unfold W16
  show Function.update (Function.update (Function.update (Gen.V15 m (outs m) c) main_v101_0 (outs m 16 main_v101_0 c)) main_v101_1 (outs m 16 main_v101_1 c)) main_v101_2 (outs m 16 main_v101_2 c) = _
  rw [V_eq15, outs_16 m main_v101_0 c, W16_o3 m c, outs_16 m main_v101_1 c, W16_o4 m c, outs_16 m main_v101_2 c, W16_o5 m c]
theorem V_eq17 (c : Dev nD) : Gen.V17 m (outs m) c = W17 m c := (congrArg (StableHlo.after hostOps8) (V_eq16 m c)).trans (W17_def m c).symm
theorem outs_18 (r : Ref sig .tc) (c : Dev nD) : outs m 18 r c = W18 m c r := rfl
theorem V_eq18 (c : Dev nD) : Gen.V18 m (outs m) c = W18 m c := by
  unfold W18
  show Function.update (Gen.V17 m (outs m) c) main_v111 (outs m 18 main_v111 c) = _
  rw [V_eq17, outs_18 m main_v111 c, W18_o5 m c]
theorem V_eq19 (c : Dev nD) : Gen.V19 m (outs m) c = W19 m c := (congrArg (StableHlo.after hostOps9) (V_eq18 m c)).trans (W19_def m c).symm
theorem outs_20 (r : Ref sig .tc) (c : Dev nD) : outs m 20 r c = W20 m c r := rfl
theorem V_eq20 (c : Dev nD) : Gen.V20 m (outs m) c = W20 m c := by
  unfold W20
  show Function.update (Function.update (Function.update (Gen.V19 m (outs m) c) main_v126_0 (outs m 20 main_v126_0 c)) main_v126_1 (outs m 20 main_v126_1 c)) main_v126_2 (outs m 20 main_v126_2 c) = _
  rw [V_eq19, outs_20 m main_v126_0 c, W20_o3 m c, outs_20 m main_v126_1 c, W20_o4 m c, outs_20 m main_v126_2 c, W20_o5 m c]
theorem V_eq21 (c : Dev nD) : Gen.V21 m (outs m) c = W21 m c := (congrArg (StableHlo.after hostOps10) (V_eq20 m c)).trans (W21_def m c).symm
theorem outs_22 (r : Ref sig .tc) (c : Dev nD) : outs m 22 r c = W22 m c r := rfl
theorem V_eq22 (c : Dev nD) : Gen.V22 m (outs m) c = W22 m c := by
  unfold W22
  show Function.update (Gen.V21 m (outs m) c) main_v136 (outs m 22 main_v136 c) = _
  rw [V_eq21, outs_22 m main_v136 c, W22_o5 m c]
theorem V_eq23 (c : Dev nD) : Gen.V23 m (outs m) c = W23 m c := (congrArg (StableHlo.after hostOps11) (V_eq22 m c)).trans (W23_def m c).symm
theorem outs_24 (r : Ref sig .tc) (c : Dev nD) : outs m 24 r c = W24 m c r := rfl
theorem V_eq24 (c : Dev nD) : Gen.V24 m (outs m) c = W24 m c := by
  unfold W24
  show Function.update (Function.update (Function.update (Gen.V23 m (outs m) c) main_v151_0 (outs m 24 main_v151_0 c)) main_v151_1 (outs m 24 main_v151_1 c)) main_v151_2 (outs m 24 main_v151_2 c) = _
  rw [V_eq23, outs_24 m main_v151_0 c, W24_o3 m c, outs_24 m main_v151_1 c, W24_o4 m c, outs_24 m main_v151_2 c, W24_o5 m c]
theorem V_eq25 (c : Dev nD) : Gen.V25 m (outs m) c = W25 m c := (congrArg (StableHlo.after hostOps12) (V_eq24 m c)).trans (W25_def m c).symm
theorem outs_26 (r : Ref sig .tc) (c : Dev nD) : outs m 26 r c = W26 m c r := rfl
theorem V_eq26 (c : Dev nD) : Gen.V26 m (outs m) c = W26 m c := by
  unfold W26
  show Function.update (Gen.V25 m (outs m) c) main_v161 (outs m 26 main_v161 c) = _
  rw [V_eq25, outs_26 m main_v161 c, W26_o5 m c]
theorem V_eq27 (c : Dev nD) : Gen.V27 m (outs m) c = W27 m c := (congrArg (StableHlo.after hostOps13) (V_eq26 m c)).trans (W27_def m c).symm
theorem outs_28 (r : Ref sig .tc) (c : Dev nD) : outs m 28 r c = W28 m c r := rfl
theorem V_eq28 (c : Dev nD) : Gen.V28 m (outs m) c = W28 m c := by
  unfold W28
  show Function.update (Gen.V27 m (outs m) c) main_v163 (outs m 28 main_v163 c) = _
  rw [V_eq27, outs_28 m main_v163 c, W28_o4 m c]
theorem V_eq29 (c : Dev nD) : Gen.V29 m (outs m) c = W29 m c := (congrArg (StableHlo.after hostOps14) (V_eq28 m c)).trans (W29_def m c).symm
theorem outs_30 (r : Ref sig .tc) (c : Dev nD) : outs m 30 r c = W30 m c r := rfl
theorem V_eq30 (c : Dev nD) : Gen.V30 m (outs m) c = W30 m c := by
  unfold W30
  show Function.update (Gen.V29 m (outs m) c) main_v166 (outs m 30 main_v166 c) = _
  rw [V_eq29, outs_30 m main_v166 c, W30_o6 m c]

end Cert.Kernel.Hand
-- ==== Proof.K.Chain.lean ====
import proofs.«413302_j72232759984513_1_alg».proof.Proof.Gen.Kernel.Launch
import proofs.«413302_j72232759984513_1_alg».proof.Proof.Gen.Kernel.Skeleton
import proofs.«413302_j72232759984513_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«413302_j72232759984513_1_alg».proof.Proof.K.ChainDefs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The regions' proof data over the chain of buffer contents, and what each region leaves

Region K's proof data are taken at its entry contents `R(2K+1)`. At its exit each of its arrays holds what the
pipeline leaves (`hF`) and every other buffer what it held at entry (`hrest`). -/

variable (m : (ℓ : Loc nD τ sig) → Buf (Elt F) ℓ)

/-- Every pipeline's proof data, each at its region's entry contents: a literal `match`, so that at a numeral it reduces
    to the region's own data. -/
def pdats : (p : Fin 15) → (c : Dev nD) → Dat τ (Elt F) Unit ℕ (UR sig nD τ) ℕ (cfgs p) c
  | ⟨0, _⟩ => fun c => dat0 (R1 m) c
  | ⟨1, _⟩ => fun c => dat1 (R3 m) c
  | ⟨2, _⟩ => fun c => dat2 (R5 m) c
  | ⟨3, _⟩ => fun c => dat3 (R7 m) c
  | ⟨4, _⟩ => fun c => dat4 (R9 m) c
  | ⟨5, _⟩ => fun c => dat5 (R11 m) c
  | ⟨6, _⟩ => fun c => dat6 (R13 m) c
  | ⟨7, _⟩ => fun c => dat7 (R15 m) c
  | ⟨8, _⟩ => fun c => dat8 (R17 m) c
  | ⟨9, _⟩ => fun c => dat9 (R19 m) c
  | ⟨10, _⟩ => fun c => dat10 (R21 m) c
  | ⟨11, _⟩ => fun c => dat11 (R23 m) c
  | ⟨12, _⟩ => fun c => dat12 (R25 m) c
  | ⟨13, _⟩ => fun c => dat13 (R27 m) c
  | ⟨14, _⟩ => fun c => dat14 (R29 m) c
/-- No region's proof data bound the pairs the core has recorded before the first point: the bound is everything. -/
theorem recorded_eq0 (V : (c : Dev nD) → (b : Ref sig .tc) → Buf (Elt F) ((c : Thread nD τ).loc b)) (c : Dev nD) : (dat0 V c).recorded 0 = Set.univ := rfl
theorem recorded_eq1 (V : (c : Dev nD) → (b : Ref sig .tc) → Buf (Elt F) ((c : Thread nD τ).loc b)) (c : Dev nD) : (dat1 V c).recorded 0 = Set.univ := rfl
theorem recorded_eq2 (V : (c : Dev nD) → (b : Ref sig .tc) → Buf (Elt F) ((c : Thread nD τ).loc b)) (c : Dev nD) : (dat2 V c).recorded 0 = Set.univ := rfl
theorem recorded_eq3 (V : (c : Dev nD) → (b : Ref sig .tc) → Buf (Elt F) ((c : Thread nD τ).loc b)) (c : Dev nD) : (dat3 V c).recorded 0 = Set.univ := rfl
theorem recorded_eq4 (V : (c : Dev nD) → (b : Ref sig .tc) → Buf (Elt F) ((c : Thread nD τ).loc b)) (c : Dev nD) : (dat4 V c).recorded 0 = Set.univ := rfl
theorem recorded_eq5 (V : (c : Dev nD) → (b : Ref sig .tc) → Buf (Elt F) ((c : Thread nD τ).loc b)) (c : Dev nD) : (dat5 V c).recorded 0 = Set.univ := rfl
theorem recorded_eq6 (V : (c : Dev nD) → (b : Ref sig .tc) → Buf (Elt F) ((c : Thread nD τ).loc b)) (c : Dev nD) : (dat6 V c).recorded 0 = Set.univ := rfl
theorem recorded_eq7 (V : (c : Dev nD) → (b : Ref sig .tc) → Buf (Elt F) ((c : Thread nD τ).loc b)) (c : Dev nD) : (dat7 V c).recorded 0 = Set.univ := rfl
theorem recorded_eq8 (V : (c : Dev nD) → (b : Ref sig .tc) → Buf (Elt F) ((c : Thread nD τ).loc b)) (c : Dev nD) : (dat8 V c).recorded 0 = Set.univ := rfl
theorem recorded_eq9 (V : (c : Dev nD) → (b : Ref sig .tc) → Buf (Elt F) ((c : Thread nD τ).loc b)) (c : Dev nD) : (dat9 V c).recorded 0 = Set.univ := rfl
theorem recorded_eq10 (V : (c : Dev nD) → (b : Ref sig .tc) → Buf (Elt F) ((c : Thread nD τ).loc b)) (c : Dev nD) : (dat10 V c).recorded 0 = Set.univ := rfl
theorem recorded_eq11 (V : (c : Dev nD) → (b : Ref sig .tc) → Buf (Elt F) ((c : Thread nD τ).loc b)) (c : Dev nD) : (dat11 V c).recorded 0 = Set.univ := rfl
theorem recorded_eq12 (V : (c : Dev nD) → (b : Ref sig .tc) → Buf (Elt F) ((c : Thread nD τ).loc b)) (c : Dev nD) : (dat12 V c).recorded 0 = Set.univ := rfl
theorem recorded_eq13 (V : (c : Dev nD) → (b : Ref sig .tc) → Buf (Elt F) ((c : Thread nD τ).loc b)) (c : Dev nD) : (dat13 V c).recorded 0 = Set.univ := rfl
theorem recorded_eq14 (V : (c : Dev nD) → (b : Ref sig .tc) → Buf (Elt F) ((c : Thread nD τ).loc b)) (c : Dev nD) : (dat14 V c).recorded 0 = Set.univ := rfl
/-- No core owes another anything: no level is assigned. -/
abbrev Lz : GSem nD τ sig → Finset Unit := fun _ => ∅
abbrev lvz : GSem nD τ sig → Unit → ℕ := fun _ _ => 0
/-- What rides beside the buffers through every item: the core's generator register at some state and its `owes`, at nothing. -/
abbrev Rr (c : Dev nD) : sProp 𝕄 := iprop((∃ r, prngReg c r) ∗ ∃ W, owes (c : Thread nD τ) (0 : CellTallies nD τ sig Unit) W)

/-! ## At a region's exit each of its arrays holds what the pipeline leaves, every other buffer what it held at entry

An input window's array is never written (`Dat.arrAt_in`), so it ends at its entry contents, which the exit valuation
still has there (no output buffer is an input's); an output window's array is the exit valuation's update at it. -/

theorem hF0_w0 (c : Dev nD) (h : 0 < cfg0.W) : (dat0 (R1 m) c).arrAt ⟨0, h⟩ cfg0.N = R2 m c (Pipeline.arrRef spec0 ⟨0, h⟩) :=
  ((((dat0 (R1 m) c).arrAt_in ⟨0, h⟩ rfl _).trans (A_eq0 (R1 m) c ⟨0, h⟩)).trans (R1_apply m c _)).trans ((W2_of_ne m c _ ne0_0_3 ne0_0_4 ne0_0_5).symm.trans (R2_apply m c _).symm)
theorem hF0_w1 (c : Dev nD) (h : 1 < cfg0.W) : (dat0 (R1 m) c).arrAt ⟨1, h⟩ cfg0.N = R2 m c (Pipeline.arrRef spec0 ⟨1, h⟩) :=
  ((((dat0 (R1 m) c).arrAt_in ⟨1, h⟩ rfl _).trans (A_eq0 (R1 m) c ⟨1, h⟩)).trans (R1_apply m c _)).trans ((W2_of_ne m c _ ne0_1_3 ne0_1_4 ne0_1_5).symm.trans (R2_apply m c _).symm)
theorem hF0_w2 (c : Dev nD) (h : 2 < cfg0.W) : (dat0 (R1 m) c).arrAt ⟨2, h⟩ cfg0.N = R2 m c (Pipeline.arrRef spec0 ⟨2, h⟩) :=
  ((((dat0 (R1 m) c).arrAt_in ⟨2, h⟩ rfl _).trans (A_eq0 (R1 m) c ⟨2, h⟩)).trans (R1_apply m c _)).trans ((W2_of_ne m c _ ne0_2_3 ne0_2_4 ne0_2_5).symm.trans (R2_apply m c _).symm)
theorem hF0_w3 (c : Dev nD) (h : 3 < cfg0.W) : (dat0 (R1 m) c).arrAt ⟨3, h⟩ cfg0.N = R2 m c (Pipeline.arrRef spec0 ⟨3, h⟩) :=
  ((o0_3_eq (R1 m) c h).symm.trans (W2_o3 m c).symm).trans (R2_apply m c _).symm
theorem hF0_w4 (c : Dev nD) (h : 4 < cfg0.W) : (dat0 (R1 m) c).arrAt ⟨4, h⟩ cfg0.N = R2 m c (Pipeline.arrRef spec0 ⟨4, h⟩) :=
  ((o0_4_eq (R1 m) c h).symm.trans (W2_o4 m c).symm).trans (R2_apply m c _).symm
theorem hF0_w5 (c : Dev nD) (h : 5 < cfg0.W) : (dat0 (R1 m) c).arrAt ⟨5, h⟩ cfg0.N = R2 m c (Pipeline.arrRef spec0 ⟨5, h⟩) :=
  ((o0_5_eq (R1 m) c h).symm.trans (W2_o5 m c).symm).trans (R2_apply m c _).symm
theorem hF0 (c : Dev nD) (w : Fin cfg0.W) : (dat0 (R1 m) c).arrAt w cfg0.N = R2 m c (Pipeline.arrRef spec0 w) :=
  match w with
  | ⟨0, h⟩ => hF0_w0 m c h
  | ⟨1, h⟩ => hF0_w1 m c h
  | ⟨2, h⟩ => hF0_w2 m c h
  | ⟨3, h⟩ => hF0_w3 m c h
  | ⟨4, h⟩ => hF0_w4 m c h
  | ⟨5, h⟩ => hF0_w5 m c h
theorem hrest0 (c : Dev nD) : ∀ b, b ∉ Finset.univ.image (Pipeline.arrRef spec0) → R2 m c b = R1 m c b :=
  fun b hb => (R2_apply m c b).trans ((W2_of_ne m c b
    (fun e => hb (Finset.mem_image.mpr ⟨⟨3, lt0_3⟩, Finset.mem_univ _, e.symm⟩))
    (fun e => hb (Finset.mem_image.mpr ⟨⟨4, lt0_4⟩, Finset.mem_univ _, e.symm⟩))
    (fun e => hb (Finset.mem_image.mpr ⟨⟨5, lt0_5⟩, Finset.mem_univ _, e.symm⟩))
    ).trans (R1_apply m c b).symm)
theorem hF1_w0 (c : Dev nD) (h : 0 < cfg1.W) : (dat1 (R3 m) c).arrAt ⟨0, h⟩ cfg1.N = R4 m c (Pipeline.arrRef spec1 ⟨0, h⟩) :=
  ((((dat1 (R3 m) c).arrAt_in ⟨0, h⟩ rfl _).trans (A_eq1 (R3 m) c ⟨0, h⟩)).trans (R3_apply m c _)).trans ((W4_of_ne m c _ ne1_0_5).symm.trans (R4_apply m c _).symm)
theorem hF1_w1 (c : Dev nD) (h : 1 < cfg1.W) : (dat1 (R3 m) c).arrAt ⟨1, h⟩ cfg1.N = R4 m c (Pipeline.arrRef spec1 ⟨1, h⟩) :=
  ((((dat1 (R3 m) c).arrAt_in ⟨1, h⟩ rfl _).trans (A_eq1 (R3 m) c ⟨1, h⟩)).trans (R3_apply m c _)).trans ((W4_of_ne m c _ ne1_1_5).symm.trans (R4_apply m c _).symm)
theorem hF1_w2 (c : Dev nD) (h : 2 < cfg1.W) : (dat1 (R3 m) c).arrAt ⟨2, h⟩ cfg1.N = R4 m c (Pipeline.arrRef spec1 ⟨2, h⟩) :=
  ((((dat1 (R3 m) c).arrAt_in ⟨2, h⟩ rfl _).trans (A_eq1 (R3 m) c ⟨2, h⟩)).trans (R3_apply m c _)).trans ((W4_of_ne m c _ ne1_2_5).symm.trans (R4_apply m c _).symm)
theorem hF1_w3 (c : Dev nD) (h : 3 < cfg1.W) : (dat1 (R3 m) c).arrAt ⟨3, h⟩ cfg1.N = R4 m c (Pipeline.arrRef spec1 ⟨3, h⟩) :=
  ((((dat1 (R3 m) c).arrAt_in ⟨3, h⟩ rfl _).trans (A_eq1 (R3 m) c ⟨3, h⟩)).trans (R3_apply m c _)).trans ((W4_of_ne m c _ ne1_3_5).symm.trans (R4_apply m c _).symm)
theorem hF1_w4 (c : Dev nD) (h : 4 < cfg1.W) : (dat1 (R3 m) c).arrAt ⟨4, h⟩ cfg1.N = R4 m c (Pipeline.arrRef spec1 ⟨4, h⟩) :=
  ((((dat1 (R3 m) c).arrAt_in ⟨4, h⟩ rfl _).trans (A_eq1 (R3 m) c ⟨4, h⟩)).trans (R3_apply m c _)).trans ((W4_of_ne m c _ ne1_4_5).symm.trans (R4_apply m c _).symm)
theorem hF1_w5 (c : Dev nD) (h : 5 < cfg1.W) : (dat1 (R3 m) c).arrAt ⟨5, h⟩ cfg1.N = R4 m c (Pipeline.arrRef spec1 ⟨5, h⟩) :=
  ((o1_5_eq (R3 m) c h).symm.trans (W4_o5 m c).symm).trans (R4_apply m c _).symm
theorem hF1 (c : Dev nD) (w : Fin cfg1.W) : (dat1 (R3 m) c).arrAt w cfg1.N = R4 m c (Pipeline.arrRef spec1 w) :=
  match w with
  | ⟨0, h⟩ => hF1_w0 m c h
  | ⟨1, h⟩ => hF1_w1 m c h
  | ⟨2, h⟩ => hF1_w2 m c h
  | ⟨3, h⟩ => hF1_w3 m c h
  | ⟨4, h⟩ => hF1_w4 m c h
  | ⟨5, h⟩ => hF1_w5 m c h
theorem hrest1 (c : Dev nD) : ∀ b, b ∉ Finset.univ.image (Pipeline.arrRef spec1) → R4 m c b = R3 m c b :=
  fun b hb => (R4_apply m c b).trans ((W4_of_ne m c b
    (fun e => hb (Finset.mem_image.mpr ⟨⟨5, lt1_5⟩, Finset.mem_univ _, e.symm⟩))
    ).trans (R3_apply m c b).symm)
theorem hF2_w0 (c : Dev nD) (h : 0 < cfg2.W) : (dat2 (R5 m) c).arrAt ⟨0, h⟩ cfg2.N = R6 m c (Pipeline.arrRef spec2 ⟨0, h⟩) :=
  ((((dat2 (R5 m) c).arrAt_in ⟨0, h⟩ rfl _).trans (A_eq2 (R5 m) c ⟨0, h⟩)).trans (R5_apply m c _)).trans ((W6_of_ne m c _ ne2_0_3 ne2_0_4 ne2_0_5).symm.trans (R6_apply m c _).symm)
theorem hF2_w1 (c : Dev nD) (h : 1 < cfg2.W) : (dat2 (R5 m) c).arrAt ⟨1, h⟩ cfg2.N = R6 m c (Pipeline.arrRef spec2 ⟨1, h⟩) :=
  ((((dat2 (R5 m) c).arrAt_in ⟨1, h⟩ rfl _).trans (A_eq2 (R5 m) c ⟨1, h⟩)).trans (R5_apply m c _)).trans ((W6_of_ne m c _ ne2_1_3 ne2_1_4 ne2_1_5).symm.trans (R6_apply m c _).symm)
theorem hF2_w2 (c : Dev nD) (h : 2 < cfg2.W) : (dat2 (R5 m) c).arrAt ⟨2, h⟩ cfg2.N = R6 m c (Pipeline.arrRef spec2 ⟨2, h⟩) :=
  ((((dat2 (R5 m) c).arrAt_in ⟨2, h⟩ rfl _).trans (A_eq2 (R5 m) c ⟨2, h⟩)).trans (R5_apply m c _)).trans ((W6_of_ne m c _ ne2_2_3 ne2_2_4 ne2_2_5).symm.trans (R6_apply m c _).symm)
theorem hF2_w3 (c : Dev nD) (h : 3 < cfg2.W) : (dat2 (R5 m) c).arrAt ⟨3, h⟩ cfg2.N = R6 m c (Pipeline.arrRef spec2 ⟨3, h⟩) :=
  ((o2_3_eq (R5 m) c h).symm.trans (W6_o3 m c).symm).trans (R6_apply m c _).symm
theorem hF2_w4 (c : Dev nD) (h : 4 < cfg2.W) : (dat2 (R5 m) c).arrAt ⟨4, h⟩ cfg2.N = R6 m c (Pipeline.arrRef spec2 ⟨4, h⟩) :=
  ((o2_4_eq (R5 m) c h).symm.trans (W6_o4 m c).symm).trans (R6_apply m c _).symm
theorem hF2_w5 (c : Dev nD) (h : 5 < cfg2.W) : (dat2 (R5 m) c).arrAt ⟨5, h⟩ cfg2.N = R6 m c (Pipeline.arrRef spec2 ⟨5, h⟩) :=
  ((o2_5_eq (R5 m) c h).symm.trans (W6_o5 m c).symm).trans (R6_apply m c _).symm
theorem hF2 (c : Dev nD) (w : Fin cfg2.W) : (dat2 (R5 m) c).arrAt w cfg2.N = R6 m c (Pipeline.arrRef spec2 w) :=
  match w with
  | ⟨0, h⟩ => hF2_w0 m c h
  | ⟨1, h⟩ => hF2_w1 m c h
  | ⟨2, h⟩ => hF2_w2 m c h
  | ⟨3, h⟩ => hF2_w3 m c h
  | ⟨4, h⟩ => hF2_w4 m c h
  | ⟨5, h⟩ => hF2_w5 m c h
theorem hrest2 (c : Dev nD) : ∀ b, b ∉ Finset.univ.image (Pipeline.arrRef spec2) → R6 m c b = R5 m c b :=
  fun b hb => (R6_apply m c b).trans ((W6_of_ne m c b
    (fun e => hb (Finset.mem_image.mpr ⟨⟨3, lt2_3⟩, Finset.mem_univ _, e.symm⟩))
    (fun e => hb (Finset.mem_image.mpr ⟨⟨4, lt2_4⟩, Finset.mem_univ _, e.symm⟩))
    (fun e => hb (Finset.mem_image.mpr ⟨⟨5, lt2_5⟩, Finset.mem_univ _, e.symm⟩))
    ).trans (R5_apply m c b).symm)
theorem hF3_w0 (c : Dev nD) (h : 0 < cfg3.W) : (dat3 (R7 m) c).arrAt ⟨0, h⟩ cfg3.N = R8 m c (Pipeline.arrRef spec3 ⟨0, h⟩) :=
  ((((dat3 (R7 m) c).arrAt_in ⟨0, h⟩ rfl _).trans (A_eq3 (R7 m) c ⟨0, h⟩)).trans (R7_apply m c _)).trans ((W8_of_ne m c _ ne3_0_5).symm.trans (R8_apply m c _).symm)
theorem hF3_w1 (c : Dev nD) (h : 1 < cfg3.W) : (dat3 (R7 m) c).arrAt ⟨1, h⟩ cfg3.N = R8 m c (Pipeline.arrRef spec3 ⟨1, h⟩) :=
  ((((dat3 (R7 m) c).arrAt_in ⟨1, h⟩ rfl _).trans (A_eq3 (R7 m) c ⟨1, h⟩)).trans (R7_apply m c _)).trans ((W8_of_ne m c _ ne3_1_5).symm.trans (R8_apply m c _).symm)
theorem hF3_w2 (c : Dev nD) (h : 2 < cfg3.W) : (dat3 (R7 m) c).arrAt ⟨2, h⟩ cfg3.N = R8 m c (Pipeline.arrRef spec3 ⟨2, h⟩) :=
  ((((dat3 (R7 m) c).arrAt_in ⟨2, h⟩ rfl _).trans (A_eq3 (R7 m) c ⟨2, h⟩)).trans (R7_apply m c _)).trans ((W8_of_ne m c _ ne3_2_5).symm.trans (R8_apply m c _).symm)
theorem hF3_w3 (c : Dev nD) (h : 3 < cfg3.W) : (dat3 (R7 m) c).arrAt ⟨3, h⟩ cfg3.N = R8 m c (Pipeline.arrRef spec3 ⟨3, h⟩) :=
  ((((dat3 (R7 m) c).arrAt_in ⟨3, h⟩ rfl _).trans (A_eq3 (R7 m) c ⟨3, h⟩)).trans (R7_apply m c _)).trans ((W8_of_ne m c _ ne3_3_5).symm.trans (R8_apply m c _).symm)
theorem hF3_w4 (c : Dev nD) (h : 4 < cfg3.W) : (dat3 (R7 m) c).arrAt ⟨4, h⟩ cfg3.N = R8 m c (Pipeline.arrRef spec3 ⟨4, h⟩) :=
  ((((dat3 (R7 m) c).arrAt_in ⟨4, h⟩ rfl _).trans (A_eq3 (R7 m) c ⟨4, h⟩)).trans (R7_apply m c _)).trans ((W8_of_ne m c _ ne3_4_5).symm.trans (R8_apply m c _).symm)
theorem hF3_w5 (c : Dev nD) (h : 5 < cfg3.W) : (dat3 (R7 m) c).arrAt ⟨5, h⟩ cfg3.N = R8 m c (Pipeline.arrRef spec3 ⟨5, h⟩) :=
  ((o3_5_eq (R7 m) c h).symm.trans (W8_o5 m c).symm).trans (R8_apply m c _).symm
theorem hF3 (c : Dev nD) (w : Fin cfg3.W) : (dat3 (R7 m) c).arrAt w cfg3.N = R8 m c (Pipeline.arrRef spec3 w) :=
  match w with
  | ⟨0, h⟩ => hF3_w0 m c h
  | ⟨1, h⟩ => hF3_w1 m c h
  | ⟨2, h⟩ => hF3_w2 m c h
  | ⟨3, h⟩ => hF3_w3 m c h
  | ⟨4, h⟩ => hF3_w4 m c h
  | ⟨5, h⟩ => hF3_w5 m c h
theorem hrest3 (c : Dev nD) : ∀ b, b ∉ Finset.univ.image (Pipeline.arrRef spec3) → R8 m c b = R7 m c b :=
  fun b hb => (R8_apply m c b).trans ((W8_of_ne m c b
    (fun e => hb (Finset.mem_image.mpr ⟨⟨5, lt3_5⟩, Finset.mem_univ _, e.symm⟩))
    ).trans (R7_apply m c b).symm)
theorem hF4_w0 (c : Dev nD) (h : 0 < cfg4.W) : (dat4 (R9 m) c).arrAt ⟨0, h⟩ cfg4.N = R10 m c (Pipeline.arrRef spec4 ⟨0, h⟩) :=
  ((((dat4 (R9 m) c).arrAt_in ⟨0, h⟩ rfl _).trans (A_eq4 (R9 m) c ⟨0, h⟩)).trans (R9_apply m c _)).trans ((W10_of_ne m c _ ne4_0_3 ne4_0_4 ne4_0_5).symm.trans (R10_apply m c _).symm)
theorem hF4_w1 (c : Dev nD) (h : 1 < cfg4.W) : (dat4 (R9 m) c).arrAt ⟨1, h⟩ cfg4.N = R10 m c (Pipeline.arrRef spec4 ⟨1, h⟩) :=
  ((((dat4 (R9 m) c).arrAt_in ⟨1, h⟩ rfl _).trans (A_eq4 (R9 m) c ⟨1, h⟩)).trans (R9_apply m c _)).trans ((W10_of_ne m c _ ne4_1_3 ne4_1_4 ne4_1_5).symm.trans (R10_apply m c _).symm)
theorem hF4_w2 (c : Dev nD) (h : 2 < cfg4.W) : (dat4 (R9 m) c).arrAt ⟨2, h⟩ cfg4.N = R10 m c (Pipeline.arrRef spec4 ⟨2, h⟩) :=
  ((((dat4 (R9 m) c).arrAt_in ⟨2, h⟩ rfl _).trans (A_eq4 (R9 m) c ⟨2, h⟩)).trans (R9_apply m c _)).trans ((W10_of_ne m c _ ne4_2_3 ne4_2_4 ne4_2_5).symm.trans (R10_apply m c _).symm)
theorem hF4_w3 (c : Dev nD) (h : 3 < cfg4.W) : (dat4 (R9 m) c).arrAt ⟨3, h⟩ cfg4.N = R10 m c (Pipeline.arrRef spec4 ⟨3, h⟩) :=
  ((o4_3_eq (R9 m) c h).symm.trans (W10_o3 m c).symm).trans (R10_apply m c _).symm
theorem hF4_w4 (c : Dev nD) (h : 4 < cfg4.W) : (dat4 (R9 m) c).arrAt ⟨4, h⟩ cfg4.N = R10 m c (Pipeline.arrRef spec4 ⟨4, h⟩) :=
  ((o4_4_eq (R9 m) c h).symm.trans (W10_o4 m c).symm).trans (R10_apply m c _).symm
theorem hF4_w5 (c : Dev nD) (h : 5 < cfg4.W) : (dat4 (R9 m) c).arrAt ⟨5, h⟩ cfg4.N = R10 m c (Pipeline.arrRef spec4 ⟨5, h⟩) :=
  ((o4_5_eq (R9 m) c h).symm.trans (W10_o5 m c).symm).trans (R10_apply m c _).symm
theorem hF4 (c : Dev nD) (w : Fin cfg4.W) : (dat4 (R9 m) c).arrAt w cfg4.N = R10 m c (Pipeline.arrRef spec4 w) :=
  match w with
  | ⟨0, h⟩ => hF4_w0 m c h
  | ⟨1, h⟩ => hF4_w1 m c h
  | ⟨2, h⟩ => hF4_w2 m c h
  | ⟨3, h⟩ => hF4_w3 m c h
  | ⟨4, h⟩ => hF4_w4 m c h
  | ⟨5, h⟩ => hF4_w5 m c h
theorem hrest4 (c : Dev nD) : ∀ b, b ∉ Finset.univ.image (Pipeline.arrRef spec4) → R10 m c b = R9 m c b :=
  fun b hb => (R10_apply m c b).trans ((W10_of_ne m c b
    (fun e => hb (Finset.mem_image.mpr ⟨⟨3, lt4_3⟩, Finset.mem_univ _, e.symm⟩))
    (fun e => hb (Finset.mem_image.mpr ⟨⟨4, lt4_4⟩, Finset.mem_univ _, e.symm⟩))
    (fun e => hb (Finset.mem_image.mpr ⟨⟨5, lt4_5⟩, Finset.mem_univ _, e.symm⟩))
    ).trans (R9_apply m c b).symm)
theorem hF5_w0 (c : Dev nD) (h : 0 < cfg5.W) : (dat5 (R11 m) c).arrAt ⟨0, h⟩ cfg5.N = R12 m c (Pipeline.arrRef spec5 ⟨0, h⟩) :=
  ((((dat5 (R11 m) c).arrAt_in ⟨0, h⟩ rfl _).trans (A_eq5 (R11 m) c ⟨0, h⟩)).trans (R11_apply m c _)).trans ((W12_of_ne m c _ ne5_0_5).symm.trans (R12_apply m c _).symm)
theorem hF5_w1 (c : Dev nD) (h : 1 < cfg5.W) : (dat5 (R11 m) c).arrAt ⟨1, h⟩ cfg5.N = R12 m c (Pipeline.arrRef spec5 ⟨1, h⟩) :=
  ((((dat5 (R11 m) c).arrAt_in ⟨1, h⟩ rfl _).trans (A_eq5 (R11 m) c ⟨1, h⟩)).trans (R11_apply m c _)).trans ((W12_of_ne m c _ ne5_1_5).symm.trans (R12_apply m c _).symm)
theorem hF5_w2 (c : Dev nD) (h : 2 < cfg5.W) : (dat5 (R11 m) c).arrAt ⟨2, h⟩ cfg5.N = R12 m c (Pipeline.arrRef spec5 ⟨2, h⟩) :=
  ((((dat5 (R11 m) c).arrAt_in ⟨2, h⟩ rfl _).trans (A_eq5 (R11 m) c ⟨2, h⟩)).trans (R11_apply m c _)).trans ((W12_of_ne m c _ ne5_2_5).symm.trans (R12_apply m c _).symm)
theorem hF5_w3 (c : Dev nD) (h : 3 < cfg5.W) : (dat5 (R11 m) c).arrAt ⟨3, h⟩ cfg5.N = R12 m c (Pipeline.arrRef spec5 ⟨3, h⟩) :=
  ((((dat5 (R11 m) c).arrAt_in ⟨3, h⟩ rfl _).trans (A_eq5 (R11 m) c ⟨3, h⟩)).trans (R11_apply m c _)).trans ((W12_of_ne m c _ ne5_3_5).symm.trans (R12_apply m c _).symm)
theorem hF5_w4 (c : Dev nD) (h : 4 < cfg5.W) : (dat5 (R11 m) c).arrAt ⟨4, h⟩ cfg5.N = R12 m c (Pipeline.arrRef spec5 ⟨4, h⟩) :=
  ((((dat5 (R11 m) c).arrAt_in ⟨4, h⟩ rfl _).trans (A_eq5 (R11 m) c ⟨4, h⟩)).trans (R11_apply m c _)).trans ((W12_of_ne m c _ ne5_4_5).symm.trans (R12_apply m c _).symm)
theorem hF5_w5 (c : Dev nD) (h : 5 < cfg5.W) : (dat5 (R11 m) c).arrAt ⟨5, h⟩ cfg5.N = R12 m c (Pipeline.arrRef spec5 ⟨5, h⟩) :=
  ((o5_5_eq (R11 m) c h).symm.trans (W12_o5 m c).symm).trans (R12_apply m c _).symm
theorem hF5 (c : Dev nD) (w : Fin cfg5.W) : (dat5 (R11 m) c).arrAt w cfg5.N = R12 m c (Pipeline.arrRef spec5 w) :=
  match w with
  | ⟨0, h⟩ => hF5_w0 m c h
  | ⟨1, h⟩ => hF5_w1 m c h
  | ⟨2, h⟩ => hF5_w2 m c h
  | ⟨3, h⟩ => hF5_w3 m c h
  | ⟨4, h⟩ => hF5_w4 m c h
  | ⟨5, h⟩ => hF5_w5 m c h
theorem hrest5 (c : Dev nD) : ∀ b, b ∉ Finset.univ.image (Pipeline.arrRef spec5) → R12 m c b = R11 m c b :=
  fun b hb => (R12_apply m c b).trans ((W12_of_ne m c b
    (fun e => hb (Finset.mem_image.mpr ⟨⟨5, lt5_5⟩, Finset.mem_univ _, e.symm⟩))
    ).trans (R11_apply m c b).symm)
theorem hF6_w0 (c : Dev nD) (h : 0 < cfg6.W) : (dat6 (R13 m) c).arrAt ⟨0, h⟩ cfg6.N = R14 m c (Pipeline.arrRef spec6 ⟨0, h⟩) :=
  ((((dat6 (R13 m) c).arrAt_in ⟨0, h⟩ rfl _).trans (A_eq6 (R13 m) c ⟨0, h⟩)).trans (R13_apply m c _)).trans ((W14_of_ne m c _ ne6_0_4).symm.trans (R14_apply m c _).symm)
theorem hF6_w1 (c : Dev nD) (h : 1 < cfg6.W) : (dat6 (R13 m) c).arrAt ⟨1, h⟩ cfg6.N = R14 m c (Pipeline.arrRef spec6 ⟨1, h⟩) :=
  ((((dat6 (R13 m) c).arrAt_in ⟨1, h⟩ rfl _).trans (A_eq6 (R13 m) c ⟨1, h⟩)).trans (R13_apply m c _)).trans ((W14_of_ne m c _ ne6_1_4).symm.trans (R14_apply m c _).symm)
theorem hF6_w2 (c : Dev nD) (h : 2 < cfg6.W) : (dat6 (R13 m) c).arrAt ⟨2, h⟩ cfg6.N = R14 m c (Pipeline.arrRef spec6 ⟨2, h⟩) :=
  ((((dat6 (R13 m) c).arrAt_in ⟨2, h⟩ rfl _).trans (A_eq6 (R13 m) c ⟨2, h⟩)).trans (R13_apply m c _)).trans ((W14_of_ne m c _ ne6_2_4).symm.trans (R14_apply m c _).symm)
theorem hF6_w3 (c : Dev nD) (h : 3 < cfg6.W) : (dat6 (R13 m) c).arrAt ⟨3, h⟩ cfg6.N = R14 m c (Pipeline.arrRef spec6 ⟨3, h⟩) :=
  ((((dat6 (R13 m) c).arrAt_in ⟨3, h⟩ rfl _).trans (A_eq6 (R13 m) c ⟨3, h⟩)).trans (R13_apply m c _)).trans ((W14_of_ne m c _ ne6_3_4).symm.trans (R14_apply m c _).symm)
theorem hF6_w4 (c : Dev nD) (h : 4 < cfg6.W) : (dat6 (R13 m) c).arrAt ⟨4, h⟩ cfg6.N = R14 m c (Pipeline.arrRef spec6 ⟨4, h⟩) :=
  ((o6_4_eq (R13 m) c h).symm.trans (W14_o4 m c).symm).trans (R14_apply m c _).symm
theorem hF6 (c : Dev nD) (w : Fin cfg6.W) : (dat6 (R13 m) c).arrAt w cfg6.N = R14 m c (Pipeline.arrRef spec6 w) :=
  match w with
  | ⟨0, h⟩ => hF6_w0 m c h
  | ⟨1, h⟩ => hF6_w1 m c h
  | ⟨2, h⟩ => hF6_w2 m c h
  | ⟨3, h⟩ => hF6_w3 m c h
  | ⟨4, h⟩ => hF6_w4 m c h
theorem hrest6 (c : Dev nD) : ∀ b, b ∉ Finset.univ.image (Pipeline.arrRef spec6) → R14 m c b = R13 m c b :=
  fun b hb => (R14_apply m c b).trans ((W14_of_ne m c b
    (fun e => hb (Finset.mem_image.mpr ⟨⟨4, lt6_4⟩, Finset.mem_univ _, e.symm⟩))
    ).trans (R13_apply m c b).symm)
theorem hF7_w0 (c : Dev nD) (h : 0 < cfg7.W) : (dat7 (R15 m) c).arrAt ⟨0, h⟩ cfg7.N = R16 m c (Pipeline.arrRef spec7 ⟨0, h⟩) :=
  ((((dat7 (R15 m) c).arrAt_in ⟨0, h⟩ rfl _).trans (A_eq7 (R15 m) c ⟨0, h⟩)).trans (R15_apply m c _)).trans ((W16_of_ne m c _ ne7_0_3 ne7_0_4 ne7_0_5).symm.trans (R16_apply m c _).symm)
theorem hF7_w1 (c : Dev nD) (h : 1 < cfg7.W) : (dat7 (R15 m) c).arrAt ⟨1, h⟩ cfg7.N = R16 m c (Pipeline.arrRef spec7 ⟨1, h⟩) :=
  ((((dat7 (R15 m) c).arrAt_in ⟨1, h⟩ rfl _).trans (A_eq7 (R15 m) c ⟨1, h⟩)).trans (R15_apply m c _)).trans ((W16_of_ne m c _ ne7_1_3 ne7_1_4 ne7_1_5).symm.trans (R16_apply m c _).symm)
theorem hF7_w2 (c : Dev nD) (h : 2 < cfg7.W) : (dat7 (R15 m) c).arrAt ⟨2, h⟩ cfg7.N = R16 m c (Pipeline.arrRef spec7 ⟨2, h⟩) :=
  ((((dat7 (R15 m) c).arrAt_in ⟨2, h⟩ rfl _).trans (A_eq7 (R15 m) c ⟨2, h⟩)).trans (R15_apply m c _)).trans ((W16_of_ne m c _ ne7_2_3 ne7_2_4 ne7_2_5).symm.trans (R16_apply m c _).symm)
theorem hF7_w3 (c : Dev nD) (h : 3 < cfg7.W) : (dat7 (R15 m) c).arrAt ⟨3, h⟩ cfg7.N = R16 m c (Pipeline.arrRef spec7 ⟨3, h⟩) :=
  ((o7_3_eq (R15 m) c h).symm.trans (W16_o3 m c).symm).trans (R16_apply m c _).symm
theorem hF7_w4 (c : Dev nD) (h : 4 < cfg7.W) : (dat7 (R15 m) c).arrAt ⟨4, h⟩ cfg7.N = R16 m c (Pipeline.arrRef spec7 ⟨4, h⟩) :=
  ((o7_4_eq (R15 m) c h).symm.trans (W16_o4 m c).symm).trans (R16_apply m c _).symm
theorem hF7_w5 (c : Dev nD) (h : 5 < cfg7.W) : (dat7 (R15 m) c).arrAt ⟨5, h⟩ cfg7.N = R16 m c (Pipeline.arrRef spec7 ⟨5, h⟩) :=
  ((o7_5_eq (R15 m) c h).symm.trans (W16_o5 m c).symm).trans (R16_apply m c _).symm
theorem hF7 (c : Dev nD) (w : Fin cfg7.W) : (dat7 (R15 m) c).arrAt w cfg7.N = R16 m c (Pipeline.arrRef spec7 w) :=
  match w with
  | ⟨0, h⟩ => hF7_w0 m c h
  | ⟨1, h⟩ => hF7_w1 m c h
  | ⟨2, h⟩ => hF7_w2 m c h
  | ⟨3, h⟩ => hF7_w3 m c h
  | ⟨4, h⟩ => hF7_w4 m c h
  | ⟨5, h⟩ => hF7_w5 m c h
theorem hrest7 (c : Dev nD) : ∀ b, b ∉ Finset.univ.image (Pipeline.arrRef spec7) → R16 m c b = R15 m c b :=
  fun b hb => (R16_apply m c b).trans ((W16_of_ne m c b
    (fun e => hb (Finset.mem_image.mpr ⟨⟨3, lt7_3⟩, Finset.mem_univ _, e.symm⟩))
    (fun e => hb (Finset.mem_image.mpr ⟨⟨4, lt7_4⟩, Finset.mem_univ _, e.symm⟩))
    (fun e => hb (Finset.mem_image.mpr ⟨⟨5, lt7_5⟩, Finset.mem_univ _, e.symm⟩))
    ).trans (R15_apply m c b).symm)
theorem hF8_w0 (c : Dev nD) (h : 0 < cfg8.W) : (dat8 (R17 m) c).arrAt ⟨0, h⟩ cfg8.N = R18 m c (Pipeline.arrRef spec8 ⟨0, h⟩) :=
  ((((dat8 (R17 m) c).arrAt_in ⟨0, h⟩ rfl _).trans (A_eq8 (R17 m) c ⟨0, h⟩)).trans (R17_apply m c _)).trans ((W18_of_ne m c _ ne8_0_5).symm.trans (R18_apply m c _).symm)
theorem hF8_w1 (c : Dev nD) (h : 1 < cfg8.W) : (dat8 (R17 m) c).arrAt ⟨1, h⟩ cfg8.N = R18 m c (Pipeline.arrRef spec8 ⟨1, h⟩) :=
  ((((dat8 (R17 m) c).arrAt_in ⟨1, h⟩ rfl _).trans (A_eq8 (R17 m) c ⟨1, h⟩)).trans (R17_apply m c _)).trans ((W18_of_ne m c _ ne8_1_5).symm.trans (R18_apply m c _).symm)
theorem hF8_w2 (c : Dev nD) (h : 2 < cfg8.W) : (dat8 (R17 m) c).arrAt ⟨2, h⟩ cfg8.N = R18 m c (Pipeline.arrRef spec8 ⟨2, h⟩) :=
  ((((dat8 (R17 m) c).arrAt_in ⟨2, h⟩ rfl _).trans (A_eq8 (R17 m) c ⟨2, h⟩)).trans (R17_apply m c _)).trans ((W18_of_ne m c _ ne8_2_5).symm.trans (R18_apply m c _).symm)
theorem hF8_w3 (c : Dev nD) (h : 3 < cfg8.W) : (dat8 (R17 m) c).arrAt ⟨3, h⟩ cfg8.N = R18 m c (Pipeline.arrRef spec8 ⟨3, h⟩) :=
  ((((dat8 (R17 m) c).arrAt_in ⟨3, h⟩ rfl _).trans (A_eq8 (R17 m) c ⟨3, h⟩)).trans (R17_apply m c _)).trans ((W18_of_ne m c _ ne8_3_5).symm.trans (R18_apply m c _).symm)
theorem hF8_w4 (c : Dev nD) (h : 4 < cfg8.W) : (dat8 (R17 m) c).arrAt ⟨4, h⟩ cfg8.N = R18 m c (Pipeline.arrRef spec8 ⟨4, h⟩) :=
  ((((dat8 (R17 m) c).arrAt_in ⟨4, h⟩ rfl _).trans (A_eq8 (R17 m) c ⟨4, h⟩)).trans (R17_apply m c _)).trans ((W18_of_ne m c _ ne8_4_5).symm.trans (R18_apply m c _).symm)
theorem hF8_w5 (c : Dev nD) (h : 5 < cfg8.W) : (dat8 (R17 m) c).arrAt ⟨5, h⟩ cfg8.N = R18 m c (Pipeline.arrRef spec8 ⟨5, h⟩) :=
  ((o8_5_eq (R17 m) c h).symm.trans (W18_o5 m c).symm).trans (R18_apply m c _).symm
theorem hF8 (c : Dev nD) (w : Fin cfg8.W) : (dat8 (R17 m) c).arrAt w cfg8.N = R18 m c (Pipeline.arrRef spec8 w) :=
  match w with
  | ⟨0, h⟩ => hF8_w0 m c h
  | ⟨1, h⟩ => hF8_w1 m c h
  | ⟨2, h⟩ => hF8_w2 m c h
  | ⟨3, h⟩ => hF8_w3 m c h
  | ⟨4, h⟩ => hF8_w4 m c h
  | ⟨5, h⟩ => hF8_w5 m c h
theorem hrest8 (c : Dev nD) : ∀ b, b ∉ Finset.univ.image (Pipeline.arrRef spec8) → R18 m c b = R17 m c b :=
  fun b hb => (R18_apply m c b).trans ((W18_of_ne m c b
    (fun e => hb (Finset.mem_image.mpr ⟨⟨5, lt8_5⟩, Finset.mem_univ _, e.symm⟩))
    ).trans (R17_apply m c b).symm)
theorem hF9_w0 (c : Dev nD) (h : 0 < cfg9.W) : (dat9 (R19 m) c).arrAt ⟨0, h⟩ cfg9.N = R20 m c (Pipeline.arrRef spec9 ⟨0, h⟩) :=
  ((((dat9 (R19 m) c).arrAt_in ⟨0, h⟩ rfl _).trans (A_eq9 (R19 m) c ⟨0, h⟩)).trans (R19_apply m c _)).trans ((W20_of_ne m c _ ne9_0_3 ne9_0_4 ne9_0_5).symm.trans (R20_apply m c _).symm)
theorem hF9_w1 (c : Dev nD) (h : 1 < cfg9.W) : (dat9 (R19 m) c).arrAt ⟨1, h⟩ cfg9.N = R20 m c (Pipeline.arrRef spec9 ⟨1, h⟩) :=
  ((((dat9 (R19 m) c).arrAt_in ⟨1, h⟩ rfl _).trans (A_eq9 (R19 m) c ⟨1, h⟩)).trans (R19_apply m c _)).trans ((W20_of_ne m c _ ne9_1_3 ne9_1_4 ne9_1_5).symm.trans (R20_apply m c _).symm)
theorem hF9_w2 (c : Dev nD) (h : 2 < cfg9.W) : (dat9 (R19 m) c).arrAt ⟨2, h⟩ cfg9.N = R20 m c (Pipeline.arrRef spec9 ⟨2, h⟩) :=
  ((((dat9 (R19 m) c).arrAt_in ⟨2, h⟩ rfl _).trans (A_eq9 (R19 m) c ⟨2, h⟩)).trans (R19_apply m c _)).trans ((W20_of_ne m c _ ne9_2_3 ne9_2_4 ne9_2_5).symm.trans (R20_apply m c _).symm)
theorem hF9_w3 (c : Dev nD) (h : 3 < cfg9.W) : (dat9 (R19 m) c).arrAt ⟨3, h⟩ cfg9.N = R20 m c (Pipeline.arrRef spec9 ⟨3, h⟩) :=
  ((o9_3_eq (R19 m) c h).symm.trans (W20_o3 m c).symm).trans (R20_apply m c _).symm
theorem hF9_w4 (c : Dev nD) (h : 4 < cfg9.W) : (dat9 (R19 m) c).arrAt ⟨4, h⟩ cfg9.N = R20 m c (Pipeline.arrRef spec9 ⟨4, h⟩) :=
  ((o9_4_eq (R19 m) c h).symm.trans (W20_o4 m c).symm).trans (R20_apply m c _).symm
theorem hF9_w5 (c : Dev nD) (h : 5 < cfg9.W) : (dat9 (R19 m) c).arrAt ⟨5, h⟩ cfg9.N = R20 m c (Pipeline.arrRef spec9 ⟨5, h⟩) :=
  ((o9_5_eq (R19 m) c h).symm.trans (W20_o5 m c).symm).trans (R20_apply m c _).symm
theorem hF9 (c : Dev nD) (w : Fin cfg9.W) : (dat9 (R19 m) c).arrAt w cfg9.N = R20 m c (Pipeline.arrRef spec9 w) :=
  match w with
  | ⟨0, h⟩ => hF9_w0 m c h
  | ⟨1, h⟩ => hF9_w1 m c h
  | ⟨2, h⟩ => hF9_w2 m c h
  | ⟨3, h⟩ => hF9_w3 m c h
  | ⟨4, h⟩ => hF9_w4 m c h
  | ⟨5, h⟩ => hF9_w5 m c h
theorem hrest9 (c : Dev nD) : ∀ b, b ∉ Finset.univ.image (Pipeline.arrRef spec9) → R20 m c b = R19 m c b :=
  fun b hb => (R20_apply m c b).trans ((W20_of_ne m c b
    (fun e => hb (Finset.mem_image.mpr ⟨⟨3, lt9_3⟩, Finset.mem_univ _, e.symm⟩))
    (fun e => hb (Finset.mem_image.mpr ⟨⟨4, lt9_4⟩, Finset.mem_univ _, e.symm⟩))
    (fun e => hb (Finset.mem_image.mpr ⟨⟨5, lt9_5⟩, Finset.mem_univ _, e.symm⟩))
    ).trans (R19_apply m c b).symm)
theorem hF10_w0 (c : Dev nD) (h : 0 < cfg10.W) : (dat10 (R21 m) c).arrAt ⟨0, h⟩ cfg10.N = R22 m c (Pipeline.arrRef spec10 ⟨0, h⟩) :=
  ((((dat10 (R21 m) c).arrAt_in ⟨0, h⟩ rfl _).trans (A_eq10 (R21 m) c ⟨0, h⟩)).trans (R21_apply m c _)).trans ((W22_of_ne m c _ ne10_0_5).symm.trans (R22_apply m c _).symm)
theorem hF10_w1 (c : Dev nD) (h : 1 < cfg10.W) : (dat10 (R21 m) c).arrAt ⟨1, h⟩ cfg10.N = R22 m c (Pipeline.arrRef spec10 ⟨1, h⟩) :=
  ((((dat10 (R21 m) c).arrAt_in ⟨1, h⟩ rfl _).trans (A_eq10 (R21 m) c ⟨1, h⟩)).trans (R21_apply m c _)).trans ((W22_of_ne m c _ ne10_1_5).symm.trans (R22_apply m c _).symm)
theorem hF10_w2 (c : Dev nD) (h : 2 < cfg10.W) : (dat10 (R21 m) c).arrAt ⟨2, h⟩ cfg10.N = R22 m c (Pipeline.arrRef spec10 ⟨2, h⟩) :=
  ((((dat10 (R21 m) c).arrAt_in ⟨2, h⟩ rfl _).trans (A_eq10 (R21 m) c ⟨2, h⟩)).trans (R21_apply m c _)).trans ((W22_of_ne m c _ ne10_2_5).symm.trans (R22_apply m c _).symm)
theorem hF10_w3 (c : Dev nD) (h : 3 < cfg10.W) : (dat10 (R21 m) c).arrAt ⟨3, h⟩ cfg10.N = R22 m c (Pipeline.arrRef spec10 ⟨3, h⟩) :=
  ((((dat10 (R21 m) c).arrAt_in ⟨3, h⟩ rfl _).trans (A_eq10 (R21 m) c ⟨3, h⟩)).trans (R21_apply m c _)).trans ((W22_of_ne m c _ ne10_3_5).symm.trans (R22_apply m c _).symm)
theorem hF10_w4 (c : Dev nD) (h : 4 < cfg10.W) : (dat10 (R21 m) c).arrAt ⟨4, h⟩ cfg10.N = R22 m c (Pipeline.arrRef spec10 ⟨4, h⟩) :=
  ((((dat10 (R21 m) c).arrAt_in ⟨4, h⟩ rfl _).trans (A_eq10 (R21 m) c ⟨4, h⟩)).trans (R21_apply m c _)).trans ((W22_of_ne m c _ ne10_4_5).symm.trans (R22_apply m c _).symm)
theorem hF10_w5 (c : Dev nD) (h : 5 < cfg10.W) : (dat10 (R21 m) c).arrAt ⟨5, h⟩ cfg10.N = R22 m c (Pipeline.arrRef spec10 ⟨5, h⟩) :=
  ((o10_5_eq (R21 m) c h).symm.trans (W22_o5 m c).symm).trans (R22_apply m c _).symm
theorem hF10 (c : Dev nD) (w : Fin cfg10.W) : (dat10 (R21 m) c).arrAt w cfg10.N = R22 m c (Pipeline.arrRef spec10 w) :=
  match w with
  | ⟨0, h⟩ => hF10_w0 m c h
  | ⟨1, h⟩ => hF10_w1 m c h
  | ⟨2, h⟩ => hF10_w2 m c h
  | ⟨3, h⟩ => hF10_w3 m c h
  | ⟨4, h⟩ => hF10_w4 m c h
  | ⟨5, h⟩ => hF10_w5 m c h
theorem hrest10 (c : Dev nD) : ∀ b, b ∉ Finset.univ.image (Pipeline.arrRef spec10) → R22 m c b = R21 m c b :=
  fun b hb => (R22_apply m c b).trans ((W22_of_ne m c b
    (fun e => hb (Finset.mem_image.mpr ⟨⟨5, lt10_5⟩, Finset.mem_univ _, e.symm⟩))
    ).trans (R21_apply m c b).symm)
theorem hF11_w0 (c : Dev nD) (h : 0 < cfg11.W) : (dat11 (R23 m) c).arrAt ⟨0, h⟩ cfg11.N = R24 m c (Pipeline.arrRef spec11 ⟨0, h⟩) :=
  ((((dat11 (R23 m) c).arrAt_in ⟨0, h⟩ rfl _).trans (A_eq11 (R23 m) c ⟨0, h⟩)).trans (R23_apply m c _)).trans ((W24_of_ne m c _ ne11_0_3 ne11_0_4 ne11_0_5).symm.trans (R24_apply m c _).symm)
theorem hF11_w1 (c : Dev nD) (h : 1 < cfg11.W) : (dat11 (R23 m) c).arrAt ⟨1, h⟩ cfg11.N = R24 m c (Pipeline.arrRef spec11 ⟨1, h⟩) :=
  ((((dat11 (R23 m) c).arrAt_in ⟨1, h⟩ rfl _).trans (A_eq11 (R23 m) c ⟨1, h⟩)).trans (R23_apply m c _)).trans ((W24_of_ne m c _ ne11_1_3 ne11_1_4 ne11_1_5).symm.trans (R24_apply m c _).symm)
theorem hF11_w2 (c : Dev nD) (h : 2 < cfg11.W) : (dat11 (R23 m) c).arrAt ⟨2, h⟩ cfg11.N = R24 m c (Pipeline.arrRef spec11 ⟨2, h⟩) :=
  ((((dat11 (R23 m) c).arrAt_in ⟨2, h⟩ rfl _).trans (A_eq11 (R23 m) c ⟨2, h⟩)).trans (R23_apply m c _)).trans ((W24_of_ne m c _ ne11_2_3 ne11_2_4 ne11_2_5).symm.trans (R24_apply m c _).symm)
theorem hF11_w3 (c : Dev nD) (h : 3 < cfg11.W) : (dat11 (R23 m) c).arrAt ⟨3, h⟩ cfg11.N = R24 m c (Pipeline.arrRef spec11 ⟨3, h⟩) :=
  ((o11_3_eq (R23 m) c h).symm.trans (W24_o3 m c).symm).trans (R24_apply m c _).symm
theorem hF11_w4 (c : Dev nD) (h : 4 < cfg11.W) : (dat11 (R23 m) c).arrAt ⟨4, h⟩ cfg11.N = R24 m c (Pipeline.arrRef spec11 ⟨4, h⟩) :=
  ((o11_4_eq (R23 m) c h).symm.trans (W24_o4 m c).symm).trans (R24_apply m c _).symm
theorem hF11_w5 (c : Dev nD) (h : 5 < cfg11.W) : (dat11 (R23 m) c).arrAt ⟨5, h⟩ cfg11.N = R24 m c (Pipeline.arrRef spec11 ⟨5, h⟩) :=
  ((o11_5_eq (R23 m) c h).symm.trans (W24_o5 m c).symm).trans (R24_apply m c _).symm
theorem hF11 (c : Dev nD) (w : Fin cfg11.W) : (dat11 (R23 m) c).arrAt w cfg11.N = R24 m c (Pipeline.arrRef spec11 w) :=
  match w with
  | ⟨0, h⟩ => hF11_w0 m c h
  | ⟨1, h⟩ => hF11_w1 m c h
  | ⟨2, h⟩ => hF11_w2 m c h
  | ⟨3, h⟩ => hF11_w3 m c h
  | ⟨4, h⟩ => hF11_w4 m c h
  | ⟨5, h⟩ => hF11_w5 m c h
theorem hrest11 (c : Dev nD) : ∀ b, b ∉ Finset.univ.image (Pipeline.arrRef spec11) → R24 m c b = R23 m c b :=
  fun b hb => (R24_apply m c b).trans ((W24_of_ne m c b
    (fun e => hb (Finset.mem_image.mpr ⟨⟨3, lt11_3⟩, Finset.mem_univ _, e.symm⟩))
    (fun e => hb (Finset.mem_image.mpr ⟨⟨4, lt11_4⟩, Finset.mem_univ _, e.symm⟩))
    (fun e => hb (Finset.mem_image.mpr ⟨⟨5, lt11_5⟩, Finset.mem_univ _, e.symm⟩))
    ).trans (R23_apply m c b).symm)
theorem hF12_w0 (c : Dev nD) (h : 0 < cfg12.W) : (dat12 (R25 m) c).arrAt ⟨0, h⟩ cfg12.N = R26 m c (Pipeline.arrRef spec12 ⟨0, h⟩) :=
  ((((dat12 (R25 m) c).arrAt_in ⟨0, h⟩ rfl _).trans (A_eq12 (R25 m) c ⟨0, h⟩)).trans (R25_apply m c _)).trans ((W26_of_ne m c _ ne12_0_5).symm.trans (R26_apply m c _).symm)
theorem hF12_w1 (c : Dev nD) (h : 1 < cfg12.W) : (dat12 (R25 m) c).arrAt ⟨1, h⟩ cfg12.N = R26 m c (Pipeline.arrRef spec12 ⟨1, h⟩) :=
  ((((dat12 (R25 m) c).arrAt_in ⟨1, h⟩ rfl _).trans (A_eq12 (R25 m) c ⟨1, h⟩)).trans (R25_apply m c _)).trans ((W26_of_ne m c _ ne12_1_5).symm.trans (R26_apply m c _).symm)
theorem hF12_w2 (c : Dev nD) (h : 2 < cfg12.W) : (dat12 (R25 m) c).arrAt ⟨2, h⟩ cfg12.N = R26 m c (Pipeline.arrRef spec12 ⟨2, h⟩) :=
  ((((dat12 (R25 m) c).arrAt_in ⟨2, h⟩ rfl _).trans (A_eq12 (R25 m) c ⟨2, h⟩)).trans (R25_apply m c _)).trans ((W26_of_ne m c _ ne12_2_5).symm.trans (R26_apply m c _).symm)
theorem hF12_w3 (c : Dev nD) (h : 3 < cfg12.W) : (dat12 (R25 m) c).arrAt ⟨3, h⟩ cfg12.N = R26 m c (Pipeline.arrRef spec12 ⟨3, h⟩) :=
  ((((dat12 (R25 m) c).arrAt_in ⟨3, h⟩ rfl _).trans (A_eq12 (R25 m) c ⟨3, h⟩)).trans (R25_apply m c _)).trans ((W26_of_ne m c _ ne12_3_5).symm.trans (R26_apply m c _).symm)
theorem hF12_w4 (c : Dev nD) (h : 4 < cfg12.W) : (dat12 (R25 m) c).arrAt ⟨4, h⟩ cfg12.N = R26 m c (Pipeline.arrRef spec12 ⟨4, h⟩) :=
  ((((dat12 (R25 m) c).arrAt_in ⟨4, h⟩ rfl _).trans (A_eq12 (R25 m) c ⟨4, h⟩)).trans (R25_apply m c _)).trans ((W26_of_ne m c _ ne12_4_5).symm.trans (R26_apply m c _).symm)
theorem hF12_w5 (c : Dev nD) (h : 5 < cfg12.W) : (dat12 (R25 m) c).arrAt ⟨5, h⟩ cfg12.N = R26 m c (Pipeline.arrRef spec12 ⟨5, h⟩) :=
  ((o12_5_eq (R25 m) c h).symm.trans (W26_o5 m c).symm).trans (R26_apply m c _).symm
theorem hF12 (c : Dev nD) (w : Fin cfg12.W) : (dat12 (R25 m) c).arrAt w cfg12.N = R26 m c (Pipeline.arrRef spec12 w) :=
  match w with
  | ⟨0, h⟩ => hF12_w0 m c h
  | ⟨1, h⟩ => hF12_w1 m c h
  | ⟨2, h⟩ => hF12_w2 m c h
  | ⟨3, h⟩ => hF12_w3 m c h
  | ⟨4, h⟩ => hF12_w4 m c h
  | ⟨5, h⟩ => hF12_w5 m c h
theorem hrest12 (c : Dev nD) : ∀ b, b ∉ Finset.univ.image (Pipeline.arrRef spec12) → R26 m c b = R25 m c b :=
  fun b hb => (R26_apply m c b).trans ((W26_of_ne m c b
    (fun e => hb (Finset.mem_image.mpr ⟨⟨5, lt12_5⟩, Finset.mem_univ _, e.symm⟩))
    ).trans (R25_apply m c b).symm)
theorem hF13_w0 (c : Dev nD) (h : 0 < cfg13.W) : (dat13 (R27 m) c).arrAt ⟨0, h⟩ cfg13.N = R28 m c (Pipeline.arrRef spec13 ⟨0, h⟩) :=
  ((((dat13 (R27 m) c).arrAt_in ⟨0, h⟩ rfl _).trans (A_eq13 (R27 m) c ⟨0, h⟩)).trans (R27_apply m c _)).trans ((W28_of_ne m c _ ne13_0_4).symm.trans (R28_apply m c _).symm)
theorem hF13_w1 (c : Dev nD) (h : 1 < cfg13.W) : (dat13 (R27 m) c).arrAt ⟨1, h⟩ cfg13.N = R28 m c (Pipeline.arrRef spec13 ⟨1, h⟩) :=
  ((((dat13 (R27 m) c).arrAt_in ⟨1, h⟩ rfl _).trans (A_eq13 (R27 m) c ⟨1, h⟩)).trans (R27_apply m c _)).trans ((W28_of_ne m c _ ne13_1_4).symm.trans (R28_apply m c _).symm)
theorem hF13_w2 (c : Dev nD) (h : 2 < cfg13.W) : (dat13 (R27 m) c).arrAt ⟨2, h⟩ cfg13.N = R28 m c (Pipeline.arrRef spec13 ⟨2, h⟩) :=
  ((((dat13 (R27 m) c).arrAt_in ⟨2, h⟩ rfl _).trans (A_eq13 (R27 m) c ⟨2, h⟩)).trans (R27_apply m c _)).trans ((W28_of_ne m c _ ne13_2_4).symm.trans (R28_apply m c _).symm)
theorem hF13_w3 (c : Dev nD) (h : 3 < cfg13.W) : (dat13 (R27 m) c).arrAt ⟨3, h⟩ cfg13.N = R28 m c (Pipeline.arrRef spec13 ⟨3, h⟩) :=
  ((((dat13 (R27 m) c).arrAt_in ⟨3, h⟩ rfl _).trans (A_eq13 (R27 m) c ⟨3, h⟩)).trans (R27_apply m c _)).trans ((W28_of_ne m c _ ne13_3_4).symm.trans (R28_apply m c _).symm)
theorem hF13_w4 (c : Dev nD) (h : 4 < cfg13.W) : (dat13 (R27 m) c).arrAt ⟨4, h⟩ cfg13.N = R28 m c (Pipeline.arrRef spec13 ⟨4, h⟩) :=
  ((o13_4_eq (R27 m) c h).symm.trans (W28_o4 m c).symm).trans (R28_apply m c _).symm
theorem hF13 (c : Dev nD) (w : Fin cfg13.W) : (dat13 (R27 m) c).arrAt w cfg13.N = R28 m c (Pipeline.arrRef spec13 w) :=
  match w with
  | ⟨0, h⟩ => hF13_w0 m c h
  | ⟨1, h⟩ => hF13_w1 m c h
  | ⟨2, h⟩ => hF13_w2 m c h
  | ⟨3, h⟩ => hF13_w3 m c h
  | ⟨4, h⟩ => hF13_w4 m c h
theorem hrest13 (c : Dev nD) : ∀ b, b ∉ Finset.univ.image (Pipeline.arrRef spec13) → R28 m c b = R27 m c b :=
  fun b hb => (R28_apply m c b).trans ((W28_of_ne m c b
    (fun e => hb (Finset.mem_image.mpr ⟨⟨4, lt13_4⟩, Finset.mem_univ _, e.symm⟩))
    ).trans (R27_apply m c b).symm)
theorem hF14_w0 (c : Dev nD) (h : 0 < cfg14.W) : (dat14 (R29 m) c).arrAt ⟨0, h⟩ cfg14.N = R30 m c (Pipeline.arrRef spec14 ⟨0, h⟩) :=
  ((((dat14 (R29 m) c).arrAt_in ⟨0, h⟩ rfl _).trans (A_eq14 (R29 m) c ⟨0, h⟩)).trans (R29_apply m c _)).trans ((W30_of_ne m c _ ne14_0_6).symm.trans (R30_apply m c _).symm)
theorem hF14_w1 (c : Dev nD) (h : 1 < cfg14.W) : (dat14 (R29 m) c).arrAt ⟨1, h⟩ cfg14.N = R30 m c (Pipeline.arrRef spec14 ⟨1, h⟩) :=
  ((((dat14 (R29 m) c).arrAt_in ⟨1, h⟩ rfl _).trans (A_eq14 (R29 m) c ⟨1, h⟩)).trans (R29_apply m c _)).trans ((W30_of_ne m c _ ne14_1_6).symm.trans (R30_apply m c _).symm)
theorem hF14_w2 (c : Dev nD) (h : 2 < cfg14.W) : (dat14 (R29 m) c).arrAt ⟨2, h⟩ cfg14.N = R30 m c (Pipeline.arrRef spec14 ⟨2, h⟩) :=
  ((((dat14 (R29 m) c).arrAt_in ⟨2, h⟩ rfl _).trans (A_eq14 (R29 m) c ⟨2, h⟩)).trans (R29_apply m c _)).trans ((W30_of_ne m c _ ne14_2_6).symm.trans (R30_apply m c _).symm)
theorem hF14_w3 (c : Dev nD) (h : 3 < cfg14.W) : (dat14 (R29 m) c).arrAt ⟨3, h⟩ cfg14.N = R30 m c (Pipeline.arrRef spec14 ⟨3, h⟩) :=
  ((((dat14 (R29 m) c).arrAt_in ⟨3, h⟩ rfl _).trans (A_eq14 (R29 m) c ⟨3, h⟩)).trans (R29_apply m c _)).trans ((W30_of_ne m c _ ne14_3_6).symm.trans (R30_apply m c _).symm)
theorem hF14_w4 (c : Dev nD) (h : 4 < cfg14.W) : (dat14 (R29 m) c).arrAt ⟨4, h⟩ cfg14.N = R30 m c (Pipeline.arrRef spec14 ⟨4, h⟩) :=
  ((((dat14 (R29 m) c).arrAt_in ⟨4, h⟩ rfl _).trans (A_eq14 (R29 m) c ⟨4, h⟩)).trans (R29_apply m c _)).trans ((W30_of_ne m c _ ne14_4_6).symm.trans (R30_apply m c _).symm)
theorem hF14_w5 (c : Dev nD) (h : 5 < cfg14.W) : (dat14 (R29 m) c).arrAt ⟨5, h⟩ cfg14.N = R30 m c (Pipeline.arrRef spec14 ⟨5, h⟩) :=
  ((((dat14 (R29 m) c).arrAt_in ⟨5, h⟩ rfl _).trans (A_eq14 (R29 m) c ⟨5, h⟩)).trans (R29_apply m c _)).trans ((W30_of_ne m c _ ne14_5_6).symm.trans (R30_apply m c _).symm)
theorem hF14_w6 (c : Dev nD) (h : 6 < cfg14.W) : (dat14 (R29 m) c).arrAt ⟨6, h⟩ cfg14.N = R30 m c (Pipeline.arrRef spec14 ⟨6, h⟩) :=
  ((o14_6_eq (R29 m) c h).symm.trans (W30_o6 m c).symm).trans (R30_apply m c _).symm
theorem hF14 (c : Dev nD) (w : Fin cfg14.W) : (dat14 (R29 m) c).arrAt w cfg14.N = R30 m c (Pipeline.arrRef spec14 w) :=
  match w with
  | ⟨0, h⟩ => hF14_w0 m c h
  | ⟨1, h⟩ => hF14_w1 m c h
  | ⟨2, h⟩ => hF14_w2 m c h
  | ⟨3, h⟩ => hF14_w3 m c h
  | ⟨4, h⟩ => hF14_w4 m c h
  | ⟨5, h⟩ => hF14_w5 m c h
  | ⟨6, h⟩ => hF14_w6 m c h
theorem hrest14 (c : Dev nD) : ∀ b, b ∉ Finset.univ.image (Pipeline.arrRef spec14) → R30 m c b = R29 m c b :=
  fun b hb => (R30_apply m c b).trans ((W30_of_ne m c b
    (fun e => hb (Finset.mem_image.mpr ⟨⟨6, lt14_6⟩, Finset.mem_univ _, e.symm⟩))
    ).trans (R29_apply m c b).symm)

end Cert.Kernel.Hand
-- ==== Proof.K.Seg0.lean ====
import proofs.«413302_j72232759984513_1_alg».proof.Proof.Gen.Kernel.Launch
import proofs.«413302_j72232759984513_1_alg».proof.Proof.Gen.Kernel.Skeleton
import proofs.«413302_j72232759984513_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«413302_j72232759984513_1_alg».proof.Proof.Gen.Kernel.Regions
import proofs.«413302_j72232759984513_1_alg».proof.Proof.K.Chain

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Kernel region 0 as a segment of @main

The region is entered from every unscoped buffer at the contents `W1` beside the generator register and the core's
`owes`, and left at `W2`. At entry its windows' arrays are split out of the unscoped buffers; at exit they are put back
at what the pipeline leaves in them. The generator register and the scoped buffers no window stages go into the
pipeline's invariant at the first point and come back at the last. The body owes nothing at the pipeline's cells and
bounds the core's recorded pairs by nothing, and the kernel has no semaphore of its own. -/

variable (m : (ℓ : Loc nD τ sig) → Buf (Elt F) ℓ)

-- applying a library lemma stated over the pinned configuration needs unification to unfold plain definitions in a
-- metavariable's type
set_option backward.isDefEq.respectTransparency.types false in
def reg0 : Pipeline.RegionSeg (pcfgs (F := F)) Gen.adm (pdats m) () defs₀ Variants.none Lz lvz 0 where
  win := launch0.win.to₀
  block_pos := launch0.block_pos
  stage_whole := launch0.stage_whole
  K := PEmpty
  osem k := k.elim
  ho := Pipeline.OwnSemFacts.none _
  hbody c := by
    show Pipeline.BodyObligationLoose (dat0 (R1 m) c) defs₀ Variants.none () Set.univ
    exact (body_obligation0 (R1 m) c).loose
  hwaits := Pipeline.hwaits_of_owed_zero _ _ _ _ Lz lvz 0 fun c n => owed_eq0 (R1 m) c n
  pre c := iprop(StableHlo.held (c : Thread nD τ) (Pipeline.ucRefs τ sig) (W1 m c) ∗ Rr c)
  post c := iprop(StableHlo.held (c : Thread nD τ) (Pipeline.ucRefs τ sig) (W2 m c) ∗ Rr c)
  X c := iprop(∃ r, prngReg c r)
  Y c := iprop(∃ r, prngReg c r)
  Z c := Pipeline.unscopedRest (Ix := Unit) (Name := ℕ) (U := UR sig nD τ) (Lvl := ℕ) spec0 c (R1 m c)
  hentry c := by
    rw [Pipeline.ownSems0_none]
    have hsplit := Pipeline.arrays_of_unscopedBufs (p := 0) (pcfgs (F := F)) Gen.adm (pdats m) launch0.win launch0.arr_whole c
      ((pdats m 0 c).share_full fun w => q_eq0 (R1 m) c w) (R1 m c) fun w => A_eq0 (R1 m) c w
    rw [show (unscopedBufs (Ix := Unit) (Name := ℕ) (U := UR sig nD τ) (Lvl := ℕ) c (R1 m c) : sProp 𝕄)
      = StableHlo.held (c : Thread nD τ) (Pipeline.ucRefs τ sig) (W1 m c) from Pipeline.unscopedBufs_held c (W1 m c)] at hsplit
    have h0 : ∀ n, (pdats m 0 c).owed n = 0 := fun n => owed_eq0 (R1 m) c n
    have hr : (pdats m 0 c).recorded 0 = Set.univ := recorded_eq0 (R1 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [h0, hr]
      icases HO with ⟨%W, HO⟩; iexists W; isplitr; · ipureintro; exact fun _ _ => Or.inl trivial
      iexact HO
    isplitl [Hp]; · iexact Hp
    iexact Hrest
  hin c := by
    refine BIBase.Entails.trans ?_ (Phi_in0 (R1 m) c)
    iintro ⟨Hp, -, Hr⟩
    isplitl [Hp]; · iexact Hp
    iexact Hr
  hout c := by
    rw [Pipeline.ownSems0_none]
    refine BIBase.Entails.trans (Phi_out0 (R1 m) c) ?_
    iintro ⟨Hp, Hr⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun w => q_eq0 (R1 m) c w)
      (R1 m c) (R2 m c) ((pdats m 0 c).arrAt · cfg0.N) (hF0 m c) (hrest0 m c)
    rw [show (unscopedBufs (Ix := Unit) (Name := ℕ) (U := UR sig nD τ) (Lvl := ℕ) c (R2 m c) : sProp 𝕄)
      = StableHlo.held (c : Thread nD τ) (Pipeline.ucRefs τ sig) (W2 m c) from Pipeline.unscopedBufs_held c (W2 m c)] at hjoin
    have h0 : ∀ n, (pdats m 0 c).owed n = 0 := fun n => owed_eq0 (R1 m) c n
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [h0]
    icases HO with ⟨%W, -, HO⟩; iexists W; iexact HO

theorem reg0_pre (c : Dev nD) : (reg0 m).pre c = iprop(StableHlo.held (c : Thread nD τ) (Pipeline.ucRefs τ sig) (W1 m c) ∗ Rr c) := rfl
theorem reg0_post (c : Dev nD) : (reg0 m).post c = iprop(StableHlo.held (c : Thread nD τ) (Pipeline.ucRefs τ sig) (W2 m c) ∗ Rr c) := rfl

end Cert.Kernel.Hand

end
-- ==== Proof.K.Seg1.lean ====
import proofs.«413302_j72232759984513_1_alg».proof.Proof.Gen.Kernel.Launch
import proofs.«413302_j72232759984513_1_alg».proof.Proof.Gen.Kernel.Skeleton
import proofs.«413302_j72232759984513_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«413302_j72232759984513_1_alg».proof.Proof.Gen.Kernel.Regions
import proofs.«413302_j72232759984513_1_alg».proof.Proof.K.Chain

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Kernel region 1 as a segment of @main

The region is entered from every unscoped buffer at the contents `W3` beside the generator register and the core's
`owes`, and left at `W4`. At entry its windows' arrays are split out of the unscoped buffers; at exit they are put back
at what the pipeline leaves in them. The generator register and the scoped buffers no window stages go into the
pipeline's invariant at the first point and come back at the last. The body owes nothing at the pipeline's cells and
bounds the core's recorded pairs by nothing, and the kernel has no semaphore of its own. -/

variable (m : (ℓ : Loc nD τ sig) → Buf (Elt F) ℓ)

-- applying a library lemma stated over the pinned configuration needs unification to unfold plain definitions in a
-- metavariable's type
set_option backward.isDefEq.respectTransparency.types false in
def reg1 : Pipeline.RegionSeg (pcfgs (F := F)) Gen.adm (pdats m) () defs₀ Variants.none Lz lvz 1 where
  win := launch1.win.to₀
  block_pos := launch1.block_pos
  stage_whole := launch1.stage_whole
  K := PEmpty
  osem k := k.elim
  ho := Pipeline.OwnSemFacts.none _
  hbody c := by
    show Pipeline.BodyObligationLoose (dat1 (R3 m) c) defs₀ Variants.none () Set.univ
    exact (body_obligation1 (R3 m) c).loose
  hwaits := Pipeline.hwaits_of_owed_zero _ _ _ _ Lz lvz 1 fun c n => owed_eq1 (R3 m) c n
  pre c := iprop(StableHlo.held (c : Thread nD τ) (Pipeline.ucRefs τ sig) (W3 m c) ∗ Rr c)
  post c := iprop(StableHlo.held (c : Thread nD τ) (Pipeline.ucRefs τ sig) (W4 m c) ∗ Rr c)
  X c := iprop(∃ r, prngReg c r)
  Y c := iprop(∃ r, prngReg c r)
  Z c := Pipeline.unscopedRest (Ix := Unit) (Name := ℕ) (U := UR sig nD τ) (Lvl := ℕ) spec1 c (R3 m c)
  hentry c := by
    rw [Pipeline.ownSems0_none]
    have hsplit := Pipeline.arrays_of_unscopedBufs (p := 1) (pcfgs (F := F)) Gen.adm (pdats m) launch1.win launch1.arr_whole c
      ((pdats m 1 c).share_full fun w => q_eq1 (R3 m) c w) (R3 m c) fun w => A_eq1 (R3 m) c w
    rw [show (unscopedBufs (Ix := Unit) (Name := ℕ) (U := UR sig nD τ) (Lvl := ℕ) c (R3 m c) : sProp 𝕄)
      = StableHlo.held (c : Thread nD τ) (Pipeline.ucRefs τ sig) (W3 m c) from Pipeline.unscopedBufs_held c (W3 m c)] at hsplit
    have h0 : ∀ n, (pdats m 1 c).owed n = 0 := fun n => owed_eq1 (R3 m) c n
    have hr : (pdats m 1 c).recorded 0 = Set.univ := recorded_eq1 (R3 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [h0, hr]
      icases HO with ⟨%W, HO⟩; iexists W; isplitr; · ipureintro; exact fun _ _ => Or.inl trivial
      iexact HO
    isplitl [Hp]; · iexact Hp
    iexact Hrest
  hin c := by
    refine BIBase.Entails.trans ?_ (Phi_in1 (R3 m) c)
    iintro ⟨Hp, -, Hr⟩
    isplitl [Hp]; · iexact Hp
    iexact Hr
  hout c := by
    rw [Pipeline.ownSems0_none]
    refine BIBase.Entails.trans (Phi_out1 (R3 m) c) ?_
    iintro ⟨Hp, Hr⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun w => q_eq1 (R3 m) c w)
      (R3 m c) (R4 m c) ((pdats m 1 c).arrAt · cfg1.N) (hF1 m c) (hrest1 m c)
    rw [show (unscopedBufs (Ix := Unit) (Name := ℕ) (U := UR sig nD τ) (Lvl := ℕ) c (R4 m c) : sProp 𝕄)
      = StableHlo.held (c : Thread nD τ) (Pipeline.ucRefs τ sig) (W4 m c) from Pipeline.unscopedBufs_held c (W4 m c)] at hjoin
    have h0 : ∀ n, (pdats m 1 c).owed n = 0 := fun n => owed_eq1 (R3 m) c n
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [h0]
    icases HO with ⟨%W, -, HO⟩; iexists W; iexact HO

theorem reg1_pre (c : Dev nD) : (reg1 m).pre c = iprop(StableHlo.held (c : Thread nD τ) (Pipeline.ucRefs τ sig) (W3 m c) ∗ Rr c) := rfl
theorem reg1_post (c : Dev nD) : (reg1 m).post c = iprop(StableHlo.held (c : Thread nD τ) (Pipeline.ucRefs τ sig) (W4 m c) ∗ Rr c) := rfl

end Cert.Kernel.Hand

end
-- ==== Proof.K.Seg2.lean ====
import proofs.«413302_j72232759984513_1_alg».proof.Proof.Gen.Kernel.Launch
import proofs.«413302_j72232759984513_1_alg».proof.Proof.Gen.Kernel.Skeleton
import proofs.«413302_j72232759984513_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«413302_j72232759984513_1_alg».proof.Proof.Gen.Kernel.Regions
import proofs.«413302_j72232759984513_1_alg».proof.Proof.K.Chain

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Kernel region 2 as a segment of @main

The region is entered from every unscoped buffer at the contents `W5` beside the generator register and the core's
`owes`, and left at `W6`. At entry its windows' arrays are split out of the unscoped buffers; at exit they are put back
at what the pipeline leaves in them. The generator register and the scoped buffers no window stages go into the
pipeline's invariant at the first point and come back at the last. The body owes nothing at the pipeline's cells and
bounds the core's recorded pairs by nothing, and the kernel has no semaphore of its own. -/

variable (m : (ℓ : Loc nD τ sig) → Buf (Elt F) ℓ)

-- applying a library lemma stated over the pinned configuration needs unification to unfold plain definitions in a
-- metavariable's type
set_option backward.isDefEq.respectTransparency.types false in
def reg2 : Pipeline.RegionSeg (pcfgs (F := F)) Gen.adm (pdats m) () defs₀ Variants.none Lz lvz 2 where
  win := launch2.win.to₀
  block_pos := launch2.block_pos
  stage_whole := launch2.stage_whole
  K := PEmpty
  osem k := k.elim
  ho := Pipeline.OwnSemFacts.none _
  hbody c := by
    show Pipeline.BodyObligationLoose (dat2 (R5 m) c) defs₀ Variants.none () Set.univ
    exact (body_obligation2 (R5 m) c).loose
  hwaits := Pipeline.hwaits_of_owed_zero _ _ _ _ Lz lvz 2 fun c n => owed_eq2 (R5 m) c n
  pre c := iprop(StableHlo.held (c : Thread nD τ) (Pipeline.ucRefs τ sig) (W5 m c) ∗ Rr c)
  post c := iprop(StableHlo.held (c : Thread nD τ) (Pipeline.ucRefs τ sig) (W6 m c) ∗ Rr c)
  X c := iprop(∃ r, prngReg c r)
  Y c := iprop(∃ r, prngReg c r)
  Z c := Pipeline.unscopedRest (Ix := Unit) (Name := ℕ) (U := UR sig nD τ) (Lvl := ℕ) spec2 c (R5 m c)
  hentry c := by
    rw [Pipeline.ownSems0_none]
    have hsplit := Pipeline.arrays_of_unscopedBufs (p := 2) (pcfgs (F := F)) Gen.adm (pdats m) launch2.win launch2.arr_whole c
      ((pdats m 2 c).share_full fun w => q_eq2 (R5 m) c w) (R5 m c) fun w => A_eq2 (R5 m) c w
    rw [show (unscopedBufs (Ix := Unit) (Name := ℕ) (U := UR sig nD τ) (Lvl := ℕ) c (R5 m c) : sProp 𝕄)
      = StableHlo.held (c : Thread nD τ) (Pipeline.ucRefs τ sig) (W5 m c) from Pipeline.unscopedBufs_held c (W5 m c)] at hsplit
    have h0 : ∀ n, (pdats m 2 c).owed n = 0 := fun n => owed_eq2 (R5 m) c n
    have hr : (pdats m 2 c).recorded 0 = Set.univ := recorded_eq2 (R5 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [h0, hr]
      icases HO with ⟨%W, HO⟩; iexists W; isplitr; · ipureintro; exact fun _ _ => Or.inl trivial
      iexact HO
    isplitl [Hp]; · iexact Hp
    iexact Hrest
  hin c := by
    refine BIBase.Entails.trans ?_ (Phi_in2 (R5 m) c)
    iintro ⟨Hp, -, Hr⟩
    isplitl [Hp]; · iexact Hp
    iexact Hr
  hout c := by
    rw [Pipeline.ownSems0_none]
    refine BIBase.Entails.trans (Phi_out2 (R5 m) c) ?_
    iintro ⟨Hp, Hr⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun w => q_eq2 (R5 m) c w)
      (R5 m c) (R6 m c) ((pdats m 2 c).arrAt · cfg2.N) (hF2 m c) (hrest2 m c)
    rw [show (unscopedBufs (Ix := Unit) (Name := ℕ) (U := UR sig nD τ) (Lvl := ℕ) c (R6 m c) : sProp 𝕄)
      = StableHlo.held (c : Thread nD τ) (Pipeline.ucRefs τ sig) (W6 m c) from Pipeline.unscopedBufs_held c (W6 m c)] at hjoin
    have h0 : ∀ n, (pdats m 2 c).owed n = 0 := fun n => owed_eq2 (R5 m) c n
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [h0]
    icases HO with ⟨%W, -, HO⟩; iexists W; iexact HO

theorem reg2_pre (c : Dev nD) : (reg2 m).pre c = iprop(StableHlo.held (c : Thread nD τ) (Pipeline.ucRefs τ sig) (W5 m c) ∗ Rr c) := rfl
theorem reg2_post (c : Dev nD) : (reg2 m).post c = iprop(StableHlo.held (c : Thread nD τ) (Pipeline.ucRefs τ sig) (W6 m c) ∗ Rr c) := rfl

end Cert.Kernel.Hand

end
-- ==== Proof.K.Seg3.lean ====
import proofs.«413302_j72232759984513_1_alg».proof.Proof.Gen.Kernel.Launch
import proofs.«413302_j72232759984513_1_alg».proof.Proof.Gen.Kernel.Skeleton
import proofs.«413302_j72232759984513_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«413302_j72232759984513_1_alg».proof.Proof.Gen.Kernel.Regions
import proofs.«413302_j72232759984513_1_alg».proof.Proof.K.Chain

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Kernel region 3 as a segment of @main

The region is entered from every unscoped buffer at the contents `W7` beside the generator register and the core's
`owes`, and left at `W8`. At entry its windows' arrays are split out of the unscoped buffers; at exit they are put back
at what the pipeline leaves in them. The generator register and the scoped buffers no window stages go into the
pipeline's invariant at the first point and come back at the last. The body owes nothing at the pipeline's cells and
bounds the core's recorded pairs by nothing, and the kernel has no semaphore of its own. -/

variable (m : (ℓ : Loc nD τ sig) → Buf (Elt F) ℓ)

-- applying a library lemma stated over the pinned configuration needs unification to unfold plain definitions in a
-- metavariable's type
set_option backward.isDefEq.respectTransparency.types false in
def reg3 : Pipeline.RegionSeg (pcfgs (F := F)) Gen.adm (pdats m) () defs₀ Variants.none Lz lvz 3 where
  win := launch3.win.to₀
  block_pos := launch3.block_pos
  stage_whole := launch3.stage_whole
  K := PEmpty
  osem k := k.elim
  ho := Pipeline.OwnSemFacts.none _
  hbody c := by
    show Pipeline.BodyObligationLoose (dat3 (R7 m) c) defs₀ Variants.none () Set.univ
    exact (body_obligation3 (R7 m) c).loose
  hwaits := Pipeline.hwaits_of_owed_zero _ _ _ _ Lz lvz 3 fun c n => owed_eq3 (R7 m) c n
  pre c := iprop(StableHlo.held (c : Thread nD τ) (Pipeline.ucRefs τ sig) (W7 m c) ∗ Rr c)
  post c := iprop(StableHlo.held (c : Thread nD τ) (Pipeline.ucRefs τ sig) (W8 m c) ∗ Rr c)
  X c := iprop(∃ r, prngReg c r)
  Y c := iprop(∃ r, prngReg c r)
  Z c := Pipeline.unscopedRest (Ix := Unit) (Name := ℕ) (U := UR sig nD τ) (Lvl := ℕ) spec3 c (R7 m c)
  hentry c := by
    rw [Pipeline.ownSems0_none]
    have hsplit := Pipeline.arrays_of_unscopedBufs (p := 3) (pcfgs (F := F)) Gen.adm (pdats m) launch3.win launch3.arr_whole c
      ((pdats m 3 c).share_full fun w => q_eq3 (R7 m) c w) (R7 m c) fun w => A_eq3 (R7 m) c w
    rw [show (unscopedBufs (Ix := Unit) (Name := ℕ) (U := UR sig nD τ) (Lvl := ℕ) c (R7 m c) : sProp 𝕄)
      = StableHlo.held (c : Thread nD τ) (Pipeline.ucRefs τ sig) (W7 m c) from Pipeline.unscopedBufs_held c (W7 m c)] at hsplit
    have h0 : ∀ n, (pdats m 3 c).owed n = 0 := fun n => owed_eq3 (R7 m) c n
    have hr : (pdats m 3 c).recorded 0 = Set.univ := recorded_eq3 (R7 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [h0, hr]
      icases HO with ⟨%W, HO⟩; iexists W; isplitr; · ipureintro; exact fun _ _ => Or.inl trivial
      iexact HO
    isplitl [Hp]; · iexact Hp
    iexact Hrest
  hin c := by
    refine BIBase.Entails.trans ?_ (Phi_in3 (R7 m) c)
    iintro ⟨Hp, -, Hr⟩
    isplitl [Hp]; · iexact Hp
    iexact Hr
  hout c := by
    rw [Pipeline.ownSems0_none]
    refine BIBase.Entails.trans (Phi_out3 (R7 m) c) ?_
    iintro ⟨Hp, Hr⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun w => q_eq3 (R7 m) c w)
      (R7 m c) (R8 m c) ((pdats m 3 c).arrAt · cfg3.N) (hF3 m c) (hrest3 m c)
    rw [show (unscopedBufs (Ix := Unit) (Name := ℕ) (U := UR sig nD τ) (Lvl := ℕ) c (R8 m c) : sProp 𝕄)
      = StableHlo.held (c : Thread nD τ) (Pipeline.ucRefs τ sig) (W8 m c) from Pipeline.unscopedBufs_held c (W8 m c)] at hjoin
    have h0 : ∀ n, (pdats m 3 c).owed n = 0 := fun n => owed_eq3 (R7 m) c n
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [h0]
    icases HO with ⟨%W, -, HO⟩; iexists W; iexact HO

theorem reg3_pre (c : Dev nD) : (reg3 m).pre c = iprop(StableHlo.held (c : Thread nD τ) (Pipeline.ucRefs τ sig) (W7 m c) ∗ Rr c) := rfl
theorem reg3_post (c : Dev nD) : (reg3 m).post c = iprop(StableHlo.held (c : Thread nD τ) (Pipeline.ucRefs τ sig) (W8 m c) ∗ Rr c) := rfl

end Cert.Kernel.Hand

end
-- ==== Proof.K.Seg4.lean ====
import proofs.«413302_j72232759984513_1_alg».proof.Proof.Gen.Kernel.Launch
import proofs.«413302_j72232759984513_1_alg».proof.Proof.Gen.Kernel.Skeleton
import proofs.«413302_j72232759984513_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«413302_j72232759984513_1_alg».proof.Proof.Gen.Kernel.Regions
import proofs.«413302_j72232759984513_1_alg».proof.Proof.K.Chain

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Kernel region 4 as a segment of @main

The region is entered from every unscoped buffer at the contents `W9` beside the generator register and the core's
`owes`, and left at `W10`. At entry its windows' arrays are split out of the unscoped buffers; at exit they are put back
at what the pipeline leaves in them. The generator register and the scoped buffers no window stages go into the
pipeline's invariant at the first point and come back at the last. The body owes nothing at the pipeline's cells and
bounds the core's recorded pairs by nothing, and the kernel has no semaphore of its own. -/

variable (m : (ℓ : Loc nD τ sig) → Buf (Elt F) ℓ)

-- applying a library lemma stated over the pinned configuration needs unification to unfold plain definitions in a
-- metavariable's type
set_option backward.isDefEq.respectTransparency.types false in
def reg4 : Pipeline.RegionSeg (pcfgs (F := F)) Gen.adm (pdats m) () defs₀ Variants.none Lz lvz 4 where
  win := launch4.win.to₀
  block_pos := launch4.block_pos
  stage_whole := launch4.stage_whole
  K := PEmpty
  osem k := k.elim
  ho := Pipeline.OwnSemFacts.none _
  hbody c := by
    show Pipeline.BodyObligationLoose (dat4 (R9 m) c) defs₀ Variants.none () Set.univ
    exact (body_obligation4 (R9 m) c).loose
  hwaits := Pipeline.hwaits_of_owed_zero _ _ _ _ Lz lvz 4 fun c n => owed_eq4 (R9 m) c n
  pre c := iprop(StableHlo.held (c : Thread nD τ) (Pipeline.ucRefs τ sig) (W9 m c) ∗ Rr c)
  post c := iprop(StableHlo.held (c : Thread nD τ) (Pipeline.ucRefs τ sig) (W10 m c) ∗ Rr c)
  X c := iprop(∃ r, prngReg c r)
  Y c := iprop(∃ r, prngReg c r)
  Z c := Pipeline.unscopedRest (Ix := Unit) (Name := ℕ) (U := UR sig nD τ) (Lvl := ℕ) spec4 c (R9 m c)
  hentry c := by
    rw [Pipeline.ownSems0_none]
    have hsplit := Pipeline.arrays_of_unscopedBufs (p := 4) (pcfgs (F := F)) Gen.adm (pdats m) launch4.win launch4.arr_whole c
      ((pdats m 4 c).share_full fun w => q_eq4 (R9 m) c w) (R9 m c) fun w => A_eq4 (R9 m) c w
    rw [show (unscopedBufs (Ix := Unit) (Name := ℕ) (U := UR sig nD τ) (Lvl := ℕ) c (R9 m c) : sProp 𝕄)
      = StableHlo.held (c : Thread nD τ) (Pipeline.ucRefs τ sig) (W9 m c) from Pipeline.unscopedBufs_held c (W9 m c)] at hsplit
    have h0 : ∀ n, (pdats m 4 c).owed n = 0 := fun n => owed_eq4 (R9 m) c n
    have hr : (pdats m 4 c).recorded 0 = Set.univ := recorded_eq4 (R9 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [h0, hr]
      icases HO with ⟨%W, HO⟩; iexists W; isplitr; · ipureintro; exact fun _ _ => Or.inl trivial
      iexact HO
    isplitl [Hp]; · iexact Hp
    iexact Hrest
  hin c := by
    refine BIBase.Entails.trans ?_ (Phi_in4 (R9 m) c)
    iintro ⟨Hp, -, Hr⟩
    isplitl [Hp]; · iexact Hp
    iexact Hr
  hout c := by
    rw [Pipeline.ownSems0_none]
    refine BIBase.Entails.trans (Phi_out4 (R9 m) c) ?_
    iintro ⟨Hp, Hr⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun w => q_eq4 (R9 m) c w)
      (R9 m c) (R10 m c) ((pdats m 4 c).arrAt · cfg4.N) (hF4 m c) (hrest4 m c)
    rw [show (unscopedBufs (Ix := Unit) (Name := ℕ) (U := UR sig nD τ) (Lvl := ℕ) c (R10 m c) : sProp 𝕄)
      = StableHlo.held (c : Thread nD τ) (Pipeline.ucRefs τ sig) (W10 m c) from Pipeline.unscopedBufs_held c (W10 m c)] at hjoin
    have h0 : ∀ n, (pdats m 4 c).owed n = 0 := fun n => owed_eq4 (R9 m) c n
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [h0]
    icases HO with ⟨%W, -, HO⟩; iexists W; iexact HO

theorem reg4_pre (c : Dev nD) : (reg4 m).pre c = iprop(StableHlo.held (c : Thread nD τ) (Pipeline.ucRefs τ sig) (W9 m c) ∗ Rr c) := rfl
theorem reg4_post (c : Dev nD) : (reg4 m).post c = iprop(StableHlo.held (c : Thread nD τ) (Pipeline.ucRefs τ sig) (W10 m c) ∗ Rr c) := rfl

end Cert.Kernel.Hand

end
-- ==== Proof.K.Seg5.lean ====
import proofs.«413302_j72232759984513_1_alg».proof.Proof.Gen.Kernel.Launch
import proofs.«413302_j72232759984513_1_alg».proof.Proof.Gen.Kernel.Skeleton
import proofs.«413302_j72232759984513_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«413302_j72232759984513_1_alg».proof.Proof.Gen.Kernel.Regions
import proofs.«413302_j72232759984513_1_alg».proof.Proof.K.Chain

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Kernel region 5 as a segment of @main

The region is entered from every unscoped buffer at the contents `W11` beside the generator register and the core's
`owes`, and left at `W12`. At entry its windows' arrays are split out of the unscoped buffers; at exit they are put back
at what the pipeline leaves in them. The generator register and the scoped buffers no window stages go into the
pipeline's invariant at the first point and come back at the last. The body owes nothing at the pipeline's cells and
bounds the core's recorded pairs by nothing, and the kernel has no semaphore of its own. -/

variable (m : (ℓ : Loc nD τ sig) → Buf (Elt F) ℓ)

-- applying a library lemma stated over the pinned configuration needs unification to unfold plain definitions in a
-- metavariable's type
set_option backward.isDefEq.respectTransparency.types false in
def reg5 : Pipeline.RegionSeg (pcfgs (F := F)) Gen.adm (pdats m) () defs₀ Variants.none Lz lvz 5 where
  win := launch5.win.to₀
  block_pos := launch5.block_pos
  stage_whole := launch5.stage_whole
  K := PEmpty
  osem k := k.elim
  ho := Pipeline.OwnSemFacts.none _
  hbody c := by
    show Pipeline.BodyObligationLoose (dat5 (R11 m) c) defs₀ Variants.none () Set.univ
    exact (body_obligation5 (R11 m) c).loose
  hwaits := Pipeline.hwaits_of_owed_zero _ _ _ _ Lz lvz 5 fun c n => owed_eq5 (R11 m) c n
  pre c := iprop(StableHlo.held (c : Thread nD τ) (Pipeline.ucRefs τ sig) (W11 m c) ∗ Rr c)
  post c := iprop(StableHlo.held (c : Thread nD τ) (Pipeline.ucRefs τ sig) (W12 m c) ∗ Rr c)
  X c := iprop(∃ r, prngReg c r)
  Y c := iprop(∃ r, prngReg c r)
  Z c := Pipeline.unscopedRest (Ix := Unit) (Name := ℕ) (U := UR sig nD τ) (Lvl := ℕ) spec5 c (R11 m c)
  hentry c := by
    rw [Pipeline.ownSems0_none]
    have hsplit := Pipeline.arrays_of_unscopedBufs (p := 5) (pcfgs (F := F)) Gen.adm (pdats m) launch5.win launch5.arr_whole c
      ((pdats m 5 c).share_full fun w => q_eq5 (R11 m) c w) (R11 m c) fun w => A_eq5 (R11 m) c w
    rw [show (unscopedBufs (Ix := Unit) (Name := ℕ) (U := UR sig nD τ) (Lvl := ℕ) c (R11 m c) : sProp 𝕄)
      = StableHlo.held (c : Thread nD τ) (Pipeline.ucRefs τ sig) (W11 m c) from Pipeline.unscopedBufs_held c (W11 m c)] at hsplit
    have h0 : ∀ n, (pdats m 5 c).owed n = 0 := fun n => owed_eq5 (R11 m) c n
    have hr : (pdats m 5 c).recorded 0 = Set.univ := recorded_eq5 (R11 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [h0, hr]
      icases HO with ⟨%W, HO⟩; iexists W; isplitr; · ipureintro; exact fun _ _ => Or.inl trivial
      iexact HO
    isplitl [Hp]; · iexact Hp
    iexact Hrest
  hin c := by
    refine BIBase.Entails.trans ?_ (Phi_in5 (R11 m) c)
    iintro ⟨Hp, -, Hr⟩
    isplitl [Hp]; · iexact Hp
    iexact Hr
  hout c := by
    rw [Pipeline.ownSems0_none]
    refine BIBase.Entails.trans (Phi_out5 (R11 m) c) ?_
    iintro ⟨Hp, Hr⟩
    isplitl [Hp]; · iexact Hp
    isplitr; · iempintro
    iexact Hr
  hexit c := by
    have hjoin := Pipeline.unscopedBufs_of_arrays (p := 5) (pcfgs (F := F)) Gen.adm (Ix := Unit) (Name := ℕ) (U := UR sig nD τ) (Lvl := ℕ)
      launch5.win launch5.arr_whole c (pdats m) ((pdats m 5 c).share_full fun w => q_eq5 (R11 m) c w)
      (R11 m c) (R12 m c) ((pdats m 5 c).arrAt · cfg5.N) (hF5 m c) (hrest5 m c)
    rw [show (unscopedBufs (Ix := Unit) (Name := ℕ) (U := UR sig nD τ) (Lvl := ℕ) c (R12 m c) : sProp 𝕄)
      = StableHlo.held (c : Thread nD τ) (Pipeline.ucRefs τ sig) (W12 m c) from Pipeline.unscopedBufs_held c (W12 m c)] at hjoin
    have h0 : ∀ n, (pdats m 5 c).owed n = 0 := fun n => owed_eq5 (R11 m) c n
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [h0]
    icases HO with ⟨%W, -, HO⟩; iexists W; iexact HO

theorem reg5_pre (c : Dev nD) : (reg5 m).pre c = iprop(StableHlo.held (c : Thread nD τ) (Pipeline.ucRefs τ sig) (W11 m c) ∗ Rr c) := rfl
theorem reg5_post (c : Dev nD) : (reg5 m).post c = iprop(StableHlo.held (c : Thread nD τ) (Pipeline.ucRefs τ sig) (W12 m c) ∗ Rr c) := rfl

end Cert.Kernel.Hand

end
-- ==== Proof.K.Seg6.lean ====
import proofs.«413302_j72232759984513_1_alg».proof.Proof.Gen.Kernel.Launch
import proofs.«413302_j72232759984513_1_alg».proof.Proof.Gen.Kernel.Skeleton
import proofs.«413302_j72232759984513_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«413302_j72232759984513_1_alg».proof.Proof.Gen.Kernel.Regions
import proofs.«413302_j72232759984513_1_alg».proof.Proof.K.Chain

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Kernel region 6 as a segment of @main

The region is entered from every unscoped buffer at the contents `W13` beside the generator register and the core's
`owes`, and left at `W14`. At entry its windows' arrays are split out of the unscoped buffers; at exit they are put back
at what the pipeline leaves in them. The generator register and the scoped buffers no window stages go into the
pipeline's invariant at the first point and come back at the last. The body owes nothing at the pipeline's cells and
bounds the core's recorded pairs by nothing, and the kernel has no semaphore of its own. -/

variable (m : (ℓ : Loc nD τ sig) → Buf (Elt F) ℓ)

-- applying a library lemma stated over the pinned configuration needs unification to unfold plain definitions in a
-- metavariable's type
set_option backward.isDefEq.respectTransparency.types false in
def reg6 : Pipeline.RegionSeg (pcfgs (F := F)) Gen.adm (pdats m) () defs₀ Variants.none Lz lvz 6 where
  win := launch6.win.to₀
  block_pos := launch6.block_pos
  stage_whole := launch6.stage_whole
  K := PEmpty
  osem k := k.elim
  ho := Pipeline.OwnSemFacts.none _
  hbody c := by
    show Pipeline.BodyObligationLoose (dat6 (R13 m) c) defs₀ Variants.none () Set.univ
    exact (body_obligation6 (R13 m) c).loose
  hwaits := Pipeline.hwaits_of_owed_zero _ _ _ _ Lz lvz 6 fun c n => owed_eq6 (R13 m) c n
  pre c := iprop(StableHlo.held (c : Thread nD τ) (Pipeline.ucRefs τ sig) (W13 m c) ∗ Rr c)
  post c := iprop(StableHlo.held (c : Thread nD τ) (Pipeline.ucRefs τ sig) (W14 m c) ∗ Rr c)
  X c := iprop(∃ r, prngReg c r)
  Y c := iprop(∃ r, prngReg c r)
  Z c := Pipeline.unscopedRest (Ix := Unit) (Name := ℕ) (U := UR sig nD τ) (Lvl := ℕ) spec6 c (R13 m c)
  hentry c := by
    rw [Pipeline.ownSems0_none]
    have hsplit := Pipeline.arrays_of_unscopedBufs (p := 6) (pcfgs (F := F)) Gen.adm (pdats m) launch6.win launch6.arr_whole c
      ((pdats m 6 c).share_full fun w => q_eq6 (R13 m) c w) (R13 m c) fun w => A_eq6 (R13 m) c w
    rw [show (unscopedBufs (Ix := Unit) (Name := ℕ) (U := UR sig nD τ) (Lvl := ℕ) c (R13 m c) : sProp 𝕄)
      = StableHlo.held (c : Thread nD τ) (Pipeline.ucRefs τ sig) (W13 m c) from Pipeline.unscopedBufs_held c (W13 m c)] at hsplit
    have h0 : ∀ n, (pdats m 6 c).owed n = 0 := fun n => owed_eq6 (R13 m) c n
    have hr : (pdats m 6 c).recorded 0 = Set.univ := recorded_eq6 (R13 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [h0, hr]
      icases HO with ⟨%W, HO⟩; iexists W; isplitr; · ipureintro; exact fun _ _ => Or.inl trivial
      iexact HO
    isplitl [Hp]; · iexact Hp
    iexact Hrest
  hin c := by
    refine BIBase.Entails.trans ?_ (Phi_in6 (R13 m) c)
    iintro ⟨Hp, -, Hr⟩
    isplitl [Hp]; · iexact Hp
    iexact Hr
  hout c := by
    rw [Pipeline.ownSems0_none]
    refine BIBase.Entails.trans (Phi_out6 (R13 m) c) ?_
    iintro ⟨Hp, Hr⟩
    isplitl [Hp]; · iexact Hp
    isplitr; · iempintro
    iexact Hr
  hexit c := by
    have hjoin := Pipeline.unscopedBufs_of_arrays (p := 6) (pcfgs (F := F)) Gen.adm (Ix := Unit) (Name := ℕ) (U := UR sig nD τ) (Lvl := ℕ)
      launch6.win launch6.arr_whole c (pdats m) ((pdats m 6 c).share_full fun w => q_eq6 (R13 m) c w)
      (R13 m c) (R14 m c) ((pdats m 6 c).arrAt · cfg6.N) (hF6 m c) (hrest6 m c)
    rw [show (unscopedBufs (Ix := Unit) (Name := ℕ) (U := UR sig nD τ) (Lvl := ℕ) c (R14 m c) : sProp 𝕄)
      = StableHlo.held (c : Thread nD τ) (Pipeline.ucRefs τ sig) (W14 m c) from Pipeline.unscopedBufs_held c (W14 m c)] at hjoin
    have h0 : ∀ n, (pdats m 6 c).owed n = 0 := fun n => owed_eq6 (R13 m) c n
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [h0]
    icases HO with ⟨%W, -, HO⟩; iexists W; iexact HO

theorem reg6_pre (c : Dev nD) : (reg6 m).pre c = iprop(StableHlo.held (c : Thread nD τ) (Pipeline.ucRefs τ sig) (W13 m c) ∗ Rr c) := rfl
theorem reg6_post (c : Dev nD) : (reg6 m).post c = iprop(StableHlo.held (c : Thread nD τ) (Pipeline.ucRefs τ sig) (W14 m c) ∗ Rr c) := rfl

end Cert.Kernel.Hand

end
-- ==== Proof.K.Seg7.lean ====
import proofs.«413302_j72232759984513_1_alg».proof.Proof.Gen.Kernel.Launch
import proofs.«413302_j72232759984513_1_alg».proof.Proof.Gen.Kernel.Skeleton
import proofs.«413302_j72232759984513_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«413302_j72232759984513_1_alg».proof.Proof.Gen.Kernel.Regions
import proofs.«413302_j72232759984513_1_alg».proof.Proof.K.Chain

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Kernel region 7 as a segment of @main

The region is entered from every unscoped buffer at the contents `W15` beside the generator register and the core's
`owes`, and left at `W16`. At entry its windows' arrays are split out of the unscoped buffers; at exit they are put back
at what the pipeline leaves in them. The generator register and the scoped buffers no window stages go into the
pipeline's invariant at the first point and come back at the last. The body owes nothing at the pipeline's cells and
bounds the core's recorded pairs by nothing, and the kernel has no semaphore of its own. -/

variable (m : (ℓ : Loc nD τ sig) → Buf (Elt F) ℓ)

-- applying a library lemma stated over the pinned configuration needs unification to unfold plain definitions in a
-- metavariable's type
set_option backward.isDefEq.respectTransparency.types false in
def reg7 : Pipeline.RegionSeg (pcfgs (F := F)) Gen.adm (pdats m) () defs₀ Variants.none Lz lvz 7 where
  win := launch7.win.to₀
  block_pos := launch7.block_pos
  stage_whole := launch7.stage_whole
  K := PEmpty
  osem k := k.elim
  ho := Pipeline.OwnSemFacts.none _
  hbody c := by
    show Pipeline.BodyObligationLoose (dat7 (R15 m) c) defs₀ Variants.none () Set.univ
    exact (body_obligation7 (R15 m) c).loose
  hwaits := Pipeline.hwaits_of_owed_zero _ _ _ _ Lz lvz 7 fun c n => owed_eq7 (R15 m) c n
  pre c := iprop(StableHlo.held (c : Thread nD τ) (Pipeline.ucRefs τ sig) (W15 m c) ∗ Rr c)
  post c := iprop(StableHlo.held (c : Thread nD τ) (Pipeline.ucRefs τ sig) (W16 m c) ∗ Rr c)
  X c := iprop(∃ r, prngReg c r)
  Y c := iprop(∃ r, prngReg c r)
  Z c := Pipeline.unscopedRest (Ix := Unit) (Name := ℕ) (U := UR sig nD τ) (Lvl := ℕ) spec7 c (R15 m c)
  hentry c := by
    rw [Pipeline.ownSems0_none]
    have hsplit := Pipeline.arrays_of_unscopedBufs (p := 7) (pcfgs (F := F)) Gen.adm (pdats m) launch7.win launch7.arr_whole c
      ((pdats m 7 c).share_full fun w => q_eq7 (R15 m) c w) (R15 m c) fun w => A_eq7 (R15 m) c w
    rw [show (unscopedBufs (Ix := Unit) (Name := ℕ) (U := UR sig nD τ) (Lvl := ℕ) c (R15 m c) : sProp 𝕄)
      = StableHlo.held (c : Thread nD τ) (Pipeline.ucRefs τ sig) (W15 m c) from Pipeline.unscopedBufs_held c (W15 m c)] at hsplit
    have h0 : ∀ n, (pdats m 7 c).owed n = 0 := fun n => owed_eq7 (R15 m) c n
    have hr : (pdats m 7 c).recorded 0 = Set.univ := recorded_eq7 (R15 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [h0, hr]
      icases HO with ⟨%W, HO⟩; iexists W; isplitr; · ipureintro; exact fun _ _ => Or.inl trivial
      iexact HO
    isplitl [Hp]; · iexact Hp
    iexact Hrest
  hin c := by
    refine BIBase.Entails.trans ?_ (Phi_in7 (R15 m) c)
    iintro ⟨Hp, -, Hr⟩
    isplitl [Hp]; · iexact Hp
    iexact Hr
  hout c := by
    rw [Pipeline.ownSems0_none]
    refine BIBase.Entails.trans (Phi_out7 (R15 m) c) ?_
    iintro ⟨Hp, Hr⟩
    isplitl [Hp]; · iexact Hp
    isplitr; · iempintro
    iexact Hr
  hexit c := by
    have hjoin := Pipeline.unscopedBufs_of_arrays (p := 7) (pcfgs (F := F)) Gen.adm (Ix := Unit) (Name := ℕ) (U := UR sig nD τ) (Lvl := ℕ)
      launch7.win launch7.arr_whole c (pdats m) ((pdats m 7 c).share_full fun w => q_eq7 (R15 m) c w)
      (R15 m c) (R16 m c) ((pdats m 7 c).arrAt · cfg7.N) (hF7 m c) (hrest7 m c)
    rw [show (unscopedBufs (Ix := Unit) (Name := ℕ) (U := UR sig nD τ) (Lvl := ℕ) c (R16 m c) : sProp 𝕄)
      = StableHlo.held (c : Thread nD τ) (Pipeline.ucRefs τ sig) (W16 m c) from Pipeline.unscopedBufs_held c (W16 m c)] at hjoin
    have h0 : ∀ n, (pdats m 7 c).owed n = 0 := fun n => owed_eq7 (R15 m) c n
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [h0]
    icases HO with ⟨%W, -, HO⟩; iexists W; iexact HO

theorem reg7_pre (c : Dev nD) : (reg7 m).pre c = iprop(StableHlo.held (c : Thread nD τ) (Pipeline.ucRefs τ sig) (W15 m c) ∗ Rr c) := rfl
theorem reg7_post (c : Dev nD) : (reg7 m).post c = iprop(StableHlo.held (c : Thread nD τ) (Pipeline.ucRefs τ sig) (W16 m c) ∗ Rr c) := rfl

end Cert.Kernel.Hand

end
-- ==== Proof.K.Seg8.lean ====
import proofs.«413302_j72232759984513_1_alg».proof.Proof.Gen.Kernel.Launch
import proofs.«413302_j72232759984513_1_alg».proof.Proof.Gen.Kernel.Skeleton
import proofs.«413302_j72232759984513_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«413302_j72232759984513_1_alg».proof.Proof.Gen.Kernel.Regions
import proofs.«413302_j72232759984513_1_alg».proof.Proof.K.Chain

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Kernel region 8 as a segment of @main

The region is entered from every unscoped buffer at the contents `W17` beside the generator register and the core's
`owes`, and left at `W18`. At entry its windows' arrays are split out of the unscoped buffers; at exit they are put back
at what the pipeline leaves in them. The generator register and the scoped buffers no window stages go into the
pipeline's invariant at the first point and come back at the last. The body owes nothing at the pipeline's cells and
bounds the core's recorded pairs by nothing, and the kernel has no semaphore of its own. -/

variable (m : (ℓ : Loc nD τ sig) → Buf (Elt F) ℓ)

-- applying a library lemma stated over the pinned configuration needs unification to unfold plain definitions in a
-- metavariable's type
set_option backward.isDefEq.respectTransparency.types false in
def reg8 : Pipeline.RegionSeg (pcfgs (F := F)) Gen.adm (pdats m) () defs₀ Variants.none Lz lvz 8 where
  win := launch8.win.to₀
  block_pos := launch8.block_pos
  stage_whole := launch8.stage_whole
  K := PEmpty
  osem k := k.elim
  ho := Pipeline.OwnSemFacts.none _
  hbody c := by
    show Pipeline.BodyObligationLoose (dat8 (R17 m) c) defs₀ Variants.none () Set.univ
    exact (body_obligation8 (R17 m) c).loose
  hwaits := Pipeline.hwaits_of_owed_zero _ _ _ _ Lz lvz 8 fun c n => owed_eq8 (R17 m) c n
  pre c := iprop(StableHlo.held (c : Thread nD τ) (Pipeline.ucRefs τ sig) (W17 m c) ∗ Rr c)
  post c := iprop(StableHlo.held (c : Thread nD τ) (Pipeline.ucRefs τ sig) (W18 m c) ∗ Rr c)
  X c := iprop(∃ r, prngReg c r)
  Y c := iprop(∃ r, prngReg c r)
  Z c := Pipeline.unscopedRest (Ix := Unit) (Name := ℕ) (U := UR sig nD τ) (Lvl := ℕ) spec8 c (R17 m c)
  hentry c := by
    rw [Pipeline.ownSems0_none]
    have hsplit := Pipeline.arrays_of_unscopedBufs (p := 8) (pcfgs (F := F)) Gen.adm (pdats m) launch8.win launch8.arr_whole c
      ((pdats m 8 c).share_full fun w => q_eq8 (R17 m) c w) (R17 m c) fun w => A_eq8 (R17 m) c w
    rw [show (unscopedBufs (Ix := Unit) (Name := ℕ) (U := UR sig nD τ) (Lvl := ℕ) c (R17 m c) : sProp 𝕄)
      = StableHlo.held (c : Thread nD τ) (Pipeline.ucRefs τ sig) (W17 m c) from Pipeline.unscopedBufs_held c (W17 m c)] at hsplit
    have h0 : ∀ n, (pdats m 8 c).owed n = 0 := fun n => owed_eq8 (R17 m) c n
    have hr : (pdats m 8 c).recorded 0 = Set.univ := recorded_eq8 (R17 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [h0, hr]
      icases HO with ⟨%W, HO⟩; iexists W; isplitr; · ipureintro; exact fun _ _ => Or.inl trivial
      iexact HO
    isplitl [Hp]; · iexact Hp
    iexact Hrest
  hin c := by
    refine BIBase.Entails.trans ?_ (Phi_in8 (R17 m) c)
    iintro ⟨Hp, -, Hr⟩
    isplitl [Hp]; · iexact Hp
    iexact Hr
  hout c := by
    rw [Pipeline.ownSems0_none]
    refine BIBase.Entails.trans (Phi_out8 (R17 m) c) ?_
    iintro ⟨Hp, Hr⟩
    isplitl [Hp]; · iexact Hp
    isplitr; · iempintro
    iexact Hr
  hexit c := by
    have hjoin := Pipeline.unscopedBufs_of_arrays (p := 8) (pcfgs (F := F)) Gen.adm (Ix := Unit) (Name := ℕ) (U := UR sig nD τ) (Lvl := ℕ)
      launch8.win launch8.arr_whole c (pdats m) ((pdats m 8 c).share_full fun w => q_eq8 (R17 m) c w)
      (R17 m c) (R18 m c) ((pdats m 8 c).arrAt · cfg8.N) (hF8 m c) (hrest8 m c)
    rw [show (unscopedBufs (Ix := Unit) (Name := ℕ) (U := UR sig nD τ) (Lvl := ℕ) c (R18 m c) : sProp 𝕄)
      = StableHlo.held (c : Thread nD τ) (Pipeline.ucRefs τ sig) (W18 m c) from Pipeline.unscopedBufs_held c (W18 m c)] at hjoin
    have h0 : ∀ n, (pdats m 8 c).owed n = 0 := fun n => owed_eq8 (R17 m) c n
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [h0]
    icases HO with ⟨%W, -, HO⟩; iexists W; iexact HO

theorem reg8_pre (c : Dev nD) : (reg8 m).pre c = iprop(StableHlo.held (c : Thread nD τ) (Pipeline.ucRefs τ sig) (W17 m c) ∗ Rr c) := rfl
theorem reg8_post (c : Dev nD) : (reg8 m).post c = iprop(StableHlo.held (c : Thread nD τ) (Pipeline.ucRefs τ sig) (W18 m c) ∗ Rr c) := rfl

end Cert.Kernel.Hand

end
-- ==== Proof.K.Seg9.lean ====
import proofs.«413302_j72232759984513_1_alg».proof.Proof.Gen.Kernel.Launch
import proofs.«413302_j72232759984513_1_alg».proof.Proof.Gen.Kernel.Skeleton
import proofs.«413302_j72232759984513_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«413302_j72232759984513_1_alg».proof.Proof.Gen.Kernel.Regions
import proofs.«413302_j72232759984513_1_alg».proof.Proof.K.Chain

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Kernel region 9 as a segment of @main

The region is entered from every unscoped buffer at the contents `W19` beside the generator register and the core's
`owes`, and left at `W20`. At entry its windows' arrays are split out of the unscoped buffers; at exit they are put back
at what the pipeline leaves in them. The generator register and the scoped buffers no window stages go into the
pipeline's invariant at the first point and come back at the last. The body owes nothing at the pipeline's cells and
bounds the core's recorded pairs by nothing, and the kernel has no semaphore of its own. -/

variable (m : (ℓ : Loc nD τ sig) → Buf (Elt F) ℓ)

-- applying a library lemma stated over the pinned configuration needs unification to unfold plain definitions in a
-- metavariable's type
set_option backward.isDefEq.respectTransparency.types false in
def reg9 : Pipeline.RegionSeg (pcfgs (F := F)) Gen.adm (pdats m) () defs₀ Variants.none Lz lvz 9 where
  win := launch9.win.to₀
  block_pos := launch9.block_pos
  stage_whole := launch9.stage_whole
  K := PEmpty
  osem k := k.elim
  ho := Pipeline.OwnSemFacts.none _
  hbody c := by
    show Pipeline.BodyObligationLoose (dat9 (R19 m) c) defs₀ Variants.none () Set.univ
    exact (body_obligation9 (R19 m) c).loose
  hwaits := Pipeline.hwaits_of_owed_zero _ _ _ _ Lz lvz 9 fun c n => owed_eq9 (R19 m) c n
  pre c := iprop(StableHlo.held (c : Thread nD τ) (Pipeline.ucRefs τ sig) (W19 m c) ∗ Rr c)
  post c := iprop(StableHlo.held (c : Thread nD τ) (Pipeline.ucRefs τ sig) (W20 m c) ∗ Rr c)
  X c := iprop(∃ r, prngReg c r)
  Y c := iprop(∃ r, prngReg c r)
  Z c := Pipeline.unscopedRest (Ix := Unit) (Name := ℕ) (U := UR sig nD τ) (Lvl := ℕ) spec9 c (R19 m c)
  hentry c := by
    rw [Pipeline.ownSems0_none]
    have hsplit := Pipeline.arrays_of_unscopedBufs (p := 9) (pcfgs (F := F)) Gen.adm (pdats m) launch9.win launch9.arr_whole c
      ((pdats m 9 c).share_full fun w => q_eq9 (R19 m) c w) (R19 m c) fun w => A_eq9 (R19 m) c w
    rw [show (unscopedBufs (Ix := Unit) (Name := ℕ) (U := UR sig nD τ) (Lvl := ℕ) c (R19 m c) : sProp 𝕄)
      = StableHlo.held (c : Thread nD τ) (Pipeline.ucRefs τ sig) (W19 m c) from Pipeline.unscopedBufs_held c (W19 m c)] at hsplit
    have h0 : ∀ n, (pdats m 9 c).owed n = 0 := fun n => owed_eq9 (R19 m) c n
    have hr : (pdats m 9 c).recorded 0 = Set.univ := recorded_eq9 (R19 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [h0, hr]
      icases HO with ⟨%W, HO⟩; iexists W; isplitr; · ipureintro; exact fun _ _ => Or.inl trivial
      iexact HO
    isplitl [Hp]; · iexact Hp
    iexact Hrest
  hin c := by
    refine BIBase.Entails.trans ?_ (Phi_in9 (R19 m) c)
    iintro ⟨Hp, -, Hr⟩
    isplitl [Hp]; · iexact Hp
    iexact Hr
  hout c := by
    rw [Pipeline.ownSems0_none]
    refine BIBase.Entails.trans (Phi_out9 (R19 m) c) ?_
    iintro ⟨Hp, Hr⟩
    isplitl [Hp]; · iexact Hp
    isplitr; · iempintro
    iexact Hr
  hexit c := by
    have hjoin := Pipeline.unscopedBufs_of_arrays (p := 9) (pcfgs (F := F)) Gen.adm (Ix := Unit) (Name := ℕ) (U := UR sig nD τ) (Lvl := ℕ)
      launch9.win launch9.arr_whole c (pdats m) ((pdats m 9 c).share_full fun w => q_eq9 (R19 m) c w)
      (R19 m c) (R20 m c) ((pdats m 9 c).arrAt · cfg9.N) (hF9 m c) (hrest9 m c)
    rw [show (unscopedBufs (Ix := Unit) (Name := ℕ) (U := UR sig nD τ) (Lvl := ℕ) c (R20 m c) : sProp 𝕄)
      = StableHlo.held (c : Thread nD τ) (Pipeline.ucRefs τ sig) (W20 m c) from Pipeline.unscopedBufs_held c (W20 m c)] at hjoin
    have h0 : ∀ n, (pdats m 9 c).owed n = 0 := fun n => owed_eq9 (R19 m) c n
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [h0]
    icases HO with ⟨%W, -, HO⟩; iexists W; iexact HO

theorem reg9_pre (c : Dev nD) : (reg9 m).pre c = iprop(StableHlo.held (c : Thread nD τ) (Pipeline.ucRefs τ sig) (W19 m c) ∗ Rr c) := rfl
theorem reg9_post (c : Dev nD) : (reg9 m).post c = iprop(StableHlo.held (c : Thread nD τ) (Pipeline.ucRefs τ sig) (W20 m c) ∗ Rr c) := rfl

end Cert.Kernel.Hand

end
-- ==== Proof.K.Seg10.lean ====
import proofs.«413302_j72232759984513_1_alg».proof.Proof.Gen.Kernel.Launch
import proofs.«413302_j72232759984513_1_alg».proof.Proof.Gen.Kernel.Skeleton
import proofs.«413302_j72232759984513_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«413302_j72232759984513_1_alg».proof.Proof.Gen.Kernel.Regions
import proofs.«413302_j72232759984513_1_alg».proof.Proof.K.Chain

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Kernel region 10 as a segment of @main

The region is entered from every unscoped buffer at the contents `W21` beside the generator register and the core's
`owes`, and left at `W22`. At entry its windows' arrays are split out of the unscoped buffers; at exit they are put back
at what the pipeline leaves in them. The generator register and the scoped buffers no window stages go into the
pipeline's invariant at the first point and come back at the last. The body owes nothing at the pipeline's cells and
bounds the core's recorded pairs by nothing, and the kernel has no semaphore of its own. -/

variable (m : (ℓ : Loc nD τ sig) → Buf (Elt F) ℓ)

-- applying a library lemma stated over the pinned configuration needs unification to unfold plain definitions in a
-- metavariable's type
set_option backward.isDefEq.respectTransparency.types false in
def reg10 : Pipeline.RegionSeg (pcfgs (F := F)) Gen.adm (pdats m) () defs₀ Variants.none Lz lvz 10 where
  win := launch10.win.to₀
  block_pos := launch10.block_pos
  stage_whole := launch10.stage_whole
  K := PEmpty
  osem k := k.elim
  ho := Pipeline.OwnSemFacts.none _
  hbody c := by
    show Pipeline.BodyObligationLoose (dat10 (R21 m) c) defs₀ Variants.none () Set.univ
    exact (body_obligation10 (R21 m) c).loose
  hwaits := Pipeline.hwaits_of_owed_zero _ _ _ _ Lz lvz 10 fun c n => owed_eq10 (R21 m) c n
  pre c := iprop(StableHlo.held (c : Thread nD τ) (Pipeline.ucRefs τ sig) (W21 m c) ∗ Rr c)
  post c := iprop(StableHlo.held (c : Thread nD τ) (Pipeline.ucRefs τ sig) (W22 m c) ∗ Rr c)
  X c := iprop(∃ r, prngReg c r)
  Y c := iprop(∃ r, prngReg c r)
  Z c := Pipeline.unscopedRest (Ix := Unit) (Name := ℕ) (U := UR sig nD τ) (Lvl := ℕ) spec10 c (R21 m c)
  hentry c := by
    rw [Pipeline.ownSems0_none]
    have hsplit := Pipeline.arrays_of_unscopedBufs (p := 10) (pcfgs (F := F)) Gen.adm (pdats m) launch10.win launch10.arr_whole c
      ((pdats m 10 c).share_full fun w => q_eq10 (R21 m) c w) (R21 m c) fun w => A_eq10 (R21 m) c w
    rw [show (unscopedBufs (Ix := Unit) (Name := ℕ) (U := UR sig nD τ) (Lvl := ℕ) c (R21 m c) : sProp 𝕄)
      = StableHlo.held (c : Thread nD τ) (Pipeline.ucRefs τ sig) (W21 m c) from Pipeline.unscopedBufs_held c (W21 m c)] at hsplit
    have h0 : ∀ n, (pdats m 10 c).owed n = 0 := fun n => owed_eq10 (R21 m) c n
    have hr : (pdats m 10 c).recorded 0 = Set.univ := recorded_eq10 (R21 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [h0, hr]
      icases HO with ⟨%W, HO⟩; iexists W; isplitr; · ipureintro; exact fun _ _ => Or.inl trivial
      iexact HO
    isplitl [Hp]; · iexact Hp
    iexact Hrest
  hin c := by
    refine BIBase.Entails.trans ?_ (Phi_in10 (R21 m) c)
    iintro ⟨Hp, -, Hr⟩
    isplitl [Hp]; · iexact Hp
    iexact Hr
  hout c := by
    rw [Pipeline.ownSems0_none]
    refine BIBase.Entails.trans (Phi_out10 (R21 m) c) ?_
    iintro ⟨Hp, Hr⟩
    isplitl [Hp]; · iexact Hp
    isplitr; · iempintro
    iexact Hr
  hexit c := by
    have hjoin := Pipeline.unscopedBufs_of_arrays (p := 10) (pcfgs (F := F)) Gen.adm (Ix := Unit) (Name := ℕ) (U := UR sig nD τ) (Lvl := ℕ)
      launch10.win launch10.arr_whole c (pdats m) ((pdats m 10 c).share_full fun w => q_eq10 (R21 m) c w)
      (R21 m c) (R22 m c) ((pdats m 10 c).arrAt · cfg10.N) (hF10 m c) (hrest10 m c)
    rw [show (unscopedBufs (Ix := Unit) (Name := ℕ) (U := UR sig nD τ) (Lvl := ℕ) c (R22 m c) : sProp 𝕄)
      = StableHlo.held (c : Thread nD τ) (Pipeline.ucRefs τ sig) (W22 m c) from Pipeline.unscopedBufs_held c (W22 m c)] at hjoin
    have h0 : ∀ n, (pdats m 10 c).owed n = 0 := fun n => owed_eq10 (R21 m) c n
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [h0]
    icases HO with ⟨%W, -, HO⟩; iexists W; iexact HO

theorem reg10_pre (c : Dev nD) : (reg10 m).pre c = iprop(StableHlo.held (c : Thread nD τ) (Pipeline.ucRefs τ sig) (W21 m c) ∗ Rr c) := rfl
theorem reg10_post (c : Dev nD) : (reg10 m).post c = iprop(StableHlo.held (c : Thread nD τ) (Pipeline.ucRefs τ sig) (W22 m c) ∗ Rr c) := rfl

end Cert.Kernel.Hand

end
-- ==== Proof.K.Seg11.lean ====
import proofs.«413302_j72232759984513_1_alg».proof.Proof.Gen.Kernel.Launch
import proofs.«413302_j72232759984513_1_alg».proof.Proof.Gen.Kernel.Skeleton
import proofs.«413302_j72232759984513_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«413302_j72232759984513_1_alg».proof.Proof.Gen.Kernel.Regions
import proofs.«413302_j72232759984513_1_alg».proof.Proof.K.Chain

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Kernel region 11 as a segment of @main

The region is entered from every unscoped buffer at the contents `W23` beside the generator register and the core's
`owes`, and left at `W24`. At entry its windows' arrays are split out of the unscoped buffers; at exit they are put back
at what the pipeline leaves in them. The generator register and the scoped buffers no window stages go into the
pipeline's invariant at the first point and come back at the last. The body owes nothing at the pipeline's cells and
bounds the core's recorded pairs by nothing, and the kernel has no semaphore of its own. -/

variable (m : (ℓ : Loc nD τ sig) → Buf (Elt F) ℓ)

-- applying a library lemma stated over the pinned configuration needs unification to unfold plain definitions in a
-- metavariable's type
set_option backward.isDefEq.respectTransparency.types false in
def reg11 : Pipeline.RegionSeg (pcfgs (F := F)) Gen.adm (pdats m) () defs₀ Variants.none Lz lvz 11 where
  win := launch11.win.to₀
  block_pos := launch11.block_pos
  stage_whole := launch11.stage_whole
  K := PEmpty
  osem k := k.elim
  ho := Pipeline.OwnSemFacts.none _
  hbody c := by
    show Pipeline.BodyObligationLoose (dat11 (R23 m) c) defs₀ Variants.none () Set.univ
    exact (body_obligation11 (R23 m) c).loose
  hwaits := Pipeline.hwaits_of_owed_zero _ _ _ _ Lz lvz 11 fun c n => owed_eq11 (R23 m) c n
  pre c := iprop(StableHlo.held (c : Thread nD τ) (Pipeline.ucRefs τ sig) (W23 m c) ∗ Rr c)
  post c := iprop(StableHlo.held (c : Thread nD τ) (Pipeline.ucRefs τ sig) (W24 m c) ∗ Rr c)
  X c := iprop(∃ r, prngReg c r)
  Y c := iprop(∃ r, prngReg c r)
  Z c := Pipeline.unscopedRest (Ix := Unit) (Name := ℕ) (U := UR sig nD τ) (Lvl := ℕ) spec11 c (R23 m c)
  hentry c := by
    rw [Pipeline.ownSems0_none]
    have hsplit := Pipeline.arrays_of_unscopedBufs (p := 11) (pcfgs (F := F)) Gen.adm (pdats m) launch11.win launch11.arr_whole c
      ((pdats m 11 c).share_full fun w => q_eq11 (R23 m) c w) (R23 m c) fun w => A_eq11 (R23 m) c w
    rw [show (unscopedBufs (Ix := Unit) (Name := ℕ) (U := UR sig nD τ) (Lvl := ℕ) c (R23 m c) : sProp 𝕄)
      = StableHlo.held (c : Thread nD τ) (Pipeline.ucRefs τ sig) (W23 m c) from Pipeline.unscopedBufs_held c (W23 m c)] at hsplit
    have h0 : ∀ n, (pdats m 11 c).owed n = 0 := fun n => owed_eq11 (R23 m) c n
    have hr : (pdats m 11 c).recorded 0 = Set.univ := recorded_eq11 (R23 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [h0, hr]
      icases HO with ⟨%W, HO⟩; iexists W; isplitr; · ipureintro; exact fun _ _ => Or.inl trivial
      iexact HO
    isplitl [Hp]; · iexact Hp
    iexact Hrest
  hin c := by
    refine BIBase.Entails.trans ?_ (Phi_in11 (R23 m) c)
    iintro ⟨Hp, -, Hr⟩
    isplitl [Hp]; · iexact Hp
    iexact Hr
  hout c := by
    rw [Pipeline.ownSems0_none]
    refine BIBase.Entails.trans (Phi_out11 (R23 m) c) ?_
    iintro ⟨Hp, Hr⟩
    isplitl [Hp]; · iexact Hp
    isplitr; · iempintro
    iexact Hr
  hexit c := by
    have hjoin := Pipeline.unscopedBufs_of_arrays (p := 11) (pcfgs (F := F)) Gen.adm (Ix := Unit) (Name := ℕ) (U := UR sig nD τ) (Lvl := ℕ)
      launch11.win launch11.arr_whole c (pdats m) ((pdats m 11 c).share_full fun w => q_eq11 (R23 m) c w)
      (R23 m c) (R24 m c) ((pdats m 11 c).arrAt · cfg11.N) (hF11 m c) (hrest11 m c)
    rw [show (unscopedBufs (Ix := Unit) (Name := ℕ) (U := UR sig nD τ) (Lvl := ℕ) c (R24 m c) : sProp 𝕄)
      = StableHlo.held (c : Thread nD τ) (Pipeline.ucRefs τ sig) (W24 m c) from Pipeline.unscopedBufs_held c (W24 m c)] at hjoin
    have h0 : ∀ n, (pdats m 11 c).owed n = 0 := fun n => owed_eq11 (R23 m) c n
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [h0]
    icases HO with ⟨%W, -, HO⟩; iexists W; iexact HO

theorem reg11_pre (c : Dev nD) : (reg11 m).pre c = iprop(StableHlo.held (c : Thread nD τ) (Pipeline.ucRefs τ sig) (W23 m c) ∗ Rr c) := rfl
theorem reg11_post (c : Dev nD) : (reg11 m).post c = iprop(StableHlo.held (c : Thread nD τ) (Pipeline.ucRefs τ sig) (W24 m c) ∗ Rr c) := rfl

end Cert.Kernel.Hand

end
-- ==== Proof.K.Seg12.lean ====
import proofs.«413302_j72232759984513_1_alg».proof.Proof.Gen.Kernel.Launch
import proofs.«413302_j72232759984513_1_alg».proof.Proof.Gen.Kernel.Skeleton
import proofs.«413302_j72232759984513_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«413302_j72232759984513_1_alg».proof.Proof.Gen.Kernel.Regions
import proofs.«413302_j72232759984513_1_alg».proof.Proof.K.Chain

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Kernel region 12 as a segment of @main

The region is entered from every unscoped buffer at the contents `W25` beside the generator register and the core's
`owes`, and left at `W26`. At entry its windows' arrays are split out of the unscoped buffers; at exit they are put back
at what the pipeline leaves in them. The generator register and the scoped buffers no window stages go into the
pipeline's invariant at the first point and come back at the last. The body owes nothing at the pipeline's cells and
bounds the core's recorded pairs by nothing, and the kernel has no semaphore of its own. -/

variable (m : (ℓ : Loc nD τ sig) → Buf (Elt F) ℓ)

-- applying a library lemma stated over the pinned configuration needs unification to unfold plain definitions in a
-- metavariable's type
set_option backward.isDefEq.respectTransparency.types false in
def reg12 : Pipeline.RegionSeg (pcfgs (F := F)) Gen.adm (pdats m) () defs₀ Variants.none Lz lvz 12 where
  win := launch12.win.to₀
  block_pos := launch12.block_pos
  stage_whole := launch12.stage_whole
  K := PEmpty
  osem k := k.elim
  ho := Pipeline.OwnSemFacts.none _
  hbody c := by
    show Pipeline.BodyObligationLoose (dat12 (R25 m) c) defs₀ Variants.none () Set.univ
    exact (body_obligation12 (R25 m) c).loose
  hwaits := Pipeline.hwaits_of_owed_zero _ _ _ _ Lz lvz 12 fun c n => owed_eq12 (R25 m) c n
  pre c := iprop(StableHlo.held (c : Thread nD τ) (Pipeline.ucRefs τ sig) (W25 m c) ∗ Rr c)
  post c := iprop(StableHlo.held (c : Thread nD τ) (Pipeline.ucRefs τ sig) (W26 m c) ∗ Rr c)
  X c := iprop(∃ r, prngReg c r)
  Y c := iprop(∃ r, prngReg c r)
  Z c := Pipeline.unscopedRest (Ix := Unit) (Name := ℕ) (U := UR sig nD τ) (Lvl := ℕ) spec12 c (R25 m c)
  hentry c := by
    rw [Pipeline.ownSems0_none]
    have hsplit := Pipeline.arrays_of_unscopedBufs (p := 12) (pcfgs (F := F)) Gen.adm (pdats m) launch12.win launch12.arr_whole c
      ((pdats m 12 c).share_full fun w => q_eq12 (R25 m) c w) (R25 m c) fun w => A_eq12 (R25 m) c w
    rw [show (unscopedBufs (Ix := Unit) (Name := ℕ) (U := UR sig nD τ) (Lvl := ℕ) c (R25 m c) : sProp 𝕄)
      = StableHlo.held (c : Thread nD τ) (Pipeline.ucRefs τ sig) (W25 m c) from Pipeline.unscopedBufs_held c (W25 m c)] at hsplit
    have h0 : ∀ n, (pdats m 12 c).owed n = 0 := fun n => owed_eq12 (R25 m) c n
    have hr : (pdats m 12 c).recorded 0 = Set.univ := recorded_eq12 (R25 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [h0, hr]
      icases HO with ⟨%W, HO⟩; iexists W; isplitr; · ipureintro; exact fun _ _ => Or.inl trivial
      iexact HO
    isplitl [Hp]; · iexact Hp
    iexact Hrest
  hin c := by
    refine BIBase.Entails.trans ?_ (Phi_in12 (R25 m) c)
    iintro ⟨Hp, -, Hr⟩
    isplitl [Hp]; · iexact Hp
    iexact Hr
  hout c := by
    rw [Pipeline.ownSems0_none]
    refine BIBase.Entails.trans (Phi_out12 (R25 m) c) ?_
    iintro ⟨Hp, Hr⟩
    isplitl [Hp]; · iexact Hp
    isplitr; · iempintro
    iexact Hr
  hexit c := by
    have hjoin := Pipeline.unscopedBufs_of_arrays (p := 12) (pcfgs (F := F)) Gen.adm (Ix := Unit) (Name := ℕ) (U := UR sig nD τ) (Lvl := ℕ)
      launch12.win launch12.arr_whole c (pdats m) ((pdats m 12 c).share_full fun w => q_eq12 (R25 m) c w)
      (R25 m c) (R26 m c) ((pdats m 12 c).arrAt · cfg12.N) (hF12 m c) (hrest12 m c)
    rw [show (unscopedBufs (Ix := Unit) (Name := ℕ) (U := UR sig nD τ) (Lvl := ℕ) c (R26 m c) : sProp 𝕄)
      = StableHlo.held (c : Thread nD τ) (Pipeline.ucRefs τ sig) (W26 m c) from Pipeline.unscopedBufs_held c (W26 m c)] at hjoin
    have h0 : ∀ n, (pdats m 12 c).owed n = 0 := fun n => owed_eq12 (R25 m) c n
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [h0]
    icases HO with ⟨%W, -, HO⟩; iexists W; iexact HO

theorem reg12_pre (c : Dev nD) : (reg12 m).pre c = iprop(StableHlo.held (c : Thread nD τ) (Pipeline.ucRefs τ sig) (W25 m c) ∗ Rr c) := rfl
theorem reg12_post (c : Dev nD) : (reg12 m).post c = iprop(StableHlo.held (c : Thread nD τ) (Pipeline.ucRefs τ sig) (W26 m c) ∗ Rr c) := rfl

end Cert.Kernel.Hand

end
-- ==== Proof.K.Seg13.lean ====
import proofs.«413302_j72232759984513_1_alg».proof.Proof.Gen.Kernel.Launch
import proofs.«413302_j72232759984513_1_alg».proof.Proof.Gen.Kernel.Skeleton
import proofs.«413302_j72232759984513_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«413302_j72232759984513_1_alg».proof.Proof.Gen.Kernel.Regions
import proofs.«413302_j72232759984513_1_alg».proof.Proof.K.Chain

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Kernel region 13 as a segment of @main

The region is entered from every unscoped buffer at the contents `W27` beside the generator register and the core's
`owes`, and left at `W28`. At entry its windows' arrays are split out of the unscoped buffers; at exit they are put back
at what the pipeline leaves in them. The generator register and the scoped buffers no window stages go into the
pipeline's invariant at the first point and come back at the last. The body owes nothing at the pipeline's cells and
bounds the core's recorded pairs by nothing, and the kernel has no semaphore of its own. -/

variable (m : (ℓ : Loc nD τ sig) → Buf (Elt F) ℓ)

-- applying a library lemma stated over the pinned configuration needs unification to unfold plain definitions in a
-- metavariable's type
set_option backward.isDefEq.respectTransparency.types false in
def reg13 : Pipeline.RegionSeg (pcfgs (F := F)) Gen.adm (pdats m) () defs₀ Variants.none Lz lvz 13 where
  win := launch13.win.to₀
  block_pos := launch13.block_pos
  stage_whole := launch13.stage_whole
  K := PEmpty
  osem k := k.elim
  ho := Pipeline.OwnSemFacts.none _
  hbody c := by
    show Pipeline.BodyObligationLoose (dat13 (R27 m) c) defs₀ Variants.none () Set.univ
    exact (body_obligation13 (R27 m) c).loose
  hwaits := Pipeline.hwaits_of_owed_zero _ _ _ _ Lz lvz 13 fun c n => owed_eq13 (R27 m) c n
  pre c := iprop(StableHlo.held (c : Thread nD τ) (Pipeline.ucRefs τ sig) (W27 m c) ∗ Rr c)
  post c := iprop(StableHlo.held (c : Thread nD τ) (Pipeline.ucRefs τ sig) (W28 m c) ∗ Rr c)
  X c := iprop(∃ r, prngReg c r)
  Y c := iprop(∃ r, prngReg c r)
  Z c := Pipeline.unscopedRest (Ix := Unit) (Name := ℕ) (U := UR sig nD τ) (Lvl := ℕ) spec13 c (R27 m c)
  hentry c := by
    rw [Pipeline.ownSems0_none]
    have hsplit := Pipeline.arrays_of_unscopedBufs (p := 13) (pcfgs (F := F)) Gen.adm (pdats m) launch13.win launch13.arr_whole c
      ((pdats m 13 c).share_full fun w => q_eq13 (R27 m) c w) (R27 m c) fun w => A_eq13 (R27 m) c w
    rw [show (unscopedBufs (Ix := Unit) (Name := ℕ) (U := UR sig nD τ) (Lvl := ℕ) c (R27 m c) : sProp 𝕄)
      = StableHlo.held (c : Thread nD τ) (Pipeline.ucRefs τ sig) (W27 m c) from Pipeline.unscopedBufs_held c (W27 m c)] at hsplit
    have h0 : ∀ n, (pdats m 13 c).owed n = 0 := fun n => owed_eq13 (R27 m) c n
    have hr : (pdats m 13 c).recorded 0 = Set.univ := recorded_eq13 (R27 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [h0, hr]
      icases HO with ⟨%W, HO⟩; iexists W; isplitr; · ipureintro; exact fun _ _ => Or.inl trivial
      iexact HO
    isplitl [Hp]; · iexact Hp
    iexact Hrest
  hin c := by
    refine BIBase.Entails.trans ?_ (Phi_in13 (R27 m) c)
    iintro ⟨Hp, -, Hr⟩
    isplitl [Hp]; · iexact Hp
    iexact Hr
  hout c := by
    rw [Pipeline.ownSems0_none]
    refine BIBase.Entails.trans (Phi_out13 (R27 m) c) ?_
    iintro ⟨Hp, Hr⟩
    isplitl [Hp]; · iexact Hp
    isplitr; · iempintro
    iexact Hr
  hexit c := by
    have hjoin := Pipeline.unscopedBufs_of_arrays (p := 13) (pcfgs (F := F)) Gen.adm (Ix := Unit) (Name := ℕ) (U := UR sig nD τ) (Lvl := ℕ)
      launch13.win launch13.arr_whole c (pdats m) ((pdats m 13 c).share_full fun w => q_eq13 (R27 m) c w)
      (R27 m c) (R28 m c) ((pdats m 13 c).arrAt · cfg13.N) (hF13 m c) (hrest13 m c)
    rw [show (unscopedBufs (Ix := Unit) (Name := ℕ) (U := UR sig nD τ) (Lvl := ℕ) c (R28 m c) : sProp 𝕄)
      = StableHlo.held (c : Thread nD τ) (Pipeline.ucRefs τ sig) (W28 m c) from Pipeline.unscopedBufs_held c (W28 m c)] at hjoin
    have h0 : ∀ n, (pdats m 13 c).owed n = 0 := fun n => owed_eq13 (R27 m) c n
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [h0]
    icases HO with ⟨%W, -, HO⟩; iexists W; iexact HO

theorem reg13_pre (c : Dev nD) : (reg13 m).pre c = iprop(StableHlo.held (c : Thread nD τ) (Pipeline.ucRefs τ sig) (W27 m c) ∗ Rr c) := rfl
theorem reg13_post (c : Dev nD) : (reg13 m).post c = iprop(StableHlo.held (c : Thread nD τ) (Pipeline.ucRefs τ sig) (W28 m c) ∗ Rr c) := rfl

end Cert.Kernel.Hand

end
-- ==== Proof.K.Seg14.lean ====
import proofs.«413302_j72232759984513_1_alg».proof.Proof.Gen.Kernel.Launch
import proofs.«413302_j72232759984513_1_alg».proof.Proof.Gen.Kernel.Skeleton
import proofs.«413302_j72232759984513_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«413302_j72232759984513_1_alg».proof.Proof.Gen.Kernel.Regions
import proofs.«413302_j72232759984513_1_alg».proof.Proof.K.Chain

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Kernel region 14 as a segment of @main

The region is entered from every unscoped buffer at the contents `W29` beside the generator register and the core's
`owes`, and left at `W30`. At entry its windows' arrays are split out of the unscoped buffers; at exit they are put back
at what the pipeline leaves in them. The generator register and the scoped buffers no window stages go into the
pipeline's invariant at the first point and come back at the last. The body owes nothing at the pipeline's cells and
bounds the core's recorded pairs by nothing, and the kernel has no semaphore of its own. -/

variable (m : (ℓ : Loc nD τ sig) → Buf (Elt F) ℓ)

-- applying a library lemma stated over the pinned configuration needs unification to unfold plain definitions in a
-- metavariable's type
set_option backward.isDefEq.respectTransparency.types false in
def reg14 : Pipeline.RegionSeg (pcfgs (F := F)) Gen.adm (pdats m) () defs₀ Variants.none Lz lvz 14 where
  win := launch14.win.to₀
  block_pos := launch14.block_pos
  stage_whole := launch14.stage_whole
  K := PEmpty
  osem k := k.elim
  ho := Pipeline.OwnSemFacts.none _
  hbody c := by
    show Pipeline.BodyObligationLoose (dat14 (R29 m) c) defs₀ Variants.none () Set.univ
    exact (body_obligation14 (R29 m) c).loose
  hwaits := Pipeline.hwaits_of_owed_zero _ _ _ _ Lz lvz 14 fun c n => owed_eq14 (R29 m) c n
  pre c := iprop(StableHlo.held (c : Thread nD τ) (Pipeline.ucRefs τ sig) (W29 m c) ∗ Rr c)
  post c := iprop(StableHlo.held (c : Thread nD τ) (Pipeline.ucRefs τ sig) (W30 m c) ∗ Rr c)
  X c := iprop(∃ r, prngReg c r)
  Y c := iprop(∃ r, prngReg c r)
  Z c := Pipeline.unscopedRest (Ix := Unit) (Name := ℕ) (U := UR sig nD τ) (Lvl := ℕ) spec14 c (R29 m c)
  hentry c := by
    rw [Pipeline.ownSems0_none]
    have hsplit := Pipeline.arrays_of_unscopedBufs (p := 14) (pcfgs (F := F)) Gen.adm (pdats m) launch14.win launch14.arr_whole c
      ((pdats m 14 c).share_full fun w => q_eq14 (R29 m) c w) (R29 m c) fun w => A_eq14 (R29 m) c w
    rw [show (unscopedBufs (Ix := Unit) (Name := ℕ) (U := UR sig nD τ) (Lvl := ℕ) c (R29 m c) : sProp 𝕄)
      = StableHlo.held (c : Thread nD τ) (Pipeline.ucRefs τ sig) (W29 m c) from Pipeline.unscopedBufs_held c (W29 m c)] at hsplit
    have h0 : ∀ n, (pdats m 14 c).owed n = 0 := fun n => owed_eq14 (R29 m) c n
    have hr : (pdats m 14 c).recorded 0 = Set.univ := recorded_eq14 (R29 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [h0, hr]
      icases HO with ⟨%W, HO⟩; iexists W; isplitr; · ipureintro; exact fun _ _ => Or.inl trivial
      iexact HO
    isplitl [Hp]; · iexact Hp
    iexact Hrest
  hin c := by
    refine BIBase.Entails.trans ?_ (Phi_in14 (R29 m) c)
    iintro ⟨Hp, -, Hr⟩
    isplitl [Hp]; · iexact Hp
    iexact Hr
  hout c := by
    rw [Pipeline.ownSems0_none]
    refine BIBase.Entails.trans (Phi_out14 (R29 m) c) ?_
    iintro ⟨Hp, Hr⟩
    isplitl [Hp]; · iexact Hp
    isplitr; · iempintro
    iexact Hr
  hexit c := by
    have hjoin := Pipeline.unscopedBufs_of_arrays (p := 14) (pcfgs (F := F)) Gen.adm (Ix := Unit) (Name := ℕ) (U := UR sig nD τ) (Lvl := ℕ)
      launch14.win launch14.arr_whole c (pdats m) ((pdats m 14 c).share_full fun w => q_eq14 (R29 m) c w)
      (R29 m c) (R30 m c) ((pdats m 14 c).arrAt · cfg14.N) (hF14 m c) (hrest14 m c)
    rw [show (unscopedBufs (Ix := Unit) (Name := ℕ) (U := UR sig nD τ) (Lvl := ℕ) c (R30 m c) : sProp 𝕄)
      = StableHlo.held (c : Thread nD τ) (Pipeline.ucRefs τ sig) (W30 m c) from Pipeline.unscopedBufs_held c (W30 m c)] at hjoin
    have h0 : ∀ n, (pdats m 14 c).owed n = 0 := fun n => owed_eq14 (R29 m) c n
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [h0]
    icases HO with ⟨%W, -, HO⟩; iexists W; iexact HO

theorem reg14_pre (c : Dev nD) : (reg14 m).pre c = iprop(StableHlo.held (c : Thread nD τ) (Pipeline.ucRefs τ sig) (W29 m c) ∗ Rr c) := rfl
theorem reg14_post (c : Dev nD) : (reg14 m).post c = iprop(StableHlo.held (c : Thread nD τ) (Pipeline.ucRefs τ sig) (W30 m c) ∗ Rr c) := rfl

end Cert.Kernel.Hand

end
-- ==== Proof.K.Run.lean ====
import proofs.«413302_j72232759984513_1_alg».proof.Proof.K.RunCond
import proofs.«413302_j72232759984513_1_alg».proof.Proof.K.Chain
import proofs.«413302_j72232759984513_1_alg».proof.Proof.K.Seg0
import proofs.«413302_j72232759984513_1_alg».proof.Proof.K.Seg1
import proofs.«413302_j72232759984513_1_alg».proof.Proof.K.Seg2
import proofs.«413302_j72232759984513_1_alg».proof.Proof.K.Seg3
import proofs.«413302_j72232759984513_1_alg».proof.Proof.K.Seg4
import proofs.«413302_j72232759984513_1_alg».proof.Proof.K.Seg5
import proofs.«413302_j72232759984513_1_alg».proof.Proof.K.Seg6
import proofs.«413302_j72232759984513_1_alg».proof.Proof.K.Seg7
import proofs.«413302_j72232759984513_1_alg».proof.Proof.K.Seg8
import proofs.«413302_j72232759984513_1_alg».proof.Proof.K.Seg9
import proofs.«413302_j72232759984513_1_alg».proof.Proof.K.Seg10
import proofs.«413302_j72232759984513_1_alg».proof.Proof.K.Seg11
import proofs.«413302_j72232759984513_1_alg».proof.Proof.K.Seg12
import proofs.«413302_j72232759984513_1_alg».proof.Proof.K.Seg13
import proofs.«413302_j72232759984513_1_alg».proof.Proof.K.Seg14

-- deciding which references are unscoped recurses past the default depth
set_option maxRecDepth 1952

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run: every unscoped buffer at the end of the chain -/

/-- The launch element is the pipelines' own: owning it is owning the staging cells' initial state, and no ghost
    resource rides beside it. -/
theorem launch_own : (ownU (initOf (Pipeline.cells cfgs cellOf_inj) (Pipeline.launchToks cfgs cellOf_inj)) : sProp 𝕄)
    ⊢ |={Set.univ}=> iprop(BI.own ((emb₁ : Emb (UR sig nD τ) 𝕄) (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own ((emb₁ : Emb (UR sig nD τ) 𝕄) (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- From what the launch deals a core besides its buffers — its unscoped semaphores at zero, owing nothing, no credit, its
    generator register — the rest that rides through every segment: the register at some state, and owing nothing. -/
theorem launch_rest : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts Lz lvz)
    ⊢ (|={Set.univ}=> bigSep Finset.univ (fun c : Dev nD => Rr (F := F) c) : sProp 𝕄) := by
  refine Pipeline.initEach Lz lvz fun c => ?_
  iintro ⟨⟨-, HO, -, Hp, -⟩, -⟩
  imodintro
  isplitl [Hp]; · iexists _; iexact Hp
  iexists ∅; iexact HO

/-- Every weakly fair execution of the program from memory `m` with zero counters terminates, and in every final memory
    each unscoped buffer `b` of core `c` holds `W30 m c b`: the chain's last contents. The conditional run at the regions'
    records, each entered from the contents before it and left at the contents after it (equal to the chain's valuations
    by `V_eqJ`), with nothing owed at launch and no levels. -/
theorem run_all : θ_run defs (onTc (τ := τ) (main (F := F))) ⟨m, fun _ => 0, ρ⟩ (fun r => ∀ c : Dev nD, ∀ b ∈ Pipeline.ucRefs τ sig,
      r.2.mem (((c : Thread nD τ)).1, b) = W30 m c b) :=
  (θ_run defs _ _).mono (fun _ h c b hb => (h c b hb).trans (congrFun (V_eq30 m c) b))
    (run_cond m (Ix := Unit) (U := UR sig nD τ) (Lvl := ℕ) emb₁ () Variants.none Lz lvz (fun _ _ => rfl) ρ (outs m) (pdats m)
      (0 : Dev nD → CellTallies nD τ sig Unit) (fun _ => (BI.emp : sProp 𝕄)) (initOf (Pipeline.cells cfgs cellOf_inj) (Pipeline.launchToks cfgs cellOf_inj))
      (launch_own (F := F)) (fun _ c => Rr c) (launch_rest ρ)
      (fun c => by iintro ⟨-, HO⟩; iexact HO)
      (reg0 m) (fun c => by rw [reg0_pre m c, V_eq1 m c]) (fun c => by rw [reg0_post m c, V_eq2 m c])
      (reg1 m) (fun c => by rw [reg1_pre m c, V_eq3 m c]) (fun c => by rw [reg1_post m c, V_eq4 m c])
      (reg2 m) (fun c => by rw [reg2_pre m c, V_eq5 m c]) (fun c => by rw [reg2_post m c, V_eq6 m c])
      (reg3 m) (fun c => by rw [reg3_pre m c, V_eq7 m c]) (fun c => by rw [reg3_post m c, V_eq8 m c])
      (reg4 m) (fun c => by rw [reg4_pre m c, V_eq9 m c]) (fun c => by rw [reg4_post m c, V_eq10 m c])
      (reg5 m) (fun c => by rw [reg5_pre m c, V_eq11 m c]) (fun c => by rw [reg5_post m c, V_eq12 m c])
      (reg6 m) (fun c => by rw [reg6_pre m c, V_eq13 m c]) (fun c => by rw [reg6_post m c, V_eq14 m c])
      (reg7 m) (fun c => by rw [reg7_pre m c, V_eq15 m c]) (fun c => by rw [reg7_post m c, V_eq16 m c])
      (reg8 m) (fun c => by rw [reg8_pre m c, V_eq17 m c]) (fun c => by rw [reg8_post m c, V_eq18 m c])
      (reg9 m) (fun c => by rw [reg9_pre m c, V_eq19 m c]) (fun c => by rw [reg9_post m c, V_eq20 m c])
      (reg10 m) (fun c => by rw [reg10_pre m c, V_eq21 m c]) (fun c => by rw [reg10_post m c, V_eq22 m c])
      (reg11 m) (fun c => by rw [reg11_pre m c, V_eq23 m c]) (fun c => by rw [reg11_post m c, V_eq24 m c])
      (reg12 m) (fun c => by rw [reg12_pre m c, V_eq25 m c]) (fun c => by rw [reg12_post m c, V_eq26 m c])
      (reg13 m) (fun c => by rw [reg13_pre m c, V_eq27 m c]) (fun c => by rw [reg13_post m c, V_eq28 m c])
      (reg14 m) (fun c => by rw [reg14_pre m c, V_eq29 m c]) (fun c => by rw [reg14_post m c, V_eq30 m c]))

/-- The result buffer and every argument at the end: `main_v166` holds the chain's last contents of it, and each argument
    array holds what it held at launch (both are unscoped references; no item of the chain writes an argument). -/
theorem result_read : θ_run defs (onTc (τ := τ) (main (F := F))) ⟨m, fun _ => 0, ρ⟩ (fun r => ∀ c : Dev nD,
      r.2.mem ((c.tc : Thread nD τ).loc main_v166) = W30 m c (Proc.devRef .tc main_v166) ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun _ h c =>
      ⟨h c (Proc.devRef .tc main_v166) (Finset.mem_filter.mpr ⟨StableHlo.devRef_mem_tcRefs main_v166, by decide⟩),
        (h c (Proc.devRef .tc main_arg0) (Finset.mem_filter.mpr ⟨StableHlo.devRef_mem_tcRefs main_arg0, by decide⟩)).trans ((congrFun (V_eq30 m c) _).symm.trans (V30_main_arg0 m (outs m) c)),
        (h c (Proc.devRef .tc main_arg1) (Finset.mem_filter.mpr ⟨StableHlo.devRef_mem_tcRefs main_arg1, by decide⟩)).trans ((congrFun (V_eq30 m c) _).symm.trans (V30_main_arg1 m (outs m) c)),
        (h c (Proc.devRef .tc main_arg2) (Finset.mem_filter.mpr ⟨StableHlo.devRef_mem_tcRefs main_arg2, by decide⟩)).trans ((congrFun (V_eq30 m c) _).symm.trans (V30_main_arg2 m (outs m) c)),
        (h c (Proc.devRef .tc main_arg3) (Finset.mem_filter.mpr ⟨StableHlo.devRef_mem_tcRefs main_arg3, by decide⟩)).trans ((congrFun (V_eq30 m c) _).symm.trans (V30_main_arg3 m (outs m) c)),
        (h c (Proc.devRef .tc main_arg4) (Finset.mem_filter.mpr ⟨StableHlo.devRef_mem_tcRefs main_arg4, by decide⟩)).trans ((congrFun (V_eq30 m c) _).symm.trans (V30_main_arg4 m (outs m) c)),
        (h c (Proc.devRef .tc main_arg5) (Finset.mem_filter.mpr ⟨StableHlo.devRef_mem_tcRefs main_arg5, by decide⟩)).trans ((congrFun (V_eq30 m c) _).symm.trans (V30_main_arg5 m (outs m) c)),
        (h c (Proc.devRef .tc main_arg6) (Finset.mem_filter.mpr ⟨StableHlo.devRef_mem_tcRefs main_arg6, by decide⟩)).trans ((congrFun (V_eq30 m c) _).symm.trans (V30_main_arg6 m (outs m) c)),
        (h c (Proc.devRef .tc main_arg7) (Finset.mem_filter.mpr ⟨StableHlo.devRef_mem_tcRefs main_arg7, by decide⟩)).trans ((congrFun (V_eq30 m c) _).symm.trans (V30_main_arg7 m (outs m) c)),
        (h c (Proc.devRef .tc main_arg8) (Finset.mem_filter.mpr ⟨StableHlo.devRef_mem_tcRefs main_arg8, by decide⟩)).trans ((congrFun (V_eq30 m c) _).symm.trans (V30_main_arg8 m (outs m) c)),
        (h c (Proc.devRef .tc main_arg9) (Finset.mem_filter.mpr ⟨StableHlo.devRef_mem_tcRefs main_arg9, by decide⟩)).trans ((congrFun (V_eq30 m c) _).symm.trans (V30_main_arg9 m (outs m) c)),
        (h c (Proc.devRef .tc main_arg10) (Finset.mem_filter.mpr ⟨StableHlo.devRef_mem_tcRefs main_arg10, by decide⟩)).trans ((congrFun (V_eq30 m c) _).symm.trans (V30_main_arg10 m (outs m) c)),
        (h c (Proc.devRef .tc main_arg11) (Finset.mem_filter.mpr ⟨StableHlo.devRef_mem_tcRefs main_arg11, by decide⟩)).trans ((congrFun (V_eq30 m c) _).symm.trans (V30_main_arg11 m (outs m) c)),
        (h c (Proc.devRef .tc main_arg12) (Finset.mem_filter.mpr ⟨StableHlo.devRef_mem_tcRefs main_arg12, by decide⟩)).trans ((congrFun (V_eq30 m c) _).symm.trans (V30_main_arg12 m (outs m) c)),
        (h c (Proc.devRef .tc main_arg13) (Finset.mem_filter.mpr ⟨StableHlo.devRef_mem_tcRefs main_arg13, by decide⟩)).trans ((congrFun (V_eq30 m c) _).symm.trans (V30_main_arg13 m (outs m) c)),
        (h c (Proc.devRef .tc main_arg14) (Finset.mem_filter.mpr ⟨StableHlo.devRef_mem_tcRefs main_arg14, by decide⟩)).trans ((congrFun (V_eq30 m c) _).symm.trans (V30_main_arg14 m (outs m) c)),
        (h c (Proc.devRef .tc main_arg15) (Finset.mem_filter.mpr ⟨StableHlo.devRef_mem_tcRefs main_arg15, by decide⟩)).trans ((congrFun (V_eq30 m c) _).symm.trans (V30_main_arg15 m (outs m) c)),
        (h c (Proc.devRef .tc main_arg16) (Finset.mem_filter.mpr ⟨StableHlo.devRef_mem_tcRefs main_arg16, by decide⟩)).trans ((congrFun (V_eq30 m c) _).symm.trans (V30_main_arg16 m (outs m) c)),
        (h c (Proc.devRef .tc main_arg17) (Finset.mem_filter.mpr ⟨StableHlo.devRef_mem_tcRefs main_arg17, by decide⟩)).trans ((congrFun (V_eq30 m c) _).symm.trans (V30_main_arg17 m (outs m) c)),
        (h c (Proc.devRef .tc main_arg18) (Finset.mem_filter.mpr ⟨StableHlo.devRef_mem_tcRefs main_arg18, by decide⟩)).trans ((congrFun (V_eq30 m c) _).symm.trans (V30_main_arg18 m (outs m) c)),
        (h c (Proc.devRef .tc main_arg19) (Finset.mem_filter.mpr ⟨StableHlo.devRef_mem_tcRefs main_arg19, by decide⟩)).trans ((congrFun (V_eq30 m c) _).symm.trans (V30_main_arg19 m (outs m) c)),
        (h c (Proc.devRef .tc main_arg20) (Finset.mem_filter.mpr ⟨StableHlo.devRef_mem_tcRefs main_arg20, by decide⟩)).trans ((congrFun (V_eq30 m c) _).symm.trans (V30_main_arg20 m (outs m) c)),
        (h c (Proc.devRef .tc main_arg21) (Finset.mem_filter.mpr ⟨StableHlo.devRef_mem_tcRefs main_arg21, by decide⟩)).trans ((congrFun (V_eq30 m c) _).symm.trans (V30_main_arg21 m (outs m) c)),
        (h c (Proc.devRef .tc main_arg22) (Finset.mem_filter.mpr ⟨StableHlo.devRef_mem_tcRefs main_arg22, by decide⟩)).trans ((congrFun (V_eq30 m c) _).symm.trans (V30_main_arg22 m (outs m) c)),
        (h c (Proc.devRef .tc main_arg23) (Finset.mem_filter.mpr ⟨StableHlo.devRef_mem_tcRefs main_arg23, by decide⟩)).trans ((congrFun (V_eq30 m c) _).symm.trans (V30_main_arg23 m (outs m) c))⟩)
    (run_all m ρ)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun _ h c => (h c).2) (result_read m ρ)

end Cert.Kernel.Hand

end
-- ==== Proof.KI.RunCond.lean ====
import proofs.«413302_j72232759984513_1_alg».proof.Proof.Gen.KernelIdeal.Regions
import Idealize.ShloMosaic.Lib.Pipeline.Frame
import Idealize.ShloMosaic.Lib.Pipeline.Regions

-- deciding the distinctness of the entered pipelines and unfolding the segment list recurse past the default depth
set_option maxRecDepth 1952

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

variable (m : (ℓ : Loc nD τ sig) → Buf (Elt F) ℓ)

/-! ## The run of the program, given the regions' records: every unscoped buffer at the end -/

-- the launch theorem's implicit arguments are found by unifying its conclusion with this one, which takes unfolding
-- plain definitions in a metavariable's type
set_option backward.isDefEq.respectTransparency.types false in
/-- The conditional run. Under the hypotheses of the conditional frame (one segment record per region, entered from
    the valuation before it and left at the one after it, beside a rest `E`), every weakly fair execution of the
    program from memory `m` with zero counters terminates, and in every final memory each unscoped buffer `b` of
    core `c` holds `V30 m outs c b`: the last valuation of the chain, read whole (not only at the arguments). -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 15) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 16 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE15 : ∀ c : Dev nD, E 15 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V13 m outs c) ∗ E 6 c) ⊢ R6.pre c)
    (hpost6 : ∀ c : Dev nD, R6.post c ⊢ iprop(StableHlo.held (c : Thread nD τ) (Pipeline.ucRefs τ sig) (V14 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V15 m outs c) ∗ E 7 c) ⊢ R7.pre c)
    (hpost7 : ∀ c : Dev nD, R7.post c ⊢ iprop(StableHlo.held (c : Thread nD τ) (Pipeline.ucRefs τ sig) (V16 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V17 m outs c) ∗ E 8 c) ⊢ R8.pre c)
    (hpost8 : ∀ c : Dev nD, R8.post c ⊢ iprop(StableHlo.held (c : Thread nD τ) (Pipeline.ucRefs τ sig) (V18 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V19 m outs c) ∗ E 9 c) ⊢ R9.pre c)
    (hpost9 : ∀ c : Dev nD, R9.post c ⊢ iprop(StableHlo.held (c : Thread nD τ) (Pipeline.ucRefs τ sig) (V20 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V21 m outs c) ∗ E 10 c) ⊢ R10.pre c)
    (hpost10 : ∀ c : Dev nD, R10.post c ⊢ iprop(StableHlo.held (c : Thread nD τ) (Pipeline.ucRefs τ sig) (V22 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V23 m outs c) ∗ E 11 c) ⊢ R11.pre c)
    (hpost11 : ∀ c : Dev nD, R11.post c ⊢ iprop(StableHlo.held (c : Thread nD τ) (Pipeline.ucRefs τ sig) (V24 m outs c) ∗ E 12 c))
    (R12 : RegionSeg (pcfgs (F := F)) adm pdats ι defs₀ 𝒱₀ L lv 12)
    (hpre12 : ∀ c : Dev nD, iprop(StableHlo.held (c : Thread nD τ) (Pipeline.ucRefs τ sig) (V25 m outs c) ∗ E 12 c) ⊢ R12.pre c)
    (hpost12 : ∀ c : Dev nD, R12.post c ⊢ iprop(StableHlo.held (c : Thread nD τ) (Pipeline.ucRefs τ sig) (V26 m outs c) ∗ E 13 c))
    (R13 : RegionSeg (pcfgs (F := F)) adm pdats ι defs₀ 𝒱₀ L lv 13)
    (hpre13 : ∀ c : Dev nD, iprop(StableHlo.held (c : Thread nD τ) (Pipeline.ucRefs τ sig) (V27 m outs c) ∗ E 13 c) ⊢ R13.pre c)
    (hpost13 : ∀ c : Dev nD, R13.post c ⊢ iprop(StableHlo.held (c : Thread nD τ) (Pipeline.ucRefs τ sig) (V28 m outs c) ∗ E 14 c))
    (R14 : RegionSeg (pcfgs (F := F)) adm pdats ι defs₀ 𝒱₀ L lv 14)
    (hpre14 : ∀ c : Dev nD, iprop(StableHlo.held (c : Thread nD τ) (Pipeline.ucRefs τ sig) (V29 m outs c) ∗ E 14 c) ⊢ R14.pre c)
    (hpost14 : ∀ c : Dev nD, R14.post c ⊢ iprop(StableHlo.held (c : Thread nD τ) (Pipeline.ucRefs τ sig) (V30 m outs c) ∗ E 15 c)) :
    θ_run defs (onTc (τ := τ) (main (F := F))) ⟨m, fun _ => 0, ρ⟩ (fun r => ∀ c : Dev nD, ∀ b ∈ Pipeline.ucRefs τ sig,
      r.2.mem (((c : Thread nD τ)).1, b) = Gen.V30 m outs c b) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10 R11 R12 R13 R14)
    (fun c Q => by
      rewrite [main_chain c, Seg.run_eq_chain,
        show (segs m outs 𝒱₀ L lv E ι pdats R0 R1 R2 R3 R4 R5 R6 R7 R8 R9 R10 R11 R12 R13 R14 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          Prog.lift (.customCall (Pipeline.entry 13) ()),
          StableHlo.seq hostOps14,
          Prog.lift (.customCall (Pipeline.entry 14) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V30 m outs c))
    (hch := fun c => ⟨.rfl, hpre0 c, hpost0 c, hpre1 c, hpost1 c, hpre2 c, hpost2 c, hpre3 c, hpost3 c, hpre4 c, hpost4 c, hpre5 c, hpost5 c, hpre6 c, hpost6 c, hpre7 c, hpost7 c, hpre8 c, hpost8 c, hpre9 c, hpost9 c, hpre10 c, hpost10 c, hpre11 c, hpost11 c, hpre12 c, hpost12 c, hpre13 c, hpost13 c, hpre14 c, (hpost14 c).trans (sep_mono .rfl (hE15 c))⟩)
    (hinit := ?_) (QY := fun c s => ∀ b ∈ Pipeline.ucRefs τ sig, s.mem (((c : Thread nD τ)).1, b) = Gen.V30 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the last thread state holds every unscoped buffer at the last valuation; read them all against the state
    unfold StableHlo.held
    iintro ⟨Hh, HSI⟩
    imodintro
    iapply (pointsTo_read_all (Pipeline.ucRefs τ sig) (fun b => ((c : Thread nD τ).1, b)) (V30 m outs c) s')
    isplitl [Hh] <;> iassumption

end Cert.KernelIdeal.Hand

end
-- ==== Proof.KI.RegLS0.RunA.lean ====
import proofs.«413302_j72232759984513_1_alg».proof.Proof.Gen.KernelIdeal.Launch
import proofs.«413302_j72232759984513_1_alg».proof.Proof.Gen.KernelIdeal.Skeleton
import proofs.«413302_j72232759984513_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 0: the body's run at the first grid point

The body's one conditional tests whether the grid coordinate is zero; there it resets the two running sums before adding
to them. -/

/-- The condition of the body's conditional, from the grid coordinates. -/
abbrev cond0_0 (i : grid0.Coords) : Prop := (Scalar.cmpi .ne (Scalar.extui (Scalar.cmpi .eq (BitVec.ofNat 32 (i 0).val) 0#32)) 0#32) = 1#1
/-- It holds at the first point only: decided over the grid. -/
theorem hcond0_0 : ∀ t : Fin cfg0.N, cond0_0 (grid0.coords t) ↔ t.val % 10 = 0 :=
  (by decide +kernel : ∀ t : Fin grid0.N, cond0_0 (grid0.coords t) ↔ t.val % 10 = 0)

/-- One staging buffer of each output window, through which its contents are stated (the choice does not matter). -/
abbrev VO0_3 : View sig .tc .vmem S10000x128 .f32 := (Memref.whole cc0_stg3_0 : Memref sig .tc .vmem S10000x128 .f32).view
abbrev VO0_4 : View sig .tc .vmem S1x128 .f32 := (Memref.whole cc0_stg4_0 : Memref sig .tc .vmem S1x128 .f32).view
abbrev VO0_5 : View sig .tc .vmem S1x128 .f32 := (Memref.whole cc0_stg5_0 : Memref sig .tc .vmem S1x128 .f32).view

set_option maxHeartbeats 4000000 in
/-- The body where the condition holds. On whole staging memrefs, the three inputs' at contents `x0 x1 x2` and the three
    outputs' at anything, it runs to the continuation holding the inputs' as they were and each output's buffer with
    the pieces its stores wrote (last first): the pieces are the witness the run finds. -/
noncomputable def kernelRun0_A (c : Dev nD) (i : grid0.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond0_0 i)
    (x0 : Vec F S10000x64 .f32) (x1 : Vec F S64x128 .f32) (x2 : Vec F S1x128 .f32) :
    Σ' (L3 : List (View.Piece (Elt F) S10000x128 .f32)), Σ' (L4 : List (View.Piece (Elt F) S1x128 .f32)), { L5 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc0__linear_stats_kernel i arg1 harg1 arg2 harg2 arg3 harg3 arg4 harg4 arg5 harg5 arg6 harg6) K } := by
  refine ⟨?_, ?_, ?_, fun E K => ?run⟩
  case run =>
    simp only [cc0__linear_stats_kernel_eq_skeleton]; unfold cc0__linear_stats_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

end Cert.KernelIdeal.Hand

end
-- ==== Proof.KI.RegLS0.RunB.lean ====
import proofs.«413302_j72232759984513_1_alg».proof.Proof.KI.RegLS0.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 0: the body's run at a later grid point

The condition fails: the two running sums are read as the point before left them and added to. -/

set_option maxHeartbeats 4000000 in
/-- The body where the condition fails. On whole staging memrefs, the three inputs' at contents `x0 x1 x2`, the two
    running sums' at `xo4 xo5` and the first output's at anything, it runs to the continuation holding the inputs' as they
    were and each output's buffer with the pieces its stores wrote (last first): the pieces are the witness the run finds. -/
noncomputable def kernelRun0_B (c : Dev nD) (i : grid0.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i)
    (x0 : Vec F S10000x64 .f32) (x1 : Vec F S64x128 .f32) (x2 : Vec F S1x128 .f32) (xo4 : Vec F S1x128 .f32) (xo5 : Vec F S1x128 .f32) :
    Σ' (L3 : List (View.Piece (Elt F) S10000x128 .f32)), Σ' (L4 : List (View.Piece (Elt F) S1x128 .f32)), { L5 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xo4 ∗ owns (c : Thread nD τ) arg6 fullShare xo5
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc0__linear_stats_kernel i arg1 harg1 arg2 harg2 arg3 harg3 arg4 harg4 arg5 harg5 arg6 harg6) K } := by
  refine ⟨?_, ?_, ?_, fun E K => ?run⟩
  case run =>
    simp only [cc0__linear_stats_kernel_eq_skeleton]; unfold cc0__linear_stats_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
    obtain rfl := harg1.eq_unread hf0; obtain rfl := harg2.eq_unread hf1; obtain rfl := harg3.eq_unread hf2
    obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

end Cert.KernelIdeal.Hand

end
-- ==== Proof.KI.RegLS0.lean ====
import proofs.«413302_j72232759984513_1_alg».proof.Proof.KI.RegLS0.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 0: the proof data and the body obligation, at the contents the region is entered with

The kernel stores `x·W + b` for its tile of rows in output window 3 and keeps two running sums, output windows 4 and 5:
reset at the first grid point, added to at every point, written back after the last. Everything is stated at a
parameter `V`, the TensorCore's buffer contents when the region is entered. -/

section Region

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not (unfetched, the block
    index has not moved), for any proof data whose array is the entry contents and whose body leaves the block in place. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Each window's current staging memref at point `t`, and its wholeness. -/
abbrev ms0_0 (t : Fin cfg0.N) : Memref sig .tc .vmem S10000x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S10000x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)

/-! ## What each case of the body leaves in the outputs' buffers -/

/-- The pieces the body where the condition holds writes to output 3 tile its block, so they cover it. -/
theorem cover0_A_3 (c : Dev nD) (i : grid0.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond0_0 i)
    (x0 : Vec F S10000x64 .f32) (x1 : Vec F S64x128 .f32) (x2 : Vec F S1x128 .f32) (y : S10000x128.Idx) :
    ∃ pc ∈ (kernelRun0_A c i arg1 harg1 arg2 harg2 arg3 harg3 arg4 harg4 arg5 harg5 arg6 harg6 hc0 x0 x1 x2).1, y ∈ pc.1.set :=
  View.cover_of_tiledL (kernelRun0_A c i arg1 harg1 arg2 harg2 arg3 harg3 arg4 harg4 arg5 harg5 arg6 harg6 hc0 x0 x1 x2).1 S10000x128.size (by sl_kernel_rfl) y

/-- What that run leaves in output 3's staging buffer: its pieces read back over arbitrary contents. -/
def out0_A_3 (c : Dev nD) (i : grid0.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond0_0 i)
    (x0 : Vec F S10000x64 .f32) (x1 : Vec F S64x128 .f32) (x2 : Vec F S1x128 .f32) : Vec F S10000x128 .f32 :=
  VO0_3.read (Elt F) (VO0_3.writes (Elt F) VO0_3.junk (kernelRun0_A c i arg1 harg1 arg2 harg2 arg3 harg3 arg4 harg4 arg5 harg5 arg6 harg6 hc0 x0 x1 x2).1)

/-- The pieces the body where the condition holds writes to output 4 tile its block, so they cover it. -/
theorem cover0_A_4 (c : Dev nD) (i : grid0.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond0_0 i)
    (x0 : Vec F S10000x64 .f32) (x1 : Vec F S64x128 .f32) (x2 : Vec F S1x128 .f32) (y : S1x128.Idx) :
    ∃ pc ∈ (kernelRun0_A c i arg1 harg1 arg2 harg2 arg3 harg3 arg4 harg4 arg5 harg5 arg6 harg6 hc0 x0 x1 x2).2.1, y ∈ pc.1.set :=
  View.cover_of_tiledL (kernelRun0_A c i arg1 harg1 arg2 harg2 arg3 harg3 arg4 harg4 arg5 harg5 arg6 harg6 hc0 x0 x1 x2).2.1 S1x128.size (by sl_kernel_rfl) y

/-- What that run leaves in output 4's staging buffer: its pieces read back over arbitrary contents. -/
def out0_A_4 (c : Dev nD) (i : grid0.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond0_0 i)
    (x0 : Vec F S10000x64 .f32) (x1 : Vec F S64x128 .f32) (x2 : Vec F S1x128 .f32) : Vec F S1x128 .f32 :=
  VO0_4.read (Elt F) (VO0_4.writes (Elt F) VO0_4.junk (kernelRun0_A c i arg1 harg1 arg2 harg2 arg3 harg3 arg4 harg4 arg5 harg5 arg6 harg6 hc0 x0 x1 x2).2.1)

/-- The pieces the body where the condition holds writes to output 5 tile its block, so they cover it. -/
theorem cover0_A_5 (c : Dev nD) (i : grid0.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond0_0 i)
    (x0 : Vec F S10000x64 .f32) (x1 : Vec F S64x128 .f32) (x2 : Vec F S1x128 .f32) (y : S1x128.Idx) :
    ∃ pc ∈ (kernelRun0_A c i arg1 harg1 arg2 harg2 arg3 harg3 arg4 harg4 arg5 harg5 arg6 harg6 hc0 x0 x1 x2).2.2.1, y ∈ pc.1.set :=
  View.cover_of_tiledL (kernelRun0_A c i arg1 harg1 arg2 harg2 arg3 harg3 arg4 harg4 arg5 harg5 arg6 harg6 hc0 x0 x1 x2).2.2.1 S1x128.size (by sl_kernel_rfl) y

/-- What that run leaves in output 5's staging buffer: its pieces read back over arbitrary contents. -/
def out0_A_5 (c : Dev nD) (i : grid0.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond0_0 i)
    (x0 : Vec F S10000x64 .f32) (x1 : Vec F S64x128 .f32) (x2 : Vec F S1x128 .f32) : Vec F S1x128 .f32 :=
  VO0_5.read (Elt F) (VO0_5.writes (Elt F) VO0_5.junk (kernelRun0_A c i arg1 harg1 arg2 harg2 arg3 harg3 arg4 harg4 arg5 harg5 arg6 harg6 hc0 x0 x1 x2).2.2.1)

/-- The pieces the body where the condition fails writes to output 3 tile its block, so they cover it. -/
theorem cover0_B_3 (c : Dev nD) (i : grid0.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i)
    (x0 : Vec F S10000x64 .f32) (x1 : Vec F S64x128 .f32) (x2 : Vec F S1x128 .f32) (xo4 : Vec F S1x128 .f32) (xo5 : Vec F S1x128 .f32) (y : S10000x128.Idx) :
    ∃ pc ∈ (kernelRun0_B c i arg1 harg1 arg2 harg2 arg3 harg3 arg4 harg4 arg5 harg5 arg6 harg6 hc0 x0 x1 x2 xo4 xo5).1, y ∈ pc.1.set :=
  View.cover_of_tiledL (kernelRun0_B c i arg1 harg1 arg2 harg2 arg3 harg3 arg4 harg4 arg5 harg5 arg6 harg6 hc0 x0 x1 x2 xo4 xo5).1 S10000x128.size (by sl_kernel_rfl) y

/-- What that run leaves in output 3's staging buffer: its pieces read back over arbitrary contents. -/
def out0_B_3 (c : Dev nD) (i : grid0.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i)
    (x0 : Vec F S10000x64 .f32) (x1 : Vec F S64x128 .f32) (x2 : Vec F S1x128 .f32) (xo4 : Vec F S1x128 .f32) (xo5 : Vec F S1x128 .f32) : Vec F S10000x128 .f32 :=
  VO0_3.read (Elt F) (VO0_3.writes (Elt F) VO0_3.junk (kernelRun0_B c i arg1 harg1 arg2 harg2 arg3 harg3 arg4 harg4 arg5 harg5 arg6 harg6 hc0 x0 x1 x2 xo4 xo5).1)

/-- The pieces the body where the condition fails writes to output 4 tile its block, so they cover it. -/
theorem cover0_B_4 (c : Dev nD) (i : grid0.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i)
    (x0 : Vec F S10000x64 .f32) (x1 : Vec F S64x128 .f32) (x2 : Vec F S1x128 .f32) (xo4 : Vec F S1x128 .f32) (xo5 : Vec F S1x128 .f32) (y : S1x128.Idx) :
    ∃ pc ∈ (kernelRun0_B c i arg1 harg1 arg2 harg2 arg3 harg3 arg4 harg4 arg5 harg5 arg6 harg6 hc0 x0 x1 x2 xo4 xo5).2.1, y ∈ pc.1.set :=
  View.cover_of_tiledL (kernelRun0_B c i arg1 harg1 arg2 harg2 arg3 harg3 arg4 harg4 arg5 harg5 arg6 harg6 hc0 x0 x1 x2 xo4 xo5).2.1 S1x128.size (by sl_kernel_rfl) y

/-- What that run leaves in output 4's staging buffer: its pieces read back over arbitrary contents. -/
def out0_B_4 (c : Dev nD) (i : grid0.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i)
    (x0 : Vec F S10000x64 .f32) (x1 : Vec F S64x128 .f32) (x2 : Vec F S1x128 .f32) (xo4 : Vec F S1x128 .f32) (xo5 : Vec F S1x128 .f32) : Vec F S1x128 .f32 :=
  VO0_4.read (Elt F) (VO0_4.writes (Elt F) VO0_4.junk (kernelRun0_B c i arg1 harg1 arg2 harg2 arg3 harg3 arg4 harg4 arg5 harg5 arg6 harg6 hc0 x0 x1 x2 xo4 xo5).2.1)

/-- The pieces the body where the condition fails writes to output 5 tile its block, so they cover it. -/
theorem cover0_B_5 (c : Dev nD) (i : grid0.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i)
    (x0 : Vec F S10000x64 .f32) (x1 : Vec F S64x128 .f32) (x2 : Vec F S1x128 .f32) (xo4 : Vec F S1x128 .f32) (xo5 : Vec F S1x128 .f32) (y : S1x128.Idx) :
    ∃ pc ∈ (kernelRun0_B c i arg1 harg1 arg2 harg2 arg3 harg3 arg4 harg4 arg5 harg5 arg6 harg6 hc0 x0 x1 x2 xo4 xo5).2.2.1, y ∈ pc.1.set :=
  View.cover_of_tiledL (kernelRun0_B c i arg1 harg1 arg2 harg2 arg3 harg3 arg4 harg4 arg5 harg5 arg6 harg6 hc0 x0 x1 x2 xo4 xo5).2.2.1 S1x128.size (by sl_kernel_rfl) y

/-- What that run leaves in output 5's staging buffer: its pieces read back over arbitrary contents. -/
def out0_B_5 (c : Dev nD) (i : grid0.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i)
    (x0 : Vec F S10000x64 .f32) (x1 : Vec F S64x128 .f32) (x2 : Vec F S1x128 .f32) (xo4 : Vec F S1x128 .f32) (xo5 : Vec F S1x128 .f32) : Vec F S1x128 .f32 :=
  VO0_5.read (Elt F) (VO0_5.writes (Elt F) VO0_5.junk (kernelRun0_B c i arg1 harg1 arg2 harg2 arg3 harg3 arg4 harg4 arg5 harg5 arg6 harg6 hc0 x0 x1 x2 xo4 xo5).2.2.1)

/-! ## What the outputs hold after each point -/

/-- What the three outputs' staging buffers hold after the body at position `n`, by recursion on the point: at the first
    point the resetting case, run at the point's input blocks; at a later point the adding case, the running sums read
    as the point before left them (their buffers are not written back between). -/
def outsAt0 (c : Dev nD) : (n : ℕ) → n < cfg0.N → Vec F S10000x128 .f32 × Vec F S1x128 .f32 × Vec F S1x128 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk0 V c 0 ⟨0, hn⟩) (iblk0 V c 1 ⟨0, hn⟩) (iblk0 V c 2 ⟨0, hn⟩),
       out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk0 V c 0 ⟨0, hn⟩) (iblk0 V c 1 ⟨0, hn⟩) (iblk0 V c 2 ⟨0, hn⟩),
       out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk0 V c 0 ⟨0, hn⟩) (iblk0 V c 1 ⟨0, hn⟩) (iblk0 V c 2 ⟨0, hn⟩))
  | n + 1, hn =>
    if h0 : (n + 1) % 10 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk0 V c 0 ⟨n + 1, hn⟩) (iblk0 V c 1 ⟨n + 1, hn⟩) (iblk0 V c 2 ⟨n + 1, hn⟩),
       out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk0 V c 0 ⟨n + 1, hn⟩) (iblk0 V c 1 ⟨n + 1, hn⟩) (iblk0 V c 2 ⟨n + 1, hn⟩),
       out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk0 V c 0 ⟨n + 1, hn⟩) (iblk0 V c 1 ⟨n + 1, hn⟩) (iblk0 V c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2,
       out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2,
       out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2)

/-- `outsAt0` at a point where the condition holds. -/
theorem outsAt0_A (c : Dev nD) (t : Fin cfg0.N) (h0 : t.val % 10 = 0) :
    outsAt0 V c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t),
       out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t),
       out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t)) := by
  obtain ⟨n, hn⟩ := t
  cases n with
  | zero => exact rfl
  | succ n => exact (dif_pos h0).trans rfl

/-- `outsAt0` at a point where it fails: over what the point before left. -/
theorem outsAt0_B (c : Dev nD) (t : Fin cfg0.N) (h0 : ¬t.val % 10 = 0) :
    outsAt0 V c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2,
       out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2,
       out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t` each
    input's buffer at its block and the outputs' at `outsAt0`; the invariant the scoped rest and the generator register,
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
    | ⟨5, _⟩ => (outsAt0 V c t.val t.isLt).2.2
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]
/-- Its shares are full. -/
theorem q_eq0 (c : Dev nD) (w : Fin cfg0.W) : (dat0 V c).q w = fullShare := by
  dsimp only [dat0]
/-- It owes nothing. -/
theorem owed_eq0 (c : Dev nD) (n : Fin (cfg0.N + 1)) : (dat0 V c).owed n = 0 := by
  dsimp only [dat0]

/-- The generator register and the scoped rest make the invariant at the first boundary, -/
theorem Phi_in0 (c : Dev nD) : (iprop((∃ r, prngReg c r) ∗ Pipeline.scopedRest (Ix := Unit) (Name := ℕ) (U := UR sig nD τ) (Lvl := ℕ) spec0 c) : sProp 𝕄) ⊢ (dat0 V c).Φ 0 := by
  rw [show (dat0 V c).Φ 0 = Pipeline.ΦA spec0 c from rfl]; unfold Pipeline.ΦA
  iintro ⟨Hp, Hr⟩
  isplitl [Hr]; · iexact Hr
  iexact Hp
/-- and the invariant at the last gives them back. -/
theorem Phi_out0 (c : Dev nD) : (dat0 V c).Φ (Fin.last cfg0.N) ⊢ (iprop((∃ r, prngReg c r) ∗ Pipeline.scopedRest (Ix := Unit) (Name := ℕ) (U := UR sig nD τ) (Lvl := ℕ) spec0 c) : sProp 𝕄) := by
  rw [show (dat0 V c).Φ (Fin.last _) = Pipeline.ΦA spec0 c from rfl]; unfold Pipeline.ΦA
  iintro ⟨Hr, Hp⟩
  isplitl [Hp]; · iexact Hp
  iexact Hr

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
theorem after0_5 (c : Dev nD) (t : Fin cfg0.N) : (dat0 V c).after 5 t = (outsAt0 V c t.val t.isLt).2.2 := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
/-- At a later point a running sum's staging buffer holds what the body left at the point before: the buffer was not
    written back between, and the window is live and uncut. -/
theorem before0_4_B (c : Dev nD) (t : Fin cfg0.N) (h0 : ¬t.val % 10 = 0) (d) :
    (dat0 V c).before 4 t d = (outsAt0 V c (t.val - 1) (Nat.lt_of_le_of_lt (Nat.sub_le _ _) t.isLt)).2.1 := by
  have hN : t.val < 10 := lt_of_lt_of_eq t.isLt (show cfg0.N = 10 from N_0)
  rw [Dat.before_out_kept _ 4 rfl t (by omega) (Bool.eq_false_iff.mpr fun h => by have := (flush0_4 _).mp h; dsimp only at this; omega)
    (fun _ => rfl) (fun _ _ => rfl)]
  dsimp only [dat0]
theorem before0_5_B (c : Dev nD) (t : Fin cfg0.N) (h0 : ¬t.val % 10 = 0) (d) :
    (dat0 V c).before 5 t d = (outsAt0 V c (t.val - 1) (Nat.lt_of_le_of_lt (Nat.sub_le _ _) t.isLt)).2.2 := by
  have hN : t.val < 10 := lt_of_lt_of_eq t.isLt (show cfg0.N = 10 from N_0)
  rw [Dat.before_out_kept _ 5 rfl t (by omega) (Bool.eq_false_iff.mpr fun h => by have := (flush0_5 _).mp h; dsimp only at this; omega)
    (fun _ => rfl) (fun _ _ => rfl)]
  dsimp only [dat0]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 1600000 in
/-- The body at any point: the inputs' memrefs hold their blocks; the closed form of the condition says which case the
    point is in; at a later point the running sums hold what the point before left; so that case's run applies; the
    invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  have hN : t.val < 10 := lt_of_lt_of_eq t.isLt (show cfg0.N = 10 from N_0)
  by_cases h0 : t.val % 10 = 0
  · rw [outsAt0_A V c t h0]
    try dsimp only
    unfold out0_A_3 out0_A_4 out0_A_5
    iintro ⟨HΦ, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ ((hcond0_0 t).mpr h0) (iblk0 V c 0 t) (iblk0 V c 1 t) (iblk0 V c 2 t)).2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _ _ _)
    isplitl [H4]
    · unfold owns; iexists _; isplitr
      swap; · iexact H4
      ipureintro; exact View.read_writes_of_cover _ _ _ _ _ (cover0_A_4 c _ _ _ _ _ _ _ _ _ _ _ _ _ _ _ _ _)
    unfold owns; iexists _; isplitr
    swap; · iexact H5
    ipureintro; exact View.read_writes_of_cover _ _ _ _ _ (cover0_A_5 c _ _ _ _ _ _ _ _ _ _ _ _ _ _ _ _ _)
  · rw [outsAt0_B V c t h0]
    simp only [before0_4_B V c t h0, before0_5_B V c t h0]
    try dsimp only
    unfold out0_B_3 out0_B_4 out0_B_5
    iintro ⟨HΦ, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ (fun h => h0 ((hcond0_0 t).mp h)) (iblk0 V c 0 t) (iblk0 V c 1 t) (iblk0 V c 2 t) _ _).2.2.2 Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 c _ _ _ _ _ _ _ _ _ _ _ _ _ _ _ _ _ _ _)
    isplitl [H4]
    · unfold owns; iexists _; isplitr
      swap; · iexact H4
      ipureintro; exact View.read_writes_of_cover _ _ _ _ _ (cover0_B_4 c _ _ _ _ _ _ _ _ _ _ _ _ _ _ _ _ _ _ _)
    unfold owns; iexists _; isplitr
    swap; · iexact H5
    ipureintro; exact View.read_writes_of_cover _ _ _ _ _ (cover0_B_5 c _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.KernelIdeal.Hand

end
-- ==== Proof.KI.RegBN1.lean ====
import proofs.«413302_j72232759984513_1_alg».proof.Proof.Gen.KernelIdeal.Launch
import proofs.«413302_j72232759984513_1_alg».proof.Proof.Gen.KernelIdeal.Skeleton
import proofs.«413302_j72232759984513_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Kernel region 1: the batch-norm-and-ReLU body, its frame half

The body reads a tile of 10000 rows of `h` and four rows `mu`, `inv`, `g`, `be` of 128 lanes each, and stores
`max ((h - mu) * inv * g + be) 0` over the whole output tile. Its six windows are staged whole, so each input's
buffer holds its block of the entry contents at every point and the output's holds the payload of those blocks. -/

-- membership in a rectangle with an axis of 10000 coordinates: the structural check recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is the entry contents and whose body leaves the block in place: where it is not fetched its
    index has not moved since the point that fetched it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is the entry contents and whose body leaves the block in place: where it is not fetched its
    index has not moved since the point that fetched it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is the entry contents and whose body leaves the block in place: where it is not fetched its
    index has not moved since the point that fetched it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is the entry contents and whose body leaves the block in place: where it is not fetched its
    index has not moved since the point that fetched it. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is the entry contents and whose body leaves the block in place: where it is not fetched its
    index has not moved since the point that fetched it. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S10000x128 := Rect.unit (s := S10000x128) ![0, 0] S10000x128.size inb_S10000x128_S10000x128_0_0
abbrev r1_1 : Rect S1x128 := Rect.unit (s := S1x128) ![0, 0] S1x128.size inb_S1x128_S1x128_0_0

/-! ## What the body leaves in the output window's buffer -/

/-- Window 5's staging buffer after the body, from the input windows' blocks: its one store, of the payload of
    the five loaded values, over the whole tile. -/
def out1_5 (x0 : Vec F S10000x128 .f32) (x1 : Vec F S1x128 .f32) (x2 : Vec F S1x128 .f32) (x3 : Vec F S1x128 .f32) (x4 : Vec F S1x128 .f32) : Vec F S10000x128 .f32 :=
  View.canon [⟨r1_0, k1_pay1 (View.ld x0 r1_0) (View.ld x1 r1_1) (View.ld x2 r1_1) (View.ld x3 r1_1) (View.ld x4 r1_1)⟩]

/-- The one store is of the whole tile, so it covers the buffer. -/
theorem cover1_5 (p0 : Vec F S10000x128 .f32) (y : S10000x128.Idx) :
    ∃ pc ∈ ([⟨r1_0, p0⟩] : List (View.Piece (Elt F) S10000x128 .f32)), y ∈ pc.1.set :=
  View.cover_of_tiled [⟨r1_0, p0⟩] S10000x128.size (by rfl) y

/-! ## The body's triple -/

set_option maxHeartbeats 1000000 in
/-- The kernel body on whole staging memrefs, the inputs' at contents `xW` and the output's at anything, runs to
    the continuation holding the inputs' as they were and the output's at `out1_5` of the inputs'. -/
theorem sound_kernel1 (c : Dev nD) (E : Set ℕ) (i : grid1.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S10000x128 .f32) (harg6 : arg6.IsWhole)
    (x0 : Vec F S10000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__bn_relu_kernel i arg1 harg1 arg2 harg2 arg3 harg3 arg4 harg4 arg5 harg5 arg6 harg6) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays at the entry contents; after the body at point `t` each
    input's buffer at its block and the output's at `out1_5` of the input blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- Every window is held at the full share. -/
theorem q_eq1 (c : Dev nD) (w : Fin cfg1.W) : (dat1 V c).q w = fullShare := by
  dsimp only [dat1]

/-- Nothing is owed at any point. -/
theorem owed_eq1 (c : Dev nD) (n : Fin (cfg1.N + 1)) : (dat1 V c).owed n = 0 := by
  dsimp only [dat1]

/-- The invariant at every point is the scoped rest with the generator register. -/
theorem Phi_eq1 (c : Dev nD) (n : Fin (cfg1.N + 1)) : (dat1 V c).Φ n = Pipeline.ΦA spec1 c := by
  dsimp only [dat1]

/-- The invariant holds at the first point of what the region is entered with, -/
theorem Phi_in1 (c : Dev nD) :
    (iprop((∃ r, prngReg c r) ∗ Pipeline.scopedRest (Ix := Unit) (Name := ℕ) (U := UR sig nD τ) (Lvl := ℕ) spec1 c) : sProp 𝕄) ⊢ (dat1 V c).Φ 0 := by
  rw [Phi_eq1]; unfold Pipeline.ΦA
  iintro ⟨Hr, Hp⟩
  isplitl [Hp]; · iexact Hp
  iexact Hr

/-- and gives it back at the last. -/
theorem Phi_out1 (c : Dev nD) :
    (dat1 V c).Φ (Fin.last cfg1.N) ⊢ (iprop((∃ r, prngReg c r) ∗ Pipeline.scopedRest (Ix := Unit) (Name := ℕ) (U := UR sig nD τ) (Lvl := ℕ) spec1 c) : sProp 𝕄) := by
  rw [Phi_eq1]; unfold Pipeline.ΦA
  iintro ⟨Hp, Hr⟩
  isplitl [Hr]; · iexact Hr
  iexact Hp

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.RegLS2.RunA.lean ====
import proofs.«413302_j72232759984513_1_alg».proof.Proof.Gen.KernelIdeal.Launch
import proofs.«413302_j72232759984513_1_alg».proof.Proof.Gen.KernelIdeal.Skeleton
import proofs.«413302_j72232759984513_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 2: the body's run at the first grid point

The body's one conditional tests whether the grid coordinate is zero; there it resets the two running sums before adding
to them. -/

/-- The condition of the body's conditional, from the grid coordinates. -/
abbrev cond2_0 (i : grid2.Coords) : Prop := (Scalar.cmpi .ne (Scalar.extui (Scalar.cmpi .eq (BitVec.ofNat 32 (i 0).val) 0#32)) 0#32) = 1#1
/-- It holds at the first point only: decided over the grid. -/
theorem hcond2_0 : ∀ t : Fin cfg2.N, cond2_0 (grid2.coords t) ↔ t.val % 10 = 0 :=
  (by decide +kernel : ∀ t : Fin grid2.N, cond2_0 (grid2.coords t) ↔ t.val % 10 = 0)

/-- One staging buffer of each output window, through which its contents are stated (the choice does not matter). -/
abbrev VO2_3 : View sig .tc .vmem S10000x128 .f32 := (Memref.whole cc2_stg3_0 : Memref sig .tc .vmem S10000x128 .f32).view
abbrev VO2_4 : View sig .tc .vmem S1x128 .f32 := (Memref.whole cc2_stg4_0 : Memref sig .tc .vmem S1x128 .f32).view
abbrev VO2_5 : View sig .tc .vmem S1x128 .f32 := (Memref.whole cc2_stg5_0 : Memref sig .tc .vmem S1x128 .f32).view

set_option maxHeartbeats 4000000 in
/-- The body where the condition holds. On whole staging memrefs, the three inputs' at contents `x0 x1 x2` and the three
    outputs' at anything, it runs to the continuation holding the inputs' as they were and each output's buffer with
    the pieces its stores wrote (last first): the pieces are the witness the run finds. -/
noncomputable def kernelRun2_A (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond2_0 i)
    (x0 : Vec F S10000x128 .f32) (x1 : Vec F S128x128 .f32) (x2 : Vec F S1x128 .f32) :
    Σ' (L3 : List (View.Piece (Elt F) S10000x128 .f32)), Σ' (L4 : List (View.Piece (Elt F) S1x128 .f32)), { L5 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc2__linear_stats_kernel i arg1 harg1 arg2 harg2 arg3 harg3 arg4 harg4 arg5 harg5 arg6 harg6) K } := by
  refine ⟨?_, ?_, ?_, fun E K => ?run⟩
  case run =>
    simp only [cc2__linear_stats_kernel_eq_skeleton]; unfold cc2__linear_stats_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

end Cert.KernelIdeal.Hand

end
-- ==== Proof.KI.RegLS2.RunB.lean ====
import proofs.«413302_j72232759984513_1_alg».proof.Proof.KI.RegLS2.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 2: the body's run at a later grid point

The condition fails: the two running sums are read as the point before left them and added to. -/

set_option maxHeartbeats 4000000 in
/-- The body where the condition fails. On whole staging memrefs, the three inputs' at contents `x0 x1 x2`, the two
    running sums' at `xo4 xo5` and the first output's at anything, it runs to the continuation holding the inputs' as they
    were and each output's buffer with the pieces its stores wrote (last first): the pieces are the witness the run finds. -/
noncomputable def kernelRun2_B (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond2_0 i)
    (x0 : Vec F S10000x128 .f32) (x1 : Vec F S128x128 .f32) (x2 : Vec F S1x128 .f32) (xo4 : Vec F S1x128 .f32) (xo5 : Vec F S1x128 .f32) :
    Σ' (L3 : List (View.Piece (Elt F) S10000x128 .f32)), Σ' (L4 : List (View.Piece (Elt F) S1x128 .f32)), { L5 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xo4 ∗ owns (c : Thread nD τ) arg6 fullShare xo5
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc2__linear_stats_kernel i arg1 harg1 arg2 harg2 arg3 harg3 arg4 harg4 arg5 harg5 arg6 harg6) K } := by
  refine ⟨?_, ?_, ?_, fun E K => ?run⟩
  case run =>
    simp only [cc2__linear_stats_kernel_eq_skeleton]; unfold cc2__linear_stats_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
    obtain rfl := harg1.eq_unread hf0; obtain rfl := harg2.eq_unread hf1; obtain rfl := harg3.eq_unread hf2
    obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

end Cert.KernelIdeal.Hand

end
-- ==== Proof.KI.RegLS2.lean ====
import proofs.«413302_j72232759984513_1_alg».proof.Proof.KI.RegLS2.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 2: the proof data and the body obligation, at the contents the region is entered with

The kernel stores `x·W + b` for its tile of rows in output window 3 and keeps two running sums, output windows 4 and 5:
reset at the first grid point, added to at every point, written back after the last. Everything is stated at a
parameter `V`, the TensorCore's buffer contents when the region is entered. -/

section Region

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's current staging buffer holds its block at every point, fetched there or not (unfetched, the block
    index has not moved), for any proof data whose array is the entry contents and whose body leaves the block in place. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Each window's current staging memref at point `t`, and its wholeness. -/
abbrev ms2_0 (t : Fin cfg2.N) : Memref sig .tc .vmem S10000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S128x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S10000x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128 .f32 := win2_5.stage (cfg2.slots t 5)
abbrev hs2_5 (t : Fin cfg2.N) : (ms2_5 t).IsWhole := hstage2_5 ((cfg2.slots t 5).cast nbuf2_5)

/-! ## What each case of the body leaves in the outputs' buffers -/

/-- The pieces the body where the condition holds writes to output 3 tile its block, so they cover it. -/
theorem cover2_A_3 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond2_0 i)
    (x0 : Vec F S10000x128 .f32) (x1 : Vec F S128x128 .f32) (x2 : Vec F S1x128 .f32) (y : S10000x128.Idx) :
    ∃ pc ∈ (kernelRun2_A c i arg1 harg1 arg2 harg2 arg3 harg3 arg4 harg4 arg5 harg5 arg6 harg6 hc0 x0 x1 x2).1, y ∈ pc.1.set :=
  View.cover_of_tiledL (kernelRun2_A c i arg1 harg1 arg2 harg2 arg3 harg3 arg4 harg4 arg5 harg5 arg6 harg6 hc0 x0 x1 x2).1 S10000x128.size (by sl_kernel_rfl) y

/-- What that run leaves in output 3's staging buffer: its pieces read back over arbitrary contents. -/
def out2_A_3 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond2_0 i)
    (x0 : Vec F S10000x128 .f32) (x1 : Vec F S128x128 .f32) (x2 : Vec F S1x128 .f32) : Vec F S10000x128 .f32 :=
  VO2_3.read (Elt F) (VO2_3.writes (Elt F) VO2_3.junk (kernelRun2_A c i arg1 harg1 arg2 harg2 arg3 harg3 arg4 harg4 arg5 harg5 arg6 harg6 hc0 x0 x1 x2).1)

/-- The pieces the body where the condition holds writes to output 4 tile its block, so they cover it. -/
theorem cover2_A_4 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond2_0 i)
    (x0 : Vec F S10000x128 .f32) (x1 : Vec F S128x128 .f32) (x2 : Vec F S1x128 .f32) (y : S1x128.Idx) :
    ∃ pc ∈ (kernelRun2_A c i arg1 harg1 arg2 harg2 arg3 harg3 arg4 harg4 arg5 harg5 arg6 harg6 hc0 x0 x1 x2).2.1, y ∈ pc.1.set :=
  View.cover_of_tiledL (kernelRun2_A c i arg1 harg1 arg2 harg2 arg3 harg3 arg4 harg4 arg5 harg5 arg6 harg6 hc0 x0 x1 x2).2.1 S1x128.size (by sl_kernel_rfl) y

/-- What that run leaves in output 4's staging buffer: its pieces read back over arbitrary contents. -/
def out2_A_4 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond2_0 i)
    (x0 : Vec F S10000x128 .f32) (x1 : Vec F S128x128 .f32) (x2 : Vec F S1x128 .f32) : Vec F S1x128 .f32 :=
  VO2_4.read (Elt F) (VO2_4.writes (Elt F) VO2_4.junk (kernelRun2_A c i arg1 harg1 arg2 harg2 arg3 harg3 arg4 harg4 arg5 harg5 arg6 harg6 hc0 x0 x1 x2).2.1)

/-- The pieces the body where the condition holds writes to output 5 tile its block, so they cover it. -/
theorem cover2_A_5 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond2_0 i)
    (x0 : Vec F S10000x128 .f32) (x1 : Vec F S128x128 .f32) (x2 : Vec F S1x128 .f32) (y : S1x128.Idx) :
    ∃ pc ∈ (kernelRun2_A c i arg1 harg1 arg2 harg2 arg3 harg3 arg4 harg4 arg5 harg5 arg6 harg6 hc0 x0 x1 x2).2.2.1, y ∈ pc.1.set :=
  View.cover_of_tiledL (kernelRun2_A c i arg1 harg1 arg2 harg2 arg3 harg3 arg4 harg4 arg5 harg5 arg6 harg6 hc0 x0 x1 x2).2.2.1 S1x128.size (by sl_kernel_rfl) y

/-- What that run leaves in output 5's staging buffer: its pieces read back over arbitrary contents. -/
def out2_A_5 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond2_0 i)
    (x0 : Vec F S10000x128 .f32) (x1 : Vec F S128x128 .f32) (x2 : Vec F S1x128 .f32) : Vec F S1x128 .f32 :=
  VO2_5.read (Elt F) (VO2_5.writes (Elt F) VO2_5.junk (kernelRun2_A c i arg1 harg1 arg2 harg2 arg3 harg3 arg4 harg4 arg5 harg5 arg6 harg6 hc0 x0 x1 x2).2.2.1)

/-- The pieces the body where the condition fails writes to output 3 tile its block, so they cover it. -/
theorem cover2_B_3 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond2_0 i)
    (x0 : Vec F S10000x128 .f32) (x1 : Vec F S128x128 .f32) (x2 : Vec F S1x128 .f32) (xo4 : Vec F S1x128 .f32) (xo5 : Vec F S1x128 .f32) (y : S10000x128.Idx) :
    ∃ pc ∈ (kernelRun2_B c i arg1 harg1 arg2 harg2 arg3 harg3 arg4 harg4 arg5 harg5 arg6 harg6 hc0 x0 x1 x2 xo4 xo5).1, y ∈ pc.1.set :=
  View.cover_of_tiledL (kernelRun2_B c i arg1 harg1 arg2 harg2 arg3 harg3 arg4 harg4 arg5 harg5 arg6 harg6 hc0 x0 x1 x2 xo4 xo5).1 S10000x128.size (by sl_kernel_rfl) y

/-- What that run leaves in output 3's staging buffer: its pieces read back over arbitrary contents. -/
def out2_B_3 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond2_0 i)
    (x0 : Vec F S10000x128 .f32) (x1 : Vec F S128x128 .f32) (x2 : Vec F S1x128 .f32) (xo4 : Vec F S1x128 .f32) (xo5 : Vec F S1x128 .f32) : Vec F S10000x128 .f32 :=
  VO2_3.read (Elt F) (VO2_3.writes (Elt F) VO2_3.junk (kernelRun2_B c i arg1 harg1 arg2 harg2 arg3 harg3 arg4 harg4 arg5 harg5 arg6 harg6 hc0 x0 x1 x2 xo4 xo5).1)

/-- The pieces the body where the condition fails writes to output 4 tile its block, so they cover it. -/
theorem cover2_B_4 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond2_0 i)
    (x0 : Vec F S10000x128 .f32) (x1 : Vec F S128x128 .f32) (x2 : Vec F S1x128 .f32) (xo4 : Vec F S1x128 .f32) (xo5 : Vec F S1x128 .f32) (y : S1x128.Idx) :
    ∃ pc ∈ (kernelRun2_B c i arg1 harg1 arg2 harg2 arg3 harg3 arg4 harg4 arg5 harg5 arg6 harg6 hc0 x0 x1 x2 xo4 xo5).2.1, y ∈ pc.1.set :=
  View.cover_of_tiledL (kernelRun2_B c i arg1 harg1 arg2 harg2 arg3 harg3 arg4 harg4 arg5 harg5 arg6 harg6 hc0 x0 x1 x2 xo4 xo5).2.1 S1x128.size (by sl_kernel_rfl) y

/-- What that run leaves in output 4's staging buffer: its pieces read back over arbitrary contents. -/
def out2_B_4 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond2_0 i)
    (x0 : Vec F S10000x128 .f32) (x1 : Vec F S128x128 .f32) (x2 : Vec F S1x128 .f32) (xo4 : Vec F S1x128 .f32) (xo5 : Vec F S1x128 .f32) : Vec F S1x128 .f32 :=
  VO2_4.read (Elt F) (VO2_4.writes (Elt F) VO2_4.junk (kernelRun2_B c i arg1 harg1 arg2 harg2 arg3 harg3 arg4 harg4 arg5 harg5 arg6 harg6 hc0 x0 x1 x2 xo4 xo5).2.1)

/-- The pieces the body where the condition fails writes to output 5 tile its block, so they cover it. -/
theorem cover2_B_5 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond2_0 i)
    (x0 : Vec F S10000x128 .f32) (x1 : Vec F S128x128 .f32) (x2 : Vec F S1x128 .f32) (xo4 : Vec F S1x128 .f32) (xo5 : Vec F S1x128 .f32) (y : S1x128.Idx) :
    ∃ pc ∈ (kernelRun2_B c i arg1 harg1 arg2 harg2 arg3 harg3 arg4 harg4 arg5 harg5 arg6 harg6 hc0 x0 x1 x2 xo4 xo5).2.2.1, y ∈ pc.1.set :=
  View.cover_of_tiledL (kernelRun2_B c i arg1 harg1 arg2 harg2 arg3 harg3 arg4 harg4 arg5 harg5 arg6 harg6 hc0 x0 x1 x2 xo4 xo5).2.2.1 S1x128.size (by sl_kernel_rfl) y

/-- What that run leaves in output 5's staging buffer: its pieces read back over arbitrary contents. -/
def out2_B_5 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond2_0 i)
    (x0 : Vec F S10000x128 .f32) (x1 : Vec F S128x128 .f32) (x2 : Vec F S1x128 .f32) (xo4 : Vec F S1x128 .f32) (xo5 : Vec F S1x128 .f32) : Vec F S1x128 .f32 :=
  VO2_5.read (Elt F) (VO2_5.writes (Elt F) VO2_5.junk (kernelRun2_B c i arg1 harg1 arg2 harg2 arg3 harg3 arg4 harg4 arg5 harg5 arg6 harg6 hc0 x0 x1 x2 xo4 xo5).2.2.1)

/-! ## What the outputs hold after each point -/

/-- What the three outputs' staging buffers hold after the body at position `n`, by recursion on the point: at the first
    point the resetting case, run at the point's input blocks; at a later point the adding case, the running sums read
    as the point before left them (their buffers are not written back between). -/
def outsAt2 (c : Dev nD) : (n : ℕ) → n < cfg2.N → Vec F S10000x128 .f32 × Vec F S1x128 .f32 × Vec F S1x128 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) ((hcond2_0 ⟨0, hn⟩).mpr (Nat.zero_mod _)) (iblk2 V c 0 ⟨0, hn⟩) (iblk2 V c 1 ⟨0, hn⟩) (iblk2 V c 2 ⟨0, hn⟩),
       out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) ((hcond2_0 ⟨0, hn⟩).mpr (Nat.zero_mod _)) (iblk2 V c 0 ⟨0, hn⟩) (iblk2 V c 1 ⟨0, hn⟩) (iblk2 V c 2 ⟨0, hn⟩),
       out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) ((hcond2_0 ⟨0, hn⟩).mpr (Nat.zero_mod _)) (iblk2 V c 0 ⟨0, hn⟩) (iblk2 V c 1 ⟨0, hn⟩) (iblk2 V c 2 ⟨0, hn⟩))
  | n + 1, hn =>
    if h0 : (n + 1) % 10 = 0 then
      (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) ((hcond2_0 ⟨n + 1, hn⟩).mpr h0) (iblk2 V c 0 ⟨n + 1, hn⟩) (iblk2 V c 1 ⟨n + 1, hn⟩) (iblk2 V c 2 ⟨n + 1, hn⟩),
       out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) ((hcond2_0 ⟨n + 1, hn⟩).mpr h0) (iblk2 V c 0 ⟨n + 1, hn⟩) (iblk2 V c 1 ⟨n + 1, hn⟩) (iblk2 V c 2 ⟨n + 1, hn⟩),
       out2_A_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) ((hcond2_0 ⟨n + 1, hn⟩).mpr h0) (iblk2 V c 0 ⟨n + 1, hn⟩) (iblk2 V c 1 ⟨n + 1, hn⟩) (iblk2 V c 2 ⟨n + 1, hn⟩))
    else
      (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.1 (outsAt2 c n (Nat.lt_of_succ_lt hn)).2.2,
       out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.1 (outsAt2 c n (Nat.lt_of_succ_lt hn)).2.2,
       out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.1 (outsAt2 c n (Nat.lt_of_succ_lt hn)).2.2)

/-- `outsAt2` at a point where the condition holds. -/
theorem outsAt2_A (c : Dev nD) (t : Fin cfg2.N) (h0 : t.val % 10 = 0) :
    outsAt2 V c t.val t.isLt = (out2_A_3 c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t),
       out2_A_4 c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t),
       out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t)) := by
  obtain ⟨n, hn⟩ := t
  cases n with
  | zero => exact rfl
  | succ n => exact (dif_pos h0).trans rfl

/-- `outsAt2` at a point where it fails: over what the point before left. -/
theorem outsAt2_B (c : Dev nD) (t : Fin cfg2.N) (h0 : ¬t.val % 10 = 0) :
    outsAt2 V c t.val t.isLt = (out2_B_3 c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t) (outsAt2 V c (t.val - 1) (Nat.lt_of_le_of_lt (Nat.sub_le _ _) t.isLt)).2.1 (outsAt2 V c (t.val - 1) (Nat.lt_of_le_of_lt (Nat.sub_le _ _) t.isLt)).2.2,
       out2_B_4 c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t) (outsAt2 V c (t.val - 1) (Nat.lt_of_le_of_lt (Nat.sub_le _ _) t.isLt)).2.1 (outsAt2 V c (t.val - 1) (Nat.lt_of_le_of_lt (Nat.sub_le _ _) t.isLt)).2.2,
       out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t` each
    input's buffer at its block and the outputs' at `outsAt2`; the invariant the scoped rest and the generator register,
    untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
    | ⟨4, _⟩ => (outsAt2 V c t.val t.isLt).2.1
    | ⟨5, _⟩ => (outsAt2 V c t.val t.isLt).2.2
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]
/-- Its shares are full. -/
theorem q_eq2 (c : Dev nD) (w : Fin cfg2.W) : (dat2 V c).q w = fullShare := by
  dsimp only [dat2]
/-- It owes nothing. -/
theorem owed_eq2 (c : Dev nD) (n : Fin (cfg2.N + 1)) : (dat2 V c).owed n = 0 := by
  dsimp only [dat2]

/-- The generator register and the scoped rest make the invariant at the first boundary, -/
theorem Phi_in2 (c : Dev nD) : (iprop((∃ r, prngReg c r) ∗ Pipeline.scopedRest (Ix := Unit) (Name := ℕ) (U := UR sig nD τ) (Lvl := ℕ) spec2 c) : sProp 𝕄) ⊢ (dat2 V c).Φ 0 := by
  rw [show (dat2 V c).Φ 0 = Pipeline.ΦA spec2 c from rfl]; unfold Pipeline.ΦA
  iintro ⟨Hp, Hr⟩
  isplitl [Hr]; · iexact Hr
  iexact Hp
/-- and the invariant at the last gives them back. -/
theorem Phi_out2 (c : Dev nD) : (dat2 V c).Φ (Fin.last cfg2.N) ⊢ (iprop((∃ r, prngReg c r) ∗ Pipeline.scopedRest (Ix := Unit) (Name := ℕ) (U := UR sig nD τ) (Lvl := ℕ) spec2 c) : sProp 𝕄) := by
  rw [show (dat2 V c).Φ (Fin.last _) = Pipeline.ΦA spec2 c from rfl]; unfold Pipeline.ΦA
  iintro ⟨Hr, Hp⟩
  isplitl [Hp]; · iexact Hp
  iexact Hr

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem after2_4 (c : Dev nD) (t : Fin cfg2.N) : (dat2 V c).after 4 t = (outsAt2 V c t.val t.isLt).2.1 := by dsimp only [dat2]
theorem after2_5 (c : Dev nD) (t : Fin cfg2.N) : (dat2 V c).after 5 t = (outsAt2 V c t.val t.isLt).2.2 := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
/-- At a later point a running sum's staging buffer holds what the body left at the point before: the buffer was not
    written back between, and the window is live and uncut. -/
theorem before2_4_B (c : Dev nD) (t : Fin cfg2.N) (h0 : ¬t.val % 10 = 0) (d) :
    (dat2 V c).before 4 t d = (outsAt2 V c (t.val - 1) (Nat.lt_of_le_of_lt (Nat.sub_le _ _) t.isLt)).2.1 := by
  have hN : t.val < 10 := lt_of_lt_of_eq t.isLt (show cfg2.N = 10 from N_2)
  rw [Dat.before_out_kept _ 4 rfl t (by omega) (Bool.eq_false_iff.mpr fun h => by have := (flush2_4 _).mp h; dsimp only at this; omega)
    (fun _ => rfl) (fun _ _ => rfl)]
  dsimp only [dat2]
theorem before2_5_B (c : Dev nD) (t : Fin cfg2.N) (h0 : ¬t.val % 10 = 0) (d) :
    (dat2 V c).before 5 t d = (outsAt2 V c (t.val - 1) (Nat.lt_of_le_of_lt (Nat.sub_le _ _) t.isLt)).2.2 := by
  have hN : t.val < 10 := lt_of_lt_of_eq t.isLt (show cfg2.N = 10 from N_2)
  rw [Dat.before_out_kept _ 5 rfl t (by omega) (Bool.eq_false_iff.mpr fun h => by have := (flush2_5 _).mp h; dsimp only at this; omega)
    (fun _ => rfl) (fun _ _ => rfl)]
  dsimp only [dat2]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

set_option maxHeartbeats 1600000 in
/-- The body at any point: the inputs' memrefs hold their blocks; the closed form of the condition says which case the
    point is in; at a later point the running sums hold what the point before left; so that case's run applies; the
    invariant passes through unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4, after2_5]
  have hN : t.val < 10 := lt_of_lt_of_eq t.isLt (show cfg2.N = 10 from N_2)
  by_cases h0 : t.val % 10 = 0
  · rw [outsAt2_A V c t h0]
    try dsimp only
    unfold out2_A_3 out2_A_4 out2_A_5
    iintro ⟨HΦ, Ho, ⟨%d0, H0⟩, ⟨%d1, H1⟩, ⟨%d2, H2⟩, ⟨%d3, H3⟩, ⟨%d4, H4⟩, ⟨%d5, H5⟩⟩
    iapply ((kernelRun2_A c (grid2.coords t) _ _ _ _ _ _ _ _ _ _ _ _ ((hcond2_0 t).mpr h0) (iblk2 V c 0 t) (iblk2 V c 1 t) (iblk2 V c 2 t)).2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover2_A_3 c _ _ _ _ _ _ _ _ _ _ _ _ _ _ _ _ _)
    isplitl [H4]
    · unfold owns; iexists _; isplitr
      swap; · iexact H4
      ipureintro; exact View.read_writes_of_cover _ _ _ _ _ (cover2_A_4 c _ _ _ _ _ _ _ _ _ _ _ _ _ _ _ _ _)
    unfold owns; iexists _; isplitr
    swap; · iexact H5
    ipureintro; exact View.read_writes_of_cover _ _ _ _ _ (cover2_A_5 c _ _ _ _ _ _ _ _ _ _ _ _ _ _ _ _ _)
  · rw [outsAt2_B V c t h0]
    simp only [before2_4_B V c t h0, before2_5_B V c t h0]
    try dsimp only
    unfold out2_B_3 out2_B_4 out2_B_5
    iintro ⟨HΦ, Ho, ⟨%d0, H0⟩, ⟨%d1, H1⟩, ⟨%d2, H2⟩, ⟨%d3, H3⟩, ⟨%d4, H4⟩, ⟨%d5, H5⟩⟩
    iapply ((kernelRun2_B c (grid2.coords t) _ _ _ _ _ _ _ _ _ _ _ _ (fun h => h0 ((hcond2_0 t).mp h)) (iblk2 V c 0 t) (iblk2 V c 1 t) (iblk2 V c 2 t) _ _).2.2.2 Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover2_B_3 c _ _ _ _ _ _ _ _ _ _ _ _ _ _ _ _ _ _ _)
    isplitl [H4]
    · unfold owns; iexists _; isplitr
      swap; · iexact H4
      ipureintro; exact View.read_writes_of_cover _ _ _ _ _ (cover2_B_4 c _ _ _ _ _ _ _ _ _ _ _ _ _ _ _ _ _ _ _)
    unfold owns; iexists _; isplitr
    swap; · iexact H5
    ipureintro; exact View.read_writes_of_cover _ _ _ _ _ (cover2_B_5 c _ _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region

end Cert.KernelIdeal.Hand

end
-- ==== Proof.KI.RegBN3.lean ====
import proofs.«413302_j72232759984513_1_alg».proof.Proof.Gen.KernelIdeal.Launch
import proofs.«413302_j72232759984513_1_alg».proof.Proof.Gen.KernelIdeal.Skeleton
import proofs.«413302_j72232759984513_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Kernel region 3: the batch-norm-and-ReLU body, its frame half

The body reads a tile of 10000 rows of `h` and four rows `mu`, `inv`, `g`, `be` of 128 lanes each, and stores
`max ((h - mu) * inv * g + be) 0` over the whole output tile. Its six windows are staged whole, so each input's
buffer holds its block of the entry contents at every point and the output's holds the payload of those blocks. -/

-- membership in a rectangle with an axis of 10000 coordinates: the structural check recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array at the entry contents. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is the entry contents and whose body leaves the block in place: where it is not fetched its
    index has not moved since the point that fetched it. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is the entry contents and whose body leaves the block in place: where it is not fetched its
    index has not moved since the point that fetched it. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is the entry contents and whose body leaves the block in place: where it is not fetched its
    index has not moved since the point that fetched it. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is the entry contents and whose body leaves the block in place: where it is not fetched its
    index has not moved since the point that fetched it. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof
    data whose array is the entry contents and whose body leaves the block in place: where it is not fetched its
    index has not moved since the point that fetched it. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S10000x128 := Rect.unit (s := S10000x128) ![0, 0] S10000x128.size inb_S10000x128_S10000x128_0_0
abbrev r3_1 : Rect S1x128 := Rect.unit (s := S1x128) ![0, 0] S1x128.size inb_S1x128_S1x128_0_0

/-! ## What the body leaves in the output window's buffer -/

/-- Window 5's staging buffer after the body, from the input windows' blocks: its one store, of the payload of
    the five loaded values, over the whole tile. -/
def out3_5 (x0 : Vec F S10000x128 .f32) (x1 : Vec F S1x128 .f32) (x2 : Vec F S1x128 .f32) (x3 : Vec F S1x128 .f32) (x4 : Vec F S1x128 .f32) : Vec F S10000x128 .f32 :=
  View.canon [⟨r3_0, k3_pay1 (View.ld x0 r3_0) (View.ld x1 r3_1) (View.ld x2 r3_1) (View.ld x3 r3_1) (View.ld x4 r3_1)⟩]

/-- The one store is of the whole tile, so it covers the buffer. -/
theorem cover3_5 (p0 : Vec F S10000x128 .f32) (y : S10000x128.Idx) :
    ∃ pc ∈ ([⟨r3_0, p0⟩] : List (View.Piece (Elt F) S10000x128 .f32)), y ∈ pc.1.set :=
  View.cover_of_tiled [⟨r3_0, p0⟩] S10000x128.size (by rfl) y

/-! ## The body's triple -/

set_option maxHeartbeats 1000000 in
/-- The kernel body on whole staging memrefs, the inputs' at contents `xW` and the output's at anything, runs to
    the continuation holding the inputs' as they were and the output's at `out3_5` of the inputs'. -/
theorem sound_kernel3 (c : Dev nD) (E : Set ℕ) (i : grid3.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S10000x128 .f32) (harg6 : arg6.IsWhole)
    (x0 : Vec F S10000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__bn_relu_kernel i arg1 harg1 arg2 harg2 arg3 harg3 arg4 harg4 arg5 harg5 arg6 harg6) K := by
  simp only [cc3__bn_relu_kernel_eq_skeleton]; unfold cc3__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core `c`: the arrays at the entry contents; after the body at point `t` each
    input's buffer at its block and the output's at `out3_5` of the input blocks; the invariant the scoped rest and
    the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the entry contents. -/
theorem A_eq3 (c : Dev nD) (w : Fin cfg3.W) : (dat3 V c).A w = V c (Pipeline.arrRef spec3 w) := by
  dsimp only [dat3]

/-- Every window is held at the full share. -/
theorem q_eq3 (c : Dev nD) (w : Fin cfg3.W) : (dat3 V c).q w = fullShare := by
  dsimp only [dat3]

/-- Nothing is owed at any point. -/
theorem owed_eq3 (c : Dev nD) (n : Fin (cfg3.N + 1)) : (dat3 V c).owed n = 0 := by
  dsimp only [dat3]

/-- The invariant at every point is the scoped rest with the generator register. -/
theorem Phi_eq3 (c : Dev nD) (n : Fin (cfg3.N + 1)) : (dat3 V c).Φ n = Pipeline.ΦA spec3 c := by
  dsimp only [dat3]

/-- The invariant holds at the first point of what the region is entered with, -/
theorem Phi_in3 (c : Dev nD) :
    (iprop((∃ r, prngReg c r) ∗ Pipeline.scopedRest (Ix := Unit) (Name := ℕ) (U := UR sig nD τ) (Lvl := ℕ) spec3 c) : sProp 𝕄) ⊢ (dat3 V c).Φ 0 := by
  rw [Phi_eq3]; unfold Pipeline.ΦA
  iintro ⟨Hr, Hp⟩
  isplitl [Hp]; · iexact Hp
  iexact Hr

/-- and gives it back at the last. -/
theorem Phi_out3 (c : Dev nD) :
    (dat3 V c).Φ (Fin.last cfg3.N) ⊢ (iprop((∃ r, prngReg c r) ∗ Pipeline.scopedRest (Ix := Unit) (Name := ℕ) (U := UR sig nD τ) (Lvl := ℕ) spec3 c) : sProp 𝕄) := by
  rw [Phi_eq3]; unfold Pipeline.ΦA
  iintro ⟨Hp, Hr⟩
  isplitl [Hr]; · iexact Hr
  iexact Hp

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so the body's triple applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.RegLS4.RunA.lean ====
import proofs.«413302_j72232759984513_1_alg».proof.Proof.Gen.KernelIdeal.Launch
import proofs.«413302_j72232759984513_1_alg».proof.Proof.Gen.KernelIdeal.Skeleton
import proofs.«413302_j72232759984513_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 4: the body's run at the first grid point

The body's one conditional tests whether the grid coordinate is zero; there it resets the two running sums before adding
to them. -/

/-- The condition of the body's conditional, from the grid coordinates. -/
abbrev cond4_0 (i : grid4.Coords) : Prop := (Scalar.cmpi .ne (Scalar.extui (Scalar.cmpi .eq (BitVec.ofNat 32 (i 0).val) 0#32)) 0#32) = 1#1
/-- It holds at the first point only: decided over the grid. -/
theorem hcond4_0 : ∀ t : Fin cfg4.N, cond4_0 (grid4.coords t) ↔ t.val % 10 = 0 :=
  (by decide +kernel : ∀ t : Fin grid4.N, cond4_0 (grid4.coords t) ↔ t.val % 10 = 0)

/-- One staging buffer of each output window, through which its contents are stated (the choice does not matter). -/
abbrev VO4_3 : View sig .tc .vmem S10000x128 .f32 := (Memref.whole cc4_stg3_0 : Memref sig .tc .vmem S10000x128 .f32).view
abbrev VO4_4 : View sig .tc .vmem S1x128 .f32 := (Memref.whole cc4_stg4_0 : Memref sig .tc .vmem S1x128 .f32).view
abbrev VO4_5 : View sig .tc .vmem S1x128 .f32 := (Memref.whole cc4_stg5_0 : Memref sig .tc .vmem S1x128 .f32).view

set_option maxHeartbeats 4000000 in
/-- The body where the condition holds. On whole staging memrefs, the three inputs' at contents `x0 x1 x2` and the three
    outputs' at anything, it runs to the continuation holding the inputs' as they were and each output's buffer with
    the pieces its stores wrote (last first): the pieces are the witness the run finds. -/
noncomputable def kernelRun4_A (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond4_0 i)
    (x0 : Vec F S10000x128 .f32) (x1 : Vec F S128x128 .f32) (x2 : Vec F S1x128 .f32) :
    Σ' (L3 : List (View.Piece (Elt F) S10000x128 .f32)), Σ' (L4 : List (View.Piece (Elt F) S1x128 .f32)), { L5 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc4__linear_stats_kernel i arg1 harg1 arg2 harg2 arg3 harg3 arg4 harg4 arg5 harg5 arg6 harg6) K } := by
  refine ⟨?_, ?_, ?_, fun E K => ?run⟩
  case run =>
    simp only [cc4__linear_stats_kernel_eq_skeleton]; unfold cc4__linear_stats_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

end Cert.KernelIdeal.Hand

end
-- ==== Proof.KI.RegLS4.RunB.lean ====
import proofs.«413302_j72232759984513_1_alg».proof.Proof.KI.RegLS4.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 4: the body's run at a later grid point

The condition fails: the two running sums are read as the point before left them and added to. -/

set_option maxHeartbeats 4000000 in
/-- The body where the condition fails. On whole staging memrefs, the three inputs' at contents `x0 x1 x2`, the two
    running sums' at `xo4 xo5` and the first output's at anything, it runs to the continuation holding the inputs' as they
    were and each output's buffer with the pieces its stores wrote (last first): the pieces are the witness the run finds. -/
noncomputable def kernelRun4_B (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i)
    (x0 : Vec F S10000x128 .f32) (x1 : Vec F S128x128 .f32) (x2 : Vec F S1x128 .f32) (xo4 : Vec F S1x128 .f32) (xo5 : Vec F S1x128 .f32) :
    Σ' (L3 : List (View.Piece (Elt F) S10000x128 .f32)), Σ' (L4 : List (View.Piece (Elt F) S1x128 .f32)), { L5 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xo4 ∗ owns (c : Thread nD τ) arg6 fullShare xo5
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc4__linear_stats_kernel i arg1 harg1 arg2 harg2 arg3 harg3 arg4 harg4 arg5 harg5 arg6 harg6) K } := by
  refine ⟨?_, ?_, ?_, fun E K => ?run⟩
  case run =>
    simp only [cc4__linear_stats_kernel_eq_skeleton]; unfold cc4__linear_stats_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
    obtain rfl := harg1.eq_unread hf0; obtain rfl := harg2.eq_unread hf1; obtain rfl := harg3.eq_unread hf2
    obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

end Cert.KernelIdeal.Hand

end
-- ==== Proof.KI.RegLS4.lean ====
import proofs.«413302_j72232759984513_1_alg».proof.Proof.KI.RegLS4.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 4: the proof data and the body obligation, at the contents the region is entered with

The kernel stores `x·W + b` for its tile of rows in output window 3 and keeps two running sums, output windows 4 and 5:
reset at the first grid point, added to at every point, written back after the last. Everything is stated at a
parameter `V`, the TensorCore's buffer contents when the region is entered. -/

section Region

variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! An input window's current staging buffer holds its block at every point, fetched there or not (unfetched, the block
    index has not moved), for any proof data whose array is the entry contents and whose body leaves the block in place. -/

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Each window's current staging memref at point `t`, and its wholeness. -/
abbrev ms4_0 (t : Fin cfg4.N) : Memref sig .tc .vmem S10000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S128x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S10000x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x128 .f32 := win4_5.stage (cfg4.slots t 5)
abbrev hs4_5 (t : Fin cfg4.N) : (ms4_5 t).IsWhole := hstage4_5 ((cfg4.slots t 5).cast nbuf4_5)

/-! ## What each case of the body leaves in the outputs' buffers -/

/-- The pieces the body where the condition holds writes to output 3 tile its block, so they cover it. -/
theorem cover4_A_3 (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond4_0 i)
    (x0 : Vec F S10000x128 .f32) (x1 : Vec F S128x128 .f32) (x2 : Vec F S1x128 .f32) (y : S10000x128.Idx) :
    ∃ pc ∈ (kernelRun4_A c i arg1 harg1 arg2 harg2 arg3 harg3 arg4 harg4 arg5 harg5 arg6 harg6 hc0 x0 x1 x2).1, y ∈ pc.1.set :=
  View.cover_of_tiledL (kernelRun4_A c i arg1 harg1 arg2 harg2 arg3 harg3 arg4 harg4 arg5 harg5 arg6 harg6 hc0 x0 x1 x2).1 S10000x128.size (by sl_kernel_rfl) y

/-- What that run leaves in output 3's staging buffer: its pieces read back over arbitrary contents. -/
def out4_A_3 (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond4_0 i)
    (x0 : Vec F S10000x128 .f32) (x1 : Vec F S128x128 .f32) (x2 : Vec F S1x128 .f32) : Vec F S10000x128 .f32 :=
  VO4_3.read (Elt F) (VO4_3.writes (Elt F) VO4_3.junk (kernelRun4_A c i arg1 harg1 arg2 harg2 arg3 harg3 arg4 harg4 arg5 harg5 arg6 harg6 hc0 x0 x1 x2).1)

/-- The pieces the body where the condition holds writes to output 4 tile its block, so they cover it. -/
theorem cover4_A_4 (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond4_0 i)
    (x0 : Vec F S10000x128 .f32) (x1 : Vec F S128x128 .f32) (x2 : Vec F S1x128 .f32) (y : S1x128.Idx) :
    ∃ pc ∈ (kernelRun4_A c i arg1 harg1 arg2 harg2 arg3 harg3 arg4 harg4 arg5 harg5 arg6 harg6 hc0 x0 x1 x2).2.1, y ∈ pc.1.set :=
  View.cover_of_tiledL (kernelRun4_A c i arg1 harg1 arg2 harg2 arg3 harg3 arg4 harg4 arg5 harg5 arg6 harg6 hc0 x0 x1 x2).2.1 S1x128.size (by sl_kernel_rfl) y

/-- What that run leaves in output 4's staging buffer: its pieces read back over arbitrary contents. -/
def out4_A_4 (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond4_0 i)
    (x0 : Vec F S10000x128 .f32) (x1 : Vec F S128x128 .f32) (x2 : Vec F S1x128 .f32) : Vec F S1x128 .f32 :=
  VO4_4.read (Elt F) (VO4_4.writes (Elt F) VO4_4.junk (kernelRun4_A c i arg1 harg1 arg2 harg2 arg3 harg3 arg4 harg4 arg5 harg5 arg6 harg6 hc0 x0 x1 x2).2.1)

/-- The pieces the body where the condition holds writes to output 5 tile its block, so they cover it. -/
theorem cover4_A_5 (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond4_0 i)
    (x0 : Vec F S10000x128 .f32) (x1 : Vec F S128x128 .f32) (x2 : Vec F S1x128 .f32) (y : S1x128.Idx) :
    ∃ pc ∈ (kernelRun4_A c i arg1 harg1 arg2 harg2 arg3 harg3 arg4 harg4 arg5 harg5 arg6 harg6 hc0 x0 x1 x2).2.2.1, y ∈ pc.1.set :=
  View.cover_of_tiledL (kernelRun4_A c i arg1 harg1 arg2 harg2 arg3 harg3 arg4 harg4 arg5 harg5 arg6 harg6 hc0 x0 x1 x2).2.2.1 S1x128.size (by sl_kernel_rfl) y

/-- What that run leaves in output 5's staging buffer: its pieces read back over arbitrary contents. -/
def out4_A_5 (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond4_0 i)
    (x0 : Vec F S10000x128 .f32) (x1 : Vec F S128x128 .f32) (x2 : Vec F S1x128 .f32) : Vec F S1x128 .f32 :=
  VO4_5.read (Elt F) (VO4_5.writes (Elt F) VO4_5.junk (kernelRun4_A c i arg1 harg1 arg2 harg2 arg3 harg3 arg4 harg4 arg5 harg5 arg6 harg6 hc0 x0 x1 x2).2.2.1)

/-- The pieces the body where the condition fails writes to output 3 tile its block, so they cover it. -/
theorem cover4_B_3 (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i)
    (x0 : Vec F S10000x128 .f32) (x1 : Vec F S128x128 .f32) (x2 : Vec F S1x128 .f32) (xo4 : Vec F S1x128 .f32) (xo5 : Vec F S1x128 .f32) (y : S10000x128.Idx) :
    ∃ pc ∈ (kernelRun4_B c i arg1 harg1 arg2 harg2 arg3 harg3 arg4 harg4 arg5 harg5 arg6 harg6 hc0 x0 x1 x2 xo4 xo5).1, y ∈ pc.1.set :=
  View.cover_of_tiledL (kernelRun4_B c i arg1 harg1 arg2 harg2 arg3 harg3 arg4 harg4 arg5 harg5 arg6 harg6 hc0 x0 x1 x2 xo4 xo5).1 S10000x128.size (by sl_kernel_rfl) y

/-- What that run leaves in output 3's staging buffer: its pieces read back over arbitrary contents. -/
def out4_B_3 (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i)
    (x0 : Vec F S10000x128 .f32) (x1 : Vec F S128x128 .f32) (x2 : Vec F S1x128 .f32) (xo4 : Vec F S1x128 .f32) (xo5 : Vec F S1x128 .f32) : Vec F S10000x128 .f32 :=
  VO4_3.read (Elt F) (VO4_3.writes (Elt F) VO4_3.junk (kernelRun4_B c i arg1 harg1 arg2 harg2 arg3 harg3 arg4 harg4 arg5 harg5 arg6 harg6 hc0 x0 x1 x2 xo4 xo5).1)

/-- The pieces the body where the condition fails writes to output 4 tile its block, so they cover it. -/
theorem cover4_B_4 (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i)
    (x0 : Vec F S10000x128 .f32) (x1 : Vec F S128x128 .f32) (x2 : Vec F S1x128 .f32) (xo4 : Vec F S1x128 .f32) (xo5 : Vec F S1x128 .f32) (y : S1x128.Idx) :
    ∃ pc ∈ (kernelRun4_B c i arg1 harg1 arg2 harg2 arg3 harg3 arg4 harg4 arg5 harg5 arg6 harg6 hc0 x0 x1 x2 xo4 xo5).2.1, y ∈ pc.1.set :=
  View.cover_of_tiledL (kernelRun4_B c i arg1 harg1 arg2 harg2 arg3 harg3 arg4 harg4 arg5 harg5 arg6 harg6 hc0 x0 x1 x2 xo4 xo5).2.1 S1x128.size (by sl_kernel_rfl) y

/-- What that run leaves in output 4's staging buffer: its pieces read back over arbitrary contents. -/
def out4_B_4 (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i)
    (x0 : Vec F S10000x128 .f32) (x1 : Vec F S128x128 .f32) (x2 : Vec F S1x128 .f32) (xo4 : Vec F S1x128 .f32) (xo5 : Vec F S1x128 .f32) : Vec F S1x128 .f32 :=
  VO4_4.read (Elt F) (VO4_4.writes (Elt F) VO4_4.junk (kernelRun4_B c i arg1 harg1 arg2 harg2 arg3 harg3 arg4 harg4 arg5 harg5 arg6 harg6 hc0 x0 x1 x2 xo4 xo5).2.1)

/-- The pieces the body where the condition fails writes to output 5 tile its block, so they cover it. -/
theorem cover4_B_5 (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i)
    (x0 : Vec F S10000x128 .f32) (x1 : Vec F S128x128 .f32) (x2 : Vec F S1x128 .f32) (xo4 : Vec F S1x128 .f32) (xo5 : Vec F S1x128 .f32) (y : S1x128.Idx) :
    ∃ pc ∈ (kernelRun4_B c i arg1 harg1 arg2 harg2 arg3 harg3 arg4 harg4 arg5 harg5 arg6 harg6 hc0 x0 x1 x2 xo4 xo5).2.2.1, y ∈ pc.1.set :=
  View.cover_of_tiledL (kernelRun4_B c i arg1 harg1 arg2 harg2 arg3 harg3 arg4 harg4 arg5 harg5 arg6 harg6 hc0 x0 x1 x2 xo4 xo5).2.2.1 S1x128.size (by sl_kernel_rfl) y

/-- What that run leaves in output 5's staging buffer: its pieces read back over arbitrary contents. -/
def out4_B_5 (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i)
    (x0 : Vec F S10000x128 .f32) (x1 : Vec F S128x128 .f32) (x2 : Vec F S1x128 .f32) (xo4 : Vec F S1x128 .f32) (xo5 : Vec F S1x128 .f32) : Vec F S1x128 .f32 :=
  VO4_5.read (Elt F) (VO4_5.writes (Elt F) VO4_5.junk (kernelRun4_B c i arg1 harg1 arg2 harg2 arg3 harg3 arg4 harg4 arg5 harg5 arg6 harg6 hc0 x0 x1 x2 xo4 xo5).2.2.1)

/-! ## What the outputs hold after each point -/

/-- What the three outputs' staging buffers hold after the body at position `n`, by recursion on the point: at the first
    point the resetting case, run at the point's input blocks; at a later point the adding case, the running sums read
    as the point before left them (their buffers are not written back between). -/
def outsAt4 (c : Dev nD) : (n : ℕ) → n < cfg4.N → Vec F S10000x128 .f32 × Vec F S1x128 .f32 × Vec F S1x128 .f32
  | 0, hn => (out4_A_3 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) ((hcond4_0 ⟨0, hn⟩).mpr (Nat.zero_mod _)) (iblk4 V c 0 ⟨0, hn⟩) (iblk4 V c 1 ⟨0, hn⟩) (iblk4 V c 2 ⟨0, hn⟩),
       out4_A_4 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) ((hcond4_0 ⟨0, hn⟩).mpr (Nat.zero_mod _)) (iblk4 V c 0 ⟨0, hn⟩) (iblk4 V c 1 ⟨0, hn⟩) (iblk4 V c 2 ⟨0, hn⟩),
       out4_A_5 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) ((hcond4_0 ⟨0, hn⟩).mpr (Nat.zero_mod _)) (iblk4 V c 0 ⟨0, hn⟩) (iblk4 V c 1 ⟨0, hn⟩) (iblk4 V c 2 ⟨0, hn⟩))
  | n + 1, hn =>
    if h0 : (n + 1) % 10 = 0 then
      (out4_A_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) ((hcond4_0 ⟨n + 1, hn⟩).mpr h0) (iblk4 V c 0 ⟨n + 1, hn⟩) (iblk4 V c 1 ⟨n + 1, hn⟩) (iblk4 V c 2 ⟨n + 1, hn⟩),
       out4_A_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) ((hcond4_0 ⟨n + 1, hn⟩).mpr h0) (iblk4 V c 0 ⟨n + 1, hn⟩) (iblk4 V c 1 ⟨n + 1, hn⟩) (iblk4 V c 2 ⟨n + 1, hn⟩),
       out4_A_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) ((hcond4_0 ⟨n + 1, hn⟩).mpr h0) (iblk4 V c 0 ⟨n + 1, hn⟩) (iblk4 V c 1 ⟨n + 1, hn⟩) (iblk4 V c 2 ⟨n + 1, hn⟩))
    else
      (out4_B_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (fun h => h0 ((hcond4_0 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2.1 (outsAt4 c n (Nat.lt_of_succ_lt hn)).2.2,
       out4_B_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (fun h => h0 ((hcond4_0 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2.1 (outsAt4 c n (Nat.lt_of_succ_lt hn)).2.2,
       out4_B_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (fun h => h0 ((hcond4_0 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2.1 (outsAt4 c n (Nat.lt_of_succ_lt hn)).2.2)

/-- `outsAt4` at a point where the condition holds. -/
theorem outsAt4_A (c : Dev nD) (t : Fin cfg4.N) (h0 : t.val % 10 = 0) :
    outsAt4 V c t.val t.isLt = (out4_A_3 c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (iblk4 V c 0 t) (iblk4 V c 1 t) (iblk4 V c 2 t),
       out4_A_4 c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (iblk4 V c 0 t) (iblk4 V c 1 t) (iblk4 V c 2 t),
       out4_A_5 c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (iblk4 V c 0 t) (iblk4 V c 1 t) (iblk4 V c 2 t)) := by
  obtain ⟨n, hn⟩ := t
  cases n with
  | zero => exact rfl
  | succ n => exact (dif_pos h0).trans rfl

/-- `outsAt4` at a point where it fails: over what the point before left. -/
theorem outsAt4_B (c : Dev nD) (t : Fin cfg4.N) (h0 : ¬t.val % 10 = 0) :
    outsAt4 V c t.val t.isLt = (out4_B_3 c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (iblk4 V c 0 t) (iblk4 V c 1 t) (iblk4 V c 2 t) (outsAt4 V c (t.val - 1) (Nat.lt_of_le_of_lt (Nat.sub_le _ _) t.isLt)).2.1 (outsAt4 V c (t.val - 1) (Nat.lt_of_le_of_lt (Nat.sub_le _ _) t.isLt)).2.2,
       out4_B_4 c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (iblk4 V c 0 t) (iblk4 V c 1 t) (iblk4 V c 2 t) (outsAt4 V c (t.val - 1) (Nat.lt_of_le_of_lt (Nat.sub_le _ _) t.isLt)).2.1 (outsAt4 V c (t.val - 1) (Nat.lt_of_le_of_lt (Nat.sub_le _ _) t.isLt)).2.2,
       out4_B_5 c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (iblk4 V c 0 t) (iblk4 V c 1 t) (iblk4 V c 2 t) (outsAt4 V c (t.val - 1) (Nat.lt_of_le_of_lt (Nat.sub_le _ _) t.isLt)).2.1 (outsAt4 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t` each
    input's buffer at its block and the outputs' at `outsAt4`; the invariant the scoped rest and the generator register,
    untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
    | ⟨4, _⟩ => (outsAt4 V c t.val t.isLt).2.1
    | ⟨5, _⟩ => (outsAt4 V c t.val t.isLt).2.2
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]
/-- Its shares are full. -/
theorem q_eq4 (c : Dev nD) (w : Fin cfg4.W) : (dat4 V c).q w = fullShare := by
  dsimp only [dat4]
/-- It owes nothing. -/
theorem owed_eq4 (c : Dev nD) (n : Fin (cfg4.N + 1)) : (dat4 V c).owed n = 0 := by
  dsimp only [dat4]

/-- The generator register and the scoped rest make the invariant at the first boundary, -/
theorem Phi_in4 (c : Dev nD) : (iprop((∃ r, prngReg c r) ∗ Pipeline.scopedRest (Ix := Unit) (Name := ℕ) (U := UR sig nD τ) (Lvl := ℕ) spec4 c) : sProp 𝕄) ⊢ (dat4 V c).Φ 0 := by
  rw [show (dat4 V c).Φ 0 = Pipeline.ΦA spec4 c from rfl]; unfold Pipeline.ΦA
  iintro ⟨Hp, Hr⟩
  isplitl [Hr]; · iexact Hr
  iexact Hp
/-- and the invariant at the last gives them back. -/
theorem Phi_out4 (c : Dev nD) : (dat4 V c).Φ (Fin.last cfg4.N) ⊢ (iprop((∃ r, prngReg c r) ∗ Pipeline.scopedRest (Ix := Unit) (Name := ℕ) (U := UR sig nD τ) (Lvl := ℕ) spec4 c) : sProp 𝕄) := by
  rw [show (dat4 V c).Φ (Fin.last _) = Pipeline.ΦA spec4 c from rfl]; unfold Pipeline.ΦA
  iintro ⟨Hr, Hp⟩
  isplitl [Hp]; · iexact Hp
  iexact Hr

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]
theorem after4_4 (c : Dev nD) (t : Fin cfg4.N) : (dat4 V c).after 4 t = (outsAt4 V c t.val t.isLt).2.1 := by dsimp only [dat4]
theorem after4_5 (c : Dev nD) (t : Fin cfg4.N) : (dat4 V c).after 5 t = (outsAt4 V c t.val t.isLt).2.2 := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
/-- At a later point a running sum's staging buffer holds what the body left at the point before: the buffer was not
    written back between, and the window is live and uncut. -/
theorem before4_4_B (c : Dev nD) (t : Fin cfg4.N) (h0 : ¬t.val % 10 = 0) (d) :
    (dat4 V c).before 4 t d = (outsAt4 V c (t.val - 1) (Nat.lt_of_le_of_lt (Nat.sub_le _ _) t.isLt)).2.1 := by
  have hN : t.val < 10 := lt_of_lt_of_eq t.isLt (show cfg4.N = 10 from N_4)
  rw [Dat.before_out_kept _ 4 rfl t (by omega) (Bool.eq_false_iff.mpr fun h => by have := (flush4_4 _).mp h; dsimp only at this; omega)
    (fun _ => rfl) (fun _ _ => rfl)]
  dsimp only [dat4]
theorem before4_5_B (c : Dev nD) (t : Fin cfg4.N) (h0 : ¬t.val % 10 = 0) (d) :
    (dat4 V c).before 5 t d = (outsAt4 V c (t.val - 1) (Nat.lt_of_le_of_lt (Nat.sub_le _ _) t.isLt)).2.2 := by
  have hN : t.val < 10 := lt_of_lt_of_eq t.isLt (show cfg4.N = 10 from N_4)
  rw [Dat.before_out_kept _ 5 rfl t (by omega) (Bool.eq_false_iff.mpr fun h => by have := (flush4_5 _).mp h; dsimp only at this; omega)
    (fun _ => rfl) (fun _ _ => rfl)]
  dsimp only [dat4]

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

set_option maxHeartbeats 1600000 in
/-- The body at any point: the inputs' memrefs hold their blocks; the closed form of the condition says which case the
    point is in; at a later point the running sums hold what the point before left; so that case's run applies; the
    invariant passes through unread; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3, after4_4, after4_5]
  have hN : t.val < 10 := lt_of_lt_of_eq t.isLt (show cfg4.N = 10 from N_4)
  by_cases h0 : t.val % 10 = 0
  · rw [outsAt4_A V c t h0]
    try dsimp only
    unfold out4_A_3 out4_A_4 out4_A_5
    iintro ⟨HΦ, Ho, ⟨%d0, H0⟩, ⟨%d1, H1⟩, ⟨%d2, H2⟩, ⟨%d3, H3⟩, ⟨%d4, H4⟩, ⟨%d5, H5⟩⟩
    iapply ((kernelRun4_A c (grid4.coords t) _ _ _ _ _ _ _ _ _ _ _ _ ((hcond4_0 t).mpr h0) (iblk4 V c 0 t) (iblk4 V c 1 t) (iblk4 V c 2 t)).2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover4_A_3 c _ _ _ _ _ _ _ _ _ _ _ _ _ _ _ _ _)
    isplitl [H4]
    · unfold owns; iexists _; isplitr
      swap; · iexact H4
      ipureintro; exact View.read_writes_of_cover _ _ _ _ _ (cover4_A_4 c _ _ _ _ _ _ _ _ _ _ _ _ _ _ _ _ _)
    unfold owns; iexists _; isplitr
    swap; · iexact H5
    ipureintro; exact View.read_writes_of_cover _ _ _ _ _ (cover4_A_5 c _ _ _ _ _ _ _ _ _ _ _ _ _ _ _ _ _)
  · rw [outsAt4_B V c t h0]
    simp only [before4_4_B V c t h0, before4_5_B V c t h0]
    try dsimp only
    unfold out4_B_3 out4_B_4 out4_B_5
    iintro ⟨HΦ, Ho, ⟨%d0, H0⟩, ⟨%d1, H1⟩, ⟨%d2, H2⟩, ⟨%d3, H3⟩, ⟨%d4, H4⟩, ⟨%d5, H5⟩⟩
    iapply ((kernelRun4_B c (grid4.coords t) _ _ _ _ _ _ _ _ _ _ _ _ (fun h => h0 ((hcond4_0 t).mp h)) (iblk4 V c 0 t) (iblk4 V c 1 t) (iblk4 V c 2 t) _ _).2.2.2 Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover4_B_3 c _ _ _ _ _ _ _ _ _ _ _ _ _ _ _ _ _ _ _)
    isplitl [H4]
    · unfold owns; iexists _; isplitr
      swap; · iexact H4
      ipureintro; exact View.read_writes_of_cover _ _ _ _ _ (cover4_B_4 c _ _ _ _ _ _ _ _ _ _ _ _ _ _ _ _ _ _ _)
    unfold owns; iexists _; isplitr
    swap; · iexact H5
    ipureintro; exact View.read_writes_of_cover _ _ _ _ _ (cover4_B_5 c _ _ _ _ _ _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region

end Cert.KernelIdeal.Hand

end
-- ==== Proof.KI.RegBN5.lean ====
import proofs.«413302_j72232759984513_1_alg».proof.Proof.Gen.KernelIdeal.Launch
import proofs.«413302_j72232759984513_1_alg».proof.Proof.Gen.KernelIdeal.Skeleton
import proofs.«413302_j72232759984513_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Kernel region 5: the batch-norm-and-ReLU body, its frame half

The body reads a tile of 10000 rows of `h` and four rows `mu`, `inv`, `g`, `be` of 128 lanes each, and stores
`max ((h - mu) * inv * g + be) 0` over the whole output tile. Its six windows are staged whole, so each input's
buffer holds its block of the entry contents at every point and the output's holds the payload of those blocks. -/

-- membership in a rectangle with an axis of 10000 coordinates: the structural check recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array at the entry contents. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is the entry contents and whose body leaves the block in place: where it is not fetched its
    index has not moved since the point that fetched it. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is the entry contents and whose body leaves the block in place: where it is not fetched its
    index has not moved since the point that fetched it. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is the entry contents and whose body leaves the block in place: where it is not fetched its
    index has not moved since the point that fetched it. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof
    data whose array is the entry contents and whose body leaves the block in place: where it is not fetched its
    index has not moved since the point that fetched it. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof
    data whose array is the entry contents and whose body leaves the block in place: where it is not fetched its
    index has not moved since the point that fetched it. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_0 : Rect S10000x128 := Rect.unit (s := S10000x128) ![0, 0] S10000x128.size inb_S10000x128_S10000x128_0_0
abbrev r5_1 : Rect S1x128 := Rect.unit (s := S1x128) ![0, 0] S1x128.size inb_S1x128_S1x128_0_0

/-! ## What the body leaves in the output window's buffer -/

/-- Window 5's staging buffer after the body, from the input windows' blocks: its one store, of the payload of
    the five loaded values, over the whole tile. -/
def out5_5 (x0 : Vec F S10000x128 .f32) (x1 : Vec F S1x128 .f32) (x2 : Vec F S1x128 .f32) (x3 : Vec F S1x128 .f32) (x4 : Vec F S1x128 .f32) : Vec F S10000x128 .f32 :=
  View.canon [⟨r5_0, k5_pay1 (View.ld x0 r5_0) (View.ld x1 r5_1) (View.ld x2 r5_1) (View.ld x3 r5_1) (View.ld x4 r5_1)⟩]

/-- The one store is of the whole tile, so it covers the buffer. -/
theorem cover5_5 (p0 : Vec F S10000x128 .f32) (y : S10000x128.Idx) :
    ∃ pc ∈ ([⟨r5_0, p0⟩] : List (View.Piece (Elt F) S10000x128 .f32)), y ∈ pc.1.set :=
  View.cover_of_tiled [⟨r5_0, p0⟩] S10000x128.size (by rfl) y

/-! ## The body's triple -/

set_option maxHeartbeats 1000000 in
/-- The kernel body on whole staging memrefs, the inputs' at contents `xW` and the output's at anything, runs to
    the continuation holding the inputs' as they were and the output's at `out5_5` of the inputs'. -/
theorem sound_kernel5 (c : Dev nD) (E : Set ℕ) (i : grid5.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S10000x128 .f32) (harg6 : arg6.IsWhole)
    (x0 : Vec F S10000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__bn_relu_kernel i arg1 harg1 arg2 harg2 arg3 harg3 arg4 harg4 arg5 harg5 arg6 harg6) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of pipeline 5 on core `c`: the arrays at the entry contents; after the body at point `t` each
    input's buffer at its block and the output's at `out5_5` of the input blocks; the invariant the scoped rest and
    the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the entry contents. -/
theorem A_eq5 (c : Dev nD) (w : Fin cfg5.W) : (dat5 V c).A w = V c (Pipeline.arrRef spec5 w) := by
  dsimp only [dat5]

/-- Every window is held at the full share. -/
theorem q_eq5 (c : Dev nD) (w : Fin cfg5.W) : (dat5 V c).q w = fullShare := by
  dsimp only [dat5]

/-- Nothing is owed at any point. -/
theorem owed_eq5 (c : Dev nD) (n : Fin (cfg5.N + 1)) : (dat5 V c).owed n = 0 := by
  dsimp only [dat5]

/-- The invariant at every point is the scoped rest with the generator register. -/
theorem Phi_eq5 (c : Dev nD) (n : Fin (cfg5.N + 1)) : (dat5 V c).Φ n = Pipeline.ΦA spec5 c := by
  dsimp only [dat5]

/-- The invariant holds at the first point of what the region is entered with, -/
theorem Phi_in5 (c : Dev nD) :
    (iprop((∃ r, prngReg c r) ∗ Pipeline.scopedRest (Ix := Unit) (Name := ℕ) (U := UR sig nD τ) (Lvl := ℕ) spec5 c) : sProp 𝕄) ⊢ (dat5 V c).Φ 0 := by
  rw [Phi_eq5]; unfold Pipeline.ΦA
  iintro ⟨Hr, Hp⟩
  isplitl [Hp]; · iexact Hp
  iexact Hr

/-- and gives it back at the last. -/
theorem Phi_out5 (c : Dev nD) :
    (dat5 V c).Φ (Fin.last cfg5.N) ⊢ (iprop((∃ r, prngReg c r) ∗ Pipeline.scopedRest (Ix := Unit) (Name := ℕ) (U := UR sig nD τ) (Lvl := ℕ) spec5 c) : sProp 𝕄) := by
  rw [Phi_eq5]; unfold Pipeline.ΦA
  iintro ⟨Hp, Hr⟩
  isplitl [Hr]; · iexact Hr
  iexact Hp

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks, so the body's triple applies; the invariant and
    the core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.RegPool6.lean ====
import proofs.«413302_j72232759984513_1_alg».proof.Proof.Gen.KernelIdeal.Launch
import proofs.«413302_j72232759984513_1_alg».proof.Proof.Gen.KernelIdeal.Skeleton
import proofs.«413302_j72232759984513_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 6: the pooling kernel (mean over 256 segments, then a linear layer), its frame half

The kernel keeps two accumulators — the segment sums [256,128] and the segment counts [256,1] — in scratch buffers of its
own: reset at the first grid point, added to at every point (a one-hot matrix product against the point's block), and at
the last point divided, multiplied by the weights, the bias added, and stored into the one output window. The proof data
carries what the accumulators hold between points (`acc6`, by recursion on the point) in its invariant. Three control
cases: the first point, the middle points, the last point; one triple each. -/

/-! ## The body's branch conditions -/

/-- The condition of the body's first `scf.if` (the reset), from the grid coordinates. -/
abbrev cond6_0 (i : grid6.Coords) : Prop := (Scalar.cmpi .ne (Scalar.extui (Scalar.cmpi .eq (BitVec.ofNat 32 (i 0).val) 0#32)) 0#32) = 1#1
/-- It holds at the first point only — decided over the grid. -/
theorem hcond6_0 : ∀ t : Fin cfg6.N, cond6_0 (grid6.coords t) ↔ t.val = 0 :=
  (by decide +kernel : ∀ t : Fin grid6.N, cond6_0 (grid6.coords t) ↔ t.val = 0)

/-- The condition of the body's second `scf.if` (the epilogue). -/
abbrev cond6_1 (i : grid6.Coords) : Prop := k6_cond2 i = 1#1
/-- It holds at the last point only — decided over the grid. -/
theorem hcond6_1 : ∀ t : Fin cfg6.N, cond6_1 (grid6.coords t) ↔ t.val = 9 :=
  (by decide +kernel : ∀ t : Fin grid6.N, cond6_1 (grid6.coords t) ↔ t.val = 9)

/-! ## The body's triples, one per control case -/

/-- The offsets of every access of the body: zero on both axes. -/
theorem hz6 : (![0, 0] : Fin 2 → Nat) = fun _ => 0 := funext fun a => by fin_cases a <;> rfl

/-- One store through the whole-shape rectangle, the last of the list, covers the buffer. -/
theorem cover6 {S : Shape} {e : EltTy} (hr : S.rank = 2) (off : Fin S.rank → Nat) (h : off = fun _ => 0) (inb : ∀ a, off a + S.size a ≤ S.size a)
    (w : S.Idx → Elt F e) (L : List (View.Piece (Elt F) S e)) (y : S.Idx) :
    ∃ pc ∈ ((⟨Rect.unit off S.size inb, w⟩ : View.Piece (Elt F) S e) :: L), y ∈ pc.1.set :=
  ⟨_, List.mem_cons_self, View.mem_set_unit_zero h inb y⟩

set_option maxHeartbeats 4000000 in
/-- THE MIDDLE POINTS (neither branch taken): on whole memrefs, the two input blocks at `x0`, `x1` and the accumulators at
    `a0`, `a1`, the body runs to the continuation holding the inputs as they were and each accumulator with this point's
    contribution added. The other three windows are not touched. -/
theorem sound_kernel6_B (c : Dev nD) (E : Set ℕ) (i : grid6.Coords)
    (arg1 : Memref sig .tc .vmem S10000x128 .f32) (harg1 : arg1.IsWhole) (arg2 : Memref sig .tc .vmem S10000x1 .i32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S256x64 .f32) (harg5 : arg5.IsWhole) (arg6 : Memref sig .tc .vmem S256x128 .f32) (harg6 : arg6.IsWhole)
    (arg7 : Memref sig .tc .vmem S256x1 .f32) (harg7 : arg7.IsWhole)
    (hc0 : ¬cond6_0 i) (hc1 : ¬cond6_1 i)
    (x0 : Vec F S10000x128 .f32) (x1 : Vec F S10000x1 .i32) (a0 : Vec F S256x128 .f32) (a1 : Vec F S256x1 .f32) (K : PUnit → sProp 𝕄) :
    iprop(owns (c : Thread nD τ) arg1 fullShare x0 ∗ owns (c : Thread nD τ) arg2 fullShare x1
        ∗ owns (c : Thread nD τ) arg6 fullShare a0 ∗ owns (c : Thread nD τ) arg7 fullShare a1
        ∗ (iprop(owns (c : Thread nD τ) arg1 fullShare x0 ∗ owns (c : Thread nD τ) arg2 fullShare x1
            ∗ owns (c : Thread nD τ) arg6 fullShare (k6_pay4 x0 x1 a0) ∗ owns (c : Thread nD τ) arg7 fullShare (k6_pay5 x1 a1)) -∗ K ⟨⟩))
      ⊢ wp frame (wpE (defs₀ (F := F)) Variants.none c none) E (cc6__pool_embed_kernel i arg1 harg1 arg2 harg2 arg3 harg3 arg4 harg4 arg5 harg5 arg6 harg6 arg7 harg7) K := by
  simp only [cc6__pool_embed_kernel_eq_skeleton]; unfold cc6__pool_embed_kernel_skel
  unfold owns
  iintro ⟨⟨%f0, %hf0, H0⟩, ⟨%f1, %hf1, H1⟩, ⟨%g0, %hg0, HS0⟩, ⟨%g1, %hg1, HS1⟩, Hk⟩
  obtain rfl := harg1.eq_unread hf0; obtain rfl := harg2.eq_unread hf1
  obtain rfl := harg6.eq_unread hg0; obtain rfl := harg7.eq_unread hg1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [HS0]
  · iexists _; isplitr
    swap; · iexact HS0
    ipureintro
    rw [View.read_writes_eq_canon _ _ _ (cover6 (S := S256x128) rfl _ hz6 _ _ _), View.canon_unit_zero (S := S256x128) hz6]
    simp only [View.readAt_eq_ld, harg1.read_unread, harg2.read_unread, harg6.read_unread, View.ld_unit_zero (S := S10000x128) hz6, View.ld_unit_zero (S := S10000x1) hz6, View.ld_unit_zero (S := S256x128) hz6]
  iexists _; isplitr
  swap; · iexact HS1
  ipureintro
  rw [View.read_writes_eq_canon _ _ _ (cover6 (S := S256x1) rfl _ hz6 _ _ _), View.canon_unit_zero (S := S256x1) hz6]
  simp only [View.readAt_eq_ld, harg2.read_unread, harg7.read_unread, View.ld_unit_zero (S := S10000x1) hz6, View.ld_unit_zero (S := S256x1) hz6]

set_option maxHeartbeats 4000000 in
theorem sound_kernel6_A (c : Dev nD) (E : Set ℕ) (i : grid6.Coords)
    (arg1 : Memref sig .tc .vmem S10000x128 .f32) (harg1 : arg1.IsWhole) (arg2 : Memref sig .tc .vmem S10000x1 .i32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S256x64 .f32) (harg5 : arg5.IsWhole) (arg6 : Memref sig .tc .vmem S256x128 .f32) (harg6 : arg6.IsWhole)
    (arg7 : Memref sig .tc .vmem S256x1 .f32) (harg7 : arg7.IsWhole)
    (hc0 : cond6_0 i) (hc1 : ¬cond6_1 i)
    (x0 : Vec F S10000x128 .f32) (x1 : Vec F S10000x1 .i32) (K : PUnit → sProp 𝕄) :
    iprop(owns (c : Thread nD τ) arg1 fullShare x0 ∗ owns (c : Thread nD τ) arg2 fullShare x1
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg6 fullShare (k6_pay4 x0 x1 (k6_pay1 (F := F))) ∗ owns (c : Thread nD τ) arg7 fullShare (k6_pay5 x1 (k6_pay2 (F := F)))) -∗ K ⟨⟩))
      ⊢ wp frame (wpE (defs₀ (F := F)) Variants.none c none) E (cc6__pool_embed_kernel i arg1 harg1 arg2 harg2 arg3 harg3 arg4 harg4 arg5 harg5 arg6 harg6 arg7 harg7) K := by
  simp only [cc6__pool_embed_kernel_eq_skeleton]; unfold cc6__pool_embed_kernel_skel
  unfold owns
  iintro ⟨⟨%f0, %hf0, H0⟩, ⟨%f1, %hf1, H1⟩, ⟨%d0, %g0, -, HS0⟩, ⟨%d1, %g1, -, HS1⟩, Hk⟩
  obtain rfl := harg1.eq_unread hf0; obtain rfl := harg2.eq_unread hf1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [HS0]
  · iexists _; isplitr
    swap; · iexact HS0
    ipureintro
    sl_unfold_words
    rw [View.read_writes_eq_canon _ _ _ (cover6 (S := S256x128) rfl _ hz6 _ _ _), View.canon_cons_unit_zero (S := S256x128) hz6, View.readCov_unit_zero (S := S256x128) _ hz6]
    simp only [View.readAt_eq_ld, harg1.read_unread, harg2.read_unread, View.ld_unit_zero (S := S10000x128) hz6, View.ld_unit_zero (S := S10000x1) hz6]
  iexists _; isplitr
  swap; · iexact HS1
  ipureintro
  sl_unfold_words
  rw [View.read_writes_eq_canon _ _ _ (cover6 (S := S256x1) rfl _ hz6 _ _ _), View.canon_cons_unit_zero (S := S256x1) hz6, View.readCov_unit_zero (S := S256x1) _ hz6]
  simp only [View.readAt_eq_ld, harg2.read_unread, View.ld_unit_zero (S := S10000x1) hz6]

set_option maxHeartbeats 4000000 in
theorem sound_kernel6_C (c : Dev nD) (E : Set ℕ) (i : grid6.Coords)
    (arg1 : Memref sig .tc .vmem S10000x128 .f32) (harg1 : arg1.IsWhole) (arg2 : Memref sig .tc .vmem S10000x1 .i32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S256x64 .f32) (harg5 : arg5.IsWhole) (arg6 : Memref sig .tc .vmem S256x128 .f32) (harg6 : arg6.IsWhole)
    (arg7 : Memref sig .tc .vmem S256x1 .f32) (harg7 : arg7.IsWhole)
    (hc0 : ¬cond6_0 i) (hc1 : cond6_1 i)
    (x0 : Vec F S10000x128 .f32) (x1 : Vec F S10000x1 .i32) (x2 : Vec F S128x64 .f32) (x3 : Vec F S1x64 .f32)
    (a0 : Vec F S256x128 .f32) (a1 : Vec F S256x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ owns (c : Thread nD τ) arg6 fullShare a0 ∗ owns (c : Thread nD τ) arg7 fullShare a1
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k6_pay6 (k6_pay4 x0 x1 a0) (k6_pay5 x1 a1) x2 x3)
            ∗ owns (c : Thread nD τ) arg6 fullShare (k6_pay4 x0 x1 a0) ∗ owns (c : Thread nD τ) arg7 fullShare (k6_pay5 x1 a1)) -∗ K ⟨⟩))
      ⊢ wp frame (wpE (defs₀ (F := F)) Variants.none c none) E (cc6__pool_embed_kernel i arg1 harg1 arg2 harg2 arg3 harg3 arg4 harg4 arg5 harg5 arg6 harg6 arg7 harg7) K := by
  simp only [cc6__pool_embed_kernel_eq_skeleton]; unfold cc6__pool_embed_kernel_skel
  unfold owns
  iintro ⟨⟨%f0, %hf0, H0⟩, ⟨%f1, %hf1, H1⟩, ⟨%f2, %hf2, H2⟩, ⟨%f3, %hf3, H3⟩, ⟨%d4, %f4, -, H4⟩, ⟨%g0, %hg0, HS0⟩, ⟨%g1, %hg1, HS1⟩, Hk⟩
  obtain rfl := harg1.eq_unread hf0; obtain rfl := harg2.eq_unread hf1
  obtain rfl := harg3.eq_unread hf2; obtain rfl := harg4.eq_unread hf3
  obtain rfl := harg6.eq_unread hg0; obtain rfl := harg7.eq_unread hg1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    sl_unfold_words
    rw [View.read_writes_eq_canon _ _ _ (cover6 (S := S256x64) rfl _ hz6 _ _ _), View.canon_unit_zero (S := S256x64) hz6,
      View.readCov_unit_zero (S := S256x128) _ hz6, View.readCov_unit_zero (S := S256x1) _ hz6]
    simp only [View.readAt_eq_ld, harg1.read_unread, harg2.read_unread, harg3.read_unread, harg4.read_unread, harg6.read_unread, harg7.read_unread,
      View.ld_unit_zero (S := S10000x128) hz6, View.ld_unit_zero (S := S10000x1) hz6, View.ld_unit_zero (S := S256x128) hz6, View.ld_unit_zero (S := S256x1) hz6,
      View.ld_unit_zero (S := S128x64) hz6, View.ld_unit_zero (S := S1x64) hz6]
  isplitl [HS0]
  · iexists _; isplitr
    swap; · iexact HS0
    ipureintro
    sl_unfold_words
    rw [View.read_writes_eq_canon _ _ _ (cover6 (S := S256x128) rfl _ hz6 _ _ _), View.canon_unit_zero (S := S256x128) hz6]
    simp only [View.readAt_eq_ld, harg1.read_unread, harg2.read_unread, harg6.read_unread, View.ld_unit_zero (S := S10000x128) hz6, View.ld_unit_zero (S := S10000x1) hz6, View.ld_unit_zero (S := S256x128) hz6]
  iexists _; isplitr
  swap; · iexact HS1
  ipureintro
  sl_unfold_words
  rw [View.read_writes_eq_canon _ _ _ (cover6 (S := S256x1) rfl _ hz6 _ _ _), View.canon_unit_zero (S := S256x1) hz6]
  simp only [View.readAt_eq_ld, harg2.read_unread, harg7.read_unread, View.ld_unit_zero (S := S10000x1) hz6, View.ld_unit_zero (S := S256x1) hz6]

/-! ## The proof data -/

section Region6
variable (V : (c : Dev nD) → (b : Ref sig .tc) → Buf (Elt F) ((c : Thread nD τ).loc b))

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The two accumulators as memrefs: whole scoped buffers of the kernel's own, passed beside the windows. -/
abbrev scM6_0 : Memref sig .tc .vmem S256x128 .f32 := Memref.whole cc6_scratch0
abbrev scM6_1 : Memref sig .tc .vmem S256x1 .f32 := Memref.whole cc6_scratch1

/-- THE ACCUMULATION. What the two accumulators (segment sums, segment counts) hold after the body at position `n`:
    at the first point the reset values with that point's contribution added, afterwards what the point before left
    with this point's contribution added. -/
def acc6 (c : Dev nD) : (n : ℕ) → n < cfg6.N → Vec F S256x128 .f32 × Vec F S256x1 .f32
  | 0, hn => (k6_pay4 (iblk6 V c 0 ⟨0, hn⟩) (iblk6 V c 1 ⟨0, hn⟩) (k6_pay1 (F := F)), k6_pay5 (iblk6 V c 1 ⟨0, hn⟩) (k6_pay2 (F := F)))
  | n + 1, hn => (k6_pay4 (iblk6 V c 0 ⟨n + 1, hn⟩) (iblk6 V c 1 ⟨n + 1, hn⟩) (acc6 c n (Nat.lt_of_succ_lt hn)).1, k6_pay5 (iblk6 V c 1 ⟨n + 1, hn⟩) (acc6 c n (Nat.lt_of_succ_lt hn)).2)

/-- What the output window's buffer holds after the body at point `t`: the sums divided by the counts (at least one),
    times the weights, plus the bias, from the accumulators as the point leaves them. Stored at the last point only;
    at the others a placeholder nothing consults (the window is idle there and not written back). -/
def out6_4 (c : Dev nD) (t : Fin cfg6.N) : Vec F S256x64 .f32 :=
  k6_pay6 (acc6 V c t.val t.isLt).1 (acc6 V c t.val t.isLt).2 (iblk6 V c 2 t) (iblk6 V c 3 t)

/-- The region invariant before position `n`: the two accumulators — before the first point at anything, afterwards at
    what the point before left (`acc6`) —, every other scoped buffer unopened, the generator register at some state. -/
def PhiS6 (c : Dev nD) : (n : ℕ) → n ≤ cfg6.N → sProp 𝕄
  | 0, _ => iprop(iprop((∃ d, owns (c : Thread nD τ) scM6_0 fullShare d) ∗ (∃ d, owns (c : Thread nD τ) scM6_1 fullShare d))
      ∗ Pipeline.scopedRestBut (Ix := Unit) (Name := ℕ) (U := UR sig nD τ) (Lvl := ℕ) spec6 c [cc6_scratch0, cc6_scratch1] ∗ (∃ r, prngReg c r))
  | n + 1, hn => iprop(iprop(owns (c : Thread nD τ) scM6_0 fullShare (acc6 V c n hn).1 ∗ owns (c : Thread nD τ) scM6_1 fullShare (acc6 V c n hn).2)
      ∗ Pipeline.scopedRestBut (Ix := Unit) (Name := ℕ) (U := UR sig nD τ) (Lvl := ℕ) spec6 c [cc6_scratch0, cc6_scratch1] ∗ (∃ r, prngReg c r))

/-- The proof data of pipeline 6 on core `c`: the arrays as the region finds them (`V`); after the body at point `t`
    each input's buffer at its block and the output's at `out6_4`; the invariant `PhiS6`; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 V c t
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]
theorem q_eq6 (c : Dev nD) (w : Fin cfg6.W) : (dat6 V c).q w = fullShare := by
  dsimp only [dat6]
theorem owed_eq6 (c : Dev nD) (n : Fin (cfg6.N + 1)) : (dat6 V c).owed n = 0 := by
  dsimp only [dat6]

/-- What the body leaves, window by window (the proof data's `match` reduced by `dsimp`). -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = out6_4 V c t := by dsimp only [dat6]

/-- Each input's current staging buffer holds its block at every point, fetched there or not: unfetched, the block
    index has not moved, the window is uncut and never idle. -/
theorem before6_0 (c : Dev nD) (t : Fin cfg6.N) (d) : (dat6 V c).before 0 t d = iblk6 V c 0 t :=
  ((dat6 V c).before_in_eq_fetched 0 rfl (fun _ => rfl) (fun _ _ _ => rfl) (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl) (fun t => by rw [after6_1]; unfold Dat.blockOf iblk6; rw [A_eq6]; try rfl) t d).trans
    (by unfold Dat.fetched Dat.blockOf iblk6; rw [A_eq6]; try rfl)
theorem before6_2 (c : Dev nD) (t : Fin cfg6.N) (d) : (dat6 V c).before 2 t d = iblk6 V c 2 t :=
  ((dat6 V c).before_in_eq_fetched 2 rfl (fun _ => rfl) (fun _ _ _ => rfl) (fun t => by rw [after6_2]; unfold Dat.blockOf iblk6; rw [A_eq6]; try rfl) t d).trans
    (by unfold Dat.fetched Dat.blockOf iblk6; rw [A_eq6]; try rfl)
theorem before6_3 (c : Dev nD) (t : Fin cfg6.N) (d) : (dat6 V c).before 3 t d = iblk6 V c 3 t :=
  ((dat6 V c).before_in_eq_fetched 3 rfl (fun _ => rfl) (fun _ _ _ => rfl) (fun t => by rw [after6_3]; unfold Dat.blockOf iblk6; rw [A_eq6]; try rfl) t d).trans
    (by unfold Dat.fetched Dat.blockOf iblk6; rw [A_eq6]; try rfl)

/-- The accumulators after the first point: the reset values with its contribution added. -/
theorem acc6_zero (c : Dev nD) (t : Fin cfg6.N) (h0 : t.val = 0) :
    acc6 V c t.val t.isLt = (k6_pay4 (iblk6 V c 0 t) (iblk6 V c 1 t) (k6_pay1 (F := F)), k6_pay5 (iblk6 V c 1 t) (k6_pay2 (F := F))) := by
  obtain ⟨n, hn⟩ := t
  cases n with
  | zero => rfl
  | succ n => exact absurd h0 (Nat.succ_ne_zero n)

/-- The accumulators after a later point: what the point before left with this point's contribution added. -/
theorem acc6_pos (c : Dev nD) (t : Fin cfg6.N) (h0 : t.val ≠ 0) :
    acc6 V c t.val t.isLt = (k6_pay4 (iblk6 V c 0 t) (iblk6 V c 1 t) (acc6 V c (t.val - 1) (Nat.lt_of_le_of_lt (Nat.sub_le _ _) t.isLt)).1,
      k6_pay5 (iblk6 V c 1 t) (acc6 V c (t.val - 1) (Nat.lt_of_le_of_lt (Nat.sub_le _ _) t.isLt)).2) := by
  obtain ⟨n, hn⟩ := t
  cases n with
  | zero => exact absurd rfl h0
  | succ n => rfl

theorem PhiS6_zero (c : Dev nD) (n : ℕ) (h : n ≤ cfg6.N) (hz : n = 0) :
    PhiS6 V c n h = iprop(iprop((∃ d, owns (c : Thread nD τ) scM6_0 fullShare d) ∗ (∃ d, owns (c : Thread nD τ) scM6_1 fullShare d))
      ∗ Pipeline.scopedRestBut (Ix := Unit) (Name := ℕ) (U := UR sig nD τ) (Lvl := ℕ) spec6 c [cc6_scratch0, cc6_scratch1] ∗ (∃ r, prngReg c r)) := by
  subst hz; rfl

/-- After point `n` (before point `n + 1`): the accumulators at that point's contents. -/
theorem PhiS6_succ (c : Dev nD) (n : ℕ) (hn : n < cfg6.N) :
    PhiS6 V c (n + 1) hn = iprop(iprop(owns (c : Thread nD τ) scM6_0 fullShare (acc6 V c n hn).1 ∗ owns (c : Thread nD τ) scM6_1 fullShare (acc6 V c n hn).2)
      ∗ Pipeline.scopedRestBut (Ix := Unit) (Name := ℕ) (U := UR sig nD τ) (Lvl := ℕ) spec6 c [cc6_scratch0, cc6_scratch1] ∗ (∃ r, prngReg c r)) := rfl

/-- Before a point that is not the first: the accumulators at what the point before left. -/
theorem PhiS6_pos (c : Dev nD) (n : ℕ) (h : n ≤ cfg6.N) (hz : n ≠ 0) :
    PhiS6 V c n h = iprop(iprop(owns (c : Thread nD τ) scM6_0 fullShare (acc6 V c (n - 1) (by omega)).1 ∗ owns (c : Thread nD τ) scM6_1 fullShare (acc6 V c (n - 1) (by omega)).2)
      ∗ Pipeline.scopedRestBut (Ix := Unit) (Name := ℕ) (U := UR sig nD τ) (Lvl := ℕ) spec6 c [cc6_scratch0, cc6_scratch1] ∗ (∃ r, prngReg c r)) := by
  cases n with
  | zero => exact absurd rfl hz
  | succ n => rfl

/-- The invariant at a point's start (the proof data at `t.castSucc`), restated at `t.val`. -/
theorem PhiS6_castSucc (c : Dev nD) (t : Fin cfg6.N) :
    (dat6 V c).Φ t.castSucc = PhiS6 V c t.val (Nat.le_of_lt t.isLt) := by
  dsimp only [dat6]; simp only [Fin.coe_castSucc]

/-! ## Where the windows are idle -/

/-- The inputs are never idle. -/
theorem liveAt6_0 : ∀ t : Fin cfg6.N, cfg6.idle 0 (grid6.coords t) = false := fun _ => rfl
theorem liveAt6_1 : ∀ t : Fin cfg6.N, cfg6.idle 1 (grid6.coords t) = false := fun _ => rfl
theorem liveAt6_2 : ∀ t : Fin cfg6.N, cfg6.idle 2 (grid6.coords t) = false := fun _ => rfl
theorem liveAt6_3 : ∀ t : Fin cfg6.N, cfg6.idle 3 (grid6.coords t) = false := fun _ => rfl
/-- Off the last point the output window is idle (the body stores nothing into it) and not written back; -/
theorem idleAt6_4 : ∀ t : Fin cfg6.N, ¬cond6_1 (grid6.coords t) → cfg6.idle 4 (grid6.coords t) = true := by decide +kernel
theorem noFlush6_4 : ∀ t : Fin cfg6.N, ¬cond6_1 (grid6.coords t) → (cfg6.win 4).flush t = false := by decide +kernel
/-- at the last point it is live. -/
theorem liveAt6_4 : ∀ t : Fin cfg6.N, cond6_1 (grid6.coords t) → cfg6.idle 4 (grid6.coords t) = false := by decide +kernel

theorem leavesExact6_0 (c : Dev nD) (t : Fin cfg6.N) : (dat6 V c).leavesExact 0 t = owns (c : Thread nD τ) (st6_0 t) fullShare (iblk6 V c 0 t) := by
  unfold Dat.leavesExact; rw [liveAt6_0 t, after6_0]
theorem leavesExact6_1 (c : Dev nD) (t : Fin cfg6.N) : (dat6 V c).leavesExact 1 t = owns (c : Thread nD τ) (st6_1 t) fullShare (iblk6 V c 1 t) := by
  unfold Dat.leavesExact; rw [liveAt6_1 t, after6_1]
theorem leavesExact6_2 (c : Dev nD) (t : Fin cfg6.N) : (dat6 V c).leavesExact 2 t = owns (c : Thread nD τ) (st6_2 t) fullShare (iblk6 V c 2 t) := by
  unfold Dat.leavesExact; rw [liveAt6_2 t, after6_2]
theorem leavesExact6_3 (c : Dev nD) (t : Fin cfg6.N) : (dat6 V c).leavesExact 3 t = owns (c : Thread nD τ) (st6_3 t) fullShare (iblk6 V c 3 t) := by
  unfold Dat.leavesExact; rw [liveAt6_3 t, after6_3]

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t)

set_option maxHeartbeats 4000000 in
/-- The body at any point. The inputs' memrefs hold their blocks; the point's position says which control case it is in; the
    invariant hands the body the two accumulators — at anything before the first point, at what the point before left
    afterwards — and takes them back at this point's contents; the output window, off the last point, goes back as it was
    found, and at the last point holds the epilogue's store; the other scoped buffers, the generator register and what
    the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).owesAt () t.succ = (dat6 V c).owesAt () t.castSucc from rfl]
  rw [show (dat6 V c).Φ t.succ = PhiS6 V c (t.val + 1) t.isLt from rfl, PhiS6_succ]
  rw [leavesExact6_0, leavesExact6_1, leavesExact6_2, leavesExact6_3]
  have hN : t.val < 10 := lt_of_lt_of_eq t.isLt (show cfg6.N = 10 from N_6)
  by_cases h0 : t.val = 0
  · have hc0 : cond6_0 (grid6.coords t) := (hcond6_0 t).mpr h0
    have hc1 : ¬cond6_1 (grid6.coords t) := fun h => by have := (hcond6_1 t).mp h; omega
    rw [Dat.leavesExact_idle (dat6 V c) 4 t (idleAt6_4 t hc1) (noFlush6_4 t hc1)]
    rw [acc6_zero V c t h0]; (try dsimp only)
    rw [PhiS6_castSucc V c t, PhiS6_zero V c _ _ h0]
    iintro ⟨⟨⟨HS0, HS1⟩, Hrest, Hg⟩, Ho, ⟨%d0, H0⟩, ⟨%d1, H1⟩, ⟨%d2, H2⟩, ⟨%d3, H3⟩, H4⟩
    iapply (sound_kernel6_A c Set.univ (grid6.coords t) _ _ _ _ _ _ _ _ _ _ _ _ _ _ hc0 hc1 (iblk6 V c 0 t) (iblk6 V c 1 t) _)
    isplitl [H0]; · iexact H0
    isplitl [H1]; · iexact H1
    isplitl [HS0]; · iexact HS0
    isplitl [HS1]; · iexact HS1
    iintro ⟨H0, H1, HS0, HS1⟩
    isplitl [HS0 HS1 Hrest Hg]
    · isplitl [HS0 HS1]
      · isplitl [HS0]; · iexact HS0
        iexact HS1
      isplitl [Hrest]; · iexact Hrest
      iexact Hg
    isplitl [Ho]; · iexact Ho
    isplitl [H0]; · iexact H0
    isplitl [H1]; · iexact H1
    isplitl [H2]; · iexact H2
    isplitl [H3]; · iexact H3
    iexact H4
  · have hc0 : ¬cond6_0 (grid6.coords t) := fun h => h0 ((hcond6_0 t).mp h)
    rw [PhiS6_castSucc V c t, PhiS6_pos V c _ _ h0]
    rw [acc6_pos V c t h0]; (try dsimp only)
    by_cases h1 : t.val = 9
    · have hc1 : cond6_1 (grid6.coords t) := (hcond6_1 t).mpr h1
      rw [show (dat6 V c).leavesExact 4 t = owns (c : Thread nD τ) (st6_4 t) fullShare ((dat6 V c).after 4 t) from by
        unfold Dat.leavesExact; rw [liveAt6_4 t hc1], after6_4]
      unfold out6_4
      rw [acc6_pos V c t h0]; (try dsimp only)
      iintro ⟨⟨⟨HS0, HS1⟩, Hrest, Hg⟩, Ho, ⟨%d0, H0⟩, ⟨%d1, H1⟩, ⟨%d2, H2⟩, ⟨%d3, H3⟩, ⟨%d4, H4⟩⟩
      iapply (sound_kernel6_C c Set.univ (grid6.coords t) _ _ _ _ _ _ _ _ _ _ _ _ _ _ hc0 hc1 (iblk6 V c 0 t) (iblk6 V c 1 t) (iblk6 V c 2 t) (iblk6 V c 3 t) _ _ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 Hrest Hg]
      · isplitl [HS0 HS1]
        · isplitl [HS0]; · iexact HS0
          iexact HS1
        isplitl [Hrest]; · iexact Hrest
        iexact Hg
      isplitl [Ho]; · iexact Ho
      isplitl [H0]; · iexact H0
      isplitl [H1]; · iexact H1
      isplitl [H2]; · iexact H2
      isplitl [H3]; · iexact H3
      iexact H4
    · have hc1 : ¬cond6_1 (grid6.coords t) := fun h => h1 ((hcond6_1 t).mp h)
      rw [Dat.leavesExact_idle (dat6 V c) 4 t (idleAt6_4 t hc1) (noFlush6_4 t hc1)]
      iintro ⟨⟨⟨HS0, HS1⟩, Hrest, Hg⟩, Ho, ⟨%d0, H0⟩, ⟨%d1, H1⟩, ⟨%d2, H2⟩, ⟨%d3, H3⟩, H4⟩
      iapply (sound_kernel6_B c Set.univ (grid6.coords t) _ _ _ _ _ _ _ _ _ _ _ _ _ _ hc0 hc1 (iblk6 V c 0 t) (iblk6 V c 1 t) _ _ _)
      isplitl [H0]; · iexact H0
      isplitl [H1]; · iexact H1
      isplitl [HS0]; · iexact HS0
      isplitl [HS1]; · iexact HS1
      iintro ⟨H0, H1, HS0, HS1⟩
      isplitl [HS0 HS1 Hrest Hg]
      · isplitl [HS0 HS1]
        · isplitl [HS0]; · iexact HS0
          iexact HS1
        isplitl [Hrest]; · iexact Hrest
        iexact Hg
      isplitl [Ho]; · iexact Ho
      isplitl [H0]; · iexact H0
      isplitl [H1]; · iexact H1
      isplitl [H2]; · iexact H2
      isplitl [H3]; · iexact H3
      iexact H4

/-- The library's body obligation, at every point. -/
theorem body_obligation6 (c : Dev nD) : BodyObligation (dat6 (F := F) V c) (defs₀ (F := F)) Variants.none () Set.univ := fun t => by
  rw [bigSep_W6, bigSep_W6]
  exact sound_body6 V c t

/-! ## Into and out of the invariant -/

/-- What the launch hands the region — the generator register and the scoped rest — is the invariant before the first
    point: the rest split at the two accumulators, each at whatever it holds. -/
theorem Phi_in6 (c : Dev nD) : (iprop((∃ r, prngReg c r) ∗ Pipeline.scopedRest (Ix := Unit) (Name := ℕ) (U := UR sig nD τ) (Lvl := ℕ) spec6 c) : sProp 𝕄) ⊢ (dat6 V c).Φ 0 := by
  rw [show (dat6 V c).Φ 0 = PhiS6 V c 0 (Nat.zero_le _) from rfl, PhiS6_zero V c 0 _ rfl, scopedRest6_split]
  simp only [scM6_0, scM6_1, owns_whole]
  iintro ⟨Hg, ⟨HS0, HS1⟩, Hrest⟩
  isplitl [HS0 HS1]
  · isplitl [HS0]; · iexact HS0
    iexact HS1
  isplitl [Hrest]; · iexact Hrest
  iexact Hg

/-- After the last point the invariant gives both back: the accumulators' named contents are forgotten and the scoped
    rest closed over them again. -/
theorem Phi_out6 (c : Dev nD) : (dat6 V c).Φ (Fin.last cfg6.N) ⊢ (iprop((∃ r, prngReg c r) ∗ Pipeline.scopedRest (Ix := Unit) (Name := ℕ) (U := UR sig nD τ) (Lvl := ℕ) spec6 c) : sProp 𝕄) := by
  rw [show (dat6 V c).Φ (Fin.last cfg6.N) = PhiS6 V c (Fin.last cfg6.N).val (Nat.le_of_lt_succ (Fin.last cfg6.N).isLt) from rfl,
    PhiS6_pos V c _ _ (by rw [Fin.val_last]; have : cfg6.N = 10 := N_6; omega), scopedRest6_split]
  simp only [scM6_0, scM6_1, owns_whole]
  iintro ⟨⟨HS0, HS1⟩, Hrest, Hg⟩
  isplitl [Hg]; · iexact Hg
  isplitl [HS0 HS1]
  · isplitl [HS0]
    · iexists _; iexact HS0
    iexists _; iexact HS1
  iexact Hrest

end Region6

end Cert.KernelIdeal.Hand

end
-- ==== Proof.KI.RegLS7.RunA.lean ====
import proofs.«413302_j72232759984513_1_alg».proof.Proof.Gen.KernelIdeal.Launch
import proofs.«413302_j72232759984513_1_alg».proof.Proof.Gen.KernelIdeal.Skeleton
import proofs.«413302_j72232759984513_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 7: the body's run at the first grid point

The body's one conditional tests whether the grid coordinate is zero; there it resets the two running sums before adding
to them. -/

/-- The condition of the body's conditional, from the grid coordinates. -/
abbrev cond7_0 (i : grid7.Coords) : Prop := (Scalar.cmpi .ne (Scalar.extui (Scalar.cmpi .eq (BitVec.ofNat 32 (i 0).val) 0#32)) 0#32) = 1#1
/-- It holds at the first point only: decided over the grid. -/
theorem hcond7_0 : ∀ t : Fin cfg7.N, cond7_0 (grid7.coords t) ↔ t.val % 10 = 0 :=
  (by decide +kernel : ∀ t : Fin grid7.N, cond7_0 (grid7.coords t) ↔ t.val % 10 = 0)

/-- One staging buffer of each output window, through which its contents are stated (the choice does not matter). -/
abbrev VO7_3 : View sig .tc .vmem S10000x128 .f32 := (Memref.whole cc7_stg3_0 : Memref sig .tc .vmem S10000x128 .f32).view
abbrev VO7_4 : View sig .tc .vmem S1x128 .f32 := (Memref.whole cc7_stg4_0 : Memref sig .tc .vmem S1x128 .f32).view
abbrev VO7_5 : View sig .tc .vmem S1x128 .f32 := (Memref.whole cc7_stg5_0 : Memref sig .tc .vmem S1x128 .f32).view

set_option maxHeartbeats 4000000 in
/-- The body where the condition holds. On whole staging memrefs, the three inputs' at contents `x0 x1 x2` and the three
    outputs' at anything, it runs to the continuation holding the inputs' as they were and each output's buffer with
    the pieces its stores wrote (last first): the pieces are the witness the run finds. -/
noncomputable def kernelRun7_A (c : Dev nD) (i : grid7.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond7_0 i)
    (x0 : Vec F S10000x64 .f32) (x1 : Vec F S64x128 .f32) (x2 : Vec F S1x128 .f32) :
    Σ' (L3 : List (View.Piece (Elt F) S10000x128 .f32)), Σ' (L4 : List (View.Piece (Elt F) S1x128 .f32)), { L5 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc7__linear_stats_kernel i arg1 harg1 arg2 harg2 arg3 harg3 arg4 harg4 arg5 harg5 arg6 harg6) K } := by
  refine ⟨?_, ?_, ?_, fun E K => ?run⟩
  case run =>
    simp only [cc7__linear_stats_kernel_eq_skeleton]; unfold cc7__linear_stats_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

end Cert.KernelIdeal.Hand

end
-- ==== Proof.KI.RegLS7.RunB.lean ====
import proofs.«413302_j72232759984513_1_alg».proof.Proof.KI.RegLS7.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 7: the body's run at a later grid point

The condition fails: the two running sums are read as the point before left them and added to. -/

set_option maxHeartbeats 4000000 in
/-- The body where the condition fails. On whole staging memrefs, the three inputs' at contents `x0 x1 x2`, the two
    running sums' at `xo4 xo5` and the first output's at anything, it runs to the continuation holding the inputs' as they
    were and each output's buffer with the pieces its stores wrote (last first): the pieces are the witness the run finds. -/
noncomputable def kernelRun7_B (c : Dev nD) (i : grid7.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond7_0 i)
    (x0 : Vec F S10000x64 .f32) (x1 : Vec F S64x128 .f32) (x2 : Vec F S1x128 .f32) (xo4 : Vec F S1x128 .f32) (xo5 : Vec F S1x128 .f32) :
    Σ' (L3 : List (View.Piece (Elt F) S10000x128 .f32)), Σ' (L4 : List (View.Piece (Elt F) S1x128 .f32)), { L5 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xo4 ∗ owns (c : Thread nD τ) arg6 fullShare xo5
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc7__linear_stats_kernel i arg1 harg1 arg2 harg2 arg3 harg3 arg4 harg4 arg5 harg5 arg6 harg6) K } := by
  refine ⟨?_, ?_, ?_, fun E K => ?run⟩
  case run =>
    simp only [cc7__linear_stats_kernel_eq_skeleton]; unfold cc7__linear_stats_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
    obtain rfl := harg1.eq_unread hf0; obtain rfl := harg2.eq_unread hf1; obtain rfl := harg3.eq_unread hf2
    obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

end Cert.KernelIdeal.Hand

end
-- ==== Proof.KI.RegLS7.lean ====
import proofs.«413302_j72232759984513_1_alg».proof.Proof.KI.RegLS7.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 7: the proof data and the body obligation, at the contents the region is entered with

The kernel stores `x·W + b` for its tile of rows in output window 3 and keeps two running sums, output windows 4 and 5:
reset at the first grid point, added to at every point, written back after the last. Everything is stated at a
parameter `V`, the TensorCore's buffer contents when the region is entered. -/

section Region

variable (V : (c : Dev nD) → (b : Ref sig .tc) → Buf (Elt F) ((c : Thread nD τ).loc b))

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! An input window's current staging buffer holds its block at every point, fetched there or not (unfetched, the block
    index has not moved), for any proof data whose array is the entry contents and whose body leaves the block in place. -/

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Each window's current staging memref at point `t`, and its wholeness. -/
abbrev ms7_0 (t : Fin cfg7.N) : Memref sig .tc .vmem S10000x64 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S64x128 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x128 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S10000x128 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S1x128 .f32 := win7_4.stage (cfg7.slots t 4)
abbrev hs7_4 (t : Fin cfg7.N) : (ms7_4 t).IsWhole := hstage7_4 ((cfg7.slots t 4).cast nbuf7_4)
abbrev ms7_5 (t : Fin cfg7.N) : Memref sig .tc .vmem S1x128 .f32 := win7_5.stage (cfg7.slots t 5)
abbrev hs7_5 (t : Fin cfg7.N) : (ms7_5 t).IsWhole := hstage7_5 ((cfg7.slots t 5).cast nbuf7_5)

/-! ## What each case of the body leaves in the outputs' buffers -/

/-- The pieces the body where the condition holds writes to output 3 tile its block, so they cover it. -/
theorem cover7_A_3 (c : Dev nD) (i : grid7.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond7_0 i)
    (x0 : Vec F S10000x64 .f32) (x1 : Vec F S64x128 .f32) (x2 : Vec F S1x128 .f32) (y : S10000x128.Idx) :
    ∃ pc ∈ (kernelRun7_A c i arg1 harg1 arg2 harg2 arg3 harg3 arg4 harg4 arg5 harg5 arg6 harg6 hc0 x0 x1 x2).1, y ∈ pc.1.set :=
  View.cover_of_tiledL (kernelRun7_A c i arg1 harg1 arg2 harg2 arg3 harg3 arg4 harg4 arg5 harg5 arg6 harg6 hc0 x0 x1 x2).1 S10000x128.size (by sl_kernel_rfl) y

/-- What that run leaves in output 3's staging buffer: its pieces read back over arbitrary contents. -/
def out7_A_3 (c : Dev nD) (i : grid7.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond7_0 i)
    (x0 : Vec F S10000x64 .f32) (x1 : Vec F S64x128 .f32) (x2 : Vec F S1x128 .f32) : Vec F S10000x128 .f32 :=
  VO7_3.read (Elt F) (VO7_3.writes (Elt F) VO7_3.junk (kernelRun7_A c i arg1 harg1 arg2 harg2 arg3 harg3 arg4 harg4 arg5 harg5 arg6 harg6 hc0 x0 x1 x2).1)

/-- The pieces the body where the condition holds writes to output 4 tile its block, so they cover it. -/
theorem cover7_A_4 (c : Dev nD) (i : grid7.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond7_0 i)
    (x0 : Vec F S10000x64 .f32) (x1 : Vec F S64x128 .f32) (x2 : Vec F S1x128 .f32) (y : S1x128.Idx) :
    ∃ pc ∈ (kernelRun7_A c i arg1 harg1 arg2 harg2 arg3 harg3 arg4 harg4 arg5 harg5 arg6 harg6 hc0 x0 x1 x2).2.1, y ∈ pc.1.set :=
  View.cover_of_tiledL (kernelRun7_A c i arg1 harg1 arg2 harg2 arg3 harg3 arg4 harg4 arg5 harg5 arg6 harg6 hc0 x0 x1 x2).2.1 S1x128.size (by sl_kernel_rfl) y

/-- What that run leaves in output 4's staging buffer: its pieces read back over arbitrary contents. -/
def out7_A_4 (c : Dev nD) (i : grid7.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond7_0 i)
    (x0 : Vec F S10000x64 .f32) (x1 : Vec F S64x128 .f32) (x2 : Vec F S1x128 .f32) : Vec F S1x128 .f32 :=
  VO7_4.read (Elt F) (VO7_4.writes (Elt F) VO7_4.junk (kernelRun7_A c i arg1 harg1 arg2 harg2 arg3 harg3 arg4 harg4 arg5 harg5 arg6 harg6 hc0 x0 x1 x2).2.1)

/-- The pieces the body where the condition holds writes to output 5 tile its block, so they cover it. -/
theorem cover7_A_5 (c : Dev nD) (i : grid7.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond7_0 i)
    (x0 : Vec F S10000x64 .f32) (x1 : Vec F S64x128 .f32) (x2 : Vec F S1x128 .f32) (y : S1x128.Idx) :
    ∃ pc ∈ (kernelRun7_A c i arg1 harg1 arg2 harg2 arg3 harg3 arg4 harg4 arg5 harg5 arg6 harg6 hc0 x0 x1 x2).2.2.1, y ∈ pc.1.set :=
  View.cover_of_tiledL (kernelRun7_A c i arg1 harg1 arg2 harg2 arg3 harg3 arg4 harg4 arg5 harg5 arg6 harg6 hc0 x0 x1 x2).2.2.1 S1x128.size (by sl_kernel_rfl) y

/-- What that run leaves in output 5's staging buffer: its pieces read back over arbitrary contents. -/
def out7_A_5 (c : Dev nD) (i : grid7.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond7_0 i)
    (x0 : Vec F S10000x64 .f32) (x1 : Vec F S64x128 .f32) (x2 : Vec F S1x128 .f32) : Vec F S1x128 .f32 :=
  VO7_5.read (Elt F) (VO7_5.writes (Elt F) VO7_5.junk (kernelRun7_A c i arg1 harg1 arg2 harg2 arg3 harg3 arg4 harg4 arg5 harg5 arg6 harg6 hc0 x0 x1 x2).2.2.1)

/-- The pieces the body where the condition fails writes to output 3 tile its block, so they cover it. -/
theorem cover7_B_3 (c : Dev nD) (i : grid7.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond7_0 i)
    (x0 : Vec F S10000x64 .f32) (x1 : Vec F S64x128 .f32) (x2 : Vec F S1x128 .f32) (xo4 : Vec F S1x128 .f32) (xo5 : Vec F S1x128 .f32) (y : S10000x128.Idx) :
    ∃ pc ∈ (kernelRun7_B c i arg1 harg1 arg2 harg2 arg3 harg3 arg4 harg4 arg5 harg5 arg6 harg6 hc0 x0 x1 x2 xo4 xo5).1, y ∈ pc.1.set :=
  View.cover_of_tiledL (kernelRun7_B c i arg1 harg1 arg2 harg2 arg3 harg3 arg4 harg4 arg5 harg5 arg6 harg6 hc0 x0 x1 x2 xo4 xo5).1 S10000x128.size (by sl_kernel_rfl) y

/-- What that run leaves in output 3's staging buffer: its pieces read back over arbitrary contents. -/
def out7_B_3 (c : Dev nD) (i : grid7.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond7_0 i)
    (x0 : Vec F S10000x64 .f32) (x1 : Vec F S64x128 .f32) (x2 : Vec F S1x128 .f32) (xo4 : Vec F S1x128 .f32) (xo5 : Vec F S1x128 .f32) : Vec F S10000x128 .f32 :=
  VO7_3.read (Elt F) (VO7_3.writes (Elt F) VO7_3.junk (kernelRun7_B c i arg1 harg1 arg2 harg2 arg3 harg3 arg4 harg4 arg5 harg5 arg6 harg6 hc0 x0 x1 x2 xo4 xo5).1)

/-- The pieces the body where the condition fails writes to output 4 tile its block, so they cover it. -/
theorem cover7_B_4 (c : Dev nD) (i : grid7.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond7_0 i)
    (x0 : Vec F S10000x64 .f32) (x1 : Vec F S64x128 .f32) (x2 : Vec F S1x128 .f32) (xo4 : Vec F S1x128 .f32) (xo5 : Vec F S1x128 .f32) (y : S1x128.Idx) :
    ∃ pc ∈ (kernelRun7_B c i arg1 harg1 arg2 harg2 arg3 harg3 arg4 harg4 arg5 harg5 arg6 harg6 hc0 x0 x1 x2 xo4 xo5).2.1, y ∈ pc.1.set :=
  View.cover_of_tiledL (kernelRun7_B c i arg1 harg1 arg2 harg2 arg3 harg3 arg4 harg4 arg5 harg5 arg6 harg6 hc0 x0 x1 x2 xo4 xo5).2.1 S1x128.size (by sl_kernel_rfl) y

/-- What that run leaves in output 4's staging buffer: its pieces read back over arbitrary contents. -/
def out7_B_4 (c : Dev nD) (i : grid7.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond7_0 i)
    (x0 : Vec F S10000x64 .f32) (x1 : Vec F S64x128 .f32) (x2 : Vec F S1x128 .f32) (xo4 : Vec F S1x128 .f32) (xo5 : Vec F S1x128 .f32) : Vec F S1x128 .f32 :=
  VO7_4.read (Elt F) (VO7_4.writes (Elt F) VO7_4.junk (kernelRun7_B c i arg1 harg1 arg2 harg2 arg3 harg3 arg4 harg4 arg5 harg5 arg6 harg6 hc0 x0 x1 x2 xo4 xo5).2.1)

/-- The pieces the body where the condition fails writes to output 5 tile its block, so they cover it. -/
theorem cover7_B_5 (c : Dev nD) (i : grid7.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond7_0 i)
    (x0 : Vec F S10000x64 .f32) (x1 : Vec F S64x128 .f32) (x2 : Vec F S1x128 .f32) (xo4 : Vec F S1x128 .f32) (xo5 : Vec F S1x128 .f32) (y : S1x128.Idx) :
    ∃ pc ∈ (kernelRun7_B c i arg1 harg1 arg2 harg2 arg3 harg3 arg4 harg4 arg5 harg5 arg6 harg6 hc0 x0 x1 x2 xo4 xo5).2.2.1, y ∈ pc.1.set :=
  View.cover_of_tiledL (kernelRun7_B c i arg1 harg1 arg2 harg2 arg3 harg3 arg4 harg4 arg5 harg5 arg6 harg6 hc0 x0 x1 x2 xo4 xo5).2.2.1 S1x128.size (by sl_kernel_rfl) y

/-- What that run leaves in output 5's staging buffer: its pieces read back over arbitrary contents. -/
def out7_B_5 (c : Dev nD) (i : grid7.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond7_0 i)
    (x0 : Vec F S10000x64 .f32) (x1 : Vec F S64x128 .f32) (x2 : Vec F S1x128 .f32) (xo4 : Vec F S1x128 .f32) (xo5 : Vec F S1x128 .f32) : Vec F S1x128 .f32 :=
  VO7_5.read (Elt F) (VO7_5.writes (Elt F) VO7_5.junk (kernelRun7_B c i arg1 harg1 arg2 harg2 arg3 harg3 arg4 harg4 arg5 harg5 arg6 harg6 hc0 x0 x1 x2 xo4 xo5).2.2.1)

/-! ## What the outputs hold after each point -/

/-- What the three outputs' staging buffers hold after the body at position `n`, by recursion on the point: at the first
    point the resetting case, run at the point's input blocks; at a later point the adding case, the running sums read
    as the point before left them (their buffers are not written back between). -/
def outsAt7 (c : Dev nD) : (n : ℕ) → n < cfg7.N → Vec F S10000x128 .f32 × Vec F S1x128 .f32 × Vec F S1x128 .f32
  | 0, hn => (out7_A_3 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) ((hcond7_0 ⟨0, hn⟩).mpr (Nat.zero_mod _)) (iblk7 V c 0 ⟨0, hn⟩) (iblk7 V c 1 ⟨0, hn⟩) (iblk7 V c 2 ⟨0, hn⟩),
       out7_A_4 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) ((hcond7_0 ⟨0, hn⟩).mpr (Nat.zero_mod _)) (iblk7 V c 0 ⟨0, hn⟩) (iblk7 V c 1 ⟨0, hn⟩) (iblk7 V c 2 ⟨0, hn⟩),
       out7_A_5 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) ((hcond7_0 ⟨0, hn⟩).mpr (Nat.zero_mod _)) (iblk7 V c 0 ⟨0, hn⟩) (iblk7 V c 1 ⟨0, hn⟩) (iblk7 V c 2 ⟨0, hn⟩))
  | n + 1, hn =>
    if h0 : (n + 1) % 10 = 0 then
      (out7_A_3 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) ((hcond7_0 ⟨n + 1, hn⟩).mpr h0) (iblk7 V c 0 ⟨n + 1, hn⟩) (iblk7 V c 1 ⟨n + 1, hn⟩) (iblk7 V c 2 ⟨n + 1, hn⟩),
       out7_A_4 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) ((hcond7_0 ⟨n + 1, hn⟩).mpr h0) (iblk7 V c 0 ⟨n + 1, hn⟩) (iblk7 V c 1 ⟨n + 1, hn⟩) (iblk7 V c 2 ⟨n + 1, hn⟩),
       out7_A_5 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) ((hcond7_0 ⟨n + 1, hn⟩).mpr h0) (iblk7 V c 0 ⟨n + 1, hn⟩) (iblk7 V c 1 ⟨n + 1, hn⟩) (iblk7 V c 2 ⟨n + 1, hn⟩))
    else
      (out7_B_3 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (fun h => h0 ((hcond7_0 ⟨n + 1, hn⟩).mp h)) (iblk7 V c 0 ⟨n + 1, hn⟩) (iblk7 V c 1 ⟨n + 1, hn⟩) (iblk7 V c 2 ⟨n + 1, hn⟩) (outsAt7 c n (Nat.lt_of_succ_lt hn)).2.1 (outsAt7 c n (Nat.lt_of_succ_lt hn)).2.2,
       out7_B_4 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (fun h => h0 ((hcond7_0 ⟨n + 1, hn⟩).mp h)) (iblk7 V c 0 ⟨n + 1, hn⟩) (iblk7 V c 1 ⟨n + 1, hn⟩) (iblk7 V c 2 ⟨n + 1, hn⟩) (outsAt7 c n (Nat.lt_of_succ_lt hn)).2.1 (outsAt7 c n (Nat.lt_of_succ_lt hn)).2.2,
       out7_B_5 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (fun h => h0 ((hcond7_0 ⟨n + 1, hn⟩).mp h)) (iblk7 V c 0 ⟨n + 1, hn⟩) (iblk7 V c 1 ⟨n + 1, hn⟩) (iblk7 V c 2 ⟨n + 1, hn⟩) (outsAt7 c n (Nat.lt_of_succ_lt hn)).2.1 (outsAt7 c n (Nat.lt_of_succ_lt hn)).2.2)

/-- `outsAt7` at a point where the condition holds. -/
theorem outsAt7_A (c : Dev nD) (t : Fin cfg7.N) (h0 : t.val % 10 = 0) :
    outsAt7 V c t.val t.isLt = (out7_A_3 c (grid7.coords t) (ms7_0 t) (hs7_0 t) (ms7_1 t) (hs7_1 t) (ms7_2 t) (hs7_2 t) (ms7_3 t) (hs7_3 t) (ms7_4 t) (hs7_4 t) (ms7_5 t) (hs7_5 t) ((hcond7_0 t).mpr h0) (iblk7 V c 0 t) (iblk7 V c 1 t) (iblk7 V c 2 t),
       out7_A_4 c (grid7.coords t) (ms7_0 t) (hs7_0 t) (ms7_1 t) (hs7_1 t) (ms7_2 t) (hs7_2 t) (ms7_3 t) (hs7_3 t) (ms7_4 t) (hs7_4 t) (ms7_5 t) (hs7_5 t) ((hcond7_0 t).mpr h0) (iblk7 V c 0 t) (iblk7 V c 1 t) (iblk7 V c 2 t),
       out7_A_5 c (grid7.coords t) (ms7_0 t) (hs7_0 t) (ms7_1 t) (hs7_1 t) (ms7_2 t) (hs7_2 t) (ms7_3 t) (hs7_3 t) (ms7_4 t) (hs7_4 t) (ms7_5 t) (hs7_5 t) ((hcond7_0 t).mpr h0) (iblk7 V c 0 t) (iblk7 V c 1 t) (iblk7 V c 2 t)) := by
  obtain ⟨n, hn⟩ := t
  cases n with
  | zero => exact rfl
  | succ n => exact (dif_pos h0).trans rfl

/-- `outsAt7` at a point where it fails: over what the point before left. -/
theorem outsAt7_B (c : Dev nD) (t : Fin cfg7.N) (h0 : ¬t.val % 10 = 0) :
    outsAt7 V c t.val t.isLt = (out7_B_3 c (grid7.coords t) (ms7_0 t) (hs7_0 t) (ms7_1 t) (hs7_1 t) (ms7_2 t) (hs7_2 t) (ms7_3 t) (hs7_3 t) (ms7_4 t) (hs7_4 t) (ms7_5 t) (hs7_5 t) (fun h => h0 ((hcond7_0 t).mp h)) (iblk7 V c 0 t) (iblk7 V c 1 t) (iblk7 V c 2 t) (outsAt7 V c (t.val - 1) (Nat.lt_of_le_of_lt (Nat.sub_le _ _) t.isLt)).2.1 (outsAt7 V c (t.val - 1) (Nat.lt_of_le_of_lt (Nat.sub_le _ _) t.isLt)).2.2,
       out7_B_4 c (grid7.coords t) (ms7_0 t) (hs7_0 t) (ms7_1 t) (hs7_1 t) (ms7_2 t) (hs7_2 t) (ms7_3 t) (hs7_3 t) (ms7_4 t) (hs7_4 t) (ms7_5 t) (hs7_5 t) (fun h => h0 ((hcond7_0 t).mp h)) (iblk7 V c 0 t) (iblk7 V c 1 t) (iblk7 V c 2 t) (outsAt7 V c (t.val - 1) (Nat.lt_of_le_of_lt (Nat.sub_le _ _) t.isLt)).2.1 (outsAt7 V c (t.val - 1) (Nat.lt_of_le_of_lt (Nat.sub_le _ _) t.isLt)).2.2,
       out7_B_5 c (grid7.coords t) (ms7_0 t) (hs7_0 t) (ms7_1 t) (hs7_1 t) (ms7_2 t) (hs7_2 t) (ms7_3 t) (hs7_3 t) (ms7_4 t) (hs7_4 t) (ms7_5 t) (hs7_5 t) (fun h => h0 ((hcond7_0 t).mp h)) (iblk7 V c 0 t) (iblk7 V c 1 t) (iblk7 V c 2 t) (outsAt7 V c (t.val - 1) (Nat.lt_of_le_of_lt (Nat.sub_le _ _) t.isLt)).2.1 (outsAt7 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t` each
    input's buffer at its block and the outputs' at `outsAt7`; the invariant the scoped rest and the generator register,
    untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => (outsAt7 V c t.val t.isLt).1
    | ⟨4, _⟩ => (outsAt7 V c t.val t.isLt).2.1
    | ⟨5, _⟩ => (outsAt7 V c t.val t.isLt).2.2
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]
/-- Its shares are full. -/
theorem q_eq7 (c : Dev nD) (w : Fin cfg7.W) : (dat7 V c).q w = fullShare := by
  dsimp only [dat7]
/-- It owes nothing. -/
theorem owed_eq7 (c : Dev nD) (n : Fin (cfg7.N + 1)) : (dat7 V c).owed n = 0 := by
  dsimp only [dat7]

/-- The generator register and the scoped rest make the invariant at the first boundary, -/
theorem Phi_in7 (c : Dev nD) : (iprop((∃ r, prngReg c r) ∗ Pipeline.scopedRest (Ix := Unit) (Name := ℕ) (U := UR sig nD τ) (Lvl := ℕ) spec7 c) : sProp 𝕄) ⊢ (dat7 V c).Φ 0 := by
  rw [show (dat7 V c).Φ 0 = Pipeline.ΦA spec7 c from rfl]; unfold Pipeline.ΦA
  iintro ⟨Hp, Hr⟩
  isplitl [Hr]; · iexact Hr
  iexact Hp
/-- and the invariant at the last gives them back. -/
theorem Phi_out7 (c : Dev nD) : (dat7 V c).Φ (Fin.last cfg7.N) ⊢ (iprop((∃ r, prngReg c r) ∗ Pipeline.scopedRest (Ix := Unit) (Name := ℕ) (U := UR sig nD τ) (Lvl := ℕ) spec7 c) : sProp 𝕄) := by
  rw [show (dat7 V c).Φ (Fin.last _) = Pipeline.ΦA spec7 c from rfl]; unfold Pipeline.ΦA
  iintro ⟨Hr, Hp⟩
  isplitl [Hp]; · iexact Hp
  iexact Hr

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = (outsAt7 V c t.val t.isLt).1 := by dsimp only [dat7]
theorem after7_4 (c : Dev nD) (t : Fin cfg7.N) : (dat7 V c).after 4 t = (outsAt7 V c t.val t.isLt).2.1 := by dsimp only [dat7]
theorem after7_5 (c : Dev nD) (t : Fin cfg7.N) : (dat7 V c).after 5 t = (outsAt7 V c t.val t.isLt).2.2 := by dsimp only [dat7]

/-- Each input's current staging buffer holds its block at every point. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
/-- At a later point a running sum's staging buffer holds what the body left at the point before: the buffer was not
    written back between, and the window is live and uncut. -/
theorem before7_4_B (c : Dev nD) (t : Fin cfg7.N) (h0 : ¬t.val % 10 = 0) (d) :
    (dat7 V c).before 4 t d = (outsAt7 V c (t.val - 1) (Nat.lt_of_le_of_lt (Nat.sub_le _ _) t.isLt)).2.1 := by
  have hN : t.val < 10 := lt_of_lt_of_eq t.isLt (show cfg7.N = 10 from N_7)
  rw [Dat.before_out_kept _ 4 rfl t (by omega) (Bool.eq_false_iff.mpr fun h => by have := (flush7_4 _).mp h; dsimp only at this; omega)
    (fun _ => rfl) (fun _ _ => rfl)]
  dsimp only [dat7]
theorem before7_5_B (c : Dev nD) (t : Fin cfg7.N) (h0 : ¬t.val % 10 = 0) (d) :
    (dat7 V c).before 5 t d = (outsAt7 V c (t.val - 1) (Nat.lt_of_le_of_lt (Nat.sub_le _ _) t.isLt)).2.2 := by
  have hN : t.val < 10 := lt_of_lt_of_eq t.isLt (show cfg7.N = 10 from N_7)
  rw [Dat.before_out_kept _ 5 rfl t (by omega) (Bool.eq_false_iff.mpr fun h => by have := (flush7_5 _).mp h; dsimp only at this; omega)
    (fun _ => rfl) (fun _ _ => rfl)]
  dsimp only [dat7]

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

set_option maxHeartbeats 1600000 in
/-- The body at any point: the inputs' memrefs hold their blocks; the closed form of the condition says which case the
    point is in; at a later point the running sums hold what the point before left; so that case's run applies; the
    invariant passes through unread; the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3, after7_4, after7_5]
  have hN : t.val < 10 := lt_of_lt_of_eq t.isLt (show cfg7.N = 10 from N_7)
  by_cases h0 : t.val % 10 = 0
  · rw [outsAt7_A V c t h0]
    try dsimp only
    unfold out7_A_3 out7_A_4 out7_A_5
    iintro ⟨HΦ, Ho, ⟨%d0, H0⟩, ⟨%d1, H1⟩, ⟨%d2, H2⟩, ⟨%d3, H3⟩, ⟨%d4, H4⟩, ⟨%d5, H5⟩⟩
    iapply ((kernelRun7_A c (grid7.coords t) _ _ _ _ _ _ _ _ _ _ _ _ ((hcond7_0 t).mpr h0) (iblk7 V c 0 t) (iblk7 V c 1 t) (iblk7 V c 2 t)).2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover7_A_3 c _ _ _ _ _ _ _ _ _ _ _ _ _ _ _ _ _)
    isplitl [H4]
    · unfold owns; iexists _; isplitr
      swap; · iexact H4
      ipureintro; exact View.read_writes_of_cover _ _ _ _ _ (cover7_A_4 c _ _ _ _ _ _ _ _ _ _ _ _ _ _ _ _ _)
    unfold owns; iexists _; isplitr
    swap; · iexact H5
    ipureintro; exact View.read_writes_of_cover _ _ _ _ _ (cover7_A_5 c _ _ _ _ _ _ _ _ _ _ _ _ _ _ _ _ _)
  · rw [outsAt7_B V c t h0]
    simp only [before7_4_B V c t h0, before7_5_B V c t h0]
    try dsimp only
    unfold out7_B_3 out7_B_4 out7_B_5
    iintro ⟨HΦ, Ho, ⟨%d0, H0⟩, ⟨%d1, H1⟩, ⟨%d2, H2⟩, ⟨%d3, H3⟩, ⟨%d4, H4⟩, ⟨%d5, H5⟩⟩
    iapply ((kernelRun7_B c (grid7.coords t) _ _ _ _ _ _ _ _ _ _ _ _ (fun h => h0 ((hcond7_0 t).mp h)) (iblk7 V c 0 t) (iblk7 V c 1 t) (iblk7 V c 2 t) _ _).2.2.2 Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover7_B_3 c _ _ _ _ _ _ _ _ _ _ _ _ _ _ _ _ _ _ _)
    isplitl [H4]
    · unfold owns; iexists _; isplitr
      swap; · iexact H4
      ipureintro; exact View.read_writes_of_cover _ _ _ _ _ (cover7_B_4 c _ _ _ _ _ _ _ _ _ _ _ _ _ _ _ _ _ _ _)
    unfold owns; iexists _; isplitr
    swap; · iexact H5
    ipureintro; exact View.read_writes_of_cover _ _ _ _ _ (cover7_B_5 c _ _ _ _ _ _ _ _ _ _ _ _ _ _ _ _ _ _ _)

/-- The library's body obligation, at every point. -/
theorem body_obligation7 (c : Dev nD) : BodyObligation (dat7 (F := F) V c) (defs₀ (F := F)) Variants.none () Set.univ := fun t => by
  rw [bigSep_W7, bigSep_W7]
  exact sound_body7 V c t

end Region

end Cert.KernelIdeal.Hand

end
-- ==== Proof.KI.RegBN8.lean ====
import proofs.«413302_j72232759984513_1_alg».proof.Proof.Gen.KernelIdeal.Launch
import proofs.«413302_j72232759984513_1_alg».proof.Proof.Gen.KernelIdeal.Skeleton
import proofs.«413302_j72232759984513_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Kernel region 8: the batch-norm-and-ReLU body, its frame half

The body reads a tile of 10000 rows of `h` and four rows `mu`, `inv`, `g`, `be` of 128 lanes each, and stores
`max ((h - mu) * inv * g + be) 0` over the whole output tile. Its six windows are staged whole, so each input's
buffer holds its block of the entry contents at every point and the output's holds the payload of those blocks. -/

-- membership in a rectangle with an axis of 10000 coordinates: the structural check recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array at the entry contents. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for any proof
    data whose array is the entry contents and whose body leaves the block in place: where it is not fetched its
    index has not moved since the point that fetched it. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, fetched there or not, for any proof
    data whose array is the entry contents and whose body leaves the block in place: where it is not fetched its
    index has not moved since the point that fetched it. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, fetched there or not, for any proof
    data whose array is the entry contents and whose body leaves the block in place: where it is not fetched its
    index has not moved since the point that fetched it. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's current staging buffer holds its block at every point, fetched there or not, for any proof
    data whose array is the entry contents and whose body leaves the block in place: where it is not fetched its
    index has not moved since the point that fetched it. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's current staging buffer holds its block at every point, fetched there or not, for any proof
    data whose array is the entry contents and whose body leaves the block in place: where it is not fetched its
    index has not moved since the point that fetched it. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses -/

abbrev r8_0 : Rect S10000x128 := Rect.unit (s := S10000x128) ![0, 0] S10000x128.size inb_S10000x128_S10000x128_0_0
abbrev r8_1 : Rect S1x128 := Rect.unit (s := S1x128) ![0, 0] S1x128.size inb_S1x128_S1x128_0_0

/-! ## What the body leaves in the output window's buffer -/

/-- Window 5's staging buffer after the body, from the input windows' blocks: its one store, of the payload of
    the five loaded values, over the whole tile. -/
def out8_5 (x0 : Vec F S10000x128 .f32) (x1 : Vec F S1x128 .f32) (x2 : Vec F S1x128 .f32) (x3 : Vec F S1x128 .f32) (x4 : Vec F S1x128 .f32) : Vec F S10000x128 .f32 :=
  View.canon [⟨r8_0, k8_pay1 (View.ld x0 r8_0) (View.ld x1 r8_1) (View.ld x2 r8_1) (View.ld x3 r8_1) (View.ld x4 r8_1)⟩]

/-- The one store is of the whole tile, so it covers the buffer. -/
theorem cover8_5 (p0 : Vec F S10000x128 .f32) (y : S10000x128.Idx) :
    ∃ pc ∈ ([⟨r8_0, p0⟩] : List (View.Piece (Elt F) S10000x128 .f32)), y ∈ pc.1.set :=
  View.cover_of_tiled [⟨r8_0, p0⟩] S10000x128.size (by rfl) y

/-! ## The body's triple -/

set_option maxHeartbeats 1000000 in
/-- The kernel body on whole staging memrefs, the inputs' at contents `xW` and the output's at anything, runs to
    the continuation holding the inputs' as they were and the output's at `out8_5` of the inputs'. -/
theorem sound_kernel8 (c : Dev nD) (E : Set ℕ) (i : grid8.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S10000x128 .f32) (harg6 : arg6.IsWhole)
    (x0 : Vec F S10000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out8_5 x0 x1 x2 x3 x4)) -∗ K ⟨⟩))
      ⊢ wp frame (wpE (defs₀ (F := F)) Variants.none c none) E (cc8__bn_relu_kernel i arg1 harg1 arg2 harg2 arg3 harg3 arg4 harg4 arg5 harg5 arg6 harg6) K := by
  simp only [cc8__bn_relu_kernel_eq_skeleton]; unfold cc8__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-! ## The pipeline's proof data -/

/-- The proof data of pipeline 8 on core `c`: the arrays at the entry contents; after the body at point `t` each
    input's buffer at its block and the output's at `out8_5` of the input blocks; the invariant the scoped rest and
    the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

/-- The proof data's arrays are the entry contents. -/
theorem A_eq8 (c : Dev nD) (w : Fin cfg8.W) : (dat8 V c).A w = V c (Pipeline.arrRef spec8 w) := by
  dsimp only [dat8]

/-- Every window is held at the full share. -/
theorem q_eq8 (c : Dev nD) (w : Fin cfg8.W) : (dat8 V c).q w = fullShare := by
  dsimp only [dat8]

/-- Nothing is owed at any point. -/
theorem owed_eq8 (c : Dev nD) (n : Fin (cfg8.N + 1)) : (dat8 V c).owed n = 0 := by
  dsimp only [dat8]

/-- The invariant at every point is the scoped rest with the generator register. -/
theorem Phi_eq8 (c : Dev nD) (n : Fin (cfg8.N + 1)) : (dat8 V c).Φ n = Pipeline.ΦA spec8 c := by
  dsimp only [dat8]

/-- The invariant holds at the first point of what the region is entered with, -/
theorem Phi_in8 (c : Dev nD) :
    (iprop((∃ r, prngReg c r) ∗ Pipeline.scopedRest (Ix := Unit) (Name := ℕ) (U := UR sig nD τ) (Lvl := ℕ) spec8 c) : sProp 𝕄) ⊢ (dat8 V c).Φ 0 := by
  rw [Phi_eq8]; unfold Pipeline.ΦA
  iintro ⟨Hr, Hp⟩
  isplitl [Hp]; · iexact Hp
  iexact Hr

/-- and gives it back at the last. -/
theorem Phi_out8 (c : Dev nD) :
    (dat8 V c).Φ (Fin.last cfg8.N) ⊢ (iprop((∃ r, prngReg c r) ∗ Pipeline.scopedRest (Ix := Unit) (Name := ℕ) (U := UR sig nD τ) (Lvl := ℕ) spec8 c) : sProp 𝕄) := by
  rw [Phi_eq8]; unfold Pipeline.ΦA
  iintro ⟨Hp, Hr⟩
  isplitl [Hr]; · iexact Hr
  iexact Hp

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = out8_5 (iblk8 V c 0 t) (iblk8 V c 1 t) (iblk8 V c 2 t) (iblk8 V c 3 t) (iblk8 V c 4 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at any point: the inputs' memrefs hold their blocks, so the body's triple applies; the invariant and
    the core's debts pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ (grid8.coords t) _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KI.RegLS9.RunA.lean ====
import proofs.«413302_j72232759984513_1_alg».proof.Proof.Gen.KernelIdeal.Launch
import proofs.«413302_j72232759984513_1_alg».proof.Proof.Gen.KernelIdeal.Skeleton
import proofs.«413302_j72232759984513_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 9: the body's run at the first grid point

The body's one conditional tests whether the grid coordinate is zero; there it resets the two running sums before adding
to them. -/

/-- The condition of the body's conditional, from the grid coordinates. -/
abbrev cond9_0 (i : grid9.Coords) : Prop := (Scalar.cmpi .ne (Scalar.extui (Scalar.cmpi .eq (BitVec.ofNat 32 (i 0).val) 0#32)) 0#32) = 1#1
/-- It holds at the first point only: decided over the grid. -/
theorem hcond9_0 : ∀ t : Fin cfg9.N, cond9_0 (grid9.coords t) ↔ t.val % 10 = 0 :=
  (by decide +kernel : ∀ t : Fin grid9.N, cond9_0 (grid9.coords t) ↔ t.val % 10 = 0)

/-- One staging buffer of each output window, through which its contents are stated (the choice does not matter). -/
abbrev VO9_3 : View sig .tc .vmem S10000x128 .f32 := (Memref.whole cc9_stg3_0 : Memref sig .tc .vmem S10000x128 .f32).view
abbrev VO9_4 : View sig .tc .vmem S1x128 .f32 := (Memref.whole cc9_stg4_0 : Memref sig .tc .vmem S1x128 .f32).view
abbrev VO9_5 : View sig .tc .vmem S1x128 .f32 := (Memref.whole cc9_stg5_0 : Memref sig .tc .vmem S1x128 .f32).view

set_option maxHeartbeats 4000000 in
/-- The body where the condition holds. On whole staging memrefs, the three inputs' at contents `x0 x1 x2` and the three
    outputs' at anything, it runs to the continuation holding the inputs' as they were and each output's buffer with
    the pieces its stores wrote (last first): the pieces are the witness the run finds. -/
noncomputable def kernelRun9_A (c : Dev nD) (i : grid9.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond9_0 i)
    (x0 : Vec F S10000x128 .f32) (x1 : Vec F S128x128 .f32) (x2 : Vec F S1x128 .f32) :
    Σ' (L3 : List (View.Piece (Elt F) S10000x128 .f32)), Σ' (L4 : List (View.Piece (Elt F) S1x128 .f32)), { L5 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc9__linear_stats_kernel i arg1 harg1 arg2 harg2 arg3 harg3 arg4 harg4 arg5 harg5 arg6 harg6) K } := by
  refine ⟨?_, ?_, ?_, fun E K => ?run⟩
  case run =>
    simp only [cc9__linear_stats_kernel_eq_skeleton]; unfold cc9__linear_stats_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

end Cert.KernelIdeal.Hand

end
-- ==== Proof.KI.RegLS9.RunB.lean ====
import proofs.«413302_j72232759984513_1_alg».proof.Proof.KI.RegLS9.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 9: the body's run at a later grid point

The condition fails: the two running sums are read as the point before left them and added to. -/

set_option maxHeartbeats 4000000 in
/-- The body where the condition fails. On whole staging memrefs, the three inputs' at contents `x0 x1 x2`, the two
    running sums' at `xo4 xo5` and the first output's at anything, it runs to the continuation holding the inputs' as they
    were and each output's buffer with the pieces its stores wrote (last first): the pieces are the witness the run finds. -/
noncomputable def kernelRun9_B (c : Dev nD) (i : grid9.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond9_0 i)
    (x0 : Vec F S10000x128 .f32) (x1 : Vec F S128x128 .f32) (x2 : Vec F S1x128 .f32) (xo4 : Vec F S1x128 .f32) (xo5 : Vec F S1x128 .f32) :
    Σ' (L3 : List (View.Piece (Elt F) S10000x128 .f32)), Σ' (L4 : List (View.Piece (Elt F) S1x128 .f32)), { L5 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xo4 ∗ owns (c : Thread nD τ) arg6 fullShare xo5
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc9__linear_stats_kernel i arg1 harg1 arg2 harg2 arg3 harg3 arg4 harg4 arg5 harg5 arg6 harg6) K } := by
  refine ⟨?_, ?_, ?_, fun E K => ?run⟩
  case run =>
    simp only [cc9__linear_stats_kernel_eq_skeleton]; unfold cc9__linear_stats_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
    obtain rfl := harg1.eq_unread hf0; obtain rfl := harg2.eq_unread hf1; obtain rfl := harg3.eq_unread hf2
    obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

end Cert.KernelIdeal.Hand

end
-- ==== Proof.KI.RegLS9.lean ====
import proofs.«413302_j72232759984513_1_alg».proof.Proof.KI.RegLS9.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 9: the proof data and the body obligation, at the contents the region is entered with

The kernel stores `x·W + b` for its tile of rows in output window 3 and keeps two running sums, output windows 4 and 5:
reset at the first grid point, added to at every point, written back after the last. Everything is stated at a
parameter `V`, the TensorCore's buffer contents when the region is entered. -/

section Region

variable (V : (c : Dev nD) → (b : Ref sig .tc) → Buf (Elt F) ((c : Thread nD τ).loc b))

/-! ## The windows' blocks -/

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-! An input window's current staging buffer holds its block at every point, fetched there or not (unfetched, the block
    index has not moved), for any proof data whose array is the entry contents and whose body leaves the block in place. -/

theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Each window's current staging memref at point `t`, and its wholeness. -/
abbrev ms9_0 (t : Fin cfg9.N) : Memref sig .tc .vmem S10000x128 .f32 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S128x128 .f32 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S1x128 .f32 := win9_2.stage (cfg9.slots t 2)
abbrev hs9_2 (t : Fin cfg9.N) : (ms9_2 t).IsWhole := hstage9_2 ((cfg9.slots t 2).cast nbuf9_2)
abbrev ms9_3 (t : Fin cfg9.N) : Memref sig .tc .vmem S10000x128 .f32 := win9_3.stage (cfg9.slots t 3)
abbrev hs9_3 (t : Fin cfg9.N) : (ms9_3 t).IsWhole := hstage9_3 ((cfg9.slots t 3).cast nbuf9_3)
abbrev ms9_4 (t : Fin cfg9.N) : Memref sig .tc .vmem S1x128 .f32 := win9_4.stage (cfg9.slots t 4)
abbrev hs9_4 (t : Fin cfg9.N) : (ms9_4 t).IsWhole := hstage9_4 ((cfg9.slots t 4).cast nbuf9_4)
abbrev ms9_5 (t : Fin cfg9.N) : Memref sig .tc .vmem S1x128 .f32 := win9_5.stage (cfg9.slots t 5)
abbrev hs9_5 (t : Fin cfg9.N) : (ms9_5 t).IsWhole := hstage9_5 ((cfg9.slots t 5).cast nbuf9_5)

/-! ## What each case of the body leaves in the outputs' buffers -/

/-- The pieces the body where the condition holds writes to output 3 tile its block, so they cover it. -/
theorem cover9_A_3 (c : Dev nD) (i : grid9.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond9_0 i)
    (x0 : Vec F S10000x128 .f32) (x1 : Vec F S128x128 .f32) (x2 : Vec F S1x128 .f32) (y : S10000x128.Idx) :
    ∃ pc ∈ (kernelRun9_A c i arg1 harg1 arg2 harg2 arg3 harg3 arg4 harg4 arg5 harg5 arg6 harg6 hc0 x0 x1 x2).1, y ∈ pc.1.set :=
  View.cover_of_tiledL (kernelRun9_A c i arg1 harg1 arg2 harg2 arg3 harg3 arg4 harg4 arg5 harg5 arg6 harg6 hc0 x0 x1 x2).1 S10000x128.size (by sl_kernel_rfl) y

/-- What that run leaves in output 3's staging buffer: its pieces read back over arbitrary contents. -/
def out9_A_3 (c : Dev nD) (i : grid9.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond9_0 i)
    (x0 : Vec F S10000x128 .f32) (x1 : Vec F S128x128 .f32) (x2 : Vec F S1x128 .f32) : Vec F S10000x128 .f32 :=
  VO9_3.read (Elt F) (VO9_3.writes (Elt F) VO9_3.junk (kernelRun9_A c i arg1 harg1 arg2 harg2 arg3 harg3 arg4 harg4 arg5 harg5 arg6 harg6 hc0 x0 x1 x2).1)

/-- The pieces the body where the condition holds writes to output 4 tile its block, so they cover it. -/
theorem cover9_A_4 (c : Dev nD) (i : grid9.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond9_0 i)
    (x0 : Vec F S10000x128 .f32) (x1 : Vec F S128x128 .f32) (x2 : Vec F S1x128 .f32) (y : S1x128.Idx) :
    ∃ pc ∈ (kernelRun9_A c i arg1 harg1 arg2 harg2 arg3 harg3 arg4 harg4 arg5 harg5 arg6 harg6 hc0 x0 x1 x2).2.1, y ∈ pc.1.set :=
  View.cover_of_tiledL (kernelRun9_A c i arg1 harg1 arg2 harg2 arg3 harg3 arg4 harg4 arg5 harg5 arg6 harg6 hc0 x0 x1 x2).2.1 S1x128.size (by sl_kernel_rfl) y

/-- What that run leaves in output 4's staging buffer: its pieces read back over arbitrary contents. -/
def out9_A_4 (c : Dev nD) (i : grid9.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond9_0 i)
    (x0 : Vec F S10000x128 .f32) (x1 : Vec F S128x128 .f32) (x2 : Vec F S1x128 .f32) : Vec F S1x128 .f32 :=
  VO9_4.read (Elt F) (VO9_4.writes (Elt F) VO9_4.junk (kernelRun9_A c i arg1 harg1 arg2 harg2 arg3 harg3 arg4 harg4 arg5 harg5 arg6 harg6 hc0 x0 x1 x2).2.1)

/-- The pieces the body where the condition holds writes to output 5 tile its block, so they cover it. -/
theorem cover9_A_5 (c : Dev nD) (i : grid9.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond9_0 i)
    (x0 : Vec F S10000x128 .f32) (x1 : Vec F S128x128 .f32) (x2 : Vec F S1x128 .f32) (y : S1x128.Idx) :
    ∃ pc ∈ (kernelRun9_A c i arg1 harg1 arg2 harg2 arg3 harg3 arg4 harg4 arg5 harg5 arg6 harg6 hc0 x0 x1 x2).2.2.1, y ∈ pc.1.set :=
  View.cover_of_tiledL (kernelRun9_A c i arg1 harg1 arg2 harg2 arg3 harg3 arg4 harg4 arg5 harg5 arg6 harg6 hc0 x0 x1 x2).2.2.1 S1x128.size (by sl_kernel_rfl) y

/-- What that run leaves in output 5's staging buffer: its pieces read back over arbitrary contents. -/
def out9_A_5 (c : Dev nD) (i : grid9.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond9_0 i)
    (x0 : Vec F S10000x128 .f32) (x1 : Vec F S128x128 .f32) (x2 : Vec F S1x128 .f32) : Vec F S1x128 .f32 :=
  VO9_5.read (Elt F) (VO9_5.writes (Elt F) VO9_5.junk (kernelRun9_A c i arg1 harg1 arg2 harg2 arg3 harg3 arg4 harg4 arg5 harg5 arg6 harg6 hc0 x0 x1 x2).2.2.1)

/-- The pieces the body where the condition fails writes to output 3 tile its block, so they cover it. -/
theorem cover9_B_3 (c : Dev nD) (i : grid9.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond9_0 i)
    (x0 : Vec F S10000x128 .f32) (x1 : Vec F S128x128 .f32) (x2 : Vec F S1x128 .f32) (xo4 : Vec F S1x128 .f32) (xo5 : Vec F S1x128 .f32) (y : S10000x128.Idx) :
    ∃ pc ∈ (kernelRun9_B c i arg1 harg1 arg2 harg2 arg3 harg3 arg4 harg4 arg5 harg5 arg6 harg6 hc0 x0 x1 x2 xo4 xo5).1, y ∈ pc.1.set :=
  View.cover_of_tiledL (kernelRun9_B c i arg1 harg1 arg2 harg2 arg3 harg3 arg4 harg4 arg5 harg5 arg6 harg6 hc0 x0 x1 x2 xo4 xo5).1 S10000x128.size (by sl_kernel_rfl) y

/-- What that run leaves in output 3's staging buffer: its pieces read back over arbitrary contents. -/
def out9_B_3 (c : Dev nD) (i : grid9.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond9_0 i)
    (x0 : Vec F S10000x128 .f32) (x1 : Vec F S128x128 .f32) (x2 : Vec F S1x128 .f32) (xo4 : Vec F S1x128 .f32) (xo5 : Vec F S1x128 .f32) : Vec F S10000x128 .f32 :=
  VO9_3.read (Elt F) (VO9_3.writes (Elt F) VO9_3.junk (kernelRun9_B c i arg1 harg1 arg2 harg2 arg3 harg3 arg4 harg4 arg5 harg5 arg6 harg6 hc0 x0 x1 x2 xo4 xo5).1)

/-- The pieces the body where the condition fails writes to output 4 tile its block, so they cover it. -/
theorem cover9_B_4 (c : Dev nD) (i : grid9.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond9_0 i)
    (x0 : Vec F S10000x128 .f32) (x1 : Vec F S128x128 .f32) (x2 : Vec F S1x128 .f32) (xo4 : Vec F S1x128 .f32) (xo5 : Vec F S1x128 .f32) (y : S1x128.Idx) :
    ∃ pc ∈ (kernelRun9_B c i arg1 harg1 arg2 harg2 arg3 harg3 arg4 harg4 arg5 harg5 arg6 harg6 hc0 x0 x1 x2 xo4 xo5).2.1, y ∈ pc.1.set :=
  View.cover_of_tiledL (kernelRun9_B c i arg1 harg1 arg2 harg2 arg3 harg3 arg4 harg4 arg5 harg5 arg6 harg6 hc0 x0 x1 x2 xo4 xo5).2.1 S1x128.size (by sl_kernel_rfl) y

/-- What that run leaves in output 4's staging buffer: its pieces read back over arbitrary contents. -/
def out9_B_4 (c : Dev nD) (i : grid9.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond9_0 i)
    (x0 : Vec F S10000x128 .f32) (x1 : Vec F S128x128 .f32) (x2 : Vec F S1x128 .f32) (xo4 : Vec F S1x128 .f32) (xo5 : Vec F S1x128 .f32) : Vec F S1x128 .f32 :=
  VO9_4.read (Elt F) (VO9_4.writes (Elt F) VO9_4.junk (kernelRun9_B c i arg1 harg1 arg2 harg2 arg3 harg3 arg4 harg4 arg5 harg5 arg6 harg6 hc0 x0 x1 x2 xo4 xo5).2.1)

/-- The pieces the body where the condition fails writes to output 5 tile its block, so they cover it. -/
theorem cover9_B_5 (c : Dev nD) (i : grid9.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond9_0 i)
    (x0 : Vec F S10000x128 .f32) (x1 : Vec F S128x128 .f32) (x2 : Vec F S1x128 .f32) (xo4 : Vec F S1x128 .f32) (xo5 : Vec F S1x128 .f32) (y : S1x128.Idx) :
    ∃ pc ∈ (kernelRun9_B c i arg1 harg1 arg2 harg2 arg3 harg3 arg4 harg4 arg5 harg5 arg6 harg6 hc0 x0 x1 x2 xo4 xo5).2.2.1, y ∈ pc.1.set :=
  View.cover_of_tiledL (kernelRun9_B c i arg1 harg1 arg2 harg2 arg3 harg3 arg4 harg4 arg5 harg5 arg6 harg6 hc0 x0 x1 x2 xo4 xo5).2.2.1 S1x128.size (by sl_kernel_rfl) y

/-- What that run leaves in output 5's staging buffer: its pieces read back over arbitrary contents. -/
def out9_B_5 (c : Dev nD) (i : grid9.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond9_0 i)
    (x0 : Vec F S10000x128 .f32) (x1 : Vec F S128x128 .f32) (x2 : Vec F S1x128 .f32) (xo4 : Vec F S1x128 .f32) (xo5 : Vec F S1x128 .f32) : Vec F S1x128 .f32 :=
  VO9_5.read (Elt F) (VO9_5.writes (Elt F) VO9_5.junk (kernelRun9_B c i arg1 harg1 arg2 harg2 arg3 harg3 arg4 harg4 arg5 harg5 arg6 harg6 hc0 x0 x1 x2 xo4 xo5).2.2.1)

/-! ## What the outputs hold after each point -/

/-- What the three outputs' staging buffers hold after the body at position `n`, by recursion on the point: at the first
    point the resetting case, run at the point's input blocks; at a later point the adding case, the running sums read
    as the point before left them (their buffers are not written back between). -/
def outsAt9 (c : Dev nD) : (n : ℕ) → n < cfg9.N → Vec F S10000x128 .f32 × Vec F S1x128 .f32 × Vec F S1x128 .f32
  | 0, hn => (out9_A_3 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) (ms9_4 ⟨0, hn⟩) (hs9_4 ⟨0, hn⟩) (ms9_5 ⟨0, hn⟩) (hs9_5 ⟨0, hn⟩) ((hcond9_0 ⟨0, hn⟩).mpr (Nat.zero_mod _)) (iblk9 V c 0 ⟨0, hn⟩) (iblk9 V c 1 ⟨0, hn⟩) (iblk9 V c 2 ⟨0, hn⟩),
       out9_A_4 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) (ms9_4 ⟨0, hn⟩) (hs9_4 ⟨0, hn⟩) (ms9_5 ⟨0, hn⟩) (hs9_5 ⟨0, hn⟩) ((hcond9_0 ⟨0, hn⟩).mpr (Nat.zero_mod _)) (iblk9 V c 0 ⟨0, hn⟩) (iblk9 V c 1 ⟨0, hn⟩) (iblk9 V c 2 ⟨0, hn⟩),
       out9_A_5 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) (ms9_4 ⟨0, hn⟩) (hs9_4 ⟨0, hn⟩) (ms9_5 ⟨0, hn⟩) (hs9_5 ⟨0, hn⟩) ((hcond9_0 ⟨0, hn⟩).mpr (Nat.zero_mod _)) (iblk9 V c 0 ⟨0, hn⟩) (iblk9 V c 1 ⟨0, hn⟩) (iblk9 V c 2 ⟨0, hn⟩))
  | n + 1, hn =>
    if h0 : (n + 1) % 10 = 0 then
      (out9_A_3 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) ((hcond9_0 ⟨n + 1, hn⟩).mpr h0) (iblk9 V c 0 ⟨n + 1, hn⟩) (iblk9 V c 1 ⟨n + 1, hn⟩) (iblk9 V c 2 ⟨n + 1, hn⟩),
       out9_A_4 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) ((hcond9_0 ⟨n + 1, hn⟩).mpr h0) (iblk9 V c 0 ⟨n + 1, hn⟩) (iblk9 V c 1 ⟨n + 1, hn⟩) (iblk9 V c 2 ⟨n + 1, hn⟩),
       out9_A_5 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) ((hcond9_0 ⟨n + 1, hn⟩).mpr h0) (iblk9 V c 0 ⟨n + 1, hn⟩) (iblk9 V c 1 ⟨n + 1, hn⟩) (iblk9 V c 2 ⟨n + 1, hn⟩))
    else
      (out9_B_3 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) (fun h => h0 ((hcond9_0 ⟨n + 1, hn⟩).mp h)) (iblk9 V c 0 ⟨n + 1, hn⟩) (iblk9 V c 1 ⟨n + 1, hn⟩) (iblk9 V c 2 ⟨n + 1, hn⟩) (outsAt9 c n (Nat.lt_of_succ_lt hn)).2.1 (outsAt9 c n (Nat.lt_of_succ_lt hn)).2.2,
       out9_B_4 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) (fun h => h0 ((hcond9_0 ⟨n + 1, hn⟩).mp h)) (iblk9 V c 0 ⟨n + 1, hn⟩) (iblk9 V c 1 ⟨n + 1, hn⟩) (iblk9 V c 2 ⟨n + 1, hn⟩) (outsAt9 c n (Nat.lt_of_succ_lt hn)).2.1 (outsAt9 c n (Nat.lt_of_succ_lt hn)).2.2,
       out9_B_5 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) (fun h => h0 ((hcond9_0 ⟨n + 1, hn⟩).mp h)) (iblk9 V c 0 ⟨n + 1, hn⟩) (iblk9 V c 1 ⟨n + 1, hn⟩) (iblk9 V c 2 ⟨n + 1, hn⟩) (outsAt9 c n (Nat.lt_of_succ_lt hn)).2.1 (outsAt9 c n (Nat.lt_of_succ_lt hn)).2.2)

/-- `outsAt9` at a point where the condition holds. -/
theorem outsAt9_A (c : Dev nD) (t : Fin cfg9.N) (h0 : t.val % 10 = 0) :
    outsAt9 V c t.val t.isLt = (out9_A_3 c (grid9.coords t) (ms9_0 t) (hs9_0 t) (ms9_1 t) (hs9_1 t) (ms9_2 t) (hs9_2 t) (ms9_3 t) (hs9_3 t) (ms9_4 t) (hs9_4 t) (ms9_5 t) (hs9_5 t) ((hcond9_0 t).mpr h0) (iblk9 V c 0 t) (iblk9 V c 1 t) (iblk9 V c 2 t),
       out9_A_4 c (grid9.coords t) (ms9_0 t) (hs9_0 t) (ms9_1 t) (hs9_1 t) (ms9_2 t) (hs9_2 t) (ms9_3 t) (hs9_3 t) (ms9_4 t) (hs9_4 t) (ms9_5 t) (hs9_5 t) ((hcond9_0 t).mpr h0) (iblk9 V c 0 t) (iblk9 V c 1 t) (iblk9 V c 2 t),
       out9_A_5 c (grid9.coords t) (ms9_0 t) (hs9_0 t) (ms9_1 t) (hs9_1 t) (ms9_2 t) (hs9_2 t) (ms9_3 t) (hs9_3 t) (ms9_4 t) (hs9_4 t) (ms9_5 t) (hs9_5 t) ((hcond9_0 t).mpr h0) (iblk9 V c 0 t) (iblk9 V c 1 t) (iblk9 V c 2 t)) := by
  obtain ⟨n, hn⟩ := t
  cases n with
  | zero => exact rfl
  | succ n => exact (dif_pos h0).trans rfl

/-- `outsAt9` at a point where it fails: over what the point before left. -/
theorem outsAt9_B (c : Dev nD) (t : Fin cfg9.N) (h0 : ¬t.val % 10 = 0) :
    outsAt9 V c t.val t.isLt = (out9_B_3 c (grid9.coords t) (ms9_0 t) (hs9_0 t) (ms9_1 t) (hs9_1 t) (ms9_2 t) (hs9_2 t) (ms9_3 t) (hs9_3 t) (ms9_4 t) (hs9_4 t) (ms9_5 t) (hs9_5 t) (fun h => h0 ((hcond9_0 t).mp h)) (iblk9 V c 0 t) (iblk9 V c 1 t) (iblk9 V c 2 t) (outsAt9 V c (t.val - 1) (Nat.lt_of_le_of_lt (Nat.sub_le _ _) t.isLt)).2.1 (outsAt9 V c (t.val - 1) (Nat.lt_of_le_of_lt (Nat.sub_le _ _) t.isLt)).2.2,
       out9_B_4 c (grid9.coords t) (ms9_0 t) (hs9_0 t) (ms9_1 t) (hs9_1 t) (ms9_2 t) (hs9_2 t) (ms9_3 t) (hs9_3 t) (ms9_4 t) (hs9_4 t) (ms9_5 t) (hs9_5 t) (fun h => h0 ((hcond9_0 t).mp h)) (iblk9 V c 0 t) (iblk9 V c 1 t) (iblk9 V c 2 t) (outsAt9 V c (t.val - 1) (Nat.lt_of_le_of_lt (Nat.sub_le _ _) t.isLt)).2.1 (outsAt9 V c (t.val - 1) (Nat.lt_of_le_of_lt (Nat.sub_le _ _) t.isLt)).2.2,
       out9_B_5 c (grid9.coords t) (ms9_0 t) (hs9_0 t) (ms9_1 t) (hs9_1 t) (ms9_2 t) (hs9_2 t) (ms9_3 t) (hs9_3 t) (ms9_4 t) (hs9_4 t) (ms9_5 t) (hs9_5 t) (fun h => h0 ((hcond9_0 t).mp h)) (iblk9 V c 0 t) (iblk9 V c 1 t) (iblk9 V c 2 t) (outsAt9 V c (t.val - 1) (Nat.lt_of_le_of_lt (Nat.sub_le _ _) t.isLt)).2.1 (outsAt9 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t` each
    input's buffer at its block and the outputs' at `outsAt9`; the invariant the scoped rest and the generator register,
    untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => (outsAt9 V c t.val t.isLt).1
    | ⟨4, _⟩ => (outsAt9 V c t.val t.isLt).2.1
    | ⟨5, _⟩ => (outsAt9 V c t.val t.isLt).2.2
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]
/-- Its shares are full. -/
theorem q_eq9 (c : Dev nD) (w : Fin cfg9.W) : (dat9 V c).q w = fullShare := by
  dsimp only [dat9]
/-- It owes nothing. -/
theorem owed_eq9 (c : Dev nD) (n : Fin (cfg9.N + 1)) : (dat9 V c).owed n = 0 := by
  dsimp only [dat9]

/-- The generator register and the scoped rest make the invariant at the first boundary, -/
theorem Phi_in9 (c : Dev nD) : (iprop((∃ r, prngReg c r) ∗ Pipeline.scopedRest (Ix := Unit) (Name := ℕ) (U := UR sig nD τ) (Lvl := ℕ) spec9 c) : sProp 𝕄) ⊢ (dat9 V c).Φ 0 := by
  rw [show (dat9 V c).Φ 0 = Pipeline.ΦA spec9 c from rfl]; unfold Pipeline.ΦA
  iintro ⟨Hp, Hr⟩
  isplitl [Hr]; · iexact Hr
  iexact Hp
/-- and the invariant at the last gives them back. -/
theorem Phi_out9 (c : Dev nD) : (dat9 V c).Φ (Fin.last cfg9.N) ⊢ (iprop((∃ r, prngReg c r) ∗ Pipeline.scopedRest (Ix := Unit) (Name := ℕ) (U := UR sig nD τ) (Lvl := ℕ) spec9 c) : sProp 𝕄) := by
  rw [show (dat9 V c).Φ (Fin.last _) = Pipeline.ΦA spec9 c from rfl]; unfold Pipeline.ΦA
  iintro ⟨Hr, Hp⟩
  isplitl [Hp]; · iexact Hp
  iexact Hr

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = (outsAt9 V c t.val t.isLt).1 := by dsimp only [dat9]
theorem after9_4 (c : Dev nD) (t : Fin cfg9.N) : (dat9 V c).after 4 t = (outsAt9 V c t.val t.isLt).2.1 := by dsimp only [dat9]
theorem after9_5 (c : Dev nD) (t : Fin cfg9.N) : (dat9 V c).after 5 t = (outsAt9 V c t.val t.isLt).2.2 := by dsimp only [dat9]

/-- Each input's current staging buffer holds its block at every point. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
/-- At a later point a running sum's staging buffer holds what the body left at the point before: the buffer was not
    written back between, and the window is live and uncut. -/
theorem before9_4_B (c : Dev nD) (t : Fin cfg9.N) (h0 : ¬t.val % 10 = 0) (d) :
    (dat9 V c).before 4 t d = (outsAt9 V c (t.val - 1) (Nat.lt_of_le_of_lt (Nat.sub_le _ _) t.isLt)).2.1 := by
  have hN : t.val < 10 := lt_of_lt_of_eq t.isLt (show cfg9.N = 10 from N_9)
  rw [Dat.before_out_kept _ 4 rfl t (by omega) (Bool.eq_false_iff.mpr fun h => by have := (flush9_4 _).mp h; dsimp only at this; omega)
    (fun _ => rfl) (fun _ _ => rfl)]
  dsimp only [dat9]
theorem before9_5_B (c : Dev nD) (t : Fin cfg9.N) (h0 : ¬t.val % 10 = 0) (d) :
    (dat9 V c).before 5 t d = (outsAt9 V c (t.val - 1) (Nat.lt_of_le_of_lt (Nat.sub_le _ _) t.isLt)).2.2 := by
  have hN : t.val < 10 := lt_of_lt_of_eq t.isLt (show cfg9.N = 10 from N_9)
  rw [Dat.before_out_kept _ 5 rfl t (by omega) (Bool.eq_false_iff.mpr fun h => by have := (flush9_5 _).mp h; dsimp only at this; omega)
    (fun _ => rfl) (fun _ _ => rfl)]
  dsimp only [dat9]

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

set_option maxHeartbeats 1600000 in
/-- The body at any point: the inputs' memrefs hold their blocks; the closed form of the condition says which case the
    point is in; at a later point the running sums hold what the point before left; so that case's run applies; the
    invariant passes through unread; the core owes nothing throughout. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3, after9_4, after9_5]
  have hN : t.val < 10 := lt_of_lt_of_eq t.isLt (show cfg9.N = 10 from N_9)
  by_cases h0 : t.val % 10 = 0
  · rw [outsAt9_A V c t h0]
    try dsimp only
    unfold out9_A_3 out9_A_4 out9_A_5
    iintro ⟨HΦ, Ho, ⟨%d0, H0⟩, ⟨%d1, H1⟩, ⟨%d2, H2⟩, ⟨%d3, H3⟩, ⟨%d4, H4⟩, ⟨%d5, H5⟩⟩
    iapply ((kernelRun9_A c (grid9.coords t) _ _ _ _ _ _ _ _ _ _ _ _ ((hcond9_0 t).mpr h0) (iblk9 V c 0 t) (iblk9 V c 1 t) (iblk9 V c 2 t)).2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover9_A_3 c _ _ _ _ _ _ _ _ _ _ _ _ _ _ _ _ _)
    isplitl [H4]
    · unfold owns; iexists _; isplitr
      swap; · iexact H4
      ipureintro; exact View.read_writes_of_cover _ _ _ _ _ (cover9_A_4 c _ _ _ _ _ _ _ _ _ _ _ _ _ _ _ _ _)
    unfold owns; iexists _; isplitr
    swap; · iexact H5
    ipureintro; exact View.read_writes_of_cover _ _ _ _ _ (cover9_A_5 c _ _ _ _ _ _ _ _ _ _ _ _ _ _ _ _ _)
  · rw [outsAt9_B V c t h0]
    simp only [before9_4_B V c t h0, before9_5_B V c t h0]
    try dsimp only
    unfold out9_B_3 out9_B_4 out9_B_5
    iintro ⟨HΦ, Ho, ⟨%d0, H0⟩, ⟨%d1, H1⟩, ⟨%d2, H2⟩, ⟨%d3, H3⟩, ⟨%d4, H4⟩, ⟨%d5, H5⟩⟩
    iapply ((kernelRun9_B c (grid9.coords t) _ _ _ _ _ _ _ _ _ _ _ _ (fun h => h0 ((hcond9_0 t).mp h)) (iblk9 V c 0 t) (iblk9 V c 1 t) (iblk9 V c 2 t) _ _).2.2.2 Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover9_B_3 c _ _ _ _ _ _ _ _ _ _ _ _ _ _ _ _ _ _ _)
    isplitl [H4]
    · unfold owns; iexists _; isplitr
      swap; · iexact H4
      ipureintro; exact View.read_writes_of_cover _ _ _ _ _ (cover9_B_4 c _ _ _ _ _ _ _ _ _ _ _ _ _ _ _ _ _ _ _)
    unfold owns; iexists _; isplitr
    swap; · iexact H5
    ipureintro; exact View.read_writes_of_cover _ _ _ _ _ (cover9_B_5 c _ _ _ _ _ _ _ _ _ _ _ _ _ _ _ _ _ _ _)

/-- The library's body obligation, at every point. -/
theorem body_obligation9 (c : Dev nD) : BodyObligation (dat9 (F := F) V c) (defs₀ (F := F)) Variants.none () Set.univ := fun t => by
  rw [bigSep_W9, bigSep_W9]
  exact sound_body9 V c t

end Region

end Cert.KernelIdeal.Hand

end
-- ==== Proof.KI.RegBN10.lean ====
import proofs.«413302_j72232759984513_1_alg».proof.Proof.Gen.KernelIdeal.Launch
import proofs.«413302_j72232759984513_1_alg».proof.Proof.Gen.KernelIdeal.Skeleton
import proofs.«413302_j72232759984513_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Kernel region 10: the batch-norm-and-ReLU body, its frame half

The body reads a tile of 10000 rows of `h` and four rows `mu`, `inv`, `g`, `be` of 128 lanes each, and stores
`max ((h - mu) * inv * g + be) 0` over the whole output tile. Its six windows are staged whole, so each input's
buffer holds its block of the entry contents at every point and the output's holds the payload of those blocks. -/

-- membership in a rectangle with an axis of 10000 coordinates: the structural check recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array at the entry contents. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, fetched there or not, for any proof
    data whose array is the entry contents and whose body leaves the block in place: where it is not fetched its
    index has not moved since the point that fetched it. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's current staging buffer holds its block at every point, fetched there or not, for any proof
    data whose array is the entry contents and whose body leaves the block in place: where it is not fetched its
    index has not moved since the point that fetched it. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2's current staging buffer holds its block at every point, fetched there or not, for any proof
    data whose array is the entry contents and whose body leaves the block in place: where it is not fetched its
    index has not moved since the point that fetched it. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- Input window 3's current staging buffer holds its block at every point, fetched there or not, for any proof
    data whose array is the entry contents and whose body leaves the block in place: where it is not fetched its
    index has not moved since the point that fetched it. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-- Input window 4's current staging buffer holds its block at every point, fetched there or not, for any proof
    data whose array is the entry contents and whose body leaves the block in place: where it is not fetched its
    index has not moved since the point that fetched it. -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses -/

abbrev r10_0 : Rect S10000x128 := Rect.unit (s := S10000x128) ![0, 0] S10000x128.size inb_S10000x128_S10000x128_0_0
abbrev r10_1 : Rect S1x128 := Rect.unit (s := S1x128) ![0, 0] S1x128.size inb_S1x128_S1x128_0_0

/-! ## What the body leaves in the output window's buffer -/

/-- Window 5's staging buffer after the body, from the input windows' blocks: its one store, of the payload of
    the five loaded values, over the whole tile. -/
def out10_5 (x0 : Vec F S10000x128 .f32) (x1 : Vec F S1x128 .f32) (x2 : Vec F S1x128 .f32) (x3 : Vec F S1x128 .f32) (x4 : Vec F S1x128 .f32) : Vec F S10000x128 .f32 :=
  View.canon [⟨r10_0, k10_pay1 (View.ld x0 r10_0) (View.ld x1 r10_1) (View.ld x2 r10_1) (View.ld x3 r10_1) (View.ld x4 r10_1)⟩]

/-- The one store is of the whole tile, so it covers the buffer. -/
theorem cover10_5 (p0 : Vec F S10000x128 .f32) (y : S10000x128.Idx) :
    ∃ pc ∈ ([⟨r10_0, p0⟩] : List (View.Piece (Elt F) S10000x128 .f32)), y ∈ pc.1.set :=
  View.cover_of_tiled [⟨r10_0, p0⟩] S10000x128.size (by rfl) y

/-! ## The body's triple -/

set_option maxHeartbeats 1000000 in
/-- The kernel body on whole staging memrefs, the inputs' at contents `xW` and the output's at anything, runs to
    the continuation holding the inputs' as they were and the output's at `out10_5` of the inputs'. -/
theorem sound_kernel10 (c : Dev nD) (E : Set ℕ) (i : grid10.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S10000x128 .f32) (harg6 : arg6.IsWhole)
    (x0 : Vec F S10000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out10_5 x0 x1 x2 x3 x4)) -∗ K ⟨⟩))
      ⊢ wp frame (wpE (defs₀ (F := F)) Variants.none c none) E (cc10__bn_relu_kernel i arg1 harg1 arg2 harg2 arg3 harg3 arg4 harg4 arg5 harg5 arg6 harg6) K := by
  simp only [cc10__bn_relu_kernel_eq_skeleton]; unfold cc10__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover10_5 _)

/-! ## The pipeline's proof data -/

/-- The proof data of pipeline 10 on core `c`: the arrays at the entry contents; after the body at point `t` each
    input's buffer at its block and the output's at `out10_5` of the input blocks; the invariant the scoped rest and
    the generator register, untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => out10_5 (iblk10 V c 0 t) (iblk10 V c 1 t) (iblk10 V c 2 t) (iblk10 V c 3 t) (iblk10 V c 4 t)
  Φ _ := Pipeline.ΦA spec10 c
  q _ := fullShare
  owed _ := 0

/-- The proof data's arrays are the entry contents. -/
theorem A_eq10 (c : Dev nD) (w : Fin cfg10.W) : (dat10 V c).A w = V c (Pipeline.arrRef spec10 w) := by
  dsimp only [dat10]

/-- Every window is held at the full share. -/
theorem q_eq10 (c : Dev nD) (w : Fin cfg10.W) : (dat10 V c).q w = fullShare := by
  dsimp only [dat10]

/-- Nothing is owed at any point. -/
theorem owed_eq10 (c : Dev nD) (n : Fin (cfg10.N + 1)) : (dat10 V c).owed n = 0 := by
  dsimp only [dat10]

/-- The invariant at every point is the scoped rest with the generator register. -/
theorem Phi_eq10 (c : Dev nD) (n : Fin (cfg10.N + 1)) : (dat10 V c).Φ n = Pipeline.ΦA spec10 c := by
  dsimp only [dat10]

/-- The invariant holds at the first point of what the region is entered with, -/
theorem Phi_in10 (c : Dev nD) :
    (iprop((∃ r, prngReg c r) ∗ Pipeline.scopedRest (Ix := Unit) (Name := ℕ) (U := UR sig nD τ) (Lvl := ℕ) spec10 c) : sProp 𝕄) ⊢ (dat10 V c).Φ 0 := by
  rw [Phi_eq10]; unfold Pipeline.ΦA
  iintro ⟨Hr, Hp⟩
  isplitl [Hp]; · iexact Hp
  iexact Hr

/-- and gives it back at the last. -/
theorem Phi_out10 (c : Dev nD) :
    (dat10 V c).Φ (Fin.last cfg10.N) ⊢ (iprop((∃ r, prngReg c r) ∗ Pipeline.scopedRest (Ix := Unit) (Name := ℕ) (U := UR sig nD τ) (Lvl := ℕ) spec10 c) : sProp 𝕄) := by
  rw [Phi_eq10]; unfold Pipeline.ΦA
  iintro ⟨Hp, Hr⟩
  isplitl [Hr]; · iexact Hr
  iexact Hp

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = out10_5 (iblk10 V c 0 t) (iblk10 V c 1 t) (iblk10 V c 2 t) (iblk10 V c 3 t) (iblk10 V c 4 t) := by dsimp only [dat10]

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t))

/-- The body at any point: the inputs' memrefs hold their blocks, so the body's triple applies; the invariant and
    the core's debts pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4]
  rw [show (dat10 V c).Φ t.succ = (dat10 V c).Φ t.castSucc from rfl,
    show (dat10 V c).owesAt () t.succ = (dat10 V c).owesAt () t.castSucc from rfl,
    after10_0, after10_1, after10_2, after10_3, after10_4, after10_5]
  iintro ⟨HΦ, Ho, ⟨%d0, H0⟩, ⟨%d1, H1⟩, ⟨%d2, H2⟩, ⟨%d3, H3⟩, ⟨%d4, H4⟩, ⟨%d5, H5⟩⟩
  iapply (sound_kernel10 c Set.univ (grid10.coords t) _ _ _ _ _ _ _ _ _ _ _ _ (iblk10 V c 0 t) (iblk10 V c 1 t) (iblk10 V c 2 t) (iblk10 V c 3 t) (iblk10 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation10 (c : Dev nD) : BodyObligation (dat10 (F := F) V c) (defs₀ (F := F)) Variants.none () Set.univ := fun t => by
  rw [bigSep_W10, bigSep_W10]
  exact sound_body10 V c t

end Cert.KernelIdeal.Hand

end
-- ==== Proof.KI.RegLS11.RunA.lean ====
import proofs.«413302_j72232759984513_1_alg».proof.Proof.Gen.KernelIdeal.Launch
import proofs.«413302_j72232759984513_1_alg».proof.Proof.Gen.KernelIdeal.Skeleton
import proofs.«413302_j72232759984513_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 11: the body's run at the first grid point

The body's one conditional tests whether the grid coordinate is zero; there it resets the two running sums before adding
to them. -/

/-- The condition of the body's conditional, from the grid coordinates. -/
abbrev cond11_0 (i : grid11.Coords) : Prop := (Scalar.cmpi .ne (Scalar.extui (Scalar.cmpi .eq (BitVec.ofNat 32 (i 0).val) 0#32)) 0#32) = 1#1
/-- It holds at the first point only: decided over the grid. -/
theorem hcond11_0 : ∀ t : Fin cfg11.N, cond11_0 (grid11.coords t) ↔ t.val % 10 = 0 :=
  (by decide +kernel : ∀ t : Fin grid11.N, cond11_0 (grid11.coords t) ↔ t.val % 10 = 0)

/-- One staging buffer of each output window, through which its contents are stated (the choice does not matter). -/
abbrev VO11_3 : View sig .tc .vmem S10000x128 .f32 := (Memref.whole cc11_stg3_0 : Memref sig .tc .vmem S10000x128 .f32).view
abbrev VO11_4 : View sig .tc .vmem S1x128 .f32 := (Memref.whole cc11_stg4_0 : Memref sig .tc .vmem S1x128 .f32).view
abbrev VO11_5 : View sig .tc .vmem S1x128 .f32 := (Memref.whole cc11_stg5_0 : Memref sig .tc .vmem S1x128 .f32).view

set_option maxHeartbeats 4000000 in
/-- The body where the condition holds. On whole staging memrefs, the three inputs' at contents `x0 x1 x2` and the three
    outputs' at anything, it runs to the continuation holding the inputs' as they were and each output's buffer with
    the pieces its stores wrote (last first): the pieces are the witness the run finds. -/
noncomputable def kernelRun11_A (c : Dev nD) (i : grid11.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond11_0 i)
    (x0 : Vec F S10000x128 .f32) (x1 : Vec F S128x128 .f32) (x2 : Vec F S1x128 .f32) :
    Σ' (L3 : List (View.Piece (Elt F) S10000x128 .f32)), Σ' (L4 : List (View.Piece (Elt F) S1x128 .f32)), { L5 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc11__linear_stats_kernel i arg1 harg1 arg2 harg2 arg3 harg3 arg4 harg4 arg5 harg5 arg6 harg6) K } := by
  refine ⟨?_, ?_, ?_, fun E K => ?run⟩
  case run =>
    simp only [cc11__linear_stats_kernel_eq_skeleton]; unfold cc11__linear_stats_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

end Cert.KernelIdeal.Hand

end
-- ==== Proof.KI.RegLS11.RunB.lean ====
import proofs.«413302_j72232759984513_1_alg».proof.Proof.KI.RegLS11.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 11: the body's run at a later grid point

The condition fails: the two running sums are read as the point before left them and added to. -/

set_option maxHeartbeats 4000000 in
/-- The body where the condition fails. On whole staging memrefs, the three inputs' at contents `x0 x1 x2`, the two
    running sums' at `xo4 xo5` and the first output's at anything, it runs to the continuation holding the inputs' as they
    were and each output's buffer with the pieces its stores wrote (last first): the pieces are the witness the run finds. -/
noncomputable def kernelRun11_B (c : Dev nD) (i : grid11.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond11_0 i)
    (x0 : Vec F S10000x128 .f32) (x1 : Vec F S128x128 .f32) (x2 : Vec F S1x128 .f32) (xo4 : Vec F S1x128 .f32) (xo5 : Vec F S1x128 .f32) :
    Σ' (L3 : List (View.Piece (Elt F) S10000x128 .f32)), Σ' (L4 : List (View.Piece (Elt F) S1x128 .f32)), { L5 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xo4 ∗ owns (c : Thread nD τ) arg6 fullShare xo5
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc11__linear_stats_kernel i arg1 harg1 arg2 harg2 arg3 harg3 arg4 harg4 arg5 harg5 arg6 harg6) K } := by
  refine ⟨?_, ?_, ?_, fun E K => ?run⟩
  case run =>
    simp only [cc11__linear_stats_kernel_eq_skeleton]; unfold cc11__linear_stats_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
    obtain rfl := harg1.eq_unread hf0; obtain rfl := harg2.eq_unread hf1; obtain rfl := harg3.eq_unread hf2
    obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

end Cert.KernelIdeal.Hand

end
-- ==== Proof.KI.RegLS11.lean ====
import proofs.«413302_j72232759984513_1_alg».proof.Proof.KI.RegLS11.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 11: the proof data and the body obligation, at the contents the region is entered with

The kernel stores `x·W + b` for its tile of rows in output window 3 and keeps two running sums, output windows 4 and 5:
reset at the first grid point, added to at every point, written back after the last. Everything is stated at a
parameter `V`, the TensorCore's buffer contents when the region is entered. -/

section Region

variable (V : (c : Dev nD) → (b : Ref sig .tc) → Buf (Elt F) ((c : Thread nD τ).loc b))

/-! ## The windows' blocks -/

/-- Window `w`'s block at point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-! An input window's current staging buffer holds its block at every point, fetched there or not (unfetched, the block
    index has not moved), for any proof data whose array is the entry contents and whose body leaves the block in place. -/

theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-- Each window's current staging memref at point `t`, and its wholeness. -/
abbrev ms11_0 (t : Fin cfg11.N) : Memref sig .tc .vmem S10000x128 .f32 := win11_0.stage (cfg11.slots t 0)
abbrev hs11_0 (t : Fin cfg11.N) : (ms11_0 t).IsWhole := hstage11_0 ((cfg11.slots t 0).cast nbuf11_0)
abbrev ms11_1 (t : Fin cfg11.N) : Memref sig .tc .vmem S128x128 .f32 := win11_1.stage (cfg11.slots t 1)
abbrev hs11_1 (t : Fin cfg11.N) : (ms11_1 t).IsWhole := hstage11_1 ((cfg11.slots t 1).cast nbuf11_1)
abbrev ms11_2 (t : Fin cfg11.N) : Memref sig .tc .vmem S1x128 .f32 := win11_2.stage (cfg11.slots t 2)
abbrev hs11_2 (t : Fin cfg11.N) : (ms11_2 t).IsWhole := hstage11_2 ((cfg11.slots t 2).cast nbuf11_2)
abbrev ms11_3 (t : Fin cfg11.N) : Memref sig .tc .vmem S10000x128 .f32 := win11_3.stage (cfg11.slots t 3)
abbrev hs11_3 (t : Fin cfg11.N) : (ms11_3 t).IsWhole := hstage11_3 ((cfg11.slots t 3).cast nbuf11_3)
abbrev ms11_4 (t : Fin cfg11.N) : Memref sig .tc .vmem S1x128 .f32 := win11_4.stage (cfg11.slots t 4)
abbrev hs11_4 (t : Fin cfg11.N) : (ms11_4 t).IsWhole := hstage11_4 ((cfg11.slots t 4).cast nbuf11_4)
abbrev ms11_5 (t : Fin cfg11.N) : Memref sig .tc .vmem S1x128 .f32 := win11_5.stage (cfg11.slots t 5)
abbrev hs11_5 (t : Fin cfg11.N) : (ms11_5 t).IsWhole := hstage11_5 ((cfg11.slots t 5).cast nbuf11_5)

/-! ## What each case of the body leaves in the outputs' buffers -/

/-- The pieces the body where the condition holds writes to output 3 tile its block, so they cover it. -/
theorem cover11_A_3 (c : Dev nD) (i : grid11.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond11_0 i)
    (x0 : Vec F S10000x128 .f32) (x1 : Vec F S128x128 .f32) (x2 : Vec F S1x128 .f32) (y : S10000x128.Idx) :
    ∃ pc ∈ (kernelRun11_A c i arg1 harg1 arg2 harg2 arg3 harg3 arg4 harg4 arg5 harg5 arg6 harg6 hc0 x0 x1 x2).1, y ∈ pc.1.set :=
  View.cover_of_tiledL (kernelRun11_A c i arg1 harg1 arg2 harg2 arg3 harg3 arg4 harg4 arg5 harg5 arg6 harg6 hc0 x0 x1 x2).1 S10000x128.size (by sl_kernel_rfl) y

/-- What that run leaves in output 3's staging buffer: its pieces read back over arbitrary contents. -/
def out11_A_3 (c : Dev nD) (i : grid11.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond11_0 i)
    (x0 : Vec F S10000x128 .f32) (x1 : Vec F S128x128 .f32) (x2 : Vec F S1x128 .f32) : Vec F S10000x128 .f32 :=
  VO11_3.read (Elt F) (VO11_3.writes (Elt F) VO11_3.junk (kernelRun11_A c i arg1 harg1 arg2 harg2 arg3 harg3 arg4 harg4 arg5 harg5 arg6 harg6 hc0 x0 x1 x2).1)

/-- The pieces the body where the condition holds writes to output 4 tile its block, so they cover it. -/
theorem cover11_A_4 (c : Dev nD) (i : grid11.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond11_0 i)
    (x0 : Vec F S10000x128 .f32) (x1 : Vec F S128x128 .f32) (x2 : Vec F S1x128 .f32) (y : S1x128.Idx) :
    ∃ pc ∈ (kernelRun11_A c i arg1 harg1 arg2 harg2 arg3 harg3 arg4 harg4 arg5 harg5 arg6 harg6 hc0 x0 x1 x2).2.1, y ∈ pc.1.set :=
  View.cover_of_tiledL (kernelRun11_A c i arg1 harg1 arg2 harg2 arg3 harg3 arg4 harg4 arg5 harg5 arg6 harg6 hc0 x0 x1 x2).2.1 S1x128.size (by sl_kernel_rfl) y

/-- What that run leaves in output 4's staging buffer: its pieces read back over arbitrary contents. -/
def out11_A_4 (c : Dev nD) (i : grid11.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond11_0 i)
    (x0 : Vec F S10000x128 .f32) (x1 : Vec F S128x128 .f32) (x2 : Vec F S1x128 .f32) : Vec F S1x128 .f32 :=
  VO11_4.read (Elt F) (VO11_4.writes (Elt F) VO11_4.junk (kernelRun11_A c i arg1 harg1 arg2 harg2 arg3 harg3 arg4 harg4 arg5 harg5 arg6 harg6 hc0 x0 x1 x2).2.1)

/-- The pieces the body where the condition holds writes to output 5 tile its block, so they cover it. -/
theorem cover11_A_5 (c : Dev nD) (i : grid11.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond11_0 i)
    (x0 : Vec F S10000x128 .f32) (x1 : Vec F S128x128 .f32) (x2 : Vec F S1x128 .f32) (y : S1x128.Idx) :
    ∃ pc ∈ (kernelRun11_A c i arg1 harg1 arg2 harg2 arg3 harg3 arg4 harg4 arg5 harg5 arg6 harg6 hc0 x0 x1 x2).2.2.1, y ∈ pc.1.set :=
  View.cover_of_tiledL (kernelRun11_A c i arg1 harg1 arg2 harg2 arg3 harg3 arg4 harg4 arg5 harg5 arg6 harg6 hc0 x0 x1 x2).2.2.1 S1x128.size (by sl_kernel_rfl) y

/-- What that run leaves in output 5's staging buffer: its pieces read back over arbitrary contents. -/
def out11_A_5 (c : Dev nD) (i : grid11.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond11_0 i)
    (x0 : Vec F S10000x128 .f32) (x1 : Vec F S128x128 .f32) (x2 : Vec F S1x128 .f32) : Vec F S1x128 .f32 :=
  VO11_5.read (Elt F) (VO11_5.writes (Elt F) VO11_5.junk (kernelRun11_A c i arg1 harg1 arg2 harg2 arg3 harg3 arg4 harg4 arg5 harg5 arg6 harg6 hc0 x0 x1 x2).2.2.1)

/-- The pieces the body where the condition fails writes to output 3 tile its block, so they cover it. -/
theorem cover11_B_3 (c : Dev nD) (i : grid11.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond11_0 i)
    (x0 : Vec F S10000x128 .f32) (x1 : Vec F S128x128 .f32) (x2 : Vec F S1x128 .f32) (xo4 : Vec F S1x128 .f32) (xo5 : Vec F S1x128 .f32) (y : S10000x128.Idx) :
    ∃ pc ∈ (kernelRun11_B c i arg1 harg1 arg2 harg2 arg3 harg3 arg4 harg4 arg5 harg5 arg6 harg6 hc0 x0 x1 x2 xo4 xo5).1, y ∈ pc.1.set :=
  View.cover_of_tiledL (kernelRun11_B c i arg1 harg1 arg2 harg2 arg3 harg3 arg4 harg4 arg5 harg5 arg6 harg6 hc0 x0 x1 x2 xo4 xo5).1 S10000x128.size (by sl_kernel_rfl) y

/-- What that run leaves in output 3's staging buffer: its pieces read back over arbitrary contents. -/
def out11_B_3 (c : Dev nD) (i : grid11.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond11_0 i)
    (x0 : Vec F S10000x128 .f32) (x1 : Vec F S128x128 .f32) (x2 : Vec F S1x128 .f32) (xo4 : Vec F S1x128 .f32) (xo5 : Vec F S1x128 .f32) : Vec F S10000x128 .f32 :=
  VO11_3.read (Elt F) (VO11_3.writes (Elt F) VO11_3.junk (kernelRun11_B c i arg1 harg1 arg2 harg2 arg3 harg3 arg4 harg4 arg5 harg5 arg6 harg6 hc0 x0 x1 x2 xo4 xo5).1)

/-- The pieces the body where the condition fails writes to output 4 tile its block, so they cover it. -/
theorem cover11_B_4 (c : Dev nD) (i : grid11.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond11_0 i)
    (x0 : Vec F S10000x128 .f32) (x1 : Vec F S128x128 .f32) (x2 : Vec F S1x128 .f32) (xo4 : Vec F S1x128 .f32) (xo5 : Vec F S1x128 .f32) (y : S1x128.Idx) :
    ∃ pc ∈ (kernelRun11_B c i arg1 harg1 arg2 harg2 arg3 harg3 arg4 harg4 arg5 harg5 arg6 harg6 hc0 x0 x1 x2 xo4 xo5).2.1, y ∈ pc.1.set :=
  View.cover_of_tiledL (kernelRun11_B c i arg1 harg1 arg2 harg2 arg3 harg3 arg4 harg4 arg5 harg5 arg6 harg6 hc0 x0 x1 x2 xo4 xo5).2.1 S1x128.size (by sl_kernel_rfl) y

/-- What that run leaves in output 4's staging buffer: its pieces read back over arbitrary contents. -/
def out11_B_4 (c : Dev nD) (i : grid11.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond11_0 i)
    (x0 : Vec F S10000x128 .f32) (x1 : Vec F S128x128 .f32) (x2 : Vec F S1x128 .f32) (xo4 : Vec F S1x128 .f32) (xo5 : Vec F S1x128 .f32) : Vec F S1x128 .f32 :=
  VO11_4.read (Elt F) (VO11_4.writes (Elt F) VO11_4.junk (kernelRun11_B c i arg1 harg1 arg2 harg2 arg3 harg3 arg4 harg4 arg5 harg5 arg6 harg6 hc0 x0 x1 x2 xo4 xo5).2.1)

/-- The pieces the body where the condition fails writes to output 5 tile its block, so they cover it. -/
theorem cover11_B_5 (c : Dev nD) (i : grid11.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond11_0 i)
    (x0 : Vec F S10000x128 .f32) (x1 : Vec F S128x128 .f32) (x2 : Vec F S1x128 .f32) (xo4 : Vec F S1x128 .f32) (xo5 : Vec F S1x128 .f32) (y : S1x128.Idx) :
    ∃ pc ∈ (kernelRun11_B c i arg1 harg1 arg2 harg2 arg3 harg3 arg4 harg4 arg5 harg5 arg6 harg6 hc0 x0 x1 x2 xo4 xo5).2.2.1, y ∈ pc.1.set :=
  View.cover_of_tiledL (kernelRun11_B c i arg1 harg1 arg2 harg2 arg3 harg3 arg4 harg4 arg5 harg5 arg6 harg6 hc0 x0 x1 x2 xo4 xo5).2.2.1 S1x128.size (by sl_kernel_rfl) y

/-- What that run leaves in output 5's staging buffer: its pieces read back over arbitrary contents. -/
def out11_B_5 (c : Dev nD) (i : grid11.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond11_0 i)
    (x0 : Vec F S10000x128 .f32) (x1 : Vec F S128x128 .f32) (x2 : Vec F S1x128 .f32) (xo4 : Vec F S1x128 .f32) (xo5 : Vec F S1x128 .f32) : Vec F S1x128 .f32 :=
  VO11_5.read (Elt F) (VO11_5.writes (Elt F) VO11_5.junk (kernelRun11_B c i arg1 harg1 arg2 harg2 arg3 harg3 arg4 harg4 arg5 harg5 arg6 harg6 hc0 x0 x1 x2 xo4 xo5).2.2.1)

/-! ## What the outputs hold after each point -/

/-- What the three outputs' staging buffers hold after the body at position `n`, by recursion on the point: at the first
    point the resetting case, run at the point's input blocks; at a later point the adding case, the running sums read
    as the point before left them (their buffers are not written back between). -/
def outsAt11 (c : Dev nD) : (n : ℕ) → n < cfg11.N → Vec F S10000x128 .f32 × Vec F S1x128 .f32 × Vec F S1x128 .f32
  | 0, hn => (out11_A_3 c (grid11.coords ⟨0, hn⟩) (ms11_0 ⟨0, hn⟩) (hs11_0 ⟨0, hn⟩) (ms11_1 ⟨0, hn⟩) (hs11_1 ⟨0, hn⟩) (ms11_2 ⟨0, hn⟩) (hs11_2 ⟨0, hn⟩) (ms11_3 ⟨0, hn⟩) (hs11_3 ⟨0, hn⟩) (ms11_4 ⟨0, hn⟩) (hs11_4 ⟨0, hn⟩) (ms11_5 ⟨0, hn⟩) (hs11_5 ⟨0, hn⟩) ((hcond11_0 ⟨0, hn⟩).mpr (Nat.zero_mod _)) (iblk11 V c 0 ⟨0, hn⟩) (iblk11 V c 1 ⟨0, hn⟩) (iblk11 V c 2 ⟨0, hn⟩),
       out11_A_4 c (grid11.coords ⟨0, hn⟩) (ms11_0 ⟨0, hn⟩) (hs11_0 ⟨0, hn⟩) (ms11_1 ⟨0, hn⟩) (hs11_1 ⟨0, hn⟩) (ms11_2 ⟨0, hn⟩) (hs11_2 ⟨0, hn⟩) (ms11_3 ⟨0, hn⟩) (hs11_3 ⟨0, hn⟩) (ms11_4 ⟨0, hn⟩) (hs11_4 ⟨0, hn⟩) (ms11_5 ⟨0, hn⟩) (hs11_5 ⟨0, hn⟩) ((hcond11_0 ⟨0, hn⟩).mpr (Nat.zero_mod _)) (iblk11 V c 0 ⟨0, hn⟩) (iblk11 V c 1 ⟨0, hn⟩) (iblk11 V c 2 ⟨0, hn⟩),
       out11_A_5 c (grid11.coords ⟨0, hn⟩) (ms11_0 ⟨0, hn⟩) (hs11_0 ⟨0, hn⟩) (ms11_1 ⟨0, hn⟩) (hs11_1 ⟨0, hn⟩) (ms11_2 ⟨0, hn⟩) (hs11_2 ⟨0, hn⟩) (ms11_3 ⟨0, hn⟩) (hs11_3 ⟨0, hn⟩) (ms11_4 ⟨0, hn⟩) (hs11_4 ⟨0, hn⟩) (ms11_5 ⟨0, hn⟩) (hs11_5 ⟨0, hn⟩) ((hcond11_0 ⟨0, hn⟩).mpr (Nat.zero_mod _)) (iblk11 V c 0 ⟨0, hn⟩) (iblk11 V c 1 ⟨0, hn⟩) (iblk11 V c 2 ⟨0, hn⟩))
  | n + 1, hn =>
    if h0 : (n + 1) % 10 = 0 then
      (out11_A_3 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) (ms11_4 ⟨n + 1, hn⟩) (hs11_4 ⟨n + 1, hn⟩) (ms11_5 ⟨n + 1, hn⟩) (hs11_5 ⟨n + 1, hn⟩) ((hcond11_0 ⟨n + 1, hn⟩).mpr h0) (iblk11 V c 0 ⟨n + 1, hn⟩) (iblk11 V c 1 ⟨n + 1, hn⟩) (iblk11 V c 2 ⟨n + 1, hn⟩),
       out11_A_4 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) (ms11_4 ⟨n + 1, hn⟩) (hs11_4 ⟨n + 1, hn⟩) (ms11_5 ⟨n + 1, hn⟩) (hs11_5 ⟨n + 1, hn⟩) ((hcond11_0 ⟨n + 1, hn⟩).mpr h0) (iblk11 V c 0 ⟨n + 1, hn⟩) (iblk11 V c 1 ⟨n + 1, hn⟩) (iblk11 V c 2 ⟨n + 1, hn⟩),
       out11_A_5 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) (ms11_4 ⟨n + 1, hn⟩) (hs11_4 ⟨n + 1, hn⟩) (ms11_5 ⟨n + 1, hn⟩) (hs11_5 ⟨n + 1, hn⟩) ((hcond11_0 ⟨n + 1, hn⟩).mpr h0) (iblk11 V c 0 ⟨n + 1, hn⟩) (iblk11 V c 1 ⟨n + 1, hn⟩) (iblk11 V c 2 ⟨n + 1, hn⟩))
    else
      (out11_B_3 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) (ms11_4 ⟨n + 1, hn⟩) (hs11_4 ⟨n + 1, hn⟩) (ms11_5 ⟨n + 1, hn⟩) (hs11_5 ⟨n + 1, hn⟩) (fun h => h0 ((hcond11_0 ⟨n + 1, hn⟩).mp h)) (iblk11 V c 0 ⟨n + 1, hn⟩) (iblk11 V c 1 ⟨n + 1, hn⟩) (iblk11 V c 2 ⟨n + 1, hn⟩) (outsAt11 c n (Nat.lt_of_succ_lt hn)).2.1 (outsAt11 c n (Nat.lt_of_succ_lt hn)).2.2,
       out11_B_4 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) (ms11_4 ⟨n + 1, hn⟩) (hs11_4 ⟨n + 1, hn⟩) (ms11_5 ⟨n + 1, hn⟩) (hs11_5 ⟨n + 1, hn⟩) (fun h => h0 ((hcond11_0 ⟨n + 1, hn⟩).mp h)) (iblk11 V c 0 ⟨n + 1, hn⟩) (iblk11 V c 1 ⟨n + 1, hn⟩) (iblk11 V c 2 ⟨n + 1, hn⟩) (outsAt11 c n (Nat.lt_of_succ_lt hn)).2.1 (outsAt11 c n (Nat.lt_of_succ_lt hn)).2.2,
       out11_B_5 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) (ms11_4 ⟨n + 1, hn⟩) (hs11_4 ⟨n + 1, hn⟩) (ms11_5 ⟨n + 1, hn⟩) (hs11_5 ⟨n + 1, hn⟩) (fun h => h0 ((hcond11_0 ⟨n + 1, hn⟩).mp h)) (iblk11 V c 0 ⟨n + 1, hn⟩) (iblk11 V c 1 ⟨n + 1, hn⟩) (iblk11 V c 2 ⟨n + 1, hn⟩) (outsAt11 c n (Nat.lt_of_succ_lt hn)).2.1 (outsAt11 c n (Nat.lt_of_succ_lt hn)).2.2)

/-- `outsAt11` at a point where the condition holds. -/
theorem outsAt11_A (c : Dev nD) (t : Fin cfg11.N) (h0 : t.val % 10 = 0) :
    outsAt11 V c t.val t.isLt = (out11_A_3 c (grid11.coords t) (ms11_0 t) (hs11_0 t) (ms11_1 t) (hs11_1 t) (ms11_2 t) (hs11_2 t) (ms11_3 t) (hs11_3 t) (ms11_4 t) (hs11_4 t) (ms11_5 t) (hs11_5 t) ((hcond11_0 t).mpr h0) (iblk11 V c 0 t) (iblk11 V c 1 t) (iblk11 V c 2 t),
       out11_A_4 c (grid11.coords t) (ms11_0 t) (hs11_0 t) (ms11_1 t) (hs11_1 t) (ms11_2 t) (hs11_2 t) (ms11_3 t) (hs11_3 t) (ms11_4 t) (hs11_4 t) (ms11_5 t) (hs11_5 t) ((hcond11_0 t).mpr h0) (iblk11 V c 0 t) (iblk11 V c 1 t) (iblk11 V c 2 t),
       out11_A_5 c (grid11.coords t) (ms11_0 t) (hs11_0 t) (ms11_1 t) (hs11_1 t) (ms11_2 t) (hs11_2 t) (ms11_3 t) (hs11_3 t) (ms11_4 t) (hs11_4 t) (ms11_5 t) (hs11_5 t) ((hcond11_0 t).mpr h0) (iblk11 V c 0 t) (iblk11 V c 1 t) (iblk11 V c 2 t)) := by
  obtain ⟨n, hn⟩ := t
  cases n with
  | zero => exact rfl
  | succ n => exact (dif_pos h0).trans rfl

/-- `outsAt11` at a point where it fails: over what the point before left. -/
theorem outsAt11_B (c : Dev nD) (t : Fin cfg11.N) (h0 : ¬t.val % 10 = 0) :
    outsAt11 V c t.val t.isLt = (out11_B_3 c (grid11.coords t) (ms11_0 t) (hs11_0 t) (ms11_1 t) (hs11_1 t) (ms11_2 t) (hs11_2 t) (ms11_3 t) (hs11_3 t) (ms11_4 t) (hs11_4 t) (ms11_5 t) (hs11_5 t) (fun h => h0 ((hcond11_0 t).mp h)) (iblk11 V c 0 t) (iblk11 V c 1 t) (iblk11 V c 2 t) (outsAt11 V c (t.val - 1) (Nat.lt_of_le_of_lt (Nat.sub_le _ _) t.isLt)).2.1 (outsAt11 V c (t.val - 1) (Nat.lt_of_le_of_lt (Nat.sub_le _ _) t.isLt)).2.2,
       out11_B_4 c (grid11.coords t) (ms11_0 t) (hs11_0 t) (ms11_1 t) (hs11_1 t) (ms11_2 t) (hs11_2 t) (ms11_3 t) (hs11_3 t) (ms11_4 t) (hs11_4 t) (ms11_5 t) (hs11_5 t) (fun h => h0 ((hcond11_0 t).mp h)) (iblk11 V c 0 t) (iblk11 V c 1 t) (iblk11 V c 2 t) (outsAt11 V c (t.val - 1) (Nat.lt_of_le_of_lt (Nat.sub_le _ _) t.isLt)).2.1 (outsAt11 V c (t.val - 1) (Nat.lt_of_le_of_lt (Nat.sub_le _ _) t.isLt)).2.2,
       out11_B_5 c (grid11.coords t) (ms11_0 t) (hs11_0 t) (ms11_1 t) (hs11_1 t) (ms11_2 t) (hs11_2 t) (ms11_3 t) (hs11_3 t) (ms11_4 t) (hs11_4 t) (ms11_5 t) (hs11_5 t) (fun h => h0 ((hcond11_0 t).mp h)) (iblk11 V c 0 t) (iblk11 V c 1 t) (iblk11 V c 2 t) (outsAt11 V c (t.val - 1) (Nat.lt_of_le_of_lt (Nat.sub_le _ _) t.isLt)).2.1 (outsAt11 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t` each
    input's buffer at its block and the outputs' at `outsAt11`; the invariant the scoped rest and the generator register,
    untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => (outsAt11 V c t.val t.isLt).1
    | ⟨4, _⟩ => (outsAt11 V c t.val t.isLt).2.1
    | ⟨5, _⟩ => (outsAt11 V c t.val t.isLt).2.2
  Φ _ := Pipeline.ΦA spec11 c
  q _ := fullShare
  owed _ := 0

/-- The proof data's arrays are the region-entry contents. -/
theorem A_eq11 (c : Dev nD) (w : Fin cfg11.W) : (dat11 V c).A w = V c (Pipeline.arrRef spec11 w) := by
  dsimp only [dat11]
/-- Its shares are full. -/
theorem q_eq11 (c : Dev nD) (w : Fin cfg11.W) : (dat11 V c).q w = fullShare := by
  dsimp only [dat11]
/-- It owes nothing. -/
theorem owed_eq11 (c : Dev nD) (n : Fin (cfg11.N + 1)) : (dat11 V c).owed n = 0 := by
  dsimp only [dat11]

/-- The generator register and the scoped rest make the invariant at the first boundary, -/
theorem Phi_in11 (c : Dev nD) : (iprop((∃ r, prngReg c r) ∗ Pipeline.scopedRest (Ix := Unit) (Name := ℕ) (U := UR sig nD τ) (Lvl := ℕ) spec11 c) : sProp 𝕄) ⊢ (dat11 V c).Φ 0 := by
  rw [show (dat11 V c).Φ 0 = Pipeline.ΦA spec11 c from rfl]; unfold Pipeline.ΦA
  iintro ⟨Hp, Hr⟩
  isplitl [Hr]; · iexact Hr
  iexact Hp
/-- and the invariant at the last gives them back. -/
theorem Phi_out11 (c : Dev nD) : (dat11 V c).Φ (Fin.last cfg11.N) ⊢ (iprop((∃ r, prngReg c r) ∗ Pipeline.scopedRest (Ix := Unit) (Name := ℕ) (U := UR sig nD τ) (Lvl := ℕ) spec11 c) : sProp 𝕄) := by
  rw [show (dat11 V c).Φ (Fin.last _) = Pipeline.ΦA spec11 c from rfl]; unfold Pipeline.ΦA
  iintro ⟨Hr, Hp⟩
  isplitl [Hp]; · iexact Hp
  iexact Hr

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = (outsAt11 V c t.val t.isLt).1 := by dsimp only [dat11]
theorem after11_4 (c : Dev nD) (t : Fin cfg11.N) : (dat11 V c).after 4 t = (outsAt11 V c t.val t.isLt).2.1 := by dsimp only [dat11]
theorem after11_5 (c : Dev nD) (t : Fin cfg11.N) : (dat11 V c).after 5 t = (outsAt11 V c t.val t.isLt).2.2 := by dsimp only [dat11]

/-- Each input's current staging buffer holds its block at every point. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
/-- At a later point a running sum's staging buffer holds what the body left at the point before: the buffer was not
    written back between, and the window is live and uncut. -/
theorem before11_4_B (c : Dev nD) (t : Fin cfg11.N) (h0 : ¬t.val % 10 = 0) (d) :
    (dat11 V c).before 4 t d = (outsAt11 V c (t.val - 1) (Nat.lt_of_le_of_lt (Nat.sub_le _ _) t.isLt)).2.1 := by
  have hN : t.val < 10 := lt_of_lt_of_eq t.isLt (show cfg11.N = 10 from N_11)
  rw [Dat.before_out_kept _ 4 rfl t (by omega) (Bool.eq_false_iff.mpr fun h => by have := (flush11_4 _).mp h; dsimp only at this; omega)
    (fun _ => rfl) (fun _ _ => rfl)]
  dsimp only [dat11]
theorem before11_5_B (c : Dev nD) (t : Fin cfg11.N) (h0 : ¬t.val % 10 = 0) (d) :
    (dat11 V c).before 5 t d = (outsAt11 V c (t.val - 1) (Nat.lt_of_le_of_lt (Nat.sub_le _ _) t.isLt)).2.2 := by
  have hN : t.val < 10 := lt_of_lt_of_eq t.isLt (show cfg11.N = 10 from N_11)
  rw [Dat.before_out_kept _ 5 rfl t (by omega) (Bool.eq_false_iff.mpr fun h => by have := (flush11_5 _).mp h; dsimp only at this; omega)
    (fun _ => rfl) (fun _ _ => rfl)]
  dsimp only [dat11]

/-! ## The body obligation, at a generic point -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t))

set_option maxHeartbeats 1600000 in
/-- The body at any point: the inputs' memrefs hold their blocks; the closed form of the condition says which case the
    point is in; at a later point the running sums hold what the point before left; so that case's run applies; the
    invariant passes through unread; the core owes nothing throughout. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2]
  rw [show (dat11 V c).Φ t.succ = (dat11 V c).Φ t.castSucc from rfl,
    show (dat11 V c).owesAt () t.succ = (dat11 V c).owesAt () t.castSucc from rfl,
    after11_0, after11_1, after11_2, after11_3, after11_4, after11_5]
  have hN : t.val < 10 := lt_of_lt_of_eq t.isLt (show cfg11.N = 10 from N_11)
  by_cases h0 : t.val % 10 = 0
  · rw [outsAt11_A V c t h0]
    try dsimp only
    unfold out11_A_3 out11_A_4 out11_A_5
    iintro ⟨HΦ, Ho, ⟨%d0, H0⟩, ⟨%d1, H1⟩, ⟨%d2, H2⟩, ⟨%d3, H3⟩, ⟨%d4, H4⟩, ⟨%d5, H5⟩⟩
    iapply ((kernelRun11_A c (grid11.coords t) _ _ _ _ _ _ _ _ _ _ _ _ ((hcond11_0 t).mpr h0) (iblk11 V c 0 t) (iblk11 V c 1 t) (iblk11 V c 2 t)).2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover11_A_3 c _ _ _ _ _ _ _ _ _ _ _ _ _ _ _ _ _)
    isplitl [H4]
    · unfold owns; iexists _; isplitr
      swap; · iexact H4
      ipureintro; exact View.read_writes_of_cover _ _ _ _ _ (cover11_A_4 c _ _ _ _ _ _ _ _ _ _ _ _ _ _ _ _ _)
    unfold owns; iexists _; isplitr
    swap; · iexact H5
    ipureintro; exact View.read_writes_of_cover _ _ _ _ _ (cover11_A_5 c _ _ _ _ _ _ _ _ _ _ _ _ _ _ _ _ _)
  · rw [outsAt11_B V c t h0]
    simp only [before11_4_B V c t h0, before11_5_B V c t h0]
    try dsimp only
    unfold out11_B_3 out11_B_4 out11_B_5
    iintro ⟨HΦ, Ho, ⟨%d0, H0⟩, ⟨%d1, H1⟩, ⟨%d2, H2⟩, ⟨%d3, H3⟩, ⟨%d4, H4⟩, ⟨%d5, H5⟩⟩
    iapply ((kernelRun11_B c (grid11.coords t) _ _ _ _ _ _ _ _ _ _ _ _ (fun h => h0 ((hcond11_0 t).mp h)) (iblk11 V c 0 t) (iblk11 V c 1 t) (iblk11 V c 2 t) _ _).2.2.2 Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover11_B_3 c _ _ _ _ _ _ _ _ _ _ _ _ _ _ _ _ _ _ _)
    isplitl [H4]
    · unfold owns; iexists _; isplitr
      swap; · iexact H4
      ipureintro; exact View.read_writes_of_cover _ _ _ _ _ (cover11_B_4 c _ _ _ _ _ _ _ _ _ _ _ _ _ _ _ _ _ _ _)
    unfold owns; iexists _; isplitr
    swap; · iexact H5
    ipureintro; exact View.read_writes_of_cover _ _ _ _ _ (cover11_B_5 c _ _ _ _ _ _ _ _ _ _ _ _ _ _ _ _ _ _ _)

/-- The library's body obligation, at every point. -/
theorem body_obligation11 (c : Dev nD) : BodyObligation (dat11 (F := F) V c) (defs₀ (F := F)) Variants.none () Set.univ := fun t => by
  rw [bigSep_W11, bigSep_W11]
  exact sound_body11 V c t

end Region

end Cert.KernelIdeal.Hand

end
-- ==== Proof.KI.RegBN12.lean ====
import proofs.«413302_j72232759984513_1_alg».proof.Proof.Gen.KernelIdeal.Launch
import proofs.«413302_j72232759984513_1_alg».proof.Proof.Gen.KernelIdeal.Skeleton
import proofs.«413302_j72232759984513_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Kernel region 12: the batch-norm-and-ReLU body, its frame half

The body reads a tile of 10000 rows of `h` and four rows `mu`, `inv`, `g`, `be` of 128 lanes each, and stores
`max ((h - mu) * inv * g + be) 0` over the whole output tile. Its six windows are staged whole, so each input's
buffer holds its block of the entry contents at every point and the output's holds the payload of those blocks. -/

-- membership in a rectangle with an axis of 10000 coordinates: the structural check recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array at the entry contents. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0's current staging buffer holds its block at every point, fetched there or not, for any proof
    data whose array is the entry contents and whose body leaves the block in place: where it is not fetched its
    index has not moved since the point that fetched it. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- Input window 1's current staging buffer holds its block at every point, fetched there or not, for any proof
    data whose array is the entry contents and whose body leaves the block in place: where it is not fetched its
    index has not moved since the point that fetched it. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- Input window 2's current staging buffer holds its block at every point, fetched there or not, for any proof
    data whose array is the entry contents and whose body leaves the block in place: where it is not fetched its
    index has not moved since the point that fetched it. -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-- Input window 3's current staging buffer holds its block at every point, fetched there or not, for any proof
    data whose array is the entry contents and whose body leaves the block in place: where it is not fetched its
    index has not moved since the point that fetched it. -/
theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)

/-- Input window 4's current staging buffer holds its block at every point, fetched there or not, for any proof
    data whose array is the entry contents and whose body leaves the block in place: where it is not fetched its
    index has not moved since the point that fetched it. -/
theorem before12_4_of {c : Dev nD} (dat : Dat τ (Elt F) Unit ℕ (UR sig nD τ) ℕ cfg12 c) (hA : dat.A 4 = V c (Pipeline.arrRef spec12 4))
    (hafter : ∀ t, dat.after 4 t = iblk12 V c 4 t) (t : Fin cfg12.N) (d) : dat.before 4 t d = iblk12 V c 4 t :=
  (dat.before_in_eq_fetched 4 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses -/

abbrev r12_0 : Rect S10000x128 := Rect.unit (s := S10000x128) ![0, 0] S10000x128.size inb_S10000x128_S10000x128_0_0
abbrev r12_1 : Rect S1x128 := Rect.unit (s := S1x128) ![0, 0] S1x128.size inb_S1x128_S1x128_0_0

/-! ## What the body leaves in the output window's buffer -/

/-- Window 5's staging buffer after the body, from the input windows' blocks: its one store, of the payload of
    the five loaded values, over the whole tile. -/
def out12_5 (x0 : Vec F S10000x128 .f32) (x1 : Vec F S1x128 .f32) (x2 : Vec F S1x128 .f32) (x3 : Vec F S1x128 .f32) (x4 : Vec F S1x128 .f32) : Vec F S10000x128 .f32 :=
  View.canon [⟨r12_0, k12_pay1 (View.ld x0 r12_0) (View.ld x1 r12_1) (View.ld x2 r12_1) (View.ld x3 r12_1) (View.ld x4 r12_1)⟩]

/-- The one store is of the whole tile, so it covers the buffer. -/
theorem cover12_5 (p0 : Vec F S10000x128 .f32) (y : S10000x128.Idx) :
    ∃ pc ∈ ([⟨r12_0, p0⟩] : List (View.Piece (Elt F) S10000x128 .f32)), y ∈ pc.1.set :=
  View.cover_of_tiled [⟨r12_0, p0⟩] S10000x128.size (by rfl) y

/-! ## The body's triple -/

set_option maxHeartbeats 1000000 in
/-- The kernel body on whole staging memrefs, the inputs' at contents `xW` and the output's at anything, runs to
    the continuation holding the inputs' as they were and the output's at `out12_5` of the inputs'. -/
theorem sound_kernel12 (c : Dev nD) (E : Set ℕ) (i : grid12.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S10000x128 .f32) (harg6 : arg6.IsWhole)
    (x0 : Vec F S10000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out12_5 x0 x1 x2 x3 x4)) -∗ K ⟨⟩))
      ⊢ wp frame (wpE (defs₀ (F := F)) Variants.none c none) E (cc12__bn_relu_kernel i arg1 harg1 arg2 harg2 arg3 harg3 arg4 harg4 arg5 harg5 arg6 harg6) K := by
  simp only [cc12__bn_relu_kernel_eq_skeleton]; unfold cc12__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover12_5 _)

/-! ## The pipeline's proof data -/

/-- The proof data of pipeline 12 on core `c`: the arrays at the entry contents; after the body at point `t` each
    input's buffer at its block and the output's at `out12_5` of the input blocks; the invariant the scoped rest and
    the generator register, untouched; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => out12_5 (iblk12 V c 0 t) (iblk12 V c 1 t) (iblk12 V c 2 t) (iblk12 V c 3 t) (iblk12 V c 4 t)
  Φ _ := Pipeline.ΦA spec12 c
  q _ := fullShare
  owed _ := 0

/-- The proof data's arrays are the entry contents. -/
theorem A_eq12 (c : Dev nD) (w : Fin cfg12.W) : (dat12 V c).A w = V c (Pipeline.arrRef spec12 w) := by
  dsimp only [dat12]

/-- Every window is held at the full share. -/
theorem q_eq12 (c : Dev nD) (w : Fin cfg12.W) : (dat12 V c).q w = fullShare := by
  dsimp only [dat12]

/-- Nothing is owed at any point. -/
theorem owed_eq12 (c : Dev nD) (n : Fin (cfg12.N + 1)) : (dat12 V c).owed n = 0 := by
  dsimp only [dat12]

/-- The invariant at every point is the scoped rest with the generator register. -/
theorem Phi_eq12 (c : Dev nD) (n : Fin (cfg12.N + 1)) : (dat12 V c).Φ n = Pipeline.ΦA spec12 c := by
  dsimp only [dat12]

/-- The invariant holds at the first point of what the region is entered with, -/
theorem Phi_in12 (c : Dev nD) :
    (iprop((∃ r, prngReg c r) ∗ Pipeline.scopedRest (Ix := Unit) (Name := ℕ) (U := UR sig nD τ) (Lvl := ℕ) spec12 c) : sProp 𝕄) ⊢ (dat12 V c).Φ 0 := by
  rw [Phi_eq12]; unfold Pipeline.ΦA
  iintro ⟨Hr, Hp⟩
  isplitl [Hp]; · iexact Hp
  iexact Hr

/-- and gives it back at the last. -/
theorem Phi_out12 (c : Dev nD) :
    (dat12 V c).Φ (Fin.last cfg12.N) ⊢ (iprop((∃ r, prngReg c r) ∗ Pipeline.scopedRest (Ix := Unit) (Name := ℕ) (U := UR sig nD τ) (Lvl := ℕ) spec12 c) : sProp 𝕄) := by
  rw [Phi_eq12]; unfold Pipeline.ΦA
  iintro ⟨Hp, Hr⟩
  isplitl [Hr]; · iexact Hr
  iexact Hp

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) : (dat12 V c).after 5 t = out12_5 (iblk12 V c 0 t) (iblk12 V c 1 t) (iblk12 V c 2 t) (iblk12 V c 3 t) (iblk12 V c 4 t) := by dsimp only [dat12]

/-- Each input's current staging buffer holds its block at every point, fetched there or not. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d
theorem before12_4 (c : Dev nD) (t : Fin cfg12.N) (d) : (dat12 V c).before 4 t d = iblk12 V c 4 t :=
  before12_4_of V (dat12 V c) (A_eq12 V c 4) (after12_4 V c) t d

/-! ## The body obligation, at a generic point -/

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t))

/-- The body at any point: the inputs' memrefs hold their blocks, so the body's triple applies; the invariant and
    the core's debts pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4]
  rw [show (dat12 V c).Φ t.succ = (dat12 V c).Φ t.castSucc from rfl,
    show (dat12 V c).owesAt () t.succ = (dat12 V c).owesAt () t.castSucc from rfl,
    after12_0, after12_1, after12_2, after12_3, after12_4, after12_5]
  iintro ⟨HΦ, Ho, ⟨%d0, H0⟩, ⟨%d1, H1⟩, ⟨%d2, H2⟩, ⟨%d3, H3⟩, ⟨%d4, H4⟩, ⟨%d5, H5⟩⟩
  iapply (sound_kernel12 c Set.univ (grid12.coords t) _ _ _ _ _ _ _ _ _ _ _ _ (iblk12 V c 0 t) (iblk12 V c 1 t) (iblk12 V c 2 t) (iblk12 V c 3 t) (iblk12 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation12 (c : Dev nD) : BodyObligation (dat12 (F := F) V c) (defs₀ (F := F)) Variants.none () Set.univ := fun t => by
  rw [bigSep_W12, bigSep_W12]
  exact sound_body12 V c t

end Cert.KernelIdeal.Hand

end
-- ==== Proof.KI.RegPool13.lean ====
import proofs.«413302_j72232759984513_1_alg».proof.Proof.Gen.KernelIdeal.Launch
import proofs.«413302_j72232759984513_1_alg».proof.Proof.Gen.KernelIdeal.Skeleton
import proofs.«413302_j72232759984513_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 13: the pooling kernel (mean over 256 segments, then a linear layer), its frame half

The kernel keeps two accumulators — the segment sums [256,128] and the segment counts [256,1] — in scratch buffers of its
own: reset at the first grid point, added to at every point (a one-hot matrix product against the point's block), and at
the last point divided, multiplied by the weights, the bias added, and stored into the one output window. The proof data
carries what the accumulators hold between points (`acc13`, by recursion on the point) in its invariant. Three control
cases: the first point, the middle points, the last point; one triple each. -/

/-! ## The body's branch conditions -/

/-- The condition of the body's first `scf.if` (the reset), from the grid coordinates. -/
abbrev cond13_0 (i : grid13.Coords) : Prop := (Scalar.cmpi .ne (Scalar.extui (Scalar.cmpi .eq (BitVec.ofNat 32 (i 0).val) 0#32)) 0#32) = 1#1
/-- It holds at the first point only — decided over the grid. -/
theorem hcond13_0 : ∀ t : Fin cfg13.N, cond13_0 (grid13.coords t) ↔ t.val = 0 :=
  (by decide +kernel : ∀ t : Fin grid13.N, cond13_0 (grid13.coords t) ↔ t.val = 0)

/-- The condition of the body's second `scf.if` (the epilogue). -/
abbrev cond13_1 (i : grid13.Coords) : Prop := k13_cond2 i = 1#1
/-- It holds at the last point only — decided over the grid. -/
theorem hcond13_1 : ∀ t : Fin cfg13.N, cond13_1 (grid13.coords t) ↔ t.val = 9 :=
  (by decide +kernel : ∀ t : Fin grid13.N, cond13_1 (grid13.coords t) ↔ t.val = 9)

/-! ## The body's triples, one per control case -/

/-- The offsets of every access of the body: zero on both axes. -/
theorem hz13 : (![0, 0] : Fin 2 → Nat) = fun _ => 0 := funext fun a => by fin_cases a <;> rfl

/-- One store through the whole-shape rectangle, the last of the list, covers the buffer. -/
theorem cover13 {S : Shape} {e : EltTy} (hr : S.rank = 2) (off : Fin S.rank → Nat) (h : off = fun _ => 0) (inb : ∀ a, off a + S.size a ≤ S.size a)
    (w : S.Idx → Elt F e) (L : List (View.Piece (Elt F) S e)) (y : S.Idx) :
    ∃ pc ∈ ((⟨Rect.unit off S.size inb, w⟩ : View.Piece (Elt F) S e) :: L), y ∈ pc.1.set :=
  ⟨_, List.mem_cons_self, View.mem_set_unit_zero h inb y⟩

set_option maxHeartbeats 4000000 in
/-- THE MIDDLE POINTS (neither branch taken): on whole memrefs, the two input blocks at `x0`, `x1` and the accumulators at
    `a0`, `a1`, the body runs to the continuation holding the inputs as they were and each accumulator with this point's
    contribution added. The other three windows are not touched. -/
theorem sound_kernel13_B (c : Dev nD) (E : Set ℕ) (i : grid13.Coords)
    (arg1 : Memref sig .tc .vmem S10000x128 .f32) (harg1 : arg1.IsWhole) (arg2 : Memref sig .tc .vmem S10000x1 .i32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S256x64 .f32) (harg5 : arg5.IsWhole) (arg6 : Memref sig .tc .vmem S256x128 .f32) (harg6 : arg6.IsWhole)
    (arg7 : Memref sig .tc .vmem S256x1 .f32) (harg7 : arg7.IsWhole)
    (hc0 : ¬cond13_0 i) (hc1 : ¬cond13_1 i)
    (x0 : Vec F S10000x128 .f32) (x1 : Vec F S10000x1 .i32) (a0 : Vec F S256x128 .f32) (a1 : Vec F S256x1 .f32) (K : PUnit → sProp 𝕄) :
    iprop(owns (c : Thread nD τ) arg1 fullShare x0 ∗ owns (c : Thread nD τ) arg2 fullShare x1
        ∗ owns (c : Thread nD τ) arg6 fullShare a0 ∗ owns (c : Thread nD τ) arg7 fullShare a1
        ∗ (iprop(owns (c : Thread nD τ) arg1 fullShare x0 ∗ owns (c : Thread nD τ) arg2 fullShare x1
            ∗ owns (c : Thread nD τ) arg6 fullShare (k13_pay4 x0 x1 a0) ∗ owns (c : Thread nD τ) arg7 fullShare (k13_pay5 x1 a1)) -∗ K ⟨⟩))
      ⊢ wp frame (wpE (defs₀ (F := F)) Variants.none c none) E (cc13__pool_embed_kernel i arg1 harg1 arg2 harg2 arg3 harg3 arg4 harg4 arg5 harg5 arg6 harg6 arg7 harg7) K := by
  simp only [cc13__pool_embed_kernel_eq_skeleton]; unfold cc13__pool_embed_kernel_skel
  unfold owns
  iintro ⟨⟨%f0, %hf0, H0⟩, ⟨%f1, %hf1, H1⟩, ⟨%g0, %hg0, HS0⟩, ⟨%g1, %hg1, HS1⟩, Hk⟩
  obtain rfl := harg1.eq_unread hf0; obtain rfl := harg2.eq_unread hf1
  obtain rfl := harg6.eq_unread hg0; obtain rfl := harg7.eq_unread hg1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [HS0]
  · iexists _; isplitr
    swap; · iexact HS0
    ipureintro
    rw [View.read_writes_eq_canon _ _ _ (cover13 (S := S256x128) rfl _ hz13 _ _ _), View.canon_unit_zero (S := S256x128) hz13]
    simp only [View.readAt_eq_ld, harg1.read_unread, harg2.read_unread, harg6.read_unread, View.ld_unit_zero (S := S10000x128) hz13, View.ld_unit_zero (S := S10000x1) hz13, View.ld_unit_zero (S := S256x128) hz13]
  iexists _; isplitr
  swap; · iexact HS1
  ipureintro
  rw [View.read_writes_eq_canon _ _ _ (cover13 (S := S256x1) rfl _ hz13 _ _ _), View.canon_unit_zero (S := S256x1) hz13]
  simp only [View.readAt_eq_ld, harg2.read_unread, harg7.read_unread, View.ld_unit_zero (S := S10000x1) hz13, View.ld_unit_zero (S := S256x1) hz13]

set_option maxHeartbeats 4000000 in
theorem sound_kernel13_A (c : Dev nD) (E : Set ℕ) (i : grid13.Coords)
    (arg1 : Memref sig .tc .vmem S10000x128 .f32) (harg1 : arg1.IsWhole) (arg2 : Memref sig .tc .vmem S10000x1 .i32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S256x64 .f32) (harg5 : arg5.IsWhole) (arg6 : Memref sig .tc .vmem S256x128 .f32) (harg6 : arg6.IsWhole)
    (arg7 : Memref sig .tc .vmem S256x1 .f32) (harg7 : arg7.IsWhole)
    (hc0 : cond13_0 i) (hc1 : ¬cond13_1 i)
    (x0 : Vec F S10000x128 .f32) (x1 : Vec F S10000x1 .i32) (K : PUnit → sProp 𝕄) :
    iprop(owns (c : Thread nD τ) arg1 fullShare x0 ∗ owns (c : Thread nD τ) arg2 fullShare x1
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg6 fullShare (k13_pay4 x0 x1 (k13_pay1 (F := F))) ∗ owns (c : Thread nD τ) arg7 fullShare (k13_pay5 x1 (k13_pay2 (F := F)))) -∗ K ⟨⟩))
      ⊢ wp frame (wpE (defs₀ (F := F)) Variants.none c none) E (cc13__pool_embed_kernel i arg1 harg1 arg2 harg2 arg3 harg3 arg4 harg4 arg5 harg5 arg6 harg6 arg7 harg7) K := by
  simp only [cc13__pool_embed_kernel_eq_skeleton]; unfold cc13__pool_embed_kernel_skel
  unfold owns
  iintro ⟨⟨%f0, %hf0, H0⟩, ⟨%f1, %hf1, H1⟩, ⟨%d0, %g0, -, HS0⟩, ⟨%d1, %g1, -, HS1⟩, Hk⟩
  obtain rfl := harg1.eq_unread hf0; obtain rfl := harg2.eq_unread hf1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [HS0]
  · iexists _; isplitr
    swap; · iexact HS0
    ipureintro
    sl_unfold_words
    rw [View.read_writes_eq_canon _ _ _ (cover13 (S := S256x128) rfl _ hz13 _ _ _), View.canon_cons_unit_zero (S := S256x128) hz13, View.readCov_unit_zero (S := S256x128) _ hz13]
    simp only [View.readAt_eq_ld, harg1.read_unread, harg2.read_unread, View.ld_unit_zero (S := S10000x128) hz13, View.ld_unit_zero (S := S10000x1) hz13]
  iexists _; isplitr
  swap; · iexact HS1
  ipureintro
  sl_unfold_words
  rw [View.read_writes_eq_canon _ _ _ (cover13 (S := S256x1) rfl _ hz13 _ _ _), View.canon_cons_unit_zero (S := S256x1) hz13, View.readCov_unit_zero (S := S256x1) _ hz13]
  simp only [View.readAt_eq_ld, harg2.read_unread, View.ld_unit_zero (S := S10000x1) hz13]

set_option maxHeartbeats 4000000 in
theorem sound_kernel13_C (c : Dev nD) (E : Set ℕ) (i : grid13.Coords)
    (arg1 : Memref sig .tc .vmem S10000x128 .f32) (harg1 : arg1.IsWhole) (arg2 : Memref sig .tc .vmem S10000x1 .i32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S256x64 .f32) (harg5 : arg5.IsWhole) (arg6 : Memref sig .tc .vmem S256x128 .f32) (harg6 : arg6.IsWhole)
    (arg7 : Memref sig .tc .vmem S256x1 .f32) (harg7 : arg7.IsWhole)
    (hc0 : ¬cond13_0 i) (hc1 : cond13_1 i)
    (x0 : Vec F S10000x128 .f32) (x1 : Vec F S10000x1 .i32) (x2 : Vec F S128x64 .f32) (x3 : Vec F S1x64 .f32)
    (a0 : Vec F S256x128 .f32) (a1 : Vec F S256x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ owns (c : Thread nD τ) arg6 fullShare a0 ∗ owns (c : Thread nD τ) arg7 fullShare a1
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k13_pay6 (k13_pay4 x0 x1 a0) (k13_pay5 x1 a1) x2 x3)
            ∗ owns (c : Thread nD τ) arg6 fullShare (k13_pay4 x0 x1 a0) ∗ owns (c : Thread nD τ) arg7 fullShare (k13_pay5 x1 a1)) -∗ K ⟨⟩))
      ⊢ wp frame (wpE (defs₀ (F := F)) Variants.none c none) E (cc13__pool_embed_kernel i arg1 harg1 arg2 harg2 arg3 harg3 arg4 harg4 arg5 harg5 arg6 harg6 arg7 harg7) K := by
  simp only [cc13__pool_embed_kernel_eq_skeleton]; unfold cc13__pool_embed_kernel_skel
  unfold owns
  iintro ⟨⟨%f0, %hf0, H0⟩, ⟨%f1, %hf1, H1⟩, ⟨%f2, %hf2, H2⟩, ⟨%f3, %hf3, H3⟩, ⟨%d4, %f4, -, H4⟩, ⟨%g0, %hg0, HS0⟩, ⟨%g1, %hg1, HS1⟩, Hk⟩
  obtain rfl := harg1.eq_unread hf0; obtain rfl := harg2.eq_unread hf1
  obtain rfl := harg3.eq_unread hf2; obtain rfl := harg4.eq_unread hf3
  obtain rfl := harg6.eq_unread hg0; obtain rfl := harg7.eq_unread hg1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    sl_unfold_words
    rw [View.read_writes_eq_canon _ _ _ (cover13 (S := S256x64) rfl _ hz13 _ _ _), View.canon_unit_zero (S := S256x64) hz13,
      View.readCov_unit_zero (S := S256x128) _ hz13, View.readCov_unit_zero (S := S256x1) _ hz13]
    simp only [View.readAt_eq_ld, harg1.read_unread, harg2.read_unread, harg3.read_unread, harg4.read_unread, harg6.read_unread, harg7.read_unread,
      View.ld_unit_zero (S := S10000x128) hz13, View.ld_unit_zero (S := S10000x1) hz13, View.ld_unit_zero (S := S256x128) hz13, View.ld_unit_zero (S := S256x1) hz13,
      View.ld_unit_zero (S := S128x64) hz13, View.ld_unit_zero (S := S1x64) hz13]
  isplitl [HS0]
  · iexists _; isplitr
    swap; · iexact HS0
    ipureintro
    sl_unfold_words
    rw [View.read_writes_eq_canon _ _ _ (cover13 (S := S256x128) rfl _ hz13 _ _ _), View.canon_unit_zero (S := S256x128) hz13]
    simp only [View.readAt_eq_ld, harg1.read_unread, harg2.read_unread, harg6.read_unread, View.ld_unit_zero (S := S10000x128) hz13, View.ld_unit_zero (S := S10000x1) hz13, View.ld_unit_zero (S := S256x128) hz13]
  iexists _; isplitr
  swap; · iexact HS1
  ipureintro
  sl_unfold_words
  rw [View.read_writes_eq_canon _ _ _ (cover13 (S := S256x1) rfl _ hz13 _ _ _), View.canon_unit_zero (S := S256x1) hz13]
  simp only [View.readAt_eq_ld, harg2.read_unread, harg7.read_unread, View.ld_unit_zero (S := S10000x1) hz13, View.ld_unit_zero (S := S256x1) hz13]

/-! ## The proof data -/

section Region13
variable (V : (c : Dev nD) → (b : Ref sig .tc) → Buf (Elt F) ((c : Thread nD τ).loc b))

/-- Window `w`'s block at point `t`, read off its array as the region finds it (`V`). -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- The two accumulators as memrefs: whole scoped buffers of the kernel's own, passed beside the windows. -/
abbrev scM13_0 : Memref sig .tc .vmem S256x128 .f32 := Memref.whole cc13_scratch0
abbrev scM13_1 : Memref sig .tc .vmem S256x1 .f32 := Memref.whole cc13_scratch1

/-- THE ACCUMULATION. What the two accumulators (segment sums, segment counts) hold after the body at position `n`:
    at the first point the reset values with that point's contribution added, afterwards what the point before left
    with this point's contribution added. -/
def acc13 (c : Dev nD) : (n : ℕ) → n < cfg13.N → Vec F S256x128 .f32 × Vec F S256x1 .f32
  | 0, hn => (k13_pay4 (iblk13 V c 0 ⟨0, hn⟩) (iblk13 V c 1 ⟨0, hn⟩) (k13_pay1 (F := F)), k13_pay5 (iblk13 V c 1 ⟨0, hn⟩) (k13_pay2 (F := F)))
  | n + 1, hn => (k13_pay4 (iblk13 V c 0 ⟨n + 1, hn⟩) (iblk13 V c 1 ⟨n + 1, hn⟩) (acc13 c n (Nat.lt_of_succ_lt hn)).1, k13_pay5 (iblk13 V c 1 ⟨n + 1, hn⟩) (acc13 c n (Nat.lt_of_succ_lt hn)).2)

/-- What the output window's buffer holds after the body at point `t`: the sums divided by the counts (at least one),
    times the weights, plus the bias, from the accumulators as the point leaves them. Stored at the last point only;
    at the others a placeholder nothing consults (the window is idle there and not written back). -/
def out13_4 (c : Dev nD) (t : Fin cfg13.N) : Vec F S256x64 .f32 :=
  k13_pay6 (acc13 V c t.val t.isLt).1 (acc13 V c t.val t.isLt).2 (iblk13 V c 2 t) (iblk13 V c 3 t)

/-- The region invariant before position `n`: the two accumulators — before the first point at anything, afterwards at
    what the point before left (`acc13`) —, every other scoped buffer unopened, the generator register at some state. -/
def PhiS13 (c : Dev nD) : (n : ℕ) → n ≤ cfg13.N → sProp 𝕄
  | 0, _ => iprop(iprop((∃ d, owns (c : Thread nD τ) scM13_0 fullShare d) ∗ (∃ d, owns (c : Thread nD τ) scM13_1 fullShare d))
      ∗ Pipeline.scopedRestBut (Ix := Unit) (Name := ℕ) (U := UR sig nD τ) (Lvl := ℕ) spec13 c [cc13_scratch0, cc13_scratch1] ∗ (∃ r, prngReg c r))
  | n + 1, hn => iprop(iprop(owns (c : Thread nD τ) scM13_0 fullShare (acc13 V c n hn).1 ∗ owns (c : Thread nD τ) scM13_1 fullShare (acc13 V c n hn).2)
      ∗ Pipeline.scopedRestBut (Ix := Unit) (Name := ℕ) (U := UR sig nD τ) (Lvl := ℕ) spec13 c [cc13_scratch0, cc13_scratch1] ∗ (∃ r, prngReg c r))

/-- The proof data of pipeline 13 on core `c`: the arrays as the region finds them (`V`); after the body at point `t`
    each input's buffer at its block and the output's at `out13_4`; the invariant `PhiS13`; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => out13_4 V c t
  Φ t := PhiS13 V c t.val (Nat.le_of_lt_succ t.isLt)
  q _ := fullShare
  owed _ := 0

theorem A_eq13 (c : Dev nD) (w : Fin cfg13.W) : (dat13 V c).A w = V c (Pipeline.arrRef spec13 w) := by
  dsimp only [dat13]
theorem q_eq13 (c : Dev nD) (w : Fin cfg13.W) : (dat13 V c).q w = fullShare := by
  dsimp only [dat13]
theorem owed_eq13 (c : Dev nD) (n : Fin (cfg13.N + 1)) : (dat13 V c).owed n = 0 := by
  dsimp only [dat13]

/-- What the body leaves, window by window (the proof data's `match` reduced by `dsimp`). -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = iblk13 V c 3 t := by dsimp only [dat13]
theorem after13_4 (c : Dev nD) (t : Fin cfg13.N) : (dat13 V c).after 4 t = out13_4 V c t := by dsimp only [dat13]

/-- Each input's current staging buffer holds its block at every point, fetched there or not: unfetched, the block
    index has not moved, the window is uncut and never idle. -/
theorem before13_0 (c : Dev nD) (t : Fin cfg13.N) (d) : (dat13 V c).before 0 t d = iblk13 V c 0 t :=
  ((dat13 V c).before_in_eq_fetched 0 rfl (fun _ => rfl) (fun _ _ _ => rfl) (fun t => by rw [after13_0]; unfold Dat.blockOf iblk13; rw [A_eq13]; try rfl) t d).trans
    (by unfold Dat.fetched Dat.blockOf iblk13; rw [A_eq13]; try rfl)
theorem before13_1 (c : Dev nD) (t : Fin cfg13.N) (d) : (dat13 V c).before 1 t d = iblk13 V c 1 t :=
  ((dat13 V c).before_in_eq_fetched 1 rfl (fun _ => rfl) (fun _ _ _ => rfl) (fun t => by rw [after13_1]; unfold Dat.blockOf iblk13; rw [A_eq13]; try rfl) t d).trans
    (by unfold Dat.fetched Dat.blockOf iblk13; rw [A_eq13]; try rfl)
theorem before13_2 (c : Dev nD) (t : Fin cfg13.N) (d) : (dat13 V c).before 2 t d = iblk13 V c 2 t :=
  ((dat13 V c).before_in_eq_fetched 2 rfl (fun _ => rfl) (fun _ _ _ => rfl) (fun t => by rw [after13_2]; unfold Dat.blockOf iblk13; rw [A_eq13]; try rfl) t d).trans
    (by unfold Dat.fetched Dat.blockOf iblk13; rw [A_eq13]; try rfl)
theorem before13_3 (c : Dev nD) (t : Fin cfg13.N) (d) : (dat13 V c).before 3 t d = iblk13 V c 3 t :=
  ((dat13 V c).before_in_eq_fetched 3 rfl (fun _ => rfl) (fun _ _ _ => rfl) (fun t => by rw [after13_3]; unfold Dat.blockOf iblk13; rw [A_eq13]; try rfl) t d).trans
    (by unfold Dat.fetched Dat.blockOf iblk13; rw [A_eq13]; try rfl)

/-- The accumulators after the first point: the reset values with its contribution added. -/
theorem acc13_zero (c : Dev nD) (t : Fin cfg13.N) (h0 : t.val = 0) :
    acc13 V c t.val t.isLt = (k13_pay4 (iblk13 V c 0 t) (iblk13 V c 1 t) (k13_pay1 (F := F)), k13_pay5 (iblk13 V c 1 t) (k13_pay2 (F := F))) := by
  obtain ⟨n, hn⟩ := t
  cases n with
  | zero => rfl
  | succ n => exact absurd h0 (Nat.succ_ne_zero n)

/-- The accumulators after a later point: what the point before left with this point's contribution added. -/
theorem acc13_pos (c : Dev nD) (t : Fin cfg13.N) (h0 : t.val ≠ 0) :
    acc13 V c t.val t.isLt = (k13_pay4 (iblk13 V c 0 t) (iblk13 V c 1 t) (acc13 V c (t.val - 1) (Nat.lt_of_le_of_lt (Nat.sub_le _ _) t.isLt)).1,
      k13_pay5 (iblk13 V c 1 t) (acc13 V c (t.val - 1) (Nat.lt_of_le_of_lt (Nat.sub_le _ _) t.isLt)).2) := by
  obtain ⟨n, hn⟩ := t
  cases n with
  | zero => exact absurd rfl h0
  | succ n => rfl

theorem PhiS13_zero (c : Dev nD) (n : ℕ) (h : n ≤ cfg13.N) (hz : n = 0) :
    PhiS13 V c n h = iprop(iprop((∃ d, owns (c : Thread nD τ) scM13_0 fullShare d) ∗ (∃ d, owns (c : Thread nD τ) scM13_1 fullShare d))
      ∗ Pipeline.scopedRestBut (Ix := Unit) (Name := ℕ) (U := UR sig nD τ) (Lvl := ℕ) spec13 c [cc13_scratch0, cc13_scratch1] ∗ (∃ r, prngReg c r)) := by
  subst hz; rfl

/-- After point `n` (before point `n + 1`): the accumulators at that point's contents. -/
theorem PhiS13_succ (c : Dev nD) (n : ℕ) (hn : n < cfg13.N) :
    PhiS13 V c (n + 1) hn = iprop(iprop(owns (c : Thread nD τ) scM13_0 fullShare (acc13 V c n hn).1 ∗ owns (c : Thread nD τ) scM13_1 fullShare (acc13 V c n hn).2)
      ∗ Pipeline.scopedRestBut (Ix := Unit) (Name := ℕ) (U := UR sig nD τ) (Lvl := ℕ) spec13 c [cc13_scratch0, cc13_scratch1] ∗ (∃ r, prngReg c r)) := rfl

/-- Before a point that is not the first: the accumulators at what the point before left. -/
theorem PhiS13_pos (c : Dev nD) (n : ℕ) (h : n ≤ cfg13.N) (hz : n ≠ 0) :
    PhiS13 V c n h = iprop(iprop(owns (c : Thread nD τ) scM13_0 fullShare (acc13 V c (n - 1) (by omega)).1 ∗ owns (c : Thread nD τ) scM13_1 fullShare (acc13 V c (n - 1) (by omega)).2)
      ∗ Pipeline.scopedRestBut (Ix := Unit) (Name := ℕ) (U := UR sig nD τ) (Lvl := ℕ) spec13 c [cc13_scratch0, cc13_scratch1] ∗ (∃ r, prngReg c r)) := by
  cases n with
  | zero => exact absurd rfl hz
  | succ n => rfl

/-- The invariant at a point's start (the proof data at `t.castSucc`), restated at `t.val`. -/
theorem PhiS13_castSucc (c : Dev nD) (t : Fin cfg13.N) :
    (dat13 V c).Φ t.castSucc = PhiS13 V c t.val (Nat.le_of_lt t.isLt) := by
  dsimp only [dat13]; simp only [Fin.coe_castSucc]

/-! ## Where the windows are idle -/

/-- The inputs are never idle. -/
theorem liveAt13_0 : ∀ t : Fin cfg13.N, cfg13.idle 0 (grid13.coords t) = false := fun _ => rfl
theorem liveAt13_1 : ∀ t : Fin cfg13.N, cfg13.idle 1 (grid13.coords t) = false := fun _ => rfl
theorem liveAt13_2 : ∀ t : Fin cfg13.N, cfg13.idle 2 (grid13.coords t) = false := fun _ => rfl
theorem liveAt13_3 : ∀ t : Fin cfg13.N, cfg13.idle 3 (grid13.coords t) = false := fun _ => rfl
/-- Off the last point the output window is idle (the body stores nothing into it) and not written back; -/
theorem idleAt13_4 : ∀ t : Fin cfg13.N, ¬cond13_1 (grid13.coords t) → cfg13.idle 4 (grid13.coords t) = true := by decide +kernel
theorem noFlush13_4 : ∀ t : Fin cfg13.N, ¬cond13_1 (grid13.coords t) → (cfg13.win 4).flush t = false := by decide +kernel
/-- at the last point it is live. -/
theorem liveAt13_4 : ∀ t : Fin cfg13.N, cond13_1 (grid13.coords t) → cfg13.idle 4 (grid13.coords t) = false := by decide +kernel

theorem leavesExact13_0 (c : Dev nD) (t : Fin cfg13.N) : (dat13 V c).leavesExact 0 t = owns (c : Thread nD τ) (st13_0 t) fullShare (iblk13 V c 0 t) := by
  unfold Dat.leavesExact; rw [liveAt13_0 t, after13_0]
theorem leavesExact13_1 (c : Dev nD) (t : Fin cfg13.N) : (dat13 V c).leavesExact 1 t = owns (c : Thread nD τ) (st13_1 t) fullShare (iblk13 V c 1 t) := by
  unfold Dat.leavesExact; rw [liveAt13_1 t, after13_1]
theorem leavesExact13_2 (c : Dev nD) (t : Fin cfg13.N) : (dat13 V c).leavesExact 2 t = owns (c : Thread nD τ) (st13_2 t) fullShare (iblk13 V c 2 t) := by
  unfold Dat.leavesExact; rw [liveAt13_2 t, after13_2]
theorem leavesExact13_3 (c : Dev nD) (t : Fin cfg13.N) : (dat13 V c).leavesExact 3 t = owns (c : Thread nD τ) (st13_3 t) fullShare (iblk13 V c 3 t) := by
  unfold Dat.leavesExact; rw [liveAt13_3 t, after13_3]

/-! ## The body obligation, at a generic point -/

/-- What the body is called with at point `t`, the windows one by one, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d))
    ∗ (∃ d, owns (c : Thread nD τ) (st13_4 t) fullShare ((dat13 V c).before 4 t d)))

/-- and what it returns. -/
def bodyPost13 (c : Dev nD) (t : Fin cfg13.N) : sProp 𝕄 :=
  iprop((dat13 V c).Φ t.succ ∗ (dat13 V c).owesAt () t.succ
    ∗ (dat13 V c).leavesExact 0 t
    ∗ (dat13 V c).leavesExact 1 t
    ∗ (dat13 V c).leavesExact 2 t
    ∗ (dat13 V c).leavesExact 3 t
    ∗ (dat13 V c).leavesExact 4 t)

set_option maxHeartbeats 4000000 in
/-- The body at any point. The inputs' memrefs hold their blocks; the point's position says which control case it is in; the
    invariant hands the body the two accumulators — at anything before the first point, at what the point before left
    afterwards — and takes them back at this point's contents; the output window, off the last point, goes back as it was
    found, and at the last point holds the epilogue's store; the other scoped buffers, the generator register and what
    the core owes pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2, before13_3]
  rw [show (dat13 V c).owesAt () t.succ = (dat13 V c).owesAt () t.castSucc from rfl]
  rw [show (dat13 V c).Φ t.succ = PhiS13 V c (t.val + 1) t.isLt from rfl, PhiS13_succ]
  rw [leavesExact13_0, leavesExact13_1, leavesExact13_2, leavesExact13_3]
  have hN : t.val < 10 := lt_of_lt_of_eq t.isLt (show cfg13.N = 10 from N_13)
  by_cases h0 : t.val = 0
  · have hc0 : cond13_0 (grid13.coords t) := (hcond13_0 t).mpr h0
    have hc1 : ¬cond13_1 (grid13.coords t) := fun h => by have := (hcond13_1 t).mp h; omega
    rw [Dat.leavesExact_idle (dat13 V c) 4 t (idleAt13_4 t hc1) (noFlush13_4 t hc1)]
    rw [acc13_zero V c t h0]; (try dsimp only)
    rw [PhiS13_castSucc V c t, PhiS13_zero V c _ _ h0]
    iintro ⟨⟨⟨HS0, HS1⟩, Hrest, Hg⟩, Ho, ⟨%d0, H0⟩, ⟨%d1, H1⟩, ⟨%d2, H2⟩, ⟨%d3, H3⟩, H4⟩
    iapply (sound_kernel13_A c Set.univ (grid13.coords t) _ _ _ _ _ _ _ _ _ _ _ _ _ _ hc0 hc1 (iblk13 V c 0 t) (iblk13 V c 1 t) _)
    isplitl [H0]; · iexact H0
    isplitl [H1]; · iexact H1
    isplitl [HS0]; · iexact HS0
    isplitl [HS1]; · iexact HS1
    iintro ⟨H0, H1, HS0, HS1⟩
    isplitl [HS0 HS1 Hrest Hg]
    · isplitl [HS0 HS1]
      · isplitl [HS0]; · iexact HS0
        iexact HS1
      isplitl [Hrest]; · iexact Hrest
      iexact Hg
    isplitl [Ho]; · iexact Ho
    isplitl [H0]; · iexact H0
    isplitl [H1]; · iexact H1
    isplitl [H2]; · iexact H2
    isplitl [H3]; · iexact H3
    iexact H4
  · have hc0 : ¬cond13_0 (grid13.coords t) := fun h => h0 ((hcond13_0 t).mp h)
    rw [PhiS13_castSucc V c t, PhiS13_pos V c _ _ h0]
    rw [acc13_pos V c t h0]; (try dsimp only)
    by_cases h1 : t.val = 9
    · have hc1 : cond13_1 (grid13.coords t) := (hcond13_1 t).mpr h1
      rw [show (dat13 V c).leavesExact 4 t = owns (c : Thread nD τ) (st13_4 t) fullShare ((dat13 V c).after 4 t) from by
        unfold Dat.leavesExact; rw [liveAt13_4 t hc1], after13_4]
      unfold out13_4
      rw [acc13_pos V c t h0]; (try dsimp only)
      iintro ⟨⟨⟨HS0, HS1⟩, Hrest, Hg⟩, Ho, ⟨%d0, H0⟩, ⟨%d1, H1⟩, ⟨%d2, H2⟩, ⟨%d3, H3⟩, ⟨%d4, H4⟩⟩
      iapply (sound_kernel13_C c Set.univ (grid13.coords t) _ _ _ _ _ _ _ _ _ _ _ _ _ _ hc0 hc1 (iblk13 V c 0 t) (iblk13 V c 1 t) (iblk13 V c 2 t) (iblk13 V c 3 t) _ _ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 Hrest Hg]
      · isplitl [HS0 HS1]
        · isplitl [HS0]; · iexact HS0
          iexact HS1
        isplitl [Hrest]; · iexact Hrest
        iexact Hg
      isplitl [Ho]; · iexact Ho
      isplitl [H0]; · iexact H0
      isplitl [H1]; · iexact H1
      isplitl [H2]; · iexact H2
      isplitl [H3]; · iexact H3
      iexact H4
    · have hc1 : ¬cond13_1 (grid13.coords t) := fun h => h1 ((hcond13_1 t).mp h)
      rw [Dat.leavesExact_idle (dat13 V c) 4 t (idleAt13_4 t hc1) (noFlush13_4 t hc1)]
      iintro ⟨⟨⟨HS0, HS1⟩, Hrest, Hg⟩, Ho, ⟨%d0, H0⟩, ⟨%d1, H1⟩, ⟨%d2, H2⟩, ⟨%d3, H3⟩, H4⟩
      iapply (sound_kernel13_B c Set.univ (grid13.coords t) _ _ _ _ _ _ _ _ _ _ _ _ _ _ hc0 hc1 (iblk13 V c 0 t) (iblk13 V c 1 t) _ _ _)
      isplitl [H0]; · iexact H0
      isplitl [H1]; · iexact H1
      isplitl [HS0]; · iexact HS0
      isplitl [HS1]; · iexact HS1
      iintro ⟨H0, H1, HS0, HS1⟩
      isplitl [HS0 HS1 Hrest Hg]
      · isplitl [HS0 HS1]
        · isplitl [HS0]; · iexact HS0
          iexact HS1
        isplitl [Hrest]; · iexact Hrest
        iexact Hg
      isplitl [Ho]; · iexact Ho
      isplitl [H0]; · iexact H0
      isplitl [H1]; · iexact H1
      isplitl [H2]; · iexact H2
      isplitl [H3]; · iexact H3
      iexact H4

/-- The library's body obligation, at every point. -/
theorem body_obligation13 (c : Dev nD) : BodyObligation (dat13 (F := F) V c) (defs₀ (F := F)) Variants.none () Set.univ := fun t => by
  rw [bigSep_W13, bigSep_W13]
  exact sound_body13 V c t

/-! ## Into and out of the invariant -/

/-- What the launch hands the region — the generator register and the scoped rest — is the invariant before the first
    point: the rest split at the two accumulators, each at whatever it holds. -/
theorem Phi_in13 (c : Dev nD) : (iprop((∃ r, prngReg c r) ∗ Pipeline.scopedRest (Ix := Unit) (Name := ℕ) (U := UR sig nD τ) (Lvl := ℕ) spec13 c) : sProp 𝕄) ⊢ (dat13 V c).Φ 0 := by
  rw [show (dat13 V c).Φ 0 = PhiS13 V c 0 (Nat.zero_le _) from rfl, PhiS13_zero V c 0 _ rfl, scopedRest13_split]
  simp only [scM13_0, scM13_1, owns_whole]
  iintro ⟨Hg, ⟨HS0, HS1⟩, Hrest⟩
  isplitl [HS0 HS1]
  · isplitl [HS0]; · iexact HS0
    iexact HS1
  isplitl [Hrest]; · iexact Hrest
  iexact Hg

/-- After the last point the invariant gives both back: the accumulators' named contents are forgotten and the scoped
    rest closed over them again. -/
theorem Phi_out13 (c : Dev nD) : (dat13 V c).Φ (Fin.last cfg13.N) ⊢ (iprop((∃ r, prngReg c r) ∗ Pipeline.scopedRest (Ix := Unit) (Name := ℕ) (U := UR sig nD τ) (Lvl := ℕ) spec13 c) : sProp 𝕄) := by
  rw [show (dat13 V c).Φ (Fin.last cfg13.N) = PhiS13 V c (Fin.last cfg13.N).val (Nat.le_of_lt_succ (Fin.last cfg13.N).isLt) from rfl,
    PhiS13_pos V c _ _ (by rw [Fin.val_last]; have : cfg13.N = 10 := N_13; omega), scopedRest13_split]
  simp only [scM13_0, scM13_1, owns_whole]
  iintro ⟨⟨HS0, HS1⟩, Hrest, Hg⟩
  isplitl [Hg]; · iexact Hg
  isplitl [HS0 HS1]
  · isplitl [HS0]
    · iexists _; iexact HS0
    iexists _; iexact HS1
  iexact Hrest

end Region13

end Cert.KernelIdeal.Hand

end
-- ==== Proof.KI.RegCls14.lean ====
import proofs.«413302_j72232759984513_1_alg».proof.Proof.Gen.KernelIdeal.Launch
import proofs.«413302_j72232759984513_1_alg».proof.Proof.Gen.KernelIdeal.Skeleton
import proofs.«413302_j72232759984513_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region14
-- the TensorCore's buffer contents when the region is entered
variable (V : (c : Dev nD) → (b : Ref sig .tc) → Buf (Elt F) ((c : Thread nD τ).loc b))

/-! # Region 14: the classifier kernel, one grid point, every window the whole of its array -/

/-! ## The windows' blocks -/

/-- Window `w`'s block at point `t`, read off its array as the region finds it (`V`). -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- Input window 0's current staging buffer holds its block at every point, fetched there or not, for any proof
    data whose array is `V`'s and whose body leaves the block in place: the window is uncut and never idle. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

/-- Input window 1's current staging buffer holds its block at every point, fetched there or not, for any proof
    data whose array is `V`'s and whose body leaves the block in place: the window is uncut and never idle. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

/-- Input window 2's current staging buffer holds its block at every point, fetched there or not, for any proof
    data whose array is `V`'s and whose body leaves the block in place: the window is uncut and never idle. -/
theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)

/-- Input window 3's current staging buffer holds its block at every point, fetched there or not, for any proof
    data whose array is `V`'s and whose body leaves the block in place: the window is uncut and never idle. -/
theorem before14_3_of {c : Dev nD} (dat : Dat τ (Elt F) Unit ℕ (UR sig nD τ) ℕ cfg14 c) (hA : dat.A 3 = V c (Pipeline.arrRef spec14 3))
    (hafter : ∀ t, dat.after 3 t = iblk14 V c 3 t) (t : Fin cfg14.N) (d) : dat.before 3 t d = iblk14 V c 3 t :=
  (dat.before_in_eq_fetched 3 rfl (fun _ => rfl) (fun _ _ _ => rfl) (fun t => by rw [hafter]; unfold Dat.blockOf iblk14; rw [hA]; try rfl) t d).trans
    (by unfold Dat.fetched Dat.blockOf iblk14; rw [hA]; try rfl)

/-- Input window 4's current staging buffer holds its block at every point, fetched there or not, for any proof
    data whose array is `V`'s and whose body leaves the block in place: the window is uncut and never idle. -/
theorem before14_4_of {c : Dev nD} (dat : Dat τ (Elt F) Unit ℕ (UR sig nD τ) ℕ cfg14 c) (hA : dat.A 4 = V c (Pipeline.arrRef spec14 4))
    (hafter : ∀ t, dat.after 4 t = iblk14 V c 4 t) (t : Fin cfg14.N) (d) : dat.before 4 t d = iblk14 V c 4 t :=
  (dat.before_in_eq_fetched 4 rfl (fun _ => rfl) (fun _ _ _ => rfl) (fun t => by rw [hafter]; unfold Dat.blockOf iblk14; rw [hA]; try rfl) t d).trans
    (by unfold Dat.fetched Dat.blockOf iblk14; rw [hA]; try rfl)

/-- Input window 5's current staging buffer holds its block at every point, fetched there or not, for any proof
    data whose array is `V`'s and whose body leaves the block in place: the window is uncut and never idle. -/
theorem before14_5_of {c : Dev nD} (dat : Dat τ (Elt F) Unit ℕ (UR sig nD τ) ℕ cfg14 c) (hA : dat.A 5 = V c (Pipeline.arrRef spec14 5))
    (hafter : ∀ t, dat.after 5 t = iblk14 V c 5 t) (t : Fin cfg14.N) (d) : dat.before 5 t d = iblk14 V c 5 t :=
  (dat.before_in_eq_fetched 5 rfl (fun _ => rfl) (fun _ _ _ => rfl) (fun t => by rw [hafter]; unfold Dat.blockOf iblk14; rw [hA]; try rfl) t d).trans
    (by unfold Dat.fetched Dat.blockOf iblk14; rw [hA]; try rfl)

/-! ## The body's accesses: each load and the one store is of a whole buffer -/

abbrev r14_a : Rect S256x64 := Rect.unit (s := S256x64) ![0, 0] S256x64.size inb_S256x64_S256x64_0_0
abbrev r14_b : Rect S64x64 := Rect.unit (s := S64x64) ![0, 0] S64x64.size inb_S64x64_S64x64_0_0
abbrev r14_c : Rect S1x64 := Rect.unit (s := S1x64) ![0, 0] S1x64.size inb_S1x64_S1x64_0_0
abbrev r14_d : Rect S64x1 := Rect.unit (s := S64x1) ![0, 0] S64x1.size inb_S64x1_S64x1_0_0
abbrev r14_e : Rect S1x1 := Rect.unit (s := S1x1) ![0, 0] S1x1.size inb_S1x1_S1x1_0_0
abbrev r14_o : Rect S256x1 := Rect.unit (s := S256x1) ![0, 0] S256x1.size inb_S256x1_S256x1_0_0

/-! ## What the body leaves in the output window's buffer -/

/-- Window 6's staging buffer after the body, from the input windows' blocks: its one store as a piece
    (`View.canon`; the payload is the skeleton's). -/
def out14_6 (x0 : Vec F S256x64 .f32) (x1 : Vec F S256x64 .f32) (x2 : Vec F S64x64 .f32) (x3 : Vec F S1x64 .f32) (x4 : Vec F S64x1 .f32) (x5 : Vec F S1x1 .f32) : Vec F S256x1 .f32 :=
  View.canon [⟨r14_o, k14_pay1 (View.ld x0 r14_a) (View.ld x1 r14_a) (View.ld x2 r14_b) (View.ld x3 r14_c) (View.ld x4 r14_d) (View.ld x5 r14_e)⟩]

/-- The one store tiles the buffer (checked by evaluation), so it covers it. -/
theorem cover14_6 (p0 : Vec F S256x1 .f32) (y : S256x1.Idx) :
    ∃ pc ∈ ([⟨r14_o, p0⟩] : List (View.Piece (Elt F) S256x1 .f32)), y ∈ pc.1.set :=
  View.cover_of_tiled [⟨r14_o, p0⟩] S256x1.size (by rfl) y

/-! ## The body's triple -/

set_option maxHeartbeats 1000000 in
/-- The kernel body on whole staging memrefs, the inputs' at read contents `xW` and the output's at anything, runs to
    the continuation holding the inputs' as they were and the output's at `out14_6` of the inputs': the printed function
    is its skeleton, which is run operation by operation. -/
theorem sound_kernel14 (c : Dev nD) (E : Set ℕ) (i : grid14.Coords) (arg1 : Memref sig .tc .vmem S256x64 .f32) (harg1 : arg1.IsWhole) (arg2 : Memref sig .tc .vmem S256x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x1 .f32) (harg5 : arg5.IsWhole) (arg6 : Memref sig .tc .vmem S1x1 .f32) (harg6 : arg6.IsWhole) (arg7 : Memref sig .tc .vmem S256x1 .f32) (harg7 : arg7.IsWhole)
    (x0 : Vec F S256x64 .f32) (x1 : Vec F S256x64 .f32) (x2 : Vec F S64x64 .f32) (x3 : Vec F S1x64 .f32) (x4 : Vec F S64x1 .f32) (x5 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out14_6 x0 x1 x2 x3 x4 x5)) -∗ K ⟨⟩))
      ⊢ wp frame (wpE (defs₀ (F := F)) Variants.none c none) E (cc14__classifier_kernel i arg1 harg1 arg2 harg2 arg3 harg3 arg4 harg4 arg5 harg5 arg6 harg6 arg7 harg7) K := by
  simp only [cc14__classifier_kernel_eq_skeleton]; unfold cc14__classifier_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover14_6 _)

/-! ## The pipeline's proof data -/

/-- The proof data of pipeline 14 on core `c`: the arrays as the region finds them (`V`); after the body at
    point `t` each input's buffer at its block and the output's at `out14_6` of the input blocks; the invariant the
    class's (the scoped rest and the generator register, untouched); nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => iblk14 V c 3 t
    | ⟨4, _⟩ => iblk14 V c 4 t
    | ⟨5, _⟩ => iblk14 V c 5 t
    | ⟨6, _⟩ => out14_6 (iblk14 V c 0 t) (iblk14 V c 1 t) (iblk14 V c 2 t) (iblk14 V c 3 t) (iblk14 V c 4 t) (iblk14 V c 5 t)
  Φ _ := Pipeline.ΦA spec14 c
  q _ := fullShare
  owed _ := 0

/-- The proof data's arrays are the region-entry contents (the definition projected, by `dsimp`). -/
theorem A_eq14 (c : Dev nD) (w : Fin cfg14.W) : (dat14 V c).A w = V c (Pipeline.arrRef spec14 w) := by
  dsimp only [dat14]

/-- Every share is the full one. -/
theorem q_eq14 (c : Dev nD) (w : Fin cfg14.W) : (dat14 V c).q w = fullShare := by
  dsimp only [dat14]

/-- Nothing is owed at any boundary. -/
theorem owed_eq14 (c : Dev nD) (n : Fin (cfg14.N + 1)) : (dat14 V c).owed n = 0 := by
  dsimp only [dat14]

/-- The invariant is the class's at every boundary. -/
theorem Phi_eq14 (c : Dev nD) (n : Fin (cfg14.N + 1)) : (dat14 V c).Φ n = Pipeline.ΦA spec14 c := by
  dsimp only [dat14]

/-- Into the invariant at the region's entry: the generator register and the scoped rest, reordered. -/
theorem Phi_in14 (c : Dev nD) : (iprop((∃ r, prngReg c r) ∗ Pipeline.scopedRest (Ix := Unit) (Name := ℕ) (U := UR sig nD τ) (Lvl := ℕ) spec14 c) : sProp 𝕄) ⊢ (dat14 V c).Φ 0 := by
  rw [Phi_eq14]; unfold Pipeline.ΦA
  iintro ⟨Hp, Hr⟩
  isplitl [Hr]; · iexact Hr
  iexact Hp

/-- Out of the invariant at the region's exit: the same two, reordered back. -/
theorem Phi_out14 (c : Dev nD) : (dat14 V c).Φ (Fin.last cfg14.N) ⊢ (iprop((∃ r, prngReg c r) ∗ Pipeline.scopedRest (Ix := Unit) (Name := ℕ) (U := UR sig nD τ) (Lvl := ℕ) spec14 c) : sProp 𝕄) := by
  rw [Phi_eq14]; unfold Pipeline.ΦA
  iintro ⟨Hr, Hp⟩
  isplitl [Hp]; · iexact Hp
  iexact Hr

/-- What the body leaves, window by window (the proof data's `match` reduced by `dsimp`). -/
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = iblk14 V c 3 t := by dsimp only [dat14]
theorem after14_4 (c : Dev nD) (t : Fin cfg14.N) : (dat14 V c).after 4 t = iblk14 V c 4 t := by dsimp only [dat14]
theorem after14_5 (c : Dev nD) (t : Fin cfg14.N) : (dat14 V c).after 5 t = iblk14 V c 5 t := by dsimp only [dat14]
theorem after14_6 (c : Dev nD) (t : Fin cfg14.N) : (dat14 V c).after 6 t = out14_6 (iblk14 V c 0 t) (iblk14 V c 1 t) (iblk14 V c 2 t) (iblk14 V c 3 t) (iblk14 V c 4 t) (iblk14 V c 5 t) := by dsimp only [dat14]

/-- Each input's current staging buffer holds its block at every point, fetched there or not. -/
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d
theorem before14_3 (c : Dev nD) (t : Fin cfg14.N) (d) : (dat14 V c).before 3 t d = iblk14 V c 3 t :=
  before14_3_of V (dat14 V c) (A_eq14 V c 3) (after14_3 V c) t d
theorem before14_4 (c : Dev nD) (t : Fin cfg14.N) (d) : (dat14 V c).before 4 t d = iblk14 V c 4 t :=
  before14_4_of V (dat14 V c) (A_eq14 V c 4) (after14_4 V c) t d
theorem before14_5 (c : Dev nD) (t : Fin cfg14.N) (d) : (dat14 V c).before 5 t d = iblk14 V c 5 t :=
  before14_5_of V (dat14 V c) (A_eq14 V c 5) (after14_5 V c) t d

/-! ## The body obligation, at a generic point -/

/-- What the body is called with at point `t` (the windows one by one), -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d))
    ∗ (∃ d, owns (c : Thread nD τ) (st14_4 t) fullShare ((dat14 V c).before 4 t d))
    ∗ (∃ d, owns (c : Thread nD τ) (st14_5 t) fullShare ((dat14 V c).before 5 t d))
    ∗ (∃ d, owns (c : Thread nD τ) (st14_6 t) fullShare ((dat14 V c).before 6 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t)
    ∗ owns (c : Thread nD τ) (st14_4 t) fullShare ((dat14 V c).after 4 t)
    ∗ owns (c : Thread nD τ) (st14_5 t) fullShare ((dat14 V c).after 5 t)
    ∗ owns (c : Thread nD τ) (st14_6 t) fullShare ((dat14 V c).after 6 t))

/-- The body at any point: the inputs' memrefs hold their blocks, so the kernel's triple applies; the invariant and
    the core's debts pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2, before14_3, before14_4, before14_5]
  rw [show (dat14 V c).Φ t.succ = (dat14 V c).Φ t.castSucc from rfl,
    show (dat14 V c).owesAt () t.succ = (dat14 V c).owesAt () t.castSucc from rfl,
    after14_0, after14_1, after14_2, after14_3, after14_4, after14_5, after14_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel14 c Set.univ _ _ _ _ _ _ _ _ _ _ _ _ _ _ _ (iblk14 V c 0 t) (iblk14 V c 1 t) (iblk14 V c 2 t) (iblk14 V c 3 t) (iblk14 V c 4 t) (iblk14 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation14 (c : Dev nD) : BodyObligation (dat14 (F := F) V c) (defs₀ (F := F)) Variants.none () Set.univ := fun t => by
  rw [bigSep_W14, bigSep_W14]
  exact sound_body14 V c t

end Region14

end Cert.KernelIdeal.Hand

end
-- ==== Proof.KI.ChainDefs.lean ====
import proofs.«413302_j72232759984513_1_alg».proof.Proof.Gen.KernelIdeal.Launch
import proofs.«413302_j72232759984513_1_alg».proof.Proof.Gen.KernelIdeal.Skeleton
import proofs.«413302_j72232759984513_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«413302_j72232759984513_1_alg».proof.Proof.Gen.KernelIdeal.Regions
import proofs.«413302_j72232759984513_1_alg».proof.Proof.KI.RegLS0
import proofs.«413302_j72232759984513_1_alg».proof.Proof.KI.RegBN1
import proofs.«413302_j72232759984513_1_alg».proof.Proof.KI.RegLS2
import proofs.«413302_j72232759984513_1_alg».proof.Proof.KI.RegBN3
import proofs.«413302_j72232759984513_1_alg».proof.Proof.KI.RegLS4
import proofs.«413302_j72232759984513_1_alg».proof.Proof.KI.RegBN5
import proofs.«413302_j72232759984513_1_alg».proof.Proof.KI.RegPool6
import proofs.«413302_j72232759984513_1_alg».proof.Proof.KI.RegLS7
import proofs.«413302_j72232759984513_1_alg».proof.Proof.KI.RegBN8
import proofs.«413302_j72232759984513_1_alg».proof.Proof.KI.RegLS9
import proofs.«413302_j72232759984513_1_alg».proof.Proof.KI.RegBN10
import proofs.«413302_j72232759984513_1_alg».proof.Proof.KI.RegLS11
import proofs.«413302_j72232759984513_1_alg».proof.Proof.KI.RegBN12
import proofs.«413302_j72232759984513_1_alg».proof.Proof.KI.RegPool13
import proofs.«413302_j72232759984513_1_alg».proof.Proof.KI.RegCls14

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The unscoped buffers' contents between the items of @main

Item 2J is a host stretch, item 2K+1 is kernel region K. `W J c` is what core `c`'s unscoped buffers hold after item J-1:
the launch memory, then `StableHlo.after` each host stretch, then, after a region, the entry contents with each output
window's array replaced by what the pipeline leaves in it (`Dat.arrAt … N`: the write-backs folded over the entry array). -/

/-! ## What a region leaves in an output window's array, as a name

`oK_w X c` is the array of region K's output window `w` after the region's last point, for the region entered at the
contents `X`: a name that no later statement has to look into (only `oK_w_eq` says what it is). -/

theorem lt0_0 : 0 < cfg0.W := by decide
theorem lt0_1 : 1 < cfg0.W := by decide
theorem lt0_2 : 2 < cfg0.W := by decide
theorem lt0_3 : 3 < cfg0.W := by decide
theorem lt0_4 : 4 < cfg0.W := by decide
theorem lt0_5 : 5 < cfg0.W := by decide
theorem ne0_0_3 : Pipeline.arrRef spec0 ⟨0, lt0_0⟩ ≠ main_v19_0 := by decide
theorem ne0_0_4 : Pipeline.arrRef spec0 ⟨0, lt0_0⟩ ≠ main_v19_1 := by decide
theorem ne0_0_5 : Pipeline.arrRef spec0 ⟨0, lt0_0⟩ ≠ main_v19_2 := by decide
theorem ne0_1_3 : Pipeline.arrRef spec0 ⟨1, lt0_1⟩ ≠ main_v19_0 := by decide
theorem ne0_1_4 : Pipeline.arrRef spec0 ⟨1, lt0_1⟩ ≠ main_v19_1 := by decide
theorem ne0_1_5 : Pipeline.arrRef spec0 ⟨1, lt0_1⟩ ≠ main_v19_2 := by decide
theorem ne0_2_3 : Pipeline.arrRef spec0 ⟨2, lt0_2⟩ ≠ main_v19_0 := by decide
theorem ne0_2_4 : Pipeline.arrRef spec0 ⟨2, lt0_2⟩ ≠ main_v19_1 := by decide
theorem ne0_2_5 : Pipeline.arrRef spec0 ⟨2, lt0_2⟩ ≠ main_v19_2 := by decide
theorem lt1_0 : 0 < cfg1.W := by decide
theorem lt1_1 : 1 < cfg1.W := by decide
theorem lt1_2 : 2 < cfg1.W := by decide
theorem lt1_3 : 3 < cfg1.W := by decide
theorem lt1_4 : 4 < cfg1.W := by decide
theorem lt1_5 : 5 < cfg1.W := by decide
theorem ne1_0_5 : Pipeline.arrRef spec1 ⟨0, lt1_0⟩ ≠ main_v29 := by decide
theorem ne1_1_5 : Pipeline.arrRef spec1 ⟨1, lt1_1⟩ ≠ main_v29 := by decide
theorem ne1_2_5 : Pipeline.arrRef spec1 ⟨2, lt1_2⟩ ≠ main_v29 := by decide
theorem ne1_3_5 : Pipeline.arrRef spec1 ⟨3, lt1_3⟩ ≠ main_v29 := by decide
theorem ne1_4_5 : Pipeline.arrRef spec1 ⟨4, lt1_4⟩ ≠ main_v29 := by decide
theorem lt2_0 : 0 < cfg2.W := by decide
theorem lt2_1 : 1 < cfg2.W := by decide
theorem lt2_2 : 2 < cfg2.W := by decide
theorem lt2_3 : 3 < cfg2.W := by decide
theorem lt2_4 : 4 < cfg2.W := by decide
theorem lt2_5 : 5 < cfg2.W := by decide
theorem ne2_0_3 : Pipeline.arrRef spec2 ⟨0, lt2_0⟩ ≠ main_v44_0 := by decide
theorem ne2_0_4 : Pipeline.arrRef spec2 ⟨0, lt2_0⟩ ≠ main_v44_1 := by decide
theorem ne2_0_5 : Pipeline.arrRef spec2 ⟨0, lt2_0⟩ ≠ main_v44_2 := by decide
theorem ne2_1_3 : Pipeline.arrRef spec2 ⟨1, lt2_1⟩ ≠ main_v44_0 := by decide
theorem ne2_1_4 : Pipeline.arrRef spec2 ⟨1, lt2_1⟩ ≠ main_v44_1 := by decide
theorem ne2_1_5 : Pipeline.arrRef spec2 ⟨1, lt2_1⟩ ≠ main_v44_2 := by decide
theorem ne2_2_3 : Pipeline.arrRef spec2 ⟨2, lt2_2⟩ ≠ main_v44_0 := by decide
theorem ne2_2_4 : Pipeline.arrRef spec2 ⟨2, lt2_2⟩ ≠ main_v44_1 := by decide
theorem ne2_2_5 : Pipeline.arrRef spec2 ⟨2, lt2_2⟩ ≠ main_v44_2 := by decide
theorem lt3_0 : 0 < cfg3.W := by decide
theorem lt3_1 : 1 < cfg3.W := by decide
theorem lt3_2 : 2 < cfg3.W := by decide
theorem lt3_3 : 3 < cfg3.W := by decide
theorem lt3_4 : 4 < cfg3.W := by decide
theorem lt3_5 : 5 < cfg3.W := by decide
theorem ne3_0_5 : Pipeline.arrRef spec3 ⟨0, lt3_0⟩ ≠ main_v54 := by decide
theorem ne3_1_5 : Pipeline.arrRef spec3 ⟨1, lt3_1⟩ ≠ main_v54 := by decide
theorem ne3_2_5 : Pipeline.arrRef spec3 ⟨2, lt3_2⟩ ≠ main_v54 := by decide
theorem ne3_3_5 : Pipeline.arrRef spec3 ⟨3, lt3_3⟩ ≠ main_v54 := by decide
theorem ne3_4_5 : Pipeline.arrRef spec3 ⟨4, lt3_4⟩ ≠ main_v54 := by decide
theorem lt4_0 : 0 < cfg4.W := by decide
theorem lt4_1 : 1 < cfg4.W := by decide
theorem lt4_2 : 2 < cfg4.W := by decide
theorem lt4_3 : 3 < cfg4.W := by decide
theorem lt4_4 : 4 < cfg4.W := by decide
theorem lt4_5 : 5 < cfg4.W := by decide
theorem ne4_0_3 : Pipeline.arrRef spec4 ⟨0, lt4_0⟩ ≠ main_v69_0 := by decide
theorem ne4_0_4 : Pipeline.arrRef spec4 ⟨0, lt4_0⟩ ≠ main_v69_1 := by decide
theorem ne4_0_5 : Pipeline.arrRef spec4 ⟨0, lt4_0⟩ ≠ main_v69_2 := by decide
theorem ne4_1_3 : Pipeline.arrRef spec4 ⟨1, lt4_1⟩ ≠ main_v69_0 := by decide
theorem ne4_1_4 : Pipeline.arrRef spec4 ⟨1, lt4_1⟩ ≠ main_v69_1 := by decide
theorem ne4_1_5 : Pipeline.arrRef spec4 ⟨1, lt4_1⟩ ≠ main_v69_2 := by decide
theorem ne4_2_3 : Pipeline.arrRef spec4 ⟨2, lt4_2⟩ ≠ main_v69_0 := by decide
theorem ne4_2_4 : Pipeline.arrRef spec4 ⟨2, lt4_2⟩ ≠ main_v69_1 := by decide
theorem ne4_2_5 : Pipeline.arrRef spec4 ⟨2, lt4_2⟩ ≠ main_v69_2 := by decide
theorem lt5_0 : 0 < cfg5.W := by decide
theorem lt5_1 : 1 < cfg5.W := by decide
theorem lt5_2 : 2 < cfg5.W := by decide
theorem lt5_3 : 3 < cfg5.W := by decide
theorem lt5_4 : 4 < cfg5.W := by decide
theorem lt5_5 : 5 < cfg5.W := by decide
theorem ne5_0_5 : Pipeline.arrRef spec5 ⟨0, lt5_0⟩ ≠ main_v79 := by decide
theorem ne5_1_5 : Pipeline.arrRef spec5 ⟨1, lt5_1⟩ ≠ main_v79 := by decide
theorem ne5_2_5 : Pipeline.arrRef spec5 ⟨2, lt5_2⟩ ≠ main_v79 := by decide
theorem ne5_3_5 : Pipeline.arrRef spec5 ⟨3, lt5_3⟩ ≠ main_v79 := by decide
theorem ne5_4_5 : Pipeline.arrRef spec5 ⟨4, lt5_4⟩ ≠ main_v79 := by decide
theorem lt6_0 : 0 < cfg6.W := by decide
theorem lt6_1 : 1 < cfg6.W := by decide
theorem lt6_2 : 2 < cfg6.W := by decide
theorem lt6_3 : 3 < cfg6.W := by decide
theorem lt6_4 : 4 < cfg6.W := by decide
theorem ne6_0_4 : Pipeline.arrRef spec6 ⟨0, lt6_0⟩ ≠ main_v81 := by decide
theorem ne6_1_4 : Pipeline.arrRef spec6 ⟨1, lt6_1⟩ ≠ main_v81 := by decide
theorem ne6_2_4 : Pipeline.arrRef spec6 ⟨2, lt6_2⟩ ≠ main_v81 := by decide
theorem ne6_3_4 : Pipeline.arrRef spec6 ⟨3, lt6_3⟩ ≠ main_v81 := by decide
theorem lt7_0 : 0 < cfg7.W := by decide
theorem lt7_1 : 1 < cfg7.W := by decide
theorem lt7_2 : 2 < cfg7.W := by decide
theorem lt7_3 : 3 < cfg7.W := by decide
theorem lt7_4 : 4 < cfg7.W := by decide
theorem lt7_5 : 5 < cfg7.W := by decide
theorem ne7_0_3 : Pipeline.arrRef spec7 ⟨0, lt7_0⟩ ≠ main_v101_0 := by decide
theorem ne7_0_4 : Pipeline.arrRef spec7 ⟨0, lt7_0⟩ ≠ main_v101_1 := by decide
theorem ne7_0_5 : Pipeline.arrRef spec7 ⟨0, lt7_0⟩ ≠ main_v101_2 := by decide
theorem ne7_1_3 : Pipeline.arrRef spec7 ⟨1, lt7_1⟩ ≠ main_v101_0 := by decide
theorem ne7_1_4 : Pipeline.arrRef spec7 ⟨1, lt7_1⟩ ≠ main_v101_1 := by decide
theorem ne7_1_5 : Pipeline.arrRef spec7 ⟨1, lt7_1⟩ ≠ main_v101_2 := by decide
theorem ne7_2_3 : Pipeline.arrRef spec7 ⟨2, lt7_2⟩ ≠ main_v101_0 := by decide
theorem ne7_2_4 : Pipeline.arrRef spec7 ⟨2, lt7_2⟩ ≠ main_v101_1 := by decide
theorem ne7_2_5 : Pipeline.arrRef spec7 ⟨2, lt7_2⟩ ≠ main_v101_2 := by decide
theorem lt8_0 : 0 < cfg8.W := by decide
theorem lt8_1 : 1 < cfg8.W := by decide
theorem lt8_2 : 2 < cfg8.W := by decide
theorem lt8_3 : 3 < cfg8.W := by decide
theorem lt8_4 : 4 < cfg8.W := by decide
theorem lt8_5 : 5 < cfg8.W := by decide
theorem ne8_0_5 : Pipeline.arrRef spec8 ⟨0, lt8_0⟩ ≠ main_v111 := by decide
theorem ne8_1_5 : Pipeline.arrRef spec8 ⟨1, lt8_1⟩ ≠ main_v111 := by decide
theorem ne8_2_5 : Pipeline.arrRef spec8 ⟨2, lt8_2⟩ ≠ main_v111 := by decide
theorem ne8_3_5 : Pipeline.arrRef spec8 ⟨3, lt8_3⟩ ≠ main_v111 := by decide
theorem ne8_4_5 : Pipeline.arrRef spec8 ⟨4, lt8_4⟩ ≠ main_v111 := by decide
theorem lt9_0 : 0 < cfg9.W := by decide
theorem lt9_1 : 1 < cfg9.W := by decide
theorem lt9_2 : 2 < cfg9.W := by decide
theorem lt9_3 : 3 < cfg9.W := by decide
theorem lt9_4 : 4 < cfg9.W := by decide
theorem lt9_5 : 5 < cfg9.W := by decide
theorem ne9_0_3 : Pipeline.arrRef spec9 ⟨0, lt9_0⟩ ≠ main_v126_0 := by decide
theorem ne9_0_4 : Pipeline.arrRef spec9 ⟨0, lt9_0⟩ ≠ main_v126_1 := by decide
theorem ne9_0_5 : Pipeline.arrRef spec9 ⟨0, lt9_0⟩ ≠ main_v126_2 := by decide
theorem ne9_1_3 : Pipeline.arrRef spec9 ⟨1, lt9_1⟩ ≠ main_v126_0 := by decide
theorem ne9_1_4 : Pipeline.arrRef spec9 ⟨1, lt9_1⟩ ≠ main_v126_1 := by decide
theorem ne9_1_5 : Pipeline.arrRef spec9 ⟨1, lt9_1⟩ ≠ main_v126_2 := by decide
theorem ne9_2_3 : Pipeline.arrRef spec9 ⟨2, lt9_2⟩ ≠ main_v126_0 := by decide
theorem ne9_2_4 : Pipeline.arrRef spec9 ⟨2, lt9_2⟩ ≠ main_v126_1 := by decide
theorem ne9_2_5 : Pipeline.arrRef spec9 ⟨2, lt9_2⟩ ≠ main_v126_2 := by decide
theorem lt10_0 : 0 < cfg10.W := by decide
theorem lt10_1 : 1 < cfg10.W := by decide
theorem lt10_2 : 2 < cfg10.W := by decide
theorem lt10_3 : 3 < cfg10.W := by decide
theorem lt10_4 : 4 < cfg10.W := by decide
theorem lt10_5 : 5 < cfg10.W := by decide
theorem ne10_0_5 : Pipeline.arrRef spec10 ⟨0, lt10_0⟩ ≠ main_v136 := by decide
theorem ne10_1_5 : Pipeline.arrRef spec10 ⟨1, lt10_1⟩ ≠ main_v136 := by decide
theorem ne10_2_5 : Pipeline.arrRef spec10 ⟨2, lt10_2⟩ ≠ main_v136 := by decide
theorem ne10_3_5 : Pipeline.arrRef spec10 ⟨3, lt10_3⟩ ≠ main_v136 := by decide
theorem ne10_4_5 : Pipeline.arrRef spec10 ⟨4, lt10_4⟩ ≠ main_v136 := by decide
theorem lt11_0 : 0 < cfg11.W := by decide
theorem lt11_1 : 1 < cfg11.W := by decide
theorem lt11_2 : 2 < cfg11.W := by decide
theorem lt11_3 : 3 < cfg11.W := by decide
theorem lt11_4 : 4 < cfg11.W := by decide
theorem lt11_5 : 5 < cfg11.W := by decide
theorem ne11_0_3 : Pipeline.arrRef spec11 ⟨0, lt11_0⟩ ≠ main_v151_0 := by decide
theorem ne11_0_4 : Pipeline.arrRef spec11 ⟨0, lt11_0⟩ ≠ main_v151_1 := by decide
theorem ne11_0_5 : Pipeline.arrRef spec11 ⟨0, lt11_0⟩ ≠ main_v151_2 := by decide
theorem ne11_1_3 : Pipeline.arrRef spec11 ⟨1, lt11_1⟩ ≠ main_v151_0 := by decide
theorem ne11_1_4 : Pipeline.arrRef spec11 ⟨1, lt11_1⟩ ≠ main_v151_1 := by decide
theorem ne11_1_5 : Pipeline.arrRef spec11 ⟨1, lt11_1⟩ ≠ main_v151_2 := by decide
theorem ne11_2_3 : Pipeline.arrRef spec11 ⟨2, lt11_2⟩ ≠ main_v151_0 := by decide
theorem ne11_2_4 : Pipeline.arrRef spec11 ⟨2, lt11_2⟩ ≠ main_v151_1 := by decide
theorem ne11_2_5 : Pipeline.arrRef spec11 ⟨2, lt11_2⟩ ≠ main_v151_2 := by decide
theorem lt12_0 : 0 < cfg12.W := by decide
theorem lt12_1 : 1 < cfg12.W := by decide
theorem lt12_2 : 2 < cfg12.W := by decide
theorem lt12_3 : 3 < cfg12.W := by decide
theorem lt12_4 : 4 < cfg12.W := by decide
theorem lt12_5 : 5 < cfg12.W := by decide
theorem ne12_0_5 : Pipeline.arrRef spec12 ⟨0, lt12_0⟩ ≠ main_v161 := by decide
theorem ne12_1_5 : Pipeline.arrRef spec12 ⟨1, lt12_1⟩ ≠ main_v161 := by decide
theorem ne12_2_5 : Pipeline.arrRef spec12 ⟨2, lt12_2⟩ ≠ main_v161 := by decide
theorem ne12_3_5 : Pipeline.arrRef spec12 ⟨3, lt12_3⟩ ≠ main_v161 := by decide
theorem ne12_4_5 : Pipeline.arrRef spec12 ⟨4, lt12_4⟩ ≠ main_v161 := by decide
theorem lt13_0 : 0 < cfg13.W := by decide
theorem lt13_1 : 1 < cfg13.W := by decide
theorem lt13_2 : 2 < cfg13.W := by decide
theorem lt13_3 : 3 < cfg13.W := by decide
theorem lt13_4 : 4 < cfg13.W := by decide
theorem ne13_0_4 : Pipeline.arrRef spec13 ⟨0, lt13_0⟩ ≠ main_v163 := by decide
theorem ne13_1_4 : Pipeline.arrRef spec13 ⟨1, lt13_1⟩ ≠ main_v163 := by decide
theorem ne13_2_4 : Pipeline.arrRef spec13 ⟨2, lt13_2⟩ ≠ main_v163 := by decide
theorem ne13_3_4 : Pipeline.arrRef spec13 ⟨3, lt13_3⟩ ≠ main_v163 := by decide
theorem lt14_0 : 0 < cfg14.W := by decide
theorem lt14_1 : 1 < cfg14.W := by decide
theorem lt14_2 : 2 < cfg14.W := by decide
theorem lt14_3 : 3 < cfg14.W := by decide
theorem lt14_4 : 4 < cfg14.W := by decide
theorem lt14_5 : 5 < cfg14.W := by decide
theorem lt14_6 : 6 < cfg14.W := by decide
theorem ne14_0_6 : Pipeline.arrRef spec14 ⟨0, lt14_0⟩ ≠ main_v166 := by decide
theorem ne14_1_6 : Pipeline.arrRef spec14 ⟨1, lt14_1⟩ ≠ main_v166 := by decide
theorem ne14_2_6 : Pipeline.arrRef spec14 ⟨2, lt14_2⟩ ≠ main_v166 := by decide
theorem ne14_3_6 : Pipeline.arrRef spec14 ⟨3, lt14_3⟩ ≠ main_v166 := by decide
theorem ne14_4_6 : Pipeline.arrRef spec14 ⟨4, lt14_4⟩ ≠ main_v166 := by decide
theorem ne14_5_6 : Pipeline.arrRef spec14 ⟨5, lt14_5⟩ ≠ main_v166 := by decide

def o0_3 (X : (c : Dev nD) → (b : Ref sig .tc) → Buf (Elt F) ((c : Thread nD τ).loc b)) (c : Dev nD) : Buf (Elt F) ((c : Thread nD τ).loc main_v19_0) := (dat0 X c).arrAt ⟨3, lt0_3⟩ cfg0.N
theorem o0_3_eq (X : (c : Dev nD) → (b : Ref sig .tc) → Buf (Elt F) ((c : Thread nD τ).loc b)) (c : Dev nD) (h : 3 < cfg0.W) : o0_3 X c = (dat0 X c).arrAt ⟨3, h⟩ cfg0.N := rfl
attribute [irreducible] o0_3
def o0_4 (X : (c : Dev nD) → (b : Ref sig .tc) → Buf (Elt F) ((c : Thread nD τ).loc b)) (c : Dev nD) : Buf (Elt F) ((c : Thread nD τ).loc main_v19_1) := (dat0 X c).arrAt ⟨4, lt0_4⟩ cfg0.N
theorem o0_4_eq (X : (c : Dev nD) → (b : Ref sig .tc) → Buf (Elt F) ((c : Thread nD τ).loc b)) (c : Dev nD) (h : 4 < cfg0.W) : o0_4 X c = (dat0 X c).arrAt ⟨4, h⟩ cfg0.N := rfl
attribute [irreducible] o0_4
def o0_5 (X : (c : Dev nD) → (b : Ref sig .tc) → Buf (Elt F) ((c : Thread nD τ).loc b)) (c : Dev nD) : Buf (Elt F) ((c : Thread nD τ).loc main_v19_2) := (dat0 X c).arrAt ⟨5, lt0_5⟩ cfg0.N
theorem o0_5_eq (X : (c : Dev nD) → (b : Ref sig .tc) → Buf (Elt F) ((c : Thread nD τ).loc b)) (c : Dev nD) (h : 5 < cfg0.W) : o0_5 X c = (dat0 X c).arrAt ⟨5, h⟩ cfg0.N := rfl
attribute [irreducible] o0_5
def o1_5 (X : (c : Dev nD) → (b : Ref sig .tc) → Buf (Elt F) ((c : Thread nD τ).loc b)) (c : Dev nD) : Buf (Elt F) ((c : Thread nD τ).loc main_v29) := (dat1 X c).arrAt ⟨5, lt1_5⟩ cfg1.N
theorem o1_5_eq (X : (c : Dev nD) → (b : Ref sig .tc) → Buf (Elt F) ((c : Thread nD τ).loc b)) (c : Dev nD) (h : 5 < cfg1.W) : o1_5 X c = (dat1 X c).arrAt ⟨5, h⟩ cfg1.N := rfl
attribute [irreducible] o1_5
def o2_3 (X : (c : Dev nD) → (b : Ref sig .tc) → Buf (Elt F) ((c : Thread nD τ).loc b)) (c : Dev nD) : Buf (Elt F) ((c : Thread nD τ).loc main_v44_0) := (dat2 X c).arrAt ⟨3, lt2_3⟩ cfg2.N
theorem o2_3_eq (X : (c : Dev nD) → (b : Ref sig .tc) → Buf (Elt F) ((c : Thread nD τ).loc b)) (c : Dev nD) (h : 3 < cfg2.W) : o2_3 X c = (dat2 X c).arrAt ⟨3, h⟩ cfg2.N := rfl
attribute [irreducible] o2_3
def o2_4 (X : (c : Dev nD) → (b : Ref sig .tc) → Buf (Elt F) ((c : Thread nD τ).loc b)) (c : Dev nD) : Buf (Elt F) ((c : Thread nD τ).loc main_v44_1) := (dat2 X c).arrAt ⟨4, lt2_4⟩ cfg2.N
theorem o2_4_eq (X : (c : Dev nD) → (b : Ref sig .tc) → Buf (Elt F) ((c : Thread nD τ).loc b)) (c : Dev nD) (h : 4 < cfg2.W) : o2_4 X c = (dat2 X c).arrAt ⟨4, h⟩ cfg2.N := rfl
attribute [irreducible] o2_4
def o2_5 (X : (c : Dev nD) → (b : Ref sig .tc) → Buf (Elt F) ((c : Thread nD τ).loc b)) (c : Dev nD) : Buf (Elt F) ((c : Thread nD τ).loc main_v44_2) := (dat2 X c).arrAt ⟨5, lt2_5⟩ cfg2.N
theorem o2_5_eq (X : (c : Dev nD) → (b : Ref sig .tc) → Buf (Elt F) ((c : Thread nD τ).loc b)) (c : Dev nD) (h : 5 < cfg2.W) : o2_5 X c = (dat2 X c).arrAt ⟨5, h⟩ cfg2.N := rfl
attribute [irreducible] o2_5
def o3_5 (X : (c : Dev nD) → (b : Ref sig .tc) → Buf (Elt F) ((c : Thread nD τ).loc b)) (c : Dev nD) : Buf (Elt F) ((c : Thread nD τ).loc main_v54) := (dat3 X c).arrAt ⟨5, lt3_5⟩ cfg3.N
theorem o3_5_eq (X : (c : Dev nD) → (b : Ref sig .tc) → Buf (Elt F) ((c : Thread nD τ).loc b)) (c : Dev nD) (h : 5 < cfg3.W) : o3_5 X c = (dat3 X c).arrAt ⟨5, h⟩ cfg3.N := rfl
attribute [irreducible] o3_5
def o4_3 (X : (c : Dev nD) → (b : Ref sig .tc) → Buf (Elt F) ((c : Thread nD τ).loc b)) (c : Dev nD) : Buf (Elt F) ((c : Thread nD τ).loc main_v69_0) := (dat4 X c).arrAt ⟨3, lt4_3⟩ cfg4.N
theorem o4_3_eq (X : (c : Dev nD) → (b : Ref sig .tc) → Buf (Elt F) ((c : Thread nD τ).loc b)) (c : Dev nD) (h : 3 < cfg4.W) : o4_3 X c = (dat4 X c).arrAt ⟨3, h⟩ cfg4.N := rfl
attribute [irreducible] o4_3
def o4_4 (X : (c : Dev nD) → (b : Ref sig .tc) → Buf (Elt F) ((c : Thread nD τ).loc b)) (c : Dev nD) : Buf (Elt F) ((c : Thread nD τ).loc main_v69_1) := (dat4 X c).arrAt ⟨4, lt4_4⟩ cfg4.N
theorem o4_4_eq (X : (c : Dev nD) → (b : Ref sig .tc) → Buf (Elt F) ((c : Thread nD τ).loc b)) (c : Dev nD) (h : 4 < cfg4.W) : o4_4 X c = (dat4 X c).arrAt ⟨4, h⟩ cfg4.N := rfl
attribute [irreducible] o4_4
def o4_5 (X : (c : Dev nD) → (b : Ref sig .tc) → Buf (Elt F) ((c : Thread nD τ).loc b)) (c : Dev nD) : Buf (Elt F) ((c : Thread nD τ).loc main_v69_2) := (dat4 X c).arrAt ⟨5, lt4_5⟩ cfg4.N
theorem o4_5_eq (X : (c : Dev nD) → (b : Ref sig .tc) → Buf (Elt F) ((c : Thread nD τ).loc b)) (c : Dev nD) (h : 5 < cfg4.W) : o4_5 X c = (dat4 X c).arrAt ⟨5, h⟩ cfg4.N := rfl
attribute [irreducible] o4_5
def o5_5 (X : (c : Dev nD) → (b : Ref sig .tc) → Buf (Elt F) ((c : Thread nD τ).loc b)) (c : Dev nD) : Buf (Elt F) ((c : Thread nD τ).loc main_v79) := (dat5 X c).arrAt ⟨5, lt5_5⟩ cfg5.N
theorem o5_5_eq (X : (c : Dev nD) → (b : Ref sig .tc) → Buf (Elt F) ((c : Thread nD τ).loc b)) (c : Dev nD) (h : 5 < cfg5.W) : o5_5 X c = (dat5 X c).arrAt ⟨5, h⟩ cfg5.N := rfl
attribute [irreducible] o5_5
def o6_4 (X : (c : Dev nD) → (b : Ref sig .tc) → Buf (Elt F) ((c : Thread nD τ).loc b)) (c : Dev nD) : Buf (Elt F) ((c : Thread nD τ).loc main_v81) := (dat6 X c).arrAt ⟨4, lt6_4⟩ cfg6.N
theorem o6_4_eq (X : (c : Dev nD) → (b : Ref sig .tc) → Buf (Elt F) ((c : Thread nD τ).loc b)) (c : Dev nD) (h : 4 < cfg6.W) : o6_4 X c = (dat6 X c).arrAt ⟨4, h⟩ cfg6.N := rfl
attribute [irreducible] o6_4
def o7_3 (X : (c : Dev nD) → (b : Ref sig .tc) → Buf (Elt F) ((c : Thread nD τ).loc b)) (c : Dev nD) : Buf (Elt F) ((c : Thread nD τ).loc main_v101_0) := (dat7 X c).arrAt ⟨3, lt7_3⟩ cfg7.N
theorem o7_3_eq (X : (c : Dev nD) → (b : Ref sig .tc) → Buf (Elt F) ((c : Thread nD τ).loc b)) (c : Dev nD) (h : 3 < cfg7.W) : o7_3 X c = (dat7 X c).arrAt ⟨3, h⟩ cfg7.N := rfl
attribute [irreducible] o7_3
def o7_4 (X : (c : Dev nD) → (b : Ref sig .tc) → Buf (Elt F) ((c : Thread nD τ).loc b)) (c : Dev nD) : Buf (Elt F) ((c : Thread nD τ).loc main_v101_1) := (dat7 X c).arrAt ⟨4, lt7_4⟩ cfg7.N
theorem o7_4_eq (X : (c : Dev nD) → (b : Ref sig .tc) → Buf (Elt F) ((c : Thread nD τ).loc b)) (c : Dev nD) (h : 4 < cfg7.W) : o7_4 X c = (dat7 X c).arrAt ⟨4, h⟩ cfg7.N := rfl
attribute [irreducible] o7_4
def o7_5 (X : (c : Dev nD) → (b : Ref sig .tc) → Buf (Elt F) ((c : Thread nD τ).loc b)) (c : Dev nD) : Buf (Elt F) ((c : Thread nD τ).loc main_v101_2) := (dat7 X c).arrAt ⟨5, lt7_5⟩ cfg7.N
theorem o7_5_eq (X : (c : Dev nD) → (b : Ref sig .tc) → Buf (Elt F) ((c : Thread nD τ).loc b)) (c : Dev nD) (h : 5 < cfg7.W) : o7_5 X c = (dat7 X c).arrAt ⟨5, h⟩ cfg7.N := rfl
attribute [irreducible] o7_5
def o8_5 (X : (c : Dev nD) → (b : Ref sig .tc) → Buf (Elt F) ((c : Thread nD τ).loc b)) (c : Dev nD) : Buf (Elt F) ((c : Thread nD τ).loc main_v111) := (dat8 X c).arrAt ⟨5, lt8_5⟩ cfg8.N
theorem o8_5_eq (X : (c : Dev nD) → (b : Ref sig .tc) → Buf (Elt F) ((c : Thread nD τ).loc b)) (c : Dev nD) (h : 5 < cfg8.W) : o8_5 X c = (dat8 X c).arrAt ⟨5, h⟩ cfg8.N := rfl
attribute [irreducible] o8_5
def o9_3 (X : (c : Dev nD) → (b : Ref sig .tc) → Buf (Elt F) ((c : Thread nD τ).loc b)) (c : Dev nD) : Buf (Elt F) ((c : Thread nD τ).loc main_v126_0) := (dat9 X c).arrAt ⟨3, lt9_3⟩ cfg9.N
theorem o9_3_eq (X : (c : Dev nD) → (b : Ref sig .tc) → Buf (Elt F) ((c : Thread nD τ).loc b)) (c : Dev nD) (h : 3 < cfg9.W) : o9_3 X c = (dat9 X c).arrAt ⟨3, h⟩ cfg9.N := rfl
attribute [irreducible] o9_3
def o9_4 (X : (c : Dev nD) → (b : Ref sig .tc) → Buf (Elt F) ((c : Thread nD τ).loc b)) (c : Dev nD) : Buf (Elt F) ((c : Thread nD τ).loc main_v126_1) := (dat9 X c).arrAt ⟨4, lt9_4⟩ cfg9.N
theorem o9_4_eq (X : (c : Dev nD) → (b : Ref sig .tc) → Buf (Elt F) ((c : Thread nD τ).loc b)) (c : Dev nD) (h : 4 < cfg9.W) : o9_4 X c = (dat9 X c).arrAt ⟨4, h⟩ cfg9.N := rfl
attribute [irreducible] o9_4
def o9_5 (X : (c : Dev nD) → (b : Ref sig .tc) → Buf (Elt F) ((c : Thread nD τ).loc b)) (c : Dev nD) : Buf (Elt F) ((c : Thread nD τ).loc main_v126_2) := (dat9 X c).arrAt ⟨5, lt9_5⟩ cfg9.N
theorem o9_5_eq (X : (c : Dev nD) → (b : Ref sig .tc) → Buf (Elt F) ((c : Thread nD τ).loc b)) (c : Dev nD) (h : 5 < cfg9.W) : o9_5 X c = (dat9 X c).arrAt ⟨5, h⟩ cfg9.N := rfl
attribute [irreducible] o9_5
def o10_5 (X : (c : Dev nD) → (b : Ref sig .tc) → Buf (Elt F) ((c : Thread nD τ).loc b)) (c : Dev nD) : Buf (Elt F) ((c : Thread nD τ).loc main_v136) := (dat10 X c).arrAt ⟨5, lt10_5⟩ cfg10.N
theorem o10_5_eq (X : (c : Dev nD) → (b : Ref sig .tc) → Buf (Elt F) ((c : Thread nD τ).loc b)) (c : Dev nD) (h : 5 < cfg10.W) : o10_5 X c = (dat10 X c).arrAt ⟨5, h⟩ cfg10.N := rfl
attribute [irreducible] o10_5
def o11_3 (X : (c : Dev nD) → (b : Ref sig .tc) → Buf (Elt F) ((c : Thread nD τ).loc b)) (c : Dev nD) : Buf (Elt F) ((c : Thread nD τ).loc main_v151_0) := (dat11 X c).arrAt ⟨3, lt11_3⟩ cfg11.N
theorem o11_3_eq (X : (c : Dev nD) → (b : Ref sig .tc) → Buf (Elt F) ((c : Thread nD τ).loc b)) (c : Dev nD) (h : 3 < cfg11.W) : o11_3 X c = (dat11 X c).arrAt ⟨3, h⟩ cfg11.N := rfl
attribute [irreducible] o11_3
def o11_4 (X : (c : Dev nD) → (b : Ref sig .tc) → Buf (Elt F) ((c : Thread nD τ).loc b)) (c : Dev nD) : Buf (Elt F) ((c : Thread nD τ).loc main_v151_1) := (dat11 X c).arrAt ⟨4, lt11_4⟩ cfg11.N
theorem o11_4_eq (X : (c : Dev nD) → (b : Ref sig .tc) → Buf (Elt F) ((c : Thread nD τ).loc b)) (c : Dev nD) (h : 4 < cfg11.W) : o11_4 X c = (dat11 X c).arrAt ⟨4, h⟩ cfg11.N := rfl
attribute [irreducible] o11_4
def o11_5 (X : (c : Dev nD) → (b : Ref sig .tc) → Buf (Elt F) ((c : Thread nD τ).loc b)) (c : Dev nD) : Buf (Elt F) ((c : Thread nD τ).loc main_v151_2) := (dat11 X c).arrAt ⟨5, lt11_5⟩ cfg11.N
theorem o11_5_eq (X : (c : Dev nD) → (b : Ref sig .tc) → Buf (Elt F) ((c : Thread nD τ).loc b)) (c : Dev nD) (h : 5 < cfg11.W) : o11_5 X c = (dat11 X c).arrAt ⟨5, h⟩ cfg11.N := rfl
attribute [irreducible] o11_5
def o12_5 (X : (c : Dev nD) → (b : Ref sig .tc) → Buf (Elt F) ((c : Thread nD τ).loc b)) (c : Dev nD) : Buf (Elt F) ((c : Thread nD τ).loc main_v161) := (dat12 X c).arrAt ⟨5, lt12_5⟩ cfg12.N
theorem o12_5_eq (X : (c : Dev nD) → (b : Ref sig .tc) → Buf (Elt F) ((c : Thread nD τ).loc b)) (c : Dev nD) (h : 5 < cfg12.W) : o12_5 X c = (dat12 X c).arrAt ⟨5, h⟩ cfg12.N := rfl
attribute [irreducible] o12_5
def o13_4 (X : (c : Dev nD) → (b : Ref sig .tc) → Buf (Elt F) ((c : Thread nD τ).loc b)) (c : Dev nD) : Buf (Elt F) ((c : Thread nD τ).loc main_v163) := (dat13 X c).arrAt ⟨4, lt13_4⟩ cfg13.N
theorem o13_4_eq (X : (c : Dev nD) → (b : Ref sig .tc) → Buf (Elt F) ((c : Thread nD τ).loc b)) (c : Dev nD) (h : 4 < cfg13.W) : o13_4 X c = (dat13 X c).arrAt ⟨4, h⟩ cfg13.N := rfl
attribute [irreducible] o13_4
def o14_6 (X : (c : Dev nD) → (b : Ref sig .tc) → Buf (Elt F) ((c : Thread nD τ).loc b)) (c : Dev nD) : Buf (Elt F) ((c : Thread nD τ).loc main_v166) := (dat14 X c).arrAt ⟨6, lt14_6⟩ cfg14.N
theorem o14_6_eq (X : (c : Dev nD) → (b : Ref sig .tc) → Buf (Elt F) ((c : Thread nD τ).loc b)) (c : Dev nD) (h : 6 < cfg14.W) : o14_6 X c = (dat14 X c).arrAt ⟨6, h⟩ cfg14.N := rfl
attribute [irreducible] o14_6

variable (m : (ℓ : Loc nD τ sig) → Buf (Elt F) ℓ)

/-- Core `c`'s unscoped buffers at launch. -/
abbrev W0 (c : Dev nD) : Valuation τ sig (Elt F) := Gen.V0 m c
/-- The same read at the TensorCore's references. -/
def R0 : (c : Dev nD) → (b : Ref sig .tc) → Buf (Elt F) ((c : Thread nD τ).loc b) := fun c b => W0 m c b
theorem R0_apply (c : Dev nD) (b : Ref sig .tc) : R0 m c b = W0 m c b := rfl
theorem R0_eq (c : Dev nD) : R0 m c = fun (b : Ref sig .tc) => W0 m c b := rfl
/-- After the host stretch `hostOps0`: region 0's entry contents. -/
def W1 (c : Dev nD) : Valuation τ sig (Elt F) := StableHlo.after hostOps0 (W0 m c)
theorem W1_def (c : Dev nD) : W1 m c = StableHlo.after hostOps0 (W0 m c) := rfl
/-- The same read at the TensorCore's references (what region 0's proof data take). -/
def R1 : (c : Dev nD) → (b : Ref sig .tc) → Buf (Elt F) ((c : Thread nD τ).loc b) := fun c b => W1 m c b
theorem R1_apply (c : Dev nD) (b : Ref sig .tc) : R1 m c b = W1 m c b := rfl
theorem R1_eq (c : Dev nD) : R1 m c = fun (b : Ref sig .tc) => W1 m c b := rfl
/-- At region 0's exit: each output window's array at what the pipeline leaves in it, every other buffer as entered. -/
def W2 (c : Dev nD) : Valuation τ sig (Elt F) :=
  Function.update (Function.update (Function.update (W1 m c) main_v19_0 (o0_3 (R1 m) c)) main_v19_1 (o0_4 (R1 m) c)) main_v19_2 (o0_5 (R1 m) c)
/-- The same read at the TensorCore's references (region 0's exit contents). -/
def R2 : (c : Dev nD) → (b : Ref sig .tc) → Buf (Elt F) ((c : Thread nD τ).loc b) := fun c b => W2 m c b
theorem R2_apply (c : Dev nD) (b : Ref sig .tc) : R2 m c b = W2 m c b := rfl
theorem R2_eq (c : Dev nD) : R2 m c = fun (b : Ref sig .tc) => W2 m c b := rfl
/-- After the host stretch `hostOps1`: region 1's entry contents. -/
def W3 (c : Dev nD) : Valuation τ sig (Elt F) := StableHlo.after hostOps1 (W2 m c)
theorem W3_def (c : Dev nD) : W3 m c = StableHlo.after hostOps1 (W2 m c) := rfl
/-- The same read at the TensorCore's references (what region 1's proof data take). -/
def R3 : (c : Dev nD) → (b : Ref sig .tc) → Buf (Elt F) ((c : Thread nD τ).loc b) := fun c b => W3 m c b
theorem R3_apply (c : Dev nD) (b : Ref sig .tc) : R3 m c b = W3 m c b := rfl
theorem R3_eq (c : Dev nD) : R3 m c = fun (b : Ref sig .tc) => W3 m c b := rfl
/-- At region 1's exit: each output window's array at what the pipeline leaves in it, every other buffer as entered. -/
def W4 (c : Dev nD) : Valuation τ sig (Elt F) :=
  Function.update (W3 m c) main_v29 (o1_5 (R3 m) c)
/-- The same read at the TensorCore's references (region 1's exit contents). -/
def R4 : (c : Dev nD) → (b : Ref sig .tc) → Buf (Elt F) ((c : Thread nD τ).loc b) := fun c b => W4 m c b
theorem R4_apply (c : Dev nD) (b : Ref sig .tc) : R4 m c b = W4 m c b := rfl
theorem R4_eq (c : Dev nD) : R4 m c = fun (b : Ref sig .tc) => W4 m c b := rfl
/-- After the host stretch `hostOps2`: region 2's entry contents. -/
def W5 (c : Dev nD) : Valuation τ sig (Elt F) := StableHlo.after hostOps2 (W4 m c)
theorem W5_def (c : Dev nD) : W5 m c = StableHlo.after hostOps2 (W4 m c) := rfl
/-- The same read at the TensorCore's references (what region 2's proof data take). -/
def R5 : (c : Dev nD) → (b : Ref sig .tc) → Buf (Elt F) ((c : Thread nD τ).loc b) := fun c b => W5 m c b
theorem R5_apply (c : Dev nD) (b : Ref sig .tc) : R5 m c b = W5 m c b := rfl
theorem R5_eq (c : Dev nD) : R5 m c = fun (b : Ref sig .tc) => W5 m c b := rfl
/-- At region 2's exit: each output window's array at what the pipeline leaves in it, every other buffer as entered. -/
def W6 (c : Dev nD) : Valuation τ sig (Elt F) :=
  Function.update (Function.update (Function.update (W5 m c) main_v44_0 (o2_3 (R5 m) c)) main_v44_1 (o2_4 (R5 m) c)) main_v44_2 (o2_5 (R5 m) c)
/-- The same read at the TensorCore's references (region 2's exit contents). -/
def R6 : (c : Dev nD) → (b : Ref sig .tc) → Buf (Elt F) ((c : Thread nD τ).loc b) := fun c b => W6 m c b
theorem R6_apply (c : Dev nD) (b : Ref sig .tc) : R6 m c b = W6 m c b := rfl
theorem R6_eq (c : Dev nD) : R6 m c = fun (b : Ref sig .tc) => W6 m c b := rfl
/-- After the host stretch `hostOps3`: region 3's entry contents. -/
def W7 (c : Dev nD) : Valuation τ sig (Elt F) := StableHlo.after hostOps3 (W6 m c)
theorem W7_def (c : Dev nD) : W7 m c = StableHlo.after hostOps3 (W6 m c) := rfl
/-- The same read at the TensorCore's references (what region 3's proof data take). -/
def R7 : (c : Dev nD) → (b : Ref sig .tc) → Buf (Elt F) ((c : Thread nD τ).loc b) := fun c b => W7 m c b
theorem R7_apply (c : Dev nD) (b : Ref sig .tc) : R7 m c b = W7 m c b := rfl
theorem R7_eq (c : Dev nD) : R7 m c = fun (b : Ref sig .tc) => W7 m c b := rfl
/-- At region 3's exit: each output window's array at what the pipeline leaves in it, every other buffer as entered. -/
def W8 (c : Dev nD) : Valuation τ sig (Elt F) :=
  Function.update (W7 m c) main_v54 (o3_5 (R7 m) c)
/-- The same read at the TensorCore's references (region 3's exit contents). -/
def R8 : (c : Dev nD) → (b : Ref sig .tc) → Buf (Elt F) ((c : Thread nD τ).loc b) := fun c b => W8 m c b
theorem R8_apply (c : Dev nD) (b : Ref sig .tc) : R8 m c b = W8 m c b := rfl
theorem R8_eq (c : Dev nD) : R8 m c = fun (b : Ref sig .tc) => W8 m c b := rfl
/-- After the host stretch `hostOps4`: region 4's entry contents. -/
def W9 (c : Dev nD) : Valuation τ sig (Elt F) := StableHlo.after hostOps4 (W8 m c)
theorem W9_def (c : Dev nD) : W9 m c = StableHlo.after hostOps4 (W8 m c) := rfl
/-- The same read at the TensorCore's references (what region 4's proof data take). -/
def R9 : (c : Dev nD) → (b : Ref sig .tc) → Buf (Elt F) ((c : Thread nD τ).loc b) := fun c b => W9 m c b
theorem R9_apply (c : Dev nD) (b : Ref sig .tc) : R9 m c b = W9 m c b := rfl
theorem R9_eq (c : Dev nD) : R9 m c = fun (b : Ref sig .tc) => W9 m c b := rfl
/-- At region 4's exit: each output window's array at what the pipeline leaves in it, every other buffer as entered. -/
def W10 (c : Dev nD) : Valuation τ sig (Elt F) :=
  Function.update (Function.update (Function.update (W9 m c) main_v69_0 (o4_3 (R9 m) c)) main_v69_1 (o4_4 (R9 m) c)) main_v69_2 (o4_5 (R9 m) c)
/-- The same read at the TensorCore's references (region 4's exit contents). -/
def R10 : (c : Dev nD) → (b : Ref sig .tc) → Buf (Elt F) ((c : Thread nD τ).loc b) := fun c b => W10 m c b
theorem R10_apply (c : Dev nD) (b : Ref sig .tc) : R10 m c b = W10 m c b := rfl
theorem R10_eq (c : Dev nD) : R10 m c = fun (b : Ref sig .tc) => W10 m c b := rfl
/-- After the host stretch `hostOps5`: region 5's entry contents. -/
def W11 (c : Dev nD) : Valuation τ sig (Elt F) := StableHlo.after hostOps5 (W10 m c)
theorem W11_def (c : Dev nD) : W11 m c = StableHlo.after hostOps5 (W10 m c) := rfl
/-- The same read at the TensorCore's references (what region 5's proof data take). -/
def R11 : (c : Dev nD) → (b : Ref sig .tc) → Buf (Elt F) ((c : Thread nD τ).loc b) := fun c b => W11 m c b
theorem R11_apply (c : Dev nD) (b : Ref sig .tc) : R11 m c b = W11 m c b := rfl
theorem R11_eq (c : Dev nD) : R11 m c = fun (b : Ref sig .tc) => W11 m c b := rfl
/-- At region 5's exit: each output window's array at what the pipeline leaves in it, every other buffer as entered. -/
def W12 (c : Dev nD) : Valuation τ sig (Elt F) :=
  Function.update (W11 m c) main_v79 (o5_5 (R11 m) c)
/-- The same read at the TensorCore's references (region 5's exit contents). -/
def R12 : (c : Dev nD) → (b : Ref sig .tc) → Buf (Elt F) ((c : Thread nD τ).loc b) := fun c b => W12 m c b
theorem R12_apply (c : Dev nD) (b : Ref sig .tc) : R12 m c b = W12 m c b := rfl
theorem R12_eq (c : Dev nD) : R12 m c = fun (b : Ref sig .tc) => W12 m c b := rfl
/-- After the host stretch `hostOps6`: region 6's entry contents. -/
def W13 (c : Dev nD) : Valuation τ sig (Elt F) := StableHlo.after hostOps6 (W12 m c)
theorem W13_def (c : Dev nD) : W13 m c = StableHlo.after hostOps6 (W12 m c) := rfl
/-- The same read at the TensorCore's references (what region 6's proof data take). -/
def R13 : (c : Dev nD) → (b : Ref sig .tc) → Buf (Elt F) ((c : Thread nD τ).loc b) := fun c b => W13 m c b
theorem R13_apply (c : Dev nD) (b : Ref sig .tc) : R13 m c b = W13 m c b := rfl
theorem R13_eq (c : Dev nD) : R13 m c = fun (b : Ref sig .tc) => W13 m c b := rfl
/-- At region 6's exit: each output window's array at what the pipeline leaves in it, every other buffer as entered. -/
def W14 (c : Dev nD) : Valuation τ sig (Elt F) :=
  Function.update (W13 m c) main_v81 (o6_4 (R13 m) c)
/-- The same read at the TensorCore's references (region 6's exit contents). -/
def R14 : (c : Dev nD) → (b : Ref sig .tc) → Buf (Elt F) ((c : Thread nD τ).loc b) := fun c b => W14 m c b
theorem R14_apply (c : Dev nD) (b : Ref sig .tc) : R14 m c b = W14 m c b := rfl
theorem R14_eq (c : Dev nD) : R14 m c = fun (b : Ref sig .tc) => W14 m c b := rfl
/-- After the host stretch `hostOps7`: region 7's entry contents. -/
def W15 (c : Dev nD) : Valuation τ sig (Elt F) := StableHlo.after hostOps7 (W14 m c)
theorem W15_def (c : Dev nD) : W15 m c = StableHlo.after hostOps7 (W14 m c) := rfl
/-- The same read at the TensorCore's references (what region 7's proof data take). -/
def R15 : (c : Dev nD) → (b : Ref sig .tc) → Buf (Elt F) ((c : Thread nD τ).loc b) := fun c b => W15 m c b
theorem R15_apply (c : Dev nD) (b : Ref sig .tc) : R15 m c b = W15 m c b := rfl
theorem R15_eq (c : Dev nD) : R15 m c = fun (b : Ref sig .tc) => W15 m c b := rfl
/-- At region 7's exit: each output window's array at what the pipeline leaves in it, every other buffer as entered. -/
def W16 (c : Dev nD) : Valuation τ sig (Elt F) :=
  Function.update (Function.update (Function.update (W15 m c) main_v101_0 (o7_3 (R15 m) c)) main_v101_1 (o7_4 (R15 m) c)) main_v101_2 (o7_5 (R15 m) c)
/-- The same read at the TensorCore's references (region 7's exit contents). -/
def R16 : (c : Dev nD) → (b : Ref sig .tc) → Buf (Elt F) ((c : Thread nD τ).loc b) := fun c b => W16 m c b
theorem R16_apply (c : Dev nD) (b : Ref sig .tc) : R16 m c b = W16 m c b := rfl
theorem R16_eq (c : Dev nD) : R16 m c = fun (b : Ref sig .tc) => W16 m c b := rfl
/-- After the host stretch `hostOps8`: region 8's entry contents. -/
def W17 (c : Dev nD) : Valuation τ sig (Elt F) := StableHlo.after hostOps8 (W16 m c)
theorem W17_def (c : Dev nD) : W17 m c = StableHlo.after hostOps8 (W16 m c) := rfl
/-- The same read at the TensorCore's references (what region 8's proof data take). -/
def R17 : (c : Dev nD) → (b : Ref sig .tc) → Buf (Elt F) ((c : Thread nD τ).loc b) := fun c b => W17 m c b
theorem R17_apply (c : Dev nD) (b : Ref sig .tc) : R17 m c b = W17 m c b := rfl
theorem R17_eq (c : Dev nD) : R17 m c = fun (b : Ref sig .tc) => W17 m c b := rfl
/-- At region 8's exit: each output window's array at what the pipeline leaves in it, every other buffer as entered. -/
def W18 (c : Dev nD) : Valuation τ sig (Elt F) :=
  Function.update (W17 m c) main_v111 (o8_5 (R17 m) c)
/-- The same read at the TensorCore's references (region 8's exit contents). -/
def R18 : (c : Dev nD) → (b : Ref sig .tc) → Buf (Elt F) ((c : Thread nD τ).loc b) := fun c b => W18 m c b
theorem R18_apply (c : Dev nD) (b : Ref sig .tc) : R18 m c b = W18 m c b := rfl
theorem R18_eq (c : Dev nD) : R18 m c = fun (b : Ref sig .tc) => W18 m c b := rfl
/-- After the host stretch `hostOps9`: region 9's entry contents. -/
def W19 (c : Dev nD) : Valuation τ sig (Elt F) := StableHlo.after hostOps9 (W18 m c)
theorem W19_def (c : Dev nD) : W19 m c = StableHlo.after hostOps9 (W18 m c) := rfl
/-- The same read at the TensorCore's references (what region 9's proof data take). -/
def R19 : (c : Dev nD) → (b : Ref sig .tc) → Buf (Elt F) ((c : Thread nD τ).loc b) := fun c b => W19 m c b
theorem R19_apply (c : Dev nD) (b : Ref sig .tc) : R19 m c b = W19 m c b := rfl
theorem R19_eq (c : Dev nD) : R19 m c = fun (b : Ref sig .tc) => W19 m c b := rfl
/-- At region 9's exit: each output window's array at what the pipeline leaves in it, every other buffer as entered. -/
def W20 (c : Dev nD) : Valuation τ sig (Elt F) :=
  Function.update (Function.update (Function.update (W19 m c) main_v126_0 (o9_3 (R19 m) c)) main_v126_1 (o9_4 (R19 m) c)) main_v126_2 (o9_5 (R19 m) c)
/-- The same read at the TensorCore's references (region 9's exit contents). -/
def R20 : (c : Dev nD) → (b : Ref sig .tc) → Buf (Elt F) ((c : Thread nD τ).loc b) := fun c b => W20 m c b
theorem R20_apply (c : Dev nD) (b : Ref sig .tc) : R20 m c b = W20 m c b := rfl
theorem R20_eq (c : Dev nD) : R20 m c = fun (b : Ref sig .tc) => W20 m c b := rfl
/-- After the host stretch `hostOps10`: region 10's entry contents. -/
def W21 (c : Dev nD) : Valuation τ sig (Elt F) := StableHlo.after hostOps10 (W20 m c)
theorem W21_def (c : Dev nD) : W21 m c = StableHlo.after hostOps10 (W20 m c) := rfl
/-- The same read at the TensorCore's references (what region 10's proof data take). -/
def R21 : (c : Dev nD) → (b : Ref sig .tc) → Buf (Elt F) ((c : Thread nD τ).loc b) := fun c b => W21 m c b
theorem R21_apply (c : Dev nD) (b : Ref sig .tc) : R21 m c b = W21 m c b := rfl
theorem R21_eq (c : Dev nD) : R21 m c = fun (b : Ref sig .tc) => W21 m c b := rfl
/-- At region 10's exit: each output window's array at what the pipeline leaves in it, every other buffer as entered. -/
def W22 (c : Dev nD) : Valuation τ sig (Elt F) :=
  Function.update (W21 m c) main_v136 (o10_5 (R21 m) c)
/-- The same read at the TensorCore's references (region 10's exit contents). -/
def R22 : (c : Dev nD) → (b : Ref sig .tc) → Buf (Elt F) ((c : Thread nD τ).loc b) := fun c b => W22 m c b
theorem R22_apply (c : Dev nD) (b : Ref sig .tc) : R22 m c b = W22 m c b := rfl
theorem R22_eq (c : Dev nD) : R22 m c = fun (b : Ref sig .tc) => W22 m c b := rfl
/-- After the host stretch `hostOps11`: region 11's entry contents. -/
def W23 (c : Dev nD) : Valuation τ sig (Elt F) := StableHlo.after hostOps11 (W22 m c)
theorem W23_def (c : Dev nD) : W23 m c = StableHlo.after hostOps11 (W22 m c) := rfl
/-- The same read at the TensorCore's references (what region 11's proof data take). -/
def R23 : (c : Dev nD) → (b : Ref sig .tc) → Buf (Elt F) ((c : Thread nD τ).loc b) := fun c b => W23 m c b
theorem R23_apply (c : Dev nD) (b : Ref sig .tc) : R23 m c b = W23 m c b := rfl
theorem R23_eq (c : Dev nD) : R23 m c = fun (b : Ref sig .tc) => W23 m c b := rfl
/-- At region 11's exit: each output window's array at what the pipeline leaves in it, every other buffer as entered. -/
def W24 (c : Dev nD) : Valuation τ sig (Elt F) :=
  Function.update (Function.update (Function.update (W23 m c) main_v151_0 (o11_3 (R23 m) c)) main_v151_1 (o11_4 (R23 m) c)) main_v151_2 (o11_5 (R23 m) c)
/-- The same read at the TensorCore's references (region 11's exit contents). -/
def R24 : (c : Dev nD) → (b : Ref sig .tc) → Buf (Elt F) ((c : Thread nD τ).loc b) := fun c b => W24 m c b
theorem R24_apply (c : Dev nD) (b : Ref sig .tc) : R24 m c b = W24 m c b := rfl
theorem R24_eq (c : Dev nD) : R24 m c = fun (b : Ref sig .tc) => W24 m c b := rfl
/-- After the host stretch `hostOps12`: region 12's entry contents. -/
def W25 (c : Dev nD) : Valuation τ sig (Elt F) := StableHlo.after hostOps12 (W24 m c)
theorem W25_def (c : Dev nD) : W25 m c = StableHlo.after hostOps12 (W24 m c) := rfl
/-- The same read at the TensorCore's references (what region 12's proof data take). -/
def R25 : (c : Dev nD) → (b : Ref sig .tc) → Buf (Elt F) ((c : Thread nD τ).loc b) := fun c b => W25 m c b
theorem R25_apply (c : Dev nD) (b : Ref sig .tc) : R25 m c b = W25 m c b := rfl
theorem R25_eq (c : Dev nD) : R25 m c = fun (b : Ref sig .tc) => W25 m c b := rfl
/-- At region 12's exit: each output window's array at what the pipeline leaves in it, every other buffer as entered. -/
def W26 (c : Dev nD) : Valuation τ sig (Elt F) :=
  Function.update (W25 m c) main_v161 (o12_5 (R25 m) c)
/-- The same read at the TensorCore's references (region 12's exit contents). -/
def R26 : (c : Dev nD) → (b : Ref sig .tc) → Buf (Elt F) ((c : Thread nD τ).loc b) := fun c b => W26 m c b
theorem R26_apply (c : Dev nD) (b : Ref sig .tc) : R26 m c b = W26 m c b := rfl
theorem R26_eq (c : Dev nD) : R26 m c = fun (b : Ref sig .tc) => W26 m c b := rfl
/-- After the host stretch `hostOps13`: region 13's entry contents. -/
def W27 (c : Dev nD) : Valuation τ sig (Elt F) := StableHlo.after hostOps13 (W26 m c)
theorem W27_def (c : Dev nD) : W27 m c = StableHlo.after hostOps13 (W26 m c) := rfl
/-- The same read at the TensorCore's references (what region 13's proof data take). -/
def R27 : (c : Dev nD) → (b : Ref sig .tc) → Buf (Elt F) ((c : Thread nD τ).loc b) := fun c b => W27 m c b
theorem R27_apply (c : Dev nD) (b : Ref sig .tc) : R27 m c b = W27 m c b := rfl
theorem R27_eq (c : Dev nD) : R27 m c = fun (b : Ref sig .tc) => W27 m c b := rfl
/-- At region 13's exit: each output window's array at what the pipeline leaves in it, every other buffer as entered. -/
def W28 (c : Dev nD) : Valuation τ sig (Elt F) :=
  Function.update (W27 m c) main_v163 (o13_4 (R27 m) c)
/-- The same read at the TensorCore's references (region 13's exit contents). -/
def R28 : (c : Dev nD) → (b : Ref sig .tc) → Buf (Elt F) ((c : Thread nD τ).loc b) := fun c b => W28 m c b
theorem R28_apply (c : Dev nD) (b : Ref sig .tc) : R28 m c b = W28 m c b := rfl
theorem R28_eq (c : Dev nD) : R28 m c = fun (b : Ref sig .tc) => W28 m c b := rfl
/-- After the host stretch `hostOps14`: region 14's entry contents. -/
def W29 (c : Dev nD) : Valuation τ sig (Elt F) := StableHlo.after hostOps14 (W28 m c)
theorem W29_def (c : Dev nD) : W29 m c = StableHlo.after hostOps14 (W28 m c) := rfl
/-- The same read at the TensorCore's references (what region 14's proof data take). -/
def R29 : (c : Dev nD) → (b : Ref sig .tc) → Buf (Elt F) ((c : Thread nD τ).loc b) := fun c b => W29 m c b
theorem R29_apply (c : Dev nD) (b : Ref sig .tc) : R29 m c b = W29 m c b := rfl
theorem R29_eq (c : Dev nD) : R29 m c = fun (b : Ref sig .tc) => W29 m c b := rfl
/-- At region 14's exit: each output window's array at what the pipeline leaves in it, every other buffer as entered. -/
def W30 (c : Dev nD) : Valuation τ sig (Elt F) :=
  Function.update (W29 m c) main_v166 (o14_6 (R29 m) c)
/-- The same read at the TensorCore's references (region 14's exit contents). -/
def R30 : (c : Dev nD) → (b : Ref sig .tc) → Buf (Elt F) ((c : Thread nD τ).loc b) := fun c b => W30 m c b
theorem R30_apply (c : Dev nD) (b : Ref sig .tc) : R30 m c b = W30 m c b := rfl
theorem R30_eq (c : Dev nD) : R30 m c = fun (b : Ref sig .tc) => W30 m c b := rfl

/-- What the regions leave, as the generated valuations `Gen.V J` read it: after item J-1 (J even, a region's exit) the
    contents `W J`; read nowhere else. -/
def outs : Gen.Outs (F := F) := fun J r c => match J with
  | 2 => W2 m c r
  | 4 => W4 m c r
  | 6 => W6 m c r
  | 8 => W8 m c r
  | 10 => W10 m c r
  | 12 => W12 m c r
  | 14 => W14 m c r
  | 16 => W16 m c r
  | 18 => W18 m c r
  | 20 => W20 m c r
  | 22 => W22 m c r
  | 24 => W24 m c r
  | 26 => W26 m c r
  | 28 => W28 m c r
  | 30 => W30 m c r
  | _ => W0 m c r

/-! ## A region's exit contents at its output buffers and away from them (`Function.update` at the point, off the point) -/

theorem W2_o3 (c : Dev nD) : W2 m c main_v19_0 = o0_3 (R1 m) c := by
  unfold W2; rw [Function.update_of_ne (StableHlo.devRef_ne_of_ne (by decide)), Function.update_of_ne (StableHlo.devRef_ne_of_ne (by decide)), Function.update_self]
theorem W2_o4 (c : Dev nD) : W2 m c main_v19_1 = o0_4 (R1 m) c := by
  unfold W2; rw [Function.update_of_ne (StableHlo.devRef_ne_of_ne (by decide)), Function.update_self]
theorem W2_o5 (c : Dev nD) : W2 m c main_v19_2 = o0_5 (R1 m) c := by
  unfold W2; rw [Function.update_self]
theorem W2_of_ne (c : Dev nD) (b : Ref sig .tc) (h3 : b ≠ main_v19_0) (h4 : b ≠ main_v19_1) (h5 : b ≠ main_v19_2) : W2 m c b = W1 m c b := by
  unfold W2; rw [Function.update_of_ne (StableHlo.devRef_ne_of_ne h5), Function.update_of_ne (StableHlo.devRef_ne_of_ne h4), Function.update_of_ne (StableHlo.devRef_ne_of_ne h3)]
theorem W4_o5 (c : Dev nD) : W4 m c main_v29 = o1_5 (R3 m) c := by
  unfold W4; rw [Function.update_self]
theorem W4_of_ne (c : Dev nD) (b : Ref sig .tc) (h5 : b ≠ main_v29) : W4 m c b = W3 m c b := by
  unfold W4; rw [Function.update_of_ne (StableHlo.devRef_ne_of_ne h5)]
theorem W6_o3 (c : Dev nD) : W6 m c main_v44_0 = o2_3 (R5 m) c := by
  unfold W6; rw [Function.update_of_ne (StableHlo.devRef_ne_of_ne (by decide)), Function.update_of_ne (StableHlo.devRef_ne_of_ne (by decide)), Function.update_self]
theorem W6_o4 (c : Dev nD) : W6 m c main_v44_1 = o2_4 (R5 m) c := by
  unfold W6; rw [Function.update_of_ne (StableHlo.devRef_ne_of_ne (by decide)), Function.update_self]
theorem W6_o5 (c : Dev nD) : W6 m c main_v44_2 = o2_5 (R5 m) c := by
  unfold W6; rw [Function.update_self]
theorem W6_of_ne (c : Dev nD) (b : Ref sig .tc) (h3 : b ≠ main_v44_0) (h4 : b ≠ main_v44_1) (h5 : b ≠ main_v44_2) : W6 m c b = W5 m c b := by
  unfold W6; rw [Function.update_of_ne (StableHlo.devRef_ne_of_ne h5), Function.update_of_ne (StableHlo.devRef_ne_of_ne h4), Function.update_of_ne (StableHlo.devRef_ne_of_ne h3)]
theorem W8_o5 (c : Dev nD) : W8 m c main_v54 = o3_5 (R7 m) c := by
  unfold W8; rw [Function.update_self]
theorem W8_of_ne (c : Dev nD) (b : Ref sig .tc) (h5 : b ≠ main_v54) : W8 m c b = W7 m c b := by
  unfold W8; rw [Function.update_of_ne (StableHlo.devRef_ne_of_ne h5)]
theorem W10_o3 (c : Dev nD) : W10 m c main_v69_0 = o4_3 (R9 m) c := by
  unfold W10; rw [Function.update_of_ne (StableHlo.devRef_ne_of_ne (by decide)), Function.update_of_ne (StableHlo.devRef_ne_of_ne (by decide)), Function.update_self]
theorem W10_o4 (c : Dev nD) : W10 m c main_v69_1 = o4_4 (R9 m) c := by
  unfold W10; rw [Function.update_of_ne (StableHlo.devRef_ne_of_ne (by decide)), Function.update_self]
theorem W10_o5 (c : Dev nD) : W10 m c main_v69_2 = o4_5 (R9 m) c := by
  unfold W10; rw [Function.update_self]
theorem W10_of_ne (c : Dev nD) (b : Ref sig .tc) (h3 : b ≠ main_v69_0) (h4 : b ≠ main_v69_1) (h5 : b ≠ main_v69_2) : W10 m c b = W9 m c b := by
  unfold W10; rw [Function.update_of_ne (StableHlo.devRef_ne_of_ne h5), Function.update_of_ne (StableHlo.devRef_ne_of_ne h4), Function.update_of_ne (StableHlo.devRef_ne_of_ne h3)]
theorem W12_o5 (c : Dev nD) : W12 m c main_v79 = o5_5 (R11 m) c := by
  unfold W12; rw [Function.update_self]
theorem W12_of_ne (c : Dev nD) (b : Ref sig .tc) (h5 : b ≠ main_v79) : W12 m c b = W11 m c b := by
  unfold W12; rw [Function.update_of_ne (StableHlo.devRef_ne_of_ne h5)]
theorem W14_o4 (c : Dev nD) : W14 m c main_v81 = o6_4 (R13 m) c := by
  unfold W14; rw [Function.update_self]
theorem W14_of_ne (c : Dev nD) (b : Ref sig .tc) (h4 : b ≠ main_v81) : W14 m c b = W13 m c b := by
  unfold W14; rw [Function.update_of_ne (StableHlo.devRef_ne_of_ne h4)]
theorem W16_o3 (c : Dev nD) : W16 m c main_v101_0 = o7_3 (R15 m) c := by
  unfold W16; rw [Function.update_of_ne (StableHlo.devRef_ne_of_ne (by decide)), Function.update_of_ne (StableHlo.devRef_ne_of_ne (by decide)), Function.update_self]
theorem W16_o4 (c : Dev nD) : W16 m c main_v101_1 = o7_4 (R15 m) c := by
  unfold W16; rw [Function.update_of_ne (StableHlo.devRef_ne_of_ne (by decide)), Function.update_self]
theorem W16_o5 (c : Dev nD) : W16 m c main_v101_2 = o7_5 (R15 m) c := by
  unfold W16; rw [Function.update_self]
theorem W16_of_ne (c : Dev nD) (b : Ref sig .tc) (h3 : b ≠ main_v101_0) (h4 : b ≠ main_v101_1) (h5 : b ≠ main_v101_2) : W16 m c b = W15 m c b := by
  unfold W16; rw [Function.update_of_ne (StableHlo.devRef_ne_of_ne h5), Function.update_of_ne (StableHlo.devRef_ne_of_ne h4), Function.update_of_ne (StableHlo.devRef_ne_of_ne h3)]
theorem W18_o5 (c : Dev nD) : W18 m c main_v111 = o8_5 (R17 m) c := by
  unfold W18; rw [Function.update_self]
theorem W18_of_ne (c : Dev nD) (b : Ref sig .tc) (h5 : b ≠ main_v111) : W18 m c b = W17 m c b := by
  unfold W18; rw [Function.update_of_ne (StableHlo.devRef_ne_of_ne h5)]
theorem W20_o3 (c : Dev nD) : W20 m c main_v126_0 = o9_3 (R19 m) c := by
  unfold W20; rw [Function.update_of_ne (StableHlo.devRef_ne_of_ne (by decide)), Function.update_of_ne (StableHlo.devRef_ne_of_ne (by decide)), Function.update_self]
theorem W20_o4 (c : Dev nD) : W20 m c main_v126_1 = o9_4 (R19 m) c := by
  unfold W20; rw [Function.update_of_ne (StableHlo.devRef_ne_of_ne (by decide)), Function.update_self]
theorem W20_o5 (c : Dev nD) : W20 m c main_v126_2 = o9_5 (R19 m) c := by
  unfold W20; rw [Function.update_self]
theorem W20_of_ne (c : Dev nD) (b : Ref sig .tc) (h3 : b ≠ main_v126_0) (h4 : b ≠ main_v126_1) (h5 : b ≠ main_v126_2) : W20 m c b = W19 m c b := by
  unfold W20; rw [Function.update_of_ne (StableHlo.devRef_ne_of_ne h5), Function.update_of_ne (StableHlo.devRef_ne_of_ne h4), Function.update_of_ne (StableHlo.devRef_ne_of_ne h3)]
theorem W22_o5 (c : Dev nD) : W22 m c main_v136 = o10_5 (R21 m) c := by
  unfold W22; rw [Function.update_self]
theorem W22_of_ne (c : Dev nD) (b : Ref sig .tc) (h5 : b ≠ main_v136) : W22 m c b = W21 m c b := by
  unfold W22; rw [Function.update_of_ne (StableHlo.devRef_ne_of_ne h5)]
theorem W24_o3 (c : Dev nD) : W24 m c main_v151_0 = o11_3 (R23 m) c := by
  unfold W24; rw [Function.update_of_ne (StableHlo.devRef_ne_of_ne (by decide)), Function.update_of_ne (StableHlo.devRef_ne_of_ne (by decide)), Function.update_self]
theorem W24_o4 (c : Dev nD) : W24 m c main_v151_1 = o11_4 (R23 m) c := by
  unfold W24; rw [Function.update_of_ne (StableHlo.devRef_ne_of_ne (by decide)), Function.update_self]
theorem W24_o5 (c : Dev nD) : W24 m c main_v151_2 = o11_5 (R23 m) c := by
  unfold W24; rw [Function.update_self]
theorem W24_of_ne (c : Dev nD) (b : Ref sig .tc) (h3 : b ≠ main_v151_0) (h4 : b ≠ main_v151_1) (h5 : b ≠ main_v151_2) : W24 m c b = W23 m c b := by
  unfold W24; rw [Function.update_of_ne (StableHlo.devRef_ne_of_ne h5), Function.update_of_ne (StableHlo.devRef_ne_of_ne h4), Function.update_of_ne (StableHlo.devRef_ne_of_ne h3)]
theorem W26_o5 (c : Dev nD) : W26 m c main_v161 = o12_5 (R25 m) c := by
  unfold W26; rw [Function.update_self]
theorem W26_of_ne (c : Dev nD) (b : Ref sig .tc) (h5 : b ≠ main_v161) : W26 m c b = W25 m c b := by
  unfold W26; rw [Function.update_of_ne (StableHlo.devRef_ne_of_ne h5)]
theorem W28_o4 (c : Dev nD) : W28 m c main_v163 = o13_4 (R27 m) c := by
  unfold W28; rw [Function.update_self]
theorem W28_of_ne (c : Dev nD) (b : Ref sig .tc) (h4 : b ≠ main_v163) : W28 m c b = W27 m c b := by
  unfold W28; rw [Function.update_of_ne (StableHlo.devRef_ne_of_ne h4)]
theorem W30_o6 (c : Dev nD) : W30 m c main_v166 = o14_6 (R29 m) c := by
  unfold W30; rw [Function.update_self]
theorem W30_of_ne (c : Dev nD) (b : Ref sig .tc) (h6 : b ≠ main_v166) : W30 m c b = W29 m c b := by
  unfold W30; rw [Function.update_of_ne (StableHlo.devRef_ne_of_ne h6)]

/-! ## The generated valuations at these unknowns are the chain -/

theorem V_eq1 (c : Dev nD) : Gen.V1 m c = W1 m c := (W1_def m c).symm
theorem outs_2 (r : Ref sig .tc) (c : Dev nD) : outs m 2 r c = W2 m c r := rfl
theorem V_eq2 (c : Dev nD) : Gen.V2 m (outs m) c = W2 m c := by
  unfold W2
  show Function.update (Function.update (Function.update (Gen.V1 m c) main_v19_0 (outs m 2 main_v19_0 c)) main_v19_1 (outs m 2 main_v19_1 c)) main_v19_2 (outs m 2 main_v19_2 c) = _
  rw [V_eq1, outs_2 m main_v19_0 c, W2_o3 m c, outs_2 m main_v19_1 c, W2_o4 m c, outs_2 m main_v19_2 c, W2_o5 m c]
theorem V_eq3 (c : Dev nD) : Gen.V3 m (outs m) c = W3 m c := (congrArg (StableHlo.after hostOps1) (V_eq2 m c)).trans (W3_def m c).symm
theorem outs_4 (r : Ref sig .tc) (c : Dev nD) : outs m 4 r c = W4 m c r := rfl
theorem V_eq4 (c : Dev nD) : Gen.V4 m (outs m) c = W4 m c := by
  unfold W4
  show Function.update (Gen.V3 m (outs m) c) main_v29 (outs m 4 main_v29 c) = _
  rw [V_eq3, outs_4 m main_v29 c, W4_o5 m c]
theorem V_eq5 (c : Dev nD) : Gen.V5 m (outs m) c = W5 m c := (congrArg (StableHlo.after hostOps2) (V_eq4 m c)).trans (W5_def m c).symm
theorem outs_6 (r : Ref sig .tc) (c : Dev nD) : outs m 6 r c = W6 m c r := rfl
theorem V_eq6 (c : Dev nD) : Gen.V6 m (outs m) c = W6 m c := by
  unfold W6
  show Function.update (Function.update (Function.update (Gen.V5 m (outs m) c) main_v44_0 (outs m 6 main_v44_0 c)) main_v44_1 (outs m 6 main_v44_1 c)) main_v44_2 (outs m 6 main_v44_2 c) = _
  rw [V_eq5, outs_6 m main_v44_0 c, W6_o3 m c, outs_6 m main_v44_1 c, W6_o4 m c, outs_6 m main_v44_2 c, W6_o5 m c]
theorem V_eq7 (c : Dev nD) : Gen.V7 m (outs m) c = W7 m c := (congrArg (StableHlo.after hostOps3) (V_eq6 m c)).trans (W7_def m c).symm
theorem outs_8 (r : Ref sig .tc) (c : Dev nD) : outs m 8 r c = W8 m c r := rfl
theorem V_eq8 (c : Dev nD) : Gen.V8 m (outs m) c = W8 m c := by
  unfold W8
  show Function.update (Gen.V7 m (outs m) c) main_v54 (outs m 8 main_v54 c) = _
  rw [V_eq7, outs_8 m main_v54 c, W8_o5 m c]
theorem V_eq9 (c : Dev nD) : Gen.V9 m (outs m) c = W9 m c := (congrArg (StableHlo.after hostOps4) (V_eq8 m c)).trans (W9_def m c).symm
theorem outs_10 (r : Ref sig .tc) (c : Dev nD) : outs m 10 r c = W10 m c r := rfl
theorem V_eq10 (c : Dev nD) : Gen.V10 m (outs m) c = W10 m c := by
  unfold W10
  show Function.update (Function.update (Function.update (Gen.V9 m (outs m) c) main_v69_0 (outs m 10 main_v69_0 c)) main_v69_1 (outs m 10 main_v69_1 c)) main_v69_2 (outs m 10 main_v69_2 c) = _
  rw [V_eq9, outs_10 m main_v69_0 c, W10_o3 m c, outs_10 m main_v69_1 c, W10_o4 m c, outs_10 m main_v69_2 c, W10_o5 m c]
theorem V_eq11 (c : Dev nD) : Gen.V11 m (outs m) c = W11 m c := (congrArg (StableHlo.after hostOps5) (V_eq10 m c)).trans (W11_def m c).symm
theorem outs_12 (r : Ref sig .tc) (c : Dev nD) : outs m 12 r c = W12 m c r := rfl
theorem V_eq12 (c : Dev nD) : Gen.V12 m (outs m) c = W12 m c := by
  unfold W12
  show Function.update (Gen.V11 m (outs m) c) main_v79 (outs m 12 main_v79 c) = _
  rw [V_eq11, outs_12 m main_v79 c, W12_o5 m c]
theorem V_eq13 (c : Dev nD) : Gen.V13 m (outs m) c = W13 m c := (congrArg (StableHlo.after hostOps6) (V_eq12 m c)).trans (W13_def m c).symm
theorem outs_14 (r : Ref sig .tc) (c : Dev nD) : outs m 14 r c = W14 m c r := rfl
theorem V_eq14 (c : Dev nD) : Gen.V14 m (outs m) c = W14 m c := by
  unfold W14
  show Function.update (Gen.V13 m (outs m) c) main_v81 (outs m 14 main_v81 c) = _
  rw [V_eq13, outs_14 m main_v81 c, W14_o4 m c]
theorem V_eq15 (c : Dev nD) : Gen.V15 m (outs m) c = W15 m c := (congrArg (StableHlo.after hostOps7) (V_eq14 m c)).trans (W15_def m c).symm
theorem outs_16 (r : Ref sig .tc) (c : Dev nD) : outs m 16 r c = W16 m c r := rfl
theorem V_eq16 (c : Dev nD) : Gen.V16 m (outs m) c = W16 m c := by
  unfold W16
  show Function.update (Function.update (Function.update (Gen.V15 m (outs m) c) main_v101_0 (outs m 16 main_v101_0 c)) main_v101_1 (outs m 16 main_v101_1 c)) main_v101_2 (outs m 16 main_v101_2 c) = _
  rw [V_eq15, outs_16 m main_v101_0 c, W16_o3 m c, outs_16 m main_v101_1 c, W16_o4 m c, outs_16 m main_v101_2 c, W16_o5 m c]
theorem V_eq17 (c : Dev nD) : Gen.V17 m (outs m) c = W17 m c := (congrArg (StableHlo.after hostOps8) (V_eq16 m c)).trans (W17_def m c).symm
theorem outs_18 (r : Ref sig .tc) (c : Dev nD) : outs m 18 r c = W18 m c r := rfl
theorem V_eq18 (c : Dev nD) : Gen.V18 m (outs m) c = W18 m c := by
  unfold W18
  show Function.update (Gen.V17 m (outs m) c) main_v111 (outs m 18 main_v111 c) = _
  rw [V_eq17, outs_18 m main_v111 c, W18_o5 m c]
theorem V_eq19 (c : Dev nD) : Gen.V19 m (outs m) c = W19 m c := (congrArg (StableHlo.after hostOps9) (V_eq18 m c)).trans (W19_def m c).symm
theorem outs_20 (r : Ref sig .tc) (c : Dev nD) : outs m 20 r c = W20 m c r := rfl
theorem V_eq20 (c : Dev nD) : Gen.V20 m (outs m) c = W20 m c := by
  unfold W20
  show Function.update (Function.update (Function.update (Gen.V19 m (outs m) c) main_v126_0 (outs m 20 main_v126_0 c)) main_v126_1 (outs m 20 main_v126_1 c)) main_v126_2 (outs m 20 main_v126_2 c) = _
  rw [V_eq19, outs_20 m main_v126_0 c, W20_o3 m c, outs_20 m main_v126_1 c, W20_o4 m c, outs_20 m main_v126_2 c, W20_o5 m c]
theorem V_eq21 (c : Dev nD) : Gen.V21 m (outs m) c = W21 m c := (congrArg (StableHlo.after hostOps10) (V_eq20 m c)).trans (W21_def m c).symm
theorem outs_22 (r : Ref sig .tc) (c : Dev nD) : outs m 22 r c = W22 m c r := rfl
theorem V_eq22 (c : Dev nD) : Gen.V22 m (outs m) c = W22 m c := by
  unfold W22
  show Function.update (Gen.V21 m (outs m) c) main_v136 (outs m 22 main_v136 c) = _
  rw [V_eq21, outs_22 m main_v136 c, W22_o5 m c]
theorem V_eq23 (c : Dev nD) : Gen.V23 m (outs m) c = W23 m c := (congrArg (StableHlo.after hostOps11) (V_eq22 m c)).trans (W23_def m c).symm
theorem outs_24 (r : Ref sig .tc) (c : Dev nD) : outs m 24 r c = W24 m c r := rfl
theorem V_eq24 (c : Dev nD) : Gen.V24 m (outs m) c = W24 m c := by
  unfold W24
  show Function.update (Function.update (Function.update (Gen.V23 m (outs m) c) main_v151_0 (outs m 24 main_v151_0 c)) main_v151_1 (outs m 24 main_v151_1 c)) main_v151_2 (outs m 24 main_v151_2 c) = _
  rw [V_eq23, outs_24 m main_v151_0 c, W24_o3 m c, outs_24 m main_v151_1 c, W24_o4 m c, outs_24 m main_v151_2 c, W24_o5 m c]
theorem V_eq25 (c : Dev nD) : Gen.V25 m (outs m) c = W25 m c := (congrArg (StableHlo.after hostOps12) (V_eq24 m c)).trans (W25_def m c).symm
theorem outs_26 (r : Ref sig .tc) (c : Dev nD) : outs m 26 r c = W26 m c r := rfl
theorem V_eq26 (c : Dev nD) : Gen.V26 m (outs m) c = W26 m c := by
  unfold W26
  show Function.update (Gen.V25 m (outs m) c) main_v161 (outs m 26 main_v161 c) = _
  rw [V_eq25, outs_26 m main_v161 c, W26_o5 m c]
theorem V_eq27 (c : Dev nD) : Gen.V27 m (outs m) c = W27 m c := (congrArg (StableHlo.after hostOps13) (V_eq26 m c)).trans (W27_def m c).symm
theorem outs_28 (r : Ref sig .tc) (c : Dev nD) : outs m 28 r c = W28 m c r := rfl
theorem V_eq28 (c : Dev nD) : Gen.V28 m (outs m) c = W28 m c := by
  unfold W28
  show Function.update (Gen.V27 m (outs m) c) main_v163 (outs m 28 main_v163 c) = _
  rw [V_eq27, outs_28 m main_v163 c, W28_o4 m c]
theorem V_eq29 (c : Dev nD) : Gen.V29 m (outs m) c = W29 m c := (congrArg (StableHlo.after hostOps14) (V_eq28 m c)).trans (W29_def m c).symm
theorem outs_30 (r : Ref sig .tc) (c : Dev nD) : outs m 30 r c = W30 m c r := rfl
theorem V_eq30 (c : Dev nD) : Gen.V30 m (outs m) c = W30 m c := by
  unfold W30
  show Function.update (Gen.V29 m (outs m) c) main_v166 (outs m 30 main_v166 c) = _
  rw [V_eq29, outs_30 m main_v166 c, W30_o6 m c]

end Cert.KernelIdeal.Hand
-- ==== Proof.KI.Chain.lean ====
import proofs.«413302_j72232759984513_1_alg».proof.Proof.Gen.KernelIdeal.Launch
import proofs.«413302_j72232759984513_1_alg».proof.Proof.Gen.KernelIdeal.Skeleton
import proofs.«413302_j72232759984513_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«413302_j72232759984513_1_alg».proof.Proof.KI.ChainDefs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The regions' proof data over the chain of buffer contents, and what each region leaves

Region K's proof data are taken at its entry contents `R(2K+1)`. At its exit each of its arrays holds what the
pipeline leaves (`hF`) and every other buffer what it held at entry (`hrest`). -/

variable (m : (ℓ : Loc nD τ sig) → Buf (Elt F) ℓ)

/-- Every pipeline's proof data, each at its region's entry contents: a literal `match`, so that at a numeral it reduces
    to the region's own data. -/
def pdats : (p : Fin 15) → (c : Dev nD) → Dat τ (Elt F) Unit ℕ (UR sig nD τ) ℕ (cfgs p) c
  | ⟨0, _⟩ => fun c => dat0 (R1 m) c
  | ⟨1, _⟩ => fun c => dat1 (R3 m) c
  | ⟨2, _⟩ => fun c => dat2 (R5 m) c
  | ⟨3, _⟩ => fun c => dat3 (R7 m) c
  | ⟨4, _⟩ => fun c => dat4 (R9 m) c
  | ⟨5, _⟩ => fun c => dat5 (R11 m) c
  | ⟨6, _⟩ => fun c => dat6 (R13 m) c
  | ⟨7, _⟩ => fun c => dat7 (R15 m) c
  | ⟨8, _⟩ => fun c => dat8 (R17 m) c
  | ⟨9, _⟩ => fun c => dat9 (R19 m) c
  | ⟨10, _⟩ => fun c => dat10 (R21 m) c
  | ⟨11, _⟩ => fun c => dat11 (R23 m) c
  | ⟨12, _⟩ => fun c => dat12 (R25 m) c
  | ⟨13, _⟩ => fun c => dat13 (R27 m) c
  | ⟨14, _⟩ => fun c => dat14 (R29 m) c
/-- No region's proof data bound the pairs the core has recorded before the first point: the bound is everything. -/
theorem recorded_eq0 (V : (c : Dev nD) → (b : Ref sig .tc) → Buf (Elt F) ((c : Thread nD τ).loc b)) (c : Dev nD) : (dat0 V c).recorded 0 = Set.univ := rfl
theorem recorded_eq1 (V : (c : Dev nD) → (b : Ref sig .tc) → Buf (Elt F) ((c : Thread nD τ).loc b)) (c : Dev nD) : (dat1 V c).recorded 0 = Set.univ := rfl
theorem recorded_eq2 (V : (c : Dev nD) → (b : Ref sig .tc) → Buf (Elt F) ((c : Thread nD τ).loc b)) (c : Dev nD) : (dat2 V c).recorded 0 = Set.univ := rfl
theorem recorded_eq3 (V : (c : Dev nD) → (b : Ref sig .tc) → Buf (Elt F) ((c : Thread nD τ).loc b)) (c : Dev nD) : (dat3 V c).recorded 0 = Set.univ := rfl
theorem recorded_eq4 (V : (c : Dev nD) → (b : Ref sig .tc) → Buf (Elt F) ((c : Thread nD τ).loc b)) (c : Dev nD) : (dat4 V c).recorded 0 = Set.univ := rfl
theorem recorded_eq5 (V : (c : Dev nD) → (b : Ref sig .tc) → Buf (Elt F) ((c : Thread nD τ).loc b)) (c : Dev nD) : (dat5 V c).recorded 0 = Set.univ := rfl
theorem recorded_eq6 (V : (c : Dev nD) → (b : Ref sig .tc) → Buf (Elt F) ((c : Thread nD τ).loc b)) (c : Dev nD) : (dat6 V c).recorded 0 = Set.univ := rfl
theorem recorded_eq7 (V : (c : Dev nD) → (b : Ref sig .tc) → Buf (Elt F) ((c : Thread nD τ).loc b)) (c : Dev nD) : (dat7 V c).recorded 0 = Set.univ := rfl
theorem recorded_eq8 (V : (c : Dev nD) → (b : Ref sig .tc) → Buf (Elt F) ((c : Thread nD τ).loc b)) (c : Dev nD) : (dat8 V c).recorded 0 = Set.univ := rfl
theorem recorded_eq9 (V : (c : Dev nD) → (b : Ref sig .tc) → Buf (Elt F) ((c : Thread nD τ).loc b)) (c : Dev nD) : (dat9 V c).recorded 0 = Set.univ := rfl
theorem recorded_eq10 (V : (c : Dev nD) → (b : Ref sig .tc) → Buf (Elt F) ((c : Thread nD τ).loc b)) (c : Dev nD) : (dat10 V c).recorded 0 = Set.univ := rfl
theorem recorded_eq11 (V : (c : Dev nD) → (b : Ref sig .tc) → Buf (Elt F) ((c : Thread nD τ).loc b)) (c : Dev nD) : (dat11 V c).recorded 0 = Set.univ := rfl
theorem recorded_eq12 (V : (c : Dev nD) → (b : Ref sig .tc) → Buf (Elt F) ((c : Thread nD τ).loc b)) (c : Dev nD) : (dat12 V c).recorded 0 = Set.univ := rfl
theorem recorded_eq13 (V : (c : Dev nD) → (b : Ref sig .tc) → Buf (Elt F) ((c : Thread nD τ).loc b)) (c : Dev nD) : (dat13 V c).recorded 0 = Set.univ := rfl
theorem recorded_eq14 (V : (c : Dev nD) → (b : Ref sig .tc) → Buf (Elt F) ((c : Thread nD τ).loc b)) (c : Dev nD) : (dat14 V c).recorded 0 = Set.univ := rfl
/-- No core owes another anything: no level is assigned. -/
abbrev Lz : GSem nD τ sig → Finset Unit := fun _ => ∅
abbrev lvz : GSem nD τ sig → Unit → ℕ := fun _ _ => 0
/-- What rides beside the buffers through every item: the core's generator register at some state and its `owes`, at nothing. -/
abbrev Rr (c : Dev nD) : sProp 𝕄 := iprop((∃ r, prngReg c r) ∗ ∃ W, owes (c : Thread nD τ) (0 : CellTallies nD τ sig Unit) W)

/-! ## At a region's exit each of its arrays holds what the pipeline leaves, every other buffer what it held at entry

An input window's array is never written (`Dat.arrAt_in`), so it ends at its entry contents, which the exit valuation
still has there (no output buffer is an input's); an output window's array is the exit valuation's update at it. -/

theorem hF0_w0 (c : Dev nD) (h : 0 < cfg0.W) : (dat0 (R1 m) c).arrAt ⟨0, h⟩ cfg0.N = R2 m c (Pipeline.arrRef spec0 ⟨0, h⟩) :=
  ((((dat0 (R1 m) c).arrAt_in ⟨0, h⟩ rfl _).trans (A_eq0 (R1 m) c ⟨0, h⟩)).trans (R1_apply m c _)).trans ((W2_of_ne m c _ ne0_0_3 ne0_0_4 ne0_0_5).symm.trans (R2_apply m c _).symm)
theorem hF0_w1 (c : Dev nD) (h : 1 < cfg0.W) : (dat0 (R1 m) c).arrAt ⟨1, h⟩ cfg0.N = R2 m c (Pipeline.arrRef spec0 ⟨1, h⟩) :=
  ((((dat0 (R1 m) c).arrAt_in ⟨1, h⟩ rfl _).trans (A_eq0 (R1 m) c ⟨1, h⟩)).trans (R1_apply m c _)).trans ((W2_of_ne m c _ ne0_1_3 ne0_1_4 ne0_1_5).symm.trans (R2_apply m c _).symm)
theorem hF0_w2 (c : Dev nD) (h : 2 < cfg0.W) : (dat0 (R1 m) c).arrAt ⟨2, h⟩ cfg0.N = R2 m c (Pipeline.arrRef spec0 ⟨2, h⟩) :=
  ((((dat0 (R1 m) c).arrAt_in ⟨2, h⟩ rfl _).trans (A_eq0 (R1 m) c ⟨2, h⟩)).trans (R1_apply m c _)).trans ((W2_of_ne m c _ ne0_2_3 ne0_2_4 ne0_2_5).symm.trans (R2_apply m c _).symm)
theorem hF0_w3 (c : Dev nD) (h : 3 < cfg0.W) : (dat0 (R1 m) c).arrAt ⟨3, h⟩ cfg0.N = R2 m c (Pipeline.arrRef spec0 ⟨3, h⟩) :=
  ((o0_3_eq (R1 m) c h).symm.trans (W2_o3 m c).symm).trans (R2_apply m c _).symm
theorem hF0_w4 (c : Dev nD) (h : 4 < cfg0.W) : (dat0 (R1 m) c).arrAt ⟨4, h⟩ cfg0.N = R2 m c (Pipeline.arrRef spec0 ⟨4, h⟩) :=
  ((o0_4_eq (R1 m) c h).symm.trans (W2_o4 m c).symm).trans (R2_apply m c _).symm
theorem hF0_w5 (c : Dev nD) (h : 5 < cfg0.W) : (dat0 (R1 m) c).arrAt ⟨5, h⟩ cfg0.N = R2 m c (Pipeline.arrRef spec0 ⟨5, h⟩) :=
  ((o0_5_eq (R1 m) c h).symm.trans (W2_o5 m c).symm).trans (R2_apply m c _).symm
theorem hF0 (c : Dev nD) (w : Fin cfg0.W) : (dat0 (R1 m) c).arrAt w cfg0.N = R2 m c (Pipeline.arrRef spec0 w) :=
  match w with
  | ⟨0, h⟩ => hF0_w0 m c h
  | ⟨1, h⟩ => hF0_w1 m c h
  | ⟨2, h⟩ => hF0_w2 m c h
  | ⟨3, h⟩ => hF0_w3 m c h
  | ⟨4, h⟩ => hF0_w4 m c h
  | ⟨5, h⟩ => hF0_w5 m c h
theorem hrest0 (c : Dev nD) : ∀ b, b ∉ Finset.univ.image (Pipeline.arrRef spec0) → R2 m c b = R1 m c b :=
  fun b hb => (R2_apply m c b).trans ((W2_of_ne m c b
    (fun e => hb (Finset.mem_image.mpr ⟨⟨3, lt0_3⟩, Finset.mem_univ _, e.symm⟩))
    (fun e => hb (Finset.mem_image.mpr ⟨⟨4, lt0_4⟩, Finset.mem_univ _, e.symm⟩))
    (fun e => hb (Finset.mem_image.mpr ⟨⟨5, lt0_5⟩, Finset.mem_univ _, e.symm⟩))
    ).trans (R1_apply m c b).symm)
theorem hF1_w0 (c : Dev nD) (h : 0 < cfg1.W) : (dat1 (R3 m) c).arrAt ⟨0, h⟩ cfg1.N = R4 m c (Pipeline.arrRef spec1 ⟨0, h⟩) :=
  ((((dat1 (R3 m) c).arrAt_in ⟨0, h⟩ rfl _).trans (A_eq1 (R3 m) c ⟨0, h⟩)).trans (R3_apply m c _)).trans ((W4_of_ne m c _ ne1_0_5).symm.trans (R4_apply m c _).symm)
theorem hF1_w1 (c : Dev nD) (h : 1 < cfg1.W) : (dat1 (R3 m) c).arrAt ⟨1, h⟩ cfg1.N = R4 m c (Pipeline.arrRef spec1 ⟨1, h⟩) :=
  ((((dat1 (R3 m) c).arrAt_in ⟨1, h⟩ rfl _).trans (A_eq1 (R3 m) c ⟨1, h⟩)).trans (R3_apply m c _)).trans ((W4_of_ne m c _ ne1_1_5).symm.trans (R4_apply m c _).symm)
theorem hF1_w2 (c : Dev nD) (h : 2 < cfg1.W) : (dat1 (R3 m) c).arrAt ⟨2, h⟩ cfg1.N = R4 m c (Pipeline.arrRef spec1 ⟨2, h⟩) :=
  ((((dat1 (R3 m) c).arrAt_in ⟨2, h⟩ rfl _).trans (A_eq1 (R3 m) c ⟨2, h⟩)).trans (R3_apply m c _)).trans ((W4_of_ne m c _ ne1_2_5).symm.trans (R4_apply m c _).symm)
theorem hF1_w3 (c : Dev nD) (h : 3 < cfg1.W) : (dat1 (R3 m) c).arrAt ⟨3, h⟩ cfg1.N = R4 m c (Pipeline.arrRef spec1 ⟨3, h⟩) :=
  ((((dat1 (R3 m) c).arrAt_in ⟨3, h⟩ rfl _).trans (A_eq1 (R3 m) c ⟨3, h⟩)).trans (R3_apply m c _)).trans ((W4_of_ne m c _ ne1_3_5).symm.trans (R4_apply m c _).symm)
theorem hF1_w4 (c : Dev nD) (h : 4 < cfg1.W) : (dat1 (R3 m) c).arrAt ⟨4, h⟩ cfg1.N = R4 m c (Pipeline.arrRef spec1 ⟨4, h⟩) :=
  ((((dat1 (R3 m) c).arrAt_in ⟨4, h⟩ rfl _).trans (A_eq1 (R3 m) c ⟨4, h⟩)).trans (R3_apply m c _)).trans ((W4_of_ne m c _ ne1_4_5).symm.trans (R4_apply m c _).symm)
theorem hF1_w5 (c : Dev nD) (h : 5 < cfg1.W) : (dat1 (R3 m) c).arrAt ⟨5, h⟩ cfg1.N = R4 m c (Pipeline.arrRef spec1 ⟨5, h⟩) :=
  ((o1_5_eq (R3 m) c h).symm.trans (W4_o5 m c).symm).trans (R4_apply m c _).symm
theorem hF1 (c : Dev nD) (w : Fin cfg1.W) : (dat1 (R3 m) c).arrAt w cfg1.N = R4 m c (Pipeline.arrRef spec1 w) :=
  match w with
  | ⟨0, h⟩ => hF1_w0 m c h
  | ⟨1, h⟩ => hF1_w1 m c h
  | ⟨2, h⟩ => hF1_w2 m c h
  | ⟨3, h⟩ => hF1_w3 m c h
  | ⟨4, h⟩ => hF1_w4 m c h
  | ⟨5, h⟩ => hF1_w5 m c h
theorem hrest1 (c : Dev nD) : ∀ b, b ∉ Finset.univ.image (Pipeline.arrRef spec1) → R4 m c b = R3 m c b :=
  fun b hb => (R4_apply m c b).trans ((W4_of_ne m c b
    (fun e => hb (Finset.mem_image.mpr ⟨⟨5, lt1_5⟩, Finset.mem_univ _, e.symm⟩))
    ).trans (R3_apply m c b).symm)
theorem hF2_w0 (c : Dev nD) (h : 0 < cfg2.W) : (dat2 (R5 m) c).arrAt ⟨0, h⟩ cfg2.N = R6 m c (Pipeline.arrRef spec2 ⟨0, h⟩) :=
  ((((dat2 (R5 m) c).arrAt_in ⟨0, h⟩ rfl _).trans (A_eq2 (R5 m) c ⟨0, h⟩)).trans (R5_apply m c _)).trans ((W6_of_ne m c _ ne2_0_3 ne2_0_4 ne2_0_5).symm.trans (R6_apply m c _).symm)
theorem hF2_w1 (c : Dev nD) (h : 1 < cfg2.W) : (dat2 (R5 m) c).arrAt ⟨1, h⟩ cfg2.N = R6 m c (Pipeline.arrRef spec2 ⟨1, h⟩) :=
  ((((dat2 (R5 m) c).arrAt_in ⟨1, h⟩ rfl _).trans (A_eq2 (R5 m) c ⟨1, h⟩)).trans (R5_apply m c _)).trans ((W6_of_ne m c _ ne2_1_3 ne2_1_4 ne2_1_5).symm.trans (R6_apply m c _).symm)
theorem hF2_w2 (c : Dev nD) (h : 2 < cfg2.W) : (dat2 (R5 m) c).arrAt ⟨2, h⟩ cfg2.N = R6 m c (Pipeline.arrRef spec2 ⟨2, h⟩) :=
  ((((dat2 (R5 m) c).arrAt_in ⟨2, h⟩ rfl _).trans (A_eq2 (R5 m) c ⟨2, h⟩)).trans (R5_apply m c _)).trans ((W6_of_ne m c _ ne2_2_3 ne2_2_4 ne2_2_5).symm.trans (R6_apply m c _).symm)
theorem hF2_w3 (c : Dev nD) (h : 3 < cfg2.W) : (dat2 (R5 m) c).arrAt ⟨3, h⟩ cfg2.N = R6 m c (Pipeline.arrRef spec2 ⟨3, h⟩) :=
  ((o2_3_eq (R5 m) c h).symm.trans (W6_o3 m c).symm).trans (R6_apply m c _).symm
theorem hF2_w4 (c : Dev nD) (h : 4 < cfg2.W) : (dat2 (R5 m) c).arrAt ⟨4, h⟩ cfg2.N = R6 m c (Pipeline.arrRef spec2 ⟨4, h⟩) :=
  ((o2_4_eq (R5 m) c h).symm.trans (W6_o4 m c).symm).trans (R6_apply m c _).symm
theorem hF2_w5 (c : Dev nD) (h : 5 < cfg2.W) : (dat2 (R5 m) c).arrAt ⟨5, h⟩ cfg2.N = R6 m c (Pipeline.arrRef spec2 ⟨5, h⟩) :=
  ((o2_5_eq (R5 m) c h).symm.trans (W6_o5 m c).symm).trans (R6_apply m c _).symm
theorem hF2 (c : Dev nD) (w : Fin cfg2.W) : (dat2 (R5 m) c).arrAt w cfg2.N = R6 m c (Pipeline.arrRef spec2 w) :=
  match w with
  | ⟨0, h⟩ => hF2_w0 m c h
  | ⟨1, h⟩ => hF2_w1 m c h
  | ⟨2, h⟩ => hF2_w2 m c h
  | ⟨3, h⟩ => hF2_w3 m c h
  | ⟨4, h⟩ => hF2_w4 m c h
  | ⟨5, h⟩ => hF2_w5 m c h
theorem hrest2 (c : Dev nD) : ∀ b, b ∉ Finset.univ.image (Pipeline.arrRef spec2) → R6 m c b = R5 m c b :=
  fun b hb => (R6_apply m c b).trans ((W6_of_ne m c b
    (fun e => hb (Finset.mem_image.mpr ⟨⟨3, lt2_3⟩, Finset.mem_univ _, e.symm⟩))
    (fun e => hb (Finset.mem_image.mpr ⟨⟨4, lt2_4⟩, Finset.mem_univ _, e.symm⟩))
    (fun e => hb (Finset.mem_image.mpr ⟨⟨5, lt2_5⟩, Finset.mem_univ _, e.symm⟩))
    ).trans (R5_apply m c b).symm)
theorem hF3_w0 (c : Dev nD) (h : 0 < cfg3.W) : (dat3 (R7 m) c).arrAt ⟨0, h⟩ cfg3.N = R8 m c (Pipeline.arrRef spec3 ⟨0, h⟩) :=
  ((((dat3 (R7 m) c).arrAt_in ⟨0, h⟩ rfl _).trans (A_eq3 (R7 m) c ⟨0, h⟩)).trans (R7_apply m c _)).trans ((W8_of_ne m c _ ne3_0_5).symm.trans (R8_apply m c _).symm)
theorem hF3_w1 (c : Dev nD) (h : 1 < cfg3.W) : (dat3 (R7 m) c).arrAt ⟨1, h⟩ cfg3.N = R8 m c (Pipeline.arrRef spec3 ⟨1, h⟩) :=
  ((((dat3 (R7 m) c).arrAt_in ⟨1, h⟩ rfl _).trans (A_eq3 (R7 m) c ⟨1, h⟩)).trans (R7_apply m c _)).trans ((W8_of_ne m c _ ne3_1_5).symm.trans (R8_apply m c _).symm)
theorem hF3_w2 (c : Dev nD) (h : 2 < cfg3.W) : (dat3 (R7 m) c).arrAt ⟨2, h⟩ cfg3.N = R8 m c (Pipeline.arrRef spec3 ⟨2, h⟩) :=
  ((((dat3 (R7 m) c).arrAt_in ⟨2, h⟩ rfl _).trans (A_eq3 (R7 m) c ⟨2, h⟩)).trans (R7_apply m c _)).trans ((W8_of_ne m c _ ne3_2_5).symm.trans (R8_apply m c _).symm)
theorem hF3_w3 (c : Dev nD) (h : 3 < cfg3.W) : (dat3 (R7 m) c).arrAt ⟨3, h⟩ cfg3.N = R8 m c (Pipeline.arrRef spec3 ⟨3, h⟩) :=
  ((((dat3 (R7 m) c).arrAt_in ⟨3, h⟩ rfl _).trans (A_eq3 (R7 m) c ⟨3, h⟩)).trans (R7_apply m c _)).trans ((W8_of_ne m c _ ne3_3_5).symm.trans (R8_apply m c _).symm)
theorem hF3_w4 (c : Dev nD) (h : 4 < cfg3.W) : (dat3 (R7 m) c).arrAt ⟨4, h⟩ cfg3.N = R8 m c (Pipeline.arrRef spec3 ⟨4, h⟩) :=
  ((((dat3 (R7 m) c).arrAt_in ⟨4, h⟩ rfl _).trans (A_eq3 (R7 m) c ⟨4, h⟩)).trans (R7_apply m c _)).trans ((W8_of_ne m c _ ne3_4_5).symm.trans (R8_apply m c _).symm)
theorem hF3_w5 (c : Dev nD) (h : 5 < cfg3.W) : (dat3 (R7 m) c).arrAt ⟨5, h⟩ cfg3.N = R8 m c (Pipeline.arrRef spec3 ⟨5, h⟩) :=
  ((o3_5_eq (R7 m) c h).symm.trans (W8_o5 m c).symm).trans (R8_apply m c _).symm
theorem hF3 (c : Dev nD) (w : Fin cfg3.W) : (dat3 (R7 m) c).arrAt w cfg3.N = R8 m c (Pipeline.arrRef spec3 w) :=
  match w with
  | ⟨0, h⟩ => hF3_w0 m c h
  | ⟨1, h⟩ => hF3_w1 m c h
  | ⟨2, h⟩ => hF3_w2 m c h
  | ⟨3, h⟩ => hF3_w3 m c h
  | ⟨4, h⟩ => hF3_w4 m c h
  | ⟨5, h⟩ => hF3_w5 m c h
theorem hrest3 (c : Dev nD) : ∀ b, b ∉ Finset.univ.image (Pipeline.arrRef spec3) → R8 m c b = R7 m c b :=
  fun b hb => (R8_apply m c b).trans ((W8_of_ne m c b
    (fun e => hb (Finset.mem_image.mpr ⟨⟨5, lt3_5⟩, Finset.mem_univ _, e.symm⟩))
    ).trans (R7_apply m c b).symm)
theorem hF4_w0 (c : Dev nD) (h : 0 < cfg4.W) : (dat4 (R9 m) c).arrAt ⟨0, h⟩ cfg4.N = R10 m c (Pipeline.arrRef spec4 ⟨0, h⟩) :=
  ((((dat4 (R9 m) c).arrAt_in ⟨0, h⟩ rfl _).trans (A_eq4 (R9 m) c ⟨0, h⟩)).trans (R9_apply m c _)).trans ((W10_of_ne m c _ ne4_0_3 ne4_0_4 ne4_0_5).symm.trans (R10_apply m c _).symm)
theorem hF4_w1 (c : Dev nD) (h : 1 < cfg4.W) : (dat4 (R9 m) c).arrAt ⟨1, h⟩ cfg4.N = R10 m c (Pipeline.arrRef spec4 ⟨1, h⟩) :=
  ((((dat4 (R9 m) c).arrAt_in ⟨1, h⟩ rfl _).trans (A_eq4 (R9 m) c ⟨1, h⟩)).trans (R9_apply m c _)).trans ((W10_of_ne m c _ ne4_1_3 ne4_1_4 ne4_1_5).symm.trans (R10_apply m c _).symm)
theorem hF4_w2 (c : Dev nD) (h : 2 < cfg4.W) : (dat4 (R9 m) c).arrAt ⟨2, h⟩ cfg4.N = R10 m c (Pipeline.arrRef spec4 ⟨2, h⟩) :=
  ((((dat4 (R9 m) c).arrAt_in ⟨2, h⟩ rfl _).trans (A_eq4 (R9 m) c ⟨2, h⟩)).trans (R9_apply m c _)).trans ((W10_of_ne m c _ ne4_2_3 ne4_2_4 ne4_2_5).symm.trans (R10_apply m c _).symm)
theorem hF4_w3 (c : Dev nD) (h : 3 < cfg4.W) : (dat4 (R9 m) c).arrAt ⟨3, h⟩ cfg4.N = R10 m c (Pipeline.arrRef spec4 ⟨3, h⟩) :=
  ((o4_3_eq (R9 m) c h).symm.trans (W10_o3 m c).symm).trans (R10_apply m c _).symm
theorem hF4_w4 (c : Dev nD) (h : 4 < cfg4.W) : (dat4 (R9 m) c).arrAt ⟨4, h⟩ cfg4.N = R10 m c (Pipeline.arrRef spec4 ⟨4, h⟩) :=
  ((o4_4_eq (R9 m) c h).symm.trans (W10_o4 m c).symm).trans (R10_apply m c _).symm
theorem hF4_w5 (c : Dev nD) (h : 5 < cfg4.W) : (dat4 (R9 m) c).arrAt ⟨5, h⟩ cfg4.N = R10 m c (Pipeline.arrRef spec4 ⟨5, h⟩) :=
  ((o4_5_eq (R9 m) c h).symm.trans (W10_o5 m c).symm).trans (R10_apply m c _).symm
theorem hF4 (c : Dev nD) (w : Fin cfg4.W) : (dat4 (R9 m) c).arrAt w cfg4.N = R10 m c (Pipeline.arrRef spec4 w) :=
  match w with
  | ⟨0, h⟩ => hF4_w0 m c h
  | ⟨1, h⟩ => hF4_w1 m c h
  | ⟨2, h⟩ => hF4_w2 m c h
  | ⟨3, h⟩ => hF4_w3 m c h
  | ⟨4, h⟩ => hF4_w4 m c h
  | ⟨5, h⟩ => hF4_w5 m c h
theorem hrest4 (c : Dev nD) : ∀ b, b ∉ Finset.univ.image (Pipeline.arrRef spec4) → R10 m c b = R9 m c b :=
  fun b hb => (R10_apply m c b).trans ((W10_of_ne m c b
    (fun e => hb (Finset.mem_image.mpr ⟨⟨3, lt4_3⟩, Finset.mem_univ _, e.symm⟩))
    (fun e => hb (Finset.mem_image.mpr ⟨⟨4, lt4_4⟩, Finset.mem_univ _, e.symm⟩))
    (fun e => hb (Finset.mem_image.mpr ⟨⟨5, lt4_5⟩, Finset.mem_univ _, e.symm⟩))
    ).trans (R9_apply m c b).symm)
theorem hF5_w0 (c : Dev nD) (h : 0 < cfg5.W) : (dat5 (R11 m) c).arrAt ⟨0, h⟩ cfg5.N = R12 m c (Pipeline.arrRef spec5 ⟨0, h⟩) :=
  ((((dat5 (R11 m) c).arrAt_in ⟨0, h⟩ rfl _).trans (A_eq5 (R11 m) c ⟨0, h⟩)).trans (R11_apply m c _)).trans ((W12_of_ne m c _ ne5_0_5).symm.trans (R12_apply m c _).symm)
theorem hF5_w1 (c : Dev nD) (h : 1 < cfg5.W) : (dat5 (R11 m) c).arrAt ⟨1, h⟩ cfg5.N = R12 m c (Pipeline.arrRef spec5 ⟨1, h⟩) :=
  ((((dat5 (R11 m) c).arrAt_in ⟨1, h⟩ rfl _).trans (A_eq5 (R11 m) c ⟨1, h⟩)).trans (R11_apply m c _)).trans ((W12_of_ne m c _ ne5_1_5).symm.trans (R12_apply m c _).symm)
theorem hF5_w2 (c : Dev nD) (h : 2 < cfg5.W) : (dat5 (R11 m) c).arrAt ⟨2, h⟩ cfg5.N = R12 m c (Pipeline.arrRef spec5 ⟨2, h⟩) :=
  ((((dat5 (R11 m) c).arrAt_in ⟨2, h⟩ rfl _).trans (A_eq5 (R11 m) c ⟨2, h⟩)).trans (R11_apply m c _)).trans ((W12_of_ne m c _ ne5_2_5).symm.trans (R12_apply m c _).symm)
theorem hF5_w3 (c : Dev nD) (h : 3 < cfg5.W) : (dat5 (R11 m) c).arrAt ⟨3, h⟩ cfg5.N = R12 m c (Pipeline.arrRef spec5 ⟨3, h⟩) :=
  ((((dat5 (R11 m) c).arrAt_in ⟨3, h⟩ rfl _).trans (A_eq5 (R11 m) c ⟨3, h⟩)).trans (R11_apply m c _)).trans ((W12_of_ne m c _ ne5_3_5).symm.trans (R12_apply m c _).symm)
theorem hF5_w4 (c : Dev nD) (h : 4 < cfg5.W) : (dat5 (R11 m) c).arrAt ⟨4, h⟩ cfg5.N = R12 m c (Pipeline.arrRef spec5 ⟨4, h⟩) :=
  ((((dat5 (R11 m) c).arrAt_in ⟨4, h⟩ rfl _).trans (A_eq5 (R11 m) c ⟨4, h⟩)).trans (R11_apply m c _)).trans ((W12_of_ne m c _ ne5_4_5).symm.trans (R12_apply m c _).symm)
theorem hF5_w5 (c : Dev nD) (h : 5 < cfg5.W) : (dat5 (R11 m) c).arrAt ⟨5, h⟩ cfg5.N = R12 m c (Pipeline.arrRef spec5 ⟨5, h⟩) :=
  ((o5_5_eq (R11 m) c h).symm.trans (W12_o5 m c).symm).trans (R12_apply m c _).symm
theorem hF5 (c : Dev nD) (w : Fin cfg5.W) : (dat5 (R11 m) c).arrAt w cfg5.N = R12 m c (Pipeline.arrRef spec5 w) :=
  match w with
  | ⟨0, h⟩ => hF5_w0 m c h
  | ⟨1, h⟩ => hF5_w1 m c h
  | ⟨2, h⟩ => hF5_w2 m c h
  | ⟨3, h⟩ => hF5_w3 m c h
  | ⟨4, h⟩ => hF5_w4 m c h
  | ⟨5, h⟩ => hF5_w5 m c h
theorem hrest5 (c : Dev nD) : ∀ b, b ∉ Finset.univ.image (Pipeline.arrRef spec5) → R12 m c b = R11 m c b :=
  fun b hb => (R12_apply m c b).trans ((W12_of_ne m c b
    (fun e => hb (Finset.mem_image.mpr ⟨⟨5, lt5_5⟩, Finset.mem_univ _, e.symm⟩))
    ).trans (R11_apply m c b).symm)
theorem hF6_w0 (c : Dev nD) (h : 0 < cfg6.W) : (dat6 (R13 m) c).arrAt ⟨0, h⟩ cfg6.N = R14 m c (Pipeline.arrRef spec6 ⟨0, h⟩) :=
  ((((dat6 (R13 m) c).arrAt_in ⟨0, h⟩ rfl _).trans (A_eq6 (R13 m) c ⟨0, h⟩)).trans (R13_apply m c _)).trans ((W14_of_ne m c _ ne6_0_4).symm.trans (R14_apply m c _).symm)
theorem hF6_w1 (c : Dev nD) (h : 1 < cfg6.W) : (dat6 (R13 m) c).arrAt ⟨1, h⟩ cfg6.N = R14 m c (Pipeline.arrRef spec6 ⟨1, h⟩) :=
  ((((dat6 (R13 m) c).arrAt_in ⟨1, h⟩ rfl _).trans (A_eq6 (R13 m) c ⟨1, h⟩)).trans (R13_apply m c _)).trans ((W14_of_ne m c _ ne6_1_4).symm.trans (R14_apply m c _).symm)
theorem hF6_w2 (c : Dev nD) (h : 2 < cfg6.W) : (dat6 (R13 m) c).arrAt ⟨2, h⟩ cfg6.N = R14 m c (Pipeline.arrRef spec6 ⟨2, h⟩) :=
  ((((dat6 (R13 m) c).arrAt_in ⟨2, h⟩ rfl _).trans (A_eq6 (R13 m) c ⟨2, h⟩)).trans (R13_apply m c _)).trans ((W14_of_ne m c _ ne6_2_4).symm.trans (R14_apply m c _).symm)
theorem hF6_w3 (c : Dev nD) (h : 3 < cfg6.W) : (dat6 (R13 m) c).arrAt ⟨3, h⟩ cfg6.N = R14 m c (Pipeline.arrRef spec6 ⟨3, h⟩) :=
  ((((dat6 (R13 m) c).arrAt_in ⟨3, h⟩ rfl _).trans (A_eq6 (R13 m) c ⟨3, h⟩)).trans (R13_apply m c _)).trans ((W14_of_ne m c _ ne6_3_4).symm.trans (R14_apply m c _).symm)
theorem hF6_w4 (c : Dev nD) (h : 4 < cfg6.W) : (dat6 (R13 m) c).arrAt ⟨4, h⟩ cfg6.N = R14 m c (Pipeline.arrRef spec6 ⟨4, h⟩) :=
  ((o6_4_eq (R13 m) c h).symm.trans (W14_o4 m c).symm).trans (R14_apply m c _).symm
theorem hF6 (c : Dev nD) (w : Fin cfg6.W) : (dat6 (R13 m) c).arrAt w cfg6.N = R14 m c (Pipeline.arrRef spec6 w) :=
  match w with
  | ⟨0, h⟩ => hF6_w0 m c h
  | ⟨1, h⟩ => hF6_w1 m c h
  | ⟨2, h⟩ => hF6_w2 m c h
  | ⟨3, h⟩ => hF6_w3 m c h
  | ⟨4, h⟩ => hF6_w4 m c h
theorem hrest6 (c : Dev nD) : ∀ b, b ∉ Finset.univ.image (Pipeline.arrRef spec6) → R14 m c b = R13 m c b :=
  fun b hb => (R14_apply m c b).trans ((W14_of_ne m c b
    (fun e => hb (Finset.mem_image.mpr ⟨⟨4, lt6_4⟩, Finset.mem_univ _, e.symm⟩))
    ).trans (R13_apply m c b).symm)
theorem hF7_w0 (c : Dev nD) (h : 0 < cfg7.W) : (dat7 (R15 m) c).arrAt ⟨0, h⟩ cfg7.N = R16 m c (Pipeline.arrRef spec7 ⟨0, h⟩) :=
  ((((dat7 (R15 m) c).arrAt_in ⟨0, h⟩ rfl _).trans (A_eq7 (R15 m) c ⟨0, h⟩)).trans (R15_apply m c _)).trans ((W16_of_ne m c _ ne7_0_3 ne7_0_4 ne7_0_5).symm.trans (R16_apply m c _).symm)
theorem hF7_w1 (c : Dev nD) (h : 1 < cfg7.W) : (dat7 (R15 m) c).arrAt ⟨1, h⟩ cfg7.N = R16 m c (Pipeline.arrRef spec7 ⟨1, h⟩) :=
  ((((dat7 (R15 m) c).arrAt_in ⟨1, h⟩ rfl _).trans (A_eq7 (R15 m) c ⟨1, h⟩)).trans (R15_apply m c _)).trans ((W16_of_ne m c _ ne7_1_3 ne7_1_4 ne7_1_5).symm.trans (R16_apply m c _).symm)
theorem hF7_w2 (c : Dev nD) (h : 2 < cfg7.W) : (dat7 (R15 m) c).arrAt ⟨2, h⟩ cfg7.N = R16 m c (Pipeline.arrRef spec7 ⟨2, h⟩) :=
  ((((dat7 (R15 m) c).arrAt_in ⟨2, h⟩ rfl _).trans (A_eq7 (R15 m) c ⟨2, h⟩)).trans (R15_apply m c _)).trans ((W16_of_ne m c _ ne7_2_3 ne7_2_4 ne7_2_5).symm.trans (R16_apply m c _).symm)
theorem hF7_w3 (c : Dev nD) (h : 3 < cfg7.W) : (dat7 (R15 m) c).arrAt ⟨3, h⟩ cfg7.N = R16 m c (Pipeline.arrRef spec7 ⟨3, h⟩) :=
  ((o7_3_eq (R15 m) c h).symm.trans (W16_o3 m c).symm).trans (R16_apply m c _).symm
theorem hF7_w4 (c : Dev nD) (h : 4 < cfg7.W) : (dat7 (R15 m) c).arrAt ⟨4, h⟩ cfg7.N = R16 m c (Pipeline.arrRef spec7 ⟨4, h⟩) :=
  ((o7_4_eq (R15 m) c h).symm.trans (W16_o4 m c).symm).trans (R16_apply m c _).symm
theorem hF7_w5 (c : Dev nD) (h : 5 < cfg7.W) : (dat7 (R15 m) c).arrAt ⟨5, h⟩ cfg7.N = R16 m c (Pipeline.arrRef spec7 ⟨5, h⟩) :=
  ((o7_5_eq (R15 m) c h).symm.trans (W16_o5 m c).symm).trans (R16_apply m c _).symm
theorem hF7 (c : Dev nD) (w : Fin cfg7.W) : (dat7 (R15 m) c).arrAt w cfg7.N = R16 m c (Pipeline.arrRef spec7 w) :=
  match w with
  | ⟨0, h⟩ => hF7_w0 m c h
  | ⟨1, h⟩ => hF7_w1 m c h
  | ⟨2, h⟩ => hF7_w2 m c h
  | ⟨3, h⟩ => hF7_w3 m c h
  | ⟨4, h⟩ => hF7_w4 m c h
  | ⟨5, h⟩ => hF7_w5 m c h
theorem hrest7 (c : Dev nD) : ∀ b, b ∉ Finset.univ.image (Pipeline.arrRef spec7) → R16 m c b = R15 m c b :=
  fun b hb => (R16_apply m c b).trans ((W16_of_ne m c b
    (fun e => hb (Finset.mem_image.mpr ⟨⟨3, lt7_3⟩, Finset.mem_univ _, e.symm⟩))
    (fun e => hb (Finset.mem_image.mpr ⟨⟨4, lt7_4⟩, Finset.mem_univ _, e.symm⟩))
    (fun e => hb (Finset.mem_image.mpr ⟨⟨5, lt7_5⟩, Finset.mem_univ _, e.symm⟩))
    ).trans (R15_apply m c b).symm)
theorem hF8_w0 (c : Dev nD) (h : 0 < cfg8.W) : (dat8 (R17 m) c).arrAt ⟨0, h⟩ cfg8.N = R18 m c (Pipeline.arrRef spec8 ⟨0, h⟩) :=
  ((((dat8 (R17 m) c).arrAt_in ⟨0, h⟩ rfl _).trans (A_eq8 (R17 m) c ⟨0, h⟩)).trans (R17_apply m c _)).trans ((W18_of_ne m c _ ne8_0_5).symm.trans (R18_apply m c _).symm)
theorem hF8_w1 (c : Dev nD) (h : 1 < cfg8.W) : (dat8 (R17 m) c).arrAt ⟨1, h⟩ cfg8.N = R18 m c (Pipeline.arrRef spec8 ⟨1, h⟩) :=
  ((((dat8 (R17 m) c).arrAt_in ⟨1, h⟩ rfl _).trans (A_eq8 (R17 m) c ⟨1, h⟩)).trans (R17_apply m c _)).trans ((W18_of_ne m c _ ne8_1_5).symm.trans (R18_apply m c _).symm)
theorem hF8_w2 (c : Dev nD) (h : 2 < cfg8.W) : (dat8 (R17 m) c).arrAt ⟨2, h⟩ cfg8.N = R18 m c (Pipeline.arrRef spec8 ⟨2, h⟩) :=
  ((((dat8 (R17 m) c).arrAt_in ⟨2, h⟩ rfl _).trans (A_eq8 (R17 m) c ⟨2, h⟩)).trans (R17_apply m c _)).trans ((W18_of_ne m c _ ne8_2_5).symm.trans (R18_apply m c _).symm)
theorem hF8_w3 (c : Dev nD) (h : 3 < cfg8.W) : (dat8 (R17 m) c).arrAt ⟨3, h⟩ cfg8.N = R18 m c (Pipeline.arrRef spec8 ⟨3, h⟩) :=
  ((((dat8 (R17 m) c).arrAt_in ⟨3, h⟩ rfl _).trans (A_eq8 (R17 m) c ⟨3, h⟩)).trans (R17_apply m c _)).trans ((W18_of_ne m c _ ne8_3_5).symm.trans (R18_apply m c _).symm)
theorem hF8_w4 (c : Dev nD) (h : 4 < cfg8.W) : (dat8 (R17 m) c).arrAt ⟨4, h⟩ cfg8.N = R18 m c (Pipeline.arrRef spec8 ⟨4, h⟩) :=
  ((((dat8 (R17 m) c).arrAt_in ⟨4, h⟩ rfl _).trans (A_eq8 (R17 m) c ⟨4, h⟩)).trans (R17_apply m c _)).trans ((W18_of_ne m c _ ne8_4_5).symm.trans (R18_apply m c _).symm)
theorem hF8_w5 (c : Dev nD) (h : 5 < cfg8.W) : (dat8 (R17 m) c).arrAt ⟨5, h⟩ cfg8.N = R18 m c (Pipeline.arrRef spec8 ⟨5, h⟩) :=
  ((o8_5_eq (R17 m) c h).symm.trans (W18_o5 m c).symm).trans (R18_apply m c _).symm
theorem hF8 (c : Dev nD) (w : Fin cfg8.W) : (dat8 (R17 m) c).arrAt w cfg8.N = R18 m c (Pipeline.arrRef spec8 w) :=
  match w with
  | ⟨0, h⟩ => hF8_w0 m c h
  | ⟨1, h⟩ => hF8_w1 m c h
  | ⟨2, h⟩ => hF8_w2 m c h
  | ⟨3, h⟩ => hF8_w3 m c h
  | ⟨4, h⟩ => hF8_w4 m c h
  | ⟨5, h⟩ => hF8_w5 m c h
theorem hrest8 (c : Dev nD) : ∀ b, b ∉ Finset.univ.image (Pipeline.arrRef spec8) → R18 m c b = R17 m c b :=
  fun b hb => (R18_apply m c b).trans ((W18_of_ne m c b
    (fun e => hb (Finset.mem_image.mpr ⟨⟨5, lt8_5⟩, Finset.mem_univ _, e.symm⟩))
    ).trans (R17_apply m c b).symm)
theorem hF9_w0 (c : Dev nD) (h : 0 < cfg9.W) : (dat9 (R19 m) c).arrAt ⟨0, h⟩ cfg9.N = R20 m c (Pipeline.arrRef spec9 ⟨0, h⟩) :=
  ((((dat9 (R19 m) c).arrAt_in ⟨0, h⟩ rfl _).trans (A_eq9 (R19 m) c ⟨0, h⟩)).trans (R19_apply m c _)).trans ((W20_of_ne m c _ ne9_0_3 ne9_0_4 ne9_0_5).symm.trans (R20_apply m c _).symm)
theorem hF9_w1 (c : Dev nD) (h : 1 < cfg9.W) : (dat9 (R19 m) c).arrAt ⟨1, h⟩ cfg9.N = R20 m c (Pipeline.arrRef spec9 ⟨1, h⟩) :=
  ((((dat9 (R19 m) c).arrAt_in ⟨1, h⟩ rfl _).trans (A_eq9 (R19 m) c ⟨1, h⟩)).trans (R19_apply m c _)).trans ((W20_of_ne m c _ ne9_1_3 ne9_1_4 ne9_1_5).symm.trans (R20_apply m c _).symm)
theorem hF9_w2 (c : Dev nD) (h : 2 < cfg9.W) : (dat9 (R19 m) c).arrAt ⟨2, h⟩ cfg9.N = R20 m c (Pipeline.arrRef spec9 ⟨2, h⟩) :=
  ((((dat9 (R19 m) c).arrAt_in ⟨2, h⟩ rfl _).trans (A_eq9 (R19 m) c ⟨2, h⟩)).trans (R19_apply m c _)).trans ((W20_of_ne m c _ ne9_2_3 ne9_2_4 ne9_2_5).symm.trans (R20_apply m c _).symm)
theorem hF9_w3 (c : Dev nD) (h : 3 < cfg9.W) : (dat9 (R19 m) c).arrAt ⟨3, h⟩ cfg9.N = R20 m c (Pipeline.arrRef spec9 ⟨3, h⟩) :=
  ((o9_3_eq (R19 m) c h).symm.trans (W20_o3 m c).symm).trans (R20_apply m c _).symm
theorem hF9_w4 (c : Dev nD) (h : 4 < cfg9.W) : (dat9 (R19 m) c).arrAt ⟨4, h⟩ cfg9.N = R20 m c (Pipeline.arrRef spec9 ⟨4, h⟩) :=
  ((o9_4_eq (R19 m) c h).symm.trans (W20_o4 m c).symm).trans (R20_apply m c _).symm
theorem hF9_w5 (c : Dev nD) (h : 5 < cfg9.W) : (dat9 (R19 m) c).arrAt ⟨5, h⟩ cfg9.N = R20 m c (Pipeline.arrRef spec9 ⟨5, h⟩) :=
  ((o9_5_eq (R19 m) c h).symm.trans (W20_o5 m c).symm).trans (R20_apply m c _).symm
theorem hF9 (c : Dev nD) (w : Fin cfg9.W) : (dat9 (R19 m) c).arrAt w cfg9.N = R20 m c (Pipeline.arrRef spec9 w) :=
  match w with
  | ⟨0, h⟩ => hF9_w0 m c h
  | ⟨1, h⟩ => hF9_w1 m c h
  | ⟨2, h⟩ => hF9_w2 m c h
  | ⟨3, h⟩ => hF9_w3 m c h
  | ⟨4, h⟩ => hF9_w4 m c h
  | ⟨5, h⟩ => hF9_w5 m c h
theorem hrest9 (c : Dev nD) : ∀ b, b ∉ Finset.univ.image (Pipeline.arrRef spec9) → R20 m c b = R19 m c b :=
  fun b hb => (R20_apply m c b).trans ((W20_of_ne m c b
    (fun e => hb (Finset.mem_image.mpr ⟨⟨3, lt9_3⟩, Finset.mem_univ _, e.symm⟩))
    (fun e => hb (Finset.mem_image.mpr ⟨⟨4, lt9_4⟩, Finset.mem_univ _, e.symm⟩))
    (fun e => hb (Finset.mem_image.mpr ⟨⟨5, lt9_5⟩, Finset.mem_univ _, e.symm⟩))
    ).trans (R19_apply m c b).symm)
theorem hF10_w0 (c : Dev nD) (h : 0 < cfg10.W) : (dat10 (R21 m) c).arrAt ⟨0, h⟩ cfg10.N = R22 m c (Pipeline.arrRef spec10 ⟨0, h⟩) :=
  ((((dat10 (R21 m) c).arrAt_in ⟨0, h⟩ rfl _).trans (A_eq10 (R21 m) c ⟨0, h⟩)).trans (R21_apply m c _)).trans ((W22_of_ne m c _ ne10_0_5).symm.trans (R22_apply m c _).symm)
theorem hF10_w1 (c : Dev nD) (h : 1 < cfg10.W) : (dat10 (R21 m) c).arrAt ⟨1, h⟩ cfg10.N = R22 m c (Pipeline.arrRef spec10 ⟨1, h⟩) :=
  ((((dat10 (R21 m) c).arrAt_in ⟨1, h⟩ rfl _).trans (A_eq10 (R21 m) c ⟨1, h⟩)).trans (R21_apply m c _)).trans ((W22_of_ne m c _ ne10_1_5).symm.trans (R22_apply m c _).symm)
theorem hF10_w2 (c : Dev nD) (h : 2 < cfg10.W) : (dat10 (R21 m) c).arrAt ⟨2, h⟩ cfg10.N = R22 m c (Pipeline.arrRef spec10 ⟨2, h⟩) :=
  ((((dat10 (R21 m) c).arrAt_in ⟨2, h⟩ rfl _).trans (A_eq10 (R21 m) c ⟨2, h⟩)).trans (R21_apply m c _)).trans ((W22_of_ne m c _ ne10_2_5).symm.trans (R22_apply m c _).symm)
theorem hF10_w3 (c : Dev nD) (h : 3 < cfg10.W) : (dat10 (R21 m) c).arrAt ⟨3, h⟩ cfg10.N = R22 m c (Pipeline.arrRef spec10 ⟨3, h⟩) :=
  ((((dat10 (R21 m) c).arrAt_in ⟨3, h⟩ rfl _).trans (A_eq10 (R21 m) c ⟨3, h⟩)).trans (R21_apply m c _)).trans ((W22_of_ne m c _ ne10_3_5).symm.trans (R22_apply m c _).symm)
theorem hF10_w4 (c : Dev nD) (h : 4 < cfg10.W) : (dat10 (R21 m) c).arrAt ⟨4, h⟩ cfg10.N = R22 m c (Pipeline.arrRef spec10 ⟨4, h⟩) :=
  ((((dat10 (R21 m) c).arrAt_in ⟨4, h⟩ rfl _).trans (A_eq10 (R21 m) c ⟨4, h⟩)).trans (R21_apply m c _)).trans ((W22_of_ne m c _ ne10_4_5).symm.trans (R22_apply m c _).symm)
theorem hF10_w5 (c : Dev nD) (h : 5 < cfg10.W) : (dat10 (R21 m) c).arrAt ⟨5, h⟩ cfg10.N = R22 m c (Pipeline.arrRef spec10 ⟨5, h⟩) :=
  ((o10_5_eq (R21 m) c h).symm.trans (W22_o5 m c).symm).trans (R22_apply m c _).symm
theorem hF10 (c : Dev nD) (w : Fin cfg10.W) : (dat10 (R21 m) c).arrAt w cfg10.N = R22 m c (Pipeline.arrRef spec10 w) :=
  match w with
  | ⟨0, h⟩ => hF10_w0 m c h
  | ⟨1, h⟩ => hF10_w1 m c h
  | ⟨2, h⟩ => hF10_w2 m c h
  | ⟨3, h⟩ => hF10_w3 m c h
  | ⟨4, h⟩ => hF10_w4 m c h
  | ⟨5, h⟩ => hF10_w5 m c h
theorem hrest10 (c : Dev nD) : ∀ b, b ∉ Finset.univ.image (Pipeline.arrRef spec10) → R22 m c b = R21 m c b :=
  fun b hb => (R22_apply m c b).trans ((W22_of_ne m c b
    (fun e => hb (Finset.mem_image.mpr ⟨⟨5, lt10_5⟩, Finset.mem_univ _, e.symm⟩))
    ).trans (R21_apply m c b).symm)
theorem hF11_w0 (c : Dev nD) (h : 0 < cfg11.W) : (dat11 (R23 m) c).arrAt ⟨0, h⟩ cfg11.N = R24 m c (Pipeline.arrRef spec11 ⟨0, h⟩) :=
  ((((dat11 (R23 m) c).arrAt_in ⟨0, h⟩ rfl _).trans (A_eq11 (R23 m) c ⟨0, h⟩)).trans (R23_apply m c _)).trans ((W24_of_ne m c _ ne11_0_3 ne11_0_4 ne11_0_5).symm.trans (R24_apply m c _).symm)
theorem hF11_w1 (c : Dev nD) (h : 1 < cfg11.W) : (dat11 (R23 m) c).arrAt ⟨1, h⟩ cfg11.N = R24 m c (Pipeline.arrRef spec11 ⟨1, h⟩) :=
  ((((dat11 (R23 m) c).arrAt_in ⟨1, h⟩ rfl _).trans (A_eq11 (R23 m) c ⟨1, h⟩)).trans (R23_apply m c _)).trans ((W24_of_ne m c _ ne11_1_3 ne11_1_4 ne11_1_5).symm.trans (R24_apply m c _).symm)
theorem hF11_w2 (c : Dev nD) (h : 2 < cfg11.W) : (dat11 (R23 m) c).arrAt ⟨2, h⟩ cfg11.N = R24 m c (Pipeline.arrRef spec11 ⟨2, h⟩) :=
  ((((dat11 (R23 m) c).arrAt_in ⟨2, h⟩ rfl _).trans (A_eq11 (R23 m) c ⟨2, h⟩)).trans (R23_apply m c _)).trans ((W24_of_ne m c _ ne11_2_3 ne11_2_4 ne11_2_5).symm.trans (R24_apply m c _).symm)
theorem hF11_w3 (c : Dev nD) (h : 3 < cfg11.W) : (dat11 (R23 m) c).arrAt ⟨3, h⟩ cfg11.N = R24 m c (Pipeline.arrRef spec11 ⟨3, h⟩) :=
  ((o11_3_eq (R23 m) c h).symm.trans (W24_o3 m c).symm).trans (R24_apply m c _).symm
theorem hF11_w4 (c : Dev nD) (h : 4 < cfg11.W) : (dat11 (R23 m) c).arrAt ⟨4, h⟩ cfg11.N = R24 m c (Pipeline.arrRef spec11 ⟨4, h⟩) :=
  ((o11_4_eq (R23 m) c h).symm.trans (W24_o4 m c).symm).trans (R24_apply m c _).symm
theorem hF11_w5 (c : Dev nD) (h : 5 < cfg11.W) : (dat11 (R23 m) c).arrAt ⟨5, h⟩ cfg11.N = R24 m c (Pipeline.arrRef spec11 ⟨5, h⟩) :=
  ((o11_5_eq (R23 m) c h).symm.trans (W24_o5 m c).symm).trans (R24_apply m c _).symm
theorem hF11 (c : Dev nD) (w : Fin cfg11.W) : (dat11 (R23 m) c).arrAt w cfg11.N = R24 m c (Pipeline.arrRef spec11 w) :=
  match w with
  | ⟨0, h⟩ => hF11_w0 m c h
  | ⟨1, h⟩ => hF11_w1 m c h
  | ⟨2, h⟩ => hF11_w2 m c h
  | ⟨3, h⟩ => hF11_w3 m c h
  | ⟨4, h⟩ => hF11_w4 m c h
  | ⟨5, h⟩ => hF11_w5 m c h
theorem hrest11 (c : Dev nD) : ∀ b, b ∉ Finset.univ.image (Pipeline.arrRef spec11) → R24 m c b = R23 m c b :=
  fun b hb => (R24_apply m c b).trans ((W24_of_ne m c b
    (fun e => hb (Finset.mem_image.mpr ⟨⟨3, lt11_3⟩, Finset.mem_univ _, e.symm⟩))
    (fun e => hb (Finset.mem_image.mpr ⟨⟨4, lt11_4⟩, Finset.mem_univ _, e.symm⟩))
    (fun e => hb (Finset.mem_image.mpr ⟨⟨5, lt11_5⟩, Finset.mem_univ _, e.symm⟩))
    ).trans (R23_apply m c b).symm)
theorem hF12_w0 (c : Dev nD) (h : 0 < cfg12.W) : (dat12 (R25 m) c).arrAt ⟨0, h⟩ cfg12.N = R26 m c (Pipeline.arrRef spec12 ⟨0, h⟩) :=
  ((((dat12 (R25 m) c).arrAt_in ⟨0, h⟩ rfl _).trans (A_eq12 (R25 m) c ⟨0, h⟩)).trans (R25_apply m c _)).trans ((W26_of_ne m c _ ne12_0_5).symm.trans (R26_apply m c _).symm)
theorem hF12_w1 (c : Dev nD) (h : 1 < cfg12.W) : (dat12 (R25 m) c).arrAt ⟨1, h⟩ cfg12.N = R26 m c (Pipeline.arrRef spec12 ⟨1, h⟩) :=
  ((((dat12 (R25 m) c).arrAt_in ⟨1, h⟩ rfl _).trans (A_eq12 (R25 m) c ⟨1, h⟩)).trans (R25_apply m c _)).trans ((W26_of_ne m c _ ne12_1_5).symm.trans (R26_apply m c _).symm)
theorem hF12_w2 (c : Dev nD) (h : 2 < cfg12.W) : (dat12 (R25 m) c).arrAt ⟨2, h⟩ cfg12.N = R26 m c (Pipeline.arrRef spec12 ⟨2, h⟩) :=
  ((((dat12 (R25 m) c).arrAt_in ⟨2, h⟩ rfl _).trans (A_eq12 (R25 m) c ⟨2, h⟩)).trans (R25_apply m c _)).trans ((W26_of_ne m c _ ne12_2_5).symm.trans (R26_apply m c _).symm)
theorem hF12_w3 (c : Dev nD) (h : 3 < cfg12.W) : (dat12 (R25 m) c).arrAt ⟨3, h⟩ cfg12.N = R26 m c (Pipeline.arrRef spec12 ⟨3, h⟩) :=
  ((((dat12 (R25 m) c).arrAt_in ⟨3, h⟩ rfl _).trans (A_eq12 (R25 m) c ⟨3, h⟩)).trans (R25_apply m c _)).trans ((W26_of_ne m c _ ne12_3_5).symm.trans (R26_apply m c _).symm)
theorem hF12_w4 (c : Dev nD) (h : 4 < cfg12.W) : (dat12 (R25 m) c).arrAt ⟨4, h⟩ cfg12.N = R26 m c (Pipeline.arrRef spec12 ⟨4, h⟩) :=
  ((((dat12 (R25 m) c).arrAt_in ⟨4, h⟩ rfl _).trans (A_eq12 (R25 m) c ⟨4, h⟩)).trans (R25_apply m c _)).trans ((W26_of_ne m c _ ne12_4_5).symm.trans (R26_apply m c _).symm)
theorem hF12_w5 (c : Dev nD) (h : 5 < cfg12.W) : (dat12 (R25 m) c).arrAt ⟨5, h⟩ cfg12.N = R26 m c (Pipeline.arrRef spec12 ⟨5, h⟩) :=
  ((o12_5_eq (R25 m) c h).symm.trans (W26_o5 m c).symm).trans (R26_apply m c _).symm
theorem hF12 (c : Dev nD) (w : Fin cfg12.W) : (dat12 (R25 m) c).arrAt w cfg12.N = R26 m c (Pipeline.arrRef spec12 w) :=
  match w with
  | ⟨0, h⟩ => hF12_w0 m c h
  | ⟨1, h⟩ => hF12_w1 m c h
  | ⟨2, h⟩ => hF12_w2 m c h
  | ⟨3, h⟩ => hF12_w3 m c h
  | ⟨4, h⟩ => hF12_w4 m c h
  | ⟨5, h⟩ => hF12_w5 m c h
theorem hrest12 (c : Dev nD) : ∀ b, b ∉ Finset.univ.image (Pipeline.arrRef spec12) → R26 m c b = R25 m c b :=
  fun b hb => (R26_apply m c b).trans ((W26_of_ne m c b
    (fun e => hb (Finset.mem_image.mpr ⟨⟨5, lt12_5⟩, Finset.mem_univ _, e.symm⟩))
    ).trans (R25_apply m c b).symm)
theorem hF13_w0 (c : Dev nD) (h : 0 < cfg13.W) : (dat13 (R27 m) c).arrAt ⟨0, h⟩ cfg13.N = R28 m c (Pipeline.arrRef spec13 ⟨0, h⟩) :=
  ((((dat13 (R27 m) c).arrAt_in ⟨0, h⟩ rfl _).trans (A_eq13 (R27 m) c ⟨0, h⟩)).trans (R27_apply m c _)).trans ((W28_of_ne m c _ ne13_0_4).symm.trans (R28_apply m c _).symm)
theorem hF13_w1 (c : Dev nD) (h : 1 < cfg13.W) : (dat13 (R27 m) c).arrAt ⟨1, h⟩ cfg13.N = R28 m c (Pipeline.arrRef spec13 ⟨1, h⟩) :=
  ((((dat13 (R27 m) c).arrAt_in ⟨1, h⟩ rfl _).trans (A_eq13 (R27 m) c ⟨1, h⟩)).trans (R27_apply m c _)).trans ((W28_of_ne m c _ ne13_1_4).symm.trans (R28_apply m c _).symm)
theorem hF13_w2 (c : Dev nD) (h : 2 < cfg13.W) : (dat13 (R27 m) c).arrAt ⟨2, h⟩ cfg13.N = R28 m c (Pipeline.arrRef spec13 ⟨2, h⟩) :=
  ((((dat13 (R27 m) c).arrAt_in ⟨2, h⟩ rfl _).trans (A_eq13 (R27 m) c ⟨2, h⟩)).trans (R27_apply m c _)).trans ((W28_of_ne m c _ ne13_2_4).symm.trans (R28_apply m c _).symm)
theorem hF13_w3 (c : Dev nD) (h : 3 < cfg13.W) : (dat13 (R27 m) c).arrAt ⟨3, h⟩ cfg13.N = R28 m c (Pipeline.arrRef spec13 ⟨3, h⟩) :=
  ((((dat13 (R27 m) c).arrAt_in ⟨3, h⟩ rfl _).trans (A_eq13 (R27 m) c ⟨3, h⟩)).trans (R27_apply m c _)).trans ((W28_of_ne m c _ ne13_3_4).symm.trans (R28_apply m c _).symm)
theorem hF13_w4 (c : Dev nD) (h : 4 < cfg13.W) : (dat13 (R27 m) c).arrAt ⟨4, h⟩ cfg13.N = R28 m c (Pipeline.arrRef spec13 ⟨4, h⟩) :=
  ((o13_4_eq (R27 m) c h).symm.trans (W28_o4 m c).symm).trans (R28_apply m c _).symm
theorem hF13 (c : Dev nD) (w : Fin cfg13.W) : (dat13 (R27 m) c).arrAt w cfg13.N = R28 m c (Pipeline.arrRef spec13 w) :=
  match w with
  | ⟨0, h⟩ => hF13_w0 m c h
  | ⟨1, h⟩ => hF13_w1 m c h
  | ⟨2, h⟩ => hF13_w2 m c h
  | ⟨3, h⟩ => hF13_w3 m c h
  | ⟨4, h⟩ => hF13_w4 m c h
theorem hrest13 (c : Dev nD) : ∀ b, b ∉ Finset.univ.image (Pipeline.arrRef spec13) → R28 m c b = R27 m c b :=
  fun b hb => (R28_apply m c b).trans ((W28_of_ne m c b
    (fun e => hb (Finset.mem_image.mpr ⟨⟨4, lt13_4⟩, Finset.mem_univ _, e.symm⟩))
    ).trans (R27_apply m c b).symm)
theorem hF14_w0 (c : Dev nD) (h : 0 < cfg14.W) : (dat14 (R29 m) c).arrAt ⟨0, h⟩ cfg14.N = R30 m c (Pipeline.arrRef spec14 ⟨0, h⟩) :=
  ((((dat14 (R29 m) c).arrAt_in ⟨0, h⟩ rfl _).trans (A_eq14 (R29 m) c ⟨0, h⟩)).trans (R29_apply m c _)).trans ((W30_of_ne m c _ ne14_0_6).symm.trans (R30_apply m c _).symm)
theorem hF14_w1 (c : Dev nD) (h : 1 < cfg14.W) : (dat14 (R29 m) c).arrAt ⟨1, h⟩ cfg14.N = R30 m c (Pipeline.arrRef spec14 ⟨1, h⟩) :=
  ((((dat14 (R29 m) c).arrAt_in ⟨1, h⟩ rfl _).trans (A_eq14 (R29 m) c ⟨1, h⟩)).trans (R29_apply m c _)).trans ((W30_of_ne m c _ ne14_1_6).symm.trans (R30_apply m c _).symm)
theorem hF14_w2 (c : Dev nD) (h : 2 < cfg14.W) : (dat14 (R29 m) c).arrAt ⟨2, h⟩ cfg14.N = R30 m c (Pipeline.arrRef spec14 ⟨2, h⟩) :=
  ((((dat14 (R29 m) c).arrAt_in ⟨2, h⟩ rfl _).trans (A_eq14 (R29 m) c ⟨2, h⟩)).trans (R29_apply m c _)).trans ((W30_of_ne m c _ ne14_2_6).symm.trans (R30_apply m c _).symm)
theorem hF14_w3 (c : Dev nD) (h : 3 < cfg14.W) : (dat14 (R29 m) c).arrAt ⟨3, h⟩ cfg14.N = R30 m c (Pipeline.arrRef spec14 ⟨3, h⟩) :=
  ((((dat14 (R29 m) c).arrAt_in ⟨3, h⟩ rfl _).trans (A_eq14 (R29 m) c ⟨3, h⟩)).trans (R29_apply m c _)).trans ((W30_of_ne m c _ ne14_3_6).symm.trans (R30_apply m c _).symm)
theorem hF14_w4 (c : Dev nD) (h : 4 < cfg14.W) : (dat14 (R29 m) c).arrAt ⟨4, h⟩ cfg14.N = R30 m c (Pipeline.arrRef spec14 ⟨4, h⟩) :=
  ((((dat14 (R29 m) c).arrAt_in ⟨4, h⟩ rfl _).trans (A_eq14 (R29 m) c ⟨4, h⟩)).trans (R29_apply m c _)).trans ((W30_of_ne m c _ ne14_4_6).symm.trans (R30_apply m c _).symm)
theorem hF14_w5 (c : Dev nD) (h : 5 < cfg14.W) : (dat14 (R29 m) c).arrAt ⟨5, h⟩ cfg14.N = R30 m c (Pipeline.arrRef spec14 ⟨5, h⟩) :=
  ((((dat14 (R29 m) c).arrAt_in ⟨5, h⟩ rfl _).trans (A_eq14 (R29 m) c ⟨5, h⟩)).trans (R29_apply m c _)).trans ((W30_of_ne m c _ ne14_5_6).symm.trans (R30_apply m c _).symm)
theorem hF14_w6 (c : Dev nD) (h : 6 < cfg14.W) : (dat14 (R29 m) c).arrAt ⟨6, h⟩ cfg14.N = R30 m c (Pipeline.arrRef spec14 ⟨6, h⟩) :=
  ((o14_6_eq (R29 m) c h).symm.trans (W30_o6 m c).symm).trans (R30_apply m c _).symm
theorem hF14 (c : Dev nD) (w : Fin cfg14.W) : (dat14 (R29 m) c).arrAt w cfg14.N = R30 m c (Pipeline.arrRef spec14 w) :=
  match w with
  | ⟨0, h⟩ => hF14_w0 m c h
  | ⟨1, h⟩ => hF14_w1 m c h
  | ⟨2, h⟩ => hF14_w2 m c h
  | ⟨3, h⟩ => hF14_w3 m c h
  | ⟨4, h⟩ => hF14_w4 m c h
  | ⟨5, h⟩ => hF14_w5 m c h
  | ⟨6, h⟩ => hF14_w6 m c h
theorem hrest14 (c : Dev nD) : ∀ b, b ∉ Finset.univ.image (Pipeline.arrRef spec14) → R30 m c b = R29 m c b :=
  fun b hb => (R30_apply m c b).trans ((W30_of_ne m c b
    (fun e => hb (Finset.mem_image.mpr ⟨⟨6, lt14_6⟩, Finset.mem_univ _, e.symm⟩))
    ).trans (R29_apply m c b).symm)

end Cert.KernelIdeal.Hand
-- ==== Proof.KI.Seg0.lean ====
import proofs.«413302_j72232759984513_1_alg».proof.Proof.Gen.KernelIdeal.Launch
import proofs.«413302_j72232759984513_1_alg».proof.Proof.Gen.KernelIdeal.Skeleton
import proofs.«413302_j72232759984513_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«413302_j72232759984513_1_alg».proof.Proof.Gen.KernelIdeal.Regions
import proofs.«413302_j72232759984513_1_alg».proof.Proof.KI.Chain

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Kernel region 0 as a segment of @main

The region is entered from every unscoped buffer at the contents `W1` beside the generator register and the core's
`owes`, and left at `W2`. At entry its windows' arrays are split out of the unscoped buffers; at exit they are put back
at what the pipeline leaves in them. The generator register and the scoped buffers no window stages go into the
pipeline's invariant at the first point and come back at the last. The body owes nothing at the pipeline's cells and
bounds the core's recorded pairs by nothing, and the kernel has no semaphore of its own. -/

variable (m : (ℓ : Loc nD τ sig) → Buf (Elt F) ℓ)

-- applying a library lemma stated over the pinned configuration needs unification to unfold plain definitions in a
-- metavariable's type
set_option backward.isDefEq.respectTransparency.types false in
def reg0 : Pipeline.RegionSeg (pcfgs (F := F)) Gen.adm (pdats m) () defs₀ Variants.none Lz lvz 0 where
  win := launch0.win.to₀
  block_pos := launch0.block_pos
  stage_whole := launch0.stage_whole
  K := PEmpty
  osem k := k.elim
  ho := Pipeline.OwnSemFacts.none _
  hbody c := by
    show Pipeline.BodyObligationLoose (dat0 (R1 m) c) defs₀ Variants.none () Set.univ
    exact (body_obligation0 (R1 m) c).loose
  hwaits := Pipeline.hwaits_of_owed_zero _ _ _ _ Lz lvz 0 fun c n => owed_eq0 (R1 m) c n
  pre c := iprop(StableHlo.held (c : Thread nD τ) (Pipeline.ucRefs τ sig) (W1 m c) ∗ Rr c)
  post c := iprop(StableHlo.held (c : Thread nD τ) (Pipeline.ucRefs τ sig) (W2 m c) ∗ Rr c)
  X c := iprop(∃ r, prngReg c r)
  Y c := iprop(∃ r, prngReg c r)
  Z c := Pipeline.unscopedRest (Ix := Unit) (Name := ℕ) (U := UR sig nD τ) (Lvl := ℕ) spec0 c (R1 m c)
  hentry c := by
    rw [Pipeline.ownSems0_none]
    have hsplit := Pipeline.arrays_of_unscopedBufs (p := 0) (pcfgs (F := F)) Gen.adm (pdats m) launch0.win launch0.arr_whole c
      ((pdats m 0 c).share_full fun w => q_eq0 (R1 m) c w) (R1 m c) fun w => A_eq0 (R1 m) c w
    rw [show (unscopedBufs (Ix := Unit) (Name := ℕ) (U := UR sig nD τ) (Lvl := ℕ) c (R1 m c) : sProp 𝕄)
      = StableHlo.held (c : Thread nD τ) (Pipeline.ucRefs τ sig) (W1 m c) from Pipeline.unscopedBufs_held c (W1 m c)] at hsplit
    have h0 : ∀ n, (pdats m 0 c).owed n = 0 := fun n => owed_eq0 (R1 m) c n
    have hr : (pdats m 0 c).recorded 0 = Set.univ := recorded_eq0 (R1 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [h0, hr]
      icases HO with ⟨%W, HO⟩; iexists W; isplitr; · ipureintro; exact fun _ _ => Or.inl trivial
      iexact HO
    isplitl [Hp]; · iexact Hp
    iexact Hrest
  hin c := by
    refine BIBase.Entails.trans ?_ (Phi_in0 (R1 m) c)
    iintro ⟨Hp, -, Hr⟩
    isplitl [Hp]; · iexact Hp
    iexact Hr
  hout c := by
    rw [Pipeline.ownSems0_none]
    refine BIBase.Entails.trans (Phi_out0 (R1 m) c) ?_
    iintro ⟨Hp, Hr⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun w => q_eq0 (R1 m) c w)
      (R1 m c) (R2 m c) ((pdats m 0 c).arrAt · cfg0.N) (hF0 m c) (hrest0 m c)
    rw [show (unscopedBufs (Ix := Unit) (Name := ℕ) (U := UR sig nD τ) (Lvl := ℕ) c (R2 m c) : sProp 𝕄)
      = StableHlo.held (c : Thread nD τ) (Pipeline.ucRefs τ sig) (W2 m c) from Pipeline.unscopedBufs_held c (W2 m c)] at hjoin
    have h0 : ∀ n, (pdats m 0 c).owed n = 0 := fun n => owed_eq0 (R1 m) c n
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [h0]
    icases HO with ⟨%W, -, HO⟩; iexists W; iexact HO

theorem reg0_pre (c : Dev nD) : (reg0 m).pre c = iprop(StableHlo.held (c : Thread nD τ) (Pipeline.ucRefs τ sig) (W1 m c) ∗ Rr c) := rfl
theorem reg0_post (c : Dev nD) : (reg0 m).post c = iprop(StableHlo.held (c : Thread nD τ) (Pipeline.ucRefs τ sig) (W2 m c) ∗ Rr c) := rfl

end Cert.KernelIdeal.Hand

end
-- ==== Proof.KI.Seg1.lean ====
import proofs.«413302_j72232759984513_1_alg».proof.Proof.Gen.KernelIdeal.Launch
import proofs.«413302_j72232759984513_1_alg».proof.Proof.Gen.KernelIdeal.Skeleton
import proofs.«413302_j72232759984513_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«413302_j72232759984513_1_alg».proof.Proof.Gen.KernelIdeal.Regions
import proofs.«413302_j72232759984513_1_alg».proof.Proof.KI.Chain

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Kernel region 1 as a segment of @main

The region is entered from every unscoped buffer at the contents `W3` beside the generator register and the core's
`owes`, and left at `W4`. At entry its windows' arrays are split out of the unscoped buffers; at exit they are put back
at what the pipeline leaves in them. The generator register and the scoped buffers no window stages go into the
pipeline's invariant at the first point and come back at the last. The body owes nothing at the pipeline's cells and
bounds the core's recorded pairs by nothing, and the kernel has no semaphore of its own. -/

variable (m : (ℓ : Loc nD τ sig) → Buf (Elt F) ℓ)

-- applying a library lemma stated over the pinned configuration needs unification to unfold plain definitions in a
-- metavariable's type
set_option backward.isDefEq.respectTransparency.types false in
def reg1 : Pipeline.RegionSeg (pcfgs (F := F)) Gen.adm (pdats m) () defs₀ Variants.none Lz lvz 1 where
  win := launch1.win.to₀
  block_pos := launch1.block_pos
  stage_whole := launch1.stage_whole
  K := PEmpty
  osem k := k.elim
  ho := Pipeline.OwnSemFacts.none _
  hbody c := by
    show Pipeline.BodyObligationLoose (dat1 (R3 m) c) defs₀ Variants.none () Set.univ
    exact (body_obligation1 (R3 m) c).loose
  hwaits := Pipeline.hwaits_of_owed_zero _ _ _ _ Lz lvz 1 fun c n => owed_eq1 (R3 m) c n
  pre c := iprop(StableHlo.held (c : Thread nD τ) (Pipeline.ucRefs τ sig) (W3 m c) ∗ Rr c)
  post c := iprop(StableHlo.held (c : Thread nD τ) (Pipeline.ucRefs τ sig) (W4 m c) ∗ Rr c)
  X c := iprop(∃ r, prngReg c r)
  Y c := iprop(∃ r, prngReg c r)
  Z c := Pipeline.unscopedRest (Ix := Unit) (Name := ℕ) (U := UR sig nD τ) (Lvl := ℕ) spec1 c (R3 m c)
  hentry c := by
    rw [Pipeline.ownSems0_none]
    have hsplit := Pipeline.arrays_of_unscopedBufs (p := 1) (pcfgs (F := F)) Gen.adm (pdats m) launch1.win launch1.arr_whole c
      ((pdats m 1 c).share_full fun w => q_eq1 (R3 m) c w) (R3 m c) fun w => A_eq1 (R3 m) c w
    rw [show (unscopedBufs (Ix := Unit) (Name := ℕ) (U := UR sig nD τ) (Lvl := ℕ) c (R3 m c) : sProp 𝕄)
      = StableHlo.held (c : Thread nD τ) (Pipeline.ucRefs τ sig) (W3 m c) from Pipeline.unscopedBufs_held c (W3 m c)] at hsplit
    have h0 : ∀ n, (pdats m 1 c).owed n = 0 := fun n => owed_eq1 (R3 m) c n
    have hr : (pdats m 1 c).recorded 0 = Set.univ := recorded_eq1 (R3 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [h0, hr]
      icases HO with ⟨%W, HO⟩; iexists W; isplitr; · ipureintro; exact fun _ _ => Or.inl trivial
      iexact HO
    isplitl [Hp]; · iexact Hp
    iexact Hrest
  hin c := by
    refine BIBase.Entails.trans ?_ (Phi_in1 (R3 m) c)
    iintro ⟨Hp, -, Hr⟩
    isplitl [Hp]; · iexact Hp
    iexact Hr
  hout c := by
    rw [Pipeline.ownSems0_none]
    refine BIBase.Entails.trans (Phi_out1 (R3 m) c) ?_
    iintro ⟨Hp, Hr⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun w => q_eq1 (R3 m) c w)
      (R3 m c) (R4 m c) ((pdats m 1 c).arrAt · cfg1.N) (hF1 m c) (hrest1 m c)
    rw [show (unscopedBufs (Ix := Unit) (Name := ℕ) (U := UR sig nD τ) (Lvl := ℕ) c (R4 m c) : sProp 𝕄)
      = StableHlo.held (c : Thread nD τ) (Pipeline.ucRefs τ sig) (W4 m c) from Pipeline.unscopedBufs_held c (W4 m c)] at hjoin
    have h0 : ∀ n, (pdats m 1 c).owed n = 0 := fun n => owed_eq1 (R3 m) c n
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [h0]
    icases HO with ⟨%W, -, HO⟩; iexists W; iexact HO

theorem reg1_pre (c : Dev nD) : (reg1 m).pre c = iprop(StableHlo.held (c : Thread nD τ) (Pipeline.ucRefs τ sig) (W3 m c) ∗ Rr c) := rfl
theorem reg1_post (c : Dev nD) : (reg1 m).post c = iprop(StableHlo.held (c : Thread nD τ) (Pipeline.ucRefs τ sig) (W4 m c) ∗ Rr c) := rfl

end Cert.KernelIdeal.Hand

end
-- ==== Proof.KI.Seg2.lean ====
import proofs.«413302_j72232759984513_1_alg».proof.Proof.Gen.KernelIdeal.Launch
import proofs.«413302_j72232759984513_1_alg».proof.Proof.Gen.KernelIdeal.Skeleton
import proofs.«413302_j72232759984513_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«413302_j72232759984513_1_alg».proof.Proof.Gen.KernelIdeal.Regions
import proofs.«413302_j72232759984513_1_alg».proof.Proof.KI.Chain

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Kernel region 2 as a segment of @main

The region is entered from every unscoped buffer at the contents `W5` beside the generator register and the core's
`owes`, and left at `W6`. At entry its windows' arrays are split out of the unscoped buffers; at exit they are put back
at what the pipeline leaves in them. The generator register and the scoped buffers no window stages go into the
pipeline's invariant at the first point and come back at the last. The body owes nothing at the pipeline's cells and
bounds the core's recorded pairs by nothing, and the kernel has no semaphore of its own. -/

variable (m : (ℓ : Loc nD τ sig) → Buf (Elt F) ℓ)

-- applying a library lemma stated over the pinned configuration needs unification to unfold plain definitions in a
-- metavariable's type
set_option backward.isDefEq.respectTransparency.types false in
def reg2 : Pipeline.RegionSeg (pcfgs (F := F)) Gen.adm (pdats m) () defs₀ Variants.none Lz lvz 2 where
  win := launch2.win.to₀
  block_pos := launch2.block_pos
  stage_whole := launch2.stage_whole
  K := PEmpty
  osem k := k.elim
  ho := Pipeline.OwnSemFacts.none _
  hbody c := by
    show Pipeline.BodyObligationLoose (dat2 (R5 m) c) defs₀ Variants.none () Set.univ
    exact (body_obligation2 (R5 m) c).loose
  hwaits := Pipeline.hwaits_of_owed_zero _ _ _ _ Lz lvz 2 fun c n => owed_eq2 (R5 m) c n
  pre c := iprop(StableHlo.held (c : Thread nD τ) (Pipeline.ucRefs τ sig) (W5 m c) ∗ Rr c)
  post c := iprop(StableHlo.held (c : Thread nD τ) (Pipeline.ucRefs τ sig) (W6 m c) ∗ Rr c)
  X c := iprop(∃ r, prngReg c r)
  Y c := iprop(∃ r, prngReg c r)
  Z c := Pipeline.unscopedRest (Ix := Unit) (Name := ℕ) (U := UR sig nD τ) (Lvl := ℕ) spec2 c (R5 m c)
  hentry c := by
    rw [Pipeline.ownSems0_none]
    have hsplit := Pipeline.arrays_of_unscopedBufs (p := 2) (pcfgs (F := F)) Gen.adm (pdats m) launch2.win launch2.arr_whole c
      ((pdats m 2 c).share_full fun w => q_eq2 (R5 m) c w) (R5 m c) fun w => A_eq2 (R5 m) c w
    rw [show (unscopedBufs (Ix := Unit) (Name := ℕ) (U := UR sig nD τ) (Lvl := ℕ) c (R5 m c) : sProp 𝕄)
      = StableHlo.held (c : Thread nD τ) (Pipeline.ucRefs τ sig) (W5 m c) from Pipeline.unscopedBufs_held c (W5 m c)] at hsplit
    have h0 : ∀ n, (pdats m 2 c).owed n = 0 := fun n => owed_eq2 (R5 m) c n
    have hr : (pdats m 2 c).recorded 0 = Set.univ := recorded_eq2 (R5 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [h0, hr]
      icases HO with ⟨%W, HO⟩; iexists W; isplitr; · ipureintro; exact fun _ _ => Or.inl trivial
      iexact HO
    isplitl [Hp]; · iexact Hp
    iexact Hrest
  hin c := by
    refine BIBase.Entails.trans ?_ (Phi_in2 (R5 m) c)
    iintro ⟨Hp, -, Hr⟩
    isplitl [Hp]; · iexact Hp
    iexact Hr
  hout c := by
    rw [Pipeline.ownSems0_none]
    refine BIBase.Entails.trans (Phi_out2 (R5 m) c) ?_
    iintro ⟨Hp, Hr⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun w => q_eq2 (R5 m) c w)
      (R5 m c) (R6 m c) ((pdats m 2 c).arrAt · cfg2.N) (hF2 m c) (hrest2 m c)
    rw [show (unscopedBufs (Ix := Unit) (Name := ℕ) (U := UR sig nD τ) (Lvl := ℕ) c (R6 m c) : sProp 𝕄)
      = StableHlo.held (c : Thread nD τ) (Pipeline.ucRefs τ sig) (W6 m c) from Pipeline.unscopedBufs_held c (W6 m c)] at hjoin
    have h0 : ∀ n, (pdats m 2 c).owed n = 0 := fun n => owed_eq2 (R5 m) c n
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [h0]
    icases HO with ⟨%W, -, HO⟩; iexists W; iexact HO

theorem reg2_pre (c : Dev nD) : (reg2 m).pre c = iprop(StableHlo.held (c : Thread nD τ) (Pipeline.ucRefs τ sig) (W5 m c) ∗ Rr c) := rfl
theorem reg2_post (c : Dev nD) : (reg2 m).post c = iprop(StableHlo.held (c : Thread nD τ) (Pipeline.ucRefs τ sig) (W6 m c) ∗ Rr c) := rfl

end Cert.KernelIdeal.Hand

end
-- ==== Proof.KI.Seg3.lean ====
import proofs.«413302_j72232759984513_1_alg».proof.Proof.Gen.KernelIdeal.Launch
import proofs.«413302_j72232759984513_1_alg».proof.Proof.Gen.KernelIdeal.Skeleton
import proofs.«413302_j72232759984513_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«413302_j72232759984513_1_alg».proof.Proof.Gen.KernelIdeal.Regions
import proofs.«413302_j72232759984513_1_alg».proof.Proof.KI.Chain

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Kernel region 3 as a segment of @main

The region is entered from every unscoped buffer at the contents `W7` beside the generator register and the core's
`owes`, and left at `W8`. At entry its windows' arrays are split out of the unscoped buffers; at exit they are put back
at what the pipeline leaves in them. The generator register and the scoped buffers no window stages go into the
pipeline's invariant at the first point and come back at the last. The body owes nothing at the pipeline's cells and
bounds the core's recorded pairs by nothing, and the kernel has no semaphore of its own. -/

variable (m : (ℓ : Loc nD τ sig) → Buf (Elt F) ℓ)

-- applying a library lemma stated over the pinned configuration needs unification to unfold plain definitions in a
-- metavariable's type
set_option backward.isDefEq.respectTransparency.types false in
def reg3 : Pipeline.RegionSeg (pcfgs (F := F)) Gen.adm (pdats m) () defs₀ Variants.none Lz lvz 3 where
  win := launch3.win.to₀
  block_pos := launch3.block_pos
  stage_whole := launch3.stage_whole
  K := PEmpty
  osem k := k.elim
  ho := Pipeline.OwnSemFacts.none _
  hbody c := by
    show Pipeline.BodyObligationLoose (dat3 (R7 m) c) defs₀ Variants.none () Set.univ
    exact (body_obligation3 (R7 m) c).loose
  hwaits := Pipeline.hwaits_of_owed_zero _ _ _ _ Lz lvz 3 fun c n => owed_eq3 (R7 m) c n
  pre c := iprop(StableHlo.held (c : Thread nD τ) (Pipeline.ucRefs τ sig) (W7 m c) ∗ Rr c)
  post c := iprop(StableHlo.held (c : Thread nD τ) (Pipeline.ucRefs τ sig) (W8 m c) ∗ Rr c)
  X c := iprop(∃ r, prngReg c r)
  Y c := iprop(∃ r, prngReg c r)
  Z c := Pipeline.unscopedRest (Ix := Unit) (Name := ℕ) (U := UR sig nD τ) (Lvl := ℕ) spec3 c (R7 m c)
  hentry c := by
    rw [Pipeline.ownSems0_none]
    have hsplit := Pipeline.arrays_of_unscopedBufs (p := 3) (pcfgs (F := F)) Gen.adm (pdats m) launch3.win launch3.arr_whole c
      ((pdats m 3 c).share_full fun w => q_eq3 (R7 m) c w) (R7 m c) fun w => A_eq3 (R7 m) c w
    rw [show (unscopedBufs (Ix := Unit) (Name := ℕ) (U := UR sig nD τ) (Lvl := ℕ) c (R7 m c) : sProp 𝕄)
      = StableHlo.held (c : Thread nD τ) (Pipeline.ucRefs τ sig) (W7 m c) from Pipeline.unscopedBufs_held c (W7 m c)] at hsplit
    have h0 : ∀ n, (pdats m 3 c).owed n = 0 := fun n => owed_eq3 (R7 m) c n
    have hr : (pdats m 3 c).recorded 0 = Set.univ := recorded_eq3 (R7 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [h0, hr]
      icases HO with ⟨%W, HO⟩; iexists W; isplitr; · ipureintro; exact fun _ _ => Or.inl trivial
      iexact HO
    isplitl [Hp]; · iexact Hp
    iexact Hrest
  hin c := by
    refine BIBase.Entails.trans ?_ (Phi_in3 (R7 m) c)
    iintro ⟨Hp, -, Hr⟩
    isplitl [Hp]; · iexact Hp
    iexact Hr
  hout c := by
    rw [Pipeline.ownSems0_none]
    refine BIBase.Entails.trans (Phi_out3 (R7 m) c) ?_
    iintro ⟨Hp, Hr⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun w => q_eq3 (R7 m) c w)
      (R7 m c) (R8 m c) ((pdats m 3 c).arrAt · cfg3.N) (hF3 m c) (hrest3 m c)
    rw [show (unscopedBufs (Ix := Unit) (Name := ℕ) (U := UR sig nD τ) (Lvl := ℕ) c (R8 m c) : sProp 𝕄)
      = StableHlo.held (c : Thread nD τ) (Pipeline.ucRefs τ sig) (W8 m c) from Pipeline.unscopedBufs_held c (W8 m c)] at hjoin
    have h0 : ∀ n, (pdats m 3 c).owed n = 0 := fun n => owed_eq3 (R7 m) c n
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [h0]
    icases HO with ⟨%W, -, HO⟩; iexists W; iexact HO

theorem reg3_pre (c : Dev nD) : (reg3 m).pre c = iprop(StableHlo.held (c : Thread nD τ) (Pipeline.ucRefs τ sig) (W7 m c) ∗ Rr c) := rfl
theorem reg3_post (c : Dev nD) : (reg3 m).post c = iprop(StableHlo.held (c : Thread nD τ) (Pipeline.ucRefs τ sig) (W8 m c) ∗ Rr c) := rfl

end Cert.KernelIdeal.Hand

end
-- ==== Proof.KI.Seg4.lean ====
import proofs.«413302_j72232759984513_1_alg».proof.Proof.Gen.KernelIdeal.Launch
import proofs.«413302_j72232759984513_1_alg».proof.Proof.Gen.KernelIdeal.Skeleton
import proofs.«413302_j72232759984513_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«413302_j72232759984513_1_alg».proof.Proof.Gen.KernelIdeal.Regions
import proofs.«413302_j72232759984513_1_alg».proof.Proof.KI.Chain

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Kernel region 4 as a segment of @main

The region is entered from every unscoped buffer at the contents `W9` beside the generator register and the core's
`owes`, and left at `W10`. At entry its windows' arrays are split out of the unscoped buffers; at exit they are put back
at what the pipeline leaves in them. The generator register and the scoped buffers no window stages go into the
pipeline's invariant at the first point and come back at the last. The body owes nothing at the pipeline's cells and
bounds the core's recorded pairs by nothing, and the kernel has no semaphore of its own. -/

variable (m : (ℓ : Loc nD τ sig) → Buf (Elt F) ℓ)

-- applying a library lemma stated over the pinned configuration needs unification to unfold plain definitions in a
-- metavariable's type
set_option backward.isDefEq.respectTransparency.types false in
def reg4 : Pipeline.RegionSeg (pcfgs (F := F)) Gen.adm (pdats m) () defs₀ Variants.none Lz lvz 4 where
  win := launch4.win.to₀
  block_pos := launch4.block_pos
  stage_whole := launch4.stage_whole
  K := PEmpty
  osem k := k.elim
  ho := Pipeline.OwnSemFacts.none _
  hbody c := by
    show Pipeline.BodyObligationLoose (dat4 (R9 m) c) defs₀ Variants.none () Set.univ
    exact (body_obligation4 (R9 m) c).loose
  hwaits := Pipeline.hwaits_of_owed_zero _ _ _ _ Lz lvz 4 fun c n => owed_eq4 (R9 m) c n
  pre c := iprop(StableHlo.held (c : Thread nD τ) (Pipeline.ucRefs τ sig) (W9 m c) ∗ Rr c)
  post c := iprop(StableHlo.held (c : Thread nD τ) (Pipeline.ucRefs τ sig) (W10 m c) ∗ Rr c)
  X c := iprop(∃ r, prngReg c r)
  Y c := iprop(∃ r, prngReg c r)
  Z c := Pipeline.unscopedRest (Ix := Unit) (Name := ℕ) (U := UR sig nD τ) (Lvl := ℕ) spec4 c (R9 m c)
  hentry c := by
    rw [Pipeline.ownSems0_none]
    have hsplit := Pipeline.arrays_of_unscopedBufs (p := 4) (pcfgs (F := F)) Gen.adm (pdats m) launch4.win launch4.arr_whole c
      ((pdats m 4 c).share_full fun w => q_eq4 (R9 m) c w) (R9 m c) fun w => A_eq4 (R9 m) c w
    rw [show (unscopedBufs (Ix := Unit) (Name := ℕ) (U := UR sig nD τ) (Lvl := ℕ) c (R9 m c) : sProp 𝕄)
      = StableHlo.held (c : Thread nD τ) (Pipeline.ucRefs τ sig) (W9 m c) from Pipeline.unscopedBufs_held c (W9 m c)] at hsplit
    have h0 : ∀ n, (pdats m 4 c).owed n = 0 := fun n => owed_eq4 (R9 m) c n
    have hr : (pdats m 4 c).recorded 0 = Set.univ := recorded_eq4 (R9 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [h0, hr]
      icases HO with ⟨%W, HO⟩; iexists W; isplitr; · ipureintro; exact fun _ _ => Or.inl trivial
      iexact HO
    isplitl [Hp]; · iexact Hp
    iexact Hrest
  hin c := by
    refine BIBase.Entails.trans ?_ (Phi_in4 (R9 m) c)
    iintro ⟨Hp, -, Hr⟩
    isplitl [Hp]; · iexact Hp
    iexact Hr
  hout c := by
    rw [Pipeline.ownSems0_none]
    refine BIBase.Entails.trans (Phi_out4 (R9 m) c) ?_
    iintro ⟨Hp, Hr⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun w => q_eq4 (R9 m) c w)
      (R9 m c) (R10 m c) ((pdats m 4 c).arrAt · cfg4.N) (hF4 m c) (hrest4 m c)
    rw [show (unscopedBufs (Ix := Unit) (Name := ℕ) (U := UR sig nD τ) (Lvl := ℕ) c (R10 m c) : sProp 𝕄)
      = StableHlo.held (c : Thread nD τ) (Pipeline.ucRefs τ sig) (W10 m c) from Pipeline.unscopedBufs_held c (W10 m c)] at hjoin
    have h0 : ∀ n, (pdats m 4 c).owed n = 0 := fun n => owed_eq4 (R9 m) c n
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [h0]
    icases HO with ⟨%W, -, HO⟩; iexists W; iexact HO

theorem reg4_pre (c : Dev nD) : (reg4 m).pre c = iprop(StableHlo.held (c : Thread nD τ) (Pipeline.ucRefs τ sig) (W9 m c) ∗ Rr c) := rfl
theorem reg4_post (c : Dev nD) : (reg4 m).post c = iprop(StableHlo.held (c : Thread nD τ) (Pipeline.ucRefs τ sig) (W10 m c) ∗ Rr c) := rfl

end Cert.KernelIdeal.Hand

end
-- ==== Proof.KI.Seg5.lean ====
import proofs.«413302_j72232759984513_1_alg».proof.Proof.Gen.KernelIdeal.Launch
import proofs.«413302_j72232759984513_1_alg».proof.Proof.Gen.KernelIdeal.Skeleton
import proofs.«413302_j72232759984513_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«413302_j72232759984513_1_alg».proof.Proof.Gen.KernelIdeal.Regions
import proofs.«413302_j72232759984513_1_alg».proof.Proof.KI.Chain

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Kernel region 5 as a segment of @main

The region is entered from every unscoped buffer at the contents `W11` beside the generator register and the core's
`owes`, and left at `W12`. At entry its windows' arrays are split out of the unscoped buffers; at exit they are put back
at what the pipeline leaves in them. The generator register and the scoped buffers no window stages go into the
pipeline's invariant at the first point and come back at the last. The body owes nothing at the pipeline's cells and
bounds the core's recorded pairs by nothing, and the kernel has no semaphore of its own. -/

variable (m : (ℓ : Loc nD τ sig) → Buf (Elt F) ℓ)

-- applying a library lemma stated over the pinned configuration needs unification to unfold plain definitions in a
-- metavariable's type
set_option backward.isDefEq.respectTransparency.types false in
def reg5 : Pipeline.RegionSeg (pcfgs (F := F)) Gen.adm (pdats m) () defs₀ Variants.none Lz lvz 5 where
  win := launch5.win.to₀
  block_pos := launch5.block_pos
  stage_whole := launch5.stage_whole
  K := PEmpty
  osem k := k.elim
  ho := Pipeline.OwnSemFacts.none _
  hbody c := by
    show Pipeline.BodyObligationLoose (dat5 (R11 m) c) defs₀ Variants.none () Set.univ
    exact (body_obligation5 (R11 m) c).loose
  hwaits := Pipeline.hwaits_of_owed_zero _ _ _ _ Lz lvz 5 fun c n => owed_eq5 (R11 m) c n
  pre c := iprop(StableHlo.held (c : Thread nD τ) (Pipeline.ucRefs τ sig) (W11 m c) ∗ Rr c)
  post c := iprop(StableHlo.held (c : Thread nD τ) (Pipeline.ucRefs τ sig) (W12 m c) ∗ Rr c)
  X c := iprop(∃ r, prngReg c r)
  Y c := iprop(∃ r, prngReg c r)
  Z c := Pipeline.unscopedRest (Ix := Unit) (Name := ℕ) (U := UR sig nD τ) (Lvl := ℕ) spec5 c (R11 m c)
  hentry c := by
    rw [Pipeline.ownSems0_none]
    have hsplit := Pipeline.arrays_of_unscopedBufs (p := 5) (pcfgs (F := F)) Gen.adm (pdats m) launch5.win launch5.arr_whole c
      ((pdats m 5 c).share_full fun w => q_eq5 (R11 m) c w) (R11 m c) fun w => A_eq5 (R11 m) c w
    rw [show (unscopedBufs (Ix := Unit) (Name := ℕ) (U := UR sig nD τ) (Lvl := ℕ) c (R11 m c) : sProp 𝕄)
      = StableHlo.held (c : Thread nD τ) (Pipeline.ucRefs τ sig) (W11 m c) from Pipeline.unscopedBufs_held c (W11 m c)] at hsplit
    have h0 : ∀ n, (pdats m 5 c).owed n = 0 := fun n => owed_eq5 (R11 m) c n
    have hr : (pdats m 5 c).recorded 0 = Set.univ := recorded_eq5 (R11 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [h0, hr]
      icases HO with ⟨%W, HO⟩; iexists W; isplitr; · ipureintro; exact fun _ _ => Or.inl trivial
      iexact HO
    isplitl [Hp]; · iexact Hp
    iexact Hrest
  hin c := by
    refine BIBase.Entails.trans ?_ (Phi_in5 (R11 m) c)
    iintro ⟨Hp, -, Hr⟩
    isplitl [Hp]; · iexact Hp
    iexact Hr
  hout c := by
    rw [Pipeline.ownSems0_none]
    refine BIBase.Entails.trans (Phi_out5 (R11 m) c) ?_
    iintro ⟨Hp, Hr⟩
    isplitl [Hp]; · iexact Hp
    isplitr; · iempintro
    iexact Hr
  hexit c := by
    have hjoin := Pipeline.unscopedBufs_of_arrays (p := 5) (pcfgs (F := F)) Gen.adm (Ix := Unit) (Name := ℕ) (U := UR sig nD τ) (Lvl := ℕ)
      launch5.win launch5.arr_whole c (pdats m) ((pdats m 5 c).share_full fun w => q_eq5 (R11 m) c w)
      (R11 m c) (R12 m c) ((pdats m 5 c).arrAt · cfg5.N) (hF5 m c) (hrest5 m c)
    rw [show (unscopedBufs (Ix := Unit) (Name := ℕ) (U := UR sig nD τ) (Lvl := ℕ) c (R12 m c) : sProp 𝕄)
      = StableHlo.held (c : Thread nD τ) (Pipeline.ucRefs τ sig) (W12 m c) from Pipeline.unscopedBufs_held c (W12 m c)] at hjoin
    have h0 : ∀ n, (pdats m 5 c).owed n = 0 := fun n => owed_eq5 (R11 m) c n
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [h0]
    icases HO with ⟨%W, -, HO⟩; iexists W; iexact HO

theorem reg5_pre (c : Dev nD) : (reg5 m).pre c = iprop(StableHlo.held (c : Thread nD τ) (Pipeline.ucRefs τ sig) (W11 m c) ∗ Rr c) := rfl
theorem reg5_post (c : Dev nD) : (reg5 m).post c = iprop(StableHlo.held (c : Thread nD τ) (Pipeline.ucRefs τ sig) (W12 m c) ∗ Rr c) := rfl

end Cert.KernelIdeal.Hand

end
-- ==== Proof.KI.Seg6.lean ====
import proofs.«413302_j72232759984513_1_alg».proof.Proof.Gen.KernelIdeal.Launch
import proofs.«413302_j72232759984513_1_alg».proof.Proof.Gen.KernelIdeal.Skeleton
import proofs.«413302_j72232759984513_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«413302_j72232759984513_1_alg».proof.Proof.Gen.KernelIdeal.Regions
import proofs.«413302_j72232759984513_1_alg».proof.Proof.KI.Chain

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Kernel region 6 as a segment of @main

The region is entered from every unscoped buffer at the contents `W13` beside the generator register and the core's
`owes`, and left at `W14`. At entry its windows' arrays are split out of the unscoped buffers; at exit they are put back
at what the pipeline leaves in them. The generator register and the scoped buffers no window stages go into the
pipeline's invariant at the first point and come back at the last. The body owes nothing at the pipeline's cells and
bounds the core's recorded pairs by nothing, and the kernel has no semaphore of its own. -/

variable (m : (ℓ : Loc nD τ sig) → Buf (Elt F) ℓ)

-- applying a library lemma stated over the pinned configuration needs unification to unfold plain definitions in a
-- metavariable's type
set_option backward.isDefEq.respectTransparency.types false in
def reg6 : Pipeline.RegionSeg (pcfgs (F := F)) Gen.adm (pdats m) () defs₀ Variants.none Lz lvz 6 where
  win := launch6.win.to₀
  block_pos := launch6.block_pos
  stage_whole := launch6.stage_whole
  K := PEmpty
  osem k := k.elim
  ho := Pipeline.OwnSemFacts.none _
  hbody c := by
    show Pipeline.BodyObligationLoose (dat6 (R13 m) c) defs₀ Variants.none () Set.univ
    exact (body_obligation6 (R13 m) c).loose
  hwaits := Pipeline.hwaits_of_owed_zero _ _ _ _ Lz lvz 6 fun c n => owed_eq6 (R13 m) c n
  pre c := iprop(StableHlo.held (c : Thread nD τ) (Pipeline.ucRefs τ sig) (W13 m c) ∗ Rr c)
  post c := iprop(StableHlo.held (c : Thread nD τ) (Pipeline.ucRefs τ sig) (W14 m c) ∗ Rr c)
  X c := iprop(∃ r, prngReg c r)
  Y c := iprop(∃ r, prngReg c r)
  Z c := Pipeline.unscopedRest (Ix := Unit) (Name := ℕ) (U := UR sig nD τ) (Lvl := ℕ) spec6 c (R13 m c)
  hentry c := by
    rw [Pipeline.ownSems0_none]
    have hsplit := Pipeline.arrays_of_unscopedBufs (p := 6) (pcfgs (F := F)) Gen.adm (pdats m) launch6.win launch6.arr_whole c
      ((pdats m 6 c).share_full fun w => q_eq6 (R13 m) c w) (R13 m c) fun w => A_eq6 (R13 m) c w
    rw [show (unscopedBufs (Ix := Unit) (Name := ℕ) (U := UR sig nD τ) (Lvl := ℕ) c (R13 m c) : sProp 𝕄)
      = StableHlo.held (c : Thread nD τ) (Pipeline.ucRefs τ sig) (W13 m c) from Pipeline.unscopedBufs_held c (W13 m c)] at hsplit
    have h0 : ∀ n, (pdats m 6 c).owed n = 0 := fun n => owed_eq6 (R13 m) c n
    have hr : (pdats m 6 c).recorded 0 = Set.univ := recorded_eq6 (R13 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [h0, hr]
      icases HO with ⟨%W, HO⟩; iexists W; isplitr; · ipureintro; exact fun _ _ => Or.inl trivial
      iexact HO
    isplitl [Hp]; · iexact Hp
    iexact Hrest
  hin c := by
    refine BIBase.Entails.trans ?_ (Phi_in6 (R13 m) c)
    iintro ⟨Hp, -, Hr⟩
    isplitl [Hp]; · iexact Hp
    iexact Hr
  hout c := by
    rw [Pipeline.ownSems0_none]
    refine BIBase.Entails.trans (Phi_out6 (R13 m) c) ?_
    iintro ⟨Hp, Hr⟩
    isplitl [Hp]; · iexact Hp
    isplitr; · iempintro
    iexact Hr
  hexit c := by
    have hjoin := Pipeline.unscopedBufs_of_arrays (p := 6) (pcfgs (F := F)) Gen.adm (Ix := Unit) (Name := ℕ) (U := UR sig nD τ) (Lvl := ℕ)
      launch6.win launch6.arr_whole c (pdats m) ((pdats m 6 c).share_full fun w => q_eq6 (R13 m) c w)
      (R13 m c) (R14 m c) ((pdats m 6 c).arrAt · cfg6.N) (hF6 m c) (hrest6 m c)
    rw [show (unscopedBufs (Ix := Unit) (Name := ℕ) (U := UR sig nD τ) (Lvl := ℕ) c (R14 m c) : sProp 𝕄)
      = StableHlo.held (c : Thread nD τ) (Pipeline.ucRefs τ sig) (W14 m c) from Pipeline.unscopedBufs_held c (W14 m c)] at hjoin
    have h0 : ∀ n, (pdats m 6 c).owed n = 0 := fun n => owed_eq6 (R13 m) c n
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [h0]
    icases HO with ⟨%W, -, HO⟩; iexists W; iexact HO

theorem reg6_pre (c : Dev nD) : (reg6 m).pre c = iprop(StableHlo.held (c : Thread nD τ) (Pipeline.ucRefs τ sig) (W13 m c) ∗ Rr c) := rfl
theorem reg6_post (c : Dev nD) : (reg6 m).post c = iprop(StableHlo.held (c : Thread nD τ) (Pipeline.ucRefs τ sig) (W14 m c) ∗ Rr c) := rfl

end Cert.KernelIdeal.Hand

end
-- ==== Proof.KI.Seg7.lean ====
import proofs.«413302_j72232759984513_1_alg».proof.Proof.Gen.KernelIdeal.Launch
import proofs.«413302_j72232759984513_1_alg».proof.Proof.Gen.KernelIdeal.Skeleton
import proofs.«413302_j72232759984513_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«413302_j72232759984513_1_alg».proof.Proof.Gen.KernelIdeal.Regions
import proofs.«413302_j72232759984513_1_alg».proof.Proof.KI.Chain

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Kernel region 7 as a segment of @main

The region is entered from every unscoped buffer at the contents `W15` beside the generator register and the core's
`owes`, and left at `W16`. At entry its windows' arrays are split out of the unscoped buffers; at exit they are put back
at what the pipeline leaves in them. The generator register and the scoped buffers no window stages go into the
pipeline's invariant at the first point and come back at the last. The body owes nothing at the pipeline's cells and
bounds the core's recorded pairs by nothing, and the kernel has no semaphore of its own. -/

variable (m : (ℓ : Loc nD τ sig) → Buf (Elt F) ℓ)

-- applying a library lemma stated over the pinned configuration needs unification to unfold plain definitions in a
-- metavariable's type
set_option backward.isDefEq.respectTransparency.types false in
def reg7 : Pipeline.RegionSeg (pcfgs (F := F)) Gen.adm (pdats m) () defs₀ Variants.none Lz lvz 7 where
  win := launch7.win.to₀
  block_pos := launch7.block_pos
  stage_whole := launch7.stage_whole
  K := PEmpty
  osem k := k.elim
  ho := Pipeline.OwnSemFacts.none _
  hbody c := by
    show Pipeline.BodyObligationLoose (dat7 (R15 m) c) defs₀ Variants.none () Set.univ
    exact (body_obligation7 (R15 m) c).loose
  hwaits := Pipeline.hwaits_of_owed_zero _ _ _ _ Lz lvz 7 fun c n => owed_eq7 (R15 m) c n
  pre c := iprop(StableHlo.held (c : Thread nD τ) (Pipeline.ucRefs τ sig) (W15 m c) ∗ Rr c)
  post c := iprop(StableHlo.held (c : Thread nD τ) (Pipeline.ucRefs τ sig) (W16 m c) ∗ Rr c)
  X c := iprop(∃ r, prngReg c r)
  Y c := iprop(∃ r, prngReg c r)
  Z c := Pipeline.unscopedRest (Ix := Unit) (Name := ℕ) (U := UR sig nD τ) (Lvl := ℕ) spec7 c (R15 m c)
  hentry c := by
    rw [Pipeline.ownSems0_none]
    have hsplit := Pipeline.arrays_of_unscopedBufs (p := 7) (pcfgs (F := F)) Gen.adm (pdats m) launch7.win launch7.arr_whole c
      ((pdats m 7 c).share_full fun w => q_eq7 (R15 m) c w) (R15 m c) fun w => A_eq7 (R15 m) c w
    rw [show (unscopedBufs (Ix := Unit) (Name := ℕ) (U := UR sig nD τ) (Lvl := ℕ) c (R15 m c) : sProp 𝕄)
      = StableHlo.held (c : Thread nD τ) (Pipeline.ucRefs τ sig) (W15 m c) from Pipeline.unscopedBufs_held c (W15 m c)] at hsplit
    have h0 : ∀ n, (pdats m 7 c).owed n = 0 := fun n => owed_eq7 (R15 m) c n
    have hr : (pdats m 7 c).recorded 0 = Set.univ := recorded_eq7 (R15 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [h0, hr]
      icases HO with ⟨%W, HO⟩; iexists W; isplitr; · ipureintro; exact fun _ _ => Or.inl trivial
      iexact HO
    isplitl [Hp]; · iexact Hp
    iexact Hrest
  hin c := by
    refine BIBase.Entails.trans ?_ (Phi_in7 (R15 m) c)
    iintro ⟨Hp, -, Hr⟩
    isplitl [Hp]; · iexact Hp
    iexact Hr
  hout c := by
    rw [Pipeline.ownSems0_none]
    refine BIBase.Entails.trans (Phi_out7 (R15 m) c) ?_
    iintro ⟨Hp, Hr⟩
    isplitl [Hp]; · iexact Hp
    isplitr; · iempintro
    iexact Hr
  hexit c := by
    have hjoin := Pipeline.unscopedBufs_of_arrays (p := 7) (pcfgs (F := F)) Gen.adm (Ix := Unit) (Name := ℕ) (U := UR sig nD τ) (Lvl := ℕ)
      launch7.win launch7.arr_whole c (pdats m) ((pdats m 7 c).share_full fun w => q_eq7 (R15 m) c w)
      (R15 m c) (R16 m c) ((pdats m 7 c).arrAt · cfg7.N) (hF7 m c) (hrest7 m c)
    rw [show (unscopedBufs (Ix := Unit) (Name := ℕ) (U := UR sig nD τ) (Lvl := ℕ) c (R16 m c) : sProp 𝕄)
      = StableHlo.held (c : Thread nD τ) (Pipeline.ucRefs τ sig) (W16 m c) from Pipeline.unscopedBufs_held c (W16 m c)] at hjoin
    have h0 : ∀ n, (pdats m 7 c).owed n = 0 := fun n => owed_eq7 (R15 m) c n
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [h0]
    icases HO with ⟨%W, -, HO⟩; iexists W; iexact HO

theorem reg7_pre (c : Dev nD) : (reg7 m).pre c = iprop(StableHlo.held (c : Thread nD τ) (Pipeline.ucRefs τ sig) (W15 m c) ∗ Rr c) := rfl
theorem reg7_post (c : Dev nD) : (reg7 m).post c = iprop(StableHlo.held (c : Thread nD τ) (Pipeline.ucRefs τ sig) (W16 m c) ∗ Rr c) := rfl

end Cert.KernelIdeal.Hand

end
-- ==== Proof.KI.Seg8.lean ====
import proofs.«413302_j72232759984513_1_alg».proof.Proof.Gen.KernelIdeal.Launch
import proofs.«413302_j72232759984513_1_alg».proof.Proof.Gen.KernelIdeal.Skeleton
import proofs.«413302_j72232759984513_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«413302_j72232759984513_1_alg».proof.Proof.Gen.KernelIdeal.Regions
import proofs.«413302_j72232759984513_1_alg».proof.Proof.KI.Chain

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Kernel region 8 as a segment of @main

The region is entered from every unscoped buffer at the contents `W17` beside the generator register and the core's
`owes`, and left at `W18`. At entry its windows' arrays are split out of the unscoped buffers; at exit they are put back
at what the pipeline leaves in them. The generator register and the scoped buffers no window stages go into the
pipeline's invariant at the first point and come back at the last. The body owes nothing at the pipeline's cells and
bounds the core's recorded pairs by nothing, and the kernel has no semaphore of its own. -/

variable (m : (ℓ : Loc nD τ sig) → Buf (Elt F) ℓ)

-- applying a library lemma stated over the pinned configuration needs unification to unfold plain definitions in a
-- metavariable's type
set_option backward.isDefEq.respectTransparency.types false in
def reg8 : Pipeline.RegionSeg (pcfgs (F := F)) Gen.adm (pdats m) () defs₀ Variants.none Lz lvz 8 where
  win := launch8.win.to₀
  block_pos := launch8.block_pos
  stage_whole := launch8.stage_whole
  K := PEmpty
  osem k := k.elim
  ho := Pipeline.OwnSemFacts.none _
  hbody c := by
    show Pipeline.BodyObligationLoose (dat8 (R17 m) c) defs₀ Variants.none () Set.univ
    exact (body_obligation8 (R17 m) c).loose
  hwaits := Pipeline.hwaits_of_owed_zero _ _ _ _ Lz lvz 8 fun c n => owed_eq8 (R17 m) c n
  pre c := iprop(StableHlo.held (c : Thread nD τ) (Pipeline.ucRefs τ sig) (W17 m c) ∗ Rr c)
  post c := iprop(StableHlo.held (c : Thread nD τ) (Pipeline.ucRefs τ sig) (W18 m c) ∗ Rr c)
  X c := iprop(∃ r, prngReg c r)
  Y c := iprop(∃ r, prngReg c r)
  Z c := Pipeline.unscopedRest (Ix := Unit) (Name := ℕ) (U := UR sig nD τ) (Lvl := ℕ) spec8 c (R17 m c)
  hentry c := by
    rw [Pipeline.ownSems0_none]
    have hsplit := Pipeline.arrays_of_unscopedBufs (p := 8) (pcfgs (F := F)) Gen.adm (pdats m) launch8.win launch8.arr_whole c
      ((pdats m 8 c).share_full fun w => q_eq8 (R17 m) c w) (R17 m c) fun w => A_eq8 (R17 m) c w
    rw [show (unscopedBufs (Ix := Unit) (Name := ℕ) (U := UR sig nD τ) (Lvl := ℕ) c (R17 m c) : sProp 𝕄)
      = StableHlo.held (c : Thread nD τ) (Pipeline.ucRefs τ sig) (W17 m c) from Pipeline.unscopedBufs_held c (W17 m c)] at hsplit
    have h0 : ∀ n, (pdats m 8 c).owed n = 0 := fun n => owed_eq8 (R17 m) c n
    have hr : (pdats m 8 c).recorded 0 = Set.univ := recorded_eq8 (R17 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [h0, hr]
      icases HO with ⟨%W, HO⟩; iexists W; isplitr; · ipureintro; exact fun _ _ => Or.inl trivial
      iexact HO
    isplitl [Hp]; · iexact Hp
    iexact Hrest
  hin c := by
    refine BIBase.Entails.trans ?_ (Phi_in8 (R17 m) c)
    iintro ⟨Hp, -, Hr⟩
    isplitl [Hp]; · iexact Hp
    iexact Hr
  hout c := by
    rw [Pipeline.ownSems0_none]
    refine BIBase.Entails.trans (Phi_out8 (R17 m) c) ?_
    iintro ⟨Hp, Hr⟩
    isplitl [Hp]; · iexact Hp
    isplitr; · iempintro
    iexact Hr
  hexit c := by
    have hjoin := Pipeline.unscopedBufs_of_arrays (p := 8) (pcfgs (F := F)) Gen.adm (Ix := Unit) (Name := ℕ) (U := UR sig nD τ) (Lvl := ℕ)
      launch8.win launch8.arr_whole c (pdats m) ((pdats m 8 c).share_full fun w => q_eq8 (R17 m) c w)
      (R17 m c) (R18 m c) ((pdats m 8 c).arrAt · cfg8.N) (hF8 m c) (hrest8 m c)
    rw [show (unscopedBufs (Ix := Unit) (Name := ℕ) (U := UR sig nD τ) (Lvl := ℕ) c (R18 m c) : sProp 𝕄)
      = StableHlo.held (c : Thread nD τ) (Pipeline.ucRefs τ sig) (W18 m c) from Pipeline.unscopedBufs_held c (W18 m c)] at hjoin
    have h0 : ∀ n, (pdats m 8 c).owed n = 0 := fun n => owed_eq8 (R17 m) c n
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [h0]
    icases HO with ⟨%W, -, HO⟩; iexists W; iexact HO

theorem reg8_pre (c : Dev nD) : (reg8 m).pre c = iprop(StableHlo.held (c : Thread nD τ) (Pipeline.ucRefs τ sig) (W17 m c) ∗ Rr c) := rfl
theorem reg8_post (c : Dev nD) : (reg8 m).post c = iprop(StableHlo.held (c : Thread nD τ) (Pipeline.ucRefs τ sig) (W18 m c) ∗ Rr c) := rfl

end Cert.KernelIdeal.Hand

end
-- ==== Proof.KI.Seg9.lean ====
import proofs.«413302_j72232759984513_1_alg».proof.Proof.Gen.KernelIdeal.Launch
import proofs.«413302_j72232759984513_1_alg».proof.Proof.Gen.KernelIdeal.Skeleton
import proofs.«413302_j72232759984513_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«413302_j72232759984513_1_alg».proof.Proof.Gen.KernelIdeal.Regions
import proofs.«413302_j72232759984513_1_alg».proof.Proof.KI.Chain

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Kernel region 9 as a segment of @main

The region is entered from every unscoped buffer at the contents `W19` beside the generator register and the core's
`owes`, and left at `W20`. At entry its windows' arrays are split out of the unscoped buffers; at exit they are put back
at what the pipeline leaves in them. The generator register and the scoped buffers no window stages go into the
pipeline's invariant at the first point and come back at the last. The body owes nothing at the pipeline's cells and
bounds the core's recorded pairs by nothing, and the kernel has no semaphore of its own. -/

variable (m : (ℓ : Loc nD τ sig) → Buf (Elt F) ℓ)

-- applying a library lemma stated over the pinned configuration needs unification to unfold plain definitions in a
-- metavariable's type
set_option backward.isDefEq.respectTransparency.types false in
def reg9 : Pipeline.RegionSeg (pcfgs (F := F)) Gen.adm (pdats m) () defs₀ Variants.none Lz lvz 9 where
  win := launch9.win.to₀
  block_pos := launch9.block_pos
  stage_whole := launch9.stage_whole
  K := PEmpty
  osem k := k.elim
  ho := Pipeline.OwnSemFacts.none _
  hbody c := by
    show Pipeline.BodyObligationLoose (dat9 (R19 m) c) defs₀ Variants.none () Set.univ
    exact (body_obligation9 (R19 m) c).loose
  hwaits := Pipeline.hwaits_of_owed_zero _ _ _ _ Lz lvz 9 fun c n => owed_eq9 (R19 m) c n
  pre c := iprop(StableHlo.held (c : Thread nD τ) (Pipeline.ucRefs τ sig) (W19 m c) ∗ Rr c)
  post c := iprop(StableHlo.held (c : Thread nD τ) (Pipeline.ucRefs τ sig) (W20 m c) ∗ Rr c)
  X c := iprop(∃ r, prngReg c r)
  Y c := iprop(∃ r, prngReg c r)
  Z c := Pipeline.unscopedRest (Ix := Unit) (Name := ℕ) (U := UR sig nD τ) (Lvl := ℕ) spec9 c (R19 m c)
  hentry c := by
    rw [Pipeline.ownSems0_none]
    have hsplit := Pipeline.arrays_of_unscopedBufs (p := 9) (pcfgs (F := F)) Gen.adm (pdats m) launch9.win launch9.arr_whole c
      ((pdats m 9 c).share_full fun w => q_eq9 (R19 m) c w) (R19 m c) fun w => A_eq9 (R19 m) c w
    rw [show (unscopedBufs (Ix := Unit) (Name := ℕ) (U := UR sig nD τ) (Lvl := ℕ) c (R19 m c) : sProp 𝕄)
      = StableHlo.held (c : Thread nD τ) (Pipeline.ucRefs τ sig) (W19 m c) from Pipeline.unscopedBufs_held c (W19 m c)] at hsplit
    have h0 : ∀ n, (pdats m 9 c).owed n = 0 := fun n => owed_eq9 (R19 m) c n
    have hr : (pdats m 9 c).recorded 0 = Set.univ := recorded_eq9 (R19 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [h0, hr]
      icases HO with ⟨%W, HO⟩; iexists W; isplitr; · ipureintro; exact fun _ _ => Or.inl trivial
      iexact HO
    isplitl [Hp]; · iexact Hp
    iexact Hrest
  hin c := by
    refine BIBase.Entails.trans ?_ (Phi_in9 (R19 m) c)
    iintro ⟨Hp, -, Hr⟩
    isplitl [Hp]; · iexact Hp
    iexact Hr
  hout c := by
    rw [Pipeline.ownSems0_none]
    refine BIBase.Entails.trans (Phi_out9 (R19 m) c) ?_
    iintro ⟨Hp, Hr⟩
    isplitl [Hp]; · iexact Hp
    isplitr; · iempintro
    iexact Hr
  hexit c := by
    have hjoin := Pipeline.unscopedBufs_of_arrays (p := 9) (pcfgs (F := F)) Gen.adm (Ix := Unit) (Name := ℕ) (U := UR sig nD τ) (Lvl := ℕ)
      launch9.win launch9.arr_whole c (pdats m) ((pdats m 9 c).share_full fun w => q_eq9 (R19 m) c w)
      (R19 m c) (R20 m c) ((pdats m 9 c).arrAt · cfg9.N) (hF9 m c) (hrest9 m c)
    rw [show (unscopedBufs (Ix := Unit) (Name := ℕ) (U := UR sig nD τ) (Lvl := ℕ) c (R20 m c) : sProp 𝕄)
      = StableHlo.held (c : Thread nD τ) (Pipeline.ucRefs τ sig) (W20 m c) from Pipeline.unscopedBufs_held c (W20 m c)] at hjoin
    have h0 : ∀ n, (pdats m 9 c).owed n = 0 := fun n => owed_eq9 (R19 m) c n
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [h0]
    icases HO with ⟨%W, -, HO⟩; iexists W; iexact HO

theorem reg9_pre (c : Dev nD) : (reg9 m).pre c = iprop(StableHlo.held (c : Thread nD τ) (Pipeline.ucRefs τ sig) (W19 m c) ∗ Rr c) := rfl
theorem reg9_post (c : Dev nD) : (reg9 m).post c = iprop(StableHlo.held (c : Thread nD τ) (Pipeline.ucRefs τ sig) (W20 m c) ∗ Rr c) := rfl

end Cert.KernelIdeal.Hand

end
-- ==== Proof.KI.Seg10.lean ====
import proofs.«413302_j72232759984513_1_alg».proof.Proof.Gen.KernelIdeal.Launch
import proofs.«413302_j72232759984513_1_alg».proof.Proof.Gen.KernelIdeal.Skeleton
import proofs.«413302_j72232759984513_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«413302_j72232759984513_1_alg».proof.Proof.Gen.KernelIdeal.Regions
import proofs.«413302_j72232759984513_1_alg».proof.Proof.KI.Chain

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Kernel region 10 as a segment of @main

The region is entered from every unscoped buffer at the contents `W21` beside the generator register and the core's
`owes`, and left at `W22`. At entry its windows' arrays are split out of the unscoped buffers; at exit they are put back
at what the pipeline leaves in them. The generator register and the scoped buffers no window stages go into the
pipeline's invariant at the first point and come back at the last. The body owes nothing at the pipeline's cells and
bounds the core's recorded pairs by nothing, and the kernel has no semaphore of its own. -/

variable (m : (ℓ : Loc nD τ sig) → Buf (Elt F) ℓ)

-- applying a library lemma stated over the pinned configuration needs unification to unfold plain definitions in a
-- metavariable's type
set_option backward.isDefEq.respectTransparency.types false in
def reg10 : Pipeline.RegionSeg (pcfgs (F := F)) Gen.adm (pdats m) () defs₀ Variants.none Lz lvz 10 where
  win := launch10.win.to₀
  block_pos := launch10.block_pos
  stage_whole := launch10.stage_whole
  K := PEmpty
  osem k := k.elim
  ho := Pipeline.OwnSemFacts.none _
  hbody c := by
    show Pipeline.BodyObligationLoose (dat10 (R21 m) c) defs₀ Variants.none () Set.univ
    exact (body_obligation10 (R21 m) c).loose
  hwaits := Pipeline.hwaits_of_owed_zero _ _ _ _ Lz lvz 10 fun c n => owed_eq10 (R21 m) c n
  pre c := iprop(StableHlo.held (c : Thread nD τ) (Pipeline.ucRefs τ sig) (W21 m c) ∗ Rr c)
  post c := iprop(StableHlo.held (c : Thread nD τ) (Pipeline.ucRefs τ sig) (W22 m c) ∗ Rr c)
  X c := iprop(∃ r, prngReg c r)
  Y c := iprop(∃ r, prngReg c r)
  Z c := Pipeline.unscopedRest (Ix := Unit) (Name := ℕ) (U := UR sig nD τ) (Lvl := ℕ) spec10 c (R21 m c)
  hentry c := by
    rw [Pipeline.ownSems0_none]
    have hsplit := Pipeline.arrays_of_unscopedBufs (p := 10) (pcfgs (F := F)) Gen.adm (pdats m) launch10.win launch10.arr_whole c
      ((pdats m 10 c).share_full fun w => q_eq10 (R21 m) c w) (R21 m c) fun w => A_eq10 (R21 m) c w
    rw [show (unscopedBufs (Ix := Unit) (Name := ℕ) (U := UR sig nD τ) (Lvl := ℕ) c (R21 m c) : sProp 𝕄)
      = StableHlo.held (c : Thread nD τ) (Pipeline.ucRefs τ sig) (W21 m c) from Pipeline.unscopedBufs_held c (W21 m c)] at hsplit
    have h0 : ∀ n, (pdats m 10 c).owed n = 0 := fun n => owed_eq10 (R21 m) c n
    have hr : (pdats m 10 c).recorded 0 = Set.univ := recorded_eq10 (R21 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [h0, hr]
      icases HO with ⟨%W, HO⟩; iexists W; isplitr; · ipureintro; exact fun _ _ => Or.inl trivial
      iexact HO
    isplitl [Hp]; · iexact Hp
    iexact Hrest
  hin c := by
    refine BIBase.Entails.trans ?_ (Phi_in10 (R21 m) c)
    iintro ⟨Hp, -, Hr⟩
    isplitl [Hp]; · iexact Hp
    iexact Hr
  hout c := by
    rw [Pipeline.ownSems0_none]
    refine BIBase.Entails.trans (Phi_out10 (R21 m) c) ?_
    iintro ⟨Hp, Hr⟩
    isplitl [Hp]; · iexact Hp
    isplitr; · iempintro
    iexact Hr
  hexit c := by
    have hjoin := Pipeline.unscopedBufs_of_arrays (p := 10) (pcfgs (F := F)) Gen.adm (Ix := Unit) (Name := ℕ) (U := UR sig nD τ) (Lvl := ℕ)
      launch10.win launch10.arr_whole c (pdats m) ((pdats m 10 c).share_full fun w => q_eq10 (R21 m) c w)
      (R21 m c) (R22 m c) ((pdats m 10 c).arrAt · cfg10.N) (hF10 m c) (hrest10 m c)
    rw [show (unscopedBufs (Ix := Unit) (Name := ℕ) (U := UR sig nD τ) (Lvl := ℕ) c (R22 m c) : sProp 𝕄)
      = StableHlo.held (c : Thread nD τ) (Pipeline.ucRefs τ sig) (W22 m c) from Pipeline.unscopedBufs_held c (W22 m c)] at hjoin
    have h0 : ∀ n, (pdats m 10 c).owed n = 0 := fun n => owed_eq10 (R21 m) c n
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [h0]
    icases HO with ⟨%W, -, HO⟩; iexists W; iexact HO

theorem reg10_pre (c : Dev nD) : (reg10 m).pre c = iprop(StableHlo.held (c : Thread nD τ) (Pipeline.ucRefs τ sig) (W21 m c) ∗ Rr c) := rfl
theorem reg10_post (c : Dev nD) : (reg10 m).post c = iprop(StableHlo.held (c : Thread nD τ) (Pipeline.ucRefs τ sig) (W22 m c) ∗ Rr c) := rfl

end Cert.KernelIdeal.Hand

end
-- ==== Proof.KI.Seg11.lean ====
import proofs.«413302_j72232759984513_1_alg».proof.Proof.Gen.KernelIdeal.Launch
import proofs.«413302_j72232759984513_1_alg».proof.Proof.Gen.KernelIdeal.Skeleton
import proofs.«413302_j72232759984513_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«413302_j72232759984513_1_alg».proof.Proof.Gen.KernelIdeal.Regions
import proofs.«413302_j72232759984513_1_alg».proof.Proof.KI.Chain

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Kernel region 11 as a segment of @main

The region is entered from every unscoped buffer at the contents `W23` beside the generator register and the core's
`owes`, and left at `W24`. At entry its windows' arrays are split out of the unscoped buffers; at exit they are put back
at what the pipeline leaves in them. The generator register and the scoped buffers no window stages go into the
pipeline's invariant at the first point and come back at the last. The body owes nothing at the pipeline's cells and
bounds the core's recorded pairs by nothing, and the kernel has no semaphore of its own. -/

variable (m : (ℓ : Loc nD τ sig) → Buf (Elt F) ℓ)

-- applying a library lemma stated over the pinned configuration needs unification to unfold plain definitions in a
-- metavariable's type
set_option backward.isDefEq.respectTransparency.types false in
def reg11 : Pipeline.RegionSeg (pcfgs (F := F)) Gen.adm (pdats m) () defs₀ Variants.none Lz lvz 11 where
  win := launch11.win.to₀
  block_pos := launch11.block_pos
  stage_whole := launch11.stage_whole
  K := PEmpty
  osem k := k.elim
  ho := Pipeline.OwnSemFacts.none _
  hbody c := by
    show Pipeline.BodyObligationLoose (dat11 (R23 m) c) defs₀ Variants.none () Set.univ
    exact (body_obligation11 (R23 m) c).loose
  hwaits := Pipeline.hwaits_of_owed_zero _ _ _ _ Lz lvz 11 fun c n => owed_eq11 (R23 m) c n
  pre c := iprop(StableHlo.held (c : Thread nD τ) (Pipeline.ucRefs τ sig) (W23 m c) ∗ Rr c)
  post c := iprop(StableHlo.held (c : Thread nD τ) (Pipeline.ucRefs τ sig) (W24 m c) ∗ Rr c)
  X c := iprop(∃ r, prngReg c r)
  Y c := iprop(∃ r, prngReg c r)
  Z c := Pipeline.unscopedRest (Ix := Unit) (Name := ℕ) (U := UR sig nD τ) (Lvl := ℕ) spec11 c (R23 m c)
  hentry c := by
    rw [Pipeline.ownSems0_none]
    have hsplit := Pipeline.arrays_of_unscopedBufs (p := 11) (pcfgs (F := F)) Gen.adm (pdats m) launch11.win launch11.arr_whole c
      ((pdats m 11 c).share_full fun w => q_eq11 (R23 m) c w) (R23 m c) fun w => A_eq11 (R23 m) c w
    rw [show (unscopedBufs (Ix := Unit) (Name := ℕ) (U := UR sig nD τ) (Lvl := ℕ) c (R23 m c) : sProp 𝕄)
      = StableHlo.held (c : Thread nD τ) (Pipeline.ucRefs τ sig) (W23 m c) from Pipeline.unscopedBufs_held c (W23 m c)] at hsplit
    have h0 : ∀ n, (pdats m 11 c).owed n = 0 := fun n => owed_eq11 (R23 m) c n
    have hr : (pdats m 11 c).recorded 0 = Set.univ := recorded_eq11 (R23 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [h0, hr]
      icases HO with ⟨%W, HO⟩; iexists W; isplitr; · ipureintro; exact fun _ _ => Or.inl trivial
      iexact HO
    isplitl [Hp]; · iexact Hp
    iexact Hrest
  hin c := by
    refine BIBase.Entails.trans ?_ (Phi_in11 (R23 m) c)
    iintro ⟨Hp, -, Hr⟩
    isplitl [Hp]; · iexact Hp
    iexact Hr
  hout c := by
    rw [Pipeline.ownSems0_none]
    refine BIBase.Entails.trans (Phi_out11 (R23 m) c) ?_
    iintro ⟨Hp, Hr⟩
    isplitl [Hp]; · iexact Hp
    isplitr; · iempintro
    iexact Hr
  hexit c := by
    have hjoin := Pipeline.unscopedBufs_of_arrays (p := 11) (pcfgs (F := F)) Gen.adm (Ix := Unit) (Name := ℕ) (U := UR sig nD τ) (Lvl := ℕ)
      launch11.win launch11.arr_whole c (pdats m) ((pdats m 11 c).share_full fun w => q_eq11 (R23 m) c w)
      (R23 m c) (R24 m c) ((pdats m 11 c).arrAt · cfg11.N) (hF11 m c) (hrest11 m c)
    rw [show (unscopedBufs (Ix := Unit) (Name := ℕ) (U := UR sig nD τ) (Lvl := ℕ) c (R24 m c) : sProp 𝕄)
      = StableHlo.held (c : Thread nD τ) (Pipeline.ucRefs τ sig) (W24 m c) from Pipeline.unscopedBufs_held c (W24 m c)] at hjoin
    have h0 : ∀ n, (pdats m 11 c).owed n = 0 := fun n => owed_eq11 (R23 m) c n
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [h0]
    icases HO with ⟨%W, -, HO⟩; iexists W; iexact HO

theorem reg11_pre (c : Dev nD) : (reg11 m).pre c = iprop(StableHlo.held (c : Thread nD τ) (Pipeline.ucRefs τ sig) (W23 m c) ∗ Rr c) := rfl
theorem reg11_post (c : Dev nD) : (reg11 m).post c = iprop(StableHlo.held (c : Thread nD τ) (Pipeline.ucRefs τ sig) (W24 m c) ∗ Rr c) := rfl

end Cert.KernelIdeal.Hand

end
-- ==== Proof.KI.Seg12.lean ====
import proofs.«413302_j72232759984513_1_alg».proof.Proof.Gen.KernelIdeal.Launch
import proofs.«413302_j72232759984513_1_alg».proof.Proof.Gen.KernelIdeal.Skeleton
import proofs.«413302_j72232759984513_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«413302_j72232759984513_1_alg».proof.Proof.Gen.KernelIdeal.Regions
import proofs.«413302_j72232759984513_1_alg».proof.Proof.KI.Chain

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Kernel region 12 as a segment of @main

The region is entered from every unscoped buffer at the contents `W25` beside the generator register and the core's
`owes`, and left at `W26`. At entry its windows' arrays are split out of the unscoped buffers; at exit they are put back
at what the pipeline leaves in them. The generator register and the scoped buffers no window stages go into the
pipeline's invariant at the first point and come back at the last. The body owes nothing at the pipeline's cells and
bounds the core's recorded pairs by nothing, and the kernel has no semaphore of its own. -/

variable (m : (ℓ : Loc nD τ sig) → Buf (Elt F) ℓ)

-- applying a library lemma stated over the pinned configuration needs unification to unfold plain definitions in a
-- metavariable's type
set_option backward.isDefEq.respectTransparency.types false in
def reg12 : Pipeline.RegionSeg (pcfgs (F := F)) Gen.adm (pdats m) () defs₀ Variants.none Lz lvz 12 where
  win := launch12.win.to₀
  block_pos := launch12.block_pos
  stage_whole := launch12.stage_whole
  K := PEmpty
  osem k := k.elim
  ho := Pipeline.OwnSemFacts.none _
  hbody c := by
    show Pipeline.BodyObligationLoose (dat12 (R25 m) c) defs₀ Variants.none () Set.univ
    exact (body_obligation12 (R25 m) c).loose
  hwaits := Pipeline.hwaits_of_owed_zero _ _ _ _ Lz lvz 12 fun c n => owed_eq12 (R25 m) c n
  pre c := iprop(StableHlo.held (c : Thread nD τ) (Pipeline.ucRefs τ sig) (W25 m c) ∗ Rr c)
  post c := iprop(StableHlo.held (c : Thread nD τ) (Pipeline.ucRefs τ sig) (W26 m c) ∗ Rr c)
  X c := iprop(∃ r, prngReg c r)
  Y c := iprop(∃ r, prngReg c r)
  Z c := Pipeline.unscopedRest (Ix := Unit) (Name := ℕ) (U := UR sig nD τ) (Lvl := ℕ) spec12 c (R25 m c)
  hentry c := by
    rw [Pipeline.ownSems0_none]
    have hsplit := Pipeline.arrays_of_unscopedBufs (p := 12) (pcfgs (F := F)) Gen.adm (pdats m) launch12.win launch12.arr_whole c
      ((pdats m 12 c).share_full fun w => q_eq12 (R25 m) c w) (R25 m c) fun w => A_eq12 (R25 m) c w
    rw [show (unscopedBufs (Ix := Unit) (Name := ℕ) (U := UR sig nD τ) (Lvl := ℕ) c (R25 m c) : sProp 𝕄)
      = StableHlo.held (c : Thread nD τ) (Pipeline.ucRefs τ sig) (W25 m c) from Pipeline.unscopedBufs_held c (W25 m c)] at hsplit
    have h0 : ∀ n, (pdats m 12 c).owed n = 0 := fun n => owed_eq12 (R25 m) c n
    have hr : (pdats m 12 c).recorded 0 = Set.univ := recorded_eq12 (R25 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [h0, hr]
      icases HO with ⟨%W, HO⟩; iexists W; isplitr; · ipureintro; exact fun _ _ => Or.inl trivial
      iexact HO
    isplitl [Hp]; · iexact Hp
    iexact Hrest
  hin c := by
    refine BIBase.Entails.trans ?_ (Phi_in12 (R25 m) c)
    iintro ⟨Hp, -, Hr⟩
    isplitl [Hp]; · iexact Hp
    iexact Hr
  hout c := by
    rw [Pipeline.ownSems0_none]
    refine BIBase.Entails.trans (Phi_out12 (R25 m) c) ?_
    iintro ⟨Hp, Hr⟩
    isplitl [Hp]; · iexact Hp
    isplitr; · iempintro
    iexact Hr
  hexit c := by
    have hjoin := Pipeline.unscopedBufs_of_arrays (p := 12) (pcfgs (F := F)) Gen.adm (Ix := Unit) (Name := ℕ) (U := UR sig nD τ) (Lvl := ℕ)
      launch12.win launch12.arr_whole c (pdats m) ((pdats m 12 c).share_full fun w => q_eq12 (R25 m) c w)
      (R25 m c) (R26 m c) ((pdats m 12 c).arrAt · cfg12.N) (hF12 m c) (hrest12 m c)
    rw [show (unscopedBufs (Ix := Unit) (Name := ℕ) (U := UR sig nD τ) (Lvl := ℕ) c (R26 m c) : sProp 𝕄)
      = StableHlo.held (c : Thread nD τ) (Pipeline.ucRefs τ sig) (W26 m c) from Pipeline.unscopedBufs_held c (W26 m c)] at hjoin
    have h0 : ∀ n, (pdats m 12 c).owed n = 0 := fun n => owed_eq12 (R25 m) c n
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [h0]
    icases HO with ⟨%W, -, HO⟩; iexists W; iexact HO

theorem reg12_pre (c : Dev nD) : (reg12 m).pre c = iprop(StableHlo.held (c : Thread nD τ) (Pipeline.ucRefs τ sig) (W25 m c) ∗ Rr c) := rfl
theorem reg12_post (c : Dev nD) : (reg12 m).post c = iprop(StableHlo.held (c : Thread nD τ) (Pipeline.ucRefs τ sig) (W26 m c) ∗ Rr c) := rfl

end Cert.KernelIdeal.Hand

end
-- ==== Proof.KI.Seg13.lean ====
import proofs.«413302_j72232759984513_1_alg».proof.Proof.Gen.KernelIdeal.Launch
import proofs.«413302_j72232759984513_1_alg».proof.Proof.Gen.KernelIdeal.Skeleton
import proofs.«413302_j72232759984513_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«413302_j72232759984513_1_alg».proof.Proof.Gen.KernelIdeal.Regions
import proofs.«413302_j72232759984513_1_alg».proof.Proof.KI.Chain

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Kernel region 13 as a segment of @main

The region is entered from every unscoped buffer at the contents `W27` beside the generator register and the core's
`owes`, and left at `W28`. At entry its windows' arrays are split out of the unscoped buffers; at exit they are put back
at what the pipeline leaves in them. The generator register and the scoped buffers no window stages go into the
pipeline's invariant at the first point and come back at the last. The body owes nothing at the pipeline's cells and
bounds the core's recorded pairs by nothing, and the kernel has no semaphore of its own. -/

variable (m : (ℓ : Loc nD τ sig) → Buf (Elt F) ℓ)

-- applying a library lemma stated over the pinned configuration needs unification to unfold plain definitions in a
-- metavariable's type
set_option backward.isDefEq.respectTransparency.types false in
def reg13 : Pipeline.RegionSeg (pcfgs (F := F)) Gen.adm (pdats m) () defs₀ Variants.none Lz lvz 13 where
  win := launch13.win.to₀
  block_pos := launch13.block_pos
  stage_whole := launch13.stage_whole
  K := PEmpty
  osem k := k.elim
  ho := Pipeline.OwnSemFacts.none _
  hbody c := by
    show Pipeline.BodyObligationLoose (dat13 (R27 m) c) defs₀ Variants.none () Set.univ
    exact (body_obligation13 (R27 m) c).loose
  hwaits := Pipeline.hwaits_of_owed_zero _ _ _ _ Lz lvz 13 fun c n => owed_eq13 (R27 m) c n
  pre c := iprop(StableHlo.held (c : Thread nD τ) (Pipeline.ucRefs τ sig) (W27 m c) ∗ Rr c)
  post c := iprop(StableHlo.held (c : Thread nD τ) (Pipeline.ucRefs τ sig) (W28 m c) ∗ Rr c)
  X c := iprop(∃ r, prngReg c r)
  Y c := iprop(∃ r, prngReg c r)
  Z c := Pipeline.unscopedRest (Ix := Unit) (Name := ℕ) (U := UR sig nD τ) (Lvl := ℕ) spec13 c (R27 m c)
  hentry c := by
    rw [Pipeline.ownSems0_none]
    have hsplit := Pipeline.arrays_of_unscopedBufs (p := 13) (pcfgs (F := F)) Gen.adm (pdats m) launch13.win launch13.arr_whole c
      ((pdats m 13 c).share_full fun w => q_eq13 (R27 m) c w) (R27 m c) fun w => A_eq13 (R27 m) c w
    rw [show (unscopedBufs (Ix := Unit) (Name := ℕ) (U := UR sig nD τ) (Lvl := ℕ) c (R27 m c) : sProp 𝕄)
      = StableHlo.held (c : Thread nD τ) (Pipeline.ucRefs τ sig) (W27 m c) from Pipeline.unscopedBufs_held c (W27 m c)] at hsplit
    have h0 : ∀ n, (pdats m 13 c).owed n = 0 := fun n => owed_eq13 (R27 m) c n
    have hr : (pdats m 13 c).recorded 0 = Set.univ := recorded_eq13 (R27 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [h0, hr]
      icases HO with ⟨%W, HO⟩; iexists W; isplitr; · ipureintro; exact fun _ _ => Or.inl trivial
      iexact HO
    isplitl [Hp]; · iexact Hp
    iexact Hrest
  hin c := by
    refine BIBase.Entails.trans ?_ (Phi_in13 (R27 m) c)
    iintro ⟨Hp, -, Hr⟩
    isplitl [Hp]; · iexact Hp
    iexact Hr
  hout c := by
    rw [Pipeline.ownSems0_none]
    refine BIBase.Entails.trans (Phi_out13 (R27 m) c) ?_
    iintro ⟨Hp, Hr⟩
    isplitl [Hp]; · iexact Hp
    isplitr; · iempintro
    iexact Hr
  hexit c := by
    have hjoin := Pipeline.unscopedBufs_of_arrays (p := 13) (pcfgs (F := F)) Gen.adm (Ix := Unit) (Name := ℕ) (U := UR sig nD τ) (Lvl := ℕ)
      launch13.win launch13.arr_whole c (pdats m) ((pdats m 13 c).share_full fun w => q_eq13 (R27 m) c w)
      (R27 m c) (R28 m c) ((pdats m 13 c).arrAt · cfg13.N) (hF13 m c) (hrest13 m c)
    rw [show (unscopedBufs (Ix := Unit) (Name := ℕ) (U := UR sig nD τ) (Lvl := ℕ) c (R28 m c) : sProp 𝕄)
      = StableHlo.held (c : Thread nD τ) (Pipeline.ucRefs τ sig) (W28 m c) from Pipeline.unscopedBufs_held c (W28 m c)] at hjoin
    have h0 : ∀ n, (pdats m 13 c).owed n = 0 := fun n => owed_eq13 (R27 m) c n
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [h0]
    icases HO with ⟨%W, -, HO⟩; iexists W; iexact HO

theorem reg13_pre (c : Dev nD) : (reg13 m).pre c = iprop(StableHlo.held (c : Thread nD τ) (Pipeline.ucRefs τ sig) (W27 m c) ∗ Rr c) := rfl
theorem reg13_post (c : Dev nD) : (reg13 m).post c = iprop(StableHlo.held (c : Thread nD τ) (Pipeline.ucRefs τ sig) (W28 m c) ∗ Rr c) := rfl

end Cert.KernelIdeal.Hand

end
-- ==== Proof.KI.Seg14.lean ====
import proofs.«413302_j72232759984513_1_alg».proof.Proof.Gen.KernelIdeal.Launch
import proofs.«413302_j72232759984513_1_alg».proof.Proof.Gen.KernelIdeal.Skeleton
import proofs.«413302_j72232759984513_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«413302_j72232759984513_1_alg».proof.Proof.Gen.KernelIdeal.Regions
import proofs.«413302_j72232759984513_1_alg».proof.Proof.KI.Chain

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Kernel region 14 as a segment of @main

The region is entered from every unscoped buffer at the contents `W29` beside the generator register and the core's
`owes`, and left at `W30`. At entry its windows' arrays are split out of the unscoped buffers; at exit they are put back
at what the pipeline leaves in them. The generator register and the scoped buffers no window stages go into the
pipeline's invariant at the first point and come back at the last. The body owes nothing at the pipeline's cells and
bounds the core's recorded pairs by nothing, and the kernel has no semaphore of its own. -/

variable (m : (ℓ : Loc nD τ sig) → Buf (Elt F) ℓ)

-- applying a library lemma stated over the pinned configuration needs unification to unfold plain definitions in a
-- metavariable's type
set_option backward.isDefEq.respectTransparency.types false in
def reg14 : Pipeline.RegionSeg (pcfgs (F := F)) Gen.adm (pdats m) () defs₀ Variants.none Lz lvz 14 where
  win := launch14.win.to₀
  block_pos := launch14.block_pos
  stage_whole := launch14.stage_whole
  K := PEmpty
  osem k := k.elim
  ho := Pipeline.OwnSemFacts.none _
  hbody c := by
    show Pipeline.BodyObligationLoose (dat14 (R29 m) c) defs₀ Variants.none () Set.univ
    exact (body_obligation14 (R29 m) c).loose
  hwaits := Pipeline.hwaits_of_owed_zero _ _ _ _ Lz lvz 14 fun c n => owed_eq14 (R29 m) c n
  pre c := iprop(StableHlo.held (c : Thread nD τ) (Pipeline.ucRefs τ sig) (W29 m c) ∗ Rr c)
  post c := iprop(StableHlo.held (c : Thread nD τ) (Pipeline.ucRefs τ sig) (W30 m c) ∗ Rr c)
  X c := iprop(∃ r, prngReg c r)
  Y c := iprop(∃ r, prngReg c r)
  Z c := Pipeline.unscopedRest (Ix := Unit) (Name := ℕ) (U := UR sig nD τ) (Lvl := ℕ) spec14 c (R29 m c)
  hentry c := by
    rw [Pipeline.ownSems0_none]
    have hsplit := Pipeline.arrays_of_unscopedBufs (p := 14) (pcfgs (F := F)) Gen.adm (pdats m) launch14.win launch14.arr_whole c
      ((pdats m 14 c).share_full fun w => q_eq14 (R29 m) c w) (R29 m c) fun w => A_eq14 (R29 m) c w
    rw [show (unscopedBufs (Ix := Unit) (Name := ℕ) (U := UR sig nD τ) (Lvl := ℕ) c (R29 m c) : sProp 𝕄)
      = StableHlo.held (c : Thread nD τ) (Pipeline.ucRefs τ sig) (W29 m c) from Pipeline.unscopedBufs_held c (W29 m c)] at hsplit
    have h0 : ∀ n, (pdats m 14 c).owed n = 0 := fun n => owed_eq14 (R29 m) c n
    have hr : (pdats m 14 c).recorded 0 = Set.univ := recorded_eq14 (R29 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [h0, hr]
      icases HO with ⟨%W, HO⟩; iexists W; isplitr; · ipureintro; exact fun _ _ => Or.inl trivial
      iexact HO
    isplitl [Hp]; · iexact Hp
    iexact Hrest
  hin c := by
    refine BIBase.Entails.trans ?_ (Phi_in14 (R29 m) c)
    iintro ⟨Hp, -, Hr⟩
    isplitl [Hp]; · iexact Hp
    iexact Hr
  hout c := by
    rw [Pipeline.ownSems0_none]
    refine BIBase.Entails.trans (Phi_out14 (R29 m) c) ?_
    iintro ⟨Hp, Hr⟩
    isplitl [Hp]; · iexact Hp
    isplitr; · iempintro
    iexact Hr
  hexit c := by
    have hjoin := Pipeline.unscopedBufs_of_arrays (p := 14) (pcfgs (F := F)) Gen.adm (Ix := Unit) (Name := ℕ) (U := UR sig nD τ) (Lvl := ℕ)
      launch14.win launch14.arr_whole c (pdats m) ((pdats m 14 c).share_full fun w => q_eq14 (R29 m) c w)
      (R29 m c) (R30 m c) ((pdats m 14 c).arrAt · cfg14.N) (hF14 m c) (hrest14 m c)
    rw [show (unscopedBufs (Ix := Unit) (Name := ℕ) (U := UR sig nD τ) (Lvl := ℕ) c (R30 m c) : sProp 𝕄)
      = StableHlo.held (c : Thread nD τ) (Pipeline.ucRefs τ sig) (W30 m c) from Pipeline.unscopedBufs_held c (W30 m c)] at hjoin
    have h0 : ∀ n, (pdats m 14 c).owed n = 0 := fun n => owed_eq14 (R29 m) c n
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [h0]
    icases HO with ⟨%W, -, HO⟩; iexists W; iexact HO

theorem reg14_pre (c : Dev nD) : (reg14 m).pre c = iprop(StableHlo.held (c : Thread nD τ) (Pipeline.ucRefs τ sig) (W29 m c) ∗ Rr c) := rfl
theorem reg14_post (c : Dev nD) : (reg14 m).post c = iprop(StableHlo.held (c : Thread nD τ) (Pipeline.ucRefs τ sig) (W30 m c) ∗ Rr c) := rfl

end Cert.KernelIdeal.Hand

end
-- ==== Proof.KI.Run.lean ====
import proofs.«413302_j72232759984513_1_alg».proof.Proof.KI.RunCond
import proofs.«413302_j72232759984513_1_alg».proof.Proof.KI.Chain
import proofs.«413302_j72232759984513_1_alg».proof.Proof.KI.Seg0
import proofs.«413302_j72232759984513_1_alg».proof.Proof.KI.Seg1
import proofs.«413302_j72232759984513_1_alg».proof.Proof.KI.Seg2
import proofs.«413302_j72232759984513_1_alg».proof.Proof.KI.Seg3
import proofs.«413302_j72232759984513_1_alg».proof.Proof.KI.Seg4
import proofs.«413302_j72232759984513_1_alg».proof.Proof.KI.Seg5
import proofs.«413302_j72232759984513_1_alg».proof.Proof.KI.Seg6
import proofs.«413302_j72232759984513_1_alg».proof.Proof.KI.Seg7
import proofs.«413302_j72232759984513_1_alg».proof.Proof.KI.Seg8
import proofs.«413302_j72232759984513_1_alg».proof.Proof.KI.Seg9
import proofs.«413302_j72232759984513_1_alg».proof.Proof.KI.Seg10
import proofs.«413302_j72232759984513_1_alg».proof.Proof.KI.Seg11
import proofs.«413302_j72232759984513_1_alg».proof.Proof.KI.Seg12
import proofs.«413302_j72232759984513_1_alg».proof.Proof.KI.Seg13
import proofs.«413302_j72232759984513_1_alg».proof.Proof.KI.Seg14

-- deciding which references are unscoped recurses past the default depth
set_option maxRecDepth 1952

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run: every unscoped buffer at the end of the chain -/

/-- The launch element is the pipelines' own: owning it is owning the staging cells' initial state, and no ghost
    resource rides beside it. -/
theorem launch_own : (ownU (initOf (Pipeline.cells cfgs cellOf_inj) (Pipeline.launchToks cfgs cellOf_inj)) : sProp 𝕄)
    ⊢ |={Set.univ}=> iprop(BI.own ((emb₁ : Emb (UR sig nD τ) 𝕄) (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own ((emb₁ : Emb (UR sig nD τ) 𝕄) (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- From what the launch deals a core besides its buffers — its unscoped semaphores at zero, owing nothing, no credit, its
    generator register — the rest that rides through every segment: the register at some state, and owing nothing. -/
theorem launch_rest : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts Lz lvz)
    ⊢ (|={Set.univ}=> bigSep Finset.univ (fun c : Dev nD => Rr (F := F) c) : sProp 𝕄) := by
  refine Pipeline.initEach Lz lvz fun c => ?_
  iintro ⟨⟨-, HO, -, Hp, -⟩, -⟩
  imodintro
  isplitl [Hp]; · iexists _; iexact Hp
  iexists ∅; iexact HO

/-- Every weakly fair execution of the program from memory `m` with zero counters terminates, and in every final memory
    each unscoped buffer `b` of core `c` holds `W30 m c b`: the chain's last contents. The conditional run at the regions'
    records, each entered from the contents before it and left at the contents after it (equal to the chain's valuations
    by `V_eqJ`), with nothing owed at launch and no levels. -/
theorem run_all : θ_run defs (onTc (τ := τ) (main (F := F))) ⟨m, fun _ => 0, ρ⟩ (fun r => ∀ c : Dev nD, ∀ b ∈ Pipeline.ucRefs τ sig,
      r.2.mem (((c : Thread nD τ)).1, b) = W30 m c b) :=
  (θ_run defs _ _).mono (fun _ h c b hb => (h c b hb).trans (congrFun (V_eq30 m c) b))
    (run_cond m (Ix := Unit) (U := UR sig nD τ) (Lvl := ℕ) emb₁ () Variants.none Lz lvz (fun _ _ => rfl) ρ (outs m) (pdats m)
      (0 : Dev nD → CellTallies nD τ sig Unit) (fun _ => (BI.emp : sProp 𝕄)) (initOf (Pipeline.cells cfgs cellOf_inj) (Pipeline.launchToks cfgs cellOf_inj))
      (launch_own (F := F)) (fun _ c => Rr c) (launch_rest ρ)
      (fun c => by iintro ⟨-, HO⟩; iexact HO)
      (reg0 m) (fun c => by rw [reg0_pre m c, V_eq1 m c]) (fun c => by rw [reg0_post m c, V_eq2 m c])
      (reg1 m) (fun c => by rw [reg1_pre m c, V_eq3 m c]) (fun c => by rw [reg1_post m c, V_eq4 m c])
      (reg2 m) (fun c => by rw [reg2_pre m c, V_eq5 m c]) (fun c => by rw [reg2_post m c, V_eq6 m c])
      (reg3 m) (fun c => by rw [reg3_pre m c, V_eq7 m c]) (fun c => by rw [reg3_post m c, V_eq8 m c])
      (reg4 m) (fun c => by rw [reg4_pre m c, V_eq9 m c]) (fun c => by rw [reg4_post m c, V_eq10 m c])
      (reg5 m) (fun c => by rw [reg5_pre m c, V_eq11 m c]) (fun c => by rw [reg5_post m c, V_eq12 m c])
      (reg6 m) (fun c => by rw [reg6_pre m c, V_eq13 m c]) (fun c => by rw [reg6_post m c, V_eq14 m c])
      (reg7 m) (fun c => by rw [reg7_pre m c, V_eq15 m c]) (fun c => by rw [reg7_post m c, V_eq16 m c])
      (reg8 m) (fun c => by rw [reg8_pre m c, V_eq17 m c]) (fun c => by rw [reg8_post m c, V_eq18 m c])
      (reg9 m) (fun c => by rw [reg9_pre m c, V_eq19 m c]) (fun c => by rw [reg9_post m c, V_eq20 m c])
      (reg10 m) (fun c => by rw [reg10_pre m c, V_eq21 m c]) (fun c => by rw [reg10_post m c, V_eq22 m c])
      (reg11 m) (fun c => by rw [reg11_pre m c, V_eq23 m c]) (fun c => by rw [reg11_post m c, V_eq24 m c])
      (reg12 m) (fun c => by rw [reg12_pre m c, V_eq25 m c]) (fun c => by rw [reg12_post m c, V_eq26 m c])
      (reg13 m) (fun c => by rw [reg13_pre m c, V_eq27 m c]) (fun c => by rw [reg13_post m c, V_eq28 m c])
      (reg14 m) (fun c => by rw [reg14_pre m c, V_eq29 m c]) (fun c => by rw [reg14_post m c, V_eq30 m c]))

/-- The result buffer and every argument at the end: `main_v166` holds the chain's last contents of it, and each argument
    array holds what it held at launch (both are unscoped references; no item of the chain writes an argument). -/
theorem result_read : θ_run defs (onTc (τ := τ) (main (F := F))) ⟨m, fun _ => 0, ρ⟩ (fun r => ∀ c : Dev nD,
      r.2.mem ((c.tc : Thread nD τ).loc main_v166) = W30 m c (Proc.devRef .tc main_v166) ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun _ h c =>
      ⟨h c (Proc.devRef .tc main_v166) (Finset.mem_filter.mpr ⟨StableHlo.devRef_mem_tcRefs main_v166, by decide⟩),
        (h c (Proc.devRef .tc main_arg0) (Finset.mem_filter.mpr ⟨StableHlo.devRef_mem_tcRefs main_arg0, by decide⟩)).trans ((congrFun (V_eq30 m c) _).symm.trans (V30_main_arg0 m (outs m) c)),
        (h c (Proc.devRef .tc main_arg1) (Finset.mem_filter.mpr ⟨StableHlo.devRef_mem_tcRefs main_arg1, by decide⟩)).trans ((congrFun (V_eq30 m c) _).symm.trans (V30_main_arg1 m (outs m) c)),
        (h c (Proc.devRef .tc main_arg2) (Finset.mem_filter.mpr ⟨StableHlo.devRef_mem_tcRefs main_arg2, by decide⟩)).trans ((congrFun (V_eq30 m c) _).symm.trans (V30_main_arg2 m (outs m) c)),
        (h c (Proc.devRef .tc main_arg3) (Finset.mem_filter.mpr ⟨StableHlo.devRef_mem_tcRefs main_arg3, by decide⟩)).trans ((congrFun (V_eq30 m c) _).symm.trans (V30_main_arg3 m (outs m) c)),
        (h c (Proc.devRef .tc main_arg4) (Finset.mem_filter.mpr ⟨StableHlo.devRef_mem_tcRefs main_arg4, by decide⟩)).trans ((congrFun (V_eq30 m c) _).symm.trans (V30_main_arg4 m (outs m) c)),
        (h c (Proc.devRef .tc main_arg5) (Finset.mem_filter.mpr ⟨StableHlo.devRef_mem_tcRefs main_arg5, by decide⟩)).trans ((congrFun (V_eq30 m c) _).symm.trans (V30_main_arg5 m (outs m) c)),
        (h c (Proc.devRef .tc main_arg6) (Finset.mem_filter.mpr ⟨StableHlo.devRef_mem_tcRefs main_arg6, by decide⟩)).trans ((congrFun (V_eq30 m c) _).symm.trans (V30_main_arg6 m (outs m) c)),
        (h c (Proc.devRef .tc main_arg7) (Finset.mem_filter.mpr ⟨StableHlo.devRef_mem_tcRefs main_arg7, by decide⟩)).trans ((congrFun (V_eq30 m c) _).symm.trans (V30_main_arg7 m (outs m) c)),
        (h c (Proc.devRef .tc main_arg8) (Finset.mem_filter.mpr ⟨StableHlo.devRef_mem_tcRefs main_arg8, by decide⟩)).trans ((congrFun (V_eq30 m c) _).symm.trans (V30_main_arg8 m (outs m) c)),
        (h c (Proc.devRef .tc main_arg9) (Finset.mem_filter.mpr ⟨StableHlo.devRef_mem_tcRefs main_arg9, by decide⟩)).trans ((congrFun (V_eq30 m c) _).symm.trans (V30_main_arg9 m (outs m) c)),
        (h c (Proc.devRef .tc main_arg10) (Finset.mem_filter.mpr ⟨StableHlo.devRef_mem_tcRefs main_arg10, by decide⟩)).trans ((congrFun (V_eq30 m c) _).symm.trans (V30_main_arg10 m (outs m) c)),
        (h c (Proc.devRef .tc main_arg11) (Finset.mem_filter.mpr ⟨StableHlo.devRef_mem_tcRefs main_arg11, by decide⟩)).trans ((congrFun (V_eq30 m c) _).symm.trans (V30_main_arg11 m (outs m) c)),
        (h c (Proc.devRef .tc main_arg12) (Finset.mem_filter.mpr ⟨StableHlo.devRef_mem_tcRefs main_arg12, by decide⟩)).trans ((congrFun (V_eq30 m c) _).symm.trans (V30_main_arg12 m (outs m) c)),
        (h c (Proc.devRef .tc main_arg13) (Finset.mem_filter.mpr ⟨StableHlo.devRef_mem_tcRefs main_arg13, by decide⟩)).trans ((congrFun (V_eq30 m c) _).symm.trans (V30_main_arg13 m (outs m) c)),
        (h c (Proc.devRef .tc main_arg14) (Finset.mem_filter.mpr ⟨StableHlo.devRef_mem_tcRefs main_arg14, by decide⟩)).trans ((congrFun (V_eq30 m c) _).symm.trans (V30_main_arg14 m (outs m) c)),
        (h c (Proc.devRef .tc main_arg15) (Finset.mem_filter.mpr ⟨StableHlo.devRef_mem_tcRefs main_arg15, by decide⟩)).trans ((congrFun (V_eq30 m c) _).symm.trans (V30_main_arg15 m (outs m) c)),
        (h c (Proc.devRef .tc main_arg16) (Finset.mem_filter.mpr ⟨StableHlo.devRef_mem_tcRefs main_arg16, by decide⟩)).trans ((congrFun (V_eq30 m c) _).symm.trans (V30_main_arg16 m (outs m) c)),
        (h c (Proc.devRef .tc main_arg17) (Finset.mem_filter.mpr ⟨StableHlo.devRef_mem_tcRefs main_arg17, by decide⟩)).trans ((congrFun (V_eq30 m c) _).symm.trans (V30_main_arg17 m (outs m) c)),
        (h c (Proc.devRef .tc main_arg18) (Finset.mem_filter.mpr ⟨StableHlo.devRef_mem_tcRefs main_arg18, by decide⟩)).trans ((congrFun (V_eq30 m c) _).symm.trans (V30_main_arg18 m (outs m) c)),
        (h c (Proc.devRef .tc main_arg19) (Finset.mem_filter.mpr ⟨StableHlo.devRef_mem_tcRefs main_arg19, by decide⟩)).trans ((congrFun (V_eq30 m c) _).symm.trans (V30_main_arg19 m (outs m) c)),
        (h c (Proc.devRef .tc main_arg20) (Finset.mem_filter.mpr ⟨StableHlo.devRef_mem_tcRefs main_arg20, by decide⟩)).trans ((congrFun (V_eq30 m c) _).symm.trans (V30_main_arg20 m (outs m) c)),
        (h c (Proc.devRef .tc main_arg21) (Finset.mem_filter.mpr ⟨StableHlo.devRef_mem_tcRefs main_arg21, by decide⟩)).trans ((congrFun (V_eq30 m c) _).symm.trans (V30_main_arg21 m (outs m) c)),
        (h c (Proc.devRef .tc main_arg22) (Finset.mem_filter.mpr ⟨StableHlo.devRef_mem_tcRefs main_arg22, by decide⟩)).trans ((congrFun (V_eq30 m c) _).symm.trans (V30_main_arg22 m (outs m) c)),
        (h c (Proc.devRef .tc main_arg23) (Finset.mem_filter.mpr ⟨StableHlo.devRef_mem_tcRefs main_arg23, by decide⟩)).trans ((congrFun (V_eq30 m c) _).symm.trans (V30_main_arg23 m (outs m) c))⟩)
    (run_all m ρ)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun _ h c => (h c).2) (result_read m ρ)

end Cert.KernelIdeal.Hand

end
-- ==== Proof.Ref.Run.lean ====
import proofs.«413302_j72232759984513_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]
/-- Every buffer a line of operations writes lies in `W` once each operation's one result buffer does. -/
theorem writes_sub {τ : Topo} {op : HloOp τ sig (Elt F)} {y : Ref sig .tc} {W : List (Ref sig .tc)}
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

/-- The contents after two lines in a row: the second line's fold over the first's. -/
theorem after_append' {τ : Topo} : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

/-- @main's statements of window `main_part0` as a line of 83 host operations, the outlined functions' operations in place of their calls (over each call's buffer record). -/
abbrev ops_part0 : List (HloOp τ sig (Elt F)) :=
  [ unary main_arg1 main_v0 ((extractStridedSlice S1x1280000 ![0, 0] · slices_S2x1280000_S1x1280000_0_0) : (⟨S2x1280000, .i32⟩ : BufTy).Contents (Elt F) → (⟨S1x1280000, .i32⟩ : BufTy).Contents (Elt F)),
    reshape main_v0 main_v1 rfl shapeCasts_S1x1280000_S1280000,
    unary main_arg1 main_v2 ((extractStridedSlice S1x1280000 ![1, 0] · slices_S2x1280000_S1x1280000_1_0) : (⟨S2x1280000, .i32⟩ : BufTy).Contents (Elt F) → (⟨S1x1280000, .i32⟩ : BufTy).Contents (Elt F)),
    reshape main_v2 main_v3 rfl shapeCasts_S1x1280000_S1280000,
    nullary main_c (constantI S_ 32 0#32),
    unary main_c main_v4 (broadcastInDim S1280000 ![] bcast_S_S1280000 : (⟨S_, .i32⟩ : BufTy).Contents (Elt F) → (⟨S1280000, .i32⟩ : BufTy).Contents (Elt F)),
    binary main_v1 main_v4 main_v5 (cmpi .slt : (⟨S1280000, .i32⟩ : BufTy).Contents (Elt F) → (⟨S1280000, .i32⟩ : BufTy).Contents (Elt F) → (⟨S1280000, .i1⟩ : BufTy).Contents (Elt F)),
    nullary main_c_0 (constantI S_ 32 100000#32),
    unary main_c_0 main_v6 (broadcastInDim S1280000 ![] bcast_S_S1280000 : (⟨S_, .i32⟩ : BufTy).Contents (Elt F) → (⟨S1280000, .i32⟩ : BufTy).Contents (Elt F)),
    binary main_v1 main_v6 main_v7 (addi : (⟨S1280000, .i32⟩ : BufTy).Contents (Elt F) → (⟨S1280000, .i32⟩ : BufTy).Contents (Elt F) → (⟨S1280000, .i32⟩ : BufTy).Contents (Elt F)),
    ternary main_v5 main_v7 main_v1 main_v8 (select : (⟨S1280000, .i1⟩ : BufTy).Contents (Elt F) → (⟨S1280000, .i32⟩ : BufTy).Contents (Elt F) → (⟨S1280000, .i32⟩ : BufTy).Contents (Elt F) → (⟨S1280000, .i32⟩ : BufTy).Contents (Elt F)),
    unary main_v8 main_v9 (broadcastInDim S1280000x1 ![0] bcast_S1280000_S1280000x1_0 : (⟨S1280000, .i32⟩ : BufTy).Contents (Elt F) → (⟨S1280000x1, .i32⟩ : BufTy).Contents (Elt F)),
    binary main_arg0 main_v9 main_v10 ((fun x i => Host.gather gather_S100000x64_S1280000x1_S1280000x64_1_0_n_n_0_1_164 x i) : (⟨S100000x64, .f32⟩ : BufTy).Contents (Elt F) → (⟨S1280000x1, .i32⟩ : BufTy).Contents (Elt F) → (⟨S1280000x64, .f32⟩ : BufTy).Contents (Elt F)),
    nullary main_cst (constant S_ .f32 0x00000000#32),
    unary main_cst main_v11 (broadcastInDim S100000x64 ![] bcast_S_S100000x64 : (⟨S_, .f32⟩ : BufTy).Contents (Elt F) → (⟨S100000x64, .f32⟩ : BufTy).Contents (Elt F)),
    unary main_v3 main_v12 (broadcastInDim S1280000x1 ![0] bcast_S1280000_S1280000x1_0 : (⟨S1280000, .i32⟩ : BufTy).Contents (Elt F) → (⟨S1280000x1, .i32⟩ : BufTy).Contents (Elt F)),
    ternary main_v11 main_v12 main_v10 main_v13 ((fun x i u => Host.scatterAdd scatter_S100000x64_S1280000x1_S1280000x64_1_0_0_1 x i u) : (⟨S100000x64, .f32⟩ : BufTy).Contents (Elt F) → (⟨S1280000x1, .i32⟩ : BufTy).Contents (Elt F) → (⟨S1280000x64, .f32⟩ : BufTy).Contents (Elt F) → (⟨S100000x64, .f32⟩ : BufTy).Contents (Elt F)),
    binary main_arg0 main_v13 main_v14 (addf : (⟨S100000x64, .f32⟩ : BufTy).Contents (Elt F) → (⟨S100000x64, .f32⟩ : BufTy).Contents (Elt F) → (⟨S100000x64, .f32⟩ : BufTy).Contents (Elt F)),
    binary main_v14 main_arg6 main_v15 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    unary main_arg7 main_v16 (broadcastInDim S1x128 ![1] bcast_S128_S1x128_1 : (⟨S128, .f32⟩ : BufTy).Contents (Elt F) → (⟨S1x128, .f32⟩ : BufTy).Contents (Elt F)),
    unary main_v16 main_v17 (broadcastInDim S100000x128 ![0, 1] bcast_S1x128_S100000x128_0_1 : (⟨S1x128, .f32⟩ : BufTy).Contents (Elt F) → (⟨S100000x128, .f32⟩ : BufTy).Contents (Elt F)),
    binary main_v15 main_v17 main_v18 (addf : (⟨S100000x128, .f32⟩ : BufTy).Contents (Elt F) → (⟨S100000x128, .f32⟩ : BufTy).Contents (Elt F) → (⟨S100000x128, .f32⟩ : BufTy).Contents (Elt F)),
    nullary main_cst_1 (constant S_ .f32 0x00000000#32),
    binary main_v18 main_cst_1 main_v19 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_2 (constant S_ .f32 0x47C35000#32),
    unary main_cst_2 main_v20 (broadcastInDim S128 ![] bcast_S_S128 : (⟨S_, .f32⟩ : BufTy).Contents (Elt F) → (⟨S128, .f32⟩ : BufTy).Contents (Elt F)),
    binary main_v19 main_v20 main_v21 (Host.divf : (⟨S128, .f32⟩ : BufTy).Contents (Elt F) → (⟨S128, .f32⟩ : BufTy).Contents (Elt F) → (⟨S128, .f32⟩ : BufTy).Contents (Elt F)),
    nullary main_c_3 (constantI S_ 32 0#32),
    TRef.nullary main_call0.cst (constant S_ .f32 0x00000000#32),
    TRef.binary (.of main_v18) main_call0.cst main_call0.v0 (fun x v => Host.reduceAdd x v reducesTo_S100000x128_S128_d0 h_S_),
    TRef.unary main_call0.v0 main_call0.v1 (broadcastInDim S1x128 ![1] bcast_S128_S1x128_1),
    TRef.nullary main_call0.cst_0 (constant S_ .f32 0x47C35000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S100000x128 ![0, 1] bcast_S1x128_S100000x128_0_1),
    TRef.binary (.of main_v18) main_call0.v4 main_call0.v5 subf,
    TRef.binary main_call0.v5 main_call0.v5 main_call0.v6 mulf,
    TRef.unary (.of main_c_3) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    unary main_v21 main_v23 (broadcastInDim S1x128 ![1] bcast_S128_S1x128_1 : (⟨S128, .f32⟩ : BufTy).Contents (Elt F) → (⟨S1x128, .f32⟩ : BufTy).Contents (Elt F)),
    unary main_v23 main_v24 (broadcastInDim S100000x128 ![0, 1] bcast_S1x128_S100000x128_0_1 : (⟨S1x128, .f32⟩ : BufTy).Contents (Elt F) → (⟨S100000x128, .f32⟩ : BufTy).Contents (Elt F)),
    binary main_v18 main_v24 main_v25 (subf : (⟨S100000x128, .f32⟩ : BufTy).Contents (Elt F) → (⟨S100000x128, .f32⟩ : BufTy).Contents (Elt F) → (⟨S100000x128, .f32⟩ : BufTy).Contents (Elt F)),
    nullary main_cst_4 (constant S_ .f32 0x3727C5AC#32),
    unary main_cst_4 main_v26 (broadcastInDim S128 ![] bcast_S_S128 : (⟨S_, .f32⟩ : BufTy).Contents (Elt F) → (⟨S128, .f32⟩ : BufTy).Contents (Elt F)),
    binary main_v22 main_v26 main_v27 (addf : (⟨S128, .f32⟩ : BufTy).Contents (Elt F) → (⟨S128, .f32⟩ : BufTy).Contents (Elt F) → (⟨S128, .f32⟩ : BufTy).Contents (Elt F)),
    unary main_v27 main_v28 (Host.rsqrt : (⟨S128, .f32⟩ : BufTy).Contents (Elt F) → (⟨S128, .f32⟩ : BufTy).Contents (Elt F)),
    unary main_v28 main_v29 (broadcastInDim S1x128 ![1] bcast_S128_S1x128_1 : (⟨S128, .f32⟩ : BufTy).Contents (Elt F) → (⟨S1x128, .f32⟩ : BufTy).Contents (Elt F)),
    unary main_v29 main_v30 (broadcastInDim S100000x128 ![0, 1] bcast_S1x128_S100000x128_0_1 : (⟨S1x128, .f32⟩ : BufTy).Contents (Elt F) → (⟨S100000x128, .f32⟩ : BufTy).Contents (Elt F)),
    binary main_v25 main_v30 main_v31 (mulf : (⟨S100000x128, .f32⟩ : BufTy).Contents (Elt F) → (⟨S100000x128, .f32⟩ : BufTy).Contents (Elt F) → (⟨S100000x128, .f32⟩ : BufTy).Contents (Elt F)),
    unary main_arg8 main_v32 (broadcastInDim S1x128 ![1] bcast_S128_S1x128_1 : (⟨S128, .f32⟩ : BufTy).Contents (Elt F) → (⟨S1x128, .f32⟩ : BufTy).Contents (Elt F)),
    unary main_v32 main_v33 (broadcastInDim S100000x128 ![0, 1] bcast_S1x128_S100000x128_0_1 : (⟨S1x128, .f32⟩ : BufTy).Contents (Elt F) → (⟨S100000x128, .f32⟩ : BufTy).Contents (Elt F)),
    binary main_v31 main_v33 main_v34 (mulf : (⟨S100000x128, .f32⟩ : BufTy).Contents (Elt F) → (⟨S100000x128, .f32⟩ : BufTy).Contents (Elt F) → (⟨S100000x128, .f32⟩ : BufTy).Contents (Elt F)),
    unary main_arg9 main_v35 (broadcastInDim S1x128 ![1] bcast_S128_S1x128_1 : (⟨S128, .f32⟩ : BufTy).Contents (Elt F) → (⟨S1x128, .f32⟩ : BufTy).Contents (Elt F)),
    unary main_v35 main_v36 (broadcastInDim S100000x128 ![0, 1] bcast_S1x128_S100000x128_0_1 : (⟨S1x128, .f32⟩ : BufTy).Contents (Elt F) → (⟨S100000x128, .f32⟩ : BufTy).Contents (Elt F)),
    binary main_v34 main_v36 main_v37 (addf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (.of main_v37) main_call1.v0 main_call1.v1 maximumf,
    nullary main_c_5 (constantI S_ 32 0#32),
    unary main_c_5 main_v39 (broadcastInDim S1280000 ![] bcast_S_S1280000 : (⟨S_, .i32⟩ : BufTy).Contents (Elt F) → (⟨S1280000, .i32⟩ : BufTy).Contents (Elt F)),
    binary main_v1 main_v39 main_v40 (cmpi .slt : (⟨S1280000, .i32⟩ : BufTy).Contents (Elt F) → (⟨S1280000, .i32⟩ : BufTy).Contents (Elt F) → (⟨S1280000, .i1⟩ : BufTy).Contents (Elt F)),
    nullary main_c_6 (constantI S_ 32 100000#32),
    unary main_c_6 main_v41 (broadcastInDim S1280000 ![] bcast_S_S1280000 : (⟨S_, .i32⟩ : BufTy).Contents (Elt F) → (⟨S1280000, .i32⟩ : BufTy).Contents (Elt F)),
    binary main_v1 main_v41 main_v42 (addi : (⟨S1280000, .i32⟩ : BufTy).Contents (Elt F) → (⟨S1280000, .i32⟩ : BufTy).Contents (Elt F) → (⟨S1280000, .i32⟩ : BufTy).Contents (Elt F)),
    ternary main_v40 main_v42 main_v1 main_v43 (select : (⟨S1280000, .i1⟩ : BufTy).Contents (Elt F) → (⟨S1280000, .i32⟩ : BufTy).Contents (Elt F) → (⟨S1280000, .i32⟩ : BufTy).Contents (Elt F) → (⟨S1280000, .i32⟩ : BufTy).Contents (Elt F)),
    unary main_v43 main_v44 (broadcastInDim S1280000x1 ![0] bcast_S1280000_S1280000x1_0 : (⟨S1280000, .i32⟩ : BufTy).Contents (Elt F) → (⟨S1280000x1, .i32⟩ : BufTy).Contents (Elt F)),
    binary main_v38 main_v44 main_v45 ((fun x i => Host.gather gather_S100000x128_S1280000x1_S1280000x128_1_0_n_n_0_1_1128 x i) : (⟨S100000x128, .f32⟩ : BufTy).Contents (Elt F) → (⟨S1280000x1, .i32⟩ : BufTy).Contents (Elt F) → (⟨S1280000x128, .f32⟩ : BufTy).Contents (Elt F)),
    nullary main_cst_7 (constant S_ .f32 0x00000000#32),
    unary main_cst_7 main_v46 (broadcastInDim S100000x128 ![] bcast_S_S100000x128 : (⟨S_, .f32⟩ : BufTy).Contents (Elt F) → (⟨S100000x128, .f32⟩ : BufTy).Contents (Elt F)),
    unary main_v3 main_v47 (broadcastInDim S1280000x1 ![0] bcast_S1280000_S1280000x1_0 : (⟨S1280000, .i32⟩ : BufTy).Contents (Elt F) → (⟨S1280000x1, .i32⟩ : BufTy).Contents (Elt F)),
    ternary main_v46 main_v47 main_v45 main_v48 ((fun x i u => Host.scatterAdd scatter_S100000x128_S1280000x1_S1280000x128_1_0_0_1 x i u) : (⟨S100000x128, .f32⟩ : BufTy).Contents (Elt F) → (⟨S1280000x1, .i32⟩ : BufTy).Contents (Elt F) → (⟨S1280000x128, .f32⟩ : BufTy).Contents (Elt F) → (⟨S100000x128, .f32⟩ : BufTy).Contents (Elt F)),
    binary main_v38 main_v48 main_v49 (addf : (⟨S100000x128, .f32⟩ : BufTy).Contents (Elt F) → (⟨S100000x128, .f32⟩ : BufTy).Contents (Elt F) → (⟨S100000x128, .f32⟩ : BufTy).Contents (Elt F)) ]

set_option maxRecDepth 8192 in
set_option maxHeartbeats 4000000 in
/-- The window is that line: the outlined functions unfolded at their calls, sequencing reassociated. -/
theorem main_part0_eq (c : Dev nD) : main_part0 (F := F) c = seq ops_part0 := by
  simp only [main_part0, fn_where.body, fn_var.body, fn_relu.body, fn_relu_0.body, seq, bind_assoc, pure_bind]
  rfl

set_option maxRecDepth 8192 in
theorem ops_part0_sub : (ops_part0 : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., binary_bufs_sub ..,
    binary_bufs_sub .., unary_bufs_sub .., unary_bufs_sub .., binary_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., unary_bufs_sub .., ternary_bufs_sub .., binary_bufs_sub ..⟩

/-- The buffers the window's operations write, in order. -/
abbrev ops_part0_W : List (Ref sig .tc) :=
  [main_v0, main_v1, main_v2, main_v3, main_c, main_v4, main_v5, main_c_0,
    main_v6, main_v7, main_v8, main_v9, main_v10, main_cst, main_v11, main_v12,
    main_v13, main_v14, main_v15, main_v16, main_v17, main_v18, main_cst_1, main_v19,
    main_cst_2, main_v20, main_v21, main_c_3, main_call0.cst.ref, main_call0.v0.ref, main_call0.v1.ref, main_call0.cst_0.ref,
    main_call0.v2.ref, main_call0.v3.ref, main_call0.v4.ref, main_call0.v5.ref, main_call0.v6.ref, main_call0.v7.ref, main_call0.cst_1.ref, main_call0.v8.ref,
    main_call0.cst_2.ref, main_call0.v9.ref, main_call0.v10.ref, main_call0.v11.ref, main_call0.cst_3.ref, main_call0.v12.ref, main_call0.cst_4.ref, main_call0.call0.v0.ref,
    main_call0.call0.v1.ref, main_call0.call0.v2.ref, main_v23, main_v24, main_v25, main_cst_4, main_v26, main_v27,
    main_v28, main_v29, main_v30, main_v31, main_v32, main_v33, main_v34, main_v35,
    main_v36, main_v37, main_call1.cst.ref, main_call1.v0.ref, main_call1.v1.ref, main_c_5, main_v39, main_v40,
    main_c_6, main_v41, main_v42, main_v43, main_v44, main_v45, main_cst_7, main_v46,
    main_v47, main_v48, main_v49]

set_option maxRecDepth 8192 in
theorem ops_part0_writes : (ops_part0 : List (HloOp τ sig (Elt F))).Forall fun op =>
    op.writes ⊆ (ops_part0_W.map (Proc.devRef (τ := τ) .tc)).toFinset :=
  ⟨writes_sub (unary_writes ..) (by decide), writes_sub (reshape_writes ..) (by decide), writes_sub (unary_writes ..) (by decide),
    writes_sub (reshape_writes ..) (by decide), writes_sub (nullary_writes ..) (by decide), writes_sub (unary_writes ..) (by decide),
    writes_sub (binary_writes ..) (by decide), writes_sub (nullary_writes ..) (by decide), writes_sub (unary_writes ..) (by decide),
    writes_sub (binary_writes ..) (by decide), writes_sub (ternary_writes ..) (by decide), writes_sub (unary_writes ..) (by decide),
    writes_sub (binary_writes ..) (by decide), writes_sub (nullary_writes ..) (by decide), writes_sub (unary_writes ..) (by decide),
    writes_sub (unary_writes ..) (by decide), writes_sub (ternary_writes ..) (by decide), writes_sub (binary_writes ..) (by decide),
    writes_sub (binary_writes ..) (by decide), writes_sub (unary_writes ..) (by decide), writes_sub (unary_writes ..) (by decide),
    writes_sub (binary_writes ..) (by decide), writes_sub (nullary_writes ..) (by decide), writes_sub (binary_writes ..) (by decide),
    writes_sub (nullary_writes ..) (by decide), writes_sub (unary_writes ..) (by decide), writes_sub (binary_writes ..) (by decide),
    writes_sub (nullary_writes ..) (by decide), writes_sub (nullary_writes ..) (by decide), writes_sub (binary_writes ..) (by decide),
    writes_sub (unary_writes ..) (by decide), writes_sub (nullary_writes ..) (by decide), writes_sub (unary_writes ..) (by decide),
    writes_sub (binary_writes ..) (by decide), writes_sub (unary_writes ..) (by decide), writes_sub (binary_writes ..) (by decide),
    writes_sub (binary_writes ..) (by decide), writes_sub (unary_writes ..) (by decide), writes_sub (nullary_writes ..) (by decide),
    writes_sub (binary_writes ..) (by decide), writes_sub (nullary_writes ..) (by decide), writes_sub (binary_writes ..) (by decide),
    writes_sub (unary_writes ..) (by decide), writes_sub (binary_writes ..) (by decide), writes_sub (nullary_writes ..) (by decide),
    writes_sub (binary_writes ..) (by decide), writes_sub (nullary_writes ..) (by decide), writes_sub (unary_writes ..) (by decide),
    writes_sub (unary_writes ..) (by decide), writes_sub (ternary_writes ..) (by decide), writes_sub (unary_writes ..) (by decide),
    writes_sub (unary_writes ..) (by decide), writes_sub (binary_writes ..) (by decide), writes_sub (nullary_writes ..) (by decide),
    writes_sub (unary_writes ..) (by decide), writes_sub (binary_writes ..) (by decide), writes_sub (unary_writes ..) (by decide),
    writes_sub (unary_writes ..) (by decide), writes_sub (unary_writes ..) (by decide), writes_sub (binary_writes ..) (by decide),
    writes_sub (unary_writes ..) (by decide), writes_sub (unary_writes ..) (by decide), writes_sub (binary_writes ..) (by decide),
    writes_sub (unary_writes ..) (by decide), writes_sub (unary_writes ..) (by decide), writes_sub (binary_writes ..) (by decide),
    writes_sub (nullary_writes ..) (by decide), writes_sub (unary_writes ..) (by decide), writes_sub (binary_writes ..) (by decide),
    writes_sub (nullary_writes ..) (by decide), writes_sub (unary_writes ..) (by decide), writes_sub (binary_writes ..) (by decide),
    writes_sub (nullary_writes ..) (by decide), writes_sub (unary_writes ..) (by decide), writes_sub (binary_writes ..) (by decide),
    writes_sub (ternary_writes ..) (by decide), writes_sub (unary_writes ..) (by decide), writes_sub (binary_writes ..) (by decide),
    writes_sub (nullary_writes ..) (by decide), writes_sub (unary_writes ..) (by decide), writes_sub (unary_writes ..) (by decide),
    writes_sub (ternary_writes ..) (by decide), writes_sub (binary_writes ..) (by decide)⟩

/-- A buffer the window does not write keeps its contents through it. -/
theorem keep0 (V : Valuation τ sig (Elt F)) (r : Ref sig .tc) (h : r ∉ ops_part0_W) :
    after ops_part0 V (Proc.devRef .tc r) = V (Proc.devRef .tc r) :=
  after_of_writes_sub ops_part0 V ops_part0_writes h

set_option maxRecDepth 8192 in
/-- No operation of the window leaves its result undetermined. -/
theorem fresh0 : ∀ op ∈ (ops_part0 : List (HloOp τ sig (Elt F))), op.fresh = ∅ := by
  intro _ h; (repeat (cases h with | head => rfl | tail _ h => ?_)); exact nomatch h

/-- @main's statements of window `main_part1` as a line of 104 host operations, the outlined functions' operations in place of their calls (over each call's buffer record). -/
abbrev ops_part1 : List (HloOp τ sig (Elt F)) :=
  [ binary main_v49 main_arg10 main_v50 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg11 main_v51 (broadcastInDim S1x128 ![1] bcast_S128_S1x128_1 : (⟨S128, .f32⟩ : BufTy).Contents (Elt F) → (⟨S1x128, .f32⟩ : BufTy).Contents (Elt F)),
    unary main_v51 main_v52 (broadcastInDim S100000x128 ![0, 1] bcast_S1x128_S100000x128_0_1 : (⟨S1x128, .f32⟩ : BufTy).Contents (Elt F) → (⟨S100000x128, .f32⟩ : BufTy).Contents (Elt F)),
    binary main_v50 main_v52 main_v53 (addf : (⟨S100000x128, .f32⟩ : BufTy).Contents (Elt F) → (⟨S100000x128, .f32⟩ : BufTy).Contents (Elt F) → (⟨S100000x128, .f32⟩ : BufTy).Contents (Elt F)),
    nullary main_cst_8 (constant S_ .f32 0x00000000#32),
    binary main_v53 main_cst_8 main_v54 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_9 (constant S_ .f32 0x47C35000#32),
    unary main_cst_9 main_v55 (broadcastInDim S128 ![] bcast_S_S128 : (⟨S_, .f32⟩ : BufTy).Contents (Elt F) → (⟨S128, .f32⟩ : BufTy).Contents (Elt F)),
    binary main_v54 main_v55 main_v56 (Host.divf : (⟨S128, .f32⟩ : BufTy).Contents (Elt F) → (⟨S128, .f32⟩ : BufTy).Contents (Elt F) → (⟨S128, .f32⟩ : BufTy).Contents (Elt F)),
    nullary main_c_10 (constantI S_ 32 0#32),
    TRef.nullary main_call2.cst (constant S_ .f32 0x00000000#32),
    TRef.binary (.of main_v53) main_call2.cst main_call2.v0 (fun x v => Host.reduceAdd x v reducesTo_S100000x128_S128_d0 h_S_),
    TRef.unary main_call2.v0 main_call2.v1 (broadcastInDim S1x128 ![1] bcast_S128_S1x128_1),
    TRef.nullary main_call2.cst_0 (constant S_ .f32 0x47C35000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S100000x128 ![0, 1] bcast_S1x128_S100000x128_0_1),
    TRef.binary (.of main_v53) main_call2.v4 main_call2.v5 subf,
    TRef.binary main_call2.v5 main_call2.v5 main_call2.v6 mulf,
    TRef.unary (.of main_c_10) main_call2.v7 (sitofp .f32),
    TRef.nullary main_call2.cst_1 (constant S_ .f32 0x47C35000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S100000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b),
    unary main_v56 main_v58 (broadcastInDim S1x128 ![1] bcast_S128_S1x128_1 : (⟨S128, .f32⟩ : BufTy).Contents (Elt F) → (⟨S1x128, .f32⟩ : BufTy).Contents (Elt F)),
    unary main_v58 main_v59 (broadcastInDim S100000x128 ![0, 1] bcast_S1x128_S100000x128_0_1 : (⟨S1x128, .f32⟩ : BufTy).Contents (Elt F) → (⟨S100000x128, .f32⟩ : BufTy).Contents (Elt F)),
    binary main_v53 main_v59 main_v60 (subf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x3727C5AC#32),
    unary main_cst_11 main_v61 (broadcastInDim S128 ![] bcast_S_S128 : (⟨S_, .f32⟩ : BufTy).Contents (Elt F) → (⟨S128, .f32⟩ : BufTy).Contents (Elt F)),
    binary main_v57 main_v61 main_v62 (addf : (⟨S128, .f32⟩ : BufTy).Contents (Elt F) → (⟨S128, .f32⟩ : BufTy).Contents (Elt F) → (⟨S128, .f32⟩ : BufTy).Contents (Elt F)),
    unary main_v62 main_v63 (Host.rsqrt : (⟨S128, .f32⟩ : BufTy).Contents (Elt F) → (⟨S128, .f32⟩ : BufTy).Contents (Elt F)),
    unary main_v63 main_v64 (broadcastInDim S1x128 ![1] bcast_S128_S1x128_1 : (⟨S128, .f32⟩ : BufTy).Contents (Elt F) → (⟨S1x128, .f32⟩ : BufTy).Contents (Elt F)),
    unary main_v64 main_v65 (broadcastInDim S100000x128 ![0, 1] bcast_S1x128_S100000x128_0_1 : (⟨S1x128, .f32⟩ : BufTy).Contents (Elt F) → (⟨S100000x128, .f32⟩ : BufTy).Contents (Elt F)),
    binary main_v60 main_v65 main_v66 (mulf : (⟨S100000x128, .f32⟩ : BufTy).Contents (Elt F) → (⟨S100000x128, .f32⟩ : BufTy).Contents (Elt F) → (⟨S100000x128, .f32⟩ : BufTy).Contents (Elt F)),
    unary main_arg12 main_v67 (broadcastInDim S1x128 ![1] bcast_S128_S1x128_1 : (⟨S128, .f32⟩ : BufTy).Contents (Elt F) → (⟨S1x128, .f32⟩ : BufTy).Contents (Elt F)),
    unary main_v67 main_v68 (broadcastInDim S100000x128 ![0, 1] bcast_S1x128_S100000x128_0_1 : (⟨S1x128, .f32⟩ : BufTy).Contents (Elt F) → (⟨S100000x128, .f32⟩ : BufTy).Contents (Elt F)),
    binary main_v66 main_v68 main_v69 (mulf : (⟨S100000x128, .f32⟩ : BufTy).Contents (Elt F) → (⟨S100000x128, .f32⟩ : BufTy).Contents (Elt F) → (⟨S100000x128, .f32⟩ : BufTy).Contents (Elt F)),
    unary main_arg13 main_v70 (broadcastInDim S1x128 ![1] bcast_S128_S1x128_1 : (⟨S128, .f32⟩ : BufTy).Contents (Elt F) → (⟨S1x128, .f32⟩ : BufTy).Contents (Elt F)),
    unary main_v70 main_v71 (broadcastInDim S100000x128 ![0, 1] bcast_S1x128_S100000x128_0_1 : (⟨S1x128, .f32⟩ : BufTy).Contents (Elt F) → (⟨S100000x128, .f32⟩ : BufTy).Contents (Elt F)),
    binary main_v69 main_v71 main_v72 (addf : (⟨S100000x128, .f32⟩ : BufTy).Contents (Elt F) → (⟨S100000x128, .f32⟩ : BufTy).Contents (Elt F) → (⟨S100000x128, .f32⟩ : BufTy).Contents (Elt F)),
    TRef.nullary main_call3.cst (constant S_ .f32 0x00000000#32),
    TRef.unary main_call3.cst main_call3.v0 (broadcastInDim S100000x128 ![] bcast_S_S100000x128),
    TRef.binary (.of main_v72) main_call3.v0 main_call3.v1 maximumf,
    nullary main_c_12 (constantI S_ 32 0#32),
    unary main_c_12 main_v74 (broadcastInDim S1280000 ![] bcast_S_S1280000 : (⟨S_, .i32⟩ : BufTy).Contents (Elt F) → (⟨S1280000, .i32⟩ : BufTy).Contents (Elt F)),
    binary main_v1 main_v74 main_v75 (cmpi .slt : (⟨S1280000, .i32⟩ : BufTy).Contents (Elt F) → (⟨S1280000, .i32⟩ : BufTy).Contents (Elt F) → (⟨S1280000, .i1⟩ : BufTy).Contents (Elt F)),
    nullary main_c_13 (constantI S_ 32 100000#32),
    unary main_c_13 main_v76 (broadcastInDim S1280000 ![] bcast_S_S1280000 : (⟨S_, .i32⟩ : BufTy).Contents (Elt F) → (⟨S1280000, .i32⟩ : BufTy).Contents (Elt F)),
    binary main_v1 main_v76 main_v77 (addi : (⟨S1280000, .i32⟩ : BufTy).Contents (Elt F) → (⟨S1280000, .i32⟩ : BufTy).Contents (Elt F) → (⟨S1280000, .i32⟩ : BufTy).Contents (Elt F)),
    ternary main_v75 main_v77 main_v1 main_v78 (select : (⟨S1280000, .i1⟩ : BufTy).Contents (Elt F) → (⟨S1280000, .i32⟩ : BufTy).Contents (Elt F) → (⟨S1280000, .i32⟩ : BufTy).Contents (Elt F) → (⟨S1280000, .i32⟩ : BufTy).Contents (Elt F)),
    unary main_v78 main_v79 (broadcastInDim S1280000x1 ![0] bcast_S1280000_S1280000x1_0 : (⟨S1280000, .i32⟩ : BufTy).Contents (Elt F) → (⟨S1280000x1, .i32⟩ : BufTy).Contents (Elt F)),
    binary main_v73 main_v79 main_v80 ((fun x i => Host.gather gather_S100000x128_S1280000x1_S1280000x128_1_0_n_n_0_1_1128 x i) : (⟨S100000x128, .f32⟩ : BufTy).Contents (Elt F) → (⟨S1280000x1, .i32⟩ : BufTy).Contents (Elt F) → (⟨S1280000x128, .f32⟩ : BufTy).Contents (Elt F)),
    nullary main_cst_14 (constant S_ .f32 0x00000000#32),
    unary main_cst_14 main_v81 (broadcastInDim S100000x128 ![] bcast_S_S100000x128 : (⟨S_, .f32⟩ : BufTy).Contents (Elt F) → (⟨S100000x128, .f32⟩ : BufTy).Contents (Elt F)),
    unary main_v3 main_v82 (broadcastInDim S1280000x1 ![0] bcast_S1280000_S1280000x1_0 : (⟨S1280000, .i32⟩ : BufTy).Contents (Elt F) → (⟨S1280000x1, .i32⟩ : BufTy).Contents (Elt F)),
    ternary main_v81 main_v82 main_v80 main_v83 ((fun x i u => Host.scatterAdd scatter_S100000x128_S1280000x1_S1280000x128_1_0_0_1 x i u) : (⟨S100000x128, .f32⟩ : BufTy).Contents (Elt F) → (⟨S1280000x1, .i32⟩ : BufTy).Contents (Elt F) → (⟨S1280000x128, .f32⟩ : BufTy).Contents (Elt F) → (⟨S100000x128, .f32⟩ : BufTy).Contents (Elt F)),
    binary main_v73 main_v83 main_v84 (addf : (⟨S100000x128, .f32⟩ : BufTy).Contents (Elt F) → (⟨S100000x128, .f32⟩ : BufTy).Contents (Elt F) → (⟨S100000x128, .f32⟩ : BufTy).Contents (Elt F)),
    binary main_v84 main_arg14 main_v85 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg15 main_v86 (broadcastInDim S1x128 ![1] bcast_S128_S1x128_1 : (⟨S128, .f32⟩ : BufTy).Contents (Elt F) → (⟨S1x128, .f32⟩ : BufTy).Contents (Elt F)),
    unary main_v86 main_v87 (broadcastInDim S100000x128 ![0, 1] bcast_S1x128_S100000x128_0_1 : (⟨S1x128, .f32⟩ : BufTy).Contents (Elt F) → (⟨S100000x128, .f32⟩ : BufTy).Contents (Elt F)),
    binary main_v85 main_v87 main_v88 (addf : (⟨S100000x128, .f32⟩ : BufTy).Contents (Elt F) → (⟨S100000x128, .f32⟩ : BufTy).Contents (Elt F) → (⟨S100000x128, .f32⟩ : BufTy).Contents (Elt F)),
    nullary main_cst_15 (constant S_ .f32 0x00000000#32),
    binary main_v88 main_cst_15 main_v89 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_16 (constant S_ .f32 0x47C35000#32),
    unary main_cst_16 main_v90 (broadcastInDim S128 ![] bcast_S_S128 : (⟨S_, .f32⟩ : BufTy).Contents (Elt F) → (⟨S128, .f32⟩ : BufTy).Contents (Elt F)),
    binary main_v89 main_v90 main_v91 (Host.divf : (⟨S128, .f32⟩ : BufTy).Contents (Elt F) → (⟨S128, .f32⟩ : BufTy).Contents (Elt F) → (⟨S128, .f32⟩ : BufTy).Contents (Elt F)),
    nullary main_c_17 (constantI S_ 32 0#32),
    TRef.nullary main_call4.cst (constant S_ .f32 0x00000000#32),
    TRef.binary (.of main_v88) main_call4.cst main_call4.v0 (fun x v => Host.reduceAdd x v reducesTo_S100000x128_S128_d0 h_S_),
    TRef.unary main_call4.v0 main_call4.v1 (broadcastInDim S1x128 ![1] bcast_S128_S1x128_1),
    TRef.nullary main_call4.cst_0 (constant S_ .f32 0x47C35000#32),
    TRef.unary main_call4.cst_0 main_call4.v2 (broadcastInDim S1x128 ![] bcast_S_S1x128),
    TRef.binary main_call4.v1 main_call4.v2 main_call4.v3 Host.divf,
    TRef.unary main_call4.v3 main_call4.v4 (broadcastInDim S100000x128 ![0, 1] bcast_S1x128_S100000x128_0_1),
    TRef.binary (.of main_v88) main_call4.v4 main_call4.v5 subf,
    TRef.binary main_call4.v5 main_call4.v5 main_call4.v6 mulf,
    TRef.unary (.of main_c_17) main_call4.v7 (sitofp .f32),
    TRef.nullary main_call4.cst_1 (constant S_ .f32 0x47C35000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S100000x128_S128_d0 h_S_),
    TRef.unary main_call4.v8 main_call4.v10 (broadcastInDim S128 ![] bcast_S_S128),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S128 ![] bcast_S_S128),
    TRef.ternary main_call4.v12 main_call4.v11 main_call4.call0.v1 main_call4.call0.v2 (fun p a b => select (broadcastInDim S128 ![] bcast_S_S128 p) a b),
    unary main_v91 main_v93 (broadcastInDim S1x128 ![1] bcast_S128_S1x128_1 : (⟨S128, .f32⟩ : BufTy).Contents (Elt F) → (⟨S1x128, .f32⟩ : BufTy).Contents (Elt F)),
    unary main_v93 main_v94 (broadcastInDim S100000x128 ![0, 1] bcast_S1x128_S100000x128_0_1 : (⟨S1x128, .f32⟩ : BufTy).Contents (Elt F) → (⟨S100000x128, .f32⟩ : BufTy).Contents (Elt F)),
    binary main_v88 main_v94 main_v95 (subf : (⟨S100000x128, .f32⟩ : BufTy).Contents (Elt F) → (⟨S100000x128, .f32⟩ : BufTy).Contents (Elt F) → (⟨S100000x128, .f32⟩ : BufTy).Contents (Elt F)),
    nullary main_cst_18 (constant S_ .f32 0x3727C5AC#32),
    unary main_cst_18 main_v96 (broadcastInDim S128 ![] bcast_S_S128 : (⟨S_, .f32⟩ : BufTy).Contents (Elt F) → (⟨S128, .f32⟩ : BufTy).Contents (Elt F)),
    binary main_v92 main_v96 main_v97 (addf : (⟨S128, .f32⟩ : BufTy).Contents (Elt F) → (⟨S128, .f32⟩ : BufTy).Contents (Elt F) → (⟨S128, .f32⟩ : BufTy).Contents (Elt F)),
    unary main_v97 main_v98 (Host.rsqrt : (⟨S128, .f32⟩ : BufTy).Contents (Elt F) → (⟨S128, .f32⟩ : BufTy).Contents (Elt F)) ]

set_option maxRecDepth 8192 in
set_option maxHeartbeats 4000000 in
/-- The window is that line: the outlined functions unfolded at their calls, sequencing reassociated. -/
theorem main_part1_eq (c : Dev nD) : main_part1 (F := F) c = seq ops_part1 := by
  simp only [main_part1, fn_where.body, fn_var.body, fn_relu.body, fn_relu_0.body, seq, bind_assoc, pure_bind]
  rfl

set_option maxRecDepth 8192 in
theorem ops_part1_sub : (ops_part1 : List (HloOp τ sig (Elt F))).Forall fun op => op.bufs ⊆ tcRefs τ sig :=
  ⟨binary_bufs_sub .., unary_bufs_sub .., unary_bufs_sub .., binary_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., unary_bufs_sub .., ternary_bufs_sub .., binary_bufs_sub .., binary_bufs_sub ..,
    unary_bufs_sub .., unary_bufs_sub .., binary_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., nullary_bufs_sub .., unary_bufs_sub ..,
    binary_bufs_sub .., unary_bufs_sub ..⟩

/-- The buffers the window's operations write, in order. -/
abbrev ops_part1_W : List (Ref sig .tc) :=
  [main_v50, main_v51, main_v52, main_v53, main_cst_8, main_v54, main_cst_9, main_v55,
    main_v56, main_c_10, main_call2.cst.ref, main_call2.v0.ref, main_call2.v1.ref, main_call2.cst_0.ref, main_call2.v2.ref, main_call2.v3.ref,
    main_call2.v4.ref, main_call2.v5.ref, main_call2.v6.ref, main_call2.v7.ref, main_call2.cst_1.ref, main_call2.v8.ref, main_call2.cst_2.ref, main_call2.v9.ref,
    main_call2.v10.ref, main_call2.v11.ref, main_call2.cst_3.ref, main_call2.v12.ref, main_call2.cst_4.ref, main_call2.call0.v0.ref, main_call2.call0.v1.ref, main_call2.call0.v2.ref,
    main_v58, main_v59, main_v60, main_cst_11, main_v61, main_v62, main_v63, main_v64,
    main_v65, main_v66, main_v67, main_v68, main_v69, main_v70, main_v71, main_v72,
    main_call3.cst.ref, main_call3.v0.ref, main_call3.v1.ref, main_c_12, main_v74, main_v75, main_c_13, main_v76,
    main_v77, main_v78, main_v79, main_v80, main_cst_14, main_v81, main_v82, main_v83,
    main_v84, main_v85, main_v86, main_v87, main_v88, main_cst_15, main_v89, main_cst_16,
    main_v90, main_v91, main_c_17, main_call4.cst.ref, main_call4.v0.ref, main_call4.v1.ref, main_call4.cst_0.ref, main_call4.v2.ref,
    main_call4.v3.ref, main_call4.v4.ref, main_call4.v5.ref, main_call4.v6.ref, main_call4.v7.ref, main_call4.cst_1.ref, main_call4.v8.ref, main_call4.cst_2.ref,
    main_call4.v9.ref, main_call4.v10.ref, main_call4.v11.ref, main_call4.cst_3.ref, main_call4.v12.ref, main_call4.cst_4.ref, main_call4.call0.v0.ref, main_call4.call0.v1.ref,
    main_call4.call0.v2.ref, main_v93, main_v94, main_v95, main_cst_18, main_v96, main_v97, main_v98]

set_option maxRecDepth 8192 in
theorem ops_part1_writes : (ops_part1 : List (HloOp τ sig (Elt F))).Forall fun op =>
    op.writes ⊆ (ops_part1_W.map (Proc.devRef (τ := τ) .tc)).toFinset :=
  ⟨writes_sub (binary_writes ..) (by decide), writes_sub (unary_writes ..) (by decide), writes_sub (unary_writes ..) (by decide),
    writes_sub (binary_writes ..) (by decide), writes_sub (nullary_writes ..) (by decide), writes_sub (binary_writes ..) (by decide),
    writes_sub (nullary_writes ..) (by decide), writes_sub (unary_writes ..) (by decide), writes_sub (binary_writes ..) (by decide),
    writes_sub (nullary_writes ..) (by decide), writes_sub (nullary_writes ..) (by decide), writes_sub (binary_writes ..) (by decide),
    writes_sub (unary_writes ..) (by decide), writes_sub (nullary_writes ..) (by decide), writes_sub (unary_writes ..) (by decide),
    writes_sub (binary_writes ..) (by decide), writes_sub (unary_writes ..) (by decide), writes_sub (binary_writes ..) (by decide),
    writes_sub (binary_writes ..) (by decide), writes_sub (unary_writes ..) (by decide), writes_sub (nullary_writes ..) (by decide),
    writes_sub (binary_writes ..) (by decide), writes_sub (nullary_writes ..) (by decide), writes_sub (binary_writes ..) (by decide),
    writes_sub (unary_writes ..) (by decide), writes_sub (binary_writes ..) (by decide), writes_sub (nullary_writes ..) (by decide),
    writes_sub (binary_writes ..) (by decide), writes_sub (nullary_writes ..) (by decide), writes_sub (unary_writes ..) (by decide),
    writes_sub (unary_writes ..) (by decide), writes_sub (ternary_writes ..) (by decide), writes_sub (unary_writes ..) (by decide),
    writes_sub (unary_writes ..) (by decide), writes_sub (binary_writes ..) (by decide), writes_sub (nullary_writes ..) (by decide),
    writes_sub (unary_writes ..) (by decide), writes_sub (binary_writes ..) (by decide), writes_sub (unary_writes ..) (by decide),
    writes_sub (unary_writes ..) (by decide), writes_sub (unary_writes ..) (by decide), writes_sub (binary_writes ..) (by decide),
    writes_sub (unary_writes ..) (by decide), writes_sub (unary_writes ..) (by decide), writes_sub (binary_writes ..) (by decide),
    writes_sub (unary_writes ..) (by decide), writes_sub (unary_writes ..) (by decide), writes_sub (binary_writes ..) (by decide),
    writes_sub (nullary_writes ..) (by decide), writes_sub (unary_writes ..) (by decide), writes_sub (binary_writes ..) (by decide),
    writes_sub (nullary_writes ..) (by decide), writes_sub (unary_writes ..) (by decide), writes_sub (binary_writes ..) (by decide),
    writes_sub (nullary_writes ..) (by decide), writes_sub (unary_writes ..) (by decide), writes_sub (binary_writes ..) (by decide),
    writes_sub (ternary_writes ..) (by decide), writes_sub (unary_writes ..) (by decide), writes_sub (binary_writes ..) (by decide),
    writes_sub (nullary_writes ..) (by decide), writes_sub (unary_writes ..) (by decide), writes_sub (unary_writes ..) (by decide),
    writes_sub (ternary_writes ..) (by decide), writes_sub (binary_writes ..) (by decide), writes_sub (binary_writes ..) (by decide),
    writes_sub (unary_writes ..) (by decide), writes_sub (unary_writes ..) (by decide), writes_sub (binary_writes ..) (by decide),
    writes_sub (nullary_writes ..) (by decide), writes_sub (binary_writes ..) (by decide), writes_sub (nullary_writes ..) (by decide),
    writes_sub (unary_writes ..) (by decide), writes_sub (binary_writes ..) (by decide), writes_sub (nullary_writes ..) (by decide),
    writes_sub (nullary_writes ..) (by decide), writes_sub (binary_writes ..) (by decide), writes_sub (unary_writes ..) (by decide),
    writes_sub (nullary_writes ..) (by decide), writes_sub (unary_writes ..) (by decide), writes_sub (binary_writes ..) (by decide),
    writes_sub (unary_writes ..) (by decide), writes_sub (binary_writes ..) (by decide), writes_sub (binary_writes ..) (by decide),
    writes_sub (unary_writes ..) (by decide), writes_sub (nullary_writes ..) (by decide), writes_sub (binary_writes ..) (by decide),
    writes_sub (nullary_writes ..) (by decide), writes_sub (binary_writes ..) (by decide), writes_sub (unary_writes ..) (by decide),
    writes_sub (binary_writes ..) (by decide), writes_sub (nullary_writes ..) (by decide), writes_sub (binary_writes ..) (by decide),
    writes_sub (nullary_writes ..) (by decide), writes_sub (unary_writes ..) (by decide), writes_sub (unary_writes ..) (by decide),
    writes_sub (ternary_writes ..) (by decide), writes_sub (unary_writes ..) (by decide), writes_sub (unary_writes ..) (by decide),
    writes_sub (binary_writes ..) (by decide), writes_sub (nullary_writes ..) (by decide), writes_sub (unary_writes ..) (by decide),
    writes_sub (binary_writes ..) (by decide), writes_sub (unary_writes ..) (by decide)⟩

/-- A buffer the window does not write keeps its contents through it. -/
theorem keep1 (V : Valuation τ sig (Elt F)) (r : Ref sig .tc) (h : r ∉ ops_part1_W) :
    after ops_part1 V (Proc.devRef .tc r) = V (Proc.devRef .tc r) :=
  after_of_writes_sub ops_part1 V ops_part1_writes h

set_option maxRecDepth 8192 in
/-- No operation of the window leaves its result undetermined. -/
theorem fresh1 : ∀ op ∈ (ops_part1 : List (HloOp τ sig (Elt F))), op.fresh = ∅ := by
  intro _ h; (repeat (cases h with | head => rfl | tail _ h => ?_)); exact nomatch h

/-- @main's statements of window `main_part2` as a line of 83 host operations, the outlined functions' operations in place of their calls (over each call's buffer record). -/
abbrev ops_part2 : List (HloOp τ sig (Elt F)) :=
  [ unary main_v98 main_v99 (broadcastInDim S1x128 ![1] bcast_S128_S1x128_1 : (⟨S128, .f32⟩ : BufTy).Contents (Elt F) → (⟨S1x128, .f32⟩ : BufTy).Contents (Elt F)),
    unary main_v99 main_v100 (broadcastInDim S100000x128 ![0, 1] bcast_S1x128_S100000x128_0_1 : (⟨S1x128, .f32⟩ : BufTy).Contents (Elt F) → (⟨S100000x128, .f32⟩ : BufTy).Contents (Elt F)),
    binary main_v95 main_v100 main_v101 (mulf : (⟨S100000x128, .f32⟩ : BufTy).Contents (Elt F) → (⟨S100000x128, .f32⟩ : BufTy).Contents (Elt F) → (⟨S100000x128, .f32⟩ : BufTy).Contents (Elt F)),
    unary main_arg16 main_v102 (broadcastInDim S1x128 ![1] bcast_S128_S1x128_1 : (⟨S128, .f32⟩ : BufTy).Contents (Elt F) → (⟨S1x128, .f32⟩ : BufTy).Contents (Elt F)),
    unary main_v102 main_v103 (broadcastInDim S100000x128 ![0, 1] bcast_S1x128_S100000x128_0_1 : (⟨S1x128, .f32⟩ : BufTy).Contents (Elt F) → (⟨S100000x128, .f32⟩ : BufTy).Contents (Elt F)),
    binary main_v101 main_v103 main_v104 (mulf : (⟨S100000x128, .f32⟩ : BufTy).Contents (Elt F) → (⟨S100000x128, .f32⟩ : BufTy).Contents (Elt F) → (⟨S100000x128, .f32⟩ : BufTy).Contents (Elt F)),
    unary main_arg17 main_v105 (broadcastInDim S1x128 ![1] bcast_S128_S1x128_1 : (⟨S128, .f32⟩ : BufTy).Contents (Elt F) → (⟨S1x128, .f32⟩ : BufTy).Contents (Elt F)),
    unary main_v105 main_v106 (broadcastInDim S100000x128 ![0, 1] bcast_S1x128_S100000x128_0_1 : (⟨S1x128, .f32⟩ : BufTy).Contents (Elt F) → (⟨S100000x128, .f32⟩ : BufTy).Contents (Elt F)),
    binary main_v104 main_v106 main_v107 (addf : (⟨S100000x128, .f32⟩ : BufTy).Contents (Elt F) → (⟨S100000x128, .f32⟩ : BufTy).Contents (Elt F) → (⟨S100000x128, .f32⟩ : BufTy).Contents (Elt F)),
    TRef.nullary main_call5.cst (constant S_ .f32 0x00000000#32),
    TRef.unary main_call5.cst main_call5.v0 (broadcastInDim S100000x128 ![] bcast_S_S100000x128),
    TRef.binary (.of main_v107) main_call5.v0 main_call5.v1 maximumf,
    nullary main_cst_19 (constant S_ .f32 0x00000000#32),
    unary main_cst_19 main_v109 (broadcastInDim S256x128 ![] bcast_S_S256x128 : (⟨S_, .f32⟩ : BufTy).Contents (Elt F) → (⟨S256x128, .f32⟩ : BufTy).Contents (Elt F)),
    unary main_arg2 main_v110 (broadcastInDim S100000x1 ![0] bcast_S100000_S100000x1_0 : (⟨S100000, .i32⟩ : BufTy).Contents (Elt F) → (⟨S100000x1, .i32⟩ : BufTy).Contents (Elt F)),
    ternary main_v109 main_v110 main_v108 main_v111 ((fun x i u => Host.scatterAdd scatter_S256x128_S100000x1_S100000x128_1_0_0_1 x i u) : (⟨S256x128, .f32⟩ : BufTy).Contents (Elt F) → (⟨S100000x1, .i32⟩ : BufTy).Contents (Elt F) → (⟨S100000x128, .f32⟩ : BufTy).Contents (Elt F) → (⟨S256x128, .f32⟩ : BufTy).Contents (Elt F)),
    nullary main_cst_20 (constant S_ .f32 0x3F800000#32),
    unary main_cst_20 main_v112 (broadcastInDim S100000 ![] bcast_S_S100000 : (⟨S_, .f32⟩ : BufTy).Contents (Elt F) → (⟨S100000, .f32⟩ : BufTy).Contents (Elt F)),
    nullary main_cst_21 (constant S_ .f32 0x00000000#32),
    unary main_cst_21 main_v113 (broadcastInDim S256 ![] bcast_S_S256 : (⟨S_, .f32⟩ : BufTy).Contents (Elt F) → (⟨S256, .f32⟩ : BufTy).Contents (Elt F)),
    unary main_arg2 main_v114 (broadcastInDim S100000x1 ![0] bcast_S100000_S100000x1_0 : (⟨S100000, .i32⟩ : BufTy).Contents (Elt F) → (⟨S100000x1, .i32⟩ : BufTy).Contents (Elt F)),
    ternary main_v113 main_v114 main_v112 main_v115 ((fun x i u => Host.scatterAdd scatter_S256_S100000x1_S100000_n_0_0_1 x i u) : (⟨S256, .f32⟩ : BufTy).Contents (Elt F) → (⟨S100000x1, .i32⟩ : BufTy).Contents (Elt F) → (⟨S100000, .f32⟩ : BufTy).Contents (Elt F) → (⟨S256, .f32⟩ : BufTy).Contents (Elt F)),
    nullary main_cst_22 (constant S_ .f32 0x3F800000#32),
    unary main_cst_22 main_v116 (broadcastInDim S256 ![] bcast_S_S256 : (⟨S_, .f32⟩ : BufTy).Contents (Elt F) → (⟨S256, .f32⟩ : BufTy).Contents (Elt F)),
    binary main_v115 main_v116 main_v117 (maximumf : (⟨S256, .f32⟩ : BufTy).Contents (Elt F) → (⟨S256, .f32⟩ : BufTy).Contents (Elt F) → (⟨S256, .f32⟩ : BufTy).Contents (Elt F)),
    unary main_v117 main_v118 (broadcastInDim S256x1 ![0] bcast_S256_S256x1_0 : (⟨S256, .f32⟩ : BufTy).Contents (Elt F) → (⟨S256x1, .f32⟩ : BufTy).Contents (Elt F)),
    unary main_v118 main_v119 (broadcastInDim S256x128 ![0, 1] bcast_S256x1_S256x128_0_1 : (⟨S256x1, .f32⟩ : BufTy).Contents (Elt F) → (⟨S256x128, .f32⟩ : BufTy).Contents (Elt F)),
    binary main_v111 main_v119 main_v120 (Host.divf : (⟨S256x128, .f32⟩ : BufTy).Contents (Elt F) → (⟨S256x128, .f32⟩ : BufTy).Contents (Elt F) → (⟨S256x128, .f32⟩ : BufTy).Contents (Elt F)),
    binary main_v120 main_arg18 main_v121 ((fun l r => Host.dotGeneral dot_S256x128_S128x64_S256x64_1_0_0_1_n_n none l r) : (⟨S256x128, .f32⟩ : BufTy).Contents (Elt F) → (⟨S128x64, .f32⟩ : BufTy).Contents (Elt F) → (⟨S256x64, .f32⟩ : BufTy).Contents (Elt F)),
    unary main_arg19 main_v122 (broadcastInDim S1x64 ![1] bcast_S64_S1x64_1 : (⟨S64, .f32⟩ : BufTy).Contents (Elt F) → (⟨S1x64, .f32⟩ : BufTy).Contents (Elt F)),
    unary main_v122 main_v123 (broadcastInDim S256x64 ![0, 1] bcast_S1x64_S256x64_0_1 : (⟨S1x64, .f32⟩ : BufTy).Contents (Elt F) → (⟨S256x64, .f32⟩ : BufTy).Contents (Elt F)),
    binary main_v121 main_v123 main_v124 (addf : (⟨S256x64, .f32⟩ : BufTy).Contents (Elt F) → (⟨S256x64, .f32⟩ : BufTy).Contents (Elt F) → (⟨S256x64, .f32⟩ : BufTy).Contents (Elt F)),
    unary main_arg4 main_v125 ((extractStridedSlice S1x1280000 ![0, 0] · slices_S2x1280000_S1x1280000_0_0) : (⟨S2x1280000, .i32⟩ : BufTy).Contents (Elt F) → (⟨S1x1280000, .i32⟩ : BufTy).Contents (Elt F)),
    reshape main_v125 main_v126 rfl shapeCasts_S1x1280000_S1280000,
    unary main_arg4 main_v127 ((extractStridedSlice S1x1280000 ![1, 0] · slices_S2x1280000_S1x1280000_1_0) : (⟨S2x1280000, .i32⟩ : BufTy).Contents (Elt F) → (⟨S1x1280000, .i32⟩ : BufTy).Contents (Elt F)),
    reshape main_v127 main_v128 rfl shapeCasts_S1x1280000_S1280000,
    nullary main_c_23 (constantI S_ 32 0#32),
    unary main_c_23 main_v129 (broadcastInDim S1280000 ![] bcast_S_S1280000 : (⟨S_, .i32⟩ : BufTy).Contents (Elt F) → (⟨S1280000, .i32⟩ : BufTy).Contents (Elt F)),
    binary main_v126 main_v129 main_v130 (cmpi .slt : (⟨S1280000, .i32⟩ : BufTy).Contents (Elt F) → (⟨S1280000, .i32⟩ : BufTy).Contents (Elt F) → (⟨S1280000, .i1⟩ : BufTy).Contents (Elt F)),
    nullary main_c_24 (constantI S_ 32 100000#32),
    unary main_c_24 main_v131 (broadcastInDim S1280000 ![] bcast_S_S1280000 : (⟨S_, .i32⟩ : BufTy).Contents (Elt F) → (⟨S1280000, .i32⟩ : BufTy).Contents (Elt F)),
    binary main_v126 main_v131 main_v132 (addi : (⟨S1280000, .i32⟩ : BufTy).Contents (Elt F) → (⟨S1280000, .i32⟩ : BufTy).Contents (Elt F) → (⟨S1280000, .i32⟩ : BufTy).Contents (Elt F)),
    ternary main_v130 main_v132 main_v126 main_v133 (select : (⟨S1280000, .i1⟩ : BufTy).Contents (Elt F) → (⟨S1280000, .i32⟩ : BufTy).Contents (Elt F) → (⟨S1280000, .i32⟩ : BufTy).Contents (Elt F) → (⟨S1280000, .i32⟩ : BufTy).Contents (Elt F)),
    unary main_v133 main_v134 (broadcastInDim S1280000x1 ![0] bcast_S1280000_S1280000x1_0 : (⟨S1280000, .i32⟩ : BufTy).Contents (Elt F) → (⟨S1280000x1, .i32⟩ : BufTy).Contents (Elt F)),
    binary main_arg3 main_v134 main_v135 ((fun x i => Host.gather gather_S100000x64_S1280000x1_S1280000x64_1_0_n_n_0_1_164 x i) : (⟨S100000x64, .f32⟩ : BufTy).Contents (Elt F) → (⟨S1280000x1, .i32⟩ : BufTy).Contents (Elt F) → (⟨S1280000x64, .f32⟩ : BufTy).Contents (Elt F)),
    nullary main_cst_25 (constant S_ .f32 0x00000000#32),
    unary main_cst_25 main_v136 (broadcastInDim S100000x64 ![] bcast_S_S100000x64 : (⟨S_, .f32⟩ : BufTy).Contents (Elt F) → (⟨S100000x64, .f32⟩ : BufTy).Contents (Elt F)),
    unary main_v128 main_v137 (broadcastInDim S1280000x1 ![0] bcast_S1280000_S1280000x1_0 : (⟨S1280000, .i32⟩ : BufTy).Contents (Elt F) → (⟨S1280000x1, .i32⟩ : BufTy).Contents (Elt F)),
    ternary main_v136 main_v137 main_v135 main_v138 ((fun x i u => Host.scatterAdd scatter_S100000x64_S1280000x1_S1280000x64_1_0_0_1 x i u) : (⟨S100000x64, .f32⟩ : BufTy).Contents (Elt F) → (⟨S1280000x1, .i32⟩ : BufTy).Contents (Elt F) → (⟨S1280000x64, .f32⟩ : BufTy).Contents (Elt F) → (⟨S100000x64, .f32⟩ : BufTy).Contents (Elt F)),
    binary main_arg3 main_v138 main_v139 (addf : (⟨S100000x64, .f32⟩ : BufTy).Contents (Elt F) → (⟨S100000x64, .f32⟩ : BufTy).Contents (Elt F) → (⟨S100000x64, .f32⟩ : BufTy).Contents (Elt F)),
    binary main_v139 main_arg6 main_v140 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    unary main_arg7 main_v141 (broadcastInDim S1x128 ![1] bcast_S128_S1x128_1 : (⟨S128, .f32⟩ : BufTy).Contents (Elt F) → (⟨S1x128, .f32⟩ : BufTy).Contents (Elt F)),
    unary main_v141 main_v142 (broadcastInDim S100000x128 ![0, 1] bcast_S1x128_S100000x128_0_1 : (⟨S1x128, .f32⟩ : BufTy).Contents (Elt F) → (⟨S100000x128, .f32⟩ : BufTy).Contents (Elt F)),
    binary main_v140 main_v142 main_v143 (addf : (⟨S100000x128, .f32⟩ : BufTy).Contents (Elt F) → (⟨S100000x128, .f32⟩ : BufTy).Contents (Elt F) → (⟨S100000x128, .f32⟩ : BufTy).Contents (Elt F)),
    nullary main_cst_26 (constant S_ .f32 0x00000000#32),
    binary main_v143 main_cst_26 main_v144 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_27 (constant S_ .f32 0x47C35000#32),
    unary main_cst_27 main_v145 (broadcastInDim S128 ![] bcast_S_S128 : (⟨S_, .f32⟩ : BufTy).Contents (Elt F) → (⟨S128, .f32⟩ : BufTy).Contents (Elt F)),
    binary main_v144 main_v145 main_v146 (Host.divf : (⟨S128, .f32⟩ : BufTy).Contents (Elt F) → (⟨S128, .f32⟩ : BufTy).Contents (Elt F) → (⟨S128, .f32⟩ : BufTy).Contents (Elt F)),
    nullary main_c_28 (constantI S_ 32 0#32),
    TRef.nullary main_call6.cst (constant S_ .f32 0x00000000#32),
    TRef.binary (.of main_v143) main_call6.cst main_call6.v0 (fun x v => Host.reduceAdd x v reducesTo_S100000x128_S128_d0 h_S_),
    TRef.unary main_call6.v0 main_call6.v1 (broadcastInDim S1x128 ![1] bcast_S128_S1x128_1),
    TRef.nullary main_call6.cst_0 (constant S_ .f32 0x47C35000#32),
    TRef.unary main_call6.cst_0 main_call6.v2 (broadcastInDim S1x128 ![] bcast_S_S1x128),
    TRef.binary main_call6.v1 main_call6.v2 main_call6.v3 Host.divf,
    TRef.unary main_call6.v3 main_call6.v4 (broadcastInDim S100000x128 ![0, 1] bcast_S1x128_S100000x128_0_1),
    TRef.binary (.of main_v143) main_call6.v4 main_call6.v5 subf,
    TRef.binary main_call6.v5 main_call6.v5 main_call6.v6 mulf,
    TRef.unary (.of main_c_28) main_call6.v7 (sitofp .f32),
    TRef.nullary main_call6.cst_1 (constant S_ .f32 0x47C35000#32),
    TRef.binary main_call6.cst_1 main_call6.v7 main_call6.v8 subf,
    TRef.nullary main_call6.cst_2 (constant S_ .f32 0x00000000#32),
    TRef.binary main_call6.v6 main_call6.cst_2 main_call6.v9 (fun x v => Host.reduceAdd x v reducesTo_S100000x128_S128_d0 h_S_),
    TRef.unary main_call6.v8 main_call6.v10 (broadcastInDim S128 ![] bcast_S_S128),
    TRef.binary main_call6.v9 main_call6.v10 main_call6.v11 Host.divf,
    TRef.nullary main_call6.cst_3 (constant S_ .f32 0x00000000#32),
    TRef.binary main_call6.v8 main_call6.cst_3 main_call6.v12 (cmpf .ogt),
    TRef.nullary main_call6.cst_4 (constant S_ .f32 0x7FC00000#32),
    TRef.unary main_call6.cst_4 main_call6.call0.v0 id,
    TRef.unary main_call6.call0.v0 main_call6.call0.v1 (broadcastInDim S128 ![] bcast_S_S128),
    TRef.ternary main_call6.v12 main_call6.v11 main_call6.call0.v1 main_call6.call0.v2 (fun p a b => select (broadcastInDim S128 ![] bcast_S_S128 p) a b),
    unary main_v146 main_v148 (broadcastInDim S1x128 ![1] bcast_S128_S1x128_1 : (⟨S128, .f32⟩ : BufTy).Contents (Elt F) → (⟨S1x128, .f32⟩ : BufTy).Contents (Elt F)) ]

set_option maxRecDepth 8192 in
set_option maxHeartbeats 4000000 in
/-- The window is that line: the outlined functions unfolded at their calls, sequencing reassociated. -/
theorem main_part2_eq (c : Dev nD) : main_part2 (F := F) c = seq ops_part2 := by
  simp only [main_part2, fn_where.body, fn_var.body, fn_relu.body, fn_relu_0.body, seq, bind_assoc, pure_bind]
  rfl

set_option maxRecDepth 8192 in
theorem ops_part2_sub : (ops_part2 : List (HloOp τ sig (Elt F))).Forall fun op => op.bufs ⊆ tcRefs τ sig :=
  ⟨unary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., unary_bufs_sub .., ternary_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., unary_bufs_sub .., binary_bufs_sub .., binary_bufs_sub .., unary_bufs_sub ..,
    unary_bufs_sub .., binary_bufs_sub .., unary_bufs_sub .., reshape_bufs_sub .., unary_bufs_sub .., reshape_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., binary_bufs_sub .., binary_bufs_sub .., unary_bufs_sub .., unary_bufs_sub .., binary_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub ..⟩

/-- The buffers the window's operations write, in order. -/
abbrev ops_part2_W : List (Ref sig .tc) :=
  [main_v99, main_v100, main_v101, main_v102, main_v103, main_v104, main_v105, main_v106,
    main_v107, main_call5.cst.ref, main_call5.v0.ref, main_call5.v1.ref, main_cst_19, main_v109, main_v110, main_v111,
    main_cst_20, main_v112, main_cst_21, main_v113, main_v114, main_v115, main_cst_22, main_v116,
    main_v117, main_v118, main_v119, main_v120, main_v121, main_v122, main_v123, main_v124,
    main_v125, main_v126, main_v127, main_v128, main_c_23, main_v129, main_v130, main_c_24,
    main_v131, main_v132, main_v133, main_v134, main_v135, main_cst_25, main_v136, main_v137,
    main_v138, main_v139, main_v140, main_v141, main_v142, main_v143, main_cst_26, main_v144,
    main_cst_27, main_v145, main_v146, main_c_28, main_call6.cst.ref, main_call6.v0.ref, main_call6.v1.ref, main_call6.cst_0.ref,
    main_call6.v2.ref, main_call6.v3.ref, main_call6.v4.ref, main_call6.v5.ref, main_call6.v6.ref, main_call6.v7.ref, main_call6.cst_1.ref, main_call6.v8.ref,
    main_call6.cst_2.ref, main_call6.v9.ref, main_call6.v10.ref, main_call6.v11.ref, main_call6.cst_3.ref, main_call6.v12.ref, main_call6.cst_4.ref, main_call6.call0.v0.ref,
    main_call6.call0.v1.ref, main_call6.call0.v2.ref, main_v148]

set_option maxRecDepth 8192 in
theorem ops_part2_writes : (ops_part2 : List (HloOp τ sig (Elt F))).Forall fun op =>
    op.writes ⊆ (ops_part2_W.map (Proc.devRef (τ := τ) .tc)).toFinset :=
  ⟨writes_sub (unary_writes ..) (by decide), writes_sub (unary_writes ..) (by decide), writes_sub (binary_writes ..) (by decide),
    writes_sub (unary_writes ..) (by decide), writes_sub (unary_writes ..) (by decide), writes_sub (binary_writes ..) (by decide),
    writes_sub (unary_writes ..) (by decide), writes_sub (unary_writes ..) (by decide), writes_sub (binary_writes ..) (by decide),
    writes_sub (nullary_writes ..) (by decide), writes_sub (unary_writes ..) (by decide), writes_sub (binary_writes ..) (by decide),
    writes_sub (nullary_writes ..) (by decide), writes_sub (unary_writes ..) (by decide), writes_sub (unary_writes ..) (by decide),
    writes_sub (ternary_writes ..) (by decide), writes_sub (nullary_writes ..) (by decide), writes_sub (unary_writes ..) (by decide),
    writes_sub (nullary_writes ..) (by decide), writes_sub (unary_writes ..) (by decide), writes_sub (unary_writes ..) (by decide),
    writes_sub (ternary_writes ..) (by decide), writes_sub (nullary_writes ..) (by decide), writes_sub (unary_writes ..) (by decide),
    writes_sub (binary_writes ..) (by decide), writes_sub (unary_writes ..) (by decide), writes_sub (unary_writes ..) (by decide),
    writes_sub (binary_writes ..) (by decide), writes_sub (binary_writes ..) (by decide), writes_sub (unary_writes ..) (by decide),
    writes_sub (unary_writes ..) (by decide), writes_sub (binary_writes ..) (by decide), writes_sub (unary_writes ..) (by decide),
    writes_sub (reshape_writes ..) (by decide), writes_sub (unary_writes ..) (by decide), writes_sub (reshape_writes ..) (by decide),
    writes_sub (nullary_writes ..) (by decide), writes_sub (unary_writes ..) (by decide), writes_sub (binary_writes ..) (by decide),
    writes_sub (nullary_writes ..) (by decide), writes_sub (unary_writes ..) (by decide), writes_sub (binary_writes ..) (by decide),
    writes_sub (ternary_writes ..) (by decide), writes_sub (unary_writes ..) (by decide), writes_sub (binary_writes ..) (by decide),
    writes_sub (nullary_writes ..) (by decide), writes_sub (unary_writes ..) (by decide), writes_sub (unary_writes ..) (by decide),
    writes_sub (ternary_writes ..) (by decide), writes_sub (binary_writes ..) (by decide), writes_sub (binary_writes ..) (by decide),
    writes_sub (unary_writes ..) (by decide), writes_sub (unary_writes ..) (by decide), writes_sub (binary_writes ..) (by decide),
    writes_sub (nullary_writes ..) (by decide), writes_sub (binary_writes ..) (by decide), writes_sub (nullary_writes ..) (by decide),
    writes_sub (unary_writes ..) (by decide), writes_sub (binary_writes ..) (by decide), writes_sub (nullary_writes ..) (by decide),
    writes_sub (nullary_writes ..) (by decide), writes_sub (binary_writes ..) (by decide), writes_sub (unary_writes ..) (by decide),
    writes_sub (nullary_writes ..) (by decide), writes_sub (unary_writes ..) (by decide), writes_sub (binary_writes ..) (by decide),
    writes_sub (unary_writes ..) (by decide), writes_sub (binary_writes ..) (by decide), writes_sub (binary_writes ..) (by decide),
    writes_sub (unary_writes ..) (by decide), writes_sub (nullary_writes ..) (by decide), writes_sub (binary_writes ..) (by decide),
    writes_sub (nullary_writes ..) (by decide), writes_sub (binary_writes ..) (by decide), writes_sub (unary_writes ..) (by decide),
    writes_sub (binary_writes ..) (by decide), writes_sub (nullary_writes ..) (by decide), writes_sub (binary_writes ..) (by decide),
    writes_sub (nullary_writes ..) (by decide), writes_sub (unary_writes ..) (by decide), writes_sub (unary_writes ..) (by decide),
    writes_sub (ternary_writes ..) (by decide), writes_sub (unary_writes ..) (by decide)⟩

/-- A buffer the window does not write keeps its contents through it. -/
theorem keep2 (V : Valuation τ sig (Elt F)) (r : Ref sig .tc) (h : r ∉ ops_part2_W) :
    after ops_part2 V (Proc.devRef .tc r) = V (Proc.devRef .tc r) :=
  after_of_writes_sub ops_part2 V ops_part2_writes h

set_option maxRecDepth 8192 in
/-- No operation of the window leaves its result undetermined. -/
theorem fresh2 : ∀ op ∈ (ops_part2 : List (HloOp τ sig (Elt F))), op.fresh = ∅ := by
  intro _ h; (repeat (cases h with | head => rfl | tail _ h => ?_)); exact nomatch h

/-- @main's statements of window `main_part3` as a line of 85 host operations, the outlined functions' operations in place of their calls (over each call's buffer record). -/
abbrev ops_part3 : List (HloOp τ sig (Elt F)) :=
  [ unary main_v148 main_v149 (broadcastInDim S100000x128 ![0, 1] bcast_S1x128_S100000x128_0_1 : (⟨S1x128, .f32⟩ : BufTy).Contents (Elt F) → (⟨S100000x128, .f32⟩ : BufTy).Contents (Elt F)),
    binary main_v143 main_v149 main_v150 (subf : (⟨S100000x128, .f32⟩ : BufTy).Contents (Elt F) → (⟨S100000x128, .f32⟩ : BufTy).Contents (Elt F) → (⟨S100000x128, .f32⟩ : BufTy).Contents (Elt F)),
    nullary main_cst_29 (constant S_ .f32 0x3727C5AC#32),
    unary main_cst_29 main_v151 (broadcastInDim S128 ![] bcast_S_S128 : (⟨S_, .f32⟩ : BufTy).Contents (Elt F) → (⟨S128, .f32⟩ : BufTy).Contents (Elt F)),
    binary main_v147 main_v151 main_v152 (addf : (⟨S128, .f32⟩ : BufTy).Contents (Elt F) → (⟨S128, .f32⟩ : BufTy).Contents (Elt F) → (⟨S128, .f32⟩ : BufTy).Contents (Elt F)),
    unary main_v152 main_v153 (Host.rsqrt : (⟨S128, .f32⟩ : BufTy).Contents (Elt F) → (⟨S128, .f32⟩ : BufTy).Contents (Elt F)),
    unary main_v153 main_v154 (broadcastInDim S1x128 ![1] bcast_S128_S1x128_1 : (⟨S128, .f32⟩ : BufTy).Contents (Elt F) → (⟨S1x128, .f32⟩ : BufTy).Contents (Elt F)),
    unary main_v154 main_v155 (broadcastInDim S100000x128 ![0, 1] bcast_S1x128_S100000x128_0_1 : (⟨S1x128, .f32⟩ : BufTy).Contents (Elt F) → (⟨S100000x128, .f32⟩ : BufTy).Contents (Elt F)),
    binary main_v150 main_v155 main_v156 (mulf : (⟨S100000x128, .f32⟩ : BufTy).Contents (Elt F) → (⟨S100000x128, .f32⟩ : BufTy).Contents (Elt F) → (⟨S100000x128, .f32⟩ : BufTy).Contents (Elt F)),
    unary main_arg8 main_v157 (broadcastInDim S1x128 ![1] bcast_S128_S1x128_1 : (⟨S128, .f32⟩ : BufTy).Contents (Elt F) → (⟨S1x128, .f32⟩ : BufTy).Contents (Elt F)),
    unary main_v157 main_v158 (broadcastInDim S100000x128 ![0, 1] bcast_S1x128_S100000x128_0_1 : (⟨S1x128, .f32⟩ : BufTy).Contents (Elt F) → (⟨S100000x128, .f32⟩ : BufTy).Contents (Elt F)),
    binary main_v156 main_v158 main_v159 (mulf : (⟨S100000x128, .f32⟩ : BufTy).Contents (Elt F) → (⟨S100000x128, .f32⟩ : BufTy).Contents (Elt F) → (⟨S100000x128, .f32⟩ : BufTy).Contents (Elt F)),
    unary main_arg9 main_v160 (broadcastInDim S1x128 ![1] bcast_S128_S1x128_1 : (⟨S128, .f32⟩ : BufTy).Contents (Elt F) → (⟨S1x128, .f32⟩ : BufTy).Contents (Elt F)),
    unary main_v160 main_v161 (broadcastInDim S100000x128 ![0, 1] bcast_S1x128_S100000x128_0_1 : (⟨S1x128, .f32⟩ : BufTy).Contents (Elt F) → (⟨S100000x128, .f32⟩ : BufTy).Contents (Elt F)),
    binary main_v159 main_v161 main_v162 (addf : (⟨S100000x128, .f32⟩ : BufTy).Contents (Elt F) → (⟨S100000x128, .f32⟩ : BufTy).Contents (Elt F) → (⟨S100000x128, .f32⟩ : BufTy).Contents (Elt F)),
    TRef.nullary main_call7.cst (constant S_ .f32 0x00000000#32),
    TRef.unary main_call7.cst main_call7.v0 (broadcastInDim S100000x128 ![] bcast_S_S100000x128),
    TRef.binary (.of main_v162) main_call7.v0 main_call7.v1 maximumf,
    nullary main_c_30 (constantI S_ 32 0#32),
    unary main_c_30 main_v164 (broadcastInDim S1280000 ![] bcast_S_S1280000 : (⟨S_, .i32⟩ : BufTy).Contents (Elt F) → (⟨S1280000, .i32⟩ : BufTy).Contents (Elt F)),
    binary main_v126 main_v164 main_v165 (cmpi .slt : (⟨S1280000, .i32⟩ : BufTy).Contents (Elt F) → (⟨S1280000, .i32⟩ : BufTy).Contents (Elt F) → (⟨S1280000, .i1⟩ : BufTy).Contents (Elt F)),
    nullary main_c_31 (constantI S_ 32 100000#32),
    unary main_c_31 main_v166 (broadcastInDim S1280000 ![] bcast_S_S1280000 : (⟨S_, .i32⟩ : BufTy).Contents (Elt F) → (⟨S1280000, .i32⟩ : BufTy).Contents (Elt F)),
    binary main_v126 main_v166 main_v167 (addi : (⟨S1280000, .i32⟩ : BufTy).Contents (Elt F) → (⟨S1280000, .i32⟩ : BufTy).Contents (Elt F) → (⟨S1280000, .i32⟩ : BufTy).Contents (Elt F)),
    ternary main_v165 main_v167 main_v126 main_v168 (select : (⟨S1280000, .i1⟩ : BufTy).Contents (Elt F) → (⟨S1280000, .i32⟩ : BufTy).Contents (Elt F) → (⟨S1280000, .i32⟩ : BufTy).Contents (Elt F) → (⟨S1280000, .i32⟩ : BufTy).Contents (Elt F)),
    unary main_v168 main_v169 (broadcastInDim S1280000x1 ![0] bcast_S1280000_S1280000x1_0 : (⟨S1280000, .i32⟩ : BufTy).Contents (Elt F) → (⟨S1280000x1, .i32⟩ : BufTy).Contents (Elt F)),
    binary main_v163 main_v169 main_v170 ((fun x i => Host.gather gather_S100000x128_S1280000x1_S1280000x128_1_0_n_n_0_1_1128 x i) : (⟨S100000x128, .f32⟩ : BufTy).Contents (Elt F) → (⟨S1280000x1, .i32⟩ : BufTy).Contents (Elt F) → (⟨S1280000x128, .f32⟩ : BufTy).Contents (Elt F)),
    nullary main_cst_32 (constant S_ .f32 0x00000000#32),
    unary main_cst_32 main_v171 (broadcastInDim S100000x128 ![] bcast_S_S100000x128 : (⟨S_, .f32⟩ : BufTy).Contents (Elt F) → (⟨S100000x128, .f32⟩ : BufTy).Contents (Elt F)),
    unary main_v128 main_v172 (broadcastInDim S1280000x1 ![0] bcast_S1280000_S1280000x1_0 : (⟨S1280000, .i32⟩ : BufTy).Contents (Elt F) → (⟨S1280000x1, .i32⟩ : BufTy).Contents (Elt F)),
    ternary main_v171 main_v172 main_v170 main_v173 ((fun x i u => Host.scatterAdd scatter_S100000x128_S1280000x1_S1280000x128_1_0_0_1 x i u) : (⟨S100000x128, .f32⟩ : BufTy).Contents (Elt F) → (⟨S1280000x1, .i32⟩ : BufTy).Contents (Elt F) → (⟨S1280000x128, .f32⟩ : BufTy).Contents (Elt F) → (⟨S100000x128, .f32⟩ : BufTy).Contents (Elt F)),
    binary main_v163 main_v173 main_v174 (addf : (⟨S100000x128, .f32⟩ : BufTy).Contents (Elt F) → (⟨S100000x128, .f32⟩ : BufTy).Contents (Elt F) → (⟨S100000x128, .f32⟩ : BufTy).Contents (Elt F)),
    binary main_v174 main_arg10 main_v175 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg11 main_v176 (broadcastInDim S1x128 ![1] bcast_S128_S1x128_1 : (⟨S128, .f32⟩ : BufTy).Contents (Elt F) → (⟨S1x128, .f32⟩ : BufTy).Contents (Elt F)),
    unary main_v176 main_v177 (broadcastInDim S100000x128 ![0, 1] bcast_S1x128_S100000x128_0_1 : (⟨S1x128, .f32⟩ : BufTy).Contents (Elt F) → (⟨S100000x128, .f32⟩ : BufTy).Contents (Elt F)),
    binary main_v175 main_v177 main_v178 (addf : (⟨S100000x128, .f32⟩ : BufTy).Contents (Elt F) → (⟨S100000x128, .f32⟩ : BufTy).Contents (Elt F) → (⟨S100000x128, .f32⟩ : BufTy).Contents (Elt F)),
    nullary main_cst_33 (constant S_ .f32 0x00000000#32),
    binary main_v178 main_cst_33 main_v179 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_34 (constant S_ .f32 0x47C35000#32),
    unary main_cst_34 main_v180 (broadcastInDim S128 ![] bcast_S_S128 : (⟨S_, .f32⟩ : BufTy).Contents (Elt F) → (⟨S128, .f32⟩ : BufTy).Contents (Elt F)),
    binary main_v179 main_v180 main_v181 (Host.divf : (⟨S128, .f32⟩ : BufTy).Contents (Elt F) → (⟨S128, .f32⟩ : BufTy).Contents (Elt F) → (⟨S128, .f32⟩ : BufTy).Contents (Elt F)),
    nullary main_c_35 (constantI S_ 32 0#32),
    TRef.nullary main_call8.cst (constant S_ .f32 0x00000000#32),
    TRef.binary (.of main_v178) main_call8.cst main_call8.v0 (fun x v => Host.reduceAdd x v reducesTo_S100000x128_S128_d0 h_S_),
    TRef.unary main_call8.v0 main_call8.v1 (broadcastInDim S1x128 ![1] bcast_S128_S1x128_1),
    TRef.nullary main_call8.cst_0 (constant S_ .f32 0x47C35000#32),
    TRef.unary main_call8.cst_0 main_call8.v2 (broadcastInDim S1x128 ![] bcast_S_S1x128),
    TRef.binary main_call8.v1 main_call8.v2 main_call8.v3 Host.divf,
    TRef.unary main_call8.v3 main_call8.v4 (broadcastInDim S100000x128 ![0, 1] bcast_S1x128_S100000x128_0_1),
    TRef.binary (.of main_v178) main_call8.v4 main_call8.v5 subf,
    TRef.binary main_call8.v5 main_call8.v5 main_call8.v6 mulf,
    TRef.unary (.of main_c_35) main_call8.v7 (sitofp .f32),
    TRef.nullary main_call8.cst_1 (constant S_ .f32 0x47C35000#32),
    TRef.binary main_call8.cst_1 main_call8.v7 main_call8.v8 subf,
    TRef.nullary main_call8.cst_2 (constant S_ .f32 0x00000000#32),
    TRef.binary main_call8.v6 main_call8.cst_2 main_call8.v9 (fun x v => Host.reduceAdd x v reducesTo_S100000x128_S128_d0 h_S_),
    TRef.unary main_call8.v8 main_call8.v10 (broadcastInDim S128 ![] bcast_S_S128),
    TRef.binary main_call8.v9 main_call8.v10 main_call8.v11 Host.divf,
    TRef.nullary main_call8.cst_3 (constant S_ .f32 0x00000000#32),
    TRef.binary main_call8.v8 main_call8.cst_3 main_call8.v12 (cmpf .ogt),
    TRef.nullary main_call8.cst_4 (constant S_ .f32 0x7FC00000#32),
    TRef.unary main_call8.cst_4 main_call8.call0.v0 id,
    TRef.unary main_call8.call0.v0 main_call8.call0.v1 (broadcastInDim S128 ![] bcast_S_S128),
    TRef.ternary main_call8.v12 main_call8.v11 main_call8.call0.v1 main_call8.call0.v2 (fun p a b => select (broadcastInDim S128 ![] bcast_S_S128 p) a b),
    unary main_v181 main_v183 (broadcastInDim S1x128 ![1] bcast_S128_S1x128_1 : (⟨S128, .f32⟩ : BufTy).Contents (Elt F) → (⟨S1x128, .f32⟩ : BufTy).Contents (Elt F)),
    unary main_v183 main_v184 (broadcastInDim S100000x128 ![0, 1] bcast_S1x128_S100000x128_0_1 : (⟨S1x128, .f32⟩ : BufTy).Contents (Elt F) → (⟨S100000x128, .f32⟩ : BufTy).Contents (Elt F)),
    binary main_v178 main_v184 main_v185 (subf : (⟨S100000x128, .f32⟩ : BufTy).Contents (Elt F) → (⟨S100000x128, .f32⟩ : BufTy).Contents (Elt F) → (⟨S100000x128, .f32⟩ : BufTy).Contents (Elt F)),
    nullary main_cst_36 (constant S_ .f32 0x3727C5AC#32),
    unary main_cst_36 main_v186 (broadcastInDim S128 ![] bcast_S_S128 : (⟨S_, .f32⟩ : BufTy).Contents (Elt F) → (⟨S128, .f32⟩ : BufTy).Contents (Elt F)),
    binary main_v182 main_v186 main_v187 (addf : (⟨S128, .f32⟩ : BufTy).Contents (Elt F) → (⟨S128, .f32⟩ : BufTy).Contents (Elt F) → (⟨S128, .f32⟩ : BufTy).Contents (Elt F)),
    unary main_v187 main_v188 (Host.rsqrt : (⟨S128, .f32⟩ : BufTy).Contents (Elt F) → (⟨S128, .f32⟩ : BufTy).Contents (Elt F)),
    unary main_v188 main_v189 (broadcastInDim S1x128 ![1] bcast_S128_S1x128_1 : (⟨S128, .f32⟩ : BufTy).Contents (Elt F) → (⟨S1x128, .f32⟩ : BufTy).Contents (Elt F)),
    unary main_v189 main_v190 (broadcastInDim S100000x128 ![0, 1] bcast_S1x128_S100000x128_0_1 : (⟨S1x128, .f32⟩ : BufTy).Contents (Elt F) → (⟨S100000x128, .f32⟩ : BufTy).Contents (Elt F)),
    binary main_v185 main_v190 main_v191 (mulf : (⟨S100000x128, .f32⟩ : BufTy).Contents (Elt F) → (⟨S100000x128, .f32⟩ : BufTy).Contents (Elt F) → (⟨S100000x128, .f32⟩ : BufTy).Contents (Elt F)),
    unary main_arg12 main_v192 (broadcastInDim S1x128 ![1] bcast_S128_S1x128_1 : (⟨S128, .f32⟩ : BufTy).Contents (Elt F) → (⟨S1x128, .f32⟩ : BufTy).Contents (Elt F)),
    unary main_v192 main_v193 (broadcastInDim S100000x128 ![0, 1] bcast_S1x128_S100000x128_0_1 : (⟨S1x128, .f32⟩ : BufTy).Contents (Elt F) → (⟨S100000x128, .f32⟩ : BufTy).Contents (Elt F)),
    binary main_v191 main_v193 main_v194 (mulf : (⟨S100000x128, .f32⟩ : BufTy).Contents (Elt F) → (⟨S100000x128, .f32⟩ : BufTy).Contents (Elt F) → (⟨S100000x128, .f32⟩ : BufTy).Contents (Elt F)),
    unary main_arg13 main_v195 (broadcastInDim S1x128 ![1] bcast_S128_S1x128_1 : (⟨S128, .f32⟩ : BufTy).Contents (Elt F) → (⟨S1x128, .f32⟩ : BufTy).Contents (Elt F)),
    unary main_v195 main_v196 (broadcastInDim S100000x128 ![0, 1] bcast_S1x128_S100000x128_0_1 : (⟨S1x128, .f32⟩ : BufTy).Contents (Elt F) → (⟨S100000x128, .f32⟩ : BufTy).Contents (Elt F)),
    binary main_v194 main_v196 main_v197 (addf : (⟨S100000x128, .f32⟩ : BufTy).Contents (Elt F) → (⟨S100000x128, .f32⟩ : BufTy).Contents (Elt F) → (⟨S100000x128, .f32⟩ : BufTy).Contents (Elt F)),
    TRef.nullary main_call9.cst (constant S_ .f32 0x00000000#32),
    TRef.unary main_call9.cst main_call9.v0 (broadcastInDim S100000x128 ![] bcast_S_S100000x128),
    TRef.binary (.of main_v197) main_call9.v0 main_call9.v1 maximumf,
    nullary main_c_37 (constantI S_ 32 0#32),
    unary main_c_37 main_v199 (broadcastInDim S1280000 ![] bcast_S_S1280000 : (⟨S_, .i32⟩ : BufTy).Contents (Elt F) → (⟨S1280000, .i32⟩ : BufTy).Contents (Elt F)) ]

set_option maxRecDepth 8192 in
set_option maxHeartbeats 4000000 in
/-- The window is that line: the outlined functions unfolded at their calls, sequencing reassociated. -/
theorem main_part3_eq (c : Dev nD) : main_part3 (F := F) c = seq ops_part3 := by
  simp only [main_part3, fn_where.body, fn_var.body, fn_relu.body, fn_relu_0.body, seq, bind_assoc, pure_bind]
  rfl

set_option maxRecDepth 8192 in
theorem ops_part3_sub : (ops_part3 : List (HloOp τ sig (Elt F))).Forall fun op => op.bufs ⊆ tcRefs τ sig :=
  ⟨unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., binary_bufs_sub .., binary_bufs_sub .., unary_bufs_sub .., unary_bufs_sub .., binary_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub .., nullary_bufs_sub ..,
    unary_bufs_sub ..⟩

/-- The buffers the window's operations write, in order. -/
abbrev ops_part3_W : List (Ref sig .tc) :=
  [main_v149, main_v150, main_cst_29, main_v151, main_v152, main_v153, main_v154, main_v155,
    main_v156, main_v157, main_v158, main_v159, main_v160, main_v161, main_v162, main_call7.cst.ref,
    main_call7.v0.ref, main_call7.v1.ref, main_c_30, main_v164, main_v165, main_c_31, main_v166, main_v167,
    main_v168, main_v169, main_v170, main_cst_32, main_v171, main_v172, main_v173, main_v174,
    main_v175, main_v176, main_v177, main_v178, main_cst_33, main_v179, main_cst_34, main_v180,
    main_v181, main_c_35, main_call8.cst.ref, main_call8.v0.ref, main_call8.v1.ref, main_call8.cst_0.ref, main_call8.v2.ref, main_call8.v3.ref,
    main_call8.v4.ref, main_call8.v5.ref, main_call8.v6.ref, main_call8.v7.ref, main_call8.cst_1.ref, main_call8.v8.ref, main_call8.cst_2.ref, main_call8.v9.ref,
    main_call8.v10.ref, main_call8.v11.ref, main_call8.cst_3.ref, main_call8.v12.ref, main_call8.cst_4.ref, main_call8.call0.v0.ref, main_call8.call0.v1.ref, main_call8.call0.v2.ref,
    main_v183, main_v184, main_v185, main_cst_36, main_v186, main_v187, main_v188, main_v189,
    main_v190, main_v191, main_v192, main_v193, main_v194, main_v195, main_v196, main_v197,
    main_call9.cst.ref, main_call9.v0.ref, main_call9.v1.ref, main_c_37, main_v199]

set_option maxRecDepth 8192 in
theorem ops_part3_writes : (ops_part3 : List (HloOp τ sig (Elt F))).Forall fun op =>
    op.writes ⊆ (ops_part3_W.map (Proc.devRef (τ := τ) .tc)).toFinset :=
  ⟨writes_sub (unary_writes ..) (by decide), writes_sub (binary_writes ..) (by decide), writes_sub (nullary_writes ..) (by decide),
    writes_sub (unary_writes ..) (by decide), writes_sub (binary_writes ..) (by decide), writes_sub (unary_writes ..) (by decide),
    writes_sub (unary_writes ..) (by decide), writes_sub (unary_writes ..) (by decide), writes_sub (binary_writes ..) (by decide),
    writes_sub (unary_writes ..) (by decide), writes_sub (unary_writes ..) (by decide), writes_sub (binary_writes ..) (by decide),
    writes_sub (unary_writes ..) (by decide), writes_sub (unary_writes ..) (by decide), writes_sub (binary_writes ..) (by decide),
    writes_sub (nullary_writes ..) (by decide), writes_sub (unary_writes ..) (by decide), writes_sub (binary_writes ..) (by decide),
    writes_sub (nullary_writes ..) (by decide), writes_sub (unary_writes ..) (by decide), writes_sub (binary_writes ..) (by decide),
    writes_sub (nullary_writes ..) (by decide), writes_sub (unary_writes ..) (by decide), writes_sub (binary_writes ..) (by decide),
    writes_sub (ternary_writes ..) (by decide), writes_sub (unary_writes ..) (by decide), writes_sub (binary_writes ..) (by decide),
    writes_sub (nullary_writes ..) (by decide), writes_sub (unary_writes ..) (by decide), writes_sub (unary_writes ..) (by decide),
    writes_sub (ternary_writes ..) (by decide), writes_sub (binary_writes ..) (by decide), writes_sub (binary_writes ..) (by decide),
    writes_sub (unary_writes ..) (by decide), writes_sub (unary_writes ..) (by decide), writes_sub (binary_writes ..) (by decide),
    writes_sub (nullary_writes ..) (by decide), writes_sub (binary_writes ..) (by decide), writes_sub (nullary_writes ..) (by decide),
    writes_sub (unary_writes ..) (by decide), writes_sub (binary_writes ..) (by decide), writes_sub (nullary_writes ..) (by decide),
    writes_sub (nullary_writes ..) (by decide), writes_sub (binary_writes ..) (by decide), writes_sub (unary_writes ..) (by decide),
    writes_sub (nullary_writes ..) (by decide), writes_sub (unary_writes ..) (by decide), writes_sub (binary_writes ..) (by decide),
    writes_sub (unary_writes ..) (by decide), writes_sub (binary_writes ..) (by decide), writes_sub (binary_writes ..) (by decide),
    writes_sub (unary_writes ..) (by decide), writes_sub (nullary_writes ..) (by decide), writes_sub (binary_writes ..) (by decide),
    writes_sub (nullary_writes ..) (by decide), writes_sub (binary_writes ..) (by decide), writes_sub (unary_writes ..) (by decide),
    writes_sub (binary_writes ..) (by decide), writes_sub (nullary_writes ..) (by decide), writes_sub (binary_writes ..) (by decide),
    writes_sub (nullary_writes ..) (by decide), writes_sub (unary_writes ..) (by decide), writes_sub (unary_writes ..) (by decide),
    writes_sub (ternary_writes ..) (by decide), writes_sub (unary_writes ..) (by decide), writes_sub (unary_writes ..) (by decide),
    writes_sub (binary_writes ..) (by decide), writes_sub (nullary_writes ..) (by decide), writes_sub (unary_writes ..) (by decide),
    writes_sub (binary_writes ..) (by decide), writes_sub (unary_writes ..) (by decide), writes_sub (unary_writes ..) (by decide),
    writes_sub (unary_writes ..) (by decide), writes_sub (binary_writes ..) (by decide), writes_sub (unary_writes ..) (by decide),
    writes_sub (unary_writes ..) (by decide), writes_sub (binary_writes ..) (by decide), writes_sub (unary_writes ..) (by decide),
    writes_sub (unary_writes ..) (by decide), writes_sub (binary_writes ..) (by decide), writes_sub (nullary_writes ..) (by decide),
    writes_sub (unary_writes ..) (by decide), writes_sub (binary_writes ..) (by decide), writes_sub (nullary_writes ..) (by decide),
    writes_sub (unary_writes ..) (by decide)⟩

/-- A buffer the window does not write keeps its contents through it. -/
theorem keep3 (V : Valuation τ sig (Elt F)) (r : Ref sig .tc) (h : r ∉ ops_part3_W) :
    after ops_part3 V (Proc.devRef .tc r) = V (Proc.devRef .tc r) :=
  after_of_writes_sub ops_part3 V ops_part3_writes h

set_option maxRecDepth 8192 in
/-- No operation of the window leaves its result undetermined. -/
theorem fresh3 : ∀ op ∈ (ops_part3 : List (HloOp τ sig (Elt F))), op.fresh = ∅ := by
  intro _ h; (repeat (cases h with | head => rfl | tail _ h => ?_)); exact nomatch h

/-- @main's statements of window `main_part4` as a line of 83 host operations, the outlined functions' operations in place of their calls (over each call's buffer record). -/
abbrev ops_part4 : List (HloOp τ sig (Elt F)) :=
  [ binary main_v126 main_v199 main_v200 (cmpi .slt : (⟨S1280000, .i32⟩ : BufTy).Contents (Elt F) → (⟨S1280000, .i32⟩ : BufTy).Contents (Elt F) → (⟨S1280000, .i1⟩ : BufTy).Contents (Elt F)),
    nullary main_c_38 (constantI S_ 32 100000#32),
    unary main_c_38 main_v201 (broadcastInDim S1280000 ![] bcast_S_S1280000 : (⟨S_, .i32⟩ : BufTy).Contents (Elt F) → (⟨S1280000, .i32⟩ : BufTy).Contents (Elt F)),
    binary main_v126 main_v201 main_v202 (addi : (⟨S1280000, .i32⟩ : BufTy).Contents (Elt F) → (⟨S1280000, .i32⟩ : BufTy).Contents (Elt F) → (⟨S1280000, .i32⟩ : BufTy).Contents (Elt F)),
    ternary main_v200 main_v202 main_v126 main_v203 (select : (⟨S1280000, .i1⟩ : BufTy).Contents (Elt F) → (⟨S1280000, .i32⟩ : BufTy).Contents (Elt F) → (⟨S1280000, .i32⟩ : BufTy).Contents (Elt F) → (⟨S1280000, .i32⟩ : BufTy).Contents (Elt F)),
    unary main_v203 main_v204 (broadcastInDim S1280000x1 ![0] bcast_S1280000_S1280000x1_0 : (⟨S1280000, .i32⟩ : BufTy).Contents (Elt F) → (⟨S1280000x1, .i32⟩ : BufTy).Contents (Elt F)),
    binary main_v198 main_v204 main_v205 ((fun x i => Host.gather gather_S100000x128_S1280000x1_S1280000x128_1_0_n_n_0_1_1128 x i) : (⟨S100000x128, .f32⟩ : BufTy).Contents (Elt F) → (⟨S1280000x1, .i32⟩ : BufTy).Contents (Elt F) → (⟨S1280000x128, .f32⟩ : BufTy).Contents (Elt F)),
    nullary main_cst_39 (constant S_ .f32 0x00000000#32),
    unary main_cst_39 main_v206 (broadcastInDim S100000x128 ![] bcast_S_S100000x128 : (⟨S_, .f32⟩ : BufTy).Contents (Elt F) → (⟨S100000x128, .f32⟩ : BufTy).Contents (Elt F)),
    unary main_v128 main_v207 (broadcastInDim S1280000x1 ![0] bcast_S1280000_S1280000x1_0 : (⟨S1280000, .i32⟩ : BufTy).Contents (Elt F) → (⟨S1280000x1, .i32⟩ : BufTy).Contents (Elt F)),
    ternary main_v206 main_v207 main_v205 main_v208 ((fun x i u => Host.scatterAdd scatter_S100000x128_S1280000x1_S1280000x128_1_0_0_1 x i u) : (⟨S100000x128, .f32⟩ : BufTy).Contents (Elt F) → (⟨S1280000x1, .i32⟩ : BufTy).Contents (Elt F) → (⟨S1280000x128, .f32⟩ : BufTy).Contents (Elt F) → (⟨S100000x128, .f32⟩ : BufTy).Contents (Elt F)),
    binary main_v198 main_v208 main_v209 (addf : (⟨S100000x128, .f32⟩ : BufTy).Contents (Elt F) → (⟨S100000x128, .f32⟩ : BufTy).Contents (Elt F) → (⟨S100000x128, .f32⟩ : BufTy).Contents (Elt F)),
    binary main_v209 main_arg14 main_v210 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg15 main_v211 (broadcastInDim S1x128 ![1] bcast_S128_S1x128_1 : (⟨S128, .f32⟩ : BufTy).Contents (Elt F) → (⟨S1x128, .f32⟩ : BufTy).Contents (Elt F)),
    unary main_v211 main_v212 (broadcastInDim S100000x128 ![0, 1] bcast_S1x128_S100000x128_0_1 : (⟨S1x128, .f32⟩ : BufTy).Contents (Elt F) → (⟨S100000x128, .f32⟩ : BufTy).Contents (Elt F)),
    binary main_v210 main_v212 main_v213 (addf : (⟨S100000x128, .f32⟩ : BufTy).Contents (Elt F) → (⟨S100000x128, .f32⟩ : BufTy).Contents (Elt F) → (⟨S100000x128, .f32⟩ : BufTy).Contents (Elt F)),
    nullary main_cst_40 (constant S_ .f32 0x00000000#32),
    binary main_v213 main_cst_40 main_v214 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_41 (constant S_ .f32 0x47C35000#32),
    unary main_cst_41 main_v215 (broadcastInDim S128 ![] bcast_S_S128 : (⟨S_, .f32⟩ : BufTy).Contents (Elt F) → (⟨S128, .f32⟩ : BufTy).Contents (Elt F)),
    binary main_v214 main_v215 main_v216 (Host.divf : (⟨S128, .f32⟩ : BufTy).Contents (Elt F) → (⟨S128, .f32⟩ : BufTy).Contents (Elt F) → (⟨S128, .f32⟩ : BufTy).Contents (Elt F)),
    nullary main_c_42 (constantI S_ 32 0#32),
    TRef.nullary main_call10.cst (constant S_ .f32 0x00000000#32),
    TRef.binary (.of main_v213) main_call10.cst main_call10.v0 (fun x v => Host.reduceAdd x v reducesTo_S100000x128_S128_d0 h_S_),
    TRef.unary main_call10.v0 main_call10.v1 (broadcastInDim S1x128 ![1] bcast_S128_S1x128_1),
    TRef.nullary main_call10.cst_0 (constant S_ .f32 0x47C35000#32),
    TRef.unary main_call10.cst_0 main_call10.v2 (broadcastInDim S1x128 ![] bcast_S_S1x128),
    TRef.binary main_call10.v1 main_call10.v2 main_call10.v3 Host.divf,
    TRef.unary main_call10.v3 main_call10.v4 (broadcastInDim S100000x128 ![0, 1] bcast_S1x128_S100000x128_0_1),
    TRef.binary (.of main_v213) main_call10.v4 main_call10.v5 subf,
    TRef.binary main_call10.v5 main_call10.v5 main_call10.v6 mulf,
    TRef.unary (.of main_c_42) main_call10.v7 (sitofp .f32),
    TRef.nullary main_call10.cst_1 (constant S_ .f32 0x47C35000#32),
    TRef.binary main_call10.cst_1 main_call10.v7 main_call10.v8 subf,
    TRef.nullary main_call10.cst_2 (constant S_ .f32 0x00000000#32),
    TRef.binary main_call10.v6 main_call10.cst_2 main_call10.v9 (fun x v => Host.reduceAdd x v reducesTo_S100000x128_S128_d0 h_S_),
    TRef.unary main_call10.v8 main_call10.v10 (broadcastInDim S128 ![] bcast_S_S128),
    TRef.binary main_call10.v9 main_call10.v10 main_call10.v11 Host.divf,
    TRef.nullary main_call10.cst_3 (constant S_ .f32 0x00000000#32),
    TRef.binary main_call10.v8 main_call10.cst_3 main_call10.v12 (cmpf .ogt),
    TRef.nullary main_call10.cst_4 (constant S_ .f32 0x7FC00000#32),
    TRef.unary main_call10.cst_4 main_call10.call0.v0 id,
    TRef.unary main_call10.call0.v0 main_call10.call0.v1 (broadcastInDim S128 ![] bcast_S_S128),
    TRef.ternary main_call10.v12 main_call10.v11 main_call10.call0.v1 main_call10.call0.v2 (fun p a b => select (broadcastInDim S128 ![] bcast_S_S128 p) a b),
    unary main_v216 main_v218 (broadcastInDim S1x128 ![1] bcast_S128_S1x128_1 : (⟨S128, .f32⟩ : BufTy).Contents (Elt F) → (⟨S1x128, .f32⟩ : BufTy).Contents (Elt F)),
    unary main_v218 main_v219 (broadcastInDim S100000x128 ![0, 1] bcast_S1x128_S100000x128_0_1 : (⟨S1x128, .f32⟩ : BufTy).Contents (Elt F) → (⟨S100000x128, .f32⟩ : BufTy).Contents (Elt F)),
    binary main_v213 main_v219 main_v220 (subf : (⟨S100000x128, .f32⟩ : BufTy).Contents (Elt F) → (⟨S100000x128, .f32⟩ : BufTy).Contents (Elt F) → (⟨S100000x128, .f32⟩ : BufTy).Contents (Elt F)),
    nullary main_cst_43 (constant S_ .f32 0x3727C5AC#32),
    unary main_cst_43 main_v221 (broadcastInDim S128 ![] bcast_S_S128 : (⟨S_, .f32⟩ : BufTy).Contents (Elt F) → (⟨S128, .f32⟩ : BufTy).Contents (Elt F)),
    binary main_v217 main_v221 main_v222 (addf : (⟨S128, .f32⟩ : BufTy).Contents (Elt F) → (⟨S128, .f32⟩ : BufTy).Contents (Elt F) → (⟨S128, .f32⟩ : BufTy).Contents (Elt F)),
    unary main_v222 main_v223 (Host.rsqrt : (⟨S128, .f32⟩ : BufTy).Contents (Elt F) → (⟨S128, .f32⟩ : BufTy).Contents (Elt F)),
    unary main_v223 main_v224 (broadcastInDim S1x128 ![1] bcast_S128_S1x128_1 : (⟨S128, .f32⟩ : BufTy).Contents (Elt F) → (⟨S1x128, .f32⟩ : BufTy).Contents (Elt F)),
    unary main_v224 main_v225 (broadcastInDim S100000x128 ![0, 1] bcast_S1x128_S100000x128_0_1 : (⟨S1x128, .f32⟩ : BufTy).Contents (Elt F) → (⟨S100000x128, .f32⟩ : BufTy).Contents (Elt F)),
    binary main_v220 main_v225 main_v226 (mulf : (⟨S100000x128, .f32⟩ : BufTy).Contents (Elt F) → (⟨S100000x128, .f32⟩ : BufTy).Contents (Elt F) → (⟨S100000x128, .f32⟩ : BufTy).Contents (Elt F)),
    unary main_arg16 main_v227 (broadcastInDim S1x128 ![1] bcast_S128_S1x128_1 : (⟨S128, .f32⟩ : BufTy).Contents (Elt F) → (⟨S1x128, .f32⟩ : BufTy).Contents (Elt F)),
    unary main_v227 main_v228 (broadcastInDim S100000x128 ![0, 1] bcast_S1x128_S100000x128_0_1 : (⟨S1x128, .f32⟩ : BufTy).Contents (Elt F) → (⟨S100000x128, .f32⟩ : BufTy).Contents (Elt F)),
    binary main_v226 main_v228 main_v229 (mulf : (⟨S100000x128, .f32⟩ : BufTy).Contents (Elt F) → (⟨S100000x128, .f32⟩ : BufTy).Contents (Elt F) → (⟨S100000x128, .f32⟩ : BufTy).Contents (Elt F)),
    unary main_arg17 main_v230 (broadcastInDim S1x128 ![1] bcast_S128_S1x128_1 : (⟨S128, .f32⟩ : BufTy).Contents (Elt F) → (⟨S1x128, .f32⟩ : BufTy).Contents (Elt F)),
    unary main_v230 main_v231 (broadcastInDim S100000x128 ![0, 1] bcast_S1x128_S100000x128_0_1 : (⟨S1x128, .f32⟩ : BufTy).Contents (Elt F) → (⟨S100000x128, .f32⟩ : BufTy).Contents (Elt F)),
    binary main_v229 main_v231 main_v232 (addf : (⟨S100000x128, .f32⟩ : BufTy).Contents (Elt F) → (⟨S100000x128, .f32⟩ : BufTy).Contents (Elt F) → (⟨S100000x128, .f32⟩ : BufTy).Contents (Elt F)),
    TRef.nullary main_call11.cst (constant S_ .f32 0x00000000#32),
    TRef.unary main_call11.cst main_call11.v0 (broadcastInDim S100000x128 ![] bcast_S_S100000x128),
    TRef.binary (.of main_v232) main_call11.v0 main_call11.v1 maximumf,
    nullary main_cst_44 (constant S_ .f32 0x00000000#32),
    unary main_cst_44 main_v234 (broadcastInDim S256x128 ![] bcast_S_S256x128 : (⟨S_, .f32⟩ : BufTy).Contents (Elt F) → (⟨S256x128, .f32⟩ : BufTy).Contents (Elt F)),
    unary main_arg5 main_v235 (broadcastInDim S100000x1 ![0] bcast_S100000_S100000x1_0 : (⟨S100000, .i32⟩ : BufTy).Contents (Elt F) → (⟨S100000x1, .i32⟩ : BufTy).Contents (Elt F)),
    ternary main_v234 main_v235 main_v233 main_v236 ((fun x i u => Host.scatterAdd scatter_S256x128_S100000x1_S100000x128_1_0_0_1 x i u) : (⟨S256x128, .f32⟩ : BufTy).Contents (Elt F) → (⟨S100000x1, .i32⟩ : BufTy).Contents (Elt F) → (⟨S100000x128, .f32⟩ : BufTy).Contents (Elt F) → (⟨S256x128, .f32⟩ : BufTy).Contents (Elt F)),
    nullary main_cst_45 (constant S_ .f32 0x3F800000#32),
    unary main_cst_45 main_v237 (broadcastInDim S100000 ![] bcast_S_S100000 : (⟨S_, .f32⟩ : BufTy).Contents (Elt F) → (⟨S100000, .f32⟩ : BufTy).Contents (Elt F)),
    nullary main_cst_46 (constant S_ .f32 0x00000000#32),
    unary main_cst_46 main_v238 (broadcastInDim S256 ![] bcast_S_S256 : (⟨S_, .f32⟩ : BufTy).Contents (Elt F) → (⟨S256, .f32⟩ : BufTy).Contents (Elt F)),
    unary main_arg5 main_v239 (broadcastInDim S100000x1 ![0] bcast_S100000_S100000x1_0 : (⟨S100000, .i32⟩ : BufTy).Contents (Elt F) → (⟨S100000x1, .i32⟩ : BufTy).Contents (Elt F)),
    ternary main_v238 main_v239 main_v237 main_v240 ((fun x i u => Host.scatterAdd scatter_S256_S100000x1_S100000_n_0_0_1 x i u) : (⟨S256, .f32⟩ : BufTy).Contents (Elt F) → (⟨S100000x1, .i32⟩ : BufTy).Contents (Elt F) → (⟨S100000, .f32⟩ : BufTy).Contents (Elt F) → (⟨S256, .f32⟩ : BufTy).Contents (Elt F)),
    nullary main_cst_47 (constant S_ .f32 0x3F800000#32),
    unary main_cst_47 main_v241 (broadcastInDim S256 ![] bcast_S_S256 : (⟨S_, .f32⟩ : BufTy).Contents (Elt F) → (⟨S256, .f32⟩ : BufTy).Contents (Elt F)),
    binary main_v240 main_v241 main_v242 (maximumf : (⟨S256, .f32⟩ : BufTy).Contents (Elt F) → (⟨S256, .f32⟩ : BufTy).Contents (Elt F) → (⟨S256, .f32⟩ : BufTy).Contents (Elt F)),
    unary main_v242 main_v243 (broadcastInDim S256x1 ![0] bcast_S256_S256x1_0 : (⟨S256, .f32⟩ : BufTy).Contents (Elt F) → (⟨S256x1, .f32⟩ : BufTy).Contents (Elt F)),
    unary main_v243 main_v244 (broadcastInDim S256x128 ![0, 1] bcast_S256x1_S256x128_0_1 : (⟨S256x1, .f32⟩ : BufTy).Contents (Elt F) → (⟨S256x128, .f32⟩ : BufTy).Contents (Elt F)),
    binary main_v236 main_v244 main_v245 (Host.divf : (⟨S256x128, .f32⟩ : BufTy).Contents (Elt F) → (⟨S256x128, .f32⟩ : BufTy).Contents (Elt F) → (⟨S256x128, .f32⟩ : BufTy).Contents (Elt F)),
    binary main_v245 main_arg18 main_v246 ((fun l r => Host.dotGeneral dot_S256x128_S128x64_S256x64_1_0_0_1_n_n none l r) : (⟨S256x128, .f32⟩ : BufTy).Contents (Elt F) → (⟨S128x64, .f32⟩ : BufTy).Contents (Elt F) → (⟨S256x64, .f32⟩ : BufTy).Contents (Elt F)),
    unary main_arg19 main_v247 (broadcastInDim S1x64 ![1] bcast_S64_S1x64_1 : (⟨S64, .f32⟩ : BufTy).Contents (Elt F) → (⟨S1x64, .f32⟩ : BufTy).Contents (Elt F)),
    unary main_v247 main_v248 (broadcastInDim S256x64 ![0, 1] bcast_S1x64_S256x64_0_1 : (⟨S1x64, .f32⟩ : BufTy).Contents (Elt F) → (⟨S256x64, .f32⟩ : BufTy).Contents (Elt F)),
    binary main_v246 main_v248 main_v249 (addf : (⟨S256x64, .f32⟩ : BufTy).Contents (Elt F) → (⟨S256x64, .f32⟩ : BufTy).Contents (Elt F) → (⟨S256x64, .f32⟩ : BufTy).Contents (Elt F)) ]

set_option maxRecDepth 8192 in
set_option maxHeartbeats 4000000 in
/-- The window is that line: the outlined functions unfolded at their calls, sequencing reassociated. -/
theorem main_part4_eq (c : Dev nD) : main_part4 (F := F) c = seq ops_part4 := by
  simp only [main_part4, fn_where.body, fn_var.body, fn_relu.body, fn_relu_0.body, seq, bind_assoc, pure_bind]
  rfl

set_option maxRecDepth 8192 in
theorem ops_part4_sub : (ops_part4 : List (HloOp τ sig (Elt F))).Forall fun op => op.bufs ⊆ tcRefs τ sig :=
  ⟨binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., binary_bufs_sub ..,
    binary_bufs_sub .., unary_bufs_sub .., unary_bufs_sub .., binary_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., unary_bufs_sub ..,
    ternary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., unary_bufs_sub ..,
    binary_bufs_sub .., binary_bufs_sub .., unary_bufs_sub .., unary_bufs_sub .., binary_bufs_sub ..⟩

/-- The buffers the window's operations write, in order. -/
abbrev ops_part4_W : List (Ref sig .tc) :=
  [main_v200, main_c_38, main_v201, main_v202, main_v203, main_v204, main_v205, main_cst_39,
    main_v206, main_v207, main_v208, main_v209, main_v210, main_v211, main_v212, main_v213,
    main_cst_40, main_v214, main_cst_41, main_v215, main_v216, main_c_42, main_call10.cst.ref, main_call10.v0.ref,
    main_call10.v1.ref, main_call10.cst_0.ref, main_call10.v2.ref, main_call10.v3.ref, main_call10.v4.ref, main_call10.v5.ref, main_call10.v6.ref, main_call10.v7.ref,
    main_call10.cst_1.ref, main_call10.v8.ref, main_call10.cst_2.ref, main_call10.v9.ref, main_call10.v10.ref, main_call10.v11.ref, main_call10.cst_3.ref, main_call10.v12.ref,
    main_call10.cst_4.ref, main_call10.call0.v0.ref, main_call10.call0.v1.ref, main_call10.call0.v2.ref, main_v218, main_v219, main_v220, main_cst_43,
    main_v221, main_v222, main_v223, main_v224, main_v225, main_v226, main_v227, main_v228,
    main_v229, main_v230, main_v231, main_v232, main_call11.cst.ref, main_call11.v0.ref, main_call11.v1.ref, main_cst_44,
    main_v234, main_v235, main_v236, main_cst_45, main_v237, main_cst_46, main_v238, main_v239,
    main_v240, main_cst_47, main_v241, main_v242, main_v243, main_v244, main_v245, main_v246,
    main_v247, main_v248, main_v249]

set_option maxRecDepth 8192 in
theorem ops_part4_writes : (ops_part4 : List (HloOp τ sig (Elt F))).Forall fun op =>
    op.writes ⊆ (ops_part4_W.map (Proc.devRef (τ := τ) .tc)).toFinset :=
  ⟨writes_sub (binary_writes ..) (by decide), writes_sub (nullary_writes ..) (by decide), writes_sub (unary_writes ..) (by decide),
    writes_sub (binary_writes ..) (by decide), writes_sub (ternary_writes ..) (by decide), writes_sub (unary_writes ..) (by decide),
    writes_sub (binary_writes ..) (by decide), writes_sub (nullary_writes ..) (by decide), writes_sub (unary_writes ..) (by decide),
    writes_sub (unary_writes ..) (by decide), writes_sub (ternary_writes ..) (by decide), writes_sub (binary_writes ..) (by decide),
    writes_sub (binary_writes ..) (by decide), writes_sub (unary_writes ..) (by decide), writes_sub (unary_writes ..) (by decide),
    writes_sub (binary_writes ..) (by decide), writes_sub (nullary_writes ..) (by decide), writes_sub (binary_writes ..) (by decide),
    writes_sub (nullary_writes ..) (by decide), writes_sub (unary_writes ..) (by decide), writes_sub (binary_writes ..) (by decide),
    writes_sub (nullary_writes ..) (by decide), writes_sub (nullary_writes ..) (by decide), writes_sub (binary_writes ..) (by decide),
    writes_sub (unary_writes ..) (by decide), writes_sub (nullary_writes ..) (by decide), writes_sub (unary_writes ..) (by decide),
    writes_sub (binary_writes ..) (by decide), writes_sub (unary_writes ..) (by decide), writes_sub (binary_writes ..) (by decide),
    writes_sub (binary_writes ..) (by decide), writes_sub (unary_writes ..) (by decide), writes_sub (nullary_writes ..) (by decide),
    writes_sub (binary_writes ..) (by decide), writes_sub (nullary_writes ..) (by decide), writes_sub (binary_writes ..) (by decide),
    writes_sub (unary_writes ..) (by decide), writes_sub (binary_writes ..) (by decide), writes_sub (nullary_writes ..) (by decide),
    writes_sub (binary_writes ..) (by decide), writes_sub (nullary_writes ..) (by decide), writes_sub (unary_writes ..) (by decide),
    writes_sub (unary_writes ..) (by decide), writes_sub (ternary_writes ..) (by decide), writes_sub (unary_writes ..) (by decide),
    writes_sub (unary_writes ..) (by decide), writes_sub (binary_writes ..) (by decide), writes_sub (nullary_writes ..) (by decide),
    writes_sub (unary_writes ..) (by decide), writes_sub (binary_writes ..) (by decide), writes_sub (unary_writes ..) (by decide),
    writes_sub (unary_writes ..) (by decide), writes_sub (unary_writes ..) (by decide), writes_sub (binary_writes ..) (by decide),
    writes_sub (unary_writes ..) (by decide), writes_sub (unary_writes ..) (by decide), writes_sub (binary_writes ..) (by decide),
    writes_sub (unary_writes ..) (by decide), writes_sub (unary_writes ..) (by decide), writes_sub (binary_writes ..) (by decide),
    writes_sub (nullary_writes ..) (by decide), writes_sub (unary_writes ..) (by decide), writes_sub (binary_writes ..) (by decide),
    writes_sub (nullary_writes ..) (by decide), writes_sub (unary_writes ..) (by decide), writes_sub (unary_writes ..) (by decide),
    writes_sub (ternary_writes ..) (by decide), writes_sub (nullary_writes ..) (by decide), writes_sub (unary_writes ..) (by decide),
    writes_sub (nullary_writes ..) (by decide), writes_sub (unary_writes ..) (by decide), writes_sub (unary_writes ..) (by decide),
    writes_sub (ternary_writes ..) (by decide), writes_sub (nullary_writes ..) (by decide), writes_sub (unary_writes ..) (by decide),
    writes_sub (binary_writes ..) (by decide), writes_sub (unary_writes ..) (by decide), writes_sub (unary_writes ..) (by decide),
    writes_sub (binary_writes ..) (by decide), writes_sub (binary_writes ..) (by decide), writes_sub (unary_writes ..) (by decide),
    writes_sub (unary_writes ..) (by decide), writes_sub (binary_writes ..) (by decide)⟩

/-- A buffer the window does not write keeps its contents through it. -/
theorem keep4 (V : Valuation τ sig (Elt F)) (r : Ref sig .tc) (h : r ∉ ops_part4_W) :
    after ops_part4 V (Proc.devRef .tc r) = V (Proc.devRef .tc r) :=
  after_of_writes_sub ops_part4 V ops_part4_writes h

set_option maxRecDepth 8192 in
/-- No operation of the window leaves its result undetermined. -/
theorem fresh4 : ∀ op ∈ (ops_part4 : List (HloOp τ sig (Elt F))), op.fresh = ∅ := by
  intro _ h; (repeat (cases h with | head => rfl | tail _ h => ?_)); exact nomatch h

/-- @main's statements of window `main_part5` as a line of 21 host operations, the outlined functions' operations in place of their calls (over each call's buffer record). -/
abbrev ops_part5 : List (HloOp τ sig (Elt F)) :=
  [ binary main_v124 main_v249 main_v250 (subf : (⟨S256x64, .f32⟩ : BufTy).Contents (Elt F) → (⟨S256x64, .f32⟩ : BufTy).Contents (Elt F) → (⟨S256x64, .f32⟩ : BufTy).Contents (Elt F)),
    unary main_v250 main_v251 (Host.absf : (⟨S256x64, .f32⟩ : BufTy).Contents (Elt F) → (⟨S256x64, .f32⟩ : BufTy).Contents (Elt F)),
    binary main_v251 main_arg20 main_v252 ((fun l r => Host.dotGeneral dot_S256x64_S64x64_S256x64_1_0_0_1_n_n none l r) : (⟨S256x64, .f32⟩ : BufTy).Contents (Elt F) → (⟨S64x64, .f32⟩ : BufTy).Contents (Elt F) → (⟨S256x64, .f32⟩ : BufTy).Contents (Elt F)),
    unary main_arg21 main_v253 (broadcastInDim S1x64 ![1] bcast_S64_S1x64_1 : (⟨S64, .f32⟩ : BufTy).Contents (Elt F) → (⟨S1x64, .f32⟩ : BufTy).Contents (Elt F)),
    unary main_v253 main_v254 (broadcastInDim S256x64 ![0, 1] bcast_S1x64_S256x64_0_1 : (⟨S1x64, .f32⟩ : BufTy).Contents (Elt F) → (⟨S256x64, .f32⟩ : BufTy).Contents (Elt F)),
    binary main_v252 main_v254 main_v255 (addf : (⟨S256x64, .f32⟩ : BufTy).Contents (Elt F) → (⟨S256x64, .f32⟩ : BufTy).Contents (Elt F) → (⟨S256x64, .f32⟩ : BufTy).Contents (Elt F)),
    TRef.nullary main_call12.cst (constant S_ .f32 0x00000000#32),
    TRef.unary main_call12.cst main_call12.v0 (broadcastInDim S256x64 ![] bcast_S_S256x64),
    TRef.binary (.of main_v255) main_call12.v0 main_call12.v1 maximumf,
    binary main_v256 main_arg22 main_v257 ((fun l r => Host.dotGeneral dot_S256x64_S64x1_S256x1_1_0_0_1_n_n none l r) : (⟨S256x64, .f32⟩ : BufTy).Contents (Elt F) → (⟨S64x1, .f32⟩ : BufTy).Contents (Elt F) → (⟨S256x1, .f32⟩ : BufTy).Contents (Elt F)),
    unary main_arg23 main_v258 (broadcastInDim S1x1 ![1] bcast_S1_S1x1_1 : (⟨S1, .f32⟩ : BufTy).Contents (Elt F) → (⟨S1x1, .f32⟩ : BufTy).Contents (Elt F)),
    unary main_v258 main_v259 (broadcastInDim S256x1 ![0, 1] bcast_S1x1_S256x1_0_1 : (⟨S1x1, .f32⟩ : BufTy).Contents (Elt F) → (⟨S256x1, .f32⟩ : BufTy).Contents (Elt F)),
    binary main_v257 main_v259 main_v260 (addf : (⟨S256x1, .f32⟩ : BufTy).Contents (Elt F) → (⟨S256x1, .f32⟩ : BufTy).Contents (Elt F) → (⟨S256x1, .f32⟩ : BufTy).Contents (Elt F)),
    unary main_v260 main_v261 (Host.negf : (⟨S256x1, .f32⟩ : BufTy).Contents (Elt F) → (⟨S256x1, .f32⟩ : BufTy).Contents (Elt F)),
    unary main_v261 main_v262 (Host.exp : (⟨S256x1, .f32⟩ : BufTy).Contents (Elt F) → (⟨S256x1, .f32⟩ : BufTy).Contents (Elt F)),
    nullary main_cst_48 (constant S_ .f32 0x3F800000#32),
    unary main_cst_48 main_v263 (broadcastInDim S256x1 ![] bcast_S_S256x1 : (⟨S_, .f32⟩ : BufTy).Contents (Elt F) → (⟨S256x1, .f32⟩ : BufTy).Contents (Elt F)),
    binary main_v263 main_v262 main_v264 (addf : (⟨S256x1, .f32⟩ : BufTy).Contents (Elt F) → (⟨S256x1, .f32⟩ : BufTy).Contents (Elt F) → (⟨S256x1, .f32⟩ : BufTy).Contents (Elt F)),
    nullary main_cst_49 (constant S_ .f32 0x3F800000#32),
    unary main_cst_49 main_v265 (broadcastInDim S256x1 ![] bcast_S_S256x1 : (⟨S_, .f32⟩ : BufTy).Contents (Elt F) → (⟨S256x1, .f32⟩ : BufTy).Contents (Elt F)),
    binary main_v265 main_v264 main_v266 (Host.divf : (⟨S256x1, .f32⟩ : BufTy).Contents (Elt F) → (⟨S256x1, .f32⟩ : BufTy).Contents (Elt F) → (⟨S256x1, .f32⟩ : BufTy).Contents (Elt F)) ]

set_option maxRecDepth 8192 in
set_option maxHeartbeats 4000000 in
/-- The window is that line: the outlined functions unfolded at their calls, sequencing reassociated. -/
theorem main_part5_eq (c : Dev nD) : main_part5 (F := F) c = seq ops_part5 := by
  simp only [main_part5, fn_where.body, fn_var.body, fn_relu.body, fn_relu_0.body, seq, bind_assoc, pure_bind]

set_option maxRecDepth 8192 in
theorem ops_part5_sub : (ops_part5 : List (HloOp τ sig (Elt F))).Forall fun op => op.bufs ⊆ tcRefs τ sig :=
  ⟨binary_bufs_sub .., unary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., unary_bufs_sub .., unary_bufs_sub .., nullary_bufs_sub .., unary_bufs_sub .., binary_bufs_sub ..,
    nullary_bufs_sub .., unary_bufs_sub .., binary_bufs_sub ..⟩

/-- The buffers the window's operations write, in order. -/
abbrev ops_part5_W : List (Ref sig .tc) :=
  [main_v250, main_v251, main_v252, main_v253, main_v254, main_v255, main_call12.cst.ref, main_call12.v0.ref,
    main_call12.v1.ref, main_v257, main_v258, main_v259, main_v260, main_v261, main_v262, main_cst_48,
    main_v263, main_v264, main_cst_49, main_v265, main_v266]

set_option maxRecDepth 8192 in
theorem ops_part5_writes : (ops_part5 : List (HloOp τ sig (Elt F))).Forall fun op =>
    op.writes ⊆ (ops_part5_W.map (Proc.devRef (τ := τ) .tc)).toFinset :=
  ⟨writes_sub (binary_writes ..) (by decide), writes_sub (unary_writes ..) (by decide), writes_sub (binary_writes ..) (by decide),
    writes_sub (unary_writes ..) (by decide), writes_sub (unary_writes ..) (by decide), writes_sub (binary_writes ..) (by decide),
    writes_sub (nullary_writes ..) (by decide), writes_sub (unary_writes ..) (by decide), writes_sub (binary_writes ..) (by decide),
    writes_sub (binary_writes ..) (by decide), writes_sub (unary_writes ..) (by decide), writes_sub (unary_writes ..) (by decide),
    writes_sub (binary_writes ..) (by decide), writes_sub (unary_writes ..) (by decide), writes_sub (unary_writes ..) (by decide),
    writes_sub (nullary_writes ..) (by decide), writes_sub (unary_writes ..) (by decide), writes_sub (binary_writes ..) (by decide),
    writes_sub (nullary_writes ..) (by decide), writes_sub (unary_writes ..) (by decide), writes_sub (binary_writes ..) (by decide)⟩

/-- A buffer the window does not write keeps its contents through it. -/
theorem keep5 (V : Valuation τ sig (Elt F)) (r : Ref sig .tc) (h : r ∉ ops_part5_W) :
    after ops_part5 V (Proc.devRef .tc r) = V (Proc.devRef .tc r) :=
  after_of_writes_sub ops_part5 V ops_part5_writes h

set_option maxRecDepth 8192 in
/-- No operation of the window leaves its result undetermined. -/
theorem fresh5 : ∀ op ∈ (ops_part5 : List (HloOp τ sig (Elt F))), op.fresh = ∅ := by
  intro _ h; (repeat (cases h with | head => rfl | tail _ h => ?_)); exact nomatch h

/-- @main's 459 host operations, in order: the six windows' lines one after the other. -/
abbrev ops : List (HloOp τ sig (Elt F)) :=
  ops_part0 ++ (ops_part1 ++ (ops_part2 ++ (ops_part3 ++ (ops_part4 ++ ops_part5))))

theorem main_eq (c : Dev nD) : main (F := F) c = seq ops := by
  simp only [ops, seq_append, ← main_part0_eq c, ← main_part1_eq c, ← main_part2_eq c, ← main_part3_eq c, ← main_part4_eq c, ← main_part5_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h | h | h
    exacts [List.forall_iff_forall_mem.mp ops_part0_sub op h, List.forall_iff_forall_mem.mp ops_part1_sub op h, List.forall_iff_forall_mem.mp ops_part2_sub op h, List.forall_iff_forall_mem.mp ops_part3_sub op h, List.forall_iff_forall_mem.mp ops_part4_sub op h, List.forall_iff_forall_mem.mp ops_part5_sub op h]

theorem ops_fresh : ∀ op ∈ (ops : List (HloOp τ sig (Elt F))), op.fresh = ∅ := fun op h => by
  simp only [ops, List.mem_append] at h
  rcases h with h | h | h | h | h | h
  exacts [fresh0 op h, fresh1 op h, fresh2 op h, fresh3 op h, fresh4 op h, fresh5 op h]

/-- The contents after @main's line: the windows' folds, one over the other. -/
theorem after_ops (V : Valuation τ sig (Elt F)) :
    after ops V = after ops_part5 (after ops_part4 (after ops_part3 (after ops_part2 (after ops_part1 (after ops_part0 V))))) := by
  simp only [ops, after_append']

/-- A buffer no window writes keeps its contents through the whole of @main. -/
theorem keep (V : Valuation τ sig (Elt F)) (r : Ref sig .tc) (h0 : r ∉ ops_part0_W) (h1 : r ∉ ops_part1_W)
    (h2 : r ∉ ops_part2_W) (h3 : r ∉ ops_part3_W) (h4 : r ∉ ops_part4_W) (h5 : r ∉ ops_part5_W) :
    after ops V (Proc.devRef .tc r) = V (Proc.devRef .tc r) := by
  simp only [ops, after_append']
  rw [keep5 _ r h5, keep4 _ r h4, keep3 _ r h3, keep2 _ r h2, keep1 _ r h1, keep0 _ r h0]

/-- On every device, for any float values, from any memory with zero counters: every weakly fair execution of
    @main terminates with the result buffer at the operations' fold over the launch contents and the
    argument buffers unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v266) = StableHlo.after ops (fun b => m (c, b)) (Proc.devRef .tc main_v266)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun _ h c => ⟨h c main_v266,
      (h c main_arg0).trans (keep _ main_arg0 (by decide) (by decide) (by decide) (by decide) (by decide) (by decide)),
      (h c main_arg1).trans (keep _ main_arg1 (by decide) (by decide) (by decide) (by decide) (by decide) (by decide)),
      (h c main_arg2).trans (keep _ main_arg2 (by decide) (by decide) (by decide) (by decide) (by decide) (by decide)),
      (h c main_arg3).trans (keep _ main_arg3 (by decide) (by decide) (by decide) (by decide) (by decide) (by decide)),
      (h c main_arg4).trans (keep _ main_arg4 (by decide) (by decide) (by decide) (by decide) (by decide) (by decide)),
      (h c main_arg5).trans (keep _ main_arg5 (by decide) (by decide) (by decide) (by decide) (by decide) (by decide)),
      (h c main_arg6).trans (keep _ main_arg6 (by decide) (by decide) (by decide) (by decide) (by decide) (by decide)),
      (h c main_arg7).trans (keep _ main_arg7 (by decide) (by decide) (by decide) (by decide) (by decide) (by decide)),
      (h c main_arg8).trans (keep _ main_arg8 (by decide) (by decide) (by decide) (by decide) (by decide) (by decide)),
      (h c main_arg9).trans (keep _ main_arg9 (by decide) (by decide) (by decide) (by decide) (by decide) (by decide)),
      (h c main_arg10).trans (keep _ main_arg10 (by decide) (by decide) (by decide) (by decide) (by decide) (by decide)),
      (h c main_arg11).trans (keep _ main_arg11 (by decide) (by decide) (by decide) (by decide) (by decide) (by decide)),
      (h c main_arg12).trans (keep _ main_arg12 (by decide) (by decide) (by decide) (by decide) (by decide) (by decide)),
      (h c main_arg13).trans (keep _ main_arg13 (by decide) (by decide) (by decide) (by decide) (by decide) (by decide)),
      (h c main_arg14).trans (keep _ main_arg14 (by decide) (by decide) (by decide) (by decide) (by decide) (by decide)),
      (h c main_arg15).trans (keep _ main_arg15 (by decide) (by decide) (by decide) (by decide) (by decide) (by decide)),
      (h c main_arg16).trans (keep _ main_arg16 (by decide) (by decide) (by decide) (by decide) (by decide) (by decide)),
      (h c main_arg17).trans (keep _ main_arg17 (by decide) (by decide) (by decide) (by decide) (by decide) (by decide)),
      (h c main_arg18).trans (keep _ main_arg18 (by decide) (by decide) (by decide) (by decide) (by decide) (by decide)),
      (h c main_arg19).trans (keep _ main_arg19 (by decide) (by decide) (by decide) (by decide) (by decide) (by decide)),
      (h c main_arg20).trans (keep _ main_arg20 (by decide) (by decide) (by decide) (by decide) (by decide) (by decide)),
      (h c main_arg21).trans (keep _ main_arg21 (by decide) (by decide) (by decide) (by decide) (by decide) (by decide)),
      (h c main_arg22).trans (keep _ main_arg22 (by decide) (by decide) (by decide) (by decide) (by decide) (by decide)),
      (h c main_arg23).trans (keep _ main_arg23 (by decide) (by decide) (by decide) (by decide) (by decide) (by decide))⟩)
    (run_seq scopedRefs_eq scopedSems_eq defs main (fun _ => ops) main_eq (fun _ => ops_sub) m ρ (fun _ => ops_fresh))

end Cert.ReferenceIdeal.Hand

end
-- ==== Proof.KI.HostStages.lean ====
import proofs.«413302_j72232759984513_1_alg».proof.Proof.Gen.KernelIdeal
import Idealize.ShloMosaic.PureOps.Ideal

/-! # The host stretches of the program, as functions over the extended reals

Between two kernel regions the host program computes a handful of arrays. Three of its computations are more than a
reshape and are named here, as functions of the arrays they read:

* the edge aggregation `x + scatterAdd(0, dst, gather(x, src'))`, at feature widths 64 and 128, where `src` and `dst`
  are the two rows of the edge list and `src'` is `src` with negative entries wrapped by the row count;
* the column mean `s / 100000`;
* the variance plus its offset, `ss / 100000 − mu · mu + eps`, and its reciprocal square root.
-/

noncomputable section

namespace Cert.KernelIdeal.Hand

open Cert.KernelIdeal Cert.KernelIdeal.Gen Idealize.ShloMosaic

/-- Row 0 of the edge list: the source node of every edge. -/
def srcK (ei : IVec S2x1280000 32) : IVec S1280000 32 :=
  shapeCast S1280000 (extractStridedSlice S1x1280000 ![0, 0] ei slices_S2x1280000_S1x1280000_0_0) shapeCasts_S1x1280000_S1280000

/-- Row 1 of the edge list: the destination node of every edge. -/
def dstK (ei : IVec S2x1280000 32) : IVec S1280000 32 :=
  shapeCast S1280000 (extractStridedSlice S1x1280000 ![1, 0] ei slices_S2x1280000_S1x1280000_1_0) shapeCasts_S1x1280000_S1280000

/-- The source nodes with a negative entry wrapped by the row count. -/
def srcWrapK (s : IVec S1280000 32) : IVec S1280000 32 :=
  select (cmpi .slt s (broadcastInDim S1280000 ![] bcast_S_S1280000 (constantI S_ 32 0#32)))
    (addi s (broadcastInDim S1280000 ![] bcast_S_S1280000 (constantI S_ 32 100000#32))) s

/-- The aggregation at width 64 with the two index rows given: each row plus the sum of the rows its incoming edges
    name. -/
def aggRows64 (x : FVec Ideal S100000x64 .f32) (s d : IVec S1280000 32) : FVec Ideal S100000x64 .f32 :=
  addf x (Host.scatterAdd scatter_S100000x64_S1280000x1_S1280000x64_1_0_0_1
    (broadcastInDim S100000x64 ![] bcast_S_S100000x64 (constant (F := Ideal) S_ .f32 0x00000000#32))
    (broadcastInDim S1280000x1 ![0] bcast_S1280000_S1280000x1_0 d)
    (Host.gather gather_S100000x64_S1280000x1_S1280000x64_1_0_n_n_0_1_164 x
      (broadcastInDim S1280000x1 ![0] bcast_S1280000_S1280000x1_0 (srcWrapK s))))

/-- The aggregation at width 128 with the two index rows given. -/
def aggRows128 (x : FVec Ideal S100000x128 .f32) (s d : IVec S1280000 32) : FVec Ideal S100000x128 .f32 :=
  addf x (Host.scatterAdd scatter_S100000x128_S1280000x1_S1280000x128_1_0_0_1
    (broadcastInDim S100000x128 ![] bcast_S_S100000x128 (constant (F := Ideal) S_ .f32 0x00000000#32))
    (broadcastInDim S1280000x1 ![0] bcast_S1280000_S1280000x1_0 d)
    (Host.gather gather_S100000x128_S1280000x1_S1280000x128_1_0_n_n_0_1_1128 x
      (broadcastInDim S1280000x1 ![0] bcast_S1280000_S1280000x1_0 (srcWrapK s))))

/-- The edge aggregation at width 64, from the edge list. -/
def aggK64 (x : FVec Ideal S100000x64 .f32) (ei : IVec S2x1280000 32) : FVec Ideal S100000x64 .f32 :=
  aggRows64 x (srcK ei) (dstK ei)

/-- The edge aggregation at width 128, from the edge list. -/
def aggK128 (x : FVec Ideal S100000x128 .f32) (ei : IVec S2x1280000 32) : FVec Ideal S100000x128 .f32 :=
  aggRows128 x (srcK ei) (dstK ei)

/-- The column means: the column sums over the row count. -/
def muK (s : FVec Ideal S1x128 .f32) : FVec Ideal S1x128 .f32 :=
  Host.divf s (broadcastInDim S1x128 ![] bcast_S_S1x128 (constant (F := Ideal) S_ .f32 0x47C35000#32))

/-- The column variances, as the mean of the squares minus the squared mean, plus the offset. -/
def varEpsK (s ss : FVec Ideal S1x128 .f32) : FVec Ideal S1x128 .f32 :=
  addf (subf (Host.divf ss (broadcastInDim S1x128 ![] bcast_S_S1x128 (constant (F := Ideal) S_ .f32 0x47C35000#32)))
      (mulf (muK s) (muK s)))
    (broadcastInDim S1x128 ![] bcast_S_S1x128 (constant (F := Ideal) S_ .f32 0x3727C5AC#32))

/-- The reciprocal square roots of the offset variances. -/
def invK (s ss : FVec Ideal S1x128 .f32) : FVec Ideal S1x128 .f32 :=
  Host.rsqrt (varEpsK s ss)

end Cert.KernelIdeal.Hand

end
-- ==== Proof.Math.Spec.lean ====
/-
  The vocabulary of the value claim, as plain functions over the extended reals: a linear layer, the column
  statistics of a [100000,128] array, the two spellings of its variance (centred squares; mean of squares minus
  squared mean), the normalise-scale-shift-clip step, the segment sums and counts of a mean-pool over 256 segments
  named by 32-bit words, the embedding of the pooled rows and the two-layer classifier with a logistic output.
  Both programs are read into these terms; nothing here mentions a program.
-/
import Idealize.ShloMosaic.PureOps.Ideal
import Idealize.ShloMosaic.Lib.ValueIdx

noncomputable section

namespace Cert.Math

open Idealize.ShloMosaic

/-- A rank-2 array read at two coordinates. -/
abbrev at2 {n0 n1 : ℕ} {α : Type} (x : (⟨2, ![n0, n1]⟩ : Shape).Idx → α) (i : Fin n0) (j : Fin n1) : α :=
  x (ValueIdx.ix2 i j)

/-- A rank-1 array read at its coordinate. -/
abbrev at1 {n : ℕ} {α : Type} (x : (⟨1, ![n]⟩ : Shape).Idx → α) (i : Fin n) : α := x (ValueIdx.ix1 i)

/-- The number of rows, as an extended real. -/
abbrev N5 : EReal := ((100000 : ℝ) : EReal)

/-- `a · w + b`: entry `(i, j)` is the sum over the shared coordinate of the products, plus the bias of column `j`. -/
def lin {n k m : ℕ} (a : Fin n → Fin k → EReal) (w : Fin k → Fin m → EReal) (b : Fin m → EReal) :
    Fin n → Fin m → EReal := fun i j => (∑ l : Fin k, a i l * w l j) + b j

/-- The sum of column `j`. -/
def colSum (h : Fin 100000 → Fin 128 → EReal) (j : Fin 128) : EReal := ∑ i : Fin 100000, h i j

/-- The sum of the squares of column `j`. -/
def colSumSq (h : Fin 100000 → Fin 128 → EReal) (j : Fin 128) : EReal := ∑ i : Fin 100000, h i j * h i j

/-- The mean of column `j`. -/
def mean (h : Fin 100000 → Fin 128 → EReal) (j : Fin 128) : EReal := Ideal.div (colSum h j) N5

/-- The variance of column `j` as the mean of the centred squares. -/
def varR (h : Fin 100000 → Fin 128 → EReal) (j : Fin 128) : EReal :=
  Ideal.div (∑ i : Fin 100000, (h i j - mean h j) * (h i j - mean h j)) N5

/-- The variance of column `j` as the mean of the squares minus the squared mean. -/
def varK (h : Fin 100000 → Fin 128 → EReal) (j : Fin 128) : EReal :=
  Ideal.div (colSumSq h j) N5 - mean h j * mean h j

/-- Centre by `mu`, scale by `inv` and `g`, shift by `be`, clip below at zero. -/
def bnRelu (h : Fin 100000 → Fin 128 → EReal) (mu inv g be : Fin 128 → EReal) : Fin 100000 → Fin 128 → EReal :=
  fun i j => max (((h i j - mu j) * inv j) * g j + be j) 0

/-- One layer's output from the linear layer's result `h`, with the variance spelt by `var`. -/
def layerOut (var : (Fin 100000 → Fin 128 → EReal) → Fin 128 → EReal) (eps : EReal)
    (h : Fin 100000 → Fin 128 → EReal) (g be : Fin 128 → EReal) : Fin 100000 → Fin 128 → EReal :=
  bnRelu h (mean h) (fun j => Ideal.rsqrt (var h j + eps)) g be

/-- The sum of the rows of `x` whose segment word names segment `g`. -/
def segSum (x : Fin 100000 → Fin 128 → EReal) (bt : Fin 100000 → BitVec 32) (g : Fin 256) (c : Fin 128) : EReal :=
  ∑ n : Fin 100000, if bt n = BitVec.ofNat 32 g.val then x n c else 0

/-- The number of rows whose segment word names segment `g`. -/
def segCnt (bt : Fin 100000 → BitVec 32) (g : Fin 256) : EReal :=
  ∑ n : Fin 100000, if bt n = BitVec.ofNat 32 g.val then (1 : EReal) else 0

/-- The mean row of segment `g` (an empty segment divides by one). -/
def pooled (x : Fin 100000 → Fin 128 → EReal) (bt : Fin 100000 → BitVec 32) : Fin 256 → Fin 128 → EReal :=
  fun g c => Ideal.div (segSum x bt g c) (max (segCnt bt g) 1)

/-- The embedding of the pooled rows. -/
def embed (x : Fin 100000 → Fin 128 → EReal) (bt : Fin 100000 → BitVec 32) (wf : Fin 128 → Fin 64 → EReal)
    (bf : Fin 64 → EReal) : Fin 256 → Fin 64 → EReal := lin (pooled x bt) wf bf

/-- The classifier on the absolute difference of two embeddings. -/
def cls (v1 v2 : Fin 256 → Fin 64 → EReal) (wc1 : Fin 64 → Fin 64 → EReal) (bc1 : Fin 64 → EReal)
    (wc2 : Fin 64 → Fin 1 → EReal) (bc2 : Fin 1 → EReal) : Fin 256 → EReal :=
  fun g => Ideal.logistic ((∑ k : Fin 64,
    max ((∑ l : Fin 64, max (v1 g l - v2 g l) (-(v1 g l - v2 g l)) * wc1 l k) + bc1 k) 0 * wc2 k 0) + bc2 0)

/-- A curried rank-2 array as a function of its index. -/
abbrev un2 {n0 n1 : ℕ} {α : Type} (f : Fin n0 → Fin n1 → α) : (⟨2, ![n0, n1]⟩ : Shape).Idx → α := fun i => f (i 0) (i 1)

/-- The shared parameters of the three layers and of the embedding. -/
structure Params where
  W1 : Fin 64 → Fin 128 → EReal
  b1 : Fin 128 → EReal
  g1 : Fin 128 → EReal
  be1 : Fin 128 → EReal
  W2 : Fin 128 → Fin 128 → EReal
  b2 : Fin 128 → EReal
  g2 : Fin 128 → EReal
  be2 : Fin 128 → EReal
  W3 : Fin 128 → Fin 128 → EReal
  b3 : Fin 128 → EReal
  g3 : Fin 128 → EReal
  be3 : Fin 128 → EReal
  wf : Fin 128 → Fin 64 → EReal
  bf : Fin 64 → EReal

/-- One side's encoder: three layers, each aggregating over the graph's edges (`A64`, `A128`: the aggregation with
    the edge list already given, one per feature width), then the mean-pool and the embedding; `var` spells the variance. -/
def enc (var : (Fin 100000 → Fin 128 → EReal) → Fin 128 → EReal) (eps : EReal)
    (A64 : (Fin 100000 → Fin 64 → EReal) → Fin 100000 → Fin 64 → EReal)
    (A128 : (Fin 100000 → Fin 128 → EReal) → Fin 100000 → Fin 128 → EReal)
    (P : Params) (x : Fin 100000 → Fin 64 → EReal) (bt : Fin 100000 → BitVec 32) : Fin 256 → Fin 64 → EReal :=
  embed (layerOut var eps (lin (A128 (layerOut var eps (lin (A128 (layerOut var eps (lin (A64 x) P.W1 P.b1) P.g1 P.be1)) P.W2 P.b2) P.g2 P.be2)) P.W3 P.b3) P.g3 P.be3)
    bt P.wf P.bf

end Cert.Math

end
-- ==== Proof.Math.Fin.lean ====
/- Finiteness on the extended reals. An extended real is REAL when it is the image of a real
   number; the arithmetic of a layer keeps values real as long as every divisor is a nonzero
   real and every reciprocal square root is taken of a positive real. The lemmas below carry
   that property through each operation, and push the embedding of the reals out of a finite
   sum, so that an identity of extended reals between real values is an identity of reals. -/
import Mathlib.Data.EReal.Inv
import Mathlib.Algebra.BigOperators.Group.Finset.Basic
import Mathlib.Algebra.Order.BigOperators.Ring.Finset
import Mathlib.Analysis.SpecialFunctions.Pow.Real
import Idealize.ShloMosaic.PureOps.Ideal
import Idealize.ShloMosaic.PureOps.Ideal.Laws

noncomputable section

namespace Cert.Math

open Idealize.ShloMosaic
open scoped BigOperators

/-- An extended real that is (the image of) a real number: neither infinity. -/
def IsReal (x : EReal) : Prop := ∃ r : ℝ, x = (r : EReal)

theorem isReal_coe (r : ℝ) : IsReal (r : EReal) := ⟨r, rfl⟩

theorem isReal_zero : IsReal (0 : EReal) := ⟨0, rfl⟩

theorem isReal_one : IsReal (1 : EReal) := ⟨1, rfl⟩

/-- The embedding of the reals commutes with a finite sum (induction on the index set). -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Division of a real by a nonzero real is the real quotient. -/
theorem div_coe_coe (x : ℝ) {y : ℝ} (hy : y ≠ 0) :
    Ideal.div (x : EReal) (y : EReal) = ((x / y : ℝ) : EReal) := by
  rw [Ideal.div_coe hy, ← EReal.coe_mul, mul_one_div]

/-- The reciprocal square root of a positive real is the real `(√p)⁻¹`. -/
theorem rsqrt_coe_pos {p : ℝ} (hp : 0 < p) :
    Ideal.rsqrt (p : EReal) = (((Real.sqrt p)⁻¹ : ℝ) : EReal) := by
  rw [Ideal.rsqrt_coe, if_neg (not_lt.mpr hp.le), if_neg hp.ne']

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (Max.max x y) := by
  obtain ⟨a, rfl⟩ := hx; obtain ⟨b, rfl⟩ := hy
  exact ⟨Max.max a b, (EReal.coe_strictMono.monotone.map_max).symm⟩

theorem IsReal.min {x y : EReal} (hx : IsReal x) (hy : IsReal y) : IsReal (Min.min x y) := by
  obtain ⟨a, rfl⟩ := hx; obtain ⟨b, rfl⟩ := hy
  exact ⟨Min.min a b, (EReal.coe_strictMono.monotone.map_min).symm⟩

/-- The absolute value as the float reading spells it, `max x (-x)`. -/
theorem IsReal.abs {x : EReal} (hx : IsReal x) : IsReal (Max.max x (-x)) := hx.max hx.neg

theorem IsReal.sum {ι : Type*} {s : Finset ι} {f : ι → EReal} (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A sum over a whole finite type of real terms. -/
theorem IsReal.sum_univ {ι : Type*} [Fintype ι] {f : ι → EReal} (h : ∀ i, IsReal (f i)) :
    IsReal (∑ i, f i) := IsReal.sum fun i _ => h i

theorem IsReal.div_coe {x : EReal} (hx : IsReal x) {y : ℝ} (hy : y ≠ 0) :
    IsReal (Ideal.div x (y : EReal)) := by
  obtain ⟨a, rfl⟩ := hx; exact ⟨a / y, div_coe_coe a hy⟩

theorem IsReal.rsqrt_pos {p : ℝ} (hp : 0 < p) : IsReal (Ideal.rsqrt (p : EReal)) :=
  ⟨(Real.sqrt p)⁻¹, rsqrt_coe_pos hp⟩

/-- The mean of squared deviations of finitely many reals is a nonnegative real. -/
theorem var_nonneg_real {ι : Type*} (s : Finset ι) (a : ι → ℝ) (m : ℝ) {n : ℝ} (hn : 0 < n) :
    0 ≤ (∑ i ∈ s, (a i - m) * (a i - m)) / n :=
  div_nonneg (Finset.sum_nonneg fun i _ => mul_self_nonneg (a i - m)) hn.le

end Cert.Math

end
-- ==== Proof.Math.Consts.lean ====
/- The float constants the two programs spell, as the extended reals their IEEE patterns denote:
   the row count 100000, the unit 1, and the variance's small positive offset. Unfolding the
   pattern reading is done once, here. -/
import Idealize.ShloMosaic.PureOps.Ideal
import Idealize.ShloMosaic.PureOps.Ideal.Laws

noncomputable section

namespace Cert.Math

open Idealize.ShloMosaic

/-- `100000.0` (exponent 143, significand `0x435000`): `(2^23 + 0x435000) · 2^(-7) = 100000`. -/
theorem ofBits_1e5 : Ideal.ofBits .f32 0x47C35000#32 = ((100000 : ℝ) : EReal) := by
  simp [Ideal.ofBits, Ideal.ieee, -EReal.coe_mul]; norm_num

/-- `1.0` (exponent 127, significand 0) denotes the real `1`. -/
theorem ofBits_one : Ideal.ofBits .f32 0x3F800000#32 = ((1 : ℝ) : EReal) := by
  simp [Ideal.ofBits, Ideal.ieee, -EReal.coe_mul]; norm_num

/-- The offset added to a variance (exponent 110, significand `0x27C5AC`) denotes the positive
    real `10995116 · 2^(-40)`; only its sign is ever used. -/
theorem ofBits_eps : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

end Cert.Math

end
-- ==== Proof.Math.Var.lean ====
/- The law that joins the two normalisations. Over the reals the mean of squares minus the
   squared mean is the mean of squared deviations from the mean; on the extended reals the same
   holds where every entry is real, because then every sum, quotient and product below is the
   image of a real and the identity is the real one. (At an infinite entry it fails:
   distributivity is lost.) -/
import Mathlib.Algebra.BigOperators.Ring.Finset
import Mathlib.Algebra.BigOperators.Group.Finset.Basic
import Mathlib.Data.Fintype.BigOperators
import Mathlib.Tactic.Ring
import Mathlib.Tactic.Positivity
import Mathlib.Tactic.Linarith
import proofs.«413302_j72232759984513_1_alg».proof.Proof.Math.Fin

noncomputable section

namespace Cert.Math

open Idealize.ShloMosaic
open scoped BigOperators

/-- The sum of squared deviations from any centre `m`, expanded: `∑ (aᵢ - m)² = ∑ aᵢ² - 2 m ∑ aᵢ + N m²`. -/
theorem sum_sq_dev (a : Fin 100000 → ℝ) (m : ℝ) :
    ∑ i, (a i - m) * (a i - m) = (∑ i, a i * a i) - 2 * m * (∑ i, a i) + 100000 * (m * m) := by
  have h1 : ∀ i, (a i - m) * (a i - m) = a i * a i - 2 * m * a i + m * m := fun i => by ring
  simp only [h1, Finset.sum_add_distrib, Finset.sum_sub_distrib, ← Finset.mul_sum, Finset.sum_const,
    Finset.card_univ, Fintype.card_fin, nsmul_eq_mul, Nat.cast_ofNat]
  ring

/-- The identity over the reals: at the centre `m = (∑ aᵢ)/N` the expansion above is `∑ aᵢ² - N m²`. -/
theorem var_real (a : Fin 100000 → ℝ) :
    (∑ i, a i * a i) / 100000 - (∑ i, a i) / 100000 * ((∑ i, a i) / 100000)
      = (∑ i, (a i - (∑ i, a i) / 100000) * (a i - (∑ i, a i) / 100000)) / 100000 := by
  rw [sum_sq_dev]; ring

/-- The mean of real entries is the real mean. -/
theorem mean_coe (a : Fin 100000 → ℝ) :
    Ideal.div (∑ i, (a i : EReal)) ((100000 : ℝ) : EReal) = (((∑ i, a i) / 100000 : ℝ) : EReal) := by
  rw [← coe_sum, div_coe_coe _ (by norm_num)]

/-- The mean of squares minus the squared mean, of real entries, as a real. -/
theorem var_lhs_coe (a : Fin 100000 → ℝ) :
    Ideal.div (∑ i, (a i : EReal) * (a i : EReal)) ((100000 : ℝ) : EReal)
        - Ideal.div (∑ i, (a i : EReal)) ((100000 : ℝ) : EReal)
          * Ideal.div (∑ i, (a i : EReal)) ((100000 : ℝ) : EReal)
      = (((∑ i, a i * a i) / 100000 - (∑ i, a i) / 100000 * ((∑ i, a i) / 100000) : ℝ) : EReal) := by
  have hQ : (∑ i, (a i : EReal) * (a i : EReal)) = ((∑ i, a i * a i : ℝ) : EReal) := by
    rw [coe_sum]; simp only [EReal.coe_mul]
  rw [mean_coe, hQ, div_coe_coe _ (by norm_num), ← EReal.coe_mul, ← EReal.coe_sub]

/-- The mean of squared deviations from the mean, of real entries, as a real. -/
theorem var_rhs_coe (a : Fin 100000 → ℝ) :
    Ideal.div (∑ i, ((a i : EReal) - Ideal.div (∑ i, (a i : EReal)) ((100000 : ℝ) : EReal))
        * ((a i : EReal) - Ideal.div (∑ i, (a i : EReal)) ((100000 : ℝ) : EReal))) ((100000 : ℝ) : EReal)
      = (((∑ i, (a i - (∑ i, a i) / 100000) * (a i - (∑ i, a i) / 100000)) / 100000 : ℝ) : EReal) := by
  have hD : (∑ i, ((a i : EReal) - (((∑ i, a i) / 100000 : ℝ) : EReal))
        * ((a i : EReal) - (((∑ i, a i) / 100000 : ℝ) : EReal)))
      = ((∑ i, (a i - (∑ i, a i) / 100000) * (a i - (∑ i, a i) / 100000) : ℝ) : EReal) := by
    rw [coe_sum]; simp only [EReal.coe_mul, EReal.coe_sub]
  rw [mean_coe, hD, div_coe_coe _ (by norm_num)]

/-- Mean of squares minus squared mean = mean of squared deviations, on real entries. -/
theorem var_eq (h : Fin 100000 → EReal) (hh : ∀ i, IsReal (h i)) :
    Ideal.div (∑ i, h i * h i) ((100000 : ℝ) : EReal)
        - Ideal.div (∑ i, h i) ((100000 : ℝ) : EReal) * Ideal.div (∑ i, h i) ((100000 : ℝ) : EReal)
      = Ideal.div (∑ i, (h i - Ideal.div (∑ i, h i) ((100000 : ℝ) : EReal))
          * (h i - Ideal.div (∑ i, h i) ((100000 : ℝ) : EReal))) ((100000 : ℝ) : EReal) := by
  choose a ha using hh
  simp only [ha]
  rw [var_lhs_coe, var_rhs_coe, var_real]

/-- The variance (either form) of real entries is a nonnegative real. -/
theorem var_coe_nonneg (h : Fin 100000 → EReal) (hh : ∀ i, IsReal (h i)) :
    ∃ v : ℝ, 0 ≤ v ∧
      Ideal.div (∑ i, h i * h i) ((100000 : ℝ) : EReal)
        - Ideal.div (∑ i, h i) ((100000 : ℝ) : EReal) * Ideal.div (∑ i, h i) ((100000 : ℝ) : EReal)
        = (v : EReal) := by
  rw [var_eq h hh]
  choose a ha using hh
  simp only [ha]
  exact ⟨_, var_nonneg_real Finset.univ a _ (by norm_num), var_rhs_coe a⟩

/-- The variance plus a positive real offset is a positive real: what a reciprocal square root is taken of. -/
theorem var_add_eps_pos (h : Fin 100000 → EReal) (hh : ∀ i, IsReal (h i)) (e : ℝ) (he : 0 < e) :
    ∃ p : ℝ, 0 < p ∧
      Ideal.div (∑ i, h i * h i) ((100000 : ℝ) : EReal)
        - Ideal.div (∑ i, h i) ((100000 : ℝ) : EReal) * Ideal.div (∑ i, h i) ((100000 : ℝ) : EReal)
        + (e : EReal) = (p : EReal) := by
  obtain ⟨v, hv0, hv⟩ := var_coe_nonneg h hh
  exact ⟨v + e, by linarith, by rw [hv, EReal.coe_add]⟩

/-- The mean of real entries is real. -/
theorem mean_isReal (h : Fin 100000 → EReal) (hh : ∀ i, IsReal (h i)) :
    IsReal (Ideal.div (∑ i, h i) ((100000 : ℝ) : EReal)) :=
  (IsReal.sum_univ hh).div_coe (by norm_num)

end Cert.Math

end
-- ==== Proof.Math.Enc.lean ====
/- The two spellings of the variance give one encoder. Along an encoder every array stays real:
   a linear layer of real arrays is real, the aggregation over edges is assumed to keep arrays
   real, and a layer's output is real because its variance plus the positive offset is a positive
   real. On a real array the two variances agree column by column, so the layers agree one after
   another, and with them the pooled embedding. -/
import proofs.«413302_j72232759984513_1_alg».proof.Proof.Math.Spec
import proofs.«413302_j72232759984513_1_alg».proof.Proof.Math.Fin
import proofs.«413302_j72232759984513_1_alg».proof.Proof.Math.Var

noncomputable section

namespace Cert.Math

open Idealize.ShloMosaic

/-- An operation on `[100000, k]` arrays that keeps real arrays real. -/
def FinPres {k : ℕ} (A : (Fin 100000 → Fin k → EReal) → Fin 100000 → Fin k → EReal) : Prop :=
  ∀ x, (∀ i l, IsReal (x i l)) → ∀ i l, IsReal (A x i l)

/-- Every entry of every parameter is real. -/
structure Params.AllReal (P : Params) : Prop where
  W1 : ∀ l j, IsReal (P.W1 l j)
  b1 : ∀ j, IsReal (P.b1 j)
  g1 : ∀ j, IsReal (P.g1 j)
  be1 : ∀ j, IsReal (P.be1 j)
  W2 : ∀ l j, IsReal (P.W2 l j)
  b2 : ∀ j, IsReal (P.b2 j)
  g2 : ∀ j, IsReal (P.g2 j)
  be2 : ∀ j, IsReal (P.be2 j)
  W3 : ∀ l j, IsReal (P.W3 l j)
  b3 : ∀ j, IsReal (P.b3 j)
  g3 : ∀ j, IsReal (P.g3 j)
  be3 : ∀ j, IsReal (P.be3 j)
  wf : ∀ l j, IsReal (P.wf l j)
  bf : ∀ j, IsReal (P.bf j)

/-- A linear layer of real arrays is real: a finite sum of products of reals, plus a real. -/
theorem lin_isReal {n k m : ℕ} (a : Fin n → Fin k → EReal) (w : Fin k → Fin m → EReal) (b : Fin m → EReal)
    (ha : ∀ i l, IsReal (a i l)) (hw : ∀ l j, IsReal (w l j)) (hb : ∀ j, IsReal (b j)) :
    ∀ i j, IsReal (lin a w b i j) := fun i j =>
  (IsReal.sum_univ fun l => (ha i l).mul (hw l j)).add (hb j)

/-- On a real array the mean of squares minus the squared mean is the mean of centred squares, at every column. -/
theorem varK_eq_varR (h : Fin 100000 → Fin 128 → EReal) (hh : ∀ i j, IsReal (h i j)) (j : Fin 128) :
    varK h j = varR h j :=
  var_eq (fun i => h i j) (fun i => hh i j)

/-- The mean of a column of a real array is real. -/
theorem mean_col_isReal (h : Fin 100000 → Fin 128 → EReal) (hh : ∀ i j, IsReal (h i j)) (j : Fin 128) :
    IsReal (mean h j) :=
  mean_isReal (fun i => h i j) (fun i => hh i j)

/-- The centred-squares variance of a column of a real array, plus a positive real, is a positive real. -/
theorem varR_add_eps_pos (h : Fin 100000 → Fin 128 → EReal) (hh : ∀ i j, IsReal (h i j)) (e : ℝ) (he : 0 < e)
    (j : Fin 128) : ∃ p : ℝ, 0 < p ∧ varR h j + (e : EReal) = (p : EReal) := by
  rw [← varK_eq_varR h hh j]
  exact var_add_eps_pos (fun i => h i j) (fun i => hh i j) e he

/-- One layer's output on a real array does not depend on the spelling of the variance. -/
theorem layerOut_eq (h : Fin 100000 → Fin 128 → EReal) (hh : ∀ i j, IsReal (h i j)) (eps : EReal)
    (g be : Fin 128 → EReal) : layerOut varK eps h g be = layerOut varR eps h g be := by
  have hv : varK h = varR h := funext (varK_eq_varR h hh)
  unfold layerOut
  rw [hv]

/-- One layer's output on a real array, with real scale and shift and a positive real offset, is real. -/
theorem layerOut_isReal (h : Fin 100000 → Fin 128 → EReal) (hh : ∀ i j, IsReal (h i j)) (e : ℝ) (he : 0 < e)
    (g be : Fin 128 → EReal) (hg : ∀ j, IsReal (g j)) (hbe : ∀ j, IsReal (be j)) :
    ∀ i j, IsReal (layerOut varR (e : EReal) h g be i j) := by
  intro i j
  obtain ⟨p, hp, hpe⟩ := varR_add_eps_pos h hh e he j
  have hm : IsReal (mean h j) := mean_col_isReal h hh j
  have hinv : IsReal (Ideal.rsqrt (varR h j + (e : EReal))) := by
    rw [hpe]; exact IsReal.rsqrt_pos hp
  show IsReal (max (((h i j - mean h j) * Ideal.rsqrt (varR h j + (e : EReal))) * g j + be j) 0)
  exact (((((hh i j).sub hm).mul hinv).mul (hg j)).add (hbe j)).max isReal_zero

/-- The encoder with either variance: the three layers agree in turn, each on a real input. -/
theorem enc_eq (e : ℝ) (he : 0 < e)
    (A64 : (Fin 100000 → Fin 64 → EReal) → Fin 100000 → Fin 64 → EReal) (hA64 : FinPres A64)
    (A128 : (Fin 100000 → Fin 128 → EReal) → Fin 100000 → Fin 128 → EReal) (hA128 : FinPres A128)
    (P : Params) (hP : P.AllReal) (x : Fin 100000 → Fin 64 → EReal) (hx : ∀ i l, IsReal (x i l))
    (bt : Fin 100000 → BitVec 32) :
    enc varK (e : EReal) A64 A128 P x bt = enc varR (e : EReal) A64 A128 P x bt := by
  have h1 := lin_isReal (A64 x) P.W1 P.b1 (hA64 x hx) hP.W1 hP.b1
  have e1 := layerOut_eq _ h1 (e : EReal) P.g1 P.be1
  have r1 := layerOut_isReal _ h1 e he P.g1 P.be1 hP.g1 hP.be1
  have h2 := lin_isReal (A128 _) P.W2 P.b2 (hA128 _ r1) hP.W2 hP.b2
  have e2 := layerOut_eq _ h2 (e : EReal) P.g2 P.be2
  have r2 := layerOut_isReal _ h2 e he P.g2 P.be2 hP.g2 hP.be2
  have h3 := lin_isReal (A128 _) P.W3 P.b3 (hA128 _ r2) hP.W3 hP.b3
  have e3 := layerOut_eq _ h3 (e : EReal) P.g3 P.be3
  unfold enc
  rw [e1, e2, e3]

end Cert.Math

end
-- ==== Proof.Math.ClsEq.lean ====
/- The classifier on two encoders does not depend on the spelling of the variance: each encoder
   agrees with its other spelling on real inputs and real parameters, so the classifier, a function
   of the two encoders' outputs, agrees as well. The offset is any extended real that is a positive
   real. -/
import proofs.«413302_j72232759984513_1_alg».proof.Proof.Math.Spec
import proofs.«413302_j72232759984513_1_alg».proof.Proof.Math.Fin
import proofs.«413302_j72232759984513_1_alg».proof.Proof.Math.Enc

noncomputable section

namespace Cert.Math

open Idealize.ShloMosaic

/-- The two encoders (one per graph, each with its own aggregations, inputs and segment words, sharing the
    parameters) under the classifier: mean of squares minus squared mean against centred squares. -/
theorem cls_enc_eq (eps : EReal) (e : ℝ) (he : 0 < e) (heps : eps = (e : EReal))
    (A64 A64' : (Fin 100000 → Fin 64 → EReal) → Fin 100000 → Fin 64 → EReal)
    (hA64 : FinPres A64) (hA64' : FinPres A64')
    (A128 A128' : (Fin 100000 → Fin 128 → EReal) → Fin 100000 → Fin 128 → EReal)
    (hA128 : FinPres A128) (hA128' : FinPres A128')
    (P : Params) (hP : P.AllReal)
    (x x' : Fin 100000 → Fin 64 → EReal) (hx : ∀ i l, IsReal (x i l)) (hx' : ∀ i l, IsReal (x' i l))
    (bt bt' : Fin 100000 → BitVec 32)
    (wc1 : Fin 64 → Fin 64 → EReal) (bc1 : Fin 64 → EReal) (wc2 : Fin 64 → Fin 1 → EReal) (bc2 : Fin 1 → EReal) :
    cls (enc varK eps A64 A128 P x bt) (enc varK eps A64' A128' P x' bt') wc1 bc1 wc2 bc2
      = cls (enc varR eps A64 A128 P x bt) (enc varR eps A64' A128' P x' bt') wc1 bc1 wc2 bc2 := by
  subst heps
  rw [enc_eq e he A64 hA64 A128 hA128 P hP x hx bt, enc_eq e he A64' hA64' A128' hA128' P hP x' hx' bt']

end Cert.Math

end
-- ==== Proof.Math.Model.lean ====
/- The whole value both programs compute, as one function of the twenty-four argument arrays: the
   classifier on the two graphs' encoders, the parameters read off the arrays, the variance and the
   two edge aggregations left open. With real arrays and aggregations that keep arrays real the
   function is the same for the two spellings of the variance. -/
import proofs.«413302_j72232759984513_1_alg».proof.Proof.Math.Spec
import proofs.«413302_j72232759984513_1_alg».proof.Proof.Math.Fin
import proofs.«413302_j72232759984513_1_alg».proof.Proof.Math.Consts
import proofs.«413302_j72232759984513_1_alg».proof.Proof.Math.Enc
import proofs.«413302_j72232759984513_1_alg».proof.Proof.Math.ClsEq
import Idealize.ShloMosaic.PureOps.Ideal
import Idealize.ShloMosaic.Lib.ValueIdx

noncomputable section

namespace Cert.Math

open Idealize.ShloMosaic

/-- A rank-2 array of extended reals. -/
abbrev A2 (n0 n1 : ℕ) : Type := (⟨2, ![n0, n1]⟩ : Shape).Idx → EReal
/-- A rank-1 array of extended reals. -/
abbrev A1 (n : ℕ) : Type := (⟨1, ![n]⟩ : Shape).Idx → EReal
/-- A rank-2 array of 32-bit words. -/
abbrev I2 (n0 n1 : ℕ) : Type := (⟨2, ![n0, n1]⟩ : Shape).Idx → BitVec 32
/-- A rank-1 array of 32-bit words. -/
abbrev I1 (n : ℕ) : Type := (⟨1, ![n]⟩ : Shape).Idx → BitVec 32

/-- The shared parameters, read off arguments 6 to 19. -/
def paramsOf (a6 : A2 64 128) (a7 a8 a9 : A1 128) (a10 : A2 128 128) (a11 a12 a13 : A1 128) (a14 : A2 128 128)
    (a15 a16 a17 : A1 128) (a18 : A2 128 64) (a19 : A1 64) : Params where
  W1 := at2 a6
  b1 := at1 a7
  g1 := at1 a8
  be1 := at1 a9
  W2 := at2 a10
  b2 := at1 a11
  g2 := at1 a12
  be2 := at1 a13
  W3 := at2 a14
  b3 := at1 a15
  g3 := at1 a16
  be3 := at1 a17
  wf := at2 a18
  bf := at1 a19

/-- One graph's encoder from its three arrays (features, edge list, segment words) and the parameters, the
    aggregations `agg64`, `agg128` taking the array and the edge list. -/
def encOf (var : (Fin 100000 → Fin 128 → EReal) → Fin 128 → EReal)
    (agg64 : A2 100000 64 → I2 2 1280000 → A2 100000 64) (agg128 : A2 100000 128 → I2 2 1280000 → A2 100000 128)
    (P : Params) (x : A2 100000 64) (ei : I2 2 1280000) (bt : I1 100000) : Fin 256 → Fin 64 → EReal :=
  enc var (Ideal.ofBits .f32 0x3727C5AC#32) (fun y => at2 (agg64 (un2 y) ei)) (fun y => at2 (agg128 (un2 y) ei)) P
    (at2 x) (at1 bt)

/-- The value: the classifier (parameters: arguments 20 to 23) on the encoders of graph one (arguments 0, 1, 2)
    and graph two (arguments 3, 4, 5). -/
def model (var : (Fin 100000 → Fin 128 → EReal) → Fin 128 → EReal)
    (agg64 : A2 100000 64 → I2 2 1280000 → A2 100000 64) (agg128 : A2 100000 128 → I2 2 1280000 → A2 100000 128)
    (a0 : A2 100000 64) (a1 : I2 2 1280000) (a2 : I1 100000) (a3 : A2 100000 64) (a4 : I2 2 1280000) (a5 : I1 100000) (a6 : A2 64 128) (a7 : A1 128) (a8 : A1 128) (a9 : A1 128) (a10 : A2 128 128) (a11 : A1 128) (a12 : A1 128) (a13 : A1 128) (a14 : A2 128 128) (a15 : A1 128) (a16 : A1 128) (a17 : A1 128) (a18 : A2 128 64) (a19 : A1 64) (a20 : A2 64 64) (a21 : A1 64) (a22 : A2 64 1) (a23 : A1 1) : Fin 256 → EReal :=
  cls (encOf var agg64 agg128 (paramsOf a6 a7 a8 a9 a10 a11 a12 a13 a14 a15 a16 a17 a18 a19) a0 a1 a2)
    (encOf var agg64 agg128 (paramsOf a6 a7 a8 a9 a10 a11 a12 a13 a14 a15 a16 a17 a18 a19) a3 a4 a5)
    (at2 a20) (at1 a21) (at2 a22) (at1 a23)

/-- Equal arrays give equal values. -/
theorem model_congr (var : (Fin 100000 → Fin 128 → EReal) → Fin 128 → EReal)
    (agg64 : A2 100000 64 → I2 2 1280000 → A2 100000 64) (agg128 : A2 100000 128 → I2 2 1280000 → A2 100000 128)
    (a0 : A2 100000 64) (a1 : I2 2 1280000) (a2 : I1 100000) (a3 : A2 100000 64) (a4 : I2 2 1280000) (a5 : I1 100000) (a6 : A2 64 128) (a7 : A1 128) (a8 : A1 128) (a9 : A1 128) (a10 : A2 128 128) (a11 : A1 128) (a12 : A1 128) (a13 : A1 128) (a14 : A2 128 128) (a15 : A1 128) (a16 : A1 128) (a17 : A1 128) (a18 : A2 128 64) (a19 : A1 64) (a20 : A2 64 64) (a21 : A1 64) (a22 : A2 64 1) (a23 : A1 1)
    (b0 : A2 100000 64) (b1 : I2 2 1280000) (b2 : I1 100000) (b3 : A2 100000 64) (b4 : I2 2 1280000) (b5 : I1 100000) (b6 : A2 64 128) (b7 : A1 128) (b8 : A1 128) (b9 : A1 128) (b10 : A2 128 128) (b11 : A1 128) (b12 : A1 128) (b13 : A1 128) (b14 : A2 128 128) (b15 : A1 128) (b16 : A1 128) (b17 : A1 128) (b18 : A2 128 64) (b19 : A1 64) (b20 : A2 64 64) (b21 : A1 64) (b22 : A2 64 1) (b23 : A1 1)
    (e0 : b0 = a0) (e1 : b1 = a1) (e2 : b2 = a2) (e3 : b3 = a3) (e4 : b4 = a4) (e5 : b5 = a5) (e6 : b6 = a6) (e7 : b7 = a7) (e8 : b8 = a8) (e9 : b9 = a9) (e10 : b10 = a10) (e11 : b11 = a11) (e12 : b12 = a12) (e13 : b13 = a13) (e14 : b14 = a14) (e15 : b15 = a15) (e16 : b16 = a16) (e17 : b17 = a17) (e18 : b18 = a18) (e19 : b19 = a19) (e20 : b20 = a20) (e21 : b21 = a21) (e22 : b22 = a22) (e23 : b23 = a23) :
    model var agg64 agg128 b0 b1 b2 b3 b4 b5 b6 b7 b8 b9 b10 b11 b12 b13 b14 b15 b16 b17 b18 b19 b20 b21 b22 b23 = model var agg64 agg128 a0 a1 a2 a3 a4 a5 a6 a7 a8 a9 a10 a11 a12 a13 a14 a15 a16 a17 a18 a19 a20 a21 a22 a23 := by
  subst_vars; rfl

/-- On real arrays, with aggregations that keep arrays real, the two spellings of the variance give one value. -/
theorem model_eq
    (agg64 : A2 100000 64 → I2 2 1280000 → A2 100000 64) (h64 : ∀ ei, FinPres (fun y => at2 (agg64 (un2 y) ei)))
    (agg128 : A2 100000 128 → I2 2 1280000 → A2 100000 128) (h128 : ∀ ei, FinPres (fun y => at2 (agg128 (un2 y) ei)))
    (a0 : A2 100000 64) (a1 : I2 2 1280000) (a2 : I1 100000) (a3 : A2 100000 64) (a4 : I2 2 1280000) (a5 : I1 100000) (a6 : A2 64 128) (a7 : A1 128) (a8 : A1 128) (a9 : A1 128) (a10 : A2 128 128) (a11 : A1 128) (a12 : A1 128) (a13 : A1 128) (a14 : A2 128 128) (a15 : A1 128) (a16 : A1 128) (a17 : A1 128) (a18 : A2 128 64) (a19 : A1 64) (a20 : A2 64 64) (a21 : A1 64) (a22 : A2 64 1) (a23 : A1 1)
    (hreal : (∀ i, IsReal (a0 i)) ∧ (∀ i, IsReal (a3 i)) ∧ (∀ i, IsReal (a6 i)) ∧ (∀ i, IsReal (a7 i)) ∧ (∀ i, IsReal (a8 i)) ∧ (∀ i, IsReal (a9 i)) ∧ (∀ i, IsReal (a10 i)) ∧ (∀ i, IsReal (a11 i)) ∧ (∀ i, IsReal (a12 i)) ∧ (∀ i, IsReal (a13 i)) ∧ (∀ i, IsReal (a14 i)) ∧ (∀ i, IsReal (a15 i)) ∧ (∀ i, IsReal (a16 i)) ∧ (∀ i, IsReal (a17 i)) ∧ (∀ i, IsReal (a18 i)) ∧ (∀ i, IsReal (a19 i)) ∧ (∀ i, IsReal (a20 i)) ∧ (∀ i, IsReal (a21 i)) ∧ (∀ i, IsReal (a22 i)) ∧ (∀ i, IsReal (a23 i))) :
    model varK agg64 agg128 a0 a1 a2 a3 a4 a5 a6 a7 a8 a9 a10 a11 a12 a13 a14 a15 a16 a17 a18 a19 a20 a21 a22 a23 = model varR agg64 agg128 a0 a1 a2 a3 a4 a5 a6 a7 a8 a9 a10 a11 a12 a13 a14 a15 a16 a17 a18 a19 a20 a21 a22 a23 := by
  obtain ⟨h0, h3, h6, h7, h8, h9, h10, h11, h12, h13, h14, h15, h16, h17, h18, h19, h20, h21, h22, h23⟩ := hreal
  obtain ⟨e, he, heps⟩ := ofBits_eps
  have hP : (paramsOf a6 a7 a8 a9 a10 a11 a12 a13 a14 a15 a16 a17 a18 a19).AllReal :=
    ⟨fun l j => h6 _, fun j => h7 _, fun j => h8 _, fun j => h9 _, fun l j => h10 _, fun j => h11 _, fun j => h12 _,
      fun j => h13 _, fun l j => h14 _, fun j => h15 _, fun j => h16 _, fun j => h17 _, fun l j => h18 _, fun j => h19 _⟩
  exact cls_enc_eq _ e he heps _ _ (h64 a1) (h64 a4) _ _ (h128 a1) (h128 a4) _ hP _ _ (fun i l => h0 _) (fun i l => h3 _)
    _ _ _ _ _ _

end Cert.Math

end
-- ==== Proof.LibLayout.lean ====
/-
  General reading lemmas for layout operations between a vector and a matrix with a unit axis, over any extents:
  a column broadcast over the columns, a vector made a column or a row, a column or a row broadcast to a matrix
  on the host, and the host's rows-by-columns product as a sum over the shared coordinate.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The host's broadcast of an `[a]` array along axis 0 of `[a, 1]` reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of an `[a, 1]` array to `[a, b]`, axes kept, reads at `(p, c)` the operand's entry of row `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[b]` array along axis 1 of `[1, b]` reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a `[1, b]` array to `[a, b]`, axes kept, reads at `(p, c)` the operand's one row at `c`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads, at any index, the scalar. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

/-- The host's rows-by-columns product, read at (a, b): `∑ c, A[a, c] · B[c, b]`, whatever the schedule key. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b)
      = ∑ c : Fin k, A (ix2 a c) * B (ix2 c b) := by
  -- the sum over the contraction index set, which has one axis of extent k
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c), the right one at (c, b)
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Cert.LibLayout

end
-- ==== Proof.KI.ValueAbs.lean ====
/-
  The value of the kernel program, the part that mentions no region: the host's column mean and reciprocal root read
  at an index; one layer from its parts (the linear layer's result, its column sums and sums of squares, the host's
  statistics of them, the normalisation); the reshaped parameter vectors read along their unit axis; and one graph's
  encoder from the facts of its seven regions, as the encoder of the model with the variance spelt as the mean of the
  squares minus the squared mean.
-/
import proofs.«413302_j72232759984513_1_alg».proof.Proof.KI.HostStages
import proofs.«413302_j72232759984513_1_alg».proof.Proof.Math.Model
import proofs.«413302_j72232759984513_1_alg».proof.Proof.Math.Consts
import proofs.«413302_j72232759984513_1_alg».proof.Proof.LibLayout
import Idealize.ShloMosaic.Lib.ValueLayout

noncomputable section

namespace Cert.KernelIdeal.Hand

open Cert.KernelIdeal Cert.KernelIdeal.Gen Idealize.ShloMosaic Idealize.ShloMosaic.ValueIdx

/-- A curried array read back at its coordinates. -/
theorem at2_un2 {n0 n1 : ℕ} {α : Type} (f : Fin n0 → Fin n1 → α) : Cert.Math.at2 (Cert.Math.un2 f) = f := rfl

/-- An array is the curried form of its reading at the coordinates. -/
theorem un2_at2 {n0 n1 : ℕ} {α : Type} (a : (⟨2, ![n0, n1]⟩ : Shape).Idx → α) : Cert.Math.un2 (Cert.Math.at2 a) = a :=
  funext fun i => congrArg a (eq_ix2 i).symm

/-- An array that reads as `f` at every pair of coordinates is the curried form of `f`. -/
theorem eq_un2 {n0 n1 : ℕ} {α : Type} (a : (⟨2, ![n0, n1]⟩ : Shape).Idx → α) (f : Fin n0 → Fin n1 → α)
    (h : ∀ i j, a (ix2 i j) = f i j) : a = Cert.Math.un2 f :=
  funext fun i => by rw [eq_ix2 i]; exact h (i 0) (i 1)

theorem hostDivfK_apply {s : Shape} (a b : FVec Ideal s .f32) (i : s.Idx) : Host.divf a b i = Ideal.div (a i) (b i) := rfl

theorem hostRsqrtK_apply {s : Shape} (a : FVec Ideal s .f32) (i : s.Idx) : Host.rsqrt a i = Ideal.rsqrt (a i) := rfl

/-- The column means on the row of column sums. -/
theorem muK_apply (s : FVec Ideal S1x128 .f32) (j : Fin 128) :
    muK s (ix2 (0 : Fin 1) j) = Ideal.div (s (ix2 (0 : Fin 1) j)) Cert.Math.N5 := by
  unfold muK
  rw [hostDivfK_apply, Cert.LibLayout.broadcastInDim_scalar_apply, constant_apply, Cert.Math.ofBits_1e5]

/-- The reciprocal square roots on the rows of column sums and sums of squares. -/
theorem invK_apply (s ss : FVec Ideal S1x128 .f32) (j : Fin 128) :
    invK s ss (ix2 (0 : Fin 1) j)
      = Ideal.rsqrt ((Ideal.div (ss (ix2 (0 : Fin 1) j)) Cert.Math.N5 - muK s (ix2 (0 : Fin 1) j) * muK s (ix2 (0 : Fin 1) j))
          + Ideal.ofBits .f32 0x3727C5AC#32) := by
  unfold invK varEpsK
  rw [hostRsqrtK_apply, addf_apply, subf_apply, mulf_apply, hostDivfK_apply, Cert.LibLayout.broadcastInDim_scalar_apply,
    Cert.LibLayout.broadcastInDim_scalar_apply, constant_apply, constant_apply, Cert.Math.ofBits_1e5]

/-- One layer from its parts: with the linear layer's result `h` in an array, its column sums and sums of squares in
    two rows, the host's mean and reciprocal root of them, the normalisation's output is the layer's output with the
    variance spelt as the mean of the squares minus the squared mean. -/
theorem layer_of_parts (h : Fin 100000 → Fin 128 → EReal) (g be : Fin 128 → EReal)
    (H : FVec Ideal S100000x128 .f32) (S SS : FVec Ideal S1x128 .f32)
    (hH : ∀ i j, H (ix2 i j) = h i j) (hS : ∀ j, S (ix2 (0 : Fin 1) j) = Cert.Math.colSum h j)
    (hSS : ∀ j, SS (ix2 (0 : Fin 1) j) = Cert.Math.colSumSq h j) :
    Cert.Math.bnRelu (Cert.Math.at2 H) (fun j => Cert.Math.at2 (muK S) 0 j) (fun j => Cert.Math.at2 (invK S SS) 0 j) g be
      = Cert.Math.layerOut Cert.Math.varK (Ideal.ofBits .f32 0x3727C5AC#32) h g be := by
  have e1 : Cert.Math.at2 H = h := funext fun i => funext fun j => hH i j
  have e2 : (fun j => Cert.Math.at2 (muK S) 0 j) = Cert.Math.mean h := funext fun j => by
    show muK S (ix2 (0 : Fin 1) j) = _
    rw [muK_apply, hS]; rfl
  have e3 : (fun j => Cert.Math.at2 (invK S SS) 0 j)
      = fun j => Ideal.rsqrt (Cert.Math.varK h j + Ideal.ofBits .f32 0x3727C5AC#32) := funext fun j => by
    show invK S SS (ix2 (0 : Fin 1) j) = _
    rw [invK_apply, muK_apply, hS, hSS]; rfl
  unfold Cert.Math.layerOut
  rw [e1, e2, e3]

/-- A vector made a one-row array reads, at `(0, j)`, the vector at `j`. -/
theorem row128_apply (a : FVec Ideal S128 .f32) (j : Fin 128) :
    Cert.Math.at2 (shapeCast S1x128 a shapeCasts_S128_S1x128) 0 j = Cert.Math.at1 a j :=
  shapeCast_a_1a_apply a _ 0 j

theorem row64_apply (a : FVec Ideal S64 .f32) (j : Fin 64) :
    Cert.Math.at2 (shapeCast S1x64 a shapeCasts_S64_S1x64) 0 j = Cert.Math.at1 a j :=
  shapeCast_a_1a_apply a _ 0 j

theorem row1_apply (a : FVec Ideal S1 .f32) (j : Fin 1) :
    Cert.Math.at2 (shapeCast S1x1 a shapeCasts_S1_S1x1) 0 j = Cert.Math.at1 a j :=
  shapeCast_a_1a_apply a _ 0 j

/-- The segment words made a one-column array read, at `(n, 0)`, the word of row `n`. -/
theorem col_apply (a : IVec S100000 32) (n : Fin 100000) :
    Cert.Math.at2 (shapeCast S100000x1 a shapeCasts_S100000_S100000x1) n 0 = Cert.Math.at1 a n :=
  Cert.LibLayout.shapeCast_a_a1_apply a _ n 0

/-- A vector made a one-row array, read along the row, is the vector. -/
theorem rowfun128 (a : FVec Ideal S128 .f32) :
    (fun j => Cert.Math.at2 (shapeCast S1x128 a shapeCasts_S128_S1x128) 0 j) = Cert.Math.at1 a := funext (row128_apply a)

theorem rowfun64 (a : FVec Ideal S64 .f32) :
    (fun j => Cert.Math.at2 (shapeCast S1x64 a shapeCasts_S64_S1x64) 0 j) = Cert.Math.at1 a := funext (row64_apply a)

theorem rowfun1 (a : FVec Ideal S1 .f32) :
    (fun j => Cert.Math.at2 (shapeCast S1x1 a shapeCasts_S1_S1x1) 0 j) = Cert.Math.at1 a := funext (row1_apply a)

theorem colfun (a : IVec S100000 32) :
    (fun n => Cert.Math.at2 (shapeCast S100000x1 a shapeCasts_S100000_S100000x1) n 0) = Cert.Math.at1 a := funext (col_apply a)

/-- One graph's encoder from its parts: the three linear layers' results with their column sums and sums of squares,
    the three normalisations' outputs (each read through the host's mean and reciprocal root), the aggregations taken on
    the previous layer's output array, and the pooled embedding: the embedding array is the encoder of the model, with
    the variance spelt as the mean of the squares minus the squared mean. -/
theorem enc_of_parts (x : FVec Ideal S100000x64 .f32) (ei : IVec S2x1280000 32) (bt : IVec S100000 32)
    (a6 : FVec Ideal S64x128 .f32) (a7 a8 a9 : FVec Ideal S128 .f32) (a10 : FVec Ideal S128x128 .f32)
    (a11 a12 a13 : FVec Ideal S128 .f32) (a14 : FVec Ideal S128x128 .f32) (a15 a16 a17 : FVec Ideal S128 .f32)
    (a18 : FVec Ideal S128x64 .f32) (a19 : FVec Ideal S64 .f32)
    (H1 : FVec Ideal S100000x128 .f32) (S1 SS1 : FVec Ideal S1x128 .f32) (Y1 : FVec Ideal S100000x128 .f32)
    (H2 : FVec Ideal S100000x128 .f32) (S2 SS2 : FVec Ideal S1x128 .f32) (Y2 : FVec Ideal S100000x128 .f32)
    (H3 : FVec Ideal S100000x128 .f32) (S3 SS3 : FVec Ideal S1x128 .f32) (Y3 : FVec Ideal S100000x128 .f32)
    (E : FVec Ideal S256x64 .f32)
    (hH1 : ∀ i j, H1 (ix2 i j) = Cert.Math.lin (Cert.Math.at2 (aggK64 x ei)) (Cert.Math.at2 a6) (Cert.Math.at1 a7) i j)
    (hS1 : ∀ j, S1 (ix2 (0 : Fin 1) j)
      = Cert.Math.colSum (Cert.Math.lin (Cert.Math.at2 (aggK64 x ei)) (Cert.Math.at2 a6) (Cert.Math.at1 a7)) j)
    (hSS1 : ∀ j, SS1 (ix2 (0 : Fin 1) j)
      = Cert.Math.colSumSq (Cert.Math.lin (Cert.Math.at2 (aggK64 x ei)) (Cert.Math.at2 a6) (Cert.Math.at1 a7)) j)
    (hY1 : ∀ i j, Y1 (ix2 i j) = Cert.Math.bnRelu (Cert.Math.at2 H1) (fun j => Cert.Math.at2 (muK S1) 0 j)
      (fun j => Cert.Math.at2 (invK S1 SS1) 0 j) (Cert.Math.at1 a8) (Cert.Math.at1 a9) i j)
    (hH2 : ∀ i j, H2 (ix2 i j) = Cert.Math.lin (Cert.Math.at2 (aggK128 Y1 ei)) (Cert.Math.at2 a10) (Cert.Math.at1 a11) i j)
    (hS2 : ∀ j, S2 (ix2 (0 : Fin 1) j)
      = Cert.Math.colSum (Cert.Math.lin (Cert.Math.at2 (aggK128 Y1 ei)) (Cert.Math.at2 a10) (Cert.Math.at1 a11)) j)
    (hSS2 : ∀ j, SS2 (ix2 (0 : Fin 1) j)
      = Cert.Math.colSumSq (Cert.Math.lin (Cert.Math.at2 (aggK128 Y1 ei)) (Cert.Math.at2 a10) (Cert.Math.at1 a11)) j)
    (hY2 : ∀ i j, Y2 (ix2 i j) = Cert.Math.bnRelu (Cert.Math.at2 H2) (fun j => Cert.Math.at2 (muK S2) 0 j)
      (fun j => Cert.Math.at2 (invK S2 SS2) 0 j) (Cert.Math.at1 a12) (Cert.Math.at1 a13) i j)
    (hH3 : ∀ i j, H3 (ix2 i j) = Cert.Math.lin (Cert.Math.at2 (aggK128 Y2 ei)) (Cert.Math.at2 a14) (Cert.Math.at1 a15) i j)
    (hS3 : ∀ j, S3 (ix2 (0 : Fin 1) j)
      = Cert.Math.colSum (Cert.Math.lin (Cert.Math.at2 (aggK128 Y2 ei)) (Cert.Math.at2 a14) (Cert.Math.at1 a15)) j)
    (hSS3 : ∀ j, SS3 (ix2 (0 : Fin 1) j)
      = Cert.Math.colSumSq (Cert.Math.lin (Cert.Math.at2 (aggK128 Y2 ei)) (Cert.Math.at2 a14) (Cert.Math.at1 a15)) j)
    (hY3 : ∀ i j, Y3 (ix2 i j) = Cert.Math.bnRelu (Cert.Math.at2 H3) (fun j => Cert.Math.at2 (muK S3) 0 j)
      (fun j => Cert.Math.at2 (invK S3 SS3) 0 j) (Cert.Math.at1 a16) (Cert.Math.at1 a17) i j)
    (hE : ∀ g e, E (ix2 g e)
      = Cert.Math.embed (Cert.Math.at2 Y3) (Cert.Math.at1 bt) (Cert.Math.at2 a18) (Cert.Math.at1 a19) g e) :
    E = Cert.Math.un2 (Cert.Math.encOf Cert.Math.varK aggK64 aggK128
          (Cert.Math.paramsOf a6 a7 a8 a9 a10 a11 a12 a13 a14 a15 a16 a17 a18 a19) x ei bt) := by
  -- each normalisation's output array is the curried layer output
  have e1 : Y1 = Cert.Math.un2 (Cert.Math.layerOut Cert.Math.varK (Ideal.ofBits .f32 0x3727C5AC#32)
      (Cert.Math.lin (Cert.Math.at2 (aggK64 x ei)) (Cert.Math.at2 a6) (Cert.Math.at1 a7)) (Cert.Math.at1 a8) (Cert.Math.at1 a9)) :=
    eq_un2 _ _ fun i j => by rw [hY1, layer_of_parts _ _ _ H1 S1 SS1 hH1 hS1 hSS1]
  have e2 : Y2 = Cert.Math.un2 (Cert.Math.layerOut Cert.Math.varK (Ideal.ofBits .f32 0x3727C5AC#32)
      (Cert.Math.lin (Cert.Math.at2 (aggK128 Y1 ei)) (Cert.Math.at2 a10) (Cert.Math.at1 a11)) (Cert.Math.at1 a12) (Cert.Math.at1 a13)) :=
    eq_un2 _ _ fun i j => by rw [hY2, layer_of_parts _ _ _ H2 S2 SS2 hH2 hS2 hSS2]
  have e3 : Y3 = Cert.Math.un2 (Cert.Math.layerOut Cert.Math.varK (Ideal.ofBits .f32 0x3727C5AC#32)
      (Cert.Math.lin (Cert.Math.at2 (aggK128 Y2 ei)) (Cert.Math.at2 a14) (Cert.Math.at1 a15)) (Cert.Math.at1 a16) (Cert.Math.at1 a17)) :=
    eq_un2 _ _ fun i j => by rw [hY3, layer_of_parts _ _ _ H3 S3 SS3 hH3 hS3 hSS3]
  refine eq_un2 _ _ fun g e => ?_
  rw [hE, e3, e2, e1]
  unfold Cert.Math.encOf Cert.Math.enc Cert.Math.paramsOf
  simp only [un2_at2]

end Cert.KernelIdeal.Hand

end
-- ==== Proof.KI.HostRead.lean ====
import proofs.«413302_j72232759984513_1_alg».proof.Proof.KI.ChainDefs
import proofs.«413302_j72232759984513_1_alg».proof.Proof.KI.HostStages
import Idealize.ShloMosaic.Lib.StableHlo.Run

/-! # What the kernel regions read, over the launch contents and the earlier regions' results

Between two regions a stretch of host operations runs. A buffer the stretch writes holds, after it, the
operations' term over what the stretch found; every other buffer keeps its contents, and a region changes only
its output arrays. So each array a region reads at its entry is either a launch argument, a reshape of one, an
earlier region's result, or the aggregation / the column statistics of earlier results. -/

set_option maxRecDepth 16384

noncomputable section

namespace Cert.KernelIdeal.Hand

open Cert.KernelIdeal Cert.KernelIdeal.Gen Idealize.ShloMosaic Idealize.ShloMosaic.TcCoe Idealize.SL.Sem

variable {F : FTy → Type} [FloatOps F]

section Frames
variable (m : (ℓ : Loc nD τ sig) → Buf (Elt F) ℓ)

/-! ## What a host stretch leaves alone

A reference outside the list of a stretch's result buffers holds after the stretch what it held before. -/

theorem W1_of (c : Dev nD) (r : Ref sig .tc) (h : r ∉ hostOps0_W) : W1 m c r = W0 m c r := by
  rw [W1_def]; exact StableHlo.after_of_writes_sub hostOps0 _ hostOps0_writes h
theorem W3_of (c : Dev nD) (r : Ref sig .tc) (h : r ∉ hostOps1_W) : W3 m c r = W2 m c r := by
  rw [W3_def]; exact StableHlo.after_of_writes_sub hostOps1 _ hostOps1_writes h
theorem W5_of (c : Dev nD) (r : Ref sig .tc) (h : r ∉ hostOps2_W) : W5 m c r = W4 m c r := by
  rw [W5_def]; exact StableHlo.after_of_writes_sub hostOps2 _ hostOps2_writes h
theorem W7_of (c : Dev nD) (r : Ref sig .tc) (h : r ∉ hostOps3_W) : W7 m c r = W6 m c r := by
  rw [W7_def]; exact StableHlo.after_of_writes_sub hostOps3 _ hostOps3_writes h
theorem W9_of (c : Dev nD) (r : Ref sig .tc) (h : r ∉ hostOps4_W) : W9 m c r = W8 m c r := by
  rw [W9_def]; exact StableHlo.after_of_writes_sub hostOps4 _ hostOps4_writes h
theorem W11_of (c : Dev nD) (r : Ref sig .tc) (h : r ∉ hostOps5_W) : W11 m c r = W10 m c r := by
  rw [W11_def]; exact StableHlo.after_of_writes_sub hostOps5 _ hostOps5_writes h
theorem W13_of (c : Dev nD) (r : Ref sig .tc) (h : r ∉ hostOps6_W) : W13 m c r = W12 m c r := by
  rw [W13_def]; exact StableHlo.after_of_writes_sub hostOps6 _ hostOps6_writes h
theorem W15_of (c : Dev nD) (r : Ref sig .tc) (h : r ∉ hostOps7_W) : W15 m c r = W14 m c r := by
  rw [W15_def]; exact StableHlo.after_of_writes_sub hostOps7 _ hostOps7_writes h
theorem W17_of (c : Dev nD) (r : Ref sig .tc) (h : r ∉ hostOps8_W) : W17 m c r = W16 m c r := by
  rw [W17_def]; exact StableHlo.after_of_writes_sub hostOps8 _ hostOps8_writes h
theorem W19_of (c : Dev nD) (r : Ref sig .tc) (h : r ∉ hostOps9_W) : W19 m c r = W18 m c r := by
  rw [W19_def]; exact StableHlo.after_of_writes_sub hostOps9 _ hostOps9_writes h
theorem W21_of (c : Dev nD) (r : Ref sig .tc) (h : r ∉ hostOps10_W) : W21 m c r = W20 m c r := by
  rw [W21_def]; exact StableHlo.after_of_writes_sub hostOps10 _ hostOps10_writes h
theorem W23_of (c : Dev nD) (r : Ref sig .tc) (h : r ∉ hostOps11_W) : W23 m c r = W22 m c r := by
  rw [W23_def]; exact StableHlo.after_of_writes_sub hostOps11 _ hostOps11_writes h
theorem W25_of (c : Dev nD) (r : Ref sig .tc) (h : r ∉ hostOps12_W) : W25 m c r = W24 m c r := by
  rw [W25_def]; exact StableHlo.after_of_writes_sub hostOps12 _ hostOps12_writes h
theorem W27_of (c : Dev nD) (r : Ref sig .tc) (h : r ∉ hostOps13_W) : W27 m c r = W26 m c r := by
  rw [W27_def]; exact StableHlo.after_of_writes_sub hostOps13 _ hostOps13_writes h
theorem W29_of (c : Dev nD) (r : Ref sig .tc) (h : r ∉ hostOps14_W) : W29 m c r = W28 m c r := by
  rw [W29_def]; exact StableHlo.after_of_writes_sub hostOps14 _ hostOps14_writes h

end Frames

/-! ## What each stretch computes, over the extended reals

Each result buffer of a stretch, read after the stretch, is its operations' term over what the stretch found; the
aggregation chain stays folded in `aggK64` / `aggRows128`. -/

section Reads
variable (m : (ℓ : Loc nD τ sig) → Buf (Elt Ideal) ℓ)

/-! ### Side 1: stretches 0–6 -/

theorem hs0_src (c : Dev nD) : W1 m c main_v1 = srcK (W0 m c main_arg1) := by
  rw [W1_def]; after_results; rfl
theorem hs0_dst (c : Dev nD) : W1 m c main_v3 = dstK (W0 m c main_arg1) := by
  rw [W1_def]; after_results; rfl
theorem hs0_seg (c : Dev nD) : W1 m c main_v4 = shapeCast S100000x1 (W0 m c main_arg2) shapeCasts_S100000_S100000x1 := by
  rw [W1_def]; after_results; rfl
theorem hs0_b (c : Dev nD) : W1 m c main_v5 = shapeCast S1x128 (W0 m c main_arg7) shapeCasts_S128_S1x128 := by
  rw [W1_def]; after_results; rfl
theorem hs0_g (c : Dev nD) : W1 m c main_v6 = shapeCast S1x128 (W0 m c main_arg8) shapeCasts_S128_S1x128 := by
  rw [W1_def]; after_results; rfl
theorem hs0_be (c : Dev nD) : W1 m c main_v7 = shapeCast S1x128 (W0 m c main_arg9) shapeCasts_S128_S1x128 := by
  rw [W1_def]; after_results; rfl
set_option maxHeartbeats 1000000 in
theorem hs0_agg (c : Dev nD) : W1 m c main_v18 = aggK64 (W0 m c main_arg0) (W0 m c main_arg1) := by
  rw [W1_def]; after_results; rfl
theorem hs1_mu (c : Dev nD) : W3 m c main_v21 = muK (W2 m c main_v19_1) := by
  rw [W3_def]; after_results; rfl
theorem hs1_inv (c : Dev nD) : W3 m c main_v28 = invK (W2 m c main_v19_1) (W2 m c main_v19_2) := by
  rw [W3_def]; after_results; rfl
theorem hs3_mu (c : Dev nD) : W7 m c main_v46 = muK (W6 m c main_v44_1) := by
  rw [W7_def]; after_results; rfl
theorem hs3_inv (c : Dev nD) : W7 m c main_v53 = invK (W6 m c main_v44_1) (W6 m c main_v44_2) := by
  rw [W7_def]; after_results; rfl
theorem hs5_mu (c : Dev nD) : W11 m c main_v71 = muK (W10 m c main_v69_1) := by
  rw [W11_def]; after_results; rfl
theorem hs5_inv (c : Dev nD) : W11 m c main_v78 = invK (W10 m c main_v69_1) (W10 m c main_v69_2) := by
  rw [W11_def]; after_results; rfl
theorem hs2_b (c : Dev nD) : W5 m c main_v30 = shapeCast S1x128 (W4 m c main_arg11) shapeCasts_S128_S1x128 := by
  rw [W5_def]; after_results; rfl
theorem hs2_g (c : Dev nD) : W5 m c main_v31 = shapeCast S1x128 (W4 m c main_arg12) shapeCasts_S128_S1x128 := by
  rw [W5_def]; after_results; rfl
theorem hs2_be (c : Dev nD) : W5 m c main_v32 = shapeCast S1x128 (W4 m c main_arg13) shapeCasts_S128_S1x128 := by
  rw [W5_def]; after_results; rfl
set_option maxHeartbeats 1000000 in
theorem hs2_agg (c : Dev nD) : W5 m c main_v43 = aggRows128 (W4 m c main_v29) (W4 m c main_v1) (W4 m c main_v3) := by
  rw [W5_def]; after_results; rfl
theorem hs4_b (c : Dev nD) : W9 m c main_v55 = shapeCast S1x128 (W8 m c main_arg15) shapeCasts_S128_S1x128 := by
  rw [W9_def]; after_results; rfl
theorem hs4_g (c : Dev nD) : W9 m c main_v56 = shapeCast S1x128 (W8 m c main_arg16) shapeCasts_S128_S1x128 := by
  rw [W9_def]; after_results; rfl
theorem hs4_be (c : Dev nD) : W9 m c main_v57 = shapeCast S1x128 (W8 m c main_arg17) shapeCasts_S128_S1x128 := by
  rw [W9_def]; after_results; rfl
set_option maxHeartbeats 1000000 in
theorem hs4_agg (c : Dev nD) : W9 m c main_v68 = aggRows128 (W8 m c main_v54) (W8 m c main_v1) (W8 m c main_v3) := by
  rw [W9_def]; after_results; rfl
theorem hs6_bf (c : Dev nD) : W13 m c main_v80 = shapeCast S1x64 (W12 m c main_arg19) shapeCasts_S64_S1x64 := by
  rw [W13_def]; after_results; rfl

/-! ### Side 2: stretches 7–13 -/

theorem hs7_src (c : Dev nD) : W15 m c main_v83 = srcK (W14 m c main_arg4) := by
  rw [W15_def]; after_results; rfl
theorem hs7_dst (c : Dev nD) : W15 m c main_v85 = dstK (W14 m c main_arg4) := by
  rw [W15_def]; after_results; rfl
theorem hs7_seg (c : Dev nD) : W15 m c main_v86 = shapeCast S100000x1 (W14 m c main_arg5) shapeCasts_S100000_S100000x1 := by
  rw [W15_def]; after_results; rfl
theorem hs7_b (c : Dev nD) : W15 m c main_v87 = shapeCast S1x128 (W14 m c main_arg7) shapeCasts_S128_S1x128 := by
  rw [W15_def]; after_results; rfl
theorem hs7_g (c : Dev nD) : W15 m c main_v88 = shapeCast S1x128 (W14 m c main_arg8) shapeCasts_S128_S1x128 := by
  rw [W15_def]; after_results; rfl
theorem hs7_be (c : Dev nD) : W15 m c main_v89 = shapeCast S1x128 (W14 m c main_arg9) shapeCasts_S128_S1x128 := by
  rw [W15_def]; after_results; rfl
set_option maxHeartbeats 1000000 in
theorem hs7_agg (c : Dev nD) : W15 m c main_v100 = aggK64 (W14 m c main_arg3) (W14 m c main_arg4) := by
  rw [W15_def]; after_results; rfl
theorem hs8_mu (c : Dev nD) : W17 m c main_v103 = muK (W16 m c main_v101_1) := by
  rw [W17_def]; after_results; rfl
theorem hs8_inv (c : Dev nD) : W17 m c main_v110 = invK (W16 m c main_v101_1) (W16 m c main_v101_2) := by
  rw [W17_def]; after_results; rfl
theorem hs10_mu (c : Dev nD) : W21 m c main_v128 = muK (W20 m c main_v126_1) := by
  rw [W21_def]; after_results; rfl
theorem hs10_inv (c : Dev nD) : W21 m c main_v135 = invK (W20 m c main_v126_1) (W20 m c main_v126_2) := by
  rw [W21_def]; after_results; rfl
theorem hs12_mu (c : Dev nD) : W25 m c main_v153 = muK (W24 m c main_v151_1) := by
  rw [W25_def]; after_results; rfl
theorem hs12_inv (c : Dev nD) : W25 m c main_v160 = invK (W24 m c main_v151_1) (W24 m c main_v151_2) := by
  rw [W25_def]; after_results; rfl
theorem hs9_b (c : Dev nD) : W19 m c main_v112 = shapeCast S1x128 (W18 m c main_arg11) shapeCasts_S128_S1x128 := by
  rw [W19_def]; after_results; rfl
theorem hs9_g (c : Dev nD) : W19 m c main_v113 = shapeCast S1x128 (W18 m c main_arg12) shapeCasts_S128_S1x128 := by
  rw [W19_def]; after_results; rfl
theorem hs9_be (c : Dev nD) : W19 m c main_v114 = shapeCast S1x128 (W18 m c main_arg13) shapeCasts_S128_S1x128 := by
  rw [W19_def]; after_results; rfl
set_option maxHeartbeats 1000000 in
theorem hs9_agg (c : Dev nD) : W19 m c main_v125 = aggRows128 (W18 m c main_v111) (W18 m c main_v83) (W18 m c main_v85) := by
  rw [W19_def]; after_results; rfl
theorem hs11_b (c : Dev nD) : W23 m c main_v137 = shapeCast S1x128 (W22 m c main_arg15) shapeCasts_S128_S1x128 := by
  rw [W23_def]; after_results; rfl
theorem hs11_g (c : Dev nD) : W23 m c main_v138 = shapeCast S1x128 (W22 m c main_arg16) shapeCasts_S128_S1x128 := by
  rw [W23_def]; after_results; rfl
theorem hs11_be (c : Dev nD) : W23 m c main_v139 = shapeCast S1x128 (W22 m c main_arg17) shapeCasts_S128_S1x128 := by
  rw [W23_def]; after_results; rfl
set_option maxHeartbeats 1000000 in
theorem hs11_agg (c : Dev nD) : W23 m c main_v150 = aggRows128 (W22 m c main_v136) (W22 m c main_v83) (W22 m c main_v85) := by
  rw [W23_def]; after_results; rfl
theorem hs13_bf (c : Dev nD) : W27 m c main_v162 = shapeCast S1x64 (W26 m c main_arg19) shapeCasts_S64_S1x64 := by
  rw [W27_def]; after_results; rfl

/-! ### Side 1: what regions 0–6 read, over the launch contents and the earlier regions' results -/

theorem rd0_0 (c : Dev nD) : W1 m c main_v18 = aggK64 (W0 m c main_arg0) (W0 m c main_arg1) :=
  hs0_agg m c
theorem rd0_1 (c : Dev nD) : W1 m c main_arg6 = W0 m c main_arg6 :=
  (W1_of m c main_arg6 (by decide))
theorem rd0_2 (c : Dev nD) : W1 m c main_v5 = shapeCast S1x128 (W0 m c main_arg7) shapeCasts_S128_S1x128 :=
  hs0_b m c
theorem rd1_0 (c : Dev nD) : W3 m c main_v19_0 = W2 m c main_v19_0 :=
  (W3_of m c main_v19_0 (by decide))
theorem rd1_1 (c : Dev nD) : W3 m c main_v21 = muK (W2 m c main_v19_1) :=
  hs1_mu m c
theorem rd1_2 (c : Dev nD) : W3 m c main_v28 = invK (W2 m c main_v19_1) (W2 m c main_v19_2) :=
  hs1_inv m c
theorem rd1_3 (c : Dev nD) : W3 m c main_v6 = shapeCast S1x128 (W0 m c main_arg8) shapeCasts_S128_S1x128 :=
  ((W3_of m c main_v6 (by decide)).trans ((W2_of_ne m c main_v6 (by decide) (by decide) (by decide)))).trans (hs0_g m c)
theorem rd1_4 (c : Dev nD) : W3 m c main_v7 = shapeCast S1x128 (W0 m c main_arg9) shapeCasts_S128_S1x128 :=
  ((W3_of m c main_v7 (by decide)).trans ((W2_of_ne m c main_v7 (by decide) (by decide) (by decide)))).trans (hs0_be m c)
theorem rd2_0 (c : Dev nD) : W5 m c main_v43 = aggK128 (W4 m c main_v29) (W0 m c main_arg1) :=
  (hs2_agg m c).trans (congr (congrArg (aggRows128 (W4 m c main_v29)) (((W4_of_ne m c main_v1 (by decide)).trans ((W3_of m c main_v1 (by decide)).trans ((W2_of_ne m c main_v1 (by decide) (by decide) (by decide))))).trans (hs0_src m c))) (((W4_of_ne m c main_v3 (by decide)).trans ((W3_of m c main_v3 (by decide)).trans ((W2_of_ne m c main_v3 (by decide) (by decide) (by decide))))).trans (hs0_dst m c)))
theorem rd2_1 (c : Dev nD) : W5 m c main_arg10 = W0 m c main_arg10 :=
  (W5_of m c main_arg10 (by decide)).trans ((W4_of_ne m c main_arg10 (by decide)).trans ((W3_of m c main_arg10 (by decide)).trans ((W2_of_ne m c main_arg10 (by decide) (by decide) (by decide)).trans ((W1_of m c main_arg10 (by decide))))))
theorem rd2_2 (c : Dev nD) : W5 m c main_v30 = shapeCast S1x128 (W0 m c main_arg11) shapeCasts_S128_S1x128 :=
  (hs2_b m c).trans (congrArg (fun a => shapeCast S1x128 a shapeCasts_S128_S1x128) ((W4_of_ne m c main_arg11 (by decide)).trans ((W3_of m c main_arg11 (by decide)).trans ((W2_of_ne m c main_arg11 (by decide) (by decide) (by decide)).trans ((W1_of m c main_arg11 (by decide)))))))
theorem rd3_0 (c : Dev nD) : W7 m c main_v44_0 = W6 m c main_v44_0 :=
  (W7_of m c main_v44_0 (by decide))
theorem rd3_1 (c : Dev nD) : W7 m c main_v46 = muK (W6 m c main_v44_1) :=
  hs3_mu m c
theorem rd3_2 (c : Dev nD) : W7 m c main_v53 = invK (W6 m c main_v44_1) (W6 m c main_v44_2) :=
  hs3_inv m c
theorem rd3_3 (c : Dev nD) : W7 m c main_v31 = shapeCast S1x128 (W0 m c main_arg12) shapeCasts_S128_S1x128 :=
  ((W7_of m c main_v31 (by decide)).trans ((W6_of_ne m c main_v31 (by decide) (by decide) (by decide)))).trans ((hs2_g m c).trans (congrArg (fun a => shapeCast S1x128 a shapeCasts_S128_S1x128) ((W4_of_ne m c main_arg12 (by decide)).trans ((W3_of m c main_arg12 (by decide)).trans ((W2_of_ne m c main_arg12 (by decide) (by decide) (by decide)).trans ((W1_of m c main_arg12 (by decide))))))))
theorem rd3_4 (c : Dev nD) : W7 m c main_v32 = shapeCast S1x128 (W0 m c main_arg13) shapeCasts_S128_S1x128 :=
  ((W7_of m c main_v32 (by decide)).trans ((W6_of_ne m c main_v32 (by decide) (by decide) (by decide)))).trans ((hs2_be m c).trans (congrArg (fun a => shapeCast S1x128 a shapeCasts_S128_S1x128) ((W4_of_ne m c main_arg13 (by decide)).trans ((W3_of m c main_arg13 (by decide)).trans ((W2_of_ne m c main_arg13 (by decide) (by decide) (by decide)).trans ((W1_of m c main_arg13 (by decide))))))))
theorem rd4_0 (c : Dev nD) : W9 m c main_v68 = aggK128 (W8 m c main_v54) (W0 m c main_arg1) :=
  (hs4_agg m c).trans (congr (congrArg (aggRows128 (W8 m c main_v54)) (((W8_of_ne m c main_v1 (by decide)).trans ((W7_of m c main_v1 (by decide)).trans ((W6_of_ne m c main_v1 (by decide) (by decide) (by decide)).trans ((W5_of m c main_v1 (by decide)).trans ((W4_of_ne m c main_v1 (by decide)).trans ((W3_of m c main_v1 (by decide)).trans ((W2_of_ne m c main_v1 (by decide) (by decide) (by decide))))))))).trans (hs0_src m c))) (((W8_of_ne m c main_v3 (by decide)).trans ((W7_of m c main_v3 (by decide)).trans ((W6_of_ne m c main_v3 (by decide) (by decide) (by decide)).trans ((W5_of m c main_v3 (by decide)).trans ((W4_of_ne m c main_v3 (by decide)).trans ((W3_of m c main_v3 (by decide)).trans ((W2_of_ne m c main_v3 (by decide) (by decide) (by decide))))))))).trans (hs0_dst m c)))
theorem rd4_1 (c : Dev nD) : W9 m c main_arg14 = W0 m c main_arg14 :=
  (W9_of m c main_arg14 (by decide)).trans ((W8_of_ne m c main_arg14 (by decide)).trans ((W7_of m c main_arg14 (by decide)).trans ((W6_of_ne m c main_arg14 (by decide) (by decide) (by decide)).trans ((W5_of m c main_arg14 (by decide)).trans ((W4_of_ne m c main_arg14 (by decide)).trans ((W3_of m c main_arg14 (by decide)).trans ((W2_of_ne m c main_arg14 (by decide) (by decide) (by decide)).trans ((W1_of m c main_arg14 (by decide))))))))))
theorem rd4_2 (c : Dev nD) : W9 m c main_v55 = shapeCast S1x128 (W0 m c main_arg15) shapeCasts_S128_S1x128 :=
  (hs4_b m c).trans (congrArg (fun a => shapeCast S1x128 a shapeCasts_S128_S1x128) ((W8_of_ne m c main_arg15 (by decide)).trans ((W7_of m c main_arg15 (by decide)).trans ((W6_of_ne m c main_arg15 (by decide) (by decide) (by decide)).trans ((W5_of m c main_arg15 (by decide)).trans ((W4_of_ne m c main_arg15 (by decide)).trans ((W3_of m c main_arg15 (by decide)).trans ((W2_of_ne m c main_arg15 (by decide) (by decide) (by decide)).trans ((W1_of m c main_arg15 (by decide)))))))))))
theorem rd5_0 (c : Dev nD) : W11 m c main_v69_0 = W10 m c main_v69_0 :=
  (W11_of m c main_v69_0 (by decide))
theorem rd5_1 (c : Dev nD) : W11 m c main_v71 = muK (W10 m c main_v69_1) :=
  hs5_mu m c
theorem rd5_2 (c : Dev nD) : W11 m c main_v78 = invK (W10 m c main_v69_1) (W10 m c main_v69_2) :=
  hs5_inv m c
theorem rd5_3 (c : Dev nD) : W11 m c main_v56 = shapeCast S1x128 (W0 m c main_arg16) shapeCasts_S128_S1x128 :=
  ((W11_of m c main_v56 (by decide)).trans ((W10_of_ne m c main_v56 (by decide) (by decide) (by decide)))).trans ((hs4_g m c).trans (congrArg (fun a => shapeCast S1x128 a shapeCasts_S128_S1x128) ((W8_of_ne m c main_arg16 (by decide)).trans ((W7_of m c main_arg16 (by decide)).trans ((W6_of_ne m c main_arg16 (by decide) (by decide) (by decide)).trans ((W5_of m c main_arg16 (by decide)).trans ((W4_of_ne m c main_arg16 (by decide)).trans ((W3_of m c main_arg16 (by decide)).trans ((W2_of_ne m c main_arg16 (by decide) (by decide) (by decide)).trans ((W1_of m c main_arg16 (by decide))))))))))))
theorem rd5_4 (c : Dev nD) : W11 m c main_v57 = shapeCast S1x128 (W0 m c main_arg17) shapeCasts_S128_S1x128 :=
  ((W11_of m c main_v57 (by decide)).trans ((W10_of_ne m c main_v57 (by decide) (by decide) (by decide)))).trans ((hs4_be m c).trans (congrArg (fun a => shapeCast S1x128 a shapeCasts_S128_S1x128) ((W8_of_ne m c main_arg17 (by decide)).trans ((W7_of m c main_arg17 (by decide)).trans ((W6_of_ne m c main_arg17 (by decide) (by decide) (by decide)).trans ((W5_of m c main_arg17 (by decide)).trans ((W4_of_ne m c main_arg17 (by decide)).trans ((W3_of m c main_arg17 (by decide)).trans ((W2_of_ne m c main_arg17 (by decide) (by decide) (by decide)).trans ((W1_of m c main_arg17 (by decide))))))))))))
theorem rd6_0 (c : Dev nD) : W13 m c main_v79 = W12 m c main_v79 :=
  (W13_of m c main_v79 (by decide))
theorem rd6_1 (c : Dev nD) : W13 m c main_v4 = shapeCast S100000x1 (W0 m c main_arg2) shapeCasts_S100000_S100000x1 :=
  ((W13_of m c main_v4 (by decide)).trans ((W12_of_ne m c main_v4 (by decide)).trans ((W11_of m c main_v4 (by decide)).trans ((W10_of_ne m c main_v4 (by decide) (by decide) (by decide)).trans ((W9_of m c main_v4 (by decide)).trans ((W8_of_ne m c main_v4 (by decide)).trans ((W7_of m c main_v4 (by decide)).trans ((W6_of_ne m c main_v4 (by decide) (by decide) (by decide)).trans ((W5_of m c main_v4 (by decide)).trans ((W4_of_ne m c main_v4 (by decide)).trans ((W3_of m c main_v4 (by decide)).trans ((W2_of_ne m c main_v4 (by decide) (by decide) (by decide)))))))))))))).trans (hs0_seg m c)
theorem rd6_2 (c : Dev nD) : W13 m c main_arg18 = W0 m c main_arg18 :=
  (W13_of m c main_arg18 (by decide)).trans ((W12_of_ne m c main_arg18 (by decide)).trans ((W11_of m c main_arg18 (by decide)).trans ((W10_of_ne m c main_arg18 (by decide) (by decide) (by decide)).trans ((W9_of m c main_arg18 (by decide)).trans ((W8_of_ne m c main_arg18 (by decide)).trans ((W7_of m c main_arg18 (by decide)).trans ((W6_of_ne m c main_arg18 (by decide) (by decide) (by decide)).trans ((W5_of m c main_arg18 (by decide)).trans ((W4_of_ne m c main_arg18 (by decide)).trans ((W3_of m c main_arg18 (by decide)).trans ((W2_of_ne m c main_arg18 (by decide) (by decide) (by decide)).trans ((W1_of m c main_arg18 (by decide))))))))))))))
theorem rd6_3 (c : Dev nD) : W13 m c main_v80 = shapeCast S1x64 (W0 m c main_arg19) shapeCasts_S64_S1x64 :=
  (hs6_bf m c).trans (congrArg (fun a => shapeCast S1x64 a shapeCasts_S64_S1x64) ((W12_of_ne m c main_arg19 (by decide)).trans ((W11_of m c main_arg19 (by decide)).trans ((W10_of_ne m c main_arg19 (by decide) (by decide) (by decide)).trans ((W9_of m c main_arg19 (by decide)).trans ((W8_of_ne m c main_arg19 (by decide)).trans ((W7_of m c main_arg19 (by decide)).trans ((W6_of_ne m c main_arg19 (by decide) (by decide) (by decide)).trans ((W5_of m c main_arg19 (by decide)).trans ((W4_of_ne m c main_arg19 (by decide)).trans ((W3_of m c main_arg19 (by decide)).trans ((W2_of_ne m c main_arg19 (by decide) (by decide) (by decide)).trans ((W1_of m c main_arg19 (by decide)))))))))))))))

/-! ### Side 2: what regions 7–13 read, over the launch contents and the earlier regions' results -/

theorem rd7_0 (c : Dev nD) : W15 m c main_v100 = aggK64 (W0 m c main_arg3) (W0 m c main_arg4) :=
  (hs7_agg m c).trans (congr (congrArg aggK64 ((W14_of_ne m c main_arg3 (by decide)).trans ((W13_of m c main_arg3 (by decide)).trans ((W12_of_ne m c main_arg3 (by decide)).trans ((W11_of m c main_arg3 (by decide)).trans ((W10_of_ne m c main_arg3 (by decide) (by decide) (by decide)).trans ((W9_of m c main_arg3 (by decide)).trans ((W8_of_ne m c main_arg3 (by decide)).trans ((W7_of m c main_arg3 (by decide)).trans ((W6_of_ne m c main_arg3 (by decide) (by decide) (by decide)).trans ((W5_of m c main_arg3 (by decide)).trans ((W4_of_ne m c main_arg3 (by decide)).trans ((W3_of m c main_arg3 (by decide)).trans ((W2_of_ne m c main_arg3 (by decide) (by decide) (by decide)).trans ((W1_of m c main_arg3 (by decide))))))))))))))))) ((W14_of_ne m c main_arg4 (by decide)).trans ((W13_of m c main_arg4 (by decide)).trans ((W12_of_ne m c main_arg4 (by decide)).trans ((W11_of m c main_arg4 (by decide)).trans ((W10_of_ne m c main_arg4 (by decide) (by decide) (by decide)).trans ((W9_of m c main_arg4 (by decide)).trans ((W8_of_ne m c main_arg4 (by decide)).trans ((W7_of m c main_arg4 (by decide)).trans ((W6_of_ne m c main_arg4 (by decide) (by decide) (by decide)).trans ((W5_of m c main_arg4 (by decide)).trans ((W4_of_ne m c main_arg4 (by decide)).trans ((W3_of m c main_arg4 (by decide)).trans ((W2_of_ne m c main_arg4 (by decide) (by decide) (by decide)).trans ((W1_of m c main_arg4 (by decide)))))))))))))))))
theorem rd7_1 (c : Dev nD) : W15 m c main_arg6 = W0 m c main_arg6 :=
  (W15_of m c main_arg6 (by decide)).trans ((W14_of_ne m c main_arg6 (by decide)).trans ((W13_of m c main_arg6 (by decide)).trans ((W12_of_ne m c main_arg6 (by decide)).trans ((W11_of m c main_arg6 (by decide)).trans ((W10_of_ne m c main_arg6 (by decide) (by decide) (by decide)).trans ((W9_of m c main_arg6 (by decide)).trans ((W8_of_ne m c main_arg6 (by decide)).trans ((W7_of m c main_arg6 (by decide)).trans ((W6_of_ne m c main_arg6 (by decide) (by decide) (by decide)).trans ((W5_of m c main_arg6 (by decide)).trans ((W4_of_ne m c main_arg6 (by decide)).trans ((W3_of m c main_arg6 (by decide)).trans ((W2_of_ne m c main_arg6 (by decide) (by decide) (by decide)).trans ((W1_of m c main_arg6 (by decide))))))))))))))))
theorem rd7_2 (c : Dev nD) : W15 m c main_v87 = shapeCast S1x128 (W0 m c main_arg7) shapeCasts_S128_S1x128 :=
  (hs7_b m c).trans (congrArg (fun a => shapeCast S1x128 a shapeCasts_S128_S1x128) ((W14_of_ne m c main_arg7 (by decide)).trans ((W13_of m c main_arg7 (by decide)).trans ((W12_of_ne m c main_arg7 (by decide)).trans ((W11_of m c main_arg7 (by decide)).trans ((W10_of_ne m c main_arg7 (by decide) (by decide) (by decide)).trans ((W9_of m c main_arg7 (by decide)).trans ((W8_of_ne m c main_arg7 (by decide)).trans ((W7_of m c main_arg7 (by decide)).trans ((W6_of_ne m c main_arg7 (by decide) (by decide) (by decide)).trans ((W5_of m c main_arg7 (by decide)).trans ((W4_of_ne m c main_arg7 (by decide)).trans ((W3_of m c main_arg7 (by decide)).trans ((W2_of_ne m c main_arg7 (by decide) (by decide) (by decide)).trans ((W1_of m c main_arg7 (by decide)))))))))))))))))
theorem rd8_0 (c : Dev nD) : W17 m c main_v101_0 = W16 m c main_v101_0 :=
  (W17_of m c main_v101_0 (by decide))
theorem rd8_1 (c : Dev nD) : W17 m c main_v103 = muK (W16 m c main_v101_1) :=
  hs8_mu m c
theorem rd8_2 (c : Dev nD) : W17 m c main_v110 = invK (W16 m c main_v101_1) (W16 m c main_v101_2) :=
  hs8_inv m c
theorem rd8_3 (c : Dev nD) : W17 m c main_v88 = shapeCast S1x128 (W0 m c main_arg8) shapeCasts_S128_S1x128 :=
  ((W17_of m c main_v88 (by decide)).trans ((W16_of_ne m c main_v88 (by decide) (by decide) (by decide)))).trans ((hs7_g m c).trans (congrArg (fun a => shapeCast S1x128 a shapeCasts_S128_S1x128) ((W14_of_ne m c main_arg8 (by decide)).trans ((W13_of m c main_arg8 (by decide)).trans ((W12_of_ne m c main_arg8 (by decide)).trans ((W11_of m c main_arg8 (by decide)).trans ((W10_of_ne m c main_arg8 (by decide) (by decide) (by decide)).trans ((W9_of m c main_arg8 (by decide)).trans ((W8_of_ne m c main_arg8 (by decide)).trans ((W7_of m c main_arg8 (by decide)).trans ((W6_of_ne m c main_arg8 (by decide) (by decide) (by decide)).trans ((W5_of m c main_arg8 (by decide)).trans ((W4_of_ne m c main_arg8 (by decide)).trans ((W3_of m c main_arg8 (by decide)).trans ((W2_of_ne m c main_arg8 (by decide) (by decide) (by decide)).trans ((W1_of m c main_arg8 (by decide))))))))))))))))))
theorem rd8_4 (c : Dev nD) : W17 m c main_v89 = shapeCast S1x128 (W0 m c main_arg9) shapeCasts_S128_S1x128 :=
  ((W17_of m c main_v89 (by decide)).trans ((W16_of_ne m c main_v89 (by decide) (by decide) (by decide)))).trans ((hs7_be m c).trans (congrArg (fun a => shapeCast S1x128 a shapeCasts_S128_S1x128) ((W14_of_ne m c main_arg9 (by decide)).trans ((W13_of m c main_arg9 (by decide)).trans ((W12_of_ne m c main_arg9 (by decide)).trans ((W11_of m c main_arg9 (by decide)).trans ((W10_of_ne m c main_arg9 (by decide) (by decide) (by decide)).trans ((W9_of m c main_arg9 (by decide)).trans ((W8_of_ne m c main_arg9 (by decide)).trans ((W7_of m c main_arg9 (by decide)).trans ((W6_of_ne m c main_arg9 (by decide) (by decide) (by decide)).trans ((W5_of m c main_arg9 (by decide)).trans ((W4_of_ne m c main_arg9 (by decide)).trans ((W3_of m c main_arg9 (by decide)).trans ((W2_of_ne m c main_arg9 (by decide) (by decide) (by decide)).trans ((W1_of m c main_arg9 (by decide))))))))))))))))))
theorem rd9_0 (c : Dev nD) : W19 m c main_v125 = aggK128 (W18 m c main_v111) (W0 m c main_arg4) :=
  (hs9_agg m c).trans (congr (congrArg (aggRows128 (W18 m c main_v111)) (((W18_of_ne m c main_v83 (by decide)).trans ((W17_of m c main_v83 (by decide)).trans ((W16_of_ne m c main_v83 (by decide) (by decide) (by decide))))).trans ((hs7_src m c).trans (congrArg (srcK) ((W14_of_ne m c main_arg4 (by decide)).trans ((W13_of m c main_arg4 (by decide)).trans ((W12_of_ne m c main_arg4 (by decide)).trans ((W11_of m c main_arg4 (by decide)).trans ((W10_of_ne m c main_arg4 (by decide) (by decide) (by decide)).trans ((W9_of m c main_arg4 (by decide)).trans ((W8_of_ne m c main_arg4 (by decide)).trans ((W7_of m c main_arg4 (by decide)).trans ((W6_of_ne m c main_arg4 (by decide) (by decide) (by decide)).trans ((W5_of m c main_arg4 (by decide)).trans ((W4_of_ne m c main_arg4 (by decide)).trans ((W3_of m c main_arg4 (by decide)).trans ((W2_of_ne m c main_arg4 (by decide) (by decide) (by decide)).trans ((W1_of m c main_arg4 (by decide)))))))))))))))))))) (((W18_of_ne m c main_v85 (by decide)).trans ((W17_of m c main_v85 (by decide)).trans ((W16_of_ne m c main_v85 (by decide) (by decide) (by decide))))).trans ((hs7_dst m c).trans (congrArg (dstK) ((W14_of_ne m c main_arg4 (by decide)).trans ((W13_of m c main_arg4 (by decide)).trans ((W12_of_ne m c main_arg4 (by decide)).trans ((W11_of m c main_arg4 (by decide)).trans ((W10_of_ne m c main_arg4 (by decide) (by decide) (by decide)).trans ((W9_of m c main_arg4 (by decide)).trans ((W8_of_ne m c main_arg4 (by decide)).trans ((W7_of m c main_arg4 (by decide)).trans ((W6_of_ne m c main_arg4 (by decide) (by decide) (by decide)).trans ((W5_of m c main_arg4 (by decide)).trans ((W4_of_ne m c main_arg4 (by decide)).trans ((W3_of m c main_arg4 (by decide)).trans ((W2_of_ne m c main_arg4 (by decide) (by decide) (by decide)).trans ((W1_of m c main_arg4 (by decide))))))))))))))))))))
theorem rd9_1 (c : Dev nD) : W19 m c main_arg10 = W0 m c main_arg10 :=
  (W19_of m c main_arg10 (by decide)).trans ((W18_of_ne m c main_arg10 (by decide)).trans ((W17_of m c main_arg10 (by decide)).trans ((W16_of_ne m c main_arg10 (by decide) (by decide) (by decide)).trans ((W15_of m c main_arg10 (by decide)).trans ((W14_of_ne m c main_arg10 (by decide)).trans ((W13_of m c main_arg10 (by decide)).trans ((W12_of_ne m c main_arg10 (by decide)).trans ((W11_of m c main_arg10 (by decide)).trans ((W10_of_ne m c main_arg10 (by decide) (by decide) (by decide)).trans ((W9_of m c main_arg10 (by decide)).trans ((W8_of_ne m c main_arg10 (by decide)).trans ((W7_of m c main_arg10 (by decide)).trans ((W6_of_ne m c main_arg10 (by decide) (by decide) (by decide)).trans ((W5_of m c main_arg10 (by decide)).trans ((W4_of_ne m c main_arg10 (by decide)).trans ((W3_of m c main_arg10 (by decide)).trans ((W2_of_ne m c main_arg10 (by decide) (by decide) (by decide)).trans ((W1_of m c main_arg10 (by decide))))))))))))))))))))
theorem rd9_2 (c : Dev nD) : W19 m c main_v112 = shapeCast S1x128 (W0 m c main_arg11) shapeCasts_S128_S1x128 :=
  (hs9_b m c).trans (congrArg (fun a => shapeCast S1x128 a shapeCasts_S128_S1x128) ((W18_of_ne m c main_arg11 (by decide)).trans ((W17_of m c main_arg11 (by decide)).trans ((W16_of_ne m c main_arg11 (by decide) (by decide) (by decide)).trans ((W15_of m c main_arg11 (by decide)).trans ((W14_of_ne m c main_arg11 (by decide)).trans ((W13_of m c main_arg11 (by decide)).trans ((W12_of_ne m c main_arg11 (by decide)).trans ((W11_of m c main_arg11 (by decide)).trans ((W10_of_ne m c main_arg11 (by decide) (by decide) (by decide)).trans ((W9_of m c main_arg11 (by decide)).trans ((W8_of_ne m c main_arg11 (by decide)).trans ((W7_of m c main_arg11 (by decide)).trans ((W6_of_ne m c main_arg11 (by decide) (by decide) (by decide)).trans ((W5_of m c main_arg11 (by decide)).trans ((W4_of_ne m c main_arg11 (by decide)).trans ((W3_of m c main_arg11 (by decide)).trans ((W2_of_ne m c main_arg11 (by decide) (by decide) (by decide)).trans ((W1_of m c main_arg11 (by decide)))))))))))))))))))))
theorem rd10_0 (c : Dev nD) : W21 m c main_v126_0 = W20 m c main_v126_0 :=
  (W21_of m c main_v126_0 (by decide))
theorem rd10_1 (c : Dev nD) : W21 m c main_v128 = muK (W20 m c main_v126_1) :=
  hs10_mu m c
theorem rd10_2 (c : Dev nD) : W21 m c main_v135 = invK (W20 m c main_v126_1) (W20 m c main_v126_2) :=
  hs10_inv m c
theorem rd10_3 (c : Dev nD) : W21 m c main_v113 = shapeCast S1x128 (W0 m c main_arg12) shapeCasts_S128_S1x128 :=
  ((W21_of m c main_v113 (by decide)).trans ((W20_of_ne m c main_v113 (by decide) (by decide) (by decide)))).trans ((hs9_g m c).trans (congrArg (fun a => shapeCast S1x128 a shapeCasts_S128_S1x128) ((W18_of_ne m c main_arg12 (by decide)).trans ((W17_of m c main_arg12 (by decide)).trans ((W16_of_ne m c main_arg12 (by decide) (by decide) (by decide)).trans ((W15_of m c main_arg12 (by decide)).trans ((W14_of_ne m c main_arg12 (by decide)).trans ((W13_of m c main_arg12 (by decide)).trans ((W12_of_ne m c main_arg12 (by decide)).trans ((W11_of m c main_arg12 (by decide)).trans ((W10_of_ne m c main_arg12 (by decide) (by decide) (by decide)).trans ((W9_of m c main_arg12 (by decide)).trans ((W8_of_ne m c main_arg12 (by decide)).trans ((W7_of m c main_arg12 (by decide)).trans ((W6_of_ne m c main_arg12 (by decide) (by decide) (by decide)).trans ((W5_of m c main_arg12 (by decide)).trans ((W4_of_ne m c main_arg12 (by decide)).trans ((W3_of m c main_arg12 (by decide)).trans ((W2_of_ne m c main_arg12 (by decide) (by decide) (by decide)).trans ((W1_of m c main_arg12 (by decide))))))))))))))))))))))
theorem rd10_4 (c : Dev nD) : W21 m c main_v114 = shapeCast S1x128 (W0 m c main_arg13) shapeCasts_S128_S1x128 :=
  ((W21_of m c main_v114 (by decide)).trans ((W20_of_ne m c main_v114 (by decide) (by decide) (by decide)))).trans ((hs9_be m c).trans (congrArg (fun a => shapeCast S1x128 a shapeCasts_S128_S1x128) ((W18_of_ne m c main_arg13 (by decide)).trans ((W17_of m c main_arg13 (by decide)).trans ((W16_of_ne m c main_arg13 (by decide) (by decide) (by decide)).trans ((W15_of m c main_arg13 (by decide)).trans ((W14_of_ne m c main_arg13 (by decide)).trans ((W13_of m c main_arg13 (by decide)).trans ((W12_of_ne m c main_arg13 (by decide)).trans ((W11_of m c main_arg13 (by decide)).trans ((W10_of_ne m c main_arg13 (by decide) (by decide) (by decide)).trans ((W9_of m c main_arg13 (by decide)).trans ((W8_of_ne m c main_arg13 (by decide)).trans ((W7_of m c main_arg13 (by decide)).trans ((W6_of_ne m c main_arg13 (by decide) (by decide) (by decide)).trans ((W5_of m c main_arg13 (by decide)).trans ((W4_of_ne m c main_arg13 (by decide)).trans ((W3_of m c main_arg13 (by decide)).trans ((W2_of_ne m c main_arg13 (by decide) (by decide) (by decide)).trans ((W1_of m c main_arg13 (by decide))))))))))))))))))))))
theorem rd11_0 (c : Dev nD) : W23 m c main_v150 = aggK128 (W22 m c main_v136) (W0 m c main_arg4) :=
  (hs11_agg m c).trans (congr (congrArg (aggRows128 (W22 m c main_v136)) (((W22_of_ne m c main_v83 (by decide)).trans ((W21_of m c main_v83 (by decide)).trans ((W20_of_ne m c main_v83 (by decide) (by decide) (by decide)).trans ((W19_of m c main_v83 (by decide)).trans ((W18_of_ne m c main_v83 (by decide)).trans ((W17_of m c main_v83 (by decide)).trans ((W16_of_ne m c main_v83 (by decide) (by decide) (by decide))))))))).trans ((hs7_src m c).trans (congrArg (srcK) ((W14_of_ne m c main_arg4 (by decide)).trans ((W13_of m c main_arg4 (by decide)).trans ((W12_of_ne m c main_arg4 (by decide)).trans ((W11_of m c main_arg4 (by decide)).trans ((W10_of_ne m c main_arg4 (by decide) (by decide) (by decide)).trans ((W9_of m c main_arg4 (by decide)).trans ((W8_of_ne m c main_arg4 (by decide)).trans ((W7_of m c main_arg4 (by decide)).trans ((W6_of_ne m c main_arg4 (by decide) (by decide) (by decide)).trans ((W5_of m c main_arg4 (by decide)).trans ((W4_of_ne m c main_arg4 (by decide)).trans ((W3_of m c main_arg4 (by decide)).trans ((W2_of_ne m c main_arg4 (by decide) (by decide) (by decide)).trans ((W1_of m c main_arg4 (by decide)))))))))))))))))))) (((W22_of_ne m c main_v85 (by decide)).trans ((W21_of m c main_v85 (by decide)).trans ((W20_of_ne m c main_v85 (by decide) (by decide) (by decide)).trans ((W19_of m c main_v85 (by decide)).trans ((W18_of_ne m c main_v85 (by decide)).trans ((W17_of m c main_v85 (by decide)).trans ((W16_of_ne m c main_v85 (by decide) (by decide) (by decide))))))))).trans ((hs7_dst m c).trans (congrArg (dstK) ((W14_of_ne m c main_arg4 (by decide)).trans ((W13_of m c main_arg4 (by decide)).trans ((W12_of_ne m c main_arg4 (by decide)).trans ((W11_of m c main_arg4 (by decide)).trans ((W10_of_ne m c main_arg4 (by decide) (by decide) (by decide)).trans ((W9_of m c main_arg4 (by decide)).trans ((W8_of_ne m c main_arg4 (by decide)).trans ((W7_of m c main_arg4 (by decide)).trans ((W6_of_ne m c main_arg4 (by decide) (by decide) (by decide)).trans ((W5_of m c main_arg4 (by decide)).trans ((W4_of_ne m c main_arg4 (by decide)).trans ((W3_of m c main_arg4 (by decide)).trans ((W2_of_ne m c main_arg4 (by decide) (by decide) (by decide)).trans ((W1_of m c main_arg4 (by decide))))))))))))))))))))
theorem rd11_1 (c : Dev nD) : W23 m c main_arg14 = W0 m c main_arg14 :=
  (W23_of m c main_arg14 (by decide)).trans ((W22_of_ne m c main_arg14 (by decide)).trans ((W21_of m c main_arg14 (by decide)).trans ((W20_of_ne m c main_arg14 (by decide) (by decide) (by decide)).trans ((W19_of m c main_arg14 (by decide)).trans ((W18_of_ne m c main_arg14 (by decide)).trans ((W17_of m c main_arg14 (by decide)).trans ((W16_of_ne m c main_arg14 (by decide) (by decide) (by decide)).trans ((W15_of m c main_arg14 (by decide)).trans ((W14_of_ne m c main_arg14 (by decide)).trans ((W13_of m c main_arg14 (by decide)).trans ((W12_of_ne m c main_arg14 (by decide)).trans ((W11_of m c main_arg14 (by decide)).trans ((W10_of_ne m c main_arg14 (by decide) (by decide) (by decide)).trans ((W9_of m c main_arg14 (by decide)).trans ((W8_of_ne m c main_arg14 (by decide)).trans ((W7_of m c main_arg14 (by decide)).trans ((W6_of_ne m c main_arg14 (by decide) (by decide) (by decide)).trans ((W5_of m c main_arg14 (by decide)).trans ((W4_of_ne m c main_arg14 (by decide)).trans ((W3_of m c main_arg14 (by decide)).trans ((W2_of_ne m c main_arg14 (by decide) (by decide) (by decide)).trans ((W1_of m c main_arg14 (by decide))))))))))))))))))))))))
theorem rd11_2 (c : Dev nD) : W23 m c main_v137 = shapeCast S1x128 (W0 m c main_arg15) shapeCasts_S128_S1x128 :=
  (hs11_b m c).trans (congrArg (fun a => shapeCast S1x128 a shapeCasts_S128_S1x128) ((W22_of_ne m c main_arg15 (by decide)).trans ((W21_of m c main_arg15 (by decide)).trans ((W20_of_ne m c main_arg15 (by decide) (by decide) (by decide)).trans ((W19_of m c main_arg15 (by decide)).trans ((W18_of_ne m c main_arg15 (by decide)).trans ((W17_of m c main_arg15 (by decide)).trans ((W16_of_ne m c main_arg15 (by decide) (by decide) (by decide)).trans ((W15_of m c main_arg15 (by decide)).trans ((W14_of_ne m c main_arg15 (by decide)).trans ((W13_of m c main_arg15 (by decide)).trans ((W12_of_ne m c main_arg15 (by decide)).trans ((W11_of m c main_arg15 (by decide)).trans ((W10_of_ne m c main_arg15 (by decide) (by decide) (by decide)).trans ((W9_of m c main_arg15 (by decide)).trans ((W8_of_ne m c main_arg15 (by decide)).trans ((W7_of m c main_arg15 (by decide)).trans ((W6_of_ne m c main_arg15 (by decide) (by decide) (by decide)).trans ((W5_of m c main_arg15 (by decide)).trans ((W4_of_ne m c main_arg15 (by decide)).trans ((W3_of m c main_arg15 (by decide)).trans ((W2_of_ne m c main_arg15 (by decide) (by decide) (by decide)).trans ((W1_of m c main_arg15 (by decide)))))))))))))))))))))))))
theorem rd12_0 (c : Dev nD) : W25 m c main_v151_0 = W24 m c main_v151_0 :=
  (W25_of m c main_v151_0 (by decide))
theorem rd12_1 (c : Dev nD) : W25 m c main_v153 = muK (W24 m c main_v151_1) :=
  hs12_mu m c
theorem rd12_2 (c : Dev nD) : W25 m c main_v160 = invK (W24 m c main_v151_1) (W24 m c main_v151_2) :=
  hs12_inv m c
theorem rd12_3 (c : Dev nD) : W25 m c main_v138 = shapeCast S1x128 (W0 m c main_arg16) shapeCasts_S128_S1x128 :=
  ((W25_of m c main_v138 (by decide)).trans ((W24_of_ne m c main_v138 (by decide) (by decide) (by decide)))).trans ((hs11_g m c).trans (congrArg (fun a => shapeCast S1x128 a shapeCasts_S128_S1x128) ((W22_of_ne m c main_arg16 (by decide)).trans ((W21_of m c main_arg16 (by decide)).trans ((W20_of_ne m c main_arg16 (by decide) (by decide) (by decide)).trans ((W19_of m c main_arg16 (by decide)).trans ((W18_of_ne m c main_arg16 (by decide)).trans ((W17_of m c main_arg16 (by decide)).trans ((W16_of_ne m c main_arg16 (by decide) (by decide) (by decide)).trans ((W15_of m c main_arg16 (by decide)).trans ((W14_of_ne m c main_arg16 (by decide)).trans ((W13_of m c main_arg16 (by decide)).trans ((W12_of_ne m c main_arg16 (by decide)).trans ((W11_of m c main_arg16 (by decide)).trans ((W10_of_ne m c main_arg16 (by decide) (by decide) (by decide)).trans ((W9_of m c main_arg16 (by decide)).trans ((W8_of_ne m c main_arg16 (by decide)).trans ((W7_of m c main_arg16 (by decide)).trans ((W6_of_ne m c main_arg16 (by decide) (by decide) (by decide)).trans ((W5_of m c main_arg16 (by decide)).trans ((W4_of_ne m c main_arg16 (by decide)).trans ((W3_of m c main_arg16 (by decide)).trans ((W2_of_ne m c main_arg16 (by decide) (by decide) (by decide)).trans ((W1_of m c main_arg16 (by decide))))))))))))))))))))))))))
theorem rd12_4 (c : Dev nD) : W25 m c main_v139 = shapeCast S1x128 (W0 m c main_arg17) shapeCasts_S128_S1x128 :=
  ((W25_of m c main_v139 (by decide)).trans ((W24_of_ne m c main_v139 (by decide) (by decide) (by decide)))).trans ((hs11_be m c).trans (congrArg (fun a => shapeCast S1x128 a shapeCasts_S128_S1x128) ((W22_of_ne m c main_arg17 (by decide)).trans ((W21_of m c main_arg17 (by decide)).trans ((W20_of_ne m c main_arg17 (by decide) (by decide) (by decide)).trans ((W19_of m c main_arg17 (by decide)).trans ((W18_of_ne m c main_arg17 (by decide)).trans ((W17_of m c main_arg17 (by decide)).trans ((W16_of_ne m c main_arg17 (by decide) (by decide) (by decide)).trans ((W15_of m c main_arg17 (by decide)).trans ((W14_of_ne m c main_arg17 (by decide)).trans ((W13_of m c main_arg17 (by decide)).trans ((W12_of_ne m c main_arg17 (by decide)).trans ((W11_of m c main_arg17 (by decide)).trans ((W10_of_ne m c main_arg17 (by decide) (by decide) (by decide)).trans ((W9_of m c main_arg17 (by decide)).trans ((W8_of_ne m c main_arg17 (by decide)).trans ((W7_of m c main_arg17 (by decide)).trans ((W6_of_ne m c main_arg17 (by decide) (by decide) (by decide)).trans ((W5_of m c main_arg17 (by decide)).trans ((W4_of_ne m c main_arg17 (by decide)).trans ((W3_of m c main_arg17 (by decide)).trans ((W2_of_ne m c main_arg17 (by decide) (by decide) (by decide)).trans ((W1_of m c main_arg17 (by decide))))))))))))))))))))))))))
theorem rd13_0 (c : Dev nD) : W27 m c main_v161 = W26 m c main_v161 :=
  (W27_of m c main_v161 (by decide))
theorem rd13_1 (c : Dev nD) : W27 m c main_v86 = shapeCast S100000x1 (W0 m c main_arg5) shapeCasts_S100000_S100000x1 :=
  ((W27_of m c main_v86 (by decide)).trans ((W26_of_ne m c main_v86 (by decide)).trans ((W25_of m c main_v86 (by decide)).trans ((W24_of_ne m c main_v86 (by decide) (by decide) (by decide)).trans ((W23_of m c main_v86 (by decide)).trans ((W22_of_ne m c main_v86 (by decide)).trans ((W21_of m c main_v86 (by decide)).trans ((W20_of_ne m c main_v86 (by decide) (by decide) (by decide)).trans ((W19_of m c main_v86 (by decide)).trans ((W18_of_ne m c main_v86 (by decide)).trans ((W17_of m c main_v86 (by decide)).trans ((W16_of_ne m c main_v86 (by decide) (by decide) (by decide)))))))))))))).trans ((hs7_seg m c).trans (congrArg (fun a => shapeCast S100000x1 a shapeCasts_S100000_S100000x1) ((W14_of_ne m c main_arg5 (by decide)).trans ((W13_of m c main_arg5 (by decide)).trans ((W12_of_ne m c main_arg5 (by decide)).trans ((W11_of m c main_arg5 (by decide)).trans ((W10_of_ne m c main_arg5 (by decide) (by decide) (by decide)).trans ((W9_of m c main_arg5 (by decide)).trans ((W8_of_ne m c main_arg5 (by decide)).trans ((W7_of m c main_arg5 (by decide)).trans ((W6_of_ne m c main_arg5 (by decide) (by decide) (by decide)).trans ((W5_of m c main_arg5 (by decide)).trans ((W4_of_ne m c main_arg5 (by decide)).trans ((W3_of m c main_arg5 (by decide)).trans ((W2_of_ne m c main_arg5 (by decide) (by decide) (by decide)).trans ((W1_of m c main_arg5 (by decide))))))))))))))))))
theorem rd13_2 (c : Dev nD) : W27 m c main_arg18 = W0 m c main_arg18 :=
  (W27_of m c main_arg18 (by decide)).trans ((W26_of_ne m c main_arg18 (by decide)).trans ((W25_of m c main_arg18 (by decide)).trans ((W24_of_ne m c main_arg18 (by decide) (by decide) (by decide)).trans ((W23_of m c main_arg18 (by decide)).trans ((W22_of_ne m c main_arg18 (by decide)).trans ((W21_of m c main_arg18 (by decide)).trans ((W20_of_ne m c main_arg18 (by decide) (by decide) (by decide)).trans ((W19_of m c main_arg18 (by decide)).trans ((W18_of_ne m c main_arg18 (by decide)).trans ((W17_of m c main_arg18 (by decide)).trans ((W16_of_ne m c main_arg18 (by decide) (by decide) (by decide)).trans ((W15_of m c main_arg18 (by decide)).trans ((W14_of_ne m c main_arg18 (by decide)).trans ((W13_of m c main_arg18 (by decide)).trans ((W12_of_ne m c main_arg18 (by decide)).trans ((W11_of m c main_arg18 (by decide)).trans ((W10_of_ne m c main_arg18 (by decide) (by decide) (by decide)).trans ((W9_of m c main_arg18 (by decide)).trans ((W8_of_ne m c main_arg18 (by decide)).trans ((W7_of m c main_arg18 (by decide)).trans ((W6_of_ne m c main_arg18 (by decide) (by decide) (by decide)).trans ((W5_of m c main_arg18 (by decide)).trans ((W4_of_ne m c main_arg18 (by decide)).trans ((W3_of m c main_arg18 (by decide)).trans ((W2_of_ne m c main_arg18 (by decide) (by decide) (by decide)).trans ((W1_of m c main_arg18 (by decide))))))))))))))))))))))))))))
theorem rd13_3 (c : Dev nD) : W27 m c main_v162 = shapeCast S1x64 (W0 m c main_arg19) shapeCasts_S64_S1x64 :=
  (hs13_bf m c).trans (congrArg (fun a => shapeCast S1x64 a shapeCasts_S64_S1x64) ((W26_of_ne m c main_arg19 (by decide)).trans ((W25_of m c main_arg19 (by decide)).trans ((W24_of_ne m c main_arg19 (by decide) (by decide) (by decide)).trans ((W23_of m c main_arg19 (by decide)).trans ((W22_of_ne m c main_arg19 (by decide)).trans ((W21_of m c main_arg19 (by decide)).trans ((W20_of_ne m c main_arg19 (by decide) (by decide) (by decide)).trans ((W19_of m c main_arg19 (by decide)).trans ((W18_of_ne m c main_arg19 (by decide)).trans ((W17_of m c main_arg19 (by decide)).trans ((W16_of_ne m c main_arg19 (by decide) (by decide) (by decide)).trans ((W15_of m c main_arg19 (by decide)).trans ((W14_of_ne m c main_arg19 (by decide)).trans ((W13_of m c main_arg19 (by decide)).trans ((W12_of_ne m c main_arg19 (by decide)).trans ((W11_of m c main_arg19 (by decide)).trans ((W10_of_ne m c main_arg19 (by decide) (by decide) (by decide)).trans ((W9_of m c main_arg19 (by decide)).trans ((W8_of_ne m c main_arg19 (by decide)).trans ((W7_of m c main_arg19 (by decide)).trans ((W6_of_ne m c main_arg19 (by decide) (by decide) (by decide)).trans ((W5_of m c main_arg19 (by decide)).trans ((W4_of_ne m c main_arg19 (by decide)).trans ((W3_of m c main_arg19 (by decide)).trans ((W2_of_ne m c main_arg19 (by decide) (by decide) (by decide)).trans ((W1_of m c main_arg19 (by decide)))))))))))))))))))))))))))))

/-! ### The classifier: stretch 14 and what region 14 reads -/

theorem hs14_bc1 (c : Dev nD) : W29 m c main_v164 = shapeCast S1x64 (W28 m c main_arg21) shapeCasts_S64_S1x64 := by
  rw [W29_def]; after_results; rfl
theorem hs14_bc2 (c : Dev nD) : W29 m c main_v165 = shapeCast S1x1 (W28 m c main_arg23) shapeCasts_S1_S1x1 := by
  rw [W29_def]; after_results; rfl
theorem rd14_0 (c : Dev nD) : W29 m c main_v81 = W14 m c main_v81 :=
  (W29_of m c main_v81 (by decide)).trans ((W28_of_ne m c main_v81 (by decide)).trans ((W27_of m c main_v81 (by decide)).trans ((W26_of_ne m c main_v81 (by decide)).trans ((W25_of m c main_v81 (by decide)).trans ((W24_of_ne m c main_v81 (by decide) (by decide) (by decide)).trans ((W23_of m c main_v81 (by decide)).trans ((W22_of_ne m c main_v81 (by decide)).trans ((W21_of m c main_v81 (by decide)).trans ((W20_of_ne m c main_v81 (by decide) (by decide) (by decide)).trans ((W19_of m c main_v81 (by decide)).trans ((W18_of_ne m c main_v81 (by decide)).trans ((W17_of m c main_v81 (by decide)).trans ((W16_of_ne m c main_v81 (by decide) (by decide) (by decide)).trans ((W15_of m c main_v81 (by decide))))))))))))))))
theorem rd14_1 (c : Dev nD) : W29 m c main_v163 = W28 m c main_v163 :=
  (W29_of m c main_v163 (by decide))
theorem rd14_2 (c : Dev nD) : W29 m c main_arg20 = W0 m c main_arg20 :=
  (W29_of m c main_arg20 (by decide)).trans ((W28_of_ne m c main_arg20 (by decide)).trans ((W27_of m c main_arg20 (by decide)).trans ((W26_of_ne m c main_arg20 (by decide)).trans ((W25_of m c main_arg20 (by decide)).trans ((W24_of_ne m c main_arg20 (by decide) (by decide) (by decide)).trans ((W23_of m c main_arg20 (by decide)).trans ((W22_of_ne m c main_arg20 (by decide)).trans ((W21_of m c main_arg20 (by decide)).trans ((W20_of_ne m c main_arg20 (by decide) (by decide) (by decide)).trans ((W19_of m c main_arg20 (by decide)).trans ((W18_of_ne m c main_arg20 (by decide)).trans ((W17_of m c main_arg20 (by decide)).trans ((W16_of_ne m c main_arg20 (by decide) (by decide) (by decide)).trans ((W15_of m c main_arg20 (by decide)).trans ((W14_of_ne m c main_arg20 (by decide)).trans ((W13_of m c main_arg20 (by decide)).trans ((W12_of_ne m c main_arg20 (by decide)).trans ((W11_of m c main_arg20 (by decide)).trans ((W10_of_ne m c main_arg20 (by decide) (by decide) (by decide)).trans ((W9_of m c main_arg20 (by decide)).trans ((W8_of_ne m c main_arg20 (by decide)).trans ((W7_of m c main_arg20 (by decide)).trans ((W6_of_ne m c main_arg20 (by decide) (by decide) (by decide)).trans ((W5_of m c main_arg20 (by decide)).trans ((W4_of_ne m c main_arg20 (by decide)).trans ((W3_of m c main_arg20 (by decide)).trans ((W2_of_ne m c main_arg20 (by decide) (by decide) (by decide)).trans ((W1_of m c main_arg20 (by decide))))))))))))))))))))))))))))))
theorem rd14_3 (c : Dev nD) : W29 m c main_v164 = shapeCast S1x64 (W0 m c main_arg21) shapeCasts_S64_S1x64 :=
  (hs14_bc1 m c).trans (congrArg (fun a => shapeCast S1x64 a shapeCasts_S64_S1x64) ((W28_of_ne m c main_arg21 (by decide)).trans ((W27_of m c main_arg21 (by decide)).trans ((W26_of_ne m c main_arg21 (by decide)).trans ((W25_of m c main_arg21 (by decide)).trans ((W24_of_ne m c main_arg21 (by decide) (by decide) (by decide)).trans ((W23_of m c main_arg21 (by decide)).trans ((W22_of_ne m c main_arg21 (by decide)).trans ((W21_of m c main_arg21 (by decide)).trans ((W20_of_ne m c main_arg21 (by decide) (by decide) (by decide)).trans ((W19_of m c main_arg21 (by decide)).trans ((W18_of_ne m c main_arg21 (by decide)).trans ((W17_of m c main_arg21 (by decide)).trans ((W16_of_ne m c main_arg21 (by decide) (by decide) (by decide)).trans ((W15_of m c main_arg21 (by decide)).trans ((W14_of_ne m c main_arg21 (by decide)).trans ((W13_of m c main_arg21 (by decide)).trans ((W12_of_ne m c main_arg21 (by decide)).trans ((W11_of m c main_arg21 (by decide)).trans ((W10_of_ne m c main_arg21 (by decide) (by decide) (by decide)).trans ((W9_of m c main_arg21 (by decide)).trans ((W8_of_ne m c main_arg21 (by decide)).trans ((W7_of m c main_arg21 (by decide)).trans ((W6_of_ne m c main_arg21 (by decide) (by decide) (by decide)).trans ((W5_of m c main_arg21 (by decide)).trans ((W4_of_ne m c main_arg21 (by decide)).trans ((W3_of m c main_arg21 (by decide)).trans ((W2_of_ne m c main_arg21 (by decide) (by decide) (by decide)).trans ((W1_of m c main_arg21 (by decide)))))))))))))))))))))))))))))))
theorem rd14_4 (c : Dev nD) : W29 m c main_arg22 = W0 m c main_arg22 :=
  (W29_of m c main_arg22 (by decide)).trans ((W28_of_ne m c main_arg22 (by decide)).trans ((W27_of m c main_arg22 (by decide)).trans ((W26_of_ne m c main_arg22 (by decide)).trans ((W25_of m c main_arg22 (by decide)).trans ((W24_of_ne m c main_arg22 (by decide) (by decide) (by decide)).trans ((W23_of m c main_arg22 (by decide)).trans ((W22_of_ne m c main_arg22 (by decide)).trans ((W21_of m c main_arg22 (by decide)).trans ((W20_of_ne m c main_arg22 (by decide) (by decide) (by decide)).trans ((W19_of m c main_arg22 (by decide)).trans ((W18_of_ne m c main_arg22 (by decide)).trans ((W17_of m c main_arg22 (by decide)).trans ((W16_of_ne m c main_arg22 (by decide) (by decide) (by decide)).trans ((W15_of m c main_arg22 (by decide)).trans ((W14_of_ne m c main_arg22 (by decide)).trans ((W13_of m c main_arg22 (by decide)).trans ((W12_of_ne m c main_arg22 (by decide)).trans ((W11_of m c main_arg22 (by decide)).trans ((W10_of_ne m c main_arg22 (by decide) (by decide) (by decide)).trans ((W9_of m c main_arg22 (by decide)).trans ((W8_of_ne m c main_arg22 (by decide)).trans ((W7_of m c main_arg22 (by decide)).trans ((W6_of_ne m c main_arg22 (by decide) (by decide) (by decide)).trans ((W5_of m c main_arg22 (by decide)).trans ((W4_of_ne m c main_arg22 (by decide)).trans ((W3_of m c main_arg22 (by decide)).trans ((W2_of_ne m c main_arg22 (by decide) (by decide) (by decide)).trans ((W1_of m c main_arg22 (by decide))))))))))))))))))))))))))))))
theorem rd14_5 (c : Dev nD) : W29 m c main_v165 = shapeCast S1x1 (W0 m c main_arg23) shapeCasts_S1_S1x1 :=
  (hs14_bc2 m c).trans (congrArg (fun a => shapeCast S1x1 a shapeCasts_S1_S1x1) ((W28_of_ne m c main_arg23 (by decide)).trans ((W27_of m c main_arg23 (by decide)).trans ((W26_of_ne m c main_arg23 (by decide)).trans ((W25_of m c main_arg23 (by decide)).trans ((W24_of_ne m c main_arg23 (by decide) (by decide) (by decide)).trans ((W23_of m c main_arg23 (by decide)).trans ((W22_of_ne m c main_arg23 (by decide)).trans ((W21_of m c main_arg23 (by decide)).trans ((W20_of_ne m c main_arg23 (by decide) (by decide) (by decide)).trans ((W19_of m c main_arg23 (by decide)).trans ((W18_of_ne m c main_arg23 (by decide)).trans ((W17_of m c main_arg23 (by decide)).trans ((W16_of_ne m c main_arg23 (by decide) (by decide) (by decide)).trans ((W15_of m c main_arg23 (by decide)).trans ((W14_of_ne m c main_arg23 (by decide)).trans ((W13_of m c main_arg23 (by decide)).trans ((W12_of_ne m c main_arg23 (by decide)).trans ((W11_of m c main_arg23 (by decide)).trans ((W10_of_ne m c main_arg23 (by decide) (by decide) (by decide)).trans ((W9_of m c main_arg23 (by decide)).trans ((W8_of_ne m c main_arg23 (by decide)).trans ((W7_of m c main_arg23 (by decide)).trans ((W6_of_ne m c main_arg23 (by decide) (by decide) (by decide)).trans ((W5_of m c main_arg23 (by decide)).trans ((W4_of_ne m c main_arg23 (by decide)).trans ((W3_of m c main_arg23 (by decide)).trans ((W2_of_ne m c main_arg23 (by decide) (by decide) (by decide)).trans ((W1_of m c main_arg23 (by decide)))))))))))))))))))))))))))))))

end Reads

end Cert.KernelIdeal.Hand

end
-- ==== Proof.Math.Tiles.lean ====
/- Summing by tiles. A sum over `m · n` rows taken as `m` tiles of `n` rows each, the row of tile
   `t` at offset `r` being row `t · n + r`, is the sum over all rows: the pairs `(t, r)` are the
   rows, each once. A left fold that adds the tiles' sums one after another from zero is the same
   sum. Both hold in any commutative additive monoid; they are stated at the sizes used, 10 tiles
   of 10000 rows. -/
import Mathlib.Data.EReal.Basic
import Mathlib.Data.Fintype.BigOperators
import Mathlib.Logic.Equiv.Fin.Basic
import Mathlib.Algebra.BigOperators.Fin
import Batteries.Data.Fin.Fold

noncomputable section

namespace Cert.Math

open scoped BigOperators

/-- Row `t · n + r` of tile `t < m` at offset `r < n` is a row below `m · n`. -/
theorem tile_lt {m n : ℕ} (t : Fin m) (r : Fin n) : t.val * n + r.val < m * n := by
  have h1 : t.val * n + r.val < (t.val + 1) * n := by
    rw [Nat.add_mul, Nat.one_mul]; exact Nat.add_lt_add_left r.isLt _
  exact lt_of_lt_of_le h1 (Nat.mul_le_mul_right n t.isLt)

/-- The sum of the tiles' sums is the whole sum (the pairs `(t, r)` enumerate the rows). -/
theorem sum_tiles_gen {M : Type*} [AddCommMonoid M] {m n : ℕ} (f : Fin (m * n) → M) :
    ∑ t : Fin m, ∑ r : Fin n, f ⟨t.val * n + r.val, tile_lt t r⟩ = ∑ i : Fin (m * n), f i := by
  rw [← Fintype.sum_prod_type']
  refine Fintype.sum_equiv finProdFinEquiv _ _ fun p => ?_
  congr 1
  ext
  simp only [finProdFinEquiv, Equiv.coe_fn_mk]
  rw [Nat.mul_comm, Nat.add_comm]

/-- A left fold adding `g 0, g 1, …` in turn from zero is the sum of `g`. -/
theorem foldl_add_eq_sum {M : Type*} [AddCommMonoid M] {n : ℕ} (g : Fin n → M) :
    (List.finRange n).foldl (fun acc t => acc + g t) 0 = ∑ t, g t := by
  rw [Fin.sum_univ_def, List.sum_eq_foldl, List.foldl_map]

/-- The same with the library's fold over `Fin n`. -/
theorem finFoldl_add_eq_sum {M : Type*} [AddCommMonoid M] {n : ℕ} (g : Fin n → M) :
    Fin.foldl n (fun acc t => acc + g t) 0 = ∑ t, g t := by
  rw [Fin.foldl_eq_foldl_finRange, foldl_add_eq_sum]

/-- Ten tiles of ten thousand rows: the tiles' sums add up to the sum over the hundred thousand rows. -/
theorem sum_tiles (f : Fin 100000 → EReal) :
    ∑ t : Fin 10, ∑ r : Fin 10000, f ⟨t.val * 10000 + r.val, by omega⟩ = ∑ i : Fin 100000, f i :=
  sum_tiles_gen (m := 10) (n := 10000) f

/-- The fold form: adding the ten tiles' sums in turn from zero gives the sum over all rows. -/
theorem foldl_tiles (f : Fin 100000 → EReal) :
    (List.finRange 10).foldl
        (fun acc t => acc + ∑ r : Fin 10000, f ⟨t.val * 10000 + r.val, by omega⟩) 0
      = ∑ i : Fin 100000, f i := by
  rw [foldl_add_eq_sum]; exact sum_tiles f

/-- The fold form with `Fin.foldl`. -/
theorem finFoldl_tiles (f : Fin 100000 → EReal) :
    Fin.foldl 10 (fun acc t => acc + ∑ r : Fin 10000, f ⟨t.val * 10000 + r.val, by omega⟩) 0
      = ∑ i : Fin 100000, f i := by
  rw [finFoldl_add_eq_sum]; exact sum_tiles f

end Cert.Math

end
-- ==== Proof.KI.ValLS0.lean ====
import proofs.«413302_j72232759984513_1_alg».proof.Proof.KI.RegLS0
import proofs.«413302_j72232759984513_1_alg».proof.Proof.Math.Spec
import proofs.«413302_j72232759984513_1_alg».proof.Proof.Math.Tiles
import Idealize.ShloMosaic.Lib.ValueIdx
import Idealize.ShloMosaic.Lib.Pipeline.Value
import Idealize.ShloMosaic.Lib.ValueLayout
import Idealize.ShloMosaic.PureOps.Ideal.Laws

/-! # Kernel region 0 over the extended reals: the three output arrays, index by index

Every grid point writes back its tile of 10000 rows of `x · W + b`; the ten tiles fill the 100000 rows. The two running
sums start from zero at the first point, each point adds its tile's column sums (of the values, of their squares), and
the last point writes them back: ten tiles' sums added up are the sums over all rows. -/

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

/-! ## What each case of the body leaves, in closed form (at any float instance) -/

section Closed

variable {F : FTy → Type} [FloatOps F]

/-- The zero offsets, however spelt. -/
theorem zeroOff0 : (![0, 0] : Fin 2 → Nat) = fun _ => 0 := funext fun a => by fin_cases a <;> rfl

/-- Output 3 after the body, either case: its one covering store's payload, whose loads read the whole input buffers. -/
theorem out0_A_3_eq (c : Dev nD) (i : grid0.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond0_0 i) (x0 : Vec F S10000x64 .f32) (x1 : Vec F S64x128 .f32) (x2 : Vec F S1x128 .f32) :
    out0_A_3 c i arg1 harg1 arg2 harg2 arg3 harg3 arg4 harg4 arg5 harg5 arg6 harg6 hc0 x0 x1 x2 = k0_pay3 x0 x1 x2 := by
  unfold out0_A_3
  rw [View.read_writes_eq_canon _ _ _ (cover0_A_3 c i arg1 harg1 arg2 harg2 arg3 harg3 arg4 harg4 arg5 harg5 arg6 harg6 hc0 x0 x1 x2)]
  unfold kernelRun0_A
  dsimp only
  rw [View.canon_unit_zero zeroOff0]
  simp only [View.readAt_eq_ld, harg1.read_unread, harg2.read_unread, harg3.read_unread, harg5.read_unread, harg6.read_unread, View.ld_unit_zero (S := S10000x64) zeroOff0, View.ld_unit_zero (S := S64x128) zeroOff0, View.ld_unit_zero (S := S1x128) zeroOff0]
theorem out0_B_3_eq (c : Dev nD) (i : grid0.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i) (x0 : Vec F S10000x64 .f32) (x1 : Vec F S64x128 .f32) (x2 : Vec F S1x128 .f32) (xo4 : Vec F S1x128 .f32) (xo5 : Vec F S1x128 .f32) :
    out0_B_3 c i arg1 harg1 arg2 harg2 arg3 harg3 arg4 harg4 arg5 harg5 arg6 harg6 hc0 x0 x1 x2 xo4 xo5 = k0_pay3 x0 x1 x2 := by
  unfold out0_B_3
  rw [View.read_writes_eq_canon _ _ _ (cover0_B_3 c i arg1 harg1 arg2 harg2 arg3 harg3 arg4 harg4 arg5 harg5 arg6 harg6 hc0 x0 x1 x2 xo4 xo5)]
  unfold kernelRun0_B
  dsimp only
  rw [View.canon_unit_zero zeroOff0]
  simp only [View.readAt_eq_ld, harg1.read_unread, harg2.read_unread, harg3.read_unread, harg5.read_unread, harg6.read_unread, View.ld_unit_zero (S := S10000x64) zeroOff0, View.ld_unit_zero (S := S64x128) zeroOff0, View.ld_unit_zero (S := S1x128) zeroOff0]

/-- A running sum after the body where the condition fails: the adding store's payload over what the buffer held. -/
theorem out0_B_4_eq (c : Dev nD) (i : grid0.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i) (x0 : Vec F S10000x64 .f32) (x1 : Vec F S64x128 .f32) (x2 : Vec F S1x128 .f32) (xo4 : Vec F S1x128 .f32) (xo5 : Vec F S1x128 .f32) :
    out0_B_4 c i arg1 harg1 arg2 harg2 arg3 harg3 arg4 harg4 arg5 harg5 arg6 harg6 hc0 x0 x1 x2 xo4 xo5 = k0_pay4 x0 x1 x2 xo4 := by
  unfold out0_B_4
  rw [View.read_writes_eq_canon _ _ _ (cover0_B_4 c i arg1 harg1 arg2 harg2 arg3 harg3 arg4 harg4 arg5 harg5 arg6 harg6 hc0 x0 x1 x2 xo4 xo5)]
  unfold kernelRun0_B
  dsimp only
  rw [View.canon_unit_zero zeroOff0]
  simp only [View.readAt_eq_ld, harg1.read_unread, harg2.read_unread, harg3.read_unread, harg5.read_unread, harg6.read_unread, View.ld_unit_zero (S := S10000x64) zeroOff0, View.ld_unit_zero (S := S64x128) zeroOff0, View.ld_unit_zero (S := S1x128) zeroOff0]
theorem out0_B_5_eq (c : Dev nD) (i : grid0.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond0_0 i) (x0 : Vec F S10000x64 .f32) (x1 : Vec F S64x128 .f32) (x2 : Vec F S1x128 .f32) (xo4 : Vec F S1x128 .f32) (xo5 : Vec F S1x128 .f32) :
    out0_B_5 c i arg1 harg1 arg2 harg2 arg3 harg3 arg4 harg4 arg5 harg5 arg6 harg6 hc0 x0 x1 x2 xo4 xo5 = k0_pay5 x0 x1 x2 xo5 := by
  unfold out0_B_5
  rw [View.read_writes_eq_canon _ _ _ (cover0_B_5 c i arg1 harg1 arg2 harg2 arg3 harg3 arg4 harg4 arg5 harg5 arg6 harg6 hc0 x0 x1 x2 xo4 xo5)]
  unfold kernelRun0_B
  dsimp only
  rw [View.canon_unit_zero zeroOff0]
  simp only [View.readAt_eq_ld, harg1.read_unread, harg2.read_unread, harg3.read_unread, harg5.read_unread, harg6.read_unread, View.ld_unit_zero (S := S10000x64) zeroOff0, View.ld_unit_zero (S := S64x128) zeroOff0, View.ld_unit_zero (S := S1x128) zeroOff0]

/-- A running sum after the body where the condition holds: the reset's zeros are stored, read back, and added to. -/
theorem out0_A_4_eq (c : Dev nD) (i : grid0.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond0_0 i) (x0 : Vec F S10000x64 .f32) (x1 : Vec F S64x128 .f32) (x2 : Vec F S1x128 .f32) :
    out0_A_4 c i arg1 harg1 arg2 harg2 arg3 harg3 arg4 harg4 arg5 harg5 arg6 harg6 hc0 x0 x1 x2 = k0_pay4 x0 x1 x2 k0_pay1 := by
  unfold out0_A_4
  rw [View.read_writes_eq_canon _ _ _ (cover0_A_4 c i arg1 harg1 arg2 harg2 arg3 harg3 arg4 harg4 arg5 harg5 arg6 harg6 hc0 x0 x1 x2)]
  unfold kernelRun0_A
  dsimp only
  sl_unfold_words
  rw [View.canon_cons_unit_zero (S := S1x128) zeroOff0, View.readCov_unit_zero (S := S1x128) _ zeroOff0]
  simp only [View.readAt_eq_ld, harg1.read_unread, harg2.read_unread, harg3.read_unread, harg5.read_unread, harg6.read_unread, View.ld_unit_zero (S := S10000x64) zeroOff0, View.ld_unit_zero (S := S64x128) zeroOff0, View.ld_unit_zero (S := S1x128) zeroOff0]
theorem out0_A_5_eq (c : Dev nD) (i : grid0.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond0_0 i) (x0 : Vec F S10000x64 .f32) (x1 : Vec F S64x128 .f32) (x2 : Vec F S1x128 .f32) :
    out0_A_5 c i arg1 harg1 arg2 harg2 arg3 harg3 arg4 harg4 arg5 harg5 arg6 harg6 hc0 x0 x1 x2 = k0_pay5 x0 x1 x2 k0_pay2 := by
  unfold out0_A_5
  rw [View.read_writes_eq_canon _ _ _ (cover0_A_5 c i arg1 harg1 arg2 harg2 arg3 harg3 arg4 harg4 arg5 harg5 arg6 harg6 hc0 x0 x1 x2)]
  unfold kernelRun0_A
  dsimp only
  sl_unfold_words
  rw [View.canon_cons_unit_zero (S := S1x128) zeroOff0, View.readCov_unit_zero (S := S1x128) _ zeroOff0]
  simp only [View.readAt_eq_ld, harg1.read_unread, harg2.read_unread, harg3.read_unread, harg5.read_unread, harg6.read_unread, View.ld_unit_zero (S := S10000x64) zeroOff0, View.ld_unit_zero (S := S64x128) zeroOff0, View.ld_unit_zero (S := S1x128) zeroOff0]

variable (V : (c : Dev nD) → (b : Ref sig .tc) → Buf (Elt F) ((c : Thread nD τ).loc b))

/-- The two running sums after point `n`: from the reset's zeros at the first point, each point adding its tile's. -/
def sums0 (c : Dev nD) : (n : ℕ) → n < cfg0.N → Vec F S1x128 .f32 × Vec F S1x128 .f32
  | 0, h => (k0_pay4 (iblk0 V c 0 ⟨0, h⟩) (iblk0 V c 1 ⟨0, h⟩) (iblk0 V c 2 ⟨0, h⟩) k0_pay1,
             k0_pay5 (iblk0 V c 0 ⟨0, h⟩) (iblk0 V c 1 ⟨0, h⟩) (iblk0 V c 2 ⟨0, h⟩) k0_pay2)
  | n + 1, h => (k0_pay4 (iblk0 V c 0 ⟨n + 1, h⟩) (iblk0 V c 1 ⟨n + 1, h⟩) (iblk0 V c 2 ⟨n + 1, h⟩) (sums0 c n (Nat.lt_of_succ_lt h)).1,
                 k0_pay5 (iblk0 V c 0 ⟨n + 1, h⟩) (iblk0 V c 1 ⟨n + 1, h⟩) (iblk0 V c 2 ⟨n + 1, h⟩) (sums0 c n (Nat.lt_of_succ_lt h)).2)

/-- What the outputs' staging buffers hold after point `n`: the point's tile of `x · W + b` and the two running sums,
    by induction on the point. -/
theorem outsAt0_eq (c : Dev nD) : ∀ (n : ℕ) (h : n < cfg0.N), outsAt0 V c n h
    = (k0_pay3 (iblk0 V c 0 ⟨n, h⟩) (iblk0 V c 1 ⟨n, h⟩) (iblk0 V c 2 ⟨n, h⟩), (sums0 V c n h).1, (sums0 V c n h).2)
  | 0, h => by
    rw [outsAt0_A V c ⟨0, h⟩ rfl, out0_A_3_eq, out0_A_4_eq, out0_A_5_eq]; rfl
  | n + 1, h => by
    have hN : cfg0.N = 10 := N_0
    have hB : ¬(⟨n + 1, h⟩ : Fin cfg0.N).val % 10 = 0 := by dsimp only; omega
    rw [outsAt0_B V c ⟨n + 1, h⟩ hB, out0_B_3_eq, out0_B_4_eq, out0_B_5_eq]
    have ih := outsAt0_eq c n (Nat.lt_of_succ_lt h)
    show (_, k0_pay4 _ _ _ (outsAt0 V c n _).2.1, k0_pay5 _ _ _ (outsAt0 V c n _).2.2) = _
    rw [ih]; rfl

end Closed

/-! ## The payloads over the extended reals, index by index -/

/-- The product's operand indices: the left operand is read at (row of the result, contracted coordinate), -/
theorem lhsDot0_0 (i : S10000x128.Idx) (q : dot_S10000x64_S64x128_S10000x128_1_0_0_1_n_n.contr.Idx) : (dot_S10000x64_S64x128_S10000x128_1_0_0_1_n_n.lhsIdx i q 0).val = (i 0).val := by
  unfold DotDims.lhsIdx
  rw [dif_neg (show ¬(0 : Fin S10000x64.rank) ∈ dot_S10000x64_S64x128_S10000x128_1_0_0_1_n_n.lhsBatch by decide), dif_pos (show (0 : Fin S10000x64.rank) ∈ dot_S10000x64_S64x128_S10000x128_1_0_0_1_n_n.lhsNonContracting by decide)]
  rfl
theorem lhsDot0_1 (i : S10000x128.Idx) (q : dot_S10000x64_S64x128_S10000x128_1_0_0_1_n_n.contr.Idx) : (dot_S10000x64_S64x128_S10000x128_1_0_0_1_n_n.lhsIdx i q 1).val = (q ⟨0, by decide⟩).val :=
  dot_S10000x64_S64x128_S10000x128_1_0_0_1_n_n.lhsIdx_val_of_single rfl i q
/-- the right operand at (contracted coordinate, column of the result). -/
theorem rhsDot0_0 (i : S10000x128.Idx) (q : dot_S10000x64_S64x128_S10000x128_1_0_0_1_n_n.contr.Idx) : (dot_S10000x64_S64x128_S10000x128_1_0_0_1_n_n.rhsIdx i q 0).val = (q ⟨0, by decide⟩).val :=
  dot_S10000x64_S64x128_S10000x128_1_0_0_1_n_n.rhsIdx_val_of_single rfl i q
theorem rhsDot0_1 (i : S10000x128.Idx) (q : dot_S10000x64_S64x128_S10000x128_1_0_0_1_n_n.contr.Idx) : (dot_S10000x64_S64x128_S10000x128_1_0_0_1_n_n.rhsIdx i q 1).val = (i 1).val := by
  unfold DotDims.rhsIdx
  rw [dif_neg (show ¬(1 : Fin S64x128.rank) ∈ dot_S10000x64_S64x128_S10000x128_1_0_0_1_n_n.rhsBatch by decide), dif_pos (show (1 : Fin S64x128.rank) ∈ dot_S10000x64_S64x128_S10000x128_1_0_0_1_n_n.rhsNonContracting by decide)]
  rfl

/-- The tile's product at (r, j): the sum over the contracted coordinate. -/
theorem matmul0_apply (x : FVec Ideal S10000x64 .f32) (w : FVec Ideal S64x128 .f32) (r : Fin 10000) (j : Fin 128) :
    matmul dot_S10000x64_S64x128_S10000x128_1_0_0_1_n_n none x w (constant S10000x128 .f32 0x00000000#32) (ix2 r j) = ∑ l : Fin 64, x (ix2 r l) * w (ix2 l j) := by
  simp only [matmul]
  rw [Ideal.matmul_constant_zero_apply, ← Equiv.sum_comp (contrEquiv1 dot_S10000x64_S64x128_S10000x128_1_0_0_1_n_n 64 rfl rfl).symm]
  refine Finset.sum_congr rfl fun l _ => ?_
  have hk := contrEquiv1_symm_val dot_S10000x64_S64x128_S10000x128_1_0_0_1_n_n 64 rfl rfl l
  have el : dot_S10000x64_S64x128_S10000x128_1_0_0_1_n_n.lhsIdx (ix2 r j) ((contrEquiv1 dot_S10000x64_S64x128_S10000x128_1_0_0_1_n_n 64 rfl rfl).symm l) = ix2 r l := funext fun a => Fin.ext (by
    match a with
    | ⟨0, _⟩ => exact lhsDot0_0 _ _
    | ⟨1, _⟩ => exact (lhsDot0_1 _ _).trans hk)
  have er : dot_S10000x64_S64x128_S10000x128_1_0_0_1_n_n.rhsIdx (ix2 r j) ((contrEquiv1 dot_S10000x64_S64x128_S10000x128_1_0_0_1_n_n 64 rfl rfl).symm l) = ix2 l j := funext fun a => Fin.ext (by
    match a with
    | ⟨0, _⟩ => exact (rhsDot0_0 _ _).trans hk
    | ⟨1, _⟩ => exact rhsDot0_1 _ _)
  rw [el, er]

/-- The tile of `x · W + b` at (r, j). -/
theorem pay0_3_apply (x0 : Vec Ideal S10000x64 .f32) (x1 : Vec Ideal S64x128 .f32) (x2 : Vec Ideal S1x128 .f32) (r : Fin 10000) (j : Fin 128) :
    k0_pay3 x0 x1 x2 (ix2 r j) = (∑ l : Fin 64, x0 (ix2 r l) * x1 (ix2 l j)) + x2 (ix2 0 j) := by
  unfold k0_pay3
  simp only [shapeCast_self, addf_apply, matmul0_apply, broadcastTo_1b_ab_apply]

/-- Summing a tile over its rows, read at column `j`: the inserted coordinate is the row. -/
theorem lift0 (j : Fin 128) (r : Fin 10000) : reduces_S10000x128_S128.lift (ix1 j) r = ix2 r j :=
  funext fun a => Fin.ext (by
    match a with
    | ⟨0, _⟩ => rfl
    | ⟨1, _⟩ => rfl)

/-- The running column sum after a point: what it held, plus the tile's column sum. -/
theorem pay0_4_apply (x0 : Vec Ideal S10000x64 .f32) (x1 : Vec Ideal S64x128 .f32) (x2 : Vec Ideal S1x128 .f32) (xo : Vec Ideal S1x128 .f32) (j : Fin 128) :
    k0_pay4 x0 x1 x2 xo (ix2 0 j) = xo (ix2 0 j) + ∑ r : Fin 10000, k0_pay3 x0 x1 x2 (ix2 r j) := by
  unfold k0_pay4
  simp only [shapeCast_self, addf_apply, shapeCast_a_1a_apply]
  refine congrArg (xo (ix2 0 j) + ·) ?_
  refine (Ideal.multiReduction_add_single (k0_pay3 x0 x1 x2) _ reduces_S10000x128_S128 _ _ (ix1 j)).trans ?_
  exact Finset.sum_congr rfl fun r _ => congrArg (k0_pay3 x0 x1 x2) (lift0 j r)

/-- The running column sum of squares likewise. -/
theorem pay0_5_apply (x0 : Vec Ideal S10000x64 .f32) (x1 : Vec Ideal S64x128 .f32) (x2 : Vec Ideal S1x128 .f32) (xo : Vec Ideal S1x128 .f32) (j : Fin 128) :
    k0_pay5 x0 x1 x2 xo (ix2 0 j) = xo (ix2 0 j) + ∑ r : Fin 10000, k0_pay3 x0 x1 x2 (ix2 r j) * k0_pay3 x0 x1 x2 (ix2 r j) := by
  unfold k0_pay5
  simp only [shapeCast_self, addf_apply, shapeCast_a_1a_apply]
  refine congrArg (xo (ix2 0 j) + ·) ?_
  refine (Ideal.multiReduction_add_single (mulf (k0_pay3 x0 x1 x2) (k0_pay3 x0 x1 x2)) _ reduces_S10000x128_S128 _ _ (ix1 j)).trans ?_
  exact Finset.sum_congr rfl fun r _ => congrArg (fun y => k0_pay3 x0 x1 x2 y * k0_pay3 x0 x1 x2 y) (lift0 j r)

/-- The reset stores zeros. -/
theorem pay0_1_apply (y : S1x128.Idx) : k0_pay1 (F := Ideal) y = 0 := by
  unfold k0_pay1
  simp only [broadcast_apply, Scalar.ofBits, Ideal.ofBits_def, Ideal.ofBits_zero_f32]
theorem pay0_2_apply (y : S1x128.Idx) : k0_pay2 (F := Ideal) y = 0 := by
  unfold k0_pay2
  simp only [broadcast_apply, Scalar.ofBits, Ideal.ofBits_def, Ideal.ofBits_zero_f32]

/-! ## The region's three output arrays over the extended reals -/

section Value

variable (V : (c : Dev nD) → (b : Ref sig .tc) → Buf (Elt Ideal) ((c : Thread nD τ).loc b))

/-- `x · W + b` of three arrays, index by index: the bias row is read at the index's lane. -/
@[irreducible] def lin0 (x : FVec Ideal S100000x64 .f32) (w : FVec Ideal S64x128 .f32) (b : FVec Ideal S1x128 .f32) : FVec Ideal S100000x128 .f32 :=
  fun i => (∑ l : Fin 64, x (ix2 (i 0) l) * w (ix2 l (i 1))) + b (ix2 0 (i 1))

/-- The printed index maps, decided over the ten points: the tiles of `x` and of the result move with the point, the
    weights, the bias row and the two sums stay at block 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Row `r` of tile `t` is row `t · 10000 + r` of the array. -/
theorem row_lt0 (t : Fin cfg0.N) (r : Fin 10000) : t.val * 10000 + r.val < 100000 := by
  have hN : cfg0.N = 10 := N_0
  have := t.isLt; have := r.isLt; omega

/-- The tile point `t` computes, at (r, j): `x · W + b` of the arrays as the region finds them, at row `t · 10000 + r`. -/
theorem tile0_apply (c : Dev nD) (t : Fin cfg0.N) (r : Fin 10000) (j : Fin 128) :
    k0_pay3 (iblk0 V c 0 t) (iblk0 V c 1 t) (iblk0 V c 2 t) (ix2 r j)
      = lin0 ((dat0 V c).A 0) ((dat0 V c).A 1) ((dat0 V c).A 2) (ix2 ⟨t.val * 10000 + r.val, row_lt0 t r⟩ j) := by
  rw [pay0_3_apply, A_eq0, A_eq0, A_eq0]
  unfold lin0
  obtain ⟨e0, e1, e2, e3, e4, e5, e6, e7, e8, e9, e10, e11⟩ := idx_facts0 t
  have h0 : ∀ l : Fin 64, ((cfg0.win 0).blk t).view.emb (ix2 r l) = ix2 (⟨t.val * 10000 + r.val, row_lt0 t r⟩ : Fin 100000) l := fun l => by
    funext a; apply Fin.ext
    match a with
    | ⟨0, _⟩ => show win0_0.index t (0 : Fin 2) * 10000 + 1 * r.val = t.val * 10000 + r.val; omega
    | ⟨1, _⟩ => show win0_0.index t (1 : Fin 2) * 64 + 1 * l.val = l.val; omega
  have h1 : ∀ l : Fin 64, ((cfg0.win 1).blk t).view.emb (ix2 l j) = ix2 l j := fun l => by
    funext a; apply Fin.ext
    match a with
    | ⟨0, _⟩ => show win0_1.index t (0 : Fin 2) * 64 + 1 * l.val = l.val; omega
    | ⟨1, _⟩ => show win0_1.index t (1 : Fin 2) * 128 + 1 * j.val = j.val; omega
  have h2 : ((cfg0.win 2).blk t).view.emb (ix2 0 j) = ix2 0 j := by
    funext a; apply Fin.ext
    match a with
    | ⟨0, _⟩ => show win0_2.index t (0 : Fin 2) * 1 + 1 * 0 = 0; omega
    | ⟨1, _⟩ => show win0_2.index t (1 : Fin 2) * 128 + 1 * j.val = j.val; omega
  have b0 : ∀ l : Fin 64, iblk0 V c 0 t (ix2 r l) = V c (Pipeline.arrRef spec0 0) (ix2 (⟨t.val * 10000 + r.val, row_lt0 t r⟩ : Fin 100000) l) :=
    fun l => congrArg (V c (Pipeline.arrRef spec0 0)) (h0 l)
  have b1 : ∀ l : Fin 64, iblk0 V c 1 t (ix2 l j) = V c (Pipeline.arrRef spec0 1) (ix2 l j) :=
    fun l => congrArg (V c (Pipeline.arrRef spec0 1)) (h1 l)
  have b2 : iblk0 V c 2 t (ix2 0 j) = V c (Pipeline.arrRef spec0 2) (ix2 0 j) :=
    congrArg (V c (Pipeline.arrRef spec0 2)) h2
  simp only [b0, b1, b2] <;> rfl

/-! ### Output 3: the ten tiles fill the array -/

/-- What point `t` writes back to output 3 is block `t` of `x · W + b` of the arrays as the region finds them. -/
theorem flushed0_3_eq (c : Dev nD) (t : Fin cfg0.N) :
    (dat0 V c).flushed 3 t = ((cfg0.win 3).blk t).view.read (Elt Ideal)
      (lin0 ((dat0 V c).A 0) ((dat0 V c).A 1) ((dat0 V c).A 2)) := by
  show (cfg0.win 3).cut (grid0.coords t) ((dat0 V c).after 3 t) = _
  rw [after0_3, outsAt0_eq]
  obtain ⟨e0, e1, e2, e3, e4, e5, e6, e7, e8, e9, e10, e11⟩ := idx_facts0 t
  funext y
  rw [View.read_apply, cast_eq]
  have hy0 : (y 0).val < 10000 := (y 0).isLt
  have hy1 : (y 1).val < 128 := (y 1).isLt
  show k0_pay3 (iblk0 V c 0 t) (iblk0 V c 1 t) (iblk0 V c 2 t) y
    = lin0 ((dat0 V c).A 0) ((dat0 V c).A 1) ((dat0 V c).A 2) (((cfg0.win 3).blk t).view.emb y)
  have hy : y = ix2 (⟨(y 0).val, hy0⟩ : Fin 10000) (⟨(y 1).val, hy1⟩ : Fin 128) := eq_ix2 y
  have he : ((cfg0.win 3).blk t).view.emb y
      = ix2 (⟨t.val * 10000 + (y 0).val, row_lt0 t ⟨(y 0).val, hy0⟩⟩ : Fin 100000) (⟨(y 1).val, hy1⟩ : Fin 128) := by
    funext a; apply Fin.ext
    match a with
    | ⟨0, _⟩ => show win0_3.index t (0 : Fin 2) * 10000 + 1 * (y 0).val = t.val * 10000 + (y 0).val; omega
    | ⟨1, _⟩ => show win0_3.index t (1 : Fin 2) * 128 + 1 * (y 1).val = (y 1).val; omega
  rw [he]
  have h := tile0_apply V c t ⟨(y 0).val, hy0⟩ ⟨(y 1).val, hy1⟩
  rw [← hy] at h
  exact h

/-- An index of output 3's array is in point `t`'s block iff each coordinate is in the block's range on its axis. -/
theorem mem_blk0_3 (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole (Pipeline.arrRef spec0 3)).slice (win0_3.rect t)).set ↔ _
  rw [View.set_slice_whole, Rect.mem_set_unit]
  exact Iff.rfl

/-- The ten tiles fill the array: row `r` is in the block of point `r / 10000`. -/
theorem covered0_3 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 10 := N_0
  let t : Fin cfg0.N := ⟨(i 0).val / 10000, by omega⟩
  obtain ⟨e0, e1, e2, e3, e4, e5, e6, e7, e8, e9, e10, e11⟩ := idx_facts0 t
  have ht : t.val = (i 0).val / 10000 := rfl
  refine ⟨t, flush0_3 t, ?_⟩
  rw [mem_blk0_3]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

/-- Output 3's array after the region: `x · W + b` of the entry contents, everywhere. -/
theorem final0_3 (c : Dev nD) : (dat0 V c).arrAt 3 cfg0.N
    = lin0 ((dat0 V c).A 0) ((dat0 V c).A 1) ((dat0 V c).A 2) :=
  (dat0 V c).arrAt_eq_of_cover 3 _ (fun t _ => flushed0_3_eq V c t) covered0_3

/-! ### Outputs 4 and 5: the running sums after the last point are the column sums -/

/-- The column sum of tile `s` (zero past the grid). -/
def tileSum0 (c : Dev nD) (j : Fin 128) (s : ℕ) : EReal :=
  if hs : s < cfg0.N then ∑ r : Fin 10000, k0_pay3 (iblk0 V c 0 ⟨s, hs⟩) (iblk0 V c 1 ⟨s, hs⟩) (iblk0 V c 2 ⟨s, hs⟩) (ix2 r j) else 0
/-- The column sum of squares of tile `s` (zero past the grid). -/
def tileSumSq0 (c : Dev nD) (j : Fin 128) (s : ℕ) : EReal :=
  if hs : s < cfg0.N then ∑ r : Fin 10000, k0_pay3 (iblk0 V c 0 ⟨s, hs⟩) (iblk0 V c 1 ⟨s, hs⟩) (iblk0 V c 2 ⟨s, hs⟩) (ix2 r j)
    * k0_pay3 (iblk0 V c 0 ⟨s, hs⟩) (iblk0 V c 1 ⟨s, hs⟩) (iblk0 V c 2 ⟨s, hs⟩) (ix2 r j) else 0

/-- After point `n` the first running sum holds, at lane `j`, the column sums of tiles `0 … n` added up. -/
theorem sums0_1_apply (c : Dev nD) (j : Fin 128) : ∀ (n : ℕ) (h : n < cfg0.N),
    (sums0 V c n h).1 (ix2 0 j) = ∑ s ∈ Finset.range (n + 1), tileSum0 V c j s
  | 0, h => by
    show k0_pay4 _ _ _ k0_pay1 (ix2 0 j) = _
    rw [pay0_4_apply, pay0_1_apply, zero_add, Finset.sum_range_one]
    unfold tileSum0; rw [dif_pos h]
  | n + 1, h => by
    show k0_pay4 _ _ _ (sums0 V c n _).1 (ix2 0 j) = _
    rw [pay0_4_apply, sums0_1_apply c j n (Nat.lt_of_succ_lt h), Finset.sum_range_succ _ (n + 1)]
    congr 1
    unfold tileSum0; rw [dif_pos h]
/-- The second likewise, with the squares. -/
theorem sums0_2_apply (c : Dev nD) (j : Fin 128) : ∀ (n : ℕ) (h : n < cfg0.N),
    (sums0 V c n h).2 (ix2 0 j) = ∑ s ∈ Finset.range (n + 1), tileSumSq0 V c j s
  | 0, h => by
    show k0_pay5 _ _ _ k0_pay2 (ix2 0 j) = _
    rw [pay0_5_apply, pay0_2_apply, zero_add, Finset.sum_range_one]
    unfold tileSumSq0; rw [dif_pos h]
  | n + 1, h => by
    show k0_pay5 _ _ _ (sums0 V c n _).2 (ix2 0 j) = _
    rw [pay0_5_apply, sums0_2_apply c j n (Nat.lt_of_succ_lt h), Finset.sum_range_succ _ (n + 1)]
    congr 1
    unfold tileSumSq0; rw [dif_pos h]

/-- The ten tiles' column sums add up to the column sum over the hundred thousand rows. -/
theorem total0_1 (c : Dev nD) (j : Fin 128) :
    ∑ s ∈ Finset.range 10, tileSum0 V c j s = ∑ i : Fin 100000, lin0 ((dat0 V c).A 0) ((dat0 V c).A 1) ((dat0 V c).A 2) (ix2 i j) := by
  rw [Finset.sum_range, ← Cert.Math.sum_tiles (fun i => lin0 ((dat0 V c).A 0) ((dat0 V c).A 1) ((dat0 V c).A 2) (ix2 i j))]
  refine Finset.sum_congr rfl fun s _ => ?_
  have hs : s.val < cfg0.N := by rw [show cfg0.N = 10 from N_0]; exact s.isLt
  unfold tileSum0; rw [dif_pos hs]
  refine Finset.sum_congr rfl fun r _ => ?_
  exact tile0_apply V c ⟨s.val, hs⟩ r j

/-- The column sums, as contents of a [1,128] array. -/
@[irreducible] def colSums0 (c : Dev nD) : FVec Ideal S1x128 .f32 :=
  fun y => ∑ i : Fin 100000, lin0 ((dat0 V c).A 0) ((dat0 V c).A 1) ((dat0 V c).A 2) (ix2 i (y 1))

/-- The one write-back of output 4, after the last point, writes them. -/
theorem flushed0_4_eq (c : Dev nD) (t : Fin cfg0.N) (hf : (cfg0.win 4).flush t = true) :
    (dat0 V c).flushed 4 t = ((cfg0.win 4).blk t).view.read (Elt Ideal) (colSums0 V c) := by
  have hN : cfg0.N = 10 := N_0
  have h9 : t.val = 9 := by have := (flush0_4 t).mp hf; have := t.isLt; omega
  obtain ⟨e0, e1, e2, e3, e4, e5, e6, e7, e8, e9, e10, e11⟩ := idx_facts0 t
  show (cfg0.win 4).cut (grid0.coords t) ((dat0 V c).after 4 t) = _
  rw [after0_4, outsAt0_eq]
  funext y
  rw [View.read_apply, cast_eq]
  have hy0 : (y 0).val < 1 := (y 0).isLt
  have hy1 : (y 1).val < 128 := (y 1).isLt
  have hS := sums0_1_apply V c ⟨(y 1).val, hy1⟩ t.val t.isLt
  generalize sums0 V c t.val t.isLt = S at hS ⊢
  show S.1 y = colSums0 V c (((cfg0.win 4).blk t).view.emb y)
  have hy : y = ix2 (0 : Fin 1) (⟨(y 1).val, hy1⟩ : Fin 128) := by
    funext a; apply Fin.ext
    match a with
    | ⟨0, _⟩ => show (y 0).val = 0; omega
    | ⟨1, _⟩ => rfl
  have he : ((cfg0.win 4).blk t).view.emb y = ix2 (0 : Fin 1) (⟨(y 1).val, hy1⟩ : Fin 128) := by
    funext a; apply Fin.ext
    match a with
    | ⟨0, _⟩ => show win0_4.index t (0 : Fin 2) * 1 + 1 * (y 0).val = 0; omega
    | ⟨1, _⟩ => show win0_4.index t (1 : Fin 2) * 128 + 1 * (y 1).val = (y 1).val; omega
  rw [he, congrArg S.1 hy, hS, show t.val + 1 = 10 from by omega]
  unfold colSums0
  exact total0_1 V c ⟨(y 1).val, hy1⟩

/-- The last point's block is the whole [1,128] array. -/
theorem covered0_4 (i : S1x128.Idx) :
    ∃ t : Fin cfg0.N, (cfg0.win 4).flush t = true ∧ i ∈ ((cfg0.win 4).blk t).view.set := by
  have hN : cfg0.N = 10 := N_0
  have hi0 : (i 0).val < 1 := (i 0).isLt
  have hi1 : (i 1).val < 128 := (i 1).isLt
  let t : Fin cfg0.N := ⟨9, by omega⟩
  obtain ⟨e0, e1, e2, e3, e4, e5, e6, e7, e8, e9, e10, e11⟩ := idx_facts0 t
  refine ⟨t, (flush0_4 t).mpr rfl, ?_⟩
  show i ∈ ((View.whole (Pipeline.arrRef spec0 4)).slice (win0_4.rect t)).set
  rw [View.set_slice_whole, Rect.mem_set_unit]
  intro a
  match a with
  | ⟨0, _⟩ => show win0_4.index t (0 : Fin 2) * 1 ≤ (i 0).val ∧ (i 0).val < win0_4.index t (0 : Fin 2) * 1 + 1; omega
  | ⟨1, _⟩ => show win0_4.index t (1 : Fin 2) * 128 ≤ (i 1).val ∧ (i 1).val < win0_4.index t (1 : Fin 2) * 128 + 128; omega

/-- Output 4's array after the region. -/
theorem final0_4 (c : Dev nD) : (dat0 V c).arrAt 4 cfg0.N = colSums0 V c :=
  (dat0 V c).arrAt_eq_of_cover 4 _ (flushed0_4_eq V c) covered0_4

/-- The ten tiles' column sums of squares add up to the column sum of squares over the hundred thousand rows. -/
theorem total0_2 (c : Dev nD) (j : Fin 128) :
    ∑ s ∈ Finset.range 10, tileSumSq0 V c j s = ∑ i : Fin 100000, lin0 ((dat0 V c).A 0) ((dat0 V c).A 1) ((dat0 V c).A 2) (ix2 i j) * lin0 ((dat0 V c).A 0) ((dat0 V c).A 1) ((dat0 V c).A 2) (ix2 i j) := by
  rw [Finset.sum_range, ← Cert.Math.sum_tiles (fun i => lin0 ((dat0 V c).A 0) ((dat0 V c).A 1) ((dat0 V c).A 2) (ix2 i j) * lin0 ((dat0 V c).A 0) ((dat0 V c).A 1) ((dat0 V c).A 2) (ix2 i j))]
  refine Finset.sum_congr rfl fun s _ => ?_
  have hs : s.val < cfg0.N := by rw [show cfg0.N = 10 from N_0]; exact s.isLt
  unfold tileSumSq0; rw [dif_pos hs]
  refine Finset.sum_congr rfl fun r _ => ?_
  rw [tile0_apply V c ⟨s.val, hs⟩ r j]

/-- The column sums of squares, as contents of a [1,128] array. -/
@[irreducible] def colSumSqs0 (c : Dev nD) : FVec Ideal S1x128 .f32 :=
  fun y => ∑ i : Fin 100000, lin0 ((dat0 V c).A 0) ((dat0 V c).A 1) ((dat0 V c).A 2) (ix2 i (y 1)) * lin0 ((dat0 V c).A 0) ((dat0 V c).A 1) ((dat0 V c).A 2) (ix2 i (y 1))

/-- The one write-back of output 5, after the last point, writes them. -/
theorem flushed0_5_eq (c : Dev nD) (t : Fin cfg0.N) (hf : (cfg0.win 5).flush t = true) :
    (dat0 V c).flushed 5 t = ((cfg0.win 5).blk t).view.read (Elt Ideal) (colSumSqs0 V c) := by
  have hN : cfg0.N = 10 := N_0
  have h9 : t.val = 9 := by have := (flush0_5 t).mp hf; have := t.isLt; omega
  obtain ⟨e0, e1, e2, e3, e4, e5, e6, e7, e8, e9, e10, e11⟩ := idx_facts0 t
  show (cfg0.win 5).cut (grid0.coords t) ((dat0 V c).after 5 t) = _
  rw [after0_5, outsAt0_eq]
  funext y
  rw [View.read_apply, cast_eq]
  have hy0 : (y 0).val < 1 := (y 0).isLt
  have hy1 : (y 1).val < 128 := (y 1).isLt
  have hS := sums0_2_apply V c ⟨(y 1).val, hy1⟩ t.val t.isLt
  generalize sums0 V c t.val t.isLt = S at hS ⊢
  show S.2 y = colSumSqs0 V c (((cfg0.win 5).blk t).view.emb y)
  have hy : y = ix2 (0 : Fin 1) (⟨(y 1).val, hy1⟩ : Fin 128) := by
    funext a; apply Fin.ext
    match a with
    | ⟨0, _⟩ => show (y 0).val = 0; omega
    | ⟨1, _⟩ => rfl
  have he : ((cfg0.win 5).blk t).view.emb y = ix2 (0 : Fin 1) (⟨(y 1).val, hy1⟩ : Fin 128) := by
    funext a; apply Fin.ext
    match a with
    | ⟨0, _⟩ => show win0_5.index t (0 : Fin 2) * 1 + 1 * (y 0).val = 0; omega
    | ⟨1, _⟩ => show win0_5.index t (1 : Fin 2) * 128 + 1 * (y 1).val = (y 1).val; omega
  rw [he, congrArg S.2 hy, hS, show t.val + 1 = 10 from by omega]
  unfold colSumSqs0
  exact total0_2 V c ⟨(y 1).val, hy1⟩

/-- The last point's block is the whole [1,128] array. -/
theorem covered0_5 (i : S1x128.Idx) :
    ∃ t : Fin cfg0.N, (cfg0.win 5).flush t = true ∧ i ∈ ((cfg0.win 5).blk t).view.set := by
  have hN : cfg0.N = 10 := N_0
  have hi0 : (i 0).val < 1 := (i 0).isLt
  have hi1 : (i 1).val < 128 := (i 1).isLt
  let t : Fin cfg0.N := ⟨9, by omega⟩
  obtain ⟨e0, e1, e2, e3, e4, e5, e6, e7, e8, e9, e10, e11⟩ := idx_facts0 t
  refine ⟨t, (flush0_5 t).mpr rfl, ?_⟩
  show i ∈ ((View.whole (Pipeline.arrRef spec0 5)).slice (win0_5.rect t)).set
  rw [View.set_slice_whole, Rect.mem_set_unit]
  intro a
  match a with
  | ⟨0, _⟩ => show win0_5.index t (0 : Fin 2) * 1 ≤ (i 0).val ∧ (i 0).val < win0_5.index t (0 : Fin 2) * 1 + 1; omega
  | ⟨1, _⟩ => show win0_5.index t (1 : Fin 2) * 128 ≤ (i 1).val ∧ (i 1).val < win0_5.index t (1 : Fin 2) * 128 + 128; omega

/-- Output 5's array after the region. -/
theorem final0_5 (c : Dev nD) : (dat0 V c).arrAt 5 cfg0.N = colSumSqs0 V c :=
  (dat0 V c).arrAt_eq_of_cover 5 _ (flushed0_5_eq V c) covered0_5

/-! ### The three arrays in the shared vocabulary -/

/-- Output 3 after the region, index by index: the linear layer of the entry contents. -/
theorem val0_h (c : Dev nD) (i : Fin 100000) (j : Fin 128) :
    (dat0 (F := Ideal) V c).arrAt 3 cfg0.N (ix2 i j)
      = Cert.Math.lin (Cert.Math.at2 ((dat0 (F := Ideal) V c).A 0)) (Cert.Math.at2 ((dat0 (F := Ideal) V c).A 1)) (fun j => Cert.Math.at2 ((dat0 (F := Ideal) V c).A 2) 0 j) i j := by
  rw [final0_3]; unfold lin0; rfl

/-- Output 4 after the region: the column sums of the linear layer's result. -/
theorem val0_s (c : Dev nD) (j : Fin 128) :
    (dat0 (F := Ideal) V c).arrAt 4 cfg0.N (ix2 0 j)
      = Cert.Math.colSum (Cert.Math.lin (Cert.Math.at2 ((dat0 (F := Ideal) V c).A 0)) (Cert.Math.at2 ((dat0 (F := Ideal) V c).A 1)) (fun j => Cert.Math.at2 ((dat0 (F := Ideal) V c).A 2) 0 j)) j := by
  rw [final0_4]; unfold colSums0 lin0; rfl

/-- Output 5 after the region: the column sums of its squares. -/
theorem val0_ss (c : Dev nD) (j : Fin 128) :
    (dat0 (F := Ideal) V c).arrAt 5 cfg0.N (ix2 0 j)
      = Cert.Math.colSumSq (Cert.Math.lin (Cert.Math.at2 ((dat0 (F := Ideal) V c).A 0)) (Cert.Math.at2 ((dat0 (F := Ideal) V c).A 1)) (fun j => Cert.Math.at2 ((dat0 (F := Ideal) V c).A 2) 0 j)) j := by
  rw [final0_5]; unfold colSumSqs0 lin0; rfl

end Value

end Cert.KernelIdeal.Hand

end
-- ==== Proof.KI.ValLS2.lean ====
import proofs.«413302_j72232759984513_1_alg».proof.Proof.KI.RegLS2
import proofs.«413302_j72232759984513_1_alg».proof.Proof.Math.Spec
import proofs.«413302_j72232759984513_1_alg».proof.Proof.Math.Tiles
import Idealize.ShloMosaic.Lib.ValueIdx
import Idealize.ShloMosaic.Lib.Pipeline.Value
import Idealize.ShloMosaic.Lib.ValueLayout
import Idealize.ShloMosaic.PureOps.Ideal.Laws

/-! # Kernel region 2 over the extended reals: the three output arrays, index by index

Every grid point writes back its tile of 10000 rows of `x · W + b`; the ten tiles fill the 100000 rows. The two running
sums start from zero at the first point, each point adds its tile's column sums (of the values, of their squares), and
the last point writes them back: ten tiles' sums added up are the sums over all rows. -/

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

/-! ## What each case of the body leaves, in closed form (at any float instance) -/

section Closed

variable {F : FTy → Type} [FloatOps F]

/-- The zero offsets, however spelt. -/
theorem zeroOff2 : (![0, 0] : Fin 2 → Nat) = fun _ => 0 := funext fun a => by fin_cases a <;> rfl

/-- Output 3 after the body, either case: its one covering store's payload, whose loads read the whole input buffers. -/
theorem out2_A_3_eq (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond2_0 i) (x0 : Vec F S10000x128 .f32) (x1 : Vec F S128x128 .f32) (x2 : Vec F S1x128 .f32) :
    out2_A_3 c i arg1 harg1 arg2 harg2 arg3 harg3 arg4 harg4 arg5 harg5 arg6 harg6 hc0 x0 x1 x2 = k2_pay3 x0 x1 x2 := by
  unfold out2_A_3
  rw [View.read_writes_eq_canon _ _ _ (cover2_A_3 c i arg1 harg1 arg2 harg2 arg3 harg3 arg4 harg4 arg5 harg5 arg6 harg6 hc0 x0 x1 x2)]
  unfold kernelRun2_A
  dsimp only
  rw [View.canon_unit_zero zeroOff2]
  simp only [View.readAt_eq_ld, harg1.read_unread, harg2.read_unread, harg3.read_unread, harg5.read_unread, harg6.read_unread, View.ld_unit_zero (S := S10000x128) zeroOff2, View.ld_unit_zero (S := S128x128) zeroOff2, View.ld_unit_zero (S := S1x128) zeroOff2]
theorem out2_B_3_eq (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond2_0 i) (x0 : Vec F S10000x128 .f32) (x1 : Vec F S128x128 .f32) (x2 : Vec F S1x128 .f32) (xo4 : Vec F S1x128 .f32) (xo5 : Vec F S1x128 .f32) :
    out2_B_3 c i arg1 harg1 arg2 harg2 arg3 harg3 arg4 harg4 arg5 harg5 arg6 harg6 hc0 x0 x1 x2 xo4 xo5 = k2_pay3 x0 x1 x2 := by
  unfold out2_B_3
  rw [View.read_writes_eq_canon _ _ _ (cover2_B_3 c i arg1 harg1 arg2 harg2 arg3 harg3 arg4 harg4 arg5 harg5 arg6 harg6 hc0 x0 x1 x2 xo4 xo5)]
  unfold kernelRun2_B
  dsimp only
  rw [View.canon_unit_zero zeroOff2]
  simp only [View.readAt_eq_ld, harg1.read_unread, harg2.read_unread, harg3.read_unread, harg5.read_unread, harg6.read_unread, View.ld_unit_zero (S := S10000x128) zeroOff2, View.ld_unit_zero (S := S128x128) zeroOff2, View.ld_unit_zero (S := S1x128) zeroOff2]

/-- A running sum after the body where the condition fails: the adding store's payload over what the buffer held. -/
theorem out2_B_4_eq (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond2_0 i) (x0 : Vec F S10000x128 .f32) (x1 : Vec F S128x128 .f32) (x2 : Vec F S1x128 .f32) (xo4 : Vec F S1x128 .f32) (xo5 : Vec F S1x128 .f32) :
    out2_B_4 c i arg1 harg1 arg2 harg2 arg3 harg3 arg4 harg4 arg5 harg5 arg6 harg6 hc0 x0 x1 x2 xo4 xo5 = k2_pay4 x0 x1 x2 xo4 := by
  unfold out2_B_4
  rw [View.read_writes_eq_canon _ _ _ (cover2_B_4 c i arg1 harg1 arg2 harg2 arg3 harg3 arg4 harg4 arg5 harg5 arg6 harg6 hc0 x0 x1 x2 xo4 xo5)]
  unfold kernelRun2_B
  dsimp only
  rw [View.canon_unit_zero zeroOff2]
  simp only [View.readAt_eq_ld, harg1.read_unread, harg2.read_unread, harg3.read_unread, harg5.read_unread, harg6.read_unread, View.ld_unit_zero (S := S10000x128) zeroOff2, View.ld_unit_zero (S := S128x128) zeroOff2, View.ld_unit_zero (S := S1x128) zeroOff2]
theorem out2_B_5_eq (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond2_0 i) (x0 : Vec F S10000x128 .f32) (x1 : Vec F S128x128 .f32) (x2 : Vec F S1x128 .f32) (xo4 : Vec F S1x128 .f32) (xo5 : Vec F S1x128 .f32) :
    out2_B_5 c i arg1 harg1 arg2 harg2 arg3 harg3 arg4 harg4 arg5 harg5 arg6 harg6 hc0 x0 x1 x2 xo4 xo5 = k2_pay5 x0 x1 x2 xo5 := by
  unfold out2_B_5
  rw [View.read_writes_eq_canon _ _ _ (cover2_B_5 c i arg1 harg1 arg2 harg2 arg3 harg3 arg4 harg4 arg5 harg5 arg6 harg6 hc0 x0 x1 x2 xo4 xo5)]
  unfold kernelRun2_B
  dsimp only
  rw [View.canon_unit_zero zeroOff2]
  simp only [View.readAt_eq_ld, harg1.read_unread, harg2.read_unread, harg3.read_unread, harg5.read_unread, harg6.read_unread, View.ld_unit_zero (S := S10000x128) zeroOff2, View.ld_unit_zero (S := S128x128) zeroOff2, View.ld_unit_zero (S := S1x128) zeroOff2]

/-- A running sum after the body where the condition holds: the reset's zeros are stored, read back, and added to. -/
theorem out2_A_4_eq (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond2_0 i) (x0 : Vec F S10000x128 .f32) (x1 : Vec F S128x128 .f32) (x2 : Vec F S1x128 .f32) :
    out2_A_4 c i arg1 harg1 arg2 harg2 arg3 harg3 arg4 harg4 arg5 harg5 arg6 harg6 hc0 x0 x1 x2 = k2_pay4 x0 x1 x2 k2_pay1 := by
  unfold out2_A_4
  rw [View.read_writes_eq_canon _ _ _ (cover2_A_4 c i arg1 harg1 arg2 harg2 arg3 harg3 arg4 harg4 arg5 harg5 arg6 harg6 hc0 x0 x1 x2)]
  unfold kernelRun2_A
  dsimp only
  sl_unfold_words
  rw [View.canon_cons_unit_zero (S := S1x128) zeroOff2, View.readCov_unit_zero (S := S1x128) _ zeroOff2]
  simp only [View.readAt_eq_ld, harg1.read_unread, harg2.read_unread, harg3.read_unread, harg5.read_unread, harg6.read_unread, View.ld_unit_zero (S := S10000x128) zeroOff2, View.ld_unit_zero (S := S128x128) zeroOff2, View.ld_unit_zero (S := S1x128) zeroOff2]
theorem out2_A_5_eq (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond2_0 i) (x0 : Vec F S10000x128 .f32) (x1 : Vec F S128x128 .f32) (x2 : Vec F S1x128 .f32) :
    out2_A_5 c i arg1 harg1 arg2 harg2 arg3 harg3 arg4 harg4 arg5 harg5 arg6 harg6 hc0 x0 x1 x2 = k2_pay5 x0 x1 x2 k2_pay2 := by
  unfold out2_A_5
  rw [View.read_writes_eq_canon _ _ _ (cover2_A_5 c i arg1 harg1 arg2 harg2 arg3 harg3 arg4 harg4 arg5 harg5 arg6 harg6 hc0 x0 x1 x2)]
  unfold kernelRun2_A
  dsimp only
  sl_unfold_words
  rw [View.canon_cons_unit_zero (S := S1x128) zeroOff2, View.readCov_unit_zero (S := S1x128) _ zeroOff2]
  simp only [View.readAt_eq_ld, harg1.read_unread, harg2.read_unread, harg3.read_unread, harg5.read_unread, harg6.read_unread, View.ld_unit_zero (S := S10000x128) zeroOff2, View.ld_unit_zero (S := S128x128) zeroOff2, View.ld_unit_zero (S := S1x128) zeroOff2]

variable (V : (c : Dev nD) → (b : Ref sig .tc) → Buf (Elt F) ((c : Thread nD τ).loc b))

/-- The two running sums after point `n`: from the reset's zeros at the first point, each point adding its tile's. -/
def sums2 (c : Dev nD) : (n : ℕ) → n < cfg2.N → Vec F S1x128 .f32 × Vec F S1x128 .f32
  | 0, h => (k2_pay4 (iblk2 V c 0 ⟨0, h⟩) (iblk2 V c 1 ⟨0, h⟩) (iblk2 V c 2 ⟨0, h⟩) k2_pay1,
             k2_pay5 (iblk2 V c 0 ⟨0, h⟩) (iblk2 V c 1 ⟨0, h⟩) (iblk2 V c 2 ⟨0, h⟩) k2_pay2)
  | n + 1, h => (k2_pay4 (iblk2 V c 0 ⟨n + 1, h⟩) (iblk2 V c 1 ⟨n + 1, h⟩) (iblk2 V c 2 ⟨n + 1, h⟩) (sums2 c n (Nat.lt_of_succ_lt h)).1,
                 k2_pay5 (iblk2 V c 0 ⟨n + 1, h⟩) (iblk2 V c 1 ⟨n + 1, h⟩) (iblk2 V c 2 ⟨n + 1, h⟩) (sums2 c n (Nat.lt_of_succ_lt h)).2)

/-- What the outputs' staging buffers hold after point `n`: the point's tile of `x · W + b` and the two running sums,
    by induction on the point. -/
theorem outsAt2_eq (c : Dev nD) : ∀ (n : ℕ) (h : n < cfg2.N), outsAt2 V c n h
    = (k2_pay3 (iblk2 V c 0 ⟨n, h⟩) (iblk2 V c 1 ⟨n, h⟩) (iblk2 V c 2 ⟨n, h⟩), (sums2 V c n h).1, (sums2 V c n h).2)
  | 0, h => by
    rw [outsAt2_A V c ⟨0, h⟩ rfl, out2_A_3_eq, out2_A_4_eq, out2_A_5_eq]; rfl
  | n + 1, h => by
    have hN : cfg2.N = 10 := N_2
    have hB : ¬(⟨n + 1, h⟩ : Fin cfg2.N).val % 10 = 0 := by dsimp only; omega
    rw [outsAt2_B V c ⟨n + 1, h⟩ hB, out2_B_3_eq, out2_B_4_eq, out2_B_5_eq]
    have ih := outsAt2_eq c n (Nat.lt_of_succ_lt h)
    show (_, k2_pay4 _ _ _ (outsAt2 V c n _).2.1, k2_pay5 _ _ _ (outsAt2 V c n _).2.2) = _
    rw [ih]; rfl

end Closed

/-! ## The payloads over the extended reals, index by index -/

/-- The product's operand indices: the left operand is read at (row of the result, contracted coordinate), -/
theorem lhsDot2_0 (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhsDot2_1 (i : S10000x128.Idx) (q : dot_S10000x128_S128x128_S10000x128_1_0_0_1_n_n.contr.Idx) : (dot_S10000x128_S128x128_S10000x128_1_0_0_1_n_n.lhsIdx i q 1).val = (q ⟨0, by decide⟩).val :=
  dot_S10000x128_S128x128_S10000x128_1_0_0_1_n_n.lhsIdx_val_of_single rfl i q
/-- the right operand at (contracted coordinate, column of the result). -/
theorem rhsDot2_0 (i : S10000x128.Idx) (q : dot_S10000x128_S128x128_S10000x128_1_0_0_1_n_n.contr.Idx) : (dot_S10000x128_S128x128_S10000x128_1_0_0_1_n_n.rhsIdx i q 0).val = (q ⟨0, by decide⟩).val :=
  dot_S10000x128_S128x128_S10000x128_1_0_0_1_n_n.rhsIdx_val_of_single rfl i q
theorem rhsDot2_1 (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The tile's product at (r, j): the sum over the contracted coordinate. -/
theorem matmul2_apply (x : FVec Ideal S10000x128 .f32) (w : FVec Ideal S128x128 .f32) (r : Fin 10000) (j : Fin 128) :
    matmul dot_S10000x128_S128x128_S10000x128_1_0_0_1_n_n none x w (constant S10000x128 .f32 0x00000000#32) (ix2 r j) = ∑ l : Fin 128, x (ix2 r l) * w (ix2 l j) := by
  simp only [matmul]
  rw [Ideal.matmul_constant_zero_apply, ← Equiv.sum_comp (contrEquiv1 dot_S10000x128_S128x128_S10000x128_1_0_0_1_n_n 128 rfl rfl).symm]
  refine Finset.sum_congr rfl fun l _ => ?_
  have hk := contrEquiv1_symm_val dot_S10000x128_S128x128_S10000x128_1_0_0_1_n_n 128 rfl rfl l
  have el : dot_S10000x128_S128x128_S10000x128_1_0_0_1_n_n.lhsIdx (ix2 r j) ((contrEquiv1 dot_S10000x128_S128x128_S10000x128_1_0_0_1_n_n 128 rfl rfl).symm l) = ix2 r l := funext fun a => Fin.ext (by
    match a with
    | ⟨0, _⟩ => exact lhsDot2_0 _ _
    | ⟨1, _⟩ => exact (lhsDot2_1 _ _).trans hk)
  have er : dot_S10000x128_S128x128_S10000x128_1_0_0_1_n_n.rhsIdx (ix2 r j) ((contrEquiv1 dot_S10000x128_S128x128_S10000x128_1_0_0_1_n_n 128 rfl rfl).symm l) = ix2 l j := funext fun a => Fin.ext (by
    match a with
    | ⟨0, _⟩ => exact (rhsDot2_0 _ _).trans hk
    | ⟨1, _⟩ => exact rhsDot2_1 _ _)
  rw [el, er]

/-- The tile of `x · W + b` at (r, j). -/
theorem pay2_3_apply (x0 : Vec Ideal S10000x128 .f32) (x1 : Vec Ideal S128x128 .f32) (x2 : Vec Ideal S1x128 .f32) (r : Fin 10000) (j : Fin 128) :
    k2_pay3 x0 x1 x2 (ix2 r j) = (∑ l : Fin 128, x0 (ix2 r l) * x1 (ix2 l j)) + x2 (ix2 0 j) := by
  unfold k2_pay3
  simp only [shapeCast_self, addf_apply, matmul2_apply, broadcastTo_1b_ab_apply]

/-- Summing a tile over its rows, read at column `j`: the inserted coordinate is the row. -/
theorem lift2 (j : Fin 128) (r : Fin 10000) : reduces_S10000x128_S128.lift (ix1 j) r = ix2 r j :=
  funext fun a => Fin.ext (by
    match a with
    | ⟨0, _⟩ => rfl
    | ⟨1, _⟩ => rfl)

/-- The running column sum after a point: what it held, plus the tile's column sum. -/
theorem pay2_4_apply (x0 : Vec Ideal S10000x128 .f32) (x1 : Vec Ideal S128x128 .f32) (x2 : Vec Ideal S1x128 .f32) (xo : Vec Ideal S1x128 .f32) (j : Fin 128) :
    k2_pay4 x0 x1 x2 xo (ix2 0 j) = xo (ix2 0 j) + ∑ r : Fin 10000, k2_pay3 x0 x1 x2 (ix2 r j) := by
  unfold k2_pay4
  simp only [shapeCast_self, addf_apply, shapeCast_a_1a_apply]
  refine congrArg (xo (ix2 0 j) + ·) ?_
  refine (Ideal.multiReduction_add_single (k2_pay3 x0 x1 x2) _ reduces_S10000x128_S128 _ _ (ix1 j)).trans ?_
  exact Finset.sum_congr rfl fun r _ => congrArg (k2_pay3 x0 x1 x2) (lift2 j r)

/-- The running column sum of squares likewise. -/
theorem pay2_5_apply (x0 : Vec Ideal S10000x128 .f32) (x1 : Vec Ideal S128x128 .f32) (x2 : Vec Ideal S1x128 .f32) (xo : Vec Ideal S1x128 .f32) (j : Fin 128) :
    k2_pay5 x0 x1 x2 xo (ix2 0 j) = xo (ix2 0 j) + ∑ r : Fin 10000, k2_pay3 x0 x1 x2 (ix2 r j) * k2_pay3 x0 x1 x2 (ix2 r j) := by
  unfold k2_pay5
  simp only [shapeCast_self, addf_apply, shapeCast_a_1a_apply]
  refine congrArg (xo (ix2 0 j) + ·) ?_
  refine (Ideal.multiReduction_add_single (mulf (k2_pay3 x0 x1 x2) (k2_pay3 x0 x1 x2)) _ reduces_S10000x128_S128 _ _ (ix1 j)).trans ?_
  exact Finset.sum_congr rfl fun r _ => congrArg (fun y => k2_pay3 x0 x1 x2 y * k2_pay3 x0 x1 x2 y) (lift2 j r)

/-- The reset stores zeros. -/
theorem pay2_1_apply (y : S1x128.Idx) : k2_pay1 (F := Ideal) y = 0 := by
  unfold k2_pay1
  simp only [broadcast_apply, Scalar.ofBits, Ideal.ofBits_def, Ideal.ofBits_zero_f32]
theorem pay2_2_apply (y : S1x128.Idx) : k2_pay2 (F := Ideal) y = 0 := by
  unfold k2_pay2
  simp only [broadcast_apply, Scalar.ofBits, Ideal.ofBits_def, Ideal.ofBits_zero_f32]

/-! ## The region's three output arrays over the extended reals -/

section Value

variable (V : (c : Dev nD) → (b : Ref sig .tc) → Buf (Elt Ideal) ((c : Thread nD τ).loc b))

/-- `x · W + b` of three arrays, index by index: the bias row is read at the index's lane. -/
@[irreducible] def lin2 (x : FVec Ideal S100000x128 .f32) (w : FVec Ideal S128x128 .f32) (b : FVec Ideal S1x128 .f32) : FVec Ideal S100000x128 .f32 :=
  fun i => (∑ l : Fin 128, x (ix2 (i 0) l) * w (ix2 l (i 1))) + b (ix2 0 (i 1))

/-- The printed index maps, decided over the ten points: the tiles of `x` and of the result move with the point, the
    weights, the bias row and the two sums stay at block 0. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- Row `r` of tile `t` is row `t · 10000 + r` of the array. -/
theorem row_lt2 (t : Fin cfg2.N) (r : Fin 10000) : t.val * 10000 + r.val < 100000 := by
  have hN : cfg2.N = 10 := N_2
  have := t.isLt; have := r.isLt; omega

/-- The tile point `t` computes, at (r, j): `x · W + b` of the arrays as the region finds them, at row `t · 10000 + r`. -/
theorem tile2_apply (c : Dev nD) (t : Fin cfg2.N) (r : Fin 10000) (j : Fin 128) :
    k2_pay3 (iblk2 V c 0 t) (iblk2 V c 1 t) (iblk2 V c 2 t) (ix2 r j)
      = lin2 ((dat2 V c).A 0) ((dat2 V c).A 1) ((dat2 V c).A 2) (ix2 ⟨t.val * 10000 + r.val, row_lt2 t r⟩ j) := by
  rw [pay2_3_apply, A_eq2, A_eq2, A_eq2]
  unfold lin2
  obtain ⟨e0, e1, e2, e3, e4, e5, e6, e7, e8, e9, e10, e11⟩ := idx_facts2 t
  have h0 : ∀ l : Fin 128, ((cfg2.win 0).blk t).view.emb (ix2 r l) = ix2 (⟨t.val * 10000 + r.val, row_lt2 t r⟩ : Fin 100000) l := fun l => by
    funext a; apply Fin.ext
    match a with
    | ⟨0, _⟩ => show win2_0.index t (0 : Fin 2) * 10000 + 1 * r.val = t.val * 10000 + r.val; omega
    | ⟨1, _⟩ => show win2_0.index t (1 : Fin 2) * 128 + 1 * l.val = l.val; omega
  have h1 : ∀ l : Fin 128, ((cfg2.win 1).blk t).view.emb (ix2 l j) = ix2 l j := fun l => by
    funext a; apply Fin.ext
    match a with
    | ⟨0, _⟩ => show win2_1.index t (0 : Fin 2) * 128 + 1 * l.val = l.val; omega
    | ⟨1, _⟩ => show win2_1.index t (1 : Fin 2) * 128 + 1 * j.val = j.val; omega
  have h2 : ((cfg2.win 2).blk t).view.emb (ix2 0 j) = ix2 0 j := by
    funext a; apply Fin.ext
    match a with
    | ⟨0, _⟩ => show win2_2.index t (0 : Fin 2) * 1 + 1 * 0 = 0; omega
    | ⟨1, _⟩ => show win2_2.index t (1 : Fin 2) * 128 + 1 * j.val = j.val; omega
  have b0 : ∀ l : Fin 128, iblk2 V c 0 t (ix2 r l) = V c (Pipeline.arrRef spec2 0) (ix2 (⟨t.val * 10000 + r.val, row_lt2 t r⟩ : Fin 100000) l) :=
    fun l => congrArg (V c (Pipeline.arrRef spec2 0)) (h0 l)
  have b1 : ∀ l : Fin 128, iblk2 V c 1 t (ix2 l j) = V c (Pipeline.arrRef spec2 1) (ix2 l j) :=
    fun l => congrArg (V c (Pipeline.arrRef spec2 1)) (h1 l)
  have b2 : iblk2 V c 2 t (ix2 0 j) = V c (Pipeline.arrRef spec2 2) (ix2 0 j) :=
    congrArg (V c (Pipeline.arrRef spec2 2)) h2
  simp only [b0, b1, b2] <;> rfl

/-! ### Output 3: the ten tiles fill the array -/

/-- What point `t` writes back to output 3 is block `t` of `x · W + b` of the arrays as the region finds them. -/
theorem flushed2_3_eq (c : Dev nD) (t : Fin cfg2.N) :
    (dat2 V c).flushed 3 t = ((cfg2.win 3).blk t).view.read (Elt Ideal)
      (lin2 ((dat2 V c).A 0) ((dat2 V c).A 1) ((dat2 V c).A 2)) := by
  show (cfg2.win 3).cut (grid2.coords t) ((dat2 V c).after 3 t) = _
  rw [after2_3, outsAt2_eq]
  obtain ⟨e0, e1, e2, e3, e4, e5, e6, e7, e8, e9, e10, e11⟩ := idx_facts2 t
  funext y
  rw [View.read_apply, cast_eq]
  have hy0 : (y 0).val < 10000 := (y 0).isLt
  have hy1 : (y 1).val < 128 := (y 1).isLt
  show k2_pay3 (iblk2 V c 0 t) (iblk2 V c 1 t) (iblk2 V c 2 t) y
    = lin2 ((dat2 V c).A 0) ((dat2 V c).A 1) ((dat2 V c).A 2) (((cfg2.win 3).blk t).view.emb y)
  have hy : y = ix2 (⟨(y 0).val, hy0⟩ : Fin 10000) (⟨(y 1).val, hy1⟩ : Fin 128) := eq_ix2 y
  have he : ((cfg2.win 3).blk t).view.emb y
      = ix2 (⟨t.val * 10000 + (y 0).val, row_lt2 t ⟨(y 0).val, hy0⟩⟩ : Fin 100000) (⟨(y 1).val, hy1⟩ : Fin 128) := by
    funext a; apply Fin.ext
    match a with
    | ⟨0, _⟩ => show win2_3.index t (0 : Fin 2) * 10000 + 1 * (y 0).val = t.val * 10000 + (y 0).val; omega
    | ⟨1, _⟩ => show win2_3.index t (1 : Fin 2) * 128 + 1 * (y 1).val = (y 1).val; omega
  rw [he]
  have h := tile2_apply V c t ⟨(y 0).val, hy0⟩ ⟨(y 1).val, hy1⟩
  rw [← hy] at h
  exact h

/-- An index of output 3's array is in point `t`'s block iff each coordinate is in the block's range on its axis. -/
theorem mem_blk2_3 (t : Fin cfg2.N) (i : S100000x128.Idx) :
    i ∈ ((cfg2.win 3).blk t).view.set ↔ ∀ a : Fin 2, win2_3.index t a * S10000x128.size a ≤ (i a).val ∧ (i a).val < win2_3.index t a * S10000x128.size a + S10000x128.size a := by
  show i ∈ ((View.whole (Pipeline.arrRef spec2 3)).slice (win2_3.rect t)).set ↔ _
  rw [View.set_slice_whole, Rect.mem_set_unit]
  exact Iff.rfl

/-- The ten tiles fill the array: row `r` is in the block of point `r / 10000`. -/
theorem covered2_3 (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 10 := N_2
  let t : Fin cfg2.N := ⟨(i 0).val / 10000, by omega⟩
  obtain ⟨e0, e1, e2, e3, e4, e5, e6, e7, e8, e9, e10, e11⟩ := idx_facts2 t
  have ht : t.val = (i 0).val / 10000 := rfl
  refine ⟨t, flush2_3 t, ?_⟩
  rw [mem_blk2_3]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 128 ≤ (i 1).val ∧ (i 1).val < win2_3.index t (1 : Fin 2) * 128 + 128; omega

/-- Output 3's array after the region: `x · W + b` of the entry contents, everywhere. -/
theorem final2_3 (c : Dev nD) : (dat2 V c).arrAt 3 cfg2.N
    = lin2 ((dat2 V c).A 0) ((dat2 V c).A 1) ((dat2 V c).A 2) :=
  (dat2 V c).arrAt_eq_of_cover 3 _ (fun t _ => flushed2_3_eq V c t) covered2_3

/-! ### Outputs 4 and 5: the running sums after the last point are the column sums -/

/-- The column sum of tile `s` (zero past the grid). -/
def tileSum2 (c : Dev nD) (j : Fin 128) (s : ℕ) : EReal :=
  if hs : s < cfg2.N then ∑ r : Fin 10000, k2_pay3 (iblk2 V c 0 ⟨s, hs⟩) (iblk2 V c 1 ⟨s, hs⟩) (iblk2 V c 2 ⟨s, hs⟩) (ix2 r j) else 0
/-- The column sum of squares of tile `s` (zero past the grid). -/
def tileSumSq2 (c : Dev nD) (j : Fin 128) (s : ℕ) : EReal :=
  if hs : s < cfg2.N then ∑ r : Fin 10000, k2_pay3 (iblk2 V c 0 ⟨s, hs⟩) (iblk2 V c 1 ⟨s, hs⟩) (iblk2 V c 2 ⟨s, hs⟩) (ix2 r j)
    * k2_pay3 (iblk2 V c 0 ⟨s, hs⟩) (iblk2 V c 1 ⟨s, hs⟩) (iblk2 V c 2 ⟨s, hs⟩) (ix2 r j) else 0

/-- After point `n` the first running sum holds, at lane `j`, the column sums of tiles `0 … n` added up. -/
theorem sums2_1_apply (c : Dev nD) (j : Fin 128) : ∀ (n : ℕ) (h : n < cfg2.N),
    (sums2 V c n h).1 (ix2 0 j) = ∑ s ∈ Finset.range (n + 1), tileSum2 V c j s
  | 0, h => by
    show k2_pay4 _ _ _ k2_pay1 (ix2 0 j) = _
    rw [pay2_4_apply, pay2_1_apply, zero_add, Finset.sum_range_one]
    unfold tileSum2; rw [dif_pos h]
  | n + 1, h => by
    show k2_pay4 _ _ _ (sums2 V c n _).1 (ix2 0 j) = _
    rw [pay2_4_apply, sums2_1_apply c j n (Nat.lt_of_succ_lt h), Finset.sum_range_succ _ (n + 1)]
    congr 1
    unfold tileSum2; rw [dif_pos h]
/-- The second likewise, with the squares. -/
theorem sums2_2_apply (c : Dev nD) (j : Fin 128) : ∀ (n : ℕ) (h : n < cfg2.N),
    (sums2 V c n h).2 (ix2 0 j) = ∑ s ∈ Finset.range (n + 1), tileSumSq2 V c j s
  | 0, h => by
    show k2_pay5 _ _ _ k2_pay2 (ix2 0 j) = _
    rw [pay2_5_apply, pay2_2_apply, zero_add, Finset.sum_range_one]
    unfold tileSumSq2; rw [dif_pos h]
  | n + 1, h => by
    show k2_pay5 _ _ _ (sums2 V c n _).2 (ix2 0 j) = _
    rw [pay2_5_apply, sums2_2_apply c j n (Nat.lt_of_succ_lt h), Finset.sum_range_succ _ (n + 1)]
    congr 1
    unfold tileSumSq2; rw [dif_pos h]

/-- The ten tiles' column sums add up to the column sum over the hundred thousand rows. -/
theorem total2_1 (c : Dev nD) (j : Fin 128) :
    ∑ s ∈ Finset.range 10, tileSum2 V c j s = ∑ i : Fin 100000, lin2 ((dat2 V c).A 0) ((dat2 V c).A 1) ((dat2 V c).A 2) (ix2 i j) := by
  rw [Finset.sum_range, ← Cert.Math.sum_tiles (fun i => lin2 ((dat2 V c).A 0) ((dat2 V c).A 1) ((dat2 V c).A 2) (ix2 i j))]
  refine Finset.sum_congr rfl fun s _ => ?_
  have hs : s.val < cfg2.N := by rw [show cfg2.N = 10 from N_2]; exact s.isLt
  unfold tileSum2; rw [dif_pos hs]
  refine Finset.sum_congr rfl fun r _ => ?_
  exact tile2_apply V c ⟨s.val, hs⟩ r j

/-- The column sums, as contents of a [1,128] array. -/
@[irreducible] def colSums2 (c : Dev nD) : FVec Ideal S1x128 .f32 :=
  fun y => ∑ i : Fin 100000, lin2 ((dat2 V c).A 0) ((dat2 V c).A 1) ((dat2 V c).A 2) (ix2 i (y 1))

/-- The one write-back of output 4, after the last point, writes them. -/
theorem flushed2_4_eq (c : Dev nD) (t : Fin cfg2.N) (hf : (cfg2.win 4).flush t = true) :
    (dat2 V c).flushed 4 t = ((cfg2.win 4).blk t).view.read (Elt Ideal) (colSums2 V c) := by
  have hN : cfg2.N = 10 := N_2
  have h9 : t.val = 9 := by have := (flush2_4 t).mp hf; have := t.isLt; omega
  obtain ⟨e0, e1, e2, e3, e4, e5, e6, e7, e8, e9, e10, e11⟩ := idx_facts2 t
  show (cfg2.win 4).cut (grid2.coords t) ((dat2 V c).after 4 t) = _
  rw [after2_4, outsAt2_eq]
  funext y
  rw [View.read_apply, cast_eq]
  have hy0 : (y 0).val < 1 := (y 0).isLt
  have hy1 : (y 1).val < 128 := (y 1).isLt
  have hS := sums2_1_apply V c ⟨(y 1).val, hy1⟩ t.val t.isLt
  generalize sums2 V c t.val t.isLt = S at hS ⊢
  show S.1 y = colSums2 V c (((cfg2.win 4).blk t).view.emb y)
  have hy : y = ix2 (0 : Fin 1) (⟨(y 1).val, hy1⟩ : Fin 128) := by
    funext a; apply Fin.ext
    match a with
    | ⟨0, _⟩ => show (y 0).val = 0; omega
    | ⟨1, _⟩ => rfl
  have he : ((cfg2.win 4).blk t).view.emb y = ix2 (0 : Fin 1) (⟨(y 1).val, hy1⟩ : Fin 128) := by
    funext a; apply Fin.ext
    match a with
    | ⟨0, _⟩ => show win2_4.index t (0 : Fin 2) * 1 + 1 * (y 0).val = 0; omega
    | ⟨1, _⟩ => show win2_4.index t (1 : Fin 2) * 128 + 1 * (y 1).val = (y 1).val; omega
  rw [he, congrArg S.1 hy, hS, show t.val + 1 = 10 from by omega]
  unfold colSums2
  exact total2_1 V c ⟨(y 1).val, hy1⟩

/-- The last point's block is the whole [1,128] array. -/
theorem covered2_4 (i : S1x128.Idx) :
    ∃ t : Fin cfg2.N, (cfg2.win 4).flush t = true ∧ i ∈ ((cfg2.win 4).blk t).view.set := by
  have hN : cfg2.N = 10 := N_2
  have hi0 : (i 0).val < 1 := (i 0).isLt
  have hi1 : (i 1).val < 128 := (i 1).isLt
  let t : Fin cfg2.N := ⟨9, by omega⟩
  obtain ⟨e0, e1, e2, e3, e4, e5, e6, e7, e8, e9, e10, e11⟩ := idx_facts2 t
  refine ⟨t, (flush2_4 t).mpr rfl, ?_⟩
  show i ∈ ((View.whole (Pipeline.arrRef spec2 4)).slice (win2_4.rect t)).set
  rw [View.set_slice_whole, Rect.mem_set_unit]
  intro a
  match a with
  | ⟨0, _⟩ => show win2_4.index t (0 : Fin 2) * 1 ≤ (i 0).val ∧ (i 0).val < win2_4.index t (0 : Fin 2) * 1 + 1; omega
  | ⟨1, _⟩ => show win2_4.index t (1 : Fin 2) * 128 ≤ (i 1).val ∧ (i 1).val < win2_4.index t (1 : Fin 2) * 128 + 128; omega

/-- Output 4's array after the region. -/
theorem final2_4 (c : Dev nD) : (dat2 V c).arrAt 4 cfg2.N = colSums2 V c :=
  (dat2 V c).arrAt_eq_of_cover 4 _ (flushed2_4_eq V c) covered2_4

/-- The ten tiles' column sums of squares add up to the column sum of squares over the hundred thousand rows. -/
theorem total2_2 (c : Dev nD) (j : Fin 128) :
    ∑ s ∈ Finset.range 10, tileSumSq2 V c j s = ∑ i : Fin 100000, lin2 ((dat2 V c).A 0) ((dat2 V c).A 1) ((dat2 V c).A 2) (ix2 i j) * lin2 ((dat2 V c).A 0) ((dat2 V c).A 1) ((dat2 V c).A 2) (ix2 i j) := by
  rw [Finset.sum_range, ← Cert.Math.sum_tiles (fun i => lin2 ((dat2 V c).A 0) ((dat2 V c).A 1) ((dat2 V c).A 2) (ix2 i j) * lin2 ((dat2 V c).A 0) ((dat2 V c).A 1) ((dat2 V c).A 2) (ix2 i j))]
  refine Finset.sum_congr rfl fun s _ => ?_
  have hs : s.val < cfg2.N := by rw [show cfg2.N = 10 from N_2]; exact s.isLt
  unfold tileSumSq2; rw [dif_pos hs]
  refine Finset.sum_congr rfl fun r _ => ?_
  rw [tile2_apply V c ⟨s.val, hs⟩ r j]

/-- The column sums of squares, as contents of a [1,128] array. -/
@[irreducible] def colSumSqs2 (c : Dev nD) : FVec Ideal S1x128 .f32 :=
  fun y => ∑ i : Fin 100000, lin2 ((dat2 V c).A 0) ((dat2 V c).A 1) ((dat2 V c).A 2) (ix2 i (y 1)) * lin2 ((dat2 V c).A 0) ((dat2 V c).A 1) ((dat2 V c).A 2) (ix2 i (y 1))

/-- The one write-back of output 5, after the last point, writes them. -/
theorem flushed2_5_eq (c : Dev nD) (t : Fin cfg2.N) (hf : (cfg2.win 5).flush t = true) :
    (dat2 V c).flushed 5 t = ((cfg2.win 5).blk t).view.read (Elt Ideal) (colSumSqs2 V c) := by
  have hN : cfg2.N = 10 := N_2
  have h9 : t.val = 9 := by have := (flush2_5 t).mp hf; have := t.isLt; omega
  obtain ⟨e0, e1, e2, e3, e4, e5, e6, e7, e8, e9, e10, e11⟩ := idx_facts2 t
  show (cfg2.win 5).cut (grid2.coords t) ((dat2 V c).after 5 t) = _
  rw [after2_5, outsAt2_eq]
  funext y
  rw [View.read_apply, cast_eq]
  have hy0 : (y 0).val < 1 := (y 0).isLt
  have hy1 : (y 1).val < 128 := (y 1).isLt
  have hS := sums2_2_apply V c ⟨(y 1).val, hy1⟩ t.val t.isLt
  generalize sums2 V c t.val t.isLt = S at hS ⊢
  show S.2 y = colSumSqs2 V c (((cfg2.win 5).blk t).view.emb y)
  have hy : y = ix2 (0 : Fin 1) (⟨(y 1).val, hy1⟩ : Fin 128) := by
    funext a; apply Fin.ext
    match a with
    | ⟨0, _⟩ => show (y 0).val = 0; omega
    | ⟨1, _⟩ => rfl
  have he : ((cfg2.win 5).blk t).view.emb y = ix2 (0 : Fin 1) (⟨(y 1).val, hy1⟩ : Fin 128) := by
    funext a; apply Fin.ext
    match a with
    | ⟨0, _⟩ => show win2_5.index t (0 : Fin 2) * 1 + 1 * (y 0).val = 0; omega
    | ⟨1, _⟩ => show win2_5.index t (1 : Fin 2) * 128 + 1 * (y 1).val = (y 1).val; omega
  rw [he, congrArg S.2 hy, hS, show t.val + 1 = 10 from by omega]
  unfold colSumSqs2
  exact total2_2 V c ⟨(y 1).val, hy1⟩

/-- The last point's block is the whole [1,128] array. -/
theorem covered2_5 (i : S1x128.Idx) :
    ∃ t : Fin cfg2.N, (cfg2.win 5).flush t = true ∧ i ∈ ((cfg2.win 5).blk t).view.set := by
  have hN : cfg2.N = 10 := N_2
  have hi0 : (i 0).val < 1 := (i 0).isLt
  have hi1 : (i 1).val < 128 := (i 1).isLt
  let t : Fin cfg2.N := ⟨9, by omega⟩
  obtain ⟨e0, e1, e2, e3, e4, e5, e6, e7, e8, e9, e10, e11⟩ := idx_facts2 t
  refine ⟨t, (flush2_5 t).mpr rfl, ?_⟩
  show i ∈ ((View.whole (Pipeline.arrRef spec2 5)).slice (win2_5.rect t)).set
  rw [View.set_slice_whole, Rect.mem_set_unit]
  intro a
  match a with
  | ⟨0, _⟩ => show win2_5.index t (0 : Fin 2) * 1 ≤ (i 0).val ∧ (i 0).val < win2_5.index t (0 : Fin 2) * 1 + 1; omega
  | ⟨1, _⟩ => show win2_5.index t (1 : Fin 2) * 128 ≤ (i 1).val ∧ (i 1).val < win2_5.index t (1 : Fin 2) * 128 + 128; omega

/-- Output 5's array after the region. -/
theorem final2_5 (c : Dev nD) : (dat2 V c).arrAt 5 cfg2.N = colSumSqs2 V c :=
  (dat2 V c).arrAt_eq_of_cover 5 _ (flushed2_5_eq V c) covered2_5

/-! ### The three arrays in the shared vocabulary -/

/-- Output 3 after the region, index by index: the linear layer of the entry contents. -/
theorem val2_h (c : Dev nD) (i : Fin 100000) (j : Fin 128) :
    (dat2 (F := Ideal) V c).arrAt 3 cfg2.N (ix2 i j)
      = Cert.Math.lin (Cert.Math.at2 ((dat2 (F := Ideal) V c).A 0)) (Cert.Math.at2 ((dat2 (F := Ideal) V c).A 1)) (fun j => Cert.Math.at2 ((dat2 (F := Ideal) V c).A 2) 0 j) i j := by
  rw [final2_3]; unfold lin2; rfl

/-- Output 4 after the region: the column sums of the linear layer's result. -/
theorem val2_s (c : Dev nD) (j : Fin 128) :
    (dat2 (F := Ideal) V c).arrAt 4 cfg2.N (ix2 0 j)
      = Cert.Math.colSum (Cert.Math.lin (Cert.Math.at2 ((dat2 (F := Ideal) V c).A 0)) (Cert.Math.at2 ((dat2 (F := Ideal) V c).A 1)) (fun j => Cert.Math.at2 ((dat2 (F := Ideal) V c).A 2) 0 j)) j := by
  rw [final2_4]; unfold colSums2 lin2; rfl

/-- Output 5 after the region: the column sums of its squares. -/
theorem val2_ss (c : Dev nD) (j : Fin 128) :
    (dat2 (F := Ideal) V c).arrAt 5 cfg2.N (ix2 0 j)
      = Cert.Math.colSumSq (Cert.Math.lin (Cert.Math.at2 ((dat2 (F := Ideal) V c).A 0)) (Cert.Math.at2 ((dat2 (F := Ideal) V c).A 1)) (fun j => Cert.Math.at2 ((dat2 (F := Ideal) V c).A 2) 0 j)) j := by
  rw [final2_5]; unfold colSumSqs2 lin2; rfl

end Value

end Cert.KernelIdeal.Hand

end
-- ==== Proof.KI.ValLS4.lean ====
import proofs.«413302_j72232759984513_1_alg».proof.Proof.KI.RegLS4
import proofs.«413302_j72232759984513_1_alg».proof.Proof.Math.Spec
import proofs.«413302_j72232759984513_1_alg».proof.Proof.Math.Tiles
import Idealize.ShloMosaic.Lib.ValueIdx
import Idealize.ShloMosaic.Lib.Pipeline.Value
import Idealize.ShloMosaic.Lib.ValueLayout
import Idealize.ShloMosaic.PureOps.Ideal.Laws

/-! # Kernel region 4 over the extended reals: the three output arrays, index by index

Every grid point writes back its tile of 10000 rows of `x · W + b`; the ten tiles fill the 100000 rows. The two running
sums start from zero at the first point, each point adds its tile's column sums (of the values, of their squares), and
the last point writes them back: ten tiles' sums added up are the sums over all rows. -/

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

/-! ## What each case of the body leaves, in closed form (at any float instance) -/

section Closed

variable {F : FTy → Type} [FloatOps F]

/-- The zero offsets, however spelt. -/
theorem zeroOff4 : (![0, 0] : Fin 2 → Nat) = fun _ => 0 := funext fun a => by fin_cases a <;> rfl

/-- Output 3 after the body, either case: its one covering store's payload, whose loads read the whole input buffers. -/
theorem out4_A_3_eq (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond4_0 i) (x0 : Vec F S10000x128 .f32) (x1 : Vec F S128x128 .f32) (x2 : Vec F S1x128 .f32) :
    out4_A_3 c i arg1 harg1 arg2 harg2 arg3 harg3 arg4 harg4 arg5 harg5 arg6 harg6 hc0 x0 x1 x2 = k4_pay3 x0 x1 x2 := by
  unfold out4_A_3
  rw [View.read_writes_eq_canon _ _ _ (cover4_A_3 c i arg1 harg1 arg2 harg2 arg3 harg3 arg4 harg4 arg5 harg5 arg6 harg6 hc0 x0 x1 x2)]
  unfold kernelRun4_A
  dsimp only
  rw [View.canon_unit_zero zeroOff4]
  simp only [View.readAt_eq_ld, harg1.read_unread, harg2.read_unread, harg3.read_unread, harg5.read_unread, harg6.read_unread, View.ld_unit_zero (S := S10000x128) zeroOff4, View.ld_unit_zero (S := S128x128) zeroOff4, View.ld_unit_zero (S := S1x128) zeroOff4]
theorem out4_B_3_eq (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (x0 : Vec F S10000x128 .f32) (x1 : Vec F S128x128 .f32) (x2 : Vec F S1x128 .f32) (xo4 : Vec F S1x128 .f32) (xo5 : Vec F S1x128 .f32) :
    out4_B_3 c i arg1 harg1 arg2 harg2 arg3 harg3 arg4 harg4 arg5 harg5 arg6 harg6 hc0 x0 x1 x2 xo4 xo5 = k4_pay3 x0 x1 x2 := by
  unfold out4_B_3
  rw [View.read_writes_eq_canon _ _ _ (cover4_B_3 c i arg1 harg1 arg2 harg2 arg3 harg3 arg4 harg4 arg5 harg5 arg6 harg6 hc0 x0 x1 x2 xo4 xo5)]
  unfold kernelRun4_B
  dsimp only
  rw [View.canon_unit_zero zeroOff4]
  simp only [View.readAt_eq_ld, harg1.read_unread, harg2.read_unread, harg3.read_unread, harg5.read_unread, harg6.read_unread, View.ld_unit_zero (S := S10000x128) zeroOff4, View.ld_unit_zero (S := S128x128) zeroOff4, View.ld_unit_zero (S := S1x128) zeroOff4]

/-- A running sum after the body where the condition fails: the adding store's payload over what the buffer held. -/
theorem out4_B_4_eq (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (x0 : Vec F S10000x128 .f32) (x1 : Vec F S128x128 .f32) (x2 : Vec F S1x128 .f32) (xo4 : Vec F S1x128 .f32) (xo5 : Vec F S1x128 .f32) :
    out4_B_4 c i arg1 harg1 arg2 harg2 arg3 harg3 arg4 harg4 arg5 harg5 arg6 harg6 hc0 x0 x1 x2 xo4 xo5 = k4_pay4 x0 x1 x2 xo4 := by
  unfold out4_B_4
  rw [View.read_writes_eq_canon _ _ _ (cover4_B_4 c i arg1 harg1 arg2 harg2 arg3 harg3 arg4 harg4 arg5 harg5 arg6 harg6 hc0 x0 x1 x2 xo4 xo5)]
  unfold kernelRun4_B
  dsimp only
  rw [View.canon_unit_zero zeroOff4]
  simp only [View.readAt_eq_ld, harg1.read_unread, harg2.read_unread, harg3.read_unread, harg5.read_unread, harg6.read_unread, View.ld_unit_zero (S := S10000x128) zeroOff4, View.ld_unit_zero (S := S128x128) zeroOff4, View.ld_unit_zero (S := S1x128) zeroOff4]
theorem out4_B_5_eq (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (x0 : Vec F S10000x128 .f32) (x1 : Vec F S128x128 .f32) (x2 : Vec F S1x128 .f32) (xo4 : Vec F S1x128 .f32) (xo5 : Vec F S1x128 .f32) :
    out4_B_5 c i arg1 harg1 arg2 harg2 arg3 harg3 arg4 harg4 arg5 harg5 arg6 harg6 hc0 x0 x1 x2 xo4 xo5 = k4_pay5 x0 x1 x2 xo5 := by
  unfold out4_B_5
  rw [View.read_writes_eq_canon _ _ _ (cover4_B_5 c i arg1 harg1 arg2 harg2 arg3 harg3 arg4 harg4 arg5 harg5 arg6 harg6 hc0 x0 x1 x2 xo4 xo5)]
  unfold kernelRun4_B
  dsimp only
  rw [View.canon_unit_zero zeroOff4]
  simp only [View.readAt_eq_ld, harg1.read_unread, harg2.read_unread, harg3.read_unread, harg5.read_unread, harg6.read_unread, View.ld_unit_zero (S := S10000x128) zeroOff4, View.ld_unit_zero (S := S128x128) zeroOff4, View.ld_unit_zero (S := S1x128) zeroOff4]

/-- A running sum after the body where the condition holds: the reset's zeros are stored, read back, and added to. -/
theorem out4_A_4_eq (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond4_0 i) (x0 : Vec F S10000x128 .f32) (x1 : Vec F S128x128 .f32) (x2 : Vec F S1x128 .f32) :
    out4_A_4 c i arg1 harg1 arg2 harg2 arg3 harg3 arg4 harg4 arg5 harg5 arg6 harg6 hc0 x0 x1 x2 = k4_pay4 x0 x1 x2 k4_pay1 := by
  unfold out4_A_4
  rw [View.read_writes_eq_canon _ _ _ (cover4_A_4 c i arg1 harg1 arg2 harg2 arg3 harg3 arg4 harg4 arg5 harg5 arg6 harg6 hc0 x0 x1 x2)]
  unfold kernelRun4_A
  dsimp only
  sl_unfold_words
  rw [View.canon_cons_unit_zero (S := S1x128) zeroOff4, View.readCov_unit_zero (S := S1x128) _ zeroOff4]
  simp only [View.readAt_eq_ld, harg1.read_unread, harg2.read_unread, harg3.read_unread, harg5.read_unread, harg6.read_unread, View.ld_unit_zero (S := S10000x128) zeroOff4, View.ld_unit_zero (S := S128x128) zeroOff4, View.ld_unit_zero (S := S1x128) zeroOff4]
theorem out4_A_5_eq (c : Dev nD) (i : grid4.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond4_0 i) (x0 : Vec F S10000x128 .f32) (x1 : Vec F S128x128 .f32) (x2 : Vec F S1x128 .f32) :
    out4_A_5 c i arg1 harg1 arg2 harg2 arg3 harg3 arg4 harg4 arg5 harg5 arg6 harg6 hc0 x0 x1 x2 = k4_pay5 x0 x1 x2 k4_pay2 := by
  unfold out4_A_5
  rw [View.read_writes_eq_canon _ _ _ (cover4_A_5 c i arg1 harg1 arg2 harg2 arg3 harg3 arg4 harg4 arg5 harg5 arg6 harg6 hc0 x0 x1 x2)]
  unfold kernelRun4_A
  dsimp only
  sl_unfold_words
  rw [View.canon_cons_unit_zero (S := S1x128) zeroOff4, View.readCov_unit_zero (S := S1x128) _ zeroOff4]
  simp only [View.readAt_eq_ld, harg1.read_unread, harg2.read_unread, harg3.read_unread, harg5.read_unread, harg6.read_unread, View.ld_unit_zero (S := S10000x128) zeroOff4, View.ld_unit_zero (S := S128x128) zeroOff4, View.ld_unit_zero (S := S1x128) zeroOff4]

variable (V : (c : Dev nD) → (b : Ref sig .tc) → Buf (Elt F) ((c : Thread nD τ).loc b))

/-- The two running sums after point `n`: from the reset's zeros at the first point, each point adding its tile's. -/
def sums4 (c : Dev nD) : (n : ℕ) → n < cfg4.N → Vec F S1x128 .f32 × Vec F S1x128 .f32
  | 0, h => (k4_pay4 (iblk4 V c 0 ⟨0, h⟩) (iblk4 V c 1 ⟨0, h⟩) (iblk4 V c 2 ⟨0, h⟩) k4_pay1,
             k4_pay5 (iblk4 V c 0 ⟨0, h⟩) (iblk4 V c 1 ⟨0, h⟩) (iblk4 V c 2 ⟨0, h⟩) k4_pay2)
  | n + 1, h => (k4_pay4 (iblk4 V c 0 ⟨n + 1, h⟩) (iblk4 V c 1 ⟨n + 1, h⟩) (iblk4 V c 2 ⟨n + 1, h⟩) (sums4 c n (Nat.lt_of_succ_lt h)).1,
                 k4_pay5 (iblk4 V c 0 ⟨n + 1, h⟩) (iblk4 V c 1 ⟨n + 1, h⟩) (iblk4 V c 2 ⟨n + 1, h⟩) (sums4 c n (Nat.lt_of_succ_lt h)).2)

/-- What the outputs' staging buffers hold after point `n`: the point's tile of `x · W + b` and the two running sums,
    by induction on the point. -/
theorem outsAt4_eq (c : Dev nD) : ∀ (n : ℕ) (h : n < cfg4.N), outsAt4 V c n h
    = (k4_pay3 (iblk4 V c 0 ⟨n, h⟩) (iblk4 V c 1 ⟨n, h⟩) (iblk4 V c 2 ⟨n, h⟩), (sums4 V c n h).1, (sums4 V c n h).2)
  | 0, h => by
    rw [outsAt4_A V c ⟨0, h⟩ rfl, out4_A_3_eq, out4_A_4_eq, out4_A_5_eq]; rfl
  | n + 1, h => by
    have hN : cfg4.N = 10 := N_4
    have hB : ¬(⟨n + 1, h⟩ : Fin cfg4.N).val % 10 = 0 := by dsimp only; omega
    rw [outsAt4_B V c ⟨n + 1, h⟩ hB, out4_B_3_eq, out4_B_4_eq, out4_B_5_eq]
    have ih := outsAt4_eq c n (Nat.lt_of_succ_lt h)
    show (_, k4_pay4 _ _ _ (outsAt4 V c n _).2.1, k4_pay5 _ _ _ (outsAt4 V c n _).2.2) = _
    rw [ih]; rfl

end Closed

/-! ## The payloads over the extended reals, index by index -/

/-- The product's operand indices: the left operand is read at (row of the result, contracted coordinate), -/
theorem lhsDot4_0 (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhsDot4_1 (i : S10000x128.Idx) (q : dot_S10000x128_S128x128_S10000x128_1_0_0_1_n_n.contr.Idx) : (dot_S10000x128_S128x128_S10000x128_1_0_0_1_n_n.lhsIdx i q 1).val = (q ⟨0, by decide⟩).val :=
  dot_S10000x128_S128x128_S10000x128_1_0_0_1_n_n.lhsIdx_val_of_single rfl i q
/-- the right operand at (contracted coordinate, column of the result). -/
theorem rhsDot4_0 (i : S10000x128.Idx) (q : dot_S10000x128_S128x128_S10000x128_1_0_0_1_n_n.contr.Idx) : (dot_S10000x128_S128x128_S10000x128_1_0_0_1_n_n.rhsIdx i q 0).val = (q ⟨0, by decide⟩).val :=
  dot_S10000x128_S128x128_S10000x128_1_0_0_1_n_n.rhsIdx_val_of_single rfl i q
theorem rhsDot4_1 (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The tile's product at (r, j): the sum over the contracted coordinate. -/
theorem matmul4_apply (x : FVec Ideal S10000x128 .f32) (w : FVec Ideal S128x128 .f32) (r : Fin 10000) (j : Fin 128) :
    matmul dot_S10000x128_S128x128_S10000x128_1_0_0_1_n_n none x w (constant S10000x128 .f32 0x00000000#32) (ix2 r j) = ∑ l : Fin 128, x (ix2 r l) * w (ix2 l j) := by
  simp only [matmul]
  rw [Ideal.matmul_constant_zero_apply, ← Equiv.sum_comp (contrEquiv1 dot_S10000x128_S128x128_S10000x128_1_0_0_1_n_n 128 rfl rfl).symm]
  refine Finset.sum_congr rfl fun l _ => ?_
  have hk := contrEquiv1_symm_val dot_S10000x128_S128x128_S10000x128_1_0_0_1_n_n 128 rfl rfl l
  have el : dot_S10000x128_S128x128_S10000x128_1_0_0_1_n_n.lhsIdx (ix2 r j) ((contrEquiv1 dot_S10000x128_S128x128_S10000x128_1_0_0_1_n_n 128 rfl rfl).symm l) = ix2 r l := funext fun a => Fin.ext (by
    match a with
    | ⟨0, _⟩ => exact lhsDot4_0 _ _
    | ⟨1, _⟩ => exact (lhsDot4_1 _ _).trans hk)
  have er : dot_S10000x128_S128x128_S10000x128_1_0_0_1_n_n.rhsIdx (ix2 r j) ((contrEquiv1 dot_S10000x128_S128x128_S10000x128_1_0_0_1_n_n 128 rfl rfl).symm l) = ix2 l j := funext fun a => Fin.ext (by
    match a with
    | ⟨0, _⟩ => exact (rhsDot4_0 _ _).trans hk
    | ⟨1, _⟩ => exact rhsDot4_1 _ _)
  rw [el, er]

/-- The tile of `x · W + b` at (r, j). -/
theorem pay4_3_apply (x0 : Vec Ideal S10000x128 .f32) (x1 : Vec Ideal S128x128 .f32) (x2 : Vec Ideal S1x128 .f32) (r : Fin 10000) (j : Fin 128) :
    k4_pay3 x0 x1 x2 (ix2 r j) = (∑ l : Fin 128, x0 (ix2 r l) * x1 (ix2 l j)) + x2 (ix2 0 j) := by
  unfold k4_pay3
  simp only [shapeCast_self, addf_apply, matmul4_apply, broadcastTo_1b_ab_apply]

/-- Summing a tile over its rows, read at column `j`: the inserted coordinate is the row. -/
theorem lift4 (j : Fin 128) (r : Fin 10000) : reduces_S10000x128_S128.lift (ix1 j) r = ix2 r j :=
  funext fun a => Fin.ext (by
    match a with
    | ⟨0, _⟩ => rfl
    | ⟨1, _⟩ => rfl)

/-- The running column sum after a point: what it held, plus the tile's column sum. -/
theorem pay4_4_apply (x0 : Vec Ideal S10000x128 .f32) (x1 : Vec Ideal S128x128 .f32) (x2 : Vec Ideal S1x128 .f32) (xo : Vec Ideal S1x128 .f32) (j : Fin 128) :
    k4_pay4 x0 x1 x2 xo (ix2 0 j) = xo (ix2 0 j) + ∑ r : Fin 10000, k4_pay3 x0 x1 x2 (ix2 r j) := by
  unfold k4_pay4
  simp only [shapeCast_self, addf_apply, shapeCast_a_1a_apply]
  refine congrArg (xo (ix2 0 j) + ·) ?_
  refine (Ideal.multiReduction_add_single (k4_pay3 x0 x1 x2) _ reduces_S10000x128_S128 _ _ (ix1 j)).trans ?_
  exact Finset.sum_congr rfl fun r _ => congrArg (k4_pay3 x0 x1 x2) (lift4 j r)

/-- The running column sum of squares likewise. -/
theorem pay4_5_apply (x0 : Vec Ideal S10000x128 .f32) (x1 : Vec Ideal S128x128 .f32) (x2 : Vec Ideal S1x128 .f32) (xo : Vec Ideal S1x128 .f32) (j : Fin 128) :
    k4_pay5 x0 x1 x2 xo (ix2 0 j) = xo (ix2 0 j) + ∑ r : Fin 10000, k4_pay3 x0 x1 x2 (ix2 r j) * k4_pay3 x0 x1 x2 (ix2 r j) := by
  unfold k4_pay5
  simp only [shapeCast_self, addf_apply, shapeCast_a_1a_apply]
  refine congrArg (xo (ix2 0 j) + ·) ?_
  refine (Ideal.multiReduction_add_single (mulf (k4_pay3 x0 x1 x2) (k4_pay3 x0 x1 x2)) _ reduces_S10000x128_S128 _ _ (ix1 j)).trans ?_
  exact Finset.sum_congr rfl fun r _ => congrArg (fun y => k4_pay3 x0 x1 x2 y * k4_pay3 x0 x1 x2 y) (lift4 j r)

/-- The reset stores zeros. -/
theorem pay4_1_apply (y : S1x128.Idx) : k4_pay1 (F := Ideal) y = 0 := by
  unfold k4_pay1
  simp only [broadcast_apply, Scalar.ofBits, Ideal.ofBits_def, Ideal.ofBits_zero_f32]
theorem pay4_2_apply (y : S1x128.Idx) : k4_pay2 (F := Ideal) y = 0 := by
  unfold k4_pay2
  simp only [broadcast_apply, Scalar.ofBits, Ideal.ofBits_def, Ideal.ofBits_zero_f32]

/-! ## The region's three output arrays over the extended reals -/

section Value

variable (V : (c : Dev nD) → (b : Ref sig .tc) → Buf (Elt Ideal) ((c : Thread nD τ).loc b))

/-- `x · W + b` of three arrays, index by index: the bias row is read at the index's lane. -/
@[irreducible] def lin4 (x : FVec Ideal S100000x128 .f32) (w : FVec Ideal S128x128 .f32) (b : FVec Ideal S1x128 .f32) : FVec Ideal S100000x128 .f32 :=
  fun i => (∑ l : Fin 128, x (ix2 (i 0) l) * w (ix2 l (i 1))) + b (ix2 0 (i 1))

/-- The printed index maps, decided over the ten points: the tiles of `x` and of the result move with the point, the
    weights, the bias row and the two sums stay at block 0. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

/-- Row `r` of tile `t` is row `t · 10000 + r` of the array. -/
theorem row_lt4 (t : Fin cfg4.N) (r : Fin 10000) : t.val * 10000 + r.val < 100000 := by
  have hN : cfg4.N = 10 := N_4
  have := t.isLt; have := r.isLt; omega

/-- The tile point `t` computes, at (r, j): `x · W + b` of the arrays as the region finds them, at row `t · 10000 + r`. -/
theorem tile4_apply (c : Dev nD) (t : Fin cfg4.N) (r : Fin 10000) (j : Fin 128) :
    k4_pay3 (iblk4 V c 0 t) (iblk4 V c 1 t) (iblk4 V c 2 t) (ix2 r j)
      = lin4 ((dat4 V c).A 0) ((dat4 V c).A 1) ((dat4 V c).A 2) (ix2 ⟨t.val * 10000 + r.val, row_lt4 t r⟩ j) := by
  rw [pay4_3_apply, A_eq4, A_eq4, A_eq4]
  unfold lin4
  obtain ⟨e0, e1, e2, e3, e4, e5, e6, e7, e8, e9, e10, e11⟩ := idx_facts4 t
  have h0 : ∀ l : Fin 128, ((cfg4.win 0).blk t).view.emb (ix2 r l) = ix2 (⟨t.val * 10000 + r.val, row_lt4 t r⟩ : Fin 100000) l := fun l => by
    funext a; apply Fin.ext
    match a with
    | ⟨0, _⟩ => show win4_0.index t (0 : Fin 2) * 10000 + 1 * r.val = t.val * 10000 + r.val; omega
    | ⟨1, _⟩ => show win4_0.index t (1 : Fin 2) * 128 + 1 * l.val = l.val; omega
  have h1 : ∀ l : Fin 128, ((cfg4.win 1).blk t).view.emb (ix2 l j) = ix2 l j := fun l => by
    funext a; apply Fin.ext
    match a with
    | ⟨0, _⟩ => show win4_1.index t (0 : Fin 2) * 128 + 1 * l.val = l.val; omega
    | ⟨1, _⟩ => show win4_1.index t (1 : Fin 2) * 128 + 1 * j.val = j.val; omega
  have h2 : ((cfg4.win 2).blk t).view.emb (ix2 0 j) = ix2 0 j := by
    funext a; apply Fin.ext
    match a with
    | ⟨0, _⟩ => show win4_2.index t (0 : Fin 2) * 1 + 1 * 0 = 0; omega
    | ⟨1, _⟩ => show win4_2.index t (1 : Fin 2) * 128 + 1 * j.val = j.val; omega
  have b0 : ∀ l : Fin 128, iblk4 V c 0 t (ix2 r l) = V c (Pipeline.arrRef spec4 0) (ix2 (⟨t.val * 10000 + r.val, row_lt4 t r⟩ : Fin 100000) l) :=
    fun l => congrArg (V c (Pipeline.arrRef spec4 0)) (h0 l)
  have b1 : ∀ l : Fin 128, iblk4 V c 1 t (ix2 l j) = V c (Pipeline.arrRef spec4 1) (ix2 l j) :=
    fun l => congrArg (V c (Pipeline.arrRef spec4 1)) (h1 l)
  have b2 : iblk4 V c 2 t (ix2 0 j) = V c (Pipeline.arrRef spec4 2) (ix2 0 j) :=
    congrArg (V c (Pipeline.arrRef spec4 2)) h2
  simp only [b0, b1, b2] <;> rfl

/-! ### Output 3: the ten tiles fill the array -/

/-- What point `t` writes back to output 3 is block `t` of `x · W + b` of the arrays as the region finds them. -/
theorem flushed4_3_eq (c : Dev nD) (t : Fin cfg4.N) :
    (dat4 V c).flushed 3 t = ((cfg4.win 3).blk t).view.read (Elt Ideal)
      (lin4 ((dat4 V c).A 0) ((dat4 V c).A 1) ((dat4 V c).A 2)) := by
  show (cfg4.win 3).cut (grid4.coords t) ((dat4 V c).after 3 t) = _
  rw [after4_3, outsAt4_eq]
  obtain ⟨e0, e1, e2, e3, e4, e5, e6, e7, e8, e9, e10, e11⟩ := idx_facts4 t
  funext y
  rw [View.read_apply, cast_eq]
  have hy0 : (y 0).val < 10000 := (y 0).isLt
  have hy1 : (y 1).val < 128 := (y 1).isLt
  show k4_pay3 (iblk4 V c 0 t) (iblk4 V c 1 t) (iblk4 V c 2 t) y
    = lin4 ((dat4 V c).A 0) ((dat4 V c).A 1) ((dat4 V c).A 2) (((cfg4.win 3).blk t).view.emb y)
  have hy : y = ix2 (⟨(y 0).val, hy0⟩ : Fin 10000) (⟨(y 1).val, hy1⟩ : Fin 128) := eq_ix2 y
  have he : ((cfg4.win 3).blk t).view.emb y
      = ix2 (⟨t.val * 10000 + (y 0).val, row_lt4 t ⟨(y 0).val, hy0⟩⟩ : Fin 100000) (⟨(y 1).val, hy1⟩ : Fin 128) := by
    funext a; apply Fin.ext
    match a with
    | ⟨0, _⟩ => show win4_3.index t (0 : Fin 2) * 10000 + 1 * (y 0).val = t.val * 10000 + (y 0).val; omega
    | ⟨1, _⟩ => show win4_3.index t (1 : Fin 2) * 128 + 1 * (y 1).val = (y 1).val; omega
  rw [he]
  have h := tile4_apply V c t ⟨(y 0).val, hy0⟩ ⟨(y 1).val, hy1⟩
  rw [← hy] at h
  exact h

/-- An index of output 3's array is in point `t`'s block iff each coordinate is in the block's range on its axis. -/
theorem mem_blk4_3 (t : Fin cfg4.N) (i : S100000x128.Idx) :
    i ∈ ((cfg4.win 3).blk t).view.set ↔ ∀ a : Fin 2, win4_3.index t a * S10000x128.size a ≤ (i a).val ∧ (i a).val < win4_3.index t a * S10000x128.size a + S10000x128.size a := by
  show i ∈ ((View.whole (Pipeline.arrRef spec4 3)).slice (win4_3.rect t)).set ↔ _
  rw [View.set_slice_whole, Rect.mem_set_unit]
  exact Iff.rfl

/-- The ten tiles fill the array: row `r` is in the block of point `r / 10000`. -/
theorem covered4_3 (i : S100000x128.Idx) :
    ∃ t : Fin cfg4.N, (cfg4.win 3).flush t = true ∧ i ∈ ((cfg4.win 3).blk t).view.set := by
  have hi0 : (i 0).val < 100000 := (i 0).isLt
  have hi1 : (i 1).val < 128 := (i 1).isLt
  have hN : cfg4.N = 10 := N_4
  let t : Fin cfg4.N := ⟨(i 0).val / 10000, by omega⟩
  obtain ⟨e0, e1, e2, e3, e4, e5, e6, e7, e8, e9, e10, e11⟩ := idx_facts4 t
  have ht : t.val = (i 0).val / 10000 := rfl
  refine ⟨t, flush4_3 t, ?_⟩
  rw [mem_blk4_3]
  intro a
  match a with
  | ⟨0, _⟩ => show win4_3.index t (0 : Fin 2) * 10000 ≤ (i 0).val ∧ (i 0).val < win4_3.index t (0 : Fin 2) * 10000 + 10000; omega
  | ⟨1, _⟩ => show win4_3.index t (1 : Fin 2) * 128 ≤ (i 1).val ∧ (i 1).val < win4_3.index t (1 : Fin 2) * 128 + 128; omega

/-- Output 3's array after the region: `x · W + b` of the entry contents, everywhere. -/
theorem final4_3 (c : Dev nD) : (dat4 V c).arrAt 3 cfg4.N
    = lin4 ((dat4 V c).A 0) ((dat4 V c).A 1) ((dat4 V c).A 2) :=
  (dat4 V c).arrAt_eq_of_cover 3 _ (fun t _ => flushed4_3_eq V c t) covered4_3

/-! ### Outputs 4 and 5: the running sums after the last point are the column sums -/

/-- The column sum of tile `s` (zero past the grid). -/
def tileSum4 (c : Dev nD) (j : Fin 128) (s : ℕ) : EReal :=
  if hs : s < cfg4.N then ∑ r : Fin 10000, k4_pay3 (iblk4 V c 0 ⟨s, hs⟩) (iblk4 V c 1 ⟨s, hs⟩) (iblk4 V c 2 ⟨s, hs⟩) (ix2 r j) else 0
/-- The column sum of squares of tile `s` (zero past the grid). -/
def tileSumSq4 (c : Dev nD) (j : Fin 128) (s : ℕ) : EReal :=
  if hs : s < cfg4.N then ∑ r : Fin 10000, k4_pay3 (iblk4 V c 0 ⟨s, hs⟩) (iblk4 V c 1 ⟨s, hs⟩) (iblk4 V c 2 ⟨s, hs⟩) (ix2 r j)
    * k4_pay3 (iblk4 V c 0 ⟨s, hs⟩) (iblk4 V c 1 ⟨s, hs⟩) (iblk4 V c 2 ⟨s, hs⟩) (ix2 r j) else 0

/-- After point `n` the first running sum holds, at lane `j`, the column sums of tiles `0 … n` added up. -/
theorem sums4_1_apply (c : Dev nD) (j : Fin 128) : ∀ (n : ℕ) (h : n < cfg4.N),
    (sums4 V c n h).1 (ix2 0 j) = ∑ s ∈ Finset.range (n + 1), tileSum4 V c j s
  | 0, h => by
    show k4_pay4 _ _ _ k4_pay1 (ix2 0 j) = _
    rw [pay4_4_apply, pay4_1_apply, zero_add, Finset.sum_range_one]
    unfold tileSum4; rw [dif_pos h]
  | n + 1, h => by
    show k4_pay4 _ _ _ (sums4 V c n _).1 (ix2 0 j) = _
    rw [pay4_4_apply, sums4_1_apply c j n (Nat.lt_of_succ_lt h), Finset.sum_range_succ _ (n + 1)]
    congr 1
    unfold tileSum4; rw [dif_pos h]
/-- The second likewise, with the squares. -/
theorem sums4_2_apply (c : Dev nD) (j : Fin 128) : ∀ (n : ℕ) (h : n < cfg4.N),
    (sums4 V c n h).2 (ix2 0 j) = ∑ s ∈ Finset.range (n + 1), tileSumSq4 V c j s
  | 0, h => by
    show k4_pay5 _ _ _ k4_pay2 (ix2 0 j) = _
    rw [pay4_5_apply, pay4_2_apply, zero_add, Finset.sum_range_one]
    unfold tileSumSq4; rw [dif_pos h]
  | n + 1, h => by
    show k4_pay5 _ _ _ (sums4 V c n _).2 (ix2 0 j) = _
    rw [pay4_5_apply, sums4_2_apply c j n (Nat.lt_of_succ_lt h), Finset.sum_range_succ _ (n + 1)]
    congr 1
    unfold tileSumSq4; rw [dif_pos h]

/-- The ten tiles' column sums add up to the column sum over the hundred thousand rows. -/
theorem total4_1 (c : Dev nD) (j : Fin 128) :
    ∑ s ∈ Finset.range 10, tileSum4 V c j s = ∑ i : Fin 100000, lin4 ((dat4 V c).A 0) ((dat4 V c).A 1) ((dat4 V c).A 2) (ix2 i j) := by
  rw [Finset.sum_range, ← Cert.Math.sum_tiles (fun i => lin4 ((dat4 V c).A 0) ((dat4 V c).A 1) ((dat4 V c).A 2) (ix2 i j))]
  refine Finset.sum_congr rfl fun s _ => ?_
  have hs : s.val < cfg4.N := by rw [show cfg4.N = 10 from N_4]; exact s.isLt
  unfold tileSum4; rw [dif_pos hs]
  refine Finset.sum_congr rfl fun r _ => ?_
  exact tile4_apply V c ⟨s.val, hs⟩ r j

/-- The column sums, as contents of a [1,128] array. -/
@[irreducible] def colSums4 (c : Dev nD) : FVec Ideal S1x128 .f32 :=
  fun y => ∑ i : Fin 100000, lin4 ((dat4 V c).A 0) ((dat4 V c).A 1) ((dat4 V c).A 2) (ix2 i (y 1))

/-- The one write-back of output 4, after the last point, writes them. -/
theorem flushed4_4_eq (c : Dev nD) (t : Fin cfg4.N) (hf : (cfg4.win 4).flush t = true) :
    (dat4 V c).flushed 4 t = ((cfg4.win 4).blk t).view.read (Elt Ideal) (colSums4 V c) := by
  have hN : cfg4.N = 10 := N_4
  have h9 : t.val = 9 := by have := (flush4_4 t).mp hf; have := t.isLt; omega
  obtain ⟨e0, e1, e2, e3, e4, e5, e6, e7, e8, e9, e10, e11⟩ := idx_facts4 t
  show (cfg4.win 4).cut (grid4.coords t) ((dat4 V c).after 4 t) = _
  rw [after4_4, outsAt4_eq]
  funext y
  rw [View.read_apply, cast_eq]
  have hy0 : (y 0).val < 1 := (y 0).isLt
  have hy1 : (y 1).val < 128 := (y 1).isLt
  have hS := sums4_1_apply V c ⟨(y 1).val, hy1⟩ t.val t.isLt
  generalize sums4 V c t.val t.isLt = S at hS ⊢
  show S.1 y = colSums4 V c (((cfg4.win 4).blk t).view.emb y)
  have hy : y = ix2 (0 : Fin 1) (⟨(y 1).val, hy1⟩ : Fin 128) := by
    funext a; apply Fin.ext
    match a with
    | ⟨0, _⟩ => show (y 0).val = 0; omega
    | ⟨1, _⟩ => rfl
  have he : ((cfg4.win 4).blk t).view.emb y = ix2 (0 : Fin 1) (⟨(y 1).val, hy1⟩ : Fin 128) := by
    funext a; apply Fin.ext
    match a with
    | ⟨0, _⟩ => show win4_4.index t (0 : Fin 2) * 1 + 1 * (y 0).val = 0; omega
    | ⟨1, _⟩ => show win4_4.index t (1 : Fin 2) * 128 + 1 * (y 1).val = (y 1).val; omega
  rw [he, congrArg S.1 hy, hS, show t.val + 1 = 10 from by omega]
  unfold colSums4
  exact total4_1 V c ⟨(y 1).val, hy1⟩

/-- The last point's block is the whole [1,128] array. -/
theorem covered4_4 (i : S1x128.Idx) :
    ∃ t : Fin cfg4.N, (cfg4.win 4).flush t = true ∧ i ∈ ((cfg4.win 4).blk t).view.set := by
  have hN : cfg4.N = 10 := N_4
  have hi0 : (i 0).val < 1 := (i 0).isLt
  have hi1 : (i 1).val < 128 := (i 1).isLt
  let t : Fin cfg4.N := ⟨9, by omega⟩
  obtain ⟨e0, e1, e2, e3, e4, e5, e6, e7, e8, e9, e10, e11⟩ := idx_facts4 t
  refine ⟨t, (flush4_4 t).mpr rfl, ?_⟩
  show i ∈ ((View.whole (Pipeline.arrRef spec4 4)).slice (win4_4.rect t)).set
  rw [View.set_slice_whole, Rect.mem_set_unit]
  intro a
  match a with
  | ⟨0, _⟩ => show win4_4.index t (0 : Fin 2) * 1 ≤ (i 0).val ∧ (i 0).val < win4_4.index t (0 : Fin 2) * 1 + 1; omega
  | ⟨1, _⟩ => show win4_4.index t (1 : Fin 2) * 128 ≤ (i 1).val ∧ (i 1).val < win4_4.index t (1 : Fin 2) * 128 + 128; omega

/-- Output 4's array after the region. -/
theorem final4_4 (c : Dev nD) : (dat4 V c).arrAt 4 cfg4.N = colSums4 V c :=
  (dat4 V c).arrAt_eq_of_cover 4 _ (flushed4_4_eq V c) covered4_4

/-- The ten tiles' column sums of squares add up to the column sum of squares over the hundred thousand rows. -/
theorem total4_2 (c : Dev nD) (j : Fin 128) :
    ∑ s ∈ Finset.range 10, tileSumSq4 V c j s = ∑ i : Fin 100000, lin4 ((dat4 V c).A 0) ((dat4 V c).A 1) ((dat4 V c).A 2) (ix2 i j) * lin4 ((dat4 V c).A 0) ((dat4 V c).A 1) ((dat4 V c).A 2) (ix2 i j) := by
  rw [Finset.sum_range, ← Cert.Math.sum_tiles (fun i => lin4 ((dat4 V c).A 0) ((dat4 V c).A 1) ((dat4 V c).A 2) (ix2 i j) * lin4 ((dat4 V c).A 0) ((dat4 V c).A 1) ((dat4 V c).A 2) (ix2 i j))]
  refine Finset.sum_congr rfl fun s _ => ?_
  have hs : s.val < cfg4.N := by rw [show cfg4.N = 10 from N_4]; exact s.isLt
  unfold tileSumSq4; rw [dif_pos hs]
  refine Finset.sum_congr rfl fun r _ => ?_
  rw [tile4_apply V c ⟨s.val, hs⟩ r j]

/-- The column sums of squares, as contents of a [1,128] array. -/
@[irreducible] def colSumSqs4 (c : Dev nD) : FVec Ideal S1x128 .f32 :=
  fun y => ∑ i : Fin 100000, lin4 ((dat4 V c).A 0) ((dat4 V c).A 1) ((dat4 V c).A 2) (ix2 i (y 1)) * lin4 ((dat4 V c).A 0) ((dat4 V c).A 1) ((dat4 V c).A 2) (ix2 i (y 1))

/-- The one write-back of output 5, after the last point, writes them. -/
theorem flushed4_5_eq (c : Dev nD) (t : Fin cfg4.N) (hf : (cfg4.win 5).flush t = true) :
    (dat4 V c).flushed 5 t = ((cfg4.win 5).blk t).view.read (Elt Ideal) (colSumSqs4 V c) := by
  have hN : cfg4.N = 10 := N_4
  have h9 : t.val = 9 := by have := (flush4_5 t).mp hf; have := t.isLt; omega
  obtain ⟨e0, e1, e2, e3, e4, e5, e6, e7, e8, e9, e10, e11⟩ := idx_facts4 t
  show (cfg4.win 5).cut (grid4.coords t) ((dat4 V c).after 5 t) = _
  rw [after4_5, outsAt4_eq]
  funext y
  rw [View.read_apply, cast_eq]
  have hy0 : (y 0).val < 1 := (y 0).isLt
  have hy1 : (y 1).val < 128 := (y 1).isLt
  have hS := sums4_2_apply V c ⟨(y 1).val, hy1⟩ t.val t.isLt
  generalize sums4 V c t.val t.isLt = S at hS ⊢
  show S.2 y = colSumSqs4 V c (((cfg4.win 5).blk t).view.emb y)
  have hy : y = ix2 (0 : Fin 1) (⟨(y 1).val, hy1⟩ : Fin 128) := by
    funext a; apply Fin.ext
    match a with
    | ⟨0, _⟩ => show (y 0).val = 0; omega
    | ⟨1, _⟩ => rfl
  have he : ((cfg4.win 5).blk t).view.emb y = ix2 (0 : Fin 1) (⟨(y 1).val, hy1⟩ : Fin 128) := by
    funext a; apply Fin.ext
    match a with
    | ⟨0, _⟩ => show win4_5.index t (0 : Fin 2) * 1 + 1 * (y 0).val = 0; omega
    | ⟨1, _⟩ => show win4_5.index t (1 : Fin 2) * 128 + 1 * (y 1).val = (y 1).val; omega
  rw [he, congrArg S.2 hy, hS, show t.val + 1 = 10 from by omega]
  unfold colSumSqs4
  exact total4_2 V c ⟨(y 1).val, hy1⟩

/-- The last point's block is the whole [1,128] array. -/
theorem covered4_5 (i : S1x128.Idx) :
    ∃ t : Fin cfg4.N, (cfg4.win 5).flush t = true ∧ i ∈ ((cfg4.win 5).blk t).view.set := by
  have hN : cfg4.N = 10 := N_4
  have hi0 : (i 0).val < 1 := (i 0).isLt
  have hi1 : (i 1).val < 128 := (i 1).isLt
  let t : Fin cfg4.N := ⟨9, by omega⟩
  obtain ⟨e0, e1, e2, e3, e4, e5, e6, e7, e8, e9, e10, e11⟩ := idx_facts4 t
  refine ⟨t, (flush4_5 t).mpr rfl, ?_⟩
  show i ∈ ((View.whole (Pipeline.arrRef spec4 5)).slice (win4_5.rect t)).set
  rw [View.set_slice_whole, Rect.mem_set_unit]
  intro a
  match a with
  | ⟨0, _⟩ => show win4_5.index t (0 : Fin 2) * 1 ≤ (i 0).val ∧ (i 0).val < win4_5.index t (0 : Fin 2) * 1 + 1; omega
  | ⟨1, _⟩ => show win4_5.index t (1 : Fin 2) * 128 ≤ (i 1).val ∧ (i 1).val < win4_5.index t (1 : Fin 2) * 128 + 128; omega

/-- Output 5's array after the region. -/
theorem final4_5 (c : Dev nD) : (dat4 V c).arrAt 5 cfg4.N = colSumSqs4 V c :=
  (dat4 V c).arrAt_eq_of_cover 5 _ (flushed4_5_eq V c) covered4_5

/-! ### The three arrays in the shared vocabulary -/

/-- Output 3 after the region, index by index: the linear layer of the entry contents. -/
theorem val4_h (c : Dev nD) (i : Fin 100000) (j : Fin 128) :
    (dat4 (F := Ideal) V c).arrAt 3 cfg4.N (ix2 i j)
      = Cert.Math.lin (Cert.Math.at2 ((dat4 (F := Ideal) V c).A 0)) (Cert.Math.at2 ((dat4 (F := Ideal) V c).A 1)) (fun j => Cert.Math.at2 ((dat4 (F := Ideal) V c).A 2) 0 j) i j := by
  rw [final4_3]; unfold lin4; rfl

/-- Output 4 after the region: the column sums of the linear layer's result. -/
theorem val4_s (c : Dev nD) (j : Fin 128) :
    (dat4 (F := Ideal) V c).arrAt 4 cfg4.N (ix2 0 j)
      = Cert.Math.colSum (Cert.Math.lin (Cert.Math.at2 ((dat4 (F := Ideal) V c).A 0)) (Cert.Math.at2 ((dat4 (F := Ideal) V c).A 1)) (fun j => Cert.Math.at2 ((dat4 (F := Ideal) V c).A 2) 0 j)) j := by
  rw [final4_4]; unfold colSums4 lin4; rfl

/-- Output 5 after the region: the column sums of its squares. -/
theorem val4_ss (c : Dev nD) (j : Fin 128) :
    (dat4 (F := Ideal) V c).arrAt 5 cfg4.N (ix2 0 j)
      = Cert.Math.colSumSq (Cert.Math.lin (Cert.Math.at2 ((dat4 (F := Ideal) V c).A 0)) (Cert.Math.at2 ((dat4 (F := Ideal) V c).A 1)) (fun j => Cert.Math.at2 ((dat4 (F := Ideal) V c).A 2) 0 j)) j := by
  rw [final4_5]; unfold colSumSqs4 lin4; rfl

end Value

end Cert.KernelIdeal.Hand

end
-- ==== Proof.KI.ValLS7.lean ====
import proofs.«413302_j72232759984513_1_alg».proof.Proof.KI.RegLS7
import proofs.«413302_j72232759984513_1_alg».proof.Proof.Math.Spec
import proofs.«413302_j72232759984513_1_alg».proof.Proof.Math.Tiles
import Idealize.ShloMosaic.Lib.ValueIdx
import Idealize.ShloMosaic.Lib.Pipeline.Value
import Idealize.ShloMosaic.Lib.ValueLayout
import Idealize.ShloMosaic.PureOps.Ideal.Laws

/-! # Kernel region 7 over the extended reals: the three output arrays, index by index

Every grid point writes back its tile of 10000 rows of `x · W + b`; the ten tiles fill the 100000 rows. The two running
sums start from zero at the first point, each point adds its tile's column sums (of the values, of their squares), and
the last point writes them back: ten tiles' sums added up are the sums over all rows. -/

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

/-! ## What each case of the body leaves, in closed form (at any float instance) -/

section Closed

variable {F : FTy → Type} [FloatOps F]

/-- The zero offsets, however spelt. -/
theorem zeroOff7 : (![0, 0] : Fin 2 → Nat) = fun _ => 0 := funext fun a => by fin_cases a <;> rfl

/-- Output 3 after the body, either case: its one covering store's payload, whose loads read the whole input buffers. -/
theorem out7_A_3_eq (c : Dev nD) (i : grid7.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond7_0 i) (x0 : Vec F S10000x64 .f32) (x1 : Vec F S64x128 .f32) (x2 : Vec F S1x128 .f32) :
    out7_A_3 c i arg1 harg1 arg2 harg2 arg3 harg3 arg4 harg4 arg5 harg5 arg6 harg6 hc0 x0 x1 x2 = k7_pay3 x0 x1 x2 := by
  unfold out7_A_3
  rw [View.read_writes_eq_canon _ _ _ (cover7_A_3 c i arg1 harg1 arg2 harg2 arg3 harg3 arg4 harg4 arg5 harg5 arg6 harg6 hc0 x0 x1 x2)]
  unfold kernelRun7_A
  dsimp only
  rw [View.canon_unit_zero zeroOff7]
  simp only [View.readAt_eq_ld, harg1.read_unread, harg2.read_unread, harg3.read_unread, harg5.read_unread, harg6.read_unread, View.ld_unit_zero (S := S10000x64) zeroOff7, View.ld_unit_zero (S := S64x128) zeroOff7, View.ld_unit_zero (S := S1x128) zeroOff7]
theorem out7_B_3_eq (c : Dev nD) (i : grid7.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond7_0 i) (x0 : Vec F S10000x64 .f32) (x1 : Vec F S64x128 .f32) (x2 : Vec F S1x128 .f32) (xo4 : Vec F S1x128 .f32) (xo5 : Vec F S1x128 .f32) :
    out7_B_3 c i arg1 harg1 arg2 harg2 arg3 harg3 arg4 harg4 arg5 harg5 arg6 harg6 hc0 x0 x1 x2 xo4 xo5 = k7_pay3 x0 x1 x2 := by
  unfold out7_B_3
  rw [View.read_writes_eq_canon _ _ _ (cover7_B_3 c i arg1 harg1 arg2 harg2 arg3 harg3 arg4 harg4 arg5 harg5 arg6 harg6 hc0 x0 x1 x2 xo4 xo5)]
  unfold kernelRun7_B
  dsimp only
  rw [View.canon_unit_zero zeroOff7]
  simp only [View.readAt_eq_ld, harg1.read_unread, harg2.read_unread, harg3.read_unread, harg5.read_unread, harg6.read_unread, View.ld_unit_zero (S := S10000x64) zeroOff7, View.ld_unit_zero (S := S64x128) zeroOff7, View.ld_unit_zero (S := S1x128) zeroOff7]

/-- A running sum after the body where the condition fails: the adding store's payload over what the buffer held. -/
theorem out7_B_4_eq (c : Dev nD) (i : grid7.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond7_0 i) (x0 : Vec F S10000x64 .f32) (x1 : Vec F S64x128 .f32) (x2 : Vec F S1x128 .f32) (xo4 : Vec F S1x128 .f32) (xo5 : Vec F S1x128 .f32) :
    out7_B_4 c i arg1 harg1 arg2 harg2 arg3 harg3 arg4 harg4 arg5 harg5 arg6 harg6 hc0 x0 x1 x2 xo4 xo5 = k7_pay4 x0 x1 x2 xo4 := by
  unfold out7_B_4
  rw [View.read_writes_eq_canon _ _ _ (cover7_B_4 c i arg1 harg1 arg2 harg2 arg3 harg3 arg4 harg4 arg5 harg5 arg6 harg6 hc0 x0 x1 x2 xo4 xo5)]
  unfold kernelRun7_B
  dsimp only
  rw [View.canon_unit_zero zeroOff7]
  simp only [View.readAt_eq_ld, harg1.read_unread, harg2.read_unread, harg3.read_unread, harg5.read_unread, harg6.read_unread, View.ld_unit_zero (S := S10000x64) zeroOff7, View.ld_unit_zero (S := S64x128) zeroOff7, View.ld_unit_zero (S := S1x128) zeroOff7]
theorem out7_B_5_eq (c : Dev nD) (i : grid7.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond7_0 i) (x0 : Vec F S10000x64 .f32) (x1 : Vec F S64x128 .f32) (x2 : Vec F S1x128 .f32) (xo4 : Vec F S1x128 .f32) (xo5 : Vec F S1x128 .f32) :
    out7_B_5 c i arg1 harg1 arg2 harg2 arg3 harg3 arg4 harg4 arg5 harg5 arg6 harg6 hc0 x0 x1 x2 xo4 xo5 = k7_pay5 x0 x1 x2 xo5 := by
  unfold out7_B_5
  rw [View.read_writes_eq_canon _ _ _ (cover7_B_5 c i arg1 harg1 arg2 harg2 arg3 harg3 arg4 harg4 arg5 harg5 arg6 harg6 hc0 x0 x1 x2 xo4 xo5)]
  unfold kernelRun7_B
  dsimp only
  rw [View.canon_unit_zero zeroOff7]
  simp only [View.readAt_eq_ld, harg1.read_unread, harg2.read_unread, harg3.read_unread, harg5.read_unread, harg6.read_unread, View.ld_unit_zero (S := S10000x64) zeroOff7, View.ld_unit_zero (S := S64x128) zeroOff7, View.ld_unit_zero (S := S1x128) zeroOff7]

/-- A running sum after the body where the condition holds: the reset's zeros are stored, read back, and added to. -/
theorem out7_A_4_eq (c : Dev nD) (i : grid7.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond7_0 i) (x0 : Vec F S10000x64 .f32) (x1 : Vec F S64x128 .f32) (x2 : Vec F S1x128 .f32) :
    out7_A_4 c i arg1 harg1 arg2 harg2 arg3 harg3 arg4 harg4 arg5 harg5 arg6 harg6 hc0 x0 x1 x2 = k7_pay4 x0 x1 x2 k7_pay1 := by
  unfold out7_A_4
  rw [View.read_writes_eq_canon _ _ _ (cover7_A_4 c i arg1 harg1 arg2 harg2 arg3 harg3 arg4 harg4 arg5 harg5 arg6 harg6 hc0 x0 x1 x2)]
  unfold kernelRun7_A
  dsimp only
  sl_unfold_words
  rw [View.canon_cons_unit_zero (S := S1x128) zeroOff7, View.readCov_unit_zero (S := S1x128) _ zeroOff7]
  simp only [View.readAt_eq_ld, harg1.read_unread, harg2.read_unread, harg3.read_unread, harg5.read_unread, harg6.read_unread, View.ld_unit_zero (S := S10000x64) zeroOff7, View.ld_unit_zero (S := S64x128) zeroOff7, View.ld_unit_zero (S := S1x128) zeroOff7]
theorem out7_A_5_eq (c : Dev nD) (i : grid7.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond7_0 i) (x0 : Vec F S10000x64 .f32) (x1 : Vec F S64x128 .f32) (x2 : Vec F S1x128 .f32) :
    out7_A_5 c i arg1 harg1 arg2 harg2 arg3 harg3 arg4 harg4 arg5 harg5 arg6 harg6 hc0 x0 x1 x2 = k7_pay5 x0 x1 x2 k7_pay2 := by
  unfold out7_A_5
  rw [View.read_writes_eq_canon _ _ _ (cover7_A_5 c i arg1 harg1 arg2 harg2 arg3 harg3 arg4 harg4 arg5 harg5 arg6 harg6 hc0 x0 x1 x2)]
  unfold kernelRun7_A
  dsimp only
  sl_unfold_words
  rw [View.canon_cons_unit_zero (S := S1x128) zeroOff7, View.readCov_unit_zero (S := S1x128) _ zeroOff7]
  simp only [View.readAt_eq_ld, harg1.read_unread, harg2.read_unread, harg3.read_unread, harg5.read_unread, harg6.read_unread, View.ld_unit_zero (S := S10000x64) zeroOff7, View.ld_unit_zero (S := S64x128) zeroOff7, View.ld_unit_zero (S := S1x128) zeroOff7]

variable (V : (c : Dev nD) → (b : Ref sig .tc) → Buf (Elt F) ((c : Thread nD τ).loc b))

/-- The two running sums after point `n`: from the reset's zeros at the first point, each point adding its tile's. -/
def sums7 (c : Dev nD) : (n : ℕ) → n < cfg7.N → Vec F S1x128 .f32 × Vec F S1x128 .f32
  | 0, h => (k7_pay4 (iblk7 V c 0 ⟨0, h⟩) (iblk7 V c 1 ⟨0, h⟩) (iblk7 V c 2 ⟨0, h⟩) k7_pay1,
             k7_pay5 (iblk7 V c 0 ⟨0, h⟩) (iblk7 V c 1 ⟨0, h⟩) (iblk7 V c 2 ⟨0, h⟩) k7_pay2)
  | n + 1, h => (k7_pay4 (iblk7 V c 0 ⟨n + 1, h⟩) (iblk7 V c 1 ⟨n + 1, h⟩) (iblk7 V c 2 ⟨n + 1, h⟩) (sums7 c n (Nat.lt_of_succ_lt h)).1,
                 k7_pay5 (iblk7 V c 0 ⟨n + 1, h⟩) (iblk7 V c 1 ⟨n + 1, h⟩) (iblk7 V c 2 ⟨n + 1, h⟩) (sums7 c n (Nat.lt_of_succ_lt h)).2)

/-- What the outputs' staging buffers hold after point `n`: the point's tile of `x · W + b` and the two running sums,
    by induction on the point. -/
theorem outsAt7_eq (c : Dev nD) : ∀ (n : ℕ) (h : n < cfg7.N), outsAt7 V c n h
    = (k7_pay3 (iblk7 V c 0 ⟨n, h⟩) (iblk7 V c 1 ⟨n, h⟩) (iblk7 V c 2 ⟨n, h⟩), (sums7 V c n h).1, (sums7 V c n h).2)
  | 0, h => by
    rw [outsAt7_A V c ⟨0, h⟩ rfl, out7_A_3_eq, out7_A_4_eq, out7_A_5_eq]; rfl
  | n + 1, h => by
    have hN : cfg7.N = 10 := N_7
    have hB : ¬(⟨n + 1, h⟩ : Fin cfg7.N).val % 10 = 0 := by dsimp only; omega
    rw [outsAt7_B V c ⟨n + 1, h⟩ hB, out7_B_3_eq, out7_B_4_eq, out7_B_5_eq]
    have ih := outsAt7_eq c n (Nat.lt_of_succ_lt h)
    show (_, k7_pay4 _ _ _ (outsAt7 V c n _).2.1, k7_pay5 _ _ _ (outsAt7 V c n _).2.2) = _
    rw [ih]; rfl

end Closed

/-! ## The payloads over the extended reals, index by index -/

/-- The product's operand indices: the left operand is read at (row of the result, contracted coordinate), -/
theorem lhsDot7_0 (i : S10000x128.Idx) (q : dot_S10000x64_S64x128_S10000x128_1_0_0_1_n_n.contr.Idx) : (dot_S10000x64_S64x128_S10000x128_1_0_0_1_n_n.lhsIdx i q 0).val = (i 0).val := by
  unfold DotDims.lhsIdx
  rw [dif_neg (show ¬(0 : Fin S10000x64.rank) ∈ dot_S10000x64_S64x128_S10000x128_1_0_0_1_n_n.lhsBatch by decide), dif_pos (show (0 : Fin S10000x64.rank) ∈ dot_S10000x64_S64x128_S10000x128_1_0_0_1_n_n.lhsNonContracting by decide)]
  rfl
theorem lhsDot7_1 (i : S10000x128.Idx) (q : dot_S10000x64_S64x128_S10000x128_1_0_0_1_n_n.contr.Idx) : (dot_S10000x64_S64x128_S10000x128_1_0_0_1_n_n.lhsIdx i q 1).val = (q ⟨0, by decide⟩).val :=
  dot_S10000x64_S64x128_S10000x128_1_0_0_1_n_n.lhsIdx_val_of_single rfl i q
/-- the right operand at (contracted coordinate, column of the result). -/
theorem rhsDot7_0 (i : S10000x128.Idx) (q : dot_S10000x64_S64x128_S10000x128_1_0_0_1_n_n.contr.Idx) : (dot_S10000x64_S64x128_S10000x128_1_0_0_1_n_n.rhsIdx i q 0).val = (q ⟨0, by decide⟩).val :=
  dot_S10000x64_S64x128_S10000x128_1_0_0_1_n_n.rhsIdx_val_of_single rfl i q
theorem rhsDot7_1 (i : S10000x128.Idx) (q : dot_S10000x64_S64x128_S10000x128_1_0_0_1_n_n.contr.Idx) : (dot_S10000x64_S64x128_S10000x128_1_0_0_1_n_n.rhsIdx i q 1).val = (i 1).val := by
  unfold DotDims.rhsIdx
  rw [dif_neg (show ¬(1 : Fin S64x128.rank) ∈ dot_S10000x64_S64x128_S10000x128_1_0_0_1_n_n.rhsBatch by decide), dif_pos (show (1 : Fin S64x128.rank) ∈ dot_S10000x64_S64x128_S10000x128_1_0_0_1_n_n.rhsNonContracting by decide)]
  rfl

/-- The tile's product at (r, j): the sum over the contracted coordinate. -/
theorem matmul7_apply (x : FVec Ideal S10000x64 .f32) (w : FVec Ideal S64x128 .f32) (r : Fin 10000) (j : Fin 128) :
    matmul dot_S10000x64_S64x128_S10000x128_1_0_0_1_n_n none x w (constant S10000x128 .f32 0x00000000#32) (ix2 r j) = ∑ l : Fin 64, x (ix2 r l) * w (ix2 l j) := by
  simp only [matmul]
  rw [Ideal.matmul_constant_zero_apply, ← Equiv.sum_comp (contrEquiv1 dot_S10000x64_S64x128_S10000x128_1_0_0_1_n_n 64 rfl rfl).symm]
  refine Finset.sum_congr rfl fun l _ => ?_
  have hk := contrEquiv1_symm_val dot_S10000x64_S64x128_S10000x128_1_0_0_1_n_n 64 rfl rfl l
  have el : dot_S10000x64_S64x128_S10000x128_1_0_0_1_n_n.lhsIdx (ix2 r j) ((contrEquiv1 dot_S10000x64_S64x128_S10000x128_1_0_0_1_n_n 64 rfl rfl).symm l) = ix2 r l := funext fun a => Fin.ext (by
    match a with
    | ⟨0, _⟩ => exact lhsDot7_0 _ _
    | ⟨1, _⟩ => exact (lhsDot7_1 _ _).trans hk)
  have er : dot_S10000x64_S64x128_S10000x128_1_0_0_1_n_n.rhsIdx (ix2 r j) ((contrEquiv1 dot_S10000x64_S64x128_S10000x128_1_0_0_1_n_n 64 rfl rfl).symm l) = ix2 l j := funext fun a => Fin.ext (by
    match a with
    | ⟨0, _⟩ => exact (rhsDot7_0 _ _).trans hk
    | ⟨1, _⟩ => exact rhsDot7_1 _ _)
  rw [el, er]

/-- The tile of `x · W + b` at (r, j). -/
theorem pay7_3_apply (x0 : Vec Ideal S10000x64 .f32) (x1 : Vec Ideal S64x128 .f32) (x2 : Vec Ideal S1x128 .f32) (r : Fin 10000) (j : Fin 128) :
    k7_pay3 x0 x1 x2 (ix2 r j) = (∑ l : Fin 64, x0 (ix2 r l) * x1 (ix2 l j)) + x2 (ix2 0 j) := by
  unfold k7_pay3
  simp only [shapeCast_self, addf_apply, matmul7_apply, broadcastTo_1b_ab_apply]

/-- Summing a tile over its rows, read at column `j`: the inserted coordinate is the row. -/
theorem lift7 (j : Fin 128) (r : Fin 10000) : reduces_S10000x128_S128.lift (ix1 j) r = ix2 r j :=
  funext fun a => Fin.ext (by
    match a with
    | ⟨0, _⟩ => rfl
    | ⟨1, _⟩ => rfl)

/-- The running column sum after a point: what it held, plus the tile's column sum. -/
theorem pay7_4_apply (x0 : Vec Ideal S10000x64 .f32) (x1 : Vec Ideal S64x128 .f32) (x2 : Vec Ideal S1x128 .f32) (xo : Vec Ideal S1x128 .f32) (j : Fin 128) :
    k7_pay4 x0 x1 x2 xo (ix2 0 j) = xo (ix2 0 j) + ∑ r : Fin 10000, k7_pay3 x0 x1 x2 (ix2 r j) := by
  unfold k7_pay4
  simp only [shapeCast_self, addf_apply, shapeCast_a_1a_apply]
  refine congrArg (xo (ix2 0 j) + ·) ?_
  refine (Ideal.multiReduction_add_single (k7_pay3 x0 x1 x2) _ reduces_S10000x128_S128 _ _ (ix1 j)).trans ?_
  exact Finset.sum_congr rfl fun r _ => congrArg (k7_pay3 x0 x1 x2) (lift7 j r)

/-- The running column sum of squares likewise. -/
theorem pay7_5_apply (x0 : Vec Ideal S10000x64 .f32) (x1 : Vec Ideal S64x128 .f32) (x2 : Vec Ideal S1x128 .f32) (xo : Vec Ideal S1x128 .f32) (j : Fin 128) :
    k7_pay5 x0 x1 x2 xo (ix2 0 j) = xo (ix2 0 j) + ∑ r : Fin 10000, k7_pay3 x0 x1 x2 (ix2 r j) * k7_pay3 x0 x1 x2 (ix2 r j) := by
  unfold k7_pay5
  simp only [shapeCast_self, addf_apply, shapeCast_a_1a_apply]
  refine congrArg (xo (ix2 0 j) + ·) ?_
  refine (Ideal.multiReduction_add_single (mulf (k7_pay3 x0 x1 x2) (k7_pay3 x0 x1 x2)) _ reduces_S10000x128_S128 _ _ (ix1 j)).trans ?_
  exact Finset.sum_congr rfl fun r _ => congrArg (fun y => k7_pay3 x0 x1 x2 y * k7_pay3 x0 x1 x2 y) (lift7 j r)

/-- The reset stores zeros. -/
theorem pay7_1_apply (y : S1x128.Idx) : k7_pay1 (F := Ideal) y = 0 := by
  unfold k7_pay1
  simp only [broadcast_apply, Scalar.ofBits, Ideal.ofBits_def, Ideal.ofBits_zero_f32]
theorem pay7_2_apply (y : S1x128.Idx) : k7_pay2 (F := Ideal) y = 0 := by
  unfold k7_pay2
  simp only [broadcast_apply, Scalar.ofBits, Ideal.ofBits_def, Ideal.ofBits_zero_f32]

/-! ## The region's three output arrays over the extended reals -/

section Value

variable (V : (c : Dev nD) → (b : Ref sig .tc) → Buf (Elt Ideal) ((c : Thread nD τ).loc b))

/-- `x · W + b` of three arrays, index by index: the bias row is read at the index's lane. -/
@[irreducible] def lin7 (x : FVec Ideal S100000x64 .f32) (w : FVec Ideal S64x128 .f32) (b : FVec Ideal S1x128 .f32) : FVec Ideal S100000x128 .f32 :=
  fun i => (∑ l : Fin 64, x (ix2 (i 0) l) * w (ix2 l (i 1))) + b (ix2 0 (i 1))

/-- The printed index maps, decided over the ten points: the tiles of `x` and of the result move with the point, the
    weights, the bias row and the two sums stay at block 0. -/
theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0 :=
  (by decide +kernel : ∀ t : Fin grid7.N, _)

/-- Row `r` of tile `t` is row `t · 10000 + r` of the array. -/
theorem row_lt7 (t : Fin cfg7.N) (r : Fin 10000) : t.val * 10000 + r.val < 100000 := by
  have hN : cfg7.N = 10 := N_7
  have := t.isLt; have := r.isLt; omega

/-- The tile point `t` computes, at (r, j): `x · W + b` of the arrays as the region finds them, at row `t · 10000 + r`. -/
theorem tile7_apply (c : Dev nD) (t : Fin cfg7.N) (r : Fin 10000) (j : Fin 128) :
    k7_pay3 (iblk7 V c 0 t) (iblk7 V c 1 t) (iblk7 V c 2 t) (ix2 r j)
      = lin7 ((dat7 V c).A 0) ((dat7 V c).A 1) ((dat7 V c).A 2) (ix2 ⟨t.val * 10000 + r.val, row_lt7 t r⟩ j) := by
  rw [pay7_3_apply, A_eq7, A_eq7, A_eq7]
  unfold lin7
  obtain ⟨e0, e1, e2, e3, e4, e5, e6, e7, e8, e9, e10, e11⟩ := idx_facts7 t
  have h0 : ∀ l : Fin 64, ((cfg7.win 0).blk t).view.emb (ix2 r l) = ix2 (⟨t.val * 10000 + r.val, row_lt7 t r⟩ : Fin 100000) l := fun l => by
    funext a; apply Fin.ext
    match a with
    | ⟨0, _⟩ => show win7_0.index t (0 : Fin 2) * 10000 + 1 * r.val = t.val * 10000 + r.val; omega
    | ⟨1, _⟩ => show win7_0.index t (1 : Fin 2) * 64 + 1 * l.val = l.val; omega
  have h1 : ∀ l : Fin 64, ((cfg7.win 1).blk t).view.emb (ix2 l j) = ix2 l j := fun l => by
    funext a; apply Fin.ext
    match a with
    | ⟨0, _⟩ => show win7_1.index t (0 : Fin 2) * 64 + 1 * l.val = l.val; omega
    | ⟨1, _⟩ => show win7_1.index t (1 : Fin 2) * 128 + 1 * j.val = j.val; omega
  have h2 : ((cfg7.win 2).blk t).view.emb (ix2 0 j) = ix2 0 j := by
    funext a; apply Fin.ext
    match a with
    | ⟨0, _⟩ => show win7_2.index t (0 : Fin 2) * 1 + 1 * 0 = 0; omega
    | ⟨1, _⟩ => show win7_2.index t (1 : Fin 2) * 128 + 1 * j.val = j.val; omega
  have b0 : ∀ l : Fin 64, iblk7 V c 0 t (ix2 r l) = V c (Pipeline.arrRef spec7 0) (ix2 (⟨t.val * 10000 + r.val, row_lt7 t r⟩ : Fin 100000) l) :=
    fun l => congrArg (V c (Pipeline.arrRef spec7 0)) (h0 l)
  have b1 : ∀ l : Fin 64, iblk7 V c 1 t (ix2 l j) = V c (Pipeline.arrRef spec7 1) (ix2 l j) :=
    fun l => congrArg (V c (Pipeline.arrRef spec7 1)) (h1 l)
  have b2 : iblk7 V c 2 t (ix2 0 j) = V c (Pipeline.arrRef spec7 2) (ix2 0 j) :=
    congrArg (V c (Pipeline.arrRef spec7 2)) h2
  simp only [b0, b1, b2] <;> rfl

/-! ### Output 3: the ten tiles fill the array -/

/-- What point `t` writes back to output 3 is block `t` of `x · W + b` of the arrays as the region finds them. -/
theorem flushed7_3_eq (c : Dev nD) (t : Fin cfg7.N) :
    (dat7 V c).flushed 3 t = ((cfg7.win 3).blk t).view.read (Elt Ideal)
      (lin7 ((dat7 V c).A 0) ((dat7 V c).A 1) ((dat7 V c).A 2)) := by
  show (cfg7.win 3).cut (grid7.coords t) ((dat7 V c).after 3 t) = _
  rw [after7_3, outsAt7_eq]
  obtain ⟨e0, e1, e2, e3, e4, e5, e6, e7, e8, e9, e10, e11⟩ := idx_facts7 t
  funext y
  rw [View.read_apply, cast_eq]
  have hy0 : (y 0).val < 10000 := (y 0).isLt
  have hy1 : (y 1).val < 128 := (y 1).isLt
  show k7_pay3 (iblk7 V c 0 t) (iblk7 V c 1 t) (iblk7 V c 2 t) y
    = lin7 ((dat7 V c).A 0) ((dat7 V c).A 1) ((dat7 V c).A 2) (((cfg7.win 3).blk t).view.emb y)
  have hy : y = ix2 (⟨(y 0).val, hy0⟩ : Fin 10000) (⟨(y 1).val, hy1⟩ : Fin 128) := eq_ix2 y
  have he : ((cfg7.win 3).blk t).view.emb y
      = ix2 (⟨t.val * 10000 + (y 0).val, row_lt7 t ⟨(y 0).val, hy0⟩⟩ : Fin 100000) (⟨(y 1).val, hy1⟩ : Fin 128) := by
    funext a; apply Fin.ext
    match a with
    | ⟨0, _⟩ => show win7_3.index t (0 : Fin 2) * 10000 + 1 * (y 0).val = t.val * 10000 + (y 0).val; omega
    | ⟨1, _⟩ => show win7_3.index t (1 : Fin 2) * 128 + 1 * (y 1).val = (y 1).val; omega
  rw [he]
  have h := tile7_apply V c t ⟨(y 0).val, hy0⟩ ⟨(y 1).val, hy1⟩
  rw [← hy] at h
  exact h

/-- An index of output 3's array is in point `t`'s block iff each coordinate is in the block's range on its axis. -/
theorem mem_blk7_3 (t : Fin cfg7.N) (i : S100000x128.Idx) :
    i ∈ ((cfg7.win 3).blk t).view.set ↔ ∀ a : Fin 2, win7_3.index t a * S10000x128.size a ≤ (i a).val ∧ (i a).val < win7_3.index t a * S10000x128.size a + S10000x128.size a := by
  show i ∈ ((View.whole (Pipeline.arrRef spec7 3)).slice (win7_3.rect t)).set ↔ _
  rw [View.set_slice_whole, Rect.mem_set_unit]
  exact Iff.rfl

/-- The ten tiles fill the array: row `r` is in the block of point `r / 10000`. -/
theorem covered7_3 (i : S100000x128.Idx) :
    ∃ t : Fin cfg7.N, (cfg7.win 3).flush t = true ∧ i ∈ ((cfg7.win 3).blk t).view.set := by
  have hi0 : (i 0).val < 100000 := (i 0).isLt
  have hi1 : (i 1).val < 128 := (i 1).isLt
  have hN : cfg7.N = 10 := N_7
  let t : Fin cfg7.N := ⟨(i 0).val / 10000, by omega⟩
  obtain ⟨e0, e1, e2, e3, e4, e5, e6, e7, e8, e9, e10, e11⟩ := idx_facts7 t
  have ht : t.val = (i 0).val / 10000 := rfl
  refine ⟨t, flush7_3 t, ?_⟩
  rw [mem_blk7_3]
  intro a
  match a with
  | ⟨0, _⟩ => show win7_3.index t (0 : Fin 2) * 10000 ≤ (i 0).val ∧ (i 0).val < win7_3.index t (0 : Fin 2) * 10000 + 10000; omega
  | ⟨1, _⟩ => show win7_3.index t (1 : Fin 2) * 128 ≤ (i 1).val ∧ (i 1).val < win7_3.index t (1 : Fin 2) * 128 + 128; omega

/-- Output 3's array after the region: `x · W + b` of the entry contents, everywhere. -/
theorem final7_3 (c : Dev nD) : (dat7 V c).arrAt 3 cfg7.N
    = lin7 ((dat7 V c).A 0) ((dat7 V c).A 1) ((dat7 V c).A 2) :=
  (dat7 V c).arrAt_eq_of_cover 3 _ (fun t _ => flushed7_3_eq V c t) covered7_3

/-! ### Outputs 4 and 5: the running sums after the last point are the column sums -/

/-- The column sum of tile `s` (zero past the grid). -/
def tileSum7 (c : Dev nD) (j : Fin 128) (s : ℕ) : EReal :=
  if hs : s < cfg7.N then ∑ r : Fin 10000, k7_pay3 (iblk7 V c 0 ⟨s, hs⟩) (iblk7 V c 1 ⟨s, hs⟩) (iblk7 V c 2 ⟨s, hs⟩) (ix2 r j) else 0
/-- The column sum of squares of tile `s` (zero past the grid). -/
def tileSumSq7 (c : Dev nD) (j : Fin 128) (s : ℕ) : EReal :=
  if hs : s < cfg7.N then ∑ r : Fin 10000, k7_pay3 (iblk7 V c 0 ⟨s, hs⟩) (iblk7 V c 1 ⟨s, hs⟩) (iblk7 V c 2 ⟨s, hs⟩) (ix2 r j)
    * k7_pay3 (iblk7 V c 0 ⟨s, hs⟩) (iblk7 V c 1 ⟨s, hs⟩) (iblk7 V c 2 ⟨s, hs⟩) (ix2 r j) else 0

/-- After point `n` the first running sum holds, at lane `j`, the column sums of tiles `0 … n` added up. -/
theorem sums7_1_apply (c : Dev nD) (j : Fin 128) : ∀ (n : ℕ) (h : n < cfg7.N),
    (sums7 V c n h).1 (ix2 0 j) = ∑ s ∈ Finset.range (n + 1), tileSum7 V c j s
  | 0, h => by
    show k7_pay4 _ _ _ k7_pay1 (ix2 0 j) = _
    rw [pay7_4_apply, pay7_1_apply, zero_add, Finset.sum_range_one]
    unfold tileSum7; rw [dif_pos h]
  | n + 1, h => by
    show k7_pay4 _ _ _ (sums7 V c n _).1 (ix2 0 j) = _
    rw [pay7_4_apply, sums7_1_apply c j n (Nat.lt_of_succ_lt h), Finset.sum_range_succ _ (n + 1)]
    congr 1
    unfold tileSum7; rw [dif_pos h]
/-- The second likewise, with the squares. -/
theorem sums7_2_apply (c : Dev nD) (j : Fin 128) : ∀ (n : ℕ) (h : n < cfg7.N),
    (sums7 V c n h).2 (ix2 0 j) = ∑ s ∈ Finset.range (n + 1), tileSumSq7 V c j s
  | 0, h => by
    show k7_pay5 _ _ _ k7_pay2 (ix2 0 j) = _
    rw [pay7_5_apply, pay7_2_apply, zero_add, Finset.sum_range_one]
    unfold tileSumSq7; rw [dif_pos h]
  | n + 1, h => by
    show k7_pay5 _ _ _ (sums7 V c n _).2 (ix2 0 j) = _
    rw [pay7_5_apply, sums7_2_apply c j n (Nat.lt_of_succ_lt h), Finset.sum_range_succ _ (n + 1)]
    congr 1
    unfold tileSumSq7; rw [dif_pos h]

/-- The ten tiles' column sums add up to the column sum over the hundred thousand rows. -/
theorem total7_1 (c : Dev nD) (j : Fin 128) :
    ∑ s ∈ Finset.range 10, tileSum7 V c j s = ∑ i : Fin 100000, lin7 ((dat7 V c).A 0) ((dat7 V c).A 1) ((dat7 V c).A 2) (ix2 i j) := by
  rw [Finset.sum_range, ← Cert.Math.sum_tiles (fun i => lin7 ((dat7 V c).A 0) ((dat7 V c).A 1) ((dat7 V c).A 2) (ix2 i j))]
  refine Finset.sum_congr rfl fun s _ => ?_
  have hs : s.val < cfg7.N := by rw [show cfg7.N = 10 from N_7]; exact s.isLt
  unfold tileSum7; rw [dif_pos hs]
  refine Finset.sum_congr rfl fun r _ => ?_
  exact tile7_apply V c ⟨s.val, hs⟩ r j

/-- The column sums, as contents of a [1,128] array. -/
@[irreducible] def colSums7 (c : Dev nD) : FVec Ideal S1x128 .f32 :=
  fun y => ∑ i : Fin 100000, lin7 ((dat7 V c).A 0) ((dat7 V c).A 1) ((dat7 V c).A 2) (ix2 i (y 1))

/-- The one write-back of output 4, after the last point, writes them. -/
theorem flushed7_4_eq (c : Dev nD) (t : Fin cfg7.N) (hf : (cfg7.win 4).flush t = true) :
    (dat7 V c).flushed 4 t = ((cfg7.win 4).blk t).view.read (Elt Ideal) (colSums7 V c) := by
  have hN : cfg7.N = 10 := N_7
  have h9 : t.val = 9 := by have := (flush7_4 t).mp hf; have := t.isLt; omega
  obtain ⟨e0, e1, e2, e3, e4, e5, e6, e7, e8, e9, e10, e11⟩ := idx_facts7 t
  show (cfg7.win 4).cut (grid7.coords t) ((dat7 V c).after 4 t) = _
  rw [after7_4, outsAt7_eq]
  funext y
  rw [View.read_apply, cast_eq]
  have hy0 : (y 0).val < 1 := (y 0).isLt
  have hy1 : (y 1).val < 128 := (y 1).isLt
  have hS := sums7_1_apply V c ⟨(y 1).val, hy1⟩ t.val t.isLt
  generalize sums7 V c t.val t.isLt = S at hS ⊢
  show S.1 y = colSums7 V c (((cfg7.win 4).blk t).view.emb y)
  have hy : y = ix2 (0 : Fin 1) (⟨(y 1).val, hy1⟩ : Fin 128) := by
    funext a; apply Fin.ext
    match a with
    | ⟨0, _⟩ => show (y 0).val = 0; omega
    | ⟨1, _⟩ => rfl
  have he : ((cfg7.win 4).blk t).view.emb y = ix2 (0 : Fin 1) (⟨(y 1).val, hy1⟩ : Fin 128) := by
    funext a; apply Fin.ext
    match a with
    | ⟨0, _⟩ => show win7_4.index t (0 : Fin 2) * 1 + 1 * (y 0).val = 0; omega
    | ⟨1, _⟩ => show win7_4.index t (1 : Fin 2) * 128 + 1 * (y 1).val = (y 1).val; omega
  rw [he, congrArg S.1 hy, hS, show t.val + 1 = 10 from by omega]
  unfold colSums7
  exact total7_1 V c ⟨(y 1).val, hy1⟩

/-- The last point's block is the whole [1,128] array. -/
theorem covered7_4 (i : S1x128.Idx) :
    ∃ t : Fin cfg7.N, (cfg7.win 4).flush t = true ∧ i ∈ ((cfg7.win 4).blk t).view.set := by
  have hN : cfg7.N = 10 := N_7
  have hi0 : (i 0).val < 1 := (i 0).isLt
  have hi1 : (i 1).val < 128 := (i 1).isLt
  let t : Fin cfg7.N := ⟨9, by omega⟩
  obtain ⟨e0, e1, e2, e3, e4, e5, e6, e7, e8, e9, e10, e11⟩ := idx_facts7 t
  refine ⟨t, (flush7_4 t).mpr rfl, ?_⟩
  show i ∈ ((View.whole (Pipeline.arrRef spec7 4)).slice (win7_4.rect t)).set
  rw [View.set_slice_whole, Rect.mem_set_unit]
  intro a
  match a with
  | ⟨0, _⟩ => show win7_4.index t (0 : Fin 2) * 1 ≤ (i 0).val ∧ (i 0).val < win7_4.index t (0 : Fin 2) * 1 + 1; omega
  | ⟨1, _⟩ => show win7_4.index t (1 : Fin 2) * 128 ≤ (i 1).val ∧ (i 1).val < win7_4.index t (1 : Fin 2) * 128 + 128; omega

/-- Output 4's array after the region. -/
theorem final7_4 (c : Dev nD) : (dat7 V c).arrAt 4 cfg7.N = colSums7 V c :=
  (dat7 V c).arrAt_eq_of_cover 4 _ (flushed7_4_eq V c) covered7_4

/-- The ten tiles' column sums of squares add up to the column sum of squares over the hundred thousand rows. -/
theorem total7_2 (c : Dev nD) (j : Fin 128) :
    ∑ s ∈ Finset.range 10, tileSumSq7 V c j s = ∑ i : Fin 100000, lin7 ((dat7 V c).A 0) ((dat7 V c).A 1) ((dat7 V c).A 2) (ix2 i j) * lin7 ((dat7 V c).A 0) ((dat7 V c).A 1) ((dat7 V c).A 2) (ix2 i j) := by
  rw [Finset.sum_range, ← Cert.Math.sum_tiles (fun i => lin7 ((dat7 V c).A 0) ((dat7 V c).A 1) ((dat7 V c).A 2) (ix2 i j) * lin7 ((dat7 V c).A 0) ((dat7 V c).A 1) ((dat7 V c).A 2) (ix2 i j))]
  refine Finset.sum_congr rfl fun s _ => ?_
  have hs : s.val < cfg7.N := by rw [show cfg7.N = 10 from N_7]; exact s.isLt
  unfold tileSumSq7; rw [dif_pos hs]
  refine Finset.sum_congr rfl fun r _ => ?_
  rw [tile7_apply V c ⟨s.val, hs⟩ r j]

/-- The column sums of squares, as contents of a [1,128] array. -/
@[irreducible] def colSumSqs7 (c : Dev nD) : FVec Ideal S1x128 .f32 :=
  fun y => ∑ i : Fin 100000, lin7 ((dat7 V c).A 0) ((dat7 V c).A 1) ((dat7 V c).A 2) (ix2 i (y 1)) * lin7 ((dat7 V c).A 0) ((dat7 V c).A 1) ((dat7 V c).A 2) (ix2 i (y 1))

/-- The one write-back of output 5, after the last point, writes them. -/
theorem flushed7_5_eq (c : Dev nD) (t : Fin cfg7.N) (hf : (cfg7.win 5).flush t = true) :
    (dat7 V c).flushed 5 t = ((cfg7.win 5).blk t).view.read (Elt Ideal) (colSumSqs7 V c) := by
  have hN : cfg7.N = 10 := N_7
  have h9 : t.val = 9 := by have := (flush7_5 t).mp hf; have := t.isLt; omega
  obtain ⟨e0, e1, e2, e3, e4, e5, e6, e7, e8, e9, e10, e11⟩ := idx_facts7 t
  show (cfg7.win 5).cut (grid7.coords t) ((dat7 V c).after 5 t) = _
  rw [after7_5, outsAt7_eq]
  funext y
  rw [View.read_apply, cast_eq]
  have hy0 : (y 0).val < 1 := (y 0).isLt
  have hy1 : (y 1).val < 128 := (y 1).isLt
  have hS := sums7_2_apply V c ⟨(y 1).val, hy1⟩ t.val t.isLt
  generalize sums7 V c t.val t.isLt = S at hS ⊢
  show S.2 y = colSumSqs7 V c (((cfg7.win 5).blk t).view.emb y)
  have hy : y = ix2 (0 : Fin 1) (⟨(y 1).val, hy1⟩ : Fin 128) := by
    funext a; apply Fin.ext
    match a with
    | ⟨0, _⟩ => show (y 0).val = 0; omega
    | ⟨1, _⟩ => rfl
  have he : ((cfg7.win 5).blk t).view.emb y = ix2 (0 : Fin 1) (⟨(y 1).val, hy1⟩ : Fin 128) := by
    funext a; apply Fin.ext
    match a with
    | ⟨0, _⟩ => show win7_5.index t (0 : Fin 2) * 1 + 1 * (y 0).val = 0; omega
    | ⟨1, _⟩ => show win7_5.index t (1 : Fin 2) * 128 + 1 * (y 1).val = (y 1).val; omega
  rw [he, congrArg S.2 hy, hS, show t.val + 1 = 10 from by omega]
  unfold colSumSqs7
  exact total7_2 V c ⟨(y 1).val, hy1⟩

/-- The last point's block is the whole [1,128] array. -/
theorem covered7_5 (i : S1x128.Idx) :
    ∃ t : Fin cfg7.N, (cfg7.win 5).flush t = true ∧ i ∈ ((cfg7.win 5).blk t).view.set := by
  have hN : cfg7.N = 10 := N_7
  have hi0 : (i 0).val < 1 := (i 0).isLt
  have hi1 : (i 1).val < 128 := (i 1).isLt
  let t : Fin cfg7.N := ⟨9, by omega⟩
  obtain ⟨e0, e1, e2, e3, e4, e5, e6, e7, e8, e9, e10, e11⟩ := idx_facts7 t
  refine ⟨t, (flush7_5 t).mpr rfl, ?_⟩
  show i ∈ ((View.whole (Pipeline.arrRef spec7 5)).slice (win7_5.rect t)).set
  rw [View.set_slice_whole, Rect.mem_set_unit]
  intro a
  match a with
  | ⟨0, _⟩ => show win7_5.index t (0 : Fin 2) * 1 ≤ (i 0).val ∧ (i 0).val < win7_5.index t (0 : Fin 2) * 1 + 1; omega
  | ⟨1, _⟩ => show win7_5.index t (1 : Fin 2) * 128 ≤ (i 1).val ∧ (i 1).val < win7_5.index t (1 : Fin 2) * 128 + 128; omega

/-- Output 5's array after the region. -/
theorem final7_5 (c : Dev nD) : (dat7 V c).arrAt 5 cfg7.N = colSumSqs7 V c :=
  (dat7 V c).arrAt_eq_of_cover 5 _ (flushed7_5_eq V c) covered7_5

/-! ### The three arrays in the shared vocabulary -/

/-- Output 3 after the region, index by index: the linear layer of the entry contents. -/
theorem val7_h (c : Dev nD) (i : Fin 100000) (j : Fin 128) :
    (dat7 (F := Ideal) V c).arrAt 3 cfg7.N (ix2 i j)
      = Cert.Math.lin (Cert.Math.at2 ((dat7 (F := Ideal) V c).A 0)) (Cert.Math.at2 ((dat7 (F := Ideal) V c).A 1)) (fun j => Cert.Math.at2 ((dat7 (F := Ideal) V c).A 2) 0 j) i j := by
  rw [final7_3]; unfold lin7; rfl

/-- Output 4 after the region: the column sums of the linear layer's result. -/
theorem val7_s (c : Dev nD) (j : Fin 128) :
    (dat7 (F := Ideal) V c).arrAt 4 cfg7.N (ix2 0 j)
      = Cert.Math.colSum (Cert.Math.lin (Cert.Math.at2 ((dat7 (F := Ideal) V c).A 0)) (Cert.Math.at2 ((dat7 (F := Ideal) V c).A 1)) (fun j => Cert.Math.at2 ((dat7 (F := Ideal) V c).A 2) 0 j)) j := by
  rw [final7_4]; unfold colSums7 lin7; rfl

/-- Output 5 after the region: the column sums of its squares. -/
theorem val7_ss (c : Dev nD) (j : Fin 128) :
    (dat7 (F := Ideal) V c).arrAt 5 cfg7.N (ix2 0 j)
      = Cert.Math.colSumSq (Cert.Math.lin (Cert.Math.at2 ((dat7 (F := Ideal) V c).A 0)) (Cert.Math.at2 ((dat7 (F := Ideal) V c).A 1)) (fun j => Cert.Math.at2 ((dat7 (F := Ideal) V c).A 2) 0 j)) j := by
  rw [final7_5]; unfold colSumSqs7 lin7; rfl

end Value

end Cert.KernelIdeal.Hand

end
-- ==== Proof.KI.ValLS9.lean ====
import proofs.«413302_j72232759984513_1_alg».proof.Proof.KI.RegLS9
import proofs.«413302_j72232759984513_1_alg».proof.Proof.Math.Spec
import proofs.«413302_j72232759984513_1_alg».proof.Proof.Math.Tiles
import Idealize.ShloMosaic.Lib.ValueIdx
import Idealize.ShloMosaic.Lib.Pipeline.Value
import Idealize.ShloMosaic.Lib.ValueLayout
import Idealize.ShloMosaic.PureOps.Ideal.Laws

/-! # Kernel region 9 over the extended reals: the three output arrays, index by index

Every grid point writes back its tile of 10000 rows of `x · W + b`; the ten tiles fill the 100000 rows. The two running
sums start from zero at the first point, each point adds its tile's column sums (of the values, of their squares), and
the last point writes them back: ten tiles' sums added up are the sums over all rows. -/

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

/-! ## What each case of the body leaves, in closed form (at any float instance) -/

section Closed

variable {F : FTy → Type} [FloatOps F]

/-- The zero offsets, however spelt. -/
theorem zeroOff9 : (![0, 0] : Fin 2 → Nat) = fun _ => 0 := funext fun a => by fin_cases a <;> rfl

/-- Output 3 after the body, either case: its one covering store's payload, whose loads read the whole input buffers. -/
theorem out9_A_3_eq (c : Dev nD) (i : grid9.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond9_0 i) (x0 : Vec F S10000x128 .f32) (x1 : Vec F S128x128 .f32) (x2 : Vec F S1x128 .f32) :
    out9_A_3 c i arg1 harg1 arg2 harg2 arg3 harg3 arg4 harg4 arg5 harg5 arg6 harg6 hc0 x0 x1 x2 = k9_pay3 x0 x1 x2 := by
  unfold out9_A_3
  rw [View.read_writes_eq_canon _ _ _ (cover9_A_3 c i arg1 harg1 arg2 harg2 arg3 harg3 arg4 harg4 arg5 harg5 arg6 harg6 hc0 x0 x1 x2)]
  unfold kernelRun9_A
  dsimp only
  rw [View.canon_unit_zero zeroOff9]
  simp only [View.readAt_eq_ld, harg1.read_unread, harg2.read_unread, harg3.read_unread, harg5.read_unread, harg6.read_unread, View.ld_unit_zero (S := S10000x128) zeroOff9, View.ld_unit_zero (S := S128x128) zeroOff9, View.ld_unit_zero (S := S1x128) zeroOff9]
theorem out9_B_3_eq (c : Dev nD) (i : grid9.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond9_0 i) (x0 : Vec F S10000x128 .f32) (x1 : Vec F S128x128 .f32) (x2 : Vec F S1x128 .f32) (xo4 : Vec F S1x128 .f32) (xo5 : Vec F S1x128 .f32) :
    out9_B_3 c i arg1 harg1 arg2 harg2 arg3 harg3 arg4 harg4 arg5 harg5 arg6 harg6 hc0 x0 x1 x2 xo4 xo5 = k9_pay3 x0 x1 x2 := by
  unfold out9_B_3
  rw [View.read_writes_eq_canon _ _ _ (cover9_B_3 c i arg1 harg1 arg2 harg2 arg3 harg3 arg4 harg4 arg5 harg5 arg6 harg6 hc0 x0 x1 x2 xo4 xo5)]
  unfold kernelRun9_B
  dsimp only
  rw [View.canon_unit_zero zeroOff9]
  simp only [View.readAt_eq_ld, harg1.read_unread, harg2.read_unread, harg3.read_unread, harg5.read_unread, harg6.read_unread, View.ld_unit_zero (S := S10000x128) zeroOff9, View.ld_unit_zero (S := S128x128) zeroOff9, View.ld_unit_zero (S := S1x128) zeroOff9]

/-- A running sum after the body where the condition fails: the adding store's payload over what the buffer held. -/
theorem out9_B_4_eq (c : Dev nD) (i : grid9.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond9_0 i) (x0 : Vec F S10000x128 .f32) (x1 : Vec F S128x128 .f32) (x2 : Vec F S1x128 .f32) (xo4 : Vec F S1x128 .f32) (xo5 : Vec F S1x128 .f32) :
    out9_B_4 c i arg1 harg1 arg2 harg2 arg3 harg3 arg4 harg4 arg5 harg5 arg6 harg6 hc0 x0 x1 x2 xo4 xo5 = k9_pay4 x0 x1 x2 xo4 := by
  unfold out9_B_4
  rw [View.read_writes_eq_canon _ _ _ (cover9_B_4 c i arg1 harg1 arg2 harg2 arg3 harg3 arg4 harg4 arg5 harg5 arg6 harg6 hc0 x0 x1 x2 xo4 xo5)]
  unfold kernelRun9_B
  dsimp only
  rw [View.canon_unit_zero zeroOff9]
  simp only [View.readAt_eq_ld, harg1.read_unread, harg2.read_unread, harg3.read_unread, harg5.read_unread, harg6.read_unread, View.ld_unit_zero (S := S10000x128) zeroOff9, View.ld_unit_zero (S := S128x128) zeroOff9, View.ld_unit_zero (S := S1x128) zeroOff9]
theorem out9_B_5_eq (c : Dev nD) (i : grid9.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond9_0 i) (x0 : Vec F S10000x128 .f32) (x1 : Vec F S128x128 .f32) (x2 : Vec F S1x128 .f32) (xo4 : Vec F S1x128 .f32) (xo5 : Vec F S1x128 .f32) :
    out9_B_5 c i arg1 harg1 arg2 harg2 arg3 harg3 arg4 harg4 arg5 harg5 arg6 harg6 hc0 x0 x1 x2 xo4 xo5 = k9_pay5 x0 x1 x2 xo5 := by
  unfold out9_B_5
  rw [View.read_writes_eq_canon _ _ _ (cover9_B_5 c i arg1 harg1 arg2 harg2 arg3 harg3 arg4 harg4 arg5 harg5 arg6 harg6 hc0 x0 x1 x2 xo4 xo5)]
  unfold kernelRun9_B
  dsimp only
  rw [View.canon_unit_zero zeroOff9]
  simp only [View.readAt_eq_ld, harg1.read_unread, harg2.read_unread, harg3.read_unread, harg5.read_unread, harg6.read_unread, View.ld_unit_zero (S := S10000x128) zeroOff9, View.ld_unit_zero (S := S128x128) zeroOff9, View.ld_unit_zero (S := S1x128) zeroOff9]

/-- A running sum after the body where the condition holds: the reset's zeros are stored, read back, and added to. -/
theorem out9_A_4_eq (c : Dev nD) (i : grid9.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond9_0 i) (x0 : Vec F S10000x128 .f32) (x1 : Vec F S128x128 .f32) (x2 : Vec F S1x128 .f32) :
    out9_A_4 c i arg1 harg1 arg2 harg2 arg3 harg3 arg4 harg4 arg5 harg5 arg6 harg6 hc0 x0 x1 x2 = k9_pay4 x0 x1 x2 k9_pay1 := by
  unfold out9_A_4
  rw [View.read_writes_eq_canon _ _ _ (cover9_A_4 c i arg1 harg1 arg2 harg2 arg3 harg3 arg4 harg4 arg5 harg5 arg6 harg6 hc0 x0 x1 x2)]
  unfold kernelRun9_A
  dsimp only
  sl_unfold_words
  rw [View.canon_cons_unit_zero (S := S1x128) zeroOff9, View.readCov_unit_zero (S := S1x128) _ zeroOff9]
  simp only [View.readAt_eq_ld, harg1.read_unread, harg2.read_unread, harg3.read_unread, harg5.read_unread, harg6.read_unread, View.ld_unit_zero (S := S10000x128) zeroOff9, View.ld_unit_zero (S := S128x128) zeroOff9, View.ld_unit_zero (S := S1x128) zeroOff9]
theorem out9_A_5_eq (c : Dev nD) (i : grid9.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond9_0 i) (x0 : Vec F S10000x128 .f32) (x1 : Vec F S128x128 .f32) (x2 : Vec F S1x128 .f32) :
    out9_A_5 c i arg1 harg1 arg2 harg2 arg3 harg3 arg4 harg4 arg5 harg5 arg6 harg6 hc0 x0 x1 x2 = k9_pay5 x0 x1 x2 k9_pay2 := by
  unfold out9_A_5
  rw [View.read_writes_eq_canon _ _ _ (cover9_A_5 c i arg1 harg1 arg2 harg2 arg3 harg3 arg4 harg4 arg5 harg5 arg6 harg6 hc0 x0 x1 x2)]
  unfold kernelRun9_A
  dsimp only
  sl_unfold_words
  rw [View.canon_cons_unit_zero (S := S1x128) zeroOff9, View.readCov_unit_zero (S := S1x128) _ zeroOff9]
  simp only [View.readAt_eq_ld, harg1.read_unread, harg2.read_unread, harg3.read_unread, harg5.read_unread, harg6.read_unread, View.ld_unit_zero (S := S10000x128) zeroOff9, View.ld_unit_zero (S := S128x128) zeroOff9, View.ld_unit_zero (S := S1x128) zeroOff9]

variable (V : (c : Dev nD) → (b : Ref sig .tc) → Buf (Elt F) ((c : Thread nD τ).loc b))

/-- The two running sums after point `n`: from the reset's zeros at the first point, each point adding its tile's. -/
def sums9 (c : Dev nD) : (n : ℕ) → n < cfg9.N → Vec F S1x128 .f32 × Vec F S1x128 .f32
  | 0, h => (k9_pay4 (iblk9 V c 0 ⟨0, h⟩) (iblk9 V c 1 ⟨0, h⟩) (iblk9 V c 2 ⟨0, h⟩) k9_pay1,
             k9_pay5 (iblk9 V c 0 ⟨0, h⟩) (iblk9 V c 1 ⟨0, h⟩) (iblk9 V c 2 ⟨0, h⟩) k9_pay2)
  | n + 1, h => (k9_pay4 (iblk9 V c 0 ⟨n + 1, h⟩) (iblk9 V c 1 ⟨n + 1, h⟩) (iblk9 V c 2 ⟨n + 1, h⟩) (sums9 c n (Nat.lt_of_succ_lt h)).1,
                 k9_pay5 (iblk9 V c 0 ⟨n + 1, h⟩) (iblk9 V c 1 ⟨n + 1, h⟩) (iblk9 V c 2 ⟨n + 1, h⟩) (sums9 c n (Nat.lt_of_succ_lt h)).2)

/-- What the outputs' staging buffers hold after point `n`: the point's tile of `x · W + b` and the two running sums,
    by induction on the point. -/
theorem outsAt9_eq (c : Dev nD) : ∀ (n : ℕ) (h : n < cfg9.N), outsAt9 V c n h
    = (k9_pay3 (iblk9 V c 0 ⟨n, h⟩) (iblk9 V c 1 ⟨n, h⟩) (iblk9 V c 2 ⟨n, h⟩), (sums9 V c n h).1, (sums9 V c n h).2)
  | 0, h => by
    rw [outsAt9_A V c ⟨0, h⟩ rfl, out9_A_3_eq, out9_A_4_eq, out9_A_5_eq]; rfl
  | n + 1, h => by
    have hN : cfg9.N = 10 := N_9
    have hB : ¬(⟨n + 1, h⟩ : Fin cfg9.N).val % 10 = 0 := by dsimp only; omega
    rw [outsAt9_B V c ⟨n + 1, h⟩ hB, out9_B_3_eq, out9_B_4_eq, out9_B_5_eq]
    have ih := outsAt9_eq c n (Nat.lt_of_succ_lt h)
    show (_, k9_pay4 _ _ _ (outsAt9 V c n _).2.1, k9_pay5 _ _ _ (outsAt9 V c n _).2.2) = _
    rw [ih]; rfl

end Closed

/-! ## The payloads over the extended reals, index by index -/

/-- The product's operand indices: the left operand is read at (row of the result, contracted coordinate), -/
theorem lhsDot9_0 (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhsDot9_1 (i : S10000x128.Idx) (q : dot_S10000x128_S128x128_S10000x128_1_0_0_1_n_n.contr.Idx) : (dot_S10000x128_S128x128_S10000x128_1_0_0_1_n_n.lhsIdx i q 1).val = (q ⟨0, by decide⟩).val :=
  dot_S10000x128_S128x128_S10000x128_1_0_0_1_n_n.lhsIdx_val_of_single rfl i q
/-- the right operand at (contracted coordinate, column of the result). -/
theorem rhsDot9_0 (i : S10000x128.Idx) (q : dot_S10000x128_S128x128_S10000x128_1_0_0_1_n_n.contr.Idx) : (dot_S10000x128_S128x128_S10000x128_1_0_0_1_n_n.rhsIdx i q 0).val = (q ⟨0, by decide⟩).val :=
  dot_S10000x128_S128x128_S10000x128_1_0_0_1_n_n.rhsIdx_val_of_single rfl i q
theorem rhsDot9_1 (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The tile's product at (r, j): the sum over the contracted coordinate. -/
theorem matmul9_apply (x : FVec Ideal S10000x128 .f32) (w : FVec Ideal S128x128 .f32) (r : Fin 10000) (j : Fin 128) :
    matmul dot_S10000x128_S128x128_S10000x128_1_0_0_1_n_n none x w (constant S10000x128 .f32 0x00000000#32) (ix2 r j) = ∑ l : Fin 128, x (ix2 r l) * w (ix2 l j) := by
  simp only [matmul]
  rw [Ideal.matmul_constant_zero_apply, ← Equiv.sum_comp (contrEquiv1 dot_S10000x128_S128x128_S10000x128_1_0_0_1_n_n 128 rfl rfl).symm]
  refine Finset.sum_congr rfl fun l _ => ?_
  have hk := contrEquiv1_symm_val dot_S10000x128_S128x128_S10000x128_1_0_0_1_n_n 128 rfl rfl l
  have el : dot_S10000x128_S128x128_S10000x128_1_0_0_1_n_n.lhsIdx (ix2 r j) ((contrEquiv1 dot_S10000x128_S128x128_S10000x128_1_0_0_1_n_n 128 rfl rfl).symm l) = ix2 r l := funext fun a => Fin.ext (by
    match a with
    | ⟨0, _⟩ => exact lhsDot9_0 _ _
    | ⟨1, _⟩ => exact (lhsDot9_1 _ _).trans hk)
  have er : dot_S10000x128_S128x128_S10000x128_1_0_0_1_n_n.rhsIdx (ix2 r j) ((contrEquiv1 dot_S10000x128_S128x128_S10000x128_1_0_0_1_n_n 128 rfl rfl).symm l) = ix2 l j := funext fun a => Fin.ext (by
    match a with
    | ⟨0, _⟩ => exact (rhsDot9_0 _ _).trans hk
    | ⟨1, _⟩ => exact rhsDot9_1 _ _)
  rw [el, er]

/-- The tile of `x · W + b` at (r, j). -/
theorem pay9_3_apply (x0 : Vec Ideal S10000x128 .f32) (x1 : Vec Ideal S128x128 .f32) (x2 : Vec Ideal S1x128 .f32) (r : Fin 10000) (j : Fin 128) :
    k9_pay3 x0 x1 x2 (ix2 r j) = (∑ l : Fin 128, x0 (ix2 r l) * x1 (ix2 l j)) + x2 (ix2 0 j) := by
  unfold k9_pay3
  simp only [shapeCast_self, addf_apply, matmul9_apply, broadcastTo_1b_ab_apply]

/-- Summing a tile over its rows, read at column `j`: the inserted coordinate is the row. -/
theorem lift9 (j : Fin 128) (r : Fin 10000) : reduces_S10000x128_S128.lift (ix1 j) r = ix2 r j :=
  funext fun a => Fin.ext (by
    match a with
    | ⟨0, _⟩ => rfl
    | ⟨1, _⟩ => rfl)

/-- The running column sum after a point: what it held, plus the tile's column sum. -/
theorem pay9_4_apply (x0 : Vec Ideal S10000x128 .f32) (x1 : Vec Ideal S128x128 .f32) (x2 : Vec Ideal S1x128 .f32) (xo : Vec Ideal S1x128 .f32) (j : Fin 128) :
    k9_pay4 x0 x1 x2 xo (ix2 0 j) = xo (ix2 0 j) + ∑ r : Fin 10000, k9_pay3 x0 x1 x2 (ix2 r j) := by
  unfold k9_pay4
  simp only [shapeCast_self, addf_apply, shapeCast_a_1a_apply]
  refine congrArg (xo (ix2 0 j) + ·) ?_
  refine (Ideal.multiReduction_add_single (k9_pay3 x0 x1 x2) _ reduces_S10000x128_S128 _ _ (ix1 j)).trans ?_
  exact Finset.sum_congr rfl fun r _ => congrArg (k9_pay3 x0 x1 x2) (lift9 j r)

/-- The running column sum of squares likewise. -/
theorem pay9_5_apply (x0 : Vec Ideal S10000x128 .f32) (x1 : Vec Ideal S128x128 .f32) (x2 : Vec Ideal S1x128 .f32) (xo : Vec Ideal S1x128 .f32) (j : Fin 128) :
    k9_pay5 x0 x1 x2 xo (ix2 0 j) = xo (ix2 0 j) + ∑ r : Fin 10000, k9_pay3 x0 x1 x2 (ix2 r j) * k9_pay3 x0 x1 x2 (ix2 r j) := by
  unfold k9_pay5
  simp only [shapeCast_self, addf_apply, shapeCast_a_1a_apply]
  refine congrArg (xo (ix2 0 j) + ·) ?_
  refine (Ideal.multiReduction_add_single (mulf (k9_pay3 x0 x1 x2) (k9_pay3 x0 x1 x2)) _ reduces_S10000x128_S128 _ _ (ix1 j)).trans ?_
  exact Finset.sum_congr rfl fun r _ => congrArg (fun y => k9_pay3 x0 x1 x2 y * k9_pay3 x0 x1 x2 y) (lift9 j r)

/-- The reset stores zeros. -/
theorem pay9_1_apply (y : S1x128.Idx) : k9_pay1 (F := Ideal) y = 0 := by
  unfold k9_pay1
  simp only [broadcast_apply, Scalar.ofBits, Ideal.ofBits_def, Ideal.ofBits_zero_f32]
theorem pay9_2_apply (y : S1x128.Idx) : k9_pay2 (F := Ideal) y = 0 := by
  unfold k9_pay2
  simp only [broadcast_apply, Scalar.ofBits, Ideal.ofBits_def, Ideal.ofBits_zero_f32]

/-! ## The region's three output arrays over the extended reals -/

section Value

variable (V : (c : Dev nD) → (b : Ref sig .tc) → Buf (Elt Ideal) ((c : Thread nD τ).loc b))

/-- `x · W + b` of three arrays, index by index: the bias row is read at the index's lane. -/
@[irreducible] def lin9 (x : FVec Ideal S100000x128 .f32) (w : FVec Ideal S128x128 .f32) (b : FVec Ideal S1x128 .f32) : FVec Ideal S100000x128 .f32 :=
  fun i => (∑ l : Fin 128, x (ix2 (i 0) l) * w (ix2 l (i 1))) + b (ix2 0 (i 1))

/-- The printed index maps, decided over the ten points: the tiles of `x` and of the result move with the point, the
    weights, the bias row and the two sums stay at block 0. -/
theorem idx_facts9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0
    ∧ win9_4.index t (0 : Fin 2) = 0 ∧ win9_4.index t (1 : Fin 2) = 0
    ∧ win9_5.index t (0 : Fin 2) = 0 ∧ win9_5.index t (1 : Fin 2) = 0 :=
  (by decide +kernel : ∀ t : Fin grid9.N, _)

/-- Row `r` of tile `t` is row `t · 10000 + r` of the array. -/
theorem row_lt9 (t : Fin cfg9.N) (r : Fin 10000) : t.val * 10000 + r.val < 100000 := by
  have hN : cfg9.N = 10 := N_9
  have := t.isLt; have := r.isLt; omega

/-- The tile point `t` computes, at (r, j): `x · W + b` of the arrays as the region finds them, at row `t · 10000 + r`. -/
theorem tile9_apply (c : Dev nD) (t : Fin cfg9.N) (r : Fin 10000) (j : Fin 128) :
    k9_pay3 (iblk9 V c 0 t) (iblk9 V c 1 t) (iblk9 V c 2 t) (ix2 r j)
      = lin9 ((dat9 V c).A 0) ((dat9 V c).A 1) ((dat9 V c).A 2) (ix2 ⟨t.val * 10000 + r.val, row_lt9 t r⟩ j) := by
  rw [pay9_3_apply, A_eq9, A_eq9, A_eq9]
  unfold lin9
  obtain ⟨e0, e1, e2, e3, e4, e5, e6, e7, e8, e9, e10, e11⟩ := idx_facts9 t
  have h0 : ∀ l : Fin 128, ((cfg9.win 0).blk t).view.emb (ix2 r l) = ix2 (⟨t.val * 10000 + r.val, row_lt9 t r⟩ : Fin 100000) l := fun l => by
    funext a; apply Fin.ext
    match a with
    | ⟨0, _⟩ => show win9_0.index t (0 : Fin 2) * 10000 + 1 * r.val = t.val * 10000 + r.val; omega
    | ⟨1, _⟩ => show win9_0.index t (1 : Fin 2) * 128 + 1 * l.val = l.val; omega
  have h1 : ∀ l : Fin 128, ((cfg9.win 1).blk t).view.emb (ix2 l j) = ix2 l j := fun l => by
    funext a; apply Fin.ext
    match a with
    | ⟨0, _⟩ => show win9_1.index t (0 : Fin 2) * 128 + 1 * l.val = l.val; omega
    | ⟨1, _⟩ => show win9_1.index t (1 : Fin 2) * 128 + 1 * j.val = j.val; omega
  have h2 : ((cfg9.win 2).blk t).view.emb (ix2 0 j) = ix2 0 j := by
    funext a; apply Fin.ext
    match a with
    | ⟨0, _⟩ => show win9_2.index t (0 : Fin 2) * 1 + 1 * 0 = 0; omega
    | ⟨1, _⟩ => show win9_2.index t (1 : Fin 2) * 128 + 1 * j.val = j.val; omega
  have b0 : ∀ l : Fin 128, iblk9 V c 0 t (ix2 r l) = V c (Pipeline.arrRef spec9 0) (ix2 (⟨t.val * 10000 + r.val, row_lt9 t r⟩ : Fin 100000) l) :=
    fun l => congrArg (V c (Pipeline.arrRef spec9 0)) (h0 l)
  have b1 : ∀ l : Fin 128, iblk9 V c 1 t (ix2 l j) = V c (Pipeline.arrRef spec9 1) (ix2 l j) :=
    fun l => congrArg (V c (Pipeline.arrRef spec9 1)) (h1 l)
  have b2 : iblk9 V c 2 t (ix2 0 j) = V c (Pipeline.arrRef spec9 2) (ix2 0 j) :=
    congrArg (V c (Pipeline.arrRef spec9 2)) h2
  simp only [b0, b1, b2] <;> rfl

/-! ### Output 3: the ten tiles fill the array -/

/-- What point `t` writes back to output 3 is block `t` of `x · W + b` of the arrays as the region finds them. -/
theorem flushed9_3_eq (c : Dev nD) (t : Fin cfg9.N) :
    (dat9 V c).flushed 3 t = ((cfg9.win 3).blk t).view.read (Elt Ideal)
      (lin9 ((dat9 V c).A 0) ((dat9 V c).A 1) ((dat9 V c).A 2)) := by
  show (cfg9.win 3).cut (grid9.coords t) ((dat9 V c).after 3 t) = _
  rw [after9_3, outsAt9_eq]
  obtain ⟨e0, e1, e2, e3, e4, e5, e6, e7, e8, e9, e10, e11⟩ := idx_facts9 t
  funext y
  rw [View.read_apply, cast_eq]
  have hy0 : (y 0).val < 10000 := (y 0).isLt
  have hy1 : (y 1).val < 128 := (y 1).isLt
  show k9_pay3 (iblk9 V c 0 t) (iblk9 V c 1 t) (iblk9 V c 2 t) y
    = lin9 ((dat9 V c).A 0) ((dat9 V c).A 1) ((dat9 V c).A 2) (((cfg9.win 3).blk t).view.emb y)
  have hy : y = ix2 (⟨(y 0).val, hy0⟩ : Fin 10000) (⟨(y 1).val, hy1⟩ : Fin 128) := eq_ix2 y
  have he : ((cfg9.win 3).blk t).view.emb y
      = ix2 (⟨t.val * 10000 + (y 0).val, row_lt9 t ⟨(y 0).val, hy0⟩⟩ : Fin 100000) (⟨(y 1).val, hy1⟩ : Fin 128) := by
    funext a; apply Fin.ext
    match a with
    | ⟨0, _⟩ => show win9_3.index t (0 : Fin 2) * 10000 + 1 * (y 0).val = t.val * 10000 + (y 0).val; omega
    | ⟨1, _⟩ => show win9_3.index t (1 : Fin 2) * 128 + 1 * (y 1).val = (y 1).val; omega
  rw [he]
  have h := tile9_apply V c t ⟨(y 0).val, hy0⟩ ⟨(y 1).val, hy1⟩
  rw [← hy] at h
  exact h

/-- An index of output 3's array is in point `t`'s block iff each coordinate is in the block's range on its axis. -/
theorem mem_blk9_3 (t : Fin cfg9.N) (i : S100000x128.Idx) :
    i ∈ ((cfg9.win 3).blk t).view.set ↔ ∀ a : Fin 2, win9_3.index t a * S10000x128.size a ≤ (i a).val ∧ (i a).val < win9_3.index t a * S10000x128.size a + S10000x128.size a := by
  show i ∈ ((View.whole (Pipeline.arrRef spec9 3)).slice (win9_3.rect t)).set ↔ _
  rw [View.set_slice_whole, Rect.mem_set_unit]
  exact Iff.rfl

/-- The ten tiles fill the array: row `r` is in the block of point `r / 10000`. -/
theorem covered9_3 (i : S100000x128.Idx) :
    ∃ t : Fin cfg9.N, (cfg9.win 3).flush t = true ∧ i ∈ ((cfg9.win 3).blk t).view.set := by
  have hi0 : (i 0).val < 100000 := (i 0).isLt
  have hi1 : (i 1).val < 128 := (i 1).isLt
  have hN : cfg9.N = 10 := N_9
  let t : Fin cfg9.N := ⟨(i 0).val / 10000, by omega⟩
  obtain ⟨e0, e1, e2, e3, e4, e5, e6, e7, e8, e9, e10, e11⟩ := idx_facts9 t
  have ht : t.val = (i 0).val / 10000 := rfl
  refine ⟨t, flush9_3 t, ?_⟩
  rw [mem_blk9_3]
  intro a
  match a with
  | ⟨0, _⟩ => show win9_3.index t (0 : Fin 2) * 10000 ≤ (i 0).val ∧ (i 0).val < win9_3.index t (0 : Fin 2) * 10000 + 10000; omega
  | ⟨1, _⟩ => show win9_3.index t (1 : Fin 2) * 128 ≤ (i 1).val ∧ (i 1).val < win9_3.index t (1 : Fin 2) * 128 + 128; omega

/-- Output 3's array after the region: `x · W + b` of the entry contents, everywhere. -/
theorem final9_3 (c : Dev nD) : (dat9 V c).arrAt 3 cfg9.N
    = lin9 ((dat9 V c).A 0) ((dat9 V c).A 1) ((dat9 V c).A 2) :=
  (dat9 V c).arrAt_eq_of_cover 3 _ (fun t _ => flushed9_3_eq V c t) covered9_3

/-! ### Outputs 4 and 5: the running sums after the last point are the column sums -/

/-- The column sum of tile `s` (zero past the grid). -/
def tileSum9 (c : Dev nD) (j : Fin 128) (s : ℕ) : EReal :=
  if hs : s < cfg9.N then ∑ r : Fin 10000, k9_pay3 (iblk9 V c 0 ⟨s, hs⟩) (iblk9 V c 1 ⟨s, hs⟩) (iblk9 V c 2 ⟨s, hs⟩) (ix2 r j) else 0
/-- The column sum of squares of tile `s` (zero past the grid). -/
def tileSumSq9 (c : Dev nD) (j : Fin 128) (s : ℕ) : EReal :=
  if hs : s < cfg9.N then ∑ r : Fin 10000, k9_pay3 (iblk9 V c 0 ⟨s, hs⟩) (iblk9 V c 1 ⟨s, hs⟩) (iblk9 V c 2 ⟨s, hs⟩) (ix2 r j)
    * k9_pay3 (iblk9 V c 0 ⟨s, hs⟩) (iblk9 V c 1 ⟨s, hs⟩) (iblk9 V c 2 ⟨s, hs⟩) (ix2 r j) else 0

/-- After point `n` the first running sum holds, at lane `j`, the column sums of tiles `0 … n` added up. -/
theorem sums9_1_apply (c : Dev nD) (j : Fin 128) : ∀ (n : ℕ) (h : n < cfg9.N),
    (sums9 V c n h).1 (ix2 0 j) = ∑ s ∈ Finset.range (n + 1), tileSum9 V c j s
  | 0, h => by
    show k9_pay4 _ _ _ k9_pay1 (ix2 0 j) = _
    rw [pay9_4_apply, pay9_1_apply, zero_add, Finset.sum_range_one]
    unfold tileSum9; rw [dif_pos h]
  | n + 1, h => by
    show k9_pay4 _ _ _ (sums9 V c n _).1 (ix2 0 j) = _
    rw [pay9_4_apply, sums9_1_apply c j n (Nat.lt_of_succ_lt h), Finset.sum_range_succ _ (n + 1)]
    congr 1
    unfold tileSum9; rw [dif_pos h]
/-- The second likewise, with the squares. -/
theorem sums9_2_apply (c : Dev nD) (j : Fin 128) : ∀ (n : ℕ) (h : n < cfg9.N),
    (sums9 V c n h).2 (ix2 0 j) = ∑ s ∈ Finset.range (n + 1), tileSumSq9 V c j s
  | 0, h => by
    show k9_pay5 _ _ _ k9_pay2 (ix2 0 j) = _
    rw [pay9_5_apply, pay9_2_apply, zero_add, Finset.sum_range_one]
    unfold tileSumSq9; rw [dif_pos h]
  | n + 1, h => by
    show k9_pay5 _ _ _ (sums9 V c n _).2 (ix2 0 j) = _
    rw [pay9_5_apply, sums9_2_apply c j n (Nat.lt_of_succ_lt h), Finset.sum_range_succ _ (n + 1)]
    congr 1
    unfold tileSumSq9; rw [dif_pos h]

/-- The ten tiles' column sums add up to the column sum over the hundred thousand rows. -/
theorem total9_1 (c : Dev nD) (j : Fin 128) :
    ∑ s ∈ Finset.range 10, tileSum9 V c j s = ∑ i : Fin 100000, lin9 ((dat9 V c).A 0) ((dat9 V c).A 1) ((dat9 V c).A 2) (ix2 i j) := by
  rw [Finset.sum_range, ← Cert.Math.sum_tiles (fun i => lin9 ((dat9 V c).A 0) ((dat9 V c).A 1) ((dat9 V c).A 2) (ix2 i j))]
  refine Finset.sum_congr rfl fun s _ => ?_
  have hs : s.val < cfg9.N := by rw [show cfg9.N = 10 from N_9]; exact s.isLt
  unfold tileSum9; rw [dif_pos hs]
  refine Finset.sum_congr rfl fun r _ => ?_
  exact tile9_apply V c ⟨s.val, hs⟩ r j

/-- The column sums, as contents of a [1,128] array. -/
@[irreducible] def colSums9 (c : Dev nD) : FVec Ideal S1x128 .f32 :=
  fun y => ∑ i : Fin 100000, lin9 ((dat9 V c).A 0) ((dat9 V c).A 1) ((dat9 V c).A 2) (ix2 i (y 1))

/-- The one write-back of output 4, after the last point, writes them. -/
theorem flushed9_4_eq (c : Dev nD) (t : Fin cfg9.N) (hf : (cfg9.win 4).flush t = true) :
    (dat9 V c).flushed 4 t = ((cfg9.win 4).blk t).view.read (Elt Ideal) (colSums9 V c) := by
  have hN : cfg9.N = 10 := N_9
  have h9 : t.val = 9 := by have := (flush9_4 t).mp hf; have := t.isLt; omega
  obtain ⟨e0, e1, e2, e3, e4, e5, e6, e7, e8, e9, e10, e11⟩ := idx_facts9 t
  show (cfg9.win 4).cut (grid9.coords t) ((dat9 V c).after 4 t) = _
  rw [after9_4, outsAt9_eq]
  funext y
  rw [View.read_apply, cast_eq]
  have hy0 : (y 0).val < 1 := (y 0).isLt
  have hy1 : (y 1).val < 128 := (y 1).isLt
  have hS := sums9_1_apply V c ⟨(y 1).val, hy1⟩ t.val t.isLt
  generalize sums9 V c t.val t.isLt = S at hS ⊢
  show S.1 y = colSums9 V c (((cfg9.win 4).blk t).view.emb y)
  have hy : y = ix2 (0 : Fin 1) (⟨(y 1).val, hy1⟩ : Fin 128) := by
    funext a; apply Fin.ext
    match a with
    | ⟨0, _⟩ => show (y 0).val = 0; omega
    | ⟨1, _⟩ => rfl
  have he : ((cfg9.win 4).blk t).view.emb y = ix2 (0 : Fin 1) (⟨(y 1).val, hy1⟩ : Fin 128) := by
    funext a; apply Fin.ext
    match a with
    | ⟨0, _⟩ => show win9_4.index t (0 : Fin 2) * 1 + 1 * (y 0).val = 0; omega
    | ⟨1, _⟩ => show win9_4.index t (1 : Fin 2) * 128 + 1 * (y 1).val = (y 1).val; omega
  rw [he, congrArg S.1 hy, hS, show t.val + 1 = 10 from by omega]
  unfold colSums9
  exact total9_1 V c ⟨(y 1).val, hy1⟩

/-- The last point's block is the whole [1,128] array. -/
theorem covered9_4 (i : S1x128.Idx) :
    ∃ t : Fin cfg9.N, (cfg9.win 4).flush t = true ∧ i ∈ ((cfg9.win 4).blk t).view.set := by
  have hN : cfg9.N = 10 := N_9
  have hi0 : (i 0).val < 1 := (i 0).isLt
  have hi1 : (i 1).val < 128 := (i 1).isLt
  let t : Fin cfg9.N := ⟨9, by omega⟩
  obtain ⟨e0, e1, e2, e3, e4, e5, e6, e7, e8, e9, e10, e11⟩ := idx_facts9 t
  refine ⟨t, (flush9_4 t).mpr rfl, ?_⟩
  show i ∈ ((View.whole (Pipeline.arrRef spec9 4)).slice (win9_4.rect t)).set
  rw [View.set_slice_whole, Rect.mem_set_unit]
  intro a
  match a with
  | ⟨0, _⟩ => show win9_4.index t (0 : Fin 2) * 1 ≤ (i 0).val ∧ (i 0).val < win9_4.index t (0 : Fin 2) * 1 + 1; omega
  | ⟨1, _⟩ => show win9_4.index t (1 : Fin 2) * 128 ≤ (i 1).val ∧ (i 1).val < win9_4.index t (1 : Fin 2) * 128 + 128; omega

/-- Output 4's array after the region. -/
theorem final9_4 (c : Dev nD) : (dat9 V c).arrAt 4 cfg9.N = colSums9 V c :=
  (dat9 V c).arrAt_eq_of_cover 4 _ (flushed9_4_eq V c) covered9_4

/-- The ten tiles' column sums of squares add up to the column sum of squares over the hundred thousand rows. -/
theorem total9_2 (c : Dev nD) (j : Fin 128) :
    ∑ s ∈ Finset.range 10, tileSumSq9 V c j s = ∑ i : Fin 100000, lin9 ((dat9 V c).A 0) ((dat9 V c).A 1) ((dat9 V c).A 2) (ix2 i j) * lin9 ((dat9 V c).A 0) ((dat9 V c).A 1) ((dat9 V c).A 2) (ix2 i j) := by
  rw [Finset.sum_range, ← Cert.Math.sum_tiles (fun i => lin9 ((dat9 V c).A 0) ((dat9 V c).A 1) ((dat9 V c).A 2) (ix2 i j) * lin9 ((dat9 V c).A 0) ((dat9 V c).A 1) ((dat9 V c).A 2) (ix2 i j))]
  refine Finset.sum_congr rfl fun s _ => ?_
  have hs : s.val < cfg9.N := by rw [show cfg9.N = 10 from N_9]; exact s.isLt
  unfold tileSumSq9; rw [dif_pos hs]
  refine Finset.sum_congr rfl fun r _ => ?_
  rw [tile9_apply V c ⟨s.val, hs⟩ r j]

/-- The column sums of squares, as contents of a [1,128] array. -/
@[irreducible] def colSumSqs9 (c : Dev nD) : FVec Ideal S1x128 .f32 :=
  fun y => ∑ i : Fin 100000, lin9 ((dat9 V c).A 0) ((dat9 V c).A 1) ((dat9 V c).A 2) (ix2 i (y 1)) * lin9 ((dat9 V c).A 0) ((dat9 V c).A 1) ((dat9 V c).A 2) (ix2 i (y 1))

/-- The one write-back of output 5, after the last point, writes them. -/
theorem flushed9_5_eq (c : Dev nD) (t : Fin cfg9.N) (hf : (cfg9.win 5).flush t = true) :
    (dat9 V c).flushed 5 t = ((cfg9.win 5).blk t).view.read (Elt Ideal) (colSumSqs9 V c) := by
  have hN : cfg9.N = 10 := N_9
  have h9 : t.val = 9 := by have := (flush9_5 t).mp hf; have := t.isLt; omega
  obtain ⟨e0, e1, e2, e3, e4, e5, e6, e7, e8, e9, e10, e11⟩ := idx_facts9 t
  show (cfg9.win 5).cut (grid9.coords t) ((dat9 V c).after 5 t) = _
  rw [after9_5, outsAt9_eq]
  funext y
  rw [View.read_apply, cast_eq]
  have hy0 : (y 0).val < 1 := (y 0).isLt
  have hy1 : (y 1).val < 128 := (y 1).isLt
  have hS := sums9_2_apply V c ⟨(y 1).val, hy1⟩ t.val t.isLt
  generalize sums9 V c t.val t.isLt = S at hS ⊢
  show S.2 y = colSumSqs9 V c (((cfg9.win 5).blk t).view.emb y)
  have hy : y = ix2 (0 : Fin 1) (⟨(y 1).val, hy1⟩ : Fin 128) := by
    funext a; apply Fin.ext
    match a with
    | ⟨0, _⟩ => show (y 0).val = 0; omega
    | ⟨1, _⟩ => rfl
  have he : ((cfg9.win 5).blk t).view.emb y = ix2 (0 : Fin 1) (⟨(y 1).val, hy1⟩ : Fin 128) := by
    funext a; apply Fin.ext
    match a with
    | ⟨0, _⟩ => show win9_5.index t (0 : Fin 2) * 1 + 1 * (y 0).val = 0; omega
    | ⟨1, _⟩ => show win9_5.index t (1 : Fin 2) * 128 + 1 * (y 1).val = (y 1).val; omega
  rw [he, congrArg S.2 hy, hS, show t.val + 1 = 10 from by omega]
  unfold colSumSqs9
  exact total9_2 V c ⟨(y 1).val, hy1⟩

/-- The last point's block is the whole [1,128] array. -/
theorem covered9_5 (i : S1x128.Idx) :
    ∃ t : Fin cfg9.N, (cfg9.win 5).flush t = true ∧ i ∈ ((cfg9.win 5).blk t).view.set := by
  have hN : cfg9.N = 10 := N_9
  have hi0 : (i 0).val < 1 := (i 0).isLt
  have hi1 : (i 1).val < 128 := (i 1).isLt
  let t : Fin cfg9.N := ⟨9, by omega⟩
  obtain ⟨e0, e1, e2, e3, e4, e5, e6, e7, e8, e9, e10, e11⟩ := idx_facts9 t
  refine ⟨t, (flush9_5 t).mpr rfl, ?_⟩
  show i ∈ ((View.whole (Pipeline.arrRef spec9 5)).slice (win9_5.rect t)).set
  rw [View.set_slice_whole, Rect.mem_set_unit]
  intro a
  match a with
  | ⟨0, _⟩ => show win9_5.index t (0 : Fin 2) * 1 ≤ (i 0).val ∧ (i 0).val < win9_5.index t (0 : Fin 2) * 1 + 1; omega
  | ⟨1, _⟩ => show win9_5.index t (1 : Fin 2) * 128 ≤ (i 1).val ∧ (i 1).val < win9_5.index t (1 : Fin 2) * 128 + 128; omega

/-- Output 5's array after the region. -/
theorem final9_5 (c : Dev nD) : (dat9 V c).arrAt 5 cfg9.N = colSumSqs9 V c :=
  (dat9 V c).arrAt_eq_of_cover 5 _ (flushed9_5_eq V c) covered9_5

/-! ### The three arrays in the shared vocabulary -/

/-- Output 3 after the region, index by index: the linear layer of the entry contents. -/
theorem val9_h (c : Dev nD) (i : Fin 100000) (j : Fin 128) :
    (dat9 (F := Ideal) V c).arrAt 3 cfg9.N (ix2 i j)
      = Cert.Math.lin (Cert.Math.at2 ((dat9 (F := Ideal) V c).A 0)) (Cert.Math.at2 ((dat9 (F := Ideal) V c).A 1)) (fun j => Cert.Math.at2 ((dat9 (F := Ideal) V c).A 2) 0 j) i j := by
  rw [final9_3]; unfold lin9; rfl

/-- Output 4 after the region: the column sums of the linear layer's result. -/
theorem val9_s (c : Dev nD) (j : Fin 128) :
    (dat9 (F := Ideal) V c).arrAt 4 cfg9.N (ix2 0 j)
      = Cert.Math.colSum (Cert.Math.lin (Cert.Math.at2 ((dat9 (F := Ideal) V c).A 0)) (Cert.Math.at2 ((dat9 (F := Ideal) V c).A 1)) (fun j => Cert.Math.at2 ((dat9 (F := Ideal) V c).A 2) 0 j)) j := by
  rw [final9_4]; unfold colSums9 lin9; rfl

/-- Output 5 after the region: the column sums of its squares. -/
theorem val9_ss (c : Dev nD) (j : Fin 128) :
    (dat9 (F := Ideal) V c).arrAt 5 cfg9.N (ix2 0 j)
      = Cert.Math.colSumSq (Cert.Math.lin (Cert.Math.at2 ((dat9 (F := Ideal) V c).A 0)) (Cert.Math.at2 ((dat9 (F := Ideal) V c).A 1)) (fun j => Cert.Math.at2 ((dat9 (F := Ideal) V c).A 2) 0 j)) j := by
  rw [final9_5]; unfold colSumSqs9 lin9; rfl

end Value

end Cert.KernelIdeal.Hand

end
-- ==== Proof.KI.ValLS11.lean ====
import proofs.«413302_j72232759984513_1_alg».proof.Proof.KI.RegLS11
import proofs.«413302_j72232759984513_1_alg».proof.Proof.Math.Spec
import proofs.«413302_j72232759984513_1_alg».proof.Proof.Math.Tiles
import Idealize.ShloMosaic.Lib.ValueIdx
import Idealize.ShloMosaic.Lib.Pipeline.Value
import Idealize.ShloMosaic.Lib.ValueLayout
import Idealize.ShloMosaic.PureOps.Ideal.Laws

/-! # Kernel region 11 over the extended reals: the three output arrays, index by index

Every grid point writes back its tile of 10000 rows of `x · W + b`; the ten tiles fill the 100000 rows. The two running
sums start from zero at the first point, each point adds its tile's column sums (of the values, of their squares), and
the last point writes them back: ten tiles' sums added up are the sums over all rows. -/

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

/-! ## What each case of the body leaves, in closed form (at any float instance) -/

section Closed

variable {F : FTy → Type} [FloatOps F]

/-- The zero offsets, however spelt. -/
theorem zeroOff11 : (![0, 0] : Fin 2 → Nat) = fun _ => 0 := funext fun a => by fin_cases a <;> rfl

/-- Output 3 after the body, either case: its one covering store's payload, whose loads read the whole input buffers. -/
theorem out11_A_3_eq (c : Dev nD) (i : grid11.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond11_0 i) (x0 : Vec F S10000x128 .f32) (x1 : Vec F S128x128 .f32) (x2 : Vec F S1x128 .f32) :
    out11_A_3 c i arg1 harg1 arg2 harg2 arg3 harg3 arg4 harg4 arg5 harg5 arg6 harg6 hc0 x0 x1 x2 = k11_pay3 x0 x1 x2 := by
  unfold out11_A_3
  rw [View.read_writes_eq_canon _ _ _ (cover11_A_3 c i arg1 harg1 arg2 harg2 arg3 harg3 arg4 harg4 arg5 harg5 arg6 harg6 hc0 x0 x1 x2)]
  unfold kernelRun11_A
  dsimp only
  rw [View.canon_unit_zero zeroOff11]
  simp only [View.readAt_eq_ld, harg1.read_unread, harg2.read_unread, harg3.read_unread, harg5.read_unread, harg6.read_unread, View.ld_unit_zero (S := S10000x128) zeroOff11, View.ld_unit_zero (S := S128x128) zeroOff11, View.ld_unit_zero (S := S1x128) zeroOff11]
theorem out11_B_3_eq (c : Dev nD) (i : grid11.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond11_0 i) (x0 : Vec F S10000x128 .f32) (x1 : Vec F S128x128 .f32) (x2 : Vec F S1x128 .f32) (xo4 : Vec F S1x128 .f32) (xo5 : Vec F S1x128 .f32) :
    out11_B_3 c i arg1 harg1 arg2 harg2 arg3 harg3 arg4 harg4 arg5 harg5 arg6 harg6 hc0 x0 x1 x2 xo4 xo5 = k11_pay3 x0 x1 x2 := by
  unfold out11_B_3
  rw [View.read_writes_eq_canon _ _ _ (cover11_B_3 c i arg1 harg1 arg2 harg2 arg3 harg3 arg4 harg4 arg5 harg5 arg6 harg6 hc0 x0 x1 x2 xo4 xo5)]
  unfold kernelRun11_B
  dsimp only
  rw [View.canon_unit_zero zeroOff11]
  simp only [View.readAt_eq_ld, harg1.read_unread, harg2.read_unread, harg3.read_unread, harg5.read_unread, harg6.read_unread, View.ld_unit_zero (S := S10000x128) zeroOff11, View.ld_unit_zero (S := S128x128) zeroOff11, View.ld_unit_zero (S := S1x128) zeroOff11]

/-- A running sum after the body where the condition fails: the adding store's payload over what the buffer held. -/
theorem out11_B_4_eq (c : Dev nD) (i : grid11.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond11_0 i) (x0 : Vec F S10000x128 .f32) (x1 : Vec F S128x128 .f32) (x2 : Vec F S1x128 .f32) (xo4 : Vec F S1x128 .f32) (xo5 : Vec F S1x128 .f32) :
    out11_B_4 c i arg1 harg1 arg2 harg2 arg3 harg3 arg4 harg4 arg5 harg5 arg6 harg6 hc0 x0 x1 x2 xo4 xo5 = k11_pay4 x0 x1 x2 xo4 := by
  unfold out11_B_4
  rw [View.read_writes_eq_canon _ _ _ (cover11_B_4 c i arg1 harg1 arg2 harg2 arg3 harg3 arg4 harg4 arg5 harg5 arg6 harg6 hc0 x0 x1 x2 xo4 xo5)]
  unfold kernelRun11_B
  dsimp only
  rw [View.canon_unit_zero zeroOff11]
  simp only [View.readAt_eq_ld, harg1.read_unread, harg2.read_unread, harg3.read_unread, harg5.read_unread, harg6.read_unread, View.ld_unit_zero (S := S10000x128) zeroOff11, View.ld_unit_zero (S := S128x128) zeroOff11, View.ld_unit_zero (S := S1x128) zeroOff11]
theorem out11_B_5_eq (c : Dev nD) (i : grid11.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : ¬cond11_0 i) (x0 : Vec F S10000x128 .f32) (x1 : Vec F S128x128 .f32) (x2 : Vec F S1x128 .f32) (xo4 : Vec F S1x128 .f32) (xo5 : Vec F S1x128 .f32) :
    out11_B_5 c i arg1 harg1 arg2 harg2 arg3 harg3 arg4 harg4 arg5 harg5 arg6 harg6 hc0 x0 x1 x2 xo4 xo5 = k11_pay5 x0 x1 x2 xo5 := by
  unfold out11_B_5
  rw [View.read_writes_eq_canon _ _ _ (cover11_B_5 c i arg1 harg1 arg2 harg2 arg3 harg3 arg4 harg4 arg5 harg5 arg6 harg6 hc0 x0 x1 x2 xo4 xo5)]
  unfold kernelRun11_B
  dsimp only
  rw [View.canon_unit_zero zeroOff11]
  simp only [View.readAt_eq_ld, harg1.read_unread, harg2.read_unread, harg3.read_unread, harg5.read_unread, harg6.read_unread, View.ld_unit_zero (S := S10000x128) zeroOff11, View.ld_unit_zero (S := S128x128) zeroOff11, View.ld_unit_zero (S := S1x128) zeroOff11]

/-- A running sum after the body where the condition holds: the reset's zeros are stored, read back, and added to. -/
theorem out11_A_4_eq (c : Dev nD) (i : grid11.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond11_0 i) (x0 : Vec F S10000x128 .f32) (x1 : Vec F S128x128 .f32) (x2 : Vec F S1x128 .f32) :
    out11_A_4 c i arg1 harg1 arg2 harg2 arg3 harg3 arg4 harg4 arg5 harg5 arg6 harg6 hc0 x0 x1 x2 = k11_pay4 x0 x1 x2 k11_pay1 := by
  unfold out11_A_4
  rw [View.read_writes_eq_canon _ _ _ (cover11_A_4 c i arg1 harg1 arg2 harg2 arg3 harg3 arg4 harg4 arg5 harg5 arg6 harg6 hc0 x0 x1 x2)]
  unfold kernelRun11_A
  dsimp only
  sl_unfold_words
  rw [View.canon_cons_unit_zero (S := S1x128) zeroOff11, View.readCov_unit_zero (S := S1x128) _ zeroOff11]
  simp only [View.readAt_eq_ld, harg1.read_unread, harg2.read_unread, harg3.read_unread, harg5.read_unread, harg6.read_unread, View.ld_unit_zero (S := S10000x128) zeroOff11, View.ld_unit_zero (S := S128x128) zeroOff11, View.ld_unit_zero (S := S1x128) zeroOff11]
theorem out11_A_5_eq (c : Dev nD) (i : grid11.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole) (arg5 : Memref sig .tc .vmem S1x128 .f32) (harg5 : arg5.IsWhole) (arg6 : Memref sig .tc .vmem S1x128 .f32) (harg6 : arg6.IsWhole) (hc0 : cond11_0 i) (x0 : Vec F S10000x128 .f32) (x1 : Vec F S128x128 .f32) (x2 : Vec F S1x128 .f32) :
    out11_A_5 c i arg1 harg1 arg2 harg2 arg3 harg3 arg4 harg4 arg5 harg5 arg6 harg6 hc0 x0 x1 x2 = k11_pay5 x0 x1 x2 k11_pay2 := by
  unfold out11_A_5
  rw [View.read_writes_eq_canon _ _ _ (cover11_A_5 c i arg1 harg1 arg2 harg2 arg3 harg3 arg4 harg4 arg5 harg5 arg6 harg6 hc0 x0 x1 x2)]
  unfold kernelRun11_A
  dsimp only
  sl_unfold_words
  rw [View.canon_cons_unit_zero (S := S1x128) zeroOff11, View.readCov_unit_zero (S := S1x128) _ zeroOff11]
  simp only [View.readAt_eq_ld, harg1.read_unread, harg2.read_unread, harg3.read_unread, harg5.read_unread, harg6.read_unread, View.ld_unit_zero (S := S10000x128) zeroOff11, View.ld_unit_zero (S := S128x128) zeroOff11, View.ld_unit_zero (S := S1x128) zeroOff11]

variable (V : (c : Dev nD) → (b : Ref sig .tc) → Buf (Elt F) ((c : Thread nD τ).loc b))

/-- The two running sums after point `n`: from the reset's zeros at the first point, each point adding its tile's. -/
def sums11 (c : Dev nD) : (n : ℕ) → n < cfg11.N → Vec F S1x128 .f32 × Vec F S1x128 .f32
  | 0, h => (k11_pay4 (iblk11 V c 0 ⟨0, h⟩) (iblk11 V c 1 ⟨0, h⟩) (iblk11 V c 2 ⟨0, h⟩) k11_pay1,
             k11_pay5 (iblk11 V c 0 ⟨0, h⟩) (iblk11 V c 1 ⟨0, h⟩) (iblk11 V c 2 ⟨0, h⟩) k11_pay2)
  | n + 1, h => (k11_pay4 (iblk11 V c 0 ⟨n + 1, h⟩) (iblk11 V c 1 ⟨n + 1, h⟩) (iblk11 V c 2 ⟨n + 1, h⟩) (sums11 c n (Nat.lt_of_succ_lt h)).1,
                 k11_pay5 (iblk11 V c 0 ⟨n + 1, h⟩) (iblk11 V c 1 ⟨n + 1, h⟩) (iblk11 V c 2 ⟨n + 1, h⟩) (sums11 c n (Nat.lt_of_succ_lt h)).2)

/-- What the outputs' staging buffers hold after point `n`: the point's tile of `x · W + b` and the two running sums,
    by induction on the point. -/
theorem outsAt11_eq (c : Dev nD) : ∀ (n : ℕ) (h : n < cfg11.N), outsAt11 V c n h
    = (k11_pay3 (iblk11 V c 0 ⟨n, h⟩) (iblk11 V c 1 ⟨n, h⟩) (iblk11 V c 2 ⟨n, h⟩), (sums11 V c n h).1, (sums11 V c n h).2)
  | 0, h => by
    rw [outsAt11_A V c ⟨0, h⟩ rfl, out11_A_3_eq, out11_A_4_eq, out11_A_5_eq]; rfl
  | n + 1, h => by
    have hN : cfg11.N = 10 := N_11
    have hB : ¬(⟨n + 1, h⟩ : Fin cfg11.N).val % 10 = 0 := by dsimp only; omega
    rw [outsAt11_B V c ⟨n + 1, h⟩ hB, out11_B_3_eq, out11_B_4_eq, out11_B_5_eq]
    have ih := outsAt11_eq c n (Nat.lt_of_succ_lt h)
    show (_, k11_pay4 _ _ _ (outsAt11 V c n _).2.1, k11_pay5 _ _ _ (outsAt11 V c n _).2.2) = _
    rw [ih]; rfl

end Closed

/-! ## The payloads over the extended reals, index by index -/

/-- The product's operand indices: the left operand is read at (row of the result, contracted coordinate), -/
theorem lhsDot11_0 (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhsDot11_1 (i : S10000x128.Idx) (q : dot_S10000x128_S128x128_S10000x128_1_0_0_1_n_n.contr.Idx) : (dot_S10000x128_S128x128_S10000x128_1_0_0_1_n_n.lhsIdx i q 1).val = (q ⟨0, by decide⟩).val :=
  dot_S10000x128_S128x128_S10000x128_1_0_0_1_n_n.lhsIdx_val_of_single rfl i q
/-- the right operand at (contracted coordinate, column of the result). -/
theorem rhsDot11_0 (i : S10000x128.Idx) (q : dot_S10000x128_S128x128_S10000x128_1_0_0_1_n_n.contr.Idx) : (dot_S10000x128_S128x128_S10000x128_1_0_0_1_n_n.rhsIdx i q 0).val = (q ⟨0, by decide⟩).val :=
  dot_S10000x128_S128x128_S10000x128_1_0_0_1_n_n.rhsIdx_val_of_single rfl i q
theorem rhsDot11_1 (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The tile's product at (r, j): the sum over the contracted coordinate. -/
theorem matmul11_apply (x : FVec Ideal S10000x128 .f32) (w : FVec Ideal S128x128 .f32) (r : Fin 10000) (j : Fin 128) :
    matmul dot_S10000x128_S128x128_S10000x128_1_0_0_1_n_n none x w (constant S10000x128 .f32 0x00000000#32) (ix2 r j) = ∑ l : Fin 128, x (ix2 r l) * w (ix2 l j) := by
  simp only [matmul]
  rw [Ideal.matmul_constant_zero_apply, ← Equiv.sum_comp (contrEquiv1 dot_S10000x128_S128x128_S10000x128_1_0_0_1_n_n 128 rfl rfl).symm]
  refine Finset.sum_congr rfl fun l _ => ?_
  have hk := contrEquiv1_symm_val dot_S10000x128_S128x128_S10000x128_1_0_0_1_n_n 128 rfl rfl l
  have el : dot_S10000x128_S128x128_S10000x128_1_0_0_1_n_n.lhsIdx (ix2 r j) ((contrEquiv1 dot_S10000x128_S128x128_S10000x128_1_0_0_1_n_n 128 rfl rfl).symm l) = ix2 r l := funext fun a => Fin.ext (by
    match a with
    | ⟨0, _⟩ => exact lhsDot11_0 _ _
    | ⟨1, _⟩ => exact (lhsDot11_1 _ _).trans hk)
  have er : dot_S10000x128_S128x128_S10000x128_1_0_0_1_n_n.rhsIdx (ix2 r j) ((contrEquiv1 dot_S10000x128_S128x128_S10000x128_1_0_0_1_n_n 128 rfl rfl).symm l) = ix2 l j := funext fun a => Fin.ext (by
    match a with
    | ⟨0, _⟩ => exact (rhsDot11_0 _ _).trans hk
    | ⟨1, _⟩ => exact rhsDot11_1 _ _)
  rw [el, er]

/-- The tile of `x · W + b` at (r, j). -/
theorem pay11_3_apply (x0 : Vec Ideal S10000x128 .f32) (x1 : Vec Ideal S128x128 .f32) (x2 : Vec Ideal S1x128 .f32) (r : Fin 10000) (j : Fin 128) :
    k11_pay3 x0 x1 x2 (ix2 r j) = (∑ l : Fin 128, x0 (ix2 r l) * x1 (ix2 l j)) + x2 (ix2 0 j) := by
  unfold k11_pay3
  simp only [shapeCast_self, addf_apply, matmul11_apply, broadcastTo_1b_ab_apply]

/-- Summing a tile over its rows, read at column `j`: the inserted coordinate is the row. -/
theorem lift11 (j : Fin 128) (r : Fin 10000) : reduces_S10000x128_S128.lift (ix1 j) r = ix2 r j :=
  funext fun a => Fin.ext (by
    match a with
    | ⟨0, _⟩ => rfl
    | ⟨1, _⟩ => rfl)

/-- The running column sum after a point: what it held, plus the tile's column sum. -/
theorem pay11_4_apply (x0 : Vec Ideal S10000x128 .f32) (x1 : Vec Ideal S128x128 .f32) (x2 : Vec Ideal S1x128 .f32) (xo : Vec Ideal S1x128 .f32) (j : Fin 128) :
    k11_pay4 x0 x1 x2 xo (ix2 0 j) = xo (ix2 0 j) + ∑ r : Fin 10000, k11_pay3 x0 x1 x2 (ix2 r j) := by
  unfold k11_pay4
  simp only [shapeCast_self, addf_apply, shapeCast_a_1a_apply]
  refine congrArg (xo (ix2 0 j) + ·) ?_
  refine (Ideal.multiReduction_add_single (k11_pay3 x0 x1 x2) _ reduces_S10000x128_S128 _ _ (ix1 j)).trans ?_
  exact Finset.sum_congr rfl fun r _ => congrArg (k11_pay3 x0 x1 x2) (lift11 j r)

/-- The running column sum of squares likewise. -/
theorem pay11_5_apply (x0 : Vec Ideal S10000x128 .f32) (x1 : Vec Ideal S128x128 .f32) (x2 : Vec Ideal S1x128 .f32) (xo : Vec Ideal S1x128 .f32) (j : Fin 128) :
    k11_pay5 x0 x1 x2 xo (ix2 0 j) = xo (ix2 0 j) + ∑ r : Fin 10000, k11_pay3 x0 x1 x2 (ix2 r j) * k11_pay3 x0 x1 x2 (ix2 r j) := by
  unfold k11_pay5
  simp only [shapeCast_self, addf_apply, shapeCast_a_1a_apply]
  refine congrArg (xo (ix2 0 j) + ·) ?_
  refine (Ideal.multiReduction_add_single (mulf (k11_pay3 x0 x1 x2) (k11_pay3 x0 x1 x2)) _ reduces_S10000x128_S128 _ _ (ix1 j)).trans ?_
  exact Finset.sum_congr rfl fun r _ => congrArg (fun y => k11_pay3 x0 x1 x2 y * k11_pay3 x0 x1 x2 y) (lift11 j r)

/-- The reset stores zeros. -/
theorem pay11_1_apply (y : S1x128.Idx) : k11_pay1 (F := Ideal) y = 0 := by
  unfold k11_pay1
  simp only [broadcast_apply, Scalar.ofBits, Ideal.ofBits_def, Ideal.ofBits_zero_f32]
theorem pay11_2_apply (y : S1x128.Idx) : k11_pay2 (F := Ideal) y = 0 := by
  unfold k11_pay2
  simp only [broadcast_apply, Scalar.ofBits, Ideal.ofBits_def, Ideal.ofBits_zero_f32]

/-! ## The region's three output arrays over the extended reals -/

section Value

variable (V : (c : Dev nD) → (b : Ref sig .tc) → Buf (Elt Ideal) ((c : Thread nD τ).loc b))

/-- `x · W + b` of three arrays, index by index: the bias row is read at the index's lane. -/
@[irreducible] def lin11 (x : FVec Ideal S100000x128 .f32) (w : FVec Ideal S128x128 .f32) (b : FVec Ideal S1x128 .f32) : FVec Ideal S100000x128 .f32 :=
  fun i => (∑ l : Fin 128, x (ix2 (i 0) l) * w (ix2 l (i 1))) + b (ix2 0 (i 1))

/-- The printed index maps, decided over the ten points: the tiles of `x` and of the result move with the point, the
    weights, the bias row and the two sums stay at block 0. -/
theorem idx_facts11 : ∀ t : Fin cfg11.N, win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = t.val ∧ win11_3.index t (1 : Fin 2) = 0
    ∧ win11_4.index t (0 : Fin 2) = 0 ∧ win11_4.index t (1 : Fin 2) = 0
    ∧ win11_5.index t (0 : Fin 2) = 0 ∧ win11_5.index t (1 : Fin 2) = 0 :=
  (by decide +kernel : ∀ t : Fin grid11.N, _)

/-- Row `r` of tile `t` is row `t · 10000 + r` of the array. -/
theorem row_lt11 (t : Fin cfg11.N) (r : Fin 10000) : t.val * 10000 + r.val < 100000 := by
  have hN : cfg11.N = 10 := N_11
  have := t.isLt; have := r.isLt; omega

/-- The tile point `t` computes, at (r, j): `x · W + b` of the arrays as the region finds them, at row `t · 10000 + r`. -/
theorem tile11_apply (c : Dev nD) (t : Fin cfg11.N) (r : Fin 10000) (j : Fin 128) :
    k11_pay3 (iblk11 V c 0 t) (iblk11 V c 1 t) (iblk11 V c 2 t) (ix2 r j)
      = lin11 ((dat11 V c).A 0) ((dat11 V c).A 1) ((dat11 V c).A 2) (ix2 ⟨t.val * 10000 + r.val, row_lt11 t r⟩ j) := by
  rw [pay11_3_apply, A_eq11, A_eq11, A_eq11]
  unfold lin11
  obtain ⟨e0, e1, e2, e3, e4, e5, e6, e7, e8, e9, e10, e11⟩ := idx_facts11 t
  have h0 : ∀ l : Fin 128, ((cfg11.win 0).blk t).view.emb (ix2 r l) = ix2 (⟨t.val * 10000 + r.val, row_lt11 t r⟩ : Fin 100000) l := fun l => by
    funext a; apply Fin.ext
    match a with
    | ⟨0, _⟩ => show win11_0.index t (0 : Fin 2) * 10000 + 1 * r.val = t.val * 10000 + r.val; omega
    | ⟨1, _⟩ => show win11_0.index t (1 : Fin 2) * 128 + 1 * l.val = l.val; omega
  have h1 : ∀ l : Fin 128, ((cfg11.win 1).blk t).view.emb (ix2 l j) = ix2 l j := fun l => by
    funext a; apply Fin.ext
    match a with
    | ⟨0, _⟩ => show win11_1.index t (0 : Fin 2) * 128 + 1 * l.val = l.val; omega
    | ⟨1, _⟩ => show win11_1.index t (1 : Fin 2) * 128 + 1 * j.val = j.val; omega
  have h2 : ((cfg11.win 2).blk t).view.emb (ix2 0 j) = ix2 0 j := by
    funext a; apply Fin.ext
    match a with
    | ⟨0, _⟩ => show win11_2.index t (0 : Fin 2) * 1 + 1 * 0 = 0; omega
    | ⟨1, _⟩ => show win11_2.index t (1 : Fin 2) * 128 + 1 * j.val = j.val; omega
  have b0 : ∀ l : Fin 128, iblk11 V c 0 t (ix2 r l) = V c (Pipeline.arrRef spec11 0) (ix2 (⟨t.val * 10000 + r.val, row_lt11 t r⟩ : Fin 100000) l) :=
    fun l => congrArg (V c (Pipeline.arrRef spec11 0)) (h0 l)
  have b1 : ∀ l : Fin 128, iblk11 V c 1 t (ix2 l j) = V c (Pipeline.arrRef spec11 1) (ix2 l j) :=
    fun l => congrArg (V c (Pipeline.arrRef spec11 1)) (h1 l)
  have b2 : iblk11 V c 2 t (ix2 0 j) = V c (Pipeline.arrRef spec11 2) (ix2 0 j) :=
    congrArg (V c (Pipeline.arrRef spec11 2)) h2
  simp only [b0, b1, b2] <;> rfl

/-! ### Output 3: the ten tiles fill the array -/

/-- What point `t` writes back to output 3 is block `t` of `x · W + b` of the arrays as the region finds them. -/
theorem flushed11_3_eq (c : Dev nD) (t : Fin cfg11.N) :
    (dat11 V c).flushed 3 t = ((cfg11.win 3).blk t).view.read (Elt Ideal)
      (lin11 ((dat11 V c).A 0) ((dat11 V c).A 1) ((dat11 V c).A 2)) := by
  show (cfg11.win 3).cut (grid11.coords t) ((dat11 V c).after 3 t) = _
  rw [after11_3, outsAt11_eq]
  obtain ⟨e0, e1, e2, e3, e4, e5, e6, e7, e8, e9, e10, e11⟩ := idx_facts11 t
  funext y
  rw [View.read_apply, cast_eq]
  have hy0 : (y 0).val < 10000 := (y 0).isLt
  have hy1 : (y 1).val < 128 := (y 1).isLt
  show k11_pay3 (iblk11 V c 0 t) (iblk11 V c 1 t) (iblk11 V c 2 t) y
    = lin11 ((dat11 V c).A 0) ((dat11 V c).A 1) ((dat11 V c).A 2) (((cfg11.win 3).blk t).view.emb y)
  have hy : y = ix2 (⟨(y 0).val, hy0⟩ : Fin 10000) (⟨(y 1).val, hy1⟩ : Fin 128) := eq_ix2 y
  have he : ((cfg11.win 3).blk t).view.emb y
      = ix2 (⟨t.val * 10000 + (y 0).val, row_lt11 t ⟨(y 0).val, hy0⟩⟩ : Fin 100000) (⟨(y 1).val, hy1⟩ : Fin 128) := by
    funext a; apply Fin.ext
    match a with
    | ⟨0, _⟩ => show win11_3.index t (0 : Fin 2) * 10000 + 1 * (y 0).val = t.val * 10000 + (y 0).val; omega
    | ⟨1, _⟩ => show win11_3.index t (1 : Fin 2) * 128 + 1 * (y 1).val = (y 1).val; omega
  rw [he]
  have h := tile11_apply V c t ⟨(y 0).val, hy0⟩ ⟨(y 1).val, hy1⟩
  rw [← hy] at h
  exact h

/-- An index of output 3's array is in point `t`'s block iff each coordinate is in the block's range on its axis. -/
theorem mem_blk11_3 (t : Fin cfg11.N) (i : S100000x128.Idx) :
    i ∈ ((cfg11.win 3).blk t).view.set ↔ ∀ a : Fin 2, win11_3.index t a * S10000x128.size a ≤ (i a).val ∧ (i a).val < win11_3.index t a * S10000x128.size a + S10000x128.size a := by
  show i ∈ ((View.whole (Pipeline.arrRef spec11 3)).slice (win11_3.rect t)).set ↔ _
  rw [View.set_slice_whole, Rect.mem_set_unit]
  exact Iff.rfl

/-- The ten tiles fill the array: row `r` is in the block of point `r / 10000`. -/
theorem covered11_3 (i : S100000x128.Idx) :
    ∃ t : Fin cfg11.N, (cfg11.win 3).flush t = true ∧ i ∈ ((cfg11.win 3).blk t).view.set := by
  have hi0 : (i 0).val < 100000 := (i 0).isLt
  have hi1 : (i 1).val < 128 := (i 1).isLt
  have hN : cfg11.N = 10 := N_11
  let t : Fin cfg11.N := ⟨(i 0).val / 10000, by omega⟩
  obtain ⟨e0, e1, e2, e3, e4, e5, e6, e7, e8, e9, e10, e11⟩ := idx_facts11 t
  have ht : t.val = (i 0).val / 10000 := rfl
  refine ⟨t, flush11_3 t, ?_⟩
  rw [mem_blk11_3]
  intro a
  match a with
  | ⟨0, _⟩ => show win11_3.index t (0 : Fin 2) * 10000 ≤ (i 0).val ∧ (i 0).val < win11_3.index t (0 : Fin 2) * 10000 + 10000; omega
  | ⟨1, _⟩ => show win11_3.index t (1 : Fin 2) * 128 ≤ (i 1).val ∧ (i 1).val < win11_3.index t (1 : Fin 2) * 128 + 128; omega

/-- Output 3's array after the region: `x · W + b` of the entry contents, everywhere. -/
theorem final11_3 (c : Dev nD) : (dat11 V c).arrAt 3 cfg11.N
    = lin11 ((dat11 V c).A 0) ((dat11 V c).A 1) ((dat11 V c).A 2) :=
  (dat11 V c).arrAt_eq_of_cover 3 _ (fun t _ => flushed11_3_eq V c t) covered11_3

/-! ### Outputs 4 and 5: the running sums after the last point are the column sums -/

/-- The column sum of tile `s` (zero past the grid). -/
def tileSum11 (c : Dev nD) (j : Fin 128) (s : ℕ) : EReal :=
  if hs : s < cfg11.N then ∑ r : Fin 10000, k11_pay3 (iblk11 V c 0 ⟨s, hs⟩) (iblk11 V c 1 ⟨s, hs⟩) (iblk11 V c 2 ⟨s, hs⟩) (ix2 r j) else 0
/-- The column sum of squares of tile `s` (zero past the grid). -/
def tileSumSq11 (c : Dev nD) (j : Fin 128) (s : ℕ) : EReal :=
  if hs : s < cfg11.N then ∑ r : Fin 10000, k11_pay3 (iblk11 V c 0 ⟨s, hs⟩) (iblk11 V c 1 ⟨s, hs⟩) (iblk11 V c 2 ⟨s, hs⟩) (ix2 r j)
    * k11_pay3 (iblk11 V c 0 ⟨s, hs⟩) (iblk11 V c 1 ⟨s, hs⟩) (iblk11 V c 2 ⟨s, hs⟩) (ix2 r j) else 0

/-- After point `n` the first running sum holds, at lane `j`, the column sums of tiles `0 … n` added up. -/
theorem sums11_1_apply (c : Dev nD) (j : Fin 128) : ∀ (n : ℕ) (h : n < cfg11.N),
    (sums11 V c n h).1 (ix2 0 j) = ∑ s ∈ Finset.range (n + 1), tileSum11 V c j s
  | 0, h => by
    show k11_pay4 _ _ _ k11_pay1 (ix2 0 j) = _
    rw [pay11_4_apply, pay11_1_apply, zero_add, Finset.sum_range_one]
    unfold tileSum11; rw [dif_pos h]
  | n + 1, h => by
    show k11_pay4 _ _ _ (sums11 V c n _).1 (ix2 0 j) = _
    rw [pay11_4_apply, sums11_1_apply c j n (Nat.lt_of_succ_lt h), Finset.sum_range_succ _ (n + 1)]
    congr 1
    unfold tileSum11; rw [dif_pos h]
/-- The second likewise, with the squares. -/
theorem sums11_2_apply (c : Dev nD) (j : Fin 128) : ∀ (n : ℕ) (h : n < cfg11.N),
    (sums11 V c n h).2 (ix2 0 j) = ∑ s ∈ Finset.range (n + 1), tileSumSq11 V c j s
  | 0, h => by
    show k11_pay5 _ _ _ k11_pay2 (ix2 0 j) = _
    rw [pay11_5_apply, pay11_2_apply, zero_add, Finset.sum_range_one]
    unfold tileSumSq11; rw [dif_pos h]
  | n + 1, h => by
    show k11_pay5 _ _ _ (sums11 V c n _).2 (ix2 0 j) = _
    rw [pay11_5_apply, sums11_2_apply c j n (Nat.lt_of_succ_lt h), Finset.sum_range_succ _ (n + 1)]
    congr 1
    unfold tileSumSq11; rw [dif_pos h]

/-- The ten tiles' column sums add up to the column sum over the hundred thousand rows. -/
theorem total11_1 (c : Dev nD) (j : Fin 128) :
    ∑ s ∈ Finset.range 10, tileSum11 V c j s = ∑ i : Fin 100000, lin11 ((dat11 V c).A 0) ((dat11 V c).A 1) ((dat11 V c).A 2) (ix2 i j) := by
  rw [Finset.sum_range, ← Cert.Math.sum_tiles (fun i => lin11 ((dat11 V c).A 0) ((dat11 V c).A 1) ((dat11 V c).A 2) (ix2 i j))]
  refine Finset.sum_congr rfl fun s _ => ?_
  have hs : s.val < cfg11.N := by rw [show cfg11.N = 10 from N_11]; exact s.isLt
  unfold tileSum11; rw [dif_pos hs]
  refine Finset.sum_congr rfl fun r _ => ?_
  exact tile11_apply V c ⟨s.val, hs⟩ r j

/-- The column sums, as contents of a [1,128] array. -/
@[irreducible] def colSums11 (c : Dev nD) : FVec Ideal S1x128 .f32 :=
  fun y => ∑ i : Fin 100000, lin11 ((dat11 V c).A 0) ((dat11 V c).A 1) ((dat11 V c).A 2) (ix2 i (y 1))

/-- The one write-back of output 4, after the last point, writes them. -/
theorem flushed11_4_eq (c : Dev nD) (t : Fin cfg11.N) (hf : (cfg11.win 4).flush t = true) :
    (dat11 V c).flushed 4 t = ((cfg11.win 4).blk t).view.read (Elt Ideal) (colSums11 V c) := by
  have hN : cfg11.N = 10 := N_11
  have h9 : t.val = 9 := by have := (flush11_4 t).mp hf; have := t.isLt; omega
  obtain ⟨e0, e1, e2, e3, e4, e5, e6, e7, e8, e9, e10, e11⟩ := idx_facts11 t
  show (cfg11.win 4).cut (grid11.coords t) ((dat11 V c).after 4 t) = _
  rw [after11_4, outsAt11_eq]
  funext y
  rw [View.read_apply, cast_eq]
  have hy0 : (y 0).val < 1 := (y 0).isLt
  have hy1 : (y 1).val < 128 := (y 1).isLt
  have hS := sums11_1_apply V c ⟨(y 1).val, hy1⟩ t.val t.isLt
  generalize sums11 V c t.val t.isLt = S at hS ⊢
  show S.1 y = colSums11 V c (((cfg11.win 4).blk t).view.emb y)
  have hy : y = ix2 (0 : Fin 1) (⟨(y 1).val, hy1⟩ : Fin 128) := by
    funext a; apply Fin.ext
    match a with
    | ⟨0, _⟩ => show (y 0).val = 0; omega
    | ⟨1, _⟩ => rfl
  have he : ((cfg11.win 4).blk t).view.emb y = ix2 (0 : Fin 1) (⟨(y 1).val, hy1⟩ : Fin 128) := by
    funext a; apply Fin.ext
    match a with
    | ⟨0, _⟩ => show win11_4.index t (0 : Fin 2) * 1 + 1 * (y 0).val = 0; omega
    | ⟨1, _⟩ => show win11_4.index t (1 : Fin 2) * 128 + 1 * (y 1).val = (y 1).val; omega
  rw [he, congrArg S.1 hy, hS, show t.val + 1 = 10 from by omega]
  unfold colSums11
  exact total11_1 V c ⟨(y 1).val, hy1⟩

/-- The last point's block is the whole [1,128] array. -/
theorem covered11_4 (i : S1x128.Idx) :
    ∃ t : Fin cfg11.N, (cfg11.win 4).flush t = true ∧ i ∈ ((cfg11.win 4).blk t).view.set := by
  have hN : cfg11.N = 10 := N_11
  have hi0 : (i 0).val < 1 := (i 0).isLt
  have hi1 : (i 1).val < 128 := (i 1).isLt
  let t : Fin cfg11.N := ⟨9, by omega⟩
  obtain ⟨e0, e1, e2, e3, e4, e5, e6, e7, e8, e9, e10, e11⟩ := idx_facts11 t
  refine ⟨t, (flush11_4 t).mpr rfl, ?_⟩
  show i ∈ ((View.whole (Pipeline.arrRef spec11 4)).slice (win11_4.rect t)).set
  rw [View.set_slice_whole, Rect.mem_set_unit]
  intro a
  match a with
  | ⟨0, _⟩ => show win11_4.index t (0 : Fin 2) * 1 ≤ (i 0).val ∧ (i 0).val < win11_4.index t (0 : Fin 2) * 1 + 1; omega
  | ⟨1, _⟩ => show win11_4.index t (1 : Fin 2) * 128 ≤ (i 1).val ∧ (i 1).val < win11_4.index t (1 : Fin 2) * 128 + 128; omega

/-- Output 4's array after the region. -/
theorem final11_4 (c : Dev nD) : (dat11 V c).arrAt 4 cfg11.N = colSums11 V c :=
  (dat11 V c).arrAt_eq_of_cover 4 _ (flushed11_4_eq V c) covered11_4

/-- The ten tiles' column sums of squares add up to the column sum of squares over the hundred thousand rows. -/
theorem total11_2 (c : Dev nD) (j : Fin 128) :
    ∑ s ∈ Finset.range 10, tileSumSq11 V c j s = ∑ i : Fin 100000, lin11 ((dat11 V c).A 0) ((dat11 V c).A 1) ((dat11 V c).A 2) (ix2 i j) * lin11 ((dat11 V c).A 0) ((dat11 V c).A 1) ((dat11 V c).A 2) (ix2 i j) := by
  rw [Finset.sum_range, ← Cert.Math.sum_tiles (fun i => lin11 ((dat11 V c).A 0) ((dat11 V c).A 1) ((dat11 V c).A 2) (ix2 i j) * lin11 ((dat11 V c).A 0) ((dat11 V c).A 1) ((dat11 V c).A 2) (ix2 i j))]
  refine Finset.sum_congr rfl fun s _ => ?_
  have hs : s.val < cfg11.N := by rw [show cfg11.N = 10 from N_11]; exact s.isLt
  unfold tileSumSq11; rw [dif_pos hs]
  refine Finset.sum_congr rfl fun r _ => ?_
  rw [tile11_apply V c ⟨s.val, hs⟩ r j]

/-- The column sums of squares, as contents of a [1,128] array. -/
@[irreducible] def colSumSqs11 (c : Dev nD) : FVec Ideal S1x128 .f32 :=
  fun y => ∑ i : Fin 100000, lin11 ((dat11 V c).A 0) ((dat11 V c).A 1) ((dat11 V c).A 2) (ix2 i (y 1)) * lin11 ((dat11 V c).A 0) ((dat11 V c).A 1) ((dat11 V c).A 2) (ix2 i (y 1))

/-- The one write-back of output 5, after the last point, writes them. -/
theorem flushed11_5_eq (c : Dev nD) (t : Fin cfg11.N) (hf : (cfg11.win 5).flush t = true) :
    (dat11 V c).flushed 5 t = ((cfg11.win 5).blk t).view.read (Elt Ideal) (colSumSqs11 V c) := by
  have hN : cfg11.N = 10 := N_11
  have h9 : t.val = 9 := by have := (flush11_5 t).mp hf; have := t.isLt; omega
  obtain ⟨e0, e1, e2, e3, e4, e5, e6, e7, e8, e9, e10, e11⟩ := idx_facts11 t
  show (cfg11.win 5).cut (grid11.coords t) ((dat11 V c).after 5 t) = _
  rw [after11_5, outsAt11_eq]
  funext y
  rw [View.read_apply, cast_eq]
  have hy0 : (y 0).val < 1 := (y 0).isLt
  have hy1 : (y 1).val < 128 := (y 1).isLt
  have hS := sums11_2_apply V c ⟨(y 1).val, hy1⟩ t.val t.isLt
  generalize sums11 V c t.val t.isLt = S at hS ⊢
  show S.2 y = colSumSqs11 V c (((cfg11.win 5).blk t).view.emb y)
  have hy : y = ix2 (0 : Fin 1) (⟨(y 1).val, hy1⟩ : Fin 128) := by
    funext a; apply Fin.ext
    match a with
    | ⟨0, _⟩ => show (y 0).val = 0; omega
    | ⟨1, _⟩ => rfl
  have he : ((cfg11.win 5).blk t).view.emb y = ix2 (0 : Fin 1) (⟨(y 1).val, hy1⟩ : Fin 128) := by
    funext a; apply Fin.ext
    match a with
    | ⟨0, _⟩ => show win11_5.index t (0 : Fin 2) * 1 + 1 * (y 0).val = 0; omega
    | ⟨1, _⟩ => show win11_5.index t (1 : Fin 2) * 128 + 1 * (y 1).val = (y 1).val; omega
  rw [he, congrArg S.2 hy, hS, show t.val + 1 = 10 from by omega]
  unfold colSumSqs11
  exact total11_2 V c ⟨(y 1).val, hy1⟩

/-- The last point's block is the whole [1,128] array. -/
theorem covered11_5 (i : S1x128.Idx) :
    ∃ t : Fin cfg11.N, (cfg11.win 5).flush t = true ∧ i ∈ ((cfg11.win 5).blk t).view.set := by
  have hN : cfg11.N = 10 := N_11
  have hi0 : (i 0).val < 1 := (i 0).isLt
  have hi1 : (i 1).val < 128 := (i 1).isLt
  let t : Fin cfg11.N := ⟨9, by omega⟩
  obtain ⟨e0, e1, e2, e3, e4, e5, e6, e7, e8, e9, e10, e11⟩ := idx_facts11 t
  refine ⟨t, (flush11_5 t).mpr rfl, ?_⟩
  show i ∈ ((View.whole (Pipeline.arrRef spec11 5)).slice (win11_5.rect t)).set
  rw [View.set_slice_whole, Rect.mem_set_unit]
  intro a
  match a with
  | ⟨0, _⟩ => show win11_5.index t (0 : Fin 2) * 1 ≤ (i 0).val ∧ (i 0).val < win11_5.index t (0 : Fin 2) * 1 + 1; omega
  | ⟨1, _⟩ => show win11_5.index t (1 : Fin 2) * 128 ≤ (i 1).val ∧ (i 1).val < win11_5.index t (1 : Fin 2) * 128 + 128; omega

/-- Output 5's array after the region. -/
theorem final11_5 (c : Dev nD) : (dat11 V c).arrAt 5 cfg11.N = colSumSqs11 V c :=
  (dat11 V c).arrAt_eq_of_cover 5 _ (flushed11_5_eq V c) covered11_5

/-! ### The three arrays in the shared vocabulary -/

/-- Output 3 after the region, index by index: the linear layer of the entry contents. -/
theorem val11_h (c : Dev nD) (i : Fin 100000) (j : Fin 128) :
    (dat11 (F := Ideal) V c).arrAt 3 cfg11.N (ix2 i j)
      = Cert.Math.lin (Cert.Math.at2 ((dat11 (F := Ideal) V c).A 0)) (Cert.Math.at2 ((dat11 (F := Ideal) V c).A 1)) (fun j => Cert.Math.at2 ((dat11 (F := Ideal) V c).A 2) 0 j) i j := by
  rw [final11_3]; unfold lin11; rfl

/-- Output 4 after the region: the column sums of the linear layer's result. -/
theorem val11_s (c : Dev nD) (j : Fin 128) :
    (dat11 (F := Ideal) V c).arrAt 4 cfg11.N (ix2 0 j)
      = Cert.Math.colSum (Cert.Math.lin (Cert.Math.at2 ((dat11 (F := Ideal) V c).A 0)) (Cert.Math.at2 ((dat11 (F := Ideal) V c).A 1)) (fun j => Cert.Math.at2 ((dat11 (F := Ideal) V c).A 2) 0 j)) j := by
  rw [final11_4]; unfold colSums11 lin11; rfl

/-- Output 5 after the region: the column sums of its squares. -/
theorem val11_ss (c : Dev nD) (j : Fin 128) :
    (dat11 (F := Ideal) V c).arrAt 5 cfg11.N (ix2 0 j)
      = Cert.Math.colSumSq (Cert.Math.lin (Cert.Math.at2 ((dat11 (F := Ideal) V c).A 0)) (Cert.Math.at2 ((dat11 (F := Ideal) V c).A 1)) (fun j => Cert.Math.at2 ((dat11 (F := Ideal) V c).A 2) 0 j)) j := by
  rw [final11_5]; unfold colSumSqs11 lin11; rfl

end Value

end Cert.KernelIdeal.Hand

end
-- ==== Proof.KI.ValBN1.lean ====
import proofs.«413302_j72232759984513_1_alg».proof.Proof.KI.RegBN1
import Idealize.ShloMosaic.Lib.ValueIdx
import Idealize.ShloMosaic.Lib.Pipeline.Value
import Idealize.ShloMosaic.Lib.ValueLayout
import Idealize.ShloMosaic.PureOps.Ideal.Laws
import proofs.«413302_j72232759984513_1_alg».proof.Proof.Math.Spec

/-! # Kernel region 1 over the extended reals: the output array, index by index

Every grid point writes back one tile of 10000 rows of `max ((h - mu) * inv * g + be) 0`, the four rows read at
the lane of the output index; the ten tiles fill the 100000 rows, so the array ends holding that function of the
entry contents everywhere. -/

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx (ix2)

variable (V : (c : Dev nD) → (b : Ref sig .tc) → Buf (Elt Ideal) ((c : Thread nD τ).loc b))

/-- The zero offsets, however spelt. -/
theorem zeroOff1 : (![0, 0] : Fin 2 → Nat) = fun _ => 0 := funext fun a => by fin_cases a <;> rfl

/-- Batch normalisation followed by the rectifier, index by index: the four rows are read at the index's lane. -/
abbrev bnRelu1 (h : FVec Ideal S100000x128 .f32) (mu inv g be : FVec Ideal S1x128 .f32) : FVec Ideal S100000x128 .f32 :=
  fun i => max ((((h i - mu (ix2 0 (i 1))) * inv (ix2 0 (i 1))) * g (ix2 0 (i 1))) + be (ix2 0 (i 1))) 0

/-- The body's payload at an index of the tile: the same tree of operations, each row broadcast over the tile's
    rows, the constant the real zero. -/
theorem bnPay1_apply (x0 : Vec Ideal S10000x128 .f32) (x1 x2 x3 x4 : Vec Ideal S1x128 .f32) (p : Fin 10000) (l : Fin 128) :
    k1_pay1 x0 x1 x2 x3 x4 (ix2 p l) = max ((((x0 (ix2 p l) - x1 (ix2 0 l)) * x2 (ix2 0 l)) * x3 (ix2 0 l)) + x4 (ix2 0 l)) 0 := by
  unfold k1_pay1
  simp only [shapeCast_self]
  show max ((((x0 _ - broadcastTo S10000x128 x1 _ _) * broadcastTo S10000x128 x2 _ _) * broadcastTo S10000x128 x3 _ _) + broadcastTo S10000x128 x4 _ _) (Ideal.ofBits .f32 0x00000000#32) = _
  rw [ValueIdx.broadcastTo_1b_ab_apply, ValueIdx.broadcastTo_1b_ab_apply, ValueIdx.broadcastTo_1b_ab_apply, ValueIdx.broadcastTo_1b_ab_apply, Ideal.ofBits_zero_f32]

/-- The printed index maps, decided over the ten points: the tile of `h` moves with the output's, the four rows stay
    at block 0, and the output's block indices stay in range. -/
theorem idx_facts1 : ∀ t : Fin cfg1.N, win1_0.index t (0 : Fin 2) = win1_5.index t (0 : Fin 2)
    ∧ win1_0.index t (1 : Fin 2) = win1_5.index t (1 : Fin 2)
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 9 ∧ win1_5.index t (1 : Fin 2) = 0 :=
  (by decide +kernel : ∀ t : Fin grid1.N, _)

/-- What point `t` writes back is the payload of the five input blocks: the one store is of the whole tile, the
    loads are of whole buffers, and the window is not cut. -/
theorem flushed1_5_pay (c : Dev nD) (t : Fin cfg1.N) :
    (dat1 V c).flushed 5 t = k1_pay1 (iblk1 V c 0 t) (iblk1 V c 1 t) (iblk1 V c 2 t) (iblk1 V c 3 t) (iblk1 V c 4 t) := by
  show (cfg1.win 5).cut (grid1.coords t) ((dat1 V c).after 5 t) = _
  rw [after1_5]
  unfold out1_5
  rw [View.canon_unit_zero zeroOff1]
  simp only [View.ld_unit_zero (S := S10000x128) zeroOff1, View.ld_unit_zero (S := S1x128) zeroOff1]
  rfl

/-- The tile of `h` staged at point `t` sits in its array where the output's tile sits in its own. -/
theorem emb1_0 (t : Fin cfg1.N) (p : Fin 10000) (l : Fin 128) :
    ((cfg1.win 0).blk t).view.emb (ix2 p l) = ((cfg1.win 5).blk t).view.emb (ix2 p l) := by
  obtain ⟨e0, e1, -⟩ := idx_facts1 t
  funext a; apply Fin.ext
  match a with
  | ⟨0, _⟩ => show win1_0.index t (0 : Fin 2) * 10000 + 1 * p.val = win1_5.index t (0 : Fin 2) * 10000 + 1 * p.val; omega
  | ⟨1, _⟩ => show win1_0.index t (1 : Fin 2) * 128 + 1 * l.val = win1_5.index t (1 : Fin 2) * 128 + 1 * l.val; omega

/-- Row window 1's block is the array's one row: lane `l` of it is lane `l` of the array, which is the lane of the
    output index. -/
theorem emb1_1 (t : Fin cfg1.N) (p : Fin 10000) (l : Fin 128) :
    ((cfg1.win 1).blk t).view.emb (ix2 0 l) = ix2 0 ((((cfg1.win 5).blk t).view.emb (ix2 p l)) 1) := by
  obtain ⟨e0, e1, e2, e3, e4, e5, e6, e7, e8, e9, e10, e11⟩ := idx_facts1 t
  funext a; apply Fin.ext
  match a with
  | ⟨0, _⟩ => show win1_1.index t (0 : Fin 2) * 1 + 1 * 0 = 0; omega
  | ⟨1, _⟩ => show win1_1.index t (1 : Fin 2) * 128 + 1 * l.val = win1_5.index t (1 : Fin 2) * 128 + 1 * l.val; omega

/-- Row window 2's block is the array's one row: lane `l` of it is lane `l` of the array, which is the lane of the
    output index. -/
theorem emb1_2 (t : Fin cfg1.N) (p : Fin 10000) (l : Fin 128) :
    ((cfg1.win 2).blk t).view.emb (ix2 0 l) = ix2 0 ((((cfg1.win 5).blk t).view.emb (ix2 p l)) 1) := by
  obtain ⟨e0, e1, e2, e3, e4, e5, e6, e7, e8, e9, e10, e11⟩ := idx_facts1 t
  funext a; apply Fin.ext
  match a with
  | ⟨0, _⟩ => show win1_2.index t (0 : Fin 2) * 1 + 1 * 0 = 0; omega
  | ⟨1, _⟩ => show win1_2.index t (1 : Fin 2) * 128 + 1 * l.val = win1_5.index t (1 : Fin 2) * 128 + 1 * l.val; omega

/-- Row window 3's block is the array's one row: lane `l` of it is lane `l` of the array, which is the lane of the
    output index. -/
theorem emb1_3 (t : Fin cfg1.N) (p : Fin 10000) (l : Fin 128) :
    ((cfg1.win 3).blk t).view.emb (ix2 0 l) = ix2 0 ((((cfg1.win 5).blk t).view.emb (ix2 p l)) 1) := by
  obtain ⟨e0, e1, e2, e3, e4, e5, e6, e7, e8, e9, e10, e11⟩ := idx_facts1 t
  funext a; apply Fin.ext
  match a with
  | ⟨0, _⟩ => show win1_3.index t (0 : Fin 2) * 1 + 1 * 0 = 0; omega
  | ⟨1, _⟩ => show win1_3.index t (1 : Fin 2) * 128 + 1 * l.val = win1_5.index t (1 : Fin 2) * 128 + 1 * l.val; omega

/-- Row window 4's block is the array's one row: lane `l` of it is lane `l` of the array, which is the lane of the
    output index. -/
theorem emb1_4 (t : Fin cfg1.N) (p : Fin 10000) (l : Fin 128) :
    ((cfg1.win 4).blk t).view.emb (ix2 0 l) = ix2 0 ((((cfg1.win 5).blk t).view.emb (ix2 p l)) 1) := by
  obtain ⟨e0, e1, e2, e3, e4, e5, e6, e7, e8, e9, e10, e11⟩ := idx_facts1 t
  funext a; apply Fin.ext
  match a with
  | ⟨0, _⟩ => show win1_4.index t (0 : Fin 2) * 1 + 1 * 0 = 0; omega
  | ⟨1, _⟩ => show win1_4.index t (1 : Fin 2) * 128 + 1 * l.val = win1_5.index t (1 : Fin 2) * 128 + 1 * l.val; omega

/-- Every one of the ten row blocks is some point's. -/
theorem idx_onto1 : ∀ q0 : Fin 10, ∃ t : Fin cfg1.N, win1_5.index t = ![q0.val, 0] :=
  (by decide +kernel : ∀ q0 : Fin 10, ∃ t : Fin grid1.N, win1_5.index t = ![q0.val, 0])

/-- The operations on the blocks the five input windows stage at point `t` are `bnRelu1` of the arrays at the
    output block's index: the tile of `h` sits where the output's does, each row at block 0. -/
theorem bnRelu1_blk (t : Fin cfg1.N) (p : Fin 10000) (l : Fin 128) (a0 : FVec Ideal S100000x128 .f32) (a1 a2 a3 a4 : FVec Ideal S1x128 .f32) :
    max ((((a0 (((cfg1.win 0).blk t).view.emb (ix2 p l)) - a1 (((cfg1.win 1).blk t).view.emb (ix2 0 l)))
        * a2 (((cfg1.win 2).blk t).view.emb (ix2 0 l))) * a3 (((cfg1.win 3).blk t).view.emb (ix2 0 l)))
        + a4 (((cfg1.win 4).blk t).view.emb (ix2 0 l))) 0
      = bnRelu1 a0 a1 a2 a3 a4 (((cfg1.win 5).blk t).view.emb (ix2 p l)) := by
  rw [emb1_0 t p l, emb1_1 t p l, emb1_2 t p l, emb1_3 t p l, emb1_4 t p l]
  rfl

set_option maxHeartbeats 400000 in
/-- What point `t` writes back is block `t` of `bnRelu1` of the arrays as the region finds them. -/
theorem flushed1_5_eq (c : Dev nD) (t : Fin cfg1.N) :
    (dat1 V c).flushed 5 t = ((cfg1.win 5).blk t).view.read (Elt Ideal)
      (bnRelu1 ((dat1 V c).A 0) ((dat1 V c).A 1) ((dat1 V c).A 2) ((dat1 V c).A 3) ((dat1 V c).A 4)) := by
  rw [flushed1_5_pay, A_eq1, A_eq1, A_eq1, A_eq1, A_eq1]
  funext y
  obtain ⟨p, l, rfl⟩ : ∃ (p : Fin 10000) (l : Fin 128), y = ix2 p l := ⟨y 0, y 1, ValueIdx.eq_ix2 y⟩
  rw [bnPay1_apply]
  exact bnRelu1_blk t p l (V c (Pipeline.arrRef spec1 0)) (V c (Pipeline.arrRef spec1 1)) (V c (Pipeline.arrRef spec1 2)) (V c (Pipeline.arrRef spec1 3)) (V c (Pipeline.arrRef spec1 4))

/-- An index of the array is in point `t`'s block iff each coordinate is in the block's range on its axis. -/
theorem mem_blk1_5 (t : Fin cfg1.N) (i : S100000x128.Idx) :
    i ∈ ((cfg1.win 5).blk t).view.set ↔ ∀ a : Fin 2, win1_5.index t a * S10000x128.size a ≤ (i a).val ∧ (i a).val < win1_5.index t a * S10000x128.size a + S10000x128.size a := by
  show i ∈ ((View.whole (Pipeline.arrRef spec1 5)).slice (win1_5.rect t)).set ↔ _
  rw [View.set_slice_whole, Rect.mem_set_unit]
  exact Iff.rfl

/-- The ten tiles fill the array: row `r` is in the block of the point whose block index is `r / 10000`. -/
theorem covered1_5 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := idx_onto1 ⟨(i 0).val / 10000, by omega⟩
  have q0 : win1_5.index t (0 : Fin 2) = (i 0).val / 10000 := congrFun ht 0
  have q1 : win1_5.index t (1 : Fin 2) = 0 := congrFun ht 1
  refine ⟨t, flush1_5 t, ?_⟩
  rw [mem_blk1_5]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 128 ≤ (i 1).val ∧ (i 1).val < win1_5.index t (1 : Fin 2) * 128 + 128; omega

/-- The output array after the region: `bnRelu1` of the entry contents, everywhere. -/
theorem final1_5 (c : Dev nD) : (dat1 V c).arrAt 5 cfg1.N
    = bnRelu1 ((dat1 V c).A 0) ((dat1 V c).A 1) ((dat1 V c).A 2) ((dat1 V c).A 3) ((dat1 V c).A 4) :=
  (dat1 V c).arrAt_eq_of_cover 5 _ (fun t _ => flushed1_5_eq V c t) covered1_5

/-- The output array after the region, index by index, in the shared vocabulary. -/
theorem val1 (c : Dev nD) (i : Fin 100000) (j : Fin 128) :
    (dat1 (F := Ideal) V c).arrAt 5 cfg1.N (ix2 i j)
      = Cert.Math.bnRelu (Cert.Math.at2 ((dat1 V c).A 0)) (fun j => Cert.Math.at2 ((dat1 V c).A 1) 0 j) (fun j => Cert.Math.at2 ((dat1 V c).A 2) 0 j)
          (fun j => Cert.Math.at2 ((dat1 V c).A 3) 0 j) (fun j => Cert.Math.at2 ((dat1 V c).A 4) 0 j) i j := by
  rw [final1_5]
  rfl

end Cert.KernelIdeal.Hand
end
-- ==== Proof.KI.ValBN3.lean ====
import proofs.«413302_j72232759984513_1_alg».proof.Proof.KI.RegBN3
import Idealize.ShloMosaic.Lib.ValueIdx
import Idealize.ShloMosaic.Lib.Pipeline.Value
import Idealize.ShloMosaic.Lib.ValueLayout
import Idealize.ShloMosaic.PureOps.Ideal.Laws
import proofs.«413302_j72232759984513_1_alg».proof.Proof.Math.Spec

/-! # Kernel region 3 over the extended reals: the output array, index by index

Every grid point writes back one tile of 10000 rows of `max ((h - mu) * inv * g + be) 0`, the four rows read at
the lane of the output index; the ten tiles fill the 100000 rows, so the array ends holding that function of the
entry contents everywhere. -/

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx (ix2)

variable (V : (c : Dev nD) → (b : Ref sig .tc) → Buf (Elt Ideal) ((c : Thread nD τ).loc b))

/-- The zero offsets, however spelt. -/
theorem zeroOff3 : (![0, 0] : Fin 2 → Nat) = fun _ => 0 := funext fun a => by fin_cases a <;> rfl

/-- Batch normalisation followed by the rectifier, index by index: the four rows are read at the index's lane. -/
abbrev bnRelu3 (h : FVec Ideal S100000x128 .f32) (mu inv g be : FVec Ideal S1x128 .f32) : FVec Ideal S100000x128 .f32 :=
  fun i => max ((((h i - mu (ix2 0 (i 1))) * inv (ix2 0 (i 1))) * g (ix2 0 (i 1))) + be (ix2 0 (i 1))) 0

/-- The body's payload at an index of the tile: the same tree of operations, each row broadcast over the tile's
    rows, the constant the real zero. -/
theorem bnPay3_apply (x0 : Vec Ideal S10000x128 .f32) (x1 x2 x3 x4 : Vec Ideal S1x128 .f32) (p : Fin 10000) (l : Fin 128) :
    k3_pay1 x0 x1 x2 x3 x4 (ix2 p l) = max ((((x0 (ix2 p l) - x1 (ix2 0 l)) * x2 (ix2 0 l)) * x3 (ix2 0 l)) + x4 (ix2 0 l)) 0 := by
  unfold k3_pay1
  simp only [shapeCast_self]
  show max ((((x0 _ - broadcastTo S10000x128 x1 _ _) * broadcastTo S10000x128 x2 _ _) * broadcastTo S10000x128 x3 _ _) + broadcastTo S10000x128 x4 _ _) (Ideal.ofBits .f32 0x00000000#32) = _
  rw [ValueIdx.broadcastTo_1b_ab_apply, ValueIdx.broadcastTo_1b_ab_apply, ValueIdx.broadcastTo_1b_ab_apply, ValueIdx.broadcastTo_1b_ab_apply, Ideal.ofBits_zero_f32]

/-- The printed index maps, decided over the ten points: the tile of `h` moves with the output's, the four rows stay
    at block 0, and the output's block indices stay in range. -/
theorem idx_facts3 : ∀ t : Fin cfg3.N, win3_0.index t (0 : Fin 2) = win3_5.index t (0 : Fin 2)
    ∧ win3_0.index t (1 : Fin 2) = win3_5.index t (1 : Fin 2)
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) ≤ 9 ∧ win3_5.index t (1 : Fin 2) = 0 :=
  (by decide +kernel : ∀ t : Fin grid3.N, _)

/-- What point `t` writes back is the payload of the five input blocks: the one store is of the whole tile, the
    loads are of whole buffers, and the window is not cut. -/
theorem flushed3_5_pay (c : Dev nD) (t : Fin cfg3.N) :
    (dat3 V c).flushed 5 t = k3_pay1 (iblk3 V c 0 t) (iblk3 V c 1 t) (iblk3 V c 2 t) (iblk3 V c 3 t) (iblk3 V c 4 t) := by
  show (cfg3.win 5).cut (grid3.coords t) ((dat3 V c).after 5 t) = _
  rw [after3_5]
  unfold out3_5
  rw [View.canon_unit_zero zeroOff3]
  simp only [View.ld_unit_zero (S := S10000x128) zeroOff3, View.ld_unit_zero (S := S1x128) zeroOff3]
  rfl

/-- The tile of `h` staged at point `t` sits in its array where the output's tile sits in its own. -/
theorem emb3_0 (t : Fin cfg3.N) (p : Fin 10000) (l : Fin 128) :
    ((cfg3.win 0).blk t).view.emb (ix2 p l) = ((cfg3.win 5).blk t).view.emb (ix2 p l) := by
  obtain ⟨e0, e1, -⟩ := idx_facts3 t
  funext a; apply Fin.ext
  match a with
  | ⟨0, _⟩ => show win3_0.index t (0 : Fin 2) * 10000 + 1 * p.val = win3_5.index t (0 : Fin 2) * 10000 + 1 * p.val; omega
  | ⟨1, _⟩ => show win3_0.index t (1 : Fin 2) * 128 + 1 * l.val = win3_5.index t (1 : Fin 2) * 128 + 1 * l.val; omega

/-- Row window 1's block is the array's one row: lane `l` of it is lane `l` of the array, which is the lane of the
    output index. -/
theorem emb3_1 (t : Fin cfg3.N) (p : Fin 10000) (l : Fin 128) :
    ((cfg3.win 1).blk t).view.emb (ix2 0 l) = ix2 0 ((((cfg3.win 5).blk t).view.emb (ix2 p l)) 1) := by
  obtain ⟨e0, e1, e2, e3, e4, e5, e6, e7, e8, e9, e10, e11⟩ := idx_facts3 t
  funext a; apply Fin.ext
  match a with
  | ⟨0, _⟩ => show win3_1.index t (0 : Fin 2) * 1 + 1 * 0 = 0; omega
  | ⟨1, _⟩ => show win3_1.index t (1 : Fin 2) * 128 + 1 * l.val = win3_5.index t (1 : Fin 2) * 128 + 1 * l.val; omega

/-- Row window 2's block is the array's one row: lane `l` of it is lane `l` of the array, which is the lane of the
    output index. -/
theorem emb3_2 (t : Fin cfg3.N) (p : Fin 10000) (l : Fin 128) :
    ((cfg3.win 2).blk t).view.emb (ix2 0 l) = ix2 0 ((((cfg3.win 5).blk t).view.emb (ix2 p l)) 1) := by
  obtain ⟨e0, e1, e2, e3, e4, e5, e6, e7, e8, e9, e10, e11⟩ := idx_facts3 t
  funext a; apply Fin.ext
  match a with
  | ⟨0, _⟩ => show win3_2.index t (0 : Fin 2) * 1 + 1 * 0 = 0; omega
  | ⟨1, _⟩ => show win3_2.index t (1 : Fin 2) * 128 + 1 * l.val = win3_5.index t (1 : Fin 2) * 128 + 1 * l.val; omega

/-- Row window 3's block is the array's one row: lane `l` of it is lane `l` of the array, which is the lane of the
    output index. -/
theorem emb3_3 (t : Fin cfg3.N) (p : Fin 10000) (l : Fin 128) :
    ((cfg3.win 3).blk t).view.emb (ix2 0 l) = ix2 0 ((((cfg3.win 5).blk t).view.emb (ix2 p l)) 1) := by
  obtain ⟨e0, e1, e2, e3, e4, e5, e6, e7, e8, e9, e10, e11⟩ := idx_facts3 t
  funext a; apply Fin.ext
  match a with
  | ⟨0, _⟩ => show win3_3.index t (0 : Fin 2) * 1 + 1 * 0 = 0; omega
  | ⟨1, _⟩ => show win3_3.index t (1 : Fin 2) * 128 + 1 * l.val = win3_5.index t (1 : Fin 2) * 128 + 1 * l.val; omega

/-- Row window 4's block is the array's one row: lane `l` of it is lane `l` of the array, which is the lane of the
    output index. -/
theorem emb3_4 (t : Fin cfg3.N) (p : Fin 10000) (l : Fin 128) :
    ((cfg3.win 4).blk t).view.emb (ix2 0 l) = ix2 0 ((((cfg3.win 5).blk t).view.emb (ix2 p l)) 1) := by
  obtain ⟨e0, e1, e2, e3, e4, e5, e6, e7, e8, e9, e10, e11⟩ := idx_facts3 t
  funext a; apply Fin.ext
  match a with
  | ⟨0, _⟩ => show win3_4.index t (0 : Fin 2) * 1 + 1 * 0 = 0; omega
  | ⟨1, _⟩ => show win3_4.index t (1 : Fin 2) * 128 + 1 * l.val = win3_5.index t (1 : Fin 2) * 128 + 1 * l.val; omega

/-- Every one of the ten row blocks is some point's. -/
theorem idx_onto3 : ∀ q0 : Fin 10, ∃ t : Fin cfg3.N, win3_5.index t = ![q0.val, 0] :=
  (by decide +kernel : ∀ q0 : Fin 10, ∃ t : Fin grid3.N, win3_5.index t = ![q0.val, 0])

/-- The operations on the blocks the five input windows stage at point `t` are `bnRelu3` of the arrays at the
    output block's index: the tile of `h` sits where the output's does, each row at block 0. -/
theorem bnRelu3_blk (t : Fin cfg3.N) (p : Fin 10000) (l : Fin 128) (a0 : FVec Ideal S100000x128 .f32) (a1 a2 a3 a4 : FVec Ideal S1x128 .f32) :
    max ((((a0 (((cfg3.win 0).blk t).view.emb (ix2 p l)) - a1 (((cfg3.win 1).blk t).view.emb (ix2 0 l)))
        * a2 (((cfg3.win 2).blk t).view.emb (ix2 0 l))) * a3 (((cfg3.win 3).blk t).view.emb (ix2 0 l)))
        + a4 (((cfg3.win 4).blk t).view.emb (ix2 0 l))) 0
      = bnRelu3 a0 a1 a2 a3 a4 (((cfg3.win 5).blk t).view.emb (ix2 p l)) := by
  rw [emb3_0 t p l, emb3_1 t p l, emb3_2 t p l, emb3_3 t p l, emb3_4 t p l]
  rfl

set_option maxHeartbeats 400000 in
/-- What point `t` writes back is block `t` of `bnRelu3` of the arrays as the region finds them. -/
theorem flushed3_5_eq (c : Dev nD) (t : Fin cfg3.N) :
    (dat3 V c).flushed 5 t = ((cfg3.win 5).blk t).view.read (Elt Ideal)
      (bnRelu3 ((dat3 V c).A 0) ((dat3 V c).A 1) ((dat3 V c).A 2) ((dat3 V c).A 3) ((dat3 V c).A 4)) := by
  rw [flushed3_5_pay, A_eq3, A_eq3, A_eq3, A_eq3, A_eq3]
  funext y
  obtain ⟨p, l, rfl⟩ : ∃ (p : Fin 10000) (l : Fin 128), y = ix2 p l := ⟨y 0, y 1, ValueIdx.eq_ix2 y⟩
  rw [bnPay3_apply]
  exact bnRelu3_blk t p l (V c (Pipeline.arrRef spec3 0)) (V c (Pipeline.arrRef spec3 1)) (V c (Pipeline.arrRef spec3 2)) (V c (Pipeline.arrRef spec3 3)) (V c (Pipeline.arrRef spec3 4))

/-- An index of the array is in point `t`'s block iff each coordinate is in the block's range on its axis. -/
theorem mem_blk3_5 (t : Fin cfg3.N) (i : S100000x128.Idx) :
    i ∈ ((cfg3.win 5).blk t).view.set ↔ ∀ a : Fin 2, win3_5.index t a * S10000x128.size a ≤ (i a).val ∧ (i a).val < win3_5.index t a * S10000x128.size a + S10000x128.size a := by
  show i ∈ ((View.whole (Pipeline.arrRef spec3 5)).slice (win3_5.rect t)).set ↔ _
  rw [View.set_slice_whole, Rect.mem_set_unit]
  exact Iff.rfl

/-- The ten tiles fill the array: row `r` is in the block of the point whose block index is `r / 10000`. -/
theorem covered3_5 (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  obtain ⟨t, ht⟩ := idx_onto3 ⟨(i 0).val / 10000, by omega⟩
  have q0 : win3_5.index t (0 : Fin 2) = (i 0).val / 10000 := congrFun ht 0
  have q1 : win3_5.index t (1 : Fin 2) = 0 := congrFun ht 1
  refine ⟨t, flush3_5 t, ?_⟩
  rw [mem_blk3_5]
  intro a
  match a with
  | ⟨0, _⟩ => show win3_5.index t (0 : Fin 2) * 10000 ≤ (i 0).val ∧ (i 0).val < win3_5.index t (0 : Fin 2) * 10000 + 10000; omega
  | ⟨1, _⟩ => show win3_5.index t (1 : Fin 2) * 128 ≤ (i 1).val ∧ (i 1).val < win3_5.index t (1 : Fin 2) * 128 + 128; omega

/-- The output array after the region: `bnRelu3` of the entry contents, everywhere. -/
theorem final3_5 (c : Dev nD) : (dat3 V c).arrAt 5 cfg3.N
    = bnRelu3 ((dat3 V c).A 0) ((dat3 V c).A 1) ((dat3 V c).A 2) ((dat3 V c).A 3) ((dat3 V c).A 4) :=
  (dat3 V c).arrAt_eq_of_cover 5 _ (fun t _ => flushed3_5_eq V c t) covered3_5

/-- The output array after the region, index by index, in the shared vocabulary. -/
theorem val3 (c : Dev nD) (i : Fin 100000) (j : Fin 128) :
    (dat3 (F := Ideal) V c).arrAt 5 cfg3.N (ix2 i j)
      = Cert.Math.bnRelu (Cert.Math.at2 ((dat3 V c).A 0)) (fun j => Cert.Math.at2 ((dat3 V c).A 1) 0 j) (fun j => Cert.Math.at2 ((dat3 V c).A 2) 0 j)
          (fun j => Cert.Math.at2 ((dat3 V c).A 3) 0 j) (fun j => Cert.Math.at2 ((dat3 V c).A 4) 0 j) i j := by
  rw [final3_5]
  rfl

end Cert.KernelIdeal.Hand
end
-- ==== Proof.KI.ValBN5.lean ====
import proofs.«413302_j72232759984513_1_alg».proof.Proof.KI.RegBN5
import Idealize.ShloMosaic.Lib.ValueIdx
import Idealize.ShloMosaic.Lib.Pipeline.Value
import Idealize.ShloMosaic.Lib.ValueLayout
import Idealize.ShloMosaic.PureOps.Ideal.Laws
import proofs.«413302_j72232759984513_1_alg».proof.Proof.Math.Spec

/-! # Kernel region 5 over the extended reals: the output array, index by index

Every grid point writes back one tile of 10000 rows of `max ((h - mu) * inv * g + be) 0`, the four rows read at
the lane of the output index; the ten tiles fill the 100000 rows, so the array ends holding that function of the
entry contents everywhere. -/

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx (ix2)

variable (V : (c : Dev nD) → (b : Ref sig .tc) → Buf (Elt Ideal) ((c : Thread nD τ).loc b))

/-- The zero offsets, however spelt. -/
theorem zeroOff5 : (![0, 0] : Fin 2 → Nat) = fun _ => 0 := funext fun a => by fin_cases a <;> rfl

/-- Batch normalisation followed by the rectifier, index by index: the four rows are read at the index's lane. -/
abbrev bnRelu5 (h : FVec Ideal S100000x128 .f32) (mu inv g be : FVec Ideal S1x128 .f32) : FVec Ideal S100000x128 .f32 :=
  fun i => max ((((h i - mu (ix2 0 (i 1))) * inv (ix2 0 (i 1))) * g (ix2 0 (i 1))) + be (ix2 0 (i 1))) 0

/-- The body's payload at an index of the tile: the same tree of operations, each row broadcast over the tile's
    rows, the constant the real zero. -/
theorem bnPay5_apply (x0 : Vec Ideal S10000x128 .f32) (x1 x2 x3 x4 : Vec Ideal S1x128 .f32) (p : Fin 10000) (l : Fin 128) :
    k5_pay1 x0 x1 x2 x3 x4 (ix2 p l) = max ((((x0 (ix2 p l) - x1 (ix2 0 l)) * x2 (ix2 0 l)) * x3 (ix2 0 l)) + x4 (ix2 0 l)) 0 := by
  unfold k5_pay1
  simp only [shapeCast_self]
  show max ((((x0 _ - broadcastTo S10000x128 x1 _ _) * broadcastTo S10000x128 x2 _ _) * broadcastTo S10000x128 x3 _ _) + broadcastTo S10000x128 x4 _ _) (Ideal.ofBits .f32 0x00000000#32) = _
  rw [ValueIdx.broadcastTo_1b_ab_apply, ValueIdx.broadcastTo_1b_ab_apply, ValueIdx.broadcastTo_1b_ab_apply, ValueIdx.broadcastTo_1b_ab_apply, Ideal.ofBits_zero_f32]

/-- The printed index maps, decided over the ten points: the tile of `h` moves with the output's, the four rows stay
    at block 0, and the output's block indices stay in range. -/
theorem idx_facts5 : ∀ t : Fin cfg5.N, win5_0.index t (0 : Fin 2) = win5_5.index t (0 : Fin 2)
    ∧ win5_0.index t (1 : Fin 2) = win5_5.index t (1 : Fin 2)
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) ≤ 9 ∧ win5_5.index t (1 : Fin 2) = 0 :=
  (by decide +kernel : ∀ t : Fin grid5.N, _)

/-- What point `t` writes back is the payload of the five input blocks: the one store is of the whole tile, the
    loads are of whole buffers, and the window is not cut. -/
theorem flushed5_5_pay (c : Dev nD) (t : Fin cfg5.N) :
    (dat5 V c).flushed 5 t = k5_pay1 (iblk5 V c 0 t) (iblk5 V c 1 t) (iblk5 V c 2 t) (iblk5 V c 3 t) (iblk5 V c 4 t) := by
  show (cfg5.win 5).cut (grid5.coords t) ((dat5 V c).after 5 t) = _
  rw [after5_5]
  unfold out5_5
  rw [View.canon_unit_zero zeroOff5]
  simp only [View.ld_unit_zero (S := S10000x128) zeroOff5, View.ld_unit_zero (S := S1x128) zeroOff5]
  rfl

/-- The tile of `h` staged at point `t` sits in its array where the output's tile sits in its own. -/
theorem emb5_0 (t : Fin cfg5.N) (p : Fin 10000) (l : Fin 128) :
    ((cfg5.win 0).blk t).view.emb (ix2 p l) = ((cfg5.win 5).blk t).view.emb (ix2 p l) := by
  obtain ⟨e0, e1, -⟩ := idx_facts5 t
  funext a; apply Fin.ext
  match a with
  | ⟨0, _⟩ => show win5_0.index t (0 : Fin 2) * 10000 + 1 * p.val = win5_5.index t (0 : Fin 2) * 10000 + 1 * p.val; omega
  | ⟨1, _⟩ => show win5_0.index t (1 : Fin 2) * 128 + 1 * l.val = win5_5.index t (1 : Fin 2) * 128 + 1 * l.val; omega

/-- Row window 1's block is the array's one row: lane `l` of it is lane `l` of the array, which is the lane of the
    output index. -/
theorem emb5_1 (t : Fin cfg5.N) (p : Fin 10000) (l : Fin 128) :
    ((cfg5.win 1).blk t).view.emb (ix2 0 l) = ix2 0 ((((cfg5.win 5).blk t).view.emb (ix2 p l)) 1) := by
  obtain ⟨e0, e1, e2, e3, e4, e5, e6, e7, e8, e9, e10, e11⟩ := idx_facts5 t
  funext a; apply Fin.ext
  match a with
  | ⟨0, _⟩ => show win5_1.index t (0 : Fin 2) * 1 + 1 * 0 = 0; omega
  | ⟨1, _⟩ => show win5_1.index t (1 : Fin 2) * 128 + 1 * l.val = win5_5.index t (1 : Fin 2) * 128 + 1 * l.val; omega

/-- Row window 2's block is the array's one row: lane `l` of it is lane `l` of the array, which is the lane of the
    output index. -/
theorem emb5_2 (t : Fin cfg5.N) (p : Fin 10000) (l : Fin 128) :
    ((cfg5.win 2).blk t).view.emb (ix2 0 l) = ix2 0 ((((cfg5.win 5).blk t).view.emb (ix2 p l)) 1) := by
  obtain ⟨e0, e1, e2, e3, e4, e5, e6, e7, e8, e9, e10, e11⟩ := idx_facts5 t
  funext a; apply Fin.ext
  match a with
  | ⟨0, _⟩ => show win5_2.index t (0 : Fin 2) * 1 + 1 * 0 = 0; omega
  | ⟨1, _⟩ => show win5_2.index t (1 : Fin 2) * 128 + 1 * l.val = win5_5.index t (1 : Fin 2) * 128 + 1 * l.val; omega

/-- Row window 3's block is the array's one row: lane `l` of it is lane `l` of the array, which is the lane of the
    output index. -/
theorem emb5_3 (t : Fin cfg5.N) (p : Fin 10000) (l : Fin 128) :
    ((cfg5.win 3).blk t).view.emb (ix2 0 l) = ix2 0 ((((cfg5.win 5).blk t).view.emb (ix2 p l)) 1) := by
  obtain ⟨e0, e1, e2, e3, e4, e5, e6, e7, e8, e9, e10, e11⟩ := idx_facts5 t
  funext a; apply Fin.ext
  match a with
  | ⟨0, _⟩ => show win5_3.index t (0 : Fin 2) * 1 + 1 * 0 = 0; omega
  | ⟨1, _⟩ => show win5_3.index t (1 : Fin 2) * 128 + 1 * l.val = win5_5.index t (1 : Fin 2) * 128 + 1 * l.val; omega

/-- Row window 4's block is the array's one row: lane `l` of it is lane `l` of the array, which is the lane of the
    output index. -/
theorem emb5_4 (t : Fin cfg5.N) (p : Fin 10000) (l : Fin 128) :
    ((cfg5.win 4).blk t).view.emb (ix2 0 l) = ix2 0 ((((cfg5.win 5).blk t).view.emb (ix2 p l)) 1) := by
  obtain ⟨e0, e1, e2, e3, e4, e5, e6, e7, e8, e9, e10, e11⟩ := idx_facts5 t
  funext a; apply Fin.ext
  match a with
  | ⟨0, _⟩ => show win5_4.index t (0 : Fin 2) * 1 + 1 * 0 = 0; omega
  | ⟨1, _⟩ => show win5_4.index t (1 : Fin 2) * 128 + 1 * l.val = win5_5.index t (1 : Fin 2) * 128 + 1 * l.val; omega

/-- Every one of the ten row blocks is some point's. -/
theorem idx_onto5 : ∀ q0 : Fin 10, ∃ t : Fin cfg5.N, win5_5.index t = ![q0.val, 0] :=
  (by decide +kernel : ∀ q0 : Fin 10, ∃ t : Fin grid5.N, win5_5.index t = ![q0.val, 0])

/-- The operations on the blocks the five input windows stage at point `t` are `bnRelu5` of the arrays at the
    output block's index: the tile of `h` sits where the output's does, each row at block 0. -/
theorem bnRelu5_blk (t : Fin cfg5.N) (p : Fin 10000) (l : Fin 128) (a0 : FVec Ideal S100000x128 .f32) (a1 a2 a3 a4 : FVec Ideal S1x128 .f32) :
    max ((((a0 (((cfg5.win 0).blk t).view.emb (ix2 p l)) - a1 (((cfg5.win 1).blk t).view.emb (ix2 0 l)))
        * a2 (((cfg5.win 2).blk t).view.emb (ix2 0 l))) * a3 (((cfg5.win 3).blk t).view.emb (ix2 0 l)))
        + a4 (((cfg5.win 4).blk t).view.emb (ix2 0 l))) 0
      = bnRelu5 a0 a1 a2 a3 a4 (((cfg5.win 5).blk t).view.emb (ix2 p l)) := by
  rw [emb5_0 t p l, emb5_1 t p l, emb5_2 t p l, emb5_3 t p l, emb5_4 t p l]
  rfl

set_option maxHeartbeats 400000 in
/-- What point `t` writes back is block `t` of `bnRelu5` of the arrays as the region finds them. -/
theorem flushed5_5_eq (c : Dev nD) (t : Fin cfg5.N) :
    (dat5 V c).flushed 5 t = ((cfg5.win 5).blk t).view.read (Elt Ideal)
      (bnRelu5 ((dat5 V c).A 0) ((dat5 V c).A 1) ((dat5 V c).A 2) ((dat5 V c).A 3) ((dat5 V c).A 4)) := by
  rw [flushed5_5_pay, A_eq5, A_eq5, A_eq5, A_eq5, A_eq5]
  funext y
  obtain ⟨p, l, rfl⟩ : ∃ (p : Fin 10000) (l : Fin 128), y = ix2 p l := ⟨y 0, y 1, ValueIdx.eq_ix2 y⟩
  rw [bnPay5_apply]
  exact bnRelu5_blk t p l (V c (Pipeline.arrRef spec5 0)) (V c (Pipeline.arrRef spec5 1)) (V c (Pipeline.arrRef spec5 2)) (V c (Pipeline.arrRef spec5 3)) (V c (Pipeline.arrRef spec5 4))

/-- An index of the array is in point `t`'s block iff each coordinate is in the block's range on its axis. -/
theorem mem_blk5_5 (t : Fin cfg5.N) (i : S100000x128.Idx) :
    i ∈ ((cfg5.win 5).blk t).view.set ↔ ∀ a : Fin 2, win5_5.index t a * S10000x128.size a ≤ (i a).val ∧ (i a).val < win5_5.index t a * S10000x128.size a + S10000x128.size a := by
  show i ∈ ((View.whole (Pipeline.arrRef spec5 5)).slice (win5_5.rect t)).set ↔ _
  rw [View.set_slice_whole, Rect.mem_set_unit]
  exact Iff.rfl

/-- The ten tiles fill the array: row `r` is in the block of the point whose block index is `r / 10000`. -/
theorem covered5_5 (i : S100000x128.Idx) :
    ∃ t : Fin cfg5.N, (cfg5.win 5).flush t = true ∧ i ∈ ((cfg5.win 5).blk t).view.set := by
  have hi0 : (i 0).val < 100000 := (i 0).isLt
  have hi1 : (i 1).val < 128 := (i 1).isLt
  obtain ⟨t, ht⟩ := idx_onto5 ⟨(i 0).val / 10000, by omega⟩
  have q0 : win5_5.index t (0 : Fin 2) = (i 0).val / 10000 := congrFun ht 0
  have q1 : win5_5.index t (1 : Fin 2) = 0 := congrFun ht 1
  refine ⟨t, flush5_5 t, ?_⟩
  rw [mem_blk5_5]
  intro a
  match a with
  | ⟨0, _⟩ => show win5_5.index t (0 : Fin 2) * 10000 ≤ (i 0).val ∧ (i 0).val < win5_5.index t (0 : Fin 2) * 10000 + 10000; omega
  | ⟨1, _⟩ => show win5_5.index t (1 : Fin 2) * 128 ≤ (i 1).val ∧ (i 1).val < win5_5.index t (1 : Fin 2) * 128 + 128; omega

/-- The output array after the region: `bnRelu5` of the entry contents, everywhere. -/
theorem final5_5 (c : Dev nD) : (dat5 V c).arrAt 5 cfg5.N
    = bnRelu5 ((dat5 V c).A 0) ((dat5 V c).A 1) ((dat5 V c).A 2) ((dat5 V c).A 3) ((dat5 V c).A 4) :=
  (dat5 V c).arrAt_eq_of_cover 5 _ (fun t _ => flushed5_5_eq V c t) covered5_5

/-- The output array after the region, index by index, in the shared vocabulary. -/
theorem val5 (c : Dev nD) (i : Fin 100000) (j : Fin 128) :
    (dat5 (F := Ideal) V c).arrAt 5 cfg5.N (ix2 i j)
      = Cert.Math.bnRelu (Cert.Math.at2 ((dat5 V c).A 0)) (fun j => Cert.Math.at2 ((dat5 V c).A 1) 0 j) (fun j => Cert.Math.at2 ((dat5 V c).A 2) 0 j)
          (fun j => Cert.Math.at2 ((dat5 V c).A 3) 0 j) (fun j => Cert.Math.at2 ((dat5 V c).A 4) 0 j) i j := by
  rw [final5_5]
  rfl

end Cert.KernelIdeal.Hand
end
-- ==== Proof.KI.ValBN8.lean ====
import proofs.«413302_j72232759984513_1_alg».proof.Proof.KI.RegBN8
import Idealize.ShloMosaic.Lib.ValueIdx
import Idealize.ShloMosaic.Lib.Pipeline.Value
import Idealize.ShloMosaic.Lib.ValueLayout
import Idealize.ShloMosaic.PureOps.Ideal.Laws
import proofs.«413302_j72232759984513_1_alg».proof.Proof.Math.Spec

/-! # Kernel region 8 over the extended reals: the output array, index by index

Every grid point writes back one tile of 10000 rows of `max ((h - mu) * inv * g + be) 0`, the four rows read at
the lane of the output index; the ten tiles fill the 100000 rows, so the array ends holding that function of the
entry contents everywhere. -/

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx (ix2)

variable (V : (c : Dev nD) → (b : Ref sig .tc) → Buf (Elt Ideal) ((c : Thread nD τ).loc b))

/-- The zero offsets, however spelt. -/
theorem zeroOff8 : (![0, 0] : Fin 2 → Nat) = fun _ => 0 := funext fun a => by fin_cases a <;> rfl

/-- Batch normalisation followed by the rectifier, index by index: the four rows are read at the index's lane. -/
abbrev bnRelu8 (h : FVec Ideal S100000x128 .f32) (mu inv g be : FVec Ideal S1x128 .f32) : FVec Ideal S100000x128 .f32 :=
  fun i => max ((((h i - mu (ix2 0 (i 1))) * inv (ix2 0 (i 1))) * g (ix2 0 (i 1))) + be (ix2 0 (i 1))) 0

/-- The body's payload at an index of the tile: the same tree of operations, each row broadcast over the tile's
    rows, the constant the real zero. -/
theorem bnPay8_apply (x0 : Vec Ideal S10000x128 .f32) (x1 x2 x3 x4 : Vec Ideal S1x128 .f32) (p : Fin 10000) (l : Fin 128) :
    k8_pay1 x0 x1 x2 x3 x4 (ix2 p l) = max ((((x0 (ix2 p l) - x1 (ix2 0 l)) * x2 (ix2 0 l)) * x3 (ix2 0 l)) + x4 (ix2 0 l)) 0 := by
  unfold k8_pay1
  simp only [shapeCast_self]
  show max ((((x0 _ - broadcastTo S10000x128 x1 _ _) * broadcastTo S10000x128 x2 _ _) * broadcastTo S10000x128 x3 _ _) + broadcastTo S10000x128 x4 _ _) (Ideal.ofBits .f32 0x00000000#32) = _
  rw [ValueIdx.broadcastTo_1b_ab_apply, ValueIdx.broadcastTo_1b_ab_apply, ValueIdx.broadcastTo_1b_ab_apply, ValueIdx.broadcastTo_1b_ab_apply, Ideal.ofBits_zero_f32]

/-- The printed index maps, decided over the ten points: the tile of `h` moves with the output's, the four rows stay
    at block 0, and the output's block indices stay in range. -/
theorem idx_facts8 : ∀ t : Fin cfg8.N, win8_0.index t (0 : Fin 2) = win8_5.index t (0 : Fin 2)
    ∧ win8_0.index t (1 : Fin 2) = win8_5.index t (1 : Fin 2)
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) ≤ 9 ∧ win8_5.index t (1 : Fin 2) = 0 :=
  (by decide +kernel : ∀ t : Fin grid8.N, _)

/-- What point `t` writes back is the payload of the five input blocks: the one store is of the whole tile, the
    loads are of whole buffers, and the window is not cut. -/
theorem flushed8_5_pay (c : Dev nD) (t : Fin cfg8.N) :
    (dat8 V c).flushed 5 t = k8_pay1 (iblk8 V c 0 t) (iblk8 V c 1 t) (iblk8 V c 2 t) (iblk8 V c 3 t) (iblk8 V c 4 t) := by
  show (cfg8.win 5).cut (grid8.coords t) ((dat8 V c).after 5 t) = _
  rw [after8_5]
  unfold out8_5
  rw [View.canon_unit_zero zeroOff8]
  simp only [View.ld_unit_zero (S := S10000x128) zeroOff8, View.ld_unit_zero (S := S1x128) zeroOff8]
  rfl

/-- The tile of `h` staged at point `t` sits in its array where the output's tile sits in its own. -/
theorem emb8_0 (t : Fin cfg8.N) (p : Fin 10000) (l : Fin 128) :
    ((cfg8.win 0).blk t).view.emb (ix2 p l) = ((cfg8.win 5).blk t).view.emb (ix2 p l) := by
  obtain ⟨e0, e1, -⟩ := idx_facts8 t
  funext a; apply Fin.ext
  match a with
  | ⟨0, _⟩ => show win8_0.index t (0 : Fin 2) * 10000 + 1 * p.val = win8_5.index t (0 : Fin 2) * 10000 + 1 * p.val; omega
  | ⟨1, _⟩ => show win8_0.index t (1 : Fin 2) * 128 + 1 * l.val = win8_5.index t (1 : Fin 2) * 128 + 1 * l.val; omega

/-- Row window 1's block is the array's one row: lane `l` of it is lane `l` of the array, which is the lane of the
    output index. -/
theorem emb8_1 (t : Fin cfg8.N) (p : Fin 10000) (l : Fin 128) :
    ((cfg8.win 1).blk t).view.emb (ix2 0 l) = ix2 0 ((((cfg8.win 5).blk t).view.emb (ix2 p l)) 1) := by
  obtain ⟨e0, e1, e2, e3, e4, e5, e6, e7, e8, e9, e10, e11⟩ := idx_facts8 t
  funext a; apply Fin.ext
  match a with
  | ⟨0, _⟩ => show win8_1.index t (0 : Fin 2) * 1 + 1 * 0 = 0; omega
  | ⟨1, _⟩ => show win8_1.index t (1 : Fin 2) * 128 + 1 * l.val = win8_5.index t (1 : Fin 2) * 128 + 1 * l.val; omega

/-- Row window 2's block is the array's one row: lane `l` of it is lane `l` of the array, which is the lane of the
    output index. -/
theorem emb8_2 (t : Fin cfg8.N) (p : Fin 10000) (l : Fin 128) :
    ((cfg8.win 2).blk t).view.emb (ix2 0 l) = ix2 0 ((((cfg8.win 5).blk t).view.emb (ix2 p l)) 1) := by
  obtain ⟨e0, e1, e2, e3, e4, e5, e6, e7, e8, e9, e10, e11⟩ := idx_facts8 t
  funext a; apply Fin.ext
  match a with
  | ⟨0, _⟩ => show win8_2.index t (0 : Fin 2) * 1 + 1 * 0 = 0; omega
  | ⟨1, _⟩ => show win8_2.index t (1 : Fin 2) * 128 + 1 * l.val = win8_5.index t (1 : Fin 2) * 128 + 1 * l.val; omega

/-- Row window 3's block is the array's one row: lane `l` of it is lane `l` of the array, which is the lane of the
    output index. -/
theorem emb8_3 (t : Fin cfg8.N) (p : Fin 10000) (l : Fin 128) :
    ((cfg8.win 3).blk t).view.emb (ix2 0 l) = ix2 0 ((((cfg8.win 5).blk t).view.emb (ix2 p l)) 1) := by
  obtain ⟨e0, e1, e2, e3, e4, e5, e6, e7, e8, e9, e10, e11⟩ := idx_facts8 t
  funext a; apply Fin.ext
  match a with
  | ⟨0, _⟩ => show win8_3.index t (0 : Fin 2) * 1 + 1 * 0 = 0; omega
  | ⟨1, _⟩ => show win8_3.index t (1 : Fin 2) * 128 + 1 * l.val = win8_5.index t (1 : Fin 2) * 128 + 1 * l.val; omega

/-- Row window 4's block is the array's one row: lane `l` of it is lane `l` of the array, which is the lane of the
    output index. -/
theorem emb8_4 (t : Fin cfg8.N) (p : Fin 10000) (l : Fin 128) :
    ((cfg8.win 4).blk t).view.emb (ix2 0 l) = ix2 0 ((((cfg8.win 5).blk t).view.emb (ix2 p l)) 1) := by
  obtain ⟨e0, e1, e2, e3, e4, e5, e6, e7, e8, e9, e10, e11⟩ := idx_facts8 t
  funext a; apply Fin.ext
  match a with
  | ⟨0, _⟩ => show win8_4.index t (0 : Fin 2) * 1 + 1 * 0 = 0; omega
  | ⟨1, _⟩ => show win8_4.index t (1 : Fin 2) * 128 + 1 * l.val = win8_5.index t (1 : Fin 2) * 128 + 1 * l.val; omega

/-- Every one of the ten row blocks is some point's. -/
theorem idx_onto8 : ∀ q0 : Fin 10, ∃ t : Fin cfg8.N, win8_5.index t = ![q0.val, 0] :=
  (by decide +kernel : ∀ q0 : Fin 10, ∃ t : Fin grid8.N, win8_5.index t = ![q0.val, 0])

/-- The operations on the blocks the five input windows stage at point `t` are `bnRelu8` of the arrays at the
    output block's index: the tile of `h` sits where the output's does, each row at block 0. -/
theorem bnRelu8_blk (t : Fin cfg8.N) (p : Fin 10000) (l : Fin 128) (a0 : FVec Ideal S100000x128 .f32) (a1 a2 a3 a4 : FVec Ideal S1x128 .f32) :
    max ((((a0 (((cfg8.win 0).blk t).view.emb (ix2 p l)) - a1 (((cfg8.win 1).blk t).view.emb (ix2 0 l)))
        * a2 (((cfg8.win 2).blk t).view.emb (ix2 0 l))) * a3 (((cfg8.win 3).blk t).view.emb (ix2 0 l)))
        + a4 (((cfg8.win 4).blk t).view.emb (ix2 0 l))) 0
      = bnRelu8 a0 a1 a2 a3 a4 (((cfg8.win 5).blk t).view.emb (ix2 p l)) := by
  rw [emb8_0 t p l, emb8_1 t p l, emb8_2 t p l, emb8_3 t p l, emb8_4 t p l]
  rfl

set_option maxHeartbeats 400000 in
/-- What point `t` writes back is block `t` of `bnRelu8` of the arrays as the region finds them. -/
theorem flushed8_5_eq (c : Dev nD) (t : Fin cfg8.N) :
    (dat8 V c).flushed 5 t = ((cfg8.win 5).blk t).view.read (Elt Ideal)
      (bnRelu8 ((dat8 V c).A 0) ((dat8 V c).A 1) ((dat8 V c).A 2) ((dat8 V c).A 3) ((dat8 V c).A 4)) := by
  rw [flushed8_5_pay, A_eq8, A_eq8, A_eq8, A_eq8, A_eq8]
  funext y
  obtain ⟨p, l, rfl⟩ : ∃ (p : Fin 10000) (l : Fin 128), y = ix2 p l := ⟨y 0, y 1, ValueIdx.eq_ix2 y⟩
  rw [bnPay8_apply]
  exact bnRelu8_blk t p l (V c (Pipeline.arrRef spec8 0)) (V c (Pipeline.arrRef spec8 1)) (V c (Pipeline.arrRef spec8 2)) (V c (Pipeline.arrRef spec8 3)) (V c (Pipeline.arrRef spec8 4))

/-- An index of the array is in point `t`'s block iff each coordinate is in the block's range on its axis. -/
theorem mem_blk8_5 (t : Fin cfg8.N) (i : S100000x128.Idx) :
    i ∈ ((cfg8.win 5).blk t).view.set ↔ ∀ a : Fin 2, win8_5.index t a * S10000x128.size a ≤ (i a).val ∧ (i a).val < win8_5.index t a * S10000x128.size a + S10000x128.size a := by
  show i ∈ ((View.whole (Pipeline.arrRef spec8 5)).slice (win8_5.rect t)).set ↔ _
  rw [View.set_slice_whole, Rect.mem_set_unit]
  exact Iff.rfl

/-- The ten tiles fill the array: row `r` is in the block of the point whose block index is `r / 10000`. -/
theorem covered8_5 (i : S100000x128.Idx) :
    ∃ t : Fin cfg8.N, (cfg8.win 5).flush t = true ∧ i ∈ ((cfg8.win 5).blk t).view.set := by
  have hi0 : (i 0).val < 100000 := (i 0).isLt
  have hi1 : (i 1).val < 128 := (i 1).isLt
  obtain ⟨t, ht⟩ := idx_onto8 ⟨(i 0).val / 10000, by omega⟩
  have q0 : win8_5.index t (0 : Fin 2) = (i 0).val / 10000 := congrFun ht 0
  have q1 : win8_5.index t (1 : Fin 2) = 0 := congrFun ht 1
  refine ⟨t, flush8_5 t, ?_⟩
  rw [mem_blk8_5]
  intro a
  match a with
  | ⟨0, _⟩ => show win8_5.index t (0 : Fin 2) * 10000 ≤ (i 0).val ∧ (i 0).val < win8_5.index t (0 : Fin 2) * 10000 + 10000; omega
  | ⟨1, _⟩ => show win8_5.index t (1 : Fin 2) * 128 ≤ (i 1).val ∧ (i 1).val < win8_5.index t (1 : Fin 2) * 128 + 128; omega

/-- The output array after the region: `bnRelu8` of the entry contents, everywhere. -/
theorem final8_5 (c : Dev nD) : (dat8 V c).arrAt 5 cfg8.N
    = bnRelu8 ((dat8 V c).A 0) ((dat8 V c).A 1) ((dat8 V c).A 2) ((dat8 V c).A 3) ((dat8 V c).A 4) :=
  (dat8 V c).arrAt_eq_of_cover 5 _ (fun t _ => flushed8_5_eq V c t) covered8_5

/-- The output array after the region, index by index, in the shared vocabulary. -/
theorem val8 (c : Dev nD) (i : Fin 100000) (j : Fin 128) :
    (dat8 (F := Ideal) V c).arrAt 5 cfg8.N (ix2 i j)
      = Cert.Math.bnRelu (Cert.Math.at2 ((dat8 V c).A 0)) (fun j => Cert.Math.at2 ((dat8 V c).A 1) 0 j) (fun j => Cert.Math.at2 ((dat8 V c).A 2) 0 j)
          (fun j => Cert.Math.at2 ((dat8 V c).A 3) 0 j) (fun j => Cert.Math.at2 ((dat8 V c).A 4) 0 j) i j := by
  rw [final8_5]
  rfl

end Cert.KernelIdeal.Hand
end
-- ==== Proof.KI.ValBN10.lean ====
import proofs.«413302_j72232759984513_1_alg».proof.Proof.KI.RegBN10
import Idealize.ShloMosaic.Lib.ValueIdx
import Idealize.ShloMosaic.Lib.Pipeline.Value
import Idealize.ShloMosaic.Lib.ValueLayout
import Idealize.ShloMosaic.PureOps.Ideal.Laws
import proofs.«413302_j72232759984513_1_alg».proof.Proof.Math.Spec

/-! # Kernel region 10 over the extended reals: the output array, index by index

Every grid point writes back one tile of 10000 rows of `max ((h - mu) * inv * g + be) 0`, the four rows read at
the lane of the output index; the ten tiles fill the 100000 rows, so the array ends holding that function of the
entry contents everywhere. -/

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx (ix2)

variable (V : (c : Dev nD) → (b : Ref sig .tc) → Buf (Elt Ideal) ((c : Thread nD τ).loc b))

/-- The zero offsets, however spelt. -/
theorem zeroOff10 : (![0, 0] : Fin 2 → Nat) = fun _ => 0 := funext fun a => by fin_cases a <;> rfl

/-- Batch normalisation followed by the rectifier, index by index: the four rows are read at the index's lane. -/
abbrev bnRelu10 (h : FVec Ideal S100000x128 .f32) (mu inv g be : FVec Ideal S1x128 .f32) : FVec Ideal S100000x128 .f32 :=
  fun i => max ((((h i - mu (ix2 0 (i 1))) * inv (ix2 0 (i 1))) * g (ix2 0 (i 1))) + be (ix2 0 (i 1))) 0

/-- The body's payload at an index of the tile: the same tree of operations, each row broadcast over the tile's
    rows, the constant the real zero. -/
theorem bnPay10_apply (x0 : Vec Ideal S10000x128 .f32) (x1 x2 x3 x4 : Vec Ideal S1x128 .f32) (p : Fin 10000) (l : Fin 128) :
    k10_pay1 x0 x1 x2 x3 x4 (ix2 p l) = max ((((x0 (ix2 p l) - x1 (ix2 0 l)) * x2 (ix2 0 l)) * x3 (ix2 0 l)) + x4 (ix2 0 l)) 0 := by
  unfold k10_pay1
  simp only [shapeCast_self]
  show max ((((x0 _ - broadcastTo S10000x128 x1 _ _) * broadcastTo S10000x128 x2 _ _) * broadcastTo S10000x128 x3 _ _) + broadcastTo S10000x128 x4 _ _) (Ideal.ofBits .f32 0x00000000#32) = _
  rw [ValueIdx.broadcastTo_1b_ab_apply, ValueIdx.broadcastTo_1b_ab_apply, ValueIdx.broadcastTo_1b_ab_apply, ValueIdx.broadcastTo_1b_ab_apply, Ideal.ofBits_zero_f32]

/-- The printed index maps, decided over the ten points: the tile of `h` moves with the output's, the four rows stay
    at block 0, and the output's block indices stay in range. -/
theorem idx_facts10 : ∀ t : Fin cfg10.N, win10_0.index t (0 : Fin 2) = win10_5.index t (0 : Fin 2)
    ∧ win10_0.index t (1 : Fin 2) = win10_5.index t (1 : Fin 2)
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) ≤ 9 ∧ win10_5.index t (1 : Fin 2) = 0 :=
  (by decide +kernel : ∀ t : Fin grid10.N, _)

/-- What point `t` writes back is the payload of the five input blocks: the one store is of the whole tile, the
    loads are of whole buffers, and the window is not cut. -/
theorem flushed10_5_pay (c : Dev nD) (t : Fin cfg10.N) :
    (dat10 V c).flushed 5 t = k10_pay1 (iblk10 V c 0 t) (iblk10 V c 1 t) (iblk10 V c 2 t) (iblk10 V c 3 t) (iblk10 V c 4 t) := by
  show (cfg10.win 5).cut (grid10.coords t) ((dat10 V c).after 5 t) = _
  rw [after10_5]
  unfold out10_5
  rw [View.canon_unit_zero zeroOff10]
  simp only [View.ld_unit_zero (S := S10000x128) zeroOff10, View.ld_unit_zero (S := S1x128) zeroOff10]
  rfl

/-- The tile of `h` staged at point `t` sits in its array where the output's tile sits in its own. -/
theorem emb10_0 (t : Fin cfg10.N) (p : Fin 10000) (l : Fin 128) :
    ((cfg10.win 0).blk t).view.emb (ix2 p l) = ((cfg10.win 5).blk t).view.emb (ix2 p l) := by
  obtain ⟨e0, e1, -⟩ := idx_facts10 t
  funext a; apply Fin.ext
  match a with
  | ⟨0, _⟩ => show win10_0.index t (0 : Fin 2) * 10000 + 1 * p.val = win10_5.index t (0 : Fin 2) * 10000 + 1 * p.val; omega
  | ⟨1, _⟩ => show win10_0.index t (1 : Fin 2) * 128 + 1 * l.val = win10_5.index t (1 : Fin 2) * 128 + 1 * l.val; omega

/-- Row window 1's block is the array's one row: lane `l` of it is lane `l` of the array, which is the lane of the
    output index. -/
theorem emb10_1 (t : Fin cfg10.N) (p : Fin 10000) (l : Fin 128) :
    ((cfg10.win 1).blk t).view.emb (ix2 0 l) = ix2 0 ((((cfg10.win 5).blk t).view.emb (ix2 p l)) 1) := by
  obtain ⟨e0, e1, e2, e3, e4, e5, e6, e7, e8, e9, e10, e11⟩ := idx_facts10 t
  funext a; apply Fin.ext
  match a with
  | ⟨0, _⟩ => show win10_1.index t (0 : Fin 2) * 1 + 1 * 0 = 0; omega
  | ⟨1, _⟩ => show win10_1.index t (1 : Fin 2) * 128 + 1 * l.val = win10_5.index t (1 : Fin 2) * 128 + 1 * l.val; omega

/-- Row window 2's block is the array's one row: lane `l` of it is lane `l` of the array, which is the lane of the
    output index. -/
theorem emb10_2 (t : Fin cfg10.N) (p : Fin 10000) (l : Fin 128) :
    ((cfg10.win 2).blk t).view.emb (ix2 0 l) = ix2 0 ((((cfg10.win 5).blk t).view.emb (ix2 p l)) 1) := by
  obtain ⟨e0, e1, e2, e3, e4, e5, e6, e7, e8, e9, e10, e11⟩ := idx_facts10 t
  funext a; apply Fin.ext
  match a with
  | ⟨0, _⟩ => show win10_2.index t (0 : Fin 2) * 1 + 1 * 0 = 0; omega
  | ⟨1, _⟩ => show win10_2.index t (1 : Fin 2) * 128 + 1 * l.val = win10_5.index t (1 : Fin 2) * 128 + 1 * l.val; omega

/-- Row window 3's block is the array's one row: lane `l` of it is lane `l` of the array, which is the lane of the
    output index. -/
theorem emb10_3 (t : Fin cfg10.N) (p : Fin 10000) (l : Fin 128) :
    ((cfg10.win 3).blk t).view.emb (ix2 0 l) = ix2 0 ((((cfg10.win 5).blk t).view.emb (ix2 p l)) 1) := by
  obtain ⟨e0, e1, e2, e3, e4, e5, e6, e7, e8, e9, e10, e11⟩ := idx_facts10 t
  funext a; apply Fin.ext
  match a with
  | ⟨0, _⟩ => show win10_3.index t (0 : Fin 2) * 1 + 1 * 0 = 0; omega
  | ⟨1, _⟩ => show win10_3.index t (1 : Fin 2) * 128 + 1 * l.val = win10_5.index t (1 : Fin 2) * 128 + 1 * l.val; omega

/-- Row window 4's block is the array's one row: lane `l` of it is lane `l` of the array, which is the lane of the
    output index. -/
theorem emb10_4 (t : Fin cfg10.N) (p : Fin 10000) (l : Fin 128) :
    ((cfg10.win 4).blk t).view.emb (ix2 0 l) = ix2 0 ((((cfg10.win 5).blk t).view.emb (ix2 p l)) 1) := by
  obtain ⟨e0, e1, e2, e3, e4, e5, e6, e7, e8, e9, e10, e11⟩ := idx_facts10 t
  funext a; apply Fin.ext
  match a with
  | ⟨0, _⟩ => show win10_4.index t (0 : Fin 2) * 1 + 1 * 0 = 0; omega
  | ⟨1, _⟩ => show win10_4.index t (1 : Fin 2) * 128 + 1 * l.val = win10_5.index t (1 : Fin 2) * 128 + 1 * l.val; omega

/-- Every one of the ten row blocks is some point's. -/
theorem idx_onto10 : ∀ q0 : Fin 10, ∃ t : Fin cfg10.N, win10_5.index t = ![q0.val, 0] :=
  (by decide +kernel : ∀ q0 : Fin 10, ∃ t : Fin grid10.N, win10_5.index t = ![q0.val, 0])

/-- The operations on the blocks the five input windows stage at point `t` are `bnRelu10` of the arrays at the
    output block's index: the tile of `h` sits where the output's does, each row at block 0. -/
theorem bnRelu10_blk (t : Fin cfg10.N) (p : Fin 10000) (l : Fin 128) (a0 : FVec Ideal S100000x128 .f32) (a1 a2 a3 a4 : FVec Ideal S1x128 .f32) :
    max ((((a0 (((cfg10.win 0).blk t).view.emb (ix2 p l)) - a1 (((cfg10.win 1).blk t).view.emb (ix2 0 l)))
        * a2 (((cfg10.win 2).blk t).view.emb (ix2 0 l))) * a3 (((cfg10.win 3).blk t).view.emb (ix2 0 l)))
        + a4 (((cfg10.win 4).blk t).view.emb (ix2 0 l))) 0
      = bnRelu10 a0 a1 a2 a3 a4 (((cfg10.win 5).blk t).view.emb (ix2 p l)) := by
  rw [emb10_0 t p l, emb10_1 t p l, emb10_2 t p l, emb10_3 t p l, emb10_4 t p l]
  rfl

set_option maxHeartbeats 400000 in
/-- What point `t` writes back is block `t` of `bnRelu10` of the arrays as the region finds them. -/
theorem flushed10_5_eq (c : Dev nD) (t : Fin cfg10.N) :
    (dat10 V c).flushed 5 t = ((cfg10.win 5).blk t).view.read (Elt Ideal)
      (bnRelu10 ((dat10 V c).A 0) ((dat10 V c).A 1) ((dat10 V c).A 2) ((dat10 V c).A 3) ((dat10 V c).A 4)) := by
  rw [flushed10_5_pay, A_eq10, A_eq10, A_eq10, A_eq10, A_eq10]
  funext y
  obtain ⟨p, l, rfl⟩ : ∃ (p : Fin 10000) (l : Fin 128), y = ix2 p l := ⟨y 0, y 1, ValueIdx.eq_ix2 y⟩
  rw [bnPay10_apply]
  exact bnRelu10_blk t p l (V c (Pipeline.arrRef spec10 0)) (V c (Pipeline.arrRef spec10 1)) (V c (Pipeline.arrRef spec10 2)) (V c (Pipeline.arrRef spec10 3)) (V c (Pipeline.arrRef spec10 4))

/-- An index of the array is in point `t`'s block iff each coordinate is in the block's range on its axis. -/
theorem mem_blk10_5 (t : Fin cfg10.N) (i : S100000x128.Idx) :
    i ∈ ((cfg10.win 5).blk t).view.set ↔ ∀ a : Fin 2, win10_5.index t a * S10000x128.size a ≤ (i a).val ∧ (i a).val < win10_5.index t a * S10000x128.size a + S10000x128.size a := by
  show i ∈ ((View.whole (Pipeline.arrRef spec10 5)).slice (win10_5.rect t)).set ↔ _
  rw [View.set_slice_whole, Rect.mem_set_unit]
  exact Iff.rfl

/-- The ten tiles fill the array: row `r` is in the block of the point whose block index is `r / 10000`. -/
theorem covered10_5 (i : S100000x128.Idx) :
    ∃ t : Fin cfg10.N, (cfg10.win 5).flush t = true ∧ i ∈ ((cfg10.win 5).blk t).view.set := by
  have hi0 : (i 0).val < 100000 := (i 0).isLt
  have hi1 : (i 1).val < 128 := (i 1).isLt
  obtain ⟨t, ht⟩ := idx_onto10 ⟨(i 0).val / 10000, by omega⟩
  have q0 : win10_5.index t (0 : Fin 2) = (i 0).val / 10000 := congrFun ht 0
  have q1 : win10_5.index t (1 : Fin 2) = 0 := congrFun ht 1
  refine ⟨t, flush10_5 t, ?_⟩
  rw [mem_blk10_5]
  intro a
  match a with
  | ⟨0, _⟩ => show win10_5.index t (0 : Fin 2) * 10000 ≤ (i 0).val ∧ (i 0).val < win10_5.index t (0 : Fin 2) * 10000 + 10000; omega
  | ⟨1, _⟩ => show win10_5.index t (1 : Fin 2) * 128 ≤ (i 1).val ∧ (i 1).val < win10_5.index t (1 : Fin 2) * 128 + 128; omega

/-- The output array after the region: `bnRelu10` of the entry contents, everywhere. -/
theorem final10_5 (c : Dev nD) : (dat10 V c).arrAt 5 cfg10.N
    = bnRelu10 ((dat10 V c).A 0) ((dat10 V c).A 1) ((dat10 V c).A 2) ((dat10 V c).A 3) ((dat10 V c).A 4) :=
  (dat10 V c).arrAt_eq_of_cover 5 _ (fun t _ => flushed10_5_eq V c t) covered10_5

/-- The output array after the region, index by index, in the shared vocabulary. -/
theorem val10 (c : Dev nD) (i : Fin 100000) (j : Fin 128) :
    (dat10 (F := Ideal) V c).arrAt 5 cfg10.N (ix2 i j)
      = Cert.Math.bnRelu (Cert.Math.at2 ((dat10 V c).A 0)) (fun j => Cert.Math.at2 ((dat10 V c).A 1) 0 j) (fun j => Cert.Math.at2 ((dat10 V c).A 2) 0 j)
          (fun j => Cert.Math.at2 ((dat10 V c).A 3) 0 j) (fun j => Cert.Math.at2 ((dat10 V c).A 4) 0 j) i j := by
  rw [final10_5]
  rfl

end Cert.KernelIdeal.Hand
end
-- ==== Proof.KI.ValBN12.lean ====
import proofs.«413302_j72232759984513_1_alg».proof.Proof.KI.RegBN12
import Idealize.ShloMosaic.Lib.ValueIdx
import Idealize.ShloMosaic.Lib.Pipeline.Value
import Idealize.ShloMosaic.Lib.ValueLayout
import Idealize.ShloMosaic.PureOps.Ideal.Laws
import proofs.«413302_j72232759984513_1_alg».proof.Proof.Math.Spec

/-! # Kernel region 12 over the extended reals: the output array, index by index

Every grid point writes back one tile of 10000 rows of `max ((h - mu) * inv * g + be) 0`, the four rows read at
the lane of the output index; the ten tiles fill the 100000 rows, so the array ends holding that function of the
entry contents everywhere. -/

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx (ix2)

variable (V : (c : Dev nD) → (b : Ref sig .tc) → Buf (Elt Ideal) ((c : Thread nD τ).loc b))

/-- The zero offsets, however spelt. -/
theorem zeroOff12 : (![0, 0] : Fin 2 → Nat) = fun _ => 0 := funext fun a => by fin_cases a <;> rfl

/-- Batch normalisation followed by the rectifier, index by index: the four rows are read at the index's lane. -/
abbrev bnRelu12 (h : FVec Ideal S100000x128 .f32) (mu inv g be : FVec Ideal S1x128 .f32) : FVec Ideal S100000x128 .f32 :=
  fun i => max ((((h i - mu (ix2 0 (i 1))) * inv (ix2 0 (i 1))) * g (ix2 0 (i 1))) + be (ix2 0 (i 1))) 0

/-- The body's payload at an index of the tile: the same tree of operations, each row broadcast over the tile's
    rows, the constant the real zero. -/
theorem bnPay12_apply (x0 : Vec Ideal S10000x128 .f32) (x1 x2 x3 x4 : Vec Ideal S1x128 .f32) (p : Fin 10000) (l : Fin 128) :
    k12_pay1 x0 x1 x2 x3 x4 (ix2 p l) = max ((((x0 (ix2 p l) - x1 (ix2 0 l)) * x2 (ix2 0 l)) * x3 (ix2 0 l)) + x4 (ix2 0 l)) 0 := by
  unfold k12_pay1
  simp only [shapeCast_self]
  show max ((((x0 _ - broadcastTo S10000x128 x1 _ _) * broadcastTo S10000x128 x2 _ _) * broadcastTo S10000x128 x3 _ _) + broadcastTo S10000x128 x4 _ _) (Ideal.ofBits .f32 0x00000000#32) = _
  rw [ValueIdx.broadcastTo_1b_ab_apply, ValueIdx.broadcastTo_1b_ab_apply, ValueIdx.broadcastTo_1b_ab_apply, ValueIdx.broadcastTo_1b_ab_apply, Ideal.ofBits_zero_f32]

/-- The printed index maps, decided over the ten points: the tile of `h` moves with the output's, the four rows stay
    at block 0, and the output's block indices stay in range. -/
theorem idx_facts12 : ∀ t : Fin cfg12.N, win12_0.index t (0 : Fin 2) = win12_5.index t (0 : Fin 2)
    ∧ win12_0.index t (1 : Fin 2) = win12_5.index t (1 : Fin 2)
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0
    ∧ win12_4.index t (0 : Fin 2) = 0 ∧ win12_4.index t (1 : Fin 2) = 0
    ∧ win12_5.index t (0 : Fin 2) ≤ 9 ∧ win12_5.index t (1 : Fin 2) = 0 :=
  (by decide +kernel : ∀ t : Fin grid12.N, _)

/-- What point `t` writes back is the payload of the five input blocks: the one store is of the whole tile, the
    loads are of whole buffers, and the window is not cut. -/
theorem flushed12_5_pay (c : Dev nD) (t : Fin cfg12.N) :
    (dat12 V c).flushed 5 t = k12_pay1 (iblk12 V c 0 t) (iblk12 V c 1 t) (iblk12 V c 2 t) (iblk12 V c 3 t) (iblk12 V c 4 t) := by
  show (cfg12.win 5).cut (grid12.coords t) ((dat12 V c).after 5 t) = _
  rw [after12_5]
  unfold out12_5
  rw [View.canon_unit_zero zeroOff12]
  simp only [View.ld_unit_zero (S := S10000x128) zeroOff12, View.ld_unit_zero (S := S1x128) zeroOff12]
  rfl

/-- The tile of `h` staged at point `t` sits in its array where the output's tile sits in its own. -/
theorem emb12_0 (t : Fin cfg12.N) (p : Fin 10000) (l : Fin 128) :
    ((cfg12.win 0).blk t).view.emb (ix2 p l) = ((cfg12.win 5).blk t).view.emb (ix2 p l) := by
  obtain ⟨e0, e1, -⟩ := idx_facts12 t
  funext a; apply Fin.ext
  match a with
  | ⟨0, _⟩ => show win12_0.index t (0 : Fin 2) * 10000 + 1 * p.val = win12_5.index t (0 : Fin 2) * 10000 + 1 * p.val; omega
  | ⟨1, _⟩ => show win12_0.index t (1 : Fin 2) * 128 + 1 * l.val = win12_5.index t (1 : Fin 2) * 128 + 1 * l.val; omega

/-- Row window 1's block is the array's one row: lane `l` of it is lane `l` of the array, which is the lane of the
    output index. -/
theorem emb12_1 (t : Fin cfg12.N) (p : Fin 10000) (l : Fin 128) :
    ((cfg12.win 1).blk t).view.emb (ix2 0 l) = ix2 0 ((((cfg12.win 5).blk t).view.emb (ix2 p l)) 1) := by
  obtain ⟨e0, e1, e2, e3, e4, e5, e6, e7, e8, e9, e10, e11⟩ := idx_facts12 t
  funext a; apply Fin.ext
  match a with
  | ⟨0, _⟩ => show win12_1.index t (0 : Fin 2) * 1 + 1 * 0 = 0; omega
  | ⟨1, _⟩ => show win12_1.index t (1 : Fin 2) * 128 + 1 * l.val = win12_5.index t (1 : Fin 2) * 128 + 1 * l.val; omega

/-- Row window 2's block is the array's one row: lane `l` of it is lane `l` of the array, which is the lane of the
    output index. -/
theorem emb12_2 (t : Fin cfg12.N) (p : Fin 10000) (l : Fin 128) :
    ((cfg12.win 2).blk t).view.emb (ix2 0 l) = ix2 0 ((((cfg12.win 5).blk t).view.emb (ix2 p l)) 1) := by
  obtain ⟨e0, e1, e2, e3, e4, e5, e6, e7, e8, e9, e10, e11⟩ := idx_facts12 t
  funext a; apply Fin.ext
  match a with
  | ⟨0, _⟩ => show win12_2.index t (0 : Fin 2) * 1 + 1 * 0 = 0; omega
  | ⟨1, _⟩ => show win12_2.index t (1 : Fin 2) * 128 + 1 * l.val = win12_5.index t (1 : Fin 2) * 128 + 1 * l.val; omega

/-- Row window 3's block is the array's one row: lane `l` of it is lane `l` of the array, which is the lane of the
    output index. -/
theorem emb12_3 (t : Fin cfg12.N) (p : Fin 10000) (l : Fin 128) :
    ((cfg12.win 3).blk t).view.emb (ix2 0 l) = ix2 0 ((((cfg12.win 5).blk t).view.emb (ix2 p l)) 1) := by
  obtain ⟨e0, e1, e2, e3, e4, e5, e6, e7, e8, e9, e10, e11⟩ := idx_facts12 t
  funext a; apply Fin.ext
  match a with
  | ⟨0, _⟩ => show win12_3.index t (0 : Fin 2) * 1 + 1 * 0 = 0; omega
  | ⟨1, _⟩ => show win12_3.index t (1 : Fin 2) * 128 + 1 * l.val = win12_5.index t (1 : Fin 2) * 128 + 1 * l.val; omega

/-- Row window 4's block is the array's one row: lane `l` of it is lane `l` of the array, which is the lane of the
    output index. -/
theorem emb12_4 (t : Fin cfg12.N) (p : Fin 10000) (l : Fin 128) :
    ((cfg12.win 4).blk t).view.emb (ix2 0 l) = ix2 0 ((((cfg12.win 5).blk t).view.emb (ix2 p l)) 1) := by
  obtain ⟨e0, e1, e2, e3, e4, e5, e6, e7, e8, e9, e10, e11⟩ := idx_facts12 t
  funext a; apply Fin.ext
  match a with
  | ⟨0, _⟩ => show win12_4.index t (0 : Fin 2) * 1 + 1 * 0 = 0; omega
  | ⟨1, _⟩ => show win12_4.index t (1 : Fin 2) * 128 + 1 * l.val = win12_5.index t (1 : Fin 2) * 128 + 1 * l.val; omega

/-- Every one of the ten row blocks is some point's. -/
theorem idx_onto12 : ∀ q0 : Fin 10, ∃ t : Fin cfg12.N, win12_5.index t = ![q0.val, 0] :=
  (by decide +kernel : ∀ q0 : Fin 10, ∃ t : Fin grid12.N, win12_5.index t = ![q0.val, 0])

/-- The operations on the blocks the five input windows stage at point `t` are `bnRelu12` of the arrays at the
    output block's index: the tile of `h` sits where the output's does, each row at block 0. -/
theorem bnRelu12_blk (t : Fin cfg12.N) (p : Fin 10000) (l : Fin 128) (a0 : FVec Ideal S100000x128 .f32) (a1 a2 a3 a4 : FVec Ideal S1x128 .f32) :
    max ((((a0 (((cfg12.win 0).blk t).view.emb (ix2 p l)) - a1 (((cfg12.win 1).blk t).view.emb (ix2 0 l)))
        * a2 (((cfg12.win 2).blk t).view.emb (ix2 0 l))) * a3 (((cfg12.win 3).blk t).view.emb (ix2 0 l)))
        + a4 (((cfg12.win 4).blk t).view.emb (ix2 0 l))) 0
      = bnRelu12 a0 a1 a2 a3 a4 (((cfg12.win 5).blk t).view.emb (ix2 p l)) := by
  rw [emb12_0 t p l, emb12_1 t p l, emb12_2 t p l, emb12_3 t p l, emb12_4 t p l]
  rfl

set_option maxHeartbeats 400000 in
/-- What point `t` writes back is block `t` of `bnRelu12` of the arrays as the region finds them. -/
theorem flushed12_5_eq (c : Dev nD) (t : Fin cfg12.N) :
    (dat12 V c).flushed 5 t = ((cfg12.win 5).blk t).view.read (Elt Ideal)
      (bnRelu12 ((dat12 V c).A 0) ((dat12 V c).A 1) ((dat12 V c).A 2) ((dat12 V c).A 3) ((dat12 V c).A 4)) := by
  rw [flushed12_5_pay, A_eq12, A_eq12, A_eq12, A_eq12, A_eq12]
  funext y
  obtain ⟨p, l, rfl⟩ : ∃ (p : Fin 10000) (l : Fin 128), y = ix2 p l := ⟨y 0, y 1, ValueIdx.eq_ix2 y⟩
  rw [bnPay12_apply]
  exact bnRelu12_blk t p l (V c (Pipeline.arrRef spec12 0)) (V c (Pipeline.arrRef spec12 1)) (V c (Pipeline.arrRef spec12 2)) (V c (Pipeline.arrRef spec12 3)) (V c (Pipeline.arrRef spec12 4))

/-- An index of the array is in point `t`'s block iff each coordinate is in the block's range on its axis. -/
theorem mem_blk12_5 (t : Fin cfg12.N) (i : S100000x128.Idx) :
    i ∈ ((cfg12.win 5).blk t).view.set ↔ ∀ a : Fin 2, win12_5.index t a * S10000x128.size a ≤ (i a).val ∧ (i a).val < win12_5.index t a * S10000x128.size a + S10000x128.size a := by
  show i ∈ ((View.whole (Pipeline.arrRef spec12 5)).slice (win12_5.rect t)).set ↔ _
  rw [View.set_slice_whole, Rect.mem_set_unit]
  exact Iff.rfl

/-- The ten tiles fill the array: row `r` is in the block of the point whose block index is `r / 10000`. -/
theorem covered12_5 (i : S100000x128.Idx) :
    ∃ t : Fin cfg12.N, (cfg12.win 5).flush t = true ∧ i ∈ ((cfg12.win 5).blk t).view.set := by
  have hi0 : (i 0).val < 100000 := (i 0).isLt
  have hi1 : (i 1).val < 128 := (i 1).isLt
  obtain ⟨t, ht⟩ := idx_onto12 ⟨(i 0).val / 10000, by omega⟩
  have q0 : win12_5.index t (0 : Fin 2) = (i 0).val / 10000 := congrFun ht 0
  have q1 : win12_5.index t (1 : Fin 2) = 0 := congrFun ht 1
  refine ⟨t, flush12_5 t, ?_⟩
  rw [mem_blk12_5]
  intro a
  match a with
  | ⟨0, _⟩ => show win12_5.index t (0 : Fin 2) * 10000 ≤ (i 0).val ∧ (i 0).val < win12_5.index t (0 : Fin 2) * 10000 + 10000; omega
  | ⟨1, _⟩ => show win12_5.index t (1 : Fin 2) * 128 ≤ (i 1).val ∧ (i 1).val < win12_5.index t (1 : Fin 2) * 128 + 128; omega

/-- The output array after the region: `bnRelu12` of the entry contents, everywhere. -/
theorem final12_5 (c : Dev nD) : (dat12 V c).arrAt 5 cfg12.N
    = bnRelu12 ((dat12 V c).A 0) ((dat12 V c).A 1) ((dat12 V c).A 2) ((dat12 V c).A 3) ((dat12 V c).A 4) :=
  (dat12 V c).arrAt_eq_of_cover 5 _ (fun t _ => flushed12_5_eq V c t) covered12_5

/-- The output array after the region, index by index, in the shared vocabulary. -/
theorem val12 (c : Dev nD) (i : Fin 100000) (j : Fin 128) :
    (dat12 (F := Ideal) V c).arrAt 5 cfg12.N (ix2 i j)
      = Cert.Math.bnRelu (Cert.Math.at2 ((dat12 V c).A 0)) (fun j => Cert.Math.at2 ((dat12 V c).A 1) 0 j) (fun j => Cert.Math.at2 ((dat12 V c).A 2) 0 j)
          (fun j => Cert.Math.at2 ((dat12 V c).A 3) 0 j) (fun j => Cert.Math.at2 ((dat12 V c).A 4) 0 j) i j := by
  rw [final12_5]
  rfl

end Cert.KernelIdeal.Hand
end
-- ==== Proof.KI.ValPool6.lean ====
import proofs.«413302_j72232759984513_1_alg».proof.Proof.KI.RegPool6
import proofs.«413302_j72232759984513_1_alg».proof.Proof.Math.Spec
import proofs.«413302_j72232759984513_1_alg».proof.Proof.Math.Tiles
import proofs.«413302_j72232759984513_1_alg».proof.Proof.Math.Consts
import Idealize.ShloMosaic.Lib.ValueIdx
import Idealize.ShloMosaic.Lib.Pipeline.Value
import Idealize.ShloMosaic.Lib.ValueLayout
import Idealize.ShloMosaic.Lib.KernelVsHost
import Idealize.ShloMosaic.PureOps.Ideal.Laws

set_option maxRecDepth 16384

noncomputable section

namespace Cert.KernelIdeal.Hand

open Idealize.ShloMosaic Idealize.ShloMosaic.TcCoe Idealize.SL.Sem
open Idealize.ShloMosaic.ValueIdx
open Idealize.ShloMosaic.Pipeline (Dat)
open Cert.KernelIdeal Cert.KernelIdeal.Gen

/-! # Region 6, the value half: the pooling kernel's output array

At the ideal values the kernel's one-hot product adds, per segment, the rows of the point's block that the segment words
assign to it; over the ten points the accumulators therefore hold the segments' sums and counts over all hundred thousand
rows (the tiles enumerate the rows), and the last point's epilogue divides, multiplies by the weights and adds the bias:
the embedding of the segments' mean rows. -/

/-! ## The three products of the pooling kernel at an index -/

theorem lhs6_dot_S10000x256_S10000x128_S256x128_0_0_1_1_n_n_1 (i : S256x128.Idx) (q : dot_S10000x256_S10000x128_S256x128_0_0_1_1_n_n.contr.Idx) :
    (dot_S10000x256_S10000x128_S256x128_0_0_1_1_n_n.lhsIdx i q 1).val = (i 0).val := by
  unfold DotDims.lhsIdx
  rw [dif_neg (show ¬(1 : Fin S10000x256.rank) ∈ dot_S10000x256_S10000x128_S256x128_0_0_1_1_n_n.lhsBatch by decide), dif_pos (show (1 : Fin S10000x256.rank) ∈ dot_S10000x256_S10000x128_S256x128_0_0_1_1_n_n.lhsNonContracting by decide)]
  rfl
theorem lhs6_dot_S10000x256_S10000x128_S256x128_0_0_1_1_n_n_0 (i : S256x128.Idx) (q : dot_S10000x256_S10000x128_S256x128_0_0_1_1_n_n.contr.Idx) :
    (dot_S10000x256_S10000x128_S256x128_0_0_1_1_n_n.lhsIdx i q 0).val = (q ⟨0, by decide⟩).val :=
  dot_S10000x256_S10000x128_S256x128_0_0_1_1_n_n.lhsIdx_val_of_single rfl i q
theorem rhs6_dot_S10000x256_S10000x128_S256x128_0_0_1_1_n_n_0 (i : S256x128.Idx) (q : dot_S10000x256_S10000x128_S256x128_0_0_1_1_n_n.contr.Idx) :
    (dot_S10000x256_S10000x128_S256x128_0_0_1_1_n_n.rhsIdx i q 0).val = (q ⟨0, by decide⟩).val :=
  dot_S10000x256_S10000x128_S256x128_0_0_1_1_n_n.rhsIdx_val_of_single rfl i q
theorem rhs6_dot_S10000x256_S10000x128_S256x128_0_0_1_1_n_n_1 (i : S256x128.Idx) (q : dot_S10000x256_S10000x128_S256x128_0_0_1_1_n_n.contr.Idx) :
    (dot_S10000x256_S10000x128_S256x128_0_0_1_1_n_n.rhsIdx i q 1).val = (i 1).val := by
  unfold DotDims.rhsIdx
  rw [dif_neg (show ¬(1 : Fin S10000x128.rank) ∈ dot_S10000x256_S10000x128_S256x128_0_0_1_1_n_n.rhsBatch by decide), dif_pos (show (1 : Fin S10000x128.rank) ∈ dot_S10000x256_S10000x128_S256x128_0_0_1_1_n_n.rhsNonContracting by decide)]
  rfl

theorem lhs6_dot_S10000x256_S10000x1_S256x1_0_0_1_1_n_n_1 (i : S256x1.Idx) (q : dot_S10000x256_S10000x1_S256x1_0_0_1_1_n_n.contr.Idx) :
    (dot_S10000x256_S10000x1_S256x1_0_0_1_1_n_n.lhsIdx i q 1).val = (i 0).val := by
  unfold DotDims.lhsIdx
  rw [dif_neg (show ¬(1 : Fin S10000x256.rank) ∈ dot_S10000x256_S10000x1_S256x1_0_0_1_1_n_n.lhsBatch by decide), dif_pos (show (1 : Fin S10000x256.rank) ∈ dot_S10000x256_S10000x1_S256x1_0_0_1_1_n_n.lhsNonContracting by decide)]
  rfl
theorem lhs6_dot_S10000x256_S10000x1_S256x1_0_0_1_1_n_n_0 (i : S256x1.Idx) (q : dot_S10000x256_S10000x1_S256x1_0_0_1_1_n_n.contr.Idx) :
    (dot_S10000x256_S10000x1_S256x1_0_0_1_1_n_n.lhsIdx i q 0).val = (q ⟨0, by decide⟩).val :=
  dot_S10000x256_S10000x1_S256x1_0_0_1_1_n_n.lhsIdx_val_of_single rfl i q
theorem rhs6_dot_S10000x256_S10000x1_S256x1_0_0_1_1_n_n_0 (i : S256x1.Idx) (q : dot_S10000x256_S10000x1_S256x1_0_0_1_1_n_n.contr.Idx) :
    (dot_S10000x256_S10000x1_S256x1_0_0_1_1_n_n.rhsIdx i q 0).val = (q ⟨0, by decide⟩).val :=
  dot_S10000x256_S10000x1_S256x1_0_0_1_1_n_n.rhsIdx_val_of_single rfl i q
theorem rhs6_dot_S10000x256_S10000x1_S256x1_0_0_1_1_n_n_1 (i : S256x1.Idx) (q : dot_S10000x256_S10000x1_S256x1_0_0_1_1_n_n.contr.Idx) :
    (dot_S10000x256_S10000x1_S256x1_0_0_1_1_n_n.rhsIdx i q 1).val = (i 1).val := by
  unfold DotDims.rhsIdx
  rw [dif_neg (show ¬(1 : Fin S10000x1.rank) ∈ dot_S10000x256_S10000x1_S256x1_0_0_1_1_n_n.rhsBatch by decide), dif_pos (show (1 : Fin S10000x1.rank) ∈ dot_S10000x256_S10000x1_S256x1_0_0_1_1_n_n.rhsNonContracting by decide)]
  rfl

theorem lhs6_dot_S256x128_S128x64_S256x64_1_0_0_1_n_n_0 (i : S256x64.Idx) (q : dot_S256x128_S128x64_S256x64_1_0_0_1_n_n.contr.Idx) :
    (dot_S256x128_S128x64_S256x64_1_0_0_1_n_n.lhsIdx i q 0).val = (i 0).val := by
  unfold DotDims.lhsIdx
  rw [dif_neg (show ¬(0 : Fin S256x128.rank) ∈ dot_S256x128_S128x64_S256x64_1_0_0_1_n_n.lhsBatch by decide), dif_pos (show (0 : Fin S256x128.rank) ∈ dot_S256x128_S128x64_S256x64_1_0_0_1_n_n.lhsNonContracting by decide)]
  rfl
theorem lhs6_dot_S256x128_S128x64_S256x64_1_0_0_1_n_n_1 (i : S256x64.Idx) (q : dot_S256x128_S128x64_S256x64_1_0_0_1_n_n.contr.Idx) :
    (dot_S256x128_S128x64_S256x64_1_0_0_1_n_n.lhsIdx i q 1).val = (q ⟨0, by decide⟩).val :=
  dot_S256x128_S128x64_S256x64_1_0_0_1_n_n.lhsIdx_val_of_single rfl i q
theorem rhs6_dot_S256x128_S128x64_S256x64_1_0_0_1_n_n_0 (i : S256x64.Idx) (q : dot_S256x128_S128x64_S256x64_1_0_0_1_n_n.contr.Idx) :
    (dot_S256x128_S128x64_S256x64_1_0_0_1_n_n.rhsIdx i q 0).val = (q ⟨0, by decide⟩).val :=
  dot_S256x128_S128x64_S256x64_1_0_0_1_n_n.rhsIdx_val_of_single rfl i q
theorem rhs6_dot_S256x128_S128x64_S256x64_1_0_0_1_n_n_1 (i : S256x64.Idx) (q : dot_S256x128_S128x64_S256x64_1_0_0_1_n_n.contr.Idx) :
    (dot_S256x128_S128x64_S256x64_1_0_0_1_n_n.rhsIdx i q 1).val = (i 1).val := by
  unfold DotDims.rhsIdx
  rw [dif_neg (show ¬(1 : Fin S128x64.rank) ∈ dot_S256x128_S128x64_S256x64_1_0_0_1_n_n.rhsBatch by decide), dif_pos (show (1 : Fin S128x64.rank) ∈ dot_S256x128_S128x64_S256x64_1_0_0_1_n_n.rhsNonContracting by decide)]
  rfl

/-- The one-hot matrix at (r, g): one where row r's segment word names segment g, zero elsewhere. -/
theorem pay3_6_apply (v5 : Vec Ideal S10000x1 .i32) (r : Fin 10000) (g : Fin 256) :
    k6_pay3 (F := Ideal) v5 (ix2 r g) = if v5 (ix2 r 0) = BitVec.ofNat 32 g.val then (1 : EReal) else 0 := by
  unfold k6_pay3
  simp only [sitofp_apply, extui_apply, shapeCast_self]
  have hb : broadcastTo S10000x256 v5 broadcasts_S10000x1_S10000x256 (ix2 r g) = v5 (ix2 r 0) :=
    broadcastTo_apply v5 _ (ix2 r g) (ix2 r 0) (fun a => by
      match a with
      | ⟨0, _⟩ => rfl
      | ⟨1, _⟩ => rfl)
  have hi : iota .tc S10000x256 32 [1] iota_S10000x256_d1_w32 (ix2 r g) = BitVec.ofNat 32 g.val := by
    show BitVec.ofNat 32 (0 * 256 + g.val) = _
    rw [Nat.zero_mul, Nat.zero_add]
  show ((((BitVec.setWidth 32 (IntOp.cmpi .eq (iota .tc S10000x256 32 [1] iota_S10000x256_d1_w32 (ix2 r g)) (broadcastTo S10000x256 v5 broadcasts_S10000x1_S10000x256 (ix2 r g)))).toInt : ℤ) : ℝ) : EReal) = _
  rw [toInt_setWidth_bit, hb, hi]
  by_cases h : v5 (ix2 r 0) = BitVec.ofNat 32 g.val
  · rw [if_pos h, h]; simp [IntOp.cmpi]
  · rw [if_neg h]
    have hne : (BitVec.ofNat 32 g.val == v5 (ix2 r 0)) = false := by
      rw [beq_eq_false_iff_ne]; exact fun e => h e.symm
    simp [IntOp.cmpi, hne]

/-- The sums' product at (g, c): the sum over the block's rows. -/
theorem matmulA6_apply (x : FVec Ideal S10000x256 .f32) (w : FVec Ideal S10000x128 .f32) (g : Fin 256) (c : Fin 128) :
    matmul dot_S10000x256_S10000x128_S256x128_0_0_1_1_n_n none x w (constant S256x128 .f32 0x00000000#32) (ix2 g c) = ∑ l : Fin 10000, x (ix2 l g) * w (ix2 l c) := by
  simp only [matmul]
  rw [Ideal.matmul_constant_zero_apply, ← Equiv.sum_comp (contrEquiv1 dot_S10000x256_S10000x128_S256x128_0_0_1_1_n_n 10000 rfl rfl).symm]
  refine Finset.sum_congr rfl fun l _ => ?_
  have hk := contrEquiv1_symm_val dot_S10000x256_S10000x128_S256x128_0_0_1_1_n_n 10000 rfl rfl l
  have el : dot_S10000x256_S10000x128_S256x128_0_0_1_1_n_n.lhsIdx (ix2 g c) ((contrEquiv1 dot_S10000x256_S10000x128_S256x128_0_0_1_1_n_n 10000 rfl rfl).symm l) = ix2 l g := funext fun a => Fin.ext (by
    match a with
    | ⟨0, _⟩ => exact (lhs6_dot_S10000x256_S10000x128_S256x128_0_0_1_1_n_n_0 _ _).trans hk
    | ⟨1, _⟩ => exact lhs6_dot_S10000x256_S10000x128_S256x128_0_0_1_1_n_n_1 _ _)
  have er : dot_S10000x256_S10000x128_S256x128_0_0_1_1_n_n.rhsIdx (ix2 g c) ((contrEquiv1 dot_S10000x256_S10000x128_S256x128_0_0_1_1_n_n 10000 rfl rfl).symm l) = ix2 l c := funext fun a => Fin.ext (by
    match a with
    | ⟨0, _⟩ => exact (rhs6_dot_S10000x256_S10000x128_S256x128_0_0_1_1_n_n_0 _ _).trans hk
    | ⟨1, _⟩ => exact rhs6_dot_S10000x256_S10000x128_S256x128_0_0_1_1_n_n_1 _ _)
  rw [el, er]

/-- The counts' product at (g, 0). -/
theorem matmulB6_apply (x : FVec Ideal S10000x256 .f32) (w : FVec Ideal S10000x1 .f32) (g : Fin 256) (z : Fin 1) :
    matmul dot_S10000x256_S10000x1_S256x1_0_0_1_1_n_n none x w (constant S256x1 .f32 0x00000000#32) (ix2 g z) = ∑ l : Fin 10000, x (ix2 l g) * w (ix2 l z) := by
  simp only [matmul]
  rw [Ideal.matmul_constant_zero_apply, ← Equiv.sum_comp (contrEquiv1 dot_S10000x256_S10000x1_S256x1_0_0_1_1_n_n 10000 rfl rfl).symm]
  refine Finset.sum_congr rfl fun l _ => ?_
  have hk := contrEquiv1_symm_val dot_S10000x256_S10000x1_S256x1_0_0_1_1_n_n 10000 rfl rfl l
  have el : dot_S10000x256_S10000x1_S256x1_0_0_1_1_n_n.lhsIdx (ix2 g z) ((contrEquiv1 dot_S10000x256_S10000x1_S256x1_0_0_1_1_n_n 10000 rfl rfl).symm l) = ix2 l g := funext fun a => Fin.ext (by
    match a with
    | ⟨0, _⟩ => exact (lhs6_dot_S10000x256_S10000x1_S256x1_0_0_1_1_n_n_0 _ _).trans hk
    | ⟨1, _⟩ => exact lhs6_dot_S10000x256_S10000x1_S256x1_0_0_1_1_n_n_1 _ _)
  have er : dot_S10000x256_S10000x1_S256x1_0_0_1_1_n_n.rhsIdx (ix2 g z) ((contrEquiv1 dot_S10000x256_S10000x1_S256x1_0_0_1_1_n_n 10000 rfl rfl).symm l) = ix2 l z := funext fun a => Fin.ext (by
    match a with
    | ⟨0, _⟩ => exact (rhs6_dot_S10000x256_S10000x1_S256x1_0_0_1_1_n_n_0 _ _).trans hk
    | ⟨1, _⟩ => exact rhs6_dot_S10000x256_S10000x1_S256x1_0_0_1_1_n_n_1 _ _)
  rw [el, er]

/-- The embedding's product at (g, e): the sum over the pooled row's coordinates. -/
theorem matmulC6_apply (x : FVec Ideal S256x128 .f32) (w : FVec Ideal S128x64 .f32) (g : Fin 256) (e : Fin 64) :
    matmul dot_S256x128_S128x64_S256x64_1_0_0_1_n_n none x w (constant S256x64 .f32 0x00000000#32) (ix2 g e) = ∑ l : Fin 128, x (ix2 g l) * w (ix2 l e) := by
  simp only [matmul]
  rw [Ideal.matmul_constant_zero_apply, ← Equiv.sum_comp (contrEquiv1 dot_S256x128_S128x64_S256x64_1_0_0_1_n_n 128 rfl rfl).symm]
  refine Finset.sum_congr rfl fun l _ => ?_
  have hk := contrEquiv1_symm_val dot_S256x128_S128x64_S256x64_1_0_0_1_n_n 128 rfl rfl l
  have el : dot_S256x128_S128x64_S256x64_1_0_0_1_n_n.lhsIdx (ix2 g e) ((contrEquiv1 dot_S256x128_S128x64_S256x64_1_0_0_1_n_n 128 rfl rfl).symm l) = ix2 g l := funext fun a => Fin.ext (by
    match a with
    | ⟨0, _⟩ => exact lhs6_dot_S256x128_S128x64_S256x64_1_0_0_1_n_n_0 _ _
    | ⟨1, _⟩ => exact (lhs6_dot_S256x128_S128x64_S256x64_1_0_0_1_n_n_1 _ _).trans hk)
  have er : dot_S256x128_S128x64_S256x64_1_0_0_1_n_n.rhsIdx (ix2 g e) ((contrEquiv1 dot_S256x128_S128x64_S256x64_1_0_0_1_n_n 128 rfl rfl).symm l) = ix2 l e := funext fun a => Fin.ext (by
    match a with
    | ⟨0, _⟩ => exact (rhs6_dot_S256x128_S128x64_S256x64_1_0_0_1_n_n_0 _ _).trans hk
    | ⟨1, _⟩ => exact rhs6_dot_S256x128_S128x64_S256x64_1_0_0_1_n_n_1 _ _)
  rw [el, er]

/-- The sums' accumulator after a point: what it held plus, per segment and coordinate, the sum of the block's rows
    that the segment words assign to the segment. -/
theorem pay4_6_apply (v3 : Vec Ideal S10000x128 .f32) (v5 : Vec Ideal S10000x1 .i32) (v12 : Vec Ideal S256x128 .f32) (g : Fin 256) (c : Fin 128) :
    k6_pay4 (F := Ideal) v3 v5 v12 (ix2 g c) = v12 (ix2 g c) + ∑ r : Fin 10000, (if v5 (ix2 r 0) = BitVec.ofNat 32 g.val then v3 (ix2 r c) else 0) := by
  unfold k6_pay4
  simp only [shapeCast_self, addf_apply, matmulA6_apply, pay3_6_apply, ite_mul, one_mul, zero_mul]

/-- The counts' accumulator after a point: what it held plus the number of the block's rows assigned to the segment. -/
theorem pay5_6_apply (v5 : Vec Ideal S10000x1 .i32) (v19 : Vec Ideal S256x1 .f32) (g : Fin 256) :
    k6_pay5 (F := Ideal) v5 v19 (ix2 g 0) = v19 (ix2 g 0) + ∑ r : Fin 10000, (if v5 (ix2 r 0) = BitVec.ofNat 32 g.val then (1 : EReal) else 0) := by
  unfold k6_pay5
  simp only [shapeCast_self, addf_apply, matmulB6_apply, pay3_6_apply, broadcast_apply, Scalar.ofBits, Ideal.ofBits_def, Cert.Math.ofBits_one, EReal.coe_one, mul_one]

/-- The reset values are zero. -/
theorem pay1_6_apply (i : S256x128.Idx) : k6_pay1 (F := Ideal) i = 0 := by
  unfold k6_pay1
  simp only [shapeCast_self, broadcast_apply, Scalar.ofBits, Ideal.ofBits_def, Ideal.ofBits_zero_f32]
theorem pay2_6_apply (i : S256x1.Idx) : k6_pay2 (F := Ideal) i = 0 := by
  unfold k6_pay2
  simp only [shapeCast_self, broadcast_apply, Scalar.ofBits, Ideal.ofBits_def, Ideal.ofBits_zero_f32]

/-- The epilogue at (g, e): the sums divided by the counts (at least one), times the weights, plus the bias. -/
theorem pay6_6_apply (v28 : Vec Ideal S256x128 .f32) (v29 : Vec Ideal S256x1 .f32) (v34 : Vec Ideal S128x64 .f32) (v36 : Vec Ideal S1x64 .f32) (g : Fin 256) (e : Fin 64) :
    k6_pay6 (F := Ideal) v28 v29 v34 v36 (ix2 g e) = (∑ l : Fin 128, Ideal.div (v28 (ix2 g l)) (max (v29 (ix2 g 0)) 1) * v34 (ix2 l e)) + v36 (ix2 0 e) := by
  unfold k6_pay6
  have hb1 : ∀ (x : FVec Ideal S256x1 .f32) (l : Fin 128), broadcastTo S256x128 x broadcasts_S256x1_S256x128 (ix2 g l) = x (ix2 g 0) := fun x l =>
    broadcastTo_apply x _ (ix2 g l) (ix2 g 0) (fun a => by
      match a with
      | ⟨0, _⟩ => rfl
      | ⟨1, _⟩ => rfl)
  have hb2 : ∀ (x : FVec Ideal S1x64 .f32), broadcastTo S256x64 x broadcasts_S1x64_S256x64 (ix2 g e) = x (ix2 0 e) := fun x =>
    broadcastTo_apply x _ (ix2 g e) (ix2 0 e) (fun a => by
      match a with
      | ⟨0, _⟩ => rfl
      | ⟨1, _⟩ => rfl)
  simp only [shapeCast_self, addf_apply, matmulC6_apply, divf_apply, hb1, hb2, maximumf_apply, broadcast_apply, Scalar.ofBits, Ideal.ofBits_def, Cert.Math.ofBits_one, EReal.coe_one]

/-! ## From the blocks to the arrays -/

section Region6
variable (V : (c : Dev nD) → (b : Ref sig .tc) → Buf (Elt Ideal) ((c : Thread nD τ).loc b))

/-- The printed index maps, decided over the grid: the two streamed inputs' block index is the point's number on the
    row axis; every other block index is zero. -/
theorem idx_facts6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0 :=
  (by decide +kernel : ∀ t : Fin grid6.N, _)

/-- Row r of tile t is a row of the array. -/
theorem tile6_lt (t : Fin cfg6.N) (r : Fin 10000) : t.val * 10000 + r.val < 100000 := by
  have h1 := t.isLt; have hN : cfg6.N = 10 := N_6; have h2 := r.isLt; omega

/-- The rows' block at point t, row r, is row t · 10000 + r of the array. -/
theorem iblk6_0_apply (c : Dev nD) (t : Fin cfg6.N) (r : Fin 10000) (k : Fin 128) :
    iblk6 V c 0 t (ix2 r k) = (V c (Pipeline.arrRef spec6 0) : S100000x128.Idx → Ideal .f32) (ix2 ⟨t.val * 10000 + r.val, tile6_lt t r⟩ k) := by
  obtain ⟨e00, e01, e10, e11, e20, e21, e30, e31, e40, e41⟩ := idx_facts6 t
  show V c (Pipeline.arrRef spec6 0) (((cfg6.win 0).blk t).view.emb (ix2 r k)) = _
  refine congrArg _ (funext fun a => Fin.ext ?_)
  match a with
  | ⟨0, _⟩ => show win6_0.index t (0 : Fin 2) * 10000 + 1 * r.val = t.val * 10000 + r.val; omega
  | ⟨1, _⟩ => show win6_0.index t (1 : Fin 2) * 128 + 1 * k.val = k.val; omega

/-- The segment words' block likewise. -/
theorem iblk6_1_apply (c : Dev nD) (t : Fin cfg6.N) (r : Fin 10000) :
    iblk6 V c 1 t (ix2 r 0) = (V c (Pipeline.arrRef spec6 1) : S100000x1.Idx → BitVec 32) (ix2 ⟨t.val * 10000 + r.val, tile6_lt t r⟩ 0) := by
  obtain ⟨e00, e01, e10, e11, e20, e21, e30, e31, e40, e41⟩ := idx_facts6 t
  show V c (Pipeline.arrRef spec6 1) (((cfg6.win 1).blk t).view.emb (ix2 r 0)) = _
  refine congrArg _ (funext fun a => Fin.ext ?_)
  match a with
  | ⟨0, _⟩ => show win6_1.index t (0 : Fin 2) * 10000 + 1 * r.val = t.val * 10000 + r.val; omega
  | ⟨1, _⟩ => show win6_1.index t (1 : Fin 2) * 1 + 1 * 0 = 0; omega

/-- The weights' and the bias's one block is the whole of its array. -/
theorem iblk6_2_eq (c : Dev nD) (t : Fin cfg6.N) :
    iblk6 V c 2 t = (V c (Pipeline.arrRef spec6 2) : S128x64.Idx → Ideal .f32) := by
  obtain ⟨e00, e01, e10, e11, e20, e21, e30, e31, e40, e41⟩ := idx_facts6 t
  funext y
  show V c (Pipeline.arrRef spec6 2) (((cfg6.win 2).blk t).view.emb y) = V c (Pipeline.arrRef spec6 2) y
  refine congrArg _ (funext fun a => Fin.ext ?_)
  match a with
  | ⟨0, _⟩ => show win6_2.index t (0 : Fin 2) * 128 + 1 * (y 0).val = (y 0).val; omega
  | ⟨1, _⟩ => show win6_2.index t (1 : Fin 2) * 64 + 1 * (y 1).val = (y 1).val; omega

theorem iblk6_3_eq (c : Dev nD) (t : Fin cfg6.N) :
    iblk6 V c 3 t = (V c (Pipeline.arrRef spec6 3) : S1x64.Idx → Ideal .f32) := by
  obtain ⟨e00, e01, e10, e11, e20, e21, e30, e31, e40, e41⟩ := idx_facts6 t
  funext y
  show V c (Pipeline.arrRef spec6 3) (((cfg6.win 3).blk t).view.emb y) = V c (Pipeline.arrRef spec6 3) y
  refine congrArg _ (funext fun a => Fin.ext ?_)
  match a with
  | ⟨0, _⟩ => show win6_3.index t (0 : Fin 2) * 1 + 1 * (y 0).val = (y 0).val; omega
  | ⟨1, _⟩ => show win6_3.index t (1 : Fin 2) * 64 + 1 * (y 1).val = (y 1).val; omega

/-! ## The accumulation, at an index -/

/-- Point s's contribution to the sums at (g, k): the rows of its block whose segment word names g, added up. -/
def tileSum6 (c : Dev nD) (g : Fin 256) (k : Fin 128) (s : ℕ) : EReal :=
  if h : s < cfg6.N then ∑ r : Fin 10000, (if iblk6 V c 1 ⟨s, h⟩ (ix2 r 0) = BitVec.ofNat 32 g.val then iblk6 V c 0 ⟨s, h⟩ (ix2 r k) else 0) else 0

/-- Point s's contribution to the counts at g: the number of rows of its block whose segment word names g. -/
def tileCnt6 (c : Dev nD) (g : Fin 256) (s : ℕ) : EReal :=
  if h : s < cfg6.N then ∑ r : Fin 10000, (if iblk6 V c 1 ⟨s, h⟩ (ix2 r 0) = BitVec.ofNat 32 g.val then (1 : EReal) else 0) else 0

/-- After point n the sums hold the contributions of points 0 … n. -/
theorem acc6_sum (c : Dev nD) (g : Fin 256) (k : Fin 128) : ∀ (n : ℕ) (hn : n < cfg6.N),
    (acc6 V c n hn).1 (ix2 g k) = ∑ s ∈ Finset.range (n + 1), tileSum6 V c g k s
  | 0, hn => by
    show k6_pay4 (F := Ideal) (iblk6 V c 0 ⟨0, hn⟩) (iblk6 V c 1 ⟨0, hn⟩) (k6_pay1 (F := Ideal)) (ix2 g k) = _
    rw [pay4_6_apply, pay1_6_apply, zero_add, Finset.sum_range_one]
    unfold tileSum6; rw [dif_pos hn]
  | n + 1, hn => by
    show k6_pay4 (F := Ideal) (iblk6 V c 0 ⟨n + 1, hn⟩) (iblk6 V c 1 ⟨n + 1, hn⟩) (acc6 V c n (Nat.lt_of_succ_lt hn)).1 (ix2 g k) = _
    rw [pay4_6_apply, acc6_sum c g k n (Nat.lt_of_succ_lt hn), Finset.sum_range_succ _ (n + 1)]
    congr 1
    unfold tileSum6; rw [dif_pos hn]

/-- After point n the counts hold the contributions of points 0 … n. -/
theorem acc6_cnt (c : Dev nD) (g : Fin 256) : ∀ (n : ℕ) (hn : n < cfg6.N),
    (acc6 V c n hn).2 (ix2 g 0) = ∑ s ∈ Finset.range (n + 1), tileCnt6 V c g s
  | 0, hn => by
    show k6_pay5 (F := Ideal) (iblk6 V c 1 ⟨0, hn⟩) (k6_pay2 (F := Ideal)) (ix2 g 0) = _
    rw [pay5_6_apply, pay2_6_apply, zero_add, Finset.sum_range_one]
    unfold tileCnt6; rw [dif_pos hn]
  | n + 1, hn => by
    show k6_pay5 (F := Ideal) (iblk6 V c 1 ⟨n + 1, hn⟩) (acc6 V c n (Nat.lt_of_succ_lt hn)).2 (ix2 g 0) = _
    rw [pay5_6_apply, acc6_cnt c g n (Nat.lt_of_succ_lt hn), Finset.sum_range_succ _ (n + 1)]
    congr 1
    unfold tileCnt6; rw [dif_pos hn]

/-- The ten points' contributions are the segment's sum over all the rows: the tiles enumerate the rows. -/
theorem sum_tileSum6 (c : Dev nD) (g : Fin 256) (k : Fin 128) :
    ∑ s ∈ Finset.range 10, tileSum6 V c g k s
      = Cert.Math.segSum (fun n j => (V c (Pipeline.arrRef spec6 0) : S100000x128.Idx → Ideal .f32) (ix2 n j))
          (fun n => (V c (Pipeline.arrRef spec6 1) : S100000x1.Idx → BitVec 32) (ix2 n 0)) g k := by
  unfold Cert.Math.segSum
  rw [← Cert.Math.sum_tiles, Finset.sum_range]
  refine Finset.sum_congr rfl fun t _ => ?_
  have ht : t.val < cfg6.N := lt_of_lt_of_eq t.isLt N_6.symm
  unfold tileSum6; rw [dif_pos ht]
  refine Finset.sum_congr rfl fun r _ => ?_
  rw [iblk6_0_apply, iblk6_1_apply]

theorem sum_tileCnt6 (c : Dev nD) (g : Fin 256) :
    ∑ s ∈ Finset.range 10, tileCnt6 V c g s
      = Cert.Math.segCnt (fun n => (V c (Pipeline.arrRef spec6 1) : S100000x1.Idx → BitVec 32) (ix2 n 0)) g := by
  unfold Cert.Math.segCnt
  rw [← Cert.Math.sum_tiles, Finset.sum_range]
  refine Finset.sum_congr rfl fun t _ => ?_
  have ht : t.val < cfg6.N := lt_of_lt_of_eq t.isLt N_6.symm
  unfold tileCnt6; rw [dif_pos ht]
  refine Finset.sum_congr rfl fun r _ => ?_
  rw [iblk6_1_apply]

/-! ## From the last point's write-back to the array -/

/-- The closed form: the output array as one function of the four input arrays, index by index — the embedding of the
    mean rows of the segments. -/
def emb6 (a0 : S100000x128.Idx → Ideal .f32) (a1 : S100000x1.Idx → BitVec 32) (a2 : S128x64.Idx → Ideal .f32) (a3 : S1x64.Idx → Ideal .f32) : S256x64.Idx → Ideal .f32 :=
  fun i => Cert.Math.embed (fun n j => a0 (ix2 n j)) (fun n => a1 (ix2 n 0)) (fun l e => a2 (ix2 l e)) (fun e => a3 (ix2 0 e)) (i 0) (i 1)

set_option maxHeartbeats 4000000 in
/-- What the last point writes back is the block of the closed form of the arrays as the region finds them: the
    accumulators then hold all ten points' contributions, which are the segments' sums and counts over all the rows. -/
theorem flushed6_4_eq (c : Dev nD) (t : Fin cfg6.N) (hfl : (cfg6.win 4).flush t = true) :
    (dat6 (F := Ideal) V c).flushed 4 t = ((cfg6.win 4).blk t).view.read (Elt Ideal) (emb6 (V c (Pipeline.arrRef spec6 0)) (V c (Pipeline.arrRef spec6 1)) (V c (Pipeline.arrRef spec6 2)) (V c (Pipeline.arrRef spec6 3))) := by
  have h9 : t.val = 9 := by
    have h0 := (flush6_4 t).mp hfl; have h1 := t.isLt; have hN : cfg6.N = 10 := N_6; omega
  show (cfg6.win 4).cut (grid6.coords t) ((dat6 V c).after 4 t) = _
  rw [after6_4]
  unfold out6_4
  rw [iblk6_2_eq, iblk6_3_eq]
  obtain ⟨e00, e01, e10, e11, e20, e21, e30, e31, e40, e41⟩ := idx_facts6 t
  funext j
  obtain ⟨g, e, rfl⟩ : ∃ (g : Fin 256) (e : Fin 64), j = ix2 g e := ⟨j 0, j 1, eq_ix2 j⟩
  show k6_pay6 (F := Ideal) (acc6 V c t.val t.isLt).1 (acc6 V c t.val t.isLt).2 (V c (Pipeline.arrRef spec6 2)) (V c (Pipeline.arrRef spec6 3)) (ix2 g e)
    = emb6 (V c (Pipeline.arrRef spec6 0)) (V c (Pipeline.arrRef spec6 1)) (V c (Pipeline.arrRef spec6 2)) (V c (Pipeline.arrRef spec6 3)) (((cfg6.win 4).blk t).view.emb (ix2 g e))
  rw [pay6_6_apply]
  have hemb0 : (((cfg6.win 4).blk t).view.emb (ix2 g e) : S256x64.Idx) 0 = g :=
    Fin.ext (by show win6_4.index t (0 : Fin 2) * 256 + 1 * g.val = g.val; omega)
  have hemb1 : (((cfg6.win 4).blk t).view.emb (ix2 g e) : S256x64.Idx) 1 = e :=
    Fin.ext (by show win6_4.index t (1 : Fin 2) * 64 + 1 * e.val = e.val; omega)
  unfold emb6
  rw [hemb0, hemb1]
  unfold Cert.Math.embed Cert.Math.lin Cert.Math.pooled
  have hs : ∀ l : Fin 128, (acc6 V c t.val t.isLt).1 (ix2 g l) = Cert.Math.segSum (fun n j => (V c (Pipeline.arrRef spec6 0) : S100000x128.Idx → Ideal .f32) (ix2 n j)) (fun n => (V c (Pipeline.arrRef spec6 1) : S100000x1.Idx → BitVec 32) (ix2 n 0)) g l := fun l => by
    rw [acc6_sum, h9]; exact sum_tileSum6 V c g l
  have hc : (acc6 V c t.val t.isLt).2 (ix2 g 0) = Cert.Math.segCnt (fun n => (V c (Pipeline.arrRef spec6 1) : S100000x1.Idx → BitVec 32) (ix2 n 0)) g := by
    rw [acc6_cnt, h9]; exact sum_tileCnt6 V c g
  simp only [hs, hc]

/-- An index of the output array is in point t's block iff each coordinate is in the block's range on its axis. -/
theorem mem_blk6_4 (t : Fin cfg6.N) (i : S256x64.Idx) :
    i ∈ ((cfg6.win 4).blk t).view.set ↔ ∀ a : Fin 2, win6_4.index t a * S256x64.size a ≤ (i a).val ∧ (i a).val < win6_4.index t a * S256x64.size a + S256x64.size a := by
  show i ∈ ((View.whole main_v81).slice (win6_4.rect t)).set ↔ _
  rw [View.set_slice_whole, Rect.mem_set_unit]
  exact Iff.rfl

/-- The last point's block covers the output array. -/
theorem covered6_4 (i : S256x64.Idx) : ∃ t : Fin cfg6.N, (cfg6.win 4).flush t = true ∧ i ∈ ((cfg6.win 4).blk t).view.set := by
  refine ⟨t6_9, (flush6_4 t6_9).mpr rfl, ?_⟩
  obtain ⟨e00, e01, e10, e11, e20, e21, e30, e31, e40, e41⟩ := idx_facts6 t6_9
  rw [mem_blk6_4]
  intro a
  have h0 : (i 0).val < 256 := (i 0).isLt
  have h1 : (i 1).val < 64 := (i 1).isLt
  match a with
  | ⟨0, _⟩ => show win6_4.index t6_9 (0 : Fin 2) * 256 ≤ (i 0).val ∧ (i 0).val < win6_4.index t6_9 (0 : Fin 2) * 256 + 256; omega
  | ⟨1, _⟩ => show win6_4.index t6_9 (1 : Fin 2) * 64 ≤ (i 1).val ∧ (i 1).val < win6_4.index t6_9 (1 : Fin 2) * 64 + 64; omega

/-- The output array after the region is the closed form of the arrays as the region finds them. -/
theorem arr6_4 (c : Dev nD) : (dat6 (F := Ideal) V c).arrAt 4 cfg6.N = emb6 (V c (Pipeline.arrRef spec6 0)) (V c (Pipeline.arrRef spec6 1)) (V c (Pipeline.arrRef spec6 2)) (V c (Pipeline.arrRef spec6 3)) :=
  (dat6 V c).arrAt_eq_of_cover 4 _ (fun t hfl => flushed6_4_eq V c t hfl) covered6_4

/-- The output array after the region, index by index, in the shared vocabulary: the embedding of the segments' mean
    rows, from the proof data's arrays. -/
theorem val6 (c : Dev nD) (g : Fin 256) (e : Fin 64) :
    (dat6 (F := Ideal) V c).arrAt 4 cfg6.N (ix2 g e)
      = Cert.Math.embed (Cert.Math.at2 ((dat6 V c).A 0)) (fun n => Cert.Math.at2 ((dat6 V c).A 1) n 0) (Cert.Math.at2 ((dat6 V c).A 2))
          (fun e => Cert.Math.at2 ((dat6 V c).A 3) 0 e) g e := by
  rw [arr6_4]
  rfl

end Region6

end Cert.KernelIdeal.Hand

end
-- ==== Proof.KI.ValPool13.lean ====
import proofs.«413302_j72232759984513_1_alg».proof.Proof.KI.RegPool13
import proofs.«413302_j72232759984513_1_alg».proof.Proof.Math.Spec
import proofs.«413302_j72232759984513_1_alg».proof.Proof.Math.Tiles
import proofs.«413302_j72232759984513_1_alg».proof.Proof.Math.Consts
import Idealize.ShloMosaic.Lib.ValueIdx
import Idealize.ShloMosaic.Lib.Pipeline.Value
import Idealize.ShloMosaic.Lib.ValueLayout
import Idealize.ShloMosaic.Lib.KernelVsHost
import Idealize.ShloMosaic.PureOps.Ideal.Laws

set_option maxRecDepth 16384

noncomputable section

namespace Cert.KernelIdeal.Hand

open Idealize.ShloMosaic Idealize.ShloMosaic.TcCoe Idealize.SL.Sem
open Idealize.ShloMosaic.ValueIdx
open Idealize.ShloMosaic.Pipeline (Dat)
open Cert.KernelIdeal Cert.KernelIdeal.Gen

/-! # Region 13, the value half: the pooling kernel's output array

At the ideal values the kernel's one-hot product adds, per segment, the rows of the point's block that the segment words
assign to it; over the ten points the accumulators therefore hold the segments' sums and counts over all hundred thousand
rows (the tiles enumerate the rows), and the last point's epilogue divides, multiplies by the weights and adds the bias:
the embedding of the segments' mean rows. -/

/-! ## The three products of the pooling kernel at an index -/

theorem lhs13_dot_S10000x256_S10000x128_S256x128_0_0_1_1_n_n_1 (i : S256x128.Idx) (q : dot_S10000x256_S10000x128_S256x128_0_0_1_1_n_n.contr.Idx) :
    (dot_S10000x256_S10000x128_S256x128_0_0_1_1_n_n.lhsIdx i q 1).val = (i 0).val := by
  unfold DotDims.lhsIdx
  rw [dif_neg (show ¬(1 : Fin S10000x256.rank) ∈ dot_S10000x256_S10000x128_S256x128_0_0_1_1_n_n.lhsBatch by decide), dif_pos (show (1 : Fin S10000x256.rank) ∈ dot_S10000x256_S10000x128_S256x128_0_0_1_1_n_n.lhsNonContracting by decide)]
  rfl
theorem lhs13_dot_S10000x256_S10000x128_S256x128_0_0_1_1_n_n_0 (i : S256x128.Idx) (q : dot_S10000x256_S10000x128_S256x128_0_0_1_1_n_n.contr.Idx) :
    (dot_S10000x256_S10000x128_S256x128_0_0_1_1_n_n.lhsIdx i q 0).val = (q ⟨0, by decide⟩).val :=
  dot_S10000x256_S10000x128_S256x128_0_0_1_1_n_n.lhsIdx_val_of_single rfl i q
theorem rhs13_dot_S10000x256_S10000x128_S256x128_0_0_1_1_n_n_0 (i : S256x128.Idx) (q : dot_S10000x256_S10000x128_S256x128_0_0_1_1_n_n.contr.Idx) :
    (dot_S10000x256_S10000x128_S256x128_0_0_1_1_n_n.rhsIdx i q 0).val = (q ⟨0, by decide⟩).val :=
  dot_S10000x256_S10000x128_S256x128_0_0_1_1_n_n.rhsIdx_val_of_single rfl i q
theorem rhs13_dot_S10000x256_S10000x128_S256x128_0_0_1_1_n_n_1 (i : S256x128.Idx) (q : dot_S10000x256_S10000x128_S256x128_0_0_1_1_n_n.contr.Idx) :
    (dot_S10000x256_S10000x128_S256x128_0_0_1_1_n_n.rhsIdx i q 1).val = (i 1).val := by
  unfold DotDims.rhsIdx
  rw [dif_neg (show ¬(1 : Fin S10000x128.rank) ∈ dot_S10000x256_S10000x128_S256x128_0_0_1_1_n_n.rhsBatch by decide), dif_pos (show (1 : Fin S10000x128.rank) ∈ dot_S10000x256_S10000x128_S256x128_0_0_1_1_n_n.rhsNonContracting by decide)]
  rfl

theorem lhs13_dot_S10000x256_S10000x1_S256x1_0_0_1_1_n_n_1 (i : S256x1.Idx) (q : dot_S10000x256_S10000x1_S256x1_0_0_1_1_n_n.contr.Idx) :
    (dot_S10000x256_S10000x1_S256x1_0_0_1_1_n_n.lhsIdx i q 1).val = (i 0).val := by
  unfold DotDims.lhsIdx
  rw [dif_neg (show ¬(1 : Fin S10000x256.rank) ∈ dot_S10000x256_S10000x1_S256x1_0_0_1_1_n_n.lhsBatch by decide), dif_pos (show (1 : Fin S10000x256.rank) ∈ dot_S10000x256_S10000x1_S256x1_0_0_1_1_n_n.lhsNonContracting by decide)]
  rfl
theorem lhs13_dot_S10000x256_S10000x1_S256x1_0_0_1_1_n_n_0 (i : S256x1.Idx) (q : dot_S10000x256_S10000x1_S256x1_0_0_1_1_n_n.contr.Idx) :
    (dot_S10000x256_S10000x1_S256x1_0_0_1_1_n_n.lhsIdx i q 0).val = (q ⟨0, by decide⟩).val :=
  dot_S10000x256_S10000x1_S256x1_0_0_1_1_n_n.lhsIdx_val_of_single rfl i q
theorem rhs13_dot_S10000x256_S10000x1_S256x1_0_0_1_1_n_n_0 (i : S256x1.Idx) (q : dot_S10000x256_S10000x1_S256x1_0_0_1_1_n_n.contr.Idx) :
    (dot_S10000x256_S10000x1_S256x1_0_0_1_1_n_n.rhsIdx i q 0).val = (q ⟨0, by decide⟩).val :=
  dot_S10000x256_S10000x1_S256x1_0_0_1_1_n_n.rhsIdx_val_of_single rfl i q
theorem rhs13_dot_S10000x256_S10000x1_S256x1_0_0_1_1_n_n_1 (i : S256x1.Idx) (q : dot_S10000x256_S10000x1_S256x1_0_0_1_1_n_n.contr.Idx) :
    (dot_S10000x256_S10000x1_S256x1_0_0_1_1_n_n.rhsIdx i q 1).val = (i 1).val := by
  unfold DotDims.rhsIdx
  rw [dif_neg (show ¬(1 : Fin S10000x1.rank) ∈ dot_S10000x256_S10000x1_S256x1_0_0_1_1_n_n.rhsBatch by decide), dif_pos (show (1 : Fin S10000x1.rank) ∈ dot_S10000x256_S10000x1_S256x1_0_0_1_1_n_n.rhsNonContracting by decide)]
  rfl

theorem lhs13_dot_S256x128_S128x64_S256x64_1_0_0_1_n_n_0 (i : S256x64.Idx) (q : dot_S256x128_S128x64_S256x64_1_0_0_1_n_n.contr.Idx) :
    (dot_S256x128_S128x64_S256x64_1_0_0_1_n_n.lhsIdx i q 0).val = (i 0).val := by
  unfold DotDims.lhsIdx
  rw [dif_neg (show ¬(0 : Fin S256x128.rank) ∈ dot_S256x128_S128x64_S256x64_1_0_0_1_n_n.lhsBatch by decide), dif_pos (show (0 : Fin S256x128.rank) ∈ dot_S256x128_S128x64_S256x64_1_0_0_1_n_n.lhsNonContracting by decide)]
  rfl
theorem lhs13_dot_S256x128_S128x64_S256x64_1_0_0_1_n_n_1 (i : S256x64.Idx) (q : dot_S256x128_S128x64_S256x64_1_0_0_1_n_n.contr.Idx) :
    (dot_S256x128_S128x64_S256x64_1_0_0_1_n_n.lhsIdx i q 1).val = (q ⟨0, by decide⟩).val :=
  dot_S256x128_S128x64_S256x64_1_0_0_1_n_n.lhsIdx_val_of_single rfl i q
theorem rhs13_dot_S256x128_S128x64_S256x64_1_0_0_1_n_n_0 (i : S256x64.Idx) (q : dot_S256x128_S128x64_S256x64_1_0_0_1_n_n.contr.Idx) :
    (dot_S256x128_S128x64_S256x64_1_0_0_1_n_n.rhsIdx i q 0).val = (q ⟨0, by decide⟩).val :=
  dot_S256x128_S128x64_S256x64_1_0_0_1_n_n.rhsIdx_val_of_single rfl i q
theorem rhs13_dot_S256x128_S128x64_S256x64_1_0_0_1_n_n_1 (i : S256x64.Idx) (q : dot_S256x128_S128x64_S256x64_1_0_0_1_n_n.contr.Idx) :
    (dot_S256x128_S128x64_S256x64_1_0_0_1_n_n.rhsIdx i q 1).val = (i 1).val := by
  unfold DotDims.rhsIdx
  rw [dif_neg (show ¬(1 : Fin S128x64.rank) ∈ dot_S256x128_S128x64_S256x64_1_0_0_1_n_n.rhsBatch by decide), dif_pos (show (1 : Fin S128x64.rank) ∈ dot_S256x128_S128x64_S256x64_1_0_0_1_n_n.rhsNonContracting by decide)]
  rfl

/-- The one-hot matrix at (r, g): one where row r's segment word names segment g, zero elsewhere. -/
theorem pay3_13_apply (v5 : Vec Ideal S10000x1 .i32) (r : Fin 10000) (g : Fin 256) :
    k13_pay3 (F := Ideal) v5 (ix2 r g) = if v5 (ix2 r 0) = BitVec.ofNat 32 g.val then (1 : EReal) else 0 := by
  unfold k13_pay3
  simp only [sitofp_apply, extui_apply, shapeCast_self]
  have hb : broadcastTo S10000x256 v5 broadcasts_S10000x1_S10000x256 (ix2 r g) = v5 (ix2 r 0) :=
    broadcastTo_apply v5 _ (ix2 r g) (ix2 r 0) (fun a => by
      match a with
      | ⟨0, _⟩ => rfl
      | ⟨1, _⟩ => rfl)
  have hi : iota .tc S10000x256 32 [1] iota_S10000x256_d1_w32 (ix2 r g) = BitVec.ofNat 32 g.val := by
    show BitVec.ofNat 32 (0 * 256 + g.val) = _
    rw [Nat.zero_mul, Nat.zero_add]
  show ((((BitVec.setWidth 32 (IntOp.cmpi .eq (iota .tc S10000x256 32 [1] iota_S10000x256_d1_w32 (ix2 r g)) (broadcastTo S10000x256 v5 broadcasts_S10000x1_S10000x256 (ix2 r g)))).toInt : ℤ) : ℝ) : EReal) = _
  rw [toInt_setWidth_bit, hb, hi]
  by_cases h : v5 (ix2 r 0) = BitVec.ofNat 32 g.val
  · rw [if_pos h, h]; simp [IntOp.cmpi]
  · rw [if_neg h]
    have hne : (BitVec.ofNat 32 g.val == v5 (ix2 r 0)) = false := by
      rw [beq_eq_false_iff_ne]; exact fun e => h e.symm
    simp [IntOp.cmpi, hne]

/-- The sums' product at (g, c): the sum over the block's rows. -/
theorem matmulA13_apply (x : FVec Ideal S10000x256 .f32) (w : FVec Ideal S10000x128 .f32) (g : Fin 256) (c : Fin 128) :
    matmul dot_S10000x256_S10000x128_S256x128_0_0_1_1_n_n none x w (constant S256x128 .f32 0x00000000#32) (ix2 g c) = ∑ l : Fin 10000, x (ix2 l g) * w (ix2 l c) := by
  simp only [matmul]
  rw [Ideal.matmul_constant_zero_apply, ← Equiv.sum_comp (contrEquiv1 dot_S10000x256_S10000x128_S256x128_0_0_1_1_n_n 10000 rfl rfl).symm]
  refine Finset.sum_congr rfl fun l _ => ?_
  have hk := contrEquiv1_symm_val dot_S10000x256_S10000x128_S256x128_0_0_1_1_n_n 10000 rfl rfl l
  have el : dot_S10000x256_S10000x128_S256x128_0_0_1_1_n_n.lhsIdx (ix2 g c) ((contrEquiv1 dot_S10000x256_S10000x128_S256x128_0_0_1_1_n_n 10000 rfl rfl).symm l) = ix2 l g := funext fun a => Fin.ext (by
    match a with
    | ⟨0, _⟩ => exact (lhs13_dot_S10000x256_S10000x128_S256x128_0_0_1_1_n_n_0 _ _).trans hk
    | ⟨1, _⟩ => exact lhs13_dot_S10000x256_S10000x128_S256x128_0_0_1_1_n_n_1 _ _)
  have er : dot_S10000x256_S10000x128_S256x128_0_0_1_1_n_n.rhsIdx (ix2 g c) ((contrEquiv1 dot_S10000x256_S10000x128_S256x128_0_0_1_1_n_n 10000 rfl rfl).symm l) = ix2 l c := funext fun a => Fin.ext (by
    match a with
    | ⟨0, _⟩ => exact (rhs13_dot_S10000x256_S10000x128_S256x128_0_0_1_1_n_n_0 _ _).trans hk
    | ⟨1, _⟩ => exact rhs13_dot_S10000x256_S10000x128_S256x128_0_0_1_1_n_n_1 _ _)
  rw [el, er]

/-- The counts' product at (g, 0). -/
theorem matmulB13_apply (x : FVec Ideal S10000x256 .f32) (w : FVec Ideal S10000x1 .f32) (g : Fin 256) (z : Fin 1) :
    matmul dot_S10000x256_S10000x1_S256x1_0_0_1_1_n_n none x w (constant S256x1 .f32 0x00000000#32) (ix2 g z) = ∑ l : Fin 10000, x (ix2 l g) * w (ix2 l z) := by
  simp only [matmul]
  rw [Ideal.matmul_constant_zero_apply, ← Equiv.sum_comp (contrEquiv1 dot_S10000x256_S10000x1_S256x1_0_0_1_1_n_n 10000 rfl rfl).symm]
  refine Finset.sum_congr rfl fun l _ => ?_
  have hk := contrEquiv1_symm_val dot_S10000x256_S10000x1_S256x1_0_0_1_1_n_n 10000 rfl rfl l
  have el : dot_S10000x256_S10000x1_S256x1_0_0_1_1_n_n.lhsIdx (ix2 g z) ((contrEquiv1 dot_S10000x256_S10000x1_S256x1_0_0_1_1_n_n 10000 rfl rfl).symm l) = ix2 l g := funext fun a => Fin.ext (by
    match a with
    | ⟨0, _⟩ => exact (lhs13_dot_S10000x256_S10000x1_S256x1_0_0_1_1_n_n_0 _ _).trans hk
    | ⟨1, _⟩ => exact lhs13_dot_S10000x256_S10000x1_S256x1_0_0_1_1_n_n_1 _ _)
  have er : dot_S10000x256_S10000x1_S256x1_0_0_1_1_n_n.rhsIdx (ix2 g z) ((contrEquiv1 dot_S10000x256_S10000x1_S256x1_0_0_1_1_n_n 10000 rfl rfl).symm l) = ix2 l z := funext fun a => Fin.ext (by
    match a with
    | ⟨0, _⟩ => exact (rhs13_dot_S10000x256_S10000x1_S256x1_0_0_1_1_n_n_0 _ _).trans hk
    | ⟨1, _⟩ => exact rhs13_dot_S10000x256_S10000x1_S256x1_0_0_1_1_n_n_1 _ _)
  rw [el, er]

/-- The embedding's product at (g, e): the sum over the pooled row's coordinates. -/
theorem matmulC13_apply (x : FVec Ideal S256x128 .f32) (w : FVec Ideal S128x64 .f32) (g : Fin 256) (e : Fin 64) :
    matmul dot_S256x128_S128x64_S256x64_1_0_0_1_n_n none x w (constant S256x64 .f32 0x00000000#32) (ix2 g e) = ∑ l : Fin 128, x (ix2 g l) * w (ix2 l e) := by
  simp only [matmul]
  rw [Ideal.matmul_constant_zero_apply, ← Equiv.sum_comp (contrEquiv1 dot_S256x128_S128x64_S256x64_1_0_0_1_n_n 128 rfl rfl).symm]
  refine Finset.sum_congr rfl fun l _ => ?_
  have hk := contrEquiv1_symm_val dot_S256x128_S128x64_S256x64_1_0_0_1_n_n 128 rfl rfl l
  have el : dot_S256x128_S128x64_S256x64_1_0_0_1_n_n.lhsIdx (ix2 g e) ((contrEquiv1 dot_S256x128_S128x64_S256x64_1_0_0_1_n_n 128 rfl rfl).symm l) = ix2 g l := funext fun a => Fin.ext (by
    match a with
    | ⟨0, _⟩ => exact lhs13_dot_S256x128_S128x64_S256x64_1_0_0_1_n_n_0 _ _
    | ⟨1, _⟩ => exact (lhs13_dot_S256x128_S128x64_S256x64_1_0_0_1_n_n_1 _ _).trans hk)
  have er : dot_S256x128_S128x64_S256x64_1_0_0_1_n_n.rhsIdx (ix2 g e) ((contrEquiv1 dot_S256x128_S128x64_S256x64_1_0_0_1_n_n 128 rfl rfl).symm l) = ix2 l e := funext fun a => Fin.ext (by
    match a with
    | ⟨0, _⟩ => exact (rhs13_dot_S256x128_S128x64_S256x64_1_0_0_1_n_n_0 _ _).trans hk
    | ⟨1, _⟩ => exact rhs13_dot_S256x128_S128x64_S256x64_1_0_0_1_n_n_1 _ _)
  rw [el, er]

/-- The sums' accumulator after a point: what it held plus, per segment and coordinate, the sum of the block's rows
    that the segment words assign to the segment. -/
theorem pay4_13_apply (v3 : Vec Ideal S10000x128 .f32) (v5 : Vec Ideal S10000x1 .i32) (v12 : Vec Ideal S256x128 .f32) (g : Fin 256) (c : Fin 128) :
    k13_pay4 (F := Ideal) v3 v5 v12 (ix2 g c) = v12 (ix2 g c) + ∑ r : Fin 10000, (if v5 (ix2 r 0) = BitVec.ofNat 32 g.val then v3 (ix2 r c) else 0) := by
  unfold k13_pay4
  simp only [shapeCast_self, addf_apply, matmulA13_apply, pay3_13_apply, ite_mul, one_mul, zero_mul]

/-- The counts' accumulator after a point: what it held plus the number of the block's rows assigned to the segment. -/
theorem pay5_13_apply (v5 : Vec Ideal S10000x1 .i32) (v19 : Vec Ideal S256x1 .f32) (g : Fin 256) :
    k13_pay5 (F := Ideal) v5 v19 (ix2 g 0) = v19 (ix2 g 0) + ∑ r : Fin 10000, (if v5 (ix2 r 0) = BitVec.ofNat 32 g.val then (1 : EReal) else 0) := by
  unfold k13_pay5
  simp only [shapeCast_self, addf_apply, matmulB13_apply, pay3_13_apply, broadcast_apply, Scalar.ofBits, Ideal.ofBits_def, Cert.Math.ofBits_one, EReal.coe_one, mul_one]

/-- The reset values are zero. -/
theorem pay1_13_apply (i : S256x128.Idx) : k13_pay1 (F := Ideal) i = 0 := by
  unfold k13_pay1
  simp only [shapeCast_self, broadcast_apply, Scalar.ofBits, Ideal.ofBits_def, Ideal.ofBits_zero_f32]
theorem pay2_13_apply (i : S256x1.Idx) : k13_pay2 (F := Ideal) i = 0 := by
  unfold k13_pay2
  simp only [shapeCast_self, broadcast_apply, Scalar.ofBits, Ideal.ofBits_def, Ideal.ofBits_zero_f32]

/-- The epilogue at (g, e): the sums divided by the counts (at least one), times the weights, plus the bias. -/
theorem pay6_13_apply (v28 : Vec Ideal S256x128 .f32) (v29 : Vec Ideal S256x1 .f32) (v34 : Vec Ideal S128x64 .f32) (v36 : Vec Ideal S1x64 .f32) (g : Fin 256) (e : Fin 64) :
    k13_pay6 (F := Ideal) v28 v29 v34 v36 (ix2 g e) = (∑ l : Fin 128, Ideal.div (v28 (ix2 g l)) (max (v29 (ix2 g 0)) 1) * v34 (ix2 l e)) + v36 (ix2 0 e) := by
  unfold k13_pay6
  have hb1 : ∀ (x : FVec Ideal S256x1 .f32) (l : Fin 128), broadcastTo S256x128 x broadcasts_S256x1_S256x128 (ix2 g l) = x (ix2 g 0) := fun x l =>
    broadcastTo_apply x _ (ix2 g l) (ix2 g 0) (fun a => by
      match a with
      | ⟨0, _⟩ => rfl
      | ⟨1, _⟩ => rfl)
  have hb2 : ∀ (x : FVec Ideal S1x64 .f32), broadcastTo S256x64 x broadcasts_S1x64_S256x64 (ix2 g e) = x (ix2 0 e) := fun x =>
    broadcastTo_apply x _ (ix2 g e) (ix2 0 e) (fun a => by
      match a with
      | ⟨0, _⟩ => rfl
      | ⟨1, _⟩ => rfl)
  simp only [shapeCast_self, addf_apply, matmulC13_apply, divf_apply, hb1, hb2, maximumf_apply, broadcast_apply, Scalar.ofBits, Ideal.ofBits_def, Cert.Math.ofBits_one, EReal.coe_one]

/-! ## From the blocks to the arrays -/

section Region13
variable (V : (c : Dev nD) → (b : Ref sig .tc) → Buf (Elt Ideal) ((c : Thread nD τ).loc b))

/-- The printed index maps, decided over the grid: the two streamed inputs' block index is the point's number on the
    row axis; every other block index is zero. -/
theorem idx_facts13 : ∀ t : Fin cfg13.N, win13_0.index t (0 : Fin 2) = t.val ∧ win13_0.index t (1 : Fin 2) = 0
    ∧ win13_1.index t (0 : Fin 2) = t.val ∧ win13_1.index t (1 : Fin 2) = 0
    ∧ win13_2.index t (0 : Fin 2) = 0 ∧ win13_2.index t (1 : Fin 2) = 0
    ∧ win13_3.index t (0 : Fin 2) = 0 ∧ win13_3.index t (1 : Fin 2) = 0
    ∧ win13_4.index t (0 : Fin 2) = 0 ∧ win13_4.index t (1 : Fin 2) = 0 :=
  (by decide +kernel : ∀ t : Fin grid13.N, _)

/-- Row r of tile t is a row of the array. -/
theorem tile13_lt (t : Fin cfg13.N) (r : Fin 10000) : t.val * 10000 + r.val < 100000 := by
  have h1 := t.isLt; have hN : cfg13.N = 10 := N_13; have h2 := r.isLt; omega

/-- The rows' block at point t, row r, is row t · 10000 + r of the array. -/
theorem iblk13_0_apply (c : Dev nD) (t : Fin cfg13.N) (r : Fin 10000) (k : Fin 128) :
    iblk13 V c 0 t (ix2 r k) = (V c (Pipeline.arrRef spec13 0) : S100000x128.Idx → Ideal .f32) (ix2 ⟨t.val * 10000 + r.val, tile13_lt t r⟩ k) := by
  obtain ⟨e00, e01, e10, e11, e20, e21, e30, e31, e40, e41⟩ := idx_facts13 t
  show V c (Pipeline.arrRef spec13 0) (((cfg13.win 0).blk t).view.emb (ix2 r k)) = _
  refine congrArg _ (funext fun a => Fin.ext ?_)
  match a with
  | ⟨0, _⟩ => show win13_0.index t (0 : Fin 2) * 10000 + 1 * r.val = t.val * 10000 + r.val; omega
  | ⟨1, _⟩ => show win13_0.index t (1 : Fin 2) * 128 + 1 * k.val = k.val; omega

/-- The segment words' block likewise. -/
theorem iblk13_1_apply (c : Dev nD) (t : Fin cfg13.N) (r : Fin 10000) :
    iblk13 V c 1 t (ix2 r 0) = (V c (Pipeline.arrRef spec13 1) : S100000x1.Idx → BitVec 32) (ix2 ⟨t.val * 10000 + r.val, tile13_lt t r⟩ 0) := by
  obtain ⟨e00, e01, e10, e11, e20, e21, e30, e31, e40, e41⟩ := idx_facts13 t
  show V c (Pipeline.arrRef spec13 1) (((cfg13.win 1).blk t).view.emb (ix2 r 0)) = _
  refine congrArg _ (funext fun a => Fin.ext ?_)
  match a with
  | ⟨0, _⟩ => show win13_1.index t (0 : Fin 2) * 10000 + 1 * r.val = t.val * 10000 + r.val; omega
  | ⟨1, _⟩ => show win13_1.index t (1 : Fin 2) * 1 + 1 * 0 = 0; omega

/-- The weights' and the bias's one block is the whole of its array. -/
theorem iblk13_2_eq (c : Dev nD) (t : Fin cfg13.N) :
    iblk13 V c 2 t = (V c (Pipeline.arrRef spec13 2) : S128x64.Idx → Ideal .f32) := by
  obtain ⟨e00, e01, e10, e11, e20, e21, e30, e31, e40, e41⟩ := idx_facts13 t
  funext y
  show V c (Pipeline.arrRef spec13 2) (((cfg13.win 2).blk t).view.emb y) = V c (Pipeline.arrRef spec13 2) y
  refine congrArg _ (funext fun a => Fin.ext ?_)
  match a with
  | ⟨0, _⟩ => show win13_2.index t (0 : Fin 2) * 128 + 1 * (y 0).val = (y 0).val; omega
  | ⟨1, _⟩ => show win13_2.index t (1 : Fin 2) * 64 + 1 * (y 1).val = (y 1).val; omega

theorem iblk13_3_eq (c : Dev nD) (t : Fin cfg13.N) :
    iblk13 V c 3 t = (V c (Pipeline.arrRef spec13 3) : S1x64.Idx → Ideal .f32) := by
  obtain ⟨e00, e01, e10, e11, e20, e21, e30, e31, e40, e41⟩ := idx_facts13 t
  funext y
  show V c (Pipeline.arrRef spec13 3) (((cfg13.win 3).blk t).view.emb y) = V c (Pipeline.arrRef spec13 3) y
  refine congrArg _ (funext fun a => Fin.ext ?_)
  match a with
  | ⟨0, _⟩ => show win13_3.index t (0 : Fin 2) * 1 + 1 * (y 0).val = (y 0).val; omega
  | ⟨1, _⟩ => show win13_3.index t (1 : Fin 2) * 64 + 1 * (y 1).val = (y 1).val; omega

/-! ## The accumulation, at an index -/

/-- Point s's contribution to the sums at (g, k): the rows of its block whose segment word names g, added up. -/
def tileSum13 (c : Dev nD) (g : Fin 256) (k : Fin 128) (s : ℕ) : EReal :=
  if h : s < cfg13.N then ∑ r : Fin 10000, (if iblk13 V c 1 ⟨s, h⟩ (ix2 r 0) = BitVec.ofNat 32 g.val then iblk13 V c 0 ⟨s, h⟩ (ix2 r k) else 0) else 0

/-- Point s's contribution to the counts at g: the number of rows of its block whose segment word names g. -/
def tileCnt13 (c : Dev nD) (g : Fin 256) (s : ℕ) : EReal :=
  if h : s < cfg13.N then ∑ r : Fin 10000, (if iblk13 V c 1 ⟨s, h⟩ (ix2 r 0) = BitVec.ofNat 32 g.val then (1 : EReal) else 0) else 0

/-- After point n the sums hold the contributions of points 0 … n. -/
theorem acc13_sum (c : Dev nD) (g : Fin 256) (k : Fin 128) : ∀ (n : ℕ) (hn : n < cfg13.N),
    (acc13 V c n hn).1 (ix2 g k) = ∑ s ∈ Finset.range (n + 1), tileSum13 V c g k s
  | 0, hn => by
    show k13_pay4 (F := Ideal) (iblk13 V c 0 ⟨0, hn⟩) (iblk13 V c 1 ⟨0, hn⟩) (k13_pay1 (F := Ideal)) (ix2 g k) = _
    rw [pay4_13_apply, pay1_13_apply, zero_add, Finset.sum_range_one]
    unfold tileSum13; rw [dif_pos hn]
  | n + 1, hn => by
    show k13_pay4 (F := Ideal) (iblk13 V c 0 ⟨n + 1, hn⟩) (iblk13 V c 1 ⟨n + 1, hn⟩) (acc13 V c n (Nat.lt_of_succ_lt hn)).1 (ix2 g k) = _
    rw [pay4_13_apply, acc13_sum c g k n (Nat.lt_of_succ_lt hn), Finset.sum_range_succ _ (n + 1)]
    congr 1
    unfold tileSum13; rw [dif_pos hn]

/-- After point n the counts hold the contributions of points 0 … n. -/
theorem acc13_cnt (c : Dev nD) (g : Fin 256) : ∀ (n : ℕ) (hn : n < cfg13.N),
    (acc13 V c n hn).2 (ix2 g 0) = ∑ s ∈ Finset.range (n + 1), tileCnt13 V c g s
  | 0, hn => by
    show k13_pay5 (F := Ideal) (iblk13 V c 1 ⟨0, hn⟩) (k13_pay2 (F := Ideal)) (ix2 g 0) = _
    rw [pay5_13_apply, pay2_13_apply, zero_add, Finset.sum_range_one]
    unfold tileCnt13; rw [dif_pos hn]
  | n + 1, hn => by
    show k13_pay5 (F := Ideal) (iblk13 V c 1 ⟨n + 1, hn⟩) (acc13 V c n (Nat.lt_of_succ_lt hn)).2 (ix2 g 0) = _
    rw [pay5_13_apply, acc13_cnt c g n (Nat.lt_of_succ_lt hn), Finset.sum_range_succ _ (n + 1)]
    congr 1
    unfold tileCnt13; rw [dif_pos hn]

/-- The ten points' contributions are the segment's sum over all the rows: the tiles enumerate the rows. -/
theorem sum_tileSum13 (c : Dev nD) (g : Fin 256) (k : Fin 128) :
    ∑ s ∈ Finset.range 10, tileSum13 V c g k s
      = Cert.Math.segSum (fun n j => (V c (Pipeline.arrRef spec13 0) : S100000x128.Idx → Ideal .f32) (ix2 n j))
          (fun n => (V c (Pipeline.arrRef spec13 1) : S100000x1.Idx → BitVec 32) (ix2 n 0)) g k := by
  unfold Cert.Math.segSum
  rw [← Cert.Math.sum_tiles, Finset.sum_range]
  refine Finset.sum_congr rfl fun t _ => ?_
  have ht : t.val < cfg13.N := lt_of_lt_of_eq t.isLt N_13.symm
  unfold tileSum13; rw [dif_pos ht]
  refine Finset.sum_congr rfl fun r _ => ?_
  rw [iblk13_0_apply, iblk13_1_apply]

theorem sum_tileCnt13 (c : Dev nD) (g : Fin 256) :
    ∑ s ∈ Finset.range 10, tileCnt13 V c g s
      = Cert.Math.segCnt (fun n => (V c (Pipeline.arrRef spec13 1) : S100000x1.Idx → BitVec 32) (ix2 n 0)) g := by
  unfold Cert.Math.segCnt
  rw [← Cert.Math.sum_tiles, Finset.sum_range]
  refine Finset.sum_congr rfl fun t _ => ?_
  have ht : t.val < cfg13.N := lt_of_lt_of_eq t.isLt N_13.symm
  unfold tileCnt13; rw [dif_pos ht]
  refine Finset.sum_congr rfl fun r _ => ?_
  rw [iblk13_1_apply]

/-! ## From the last point's write-back to the array -/

/-- The closed form: the output array as one function of the four input arrays, index by index — the embedding of the
    mean rows of the segments. -/
def emb13 (a0 : S100000x128.Idx → Ideal .f32) (a1 : S100000x1.Idx → BitVec 32) (a2 : S128x64.Idx → Ideal .f32) (a3 : S1x64.Idx → Ideal .f32) : S256x64.Idx → Ideal .f32 :=
  fun i => Cert.Math.embed (fun n j => a0 (ix2 n j)) (fun n => a1 (ix2 n 0)) (fun l e => a2 (ix2 l e)) (fun e => a3 (ix2 0 e)) (i 0) (i 1)

set_option maxHeartbeats 4000000 in
/-- What the last point writes back is the block of the closed form of the arrays as the region finds them: the
    accumulators then hold all ten points' contributions, which are the segments' sums and counts over all the rows. -/
theorem flushed13_4_eq (c : Dev nD) (t : Fin cfg13.N) (hfl : (cfg13.win 4).flush t = true) :
    (dat13 (F := Ideal) V c).flushed 4 t = ((cfg13.win 4).blk t).view.read (Elt Ideal) (emb13 (V c (Pipeline.arrRef spec13 0)) (V c (Pipeline.arrRef spec13 1)) (V c (Pipeline.arrRef spec13 2)) (V c (Pipeline.arrRef spec13 3))) := by
  have h9 : t.val = 9 := by
    have h0 := (flush13_4 t).mp hfl; have h1 := t.isLt; have hN : cfg13.N = 10 := N_13; omega
  show (cfg13.win 4).cut (grid13.coords t) ((dat13 V c).after 4 t) = _
  rw [after13_4]
  unfold out13_4
  rw [iblk13_2_eq, iblk13_3_eq]
  obtain ⟨e00, e01, e10, e11, e20, e21, e30, e31, e40, e41⟩ := idx_facts13 t
  funext j
  obtain ⟨g, e, rfl⟩ : ∃ (g : Fin 256) (e : Fin 64), j = ix2 g e := ⟨j 0, j 1, eq_ix2 j⟩
  show k13_pay6 (F := Ideal) (acc13 V c t.val t.isLt).1 (acc13 V c t.val t.isLt).2 (V c (Pipeline.arrRef spec13 2)) (V c (Pipeline.arrRef spec13 3)) (ix2 g e)
    = emb13 (V c (Pipeline.arrRef spec13 0)) (V c (Pipeline.arrRef spec13 1)) (V c (Pipeline.arrRef spec13 2)) (V c (Pipeline.arrRef spec13 3)) (((cfg13.win 4).blk t).view.emb (ix2 g e))
  rw [pay6_13_apply]
  have hemb0 : (((cfg13.win 4).blk t).view.emb (ix2 g e) : S256x64.Idx) 0 = g :=
    Fin.ext (by show win13_4.index t (0 : Fin 2) * 256 + 1 * g.val = g.val; omega)
  have hemb1 : (((cfg13.win 4).blk t).view.emb (ix2 g e) : S256x64.Idx) 1 = e :=
    Fin.ext (by show win13_4.index t (1 : Fin 2) * 64 + 1 * e.val = e.val; omega)
  unfold emb13
  rw [hemb0, hemb1]
  unfold Cert.Math.embed Cert.Math.lin Cert.Math.pooled
  have hs : ∀ l : Fin 128, (acc13 V c t.val t.isLt).1 (ix2 g l) = Cert.Math.segSum (fun n j => (V c (Pipeline.arrRef spec13 0) : S100000x128.Idx → Ideal .f32) (ix2 n j)) (fun n => (V c (Pipeline.arrRef spec13 1) : S100000x1.Idx → BitVec 32) (ix2 n 0)) g l := fun l => by
    rw [acc13_sum, h9]; exact sum_tileSum13 V c g l
  have hc : (acc13 V c t.val t.isLt).2 (ix2 g 0) = Cert.Math.segCnt (fun n => (V c (Pipeline.arrRef spec13 1) : S100000x1.Idx → BitVec 32) (ix2 n 0)) g := by
    rw [acc13_cnt, h9]; exact sum_tileCnt13 V c g
  simp only [hs, hc]

/-- An index of the output array is in point t's block iff each coordinate is in the block's range on its axis. -/
theorem mem_blk13_4 (t : Fin cfg13.N) (i : S256x64.Idx) :
    i ∈ ((cfg13.win 4).blk t).view.set ↔ ∀ a : Fin 2, win13_4.index t a * S256x64.size a ≤ (i a).val ∧ (i a).val < win13_4.index t a * S256x64.size a + S256x64.size a := by
  show i ∈ ((View.whole main_v163).slice (win13_4.rect t)).set ↔ _
  rw [View.set_slice_whole, Rect.mem_set_unit]
  exact Iff.rfl

/-- The last point's block covers the output array. -/
theorem covered13_4 (i : S256x64.Idx) : ∃ t : Fin cfg13.N, (cfg13.win 4).flush t = true ∧ i ∈ ((cfg13.win 4).blk t).view.set := by
  refine ⟨t13_9, (flush13_4 t13_9).mpr rfl, ?_⟩
  obtain ⟨e00, e01, e10, e11, e20, e21, e30, e31, e40, e41⟩ := idx_facts13 t13_9
  rw [mem_blk13_4]
  intro a
  have h0 : (i 0).val < 256 := (i 0).isLt
  have h1 : (i 1).val < 64 := (i 1).isLt
  match a with
  | ⟨0, _⟩ => show win13_4.index t13_9 (0 : Fin 2) * 256 ≤ (i 0).val ∧ (i 0).val < win13_4.index t13_9 (0 : Fin 2) * 256 + 256; omega
  | ⟨1, _⟩ => show win13_4.index t13_9 (1 : Fin 2) * 64 ≤ (i 1).val ∧ (i 1).val < win13_4.index t13_9 (1 : Fin 2) * 64 + 64; omega

/-- The output array after the region is the closed form of the arrays as the region finds them. -/
theorem arr13_4 (c : Dev nD) : (dat13 (F := Ideal) V c).arrAt 4 cfg13.N = emb13 (V c (Pipeline.arrRef spec13 0)) (V c (Pipeline.arrRef spec13 1)) (V c (Pipeline.arrRef spec13 2)) (V c (Pipeline.arrRef spec13 3)) :=
  (dat13 V c).arrAt_eq_of_cover 4 _ (fun t hfl => flushed13_4_eq V c t hfl) covered13_4

/-- The output array after the region, index by index, in the shared vocabulary: the embedding of the segments' mean
    rows, from the proof data's arrays. -/
theorem val13 (c : Dev nD) (g : Fin 256) (e : Fin 64) :
    (dat13 (F := Ideal) V c).arrAt 4 cfg13.N (ix2 g e)
      = Cert.Math.embed (Cert.Math.at2 ((dat13 V c).A 0)) (fun n => Cert.Math.at2 ((dat13 V c).A 1) n 0) (Cert.Math.at2 ((dat13 V c).A 2))
          (fun e => Cert.Math.at2 ((dat13 V c).A 3) 0 e) g e := by
  rw [arr13_4]
  rfl

end Region13

end Cert.KernelIdeal.Hand

end
-- ==== Proof.KI.ValCls14.lean ====
import proofs.«413302_j72232759984513_1_alg».proof.Proof.KI.RegCls14
import proofs.«413302_j72232759984513_1_alg».proof.Proof.Math.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.SL.Sem
open Idealize.ShloMosaic.ValueIdx
open Idealize.ShloMosaic.Pipeline (Dat)
open Cert.KernelIdeal Cert.KernelIdeal.Gen

/-! ## The two products of the classifier at an index -/

theorem lhs_dot_S256x64_S64x64_S256x64_1_0_0_1_n_n_0 (i : S256x64.Idx) (q : dot_S256x64_S64x64_S256x64_1_0_0_1_n_n.contr.Idx) :
    (dot_S256x64_S64x64_S256x64_1_0_0_1_n_n.lhsIdx i q 0).val = (i 0).val := by
  unfold DotDims.lhsIdx
  rw [dif_neg (show ¬(0 : Fin S256x64.rank) ∈ dot_S256x64_S64x64_S256x64_1_0_0_1_n_n.lhsBatch by decide), dif_pos (show (0 : Fin S256x64.rank) ∈ dot_S256x64_S64x64_S256x64_1_0_0_1_n_n.lhsNonContracting by decide)]
  rfl
theorem lhs_dot_S256x64_S64x64_S256x64_1_0_0_1_n_n_1 (i : S256x64.Idx) (q : dot_S256x64_S64x64_S256x64_1_0_0_1_n_n.contr.Idx) :
    (dot_S256x64_S64x64_S256x64_1_0_0_1_n_n.lhsIdx i q 1).val = (q ⟨0, by decide⟩).val :=
  dot_S256x64_S64x64_S256x64_1_0_0_1_n_n.lhsIdx_val_of_single rfl i q
theorem rhs_dot_S256x64_S64x64_S256x64_1_0_0_1_n_n_0 (i : S256x64.Idx) (q : dot_S256x64_S64x64_S256x64_1_0_0_1_n_n.contr.Idx) :
    (dot_S256x64_S64x64_S256x64_1_0_0_1_n_n.rhsIdx i q 0).val = (q ⟨0, by decide⟩).val :=
  dot_S256x64_S64x64_S256x64_1_0_0_1_n_n.rhsIdx_val_of_single rfl i q
theorem rhs_dot_S256x64_S64x64_S256x64_1_0_0_1_n_n_1 (i : S256x64.Idx) (q : dot_S256x64_S64x64_S256x64_1_0_0_1_n_n.contr.Idx) :
    (dot_S256x64_S64x64_S256x64_1_0_0_1_n_n.rhsIdx i q 1).val = (i 1).val := by
  unfold DotDims.rhsIdx
  rw [dif_neg (show ¬(1 : Fin S64x64.rank) ∈ dot_S256x64_S64x64_S256x64_1_0_0_1_n_n.rhsBatch by decide), dif_pos (show (1 : Fin S64x64.rank) ∈ dot_S256x64_S64x64_S256x64_1_0_0_1_n_n.rhsNonContracting by decide)]
  rfl

theorem lhs_dot_S256x64_S64x1_S256x1_1_0_0_1_n_n_0 (i : S256x1.Idx) (q : dot_S256x64_S64x1_S256x1_1_0_0_1_n_n.contr.Idx) :
    (dot_S256x64_S64x1_S256x1_1_0_0_1_n_n.lhsIdx i q 0).val = (i 0).val := by
  unfold DotDims.lhsIdx
  rw [dif_neg (show ¬(0 : Fin S256x64.rank) ∈ dot_S256x64_S64x1_S256x1_1_0_0_1_n_n.lhsBatch by decide), dif_pos (show (0 : Fin S256x64.rank) ∈ dot_S256x64_S64x1_S256x1_1_0_0_1_n_n.lhsNonContracting by decide)]
  rfl
theorem lhs_dot_S256x64_S64x1_S256x1_1_0_0_1_n_n_1 (i : S256x1.Idx) (q : dot_S256x64_S64x1_S256x1_1_0_0_1_n_n.contr.Idx) :
    (dot_S256x64_S64x1_S256x1_1_0_0_1_n_n.lhsIdx i q 1).val = (q ⟨0, by decide⟩).val :=
  dot_S256x64_S64x1_S256x1_1_0_0_1_n_n.lhsIdx_val_of_single rfl i q
theorem rhs_dot_S256x64_S64x1_S256x1_1_0_0_1_n_n_0 (i : S256x1.Idx) (q : dot_S256x64_S64x1_S256x1_1_0_0_1_n_n.contr.Idx) :
    (dot_S256x64_S64x1_S256x1_1_0_0_1_n_n.rhsIdx i q 0).val = (q ⟨0, by decide⟩).val :=
  dot_S256x64_S64x1_S256x1_1_0_0_1_n_n.rhsIdx_val_of_single rfl i q
theorem rhs_dot_S256x64_S64x1_S256x1_1_0_0_1_n_n_1 (i : S256x1.Idx) (q : dot_S256x64_S64x1_S256x1_1_0_0_1_n_n.contr.Idx) :
    (dot_S256x64_S64x1_S256x1_1_0_0_1_n_n.rhsIdx i q 1).val = (i 1).val := by
  unfold DotDims.rhsIdx
  rw [dif_neg (show ¬(1 : Fin S64x1.rank) ∈ dot_S256x64_S64x1_S256x1_1_0_0_1_n_n.rhsBatch by decide), dif_pos (show (1 : Fin S64x1.rank) ∈ dot_S256x64_S64x1_S256x1_1_0_0_1_n_n.rhsNonContracting by decide)]
  rfl

/-- The first product at (g, k): the sum over the contracted coordinate. -/
theorem clsMatmul1_apply (x : FVec Ideal S256x64 .f32) (w : FVec Ideal S64x64 .f32) (g : Fin 256) (k : Fin 64) :
    matmul dot_S256x64_S64x64_S256x64_1_0_0_1_n_n none x w (constant S256x64 .f32 0x00000000#32) (ix2 g k) = ∑ l : Fin 64, x (ix2 g l) * w (ix2 l k) := by
  simp only [matmul]
  rw [Ideal.matmul_constant_zero_apply, ← Equiv.sum_comp (contrEquiv1 dot_S256x64_S64x64_S256x64_1_0_0_1_n_n 64 rfl rfl).symm]
  refine Finset.sum_congr rfl fun l _ => ?_
  have hk := contrEquiv1_symm_val dot_S256x64_S64x64_S256x64_1_0_0_1_n_n 64 rfl rfl l
  have el : dot_S256x64_S64x64_S256x64_1_0_0_1_n_n.lhsIdx (ix2 g k) ((contrEquiv1 dot_S256x64_S64x64_S256x64_1_0_0_1_n_n 64 rfl rfl).symm l) = ix2 g l := funext fun a => Fin.ext (by
    match a with
    | ⟨0, _⟩ => exact lhs_dot_S256x64_S64x64_S256x64_1_0_0_1_n_n_0 _ _
    | ⟨1, _⟩ => exact (lhs_dot_S256x64_S64x64_S256x64_1_0_0_1_n_n_1 _ _).trans hk)
  have er : dot_S256x64_S64x64_S256x64_1_0_0_1_n_n.rhsIdx (ix2 g k) ((contrEquiv1 dot_S256x64_S64x64_S256x64_1_0_0_1_n_n 64 rfl rfl).symm l) = ix2 l k := funext fun a => Fin.ext (by
    match a with
    | ⟨0, _⟩ => exact (rhs_dot_S256x64_S64x64_S256x64_1_0_0_1_n_n_0 _ _).trans hk
    | ⟨1, _⟩ => exact rhs_dot_S256x64_S64x64_S256x64_1_0_0_1_n_n_1 _ _)
  rw [el, er]

/-- The second product at (g, 0). -/
theorem clsMatmul2_apply (x : FVec Ideal S256x64 .f32) (w : FVec Ideal S64x1 .f32) (g : Fin 256) (z : Fin 1) :
    matmul dot_S256x64_S64x1_S256x1_1_0_0_1_n_n none x w (constant S256x1 .f32 0x00000000#32) (ix2 g z) = ∑ k : Fin 64, x (ix2 g k) * w (ix2 k z) := by
  simp only [matmul]
  rw [Ideal.matmul_constant_zero_apply, ← Equiv.sum_comp (contrEquiv1 dot_S256x64_S64x1_S256x1_1_0_0_1_n_n 64 rfl rfl).symm]
  refine Finset.sum_congr rfl fun l _ => ?_
  have hk := contrEquiv1_symm_val dot_S256x64_S64x1_S256x1_1_0_0_1_n_n 64 rfl rfl l
  have el : dot_S256x64_S64x1_S256x1_1_0_0_1_n_n.lhsIdx (ix2 g z) ((contrEquiv1 dot_S256x64_S64x1_S256x1_1_0_0_1_n_n 64 rfl rfl).symm l) = ix2 g l := funext fun a => Fin.ext (by
    match a with
    | ⟨0, _⟩ => exact lhs_dot_S256x64_S64x1_S256x1_1_0_0_1_n_n_0 _ _
    | ⟨1, _⟩ => exact (lhs_dot_S256x64_S64x1_S256x1_1_0_0_1_n_n_1 _ _).trans hk)
  have er : dot_S256x64_S64x1_S256x1_1_0_0_1_n_n.rhsIdx (ix2 g z) ((contrEquiv1 dot_S256x64_S64x1_S256x1_1_0_0_1_n_n 64 rfl rfl).symm l) = ix2 l z := funext fun a => Fin.ext (by
    match a with
    | ⟨0, _⟩ => exact (rhs_dot_S256x64_S64x1_S256x1_1_0_0_1_n_n_0 _ _).trans hk
    | ⟨1, _⟩ => exact rhs_dot_S256x64_S64x1_S256x1_1_0_0_1_n_n_1 _ _)
  rw [el, er]

/-- The row broadcast [1,64] → [256,64] at (g, k) reads (0, k). -/
theorem bcast_row_apply (x : FVec Ideal S1x64 .f32) (g : Fin 256) (k : Fin 64) :
    broadcastTo S256x64 x broadcasts_S1x64_S256x64 (ix2 g k) = x (ix2 0 k) :=
  broadcastTo_apply x _ (ix2 g k) (ix2 0 k) (fun a => by
    match a with
    | ⟨0, _⟩ => rfl
    | ⟨1, _⟩ => rfl)

/-- The scalar broadcast [1,1] → [256,1] at (g, 0) reads (0, 0). -/
theorem bcast_one_apply (x : FVec Ideal S1x1 .f32) (g : Fin 256) (z : Fin 1) :
    broadcastTo S256x1 x broadcasts_S1x1_S256x1 (ix2 g z) = x (ix2 0 0) :=
  broadcastTo_apply x _ (ix2 g z) (ix2 0 0) (fun a => by
    match a with
    | ⟨0, _⟩ => rfl
    | ⟨1, _⟩ => rfl)

theorem logistic_apply' {s : Shape} {φ : FTy} (a : FVec Ideal s φ) (i : s.Idx) : logistic a i = Ideal.logistic (a i) := rfl
theorem absf_apply' {s : Shape} {φ : FTy} (a : FVec Ideal s φ) (i : s.Idx) : absf a i = max (a i) (-(a i)) := rfl

/-- The classifier's payload at row g: the logistic of the second layer applied to the rectified first layer of the
    absolute difference of the two inputs. -/
theorem pay14_apply (v0 v2 : Vec Ideal S256x64 .f32) (v6 : Vec Ideal S64x64 .f32) (v8 : Vec Ideal S1x64 .f32) (v14 : Vec Ideal S64x1 .f32) (v16 : Vec Ideal S1x1 .f32) (g : Fin 256) :
    k14_pay1 (F := Ideal) v0 v2 v6 v8 v14 v16 (ix2 g 0) =
      Ideal.logistic ((∑ k : Fin 64, max ((∑ l : Fin 64, max (v0 (ix2 g l) - v2 (ix2 g l)) (-(v0 (ix2 g l) - v2 (ix2 g l))) * v6 (ix2 l k)) + v8 (ix2 0 k)) 0 * v14 (ix2 k 0)) + v16 (ix2 0 0)) := by
  unfold k14_pay1
  simp only [logistic_apply', addf_apply, bcast_one_apply, bcast_row_apply, shapeCast_self, clsMatmul2_apply, clsMatmul1_apply, maximumf_apply, broadcast_apply, absf_apply', subf_apply, Scalar.ofBits, Ideal.ofBits_def, Ideal.ofBits_zero_f32]

/-! ## From the one block to the array -/

section Region14
variable (V : (c : Dev nD) → (b : Ref sig .tc) → Buf (Elt Ideal) ((c : Thread nD τ).loc b))

theorem hz14 : (![0, 0] : Fin 2 → Nat) = fun _ => 0 := funext fun a => by fin_cases a <;> rfl

/-- The closed form: the output array as one function of the six input arrays, index by index. -/
def cls14 (a0 a1 : S256x64.Idx → Ideal .f32) (a2 : S64x64.Idx → Ideal .f32) (a3 : S1x64.Idx → Ideal .f32) (a4 : S64x1.Idx → Ideal .f32) (a5 : S1x1.Idx → Ideal .f32) : S256x1.Idx → Ideal .f32 :=
  fun i => Ideal.logistic ((∑ k : Fin 64, max ((∑ l : Fin 64, max (a0 (ix2 (i 0) l) - a1 (ix2 (i 0) l)) (-(a0 (ix2 (i 0) l) - a1 (ix2 (i 0) l))) * a2 (ix2 l k)) + a3 (ix2 0 k)) 0 * a4 (ix2 k 0)) + a5 (ix2 0 0))

/-- The printed index maps, decided over the one point: every window's block index is zero on both axes. -/
theorem idx_facts14 : ∀ t : Fin cfg14.N, win14_0.index t (0 : Fin 2) = 0 ∧ win14_0.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = 0 ∧ win14_3.index t (1 : Fin 2) = 0
    ∧ win14_4.index t (0 : Fin 2) = 0 ∧ win14_4.index t (1 : Fin 2) = 0
    ∧ win14_5.index t (0 : Fin 2) = 0 ∧ win14_5.index t (1 : Fin 2) = 0
    ∧ win14_6.index t (0 : Fin 2) = 0 ∧ win14_6.index t (1 : Fin 2) = 0 :=
  (by decide +kernel : ∀ t : Fin grid14.N, _)

/-- A window's one block is the whole of its array: the block read off the array is the array. -/
theorem iblk14_0_eq (c : Dev nD) (t : Fin cfg14.N) :
    iblk14 V c 0 t = (V c (Pipeline.arrRef spec14 0) : S256x64.Idx → Ideal .f32) := by
  obtain ⟨e00, e01, e10, e11, e20, e21, e30, e31, e40, e41, e50, e51, e60, e61⟩ := idx_facts14 t
  funext y
  show V c (Pipeline.arrRef spec14 0) (((cfg14.win 0).blk t).view.emb y) = V c (Pipeline.arrRef spec14 0) y
  refine congrArg _ (funext fun a => Fin.ext ?_)
  match a with
  | ⟨0, _⟩ => show win14_0.index t (0 : Fin 2) * 256 + 1 * (y 0).val = (y 0).val; omega
  | ⟨1, _⟩ => show win14_0.index t (1 : Fin 2) * 64 + 1 * (y 1).val = (y 1).val; omega

theorem iblk14_1_eq (c : Dev nD) (t : Fin cfg14.N) :
    iblk14 V c 1 t = (V c (Pipeline.arrRef spec14 1) : S256x64.Idx → Ideal .f32) := by
  obtain ⟨e00, e01, e10, e11, e20, e21, e30, e31, e40, e41, e50, e51, e60, e61⟩ := idx_facts14 t
  funext y
  show V c (Pipeline.arrRef spec14 1) (((cfg14.win 1).blk t).view.emb y) = V c (Pipeline.arrRef spec14 1) y
  refine congrArg _ (funext fun a => Fin.ext ?_)
  match a with
  | ⟨0, _⟩ => show win14_1.index t (0 : Fin 2) * 256 + 1 * (y 0).val = (y 0).val; omega
  | ⟨1, _⟩ => show win14_1.index t (1 : Fin 2) * 64 + 1 * (y 1).val = (y 1).val; omega

theorem iblk14_2_eq (c : Dev nD) (t : Fin cfg14.N) :
    iblk14 V c 2 t = (V c (Pipeline.arrRef spec14 2) : S64x64.Idx → Ideal .f32) := by
  obtain ⟨e00, e01, e10, e11, e20, e21, e30, e31, e40, e41, e50, e51, e60, e61⟩ := idx_facts14 t
  funext y
  show V c (Pipeline.arrRef spec14 2) (((cfg14.win 2).blk t).view.emb y) = V c (Pipeline.arrRef spec14 2) y
  refine congrArg _ (funext fun a => Fin.ext ?_)
  match a with
  | ⟨0, _⟩ => show win14_2.index t (0 : Fin 2) * 64 + 1 * (y 0).val = (y 0).val; omega
  | ⟨1, _⟩ => show win14_2.index t (1 : Fin 2) * 64 + 1 * (y 1).val = (y 1).val; omega

theorem iblk14_3_eq (c : Dev nD) (t : Fin cfg14.N) :
    iblk14 V c 3 t = (V c (Pipeline.arrRef spec14 3) : S1x64.Idx → Ideal .f32) := by
  obtain ⟨e00, e01, e10, e11, e20, e21, e30, e31, e40, e41, e50, e51, e60, e61⟩ := idx_facts14 t
  funext y
  show V c (Pipeline.arrRef spec14 3) (((cfg14.win 3).blk t).view.emb y) = V c (Pipeline.arrRef spec14 3) y
  refine congrArg _ (funext fun a => Fin.ext ?_)
  match a with
  | ⟨0, _⟩ => show win14_3.index t (0 : Fin 2) * 1 + 1 * (y 0).val = (y 0).val; omega
  | ⟨1, _⟩ => show win14_3.index t (1 : Fin 2) * 64 + 1 * (y 1).val = (y 1).val; omega

theorem iblk14_4_eq (c : Dev nD) (t : Fin cfg14.N) :
    iblk14 V c 4 t = (V c (Pipeline.arrRef spec14 4) : S64x1.Idx → Ideal .f32) := by
  obtain ⟨e00, e01, e10, e11, e20, e21, e30, e31, e40, e41, e50, e51, e60, e61⟩ := idx_facts14 t
  funext y
  show V c (Pipeline.arrRef spec14 4) (((cfg14.win 4).blk t).view.emb y) = V c (Pipeline.arrRef spec14 4) y
  refine congrArg _ (funext fun a => Fin.ext ?_)
  match a with
  | ⟨0, _⟩ => show win14_4.index t (0 : Fin 2) * 64 + 1 * (y 0).val = (y 0).val; omega
  | ⟨1, _⟩ => show win14_4.index t (1 : Fin 2) * 1 + 1 * (y 1).val = (y 1).val; omega

theorem iblk14_5_eq (c : Dev nD) (t : Fin cfg14.N) :
    iblk14 V c 5 t = (V c (Pipeline.arrRef spec14 5) : S1x1.Idx → Ideal .f32) := by
  obtain ⟨e00, e01, e10, e11, e20, e21, e30, e31, e40, e41, e50, e51, e60, e61⟩ := idx_facts14 t
  funext y
  show V c (Pipeline.arrRef spec14 5) (((cfg14.win 5).blk t).view.emb y) = V c (Pipeline.arrRef spec14 5) y
  refine congrArg _ (funext fun a => Fin.ext ?_)
  match a with
  | ⟨0, _⟩ => show win14_5.index t (0 : Fin 2) * 1 + 1 * (y 0).val = (y 0).val; omega
  | ⟨1, _⟩ => show win14_5.index t (1 : Fin 2) * 1 + 1 * (y 1).val = (y 1).val; omega

set_option maxHeartbeats 1000000 in
/-- What the one point writes back is the block of the closed form of the arrays as the region finds them. -/
theorem flushed14_6_eq (c : Dev nD) (t : Fin cfg14.N) :
    (dat14 (F := Ideal) V c).flushed 6 t = ((cfg14.win 6).blk t).view.read (Elt Ideal)
      (cls14 (V c (Pipeline.arrRef spec14 0)) (V c (Pipeline.arrRef spec14 1)) (V c (Pipeline.arrRef spec14 2)) (V c (Pipeline.arrRef spec14 3)) (V c (Pipeline.arrRef spec14 4)) (V c (Pipeline.arrRef spec14 5))) := by
  show (cfg14.win 6).cut (grid14.coords t) ((dat14 V c).after 6 t) = _
  rw [after14_6]
  unfold out14_6
  rw [View.canon_unit_zero hz14]
  simp only [View.ld_unit_zero (S := S256x64) hz14, View.ld_unit_zero (S := S64x64) hz14, View.ld_unit_zero (S := S1x64) hz14, View.ld_unit_zero (S := S64x1) hz14, View.ld_unit_zero (S := S1x1) hz14]
  rw [iblk14_0_eq]
  rw [iblk14_1_eq]
  rw [iblk14_2_eq]
  rw [iblk14_3_eq]
  rw [iblk14_4_eq]
  rw [iblk14_5_eq]
  obtain ⟨e00, e01, e10, e11, e20, e21, e30, e31, e40, e41, e50, e51, e60, e61⟩ := idx_facts14 t
  funext j
  obtain ⟨g, z, rfl⟩ : ∃ (g : Fin 256) (z : Fin 1), j = ix2 g z := ⟨j 0, j 1, eq_ix2 j⟩
  obtain rfl : z = 0 := Subsingleton.elim _ _
  show k14_pay1 (F := Ideal) (V c (Pipeline.arrRef spec14 0)) (V c (Pipeline.arrRef spec14 1)) (V c (Pipeline.arrRef spec14 2)) (V c (Pipeline.arrRef spec14 3)) (V c (Pipeline.arrRef spec14 4)) (V c (Pipeline.arrRef spec14 5)) (ix2 g 0)
    = cls14 (V c (Pipeline.arrRef spec14 0)) (V c (Pipeline.arrRef spec14 1)) (V c (Pipeline.arrRef spec14 2)) (V c (Pipeline.arrRef spec14 3)) (V c (Pipeline.arrRef spec14 4)) (V c (Pipeline.arrRef spec14 5)) (((cfg14.win 6).blk t).view.emb (ix2 g 0))
  rw [pay14_apply]
  have hemb : (((cfg14.win 6).blk t).view.emb (ix2 g 0) : S256x1.Idx) 0 = g :=
    Fin.ext (by show win14_6.index t (0 : Fin 2) * 256 + 1 * g.val = g.val; omega)
  unfold cls14
  rw [hemb]

/-- An index of the output array is in point t's block iff each coordinate is in the block's range on its axis. -/
theorem mem_blk14_6 (t : Fin cfg14.N) (i : S256x1.Idx) :
    i ∈ ((cfg14.win 6).blk t).view.set ↔ ∀ a : Fin 2, win14_6.index t a * S256x1.size a ≤ (i a).val ∧ (i a).val < win14_6.index t a * S256x1.size a + S256x1.size a := by
  show i ∈ ((View.whole main_v166).slice (win14_6.rect t)).set ↔ _
  rw [View.set_slice_whole, Rect.mem_set_unit]
  exact Iff.rfl

/-- The one block covers the output array. -/
theorem covered14_6 (i : S256x1.Idx) : ∃ t : Fin cfg14.N, (cfg14.win 6).flush t = true ∧ i ∈ ((cfg14.win 6).blk t).view.set := by
  refine ⟨t14_0, flush14_6 t14_0, ?_⟩
  obtain ⟨e00, e01, e10, e11, e20, e21, e30, e31, e40, e41, e50, e51, e60, e61⟩ := idx_facts14 t14_0
  rw [mem_blk14_6]
  intro a
  have h0 : (i 0).val < 256 := (i 0).isLt
  have h1 : (i 1).val < 1 := (i 1).isLt
  match a with
  | ⟨0, _⟩ => show win14_6.index t14_0 (0 : Fin 2) * 256 ≤ (i 0).val ∧ (i 0).val < win14_6.index t14_0 (0 : Fin 2) * 256 + 256; omega
  | ⟨1, _⟩ => show win14_6.index t14_0 (1 : Fin 2) * 1 ≤ (i 1).val ∧ (i 1).val < win14_6.index t14_0 (1 : Fin 2) * 1 + 1; omega

/-- The output array after the region is the closed form of the arrays as the region finds them. -/
theorem arr14_6 (c : Dev nD) : (dat14 (F := Ideal) V c).arrAt 6 cfg14.N = cls14 (V c (Pipeline.arrRef spec14 0)) (V c (Pipeline.arrRef spec14 1)) (V c (Pipeline.arrRef spec14 2)) (V c (Pipeline.arrRef spec14 3)) (V c (Pipeline.arrRef spec14 4)) (V c (Pipeline.arrRef spec14 5)) :=
  (dat14 V c).arrAt_eq_of_cover 6 _ (fun t _ => flushed14_6_eq V c t) covered14_6

/-- The output array after the region, row by row, from the proof data's arrays. -/
theorem val14 (c : Dev nD) (g : Fin 256) :
    (dat14 (F := Ideal) V c).arrAt 6 cfg14.N (ix2 g (0 : Fin 1)) =
      Cert.Math.cls (Cert.Math.at2 ((dat14 (F := Ideal) V c).A 0)) (Cert.Math.at2 ((dat14 (F := Ideal) V c).A 1)) (Cert.Math.at2 ((dat14 (F := Ideal) V c).A 2)) (fun k => Cert.Math.at2 ((dat14 (F := Ideal) V c).A 3) 0 k)
        (Cert.Math.at2 ((dat14 (F := Ideal) V c).A 4)) (fun z => Cert.Math.at2 ((dat14 (F := Ideal) V c).A 5) 0 z) g := by
  rw [arr14_6]
  simp only [A_eq14]
  rfl

end Region14

end Cert.KernelIdeal.Hand

end
-- ==== Proof.KI.Value.lean ====
/-
  The value the kernel program leaves in its result buffer, as one function of the launch contents of its twenty-four
  arguments. Each region reads, at its entry, launch contents, reshaped parameter vectors, the host's aggregation or
  column statistics of an earlier region's result, or such a result itself (the `ent` lemmas); with each region's value
  over its entry contents this gives every region's result array in the shared vocabulary (the `part` lemmas), makes
  each graph's embedding array the encoder of the model, and the last region's result the classifier on the two encoders.
-/
import proofs.«413302_j72232759984513_1_alg».proof.Proof.KI.ValueAbs
import proofs.«413302_j72232759984513_1_alg».proof.Proof.KI.HostRead
import proofs.«413302_j72232759984513_1_alg».proof.Proof.KI.ValLS0
import proofs.«413302_j72232759984513_1_alg».proof.Proof.KI.ValLS2
import proofs.«413302_j72232759984513_1_alg».proof.Proof.KI.ValLS4
import proofs.«413302_j72232759984513_1_alg».proof.Proof.KI.ValLS7
import proofs.«413302_j72232759984513_1_alg».proof.Proof.KI.ValLS9
import proofs.«413302_j72232759984513_1_alg».proof.Proof.KI.ValLS11
import proofs.«413302_j72232759984513_1_alg».proof.Proof.KI.ValBN1
import proofs.«413302_j72232759984513_1_alg».proof.Proof.KI.ValBN3
import proofs.«413302_j72232759984513_1_alg».proof.Proof.KI.ValBN5
import proofs.«413302_j72232759984513_1_alg».proof.Proof.KI.ValBN8
import proofs.«413302_j72232759984513_1_alg».proof.Proof.KI.ValBN10
import proofs.«413302_j72232759984513_1_alg».proof.Proof.KI.ValBN12
import proofs.«413302_j72232759984513_1_alg».proof.Proof.KI.ValPool6
import proofs.«413302_j72232759984513_1_alg».proof.Proof.KI.ValPool13
import proofs.«413302_j72232759984513_1_alg».proof.Proof.KI.ValCls14

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## The first graph: regions 0 to 6 -/

/-! Region 0: a linear layer with its column sums and sums of squares. -/

theorem ent0_0 (c : Dev nD) : (dat0 (R1 m) c).A 0 = aggK64 (W0 m c main_arg0) (W0 m c main_arg1) :=
  (A_eq0 (R1 m) c 0).trans (rd0_0 m c)
theorem ent0_1 (c : Dev nD) : (dat0 (R1 m) c).A 1 = W0 m c main_arg6 := (A_eq0 (R1 m) c 1).trans (rd0_1 m c)
theorem ent0_2 (c : Dev nD) : (dat0 (R1 m) c).A 2 = shapeCast S1x128 (W0 m c main_arg7) shapeCasts_S128_S1x128 :=
  (A_eq0 (R1 m) c 2).trans (rd0_2 m c)

theorem part0_h (c : Dev nD) (i : Fin 100000) (j : Fin 128) :
    o0_3 (R1 m) c (ix2 i j) = Cert.Math.lin (Cert.Math.at2 (aggK64 (W0 m c main_arg0) (W0 m c main_arg1))) (Cert.Math.at2 (W0 m c main_arg6)) (Cert.Math.at1 (W0 m c main_arg7)) i j := by
  rw [o0_3_eq (R1 m) c lt0_3]
  exact (val0_h (R1 m) c i j).trans (by rw [ent0_0 m c, ent0_1 m c, ent0_2 m c, rowfun128])

theorem part0_s (c : Dev nD) (j : Fin 128) :
    o0_4 (R1 m) c (ix2 (0 : Fin 1) j) = Cert.Math.colSum (Cert.Math.lin (Cert.Math.at2 (aggK64 (W0 m c main_arg0) (W0 m c main_arg1))) (Cert.Math.at2 (W0 m c main_arg6)) (Cert.Math.at1 (W0 m c main_arg7))) j := by
  rw [o0_4_eq (R1 m) c lt0_4]
  exact (val0_s (R1 m) c j).trans (by rw [ent0_0 m c, ent0_1 m c, ent0_2 m c, rowfun128])

theorem part0_ss (c : Dev nD) (j : Fin 128) :
    o0_5 (R1 m) c (ix2 (0 : Fin 1) j) = Cert.Math.colSumSq (Cert.Math.lin (Cert.Math.at2 (aggK64 (W0 m c main_arg0) (W0 m c main_arg1))) (Cert.Math.at2 (W0 m c main_arg6)) (Cert.Math.at1 (W0 m c main_arg7))) j := by
  rw [o0_5_eq (R1 m) c lt0_5]
  exact (val0_ss (R1 m) c j).trans (by rw [ent0_0 m c, ent0_1 m c, ent0_2 m c, rowfun128])

/-! Region 1: the normalisation of region 0's result by the host's statistics of its sums. -/

theorem ent1_0 (c : Dev nD) : (dat1 (R3 m) c).A 0 = o0_3 (R1 m) c :=
  (A_eq1 (R3 m) c 0).trans ((rd1_0 m c).trans (W2_o3 m c))
theorem ent1_1 (c : Dev nD) : (dat1 (R3 m) c).A 1 = muK (o0_4 (R1 m) c) :=
  (A_eq1 (R3 m) c 1).trans ((rd1_1 m c).trans (congrArg muK (W2_o4 m c)))
theorem ent1_2 (c : Dev nD) : (dat1 (R3 m) c).A 2 = invK (o0_4 (R1 m) c) (o0_5 (R1 m) c) :=
  (A_eq1 (R3 m) c 2).trans ((rd1_2 m c).trans (congrArg₂ invK (W2_o4 m c) (W2_o5 m c)))
theorem ent1_3 (c : Dev nD) : (dat1 (R3 m) c).A 3 = shapeCast S1x128 (W0 m c main_arg8) shapeCasts_S128_S1x128 :=
  (A_eq1 (R3 m) c 3).trans (rd1_3 m c)
theorem ent1_4 (c : Dev nD) : (dat1 (R3 m) c).A 4 = shapeCast S1x128 (W0 m c main_arg9) shapeCasts_S128_S1x128 :=
  (A_eq1 (R3 m) c 4).trans (rd1_4 m c)

theorem part1 (c : Dev nD) (i : Fin 100000) (j : Fin 128) :
    o1_5 (R3 m) c (ix2 i j) = Cert.Math.bnRelu (Cert.Math.at2 (o0_3 (R1 m) c))
      (fun j => Cert.Math.at2 (muK (o0_4 (R1 m) c)) 0 j)
      (fun j => Cert.Math.at2 (invK (o0_4 (R1 m) c) (o0_5 (R1 m) c)) 0 j) (Cert.Math.at1 (W0 m c main_arg8)) (Cert.Math.at1 (W0 m c main_arg9)) i j := by
  rw [o1_5_eq (R3 m) c lt1_5]
  exact (val1 (R3 m) c i j).trans (by
    rw [ent1_0 m c, ent1_1 m c, ent1_2 m c, ent1_3 m c, ent1_4 m c, rowfun128, rowfun128])

/-! Region 2: a linear layer with its column sums and sums of squares. -/

theorem ent2_0 (c : Dev nD) : (dat2 (R5 m) c).A 0 = aggK128 (o1_5 (R3 m) c) (W0 m c main_arg1) :=
  by
  rw [← W4_o5 m c]
  exact (A_eq2 (R5 m) c 0).trans (rd2_0 m c)
theorem ent2_1 (c : Dev nD) : (dat2 (R5 m) c).A 1 = W0 m c main_arg10 := (A_eq2 (R5 m) c 1).trans (rd2_1 m c)
theorem ent2_2 (c : Dev nD) : (dat2 (R5 m) c).A 2 = shapeCast S1x128 (W0 m c main_arg11) shapeCasts_S128_S1x128 :=
  (A_eq2 (R5 m) c 2).trans (rd2_2 m c)

theorem part2_h (c : Dev nD) (i : Fin 100000) (j : Fin 128) :
    o2_3 (R5 m) c (ix2 i j) = Cert.Math.lin (Cert.Math.at2 (aggK128 (o1_5 (R3 m) c) (W0 m c main_arg1))) (Cert.Math.at2 (W0 m c main_arg10)) (Cert.Math.at1 (W0 m c main_arg11)) i j := by
  rw [o2_3_eq (R5 m) c lt2_3]
  exact (val2_h (R5 m) c i j).trans (by rw [ent2_0 m c, ent2_1 m c, ent2_2 m c, rowfun128])

theorem part2_s (c : Dev nD) (j : Fin 128) :
    o2_4 (R5 m) c (ix2 (0 : Fin 1) j) = Cert.Math.colSum (Cert.Math.lin (Cert.Math.at2 (aggK128 (o1_5 (R3 m) c) (W0 m c main_arg1))) (Cert.Math.at2 (W0 m c main_arg10)) (Cert.Math.at1 (W0 m c main_arg11))) j := by
  rw [o2_4_eq (R5 m) c lt2_4]
  exact (val2_s (R5 m) c j).trans (by rw [ent2_0 m c, ent2_1 m c, ent2_2 m c, rowfun128])

theorem part2_ss (c : Dev nD) (j : Fin 128) :
    o2_5 (R5 m) c (ix2 (0 : Fin 1) j) = Cert.Math.colSumSq (Cert.Math.lin (Cert.Math.at2 (aggK128 (o1_5 (R3 m) c) (W0 m c main_arg1))) (Cert.Math.at2 (W0 m c main_arg10)) (Cert.Math.at1 (W0 m c main_arg11))) j := by
  rw [o2_5_eq (R5 m) c lt2_5]
  exact (val2_ss (R5 m) c j).trans (by rw [ent2_0 m c, ent2_1 m c, ent2_2 m c, rowfun128])

/-! Region 3: the normalisation of region 2's result by the host's statistics of its sums. -/

theorem ent3_0 (c : Dev nD) : (dat3 (R7 m) c).A 0 = o2_3 (R5 m) c :=
  (A_eq3 (R7 m) c 0).trans ((rd3_0 m c).trans (W6_o3 m c))
theorem ent3_1 (c : Dev nD) : (dat3 (R7 m) c).A 1 = muK (o2_4 (R5 m) c) :=
  (A_eq3 (R7 m) c 1).trans ((rd3_1 m c).trans (congrArg muK (W6_o4 m c)))
theorem ent3_2 (c : Dev nD) : (dat3 (R7 m) c).A 2 = invK (o2_4 (R5 m) c) (o2_5 (R5 m) c) :=
  (A_eq3 (R7 m) c 2).trans ((rd3_2 m c).trans (congrArg₂ invK (W6_o4 m c) (W6_o5 m c)))
theorem ent3_3 (c : Dev nD) : (dat3 (R7 m) c).A 3 = shapeCast S1x128 (W0 m c main_arg12) shapeCasts_S128_S1x128 :=
  (A_eq3 (R7 m) c 3).trans (rd3_3 m c)
theorem ent3_4 (c : Dev nD) : (dat3 (R7 m) c).A 4 = shapeCast S1x128 (W0 m c main_arg13) shapeCasts_S128_S1x128 :=
  (A_eq3 (R7 m) c 4).trans (rd3_4 m c)

theorem part3 (c : Dev nD) (i : Fin 100000) (j : Fin 128) :
    o3_5 (R7 m) c (ix2 i j) = Cert.Math.bnRelu (Cert.Math.at2 (o2_3 (R5 m) c))
      (fun j => Cert.Math.at2 (muK (o2_4 (R5 m) c)) 0 j)
      (fun j => Cert.Math.at2 (invK (o2_4 (R5 m) c) (o2_5 (R5 m) c)) 0 j) (Cert.Math.at1 (W0 m c main_arg12)) (Cert.Math.at1 (W0 m c main_arg13)) i j := by
  rw [o3_5_eq (R7 m) c lt3_5]
  exact (val3 (R7 m) c i j).trans (by
    rw [ent3_0 m c, ent3_1 m c, ent3_2 m c, ent3_3 m c, ent3_4 m c, rowfun128, rowfun128])

/-! Region 4: a linear layer with its column sums and sums of squares. -/

theorem ent4_0 (c : Dev nD) : (dat4 (R9 m) c).A 0 = aggK128 (o3_5 (R7 m) c) (W0 m c main_arg1) :=
  by
  rw [← W8_o5 m c]
  exact (A_eq4 (R9 m) c 0).trans (rd4_0 m c)
theorem ent4_1 (c : Dev nD) : (dat4 (R9 m) c).A 1 = W0 m c main_arg14 := (A_eq4 (R9 m) c 1).trans (rd4_1 m c)
theorem ent4_2 (c : Dev nD) : (dat4 (R9 m) c).A 2 = shapeCast S1x128 (W0 m c main_arg15) shapeCasts_S128_S1x128 :=
  (A_eq4 (R9 m) c 2).trans (rd4_2 m c)

theorem part4_h (c : Dev nD) (i : Fin 100000) (j : Fin 128) :
    o4_3 (R9 m) c (ix2 i j) = Cert.Math.lin (Cert.Math.at2 (aggK128 (o3_5 (R7 m) c) (W0 m c main_arg1))) (Cert.Math.at2 (W0 m c main_arg14)) (Cert.Math.at1 (W0 m c main_arg15)) i j := by
  rw [o4_3_eq (R9 m) c lt4_3]
  exact (val4_h (R9 m) c i j).trans (by rw [ent4_0 m c, ent4_1 m c, ent4_2 m c, rowfun128])

theorem part4_s (c : Dev nD) (j : Fin 128) :
    o4_4 (R9 m) c (ix2 (0 : Fin 1) j) = Cert.Math.colSum (Cert.Math.lin (Cert.Math.at2 (aggK128 (o3_5 (R7 m) c) (W0 m c main_arg1))) (Cert.Math.at2 (W0 m c main_arg14)) (Cert.Math.at1 (W0 m c main_arg15))) j := by
  rw [o4_4_eq (R9 m) c lt4_4]
  exact (val4_s (R9 m) c j).trans (by rw [ent4_0 m c, ent4_1 m c, ent4_2 m c, rowfun128])

theorem part4_ss (c : Dev nD) (j : Fin 128) :
    o4_5 (R9 m) c (ix2 (0 : Fin 1) j) = Cert.Math.colSumSq (Cert.Math.lin (Cert.Math.at2 (aggK128 (o3_5 (R7 m) c) (W0 m c main_arg1))) (Cert.Math.at2 (W0 m c main_arg14)) (Cert.Math.at1 (W0 m c main_arg15))) j := by
  rw [o4_5_eq (R9 m) c lt4_5]
  exact (val4_ss (R9 m) c j).trans (by rw [ent4_0 m c, ent4_1 m c, ent4_2 m c, rowfun128])

/-! Region 5: the normalisation of region 4's result by the host's statistics of its sums. -/

theorem ent5_0 (c : Dev nD) : (dat5 (R11 m) c).A 0 = o4_3 (R9 m) c :=
  (A_eq5 (R11 m) c 0).trans ((rd5_0 m c).trans (W10_o3 m c))
theorem ent5_1 (c : Dev nD) : (dat5 (R11 m) c).A 1 = muK (o4_4 (R9 m) c) :=
  (A_eq5 (R11 m) c 1).trans ((rd5_1 m c).trans (congrArg muK (W10_o4 m c)))
theorem ent5_2 (c : Dev nD) : (dat5 (R11 m) c).A 2 = invK (o4_4 (R9 m) c) (o4_5 (R9 m) c) :=
  (A_eq5 (R11 m) c 2).trans ((rd5_2 m c).trans (congrArg₂ invK (W10_o4 m c) (W10_o5 m c)))
theorem ent5_3 (c : Dev nD) : (dat5 (R11 m) c).A 3 = shapeCast S1x128 (W0 m c main_arg16) shapeCasts_S128_S1x128 :=
  (A_eq5 (R11 m) c 3).trans (rd5_3 m c)
theorem ent5_4 (c : Dev nD) : (dat5 (R11 m) c).A 4 = shapeCast S1x128 (W0 m c main_arg17) shapeCasts_S128_S1x128 :=
  (A_eq5 (R11 m) c 4).trans (rd5_4 m c)

theorem part5 (c : Dev nD) (i : Fin 100000) (j : Fin 128) :
    o5_5 (R11 m) c (ix2 i j) = Cert.Math.bnRelu (Cert.Math.at2 (o4_3 (R9 m) c))
      (fun j => Cert.Math.at2 (muK (o4_4 (R9 m) c)) 0 j)
      (fun j => Cert.Math.at2 (invK (o4_4 (R9 m) c) (o4_5 (R9 m) c)) 0 j) (Cert.Math.at1 (W0 m c main_arg16)) (Cert.Math.at1 (W0 m c main_arg17)) i j := by
  rw [o5_5_eq (R11 m) c lt5_5]
  exact (val5 (R11 m) c i j).trans (by
    rw [ent5_0 m c, ent5_1 m c, ent5_2 m c, ent5_3 m c, ent5_4 m c, rowfun128, rowfun128])

/-! Region 6: the mean-pool of region 5's result over the segments, and the embedding. -/

theorem ent6_0 (c : Dev nD) : (dat6 (R13 m) c).A 0 = o5_5 (R11 m) c :=
  (A_eq6 (R13 m) c 0).trans ((rd6_0 m c).trans (W12_o5 m c))
theorem ent6_1 (c : Dev nD) : (dat6 (R13 m) c).A 1 = shapeCast S100000x1 (W0 m c main_arg2) shapeCasts_S100000_S100000x1 :=
  (A_eq6 (R13 m) c 1).trans (rd6_1 m c)
theorem ent6_2 (c : Dev nD) : (dat6 (R13 m) c).A 2 = W0 m c main_arg18 := (A_eq6 (R13 m) c 2).trans (rd6_2 m c)
theorem ent6_3 (c : Dev nD) : (dat6 (R13 m) c).A 3 = shapeCast S1x64 (W0 m c main_arg19) shapeCasts_S64_S1x64 :=
  (A_eq6 (R13 m) c 3).trans (rd6_3 m c)

theorem part6 (c : Dev nD) (g : Fin 256) (e : Fin 64) :
    o6_4 (R13 m) c (ix2 g e) = Cert.Math.embed (Cert.Math.at2 (o5_5 (R11 m) c)) (Cert.Math.at1 (W0 m c main_arg2)) (Cert.Math.at2 (W0 m c main_arg18)) (Cert.Math.at1 (W0 m c main_arg19)) g e := by
  rw [o6_4_eq (R13 m) c lt6_4]
  exact (val6 (R13 m) c g e).trans (by rw [ent6_0 m c, ent6_1 m c, ent6_2 m c, ent6_3 m c, colfun, rowfun64])

/-- The first graph's embedding, left in its array by region 6, is the encoder of the model on arguments 0, 1, 2. -/
theorem side1 (c : Dev nD) :
    W14 m c main_v81 = Cert.Math.un2 (Cert.Math.encOf Cert.Math.varK aggK64 aggK128
      (Cert.Math.paramsOf (W0 m c main_arg6) (W0 m c main_arg7) (W0 m c main_arg8) (W0 m c main_arg9) (W0 m c main_arg10)
        (W0 m c main_arg11) (W0 m c main_arg12) (W0 m c main_arg13) (W0 m c main_arg14) (W0 m c main_arg15)
        (W0 m c main_arg16) (W0 m c main_arg17) (W0 m c main_arg18) (W0 m c main_arg19))
      (W0 m c main_arg0) (W0 m c main_arg1) (W0 m c main_arg2)) :=
  (W14_o4 m c).trans (enc_of_parts (W0 m c main_arg0) (W0 m c main_arg1) (W0 m c main_arg2) (W0 m c main_arg6) (W0 m c main_arg7) (W0 m c main_arg8) (W0 m c main_arg9) (W0 m c main_arg10)
    (W0 m c main_arg11) (W0 m c main_arg12) (W0 m c main_arg13) (W0 m c main_arg14) (W0 m c main_arg15)
    (W0 m c main_arg16) (W0 m c main_arg17) (W0 m c main_arg18) (W0 m c main_arg19)
    (o0_3 (R1 m) c) (o0_4 (R1 m) c) (o0_5 (R1 m) c) (o1_5 (R3 m) c)
    (o2_3 (R5 m) c) (o2_4 (R5 m) c) (o2_5 (R5 m) c) (o3_5 (R7 m) c)
    (o4_3 (R9 m) c) (o4_4 (R9 m) c) (o4_5 (R9 m) c) (o5_5 (R11 m) c)
    (o6_4 (R13 m) c)
    (part0_h m c) (part0_s m c) (part0_ss m c) (part1 m c)
    (part2_h m c) (part2_s m c) (part2_ss m c) (part3 m c)
    (part4_h m c) (part4_s m c) (part4_ss m c) (part5 m c)
    (part6 m c))

/-! ## The second graph: regions 7 to 13 -/

/-! Region 7: a linear layer with its column sums and sums of squares. -/

theorem ent7_0 (c : Dev nD) : (dat7 (R15 m) c).A 0 = aggK64 (W0 m c main_arg3) (W0 m c main_arg4) :=
  (A_eq7 (R15 m) c 0).trans (rd7_0 m c)
theorem ent7_1 (c : Dev nD) : (dat7 (R15 m) c).A 1 = W0 m c main_arg6 := (A_eq7 (R15 m) c 1).trans (rd7_1 m c)
theorem ent7_2 (c : Dev nD) : (dat7 (R15 m) c).A 2 = shapeCast S1x128 (W0 m c main_arg7) shapeCasts_S128_S1x128 :=
  (A_eq7 (R15 m) c 2).trans (rd7_2 m c)

theorem part7_h (c : Dev nD) (i : Fin 100000) (j : Fin 128) :
    o7_3 (R15 m) c (ix2 i j) = Cert.Math.lin (Cert.Math.at2 (aggK64 (W0 m c main_arg3) (W0 m c main_arg4))) (Cert.Math.at2 (W0 m c main_arg6)) (Cert.Math.at1 (W0 m c main_arg7)) i j := by
  rw [o7_3_eq (R15 m) c lt7_3]
  exact (val7_h (R15 m) c i j).trans (by rw [ent7_0 m c, ent7_1 m c, ent7_2 m c, rowfun128])

theorem part7_s (c : Dev nD) (j : Fin 128) :
    o7_4 (R15 m) c (ix2 (0 : Fin 1) j) = Cert.Math.colSum (Cert.Math.lin (Cert.Math.at2 (aggK64 (W0 m c main_arg3) (W0 m c main_arg4))) (Cert.Math.at2 (W0 m c main_arg6)) (Cert.Math.at1 (W0 m c main_arg7))) j := by
  rw [o7_4_eq (R15 m) c lt7_4]
  exact (val7_s (R15 m) c j).trans (by rw [ent7_0 m c, ent7_1 m c, ent7_2 m c, rowfun128])

theorem part7_ss (c : Dev nD) (j : Fin 128) :
    o7_5 (R15 m) c (ix2 (0 : Fin 1) j) = Cert.Math.colSumSq (Cert.Math.lin (Cert.Math.at2 (aggK64 (W0 m c main_arg3) (W0 m c main_arg4))) (Cert.Math.at2 (W0 m c main_arg6)) (Cert.Math.at1 (W0 m c main_arg7))) j := by
  rw [o7_5_eq (R15 m) c lt7_5]
  exact (val7_ss (R15 m) c j).trans (by rw [ent7_0 m c, ent7_1 m c, ent7_2 m c, rowfun128])

/-! Region 8: the normalisation of region 7's result by the host's statistics of its sums. -/

theorem ent8_0 (c : Dev nD) : (dat8 (R17 m) c).A 0 = o7_3 (R15 m) c :=
  (A_eq8 (R17 m) c 0).trans ((rd8_0 m c).trans (W16_o3 m c))
theorem ent8_1 (c : Dev nD) : (dat8 (R17 m) c).A 1 = muK (o7_4 (R15 m) c) :=
  (A_eq8 (R17 m) c 1).trans ((rd8_1 m c).trans (congrArg muK (W16_o4 m c)))
theorem ent8_2 (c : Dev nD) : (dat8 (R17 m) c).A 2 = invK (o7_4 (R15 m) c) (o7_5 (R15 m) c) :=
  (A_eq8 (R17 m) c 2).trans ((rd8_2 m c).trans (congrArg₂ invK (W16_o4 m c) (W16_o5 m c)))
theorem ent8_3 (c : Dev nD) : (dat8 (R17 m) c).A 3 = shapeCast S1x128 (W0 m c main_arg8) shapeCasts_S128_S1x128 :=
  (A_eq8 (R17 m) c 3).trans (rd8_3 m c)
theorem ent8_4 (c : Dev nD) : (dat8 (R17 m) c).A 4 = shapeCast S1x128 (W0 m c main_arg9) shapeCasts_S128_S1x128 :=
  (A_eq8 (R17 m) c 4).trans (rd8_4 m c)

theorem part8 (c : Dev nD) (i : Fin 100000) (j : Fin 128) :
    o8_5 (R17 m) c (ix2 i j) = Cert.Math.bnRelu (Cert.Math.at2 (o7_3 (R15 m) c))
      (fun j => Cert.Math.at2 (muK (o7_4 (R15 m) c)) 0 j)
      (fun j => Cert.Math.at2 (invK (o7_4 (R15 m) c) (o7_5 (R15 m) c)) 0 j) (Cert.Math.at1 (W0 m c main_arg8)) (Cert.Math.at1 (W0 m c main_arg9)) i j := by
  rw [o8_5_eq (R17 m) c lt8_5]
  exact (val8 (R17 m) c i j).trans (by
    rw [ent8_0 m c, ent8_1 m c, ent8_2 m c, ent8_3 m c, ent8_4 m c, rowfun128, rowfun128])

/-! Region 9: a linear layer with its column sums and sums of squares. -/

theorem ent9_0 (c : Dev nD) : (dat9 (R19 m) c).A 0 = aggK128 (o8_5 (R17 m) c) (W0 m c main_arg4) :=
  by
  rw [← W18_o5 m c]
  exact (A_eq9 (R19 m) c 0).trans (rd9_0 m c)
theorem ent9_1 (c : Dev nD) : (dat9 (R19 m) c).A 1 = W0 m c main_arg10 := (A_eq9 (R19 m) c 1).trans (rd9_1 m c)
theorem ent9_2 (c : Dev nD) : (dat9 (R19 m) c).A 2 = shapeCast S1x128 (W0 m c main_arg11) shapeCasts_S128_S1x128 :=
  (A_eq9 (R19 m) c 2).trans (rd9_2 m c)

theorem part9_h (c : Dev nD) (i : Fin 100000) (j : Fin 128) :
    o9_3 (R19 m) c (ix2 i j) = Cert.Math.lin (Cert.Math.at2 (aggK128 (o8_5 (R17 m) c) (W0 m c main_arg4))) (Cert.Math.at2 (W0 m c main_arg10)) (Cert.Math.at1 (W0 m c main_arg11)) i j := by
  rw [o9_3_eq (R19 m) c lt9_3]
  exact (val9_h (R19 m) c i j).trans (by rw [ent9_0 m c, ent9_1 m c, ent9_2 m c, rowfun128])

theorem part9_s (c : Dev nD) (j : Fin 128) :
    o9_4 (R19 m) c (ix2 (0 : Fin 1) j) = Cert.Math.colSum (Cert.Math.lin (Cert.Math.at2 (aggK128 (o8_5 (R17 m) c) (W0 m c main_arg4))) (Cert.Math.at2 (W0 m c main_arg10)) (Cert.Math.at1 (W0 m c main_arg11))) j := by
  rw [o9_4_eq (R19 m) c lt9_4]
  exact (val9_s (R19 m) c j).trans (by rw [ent9_0 m c, ent9_1 m c, ent9_2 m c, rowfun128])

theorem part9_ss (c : Dev nD) (j : Fin 128) :
    o9_5 (R19 m) c (ix2 (0 : Fin 1) j) = Cert.Math.colSumSq (Cert.Math.lin (Cert.Math.at2 (aggK128 (o8_5 (R17 m) c) (W0 m c main_arg4))) (Cert.Math.at2 (W0 m c main_arg10)) (Cert.Math.at1 (W0 m c main_arg11))) j := by
  rw [o9_5_eq (R19 m) c lt9_5]
  exact (val9_ss (R19 m) c j).trans (by rw [ent9_0 m c, ent9_1 m c, ent9_2 m c, rowfun128])

/-! Region 10: the normalisation of region 9's result by the host's statistics of its sums. -/

theorem ent10_0 (c : Dev nD) : (dat10 (R21 m) c).A 0 = o9_3 (R19 m) c :=
  (A_eq10 (R21 m) c 0).trans ((rd10_0 m c).trans (W20_o3 m c))
theorem ent10_1 (c : Dev nD) : (dat10 (R21 m) c).A 1 = muK (o9_4 (R19 m) c) :=
  (A_eq10 (R21 m) c 1).trans ((rd10_1 m c).trans (congrArg muK (W20_o4 m c)))
theorem ent10_2 (c : Dev nD) : (dat10 (R21 m) c).A 2 = invK (o9_4 (R19 m) c) (o9_5 (R19 m) c) :=
  (A_eq10 (R21 m) c 2).trans ((rd10_2 m c).trans (congrArg₂ invK (W20_o4 m c) (W20_o5 m c)))
theorem ent10_3 (c : Dev nD) : (dat10 (R21 m) c).A 3 = shapeCast S1x128 (W0 m c main_arg12) shapeCasts_S128_S1x128 :=
  (A_eq10 (R21 m) c 3).trans (rd10_3 m c)
theorem ent10_4 (c : Dev nD) : (dat10 (R21 m) c).A 4 = shapeCast S1x128 (W0 m c main_arg13) shapeCasts_S128_S1x128 :=
  (A_eq10 (R21 m) c 4).trans (rd10_4 m c)

theorem part10 (c : Dev nD) (i : Fin 100000) (j : Fin 128) :
    o10_5 (R21 m) c (ix2 i j) = Cert.Math.bnRelu (Cert.Math.at2 (o9_3 (R19 m) c))
      (fun j => Cert.Math.at2 (muK (o9_4 (R19 m) c)) 0 j)
      (fun j => Cert.Math.at2 (invK (o9_4 (R19 m) c) (o9_5 (R19 m) c)) 0 j) (Cert.Math.at1 (W0 m c main_arg12)) (Cert.Math.at1 (W0 m c main_arg13)) i j := by
  rw [o10_5_eq (R21 m) c lt10_5]
  exact (val10 (R21 m) c i j).trans (by
    rw [ent10_0 m c, ent10_1 m c, ent10_2 m c, ent10_3 m c, ent10_4 m c, rowfun128, rowfun128])

/-! Region 11: a linear layer with its column sums and sums of squares. -/

theorem ent11_0 (c : Dev nD) : (dat11 (R23 m) c).A 0 = aggK128 (o10_5 (R21 m) c) (W0 m c main_arg4) :=
  by
  rw [← W22_o5 m c]
  exact (A_eq11 (R23 m) c 0).trans (rd11_0 m c)
theorem ent11_1 (c : Dev nD) : (dat11 (R23 m) c).A 1 = W0 m c main_arg14 := (A_eq11 (R23 m) c 1).trans (rd11_1 m c)
theorem ent11_2 (c : Dev nD) : (dat11 (R23 m) c).A 2 = shapeCast S1x128 (W0 m c main_arg15) shapeCasts_S128_S1x128 :=
  (A_eq11 (R23 m) c 2).trans (rd11_2 m c)

theorem part11_h (c : Dev nD) (i : Fin 100000) (j : Fin 128) :
    o11_3 (R23 m) c (ix2 i j) = Cert.Math.lin (Cert.Math.at2 (aggK128 (o10_5 (R21 m) c) (W0 m c main_arg4))) (Cert.Math.at2 (W0 m c main_arg14)) (Cert.Math.at1 (W0 m c main_arg15)) i j := by
  rw [o11_3_eq (R23 m) c lt11_3]
  exact (val11_h (R23 m) c i j).trans (by rw [ent11_0 m c, ent11_1 m c, ent11_2 m c, rowfun128])

theorem part11_s (c : Dev nD) (j : Fin 128) :
    o11_4 (R23 m) c (ix2 (0 : Fin 1) j) = Cert.Math.colSum (Cert.Math.lin (Cert.Math.at2 (aggK128 (o10_5 (R21 m) c) (W0 m c main_arg4))) (Cert.Math.at2 (W0 m c main_arg14)) (Cert.Math.at1 (W0 m c main_arg15))) j := by
  rw [o11_4_eq (R23 m) c lt11_4]
  exact (val11_s (R23 m) c j).trans (by rw [ent11_0 m c, ent11_1 m c, ent11_2 m c, rowfun128])

theorem part11_ss (c : Dev nD) (j : Fin 128) :
    o11_5 (R23 m) c (ix2 (0 : Fin 1) j) = Cert.Math.colSumSq (Cert.Math.lin (Cert.Math.at2 (aggK128 (o10_5 (R21 m) c) (W0 m c main_arg4))) (Cert.Math.at2 (W0 m c main_arg14)) (Cert.Math.at1 (W0 m c main_arg15))) j := by
  rw [o11_5_eq (R23 m) c lt11_5]
  exact (val11_ss (R23 m) c j).trans (by rw [ent11_0 m c, ent11_1 m c, ent11_2 m c, rowfun128])

/-! Region 12: the normalisation of region 11's result by the host's statistics of its sums. -/

theorem ent12_0 (c : Dev nD) : (dat12 (R25 m) c).A 0 = o11_3 (R23 m) c :=
  (A_eq12 (R25 m) c 0).trans ((rd12_0 m c).trans (W24_o3 m c))
theorem ent12_1 (c : Dev nD) : (dat12 (R25 m) c).A 1 = muK (o11_4 (R23 m) c) :=
  (A_eq12 (R25 m) c 1).trans ((rd12_1 m c).trans (congrArg muK (W24_o4 m c)))
theorem ent12_2 (c : Dev nD) : (dat12 (R25 m) c).A 2 = invK (o11_4 (R23 m) c) (o11_5 (R23 m) c) :=
  (A_eq12 (R25 m) c 2).trans ((rd12_2 m c).trans (congrArg₂ invK (W24_o4 m c) (W24_o5 m c)))
theorem ent12_3 (c : Dev nD) : (dat12 (R25 m) c).A 3 = shapeCast S1x128 (W0 m c main_arg16) shapeCasts_S128_S1x128 :=
  (A_eq12 (R25 m) c 3).trans (rd12_3 m c)
theorem ent12_4 (c : Dev nD) : (dat12 (R25 m) c).A 4 = shapeCast S1x128 (W0 m c main_arg17) shapeCasts_S128_S1x128 :=
  (A_eq12 (R25 m) c 4).trans (rd12_4 m c)

theorem part12 (c : Dev nD) (i : Fin 100000) (j : Fin 128) :
    o12_5 (R25 m) c (ix2 i j) = Cert.Math.bnRelu (Cert.Math.at2 (o11_3 (R23 m) c))
      (fun j => Cert.Math.at2 (muK (o11_4 (R23 m) c)) 0 j)
      (fun j => Cert.Math.at2 (invK (o11_4 (R23 m) c) (o11_5 (R23 m) c)) 0 j) (Cert.Math.at1 (W0 m c main_arg16)) (Cert.Math.at1 (W0 m c main_arg17)) i j := by
  rw [o12_5_eq (R25 m) c lt12_5]
  exact (val12 (R25 m) c i j).trans (by
    rw [ent12_0 m c, ent12_1 m c, ent12_2 m c, ent12_3 m c, ent12_4 m c, rowfun128, rowfun128])

/-! Region 13: the mean-pool of region 12's result over the segments, and the embedding. -/

theorem ent13_0 (c : Dev nD) : (dat13 (R27 m) c).A 0 = o12_5 (R25 m) c :=
  (A_eq13 (R27 m) c 0).trans ((rd13_0 m c).trans (W26_o5 m c))
theorem ent13_1 (c : Dev nD) : (dat13 (R27 m) c).A 1 = shapeCast S100000x1 (W0 m c main_arg5) shapeCasts_S100000_S100000x1 :=
  (A_eq13 (R27 m) c 1).trans (rd13_1 m c)
theorem ent13_2 (c : Dev nD) : (dat13 (R27 m) c).A 2 = W0 m c main_arg18 := (A_eq13 (R27 m) c 2).trans (rd13_2 m c)
theorem ent13_3 (c : Dev nD) : (dat13 (R27 m) c).A 3 = shapeCast S1x64 (W0 m c main_arg19) shapeCasts_S64_S1x64 :=
  (A_eq13 (R27 m) c 3).trans (rd13_3 m c)

theorem part13 (c : Dev nD) (g : Fin 256) (e : Fin 64) :
    o13_4 (R27 m) c (ix2 g e) = Cert.Math.embed (Cert.Math.at2 (o12_5 (R25 m) c)) (Cert.Math.at1 (W0 m c main_arg5)) (Cert.Math.at2 (W0 m c main_arg18)) (Cert.Math.at1 (W0 m c main_arg19)) g e := by
  rw [o13_4_eq (R27 m) c lt13_4]
  exact (val13 (R27 m) c g e).trans (by rw [ent13_0 m c, ent13_1 m c, ent13_2 m c, ent13_3 m c, colfun, rowfun64])

/-- The second graph's embedding, left in its array by region 13, is the encoder of the model on arguments 3, 4, 5. -/
theorem side2 (c : Dev nD) :
    W28 m c main_v163 = Cert.Math.un2 (Cert.Math.encOf Cert.Math.varK aggK64 aggK128
      (Cert.Math.paramsOf (W0 m c main_arg6) (W0 m c main_arg7) (W0 m c main_arg8) (W0 m c main_arg9) (W0 m c main_arg10)
        (W0 m c main_arg11) (W0 m c main_arg12) (W0 m c main_arg13) (W0 m c main_arg14) (W0 m c main_arg15)
        (W0 m c main_arg16) (W0 m c main_arg17) (W0 m c main_arg18) (W0 m c main_arg19))
      (W0 m c main_arg3) (W0 m c main_arg4) (W0 m c main_arg5)) :=
  (W28_o4 m c).trans (enc_of_parts (W0 m c main_arg3) (W0 m c main_arg4) (W0 m c main_arg5) (W0 m c main_arg6) (W0 m c main_arg7) (W0 m c main_arg8) (W0 m c main_arg9) (W0 m c main_arg10)
    (W0 m c main_arg11) (W0 m c main_arg12) (W0 m c main_arg13) (W0 m c main_arg14) (W0 m c main_arg15)
    (W0 m c main_arg16) (W0 m c main_arg17) (W0 m c main_arg18) (W0 m c main_arg19)
    (o7_3 (R15 m) c) (o7_4 (R15 m) c) (o7_5 (R15 m) c) (o8_5 (R17 m) c)
    (o9_3 (R19 m) c) (o9_4 (R19 m) c) (o9_5 (R19 m) c) (o10_5 (R21 m) c)
    (o11_3 (R23 m) c) (o11_4 (R23 m) c) (o11_5 (R23 m) c) (o12_5 (R25 m) c)
    (o13_4 (R27 m) c)
    (part7_h m c) (part7_s m c) (part7_ss m c) (part8 m c)
    (part9_h m c) (part9_s m c) (part9_ss m c) (part10 m c)
    (part11_h m c) (part11_s m c) (part11_ss m c) (part12 m c)
    (part13 m c))

/-! ## The classifier: region 14 -/

theorem ent14_0 (c : Dev nD) : (dat14 (R29 m) c).A 0 = W14 m c main_v81 := (A_eq14 (R29 m) c 0).trans (rd14_0 m c)
theorem ent14_1 (c : Dev nD) : (dat14 (R29 m) c).A 1 = W28 m c main_v163 := (A_eq14 (R29 m) c 1).trans (rd14_1 m c)
theorem ent14_2 (c : Dev nD) : (dat14 (R29 m) c).A 2 = W0 m c main_arg20 := (A_eq14 (R29 m) c 2).trans (rd14_2 m c)
theorem ent14_3 (c : Dev nD) : (dat14 (R29 m) c).A 3 = shapeCast S1x64 (W0 m c main_arg21) shapeCasts_S64_S1x64 :=
  (A_eq14 (R29 m) c 3).trans (rd14_3 m c)
theorem ent14_4 (c : Dev nD) : (dat14 (R29 m) c).A 4 = W0 m c main_arg22 := (A_eq14 (R29 m) c 4).trans (rd14_4 m c)
theorem ent14_5 (c : Dev nD) : (dat14 (R29 m) c).A 5 = shapeCast S1x1 (W0 m c main_arg23) shapeCasts_S1_S1x1 :=
  (A_eq14 (R29 m) c 5).trans (rd14_5 m c)

/-- Region 14's result for segment `g`: the classifier on the two embedding arrays. -/
theorem part14 (c : Dev nD) (g : Fin 256) :
    o14_6 (R29 m) c (ix2 g (0 : Fin 1)) = Cert.Math.cls (Cert.Math.at2 (W14 m c main_v81)) (Cert.Math.at2 (W28 m c main_v163))
      (Cert.Math.at2 (W0 m c main_arg20)) (Cert.Math.at1 (W0 m c main_arg21)) (Cert.Math.at2 (W0 m c main_arg22)) (Cert.Math.at1 (W0 m c main_arg23)) g := by
  rw [o14_6_eq (R29 m) c lt14_6]
  exact (val14 (R29 m) c g).trans (by
    rw [ent14_0 m c, ent14_1 m c, ent14_2 m c, ent14_3 m c, ent14_4 m c, ent14_5 m c, rowfun64, rowfun1])

/-- The kernel program's result for segment `g`, as the model on the launch contents of the twenty-four arguments. -/
theorem kernel_value (c : Dev nD) (g : Fin 256) :
    Cert.Math.at2 (W30 m c main_v166) g 0
      = Cert.Math.model Cert.Math.varK aggK64 aggK128 (W0 m c main_arg0) (W0 m c main_arg1) (W0 m c main_arg2)
          (W0 m c main_arg3) (W0 m c main_arg4) (W0 m c main_arg5) (W0 m c main_arg6) (W0 m c main_arg7) (W0 m c main_arg8)
          (W0 m c main_arg9) (W0 m c main_arg10) (W0 m c main_arg11) (W0 m c main_arg12) (W0 m c main_arg13)
          (W0 m c main_arg14) (W0 m c main_arg15) (W0 m c main_arg16) (W0 m c main_arg17) (W0 m c main_arg18)
          (W0 m c main_arg19) (W0 m c main_arg20) (W0 m c main_arg21) (W0 m c main_arg22) (W0 m c main_arg23) g := by
  show W30 m c main_v166 (ix2 g (0 : Fin 1)) = _
  rw [W30_o6, part14, side1, side2]
  rfl

end Cert.KernelIdeal.Hand

end
-- ==== Proof.Ref.Stages.lean ====
import proofs.«413302_j72232759984513_1_alg».proof.Proof.Gen.ReferenceIdeal
import Idealize.ShloMosaic.PureOps.Ideal

noncomputable section

namespace Cert.ReferenceIdeal.Hand

open Cert.ReferenceIdeal Cert.ReferenceIdeal.Gen Idealize.ShloMosaic

/-! The reference computation, stage by stage, as plain functions of arrays over the ideal values: each body is
the composition of the host operations' functions in the order the program applies them. -/

/-- A row of 128 values repeated over the 100000 rows. -/
abbrev rowB128 (v : FVec Ideal S128 .f32) : FVec Ideal S100000x128 .f32 :=
  broadcastInDim S100000x128 ![0, 1] bcast_S1x128_S100000x128_0_1 (broadcastInDim S1x128 ![1] bcast_S128_S1x128_1 v)

/-- A row of 64 values repeated over the 256 rows. -/
abbrev rowB64 (v : FVec Ideal S64 .f32) : FVec Ideal S256x64 .f32 :=
  broadcastInDim S256x64 ![0, 1] bcast_S1x64_S256x64_0_1 (broadcastInDim S1x64 ![1] bcast_S64_S1x64_1 v)

/-- Row `0` of the edge list as a vector of 1280000 words. -/
abbrev edgeRow0 (ei : IVec S2x1280000 32) : IVec S1280000 32 :=
  shapeCast S1280000 (extractStridedSlice S1x1280000 ![0, 0] ei slices_S2x1280000_S1x1280000_0_0) shapeCasts_S1x1280000_S1280000

/-- Row `1` of the edge list as a vector of 1280000 words. -/
abbrev edgeRow1 (ei : IVec S2x1280000 32) : IVec S1280000 32 :=
  shapeCast S1280000 (extractStridedSlice S1x1280000 ![1, 0] ei slices_S2x1280000_S1x1280000_1_0) shapeCasts_S1x1280000_S1280000

/-- The source indices: row 0 of the edge list, a negative word moved up by 100000, as a column. -/
def srcNorm (ei : IVec S2x1280000 32) : IVec S1280000x1 32 :=
  broadcastInDim S1280000x1 ![0] bcast_S1280000_S1280000x1_0
    (select (cmpi .slt (edgeRow0 ei) (broadcastInDim S1280000 ![] bcast_S_S1280000 (constantI S_ 32 0#32)))
      (addi (edgeRow0 ei) (broadcastInDim S1280000 ![] bcast_S_S1280000 (constantI S_ 32 100000#32)))
      (edgeRow0 ei))

/-- The destination indices: row 1 of the edge list, as a column. -/
def dstIdx (ei : IVec S2x1280000 32) : IVec S1280000x1 32 :=
  broadcastInDim S1280000x1 ![0] bcast_S1280000_S1280000x1_0 (edgeRow1 ei)

/-- `x` plus, at every destination row, the sum of the source rows of the edges arriving there (width 64). -/
def aggR64 (x : FVec Ideal S100000x64 .f32) (ei : IVec S2x1280000 32) : FVec Ideal S100000x64 .f32 :=
  addf x (Host.scatterAdd scatter_S100000x64_S1280000x1_S1280000x64_1_0_0_1
    (broadcastInDim S100000x64 ![] bcast_S_S100000x64 (constant S_ .f32 0x00000000#32)) (dstIdx ei)
    (Host.gather gather_S100000x64_S1280000x1_S1280000x64_1_0_n_n_0_1_164 x (srcNorm ei)))

/-- The same at width 128. -/
def aggR128 (x : FVec Ideal S100000x128 .f32) (ei : IVec S2x1280000 32) : FVec Ideal S100000x128 .f32 :=
  addf x (Host.scatterAdd scatter_S100000x128_S1280000x1_S1280000x128_1_0_0_1
    (broadcastInDim S100000x128 ![] bcast_S_S100000x128 (constant S_ .f32 0x00000000#32)) (dstIdx ei)
    (Host.gather gather_S100000x128_S1280000x1_S1280000x128_1_0_n_n_0_1_1128 x (srcNorm ei)))

/-- `a · w + b`, from width 64 to width 128. -/
def linR64 (a : FVec Ideal S100000x64 .f32) (w : FVec Ideal S64x128 .f32) (b : FVec Ideal S128 .f32) :
    FVec Ideal S100000x128 .f32 :=
  addf (Host.dotGeneral dot_S100000x64_S64x128_S100000x128_1_0_0_1_n_n none a w) (rowB128 b)

/-- `a · w + b`, at width 128. -/
def linR128 (a : FVec Ideal S100000x128 .f32) (w : FVec Ideal S128x128 .f32) (b : FVec Ideal S128 .f32) :
    FVec Ideal S100000x128 .f32 :=
  addf (Host.dotGeneral dot_S100000x128_S128x128_S100000x128_1_0_0_1_n_n none a w) (rowB128 b)

/-- The column means: the column sums over 100000. -/
def meanR (h : FVec Ideal S100000x128 .f32) : FVec Ideal S128 .f32 :=
  Host.divf (Host.reduceAdd h (constant S_ .f32 0x00000000#32) reducesTo_S100000x128_S128_d0 h_S_)
    (broadcastInDim S128 ![] bcast_S_S128 (constant S_ .f32 0x47C35000#32))

/-- The divisor of the variance: 100000 minus the correction 0. -/
def varDen : FVec Ideal S_ .f32 :=
  subf (constant S_ .f32 0x47C35000#32) (sitofp .f32 (constantI S_ 32 0#32))

/-- The column variances: the column sums of the squared distances to the column mean (the mean taken on the
    [1,128] row), over the divisor where it is positive and the not-a-number constant elsewhere. -/
def varR (h : FVec Ideal S100000x128 .f32) : FVec Ideal S128 .f32 :=
  select (broadcastInDim S128 ![] bcast_S_S128 (cmpf .ogt varDen (constant S_ .f32 0x00000000#32)))
    (Host.divf
      (Host.reduceAdd
        (mulf
          (subf h (broadcastInDim S100000x128 ![0, 1] bcast_S1x128_S100000x128_0_1
            (Host.divf (broadcastInDim S1x128 ![1] bcast_S128_S1x128_1
                (Host.reduceAdd h (constant S_ .f32 0x00000000#32) reducesTo_S100000x128_S128_d0 h_S_))
              (broadcastInDim S1x128 ![] bcast_S_S1x128 (constant S_ .f32 0x47C35000#32)))))
          (subf h (broadcastInDim S100000x128 ![0, 1] bcast_S1x128_S100000x128_0_1
            (Host.divf (broadcastInDim S1x128 ![1] bcast_S128_S1x128_1
                (Host.reduceAdd h (constant S_ .f32 0x00000000#32) reducesTo_S100000x128_S128_d0 h_S_))
              (broadcastInDim S1x128 ![] bcast_S_S1x128 (constant S_ .f32 0x47C35000#32))))))
        (constant S_ .f32 0x00000000#32) reducesTo_S100000x128_S128_d0 h_S_)
      (broadcastInDim S128 ![] bcast_S_S128 varDen))
    (broadcastInDim S128 ![] bcast_S_S128 (constant S_ .f32 0x7FC00000#32))

/-- Normalise the columns of `h` by their mean and variance (plus the small constant), scale by `g`, shift by
    `be`, and clip below at zero. -/
def bnR (h : FVec Ideal S100000x128 .f32) (g be : FVec Ideal S128 .f32) : FVec Ideal S100000x128 .f32 :=
  maximumf
    (addf
      (mulf
        (mulf (subf h (rowB128 (meanR h)))
          (rowB128 (Host.rsqrt (addf (varR h) (broadcastInDim S128 ![] bcast_S_S128 (constant S_ .f32 0x3727C5AC#32))))))
        (rowB128 g))
      (rowB128 be))
    (broadcastInDim S100000x128 ![] bcast_S_S100000x128 (constant S_ .f32 0x00000000#32))

/-- The mean of the rows of each of the 256 segments `bt` names (the count at least one), then `· wf + bf`. -/
def poolR (x : FVec Ideal S100000x128 .f32) (bt : IVec S100000 32) (wf : FVec Ideal S128x64 .f32)
    (bf : FVec Ideal S64 .f32) : FVec Ideal S256x64 .f32 :=
  addf
    (Host.dotGeneral dot_S256x128_S128x64_S256x64_1_0_0_1_n_n none
      (Host.divf
        (Host.scatterAdd scatter_S256x128_S100000x1_S100000x128_1_0_0_1
          (broadcastInDim S256x128 ![] bcast_S_S256x128 (constant S_ .f32 0x00000000#32))
          (broadcastInDim S100000x1 ![0] bcast_S100000_S100000x1_0 bt) x)
        (broadcastInDim S256x128 ![0, 1] bcast_S256x1_S256x128_0_1
          (broadcastInDim S256x1 ![0] bcast_S256_S256x1_0
            (maximumf
              (Host.scatterAdd scatter_S256_S100000x1_S100000_n_0_0_1
                (broadcastInDim S256 ![] bcast_S_S256 (constant S_ .f32 0x00000000#32))
                (broadcastInDim S100000x1 ![0] bcast_S100000_S100000x1_0 bt)
                (broadcastInDim S100000 ![] bcast_S_S100000 (constant S_ .f32 0x3F800000#32)))
              (broadcastInDim S256 ![] bcast_S_S256 (constant S_ .f32 0x3F800000#32))))))
      wf)
    (rowB64 bf)

/-- The classifier on two embeddings: the absolute difference, `· wc1 + bc1` clipped below at zero, `· wc2 + bc2`,
    and the logistic function `1 / (1 + exp (-·))`. -/
def clsR (v1 v2 : FVec Ideal S256x64 .f32) (wc1 : FVec Ideal S64x64 .f32) (bc1 : FVec Ideal S64 .f32)
    (wc2 : FVec Ideal S64x1 .f32) (bc2 : FVec Ideal S1 .f32) : FVec Ideal S256x1 .f32 :=
  Host.divf (broadcastInDim S256x1 ![] bcast_S_S256x1 (constant S_ .f32 0x3F800000#32))
    (addf (broadcastInDim S256x1 ![] bcast_S_S256x1 (constant S_ .f32 0x3F800000#32))
      (Host.exp (Host.negf
        (addf
          (Host.dotGeneral dot_S256x64_S64x1_S256x1_1_0_0_1_n_n none
            (maximumf
              (addf (Host.dotGeneral dot_S256x64_S64x64_S256x64_1_0_0_1_n_n none (Host.absf (subf v1 v2)) wc1) (rowB64 bc1))
              (broadcastInDim S256x64 ![] bcast_S_S256x64 (constant S_ .f32 0x00000000#32)))
            wc2)
          (broadcastInDim S256x1 ![0, 1] bcast_S1x1_S256x1_0_1 (broadcastInDim S1x1 ![1] bcast_S1_S1x1_1 bc2))))))

end Cert.ReferenceIdeal.Hand

end
-- ==== Proof.Ref.Term.lean ====
import proofs.«413302_j72232759984513_1_alg».proof.Proof.Ref.Run
import proofs.«413302_j72232759984513_1_alg».proof.Proof.Ref.Stages

noncomputable section

namespace Cert.ReferenceIdeal.Hand

open Cert.ReferenceIdeal Cert.ReferenceIdeal.Gen Idealize.ShloMosaic Idealize.ShloMosaic.TcCoe Idealize.SL.Sem Idealize.ShloMosaic.StableHlo

/-! The reference's result as the stage functions composed. @main's line of operations is cut at the stage
boundaries (each piece computes one stage function of the buffers it reads); the contents after each piece are
named, and each buffer still to be read is followed through them. -/

section Pieces

variable {F : FTy → Type} [FloatOps F]

/-- Operations 1 … 18 of @main's line: the edge rows and the neighbour sum at width 64. -/
abbrev sg0 : List (HloOp τ sig (Elt F)) :=
  [ unary main_arg1 main_v0 ((extractStridedSlice S1x1280000 ![0, 0] · slices_S2x1280000_S1x1280000_0_0) : (⟨S2x1280000, .i32⟩ : BufTy).Contents (Elt F) → (⟨S1x1280000, .i32⟩ : BufTy).Contents (Elt F)),
    reshape main_v0 main_v1 rfl shapeCasts_S1x1280000_S1280000,
    unary main_arg1 main_v2 ((extractStridedSlice S1x1280000 ![1, 0] · slices_S2x1280000_S1x1280000_1_0) : (⟨S2x1280000, .i32⟩ : BufTy).Contents (Elt F) → (⟨S1x1280000, .i32⟩ : BufTy).Contents (Elt F)),
    reshape main_v2 main_v3 rfl shapeCasts_S1x1280000_S1280000,
    nullary main_c (constantI S_ 32 0#32),
    unary main_c main_v4 (broadcastInDim S1280000 ![] bcast_S_S1280000 : (⟨S_, .i32⟩ : BufTy).Contents (Elt F) → (⟨S1280000, .i32⟩ : BufTy).Contents (Elt F)),
    binary main_v1 main_v4 main_v5 (cmpi .slt : (⟨S1280000, .i32⟩ : BufTy).Contents (Elt F) → (⟨S1280000, .i32⟩ : BufTy).Contents (Elt F) → (⟨S1280000, .i1⟩ : BufTy).Contents (Elt F)),
    nullary main_c_0 (constantI S_ 32 100000#32),
    unary main_c_0 main_v6 (broadcastInDim S1280000 ![] bcast_S_S1280000 : (⟨S_, .i32⟩ : BufTy).Contents (Elt F) → (⟨S1280000, .i32⟩ : BufTy).Contents (Elt F)),
    binary main_v1 main_v6 main_v7 (addi : (⟨S1280000, .i32⟩ : BufTy).Contents (Elt F) → (⟨S1280000, .i32⟩ : BufTy).Contents (Elt F) → (⟨S1280000, .i32⟩ : BufTy).Contents (Elt F)),
    ternary main_v5 main_v7 main_v1 main_v8 (select : (⟨S1280000, .i1⟩ : BufTy).Contents (Elt F) → (⟨S1280000, .i32⟩ : BufTy).Contents (Elt F) → (⟨S1280000, .i32⟩ : BufTy).Contents (Elt F) → (⟨S1280000, .i32⟩ : BufTy).Contents (Elt F)),
    unary main_v8 main_v9 (broadcastInDim S1280000x1 ![0] bcast_S1280000_S1280000x1_0 : (⟨S1280000, .i32⟩ : BufTy).Contents (Elt F) → (⟨S1280000x1, .i32⟩ : BufTy).Contents (Elt F)),
    binary main_arg0 main_v9 main_v10 ((fun x i => Host.gather gather_S100000x64_S1280000x1_S1280000x64_1_0_n_n_0_1_164 x i) : (⟨S100000x64, .f32⟩ : BufTy).Contents (Elt F) → (⟨S1280000x1, .i32⟩ : BufTy).Contents (Elt F) → (⟨S1280000x64, .f32⟩ : BufTy).Contents (Elt F)),
    nullary main_cst (constant S_ .f32 0x00000000#32),
    unary main_cst main_v11 (broadcastInDim S100000x64 ![] bcast_S_S100000x64 : (⟨S_, .f32⟩ : BufTy).Contents (Elt F) → (⟨S100000x64, .f32⟩ : BufTy).Contents (Elt F)),
    unary main_v3 main_v12 (broadcastInDim S1280000x1 ![0] bcast_S1280000_S1280000x1_0 : (⟨S1280000, .i32⟩ : BufTy).Contents (Elt F) → (⟨S1280000x1, .i32⟩ : BufTy).Contents (Elt F)),
    ternary main_v11 main_v12 main_v10 main_v13 ((fun x i u => Host.scatterAdd scatter_S100000x64_S1280000x1_S1280000x64_1_0_0_1 x i u) : (⟨S100000x64, .f32⟩ : BufTy).Contents (Elt F) → (⟨S1280000x1, .i32⟩ : BufTy).Contents (Elt F) → (⟨S1280000x64, .f32⟩ : BufTy).Contents (Elt F) → (⟨S100000x64, .f32⟩ : BufTy).Contents (Elt F)),
    binary main_arg0 main_v13 main_v14 (addf : (⟨S100000x64, .f32⟩ : BufTy).Contents (Elt F) → (⟨S100000x64, .f32⟩ : BufTy).Contents (Elt F) → (⟨S100000x64, .f32⟩ : BufTy).Contents (Elt F)) ]

/-- The buffers the piece writes, in order. -/
abbrev sg0_W : List (Ref sig .tc) :=
  [main_v0, main_v1, main_v2, main_v3, main_c, main_v4, main_v5, main_c_0,
    main_v6, main_v7, main_v8, main_v9, main_v10, main_cst, main_v11, main_v12,
    main_v13, main_v14]

set_option maxRecDepth 8192 in
theorem sg0_writes : (sg0 : List (HloOp τ sig (Elt F))).Forall fun op =>
    op.writes ⊆ (sg0_W.map (Proc.devRef (τ := τ) .tc)).toFinset :=
  ⟨writes_sub (unary_writes ..) (by decide), writes_sub (reshape_writes ..) (by decide), writes_sub (unary_writes ..) (by decide),
    writes_sub (reshape_writes ..) (by decide), writes_sub (nullary_writes ..) (by decide), writes_sub (unary_writes ..) (by decide),
    writes_sub (binary_writes ..) (by decide), writes_sub (nullary_writes ..) (by decide), writes_sub (unary_writes ..) (by decide),
    writes_sub (binary_writes ..) (by decide), writes_sub (ternary_writes ..) (by decide), writes_sub (unary_writes ..) (by decide),
    writes_sub (binary_writes ..) (by decide), writes_sub (nullary_writes ..) (by decide), writes_sub (unary_writes ..) (by decide),
    writes_sub (unary_writes ..) (by decide), writes_sub (ternary_writes ..) (by decide), writes_sub (binary_writes ..) (by decide)⟩

/-- A buffer the piece does not write keeps its contents through it. -/
theorem keepSeg0 (V : Valuation τ sig (Elt F)) (r : Ref sig .tc) (h : r ∉ sg0_W) :
    after sg0 V (Proc.devRef .tc r) = V (Proc.devRef .tc r) :=
  after_of_writes_sub sg0 V sg0_writes h

/-- Operations 19 … 22 of @main's line: the linear map from width 64 to 128. -/
abbrev sg1 : List (HloOp τ sig (Elt F)) :=
  [ binary main_v14 main_arg6 main_v15 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    unary main_arg7 main_v16 (broadcastInDim S1x128 ![1] bcast_S128_S1x128_1 : (⟨S128, .f32⟩ : BufTy).Contents (Elt F) → (⟨S1x128, .f32⟩ : BufTy).Contents (Elt F)),
    unary main_v16 main_v17 (broadcastInDim S100000x128 ![0, 1] bcast_S1x128_S100000x128_0_1 : (⟨S1x128, .f32⟩ : BufTy).Contents (Elt F) → (⟨S100000x128, .f32⟩ : BufTy).Contents (Elt F)),
    binary main_v15 main_v17 main_v18 (addf : (⟨S100000x128, .f32⟩ : BufTy).Contents (Elt F) → (⟨S100000x128, .f32⟩ : BufTy).Contents (Elt F) → (⟨S100000x128, .f32⟩ : BufTy).Contents (Elt F)) ]

/-- The buffers the piece writes, in order. -/
abbrev sg1_W : List (Ref sig .tc) :=
  [main_v15, main_v16, main_v17, main_v18]

set_option maxRecDepth 8192 in
theorem sg1_writes : (sg1 : List (HloOp τ sig (Elt F))).Forall fun op =>
    op.writes ⊆ (sg1_W.map (Proc.devRef (τ := τ) .tc)).toFinset :=
  ⟨writes_sub (binary_writes ..) (by decide), writes_sub (unary_writes ..) (by decide), writes_sub (unary_writes ..) (by decide),
    writes_sub (binary_writes ..) (by decide)⟩

/-- A buffer the piece does not write keeps its contents through it. -/
theorem keepSeg1 (V : Valuation τ sig (Elt F)) (r : Ref sig .tc) (h : r ∉ sg1_W) :
    after sg1 V (Proc.devRef .tc r) = V (Proc.devRef .tc r) :=
  after_of_writes_sub sg1 V sg1_writes h

/-- Operations 23 … 69 of @main's line: the column normalisation, scale, shift and clip. -/
abbrev sg2 : List (HloOp τ sig (Elt F)) :=
  [ nullary main_cst_1 (constant S_ .f32 0x00000000#32),
    binary main_v18 main_cst_1 main_v19 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_2 (constant S_ .f32 0x47C35000#32),
    unary main_cst_2 main_v20 (broadcastInDim S128 ![] bcast_S_S128 : (⟨S_, .f32⟩ : BufTy).Contents (Elt F) → (⟨S128, .f32⟩ : BufTy).Contents (Elt F)),
    binary main_v19 main_v20 main_v21 (Host.divf : (⟨S128, .f32⟩ : BufTy).Contents (Elt F) → (⟨S128, .f32⟩ : BufTy).Contents (Elt F) → (⟨S128, .f32⟩ : BufTy).Contents (Elt F)),
    nullary main_c_3 (constantI S_ 32 0#32),
    TRef.nullary main_call0.cst (constant S_ .f32 0x00000000#32),
    TRef.binary (.of main_v18) main_call0.cst main_call0.v0 (fun x v => Host.reduceAdd x v reducesTo_S100000x128_S128_d0 h_S_),
    TRef.unary main_call0.v0 main_call0.v1 (broadcastInDim S1x128 ![1] bcast_S128_S1x128_1),
    TRef.nullary main_call0.cst_0 (constant S_ .f32 0x47C35000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S100000x128 ![0, 1] bcast_S1x128_S100000x128_0_1),
    TRef.binary (.of main_v18) main_call0.v4 main_call0.v5 subf,
    TRef.binary main_call0.v5 main_call0.v5 main_call0.v6 mulf,
    TRef.unary (.of main_c_3) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    unary main_v21 main_v23 (broadcastInDim S1x128 ![1] bcast_S128_S1x128_1 : (⟨S128, .f32⟩ : BufTy).Contents (Elt F) → (⟨S1x128, .f32⟩ : BufTy).Contents (Elt F)),
    unary main_v23 main_v24 (broadcastInDim S100000x128 ![0, 1] bcast_S1x128_S100000x128_0_1 : (⟨S1x128, .f32⟩ : BufTy).Contents (Elt F) → (⟨S100000x128, .f32⟩ : BufTy).Contents (Elt F)),
    binary main_v18 main_v24 main_v25 (subf : (⟨S100000x128, .f32⟩ : BufTy).Contents (Elt F) → (⟨S100000x128, .f32⟩ : BufTy).Contents (Elt F) → (⟨S100000x128, .f32⟩ : BufTy).Contents (Elt F)),
    nullary main_cst_4 (constant S_ .f32 0x3727C5AC#32),
    unary main_cst_4 main_v26 (broadcastInDim S128 ![] bcast_S_S128 : (⟨S_, .f32⟩ : BufTy).Contents (Elt F) → (⟨S128, .f32⟩ : BufTy).Contents (Elt F)),
    binary main_v22 main_v26 main_v27 (addf : (⟨S128, .f32⟩ : BufTy).Contents (Elt F) → (⟨S128, .f32⟩ : BufTy).Contents (Elt F) → (⟨S128, .f32⟩ : BufTy).Contents (Elt F)),
    unary main_v27 main_v28 (Host.rsqrt : (⟨S128, .f32⟩ : BufTy).Contents (Elt F) → (⟨S128, .f32⟩ : BufTy).Contents (Elt F)),
    unary main_v28 main_v29 (broadcastInDim S1x128 ![1] bcast_S128_S1x128_1 : (⟨S128, .f32⟩ : BufTy).Contents (Elt F) → (⟨S1x128, .f32⟩ : BufTy).Contents (Elt F)),
    unary main_v29 main_v30 (broadcastInDim S100000x128 ![0, 1] bcast_S1x128_S100000x128_0_1 : (⟨S1x128, .f32⟩ : BufTy).Contents (Elt F) → (⟨S100000x128, .f32⟩ : BufTy).Contents (Elt F)),
    binary main_v25 main_v30 main_v31 (mulf : (⟨S100000x128, .f32⟩ : BufTy).Contents (Elt F) → (⟨S100000x128, .f32⟩ : BufTy).Contents (Elt F) → (⟨S100000x128, .f32⟩ : BufTy).Contents (Elt F)),
    unary main_arg8 main_v32 (broadcastInDim S1x128 ![1] bcast_S128_S1x128_1 : (⟨S128, .f32⟩ : BufTy).Contents (Elt F) → (⟨S1x128, .f32⟩ : BufTy).Contents (Elt F)),
    unary main_v32 main_v33 (broadcastInDim S100000x128 ![0, 1] bcast_S1x128_S100000x128_0_1 : (⟨S1x128, .f32⟩ : BufTy).Contents (Elt F) → (⟨S100000x128, .f32⟩ : BufTy).Contents (Elt F)),
    binary main_v31 main_v33 main_v34 (mulf : (⟨S100000x128, .f32⟩ : BufTy).Contents (Elt F) → (⟨S100000x128, .f32⟩ : BufTy).Contents (Elt F) → (⟨S100000x128, .f32⟩ : BufTy).Contents (Elt F)),
    unary main_arg9 main_v35 (broadcastInDim S1x128 ![1] bcast_S128_S1x128_1 : (⟨S128, .f32⟩ : BufTy).Contents (Elt F) → (⟨S1x128, .f32⟩ : BufTy).Contents (Elt F)),
    unary main_v35 main_v36 (broadcastInDim S100000x128 ![0, 1] bcast_S1x128_S100000x128_0_1 : (⟨S1x128, .f32⟩ : BufTy).Contents (Elt F) → (⟨S100000x128, .f32⟩ : BufTy).Contents (Elt F)),
    binary main_v34 main_v36 main_v37 (addf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (.of main_v37) main_call1.v0 main_call1.v1 maximumf ]

/-- The buffers the piece writes, in order. -/
abbrev sg2_W : List (Ref sig .tc) :=
  [main_cst_1, main_v19, main_cst_2, main_v20, main_v21, main_c_3, main_call0_cst, main_call0_v0,
    main_call0_v1, main_call0_cst_0, main_call0_v2, main_call0_v3, main_call0_v4, main_call0_v5, main_call0_v6, main_call0_v7,
    main_call0_cst_1, main_call0_v8, main_call0_cst_2, main_call0_v9, main_call0_v10, main_call0_v11, main_call0_cst_3, main_call0_v12,
    main_call0_cst_4, main_call0_call0_v0, main_call0_call0_v1, main_v22, main_v23, main_v24, main_v25, main_cst_4,
    main_v26, main_v27, main_v28, main_v29, main_v30, main_v31, main_v32, main_v33,
    main_v34, main_v35, main_v36, main_v37, main_call1_cst, main_call1_v0, main_v38]

set_option maxRecDepth 8192 in
theorem sg2_writes : (sg2 : List (HloOp τ sig (Elt F))).Forall fun op =>
    op.writes ⊆ (sg2_W.map (Proc.devRef (τ := τ) .tc)).toFinset :=
  ⟨writes_sub (nullary_writes ..) (by decide), writes_sub (binary_writes ..) (by decide), writes_sub (nullary_writes ..) (by decide),
    writes_sub (unary_writes ..) (by decide), writes_sub (binary_writes ..) (by decide), writes_sub (nullary_writes ..) (by decide),
    writes_sub (nullary_writes ..) (by decide), writes_sub (binary_writes ..) (by decide), writes_sub (unary_writes ..) (by decide),
    writes_sub (nullary_writes ..) (by decide), writes_sub (unary_writes ..) (by decide), writes_sub (binary_writes ..) (by decide),
    writes_sub (unary_writes ..) (by decide), writes_sub (binary_writes ..) (by decide), writes_sub (binary_writes ..) (by decide),
    writes_sub (unary_writes ..) (by decide), writes_sub (nullary_writes ..) (by decide), writes_sub (binary_writes ..) (by decide),
    writes_sub (nullary_writes ..) (by decide), writes_sub (binary_writes ..) (by decide), writes_sub (unary_writes ..) (by decide),
    writes_sub (binary_writes ..) (by decide), writes_sub (nullary_writes ..) (by decide), writes_sub (binary_writes ..) (by decide),
    writes_sub (nullary_writes ..) (by decide), writes_sub (unary_writes ..) (by decide), writes_sub (unary_writes ..) (by decide),
    writes_sub (ternary_writes ..) (by decide), writes_sub (unary_writes ..) (by decide), writes_sub (unary_writes ..) (by decide),
    writes_sub (binary_writes ..) (by decide), writes_sub (nullary_writes ..) (by decide), writes_sub (unary_writes ..) (by decide),
    writes_sub (binary_writes ..) (by decide), writes_sub (unary_writes ..) (by decide), writes_sub (unary_writes ..) (by decide),
    writes_sub (unary_writes ..) (by decide), writes_sub (binary_writes ..) (by decide), writes_sub (unary_writes ..) (by decide),
    writes_sub (unary_writes ..) (by decide), writes_sub (binary_writes ..) (by decide), writes_sub (unary_writes ..) (by decide),
    writes_sub (unary_writes ..) (by decide), writes_sub (binary_writes ..) (by decide), writes_sub (nullary_writes ..) (by decide),
    writes_sub (unary_writes ..) (by decide), writes_sub (binary_writes ..) (by decide)⟩

/-- A buffer the piece does not write keeps its contents through it. -/
theorem keepSeg2 (V : Valuation τ sig (Elt F)) (r : Ref sig .tc) (h : r ∉ sg2_W) :
    after sg2 V (Proc.devRef .tc r) = V (Proc.devRef .tc r) :=
  after_of_writes_sub sg2 V sg2_writes h

/-- Operations 70 … 83 of @main's line: the neighbour sum at width 128. -/
abbrev sg3 : List (HloOp τ sig (Elt F)) :=
  [ nullary main_c_5 (constantI S_ 32 0#32),
    unary main_c_5 main_v39 (broadcastInDim S1280000 ![] bcast_S_S1280000 : (⟨S_, .i32⟩ : BufTy).Contents (Elt F) → (⟨S1280000, .i32⟩ : BufTy).Contents (Elt F)),
    binary main_v1 main_v39 main_v40 (cmpi .slt : (⟨S1280000, .i32⟩ : BufTy).Contents (Elt F) → (⟨S1280000, .i32⟩ : BufTy).Contents (Elt F) → (⟨S1280000, .i1⟩ : BufTy).Contents (Elt F)),
    nullary main_c_6 (constantI S_ 32 100000#32),
    unary main_c_6 main_v41 (broadcastInDim S1280000 ![] bcast_S_S1280000 : (⟨S_, .i32⟩ : BufTy).Contents (Elt F) → (⟨S1280000, .i32⟩ : BufTy).Contents (Elt F)),
    binary main_v1 main_v41 main_v42 (addi : (⟨S1280000, .i32⟩ : BufTy).Contents (Elt F) → (⟨S1280000, .i32⟩ : BufTy).Contents (Elt F) → (⟨S1280000, .i32⟩ : BufTy).Contents (Elt F)),
    ternary main_v40 main_v42 main_v1 main_v43 (select : (⟨S1280000, .i1⟩ : BufTy).Contents (Elt F) → (⟨S1280000, .i32⟩ : BufTy).Contents (Elt F) → (⟨S1280000, .i32⟩ : BufTy).Contents (Elt F) → (⟨S1280000, .i32⟩ : BufTy).Contents (Elt F)),
    unary main_v43 main_v44 (broadcastInDim S1280000x1 ![0] bcast_S1280000_S1280000x1_0 : (⟨S1280000, .i32⟩ : BufTy).Contents (Elt F) → (⟨S1280000x1, .i32⟩ : BufTy).Contents (Elt F)),
    binary main_v38 main_v44 main_v45 ((fun x i => Host.gather gather_S100000x128_S1280000x1_S1280000x128_1_0_n_n_0_1_1128 x i) : (⟨S100000x128, .f32⟩ : BufTy).Contents (Elt F) → (⟨S1280000x1, .i32⟩ : BufTy).Contents (Elt F) → (⟨S1280000x128, .f32⟩ : BufTy).Contents (Elt F)),
    nullary main_cst_7 (constant S_ .f32 0x00000000#32),
    unary main_cst_7 main_v46 (broadcastInDim S100000x128 ![] bcast_S_S100000x128 : (⟨S_, .f32⟩ : BufTy).Contents (Elt F) → (⟨S100000x128, .f32⟩ : BufTy).Contents (Elt F)),
    unary main_v3 main_v47 (broadcastInDim S1280000x1 ![0] bcast_S1280000_S1280000x1_0 : (⟨S1280000, .i32⟩ : BufTy).Contents (Elt F) → (⟨S1280000x1, .i32⟩ : BufTy).Contents (Elt F)),
    ternary main_v46 main_v47 main_v45 main_v48 ((fun x i u => Host.scatterAdd scatter_S100000x128_S1280000x1_S1280000x128_1_0_0_1 x i u) : (⟨S100000x128, .f32⟩ : BufTy).Contents (Elt F) → (⟨S1280000x1, .i32⟩ : BufTy).Contents (Elt F) → (⟨S1280000x128, .f32⟩ : BufTy).Contents (Elt F) → (⟨S100000x128, .f32⟩ : BufTy).Contents (Elt F)),
    binary main_v38 main_v48 main_v49 (addf : (⟨S100000x128, .f32⟩ : BufTy).Contents (Elt F) → (⟨S100000x128, .f32⟩ : BufTy).Contents (Elt F) → (⟨S100000x128, .f32⟩ : BufTy).Contents (Elt F)) ]

/-- The buffers the piece writes, in order. -/
abbrev sg3_W : List (Ref sig .tc) :=
  [main_c_5, main_v39, main_v40, main_c_6, main_v41, main_v42, main_v43, main_v44,
    main_v45, main_cst_7, main_v46, main_v47, main_v48, main_v49]

set_option maxRecDepth 8192 in
theorem sg3_writes : (sg3 : List (HloOp τ sig (Elt F))).Forall fun op =>
    op.writes ⊆ (sg3_W.map (Proc.devRef (τ := τ) .tc)).toFinset :=
  ⟨writes_sub (nullary_writes ..) (by decide), writes_sub (unary_writes ..) (by decide), writes_sub (binary_writes ..) (by decide),
    writes_sub (nullary_writes ..) (by decide), writes_sub (unary_writes ..) (by decide), writes_sub (binary_writes ..) (by decide),
    writes_sub (ternary_writes ..) (by decide), writes_sub (unary_writes ..) (by decide), writes_sub (binary_writes ..) (by decide),
    writes_sub (nullary_writes ..) (by decide), writes_sub (unary_writes ..) (by decide), writes_sub (unary_writes ..) (by decide),
    writes_sub (ternary_writes ..) (by decide), writes_sub (binary_writes ..) (by decide)⟩

/-- A buffer the piece does not write keeps its contents through it. -/
theorem keepSeg3 (V : Valuation τ sig (Elt F)) (r : Ref sig .tc) (h : r ∉ sg3_W) :
    after sg3 V (Proc.devRef .tc r) = V (Proc.devRef .tc r) :=
  after_of_writes_sub sg3 V sg3_writes h

/-- Operations 84 … 87 of @main's line: the linear map at width 128. -/
abbrev sg4 : List (HloOp τ sig (Elt F)) :=
  [ binary main_v49 main_arg10 main_v50 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg11 main_v51 (broadcastInDim S1x128 ![1] bcast_S128_S1x128_1 : (⟨S128, .f32⟩ : BufTy).Contents (Elt F) → (⟨S1x128, .f32⟩ : BufTy).Contents (Elt F)),
    unary main_v51 main_v52 (broadcastInDim S100000x128 ![0, 1] bcast_S1x128_S100000x128_0_1 : (⟨S1x128, .f32⟩ : BufTy).Contents (Elt F) → (⟨S100000x128, .f32⟩ : BufTy).Contents (Elt F)),
    binary main_v50 main_v52 main_v53 (addf : (⟨S100000x128, .f32⟩ : BufTy).Contents (Elt F) → (⟨S100000x128, .f32⟩ : BufTy).Contents (Elt F) → (⟨S100000x128, .f32⟩ : BufTy).Contents (Elt F)) ]

/-- The buffers the piece writes, in order. -/
abbrev sg4_W : List (Ref sig .tc) :=
  [main_v50, main_v51, main_v52, main_v53]

set_option maxRecDepth 8192 in
theorem sg4_writes : (sg4 : List (HloOp τ sig (Elt F))).Forall fun op =>
    op.writes ⊆ (sg4_W.map (Proc.devRef (τ := τ) .tc)).toFinset :=
  ⟨writes_sub (binary_writes ..) (by decide), writes_sub (unary_writes ..) (by decide), writes_sub (unary_writes ..) (by decide),
    writes_sub (binary_writes ..) (by decide)⟩

/-- A buffer the piece does not write keeps its contents through it. -/
theorem keepSeg4 (V : Valuation τ sig (Elt F)) (r : Ref sig .tc) (h : r ∉ sg4_W) :
    after sg4 V (Proc.devRef .tc r) = V (Proc.devRef .tc r) :=
  after_of_writes_sub sg4 V sg4_writes h

/-- Operations 88 … 134 of @main's line: the column normalisation, scale, shift and clip. -/
abbrev sg5 : List (HloOp τ sig (Elt F)) :=
  [ nullary main_cst_8 (constant S_ .f32 0x00000000#32),
    binary main_v53 main_cst_8 main_v54 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_9 (constant S_ .f32 0x47C35000#32),
    unary main_cst_9 main_v55 (broadcastInDim S128 ![] bcast_S_S128 : (⟨S_, .f32⟩ : BufTy).Contents (Elt F) → (⟨S128, .f32⟩ : BufTy).Contents (Elt F)),
    binary main_v54 main_v55 main_v56 (Host.divf : (⟨S128, .f32⟩ : BufTy).Contents (Elt F) → (⟨S128, .f32⟩ : BufTy).Contents (Elt F) → (⟨S128, .f32⟩ : BufTy).Contents (Elt F)),
    nullary main_c_10 (constantI S_ 32 0#32),
    TRef.nullary main_call2.cst (constant S_ .f32 0x00000000#32),
    TRef.binary (.of main_v53) main_call2.cst main_call2.v0 (fun x v => Host.reduceAdd x v reducesTo_S100000x128_S128_d0 h_S_),
    TRef.unary main_call2.v0 main_call2.v1 (broadcastInDim S1x128 ![1] bcast_S128_S1x128_1),
    TRef.nullary main_call2.cst_0 (constant S_ .f32 0x47C35000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S100000x128 ![0, 1] bcast_S1x128_S100000x128_0_1),
    TRef.binary (.of main_v53) main_call2.v4 main_call2.v5 subf,
    TRef.binary main_call2.v5 main_call2.v5 main_call2.v6 mulf,
    TRef.unary (.of main_c_10) main_call2.v7 (sitofp .f32),
    TRef.nullary main_call2.cst_1 (constant S_ .f32 0x47C35000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S100000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b),
    unary main_v56 main_v58 (broadcastInDim S1x128 ![1] bcast_S128_S1x128_1 : (⟨S128, .f32⟩ : BufTy).Contents (Elt F) → (⟨S1x128, .f32⟩ : BufTy).Contents (Elt F)),
    unary main_v58 main_v59 (broadcastInDim S100000x128 ![0, 1] bcast_S1x128_S100000x128_0_1 : (⟨S1x128, .f32⟩ : BufTy).Contents (Elt F) → (⟨S100000x128, .f32⟩ : BufTy).Contents (Elt F)),
    binary main_v53 main_v59 main_v60 (subf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x3727C5AC#32),
    unary main_cst_11 main_v61 (broadcastInDim S128 ![] bcast_S_S128 : (⟨S_, .f32⟩ : BufTy).Contents (Elt F) → (⟨S128, .f32⟩ : BufTy).Contents (Elt F)),
    binary main_v57 main_v61 main_v62 (addf : (⟨S128, .f32⟩ : BufTy).Contents (Elt F) → (⟨S128, .f32⟩ : BufTy).Contents (Elt F) → (⟨S128, .f32⟩ : BufTy).Contents (Elt F)),
    unary main_v62 main_v63 (Host.rsqrt : (⟨S128, .f32⟩ : BufTy).Contents (Elt F) → (⟨S128, .f32⟩ : BufTy).Contents (Elt F)),
    unary main_v63 main_v64 (broadcastInDim S1x128 ![1] bcast_S128_S1x128_1 : (⟨S128, .f32⟩ : BufTy).Contents (Elt F) → (⟨S1x128, .f32⟩ : BufTy).Contents (Elt F)),
    unary main_v64 main_v65 (broadcastInDim S100000x128 ![0, 1] bcast_S1x128_S100000x128_0_1 : (⟨S1x128, .f32⟩ : BufTy).Contents (Elt F) → (⟨S100000x128, .f32⟩ : BufTy).Contents (Elt F)),
    binary main_v60 main_v65 main_v66 (mulf : (⟨S100000x128, .f32⟩ : BufTy).Contents (Elt F) → (⟨S100000x128, .f32⟩ : BufTy).Contents (Elt F) → (⟨S100000x128, .f32⟩ : BufTy).Contents (Elt F)),
    unary main_arg12 main_v67 (broadcastInDim S1x128 ![1] bcast_S128_S1x128_1 : (⟨S128, .f32⟩ : BufTy).Contents (Elt F) → (⟨S1x128, .f32⟩ : BufTy).Contents (Elt F)),
    unary main_v67 main_v68 (broadcastInDim S100000x128 ![0, 1] bcast_S1x128_S100000x128_0_1 : (⟨S1x128, .f32⟩ : BufTy).Contents (Elt F) → (⟨S100000x128, .f32⟩ : BufTy).Contents (Elt F)),
    binary main_v66 main_v68 main_v69 (mulf : (⟨S100000x128, .f32⟩ : BufTy).Contents (Elt F) → (⟨S100000x128, .f32⟩ : BufTy).Contents (Elt F) → (⟨S100000x128, .f32⟩ : BufTy).Contents (Elt F)),
    unary main_arg13 main_v70 (broadcastInDim S1x128 ![1] bcast_S128_S1x128_1 : (⟨S128, .f32⟩ : BufTy).Contents (Elt F) → (⟨S1x128, .f32⟩ : BufTy).Contents (Elt F)),
    unary main_v70 main_v71 (broadcastInDim S100000x128 ![0, 1] bcast_S1x128_S100000x128_0_1 : (⟨S1x128, .f32⟩ : BufTy).Contents (Elt F) → (⟨S100000x128, .f32⟩ : BufTy).Contents (Elt F)),
    binary main_v69 main_v71 main_v72 (addf : (⟨S100000x128, .f32⟩ : BufTy).Contents (Elt F) → (⟨S100000x128, .f32⟩ : BufTy).Contents (Elt F) → (⟨S100000x128, .f32⟩ : BufTy).Contents (Elt F)),
    TRef.nullary main_call3.cst (constant S_ .f32 0x00000000#32),
    TRef.unary main_call3.cst main_call3.v0 (broadcastInDim S100000x128 ![] bcast_S_S100000x128),
    TRef.binary (.of main_v72) main_call3.v0 main_call3.v1 maximumf ]

/-- The buffers the piece writes, in order. -/
abbrev sg5_W : List (Ref sig .tc) :=
  [main_cst_8, main_v54, main_cst_9, main_v55, main_v56, main_c_10, main_call2_cst, main_call2_v0,
    main_call2_v1, main_call2_cst_0, main_call2_v2, main_call2_v3, main_call2_v4, main_call2_v5, main_call2_v6, main_call2_v7,
    main_call2_cst_1, main_call2_v8, main_call2_cst_2, main_call2_v9, main_call2_v10, main_call2_v11, main_call2_cst_3, main_call2_v12,
    main_call2_cst_4, main_call2_call0_v0, main_call2_call0_v1, main_v57, main_v58, main_v59, main_v60, main_cst_11,
    main_v61, main_v62, main_v63, main_v64, main_v65, main_v66, main_v67, main_v68,
    main_v69, main_v70, main_v71, main_v72, main_call3_cst, main_call3_v0, main_v73]

set_option maxRecDepth 8192 in
theorem sg5_writes : (sg5 : List (HloOp τ sig (Elt F))).Forall fun op =>
    op.writes ⊆ (sg5_W.map (Proc.devRef (τ := τ) .tc)).toFinset :=
  ⟨writes_sub (nullary_writes ..) (by decide), writes_sub (binary_writes ..) (by decide), writes_sub (nullary_writes ..) (by decide),
    writes_sub (unary_writes ..) (by decide), writes_sub (binary_writes ..) (by decide), writes_sub (nullary_writes ..) (by decide),
    writes_sub (nullary_writes ..) (by decide), writes_sub (binary_writes ..) (by decide), writes_sub (unary_writes ..) (by decide),
    writes_sub (nullary_writes ..) (by decide), writes_sub (unary_writes ..) (by decide), writes_sub (binary_writes ..) (by decide),
    writes_sub (unary_writes ..) (by decide), writes_sub (binary_writes ..) (by decide), writes_sub (binary_writes ..) (by decide),
    writes_sub (unary_writes ..) (by decide), writes_sub (nullary_writes ..) (by decide), writes_sub (binary_writes ..) (by decide),
    writes_sub (nullary_writes ..) (by decide), writes_sub (binary_writes ..) (by decide), writes_sub (unary_writes ..) (by decide),
    writes_sub (binary_writes ..) (by decide), writes_sub (nullary_writes ..) (by decide), writes_sub (binary_writes ..) (by decide),
    writes_sub (nullary_writes ..) (by decide), writes_sub (unary_writes ..) (by decide), writes_sub (unary_writes ..) (by decide),
    writes_sub (ternary_writes ..) (by decide), writes_sub (unary_writes ..) (by decide), writes_sub (unary_writes ..) (by decide),
    writes_sub (binary_writes ..) (by decide), writes_sub (nullary_writes ..) (by decide), writes_sub (unary_writes ..) (by decide),
    writes_sub (binary_writes ..) (by decide), writes_sub (unary_writes ..) (by decide), writes_sub (unary_writes ..) (by decide),
    writes_sub (unary_writes ..) (by decide), writes_sub (binary_writes ..) (by decide), writes_sub (unary_writes ..) (by decide),
    writes_sub (unary_writes ..) (by decide), writes_sub (binary_writes ..) (by decide), writes_sub (unary_writes ..) (by decide),
    writes_sub (unary_writes ..) (by decide), writes_sub (binary_writes ..) (by decide), writes_sub (nullary_writes ..) (by decide),
    writes_sub (unary_writes ..) (by decide), writes_sub (binary_writes ..) (by decide)⟩

/-- A buffer the piece does not write keeps its contents through it. -/
theorem keepSeg5 (V : Valuation τ sig (Elt F)) (r : Ref sig .tc) (h : r ∉ sg5_W) :
    after sg5 V (Proc.devRef .tc r) = V (Proc.devRef .tc r) :=
  after_of_writes_sub sg5 V sg5_writes h

/-- Operations 135 … 148 of @main's line: the neighbour sum at width 128. -/
abbrev sg6 : List (HloOp τ sig (Elt F)) :=
  [ nullary main_c_12 (constantI S_ 32 0#32),
    unary main_c_12 main_v74 (broadcastInDim S1280000 ![] bcast_S_S1280000 : (⟨S_, .i32⟩ : BufTy).Contents (Elt F) → (⟨S1280000, .i32⟩ : BufTy).Contents (Elt F)),
    binary main_v1 main_v74 main_v75 (cmpi .slt : (⟨S1280000, .i32⟩ : BufTy).Contents (Elt F) → (⟨S1280000, .i32⟩ : BufTy).Contents (Elt F) → (⟨S1280000, .i1⟩ : BufTy).Contents (Elt F)),
    nullary main_c_13 (constantI S_ 32 100000#32),
    unary main_c_13 main_v76 (broadcastInDim S1280000 ![] bcast_S_S1280000 : (⟨S_, .i32⟩ : BufTy).Contents (Elt F) → (⟨S1280000, .i32⟩ : BufTy).Contents (Elt F)),
    binary main_v1 main_v76 main_v77 (addi : (⟨S1280000, .i32⟩ : BufTy).Contents (Elt F) → (⟨S1280000, .i32⟩ : BufTy).Contents (Elt F) → (⟨S1280000, .i32⟩ : BufTy).Contents (Elt F)),
    ternary main_v75 main_v77 main_v1 main_v78 (select : (⟨S1280000, .i1⟩ : BufTy).Contents (Elt F) → (⟨S1280000, .i32⟩ : BufTy).Contents (Elt F) → (⟨S1280000, .i32⟩ : BufTy).Contents (Elt F) → (⟨S1280000, .i32⟩ : BufTy).Contents (Elt F)),
    unary main_v78 main_v79 (broadcastInDim S1280000x1 ![0] bcast_S1280000_S1280000x1_0 : (⟨S1280000, .i32⟩ : BufTy).Contents (Elt F) → (⟨S1280000x1, .i32⟩ : BufTy).Contents (Elt F)),
    binary main_v73 main_v79 main_v80 ((fun x i => Host.gather gather_S100000x128_S1280000x1_S1280000x128_1_0_n_n_0_1_1128 x i) : (⟨S100000x128, .f32⟩ : BufTy).Contents (Elt F) → (⟨S1280000x1, .i32⟩ : BufTy).Contents (Elt F) → (⟨S1280000x128, .f32⟩ : BufTy).Contents (Elt F)),
    nullary main_cst_14 (constant S_ .f32 0x00000000#32),
    unary main_cst_14 main_v81 (broadcastInDim S100000x128 ![] bcast_S_S100000x128 : (⟨S_, .f32⟩ : BufTy).Contents (Elt F) → (⟨S100000x128, .f32⟩ : BufTy).Contents (Elt F)),
    unary main_v3 main_v82 (broadcastInDim S1280000x1 ![0] bcast_S1280000_S1280000x1_0 : (⟨S1280000, .i32⟩ : BufTy).Contents (Elt F) → (⟨S1280000x1, .i32⟩ : BufTy).Contents (Elt F)),
    ternary main_v81 main_v82 main_v80 main_v83 ((fun x i u => Host.scatterAdd scatter_S100000x128_S1280000x1_S1280000x128_1_0_0_1 x i u) : (⟨S100000x128, .f32⟩ : BufTy).Contents (Elt F) → (⟨S1280000x1, .i32⟩ : BufTy).Contents (Elt F) → (⟨S1280000x128, .f32⟩ : BufTy).Contents (Elt F) → (⟨S100000x128, .f32⟩ : BufTy).Contents (Elt F)),
    binary main_v73 main_v83 main_v84 (addf : (⟨S100000x128, .f32⟩ : BufTy).Contents (Elt F) → (⟨S100000x128, .f32⟩ : BufTy).Contents (Elt F) → (⟨S100000x128, .f32⟩ : BufTy).Contents (Elt F)) ]

/-- The buffers the piece writes, in order. -/
abbrev sg6_W : List (Ref sig .tc) :=
  [main_c_12, main_v74, main_v75, main_c_13, main_v76, main_v77, main_v78, main_v79,
    main_v80, main_cst_14, main_v81, main_v82, main_v83, main_v84]

set_option maxRecDepth 8192 in
theorem sg6_writes : (sg6 : List (HloOp τ sig (Elt F))).Forall fun op =>
    op.writes ⊆ (sg6_W.map (Proc.devRef (τ := τ) .tc)).toFinset :=
  ⟨writes_sub (nullary_writes ..) (by decide), writes_sub (unary_writes ..) (by decide), writes_sub (binary_writes ..) (by decide),
    writes_sub (nullary_writes ..) (by decide), writes_sub (unary_writes ..) (by decide), writes_sub (binary_writes ..) (by decide),
    writes_sub (ternary_writes ..) (by decide), writes_sub (unary_writes ..) (by decide), writes_sub (binary_writes ..) (by decide),
    writes_sub (nullary_writes ..) (by decide), writes_sub (unary_writes ..) (by decide), writes_sub (unary_writes ..) (by decide),
    writes_sub (ternary_writes ..) (by decide), writes_sub (binary_writes ..) (by decide)⟩

/-- A buffer the piece does not write keeps its contents through it. -/
theorem keepSeg6 (V : Valuation τ sig (Elt F)) (r : Ref sig .tc) (h : r ∉ sg6_W) :
    after sg6 V (Proc.devRef .tc r) = V (Proc.devRef .tc r) :=
  after_of_writes_sub sg6 V sg6_writes h

/-- Operations 149 … 152 of @main's line: the linear map at width 128. -/
abbrev sg7 : List (HloOp τ sig (Elt F)) :=
  [ binary main_v84 main_arg14 main_v85 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg15 main_v86 (broadcastInDim S1x128 ![1] bcast_S128_S1x128_1 : (⟨S128, .f32⟩ : BufTy).Contents (Elt F) → (⟨S1x128, .f32⟩ : BufTy).Contents (Elt F)),
    unary main_v86 main_v87 (broadcastInDim S100000x128 ![0, 1] bcast_S1x128_S100000x128_0_1 : (⟨S1x128, .f32⟩ : BufTy).Contents (Elt F) → (⟨S100000x128, .f32⟩ : BufTy).Contents (Elt F)),
    binary main_v85 main_v87 main_v88 (addf : (⟨S100000x128, .f32⟩ : BufTy).Contents (Elt F) → (⟨S100000x128, .f32⟩ : BufTy).Contents (Elt F) → (⟨S100000x128, .f32⟩ : BufTy).Contents (Elt F)) ]

/-- The buffers the piece writes, in order. -/
abbrev sg7_W : List (Ref sig .tc) :=
  [main_v85, main_v86, main_v87, main_v88]

set_option maxRecDepth 8192 in
theorem sg7_writes : (sg7 : List (HloOp τ sig (Elt F))).Forall fun op =>
    op.writes ⊆ (sg7_W.map (Proc.devRef (τ := τ) .tc)).toFinset :=
  ⟨writes_sub (binary_writes ..) (by decide), writes_sub (unary_writes ..) (by decide), writes_sub (unary_writes ..) (by decide),
    writes_sub (binary_writes ..) (by decide)⟩

/-- A buffer the piece does not write keeps its contents through it. -/
theorem keepSeg7 (V : Valuation τ sig (Elt F)) (r : Ref sig .tc) (h : r ∉ sg7_W) :
    after sg7 V (Proc.devRef .tc r) = V (Proc.devRef .tc r) :=
  after_of_writes_sub sg7 V sg7_writes h

/-- Operations 153 … 199 of @main's line: the column normalisation, scale, shift and clip. -/
abbrev sg8 : List (HloOp τ sig (Elt F)) :=
  [ nullary main_cst_15 (constant S_ .f32 0x00000000#32),
    binary main_v88 main_cst_15 main_v89 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_16 (constant S_ .f32 0x47C35000#32),
    unary main_cst_16 main_v90 (broadcastInDim S128 ![] bcast_S_S128 : (⟨S_, .f32⟩ : BufTy).Contents (Elt F) → (⟨S128, .f32⟩ : BufTy).Contents (Elt F)),
    binary main_v89 main_v90 main_v91 (Host.divf : (⟨S128, .f32⟩ : BufTy).Contents (Elt F) → (⟨S128, .f32⟩ : BufTy).Contents (Elt F) → (⟨S128, .f32⟩ : BufTy).Contents (Elt F)),
    nullary main_c_17 (constantI S_ 32 0#32),
    TRef.nullary main_call4.cst (constant S_ .f32 0x00000000#32),
    TRef.binary (.of main_v88) main_call4.cst main_call4.v0 (fun x v => Host.reduceAdd x v reducesTo_S100000x128_S128_d0 h_S_),
    TRef.unary main_call4.v0 main_call4.v1 (broadcastInDim S1x128 ![1] bcast_S128_S1x128_1),
    TRef.nullary main_call4.cst_0 (constant S_ .f32 0x47C35000#32),
    TRef.unary main_call4.cst_0 main_call4.v2 (broadcastInDim S1x128 ![] bcast_S_S1x128),
    TRef.binary main_call4.v1 main_call4.v2 main_call4.v3 Host.divf,
    TRef.unary main_call4.v3 main_call4.v4 (broadcastInDim S100000x128 ![0, 1] bcast_S1x128_S100000x128_0_1),
    TRef.binary (.of main_v88) main_call4.v4 main_call4.v5 subf,
    TRef.binary main_call4.v5 main_call4.v5 main_call4.v6 mulf,
    TRef.unary (.of main_c_17) main_call4.v7 (sitofp .f32),
    TRef.nullary main_call4.cst_1 (constant S_ .f32 0x47C35000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S100000x128_S128_d0 h_S_),
    TRef.unary main_call4.v8 main_call4.v10 (broadcastInDim S128 ![] bcast_S_S128),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S128 ![] bcast_S_S128),
    TRef.ternary main_call4.v12 main_call4.v11 main_call4.call0.v1 main_call4.call0.v2 (fun p a b => select (broadcastInDim S128 ![] bcast_S_S128 p) a b),
    unary main_v91 main_v93 (broadcastInDim S1x128 ![1] bcast_S128_S1x128_1 : (⟨S128, .f32⟩ : BufTy).Contents (Elt F) → (⟨S1x128, .f32⟩ : BufTy).Contents (Elt F)),
    unary main_v93 main_v94 (broadcastInDim S100000x128 ![0, 1] bcast_S1x128_S100000x128_0_1 : (⟨S1x128, .f32⟩ : BufTy).Contents (Elt F) → (⟨S100000x128, .f32⟩ : BufTy).Contents (Elt F)),
    binary main_v88 main_v94 main_v95 (subf : (⟨S100000x128, .f32⟩ : BufTy).Contents (Elt F) → (⟨S100000x128, .f32⟩ : BufTy).Contents (Elt F) → (⟨S100000x128, .f32⟩ : BufTy).Contents (Elt F)),
    nullary main_cst_18 (constant S_ .f32 0x3727C5AC#32),
    unary main_cst_18 main_v96 (broadcastInDim S128 ![] bcast_S_S128 : (⟨S_, .f32⟩ : BufTy).Contents (Elt F) → (⟨S128, .f32⟩ : BufTy).Contents (Elt F)),
    binary main_v92 main_v96 main_v97 (addf : (⟨S128, .f32⟩ : BufTy).Contents (Elt F) → (⟨S128, .f32⟩ : BufTy).Contents (Elt F) → (⟨S128, .f32⟩ : BufTy).Contents (Elt F)),
    unary main_v97 main_v98 (Host.rsqrt : (⟨S128, .f32⟩ : BufTy).Contents (Elt F) → (⟨S128, .f32⟩ : BufTy).Contents (Elt F)),
    unary main_v98 main_v99 (broadcastInDim S1x128 ![1] bcast_S128_S1x128_1 : (⟨S128, .f32⟩ : BufTy).Contents (Elt F) → (⟨S1x128, .f32⟩ : BufTy).Contents (Elt F)),
    unary main_v99 main_v100 (broadcastInDim S100000x128 ![0, 1] bcast_S1x128_S100000x128_0_1 : (⟨S1x128, .f32⟩ : BufTy).Contents (Elt F) → (⟨S100000x128, .f32⟩ : BufTy).Contents (Elt F)),
    binary main_v95 main_v100 main_v101 (mulf : (⟨S100000x128, .f32⟩ : BufTy).Contents (Elt F) → (⟨S100000x128, .f32⟩ : BufTy).Contents (Elt F) → (⟨S100000x128, .f32⟩ : BufTy).Contents (Elt F)),
    unary main_arg16 main_v102 (broadcastInDim S1x128 ![1] bcast_S128_S1x128_1 : (⟨S128, .f32⟩ : BufTy).Contents (Elt F) → (⟨S1x128, .f32⟩ : BufTy).Contents (Elt F)),
    unary main_v102 main_v103 (broadcastInDim S100000x128 ![0, 1] bcast_S1x128_S100000x128_0_1 : (⟨S1x128, .f32⟩ : BufTy).Contents (Elt F) → (⟨S100000x128, .f32⟩ : BufTy).Contents (Elt F)),
    binary main_v101 main_v103 main_v104 (mulf : (⟨S100000x128, .f32⟩ : BufTy).Contents (Elt F) → (⟨S100000x128, .f32⟩ : BufTy).Contents (Elt F) → (⟨S100000x128, .f32⟩ : BufTy).Contents (Elt F)),
    unary main_arg17 main_v105 (broadcastInDim S1x128 ![1] bcast_S128_S1x128_1 : (⟨S128, .f32⟩ : BufTy).Contents (Elt F) → (⟨S1x128, .f32⟩ : BufTy).Contents (Elt F)),
    unary main_v105 main_v106 (broadcastInDim S100000x128 ![0, 1] bcast_S1x128_S100000x128_0_1 : (⟨S1x128, .f32⟩ : BufTy).Contents (Elt F) → (⟨S100000x128, .f32⟩ : BufTy).Contents (Elt F)),
    binary main_v104 main_v106 main_v107 (addf : (⟨S100000x128, .f32⟩ : BufTy).Contents (Elt F) → (⟨S100000x128, .f32⟩ : BufTy).Contents (Elt F) → (⟨S100000x128, .f32⟩ : BufTy).Contents (Elt F)),
    TRef.nullary main_call5.cst (constant S_ .f32 0x00000000#32),
    TRef.unary main_call5.cst main_call5.v0 (broadcastInDim S100000x128 ![] bcast_S_S100000x128),
    TRef.binary (.of main_v107) main_call5.v0 main_call5.v1 maximumf ]

/-- The buffers the piece writes, in order. -/
abbrev sg8_W : List (Ref sig .tc) :=
  [main_cst_15, main_v89, main_cst_16, main_v90, main_v91, main_c_17, main_call4_cst, main_call4_v0,
    main_call4_v1, main_call4_cst_0, main_call4_v2, main_call4_v3, main_call4_v4, main_call4_v5, main_call4_v6, main_call4_v7,
    main_call4_cst_1, main_call4_v8, main_call4_cst_2, main_call4_v9, main_call4_v10, main_call4_v11, main_call4_cst_3, main_call4_v12,
    main_call4_cst_4, main_call4_call0_v0, main_call4_call0_v1, main_v92, main_v93, main_v94, main_v95, main_cst_18,
    main_v96, main_v97, main_v98, main_v99, main_v100, main_v101, main_v102, main_v103,
    main_v104, main_v105, main_v106, main_v107, main_call5_cst, main_call5_v0, main_v108]

set_option maxRecDepth 8192 in
theorem sg8_writes : (sg8 : List (HloOp τ sig (Elt F))).Forall fun op =>
    op.writes ⊆ (sg8_W.map (Proc.devRef (τ := τ) .tc)).toFinset :=
  ⟨writes_sub (nullary_writes ..) (by decide), writes_sub (binary_writes ..) (by decide), writes_sub (nullary_writes ..) (by decide),
    writes_sub (unary_writes ..) (by decide), writes_sub (binary_writes ..) (by decide), writes_sub (nullary_writes ..) (by decide),
    writes_sub (nullary_writes ..) (by decide), writes_sub (binary_writes ..) (by decide), writes_sub (unary_writes ..) (by decide),
    writes_sub (nullary_writes ..) (by decide), writes_sub (unary_writes ..) (by decide), writes_sub (binary_writes ..) (by decide),
    writes_sub (unary_writes ..) (by decide), writes_sub (binary_writes ..) (by decide), writes_sub (binary_writes ..) (by decide),
    writes_sub (unary_writes ..) (by decide), writes_sub (nullary_writes ..) (by decide), writes_sub (binary_writes ..) (by decide),
    writes_sub (nullary_writes ..) (by decide), writes_sub (binary_writes ..) (by decide), writes_sub (unary_writes ..) (by decide),
    writes_sub (binary_writes ..) (by decide), writes_sub (nullary_writes ..) (by decide), writes_sub (binary_writes ..) (by decide),
    writes_sub (nullary_writes ..) (by decide), writes_sub (unary_writes ..) (by decide), writes_sub (unary_writes ..) (by decide),
    writes_sub (ternary_writes ..) (by decide), writes_sub (unary_writes ..) (by decide), writes_sub (unary_writes ..) (by decide),
    writes_sub (binary_writes ..) (by decide), writes_sub (nullary_writes ..) (by decide), writes_sub (unary_writes ..) (by decide),
    writes_sub (binary_writes ..) (by decide), writes_sub (unary_writes ..) (by decide), writes_sub (unary_writes ..) (by decide),
    writes_sub (unary_writes ..) (by decide), writes_sub (binary_writes ..) (by decide), writes_sub (unary_writes ..) (by decide),
    writes_sub (unary_writes ..) (by decide), writes_sub (binary_writes ..) (by decide), writes_sub (unary_writes ..) (by decide),
    writes_sub (unary_writes ..) (by decide), writes_sub (binary_writes ..) (by decide), writes_sub (nullary_writes ..) (by decide),
    writes_sub (unary_writes ..) (by decide), writes_sub (binary_writes ..) (by decide)⟩

/-- A buffer the piece does not write keeps its contents through it. -/
theorem keepSeg8 (V : Valuation τ sig (Elt F)) (r : Ref sig .tc) (h : r ∉ sg8_W) :
    after sg8 V (Proc.devRef .tc r) = V (Proc.devRef .tc r) :=
  after_of_writes_sub sg8 V sg8_writes h

/-- Operations 200 … 219 of @main's line: the segment means and their embedding. -/
abbrev sg9 : List (HloOp τ sig (Elt F)) :=
  [ nullary main_cst_19 (constant S_ .f32 0x00000000#32),
    unary main_cst_19 main_v109 (broadcastInDim S256x128 ![] bcast_S_S256x128 : (⟨S_, .f32⟩ : BufTy).Contents (Elt F) → (⟨S256x128, .f32⟩ : BufTy).Contents (Elt F)),
    unary main_arg2 main_v110 (broadcastInDim S100000x1 ![0] bcast_S100000_S100000x1_0 : (⟨S100000, .i32⟩ : BufTy).Contents (Elt F) → (⟨S100000x1, .i32⟩ : BufTy).Contents (Elt F)),
    ternary main_v109 main_v110 main_v108 main_v111 ((fun x i u => Host.scatterAdd scatter_S256x128_S100000x1_S100000x128_1_0_0_1 x i u) : (⟨S256x128, .f32⟩ : BufTy).Contents (Elt F) → (⟨S100000x1, .i32⟩ : BufTy).Contents (Elt F) → (⟨S100000x128, .f32⟩ : BufTy).Contents (Elt F) → (⟨S256x128, .f32⟩ : BufTy).Contents (Elt F)),
    nullary main_cst_20 (constant S_ .f32 0x3F800000#32),
    unary main_cst_20 main_v112 (broadcastInDim S100000 ![] bcast_S_S100000 : (⟨S_, .f32⟩ : BufTy).Contents (Elt F) → (⟨S100000, .f32⟩ : BufTy).Contents (Elt F)),
    nullary main_cst_21 (constant S_ .f32 0x00000000#32),
    unary main_cst_21 main_v113 (broadcastInDim S256 ![] bcast_S_S256 : (⟨S_, .f32⟩ : BufTy).Contents (Elt F) → (⟨S256, .f32⟩ : BufTy).Contents (Elt F)),
    unary main_arg2 main_v114 (broadcastInDim S100000x1 ![0] bcast_S100000_S100000x1_0 : (⟨S100000, .i32⟩ : BufTy).Contents (Elt F) → (⟨S100000x1, .i32⟩ : BufTy).Contents (Elt F)),
    ternary main_v113 main_v114 main_v112 main_v115 ((fun x i u => Host.scatterAdd scatter_S256_S100000x1_S100000_n_0_0_1 x i u) : (⟨S256, .f32⟩ : BufTy).Contents (Elt F) → (⟨S100000x1, .i32⟩ : BufTy).Contents (Elt F) → (⟨S100000, .f32⟩ : BufTy).Contents (Elt F) → (⟨S256, .f32⟩ : BufTy).Contents (Elt F)),
    nullary main_cst_22 (constant S_ .f32 0x3F800000#32),
    unary main_cst_22 main_v116 (broadcastInDim S256 ![] bcast_S_S256 : (⟨S_, .f32⟩ : BufTy).Contents (Elt F) → (⟨S256, .f32⟩ : BufTy).Contents (Elt F)),
    binary main_v115 main_v116 main_v117 (maximumf : (⟨S256, .f32⟩ : BufTy).Contents (Elt F) → (⟨S256, .f32⟩ : BufTy).Contents (Elt F) → (⟨S256, .f32⟩ : BufTy).Contents (Elt F)),
    unary main_v117 main_v118 (broadcastInDim S256x1 ![0] bcast_S256_S256x1_0 : (⟨S256, .f32⟩ : BufTy).Contents (Elt F) → (⟨S256x1, .f32⟩ : BufTy).Contents (Elt F)),
    unary main_v118 main_v119 (broadcastInDim S256x128 ![0, 1] bcast_S256x1_S256x128_0_1 : (⟨S256x1, .f32⟩ : BufTy).Contents (Elt F) → (⟨S256x128, .f32⟩ : BufTy).Contents (Elt F)),
    binary main_v111 main_v119 main_v120 (Host.divf : (⟨S256x128, .f32⟩ : BufTy).Contents (Elt F) → (⟨S256x128, .f32⟩ : BufTy).Contents (Elt F) → (⟨S256x128, .f32⟩ : BufTy).Contents (Elt F)),
    binary main_v120 main_arg18 main_v121 ((fun l r => Host.dotGeneral dot_S256x128_S128x64_S256x64_1_0_0_1_n_n none l r) : (⟨S256x128, .f32⟩ : BufTy).Contents (Elt F) → (⟨S128x64, .f32⟩ : BufTy).Contents (Elt F) → (⟨S256x64, .f32⟩ : BufTy).Contents (Elt F)),
    unary main_arg19 main_v122 (broadcastInDim S1x64 ![1] bcast_S64_S1x64_1 : (⟨S64, .f32⟩ : BufTy).Contents (Elt F) → (⟨S1x64, .f32⟩ : BufTy).Contents (Elt F)),
    unary main_v122 main_v123 (broadcastInDim S256x64 ![0, 1] bcast_S1x64_S256x64_0_1 : (⟨S1x64, .f32⟩ : BufTy).Contents (Elt F) → (⟨S256x64, .f32⟩ : BufTy).Contents (Elt F)),
    binary main_v121 main_v123 main_v124 (addf : (⟨S256x64, .f32⟩ : BufTy).Contents (Elt F) → (⟨S256x64, .f32⟩ : BufTy).Contents (Elt F) → (⟨S256x64, .f32⟩ : BufTy).Contents (Elt F)) ]

/-- The buffers the piece writes, in order. -/
abbrev sg9_W : List (Ref sig .tc) :=
  [main_cst_19, main_v109, main_v110, main_v111, main_cst_20, main_v112, main_cst_21, main_v113,
    main_v114, main_v115, main_cst_22, main_v116, main_v117, main_v118, main_v119, main_v120,
    main_v121, main_v122, main_v123, main_v124]

set_option maxRecDepth 8192 in
theorem sg9_writes : (sg9 : List (HloOp τ sig (Elt F))).Forall fun op =>
    op.writes ⊆ (sg9_W.map (Proc.devRef (τ := τ) .tc)).toFinset :=
  ⟨writes_sub (nullary_writes ..) (by decide), writes_sub (unary_writes ..) (by decide), writes_sub (unary_writes ..) (by decide),
    writes_sub (ternary_writes ..) (by decide), writes_sub (nullary_writes ..) (by decide), writes_sub (unary_writes ..) (by decide),
    writes_sub (nullary_writes ..) (by decide), writes_sub (unary_writes ..) (by decide), writes_sub (unary_writes ..) (by decide),
    writes_sub (ternary_writes ..) (by decide), writes_sub (nullary_writes ..) (by decide), writes_sub (unary_writes ..) (by decide),
    writes_sub (binary_writes ..) (by decide), writes_sub (unary_writes ..) (by decide), writes_sub (unary_writes ..) (by decide),
    writes_sub (binary_writes ..) (by decide), writes_sub (binary_writes ..) (by decide), writes_sub (unary_writes ..) (by decide),
    writes_sub (unary_writes ..) (by decide), writes_sub (binary_writes ..) (by decide)⟩

/-- A buffer the piece does not write keeps its contents through it. -/
theorem keepSeg9 (V : Valuation τ sig (Elt F)) (r : Ref sig .tc) (h : r ∉ sg9_W) :
    after sg9 V (Proc.devRef .tc r) = V (Proc.devRef .tc r) :=
  after_of_writes_sub sg9 V sg9_writes h

/-- Operations 220 … 237 of @main's line: the edge rows and the neighbour sum at width 64. -/
abbrev sg10 : List (HloOp τ sig (Elt F)) :=
  [ unary main_arg4 main_v125 ((extractStridedSlice S1x1280000 ![0, 0] · slices_S2x1280000_S1x1280000_0_0) : (⟨S2x1280000, .i32⟩ : BufTy).Contents (Elt F) → (⟨S1x1280000, .i32⟩ : BufTy).Contents (Elt F)),
    reshape main_v125 main_v126 rfl shapeCasts_S1x1280000_S1280000,
    unary main_arg4 main_v127 ((extractStridedSlice S1x1280000 ![1, 0] · slices_S2x1280000_S1x1280000_1_0) : (⟨S2x1280000, .i32⟩ : BufTy).Contents (Elt F) → (⟨S1x1280000, .i32⟩ : BufTy).Contents (Elt F)),
    reshape main_v127 main_v128 rfl shapeCasts_S1x1280000_S1280000,
    nullary main_c_23 (constantI S_ 32 0#32),
    unary main_c_23 main_v129 (broadcastInDim S1280000 ![] bcast_S_S1280000 : (⟨S_, .i32⟩ : BufTy).Contents (Elt F) → (⟨S1280000, .i32⟩ : BufTy).Contents (Elt F)),
    binary main_v126 main_v129 main_v130 (cmpi .slt : (⟨S1280000, .i32⟩ : BufTy).Contents (Elt F) → (⟨S1280000, .i32⟩ : BufTy).Contents (Elt F) → (⟨S1280000, .i1⟩ : BufTy).Contents (Elt F)),
    nullary main_c_24 (constantI S_ 32 100000#32),
    unary main_c_24 main_v131 (broadcastInDim S1280000 ![] bcast_S_S1280000 : (⟨S_, .i32⟩ : BufTy).Contents (Elt F) → (⟨S1280000, .i32⟩ : BufTy).Contents (Elt F)),
    binary main_v126 main_v131 main_v132 (addi : (⟨S1280000, .i32⟩ : BufTy).Contents (Elt F) → (⟨S1280000, .i32⟩ : BufTy).Contents (Elt F) → (⟨S1280000, .i32⟩ : BufTy).Contents (Elt F)),
    ternary main_v130 main_v132 main_v126 main_v133 (select : (⟨S1280000, .i1⟩ : BufTy).Contents (Elt F) → (⟨S1280000, .i32⟩ : BufTy).Contents (Elt F) → (⟨S1280000, .i32⟩ : BufTy).Contents (Elt F) → (⟨S1280000, .i32⟩ : BufTy).Contents (Elt F)),
    unary main_v133 main_v134 (broadcastInDim S1280000x1 ![0] bcast_S1280000_S1280000x1_0 : (⟨S1280000, .i32⟩ : BufTy).Contents (Elt F) → (⟨S1280000x1, .i32⟩ : BufTy).Contents (Elt F)),
    binary main_arg3 main_v134 main_v135 ((fun x i => Host.gather gather_S100000x64_S1280000x1_S1280000x64_1_0_n_n_0_1_164 x i) : (⟨S100000x64, .f32⟩ : BufTy).Contents (Elt F) → (⟨S1280000x1, .i32⟩ : BufTy).Contents (Elt F) → (⟨S1280000x64, .f32⟩ : BufTy).Contents (Elt F)),
    nullary main_cst_25 (constant S_ .f32 0x00000000#32),
    unary main_cst_25 main_v136 (broadcastInDim S100000x64 ![] bcast_S_S100000x64 : (⟨S_, .f32⟩ : BufTy).Contents (Elt F) → (⟨S100000x64, .f32⟩ : BufTy).Contents (Elt F)),
    unary main_v128 main_v137 (broadcastInDim S1280000x1 ![0] bcast_S1280000_S1280000x1_0 : (⟨S1280000, .i32⟩ : BufTy).Contents (Elt F) → (⟨S1280000x1, .i32⟩ : BufTy).Contents (Elt F)),
    ternary main_v136 main_v137 main_v135 main_v138 ((fun x i u => Host.scatterAdd scatter_S100000x64_S1280000x1_S1280000x64_1_0_0_1 x i u) : (⟨S100000x64, .f32⟩ : BufTy).Contents (Elt F) → (⟨S1280000x1, .i32⟩ : BufTy).Contents (Elt F) → (⟨S1280000x64, .f32⟩ : BufTy).Contents (Elt F) → (⟨S100000x64, .f32⟩ : BufTy).Contents (Elt F)),
    binary main_arg3 main_v138 main_v139 (addf : (⟨S100000x64, .f32⟩ : BufTy).Contents (Elt F) → (⟨S100000x64, .f32⟩ : BufTy).Contents (Elt F) → (⟨S100000x64, .f32⟩ : BufTy).Contents (Elt F)) ]

/-- The buffers the piece writes, in order. -/
abbrev sg10_W : List (Ref sig .tc) :=
  [main_v125, main_v126, main_v127, main_v128, main_c_23, main_v129, main_v130, main_c_24,
    main_v131, main_v132, main_v133, main_v134, main_v135, main_cst_25, main_v136, main_v137,
    main_v138, main_v139]

set_option maxRecDepth 8192 in
theorem sg10_writes : (sg10 : List (HloOp τ sig (Elt F))).Forall fun op =>
    op.writes ⊆ (sg10_W.map (Proc.devRef (τ := τ) .tc)).toFinset :=
  ⟨writes_sub (unary_writes ..) (by decide), writes_sub (reshape_writes ..) (by decide), writes_sub (unary_writes ..) (by decide),
    writes_sub (reshape_writes ..) (by decide), writes_sub (nullary_writes ..) (by decide), writes_sub (unary_writes ..) (by decide),
    writes_sub (binary_writes ..) (by decide), writes_sub (nullary_writes ..) (by decide), writes_sub (unary_writes ..) (by decide),
    writes_sub (binary_writes ..) (by decide), writes_sub (ternary_writes ..) (by decide), writes_sub (unary_writes ..) (by decide),
    writes_sub (binary_writes ..) (by decide), writes_sub (nullary_writes ..) (by decide), writes_sub (unary_writes ..) (by decide),
    writes_sub (unary_writes ..) (by decide), writes_sub (ternary_writes ..) (by decide), writes_sub (binary_writes ..) (by decide)⟩

/-- A buffer the piece does not write keeps its contents through it. -/
theorem keepSeg10 (V : Valuation τ sig (Elt F)) (r : Ref sig .tc) (h : r ∉ sg10_W) :
    after sg10 V (Proc.devRef .tc r) = V (Proc.devRef .tc r) :=
  after_of_writes_sub sg10 V sg10_writes h

/-- Operations 238 … 241 of @main's line: the linear map from width 64 to 128. -/
abbrev sg11 : List (HloOp τ sig (Elt F)) :=
  [ binary main_v139 main_arg6 main_v140 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    unary main_arg7 main_v141 (broadcastInDim S1x128 ![1] bcast_S128_S1x128_1 : (⟨S128, .f32⟩ : BufTy).Contents (Elt F) → (⟨S1x128, .f32⟩ : BufTy).Contents (Elt F)),
    unary main_v141 main_v142 (broadcastInDim S100000x128 ![0, 1] bcast_S1x128_S100000x128_0_1 : (⟨S1x128, .f32⟩ : BufTy).Contents (Elt F) → (⟨S100000x128, .f32⟩ : BufTy).Contents (Elt F)),
    binary main_v140 main_v142 main_v143 (addf : (⟨S100000x128, .f32⟩ : BufTy).Contents (Elt F) → (⟨S100000x128, .f32⟩ : BufTy).Contents (Elt F) → (⟨S100000x128, .f32⟩ : BufTy).Contents (Elt F)) ]

/-- The buffers the piece writes, in order. -/
abbrev sg11_W : List (Ref sig .tc) :=
  [main_v140, main_v141, main_v142, main_v143]

set_option maxRecDepth 8192 in
theorem sg11_writes : (sg11 : List (HloOp τ sig (Elt F))).Forall fun op =>
    op.writes ⊆ (sg11_W.map (Proc.devRef (τ := τ) .tc)).toFinset :=
  ⟨writes_sub (binary_writes ..) (by decide), writes_sub (unary_writes ..) (by decide), writes_sub (unary_writes ..) (by decide),
    writes_sub (binary_writes ..) (by decide)⟩

/-- A buffer the piece does not write keeps its contents through it. -/
theorem keepSeg11 (V : Valuation τ sig (Elt F)) (r : Ref sig .tc) (h : r ∉ sg11_W) :
    after sg11 V (Proc.devRef .tc r) = V (Proc.devRef .tc r) :=
  after_of_writes_sub sg11 V sg11_writes h

/-- Operations 242 … 288 of @main's line: the column normalisation, scale, shift and clip. -/
abbrev sg12 : List (HloOp τ sig (Elt F)) :=
  [ nullary main_cst_26 (constant S_ .f32 0x00000000#32),
    binary main_v143 main_cst_26 main_v144 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_27 (constant S_ .f32 0x47C35000#32),
    unary main_cst_27 main_v145 (broadcastInDim S128 ![] bcast_S_S128 : (⟨S_, .f32⟩ : BufTy).Contents (Elt F) → (⟨S128, .f32⟩ : BufTy).Contents (Elt F)),
    binary main_v144 main_v145 main_v146 (Host.divf : (⟨S128, .f32⟩ : BufTy).Contents (Elt F) → (⟨S128, .f32⟩ : BufTy).Contents (Elt F) → (⟨S128, .f32⟩ : BufTy).Contents (Elt F)),
    nullary main_c_28 (constantI S_ 32 0#32),
    TRef.nullary main_call6.cst (constant S_ .f32 0x00000000#32),
    TRef.binary (.of main_v143) main_call6.cst main_call6.v0 (fun x v => Host.reduceAdd x v reducesTo_S100000x128_S128_d0 h_S_),
    TRef.unary main_call6.v0 main_call6.v1 (broadcastInDim S1x128 ![1] bcast_S128_S1x128_1),
    TRef.nullary main_call6.cst_0 (constant S_ .f32 0x47C35000#32),
    TRef.unary main_call6.cst_0 main_call6.v2 (broadcastInDim S1x128 ![] bcast_S_S1x128),
    TRef.binary main_call6.v1 main_call6.v2 main_call6.v3 Host.divf,
    TRef.unary main_call6.v3 main_call6.v4 (broadcastInDim S100000x128 ![0, 1] bcast_S1x128_S100000x128_0_1),
    TRef.binary (.of main_v143) main_call6.v4 main_call6.v5 subf,
    TRef.binary main_call6.v5 main_call6.v5 main_call6.v6 mulf,
    TRef.unary (.of main_c_28) main_call6.v7 (sitofp .f32),
    TRef.nullary main_call6.cst_1 (constant S_ .f32 0x47C35000#32),
    TRef.binary main_call6.cst_1 main_call6.v7 main_call6.v8 subf,
    TRef.nullary main_call6.cst_2 (constant S_ .f32 0x00000000#32),
    TRef.binary main_call6.v6 main_call6.cst_2 main_call6.v9 (fun x v => Host.reduceAdd x v reducesTo_S100000x128_S128_d0 h_S_),
    TRef.unary main_call6.v8 main_call6.v10 (broadcastInDim S128 ![] bcast_S_S128),
    TRef.binary main_call6.v9 main_call6.v10 main_call6.v11 Host.divf,
    TRef.nullary main_call6.cst_3 (constant S_ .f32 0x00000000#32),
    TRef.binary main_call6.v8 main_call6.cst_3 main_call6.v12 (cmpf .ogt),
    TRef.nullary main_call6.cst_4 (constant S_ .f32 0x7FC00000#32),
    TRef.unary main_call6.cst_4 main_call6.call0.v0 id,
    TRef.unary main_call6.call0.v0 main_call6.call0.v1 (broadcastInDim S128 ![] bcast_S_S128),
    TRef.ternary main_call6.v12 main_call6.v11 main_call6.call0.v1 main_call6.call0.v2 (fun p a b => select (broadcastInDim S128 ![] bcast_S_S128 p) a b),
    unary main_v146 main_v148 (broadcastInDim S1x128 ![1] bcast_S128_S1x128_1 : (⟨S128, .f32⟩ : BufTy).Contents (Elt F) → (⟨S1x128, .f32⟩ : BufTy).Contents (Elt F)),
    unary main_v148 main_v149 (broadcastInDim S100000x128 ![0, 1] bcast_S1x128_S100000x128_0_1 : (⟨S1x128, .f32⟩ : BufTy).Contents (Elt F) → (⟨S100000x128, .f32⟩ : BufTy).Contents (Elt F)),
    binary main_v143 main_v149 main_v150 (subf : (⟨S100000x128, .f32⟩ : BufTy).Contents (Elt F) → (⟨S100000x128, .f32⟩ : BufTy).Contents (Elt F) → (⟨S100000x128, .f32⟩ : BufTy).Contents (Elt F)),
    nullary main_cst_29 (constant S_ .f32 0x3727C5AC#32),
    unary main_cst_29 main_v151 (broadcastInDim S128 ![] bcast_S_S128 : (⟨S_, .f32⟩ : BufTy).Contents (Elt F) → (⟨S128, .f32⟩ : BufTy).Contents (Elt F)),
    binary main_v147 main_v151 main_v152 (addf : (⟨S128, .f32⟩ : BufTy).Contents (Elt F) → (⟨S128, .f32⟩ : BufTy).Contents (Elt F) → (⟨S128, .f32⟩ : BufTy).Contents (Elt F)),
    unary main_v152 main_v153 (Host.rsqrt : (⟨S128, .f32⟩ : BufTy).Contents (Elt F) → (⟨S128, .f32⟩ : BufTy).Contents (Elt F)),
    unary main_v153 main_v154 (broadcastInDim S1x128 ![1] bcast_S128_S1x128_1 : (⟨S128, .f32⟩ : BufTy).Contents (Elt F) → (⟨S1x128, .f32⟩ : BufTy).Contents (Elt F)),
    unary main_v154 main_v155 (broadcastInDim S100000x128 ![0, 1] bcast_S1x128_S100000x128_0_1 : (⟨S1x128, .f32⟩ : BufTy).Contents (Elt F) → (⟨S100000x128, .f32⟩ : BufTy).Contents (Elt F)),
    binary main_v150 main_v155 main_v156 (mulf : (⟨S100000x128, .f32⟩ : BufTy).Contents (Elt F) → (⟨S100000x128, .f32⟩ : BufTy).Contents (Elt F) → (⟨S100000x128, .f32⟩ : BufTy).Contents (Elt F)),
    unary main_arg8 main_v157 (broadcastInDim S1x128 ![1] bcast_S128_S1x128_1 : (⟨S128, .f32⟩ : BufTy).Contents (Elt F) → (⟨S1x128, .f32⟩ : BufTy).Contents (Elt F)),
    unary main_v157 main_v158 (broadcastInDim S100000x128 ![0, 1] bcast_S1x128_S100000x128_0_1 : (⟨S1x128, .f32⟩ : BufTy).Contents (Elt F) → (⟨S100000x128, .f32⟩ : BufTy).Contents (Elt F)),
    binary main_v156 main_v158 main_v159 (mulf : (⟨S100000x128, .f32⟩ : BufTy).Contents (Elt F) → (⟨S100000x128, .f32⟩ : BufTy).Contents (Elt F) → (⟨S100000x128, .f32⟩ : BufTy).Contents (Elt F)),
    unary main_arg9 main_v160 (broadcastInDim S1x128 ![1] bcast_S128_S1x128_1 : (⟨S128, .f32⟩ : BufTy).Contents (Elt F) → (⟨S1x128, .f32⟩ : BufTy).Contents (Elt F)),
    unary main_v160 main_v161 (broadcastInDim S100000x128 ![0, 1] bcast_S1x128_S100000x128_0_1 : (⟨S1x128, .f32⟩ : BufTy).Contents (Elt F) → (⟨S100000x128, .f32⟩ : BufTy).Contents (Elt F)),
    binary main_v159 main_v161 main_v162 (addf : (⟨S100000x128, .f32⟩ : BufTy).Contents (Elt F) → (⟨S100000x128, .f32⟩ : BufTy).Contents (Elt F) → (⟨S100000x128, .f32⟩ : BufTy).Contents (Elt F)),
    TRef.nullary main_call7.cst (constant S_ .f32 0x00000000#32),
    TRef.unary main_call7.cst main_call7.v0 (broadcastInDim S100000x128 ![] bcast_S_S100000x128),
    TRef.binary (.of main_v162) main_call7.v0 main_call7.v1 maximumf ]

/-- The buffers the piece writes, in order. -/
abbrev sg12_W : List (Ref sig .tc) :=
  [main_cst_26, main_v144, main_cst_27, main_v145, main_v146, main_c_28, main_call6_cst, main_call6_v0,
    main_call6_v1, main_call6_cst_0, main_call6_v2, main_call6_v3, main_call6_v4, main_call6_v5, main_call6_v6, main_call6_v7,
    main_call6_cst_1, main_call6_v8, main_call6_cst_2, main_call6_v9, main_call6_v10, main_call6_v11, main_call6_cst_3, main_call6_v12,
    main_call6_cst_4, main_call6_call0_v0, main_call6_call0_v1, main_v147, main_v148, main_v149, main_v150, main_cst_29,
    main_v151, main_v152, main_v153, main_v154, main_v155, main_v156, main_v157, main_v158,
    main_v159, main_v160, main_v161, main_v162, main_call7_cst, main_call7_v0, main_v163]

set_option maxRecDepth 8192 in
theorem sg12_writes : (sg12 : List (HloOp τ sig (Elt F))).Forall fun op =>
    op.writes ⊆ (sg12_W.map (Proc.devRef (τ := τ) .tc)).toFinset :=
  ⟨writes_sub (nullary_writes ..) (by decide), writes_sub (binary_writes ..) (by decide), writes_sub (nullary_writes ..) (by decide),
    writes_sub (unary_writes ..) (by decide), writes_sub (binary_writes ..) (by decide), writes_sub (nullary_writes ..) (by decide),
    writes_sub (nullary_writes ..) (by decide), writes_sub (binary_writes ..) (by decide), writes_sub (unary_writes ..) (by decide),
    writes_sub (nullary_writes ..) (by decide), writes_sub (unary_writes ..) (by decide), writes_sub (binary_writes ..) (by decide),
    writes_sub (unary_writes ..) (by decide), writes_sub (binary_writes ..) (by decide), writes_sub (binary_writes ..) (by decide),
    writes_sub (unary_writes ..) (by decide), writes_sub (nullary_writes ..) (by decide), writes_sub (binary_writes ..) (by decide),
    writes_sub (nullary_writes ..) (by decide), writes_sub (binary_writes ..) (by decide), writes_sub (unary_writes ..) (by decide),
    writes_sub (binary_writes ..) (by decide), writes_sub (nullary_writes ..) (by decide), writes_sub (binary_writes ..) (by decide),
    writes_sub (nullary_writes ..) (by decide), writes_sub (unary_writes ..) (by decide), writes_sub (unary_writes ..) (by decide),
    writes_sub (ternary_writes ..) (by decide), writes_sub (unary_writes ..) (by decide), writes_sub (unary_writes ..) (by decide),
    writes_sub (binary_writes ..) (by decide), writes_sub (nullary_writes ..) (by decide), writes_sub (unary_writes ..) (by decide),
    writes_sub (binary_writes ..) (by decide), writes_sub (unary_writes ..) (by decide), writes_sub (unary_writes ..) (by decide),
    writes_sub (unary_writes ..) (by decide), writes_sub (binary_writes ..) (by decide), writes_sub (unary_writes ..) (by decide),
    writes_sub (unary_writes ..) (by decide), writes_sub (binary_writes ..) (by decide), writes_sub (unary_writes ..) (by decide),
    writes_sub (unary_writes ..) (by decide), writes_sub (binary_writes ..) (by decide), writes_sub (nullary_writes ..) (by decide),
    writes_sub (unary_writes ..) (by decide), writes_sub (binary_writes ..) (by decide)⟩

/-- A buffer the piece does not write keeps its contents through it. -/
theorem keepSeg12 (V : Valuation τ sig (Elt F)) (r : Ref sig .tc) (h : r ∉ sg12_W) :
    after sg12 V (Proc.devRef .tc r) = V (Proc.devRef .tc r) :=
  after_of_writes_sub sg12 V sg12_writes h

/-- Operations 289 … 302 of @main's line: the neighbour sum at width 128. -/
abbrev sg13 : List (HloOp τ sig (Elt F)) :=
  [ nullary main_c_30 (constantI S_ 32 0#32),
    unary main_c_30 main_v164 (broadcastInDim S1280000 ![] bcast_S_S1280000 : (⟨S_, .i32⟩ : BufTy).Contents (Elt F) → (⟨S1280000, .i32⟩ : BufTy).Contents (Elt F)),
    binary main_v126 main_v164 main_v165 (cmpi .slt : (⟨S1280000, .i32⟩ : BufTy).Contents (Elt F) → (⟨S1280000, .i32⟩ : BufTy).Contents (Elt F) → (⟨S1280000, .i1⟩ : BufTy).Contents (Elt F)),
    nullary main_c_31 (constantI S_ 32 100000#32),
    unary main_c_31 main_v166 (broadcastInDim S1280000 ![] bcast_S_S1280000 : (⟨S_, .i32⟩ : BufTy).Contents (Elt F) → (⟨S1280000, .i32⟩ : BufTy).Contents (Elt F)),
    binary main_v126 main_v166 main_v167 (addi : (⟨S1280000, .i32⟩ : BufTy).Contents (Elt F) → (⟨S1280000, .i32⟩ : BufTy).Contents (Elt F) → (⟨S1280000, .i32⟩ : BufTy).Contents (Elt F)),
    ternary main_v165 main_v167 main_v126 main_v168 (select : (⟨S1280000, .i1⟩ : BufTy).Contents (Elt F) → (⟨S1280000, .i32⟩ : BufTy).Contents (Elt F) → (⟨S1280000, .i32⟩ : BufTy).Contents (Elt F) → (⟨S1280000, .i32⟩ : BufTy).Contents (Elt F)),
    unary main_v168 main_v169 (broadcastInDim S1280000x1 ![0] bcast_S1280000_S1280000x1_0 : (⟨S1280000, .i32⟩ : BufTy).Contents (Elt F) → (⟨S1280000x1, .i32⟩ : BufTy).Contents (Elt F)),
    binary main_v163 main_v169 main_v170 ((fun x i => Host.gather gather_S100000x128_S1280000x1_S1280000x128_1_0_n_n_0_1_1128 x i) : (⟨S100000x128, .f32⟩ : BufTy).Contents (Elt F) → (⟨S1280000x1, .i32⟩ : BufTy).Contents (Elt F) → (⟨S1280000x128, .f32⟩ : BufTy).Contents (Elt F)),
    nullary main_cst_32 (constant S_ .f32 0x00000000#32),
    unary main_cst_32 main_v171 (broadcastInDim S100000x128 ![] bcast_S_S100000x128 : (⟨S_, .f32⟩ : BufTy).Contents (Elt F) → (⟨S100000x128, .f32⟩ : BufTy).Contents (Elt F)),
    unary main_v128 main_v172 (broadcastInDim S1280000x1 ![0] bcast_S1280000_S1280000x1_0 : (⟨S1280000, .i32⟩ : BufTy).Contents (Elt F) → (⟨S1280000x1, .i32⟩ : BufTy).Contents (Elt F)),
    ternary main_v171 main_v172 main_v170 main_v173 ((fun x i u => Host.scatterAdd scatter_S100000x128_S1280000x1_S1280000x128_1_0_0_1 x i u) : (⟨S100000x128, .f32⟩ : BufTy).Contents (Elt F) → (⟨S1280000x1, .i32⟩ : BufTy).Contents (Elt F) → (⟨S1280000x128, .f32⟩ : BufTy).Contents (Elt F) → (⟨S100000x128, .f32⟩ : BufTy).Contents (Elt F)),
    binary main_v163 main_v173 main_v174 (addf : (⟨S100000x128, .f32⟩ : BufTy).Contents (Elt F) → (⟨S100000x128, .f32⟩ : BufTy).Contents (Elt F) → (⟨S100000x128, .f32⟩ : BufTy).Contents (Elt F)) ]

/-- The buffers the piece writes, in order. -/
abbrev sg13_W : List (Ref sig .tc) :=
  [main_c_30, main_v164, main_v165, main_c_31, main_v166, main_v167, main_v168, main_v169,
    main_v170, main_cst_32, main_v171, main_v172, main_v173, main_v174]

set_option maxRecDepth 8192 in
theorem sg13_writes : (sg13 : List (HloOp τ sig (Elt F))).Forall fun op =>
    op.writes ⊆ (sg13_W.map (Proc.devRef (τ := τ) .tc)).toFinset :=
  ⟨writes_sub (nullary_writes ..) (by decide), writes_sub (unary_writes ..) (by decide), writes_sub (binary_writes ..) (by decide),
    writes_sub (nullary_writes ..) (by decide), writes_sub (unary_writes ..) (by decide), writes_sub (binary_writes ..) (by decide),
    writes_sub (ternary_writes ..) (by decide), writes_sub (unary_writes ..) (by decide), writes_sub (binary_writes ..) (by decide),
    writes_sub (nullary_writes ..) (by decide), writes_sub (unary_writes ..) (by decide), writes_sub (unary_writes ..) (by decide),
    writes_sub (ternary_writes ..) (by decide), writes_sub (binary_writes ..) (by decide)⟩

/-- A buffer the piece does not write keeps its contents through it. -/
theorem keepSeg13 (V : Valuation τ sig (Elt F)) (r : Ref sig .tc) (h : r ∉ sg13_W) :
    after sg13 V (Proc.devRef .tc r) = V (Proc.devRef .tc r) :=
  after_of_writes_sub sg13 V sg13_writes h

/-- Operations 303 … 306 of @main's line: the linear map at width 128. -/
abbrev sg14 : List (HloOp τ sig (Elt F)) :=
  [ binary main_v174 main_arg10 main_v175 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg11 main_v176 (broadcastInDim S1x128 ![1] bcast_S128_S1x128_1 : (⟨S128, .f32⟩ : BufTy).Contents (Elt F) → (⟨S1x128, .f32⟩ : BufTy).Contents (Elt F)),
    unary main_v176 main_v177 (broadcastInDim S100000x128 ![0, 1] bcast_S1x128_S100000x128_0_1 : (⟨S1x128, .f32⟩ : BufTy).Contents (Elt F) → (⟨S100000x128, .f32⟩ : BufTy).Contents (Elt F)),
    binary main_v175 main_v177 main_v178 (addf : (⟨S100000x128, .f32⟩ : BufTy).Contents (Elt F) → (⟨S100000x128, .f32⟩ : BufTy).Contents (Elt F) → (⟨S100000x128, .f32⟩ : BufTy).Contents (Elt F)) ]

/-- The buffers the piece writes, in order. -/
abbrev sg14_W : List (Ref sig .tc) :=
  [main_v175, main_v176, main_v177, main_v178]

set_option maxRecDepth 8192 in
theorem sg14_writes : (sg14 : List (HloOp τ sig (Elt F))).Forall fun op =>
    op.writes ⊆ (sg14_W.map (Proc.devRef (τ := τ) .tc)).toFinset :=
  ⟨writes_sub (binary_writes ..) (by decide), writes_sub (unary_writes ..) (by decide), writes_sub (unary_writes ..) (by decide),
    writes_sub (binary_writes ..) (by decide)⟩

/-- A buffer the piece does not write keeps its contents through it. -/
theorem keepSeg14 (V : Valuation τ sig (Elt F)) (r : Ref sig .tc) (h : r ∉ sg14_W) :
    after sg14 V (Proc.devRef .tc r) = V (Proc.devRef .tc r) :=
  after_of_writes_sub sg14 V sg14_writes h

/-- Operations 307 … 353 of @main's line: the column normalisation, scale, shift and clip. -/
abbrev sg15 : List (HloOp τ sig (Elt F)) :=
  [ nullary main_cst_33 (constant S_ .f32 0x00000000#32),
    binary main_v178 main_cst_33 main_v179 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_34 (constant S_ .f32 0x47C35000#32),
    unary main_cst_34 main_v180 (broadcastInDim S128 ![] bcast_S_S128 : (⟨S_, .f32⟩ : BufTy).Contents (Elt F) → (⟨S128, .f32⟩ : BufTy).Contents (Elt F)),
    binary main_v179 main_v180 main_v181 (Host.divf : (⟨S128, .f32⟩ : BufTy).Contents (Elt F) → (⟨S128, .f32⟩ : BufTy).Contents (Elt F) → (⟨S128, .f32⟩ : BufTy).Contents (Elt F)),
    nullary main_c_35 (constantI S_ 32 0#32),
    TRef.nullary main_call8.cst (constant S_ .f32 0x00000000#32),
    TRef.binary (.of main_v178) main_call8.cst main_call8.v0 (fun x v => Host.reduceAdd x v reducesTo_S100000x128_S128_d0 h_S_),
    TRef.unary main_call8.v0 main_call8.v1 (broadcastInDim S1x128 ![1] bcast_S128_S1x128_1),
    TRef.nullary main_call8.cst_0 (constant S_ .f32 0x47C35000#32),
    TRef.unary main_call8.cst_0 main_call8.v2 (broadcastInDim S1x128 ![] bcast_S_S1x128),
    TRef.binary main_call8.v1 main_call8.v2 main_call8.v3 Host.divf,
    TRef.unary main_call8.v3 main_call8.v4 (broadcastInDim S100000x128 ![0, 1] bcast_S1x128_S100000x128_0_1),
    TRef.binary (.of main_v178) main_call8.v4 main_call8.v5 subf,
    TRef.binary main_call8.v5 main_call8.v5 main_call8.v6 mulf,
    TRef.unary (.of main_c_35) main_call8.v7 (sitofp .f32),
    TRef.nullary main_call8.cst_1 (constant S_ .f32 0x47C35000#32),
    TRef.binary main_call8.cst_1 main_call8.v7 main_call8.v8 subf,
    TRef.nullary main_call8.cst_2 (constant S_ .f32 0x00000000#32),
    TRef.binary main_call8.v6 main_call8.cst_2 main_call8.v9 (fun x v => Host.reduceAdd x v reducesTo_S100000x128_S128_d0 h_S_),
    TRef.unary main_call8.v8 main_call8.v10 (broadcastInDim S128 ![] bcast_S_S128),
    TRef.binary main_call8.v9 main_call8.v10 main_call8.v11 Host.divf,
    TRef.nullary main_call8.cst_3 (constant S_ .f32 0x00000000#32),
    TRef.binary main_call8.v8 main_call8.cst_3 main_call8.v12 (cmpf .ogt),
    TRef.nullary main_call8.cst_4 (constant S_ .f32 0x7FC00000#32),
    TRef.unary main_call8.cst_4 main_call8.call0.v0 id,
    TRef.unary main_call8.call0.v0 main_call8.call0.v1 (broadcastInDim S128 ![] bcast_S_S128),
    TRef.ternary main_call8.v12 main_call8.v11 main_call8.call0.v1 main_call8.call0.v2 (fun p a b => select (broadcastInDim S128 ![] bcast_S_S128 p) a b),
    unary main_v181 main_v183 (broadcastInDim S1x128 ![1] bcast_S128_S1x128_1 : (⟨S128, .f32⟩ : BufTy).Contents (Elt F) → (⟨S1x128, .f32⟩ : BufTy).Contents (Elt F)),
    unary main_v183 main_v184 (broadcastInDim S100000x128 ![0, 1] bcast_S1x128_S100000x128_0_1 : (⟨S1x128, .f32⟩ : BufTy).Contents (Elt F) → (⟨S100000x128, .f32⟩ : BufTy).Contents (Elt F)),
    binary main_v178 main_v184 main_v185 (subf : (⟨S100000x128, .f32⟩ : BufTy).Contents (Elt F) → (⟨S100000x128, .f32⟩ : BufTy).Contents (Elt F) → (⟨S100000x128, .f32⟩ : BufTy).Contents (Elt F)),
    nullary main_cst_36 (constant S_ .f32 0x3727C5AC#32),
    unary main_cst_36 main_v186 (broadcastInDim S128 ![] bcast_S_S128 : (⟨S_, .f32⟩ : BufTy).Contents (Elt F) → (⟨S128, .f32⟩ : BufTy).Contents (Elt F)),
    binary main_v182 main_v186 main_v187 (addf : (⟨S128, .f32⟩ : BufTy).Contents (Elt F) → (⟨S128, .f32⟩ : BufTy).Contents (Elt F) → (⟨S128, .f32⟩ : BufTy).Contents (Elt F)),
    unary main_v187 main_v188 (Host.rsqrt : (⟨S128, .f32⟩ : BufTy).Contents (Elt F) → (⟨S128, .f32⟩ : BufTy).Contents (Elt F)),
    unary main_v188 main_v189 (broadcastInDim S1x128 ![1] bcast_S128_S1x128_1 : (⟨S128, .f32⟩ : BufTy).Contents (Elt F) → (⟨S1x128, .f32⟩ : BufTy).Contents (Elt F)),
    unary main_v189 main_v190 (broadcastInDim S100000x128 ![0, 1] bcast_S1x128_S100000x128_0_1 : (⟨S1x128, .f32⟩ : BufTy).Contents (Elt F) → (⟨S100000x128, .f32⟩ : BufTy).Contents (Elt F)),
    binary main_v185 main_v190 main_v191 (mulf : (⟨S100000x128, .f32⟩ : BufTy).Contents (Elt F) → (⟨S100000x128, .f32⟩ : BufTy).Contents (Elt F) → (⟨S100000x128, .f32⟩ : BufTy).Contents (Elt F)),
    unary main_arg12 main_v192 (broadcastInDim S1x128 ![1] bcast_S128_S1x128_1 : (⟨S128, .f32⟩ : BufTy).Contents (Elt F) → (⟨S1x128, .f32⟩ : BufTy).Contents (Elt F)),
    unary main_v192 main_v193 (broadcastInDim S100000x128 ![0, 1] bcast_S1x128_S100000x128_0_1 : (⟨S1x128, .f32⟩ : BufTy).Contents (Elt F) → (⟨S100000x128, .f32⟩ : BufTy).Contents (Elt F)),
    binary main_v191 main_v193 main_v194 (mulf : (⟨S100000x128, .f32⟩ : BufTy).Contents (Elt F) → (⟨S100000x128, .f32⟩ : BufTy).Contents (Elt F) → (⟨S100000x128, .f32⟩ : BufTy).Contents (Elt F)),
    unary main_arg13 main_v195 (broadcastInDim S1x128 ![1] bcast_S128_S1x128_1 : (⟨S128, .f32⟩ : BufTy).Contents (Elt F) → (⟨S1x128, .f32⟩ : BufTy).Contents (Elt F)),
    unary main_v195 main_v196 (broadcastInDim S100000x128 ![0, 1] bcast_S1x128_S100000x128_0_1 : (⟨S1x128, .f32⟩ : BufTy).Contents (Elt F) → (⟨S100000x128, .f32⟩ : BufTy).Contents (Elt F)),
    binary main_v194 main_v196 main_v197 (addf : (⟨S100000x128, .f32⟩ : BufTy).Contents (Elt F) → (⟨S100000x128, .f32⟩ : BufTy).Contents (Elt F) → (⟨S100000x128, .f32⟩ : BufTy).Contents (Elt F)),
    TRef.nullary main_call9.cst (constant S_ .f32 0x00000000#32),
    TRef.unary main_call9.cst main_call9.v0 (broadcastInDim S100000x128 ![] bcast_S_S100000x128),
    TRef.binary (.of main_v197) main_call9.v0 main_call9.v1 maximumf ]

/-- The buffers the piece writes, in order. -/
abbrev sg15_W : List (Ref sig .tc) :=
  [main_cst_33, main_v179, main_cst_34, main_v180, main_v181, main_c_35, main_call8_cst, main_call8_v0,
    main_call8_v1, main_call8_cst_0, main_call8_v2, main_call8_v3, main_call8_v4, main_call8_v5, main_call8_v6, main_call8_v7,
    main_call8_cst_1, main_call8_v8, main_call8_cst_2, main_call8_v9, main_call8_v10, main_call8_v11, main_call8_cst_3, main_call8_v12,
    main_call8_cst_4, main_call8_call0_v0, main_call8_call0_v1, main_v182, main_v183, main_v184, main_v185, main_cst_36,
    main_v186, main_v187, main_v188, main_v189, main_v190, main_v191, main_v192, main_v193,
    main_v194, main_v195, main_v196, main_v197, main_call9_cst, main_call9_v0, main_v198]

set_option maxRecDepth 8192 in
theorem sg15_writes : (sg15 : List (HloOp τ sig (Elt F))).Forall fun op =>
    op.writes ⊆ (sg15_W.map (Proc.devRef (τ := τ) .tc)).toFinset :=
  ⟨writes_sub (nullary_writes ..) (by decide), writes_sub (binary_writes ..) (by decide), writes_sub (nullary_writes ..) (by decide),
    writes_sub (unary_writes ..) (by decide), writes_sub (binary_writes ..) (by decide), writes_sub (nullary_writes ..) (by decide),
    writes_sub (nullary_writes ..) (by decide), writes_sub (binary_writes ..) (by decide), writes_sub (unary_writes ..) (by decide),
    writes_sub (nullary_writes ..) (by decide), writes_sub (unary_writes ..) (by decide), writes_sub (binary_writes ..) (by decide),
    writes_sub (unary_writes ..) (by decide), writes_sub (binary_writes ..) (by decide), writes_sub (binary_writes ..) (by decide),
    writes_sub (unary_writes ..) (by decide), writes_sub (nullary_writes ..) (by decide), writes_sub (binary_writes ..) (by decide),
    writes_sub (nullary_writes ..) (by decide), writes_sub (binary_writes ..) (by decide), writes_sub (unary_writes ..) (by decide),
    writes_sub (binary_writes ..) (by decide), writes_sub (nullary_writes ..) (by decide), writes_sub (binary_writes ..) (by decide),
    writes_sub (nullary_writes ..) (by decide), writes_sub (unary_writes ..) (by decide), writes_sub (unary_writes ..) (by decide),
    writes_sub (ternary_writes ..) (by decide), writes_sub (unary_writes ..) (by decide), writes_sub (unary_writes ..) (by decide),
    writes_sub (binary_writes ..) (by decide), writes_sub (nullary_writes ..) (by decide), writes_sub (unary_writes ..) (by decide),
    writes_sub (binary_writes ..) (by decide), writes_sub (unary_writes ..) (by decide), writes_sub (unary_writes ..) (by decide),
    writes_sub (unary_writes ..) (by decide), writes_sub (binary_writes ..) (by decide), writes_sub (unary_writes ..) (by decide),
    writes_sub (unary_writes ..) (by decide), writes_sub (binary_writes ..) (by decide), writes_sub (unary_writes ..) (by decide),
    writes_sub (unary_writes ..) (by decide), writes_sub (binary_writes ..) (by decide), writes_sub (nullary_writes ..) (by decide),
    writes_sub (unary_writes ..) (by decide), writes_sub (binary_writes ..) (by decide)⟩

/-- A buffer the piece does not write keeps its contents through it. -/
theorem keepSeg15 (V : Valuation τ sig (Elt F)) (r : Ref sig .tc) (h : r ∉ sg15_W) :
    after sg15 V (Proc.devRef .tc r) = V (Proc.devRef .tc r) :=
  after_of_writes_sub sg15 V sg15_writes h

/-- Operations 354 … 367 of @main's line: the neighbour sum at width 128. -/
abbrev sg16 : List (HloOp τ sig (Elt F)) :=
  [ nullary main_c_37 (constantI S_ 32 0#32),
    unary main_c_37 main_v199 (broadcastInDim S1280000 ![] bcast_S_S1280000 : (⟨S_, .i32⟩ : BufTy).Contents (Elt F) → (⟨S1280000, .i32⟩ : BufTy).Contents (Elt F)),
    binary main_v126 main_v199 main_v200 (cmpi .slt : (⟨S1280000, .i32⟩ : BufTy).Contents (Elt F) → (⟨S1280000, .i32⟩ : BufTy).Contents (Elt F) → (⟨S1280000, .i1⟩ : BufTy).Contents (Elt F)),
    nullary main_c_38 (constantI S_ 32 100000#32),
    unary main_c_38 main_v201 (broadcastInDim S1280000 ![] bcast_S_S1280000 : (⟨S_, .i32⟩ : BufTy).Contents (Elt F) → (⟨S1280000, .i32⟩ : BufTy).Contents (Elt F)),
    binary main_v126 main_v201 main_v202 (addi : (⟨S1280000, .i32⟩ : BufTy).Contents (Elt F) → (⟨S1280000, .i32⟩ : BufTy).Contents (Elt F) → (⟨S1280000, .i32⟩ : BufTy).Contents (Elt F)),
    ternary main_v200 main_v202 main_v126 main_v203 (select : (⟨S1280000, .i1⟩ : BufTy).Contents (Elt F) → (⟨S1280000, .i32⟩ : BufTy).Contents (Elt F) → (⟨S1280000, .i32⟩ : BufTy).Contents (Elt F) → (⟨S1280000, .i32⟩ : BufTy).Contents (Elt F)),
    unary main_v203 main_v204 (broadcastInDim S1280000x1 ![0] bcast_S1280000_S1280000x1_0 : (⟨S1280000, .i32⟩ : BufTy).Contents (Elt F) → (⟨S1280000x1, .i32⟩ : BufTy).Contents (Elt F)),
    binary main_v198 main_v204 main_v205 ((fun x i => Host.gather gather_S100000x128_S1280000x1_S1280000x128_1_0_n_n_0_1_1128 x i) : (⟨S100000x128, .f32⟩ : BufTy).Contents (Elt F) → (⟨S1280000x1, .i32⟩ : BufTy).Contents (Elt F) → (⟨S1280000x128, .f32⟩ : BufTy).Contents (Elt F)),
    nullary main_cst_39 (constant S_ .f32 0x00000000#32),
    unary main_cst_39 main_v206 (broadcastInDim S100000x128 ![] bcast_S_S100000x128 : (⟨S_, .f32⟩ : BufTy).Contents (Elt F) → (⟨S100000x128, .f32⟩ : BufTy).Contents (Elt F)),
    unary main_v128 main_v207 (broadcastInDim S1280000x1 ![0] bcast_S1280000_S1280000x1_0 : (⟨S1280000, .i32⟩ : BufTy).Contents (Elt F) → (⟨S1280000x1, .i32⟩ : BufTy).Contents (Elt F)),
    ternary main_v206 main_v207 main_v205 main_v208 ((fun x i u => Host.scatterAdd scatter_S100000x128_S1280000x1_S1280000x128_1_0_0_1 x i u) : (⟨S100000x128, .f32⟩ : BufTy).Contents (Elt F) → (⟨S1280000x1, .i32⟩ : BufTy).Contents (Elt F) → (⟨S1280000x128, .f32⟩ : BufTy).Contents (Elt F) → (⟨S100000x128, .f32⟩ : BufTy).Contents (Elt F)),
    binary main_v198 main_v208 main_v209 (addf : (⟨S100000x128, .f32⟩ : BufTy).Contents (Elt F) → (⟨S100000x128, .f32⟩ : BufTy).Contents (Elt F) → (⟨S100000x128, .f32⟩ : BufTy).Contents (Elt F)) ]

/-- The buffers the piece writes, in order. -/
abbrev sg16_W : List (Ref sig .tc) :=
  [main_c_37, main_v199, main_v200, main_c_38, main_v201, main_v202, main_v203, main_v204,
    main_v205, main_cst_39, main_v206, main_v207, main_v208, main_v209]

set_option maxRecDepth 8192 in
theorem sg16_writes : (sg16 : List (HloOp τ sig (Elt F))).Forall fun op =>
    op.writes ⊆ (sg16_W.map (Proc.devRef (τ := τ) .tc)).toFinset :=
  ⟨writes_sub (nullary_writes ..) (by decide), writes_sub (unary_writes ..) (by decide), writes_sub (binary_writes ..) (by decide),
    writes_sub (nullary_writes ..) (by decide), writes_sub (unary_writes ..) (by decide), writes_sub (binary_writes ..) (by decide),
    writes_sub (ternary_writes ..) (by decide), writes_sub (unary_writes ..) (by decide), writes_sub (binary_writes ..) (by decide),
    writes_sub (nullary_writes ..) (by decide), writes_sub (unary_writes ..) (by decide), writes_sub (unary_writes ..) (by decide),
    writes_sub (ternary_writes ..) (by decide), writes_sub (binary_writes ..) (by decide)⟩

/-- A buffer the piece does not write keeps its contents through it. -/
theorem keepSeg16 (V : Valuation τ sig (Elt F)) (r : Ref sig .tc) (h : r ∉ sg16_W) :
    after sg16 V (Proc.devRef .tc r) = V (Proc.devRef .tc r) :=
  after_of_writes_sub sg16 V sg16_writes h

/-- Operations 368 … 371 of @main's line: the linear map at width 128. -/
abbrev sg17 : List (HloOp τ sig (Elt F)) :=
  [ binary main_v209 main_arg14 main_v210 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg15 main_v211 (broadcastInDim S1x128 ![1] bcast_S128_S1x128_1 : (⟨S128, .f32⟩ : BufTy).Contents (Elt F) → (⟨S1x128, .f32⟩ : BufTy).Contents (Elt F)),
    unary main_v211 main_v212 (broadcastInDim S100000x128 ![0, 1] bcast_S1x128_S100000x128_0_1 : (⟨S1x128, .f32⟩ : BufTy).Contents (Elt F) → (⟨S100000x128, .f32⟩ : BufTy).Contents (Elt F)),
    binary main_v210 main_v212 main_v213 (addf : (⟨S100000x128, .f32⟩ : BufTy).Contents (Elt F) → (⟨S100000x128, .f32⟩ : BufTy).Contents (Elt F) → (⟨S100000x128, .f32⟩ : BufTy).Contents (Elt F)) ]

/-- The buffers the piece writes, in order. -/
abbrev sg17_W : List (Ref sig .tc) :=
  [main_v210, main_v211, main_v212, main_v213]

set_option maxRecDepth 8192 in
theorem sg17_writes : (sg17 : List (HloOp τ sig (Elt F))).Forall fun op =>
    op.writes ⊆ (sg17_W.map (Proc.devRef (τ := τ) .tc)).toFinset :=
  ⟨writes_sub (binary_writes ..) (by decide), writes_sub (unary_writes ..) (by decide), writes_sub (unary_writes ..) (by decide),
    writes_sub (binary_writes ..) (by decide)⟩

/-- A buffer the piece does not write keeps its contents through it. -/
theorem keepSeg17 (V : Valuation τ sig (Elt F)) (r : Ref sig .tc) (h : r ∉ sg17_W) :
    after sg17 V (Proc.devRef .tc r) = V (Proc.devRef .tc r) :=
  after_of_writes_sub sg17 V sg17_writes h

/-- Operations 372 … 418 of @main's line: the column normalisation, scale, shift and clip. -/
abbrev sg18 : List (HloOp τ sig (Elt F)) :=
  [ nullary main_cst_40 (constant S_ .f32 0x00000000#32),
    binary main_v213 main_cst_40 main_v214 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_41 (constant S_ .f32 0x47C35000#32),
    unary main_cst_41 main_v215 (broadcastInDim S128 ![] bcast_S_S128 : (⟨S_, .f32⟩ : BufTy).Contents (Elt F) → (⟨S128, .f32⟩ : BufTy).Contents (Elt F)),
    binary main_v214 main_v215 main_v216 (Host.divf : (⟨S128, .f32⟩ : BufTy).Contents (Elt F) → (⟨S128, .f32⟩ : BufTy).Contents (Elt F) → (⟨S128, .f32⟩ : BufTy).Contents (Elt F)),
    nullary main_c_42 (constantI S_ 32 0#32),
    TRef.nullary main_call10.cst (constant S_ .f32 0x00000000#32),
    TRef.binary (.of main_v213) main_call10.cst main_call10.v0 (fun x v => Host.reduceAdd x v reducesTo_S100000x128_S128_d0 h_S_),
    TRef.unary main_call10.v0 main_call10.v1 (broadcastInDim S1x128 ![1] bcast_S128_S1x128_1),
    TRef.nullary main_call10.cst_0 (constant S_ .f32 0x47C35000#32),
    TRef.unary main_call10.cst_0 main_call10.v2 (broadcastInDim S1x128 ![] bcast_S_S1x128),
    TRef.binary main_call10.v1 main_call10.v2 main_call10.v3 Host.divf,
    TRef.unary main_call10.v3 main_call10.v4 (broadcastInDim S100000x128 ![0, 1] bcast_S1x128_S100000x128_0_1),
    TRef.binary (.of main_v213) main_call10.v4 main_call10.v5 subf,
    TRef.binary main_call10.v5 main_call10.v5 main_call10.v6 mulf,
    TRef.unary (.of main_c_42) main_call10.v7 (sitofp .f32),
    TRef.nullary main_call10.cst_1 (constant S_ .f32 0x47C35000#32),
    TRef.binary main_call10.cst_1 main_call10.v7 main_call10.v8 subf,
    TRef.nullary main_call10.cst_2 (constant S_ .f32 0x00000000#32),
    TRef.binary main_call10.v6 main_call10.cst_2 main_call10.v9 (fun x v => Host.reduceAdd x v reducesTo_S100000x128_S128_d0 h_S_),
    TRef.unary main_call10.v8 main_call10.v10 (broadcastInDim S128 ![] bcast_S_S128),
    TRef.binary main_call10.v9 main_call10.v10 main_call10.v11 Host.divf,
    TRef.nullary main_call10.cst_3 (constant S_ .f32 0x00000000#32),
    TRef.binary main_call10.v8 main_call10.cst_3 main_call10.v12 (cmpf .ogt),
    TRef.nullary main_call10.cst_4 (constant S_ .f32 0x7FC00000#32),
    TRef.unary main_call10.cst_4 main_call10.call0.v0 id,
    TRef.unary main_call10.call0.v0 main_call10.call0.v1 (broadcastInDim S128 ![] bcast_S_S128),
    TRef.ternary main_call10.v12 main_call10.v11 main_call10.call0.v1 main_call10.call0.v2 (fun p a b => select (broadcastInDim S128 ![] bcast_S_S128 p) a b),
    unary main_v216 main_v218 (broadcastInDim S1x128 ![1] bcast_S128_S1x128_1 : (⟨S128, .f32⟩ : BufTy).Contents (Elt F) → (⟨S1x128, .f32⟩ : BufTy).Contents (Elt F)),
    unary main_v218 main_v219 (broadcastInDim S100000x128 ![0, 1] bcast_S1x128_S100000x128_0_1 : (⟨S1x128, .f32⟩ : BufTy).Contents (Elt F) → (⟨S100000x128, .f32⟩ : BufTy).Contents (Elt F)),
    binary main_v213 main_v219 main_v220 (subf : (⟨S100000x128, .f32⟩ : BufTy).Contents (Elt F) → (⟨S100000x128, .f32⟩ : BufTy).Contents (Elt F) → (⟨S100000x128, .f32⟩ : BufTy).Contents (Elt F)),
    nullary main_cst_43 (constant S_ .f32 0x3727C5AC#32),
    unary main_cst_43 main_v221 (broadcastInDim S128 ![] bcast_S_S128 : (⟨S_, .f32⟩ : BufTy).Contents (Elt F) → (⟨S128, .f32⟩ : BufTy).Contents (Elt F)),
    binary main_v217 main_v221 main_v222 (addf : (⟨S128, .f32⟩ : BufTy).Contents (Elt F) → (⟨S128, .f32⟩ : BufTy).Contents (Elt F) → (⟨S128, .f32⟩ : BufTy).Contents (Elt F)),
    unary main_v222 main_v223 (Host.rsqrt : (⟨S128, .f32⟩ : BufTy).Contents (Elt F) → (⟨S128, .f32⟩ : BufTy).Contents (Elt F)),
    unary main_v223 main_v224 (broadcastInDim S1x128 ![1] bcast_S128_S1x128_1 : (⟨S128, .f32⟩ : BufTy).Contents (Elt F) → (⟨S1x128, .f32⟩ : BufTy).Contents (Elt F)),
    unary main_v224 main_v225 (broadcastInDim S100000x128 ![0, 1] bcast_S1x128_S100000x128_0_1 : (⟨S1x128, .f32⟩ : BufTy).Contents (Elt F) → (⟨S100000x128, .f32⟩ : BufTy).Contents (Elt F)),
    binary main_v220 main_v225 main_v226 (mulf : (⟨S100000x128, .f32⟩ : BufTy).Contents (Elt F) → (⟨S100000x128, .f32⟩ : BufTy).Contents (Elt F) → (⟨S100000x128, .f32⟩ : BufTy).Contents (Elt F)),
    unary main_arg16 main_v227 (broadcastInDim S1x128 ![1] bcast_S128_S1x128_1 : (⟨S128, .f32⟩ : BufTy).Contents (Elt F) → (⟨S1x128, .f32⟩ : BufTy).Contents (Elt F)),
    unary main_v227 main_v228 (broadcastInDim S100000x128 ![0, 1] bcast_S1x128_S100000x128_0_1 : (⟨S1x128, .f32⟩ : BufTy).Contents (Elt F) → (⟨S100000x128, .f32⟩ : BufTy).Contents (Elt F)),
    binary main_v226 main_v228 main_v229 (mulf : (⟨S100000x128, .f32⟩ : BufTy).Contents (Elt F) → (⟨S100000x128, .f32⟩ : BufTy).Contents (Elt F) → (⟨S100000x128, .f32⟩ : BufTy).Contents (Elt F)),
    unary main_arg17 main_v230 (broadcastInDim S1x128 ![1] bcast_S128_S1x128_1 : (⟨S128, .f32⟩ : BufTy).Contents (Elt F) → (⟨S1x128, .f32⟩ : BufTy).Contents (Elt F)),
    unary main_v230 main_v231 (broadcastInDim S100000x128 ![0, 1] bcast_S1x128_S100000x128_0_1 : (⟨S1x128, .f32⟩ : BufTy).Contents (Elt F) → (⟨S100000x128, .f32⟩ : BufTy).Contents (Elt F)),
    binary main_v229 main_v231 main_v232 (addf : (⟨S100000x128, .f32⟩ : BufTy).Contents (Elt F) → (⟨S100000x128, .f32⟩ : BufTy).Contents (Elt F) → (⟨S100000x128, .f32⟩ : BufTy).Contents (Elt F)),
    TRef.nullary main_call11.cst (constant S_ .f32 0x00000000#32),
    TRef.unary main_call11.cst main_call11.v0 (broadcastInDim S100000x128 ![] bcast_S_S100000x128),
    TRef.binary (.of main_v232) main_call11.v0 main_call11.v1 maximumf ]

/-- The buffers the piece writes, in order. -/
abbrev sg18_W : List (Ref sig .tc) :=
  [main_cst_40, main_v214, main_cst_41, main_v215, main_v216, main_c_42, main_call10_cst, main_call10_v0,
    main_call10_v1, main_call10_cst_0, main_call10_v2, main_call10_v3, main_call10_v4, main_call10_v5, main_call10_v6, main_call10_v7,
    main_call10_cst_1, main_call10_v8, main_call10_cst_2, main_call10_v9, main_call10_v10, main_call10_v11, main_call10_cst_3, main_call10_v12,
    main_call10_cst_4, main_call10_call0_v0, main_call10_call0_v1, main_v217, main_v218, main_v219, main_v220, main_cst_43,
    main_v221, main_v222, main_v223, main_v224, main_v225, main_v226, main_v227, main_v228,
    main_v229, main_v230, main_v231, main_v232, main_call11_cst, main_call11_v0, main_v233]

set_option maxRecDepth 8192 in
theorem sg18_writes : (sg18 : List (HloOp τ sig (Elt F))).Forall fun op =>
    op.writes ⊆ (sg18_W.map (Proc.devRef (τ := τ) .tc)).toFinset :=
  ⟨writes_sub (nullary_writes ..) (by decide), writes_sub (binary_writes ..) (by decide), writes_sub (nullary_writes ..) (by decide),
    writes_sub (unary_writes ..) (by decide), writes_sub (binary_writes ..) (by decide), writes_sub (nullary_writes ..) (by decide),
    writes_sub (nullary_writes ..) (by decide), writes_sub (binary_writes ..) (by decide), writes_sub (unary_writes ..) (by decide),
    writes_sub (nullary_writes ..) (by decide), writes_sub (unary_writes ..) (by decide), writes_sub (binary_writes ..) (by decide),
    writes_sub (unary_writes ..) (by decide), writes_sub (binary_writes ..) (by decide), writes_sub (binary_writes ..) (by decide),
    writes_sub (unary_writes ..) (by decide), writes_sub (nullary_writes ..) (by decide), writes_sub (binary_writes ..) (by decide),
    writes_sub (nullary_writes ..) (by decide), writes_sub (binary_writes ..) (by decide), writes_sub (unary_writes ..) (by decide),
    writes_sub (binary_writes ..) (by decide), writes_sub (nullary_writes ..) (by decide), writes_sub (binary_writes ..) (by decide),
    writes_sub (nullary_writes ..) (by decide), writes_sub (unary_writes ..) (by decide), writes_sub (unary_writes ..) (by decide),
    writes_sub (ternary_writes ..) (by decide), writes_sub (unary_writes ..) (by decide), writes_sub (unary_writes ..) (by decide),
    writes_sub (binary_writes ..) (by decide), writes_sub (nullary_writes ..) (by decide), writes_sub (unary_writes ..) (by decide),
    writes_sub (binary_writes ..) (by decide), writes_sub (unary_writes ..) (by decide), writes_sub (unary_writes ..) (by decide),
    writes_sub (unary_writes ..) (by decide), writes_sub (binary_writes ..) (by decide), writes_sub (unary_writes ..) (by decide),
    writes_sub (unary_writes ..) (by decide), writes_sub (binary_writes ..) (by decide), writes_sub (unary_writes ..) (by decide),
    writes_sub (unary_writes ..) (by decide), writes_sub (binary_writes ..) (by decide), writes_sub (nullary_writes ..) (by decide),
    writes_sub (unary_writes ..) (by decide), writes_sub (binary_writes ..) (by decide)⟩

/-- A buffer the piece does not write keeps its contents through it. -/
theorem keepSeg18 (V : Valuation τ sig (Elt F)) (r : Ref sig .tc) (h : r ∉ sg18_W) :
    after sg18 V (Proc.devRef .tc r) = V (Proc.devRef .tc r) :=
  after_of_writes_sub sg18 V sg18_writes h

/-- Operations 419 … 438 of @main's line: the segment means and their embedding. -/
abbrev sg19 : List (HloOp τ sig (Elt F)) :=
  [ nullary main_cst_44 (constant S_ .f32 0x00000000#32),
    unary main_cst_44 main_v234 (broadcastInDim S256x128 ![] bcast_S_S256x128 : (⟨S_, .f32⟩ : BufTy).Contents (Elt F) → (⟨S256x128, .f32⟩ : BufTy).Contents (Elt F)),
    unary main_arg5 main_v235 (broadcastInDim S100000x1 ![0] bcast_S100000_S100000x1_0 : (⟨S100000, .i32⟩ : BufTy).Contents (Elt F) → (⟨S100000x1, .i32⟩ : BufTy).Contents (Elt F)),
    ternary main_v234 main_v235 main_v233 main_v236 ((fun x i u => Host.scatterAdd scatter_S256x128_S100000x1_S100000x128_1_0_0_1 x i u) : (⟨S256x128, .f32⟩ : BufTy).Contents (Elt F) → (⟨S100000x1, .i32⟩ : BufTy).Contents (Elt F) → (⟨S100000x128, .f32⟩ : BufTy).Contents (Elt F) → (⟨S256x128, .f32⟩ : BufTy).Contents (Elt F)),
    nullary main_cst_45 (constant S_ .f32 0x3F800000#32),
    unary main_cst_45 main_v237 (broadcastInDim S100000 ![] bcast_S_S100000 : (⟨S_, .f32⟩ : BufTy).Contents (Elt F) → (⟨S100000, .f32⟩ : BufTy).Contents (Elt F)),
    nullary main_cst_46 (constant S_ .f32 0x00000000#32),
    unary main_cst_46 main_v238 (broadcastInDim S256 ![] bcast_S_S256 : (⟨S_, .f32⟩ : BufTy).Contents (Elt F) → (⟨S256, .f32⟩ : BufTy).Contents (Elt F)),
    unary main_arg5 main_v239 (broadcastInDim S100000x1 ![0] bcast_S100000_S100000x1_0 : (⟨S100000, .i32⟩ : BufTy).Contents (Elt F) → (⟨S100000x1, .i32⟩ : BufTy).Contents (Elt F)),
    ternary main_v238 main_v239 main_v237 main_v240 ((fun x i u => Host.scatterAdd scatter_S256_S100000x1_S100000_n_0_0_1 x i u) : (⟨S256, .f32⟩ : BufTy).Contents (Elt F) → (⟨S100000x1, .i32⟩ : BufTy).Contents (Elt F) → (⟨S100000, .f32⟩ : BufTy).Contents (Elt F) → (⟨S256, .f32⟩ : BufTy).Contents (Elt F)),
    nullary main_cst_47 (constant S_ .f32 0x3F800000#32),
    unary main_cst_47 main_v241 (broadcastInDim S256 ![] bcast_S_S256 : (⟨S_, .f32⟩ : BufTy).Contents (Elt F) → (⟨S256, .f32⟩ : BufTy).Contents (Elt F)),
    binary main_v240 main_v241 main_v242 (maximumf : (⟨S256, .f32⟩ : BufTy).Contents (Elt F) → (⟨S256, .f32⟩ : BufTy).Contents (Elt F) → (⟨S256, .f32⟩ : BufTy).Contents (Elt F)),
    unary main_v242 main_v243 (broadcastInDim S256x1 ![0] bcast_S256_S256x1_0 : (⟨S256, .f32⟩ : BufTy).Contents (Elt F) → (⟨S256x1, .f32⟩ : BufTy).Contents (Elt F)),
    unary main_v243 main_v244 (broadcastInDim S256x128 ![0, 1] bcast_S256x1_S256x128_0_1 : (⟨S256x1, .f32⟩ : BufTy).Contents (Elt F) → (⟨S256x128, .f32⟩ : BufTy).Contents (Elt F)),
    binary main_v236 main_v244 main_v245 (Host.divf : (⟨S256x128, .f32⟩ : BufTy).Contents (Elt F) → (⟨S256x128, .f32⟩ : BufTy).Contents (Elt F) → (⟨S256x128, .f32⟩ : BufTy).Contents (Elt F)),
    binary main_v245 main_arg18 main_v246 ((fun l r => Host.dotGeneral dot_S256x128_S128x64_S256x64_1_0_0_1_n_n none l r) : (⟨S256x128, .f32⟩ : BufTy).Contents (Elt F) → (⟨S128x64, .f32⟩ : BufTy).Contents (Elt F) → (⟨S256x64, .f32⟩ : BufTy).Contents (Elt F)),
    unary main_arg19 main_v247 (broadcastInDim S1x64 ![1] bcast_S64_S1x64_1 : (⟨S64, .f32⟩ : BufTy).Contents (Elt F) → (⟨S1x64, .f32⟩ : BufTy).Contents (Elt F)),
    unary main_v247 main_v248 (broadcastInDim S256x64 ![0, 1] bcast_S1x64_S256x64_0_1 : (⟨S1x64, .f32⟩ : BufTy).Contents (Elt F) → (⟨S256x64, .f32⟩ : BufTy).Contents (Elt F)),
    binary main_v246 main_v248 main_v249 (addf : (⟨S256x64, .f32⟩ : BufTy).Contents (Elt F) → (⟨S256x64, .f32⟩ : BufTy).Contents (Elt F) → (⟨S256x64, .f32⟩ : BufTy).Contents (Elt F)) ]

/-- The buffers the piece writes, in order. -/
abbrev sg19_W : List (Ref sig .tc) :=
  [main_cst_44, main_v234, main_v235, main_v236, main_cst_45, main_v237, main_cst_46, main_v238,
    main_v239, main_v240, main_cst_47, main_v241, main_v242, main_v243, main_v244, main_v245,
    main_v246, main_v247, main_v248, main_v249]

set_option maxRecDepth 8192 in
theorem sg19_writes : (sg19 : List (HloOp τ sig (Elt F))).Forall fun op =>
    op.writes ⊆ (sg19_W.map (Proc.devRef (τ := τ) .tc)).toFinset :=
  ⟨writes_sub (nullary_writes ..) (by decide), writes_sub (unary_writes ..) (by decide), writes_sub (unary_writes ..) (by decide),
    writes_sub (ternary_writes ..) (by decide), writes_sub (nullary_writes ..) (by decide), writes_sub (unary_writes ..) (by decide),
    writes_sub (nullary_writes ..) (by decide), writes_sub (unary_writes ..) (by decide), writes_sub (unary_writes ..) (by decide),
    writes_sub (ternary_writes ..) (by decide), writes_sub (nullary_writes ..) (by decide), writes_sub (unary_writes ..) (by decide),
    writes_sub (binary_writes ..) (by decide), writes_sub (unary_writes ..) (by decide), writes_sub (unary_writes ..) (by decide),
    writes_sub (binary_writes ..) (by decide), writes_sub (binary_writes ..) (by decide), writes_sub (unary_writes ..) (by decide),
    writes_sub (unary_writes ..) (by decide), writes_sub (binary_writes ..) (by decide)⟩

/-- A buffer the piece does not write keeps its contents through it. -/
theorem keepSeg19 (V : Valuation τ sig (Elt F)) (r : Ref sig .tc) (h : r ∉ sg19_W) :
    after sg19 V (Proc.devRef .tc r) = V (Proc.devRef .tc r) :=
  after_of_writes_sub sg19 V sg19_writes h

/-- Operations 439 … 459 of @main's line: the classifier. -/
abbrev sg20 : List (HloOp τ sig (Elt F)) :=
  [ binary main_v124 main_v249 main_v250 (subf : (⟨S256x64, .f32⟩ : BufTy).Contents (Elt F) → (⟨S256x64, .f32⟩ : BufTy).Contents (Elt F) → (⟨S256x64, .f32⟩ : BufTy).Contents (Elt F)),
    unary main_v250 main_v251 (Host.absf : (⟨S256x64, .f32⟩ : BufTy).Contents (Elt F) → (⟨S256x64, .f32⟩ : BufTy).Contents (Elt F)),
    binary main_v251 main_arg20 main_v252 ((fun l r => Host.dotGeneral dot_S256x64_S64x64_S256x64_1_0_0_1_n_n none l r) : (⟨S256x64, .f32⟩ : BufTy).Contents (Elt F) → (⟨S64x64, .f32⟩ : BufTy).Contents (Elt F) → (⟨S256x64, .f32⟩ : BufTy).Contents (Elt F)),
    unary main_arg21 main_v253 (broadcastInDim S1x64 ![1] bcast_S64_S1x64_1 : (⟨S64, .f32⟩ : BufTy).Contents (Elt F) → (⟨S1x64, .f32⟩ : BufTy).Contents (Elt F)),
    unary main_v253 main_v254 (broadcastInDim S256x64 ![0, 1] bcast_S1x64_S256x64_0_1 : (⟨S1x64, .f32⟩ : BufTy).Contents (Elt F) → (⟨S256x64, .f32⟩ : BufTy).Contents (Elt F)),
    binary main_v252 main_v254 main_v255 (addf : (⟨S256x64, .f32⟩ : BufTy).Contents (Elt F) → (⟨S256x64, .f32⟩ : BufTy).Contents (Elt F) → (⟨S256x64, .f32⟩ : BufTy).Contents (Elt F)),
    TRef.nullary main_call12.cst (constant S_ .f32 0x00000000#32),
    TRef.unary main_call12.cst main_call12.v0 (broadcastInDim S256x64 ![] bcast_S_S256x64),
    TRef.binary (.of main_v255) main_call12.v0 main_call12.v1 maximumf,
    binary main_v256 main_arg22 main_v257 ((fun l r => Host.dotGeneral dot_S256x64_S64x1_S256x1_1_0_0_1_n_n none l r) : (⟨S256x64, .f32⟩ : BufTy).Contents (Elt F) → (⟨S64x1, .f32⟩ : BufTy).Contents (Elt F) → (⟨S256x1, .f32⟩ : BufTy).Contents (Elt F)),
    unary main_arg23 main_v258 (broadcastInDim S1x1 ![1] bcast_S1_S1x1_1 : (⟨S1, .f32⟩ : BufTy).Contents (Elt F) → (⟨S1x1, .f32⟩ : BufTy).Contents (Elt F)),
    unary main_v258 main_v259 (broadcastInDim S256x1 ![0, 1] bcast_S1x1_S256x1_0_1 : (⟨S1x1, .f32⟩ : BufTy).Contents (Elt F) → (⟨S256x1, .f32⟩ : BufTy).Contents (Elt F)),
    binary main_v257 main_v259 main_v260 (addf : (⟨S256x1, .f32⟩ : BufTy).Contents (Elt F) → (⟨S256x1, .f32⟩ : BufTy).Contents (Elt F) → (⟨S256x1, .f32⟩ : BufTy).Contents (Elt F)),
    unary main_v260 main_v261 (Host.negf : (⟨S256x1, .f32⟩ : BufTy).Contents (Elt F) → (⟨S256x1, .f32⟩ : BufTy).Contents (Elt F)),
    unary main_v261 main_v262 (Host.exp : (⟨S256x1, .f32⟩ : BufTy).Contents (Elt F) → (⟨S256x1, .f32⟩ : BufTy).Contents (Elt F)),
    nullary main_cst_48 (constant S_ .f32 0x3F800000#32),
    unary main_cst_48 main_v263 (broadcastInDim S256x1 ![] bcast_S_S256x1 : (⟨S_, .f32⟩ : BufTy).Contents (Elt F) → (⟨S256x1, .f32⟩ : BufTy).Contents (Elt F)),
    binary main_v263 main_v262 main_v264 (addf : (⟨S256x1, .f32⟩ : BufTy).Contents (Elt F) → (⟨S256x1, .f32⟩ : BufTy).Contents (Elt F) → (⟨S256x1, .f32⟩ : BufTy).Contents (Elt F)),
    nullary main_cst_49 (constant S_ .f32 0x3F800000#32),
    unary main_cst_49 main_v265 (broadcastInDim S256x1 ![] bcast_S_S256x1 : (⟨S_, .f32⟩ : BufTy).Contents (Elt F) → (⟨S256x1, .f32⟩ : BufTy).Contents (Elt F)),
    binary main_v265 main_v264 main_v266 (Host.divf : (⟨S256x1, .f32⟩ : BufTy).Contents (Elt F) → (⟨S256x1, .f32⟩ : BufTy).Contents (Elt F) → (⟨S256x1, .f32⟩ : BufTy).Contents (Elt F)) ]

/-- The buffers the piece writes, in order. -/
abbrev sg20_W : List (Ref sig .tc) :=
  [main_v250, main_v251, main_v252, main_v253, main_v254, main_v255, main_call12_cst, main_call12_v0,
    main_v256, main_v257, main_v258, main_v259, main_v260, main_v261, main_v262, main_cst_48,
    main_v263, main_v264, main_cst_49, main_v265, main_v266]

set_option maxRecDepth 8192 in
theorem sg20_writes : (sg20 : List (HloOp τ sig (Elt F))).Forall fun op =>
    op.writes ⊆ (sg20_W.map (Proc.devRef (τ := τ) .tc)).toFinset :=
  ⟨writes_sub (binary_writes ..) (by decide), writes_sub (unary_writes ..) (by decide), writes_sub (binary_writes ..) (by decide),
    writes_sub (unary_writes ..) (by decide), writes_sub (unary_writes ..) (by decide), writes_sub (binary_writes ..) (by decide),
    writes_sub (nullary_writes ..) (by decide), writes_sub (unary_writes ..) (by decide), writes_sub (binary_writes ..) (by decide),
    writes_sub (binary_writes ..) (by decide), writes_sub (unary_writes ..) (by decide), writes_sub (unary_writes ..) (by decide),
    writes_sub (binary_writes ..) (by decide), writes_sub (unary_writes ..) (by decide), writes_sub (unary_writes ..) (by decide),
    writes_sub (nullary_writes ..) (by decide), writes_sub (unary_writes ..) (by decide), writes_sub (binary_writes ..) (by decide),
    writes_sub (nullary_writes ..) (by decide), writes_sub (unary_writes ..) (by decide), writes_sub (binary_writes ..) (by decide)⟩

/-- A buffer the piece does not write keeps its contents through it. -/
theorem keepSeg20 (V : Valuation τ sig (Elt F)) (r : Ref sig .tc) (h : r ∉ sg20_W) :
    after sg20 V (Proc.devRef .tc r) = V (Proc.devRef .tc r) :=
  after_of_writes_sub sg20 V sg20_writes h

set_option maxRecDepth 8192 in
set_option maxHeartbeats 4000000 in
/-- @main's line is the pieces one after the other: the same operations in the same order. -/
theorem ops_eq_segs : (ops : List (HloOp τ sig (Elt F))) = sg0 ++ (sg1 ++ (sg2 ++ (sg3 ++ (sg4 ++ (sg5 ++ (sg6 ++ (sg7 ++ (sg8 ++ (sg9 ++ (sg10 ++ (sg11 ++ (sg12 ++ (sg13 ++ (sg14 ++ (sg15 ++ (sg16 ++ (sg17 ++ (sg18 ++ (sg19 ++ (sg20)))))))))))))))))))) := rfl

end Pieces

/-- One encoder: three rounds of neighbour sum, linear map and normalisation, then the segment means' embedding; the
    weights read from the contents `V` at the argument buffers. -/
def encR (V : Valuation τ sig (Elt Ideal)) (x : FVec Ideal S100000x64 .f32) (ei : IVec S2x1280000 32) (bt : IVec S100000 32) :
    FVec Ideal S256x64 .f32 :=
  poolR (bnR (linR128 (aggR128 (bnR (linR128 (aggR128 (bnR (linR64 (aggR64 x ei) (V (Proc.devRef .tc main_arg6)) (V (Proc.devRef .tc main_arg7)))
    (V (Proc.devRef .tc main_arg8)) (V (Proc.devRef .tc main_arg9))) ei) (V (Proc.devRef .tc main_arg10)) (V (Proc.devRef .tc main_arg11)))
    (V (Proc.devRef .tc main_arg12)) (V (Proc.devRef .tc main_arg13))) ei) (V (Proc.devRef .tc main_arg14)) (V (Proc.devRef .tc main_arg15)))
    (V (Proc.devRef .tc main_arg16)) (V (Proc.devRef .tc main_arg17))) bt (V (Proc.devRef .tc main_arg18)) (V (Proc.devRef .tc main_arg19))

/-! ## Each piece computes its stage function -/

set_option maxRecDepth 8192 in
set_option maxHeartbeats 4000000 in
theorem sg0_out (W : Valuation τ sig (Elt Ideal)) :
    after (sg0 (F := Ideal)) W (Proc.devRef .tc main_v14) = aggR64 (W (Proc.devRef .tc main_arg0)) (W (Proc.devRef .tc main_arg1)) := by
  simp only [sg0]
  after_results_simp
  rfl

set_option maxRecDepth 8192 in
set_option maxHeartbeats 4000000 in
theorem sg0_row0 (W : Valuation τ sig (Elt Ideal)) :
    after (sg0 (F := Ideal)) W (Proc.devRef .tc main_v1) = edgeRow0 (W (Proc.devRef .tc main_arg1)) := by
  simp only [sg0]
  after_results_simp
  rfl

set_option maxRecDepth 8192 in
set_option maxHeartbeats 4000000 in
theorem sg0_row1 (W : Valuation τ sig (Elt Ideal)) :
    after (sg0 (F := Ideal)) W (Proc.devRef .tc main_v3) = edgeRow1 (W (Proc.devRef .tc main_arg1)) := by
  simp only [sg0]
  after_results_simp
  rfl

set_option maxRecDepth 8192 in
set_option maxHeartbeats 4000000 in
theorem sg1_out (W : Valuation τ sig (Elt Ideal)) :
    after (sg1 (F := Ideal)) W (Proc.devRef .tc main_v18) = linR64 (W (Proc.devRef .tc main_v14)) (W (Proc.devRef .tc main_arg6)) (W (Proc.devRef .tc main_arg7)) := by
  simp only [sg1]
  after_results_simp
  rfl

set_option maxRecDepth 8192 in
set_option maxHeartbeats 4000000 in
theorem sg2_out (W : Valuation τ sig (Elt Ideal)) :
    after (sg2 (F := Ideal)) W (Proc.devRef .tc main_v38) = bnR (W (Proc.devRef .tc main_v18)) (W (Proc.devRef .tc main_arg8)) (W (Proc.devRef .tc main_arg9)) := by
  simp only [sg2]
  after_results_simp
  rfl

set_option maxRecDepth 8192 in
set_option maxHeartbeats 4000000 in
theorem sg3_out (W : Valuation τ sig (Elt Ideal)) (ei : IVec S2x1280000 32)
    (h0 : W (Proc.devRef .tc main_v1) = edgeRow0 ei) (h1 : W (Proc.devRef .tc main_v3) = edgeRow1 ei) :
    after (sg3 (F := Ideal)) W (Proc.devRef .tc main_v49) = aggR128 (W (Proc.devRef .tc main_v38)) ei := by
  simp only [sg3]
  after_results_simp
  rw [h0, h1]
  rfl

set_option maxRecDepth 8192 in
set_option maxHeartbeats 4000000 in
theorem sg4_out (W : Valuation τ sig (Elt Ideal)) :
    after (sg4 (F := Ideal)) W (Proc.devRef .tc main_v53) = linR128 (W (Proc.devRef .tc main_v49)) (W (Proc.devRef .tc main_arg10)) (W (Proc.devRef .tc main_arg11)) := by
  simp only [sg4]
  after_results_simp
  rfl

set_option maxRecDepth 8192 in
set_option maxHeartbeats 4000000 in
theorem sg5_out (W : Valuation τ sig (Elt Ideal)) :
    after (sg5 (F := Ideal)) W (Proc.devRef .tc main_v73) = bnR (W (Proc.devRef .tc main_v53)) (W (Proc.devRef .tc main_arg12)) (W (Proc.devRef .tc main_arg13)) := by
  simp only [sg5]
  after_results_simp
  rfl

set_option maxRecDepth 8192 in
set_option maxHeartbeats 4000000 in
theorem sg6_out (W : Valuation τ sig (Elt Ideal)) (ei : IVec S2x1280000 32)
    (h0 : W (Proc.devRef .tc main_v1) = edgeRow0 ei) (h1 : W (Proc.devRef .tc main_v3) = edgeRow1 ei) :
    after (sg6 (F := Ideal)) W (Proc.devRef .tc main_v84) = aggR128 (W (Proc.devRef .tc main_v73)) ei := by
  simp only [sg6]
  after_results_simp
  rw [h0, h1]
  rfl

set_option maxRecDepth 8192 in
set_option maxHeartbeats 4000000 in
theorem sg7_out (W : Valuation τ sig (Elt Ideal)) :
    after (sg7 (F := Ideal)) W (Proc.devRef .tc main_v88) = linR128 (W (Proc.devRef .tc main_v84)) (W (Proc.devRef .tc main_arg14)) (W (Proc.devRef .tc main_arg15)) := by
  simp only [sg7]
  after_results_simp
  rfl

set_option maxRecDepth 8192 in
set_option maxHeartbeats 4000000 in
theorem sg8_out (W : Valuation τ sig (Elt Ideal)) :
    after (sg8 (F := Ideal)) W (Proc.devRef .tc main_v108) = bnR (W (Proc.devRef .tc main_v88)) (W (Proc.devRef .tc main_arg16)) (W (Proc.devRef .tc main_arg17)) := by
  simp only [sg8]
  after_results_simp
  rfl

set_option maxRecDepth 8192 in
set_option maxHeartbeats 4000000 in
theorem sg9_out (W : Valuation τ sig (Elt Ideal)) :
    after (sg9 (F := Ideal)) W (Proc.devRef .tc main_v124) = poolR (W (Proc.devRef .tc main_v108)) (W (Proc.devRef .tc main_arg2)) (W (Proc.devRef .tc main_arg18)) (W (Proc.devRef .tc main_arg19)) := by
  simp only [sg9]
  after_results_simp
  rfl

set_option maxRecDepth 8192 in
set_option maxHeartbeats 4000000 in
theorem sg10_out (W : Valuation τ sig (Elt Ideal)) :
    after (sg10 (F := Ideal)) W (Proc.devRef .tc main_v139) = aggR64 (W (Proc.devRef .tc main_arg3)) (W (Proc.devRef .tc main_arg4)) := by
  simp only [sg10]
  after_results_simp
  rfl

set_option maxRecDepth 8192 in
set_option maxHeartbeats 4000000 in
theorem sg10_row0 (W : Valuation τ sig (Elt Ideal)) :
    after (sg10 (F := Ideal)) W (Proc.devRef .tc main_v126) = edgeRow0 (W (Proc.devRef .tc main_arg4)) := by
  simp only [sg10]
  after_results_simp
  rfl

set_option maxRecDepth 8192 in
set_option maxHeartbeats 4000000 in
theorem sg10_row1 (W : Valuation τ sig (Elt Ideal)) :
    after (sg10 (F := Ideal)) W (Proc.devRef .tc main_v128) = edgeRow1 (W (Proc.devRef .tc main_arg4)) := by
  simp only [sg10]
  after_results_simp
  rfl

set_option maxRecDepth 8192 in
set_option maxHeartbeats 4000000 in
theorem sg11_out (W : Valuation τ sig (Elt Ideal)) :
    after (sg11 (F := Ideal)) W (Proc.devRef .tc main_v143) = linR64 (W (Proc.devRef .tc main_v139)) (W (Proc.devRef .tc main_arg6)) (W (Proc.devRef .tc main_arg7)) := by
  simp only [sg11]
  after_results_simp
  rfl

set_option maxRecDepth 8192 in
set_option maxHeartbeats 4000000 in
theorem sg12_out (W : Valuation τ sig (Elt Ideal)) :
    after (sg12 (F := Ideal)) W (Proc.devRef .tc main_v163) = bnR (W (Proc.devRef .tc main_v143)) (W (Proc.devRef .tc main_arg8)) (W (Proc.devRef .tc main_arg9)) := by
  simp only [sg12]
  after_results_simp
  rfl

set_option maxRecDepth 8192 in
set_option maxHeartbeats 4000000 in
theorem sg13_out (W : Valuation τ sig (Elt Ideal)) (ei : IVec S2x1280000 32)
    (h0 : W (Proc.devRef .tc main_v126) = edgeRow0 ei) (h1 : W (Proc.devRef .tc main_v128) = edgeRow1 ei) :
    after (sg13 (F := Ideal)) W (Proc.devRef .tc main_v174) = aggR128 (W (Proc.devRef .tc main_v163)) ei := by
  simp only [sg13]
  after_results_simp
  rw [h0, h1]
  rfl

set_option maxRecDepth 8192 in
set_option maxHeartbeats 4000000 in
theorem sg14_out (W : Valuation τ sig (Elt Ideal)) :
    after (sg14 (F := Ideal)) W (Proc.devRef .tc main_v178) = linR128 (W (Proc.devRef .tc main_v174)) (W (Proc.devRef .tc main_arg10)) (W (Proc.devRef .tc main_arg11)) := by
  simp only [sg14]
  after_results_simp
  rfl

set_option maxRecDepth 8192 in
set_option maxHeartbeats 4000000 in
theorem sg15_out (W : Valuation τ sig (Elt Ideal)) :
    after (sg15 (F := Ideal)) W (Proc.devRef .tc main_v198) = bnR (W (Proc.devRef .tc main_v178)) (W (Proc.devRef .tc main_arg12)) (W (Proc.devRef .tc main_arg13)) := by
  simp only [sg15]
  after_results_simp
  rfl

set_option maxRecDepth 8192 in
set_option maxHeartbeats 4000000 in
theorem sg16_out (W : Valuation τ sig (Elt Ideal)) (ei : IVec S2x1280000 32)
    (h0 : W (Proc.devRef .tc main_v126) = edgeRow0 ei) (h1 : W (Proc.devRef .tc main_v128) = edgeRow1 ei) :
    after (sg16 (F := Ideal)) W (Proc.devRef .tc main_v209) = aggR128 (W (Proc.devRef .tc main_v198)) ei := by
  simp only [sg16]
  after_results_simp
  rw [h0, h1]
  rfl

set_option maxRecDepth 8192 in
set_option maxHeartbeats 4000000 in
theorem sg17_out (W : Valuation τ sig (Elt Ideal)) :
    after (sg17 (F := Ideal)) W (Proc.devRef .tc main_v213) = linR128 (W (Proc.devRef .tc main_v209)) (W (Proc.devRef .tc main_arg14)) (W (Proc.devRef .tc main_arg15)) := by
  simp only [sg17]
  after_results_simp
  rfl

set_option maxRecDepth 8192 in
set_option maxHeartbeats 4000000 in
theorem sg18_out (W : Valuation τ sig (Elt Ideal)) :
    after (sg18 (F := Ideal)) W (Proc.devRef .tc main_v233) = bnR (W (Proc.devRef .tc main_v213)) (W (Proc.devRef .tc main_arg16)) (W (Proc.devRef .tc main_arg17)) := by
  simp only [sg18]
  after_results_simp
  rfl

set_option maxRecDepth 8192 in
set_option maxHeartbeats 4000000 in
theorem sg19_out (W : Valuation τ sig (Elt Ideal)) :
    after (sg19 (F := Ideal)) W (Proc.devRef .tc main_v249) = poolR (W (Proc.devRef .tc main_v233)) (W (Proc.devRef .tc main_arg5)) (W (Proc.devRef .tc main_arg18)) (W (Proc.devRef .tc main_arg19)) := by
  simp only [sg19]
  after_results_simp
  rfl

set_option maxRecDepth 8192 in
set_option maxHeartbeats 4000000 in
theorem sg20_out (W : Valuation τ sig (Elt Ideal)) :
    after (sg20 (F := Ideal)) W (Proc.devRef .tc main_v266) = clsR (W (Proc.devRef .tc main_v124)) (W (Proc.devRef .tc main_v249)) (W (Proc.devRef .tc main_arg20)) (W (Proc.devRef .tc main_arg21)) (W (Proc.devRef .tc main_arg22)) (W (Proc.devRef .tc main_arg23)) := by
  simp only [sg20]
  after_results_simp
  rfl

/-! ## The contents after each piece, at the buffers still to be read -/

/-- The contents before the first piece. -/
def val0 (V : Valuation τ sig (Elt Ideal)) : Valuation τ sig (Elt Ideal) := V
theorem val0_main_arg0 (V : Valuation τ sig (Elt Ideal)) : val0 V (Proc.devRef .tc main_arg0) = V (Proc.devRef .tc main_arg0) := rfl
theorem val0_main_arg1 (V : Valuation τ sig (Elt Ideal)) : val0 V (Proc.devRef .tc main_arg1) = V (Proc.devRef .tc main_arg1) := rfl
theorem val0_main_arg2 (V : Valuation τ sig (Elt Ideal)) : val0 V (Proc.devRef .tc main_arg2) = V (Proc.devRef .tc main_arg2) := rfl
theorem val0_main_arg3 (V : Valuation τ sig (Elt Ideal)) : val0 V (Proc.devRef .tc main_arg3) = V (Proc.devRef .tc main_arg3) := rfl
theorem val0_main_arg4 (V : Valuation τ sig (Elt Ideal)) : val0 V (Proc.devRef .tc main_arg4) = V (Proc.devRef .tc main_arg4) := rfl
theorem val0_main_arg5 (V : Valuation τ sig (Elt Ideal)) : val0 V (Proc.devRef .tc main_arg5) = V (Proc.devRef .tc main_arg5) := rfl
theorem val0_main_arg6 (V : Valuation τ sig (Elt Ideal)) : val0 V (Proc.devRef .tc main_arg6) = V (Proc.devRef .tc main_arg6) := rfl
theorem val0_main_arg7 (V : Valuation τ sig (Elt Ideal)) : val0 V (Proc.devRef .tc main_arg7) = V (Proc.devRef .tc main_arg7) := rfl
theorem val0_main_arg8 (V : Valuation τ sig (Elt Ideal)) : val0 V (Proc.devRef .tc main_arg8) = V (Proc.devRef .tc main_arg8) := rfl
theorem val0_main_arg9 (V : Valuation τ sig (Elt Ideal)) : val0 V (Proc.devRef .tc main_arg9) = V (Proc.devRef .tc main_arg9) := rfl
theorem val0_main_arg10 (V : Valuation τ sig (Elt Ideal)) : val0 V (Proc.devRef .tc main_arg10) = V (Proc.devRef .tc main_arg10) := rfl
theorem val0_main_arg11 (V : Valuation τ sig (Elt Ideal)) : val0 V (Proc.devRef .tc main_arg11) = V (Proc.devRef .tc main_arg11) := rfl
theorem val0_main_arg12 (V : Valuation τ sig (Elt Ideal)) : val0 V (Proc.devRef .tc main_arg12) = V (Proc.devRef .tc main_arg12) := rfl
theorem val0_main_arg13 (V : Valuation τ sig (Elt Ideal)) : val0 V (Proc.devRef .tc main_arg13) = V (Proc.devRef .tc main_arg13) := rfl
theorem val0_main_arg14 (V : Valuation τ sig (Elt Ideal)) : val0 V (Proc.devRef .tc main_arg14) = V (Proc.devRef .tc main_arg14) := rfl
theorem val0_main_arg15 (V : Valuation τ sig (Elt Ideal)) : val0 V (Proc.devRef .tc main_arg15) = V (Proc.devRef .tc main_arg15) := rfl
theorem val0_main_arg16 (V : Valuation τ sig (Elt Ideal)) : val0 V (Proc.devRef .tc main_arg16) = V (Proc.devRef .tc main_arg16) := rfl
theorem val0_main_arg17 (V : Valuation τ sig (Elt Ideal)) : val0 V (Proc.devRef .tc main_arg17) = V (Proc.devRef .tc main_arg17) := rfl
theorem val0_main_arg18 (V : Valuation τ sig (Elt Ideal)) : val0 V (Proc.devRef .tc main_arg18) = V (Proc.devRef .tc main_arg18) := rfl
theorem val0_main_arg19 (V : Valuation τ sig (Elt Ideal)) : val0 V (Proc.devRef .tc main_arg19) = V (Proc.devRef .tc main_arg19) := rfl
theorem val0_main_arg20 (V : Valuation τ sig (Elt Ideal)) : val0 V (Proc.devRef .tc main_arg20) = V (Proc.devRef .tc main_arg20) := rfl
theorem val0_main_arg21 (V : Valuation τ sig (Elt Ideal)) : val0 V (Proc.devRef .tc main_arg21) = V (Proc.devRef .tc main_arg21) := rfl
theorem val0_main_arg22 (V : Valuation τ sig (Elt Ideal)) : val0 V (Proc.devRef .tc main_arg22) = V (Proc.devRef .tc main_arg22) := rfl
theorem val0_main_arg23 (V : Valuation τ sig (Elt Ideal)) : val0 V (Proc.devRef .tc main_arg23) = V (Proc.devRef .tc main_arg23) := rfl

/-- The contents after the first 1 piece. -/
def val1 (V : Valuation τ sig (Elt Ideal)) : Valuation τ sig (Elt Ideal) := after (sg0 (F := Ideal)) (val0 V)
theorem val1_main_arg2 (V : Valuation τ sig (Elt Ideal)) : val1 V (Proc.devRef .tc main_arg2) = V (Proc.devRef .tc main_arg2) :=
  (keepSeg0 _ main_arg2 (by decide)).trans (val0_main_arg2 V)
theorem val1_main_arg3 (V : Valuation τ sig (Elt Ideal)) : val1 V (Proc.devRef .tc main_arg3) = V (Proc.devRef .tc main_arg3) :=
  (keepSeg0 _ main_arg3 (by decide)).trans (val0_main_arg3 V)
theorem val1_main_arg4 (V : Valuation τ sig (Elt Ideal)) : val1 V (Proc.devRef .tc main_arg4) = V (Proc.devRef .tc main_arg4) :=
  (keepSeg0 _ main_arg4 (by decide)).trans (val0_main_arg4 V)
theorem val1_main_arg5 (V : Valuation τ sig (Elt Ideal)) : val1 V (Proc.devRef .tc main_arg5) = V (Proc.devRef .tc main_arg5) :=
  (keepSeg0 _ main_arg5 (by decide)).trans (val0_main_arg5 V)
theorem val1_main_arg6 (V : Valuation τ sig (Elt Ideal)) : val1 V (Proc.devRef .tc main_arg6) = V (Proc.devRef .tc main_arg6) :=
  (keepSeg0 _ main_arg6 (by decide)).trans (val0_main_arg6 V)
theorem val1_main_arg7 (V : Valuation τ sig (Elt Ideal)) : val1 V (Proc.devRef .tc main_arg7) = V (Proc.devRef .tc main_arg7) :=
  (keepSeg0 _ main_arg7 (by decide)).trans (val0_main_arg7 V)
theorem val1_main_arg8 (V : Valuation τ sig (Elt Ideal)) : val1 V (Proc.devRef .tc main_arg8) = V (Proc.devRef .tc main_arg8) :=
  (keepSeg0 _ main_arg8 (by decide)).trans (val0_main_arg8 V)
theorem val1_main_arg9 (V : Valuation τ sig (Elt Ideal)) : val1 V (Proc.devRef .tc main_arg9) = V (Proc.devRef .tc main_arg9) :=
  (keepSeg0 _ main_arg9 (by decide)).trans (val0_main_arg9 V)
theorem val1_main_arg10 (V : Valuation τ sig (Elt Ideal)) : val1 V (Proc.devRef .tc main_arg10) = V (Proc.devRef .tc main_arg10) :=
  (keepSeg0 _ main_arg10 (by decide)).trans (val0_main_arg10 V)
theorem val1_main_arg11 (V : Valuation τ sig (Elt Ideal)) : val1 V (Proc.devRef .tc main_arg11) = V (Proc.devRef .tc main_arg11) :=
  (keepSeg0 _ main_arg11 (by decide)).trans (val0_main_arg11 V)
theorem val1_main_arg12 (V : Valuation τ sig (Elt Ideal)) : val1 V (Proc.devRef .tc main_arg12) = V (Proc.devRef .tc main_arg12) :=
  (keepSeg0 _ main_arg12 (by decide)).trans (val0_main_arg12 V)
theorem val1_main_arg13 (V : Valuation τ sig (Elt Ideal)) : val1 V (Proc.devRef .tc main_arg13) = V (Proc.devRef .tc main_arg13) :=
  (keepSeg0 _ main_arg13 (by decide)).trans (val0_main_arg13 V)
theorem val1_main_arg14 (V : Valuation τ sig (Elt Ideal)) : val1 V (Proc.devRef .tc main_arg14) = V (Proc.devRef .tc main_arg14) :=
  (keepSeg0 _ main_arg14 (by decide)).trans (val0_main_arg14 V)
theorem val1_main_arg15 (V : Valuation τ sig (Elt Ideal)) : val1 V (Proc.devRef .tc main_arg15) = V (Proc.devRef .tc main_arg15) :=
  (keepSeg0 _ main_arg15 (by decide)).trans (val0_main_arg15 V)
theorem val1_main_arg16 (V : Valuation τ sig (Elt Ideal)) : val1 V (Proc.devRef .tc main_arg16) = V (Proc.devRef .tc main_arg16) :=
  (keepSeg0 _ main_arg16 (by decide)).trans (val0_main_arg16 V)
theorem val1_main_arg17 (V : Valuation τ sig (Elt Ideal)) : val1 V (Proc.devRef .tc main_arg17) = V (Proc.devRef .tc main_arg17) :=
  (keepSeg0 _ main_arg17 (by decide)).trans (val0_main_arg17 V)
theorem val1_main_arg18 (V : Valuation τ sig (Elt Ideal)) : val1 V (Proc.devRef .tc main_arg18) = V (Proc.devRef .tc main_arg18) :=
  (keepSeg0 _ main_arg18 (by decide)).trans (val0_main_arg18 V)
theorem val1_main_arg19 (V : Valuation τ sig (Elt Ideal)) : val1 V (Proc.devRef .tc main_arg19) = V (Proc.devRef .tc main_arg19) :=
  (keepSeg0 _ main_arg19 (by decide)).trans (val0_main_arg19 V)
theorem val1_main_arg20 (V : Valuation τ sig (Elt Ideal)) : val1 V (Proc.devRef .tc main_arg20) = V (Proc.devRef .tc main_arg20) :=
  (keepSeg0 _ main_arg20 (by decide)).trans (val0_main_arg20 V)
theorem val1_main_arg21 (V : Valuation τ sig (Elt Ideal)) : val1 V (Proc.devRef .tc main_arg21) = V (Proc.devRef .tc main_arg21) :=
  (keepSeg0 _ main_arg21 (by decide)).trans (val0_main_arg21 V)
theorem val1_main_arg22 (V : Valuation τ sig (Elt Ideal)) : val1 V (Proc.devRef .tc main_arg22) = V (Proc.devRef .tc main_arg22) :=
  (keepSeg0 _ main_arg22 (by decide)).trans (val0_main_arg22 V)
theorem val1_main_arg23 (V : Valuation τ sig (Elt Ideal)) : val1 V (Proc.devRef .tc main_arg23) = V (Proc.devRef .tc main_arg23) :=
  (keepSeg0 _ main_arg23 (by decide)).trans (val0_main_arg23 V)
theorem val1_main_v1 (V : Valuation τ sig (Elt Ideal)) : val1 V (Proc.devRef .tc main_v1) = edgeRow0 (V (Proc.devRef .tc main_arg1)) := by
  unfold val1
  rw [sg0_row0 (val0 V), val0_main_arg1 V]
theorem val1_main_v3 (V : Valuation τ sig (Elt Ideal)) : val1 V (Proc.devRef .tc main_v3) = edgeRow1 (V (Proc.devRef .tc main_arg1)) := by
  unfold val1
  rw [sg0_row1 (val0 V), val0_main_arg1 V]
theorem val1_main_v14 (V : Valuation τ sig (Elt Ideal)) : val1 V (Proc.devRef .tc main_v14) = aggR64 (V (Proc.devRef .tc main_arg0)) (V (Proc.devRef .tc main_arg1)) := by
  unfold val1
  rw [sg0_out (val0 V), val0_main_arg0 V, val0_main_arg1 V]

/-- The contents after the first 2 pieces. -/
def val2 (V : Valuation τ sig (Elt Ideal)) : Valuation τ sig (Elt Ideal) := after (sg1 (F := Ideal)) (val1 V)
theorem val2_main_arg2 (V : Valuation τ sig (Elt Ideal)) : val2 V (Proc.devRef .tc main_arg2) = V (Proc.devRef .tc main_arg2) :=
  (keepSeg1 _ main_arg2 (by decide)).trans (val1_main_arg2 V)
theorem val2_main_arg3 (V : Valuation τ sig (Elt Ideal)) : val2 V (Proc.devRef .tc main_arg3) = V (Proc.devRef .tc main_arg3) :=
  (keepSeg1 _ main_arg3 (by decide)).trans (val1_main_arg3 V)
theorem val2_main_arg4 (V : Valuation τ sig (Elt Ideal)) : val2 V (Proc.devRef .tc main_arg4) = V (Proc.devRef .tc main_arg4) :=
  (keepSeg1 _ main_arg4 (by decide)).trans (val1_main_arg4 V)
theorem val2_main_arg5 (V : Valuation τ sig (Elt Ideal)) : val2 V (Proc.devRef .tc main_arg5) = V (Proc.devRef .tc main_arg5) :=
  (keepSeg1 _ main_arg5 (by decide)).trans (val1_main_arg5 V)
theorem val2_main_arg6 (V : Valuation τ sig (Elt Ideal)) : val2 V (Proc.devRef .tc main_arg6) = V (Proc.devRef .tc main_arg6) :=
  (keepSeg1 _ main_arg6 (by decide)).trans (val1_main_arg6 V)
theorem val2_main_arg7 (V : Valuation τ sig (Elt Ideal)) : val2 V (Proc.devRef .tc main_arg7) = V (Proc.devRef .tc main_arg7) :=
  (keepSeg1 _ main_arg7 (by decide)).trans (val1_main_arg7 V)
theorem val2_main_arg8 (V : Valuation τ sig (Elt Ideal)) : val2 V (Proc.devRef .tc main_arg8) = V (Proc.devRef .tc main_arg8) :=
  (keepSeg1 _ main_arg8 (by decide)).trans (val1_main_arg8 V)
theorem val2_main_arg9 (V : Valuation τ sig (Elt Ideal)) : val2 V (Proc.devRef .tc main_arg9) = V (Proc.devRef .tc main_arg9) :=
  (keepSeg1 _ main_arg9 (by decide)).trans (val1_main_arg9 V)
theorem val2_main_arg10 (V : Valuation τ sig (Elt Ideal)) : val2 V (Proc.devRef .tc main_arg10) = V (Proc.devRef .tc main_arg10) :=
  (keepSeg1 _ main_arg10 (by decide)).trans (val1_main_arg10 V)
theorem val2_main_arg11 (V : Valuation τ sig (Elt Ideal)) : val2 V (Proc.devRef .tc main_arg11) = V (Proc.devRef .tc main_arg11) :=
  (keepSeg1 _ main_arg11 (by decide)).trans (val1_main_arg11 V)
theorem val2_main_arg12 (V : Valuation τ sig (Elt Ideal)) : val2 V (Proc.devRef .tc main_arg12) = V (Proc.devRef .tc main_arg12) :=
  (keepSeg1 _ main_arg12 (by decide)).trans (val1_main_arg12 V)
theorem val2_main_arg13 (V : Valuation τ sig (Elt Ideal)) : val2 V (Proc.devRef .tc main_arg13) = V (Proc.devRef .tc main_arg13) :=
  (keepSeg1 _ main_arg13 (by decide)).trans (val1_main_arg13 V)
theorem val2_main_arg14 (V : Valuation τ sig (Elt Ideal)) : val2 V (Proc.devRef .tc main_arg14) = V (Proc.devRef .tc main_arg14) :=
  (keepSeg1 _ main_arg14 (by decide)).trans (val1_main_arg14 V)
theorem val2_main_arg15 (V : Valuation τ sig (Elt Ideal)) : val2 V (Proc.devRef .tc main_arg15) = V (Proc.devRef .tc main_arg15) :=
  (keepSeg1 _ main_arg15 (by decide)).trans (val1_main_arg15 V)
theorem val2_main_arg16 (V : Valuation τ sig (Elt Ideal)) : val2 V (Proc.devRef .tc main_arg16) = V (Proc.devRef .tc main_arg16) :=
  (keepSeg1 _ main_arg16 (by decide)).trans (val1_main_arg16 V)
theorem val2_main_arg17 (V : Valuation τ sig (Elt Ideal)) : val2 V (Proc.devRef .tc main_arg17) = V (Proc.devRef .tc main_arg17) :=
  (keepSeg1 _ main_arg17 (by decide)).trans (val1_main_arg17 V)
theorem val2_main_arg18 (V : Valuation τ sig (Elt Ideal)) : val2 V (Proc.devRef .tc main_arg18) = V (Proc.devRef .tc main_arg18) :=
  (keepSeg1 _ main_arg18 (by decide)).trans (val1_main_arg18 V)
theorem val2_main_arg19 (V : Valuation τ sig (Elt Ideal)) : val2 V (Proc.devRef .tc main_arg19) = V (Proc.devRef .tc main_arg19) :=
  (keepSeg1 _ main_arg19 (by decide)).trans (val1_main_arg19 V)
theorem val2_main_arg20 (V : Valuation τ sig (Elt Ideal)) : val2 V (Proc.devRef .tc main_arg20) = V (Proc.devRef .tc main_arg20) :=
  (keepSeg1 _ main_arg20 (by decide)).trans (val1_main_arg20 V)
theorem val2_main_arg21 (V : Valuation τ sig (Elt Ideal)) : val2 V (Proc.devRef .tc main_arg21) = V (Proc.devRef .tc main_arg21) :=
  (keepSeg1 _ main_arg21 (by decide)).trans (val1_main_arg21 V)
theorem val2_main_arg22 (V : Valuation τ sig (Elt Ideal)) : val2 V (Proc.devRef .tc main_arg22) = V (Proc.devRef .tc main_arg22) :=
  (keepSeg1 _ main_arg22 (by decide)).trans (val1_main_arg22 V)
theorem val2_main_arg23 (V : Valuation τ sig (Elt Ideal)) : val2 V (Proc.devRef .tc main_arg23) = V (Proc.devRef .tc main_arg23) :=
  (keepSeg1 _ main_arg23 (by decide)).trans (val1_main_arg23 V)
theorem val2_main_v1 (V : Valuation τ sig (Elt Ideal)) : val2 V (Proc.devRef .tc main_v1) = edgeRow0 (V (Proc.devRef .tc main_arg1)) :=
  (keepSeg1 _ main_v1 (by decide)).trans (val1_main_v1 V)
theorem val2_main_v3 (V : Valuation τ sig (Elt Ideal)) : val2 V (Proc.devRef .tc main_v3) = edgeRow1 (V (Proc.devRef .tc main_arg1)) :=
  (keepSeg1 _ main_v3 (by decide)).trans (val1_main_v3 V)
theorem val2_main_v18 (V : Valuation τ sig (Elt Ideal)) : val2 V (Proc.devRef .tc main_v18) = linR64 (aggR64 (V (Proc.devRef .tc main_arg0)) (V (Proc.devRef .tc main_arg1))) (V (Proc.devRef .tc main_arg6)) (V (Proc.devRef .tc main_arg7)) := by
  unfold val2
  rw [sg1_out (val1 V), val1_main_v14 V, val1_main_arg6 V, val1_main_arg7 V]

/-- The contents after the first 3 pieces. -/
def val3 (V : Valuation τ sig (Elt Ideal)) : Valuation τ sig (Elt Ideal) := after (sg2 (F := Ideal)) (val2 V)
theorem val3_main_arg2 (V : Valuation τ sig (Elt Ideal)) : val3 V (Proc.devRef .tc main_arg2) = V (Proc.devRef .tc main_arg2) :=
  (keepSeg2 _ main_arg2 (by decide)).trans (val2_main_arg2 V)
theorem val3_main_arg3 (V : Valuation τ sig (Elt Ideal)) : val3 V (Proc.devRef .tc main_arg3) = V (Proc.devRef .tc main_arg3) :=
  (keepSeg2 _ main_arg3 (by decide)).trans (val2_main_arg3 V)
theorem val3_main_arg4 (V : Valuation τ sig (Elt Ideal)) : val3 V (Proc.devRef .tc main_arg4) = V (Proc.devRef .tc main_arg4) :=
  (keepSeg2 _ main_arg4 (by decide)).trans (val2_main_arg4 V)
theorem val3_main_arg5 (V : Valuation τ sig (Elt Ideal)) : val3 V (Proc.devRef .tc main_arg5) = V (Proc.devRef .tc main_arg5) :=
  (keepSeg2 _ main_arg5 (by decide)).trans (val2_main_arg5 V)
theorem val3_main_arg6 (V : Valuation τ sig (Elt Ideal)) : val3 V (Proc.devRef .tc main_arg6) = V (Proc.devRef .tc main_arg6) :=
  (keepSeg2 _ main_arg6 (by decide)).trans (val2_main_arg6 V)
theorem val3_main_arg7 (V : Valuation τ sig (Elt Ideal)) : val3 V (Proc.devRef .tc main_arg7) = V (Proc.devRef .tc main_arg7) :=
  (keepSeg2 _ main_arg7 (by decide)).trans (val2_main_arg7 V)
theorem val3_main_arg8 (V : Valuation τ sig (Elt Ideal)) : val3 V (Proc.devRef .tc main_arg8) = V (Proc.devRef .tc main_arg8) :=
  (keepSeg2 _ main_arg8 (by decide)).trans (val2_main_arg8 V)
theorem val3_main_arg9 (V : Valuation τ sig (Elt Ideal)) : val3 V (Proc.devRef .tc main_arg9) = V (Proc.devRef .tc main_arg9) :=
  (keepSeg2 _ main_arg9 (by decide)).trans (val2_main_arg9 V)
theorem val3_main_arg10 (V : Valuation τ sig (Elt Ideal)) : val3 V (Proc.devRef .tc main_arg10) = V (Proc.devRef .tc main_arg10) :=
  (keepSeg2 _ main_arg10 (by decide)).trans (val2_main_arg10 V)
theorem val3_main_arg11 (V : Valuation τ sig (Elt Ideal)) : val3 V (Proc.devRef .tc main_arg11) = V (Proc.devRef .tc main_arg11) :=
  (keepSeg2 _ main_arg11 (by decide)).trans (val2_main_arg11 V)
theorem val3_main_arg12 (V : Valuation τ sig (Elt Ideal)) : val3 V (Proc.devRef .tc main_arg12) = V (Proc.devRef .tc main_arg12) :=
  (keepSeg2 _ main_arg12 (by decide)).trans (val2_main_arg12 V)
theorem val3_main_arg13 (V : Valuation τ sig (Elt Ideal)) : val3 V (Proc.devRef .tc main_arg13) = V (Proc.devRef .tc main_arg13) :=
  (keepSeg2 _ main_arg13 (by decide)).trans (val2_main_arg13 V)
theorem val3_main_arg14 (V : Valuation τ sig (Elt Ideal)) : val3 V (Proc.devRef .tc main_arg14) = V (Proc.devRef .tc main_arg14) :=
  (keepSeg2 _ main_arg14 (by decide)).trans (val2_main_arg14 V)
theorem val3_main_arg15 (V : Valuation τ sig (Elt Ideal)) : val3 V (Proc.devRef .tc main_arg15) = V (Proc.devRef .tc main_arg15) :=
  (keepSeg2 _ main_arg15 (by decide)).trans (val2_main_arg15 V)
theorem val3_main_arg16 (V : Valuation τ sig (Elt Ideal)) : val3 V (Proc.devRef .tc main_arg16) = V (Proc.devRef .tc main_arg16) :=
  (keepSeg2 _ main_arg16 (by decide)).trans (val2_main_arg16 V)
theorem val3_main_arg17 (V : Valuation τ sig (Elt Ideal)) : val3 V (Proc.devRef .tc main_arg17) = V (Proc.devRef .tc main_arg17) :=
  (keepSeg2 _ main_arg17 (by decide)).trans (val2_main_arg17 V)
theorem val3_main_arg18 (V : Valuation τ sig (Elt Ideal)) : val3 V (Proc.devRef .tc main_arg18) = V (Proc.devRef .tc main_arg18) :=
  (keepSeg2 _ main_arg18 (by decide)).trans (val2_main_arg18 V)
theorem val3_main_arg19 (V : Valuation τ sig (Elt Ideal)) : val3 V (Proc.devRef .tc main_arg19) = V (Proc.devRef .tc main_arg19) :=
  (keepSeg2 _ main_arg19 (by decide)).trans (val2_main_arg19 V)
theorem val3_main_arg20 (V : Valuation τ sig (Elt Ideal)) : val3 V (Proc.devRef .tc main_arg20) = V (Proc.devRef .tc main_arg20) :=
  (keepSeg2 _ main_arg20 (by decide)).trans (val2_main_arg20 V)
theorem val3_main_arg21 (V : Valuation τ sig (Elt Ideal)) : val3 V (Proc.devRef .tc main_arg21) = V (Proc.devRef .tc main_arg21) :=
  (keepSeg2 _ main_arg21 (by decide)).trans (val2_main_arg21 V)
theorem val3_main_arg22 (V : Valuation τ sig (Elt Ideal)) : val3 V (Proc.devRef .tc main_arg22) = V (Proc.devRef .tc main_arg22) :=
  (keepSeg2 _ main_arg22 (by decide)).trans (val2_main_arg22 V)
theorem val3_main_arg23 (V : Valuation τ sig (Elt Ideal)) : val3 V (Proc.devRef .tc main_arg23) = V (Proc.devRef .tc main_arg23) :=
  (keepSeg2 _ main_arg23 (by decide)).trans (val2_main_arg23 V)
theorem val3_main_v1 (V : Valuation τ sig (Elt Ideal)) : val3 V (Proc.devRef .tc main_v1) = edgeRow0 (V (Proc.devRef .tc main_arg1)) :=
  (keepSeg2 _ main_v1 (by decide)).trans (val2_main_v1 V)
theorem val3_main_v3 (V : Valuation τ sig (Elt Ideal)) : val3 V (Proc.devRef .tc main_v3) = edgeRow1 (V (Proc.devRef .tc main_arg1)) :=
  (keepSeg2 _ main_v3 (by decide)).trans (val2_main_v3 V)
theorem val3_main_v38 (V : Valuation τ sig (Elt Ideal)) : val3 V (Proc.devRef .tc main_v38) = bnR (linR64 (aggR64 (V (Proc.devRef .tc main_arg0)) (V (Proc.devRef .tc main_arg1))) (V (Proc.devRef .tc main_arg6)) (V (Proc.devRef .tc main_arg7))) (V (Proc.devRef .tc main_arg8)) (V (Proc.devRef .tc main_arg9)) := by
  unfold val3
  rw [sg2_out (val2 V), val2_main_v18 V, val2_main_arg8 V, val2_main_arg9 V]

/-- The contents after the first 4 pieces. -/
def val4 (V : Valuation τ sig (Elt Ideal)) : Valuation τ sig (Elt Ideal) := after (sg3 (F := Ideal)) (val3 V)
theorem val4_main_arg2 (V : Valuation τ sig (Elt Ideal)) : val4 V (Proc.devRef .tc main_arg2) = V (Proc.devRef .tc main_arg2) :=
  (keepSeg3 _ main_arg2 (by decide)).trans (val3_main_arg2 V)
theorem val4_main_arg3 (V : Valuation τ sig (Elt Ideal)) : val4 V (Proc.devRef .tc main_arg3) = V (Proc.devRef .tc main_arg3) :=
  (keepSeg3 _ main_arg3 (by decide)).trans (val3_main_arg3 V)
theorem val4_main_arg4 (V : Valuation τ sig (Elt Ideal)) : val4 V (Proc.devRef .tc main_arg4) = V (Proc.devRef .tc main_arg4) :=
  (keepSeg3 _ main_arg4 (by decide)).trans (val3_main_arg4 V)
theorem val4_main_arg5 (V : Valuation τ sig (Elt Ideal)) : val4 V (Proc.devRef .tc main_arg5) = V (Proc.devRef .tc main_arg5) :=
  (keepSeg3 _ main_arg5 (by decide)).trans (val3_main_arg5 V)
theorem val4_main_arg6 (V : Valuation τ sig (Elt Ideal)) : val4 V (Proc.devRef .tc main_arg6) = V (Proc.devRef .tc main_arg6) :=
  (keepSeg3 _ main_arg6 (by decide)).trans (val3_main_arg6 V)
theorem val4_main_arg7 (V : Valuation τ sig (Elt Ideal)) : val4 V (Proc.devRef .tc main_arg7) = V (Proc.devRef .tc main_arg7) :=
  (keepSeg3 _ main_arg7 (by decide)).trans (val3_main_arg7 V)
theorem val4_main_arg8 (V : Valuation τ sig (Elt Ideal)) : val4 V (Proc.devRef .tc main_arg8) = V (Proc.devRef .tc main_arg8) :=
  (keepSeg3 _ main_arg8 (by decide)).trans (val3_main_arg8 V)
theorem val4_main_arg9 (V : Valuation τ sig (Elt Ideal)) : val4 V (Proc.devRef .tc main_arg9) = V (Proc.devRef .tc main_arg9) :=
  (keepSeg3 _ main_arg9 (by decide)).trans (val3_main_arg9 V)
theorem val4_main_arg10 (V : Valuation τ sig (Elt Ideal)) : val4 V (Proc.devRef .tc main_arg10) = V (Proc.devRef .tc main_arg10) :=
  (keepSeg3 _ main_arg10 (by decide)).trans (val3_main_arg10 V)
theorem val4_main_arg11 (V : Valuation τ sig (Elt Ideal)) : val4 V (Proc.devRef .tc main_arg11) = V (Proc.devRef .tc main_arg11) :=
  (keepSeg3 _ main_arg11 (by decide)).trans (val3_main_arg11 V)
theorem val4_main_arg12 (V : Valuation τ sig (Elt Ideal)) : val4 V (Proc.devRef .tc main_arg12) = V (Proc.devRef .tc main_arg12) :=
  (keepSeg3 _ main_arg12 (by decide)).trans (val3_main_arg12 V)
theorem val4_main_arg13 (V : Valuation τ sig (Elt Ideal)) : val4 V (Proc.devRef .tc main_arg13) = V (Proc.devRef .tc main_arg13) :=
  (keepSeg3 _ main_arg13 (by decide)).trans (val3_main_arg13 V)
theorem val4_main_arg14 (V : Valuation τ sig (Elt Ideal)) : val4 V (Proc.devRef .tc main_arg14) = V (Proc.devRef .tc main_arg14) :=
  (keepSeg3 _ main_arg14 (by decide)).trans (val3_main_arg14 V)
theorem val4_main_arg15 (V : Valuation τ sig (Elt Ideal)) : val4 V (Proc.devRef .tc main_arg15) = V (Proc.devRef .tc main_arg15) :=
  (keepSeg3 _ main_arg15 (by decide)).trans (val3_main_arg15 V)
theorem val4_main_arg16 (V : Valuation τ sig (Elt Ideal)) : val4 V (Proc.devRef .tc main_arg16) = V (Proc.devRef .tc main_arg16) :=
  (keepSeg3 _ main_arg16 (by decide)).trans (val3_main_arg16 V)
theorem val4_main_arg17 (V : Valuation τ sig (Elt Ideal)) : val4 V (Proc.devRef .tc main_arg17) = V (Proc.devRef .tc main_arg17) :=
  (keepSeg3 _ main_arg17 (by decide)).trans (val3_main_arg17 V)
theorem val4_main_arg18 (V : Valuation τ sig (Elt Ideal)) : val4 V (Proc.devRef .tc main_arg18) = V (Proc.devRef .tc main_arg18) :=
  (keepSeg3 _ main_arg18 (by decide)).trans (val3_main_arg18 V)
theorem val4_main_arg19 (V : Valuation τ sig (Elt Ideal)) : val4 V (Proc.devRef .tc main_arg19) = V (Proc.devRef .tc main_arg19) :=
  (keepSeg3 _ main_arg19 (by decide)).trans (val3_main_arg19 V)
theorem val4_main_arg20 (V : Valuation τ sig (Elt Ideal)) : val4 V (Proc.devRef .tc main_arg20) = V (Proc.devRef .tc main_arg20) :=
  (keepSeg3 _ main_arg20 (by decide)).trans (val3_main_arg20 V)
theorem val4_main_arg21 (V : Valuation τ sig (Elt Ideal)) : val4 V (Proc.devRef .tc main_arg21) = V (Proc.devRef .tc main_arg21) :=
  (keepSeg3 _ main_arg21 (by decide)).trans (val3_main_arg21 V)
theorem val4_main_arg22 (V : Valuation τ sig (Elt Ideal)) : val4 V (Proc.devRef .tc main_arg22) = V (Proc.devRef .tc main_arg22) :=
  (keepSeg3 _ main_arg22 (by decide)).trans (val3_main_arg22 V)
theorem val4_main_arg23 (V : Valuation τ sig (Elt Ideal)) : val4 V (Proc.devRef .tc main_arg23) = V (Proc.devRef .tc main_arg23) :=
  (keepSeg3 _ main_arg23 (by decide)).trans (val3_main_arg23 V)
theorem val4_main_v1 (V : Valuation τ sig (Elt Ideal)) : val4 V (Proc.devRef .tc main_v1) = edgeRow0 (V (Proc.devRef .tc main_arg1)) :=
  (keepSeg3 _ main_v1 (by decide)).trans (val3_main_v1 V)
theorem val4_main_v3 (V : Valuation τ sig (Elt Ideal)) : val4 V (Proc.devRef .tc main_v3) = edgeRow1 (V (Proc.devRef .tc main_arg1)) :=
  (keepSeg3 _ main_v3 (by decide)).trans (val3_main_v3 V)
theorem val4_main_v49 (V : Valuation τ sig (Elt Ideal)) : val4 V (Proc.devRef .tc main_v49) = aggR128 (bnR (linR64 (aggR64 (V (Proc.devRef .tc main_arg0)) (V (Proc.devRef .tc main_arg1))) (V (Proc.devRef .tc main_arg6)) (V (Proc.devRef .tc main_arg7))) (V (Proc.devRef .tc main_arg8)) (V (Proc.devRef .tc main_arg9))) (V (Proc.devRef .tc main_arg1)) := by
  unfold val4
  rw [sg3_out (val3 V) (V (Proc.devRef .tc main_arg1)) (val3_main_v1 V) (val3_main_v3 V), val3_main_v38 V]

/-- The contents after the first 5 pieces. -/
def val5 (V : Valuation τ sig (Elt Ideal)) : Valuation τ sig (Elt Ideal) := after (sg4 (F := Ideal)) (val4 V)
theorem val5_main_arg2 (V : Valuation τ sig (Elt Ideal)) : val5 V (Proc.devRef .tc main_arg2) = V (Proc.devRef .tc main_arg2) :=
  (keepSeg4 _ main_arg2 (by decide)).trans (val4_main_arg2 V)
theorem val5_main_arg3 (V : Valuation τ sig (Elt Ideal)) : val5 V (Proc.devRef .tc main_arg3) = V (Proc.devRef .tc main_arg3) :=
  (keepSeg4 _ main_arg3 (by decide)).trans (val4_main_arg3 V)
theorem val5_main_arg4 (V : Valuation τ sig (Elt Ideal)) : val5 V (Proc.devRef .tc main_arg4) = V (Proc.devRef .tc main_arg4) :=
  (keepSeg4 _ main_arg4 (by decide)).trans (val4_main_arg4 V)
theorem val5_main_arg5 (V : Valuation τ sig (Elt Ideal)) : val5 V (Proc.devRef .tc main_arg5) = V (Proc.devRef .tc main_arg5) :=
  (keepSeg4 _ main_arg5 (by decide)).trans (val4_main_arg5 V)
theorem val5_main_arg6 (V : Valuation τ sig (Elt Ideal)) : val5 V (Proc.devRef .tc main_arg6) = V (Proc.devRef .tc main_arg6) :=
  (keepSeg4 _ main_arg6 (by decide)).trans (val4_main_arg6 V)
theorem val5_main_arg7 (V : Valuation τ sig (Elt Ideal)) : val5 V (Proc.devRef .tc main_arg7) = V (Proc.devRef .tc main_arg7) :=
  (keepSeg4 _ main_arg7 (by decide)).trans (val4_main_arg7 V)
theorem val5_main_arg8 (V : Valuation τ sig (Elt Ideal)) : val5 V (Proc.devRef .tc main_arg8) = V (Proc.devRef .tc main_arg8) :=
  (keepSeg4 _ main_arg8 (by decide)).trans (val4_main_arg8 V)
theorem val5_main_arg9 (V : Valuation τ sig (Elt Ideal)) : val5 V (Proc.devRef .tc main_arg9) = V (Proc.devRef .tc main_arg9) :=
  (keepSeg4 _ main_arg9 (by decide)).trans (val4_main_arg9 V)
theorem val5_main_arg10 (V : Valuation τ sig (Elt Ideal)) : val5 V (Proc.devRef .tc main_arg10) = V (Proc.devRef .tc main_arg10) :=
  (keepSeg4 _ main_arg10 (by decide)).trans (val4_main_arg10 V)
theorem val5_main_arg11 (V : Valuation τ sig (Elt Ideal)) : val5 V (Proc.devRef .tc main_arg11) = V (Proc.devRef .tc main_arg11) :=
  (keepSeg4 _ main_arg11 (by decide)).trans (val4_main_arg11 V)
theorem val5_main_arg12 (V : Valuation τ sig (Elt Ideal)) : val5 V (Proc.devRef .tc main_arg12) = V (Proc.devRef .tc main_arg12) :=
  (keepSeg4 _ main_arg12 (by decide)).trans (val4_main_arg12 V)
theorem val5_main_arg13 (V : Valuation τ sig (Elt Ideal)) : val5 V (Proc.devRef .tc main_arg13) = V (Proc.devRef .tc main_arg13) :=
  (keepSeg4 _ main_arg13 (by decide)).trans (val4_main_arg13 V)
theorem val5_main_arg14 (V : Valuation τ sig (Elt Ideal)) : val5 V (Proc.devRef .tc main_arg14) = V (Proc.devRef .tc main_arg14) :=
  (keepSeg4 _ main_arg14 (by decide)).trans (val4_main_arg14 V)
theorem val5_main_arg15 (V : Valuation τ sig (Elt Ideal)) : val5 V (Proc.devRef .tc main_arg15) = V (Proc.devRef .tc main_arg15) :=
  (keepSeg4 _ main_arg15 (by decide)).trans (val4_main_arg15 V)
theorem val5_main_arg16 (V : Valuation τ sig (Elt Ideal)) : val5 V (Proc.devRef .tc main_arg16) = V (Proc.devRef .tc main_arg16) :=
  (keepSeg4 _ main_arg16 (by decide)).trans (val4_main_arg16 V)
theorem val5_main_arg17 (V : Valuation τ sig (Elt Ideal)) : val5 V (Proc.devRef .tc main_arg17) = V (Proc.devRef .tc main_arg17) :=
  (keepSeg4 _ main_arg17 (by decide)).trans (val4_main_arg17 V)
theorem val5_main_arg18 (V : Valuation τ sig (Elt Ideal)) : val5 V (Proc.devRef .tc main_arg18) = V (Proc.devRef .tc main_arg18) :=
  (keepSeg4 _ main_arg18 (by decide)).trans (val4_main_arg18 V)
theorem val5_main_arg19 (V : Valuation τ sig (Elt Ideal)) : val5 V (Proc.devRef .tc main_arg19) = V (Proc.devRef .tc main_arg19) :=
  (keepSeg4 _ main_arg19 (by decide)).trans (val4_main_arg19 V)
theorem val5_main_arg20 (V : Valuation τ sig (Elt Ideal)) : val5 V (Proc.devRef .tc main_arg20) = V (Proc.devRef .tc main_arg20) :=
  (keepSeg4 _ main_arg20 (by decide)).trans (val4_main_arg20 V)
theorem val5_main_arg21 (V : Valuation τ sig (Elt Ideal)) : val5 V (Proc.devRef .tc main_arg21) = V (Proc.devRef .tc main_arg21) :=
  (keepSeg4 _ main_arg21 (by decide)).trans (val4_main_arg21 V)
theorem val5_main_arg22 (V : Valuation τ sig (Elt Ideal)) : val5 V (Proc.devRef .tc main_arg22) = V (Proc.devRef .tc main_arg22) :=
  (keepSeg4 _ main_arg22 (by decide)).trans (val4_main_arg22 V)
theorem val5_main_arg23 (V : Valuation τ sig (Elt Ideal)) : val5 V (Proc.devRef .tc main_arg23) = V (Proc.devRef .tc main_arg23) :=
  (keepSeg4 _ main_arg23 (by decide)).trans (val4_main_arg23 V)
theorem val5_main_v1 (V : Valuation τ sig (Elt Ideal)) : val5 V (Proc.devRef .tc main_v1) = edgeRow0 (V (Proc.devRef .tc main_arg1)) :=
  (keepSeg4 _ main_v1 (by decide)).trans (val4_main_v1 V)
theorem val5_main_v3 (V : Valuation τ sig (Elt Ideal)) : val5 V (Proc.devRef .tc main_v3) = edgeRow1 (V (Proc.devRef .tc main_arg1)) :=
  (keepSeg4 _ main_v3 (by decide)).trans (val4_main_v3 V)
theorem val5_main_v53 (V : Valuation τ sig (Elt Ideal)) : val5 V (Proc.devRef .tc main_v53) = linR128 (aggR128 (bnR (linR64 (aggR64 (V (Proc.devRef .tc main_arg0)) (V (Proc.devRef .tc main_arg1))) (V (Proc.devRef .tc main_arg6)) (V (Proc.devRef .tc main_arg7))) (V (Proc.devRef .tc main_arg8)) (V (Proc.devRef .tc main_arg9))) (V (Proc.devRef .tc main_arg1))) (V (Proc.devRef .tc main_arg10)) (V (Proc.devRef .tc main_arg11)) := by
  unfold val5
  rw [sg4_out (val4 V), val4_main_v49 V, val4_main_arg10 V, val4_main_arg11 V]

/-- The contents after the first 6 pieces. -/
def val6 (V : Valuation τ sig (Elt Ideal)) : Valuation τ sig (Elt Ideal) := after (sg5 (F := Ideal)) (val5 V)
theorem val6_main_arg2 (V : Valuation τ sig (Elt Ideal)) : val6 V (Proc.devRef .tc main_arg2) = V (Proc.devRef .tc main_arg2) :=
  (keepSeg5 _ main_arg2 (by decide)).trans (val5_main_arg2 V)
theorem val6_main_arg3 (V : Valuation τ sig (Elt Ideal)) : val6 V (Proc.devRef .tc main_arg3) = V (Proc.devRef .tc main_arg3) :=
  (keepSeg5 _ main_arg3 (by decide)).trans (val5_main_arg3 V)
theorem val6_main_arg4 (V : Valuation τ sig (Elt Ideal)) : val6 V (Proc.devRef .tc main_arg4) = V (Proc.devRef .tc main_arg4) :=
  (keepSeg5 _ main_arg4 (by decide)).trans (val5_main_arg4 V)
theorem val6_main_arg5 (V : Valuation τ sig (Elt Ideal)) : val6 V (Proc.devRef .tc main_arg5) = V (Proc.devRef .tc main_arg5) :=
  (keepSeg5 _ main_arg5 (by decide)).trans (val5_main_arg5 V)
theorem val6_main_arg6 (V : Valuation τ sig (Elt Ideal)) : val6 V (Proc.devRef .tc main_arg6) = V (Proc.devRef .tc main_arg6) :=
  (keepSeg5 _ main_arg6 (by decide)).trans (val5_main_arg6 V)
theorem val6_main_arg7 (V : Valuation τ sig (Elt Ideal)) : val6 V (Proc.devRef .tc main_arg7) = V (Proc.devRef .tc main_arg7) :=
  (keepSeg5 _ main_arg7 (by decide)).trans (val5_main_arg7 V)
theorem val6_main_arg8 (V : Valuation τ sig (Elt Ideal)) : val6 V (Proc.devRef .tc main_arg8) = V (Proc.devRef .tc main_arg8) :=
  (keepSeg5 _ main_arg8 (by decide)).trans (val5_main_arg8 V)
theorem val6_main_arg9 (V : Valuation τ sig (Elt Ideal)) : val6 V (Proc.devRef .tc main_arg9) = V (Proc.devRef .tc main_arg9) :=
  (keepSeg5 _ main_arg9 (by decide)).trans (val5_main_arg9 V)
theorem val6_main_arg10 (V : Valuation τ sig (Elt Ideal)) : val6 V (Proc.devRef .tc main_arg10) = V (Proc.devRef .tc main_arg10) :=
  (keepSeg5 _ main_arg10 (by decide)).trans (val5_main_arg10 V)
theorem val6_main_arg11 (V : Valuation τ sig (Elt Ideal)) : val6 V (Proc.devRef .tc main_arg11) = V (Proc.devRef .tc main_arg11) :=
  (keepSeg5 _ main_arg11 (by decide)).trans (val5_main_arg11 V)
theorem val6_main_arg12 (V : Valuation τ sig (Elt Ideal)) : val6 V (Proc.devRef .tc main_arg12) = V (Proc.devRef .tc main_arg12) :=
  (keepSeg5 _ main_arg12 (by decide)).trans (val5_main_arg12 V)
theorem val6_main_arg13 (V : Valuation τ sig (Elt Ideal)) : val6 V (Proc.devRef .tc main_arg13) = V (Proc.devRef .tc main_arg13) :=
  (keepSeg5 _ main_arg13 (by decide)).trans (val5_main_arg13 V)
theorem val6_main_arg14 (V : Valuation τ sig (Elt Ideal)) : val6 V (Proc.devRef .tc main_arg14) = V (Proc.devRef .tc main_arg14) :=
  (keepSeg5 _ main_arg14 (by decide)).trans (val5_main_arg14 V)
theorem val6_main_arg15 (V : Valuation τ sig (Elt Ideal)) : val6 V (Proc.devRef .tc main_arg15) = V (Proc.devRef .tc main_arg15) :=
  (keepSeg5 _ main_arg15 (by decide)).trans (val5_main_arg15 V)
theorem val6_main_arg16 (V : Valuation τ sig (Elt Ideal)) : val6 V (Proc.devRef .tc main_arg16) = V (Proc.devRef .tc main_arg16) :=
  (keepSeg5 _ main_arg16 (by decide)).trans (val5_main_arg16 V)
theorem val6_main_arg17 (V : Valuation τ sig (Elt Ideal)) : val6 V (Proc.devRef .tc main_arg17) = V (Proc.devRef .tc main_arg17) :=
  (keepSeg5 _ main_arg17 (by decide)).trans (val5_main_arg17 V)
theorem val6_main_arg18 (V : Valuation τ sig (Elt Ideal)) : val6 V (Proc.devRef .tc main_arg18) = V (Proc.devRef .tc main_arg18) :=
  (keepSeg5 _ main_arg18 (by decide)).trans (val5_main_arg18 V)
theorem val6_main_arg19 (V : Valuation τ sig (Elt Ideal)) : val6 V (Proc.devRef .tc main_arg19) = V (Proc.devRef .tc main_arg19) :=
  (keepSeg5 _ main_arg19 (by decide)).trans (val5_main_arg19 V)
theorem val6_main_arg20 (V : Valuation τ sig (Elt Ideal)) : val6 V (Proc.devRef .tc main_arg20) = V (Proc.devRef .tc main_arg20) :=
  (keepSeg5 _ main_arg20 (by decide)).trans (val5_main_arg20 V)
theorem val6_main_arg21 (V : Valuation τ sig (Elt Ideal)) : val6 V (Proc.devRef .tc main_arg21) = V (Proc.devRef .tc main_arg21) :=
  (keepSeg5 _ main_arg21 (by decide)).trans (val5_main_arg21 V)
theorem val6_main_arg22 (V : Valuation τ sig (Elt Ideal)) : val6 V (Proc.devRef .tc main_arg22) = V (Proc.devRef .tc main_arg22) :=
  (keepSeg5 _ main_arg22 (by decide)).trans (val5_main_arg22 V)
theorem val6_main_arg23 (V : Valuation τ sig (Elt Ideal)) : val6 V (Proc.devRef .tc main_arg23) = V (Proc.devRef .tc main_arg23) :=
  (keepSeg5 _ main_arg23 (by decide)).trans (val5_main_arg23 V)
theorem val6_main_v1 (V : Valuation τ sig (Elt Ideal)) : val6 V (Proc.devRef .tc main_v1) = edgeRow0 (V (Proc.devRef .tc main_arg1)) :=
  (keepSeg5 _ main_v1 (by decide)).trans (val5_main_v1 V)
theorem val6_main_v3 (V : Valuation τ sig (Elt Ideal)) : val6 V (Proc.devRef .tc main_v3) = edgeRow1 (V (Proc.devRef .tc main_arg1)) :=
  (keepSeg5 _ main_v3 (by decide)).trans (val5_main_v3 V)
theorem val6_main_v73 (V : Valuation τ sig (Elt Ideal)) : val6 V (Proc.devRef .tc main_v73) = bnR (linR128 (aggR128 (bnR (linR64 (aggR64 (V (Proc.devRef .tc main_arg0)) (V (Proc.devRef .tc main_arg1))) (V (Proc.devRef .tc main_arg6)) (V (Proc.devRef .tc main_arg7))) (V (Proc.devRef .tc main_arg8)) (V (Proc.devRef .tc main_arg9))) (V (Proc.devRef .tc main_arg1))) (V (Proc.devRef .tc main_arg10)) (V (Proc.devRef .tc main_arg11))) (V (Proc.devRef .tc main_arg12)) (V (Proc.devRef .tc main_arg13)) := by
  unfold val6
  rw [sg5_out (val5 V), val5_main_v53 V, val5_main_arg12 V, val5_main_arg13 V]

/-- The contents after the first 7 pieces. -/
def val7 (V : Valuation τ sig (Elt Ideal)) : Valuation τ sig (Elt Ideal) := after (sg6 (F := Ideal)) (val6 V)
theorem val7_main_arg2 (V : Valuation τ sig (Elt Ideal)) : val7 V (Proc.devRef .tc main_arg2) = V (Proc.devRef .tc main_arg2) :=
  (keepSeg6 _ main_arg2 (by decide)).trans (val6_main_arg2 V)
theorem val7_main_arg3 (V : Valuation τ sig (Elt Ideal)) : val7 V (Proc.devRef .tc main_arg3) = V (Proc.devRef .tc main_arg3) :=
  (keepSeg6 _ main_arg3 (by decide)).trans (val6_main_arg3 V)
theorem val7_main_arg4 (V : Valuation τ sig (Elt Ideal)) : val7 V (Proc.devRef .tc main_arg4) = V (Proc.devRef .tc main_arg4) :=
  (keepSeg6 _ main_arg4 (by decide)).trans (val6_main_arg4 V)
theorem val7_main_arg5 (V : Valuation τ sig (Elt Ideal)) : val7 V (Proc.devRef .tc main_arg5) = V (Proc.devRef .tc main_arg5) :=
  (keepSeg6 _ main_arg5 (by decide)).trans (val6_main_arg5 V)
theorem val7_main_arg6 (V : Valuation τ sig (Elt Ideal)) : val7 V (Proc.devRef .tc main_arg6) = V (Proc.devRef .tc main_arg6) :=
  (keepSeg6 _ main_arg6 (by decide)).trans (val6_main_arg6 V)
theorem val7_main_arg7 (V : Valuation τ sig (Elt Ideal)) : val7 V (Proc.devRef .tc main_arg7) = V (Proc.devRef .tc main_arg7) :=
  (keepSeg6 _ main_arg7 (by decide)).trans (val6_main_arg7 V)
theorem val7_main_arg8 (V : Valuation τ sig (Elt Ideal)) : val7 V (Proc.devRef .tc main_arg8) = V (Proc.devRef .tc main_arg8) :=
  (keepSeg6 _ main_arg8 (by decide)).trans (val6_main_arg8 V)
theorem val7_main_arg9 (V : Valuation τ sig (Elt Ideal)) : val7 V (Proc.devRef .tc main_arg9) = V (Proc.devRef .tc main_arg9) :=
  (keepSeg6 _ main_arg9 (by decide)).trans (val6_main_arg9 V)
theorem val7_main_arg10 (V : Valuation τ sig (Elt Ideal)) : val7 V (Proc.devRef .tc main_arg10) = V (Proc.devRef .tc main_arg10) :=
  (keepSeg6 _ main_arg10 (by decide)).trans (val6_main_arg10 V)
theorem val7_main_arg11 (V : Valuation τ sig (Elt Ideal)) : val7 V (Proc.devRef .tc main_arg11) = V (Proc.devRef .tc main_arg11) :=
  (keepSeg6 _ main_arg11 (by decide)).trans (val6_main_arg11 V)
theorem val7_main_arg12 (V : Valuation τ sig (Elt Ideal)) : val7 V (Proc.devRef .tc main_arg12) = V (Proc.devRef .tc main_arg12) :=
  (keepSeg6 _ main_arg12 (by decide)).trans (val6_main_arg12 V)
theorem val7_main_arg13 (V : Valuation τ sig (Elt Ideal)) : val7 V (Proc.devRef .tc main_arg13) = V (Proc.devRef .tc main_arg13) :=
  (keepSeg6 _ main_arg13 (by decide)).trans (val6_main_arg13 V)
theorem val7_main_arg14 (V : Valuation τ sig (Elt Ideal)) : val7 V (Proc.devRef .tc main_arg14) = V (Proc.devRef .tc main_arg14) :=
  (keepSeg6 _ main_arg14 (by decide)).trans (val6_main_arg14 V)
theorem val7_main_arg15 (V : Valuation τ sig (Elt Ideal)) : val7 V (Proc.devRef .tc main_arg15) = V (Proc.devRef .tc main_arg15) :=
  (keepSeg6 _ main_arg15 (by decide)).trans (val6_main_arg15 V)
theorem val7_main_arg16 (V : Valuation τ sig (Elt Ideal)) : val7 V (Proc.devRef .tc main_arg16) = V (Proc.devRef .tc main_arg16) :=
  (keepSeg6 _ main_arg16 (by decide)).trans (val6_main_arg16 V)
theorem val7_main_arg17 (V : Valuation τ sig (Elt Ideal)) : val7 V (Proc.devRef .tc main_arg17) = V (Proc.devRef .tc main_arg17) :=
  (keepSeg6 _ main_arg17 (by decide)).trans (val6_main_arg17 V)
theorem val7_main_arg18 (V : Valuation τ sig (Elt Ideal)) : val7 V (Proc.devRef .tc main_arg18) = V (Proc.devRef .tc main_arg18) :=
  (keepSeg6 _ main_arg18 (by decide)).trans (val6_main_arg18 V)
theorem val7_main_arg19 (V : Valuation τ sig (Elt Ideal)) : val7 V (Proc.devRef .tc main_arg19) = V (Proc.devRef .tc main_arg19) :=
  (keepSeg6 _ main_arg19 (by decide)).trans (val6_main_arg19 V)
theorem val7_main_arg20 (V : Valuation τ sig (Elt Ideal)) : val7 V (Proc.devRef .tc main_arg20) = V (Proc.devRef .tc main_arg20) :=
  (keepSeg6 _ main_arg20 (by decide)).trans (val6_main_arg20 V)
theorem val7_main_arg21 (V : Valuation τ sig (Elt Ideal)) : val7 V (Proc.devRef .tc main_arg21) = V (Proc.devRef .tc main_arg21) :=
  (keepSeg6 _ main_arg21 (by decide)).trans (val6_main_arg21 V)
theorem val7_main_arg22 (V : Valuation τ sig (Elt Ideal)) : val7 V (Proc.devRef .tc main_arg22) = V (Proc.devRef .tc main_arg22) :=
  (keepSeg6 _ main_arg22 (by decide)).trans (val6_main_arg22 V)
theorem val7_main_arg23 (V : Valuation τ sig (Elt Ideal)) : val7 V (Proc.devRef .tc main_arg23) = V (Proc.devRef .tc main_arg23) :=
  (keepSeg6 _ main_arg23 (by decide)).trans (val6_main_arg23 V)
theorem val7_main_v84 (V : Valuation τ sig (Elt Ideal)) : val7 V (Proc.devRef .tc main_v84) = aggR128 (bnR (linR128 (aggR128 (bnR (linR64 (aggR64 (V (Proc.devRef .tc main_arg0)) (V (Proc.devRef .tc main_arg1))) (V (Proc.devRef .tc main_arg6)) (V (Proc.devRef .tc main_arg7))) (V (Proc.devRef .tc main_arg8)) (V (Proc.devRef .tc main_arg9))) (V (Proc.devRef .tc main_arg1))) (V (Proc.devRef .tc main_arg10)) (V (Proc.devRef .tc main_arg11))) (V (Proc.devRef .tc main_arg12)) (V (Proc.devRef .tc main_arg13))) (V (Proc.devRef .tc main_arg1)) := by
  unfold val7
  rw [sg6_out (val6 V) (V (Proc.devRef .tc main_arg1)) (val6_main_v1 V) (val6_main_v3 V), val6_main_v73 V]

/-- The contents after the first 8 pieces. -/
def val8 (V : Valuation τ sig (Elt Ideal)) : Valuation τ sig (Elt Ideal) := after (sg7 (F := Ideal)) (val7 V)
theorem val8_main_arg2 (V : Valuation τ sig (Elt Ideal)) : val8 V (Proc.devRef .tc main_arg2) = V (Proc.devRef .tc main_arg2) :=
  (keepSeg7 _ main_arg2 (by decide)).trans (val7_main_arg2 V)
theorem val8_main_arg3 (V : Valuation τ sig (Elt Ideal)) : val8 V (Proc.devRef .tc main_arg3) = V (Proc.devRef .tc main_arg3) :=
  (keepSeg7 _ main_arg3 (by decide)).trans (val7_main_arg3 V)
theorem val8_main_arg4 (V : Valuation τ sig (Elt Ideal)) : val8 V (Proc.devRef .tc main_arg4) = V (Proc.devRef .tc main_arg4) :=
  (keepSeg7 _ main_arg4 (by decide)).trans (val7_main_arg4 V)
theorem val8_main_arg5 (V : Valuation τ sig (Elt Ideal)) : val8 V (Proc.devRef .tc main_arg5) = V (Proc.devRef .tc main_arg5) :=
  (keepSeg7 _ main_arg5 (by decide)).trans (val7_main_arg5 V)
theorem val8_main_arg6 (V : Valuation τ sig (Elt Ideal)) : val8 V (Proc.devRef .tc main_arg6) = V (Proc.devRef .tc main_arg6) :=
  (keepSeg7 _ main_arg6 (by decide)).trans (val7_main_arg6 V)
theorem val8_main_arg7 (V : Valuation τ sig (Elt Ideal)) : val8 V (Proc.devRef .tc main_arg7) = V (Proc.devRef .tc main_arg7) :=
  (keepSeg7 _ main_arg7 (by decide)).trans (val7_main_arg7 V)
theorem val8_main_arg8 (V : Valuation τ sig (Elt Ideal)) : val8 V (Proc.devRef .tc main_arg8) = V (Proc.devRef .tc main_arg8) :=
  (keepSeg7 _ main_arg8 (by decide)).trans (val7_main_arg8 V)
theorem val8_main_arg9 (V : Valuation τ sig (Elt Ideal)) : val8 V (Proc.devRef .tc main_arg9) = V (Proc.devRef .tc main_arg9) :=
  (keepSeg7 _ main_arg9 (by decide)).trans (val7_main_arg9 V)
theorem val8_main_arg10 (V : Valuation τ sig (Elt Ideal)) : val8 V (Proc.devRef .tc main_arg10) = V (Proc.devRef .tc main_arg10) :=
  (keepSeg7 _ main_arg10 (by decide)).trans (val7_main_arg10 V)
theorem val8_main_arg11 (V : Valuation τ sig (Elt Ideal)) : val8 V (Proc.devRef .tc main_arg11) = V (Proc.devRef .tc main_arg11) :=
  (keepSeg7 _ main_arg11 (by decide)).trans (val7_main_arg11 V)
theorem val8_main_arg12 (V : Valuation τ sig (Elt Ideal)) : val8 V (Proc.devRef .tc main_arg12) = V (Proc.devRef .tc main_arg12) :=
  (keepSeg7 _ main_arg12 (by decide)).trans (val7_main_arg12 V)
theorem val8_main_arg13 (V : Valuation τ sig (Elt Ideal)) : val8 V (Proc.devRef .tc main_arg13) = V (Proc.devRef .tc main_arg13) :=
  (keepSeg7 _ main_arg13 (by decide)).trans (val7_main_arg13 V)
theorem val8_main_arg14 (V : Valuation τ sig (Elt Ideal)) : val8 V (Proc.devRef .tc main_arg14) = V (Proc.devRef .tc main_arg14) :=
  (keepSeg7 _ main_arg14 (by decide)).trans (val7_main_arg14 V)
theorem val8_main_arg15 (V : Valuation τ sig (Elt Ideal)) : val8 V (Proc.devRef .tc main_arg15) = V (Proc.devRef .tc main_arg15) :=
  (keepSeg7 _ main_arg15 (by decide)).trans (val7_main_arg15 V)
theorem val8_main_arg16 (V : Valuation τ sig (Elt Ideal)) : val8 V (Proc.devRef .tc main_arg16) = V (Proc.devRef .tc main_arg16) :=
  (keepSeg7 _ main_arg16 (by decide)).trans (val7_main_arg16 V)
theorem val8_main_arg17 (V : Valuation τ sig (Elt Ideal)) : val8 V (Proc.devRef .tc main_arg17) = V (Proc.devRef .tc main_arg17) :=
  (keepSeg7 _ main_arg17 (by decide)).trans (val7_main_arg17 V)
theorem val8_main_arg18 (V : Valuation τ sig (Elt Ideal)) : val8 V (Proc.devRef .tc main_arg18) = V (Proc.devRef .tc main_arg18) :=
  (keepSeg7 _ main_arg18 (by decide)).trans (val7_main_arg18 V)
theorem val8_main_arg19 (V : Valuation τ sig (Elt Ideal)) : val8 V (Proc.devRef .tc main_arg19) = V (Proc.devRef .tc main_arg19) :=
  (keepSeg7 _ main_arg19 (by decide)).trans (val7_main_arg19 V)
theorem val8_main_arg20 (V : Valuation τ sig (Elt Ideal)) : val8 V (Proc.devRef .tc main_arg20) = V (Proc.devRef .tc main_arg20) :=
  (keepSeg7 _ main_arg20 (by decide)).trans (val7_main_arg20 V)
theorem val8_main_arg21 (V : Valuation τ sig (Elt Ideal)) : val8 V (Proc.devRef .tc main_arg21) = V (Proc.devRef .tc main_arg21) :=
  (keepSeg7 _ main_arg21 (by decide)).trans (val7_main_arg21 V)
theorem val8_main_arg22 (V : Valuation τ sig (Elt Ideal)) : val8 V (Proc.devRef .tc main_arg22) = V (Proc.devRef .tc main_arg22) :=
  (keepSeg7 _ main_arg22 (by decide)).trans (val7_main_arg22 V)
theorem val8_main_arg23 (V : Valuation τ sig (Elt Ideal)) : val8 V (Proc.devRef .tc main_arg23) = V (Proc.devRef .tc main_arg23) :=
  (keepSeg7 _ main_arg23 (by decide)).trans (val7_main_arg23 V)
theorem val8_main_v88 (V : Valuation τ sig (Elt Ideal)) : val8 V (Proc.devRef .tc main_v88) = linR128 (aggR128 (bnR (linR128 (aggR128 (bnR (linR64 (aggR64 (V (Proc.devRef .tc main_arg0)) (V (Proc.devRef .tc main_arg1))) (V (Proc.devRef .tc main_arg6)) (V (Proc.devRef .tc main_arg7))) (V (Proc.devRef .tc main_arg8)) (V (Proc.devRef .tc main_arg9))) (V (Proc.devRef .tc main_arg1))) (V (Proc.devRef .tc main_arg10)) (V (Proc.devRef .tc main_arg11))) (V (Proc.devRef .tc main_arg12)) (V (Proc.devRef .tc main_arg13))) (V (Proc.devRef .tc main_arg1))) (V (Proc.devRef .tc main_arg14)) (V (Proc.devRef .tc main_arg15)) := by
  unfold val8
  rw [sg7_out (val7 V), val7_main_v84 V, val7_main_arg14 V, val7_main_arg15 V]

/-- The contents after the first 9 pieces. -/
def val9 (V : Valuation τ sig (Elt Ideal)) : Valuation τ sig (Elt Ideal) := after (sg8 (F := Ideal)) (val8 V)
theorem val9_main_arg2 (V : Valuation τ sig (Elt Ideal)) : val9 V (Proc.devRef .tc main_arg2) = V (Proc.devRef .tc main_arg2) :=
  (keepSeg8 _ main_arg2 (by decide)).trans (val8_main_arg2 V)
theorem val9_main_arg3 (V : Valuation τ sig (Elt Ideal)) : val9 V (Proc.devRef .tc main_arg3) = V (Proc.devRef .tc main_arg3) :=
  (keepSeg8 _ main_arg3 (by decide)).trans (val8_main_arg3 V)
theorem val9_main_arg4 (V : Valuation τ sig (Elt Ideal)) : val9 V (Proc.devRef .tc main_arg4) = V (Proc.devRef .tc main_arg4) :=
  (keepSeg8 _ main_arg4 (by decide)).trans (val8_main_arg4 V)
theorem val9_main_arg5 (V : Valuation τ sig (Elt Ideal)) : val9 V (Proc.devRef .tc main_arg5) = V (Proc.devRef .tc main_arg5) :=
  (keepSeg8 _ main_arg5 (by decide)).trans (val8_main_arg5 V)
theorem val9_main_arg6 (V : Valuation τ sig (Elt Ideal)) : val9 V (Proc.devRef .tc main_arg6) = V (Proc.devRef .tc main_arg6) :=
  (keepSeg8 _ main_arg6 (by decide)).trans (val8_main_arg6 V)
theorem val9_main_arg7 (V : Valuation τ sig (Elt Ideal)) : val9 V (Proc.devRef .tc main_arg7) = V (Proc.devRef .tc main_arg7) :=
  (keepSeg8 _ main_arg7 (by decide)).trans (val8_main_arg7 V)
theorem val9_main_arg8 (V : Valuation τ sig (Elt Ideal)) : val9 V (Proc.devRef .tc main_arg8) = V (Proc.devRef .tc main_arg8) :=
  (keepSeg8 _ main_arg8 (by decide)).trans (val8_main_arg8 V)
theorem val9_main_arg9 (V : Valuation τ sig (Elt Ideal)) : val9 V (Proc.devRef .tc main_arg9) = V (Proc.devRef .tc main_arg9) :=
  (keepSeg8 _ main_arg9 (by decide)).trans (val8_main_arg9 V)
theorem val9_main_arg10 (V : Valuation τ sig (Elt Ideal)) : val9 V (Proc.devRef .tc main_arg10) = V (Proc.devRef .tc main_arg10) :=
  (keepSeg8 _ main_arg10 (by decide)).trans (val8_main_arg10 V)
theorem val9_main_arg11 (V : Valuation τ sig (Elt Ideal)) : val9 V (Proc.devRef .tc main_arg11) = V (Proc.devRef .tc main_arg11) :=
  (keepSeg8 _ main_arg11 (by decide)).trans (val8_main_arg11 V)
theorem val9_main_arg12 (V : Valuation τ sig (Elt Ideal)) : val9 V (Proc.devRef .tc main_arg12) = V (Proc.devRef .tc main_arg12) :=
  (keepSeg8 _ main_arg12 (by decide)).trans (val8_main_arg12 V)
theorem val9_main_arg13 (V : Valuation τ sig (Elt Ideal)) : val9 V (Proc.devRef .tc main_arg13) = V (Proc.devRef .tc main_arg13) :=
  (keepSeg8 _ main_arg13 (by decide)).trans (val8_main_arg13 V)
theorem val9_main_arg14 (V : Valuation τ sig (Elt Ideal)) : val9 V (Proc.devRef .tc main_arg14) = V (Proc.devRef .tc main_arg14) :=
  (keepSeg8 _ main_arg14 (by decide)).trans (val8_main_arg14 V)
theorem val9_main_arg15 (V : Valuation τ sig (Elt Ideal)) : val9 V (Proc.devRef .tc main_arg15) = V (Proc.devRef .tc main_arg15) :=
  (keepSeg8 _ main_arg15 (by decide)).trans (val8_main_arg15 V)
theorem val9_main_arg16 (V : Valuation τ sig (Elt Ideal)) : val9 V (Proc.devRef .tc main_arg16) = V (Proc.devRef .tc main_arg16) :=
  (keepSeg8 _ main_arg16 (by decide)).trans (val8_main_arg16 V)
theorem val9_main_arg17 (V : Valuation τ sig (Elt Ideal)) : val9 V (Proc.devRef .tc main_arg17) = V (Proc.devRef .tc main_arg17) :=
  (keepSeg8 _ main_arg17 (by decide)).trans (val8_main_arg17 V)
theorem val9_main_arg18 (V : Valuation τ sig (Elt Ideal)) : val9 V (Proc.devRef .tc main_arg18) = V (Proc.devRef .tc main_arg18) :=
  (keepSeg8 _ main_arg18 (by decide)).trans (val8_main_arg18 V)
theorem val9_main_arg19 (V : Valuation τ sig (Elt Ideal)) : val9 V (Proc.devRef .tc main_arg19) = V (Proc.devRef .tc main_arg19) :=
  (keepSeg8 _ main_arg19 (by decide)).trans (val8_main_arg19 V)
theorem val9_main_arg20 (V : Valuation τ sig (Elt Ideal)) : val9 V (Proc.devRef .tc main_arg20) = V (Proc.devRef .tc main_arg20) :=
  (keepSeg8 _ main_arg20 (by decide)).trans (val8_main_arg20 V)
theorem val9_main_arg21 (V : Valuation τ sig (Elt Ideal)) : val9 V (Proc.devRef .tc main_arg21) = V (Proc.devRef .tc main_arg21) :=
  (keepSeg8 _ main_arg21 (by decide)).trans (val8_main_arg21 V)
theorem val9_main_arg22 (V : Valuation τ sig (Elt Ideal)) : val9 V (Proc.devRef .tc main_arg22) = V (Proc.devRef .tc main_arg22) :=
  (keepSeg8 _ main_arg22 (by decide)).trans (val8_main_arg22 V)
theorem val9_main_arg23 (V : Valuation τ sig (Elt Ideal)) : val9 V (Proc.devRef .tc main_arg23) = V (Proc.devRef .tc main_arg23) :=
  (keepSeg8 _ main_arg23 (by decide)).trans (val8_main_arg23 V)
theorem val9_main_v108 (V : Valuation τ sig (Elt Ideal)) : val9 V (Proc.devRef .tc main_v108) = bnR (linR128 (aggR128 (bnR (linR128 (aggR128 (bnR (linR64 (aggR64 (V (Proc.devRef .tc main_arg0)) (V (Proc.devRef .tc main_arg1))) (V (Proc.devRef .tc main_arg6)) (V (Proc.devRef .tc main_arg7))) (V (Proc.devRef .tc main_arg8)) (V (Proc.devRef .tc main_arg9))) (V (Proc.devRef .tc main_arg1))) (V (Proc.devRef .tc main_arg10)) (V (Proc.devRef .tc main_arg11))) (V (Proc.devRef .tc main_arg12)) (V (Proc.devRef .tc main_arg13))) (V (Proc.devRef .tc main_arg1))) (V (Proc.devRef .tc main_arg14)) (V (Proc.devRef .tc main_arg15))) (V (Proc.devRef .tc main_arg16)) (V (Proc.devRef .tc main_arg17)) := by
  unfold val9
  rw [sg8_out (val8 V), val8_main_v88 V, val8_main_arg16 V, val8_main_arg17 V]

/-- The contents after the first 10 pieces. -/
def val10 (V : Valuation τ sig (Elt Ideal)) : Valuation τ sig (Elt Ideal) := after (sg9 (F := Ideal)) (val9 V)
theorem val10_main_arg3 (V : Valuation τ sig (Elt Ideal)) : val10 V (Proc.devRef .tc main_arg3) = V (Proc.devRef .tc main_arg3) :=
  (keepSeg9 _ main_arg3 (by decide)).trans (val9_main_arg3 V)
theorem val10_main_arg4 (V : Valuation τ sig (Elt Ideal)) : val10 V (Proc.devRef .tc main_arg4) = V (Proc.devRef .tc main_arg4) :=
  (keepSeg9 _ main_arg4 (by decide)).trans (val9_main_arg4 V)
theorem val10_main_arg5 (V : Valuation τ sig (Elt Ideal)) : val10 V (Proc.devRef .tc main_arg5) = V (Proc.devRef .tc main_arg5) :=
  (keepSeg9 _ main_arg5 (by decide)).trans (val9_main_arg5 V)
theorem val10_main_arg6 (V : Valuation τ sig (Elt Ideal)) : val10 V (Proc.devRef .tc main_arg6) = V (Proc.devRef .tc main_arg6) :=
  (keepSeg9 _ main_arg6 (by decide)).trans (val9_main_arg6 V)
theorem val10_main_arg7 (V : Valuation τ sig (Elt Ideal)) : val10 V (Proc.devRef .tc main_arg7) = V (Proc.devRef .tc main_arg7) :=
  (keepSeg9 _ main_arg7 (by decide)).trans (val9_main_arg7 V)
theorem val10_main_arg8 (V : Valuation τ sig (Elt Ideal)) : val10 V (Proc.devRef .tc main_arg8) = V (Proc.devRef .tc main_arg8) :=
  (keepSeg9 _ main_arg8 (by decide)).trans (val9_main_arg8 V)
theorem val10_main_arg9 (V : Valuation τ sig (Elt Ideal)) : val10 V (Proc.devRef .tc main_arg9) = V (Proc.devRef .tc main_arg9) :=
  (keepSeg9 _ main_arg9 (by decide)).trans (val9_main_arg9 V)
theorem val10_main_arg10 (V : Valuation τ sig (Elt Ideal)) : val10 V (Proc.devRef .tc main_arg10) = V (Proc.devRef .tc main_arg10) :=
  (keepSeg9 _ main_arg10 (by decide)).trans (val9_main_arg10 V)
theorem val10_main_arg11 (V : Valuation τ sig (Elt Ideal)) : val10 V (Proc.devRef .tc main_arg11) = V (Proc.devRef .tc main_arg11) :=
  (keepSeg9 _ main_arg11 (by decide)).trans (val9_main_arg11 V)
theorem val10_main_arg12 (V : Valuation τ sig (Elt Ideal)) : val10 V (Proc.devRef .tc main_arg12) = V (Proc.devRef .tc main_arg12) :=
  (keepSeg9 _ main_arg12 (by decide)).trans (val9_main_arg12 V)
theorem val10_main_arg13 (V : Valuation τ sig (Elt Ideal)) : val10 V (Proc.devRef .tc main_arg13) = V (Proc.devRef .tc main_arg13) :=
  (keepSeg9 _ main_arg13 (by decide)).trans (val9_main_arg13 V)
theorem val10_main_arg14 (V : Valuation τ sig (Elt Ideal)) : val10 V (Proc.devRef .tc main_arg14) = V (Proc.devRef .tc main_arg14) :=
  (keepSeg9 _ main_arg14 (by decide)).trans (val9_main_arg14 V)
theorem val10_main_arg15 (V : Valuation τ sig (Elt Ideal)) : val10 V (Proc.devRef .tc main_arg15) = V (Proc.devRef .tc main_arg15) :=
  (keepSeg9 _ main_arg15 (by decide)).trans (val9_main_arg15 V)
theorem val10_main_arg16 (V : Valuation τ sig (Elt Ideal)) : val10 V (Proc.devRef .tc main_arg16) = V (Proc.devRef .tc main_arg16) :=
  (keepSeg9 _ main_arg16 (by decide)).trans (val9_main_arg16 V)
theorem val10_main_arg17 (V : Valuation τ sig (Elt Ideal)) : val10 V (Proc.devRef .tc main_arg17) = V (Proc.devRef .tc main_arg17) :=
  (keepSeg9 _ main_arg17 (by decide)).trans (val9_main_arg17 V)
theorem val10_main_arg18 (V : Valuation τ sig (Elt Ideal)) : val10 V (Proc.devRef .tc main_arg18) = V (Proc.devRef .tc main_arg18) :=
  (keepSeg9 _ main_arg18 (by decide)).trans (val9_main_arg18 V)
theorem val10_main_arg19 (V : Valuation τ sig (Elt Ideal)) : val10 V (Proc.devRef .tc main_arg19) = V (Proc.devRef .tc main_arg19) :=
  (keepSeg9 _ main_arg19 (by decide)).trans (val9_main_arg19 V)
theorem val10_main_arg20 (V : Valuation τ sig (Elt Ideal)) : val10 V (Proc.devRef .tc main_arg20) = V (Proc.devRef .tc main_arg20) :=
  (keepSeg9 _ main_arg20 (by decide)).trans (val9_main_arg20 V)
theorem val10_main_arg21 (V : Valuation τ sig (Elt Ideal)) : val10 V (Proc.devRef .tc main_arg21) = V (Proc.devRef .tc main_arg21) :=
  (keepSeg9 _ main_arg21 (by decide)).trans (val9_main_arg21 V)
theorem val10_main_arg22 (V : Valuation τ sig (Elt Ideal)) : val10 V (Proc.devRef .tc main_arg22) = V (Proc.devRef .tc main_arg22) :=
  (keepSeg9 _ main_arg22 (by decide)).trans (val9_main_arg22 V)
theorem val10_main_arg23 (V : Valuation τ sig (Elt Ideal)) : val10 V (Proc.devRef .tc main_arg23) = V (Proc.devRef .tc main_arg23) :=
  (keepSeg9 _ main_arg23 (by decide)).trans (val9_main_arg23 V)
theorem val10_main_v124 (V : Valuation τ sig (Elt Ideal)) : val10 V (Proc.devRef .tc main_v124) = poolR (bnR (linR128 (aggR128 (bnR (linR128 (aggR128 (bnR (linR64 (aggR64 (V (Proc.devRef .tc main_arg0)) (V (Proc.devRef .tc main_arg1))) (V (Proc.devRef .tc main_arg6)) (V (Proc.devRef .tc main_arg7))) (V (Proc.devRef .tc main_arg8)) (V (Proc.devRef .tc main_arg9))) (V (Proc.devRef .tc main_arg1))) (V (Proc.devRef .tc main_arg10)) (V (Proc.devRef .tc main_arg11))) (V (Proc.devRef .tc main_arg12)) (V (Proc.devRef .tc main_arg13))) (V (Proc.devRef .tc main_arg1))) (V (Proc.devRef .tc main_arg14)) (V (Proc.devRef .tc main_arg15))) (V (Proc.devRef .tc main_arg16)) (V (Proc.devRef .tc main_arg17))) (V (Proc.devRef .tc main_arg2)) (V (Proc.devRef .tc main_arg18)) (V (Proc.devRef .tc main_arg19)) := by
  unfold val10
  rw [sg9_out (val9 V), val9_main_v108 V, val9_main_arg2 V, val9_main_arg18 V, val9_main_arg19 V]

/-- The contents after the first 11 pieces. -/
def val11 (V : Valuation τ sig (Elt Ideal)) : Valuation τ sig (Elt Ideal) := after (sg10 (F := Ideal)) (val10 V)
theorem val11_main_arg5 (V : Valuation τ sig (Elt Ideal)) : val11 V (Proc.devRef .tc main_arg5) = V (Proc.devRef .tc main_arg5) :=
  (keepSeg10 _ main_arg5 (by decide)).trans (val10_main_arg5 V)
theorem val11_main_arg6 (V : Valuation τ sig (Elt Ideal)) : val11 V (Proc.devRef .tc main_arg6) = V (Proc.devRef .tc main_arg6) :=
  (keepSeg10 _ main_arg6 (by decide)).trans (val10_main_arg6 V)
theorem val11_main_arg7 (V : Valuation τ sig (Elt Ideal)) : val11 V (Proc.devRef .tc main_arg7) = V (Proc.devRef .tc main_arg7) :=
  (keepSeg10 _ main_arg7 (by decide)).trans (val10_main_arg7 V)
theorem val11_main_arg8 (V : Valuation τ sig (Elt Ideal)) : val11 V (Proc.devRef .tc main_arg8) = V (Proc.devRef .tc main_arg8) :=
  (keepSeg10 _ main_arg8 (by decide)).trans (val10_main_arg8 V)
theorem val11_main_arg9 (V : Valuation τ sig (Elt Ideal)) : val11 V (Proc.devRef .tc main_arg9) = V (Proc.devRef .tc main_arg9) :=
  (keepSeg10 _ main_arg9 (by decide)).trans (val10_main_arg9 V)
theorem val11_main_arg10 (V : Valuation τ sig (Elt Ideal)) : val11 V (Proc.devRef .tc main_arg10) = V (Proc.devRef .tc main_arg10) :=
  (keepSeg10 _ main_arg10 (by decide)).trans (val10_main_arg10 V)
theorem val11_main_arg11 (V : Valuation τ sig (Elt Ideal)) : val11 V (Proc.devRef .tc main_arg11) = V (Proc.devRef .tc main_arg11) :=
  (keepSeg10 _ main_arg11 (by decide)).trans (val10_main_arg11 V)
theorem val11_main_arg12 (V : Valuation τ sig (Elt Ideal)) : val11 V (Proc.devRef .tc main_arg12) = V (Proc.devRef .tc main_arg12) :=
  (keepSeg10 _ main_arg12 (by decide)).trans (val10_main_arg12 V)
theorem val11_main_arg13 (V : Valuation τ sig (Elt Ideal)) : val11 V (Proc.devRef .tc main_arg13) = V (Proc.devRef .tc main_arg13) :=
  (keepSeg10 _ main_arg13 (by decide)).trans (val10_main_arg13 V)
theorem val11_main_arg14 (V : Valuation τ sig (Elt Ideal)) : val11 V (Proc.devRef .tc main_arg14) = V (Proc.devRef .tc main_arg14) :=
  (keepSeg10 _ main_arg14 (by decide)).trans (val10_main_arg14 V)
theorem val11_main_arg15 (V : Valuation τ sig (Elt Ideal)) : val11 V (Proc.devRef .tc main_arg15) = V (Proc.devRef .tc main_arg15) :=
  (keepSeg10 _ main_arg15 (by decide)).trans (val10_main_arg15 V)
theorem val11_main_arg16 (V : Valuation τ sig (Elt Ideal)) : val11 V (Proc.devRef .tc main_arg16) = V (Proc.devRef .tc main_arg16) :=
  (keepSeg10 _ main_arg16 (by decide)).trans (val10_main_arg16 V)
theorem val11_main_arg17 (V : Valuation τ sig (Elt Ideal)) : val11 V (Proc.devRef .tc main_arg17) = V (Proc.devRef .tc main_arg17) :=
  (keepSeg10 _ main_arg17 (by decide)).trans (val10_main_arg17 V)
theorem val11_main_arg18 (V : Valuation τ sig (Elt Ideal)) : val11 V (Proc.devRef .tc main_arg18) = V (Proc.devRef .tc main_arg18) :=
  (keepSeg10 _ main_arg18 (by decide)).trans (val10_main_arg18 V)
theorem val11_main_arg19 (V : Valuation τ sig (Elt Ideal)) : val11 V (Proc.devRef .tc main_arg19) = V (Proc.devRef .tc main_arg19) :=
  (keepSeg10 _ main_arg19 (by decide)).trans (val10_main_arg19 V)
theorem val11_main_arg20 (V : Valuation τ sig (Elt Ideal)) : val11 V (Proc.devRef .tc main_arg20) = V (Proc.devRef .tc main_arg20) :=
  (keepSeg10 _ main_arg20 (by decide)).trans (val10_main_arg20 V)
theorem val11_main_arg21 (V : Valuation τ sig (Elt Ideal)) : val11 V (Proc.devRef .tc main_arg21) = V (Proc.devRef .tc main_arg21) :=
  (keepSeg10 _ main_arg21 (by decide)).trans (val10_main_arg21 V)
theorem val11_main_arg22 (V : Valuation τ sig (Elt Ideal)) : val11 V (Proc.devRef .tc main_arg22) = V (Proc.devRef .tc main_arg22) :=
  (keepSeg10 _ main_arg22 (by decide)).trans (val10_main_arg22 V)
theorem val11_main_arg23 (V : Valuation τ sig (Elt Ideal)) : val11 V (Proc.devRef .tc main_arg23) = V (Proc.devRef .tc main_arg23) :=
  (keepSeg10 _ main_arg23 (by decide)).trans (val10_main_arg23 V)
theorem val11_main_v124 (V : Valuation τ sig (Elt Ideal)) : val11 V (Proc.devRef .tc main_v124) = poolR (bnR (linR128 (aggR128 (bnR (linR128 (aggR128 (bnR (linR64 (aggR64 (V (Proc.devRef .tc main_arg0)) (V (Proc.devRef .tc main_arg1))) (V (Proc.devRef .tc main_arg6)) (V (Proc.devRef .tc main_arg7))) (V (Proc.devRef .tc main_arg8)) (V (Proc.devRef .tc main_arg9))) (V (Proc.devRef .tc main_arg1))) (V (Proc.devRef .tc main_arg10)) (V (Proc.devRef .tc main_arg11))) (V (Proc.devRef .tc main_arg12)) (V (Proc.devRef .tc main_arg13))) (V (Proc.devRef .tc main_arg1))) (V (Proc.devRef .tc main_arg14)) (V (Proc.devRef .tc main_arg15))) (V (Proc.devRef .tc main_arg16)) (V (Proc.devRef .tc main_arg17))) (V (Proc.devRef .tc main_arg2)) (V (Proc.devRef .tc main_arg18)) (V (Proc.devRef .tc main_arg19)) :=
  (keepSeg10 _ main_v124 (by decide)).trans (val10_main_v124 V)
theorem val11_main_v126 (V : Valuation τ sig (Elt Ideal)) : val11 V (Proc.devRef .tc main_v126) = edgeRow0 (V (Proc.devRef .tc main_arg4)) := by
  unfold val11
  rw [sg10_row0 (val10 V), val10_main_arg4 V]
theorem val11_main_v128 (V : Valuation τ sig (Elt Ideal)) : val11 V (Proc.devRef .tc main_v128) = edgeRow1 (V (Proc.devRef .tc main_arg4)) := by
  unfold val11
  rw [sg10_row1 (val10 V), val10_main_arg4 V]
theorem val11_main_v139 (V : Valuation τ sig (Elt Ideal)) : val11 V (Proc.devRef .tc main_v139) = aggR64 (V (Proc.devRef .tc main_arg3)) (V (Proc.devRef .tc main_arg4)) := by
  unfold val11
  rw [sg10_out (val10 V), val10_main_arg3 V, val10_main_arg4 V]

/-- The contents after the first 12 pieces. -/
def val12 (V : Valuation τ sig (Elt Ideal)) : Valuation τ sig (Elt Ideal) := after (sg11 (F := Ideal)) (val11 V)
theorem val12_main_arg5 (V : Valuation τ sig (Elt Ideal)) : val12 V (Proc.devRef .tc main_arg5) = V (Proc.devRef .tc main_arg5) :=
  (keepSeg11 _ main_arg5 (by decide)).trans (val11_main_arg5 V)
theorem val12_main_arg8 (V : Valuation τ sig (Elt Ideal)) : val12 V (Proc.devRef .tc main_arg8) = V (Proc.devRef .tc main_arg8) :=
  (keepSeg11 _ main_arg8 (by decide)).trans (val11_main_arg8 V)
theorem val12_main_arg9 (V : Valuation τ sig (Elt Ideal)) : val12 V (Proc.devRef .tc main_arg9) = V (Proc.devRef .tc main_arg9) :=
  (keepSeg11 _ main_arg9 (by decide)).trans (val11_main_arg9 V)
theorem val12_main_arg10 (V : Valuation τ sig (Elt Ideal)) : val12 V (Proc.devRef .tc main_arg10) = V (Proc.devRef .tc main_arg10) :=
  (keepSeg11 _ main_arg10 (by decide)).trans (val11_main_arg10 V)
theorem val12_main_arg11 (V : Valuation τ sig (Elt Ideal)) : val12 V (Proc.devRef .tc main_arg11) = V (Proc.devRef .tc main_arg11) :=
  (keepSeg11 _ main_arg11 (by decide)).trans (val11_main_arg11 V)
theorem val12_main_arg12 (V : Valuation τ sig (Elt Ideal)) : val12 V (Proc.devRef .tc main_arg12) = V (Proc.devRef .tc main_arg12) :=
  (keepSeg11 _ main_arg12 (by decide)).trans (val11_main_arg12 V)
theorem val12_main_arg13 (V : Valuation τ sig (Elt Ideal)) : val12 V (Proc.devRef .tc main_arg13) = V (Proc.devRef .tc main_arg13) :=
  (keepSeg11 _ main_arg13 (by decide)).trans (val11_main_arg13 V)
theorem val12_main_arg14 (V : Valuation τ sig (Elt Ideal)) : val12 V (Proc.devRef .tc main_arg14) = V (Proc.devRef .tc main_arg14) :=
  (keepSeg11 _ main_arg14 (by decide)).trans (val11_main_arg14 V)
theorem val12_main_arg15 (V : Valuation τ sig (Elt Ideal)) : val12 V (Proc.devRef .tc main_arg15) = V (Proc.devRef .tc main_arg15) :=
  (keepSeg11 _ main_arg15 (by decide)).trans (val11_main_arg15 V)
theorem val12_main_arg16 (V : Valuation τ sig (Elt Ideal)) : val12 V (Proc.devRef .tc main_arg16) = V (Proc.devRef .tc main_arg16) :=
  (keepSeg11 _ main_arg16 (by decide)).trans (val11_main_arg16 V)
theorem val12_main_arg17 (V : Valuation τ sig (Elt Ideal)) : val12 V (Proc.devRef .tc main_arg17) = V (Proc.devRef .tc main_arg17) :=
  (keepSeg11 _ main_arg17 (by decide)).trans (val11_main_arg17 V)
theorem val12_main_arg18 (V : Valuation τ sig (Elt Ideal)) : val12 V (Proc.devRef .tc main_arg18) = V (Proc.devRef .tc main_arg18) :=
  (keepSeg11 _ main_arg18 (by decide)).trans (val11_main_arg18 V)
theorem val12_main_arg19 (V : Valuation τ sig (Elt Ideal)) : val12 V (Proc.devRef .tc main_arg19) = V (Proc.devRef .tc main_arg19) :=
  (keepSeg11 _ main_arg19 (by decide)).trans (val11_main_arg19 V)
theorem val12_main_arg20 (V : Valuation τ sig (Elt Ideal)) : val12 V (Proc.devRef .tc main_arg20) = V (Proc.devRef .tc main_arg20) :=
  (keepSeg11 _ main_arg20 (by decide)).trans (val11_main_arg20 V)
theorem val12_main_arg21 (V : Valuation τ sig (Elt Ideal)) : val12 V (Proc.devRef .tc main_arg21) = V (Proc.devRef .tc main_arg21) :=
  (keepSeg11 _ main_arg21 (by decide)).trans (val11_main_arg21 V)
theorem val12_main_arg22 (V : Valuation τ sig (Elt Ideal)) : val12 V (Proc.devRef .tc main_arg22) = V (Proc.devRef .tc main_arg22) :=
  (keepSeg11 _ main_arg22 (by decide)).trans (val11_main_arg22 V)
theorem val12_main_arg23 (V : Valuation τ sig (Elt Ideal)) : val12 V (Proc.devRef .tc main_arg23) = V (Proc.devRef .tc main_arg23) :=
  (keepSeg11 _ main_arg23 (by decide)).trans (val11_main_arg23 V)
theorem val12_main_v124 (V : Valuation τ sig (Elt Ideal)) : val12 V (Proc.devRef .tc main_v124) = poolR (bnR (linR128 (aggR128 (bnR (linR128 (aggR128 (bnR (linR64 (aggR64 (V (Proc.devRef .tc main_arg0)) (V (Proc.devRef .tc main_arg1))) (V (Proc.devRef .tc main_arg6)) (V (Proc.devRef .tc main_arg7))) (V (Proc.devRef .tc main_arg8)) (V (Proc.devRef .tc main_arg9))) (V (Proc.devRef .tc main_arg1))) (V (Proc.devRef .tc main_arg10)) (V (Proc.devRef .tc main_arg11))) (V (Proc.devRef .tc main_arg12)) (V (Proc.devRef .tc main_arg13))) (V (Proc.devRef .tc main_arg1))) (V (Proc.devRef .tc main_arg14)) (V (Proc.devRef .tc main_arg15))) (V (Proc.devRef .tc main_arg16)) (V (Proc.devRef .tc main_arg17))) (V (Proc.devRef .tc main_arg2)) (V (Proc.devRef .tc main_arg18)) (V (Proc.devRef .tc main_arg19)) :=
  (keepSeg11 _ main_v124 (by decide)).trans (val11_main_v124 V)
theorem val12_main_v126 (V : Valuation τ sig (Elt Ideal)) : val12 V (Proc.devRef .tc main_v126) = edgeRow0 (V (Proc.devRef .tc main_arg4)) :=
  (keepSeg11 _ main_v126 (by decide)).trans (val11_main_v126 V)
theorem val12_main_v128 (V : Valuation τ sig (Elt Ideal)) : val12 V (Proc.devRef .tc main_v128) = edgeRow1 (V (Proc.devRef .tc main_arg4)) :=
  (keepSeg11 _ main_v128 (by decide)).trans (val11_main_v128 V)
theorem val12_main_v143 (V : Valuation τ sig (Elt Ideal)) : val12 V (Proc.devRef .tc main_v143) = linR64 (aggR64 (V (Proc.devRef .tc main_arg3)) (V (Proc.devRef .tc main_arg4))) (V (Proc.devRef .tc main_arg6)) (V (Proc.devRef .tc main_arg7)) := by
  unfold val12
  rw [sg11_out (val11 V), val11_main_v139 V, val11_main_arg6 V, val11_main_arg7 V]

/-- The contents after the first 13 pieces. -/
def val13 (V : Valuation τ sig (Elt Ideal)) : Valuation τ sig (Elt Ideal) := after (sg12 (F := Ideal)) (val12 V)
theorem val13_main_arg5 (V : Valuation τ sig (Elt Ideal)) : val13 V (Proc.devRef .tc main_arg5) = V (Proc.devRef .tc main_arg5) :=
  (keepSeg12 _ main_arg5 (by decide)).trans (val12_main_arg5 V)
theorem val13_main_arg10 (V : Valuation τ sig (Elt Ideal)) : val13 V (Proc.devRef .tc main_arg10) = V (Proc.devRef .tc main_arg10) :=
  (keepSeg12 _ main_arg10 (by decide)).trans (val12_main_arg10 V)
theorem val13_main_arg11 (V : Valuation τ sig (Elt Ideal)) : val13 V (Proc.devRef .tc main_arg11) = V (Proc.devRef .tc main_arg11) :=
  (keepSeg12 _ main_arg11 (by decide)).trans (val12_main_arg11 V)
theorem val13_main_arg12 (V : Valuation τ sig (Elt Ideal)) : val13 V (Proc.devRef .tc main_arg12) = V (Proc.devRef .tc main_arg12) :=
  (keepSeg12 _ main_arg12 (by decide)).trans (val12_main_arg12 V)
theorem val13_main_arg13 (V : Valuation τ sig (Elt Ideal)) : val13 V (Proc.devRef .tc main_arg13) = V (Proc.devRef .tc main_arg13) :=
  (keepSeg12 _ main_arg13 (by decide)).trans (val12_main_arg13 V)
theorem val13_main_arg14 (V : Valuation τ sig (Elt Ideal)) : val13 V (Proc.devRef .tc main_arg14) = V (Proc.devRef .tc main_arg14) :=
  (keepSeg12 _ main_arg14 (by decide)).trans (val12_main_arg14 V)
theorem val13_main_arg15 (V : Valuation τ sig (Elt Ideal)) : val13 V (Proc.devRef .tc main_arg15) = V (Proc.devRef .tc main_arg15) :=
  (keepSeg12 _ main_arg15 (by decide)).trans (val12_main_arg15 V)
theorem val13_main_arg16 (V : Valuation τ sig (Elt Ideal)) : val13 V (Proc.devRef .tc main_arg16) = V (Proc.devRef .tc main_arg16) :=
  (keepSeg12 _ main_arg16 (by decide)).trans (val12_main_arg16 V)
theorem val13_main_arg17 (V : Valuation τ sig (Elt Ideal)) : val13 V (Proc.devRef .tc main_arg17) = V (Proc.devRef .tc main_arg17) :=
  (keepSeg12 _ main_arg17 (by decide)).trans (val12_main_arg17 V)
theorem val13_main_arg18 (V : Valuation τ sig (Elt Ideal)) : val13 V (Proc.devRef .tc main_arg18) = V (Proc.devRef .tc main_arg18) :=
  (keepSeg12 _ main_arg18 (by decide)).trans (val12_main_arg18 V)
theorem val13_main_arg19 (V : Valuation τ sig (Elt Ideal)) : val13 V (Proc.devRef .tc main_arg19) = V (Proc.devRef .tc main_arg19) :=
  (keepSeg12 _ main_arg19 (by decide)).trans (val12_main_arg19 V)
theorem val13_main_arg20 (V : Valuation τ sig (Elt Ideal)) : val13 V (Proc.devRef .tc main_arg20) = V (Proc.devRef .tc main_arg20) :=
  (keepSeg12 _ main_arg20 (by decide)).trans (val12_main_arg20 V)
theorem val13_main_arg21 (V : Valuation τ sig (Elt Ideal)) : val13 V (Proc.devRef .tc main_arg21) = V (Proc.devRef .tc main_arg21) :=
  (keepSeg12 _ main_arg21 (by decide)).trans (val12_main_arg21 V)
theorem val13_main_arg22 (V : Valuation τ sig (Elt Ideal)) : val13 V (Proc.devRef .tc main_arg22) = V (Proc.devRef .tc main_arg22) :=
  (keepSeg12 _ main_arg22 (by decide)).trans (val12_main_arg22 V)
theorem val13_main_arg23 (V : Valuation τ sig (Elt Ideal)) : val13 V (Proc.devRef .tc main_arg23) = V (Proc.devRef .tc main_arg23) :=
  (keepSeg12 _ main_arg23 (by decide)).trans (val12_main_arg23 V)
theorem val13_main_v124 (V : Valuation τ sig (Elt Ideal)) : val13 V (Proc.devRef .tc main_v124) = poolR (bnR (linR128 (aggR128 (bnR (linR128 (aggR128 (bnR (linR64 (aggR64 (V (Proc.devRef .tc main_arg0)) (V (Proc.devRef .tc main_arg1))) (V (Proc.devRef .tc main_arg6)) (V (Proc.devRef .tc main_arg7))) (V (Proc.devRef .tc main_arg8)) (V (Proc.devRef .tc main_arg9))) (V (Proc.devRef .tc main_arg1))) (V (Proc.devRef .tc main_arg10)) (V (Proc.devRef .tc main_arg11))) (V (Proc.devRef .tc main_arg12)) (V (Proc.devRef .tc main_arg13))) (V (Proc.devRef .tc main_arg1))) (V (Proc.devRef .tc main_arg14)) (V (Proc.devRef .tc main_arg15))) (V (Proc.devRef .tc main_arg16)) (V (Proc.devRef .tc main_arg17))) (V (Proc.devRef .tc main_arg2)) (V (Proc.devRef .tc main_arg18)) (V (Proc.devRef .tc main_arg19)) :=
  (keepSeg12 _ main_v124 (by decide)).trans (val12_main_v124 V)
theorem val13_main_v126 (V : Valuation τ sig (Elt Ideal)) : val13 V (Proc.devRef .tc main_v126) = edgeRow0 (V (Proc.devRef .tc main_arg4)) :=
  (keepSeg12 _ main_v126 (by decide)).trans (val12_main_v126 V)
theorem val13_main_v128 (V : Valuation τ sig (Elt Ideal)) : val13 V (Proc.devRef .tc main_v128) = edgeRow1 (V (Proc.devRef .tc main_arg4)) :=
  (keepSeg12 _ main_v128 (by decide)).trans (val12_main_v128 V)
theorem val13_main_v163 (V : Valuation τ sig (Elt Ideal)) : val13 V (Proc.devRef .tc main_v163) = bnR (linR64 (aggR64 (V (Proc.devRef .tc main_arg3)) (V (Proc.devRef .tc main_arg4))) (V (Proc.devRef .tc main_arg6)) (V (Proc.devRef .tc main_arg7))) (V (Proc.devRef .tc main_arg8)) (V (Proc.devRef .tc main_arg9)) := by
  unfold val13
  rw [sg12_out (val12 V), val12_main_v143 V, val12_main_arg8 V, val12_main_arg9 V]

/-- The contents after the first 14 pieces. -/
def val14 (V : Valuation τ sig (Elt Ideal)) : Valuation τ sig (Elt Ideal) := after (sg13 (F := Ideal)) (val13 V)
theorem val14_main_arg5 (V : Valuation τ sig (Elt Ideal)) : val14 V (Proc.devRef .tc main_arg5) = V (Proc.devRef .tc main_arg5) :=
  (keepSeg13 _ main_arg5 (by decide)).trans (val13_main_arg5 V)
theorem val14_main_arg10 (V : Valuation τ sig (Elt Ideal)) : val14 V (Proc.devRef .tc main_arg10) = V (Proc.devRef .tc main_arg10) :=
  (keepSeg13 _ main_arg10 (by decide)).trans (val13_main_arg10 V)
theorem val14_main_arg11 (V : Valuation τ sig (Elt Ideal)) : val14 V (Proc.devRef .tc main_arg11) = V (Proc.devRef .tc main_arg11) :=
  (keepSeg13 _ main_arg11 (by decide)).trans (val13_main_arg11 V)
theorem val14_main_arg12 (V : Valuation τ sig (Elt Ideal)) : val14 V (Proc.devRef .tc main_arg12) = V (Proc.devRef .tc main_arg12) :=
  (keepSeg13 _ main_arg12 (by decide)).trans (val13_main_arg12 V)
theorem val14_main_arg13 (V : Valuation τ sig (Elt Ideal)) : val14 V (Proc.devRef .tc main_arg13) = V (Proc.devRef .tc main_arg13) :=
  (keepSeg13 _ main_arg13 (by decide)).trans (val13_main_arg13 V)
theorem val14_main_arg14 (V : Valuation τ sig (Elt Ideal)) : val14 V (Proc.devRef .tc main_arg14) = V (Proc.devRef .tc main_arg14) :=
  (keepSeg13 _ main_arg14 (by decide)).trans (val13_main_arg14 V)
theorem val14_main_arg15 (V : Valuation τ sig (Elt Ideal)) : val14 V (Proc.devRef .tc main_arg15) = V (Proc.devRef .tc main_arg15) :=
  (keepSeg13 _ main_arg15 (by decide)).trans (val13_main_arg15 V)
theorem val14_main_arg16 (V : Valuation τ sig (Elt Ideal)) : val14 V (Proc.devRef .tc main_arg16) = V (Proc.devRef .tc main_arg16) :=
  (keepSeg13 _ main_arg16 (by decide)).trans (val13_main_arg16 V)
theorem val14_main_arg17 (V : Valuation τ sig (Elt Ideal)) : val14 V (Proc.devRef .tc main_arg17) = V (Proc.devRef .tc main_arg17) :=
  (keepSeg13 _ main_arg17 (by decide)).trans (val13_main_arg17 V)
theorem val14_main_arg18 (V : Valuation τ sig (Elt Ideal)) : val14 V (Proc.devRef .tc main_arg18) = V (Proc.devRef .tc main_arg18) :=
  (keepSeg13 _ main_arg18 (by decide)).trans (val13_main_arg18 V)
theorem val14_main_arg19 (V : Valuation τ sig (Elt Ideal)) : val14 V (Proc.devRef .tc main_arg19) = V (Proc.devRef .tc main_arg19) :=
  (keepSeg13 _ main_arg19 (by decide)).trans (val13_main_arg19 V)
theorem val14_main_arg20 (V : Valuation τ sig (Elt Ideal)) : val14 V (Proc.devRef .tc main_arg20) = V (Proc.devRef .tc main_arg20) :=
  (keepSeg13 _ main_arg20 (by decide)).trans (val13_main_arg20 V)
theorem val14_main_arg21 (V : Valuation τ sig (Elt Ideal)) : val14 V (Proc.devRef .tc main_arg21) = V (Proc.devRef .tc main_arg21) :=
  (keepSeg13 _ main_arg21 (by decide)).trans (val13_main_arg21 V)
theorem val14_main_arg22 (V : Valuation τ sig (Elt Ideal)) : val14 V (Proc.devRef .tc main_arg22) = V (Proc.devRef .tc main_arg22) :=
  (keepSeg13 _ main_arg22 (by decide)).trans (val13_main_arg22 V)
theorem val14_main_arg23 (V : Valuation τ sig (Elt Ideal)) : val14 V (Proc.devRef .tc main_arg23) = V (Proc.devRef .tc main_arg23) :=
  (keepSeg13 _ main_arg23 (by decide)).trans (val13_main_arg23 V)
theorem val14_main_v124 (V : Valuation τ sig (Elt Ideal)) : val14 V (Proc.devRef .tc main_v124) = poolR (bnR (linR128 (aggR128 (bnR (linR128 (aggR128 (bnR (linR64 (aggR64 (V (Proc.devRef .tc main_arg0)) (V (Proc.devRef .tc main_arg1))) (V (Proc.devRef .tc main_arg6)) (V (Proc.devRef .tc main_arg7))) (V (Proc.devRef .tc main_arg8)) (V (Proc.devRef .tc main_arg9))) (V (Proc.devRef .tc main_arg1))) (V (Proc.devRef .tc main_arg10)) (V (Proc.devRef .tc main_arg11))) (V (Proc.devRef .tc main_arg12)) (V (Proc.devRef .tc main_arg13))) (V (Proc.devRef .tc main_arg1))) (V (Proc.devRef .tc main_arg14)) (V (Proc.devRef .tc main_arg15))) (V (Proc.devRef .tc main_arg16)) (V (Proc.devRef .tc main_arg17))) (V (Proc.devRef .tc main_arg2)) (V (Proc.devRef .tc main_arg18)) (V (Proc.devRef .tc main_arg19)) :=
  (keepSeg13 _ main_v124 (by decide)).trans (val13_main_v124 V)
theorem val14_main_v126 (V : Valuation τ sig (Elt Ideal)) : val14 V (Proc.devRef .tc main_v126) = edgeRow0 (V (Proc.devRef .tc main_arg4)) :=
  (keepSeg13 _ main_v126 (by decide)).trans (val13_main_v126 V)
theorem val14_main_v128 (V : Valuation τ sig (Elt Ideal)) : val14 V (Proc.devRef .tc main_v128) = edgeRow1 (V (Proc.devRef .tc main_arg4)) :=
  (keepSeg13 _ main_v128 (by decide)).trans (val13_main_v128 V)
theorem val14_main_v174 (V : Valuation τ sig (Elt Ideal)) : val14 V (Proc.devRef .tc main_v174) = aggR128 (bnR (linR64 (aggR64 (V (Proc.devRef .tc main_arg3)) (V (Proc.devRef .tc main_arg4))) (V (Proc.devRef .tc main_arg6)) (V (Proc.devRef .tc main_arg7))) (V (Proc.devRef .tc main_arg8)) (V (Proc.devRef .tc main_arg9))) (V (Proc.devRef .tc main_arg4)) := by
  unfold val14
  rw [sg13_out (val13 V) (V (Proc.devRef .tc main_arg4)) (val13_main_v126 V) (val13_main_v128 V), val13_main_v163 V]

/-- The contents after the first 15 pieces. -/
def val15 (V : Valuation τ sig (Elt Ideal)) : Valuation τ sig (Elt Ideal) := after (sg14 (F := Ideal)) (val14 V)
theorem val15_main_arg5 (V : Valuation τ sig (Elt Ideal)) : val15 V (Proc.devRef .tc main_arg5) = V (Proc.devRef .tc main_arg5) :=
  (keepSeg14 _ main_arg5 (by decide)).trans (val14_main_arg5 V)
theorem val15_main_arg12 (V : Valuation τ sig (Elt Ideal)) : val15 V (Proc.devRef .tc main_arg12) = V (Proc.devRef .tc main_arg12) :=
  (keepSeg14 _ main_arg12 (by decide)).trans (val14_main_arg12 V)
theorem val15_main_arg13 (V : Valuation τ sig (Elt Ideal)) : val15 V (Proc.devRef .tc main_arg13) = V (Proc.devRef .tc main_arg13) :=
  (keepSeg14 _ main_arg13 (by decide)).trans (val14_main_arg13 V)
theorem val15_main_arg14 (V : Valuation τ sig (Elt Ideal)) : val15 V (Proc.devRef .tc main_arg14) = V (Proc.devRef .tc main_arg14) :=
  (keepSeg14 _ main_arg14 (by decide)).trans (val14_main_arg14 V)
theorem val15_main_arg15 (V : Valuation τ sig (Elt Ideal)) : val15 V (Proc.devRef .tc main_arg15) = V (Proc.devRef .tc main_arg15) :=
  (keepSeg14 _ main_arg15 (by decide)).trans (val14_main_arg15 V)
theorem val15_main_arg16 (V : Valuation τ sig (Elt Ideal)) : val15 V (Proc.devRef .tc main_arg16) = V (Proc.devRef .tc main_arg16) :=
  (keepSeg14 _ main_arg16 (by decide)).trans (val14_main_arg16 V)
theorem val15_main_arg17 (V : Valuation τ sig (Elt Ideal)) : val15 V (Proc.devRef .tc main_arg17) = V (Proc.devRef .tc main_arg17) :=
  (keepSeg14 _ main_arg17 (by decide)).trans (val14_main_arg17 V)
theorem val15_main_arg18 (V : Valuation τ sig (Elt Ideal)) : val15 V (Proc.devRef .tc main_arg18) = V (Proc.devRef .tc main_arg18) :=
  (keepSeg14 _ main_arg18 (by decide)).trans (val14_main_arg18 V)
theorem val15_main_arg19 (V : Valuation τ sig (Elt Ideal)) : val15 V (Proc.devRef .tc main_arg19) = V (Proc.devRef .tc main_arg19) :=
  (keepSeg14 _ main_arg19 (by decide)).trans (val14_main_arg19 V)
theorem val15_main_arg20 (V : Valuation τ sig (Elt Ideal)) : val15 V (Proc.devRef .tc main_arg20) = V (Proc.devRef .tc main_arg20) :=
  (keepSeg14 _ main_arg20 (by decide)).trans (val14_main_arg20 V)
theorem val15_main_arg21 (V : Valuation τ sig (Elt Ideal)) : val15 V (Proc.devRef .tc main_arg21) = V (Proc.devRef .tc main_arg21) :=
  (keepSeg14 _ main_arg21 (by decide)).trans (val14_main_arg21 V)
theorem val15_main_arg22 (V : Valuation τ sig (Elt Ideal)) : val15 V (Proc.devRef .tc main_arg22) = V (Proc.devRef .tc main_arg22) :=
  (keepSeg14 _ main_arg22 (by decide)).trans (val14_main_arg22 V)
theorem val15_main_arg23 (V : Valuation τ sig (Elt Ideal)) : val15 V (Proc.devRef .tc main_arg23) = V (Proc.devRef .tc main_arg23) :=
  (keepSeg14 _ main_arg23 (by decide)).trans (val14_main_arg23 V)
theorem val15_main_v124 (V : Valuation τ sig (Elt Ideal)) : val15 V (Proc.devRef .tc main_v124) = poolR (bnR (linR128 (aggR128 (bnR (linR128 (aggR128 (bnR (linR64 (aggR64 (V (Proc.devRef .tc main_arg0)) (V (Proc.devRef .tc main_arg1))) (V (Proc.devRef .tc main_arg6)) (V (Proc.devRef .tc main_arg7))) (V (Proc.devRef .tc main_arg8)) (V (Proc.devRef .tc main_arg9))) (V (Proc.devRef .tc main_arg1))) (V (Proc.devRef .tc main_arg10)) (V (Proc.devRef .tc main_arg11))) (V (Proc.devRef .tc main_arg12)) (V (Proc.devRef .tc main_arg13))) (V (Proc.devRef .tc main_arg1))) (V (Proc.devRef .tc main_arg14)) (V (Proc.devRef .tc main_arg15))) (V (Proc.devRef .tc main_arg16)) (V (Proc.devRef .tc main_arg17))) (V (Proc.devRef .tc main_arg2)) (V (Proc.devRef .tc main_arg18)) (V (Proc.devRef .tc main_arg19)) :=
  (keepSeg14 _ main_v124 (by decide)).trans (val14_main_v124 V)
theorem val15_main_v126 (V : Valuation τ sig (Elt Ideal)) : val15 V (Proc.devRef .tc main_v126) = edgeRow0 (V (Proc.devRef .tc main_arg4)) :=
  (keepSeg14 _ main_v126 (by decide)).trans (val14_main_v126 V)
theorem val15_main_v128 (V : Valuation τ sig (Elt Ideal)) : val15 V (Proc.devRef .tc main_v128) = edgeRow1 (V (Proc.devRef .tc main_arg4)) :=
  (keepSeg14 _ main_v128 (by decide)).trans (val14_main_v128 V)
theorem val15_main_v178 (V : Valuation τ sig (Elt Ideal)) : val15 V (Proc.devRef .tc main_v178) = linR128 (aggR128 (bnR (linR64 (aggR64 (V (Proc.devRef .tc main_arg3)) (V (Proc.devRef .tc main_arg4))) (V (Proc.devRef .tc main_arg6)) (V (Proc.devRef .tc main_arg7))) (V (Proc.devRef .tc main_arg8)) (V (Proc.devRef .tc main_arg9))) (V (Proc.devRef .tc main_arg4))) (V (Proc.devRef .tc main_arg10)) (V (Proc.devRef .tc main_arg11)) := by
  unfold val15
  rw [sg14_out (val14 V), val14_main_v174 V, val14_main_arg10 V, val14_main_arg11 V]

/-- The contents after the first 16 pieces. -/
def val16 (V : Valuation τ sig (Elt Ideal)) : Valuation τ sig (Elt Ideal) := after (sg15 (F := Ideal)) (val15 V)
theorem val16_main_arg5 (V : Valuation τ sig (Elt Ideal)) : val16 V (Proc.devRef .tc main_arg5) = V (Proc.devRef .tc main_arg5) :=
  (keepSeg15 _ main_arg5 (by decide)).trans (val15_main_arg5 V)
theorem val16_main_arg14 (V : Valuation τ sig (Elt Ideal)) : val16 V (Proc.devRef .tc main_arg14) = V (Proc.devRef .tc main_arg14) :=
  (keepSeg15 _ main_arg14 (by decide)).trans (val15_main_arg14 V)
theorem val16_main_arg15 (V : Valuation τ sig (Elt Ideal)) : val16 V (Proc.devRef .tc main_arg15) = V (Proc.devRef .tc main_arg15) :=
  (keepSeg15 _ main_arg15 (by decide)).trans (val15_main_arg15 V)
theorem val16_main_arg16 (V : Valuation τ sig (Elt Ideal)) : val16 V (Proc.devRef .tc main_arg16) = V (Proc.devRef .tc main_arg16) :=
  (keepSeg15 _ main_arg16 (by decide)).trans (val15_main_arg16 V)
theorem val16_main_arg17 (V : Valuation τ sig (Elt Ideal)) : val16 V (Proc.devRef .tc main_arg17) = V (Proc.devRef .tc main_arg17) :=
  (keepSeg15 _ main_arg17 (by decide)).trans (val15_main_arg17 V)
theorem val16_main_arg18 (V : Valuation τ sig (Elt Ideal)) : val16 V (Proc.devRef .tc main_arg18) = V (Proc.devRef .tc main_arg18) :=
  (keepSeg15 _ main_arg18 (by decide)).trans (val15_main_arg18 V)
theorem val16_main_arg19 (V : Valuation τ sig (Elt Ideal)) : val16 V (Proc.devRef .tc main_arg19) = V (Proc.devRef .tc main_arg19) :=
  (keepSeg15 _ main_arg19 (by decide)).trans (val15_main_arg19 V)
theorem val16_main_arg20 (V : Valuation τ sig (Elt Ideal)) : val16 V (Proc.devRef .tc main_arg20) = V (Proc.devRef .tc main_arg20) :=
  (keepSeg15 _ main_arg20 (by decide)).trans (val15_main_arg20 V)
theorem val16_main_arg21 (V : Valuation τ sig (Elt Ideal)) : val16 V (Proc.devRef .tc main_arg21) = V (Proc.devRef .tc main_arg21) :=
  (keepSeg15 _ main_arg21 (by decide)).trans (val15_main_arg21 V)
theorem val16_main_arg22 (V : Valuation τ sig (Elt Ideal)) : val16 V (Proc.devRef .tc main_arg22) = V (Proc.devRef .tc main_arg22) :=
  (keepSeg15 _ main_arg22 (by decide)).trans (val15_main_arg22 V)
theorem val16_main_arg23 (V : Valuation τ sig (Elt Ideal)) : val16 V (Proc.devRef .tc main_arg23) = V (Proc.devRef .tc main_arg23) :=
  (keepSeg15 _ main_arg23 (by decide)).trans (val15_main_arg23 V)
theorem val16_main_v124 (V : Valuation τ sig (Elt Ideal)) : val16 V (Proc.devRef .tc main_v124) = poolR (bnR (linR128 (aggR128 (bnR (linR128 (aggR128 (bnR (linR64 (aggR64 (V (Proc.devRef .tc main_arg0)) (V (Proc.devRef .tc main_arg1))) (V (Proc.devRef .tc main_arg6)) (V (Proc.devRef .tc main_arg7))) (V (Proc.devRef .tc main_arg8)) (V (Proc.devRef .tc main_arg9))) (V (Proc.devRef .tc main_arg1))) (V (Proc.devRef .tc main_arg10)) (V (Proc.devRef .tc main_arg11))) (V (Proc.devRef .tc main_arg12)) (V (Proc.devRef .tc main_arg13))) (V (Proc.devRef .tc main_arg1))) (V (Proc.devRef .tc main_arg14)) (V (Proc.devRef .tc main_arg15))) (V (Proc.devRef .tc main_arg16)) (V (Proc.devRef .tc main_arg17))) (V (Proc.devRef .tc main_arg2)) (V (Proc.devRef .tc main_arg18)) (V (Proc.devRef .tc main_arg19)) :=
  (keepSeg15 _ main_v124 (by decide)).trans (val15_main_v124 V)
theorem val16_main_v126 (V : Valuation τ sig (Elt Ideal)) : val16 V (Proc.devRef .tc main_v126) = edgeRow0 (V (Proc.devRef .tc main_arg4)) :=
  (keepSeg15 _ main_v126 (by decide)).trans (val15_main_v126 V)
theorem val16_main_v128 (V : Valuation τ sig (Elt Ideal)) : val16 V (Proc.devRef .tc main_v128) = edgeRow1 (V (Proc.devRef .tc main_arg4)) :=
  (keepSeg15 _ main_v128 (by decide)).trans (val15_main_v128 V)
theorem val16_main_v198 (V : Valuation τ sig (Elt Ideal)) : val16 V (Proc.devRef .tc main_v198) = bnR (linR128 (aggR128 (bnR (linR64 (aggR64 (V (Proc.devRef .tc main_arg3)) (V (Proc.devRef .tc main_arg4))) (V (Proc.devRef .tc main_arg6)) (V (Proc.devRef .tc main_arg7))) (V (Proc.devRef .tc main_arg8)) (V (Proc.devRef .tc main_arg9))) (V (Proc.devRef .tc main_arg4))) (V (Proc.devRef .tc main_arg10)) (V (Proc.devRef .tc main_arg11))) (V (Proc.devRef .tc main_arg12)) (V (Proc.devRef .tc main_arg13)) := by
  unfold val16
  rw [sg15_out (val15 V), val15_main_v178 V, val15_main_arg12 V, val15_main_arg13 V]

/-- The contents after the first 17 pieces. -/
def val17 (V : Valuation τ sig (Elt Ideal)) : Valuation τ sig (Elt Ideal) := after (sg16 (F := Ideal)) (val16 V)
theorem val17_main_arg5 (V : Valuation τ sig (Elt Ideal)) : val17 V (Proc.devRef .tc main_arg5) = V (Proc.devRef .tc main_arg5) :=
  (keepSeg16 _ main_arg5 (by decide)).trans (val16_main_arg5 V)
theorem val17_main_arg14 (V : Valuation τ sig (Elt Ideal)) : val17 V (Proc.devRef .tc main_arg14) = V (Proc.devRef .tc main_arg14) :=
  (keepSeg16 _ main_arg14 (by decide)).trans (val16_main_arg14 V)
theorem val17_main_arg15 (V : Valuation τ sig (Elt Ideal)) : val17 V (Proc.devRef .tc main_arg15) = V (Proc.devRef .tc main_arg15) :=
  (keepSeg16 _ main_arg15 (by decide)).trans (val16_main_arg15 V)
theorem val17_main_arg16 (V : Valuation τ sig (Elt Ideal)) : val17 V (Proc.devRef .tc main_arg16) = V (Proc.devRef .tc main_arg16) :=
  (keepSeg16 _ main_arg16 (by decide)).trans (val16_main_arg16 V)
theorem val17_main_arg17 (V : Valuation τ sig (Elt Ideal)) : val17 V (Proc.devRef .tc main_arg17) = V (Proc.devRef .tc main_arg17) :=
  (keepSeg16 _ main_arg17 (by decide)).trans (val16_main_arg17 V)
theorem val17_main_arg18 (V : Valuation τ sig (Elt Ideal)) : val17 V (Proc.devRef .tc main_arg18) = V (Proc.devRef .tc main_arg18) :=
  (keepSeg16 _ main_arg18 (by decide)).trans (val16_main_arg18 V)
theorem val17_main_arg19 (V : Valuation τ sig (Elt Ideal)) : val17 V (Proc.devRef .tc main_arg19) = V (Proc.devRef .tc main_arg19) :=
  (keepSeg16 _ main_arg19 (by decide)).trans (val16_main_arg19 V)
theorem val17_main_arg20 (V : Valuation τ sig (Elt Ideal)) : val17 V (Proc.devRef .tc main_arg20) = V (Proc.devRef .tc main_arg20) :=
  (keepSeg16 _ main_arg20 (by decide)).trans (val16_main_arg20 V)
theorem val17_main_arg21 (V : Valuation τ sig (Elt Ideal)) : val17 V (Proc.devRef .tc main_arg21) = V (Proc.devRef .tc main_arg21) :=
  (keepSeg16 _ main_arg21 (by decide)).trans (val16_main_arg21 V)
theorem val17_main_arg22 (V : Valuation τ sig (Elt Ideal)) : val17 V (Proc.devRef .tc main_arg22) = V (Proc.devRef .tc main_arg22) :=
  (keepSeg16 _ main_arg22 (by decide)).trans (val16_main_arg22 V)
theorem val17_main_arg23 (V : Valuation τ sig (Elt Ideal)) : val17 V (Proc.devRef .tc main_arg23) = V (Proc.devRef .tc main_arg23) :=
  (keepSeg16 _ main_arg23 (by decide)).trans (val16_main_arg23 V)
theorem val17_main_v124 (V : Valuation τ sig (Elt Ideal)) : val17 V (Proc.devRef .tc main_v124) = poolR (bnR (linR128 (aggR128 (bnR (linR128 (aggR128 (bnR (linR64 (aggR64 (V (Proc.devRef .tc main_arg0)) (V (Proc.devRef .tc main_arg1))) (V (Proc.devRef .tc main_arg6)) (V (Proc.devRef .tc main_arg7))) (V (Proc.devRef .tc main_arg8)) (V (Proc.devRef .tc main_arg9))) (V (Proc.devRef .tc main_arg1))) (V (Proc.devRef .tc main_arg10)) (V (Proc.devRef .tc main_arg11))) (V (Proc.devRef .tc main_arg12)) (V (Proc.devRef .tc main_arg13))) (V (Proc.devRef .tc main_arg1))) (V (Proc.devRef .tc main_arg14)) (V (Proc.devRef .tc main_arg15))) (V (Proc.devRef .tc main_arg16)) (V (Proc.devRef .tc main_arg17))) (V (Proc.devRef .tc main_arg2)) (V (Proc.devRef .tc main_arg18)) (V (Proc.devRef .tc main_arg19)) :=
  (keepSeg16 _ main_v124 (by decide)).trans (val16_main_v124 V)
theorem val17_main_v209 (V : Valuation τ sig (Elt Ideal)) : val17 V (Proc.devRef .tc main_v209) = aggR128 (bnR (linR128 (aggR128 (bnR (linR64 (aggR64 (V (Proc.devRef .tc main_arg3)) (V (Proc.devRef .tc main_arg4))) (V (Proc.devRef .tc main_arg6)) (V (Proc.devRef .tc main_arg7))) (V (Proc.devRef .tc main_arg8)) (V (Proc.devRef .tc main_arg9))) (V (Proc.devRef .tc main_arg4))) (V (Proc.devRef .tc main_arg10)) (V (Proc.devRef .tc main_arg11))) (V (Proc.devRef .tc main_arg12)) (V (Proc.devRef .tc main_arg13))) (V (Proc.devRef .tc main_arg4)) := by
  unfold val17
  rw [sg16_out (val16 V) (V (Proc.devRef .tc main_arg4)) (val16_main_v126 V) (val16_main_v128 V), val16_main_v198 V]

/-- The contents after the first 18 pieces. -/
def val18 (V : Valuation τ sig (Elt Ideal)) : Valuation τ sig (Elt Ideal) := after (sg17 (F := Ideal)) (val17 V)
theorem val18_main_arg5 (V : Valuation τ sig (Elt Ideal)) : val18 V (Proc.devRef .tc main_arg5) = V (Proc.devRef .tc main_arg5) :=
  (keepSeg17 _ main_arg5 (by decide)).trans (val17_main_arg5 V)
theorem val18_main_arg16 (V : Valuation τ sig (Elt Ideal)) : val18 V (Proc.devRef .tc main_arg16) = V (Proc.devRef .tc main_arg16) :=
  (keepSeg17 _ main_arg16 (by decide)).trans (val17_main_arg16 V)
theorem val18_main_arg17 (V : Valuation τ sig (Elt Ideal)) : val18 V (Proc.devRef .tc main_arg17) = V (Proc.devRef .tc main_arg17) :=
  (keepSeg17 _ main_arg17 (by decide)).trans (val17_main_arg17 V)
theorem val18_main_arg18 (V : Valuation τ sig (Elt Ideal)) : val18 V (Proc.devRef .tc main_arg18) = V (Proc.devRef .tc main_arg18) :=
  (keepSeg17 _ main_arg18 (by decide)).trans (val17_main_arg18 V)
theorem val18_main_arg19 (V : Valuation τ sig (Elt Ideal)) : val18 V (Proc.devRef .tc main_arg19) = V (Proc.devRef .tc main_arg19) :=
  (keepSeg17 _ main_arg19 (by decide)).trans (val17_main_arg19 V)
theorem val18_main_arg20 (V : Valuation τ sig (Elt Ideal)) : val18 V (Proc.devRef .tc main_arg20) = V (Proc.devRef .tc main_arg20) :=
  (keepSeg17 _ main_arg20 (by decide)).trans (val17_main_arg20 V)
theorem val18_main_arg21 (V : Valuation τ sig (Elt Ideal)) : val18 V (Proc.devRef .tc main_arg21) = V (Proc.devRef .tc main_arg21) :=
  (keepSeg17 _ main_arg21 (by decide)).trans (val17_main_arg21 V)
theorem val18_main_arg22 (V : Valuation τ sig (Elt Ideal)) : val18 V (Proc.devRef .tc main_arg22) = V (Proc.devRef .tc main_arg22) :=
  (keepSeg17 _ main_arg22 (by decide)).trans (val17_main_arg22 V)
theorem val18_main_arg23 (V : Valuation τ sig (Elt Ideal)) : val18 V (Proc.devRef .tc main_arg23) = V (Proc.devRef .tc main_arg23) :=
  (keepSeg17 _ main_arg23 (by decide)).trans (val17_main_arg23 V)
theorem val18_main_v124 (V : Valuation τ sig (Elt Ideal)) : val18 V (Proc.devRef .tc main_v124) = poolR (bnR (linR128 (aggR128 (bnR (linR128 (aggR128 (bnR (linR64 (aggR64 (V (Proc.devRef .tc main_arg0)) (V (Proc.devRef .tc main_arg1))) (V (Proc.devRef .tc main_arg6)) (V (Proc.devRef .tc main_arg7))) (V (Proc.devRef .tc main_arg8)) (V (Proc.devRef .tc main_arg9))) (V (Proc.devRef .tc main_arg1))) (V (Proc.devRef .tc main_arg10)) (V (Proc.devRef .tc main_arg11))) (V (Proc.devRef .tc main_arg12)) (V (Proc.devRef .tc main_arg13))) (V (Proc.devRef .tc main_arg1))) (V (Proc.devRef .tc main_arg14)) (V (Proc.devRef .tc main_arg15))) (V (Proc.devRef .tc main_arg16)) (V (Proc.devRef .tc main_arg17))) (V (Proc.devRef .tc main_arg2)) (V (Proc.devRef .tc main_arg18)) (V (Proc.devRef .tc main_arg19)) :=
  (keepSeg17 _ main_v124 (by decide)).trans (val17_main_v124 V)
theorem val18_main_v213 (V : Valuation τ sig (Elt Ideal)) : val18 V (Proc.devRef .tc main_v213) = linR128 (aggR128 (bnR (linR128 (aggR128 (bnR (linR64 (aggR64 (V (Proc.devRef .tc main_arg3)) (V (Proc.devRef .tc main_arg4))) (V (Proc.devRef .tc main_arg6)) (V (Proc.devRef .tc main_arg7))) (V (Proc.devRef .tc main_arg8)) (V (Proc.devRef .tc main_arg9))) (V (Proc.devRef .tc main_arg4))) (V (Proc.devRef .tc main_arg10)) (V (Proc.devRef .tc main_arg11))) (V (Proc.devRef .tc main_arg12)) (V (Proc.devRef .tc main_arg13))) (V (Proc.devRef .tc main_arg4))) (V (Proc.devRef .tc main_arg14)) (V (Proc.devRef .tc main_arg15)) := by
  unfold val18
  rw [sg17_out (val17 V), val17_main_v209 V, val17_main_arg14 V, val17_main_arg15 V]

/-- The contents after the first 19 pieces. -/
def val19 (V : Valuation τ sig (Elt Ideal)) : Valuation τ sig (Elt Ideal) := after (sg18 (F := Ideal)) (val18 V)
theorem val19_main_arg5 (V : Valuation τ sig (Elt Ideal)) : val19 V (Proc.devRef .tc main_arg5) = V (Proc.devRef .tc main_arg5) :=
  (keepSeg18 _ main_arg5 (by decide)).trans (val18_main_arg5 V)
theorem val19_main_arg18 (V : Valuation τ sig (Elt Ideal)) : val19 V (Proc.devRef .tc main_arg18) = V (Proc.devRef .tc main_arg18) :=
  (keepSeg18 _ main_arg18 (by decide)).trans (val18_main_arg18 V)
theorem val19_main_arg19 (V : Valuation τ sig (Elt Ideal)) : val19 V (Proc.devRef .tc main_arg19) = V (Proc.devRef .tc main_arg19) :=
  (keepSeg18 _ main_arg19 (by decide)).trans (val18_main_arg19 V)
theorem val19_main_arg20 (V : Valuation τ sig (Elt Ideal)) : val19 V (Proc.devRef .tc main_arg20) = V (Proc.devRef .tc main_arg20) :=
  (keepSeg18 _ main_arg20 (by decide)).trans (val18_main_arg20 V)
theorem val19_main_arg21 (V : Valuation τ sig (Elt Ideal)) : val19 V (Proc.devRef .tc main_arg21) = V (Proc.devRef .tc main_arg21) :=
  (keepSeg18 _ main_arg21 (by decide)).trans (val18_main_arg21 V)
theorem val19_main_arg22 (V : Valuation τ sig (Elt Ideal)) : val19 V (Proc.devRef .tc main_arg22) = V (Proc.devRef .tc main_arg22) :=
  (keepSeg18 _ main_arg22 (by decide)).trans (val18_main_arg22 V)
theorem val19_main_arg23 (V : Valuation τ sig (Elt Ideal)) : val19 V (Proc.devRef .tc main_arg23) = V (Proc.devRef .tc main_arg23) :=
  (keepSeg18 _ main_arg23 (by decide)).trans (val18_main_arg23 V)
theorem val19_main_v124 (V : Valuation τ sig (Elt Ideal)) : val19 V (Proc.devRef .tc main_v124) = poolR (bnR (linR128 (aggR128 (bnR (linR128 (aggR128 (bnR (linR64 (aggR64 (V (Proc.devRef .tc main_arg0)) (V (Proc.devRef .tc main_arg1))) (V (Proc.devRef .tc main_arg6)) (V (Proc.devRef .tc main_arg7))) (V (Proc.devRef .tc main_arg8)) (V (Proc.devRef .tc main_arg9))) (V (Proc.devRef .tc main_arg1))) (V (Proc.devRef .tc main_arg10)) (V (Proc.devRef .tc main_arg11))) (V (Proc.devRef .tc main_arg12)) (V (Proc.devRef .tc main_arg13))) (V (Proc.devRef .tc main_arg1))) (V (Proc.devRef .tc main_arg14)) (V (Proc.devRef .tc main_arg15))) (V (Proc.devRef .tc main_arg16)) (V (Proc.devRef .tc main_arg17))) (V (Proc.devRef .tc main_arg2)) (V (Proc.devRef .tc main_arg18)) (V (Proc.devRef .tc main_arg19)) :=
  (keepSeg18 _ main_v124 (by decide)).trans (val18_main_v124 V)
theorem val19_main_v233 (V : Valuation τ sig (Elt Ideal)) : val19 V (Proc.devRef .tc main_v233) = bnR (linR128 (aggR128 (bnR (linR128 (aggR128 (bnR (linR64 (aggR64 (V (Proc.devRef .tc main_arg3)) (V (Proc.devRef .tc main_arg4))) (V (Proc.devRef .tc main_arg6)) (V (Proc.devRef .tc main_arg7))) (V (Proc.devRef .tc main_arg8)) (V (Proc.devRef .tc main_arg9))) (V (Proc.devRef .tc main_arg4))) (V (Proc.devRef .tc main_arg10)) (V (Proc.devRef .tc main_arg11))) (V (Proc.devRef .tc main_arg12)) (V (Proc.devRef .tc main_arg13))) (V (Proc.devRef .tc main_arg4))) (V (Proc.devRef .tc main_arg14)) (V (Proc.devRef .tc main_arg15))) (V (Proc.devRef .tc main_arg16)) (V (Proc.devRef .tc main_arg17)) := by
  unfold val19
  rw [sg18_out (val18 V), val18_main_v213 V, val18_main_arg16 V, val18_main_arg17 V]

/-- The contents after the first 20 pieces. -/
def val20 (V : Valuation τ sig (Elt Ideal)) : Valuation τ sig (Elt Ideal) := after (sg19 (F := Ideal)) (val19 V)
theorem val20_main_arg20 (V : Valuation τ sig (Elt Ideal)) : val20 V (Proc.devRef .tc main_arg20) = V (Proc.devRef .tc main_arg20) :=
  (keepSeg19 _ main_arg20 (by decide)).trans (val19_main_arg20 V)
theorem val20_main_arg21 (V : Valuation τ sig (Elt Ideal)) : val20 V (Proc.devRef .tc main_arg21) = V (Proc.devRef .tc main_arg21) :=
  (keepSeg19 _ main_arg21 (by decide)).trans (val19_main_arg21 V)
theorem val20_main_arg22 (V : Valuation τ sig (Elt Ideal)) : val20 V (Proc.devRef .tc main_arg22) = V (Proc.devRef .tc main_arg22) :=
  (keepSeg19 _ main_arg22 (by decide)).trans (val19_main_arg22 V)
theorem val20_main_arg23 (V : Valuation τ sig (Elt Ideal)) : val20 V (Proc.devRef .tc main_arg23) = V (Proc.devRef .tc main_arg23) :=
  (keepSeg19 _ main_arg23 (by decide)).trans (val19_main_arg23 V)
theorem val20_main_v124 (V : Valuation τ sig (Elt Ideal)) : val20 V (Proc.devRef .tc main_v124) = poolR (bnR (linR128 (aggR128 (bnR (linR128 (aggR128 (bnR (linR64 (aggR64 (V (Proc.devRef .tc main_arg0)) (V (Proc.devRef .tc main_arg1))) (V (Proc.devRef .tc main_arg6)) (V (Proc.devRef .tc main_arg7))) (V (Proc.devRef .tc main_arg8)) (V (Proc.devRef .tc main_arg9))) (V (Proc.devRef .tc main_arg1))) (V (Proc.devRef .tc main_arg10)) (V (Proc.devRef .tc main_arg11))) (V (Proc.devRef .tc main_arg12)) (V (Proc.devRef .tc main_arg13))) (V (Proc.devRef .tc main_arg1))) (V (Proc.devRef .tc main_arg14)) (V (Proc.devRef .tc main_arg15))) (V (Proc.devRef .tc main_arg16)) (V (Proc.devRef .tc main_arg17))) (V (Proc.devRef .tc main_arg2)) (V (Proc.devRef .tc main_arg18)) (V (Proc.devRef .tc main_arg19)) :=
  (keepSeg19 _ main_v124 (by decide)).trans (val19_main_v124 V)
theorem val20_main_v249 (V : Valuation τ sig (Elt Ideal)) : val20 V (Proc.devRef .tc main_v249) = poolR (bnR (linR128 (aggR128 (bnR (linR128 (aggR128 (bnR (linR64 (aggR64 (V (Proc.devRef .tc main_arg3)) (V (Proc.devRef .tc main_arg4))) (V (Proc.devRef .tc main_arg6)) (V (Proc.devRef .tc main_arg7))) (V (Proc.devRef .tc main_arg8)) (V (Proc.devRef .tc main_arg9))) (V (Proc.devRef .tc main_arg4))) (V (Proc.devRef .tc main_arg10)) (V (Proc.devRef .tc main_arg11))) (V (Proc.devRef .tc main_arg12)) (V (Proc.devRef .tc main_arg13))) (V (Proc.devRef .tc main_arg4))) (V (Proc.devRef .tc main_arg14)) (V (Proc.devRef .tc main_arg15))) (V (Proc.devRef .tc main_arg16)) (V (Proc.devRef .tc main_arg17))) (V (Proc.devRef .tc main_arg5)) (V (Proc.devRef .tc main_arg18)) (V (Proc.devRef .tc main_arg19)) := by
  unfold val20
  rw [sg19_out (val19 V), val19_main_v233 V, val19_main_arg5 V, val19_main_arg18 V, val19_main_arg19 V]

/-- The contents after the first 21 pieces. -/
def val21 (V : Valuation τ sig (Elt Ideal)) : Valuation τ sig (Elt Ideal) := after (sg20 (F := Ideal)) (val20 V)
theorem val21_main_v266 (V : Valuation τ sig (Elt Ideal)) : val21 V (Proc.devRef .tc main_v266) = clsR (poolR (bnR (linR128 (aggR128 (bnR (linR128 (aggR128 (bnR (linR64 (aggR64 (V (Proc.devRef .tc main_arg0)) (V (Proc.devRef .tc main_arg1))) (V (Proc.devRef .tc main_arg6)) (V (Proc.devRef .tc main_arg7))) (V (Proc.devRef .tc main_arg8)) (V (Proc.devRef .tc main_arg9))) (V (Proc.devRef .tc main_arg1))) (V (Proc.devRef .tc main_arg10)) (V (Proc.devRef .tc main_arg11))) (V (Proc.devRef .tc main_arg12)) (V (Proc.devRef .tc main_arg13))) (V (Proc.devRef .tc main_arg1))) (V (Proc.devRef .tc main_arg14)) (V (Proc.devRef .tc main_arg15))) (V (Proc.devRef .tc main_arg16)) (V (Proc.devRef .tc main_arg17))) (V (Proc.devRef .tc main_arg2)) (V (Proc.devRef .tc main_arg18)) (V (Proc.devRef .tc main_arg19))) (poolR (bnR (linR128 (aggR128 (bnR (linR128 (aggR128 (bnR (linR64 (aggR64 (V (Proc.devRef .tc main_arg3)) (V (Proc.devRef .tc main_arg4))) (V (Proc.devRef .tc main_arg6)) (V (Proc.devRef .tc main_arg7))) (V (Proc.devRef .tc main_arg8)) (V (Proc.devRef .tc main_arg9))) (V (Proc.devRef .tc main_arg4))) (V (Proc.devRef .tc main_arg10)) (V (Proc.devRef .tc main_arg11))) (V (Proc.devRef .tc main_arg12)) (V (Proc.devRef .tc main_arg13))) (V (Proc.devRef .tc main_arg4))) (V (Proc.devRef .tc main_arg14)) (V (Proc.devRef .tc main_arg15))) (V (Proc.devRef .tc main_arg16)) (V (Proc.devRef .tc main_arg17))) (V (Proc.devRef .tc main_arg5)) (V (Proc.devRef .tc main_arg18)) (V (Proc.devRef .tc main_arg19))) (V (Proc.devRef .tc main_arg20)) (V (Proc.devRef .tc main_arg21)) (V (Proc.devRef .tc main_arg22)) (V (Proc.devRef .tc main_arg23)) := by
  unfold val21
  rw [sg20_out (val20 V), val20_main_v124 V, val20_main_v249 V, val20_main_arg20 V, val20_main_arg21 V, val20_main_arg22 V, val20_main_arg23 V]

/-- The contents after @main's line are the contents after the last piece. -/
theorem after_ops_val (V : Valuation τ sig (Elt Ideal)) : after (ops (F := Ideal)) V = val21 V := by
  rw [ops_eq_segs]
  simp only [after_append']
  rfl

/-- The reference's result: the classifier on the two encoders' embeddings, every weight read at its argument buffer. -/
theorem ref_term (V : Valuation τ sig (Elt Ideal)) :
    StableHlo.after (ops (F := Ideal)) V (Proc.devRef .tc main_v266)
      = clsR (encR V (V (Proc.devRef .tc main_arg0)) (V (Proc.devRef .tc main_arg1)) (V (Proc.devRef .tc main_arg2)))
          (encR V (V (Proc.devRef .tc main_arg3)) (V (Proc.devRef .tc main_arg4)) (V (Proc.devRef .tc main_arg5)))
          (V (Proc.devRef .tc main_arg20)) (V (Proc.devRef .tc main_arg21)) (V (Proc.devRef .tc main_arg22)) (V (Proc.devRef .tc main_arg23)) := by
  rw [after_ops_val]
  exact val21_main_v266 V

end Cert.ReferenceIdeal.Hand

end
-- ==== Proof.Ref.ReadLayer.lean ====
/-
  The reference's linear layers and its normalisation layer, read entry by entry into the vocabulary of the value
  claim: a product of matrices plus a repeated bias row is a sum over the shared coordinate plus the bias; the
  column sums are sums over the rows; the variance's selection takes its quotient because its divisor, 100000 minus
  the real 0, is positive; the mean the variance recomputes on a one-row array is the column mean.
-/
import proofs.«413302_j72232759984513_1_alg».proof.Proof.Ref.Stages
import proofs.«413302_j72232759984513_1_alg».proof.Proof.Math.Spec
import proofs.«413302_j72232759984513_1_alg».proof.Proof.Math.Consts
import proofs.«413302_j72232759984513_1_alg».proof.Proof.LibLayout

noncomputable section

namespace Cert.ReferenceIdeal.Hand

open Cert.ReferenceIdeal Cert.ReferenceIdeal.Gen Idealize.ShloMosaic Idealize.ShloMosaic.ValueIdx Cert.LibLayout

theorem dot64_plain : dot_S100000x64_S64x128_S100000x128_1_0_0_1_n_n = DotDims.plain 100000 64 128 := rfl

theorem dot128_plain : dot_S100000x128_S128x128_S100000x128_1_0_0_1_n_n = DotDims.plain 100000 128 128 := rfl

/-- A row repeated over the rows reads, at `(i, j)`, the row's entry `j`. -/
theorem rowB128_apply (v : FVec Ideal S128 .f32) (i : Fin 100000) (j : Fin 128) : rowB128 v (ix2 i j) = v (ix1 j) := by
  unfold rowB128
  rw [broadcastInDim_1b_ab_apply, broadcastInDim_b_1b_apply]

/-- The first linear layer at `(i, j)`: the sum over the 64 shared coordinates of the products, plus the bias. -/
theorem linR64_apply (a : FVec Ideal S100000x64 .f32) (w : FVec Ideal S64x128 .f32) (b : FVec Ideal S128 .f32)
    (i : Fin 100000) (j : Fin 128) :
    linR64 a w b (ix2 i j) = Cert.Math.lin (Cert.Math.at2 a) (Cert.Math.at2 w) (Cert.Math.at1 b) i j := by
  unfold linR64 Cert.Math.lin
  rw [addf_apply, rowB128_apply]
  show FloatOps.dotGeneral dot_S100000x64_S64x128_S100000x128_1_0_0_1_n_n none .single a w (ix2 i j) + _ = _
  rw [dot64_plain, dotGeneral_plain_apply]

/-- The later linear layers at `(i, j)`: the same over 128 shared coordinates. -/
theorem linR128_apply (a : FVec Ideal S100000x128 .f32) (w : FVec Ideal S128x128 .f32) (b : FVec Ideal S128 .f32)
    (i : Fin 100000) (j : Fin 128) :
    linR128 a w b (ix2 i j) = Cert.Math.lin (Cert.Math.at2 a) (Cert.Math.at2 w) (Cert.Math.at1 b) i j := by
  unfold linR128 Cert.Math.lin
  rw [addf_apply, rowB128_apply]
  show FloatOps.dotGeneral dot_S100000x128_S128x128_S100000x128_1_0_0_1_n_n none .single a w (ix2 i j) + _ = _
  rw [dot128_plain, dotGeneral_plain_apply]

/-- The index over column `j` with row `k` put back on the summed axis is `(k, j)`. -/
theorem lift_col (hR : S100000x128.Reduces [0] S128) (j : Fin 128) (k : Fin 100000) :
    hR.lift (ix1 j) k = ix2 k j := by
  funext a
  apply Fin.ext
  match a with
  | ⟨0, _⟩ => rfl
  | ⟨1, _⟩ => rfl

/-- The host's sum over the rows from the zero constant, read at column `j`. -/
theorem colsum_apply (x : FVec Ideal S100000x128 .f32) (j : Fin 128) :
    Host.reduceAdd x (constant (F := Ideal) S_ .f32 0x00000000#32) reducesTo_S100000x128_S128_d0 h_S_ (ix1 j)
      = ∑ i : Fin 100000, x (ix2 i j) := by
  have hR : S100000x128.Reduces [0] S128 := by decide
  show Ideal.hostReduceAdd reducesTo_S100000x128_S128_d0 x (Ideal.ofBits .f32 0x00000000#32) (ix1 j) = _
  rw [Ideal.hostReduceAdd_single _ hR, Ideal.ofBits_zero_f32, zero_add]
  exact Finset.sum_congr rfl fun i _ => congrArg x (lift_col hR j i)

theorem hostDivf_apply {s : Shape} (a b : FVec Ideal s .f32) (i : s.Idx) : Host.divf a b i = Ideal.div (a i) (b i) := rfl

theorem hostRsqrt_apply {s : Shape} (a : FVec Ideal s .f32) (i : s.Idx) : Host.rsqrt a i = Ideal.rsqrt (a i) := rfl

theorem hostExp_apply {s : Shape} (a : FVec Ideal s .f32) (i : s.Idx) : Host.exp a i = Ideal.exp (a i) := rfl

theorem hostNegf_apply {s : Shape} (a : FVec Ideal s .f32) (i : s.Idx) : Host.negf a i = -(a i) := rfl

/-- A row of 64 values repeated over the 256 rows reads, at `(i, j)`, the row's entry `j`. -/
theorem rowB64_apply (v : FVec Ideal S64 .f32) (i : Fin 256) (j : Fin 64) : rowB64 v (ix2 i j) = v (ix1 j) := by
  unfold rowB64
  rw [broadcastInDim_1b_ab_apply, broadcastInDim_b_1b_apply]

/-- The column means. -/
theorem meanR_apply (h : FVec Ideal S100000x128 .f32) (j : Fin 128) :
    meanR h (ix1 j) = Cert.Math.mean (Cert.Math.at2 h) j := by
  unfold meanR Cert.Math.mean Cert.Math.colSum
  rw [hostDivf_apply, colsum_apply, broadcastInDim_scalar_apply, constant_apply, Cert.Math.ofBits_1e5]

/-- The divisor of the variance is 100000: the integer 0 converts to the real 0. -/
theorem varDen_apply : varDen ix0 = Cert.Math.N5 := by
  unfold varDen
  rw [subf_apply, constant_apply, Cert.Math.ofBits_1e5]
  show ((100000 : ℝ) : EReal) - (((0#32 : BitVec 32).toInt : ℝ) : EReal) = _
  simp

/-- The comparison of the divisor against zero holds. -/
theorem varDen_pos : cmpf .ogt varDen (constant (F := Ideal) S_ .f32 0x00000000#32) ix0 = 1#1 := by
  rw [cmpf_apply, varDen_apply, constant_apply, Ideal.ofBits_zero_f32]
  show Ideal.cmp .ogt Cert.Math.N5 0 = 1#1
  unfold Ideal.cmp
  have : (0 : EReal) < Cert.Math.N5 := by
    show (0 : EReal) < ((100000 : ℝ) : EReal)
    exact_mod_cast (by norm_num : (0 : ℝ) < 100000)
  simp [this]

/-- The column variances: the selection takes the quotient, whose mean (taken on a one-row array) is the column mean. -/
theorem varR_apply (h : FVec Ideal S100000x128 .f32) (j : Fin 128) :
    varR h (ix1 j) = Cert.Math.varR (Cert.Math.at2 h) j := by
  unfold varR Cert.Math.varR
  rw [select_apply, broadcastInDim_scalar_apply, varDen_pos, select_one, hostDivf_apply, colsum_apply,
    broadcastInDim_scalar_apply, varDen_apply]
  refine congrArg (fun s => Ideal.div s Cert.Math.N5) (Finset.sum_congr rfl fun i _ => ?_)
  rw [mulf_apply, subf_apply, broadcastInDim_1b_ab_apply, hostDivf_apply, broadcastInDim_b_1b_apply, colsum_apply,
    broadcastInDim_scalar_apply, constant_apply, Cert.Math.ofBits_1e5]
  rfl

/-- One layer's output at `(i, j)`. -/
theorem bnR_apply (h : FVec Ideal S100000x128 .f32) (g be : FVec Ideal S128 .f32) (i : Fin 100000) (j : Fin 128) :
    bnR h g be (ix2 i j)
      = Cert.Math.layerOut Cert.Math.varR (Ideal.ofBits .f32 0x3727C5AC#32) (Cert.Math.at2 h) (Cert.Math.at1 g) (Cert.Math.at1 be) i j := by
  unfold bnR Cert.Math.layerOut Cert.Math.bnRelu
  rw [maximumf_apply, addf_apply, mulf_apply, mulf_apply, subf_apply, rowB128_apply, rowB128_apply, rowB128_apply,
    rowB128_apply, meanR_apply, hostRsqrt_apply, addf_apply, varR_apply, broadcastInDim_scalar_apply,
    broadcastInDim_scalar_apply, constant_apply, constant_apply, Ideal.ofBits_zero_f32]

end Cert.ReferenceIdeal.Hand

end
-- ==== Proof.Ref.ReadPool.lean ====
/-
  The reference's mean-pool and embedding, read entry by entry into the vocabulary of the value claim. A scatter-add
  at the ideal values is the operand plus the sum of the updates that land on each element; an update lands where,
  on every axis, its start (the index word read signed) plus its window coordinate is the element's coordinate. For
  the two scatters of the pool the start is the row's segment word and the window coordinate the column, so the
  updates landing on segment `g` are those of the rows whose word is the word of `g`: the filtered sums are the
  segment sums and the segment counts.
-/
import proofs.«413302_j72232759984513_1_alg».proof.Proof.Ref.Stages
import proofs.«413302_j72232759984513_1_alg».proof.Proof.Math.Spec
import proofs.«413302_j72232759984513_1_alg».proof.Proof.Math.Consts
import proofs.«413302_j72232759984513_1_alg».proof.Proof.LibLayout
import proofs.«413302_j72232759984513_1_alg».proof.Proof.Ref.ReadLayer

noncomputable section

namespace Cert.ReferenceIdeal.Hand

open Cert.ReferenceIdeal Cert.ReferenceIdeal.Gen Idealize.ShloMosaic Idealize.ShloMosaic.ValueIdx Cert.LibLayout

/-- An update lands on an operand index exactly when, on every axis, start plus window coordinate is that index's coordinate. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    rw [Option.some.injEq]
    constructor
    · intro e a
      rw [← e]
      show _ = (((d.start j idx a + d.window j a).toNat : Nat) : Int)
      have := (h a).1
      omega
    · intro e
      funext a
      apply Fin.ext
      show (d.start j idx a + d.window j a).toNat = (i a).val
      have := e a
      omega
  · rename_i h
    constructor
    · intro e; cases e
    · intro e
      exfalso
      apply h
      intro a
      have := e a
      have := (i a).isLt
      omega

abbrev dP : ScatterDims S256x128 S100000x1 S100000x128 := scatter_S256x128_S100000x1_S100000x128_1_0_0_1

theorem dP_siIdx (n : Fin 100000) (c : Fin 128) (k : Fin dP.scatterDimsToOperandDims.length) :
    dP.siIdx (ix2 n c) k = ix2 n (0 : Fin 1) := by
  funext b
  match b with
  | ⟨0, _⟩ => rfl
  | ⟨1, _⟩ => apply Fin.ext; show k.val = 0; have : k.val < 1 := k.isLt; omega

theorem dP_start0 (n : Fin 100000) (c : Fin 128) (idx : IVec S100000x1 32) :
    dP.start (ix2 n c) idx 0 = (idx (ix2 n (0 : Fin 1))).toInt := by
  unfold ScatterDims.start
  rw [dif_pos (show (0 : Fin S256x128.rank) ∈ dP.scatterDimsToOperandDims from List.mem_singleton.2 rfl), dP_siIdx]

theorem dP_start1 (n : Fin 100000) (c : Fin 128) (idx : IVec S100000x1 32) : dP.start (ix2 n c) idx 1 = 0 := by
  unfold ScatterDims.start
  rw [dif_neg (show ¬ (1 : Fin S256x128.rank) ∈ dP.scatterDimsToOperandDims by decide)]

theorem dP_window0 (n : Fin 100000) (c : Fin 128) : dP.window (ix2 n c) 0 = 0 := by
  unfold ScatterDims.window
  rw [dif_neg (show ¬ (0 : Fin S256x128.rank) ∈ dP.sKept by decide)]

theorem dP_window1 (n : Fin 100000) (c : Fin 128) : dP.window (ix2 n c) 1 = c.val := by
  unfold ScatterDims.window
  rw [dif_pos (show (1 : Fin S256x128.rank) ∈ dP.sKept by decide)]
  rfl

/-- A 32-bit word read signed is the number `g < 256` exactly when it is the word of `g`. -/
theorem toInt_ofNat_small (g : Fin 256) : (BitVec.ofNat 32 g.val).toInt = (g.val : Int) := by
  have hg := g.isLt
  rw [BitVec.toInt_eq_toNat_of_lt (by rw [BitVec.toNat_ofNat]; omega), BitVec.toNat_ofNat]
  omega

theorem toInt_eq_iff (b : BitVec 32) (g : Fin 256) : b.toInt = (g.val : Int) ↔ b = BitVec.ofNat 32 g.val := by
  rw [← toInt_ofNat_small g, BitVec.toInt_inj]

/-- The update at row `n`, column `c'` lands on `(g, c)` exactly when row `n`'s word names `g` and the columns agree. -/
theorem dP_lands (idx : IVec S100000x1 32) (n : Fin 100000) (c' : Fin 128) (g : Fin 256) (c : Fin 128) :
    dP.resultIdx? (ix2 n c') idx = some (ix2 g c) ↔ (idx (ix2 n (0 : Fin 1)) = BitVec.ofNat 32 g.val ∧ c' = c) := by
  rw [resultIdx?_eq_some_iff, ← toInt_eq_iff]
  constructor
  · intro h
    have h0 := h 0
    have h1 := h 1
    rw [dP_start0, dP_window0] at h0
    rw [dP_start1, dP_window1] at h1
    refine ⟨?_, Fin.ext ?_⟩
    · simpa using h0
    · have : ((c'.val : Int)) = (c.val : Int) := by simpa using h1
      omega
  · rintro ⟨h0, rfl⟩ a
    match a with
    | ⟨0, _⟩ => show dP.start (ix2 n c') idx 0 + (dP.window (ix2 n c') 0 : Int) = _; rw [dP_start0, dP_window0, h0]; simp
    | ⟨1, _⟩ => show dP.start (ix2 n c') idx 1 + (dP.window (ix2 n c') 1 : Int) = _; rw [dP_start1, dP_window1]; simp

/-- The segment words as a column read, at row `n`, the word of row `n`. -/
theorem btCol_apply (bt : IVec S100000 32) (n : Fin 100000) :
    broadcastInDim S100000x1 ![0] bcast_S100000_S100000x1_0 bt (ix2 n (0 : Fin 1)) = bt (ix1 n) :=
  broadcastInDim_a_a1_apply bt _ n 0

theorem dP_lands_bt (bt : IVec S100000 32) (n : Fin 100000) (c' : Fin 128) (g : Fin 256) (c : Fin 128) :
    dP.resultIdx? (ix2 n c') (broadcastInDim S100000x1 ![0] bcast_S100000_S100000x1_0 bt) = some (ix2 g c)
      ↔ (bt (ix1 n) = BitVec.ofNat 32 g.val ∧ c' = c) := by
  rw [dP_lands, btCol_apply]

/-- The segment sums: the zero array plus the scatter-added rows, read at `(g, c)`. -/
theorem poolSum_apply (x : FVec Ideal S100000x128 .f32) (bt : IVec S100000 32) (g : Fin 256) (c : Fin 128) :
    Host.scatterAdd dP (broadcastInDim S256x128 ![] bcast_S_S256x128 (constant (F := Ideal) S_ .f32 0x00000000#32))
      (broadcastInDim S100000x1 ![0] bcast_S100000_S100000x1_0 bt) x (ix2 g c)
      = Cert.Math.segSum (Cert.Math.at2 x) (Cert.Math.at1 bt) g c := by
  show Ideal.hostScatterAdd dP _ _ x (ix2 g c) = _
  unfold Ideal.hostScatterAdd Cert.Math.segSum
  rw [broadcastInDim_scalar_apply, constant_apply, Ideal.ofBits_zero_f32, zero_add, Finset.sum_filter, sum_idx2]
  refine Finset.sum_congr rfl fun n _ => ?_
  by_cases hb : bt (ix1 n) = BitVec.ofNat 32 g.val
  · -- row `n` is in the segment: of its 128 updates exactly the one of column `c` lands on `(g, c)`
    rw [if_pos hb, Finset.sum_eq_single c
      (fun c' _ hne => if_neg fun hP => hne ((dP_lands_bt bt n c' g c).1 hP).2)
      (fun hc => absurd (Finset.mem_univ c) hc),
      if_pos ((dP_lands_bt bt n c g c).2 ⟨hb, rfl⟩)]
  · -- row `n` is not in the segment: none of its updates lands there
    rw [if_neg hb]
    exact Finset.sum_eq_zero fun c' _ => if_neg fun hP => hb ((dP_lands_bt bt n c' g c).1 hP).1

def idxEquiv1 {n : Nat} : (⟨1, ![n]⟩ : Shape).Idx ≃ Fin n where
  toFun i := i 0
  invFun a := ix1 a
  left_inv i := (eq_ix1 i).symm
  right_inv _ := rfl

/-- A sum over the indices of a rank-1 array is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

abbrev dC : ScatterDims S256 S100000x1 S100000 := scatter_S256_S100000x1_S100000_n_0_0_1

theorem dC_siIdx (n : Fin 100000) (k : Fin dC.scatterDimsToOperandDims.length) :
    dC.siIdx (ix1 n) k = ix2 n (0 : Fin 1) := by
  funext b
  match b with
  | ⟨0, _⟩ => rfl
  | ⟨1, _⟩ => apply Fin.ext; show k.val = 0; have : k.val < 1 := k.isLt; omega

theorem dC_start0 (n : Fin 100000) (idx : IVec S100000x1 32) :
    dC.start (ix1 n) idx 0 = (idx (ix2 n (0 : Fin 1))).toInt := by
  unfold ScatterDims.start
  rw [dif_pos (show (0 : Fin S256.rank) ∈ dC.scatterDimsToOperandDims from List.mem_singleton.2 rfl), dC_siIdx]

theorem dC_window0 (n : Fin 100000) : dC.window (ix1 n) 0 = 0 := by
  unfold ScatterDims.window
  rw [dif_neg (show ¬ (0 : Fin S256.rank) ∈ dC.sKept by decide)]

/-- The update of row `n` lands on segment `g` exactly when row `n`'s word names `g`. -/
theorem dC_lands (idx : IVec S100000x1 32) (n : Fin 100000) (g : Fin 256) :
    dC.resultIdx? (ix1 n) idx = some (ix1 g) ↔ idx (ix2 n (0 : Fin 1)) = BitVec.ofNat 32 g.val := by
  rw [resultIdx?_eq_some_iff, ← toInt_eq_iff]
  constructor
  · intro h
    have h0 := h 0
    rw [dC_start0, dC_window0] at h0
    simpa using h0
  · intro h0 a
    match a with
    | ⟨0, _⟩ => show dC.start (ix1 n) idx 0 + (dC.window (ix1 n) 0 : Int) = _; rw [dC_start0, dC_window0, h0]; simp

theorem dC_lands_bt (bt : IVec S100000 32) (n : Fin 100000) (g : Fin 256) :
    dC.resultIdx? (ix1 n) (broadcastInDim S100000x1 ![0] bcast_S100000_S100000x1_0 bt) = some (ix1 g)
      ↔ bt (ix1 n) = BitVec.ofNat 32 g.val := by
  rw [dC_lands, btCol_apply]

/-- The segment counts: the zero vector plus a scatter-added one per row, read at `g`. -/
theorem poolCnt_apply (bt : IVec S100000 32) (g : Fin 256) :
    Host.scatterAdd dC (broadcastInDim S256 ![] bcast_S_S256 (constant (F := Ideal) S_ .f32 0x00000000#32))
      (broadcastInDim S100000x1 ![0] bcast_S100000_S100000x1_0 bt)
      (broadcastInDim S100000 ![] bcast_S_S100000 (constant (F := Ideal) S_ .f32 0x3F800000#32)) (ix1 g) = Cert.Math.segCnt (Cert.Math.at1 bt) g := by
  show Ideal.hostScatterAdd dC _ _ _ (ix1 g) = _
  unfold Ideal.hostScatterAdd Cert.Math.segCnt
  rw [broadcastInDim_scalar_apply, constant_apply, Ideal.ofBits_zero_f32, zero_add, Finset.sum_filter, sum_idx1]
  refine Finset.sum_congr rfl fun n _ => ?_
  rw [broadcastInDim_scalar_apply, constant_apply, Cert.Math.ofBits_one, EReal.coe_one]
  exact if_congr (dC_lands_bt bt n g) rfl rfl

theorem dotP_plain : dot_S256x128_S128x64_S256x64_1_0_0_1_n_n = DotDims.plain 256 128 64 := rfl

/-- The mean row of segment `g`: the segment sum over the larger of the segment count and one. -/
theorem pooledR_apply (x : FVec Ideal S100000x128 .f32) (bt : IVec S100000 32) (g : Fin 256) (c : Fin 128) :
    Host.divf
        (Host.scatterAdd scatter_S256x128_S100000x1_S100000x128_1_0_0_1
          (broadcastInDim S256x128 ![] bcast_S_S256x128 (constant (F := Ideal) S_ .f32 0x00000000#32))
          (broadcastInDim S100000x1 ![0] bcast_S100000_S100000x1_0 bt) x)
        (broadcastInDim S256x128 ![0, 1] bcast_S256x1_S256x128_0_1
          (broadcastInDim S256x1 ![0] bcast_S256_S256x1_0
            (maximumf
              (Host.scatterAdd scatter_S256_S100000x1_S100000_n_0_0_1
                (broadcastInDim S256 ![] bcast_S_S256 (constant (F := Ideal) S_ .f32 0x00000000#32))
                (broadcastInDim S100000x1 ![0] bcast_S100000_S100000x1_0 bt)
                (broadcastInDim S100000 ![] bcast_S_S100000 (constant (F := Ideal) S_ .f32 0x3F800000#32)))
              (broadcastInDim S256 ![] bcast_S_S256 (constant (F := Ideal) S_ .f32 0x3F800000#32))))) (ix2 g c)
      = Cert.Math.pooled (Cert.Math.at2 x) (Cert.Math.at1 bt) g c := by
  unfold Cert.Math.pooled
  rw [hostDivf_apply, poolSum_apply, broadcastInDim_a1_ab_apply, broadcastInDim_a_a1_apply, maximumf_apply, poolCnt_apply,
    broadcastInDim_scalar_apply, constant_apply, Cert.Math.ofBits_one, EReal.coe_one]

/-- The embedding of the pooled rows at `(g, e)`. -/
theorem poolR_apply (x : FVec Ideal S100000x128 .f32) (bt : IVec S100000 32) (wf : FVec Ideal S128x64 .f32)
    (bf : FVec Ideal S64 .f32) (g : Fin 256) (e : Fin 64) :
    poolR x bt wf bf (ix2 g e)
      = Cert.Math.embed (Cert.Math.at2 x) (Cert.Math.at1 bt) (Cert.Math.at2 wf) (Cert.Math.at1 bf) g e := by
  unfold poolR Cert.Math.embed Cert.Math.lin
  rw [addf_apply, rowB64_apply]
  show FloatOps.dotGeneral dot_S256x128_S128x64_S256x64_1_0_0_1_n_n none .single _ wf (ix2 g e) + _ = _
  rw [dotP_plain, dotGeneral_plain_apply]
  refine congrArg (· + bf (ix1 e)) (Finset.sum_congr rfl fun c _ => ?_)
  rw [pooledR_apply]

end Cert.ReferenceIdeal.Hand

end
-- ==== Proof.Ref.ReadCls.lean ====
/-
  The reference's classifier, read segment by segment into the vocabulary of the value claim: the absolute value of
  the difference of the two embeddings is the larger of the difference and its negative; each product of matrices is
  a sum over the shared coordinate; the last step, one over one plus the exponential of the negative, is the
  logistic function by its definition.
-/
import proofs.«413302_j72232759984513_1_alg».proof.Proof.Ref.Stages
import proofs.«413302_j72232759984513_1_alg».proof.Proof.Math.Spec
import proofs.«413302_j72232759984513_1_alg».proof.Proof.Math.Consts
import proofs.«413302_j72232759984513_1_alg».proof.Proof.LibLayout
import proofs.«413302_j72232759984513_1_alg».proof.Proof.Ref.ReadLayer

noncomputable section

namespace Cert.ReferenceIdeal.Hand

open Cert.ReferenceIdeal Cert.ReferenceIdeal.Gen Idealize.ShloMosaic Idealize.ShloMosaic.ValueIdx Cert.LibLayout

theorem dotC1_plain : dot_S256x64_S64x64_S256x64_1_0_0_1_n_n = DotDims.plain 256 64 64 := rfl

theorem dotC2_plain : dot_S256x64_S64x1_S256x1_1_0_0_1_n_n = DotDims.plain 256 64 1 := rfl

/-- The hidden layer of the classifier at `(g, k)`: the absolute difference times the first weights, plus the bias, clipped below at zero. -/
theorem clsHidden_apply (v1 v2 : FVec Ideal S256x64 .f32) (wc1 : FVec Ideal S64x64 .f32) (bc1 : FVec Ideal S64 .f32)
    (g : Fin 256) (k : Fin 64) :
    maximumf (addf (Host.dotGeneral dot_S256x64_S64x64_S256x64_1_0_0_1_n_n none (Host.absf (subf v1 v2)) wc1) (rowB64 bc1))
        (broadcastInDim S256x64 ![] bcast_S_S256x64 (constant (F := Ideal) S_ .f32 0x00000000#32)) (ix2 g k)
      = max ((∑ l : Fin 64, max (v1 (ix2 g l) - v2 (ix2 g l)) (-(v1 (ix2 g l) - v2 (ix2 g l))) * wc1 (ix2 l k)) + bc1 (ix1 k)) 0 := by
  rw [maximumf_apply, addf_apply, rowB64_apply, broadcastInDim_scalar_apply, constant_apply, Ideal.ofBits_zero_f32]
  show max (FloatOps.dotGeneral dot_S256x64_S64x64_S256x64_1_0_0_1_n_n none .single (Host.absf (subf v1 v2)) wc1 (ix2 g k) + _) 0 = _
  rw [dotC1_plain, dotGeneral_plain_apply]
  rfl

/-- The classifier's output for segment `g`: the logistic function, spelt `1 / (1 + exp (-z))`, of the second layer. -/
theorem clsR_apply (v1 v2 : FVec Ideal S256x64 .f32) (wc1 : FVec Ideal S64x64 .f32) (bc1 : FVec Ideal S64 .f32)
    (wc2 : FVec Ideal S64x1 .f32) (bc2 : FVec Ideal S1 .f32) (g : Fin 256) :
    clsR v1 v2 wc1 bc1 wc2 bc2 (ix2 g (0 : Fin 1))
      = Cert.Math.cls (Cert.Math.at2 v1) (Cert.Math.at2 v2) (Cert.Math.at2 wc1) (Cert.Math.at1 bc1) (Cert.Math.at2 wc2)
          (Cert.Math.at1 bc2) g := by
  unfold clsR Cert.Math.cls Ideal.logistic
  rw [hostDivf_apply, addf_apply, hostExp_apply, hostNegf_apply, addf_apply, broadcastInDim_scalar_apply, constant_apply, Cert.Math.ofBits_one, EReal.coe_one, broadcastInDim_1b_ab_apply,
    broadcastInDim_b_1b_apply]
  show Ideal.div 1 (1 + Ideal.exp (-(FloatOps.dotGeneral dot_S256x64_S64x1_S256x1_1_0_0_1_n_n none .single _ wc2 (ix2 g (0 : Fin 1)) + _))) = _
  rw [dotC2_plain, dotGeneral_plain_apply]
  refine congrArg (fun z => Ideal.div 1 (1 + Ideal.exp (-(z + bc2 (ix1 (0 : Fin 1)))))) (Finset.sum_congr rfl fun k _ => ?_)
  rw [clsHidden_apply]

end Cert.ReferenceIdeal.Hand

end
-- ==== Proof.Ref.Value.lean ====
/- The reference's result array, entry by entry, as the model's value with the centred-squares
   variance. The program's result is the classifier's stage function of the two encoders' stage
   functions of the argument arrays; each stage function, read at an index, is the corresponding
   plain function over the extended reals (linear layer, layer output, pooled embedding,
   classifier), and an array is determined by its entries. -/
import proofs.«413302_j72232759984513_1_alg».proof.Proof.Ref.Term
import proofs.«413302_j72232759984513_1_alg».proof.Proof.Ref.ReadLayer
import proofs.«413302_j72232759984513_1_alg».proof.Proof.Ref.ReadPool
import proofs.«413302_j72232759984513_1_alg».proof.Proof.Ref.ReadCls
import proofs.«413302_j72232759984513_1_alg».proof.Proof.Math.Spec
import proofs.«413302_j72232759984513_1_alg».proof.Proof.Math.Model
import Idealize.ShloMosaic.Lib.ValueIdx

noncomputable section

namespace Cert.ReferenceIdeal.Hand

open Cert.ReferenceIdeal Cert.ReferenceIdeal.Gen Idealize.ShloMosaic Idealize.ShloMosaic.TcCoe Idealize.SL.Sem
open Idealize.ShloMosaic.ValueIdx

/-- Reading a curried array back through its index gives the array: every rank-2 index is the pair of its coordinates. -/
theorem un2_at2 {n0 n1 : ℕ} {α : Type} (X : (⟨2, ![n0, n1]⟩ : Shape).Idx → α) :
    Cert.Math.un2 (Cert.Math.at2 X) = X :=
  funext fun i => (congrArg X (eq_ix2 i)).symm

/-- The aggregation at width 64 as an operation on curried arrays, the edge list given. -/
def aggA64 (ei : IVec S2x1280000 32) : (Fin 100000 → Fin 64 → EReal) → Fin 100000 → Fin 64 → EReal :=
  fun y => Cert.Math.at2 (aggR64 (Cert.Math.un2 y) ei)

/-- The aggregation at width 128 as an operation on curried arrays, the edge list given. -/
def aggA128 (ei : IVec S2x1280000 32) : (Fin 100000 → Fin 128 → EReal) → Fin 100000 → Fin 128 → EReal :=
  fun y => Cert.Math.at2 (aggR128 (Cert.Math.un2 y) ei)

theorem at2_aggR64 (x : FVec Ideal S100000x64 .f32) (ei : IVec S2x1280000 32) :
    Cert.Math.at2 (aggR64 x ei) = aggA64 ei (Cert.Math.at2 x) := by
  unfold aggA64; rw [un2_at2]

theorem at2_aggR128 (x : FVec Ideal S100000x128 .f32) (ei : IVec S2x1280000 32) :
    Cert.Math.at2 (aggR128 x ei) = aggA128 ei (Cert.Math.at2 x) := by
  unfold aggA128; rw [un2_at2]

/-- The first linear layer as a curried array. -/
theorem at2_linR64 (a : FVec Ideal S100000x64 .f32) (w : FVec Ideal S64x128 .f32) (b : FVec Ideal S128 .f32) :
    Cert.Math.at2 (linR64 a w b) = Cert.Math.lin (Cert.Math.at2 a) (Cert.Math.at2 w) (Cert.Math.at1 b) :=
  funext fun i => funext fun j => linR64_apply a w b i j

/-- The later linear layers as curried arrays. -/
theorem at2_linR128 (a : FVec Ideal S100000x128 .f32) (w : FVec Ideal S128x128 .f32) (b : FVec Ideal S128 .f32) :
    Cert.Math.at2 (linR128 a w b) = Cert.Math.lin (Cert.Math.at2 a) (Cert.Math.at2 w) (Cert.Math.at1 b) :=
  funext fun i => funext fun j => linR128_apply a w b i j

/-- One layer's output as a curried array. -/
theorem at2_bnR (h : FVec Ideal S100000x128 .f32) (g be : FVec Ideal S128 .f32) :
    Cert.Math.at2 (bnR h g be)
      = Cert.Math.layerOut Cert.Math.varR (Ideal.ofBits .f32 0x3727C5AC#32) (Cert.Math.at2 h) (Cert.Math.at1 g)
          (Cert.Math.at1 be) :=
  funext fun i => funext fun j => bnR_apply h g be i j

/-- The pooled embedding as a curried array. -/
theorem at2_poolR (x : FVec Ideal S100000x128 .f32) (bt : IVec S100000 32) (wf : FVec Ideal S128x64 .f32)
    (bf : FVec Ideal S64 .f32) :
    Cert.Math.at2 (poolR x bt wf bf)
      = Cert.Math.embed (Cert.Math.at2 x) (Cert.Math.at1 bt) (Cert.Math.at2 wf) (Cert.Math.at1 bf) :=
  funext fun g => funext fun e => poolR_apply x bt wf bf g e

/-- One encoder's stage function, curried, is the model's encoder with the centred-squares variance, the parameters
    read off the contents at arguments 6 to 19. -/
theorem at2_encR (V : Valuation τ sig (Elt Ideal)) (x : FVec Ideal S100000x64 .f32) (ei : IVec S2x1280000 32)
    (bt : IVec S100000 32) :
    Cert.Math.at2 (encR V x ei bt)
      = Cert.Math.encOf Cert.Math.varR aggR64 aggR128
          (Cert.Math.paramsOf (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)))
          x ei bt := by
  unfold encR
  rw [at2_poolR, at2_bnR, at2_linR128, at2_aggR128, at2_bnR, at2_linR128, at2_aggR128, at2_bnR, at2_linR64, at2_aggR64]
  rfl

/-- The reference's result at segment `g` is the model's value with the centred-squares variance. -/
theorem ref_value (m : (ℓ : Loc nD τ sig) → Buf (Elt Ideal) ℓ) (c : Dev nD) (g : Fin 256) :
    Cert.Math.at2 (StableHlo.after (ops (F := Ideal)) (fun b => m (c, b)) (Proc.devRef .tc main_v266)) g 0
      = Cert.Math.model Cert.Math.varR aggR64 aggR128 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) g := by
  rw [ref_term]
  show clsR _ _ _ _ _ _ (ix2 g (0 : Fin 1)) = _
  rw [clsR_apply, at2_encR, at2_encR]
  rfl

end Cert.ReferenceIdeal.Hand

end
-- ==== Proof.Math.AggReal.lean ====
/- The edge aggregation keeps real arrays real. A gather reads each result entry from the operand,
   so its entries are entries of the operand; an accumulating scatter gives each operand entry plus
   a finite sum of update entries, which is real when operand and updates are. -/
import Idealize.ShloMosaic.PureOps.Ideal
import Idealize.ShloMosaic.PureOps.ShapeOps
import proofs.«413302_j72232759984513_1_alg».proof.Proof.Math.Fin

noncomputable section

namespace Cert.Math

open Idealize.ShloMosaic

/-- Every entry of a gather of a real array is real: it is an entry of the operand. -/
theorem isReal_gather {s si t : Shape} {w : Nat} (d : GatherDims s si t) (x : s.Idx → EReal) (idx : IVec si w)
    (hx : ∀ i, IsReal (x i)) : ∀ j, IsReal (Host.gather d x idx j) :=
  fun j => hx (d.operandIdx j idx)

/-- Every entry of an accumulating scatter of real updates into a real operand is real. -/
theorem isReal_hostScatterAdd {s si su : Shape} {w : Nat} (d : ScatterDims s si su) (x : s.Idx → EReal)
    (idx : IVec si w) (upd : su.Idx → EReal) (hx : ∀ i, IsReal (x i)) (hu : ∀ j, IsReal (upd j)) :
    ∀ i, IsReal (Ideal.hostScatterAdd d x idx upd i) :=
  fun i => (hx i).add (IsReal.sum fun j _ => hu j)

end Cert.Math

end
-- ==== Proof.Math.AggFin.lean ====
/- The edge aggregation, in the shape both programs spell it — the array plus an accumulating
   scatter, into a zero array, of the array's rows gathered along the edges — keeps real arrays
   real, for any feature width and any dimension records: the gathered rows are entries of the
   array, the scatter adds finitely many of them to a real, and the sum of two reals is real. -/
import proofs.«413302_j72232759984513_1_alg».proof.Proof.Math.Spec
import proofs.«413302_j72232759984513_1_alg».proof.Proof.Math.Enc
import proofs.«413302_j72232759984513_1_alg».proof.Proof.Math.AggReal
import Idealize.ShloMosaic.PureOps.Ideal
import Idealize.ShloMosaic.PureOps.Ideal.Laws
import Idealize.ShloMosaic.PureOps.ShapeOps
import Idealize.ShloMosaic.PureOps.Contract
import Idealize.ShloMosaic.Lib.ValueIdx

noncomputable section

namespace Cert.Math

open Idealize.ShloMosaic

/-- The splat of the zero pattern is real at every index: each entry is `0`. -/
theorem isReal_bcast_zero {s : Shape}
    (hb : (⟨0, ![]⟩ : Shape).BroadcastsInDim s (![] : Fin 0 → Fin s.rank)) :
    ∀ i, IsReal (broadcastInDim s ![] hb (constant (F := Ideal) (⟨0, ![]⟩ : Shape) .f32 0x00000000#32) i) := by
  intro i
  show IsReal (Ideal.ofBits .f32 0x00000000#32)
  rw [Ideal.ofBits_zero_f32]
  exact isReal_zero

/-- `x + scatterAdd(zero, dst, gather(x, src))` keeps real arrays real. -/
theorem finPres_agg {k : ℕ} {si su : Shape} {w : ℕ} (gd : GatherDims (⟨2, ![100000, k]⟩ : Shape) si su)
    (sd : ScatterDims (⟨2, ![100000, k]⟩ : Shape) si su) (zero : FVec Ideal (⟨2, ![100000, k]⟩ : Shape) .f32)
    (hz : ∀ i, IsReal (zero i)) (src dst : IVec si w) :
    FinPres (fun x => at2 (addf (un2 x) (Host.scatterAdd sd zero dst (Host.gather gd (un2 x) src)))) := by
  intro x hx i l
  have hux : ∀ j, IsReal (un2 x j) := fun j => hx (j 0) (j 1)
  have hg := isReal_gather gd (un2 x) src hux
  have hs := isReal_hostScatterAdd sd zero dst _ hz hg
  exact (hux (ValueIdx.ix2 i l)).add (hs (ValueIdx.ix2 i l))

end Cert.Math

end
-- ==== Proof.PreReal.lean ====
/- From the precondition to real entries. The precondition is the conjunction, over the twenty
   float arguments, of "every entry's absolute value is below +∞"; each conjunct is a reduction by
   `and` of the entrywise comparisons. A conjunction that is 1 has every conjunct 1, a reduction by
   `and` that is 1 met only 1s, and an extended real whose absolute value is below `⊤` is neither
   infinity: it is a real. -/
import proofs.«413302_j72232759984513_1_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws
import proofs.«413302_j72232759984513_1_alg».proof.Proof.Math.Fin

noncomputable section

namespace Cert.Math

open Idealize.ShloMosaic Cert.Pre_finite_inputs

/-- A rank-0 shape has one index. -/
instance subsingleton_idx0 : Subsingleton (⟨0, ![]⟩ : Shape).Idx := ⟨fun a b => funext fun d => d.elim0⟩

/-- The pattern `0x7F800000` denotes `+∞`. -/
theorem ofBits_inf : Ideal.ofBits .f32 0x7F800000#32 = ⊤ := by
  simp [Ideal.ofBits, Ideal.ieee]

/-- An extended real whose absolute value compares below `+∞` is a real: at either infinity the
    absolute value is `⊤`, which is not below `⊤`. -/
theorem isReal_of_abs_lt_inf (x : EReal)
    (h : Ideal.cmp .olt (max x (-x)) (Ideal.ofBits .f32 0x7F800000#32) = 1#1) : IsReal x := by
  rw [ofBits_inf] at h
  induction x using EReal.rec with
  | bot => simp [Ideal.cmp] at h
  | coe r => exact ⟨r, rfl⟩
  | top => simp [Ideal.cmp] at h

/-- One conjunct of the precondition: if the reduction by `and` of `|x| < +∞` over all of `x` is 1,
    every entry of `x` is real. -/
theorem isReal_of_all {s : Shape} {axes : List (Fin s.rank)}
    (hb : S_.BroadcastsInDim s (![] : Fin 0 → Fin s.rank)) (hr : s.ReducesTo axes S_) (hu : 0 < S_.numel)
    (x : FVec Ideal s .f32) (init : IVec S_ 1)
    (e : Host.reduce IntOp.andi
        (cmpf .olt (Host.absf x) (broadcastInDim s ![] hb (constant S_ .f32 0x7F800000#32))) init hr hu
        ValueIdx.ix0 = 1#1) :
    ∀ i, IsReal (x i) := by
  intro i
  have hi := Host.reduce_andi_all _ init hr hu _ e i
  exact isReal_of_abs_lt_inf (x i) hi

/-- Under the precondition every entry of every float argument is real. -/
theorem real_of_pre [Cert.Pre_finite_inputs.Facts]
    (a0 : FVec Ideal S100000x64 .f32) (a1 : IVec S2x1280000 32) (a2 : IVec S100000 32)
    (a3 : FVec Ideal S100000x64 .f32) (a4 : IVec S2x1280000 32) (a5 : IVec S100000 32)
    (a6 : FVec Ideal S64x128 .f32) (a7 : FVec Ideal S128 .f32) (a8 : FVec Ideal S128 .f32)
    (a9 : FVec Ideal S128 .f32) (a10 : FVec Ideal S128x128 .f32) (a11 : FVec Ideal S128 .f32)
    (a12 : FVec Ideal S128 .f32) (a13 : FVec Ideal S128 .f32) (a14 : FVec Ideal S128x128 .f32)
    (a15 : FVec Ideal S128 .f32) (a16 : FVec Ideal S128 .f32) (a17 : FVec Ideal S128 .f32)
    (a18 : FVec Ideal S128x64 .f32) (a19 : FVec Ideal S64 .f32) (a20 : FVec Ideal S64x64 .f32)
    (a21 : FVec Ideal S64 .f32) (a22 : FVec Ideal S64x1 .f32) (a23 : FVec Ideal S1 .f32)
    (h : Cert.Pre_finite_inputs.fn (F := Ideal) a0 a1 a2 a3 a4 a5 a6 a7 a8 a9 a10 a11 a12 a13 a14 a15 a16 a17 a18 a19 a20 a21 a22 a23 = fun _ => 1#1) :
    (∀ i, IsReal (a0 i)) ∧
      (∀ i, IsReal (a3 i)) ∧
      (∀ i, IsReal (a6 i)) ∧
      (∀ i, IsReal (a7 i)) ∧
      (∀ i, IsReal (a8 i)) ∧
      (∀ i, IsReal (a9 i)) ∧
      (∀ i, IsReal (a10 i)) ∧
      (∀ i, IsReal (a11 i)) ∧
      (∀ i, IsReal (a12 i)) ∧
      (∀ i, IsReal (a13 i)) ∧
      (∀ i, IsReal (a14 i)) ∧
      (∀ i, IsReal (a15 i)) ∧
      (∀ i, IsReal (a16 i)) ∧
      (∀ i, IsReal (a17 i)) ∧
      (∀ i, IsReal (a18 i)) ∧
      (∀ i, IsReal (a19 i)) ∧
      (∀ i, IsReal (a20 i)) ∧
      (∀ i, IsReal (a21 i)) ∧
      (∀ i, IsReal (a22 i)) ∧
      (∀ i, IsReal (a23 i)) := by
  have h0 := congrFun h ValueIdx.ix0
  dsimp only [fn, fn_part1, fn_part2, fn_part3, fn_part4, fn_part5, Idealize.ShloMosaic.andi] at h0
  simp only [IntOp.andi_eq_one, and_assoc] at h0
  obtain ⟨e0, e3, e6, e7, e8, e9, e10, e11, e12, e13, e14, e15, e16, e17, e18, e19, e20, e21, e22, e23⟩ := h0
  exact ⟨isReal_of_all _ _ _ a0 _ e0,
    isReal_of_all _ _ _ a3 _ e3,
    isReal_of_all _ _ _ a6 _ e6,
    isReal_of_all _ _ _ a7 _ e7,
    isReal_of_all _ _ _ a8 _ e8,
    isReal_of_all _ _ _ a9 _ e9,
    isReal_of_all _ _ _ a10 _ e10,
    isReal_of_all _ _ _ a11 _ e11,
    isReal_of_all _ _ _ a12 _ e12,
    isReal_of_all _ _ _ a13 _ e13,
    isReal_of_all _ _ _ a14 _ e14,
    isReal_of_all _ _ _ a15 _ e15,
    isReal_of_all _ _ _ a16 _ e16,
    isReal_of_all _ _ _ a17 _ e17,
    isReal_of_all _ _ _ a18 _ e18,
    isReal_of_all _ _ _ a19 _ e19,
    isReal_of_all _ _ _ a20 _ e20,
    isReal_of_all _ _ _ a21 _ e21,
    isReal_of_all _ _ _ a22 _ e22,
    isReal_of_all _ _ _ a23 _ e23⟩

end Cert.Math

end
-- ==== Proof.Alg.lean ====
/- The algebraic claim. At the ideal instance both programs run; the kernel program's result array
   is, entry by entry, the model's value with the variance spelt as the mean of squares minus the
   squared mean, the reference's the same value with the variance spelt by centred squares. The
   precondition makes every float argument real, the edge aggregation keeps arrays real, and on
   real arrays the two spellings agree; the argument arrays agree by hypothesis and the two
   programs' aggregations are one function. -/
import proofs.«413302_j72232759984513_1_alg».proof.Defs
import proofs.«413302_j72232759984513_1_alg».proof.Proof.Gen.KernelIdeal
import proofs.«413302_j72232759984513_1_alg».proof.Proof.Gen.ReferenceIdeal
import proofs.«413302_j72232759984513_1_alg».proof.Proof.Gen.Pre_finite_inputs
import proofs.«413302_j72232759984513_1_alg».proof.Proof.KI.HostStages
import proofs.«413302_j72232759984513_1_alg».proof.Proof.KI.Run
import proofs.«413302_j72232759984513_1_alg».proof.Proof.KI.Value
import proofs.«413302_j72232759984513_1_alg».proof.Proof.Ref.Stages
import proofs.«413302_j72232759984513_1_alg».proof.Proof.Ref.Run
import proofs.«413302_j72232759984513_1_alg».proof.Proof.Ref.Value
import proofs.«413302_j72232759984513_1_alg».proof.Proof.Math.Spec
import proofs.«413302_j72232759984513_1_alg».proof.Proof.Math.Fin
import proofs.«413302_j72232759984513_1_alg».proof.Proof.Math.AggFin
import proofs.«413302_j72232759984513_1_alg».proof.Proof.Math.Model
import proofs.«413302_j72232759984513_1_alg».proof.Proof.PreReal
import Idealize.ShloMosaic.Lib.ValueIdx

noncomputable section

namespace Cert.Proof.Alg

open Idealize.ShloMosaic Idealize.ShloMosaic.TcCoe Idealize.SL.Sem Cert.Math

/-- The two programs' edge aggregations are one function: the same operations over equal dimension records. -/
theorem agg64_eq : Cert.ReferenceIdeal.Hand.aggR64 = Cert.KernelIdeal.Hand.aggK64 := rfl

/-- The same at width 128. -/
theorem agg128_eq : Cert.ReferenceIdeal.Hand.aggR128 = Cert.KernelIdeal.Hand.aggK128 := rfl

/-- The aggregation at width 64 keeps real arrays real, whatever the edge list. -/
theorem finPres_aggK64 (ei : I2 2 1280000) :
    FinPres (fun y => at2 (Cert.KernelIdeal.Hand.aggK64 (un2 y) ei)) :=
  finPres_agg _ _ _ (isReal_bcast_zero _) _ _

/-- The aggregation at width 128 keeps real arrays real, whatever the edge list. -/
theorem finPres_aggK128 (ei : I2 2 1280000) :
    FinPres (fun y => at2 (Cert.KernelIdeal.Hand.aggK128 (un2 y) ei)) :=
  finPres_agg _ _ _ (isReal_bcast_zero _) _ _

/-- On one device, from argument arrays that agree and satisfy the precondition, the reference's result array is the
    kernel program's: entry by entry both are the model's value, the reference with the centred-squares variance, the
    kernel program with the mean of squares minus the squared mean, equal on real arrays. -/
theorem result_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) = fun _ => 1#1)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) :
    StableHlo.after (Cert.ReferenceIdeal.Hand.ops (F := Ideal)) (fun b => m' (c, b)) (Proc.devRef .tc Cert.ReferenceIdeal.main_v266)
      = Cert.KernelIdeal.Hand.W30 m c (Proc.devRef .tc Cert.KernelIdeal.main_v166) := by
  obtain ⟨e0, e1, e2, e3, e4, e5, e6, e7, e8, e9, e10, e11, e12, e13, e14, e15, e16, e17, e18, e19, e20, e21, e22, e23⟩ := hagree
  refine funext fun (j : (⟨2, ![256, 1]⟩ : Shape).Idx) => ?_
  have h1 : j 1 = (0 : Fin 1) := Fin.ext (Nat.lt_one_iff.mp (ValueIdx.idx2_lt1 j))
  have hj : j = ValueIdx.ix2 (j 0) 0 := (ValueIdx.eq_ix2 j).trans (congrArg (ValueIdx.ix2 (j 0)) h1)
  rw [hj]
  refine (Cert.ReferenceIdeal.Hand.ref_value m' c (j 0)).trans ?_
  refine Eq.trans ?_ (Cert.KernelIdeal.Hand.kernel_value m c (j 0)).symm
  rw [agg64_eq, agg128_eq]
  refine (congrFun (model_congr _ _ _ _ _ _ _ _ _ _ _ _ _ _ _ _ _ _ _ _ _ _ _ _ _ _ _ _ _ _ _ _ _ _ _ _ _ _ _ _ _ _ _ _ _ _ _ _ _ _ _ e0 e1 e2 e3 e4 e5 e6 e7 e8 e9 e10 e11 e12 e13 e14 e15 e16 e17 e18 e19 e20 e21 e22 e23) (j 0)).trans ?_
  exact (congrFun (model_eq _ finPres_aggK64 _ finPres_aggK128 _ _ _ _ _ _ _ _ _ _ _ _ _ _ _ _ _ _ _ _ _ _ _ _ (real_of_pre _ _ _ _ _ _ _ _ _ _ _ _ _ _ _ _ _ _ _ _ _ _ _ _ hpre)) (j 0)).symm

/-- At the ideal instance, from memories agreeing on the arguments and satisfying the precondition, both programs run,
    end with equal result arrays and leave the arguments unchanged. -/
theorem algebraic : Cert.algebraic_KernelIdeal_ReferenceIdeal := by
  intro m g m' g' hpre hagree
  refine ⟨fun c => Cert.KernelIdeal.Hand.W30 m c (Proc.devRef .tc Cert.KernelIdeal.main_v166),
    Cert.KernelIdeal.Hand.result_read m g, ?_⟩
  refine (θ_run Cert.ReferenceIdeal.defs _ _).mono (fun _ h c => ⟨(h c).1.trans ?_, (h c).2⟩)
    (Cert.ReferenceIdeal.Hand.run (F := Ideal) m' g')
  exact result_eq m m' c (hpre c) (hagree c)

end Cert.Proof.Alg

end
-- ==== Proof.lean ====
/-
  The certificate of the siamese three-layer graph encoder: fifteen kernel regions (per side: three linear layers
  with column sums and sums of squares, three normalise-scale-shift-clip steps, one mean-pool with embedding; then the
  classifier) against a reference written with whole-array sums.

  Frames. Each kernel program's run is the chain of its host stretches and kernel regions: every region is entered
  with all unscoped buffers at a named valuation and left with its output arrays at what its grid points wrote back;
  the arguments are written by nobody. The reference is a host-only program: its run is the composition of its
  operations.

  Value. At the exact instance both programs compute one function of the arguments. The only law that is not a
  rearrangement of sums is the variance: the kernel normalises with the mean of the squares minus the squared mean, the
  reference with the mean of the centred squares; they agree on real entries, and the precondition (every float input
  finite) keeps every layer's entries real. The pooled segment sums are a one-hot product on one side and a scatter
  of rows on the other: the same filtered sum.
-/
import proofs.«413302_j72232759984513_1_alg».proof.Defs
import proofs.«413302_j72232759984513_1_alg».proof.Proof.Gen.Kernel
import proofs.«413302_j72232759984513_1_alg».proof.Proof.Gen.KernelIdeal
import proofs.«413302_j72232759984513_1_alg».proof.Proof.Gen.ReferenceIdeal
import proofs.«413302_j72232759984513_1_alg».proof.Proof.Gen.Pre_finite_inputs
import proofs.«413302_j72232759984513_1_alg».proof.Proof.K.Run
import proofs.«413302_j72232759984513_1_alg».proof.Proof.KI.Run
import proofs.«413302_j72232759984513_1_alg».proof.Proof.Ref.Run
import proofs.«413302_j72232759984513_1_alg».proof.Proof.Alg

noncomputable section

namespace Cert.Proof

open Idealize.ShloMosaic Idealize.SL.Sem

/-- The word-level kernel program runs and leaves its arguments as launched. -/
theorem frame_k : Cert.frame_Kernel := fun m ρ _ => Cert.Kernel.Hand.frame (F := Bits) m ρ

/-- So does the idealized kernel program. -/
theorem frame_ki : Cert.frame_KernelIdeal := fun m ρ _ => Cert.KernelIdeal.Hand.frame (F := Ideal) m ρ

/-- The reference's run with the result dropped. -/
theorem frame_ri : Cert.frame_ReferenceIdeal := fun m ρ _ =>
  (θ_run Cert.ReferenceIdeal.defs _ _).mono (fun _ h c => (h c).2) (Cert.ReferenceIdeal.Hand.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Proof.Alg.algebraic⟩

end Cert.Proof

end
